-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v783)) (v1 : (c : Dev Cert.KernelIdeal.nD) → Buf (Elt Ideal) ((c.tc : Thread Cert.KernelIdeal.nD Cert.KernelIdeal.τ).loc Cert.KernelIdeal.main_v790)) (v2 : (c : Dev Cert.KernelIdeal.nD) → Buf (Elt Ideal) ((c.tc : Thread Cert.KernelIdeal.nD Cert.KernelIdeal.τ).loc Cert.KernelIdeal.main_v797)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v783) = v0 c
          ∧ r.2.mem ((c.tc : Thread Cert.KernelIdeal.nD Cert.KernelIdeal.τ).loc Cert.KernelIdeal.main_v790) = v1 c
          ∧ r.2.mem ((c.tc : Thread Cert.KernelIdeal.nD Cert.KernelIdeal.τ).loc Cert.KernelIdeal.main_v797) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v852) = v0 c
          ∧ r.2.mem ((c.tc : Thread Cert.ReferenceIdeal.nD Cert.ReferenceIdeal.τ).loc Cert.ReferenceIdeal.main_v880) = v1 c
          ∧ r.2.mem ((c.tc : Thread Cert.ReferenceIdeal.nD Cert.ReferenceIdeal.τ).loc Cert.ReferenceIdeal.main_v908) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S60000x128 : Shape := ⟨2, ![60000, 128]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S6x128x64 : Shape := ⟨3, ![6, 128, 64]⟩
abbrev S6x64 : Shape := ⟨2, ![6, 64]⟩
abbrev S3x128 : Shape := ⟨2, ![3, 128]⟩
abbrev S3x64 : Shape := ⟨2, ![3, 64]⟩
abbrev S2x500000 : Shape := ⟨2, ![2, 500000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S60000x128 : S_.BroadcastsInDim S60000x128 (![] : Fin 0 → Fin S60000x128.rank)
  reducesTo_S60000x128_S_d0_1 : S60000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S6x128x64 : S_.BroadcastsInDim S6x128x64 (![] : Fin 0 → Fin S6x128x64.rank)
  reducesTo_S6x128x64_S_d0_1_2 : S6x128x64.ReducesTo [0, 1, 2] S_
  bcast_S_S6x64 : S_.BroadcastsInDim S6x64 (![] : Fin 0 → Fin S6x64.rank)
  reducesTo_S6x64_S_d0_1 : S6x64.ReducesTo [0, 1] S_
  bcast_S_S3x128 : S_.BroadcastsInDim S3x128 (![] : Fin 0 → Fin S3x128.rank)
  reducesTo_S3x128_S_d0_1 : S3x128.ReducesTo [0, 1] S_
  bcast_S_S3x64 : S_.BroadcastsInDim S3x64 (![] : Fin 0 → Fin S3x64.rank)
  reducesTo_S3x64_S_d0_1 : S3x64.ReducesTo [0, 1] S_

variable [Facts]

def fn_part4 {F : FTy → Type} [FloatOps F] (main_arg14 : FVec F S3x128 .f32) (main_arg15 : FVec F S3x64 .f32) (main_arg16 : FVec F S3x64 .f32) (main_v63 : IVec S_ 1) (main_v67 : IVec S_ 1) : IVec S_ 1 :=
  let main_v68 : IVec S_ 1 := andi main_v63 main_v67
  let main_v69 : FVec F S3x128 .f32 := Host.absf main_arg14
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x64 .f32 := Host.absf main_arg15
  let main_cst_28 : FVec F S_ .f32 := constant S_ .f32 0x7F800000#32
  let main_v75 : FVec F S3x64 .f32 := broadcastInDim S3x64 ![] bcast_S_S3x64 main_cst_28
  let main_v76 : IVec S3x64 1 := cmpf .olt main_v74 main_v75
  let main_c_29 : IVec S_ 1 := constantI S_ 1 1#1
  let main_v77 : IVec S_ 1 := (fun x v => Host.reduce IntOp.andi x v reducesTo_S3x64_S_d0_1 h_S_) main_v76 main_c_29
  let main_v78 : IVec S_ 1 := andi main_v73 main_v77
  let main_v79 : FVec F S3x64 .f32 := Host.absf main_arg16
  let main_cst_30 : FVec F S_ .f32 := constant S_ .f32 0x7F800000#32
  let main_v80 : FVec F S3x64 .f32 := broadcastInDim S3x64 ![] bcast_S_S3x64 main_cst_30
  let main_v81 : IVec S3x64 1 := cmpf .olt main_v79 main_v80
  let main_c_31 : IVec S_ 1 := constantI S_ 1 1#1
  let main_v82 : IVec S_ 1 := (fun x v => Host.reduce IntOp.andi x v reducesTo_S3x64_S_d0_1 h_S_) main_v81 main_c_31
  let main_v83 : IVec S_ 1 := andi main_v78 main_v82
  main_v83

def fn_part3 {F : FTy → Type} [FloatOps F] (main_arg11 : FVec F S6x128x64 .f32) (main_arg12 : FVec F S6x64 .f32) (main_arg13 : FVec F S3x128 .f32) (main_arg14 : FVec F S3x128 .f32) (main_arg15 : FVec F S3x64 .f32) (main_arg16 : FVec F S3x64 .f32) (main_v48 : IVec S_ 1) (main_v49 : FVec F S6x128 .f32) (main_v50 : FVec F S6x128 .f32) : IVec S_ 1 :=
  let main_v51 : IVec S6x128 1 := cmpf .olt main_v49 main_v50
  let main_c_19 : IVec S_ 1 := constantI S_ 1 1#1
  let main_v52 : IVec S_ 1 := (fun x v => Host.reduce IntOp.andi x v reducesTo_S6x128_S_d0_1 h_S_) main_v51 main_c_19
  let main_v53 : IVec S_ 1 := andi main_v48 main_v52
  let main_v54 : FVec F S6x128x64 .f32 := Host.absf main_arg11
  let main_cst_20 : FVec F S_ .f32 := constant S_ .f32 0x7F800000#32
  let main_v55 : FVec F S6x128x64 .f32 := broadcastInDim S6x128x64 ![] bcast_S_S6x128x64 main_cst_20
  let main_v56 : IVec S6x128x64 1 := cmpf .olt main_v54 main_v55
  let main_c_21 : IVec S_ 1 := constantI S_ 1 1#1
  let main_v57 : IVec S_ 1 := (fun x v => Host.reduce IntOp.andi x v reducesTo_S6x128x64_S_d0_1_2 h_S_) main_v56 main_c_21
  let main_v58 : IVec S_ 1 := andi main_v53 main_v57
  let main_v59 : FVec F S6x64 .f32 := Host.absf main_arg12
  let main_cst_22 : FVec F S_ .f32 := constant S_ .f32 0x7F800000#32
  let main_v60 : FVec F S6x64 .f32 := broadcastInDim S6x64 ![] bcast_S_S6x64 main_cst_22
  let main_v61 : IVec S6x64 1 := cmpf .olt main_v59 main_v60
  let main_c_23 : IVec S_ 1 := constantI S_ 1 1#1
  let main_v62 : IVec S_ 1 := (fun x v => Host.reduce IntOp.andi x v reducesTo_S6x64_S_d0_1 h_S_) main_v61 main_c_23
  let main_v63 : IVec S_ 1 := andi main_v58 main_v62
  let main_v64 : FVec F S3x128 .f32 := Host.absf main_arg13
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg14 main_arg15 main_arg16 main_v63 main_v67

def fn_part2 {F : FTy → Type} [FloatOps F] (main_arg7 : FVec F S128x128 .f32) (main_arg8 : FVec F S128 .f32) (main_arg9 : FVec F S6x128x128 .f32) (main_arg10 : FVec F S6x128 .f32) (main_arg11 : FVec F S6x128x64 .f32) (main_arg12 : FVec F S6x64 .f32) (main_arg13 : FVec F S3x128 .f32) (main_arg14 : FVec F S3x128 .f32) (main_arg15 : FVec F S3x64 .f32) (main_arg16 : FVec F S3x64 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S6x128x128 .f32 := Host.absf main_arg9
  let main_cst_16 : FVec F S_ .f32 := constant S_ .f32 0x7F800000#32
  let main_v45 : FVec F S6x128x128 .f32 := broadcastInDim S6x128x128 ![] bcast_S_S6x128x128 main_cst_16
  let main_v46 : IVec S6x128x128 1 := cmpf .olt main_v44 main_v45
  let main_c_17 : IVec S_ 1 := constantI S_ 1 1#1
  let main_v47 : IVec S_ 1 := (fun x v => Host.reduce IntOp.andi x v reducesTo_S6x128x128_S_d0_1_2 h_S_) main_v46 main_c_17
  let main_v48 : IVec S_ 1 := andi main_v43 main_v47
  let main_v49 : FVec F S6x128 .f32 := Host.absf main_arg10
  let main_cst_18 : FVec F S_ .f32 := constant S_ .f32 0x7F800000#32
  let main_v50 : FVec F S6x128 .f32 := broadcastInDim S6x128 ![] bcast_S_S6x128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S6x128x128 .f32) (main_arg10 : FVec F S6x128 .f32) (main_arg11 : FVec F S6x128x64 .f32) (main_arg12 : FVec F S6x64 .f32) (main_arg13 : FVec F S3x128 .f32) (main_arg14 : FVec F S3x128 .f32) (main_arg15 : FVec F S3x64 .f32) (main_arg16 : FVec F S3x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S20000x128 .f32) (main_arg1 : FVec F S60000x128 .f32) (main_arg2 : FVec F S20000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S6x128x128 .f32) (main_arg10 : FVec F S6x128 .f32) (main_arg11 : FVec F S6x128x64 .f32) (main_arg12 : FVec F S6x64 .f32) (main_arg13 : FVec F S3x128 .f32) (main_arg14 : FVec F S3x128 .f32) (main_arg15 : FVec F S3x64 .f32) (main_arg16 : FVec F S3x64 .f32) (main_arg17 : IVec S2x500000 32) (main_arg18 : IVec S2x500000 32) (main_arg19 : IVec S2x500000 32) (main_arg20 : IVec S2x500000 32) (main_arg21 : IVec S2x500000 32) (main_arg22 : IVec S2x500000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S60000x128 .f32 := Host.absf main_arg1
  let main_cst_0 : FVec F S_ .f32 := constant S_ .f32 0x7F800000#32
  let main_v5 : FVec F S60000x128 .f32 := broadcastInDim S60000x128 ![] bcast_S_S60000x128 main_cst_0
  let main_v6 : IVec S60000x128 1 := cmpf .olt main_v4 main_v5
  let main_c_1 : IVec S_ 1 := constantI S_ 1 1#1
  let main_v7 : IVec S_ 1 := (fun x v => Host.reduce IntOp.andi x v reducesTo_S60000x128_S_d0_1 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S20000x128 : Shape := ⟨2, ![20000, 128]⟩
abbrev S60000x128 : Shape := ⟨2, ![60000, 128]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S6x128x64 : Shape := ⟨3, ![6, 128, 64]⟩
abbrev S6x64 : Shape := ⟨2, ![6, 64]⟩
abbrev S3x128 : Shape := ⟨2, ![3, 128]⟩
abbrev S3x64 : Shape := ⟨2, ![3, 64]⟩
abbrev S2x500000 : Shape := ⟨2, ![2, 500000]⟩
abbrev S1x128 : Shape := ⟨2, ![1, 128]⟩
abbrev S4000x128 : Shape := ⟨2, ![4000, 128]⟩
abbrev S_ : Shape := ⟨0, ![]⟩
abbrev S1x128x128 : Shape := ⟨3, ![1, 128, 128]⟩
abbrev S1x500000 : Shape := ⟨2, ![1, 500000]⟩
abbrev S500000 : Shape := ⟨1, ![500000]⟩
abbrev S20000 : Shape := ⟨1, ![20000]⟩
abbrev S500000x1 : Shape := ⟨2, ![500000, 1]⟩
abbrev S500000x128 : Shape := ⟨2, ![500000, 128]⟩
abbrev S60000 : Shape := ⟨1, ![60000]⟩
abbrev S4000 : Shape := ⟨1, ![4000]⟩
abbrev S4000x1 : Shape := ⟨2, ![4000, 1]⟩
abbrev S20000x64 : Shape := ⟨2, ![20000, 64]⟩
abbrev S60000x64 : Shape := ⟨2, ![60000, 64]⟩
abbrev S64 : Shape := ⟨1, ![64]⟩
abbrev S1x128x64 : Shape := ⟨3, ![1, 128, 64]⟩
abbrev S128x64 : Shape := ⟨2, ![128, 64]⟩
abbrev S1x64 : Shape := ⟨2, ![1, 64]⟩
abbrev S4000x64 : Shape := ⟨2, ![4000, 64]⟩
abbrev S500000x64 : Shape := ⟨2, ![500000, 64]⟩

abbrev nBuf : Space → Nat
  | .hbm => 1079
  | .vmem => 126
  | .smem => 0
  | _ => 0

abbrev hbmTy0_0 (i : Nat) : BufTy := match i % 128 with
  | 0 => ⟨S20000x128, .f32⟩
  | 1 => ⟨S60000x128, .f32⟩
  | 2 => ⟨S20000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S6x128x128, .f32⟩
  | 10 => ⟨S6x128, .f32⟩
  | 11 => ⟨S6x128x64, .f32⟩
  | 12 => ⟨S6x64, .f32⟩
  | 13 => ⟨S3x128, .f32⟩
  | 14 => ⟨S3x128, .f32⟩
  | 15 => ⟨S3x64, .f32⟩
  | 16 => ⟨S3x64, .f32⟩
  | 17 => ⟨S2x500000, .i32⟩
  | 18 => ⟨S2x500000, .i32⟩
  | 19 => ⟨S2x500000, .i32⟩
  | 20 => ⟨S2x500000, .i32⟩
  | 21 => ⟨S2x500000, .i32⟩
  | 22 => ⟨S2x500000, .i32⟩
  | 23 => ⟨S1x128, .f32⟩
  | 24 => ⟨S20000x128, .f32⟩
  | 25 => ⟨S1x128, .f32⟩
  | 26 => ⟨S60000x128, .f32⟩
  | 27 => ⟨S1x128, .f32⟩
  | 28 => ⟨S20000x128, .f32⟩
  | 29 => ⟨S_, .f32⟩
  | 30 => ⟨S20000x128, .f32⟩
  | 31 => ⟨S_, .f32⟩
  | 32 => ⟨S60000x128, .f32⟩
  | 33 => ⟨S_, .f32⟩
  | 34 => ⟨S20000x128, .f32⟩
  | 35 => ⟨S_, .f32⟩
  | 36 => ⟨S128, .f32⟩
  | 37 => ⟨S1x128x128, .f32⟩
  | 38 => ⟨S128x128, .f32⟩
  | 39 => ⟨S1x128, .f32⟩
  | 40 => ⟨S20000x128, .f32⟩
  | 41 => ⟨S1x128, .f32⟩
  | 42 => ⟨S128, .f32⟩
  | 43 => ⟨S1x500000, .i32⟩
  | 44 => ⟨S500000, .i32⟩
  | 45 => ⟨S1x500000, .i32⟩
  | 46 => ⟨S500000, .i32⟩
  | 47 => ⟨S_, .f32⟩
  | 48 => ⟨S500000, .f32⟩
  | 49 => ⟨S_, .f32⟩
  | 50 => ⟨S20000, .f32⟩
  | 51 => ⟨S500000x1, .i32⟩
  | 52 => ⟨S20000, .f32⟩
  | 53 => ⟨S_, .f32⟩
  | 54 => ⟨S20000, .f32⟩
  | 55 => ⟨S500000x1, .i32⟩
  | 56 => ⟨S20000, .f32⟩
  | 57 => ⟨S_, .f32⟩
  | 58 => ⟨S20000, .f32⟩
  | 59 => ⟨S20000, .i1⟩
  | 60 => ⟨S_, .f32⟩
  | 61 => ⟨S20000, .f32⟩
  | 62 => ⟨S20000, .f32⟩
  | 63 => ⟨S20000, .f32⟩
  | 64 => ⟨S_, .f32⟩
  | 65 => ⟨S_, .f32⟩
  | 66 => ⟨S20000, .f32⟩
  | 67 => ⟨S20000, .f32⟩
  | 68 => ⟨S_, .f32⟩
  | 69 => ⟨S20000, .f32⟩
  | 70 => ⟨S20000, .i1⟩
  | 71 => ⟨S_, .f32⟩
  | 72 => ⟨S20000, .f32⟩
  | 73 => ⟨S20000, .f32⟩
  | 74 => ⟨S20000, .f32⟩
  | 75 => ⟨S_, .f32⟩
  | 76 => ⟨S_, .f32⟩
  | 77 => ⟨S20000, .f32⟩
  | 78 => ⟨S20000, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000, .f32⟩
  | 97 => ⟨S500000, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S500000x1, .f32⟩
  | 108 => ⟨S500000x128, .f32⟩
  | 109 => ⟨S500000x128, .f32⟩
  | 110 => ⟨S_, .f32⟩
  | 111 => ⟨S20000x128, .f32⟩
  | 112 => ⟨S500000x1, .i32⟩
  | 113 => ⟨S20000x128, .f32⟩
  | 114 => ⟨S1x128, .f32⟩
  | 115 => ⟨S20000x128, .f32⟩
  | 116 => ⟨S20000x128, .f32⟩
  | 117 => ⟨S20000x128, .f32⟩
  | 118 => ⟨S_, .f32⟩
  | 119 => ⟨S128, .f32⟩
  | 120 => ⟨S1x128x128, .f32⟩
  | 121 => ⟨S128x128, .f32⟩
  | 122 => ⟨S1x128, .f32⟩
  | 123 => ⟨S20000x128, .f32⟩
  | 124 => ⟨S1x128, .f32⟩
  | 125 => ⟨S128, .f32⟩
  | 126 => ⟨S1x500000, .i32⟩
  | 127 => ⟨S500000, .i32⟩
  | _ => ⟨S20000x128, .f32⟩

abbrev hbmTy0_1 (i : Nat) : BufTy := match i % 128 with
  | 0 => ⟨S1x500000, .i32⟩
  | 1 => ⟨S500000, .i32⟩
  | 2 => ⟨S_, .f32⟩
  | 3 => ⟨S500000, .f32⟩
  | 4 => ⟨S_, .f32⟩
  | 5 => ⟨S20000, .f32⟩
  | 6 => ⟨S500000x1, .i32⟩
  | 7 => ⟨S20000, .f32⟩
  | 8 => ⟨S_, .f32⟩
  | 9 => ⟨S60000, .f32⟩
  | 10 => ⟨S500000x1, .i32⟩
  | 11 => ⟨S60000, .f32⟩
  | 12 => ⟨S_, .f32⟩
  | 13 => ⟨S20000, .f32⟩
  | 14 => ⟨S20000, .i1⟩
  | 15 => ⟨S_, .f32⟩
  | 16 => ⟨S20000, .f32⟩
  | 17 => ⟨S20000, .f32⟩
  | 18 => ⟨S20000, .f32⟩
  | 19 => ⟨S_, .f32⟩
  | 20 => ⟨S_, .f32⟩
  | 21 => ⟨S20000, .f32⟩
  | 22 => ⟨S20000, .f32⟩
  | 23 => ⟨S_, .f32⟩
  | 24 => ⟨S60000, .f32⟩
  | 25 => ⟨S60000, .i1⟩
  | 26 => ⟨S_, .f32⟩
  | 27 => ⟨S60000, .f32⟩
  | 28 => ⟨S60000, .f32⟩
  | 29 => ⟨S60000, .f32⟩
  | 30 => ⟨S_, .f32⟩
  | 31 => ⟨S_, .f32⟩
  | 32 => ⟨S60000, .f32⟩
  | 33 => ⟨S60000, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000, .f32⟩
  | 52 => ⟨S500000, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S500000x1, .f32⟩
  | 63 => ⟨S500000x128, .f32⟩
  | 64 => ⟨S500000x128, .f32⟩
  | 65 => ⟨S_, .f32⟩
  | 66 => ⟨S60000x128, .f32⟩
  | 67 => ⟨S500000x1, .i32⟩
  | 68 => ⟨S60000x128, .f32⟩
  | 69 => ⟨S1x128, .f32⟩
  | 70 => ⟨S60000x128, .f32⟩
  | 71 => ⟨S60000x128, .f32⟩
  | 72 => ⟨S60000x128, .f32⟩
  | 73 => ⟨S_, .f32⟩
  | 74 => ⟨S128, .f32⟩
  | 75 => ⟨S1x128x128, .f32⟩
  | 76 => ⟨S128x128, .f32⟩
  | 77 => ⟨S1x128, .f32⟩
  | 78 => ⟨S60000x128, .f32⟩
  | 79 => ⟨S1x128, .f32⟩
  | 80 => ⟨S128, .f32⟩
  | 81 => ⟨S1x500000, .i32⟩
  | 82 => ⟨S500000, .i32⟩
  | 83 => ⟨S1x500000, .i32⟩
  | 84 => ⟨S500000, .i32⟩
  | 85 => ⟨S_, .f32⟩
  | 86 => ⟨S500000, .f32⟩
  | 87 => ⟨S_, .f32⟩
  | 88 => ⟨S60000, .f32⟩
  | 89 => ⟨S500000x1, .i32⟩
  | 90 => ⟨S60000, .f32⟩
  | 91 => ⟨S_, .f32⟩
  | 92 => ⟨S20000, .f32⟩
  | 93 => ⟨S500000x1, .i32⟩
  | 94 => ⟨S20000, .f32⟩
  | 95 => ⟨S_, .f32⟩
  | 96 => ⟨S60000, .f32⟩
  | 97 => ⟨S60000, .i1⟩
  | 98 => ⟨S_, .f32⟩
  | 99 => ⟨S60000, .f32⟩
  | 100 => ⟨S60000, .f32⟩
  | 101 => ⟨S60000, .f32⟩
  | 102 => ⟨S_, .f32⟩
  | 103 => ⟨S_, .f32⟩
  | 104 => ⟨S60000, .f32⟩
  | 105 => ⟨S60000, .f32⟩
  | 106 => ⟨S_, .f32⟩
  | 107 => ⟨S20000, .f32⟩
  | 108 => ⟨S20000, .i1⟩
  | 109 => ⟨S_, .f32⟩
  | 110 => ⟨S20000, .f32⟩
  | 111 => ⟨S20000, .f32⟩
  | 112 => ⟨S20000, .f32⟩
  | 113 => ⟨S_, .f32⟩
  | 114 => ⟨S_, .f32⟩
  | 115 => ⟨S20000, .f32⟩
  | 116 => ⟨S20000, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000, .f32⟩
  | 126 => ⟨S_, .i32⟩
  | 127 => ⟨S500000, .i32⟩
  | _ => ⟨S20000x128, .f32⟩

abbrev hbmTy0_2 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000, .f32⟩
  | 7 => ⟨S500000, .f32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x128, .f32⟩
  | 17 => ⟨S500000x1, .f32⟩
  | 18 => ⟨S500000x128, .f32⟩
  | 19 => ⟨S500000x128, .f32⟩
  | 20 => ⟨S_, .f32⟩
  | 21 => ⟨S20000x128, .f32⟩
  | 22 => ⟨S500000x1, .i32⟩
  | 23 => ⟨S20000x128, .f32⟩
  | 24 => ⟨S1x128, .f32⟩
  | 25 => ⟨S20000x128, .f32⟩
  | 26 => ⟨S20000x128, .f32⟩
  | 27 => ⟨S20000x128, .f32⟩
  | 28 => ⟨S_, .f32⟩
  | 29 => ⟨S128, .f32⟩
  | 30 => ⟨S1x128x128, .f32⟩
  | 31 => ⟨S128x128, .f32⟩
  | 32 => ⟨S1x128, .f32⟩
  | 33 => ⟨S20000x128, .f32⟩
  | 34 => ⟨S1x128, .f32⟩
  | 35 => ⟨S128, .f32⟩
  | 36 => ⟨S1x500000, .i32⟩
  | 37 => ⟨S500000, .i32⟩
  | 38 => ⟨S1x500000, .i32⟩
  | 39 => ⟨S500000, .i32⟩
  | 40 => ⟨S_, .f32⟩
  | 41 => ⟨S500000, .f32⟩
  | 42 => ⟨S_, .f32⟩
  | 43 => ⟨S20000, .f32⟩
  | 44 => ⟨S500000x1, .i32⟩
  | 45 => ⟨S20000, .f32⟩
  | 46 => ⟨S_, .f32⟩
  | 47 => ⟨S20000, .f32⟩
  | 48 => ⟨S500000x1, .i32⟩
  | 49 => ⟨S20000, .f32⟩
  | 50 => ⟨S_, .f32⟩
  | 51 => ⟨S20000, .f32⟩
  | 52 => ⟨S20000, .i1⟩
  | 53 => ⟨S_, .f32⟩
  | 54 => ⟨S20000, .f32⟩
  | 55 => ⟨S20000, .f32⟩
  | 56 => ⟨S20000, .f32⟩
  | 57 => ⟨S_, .f32⟩
  | 58 => ⟨S_, .f32⟩
  | 59 => ⟨S20000, .f32⟩
  | 60 => ⟨S20000, .f32⟩
  | 61 => ⟨S_, .f32⟩
  | 62 => ⟨S20000, .f32⟩
  | 63 => ⟨S20000, .i1⟩
  | 64 => ⟨S_, .f32⟩
  | 65 => ⟨S20000, .f32⟩
  | 66 => ⟨S20000, .f32⟩
  | 67 => ⟨S20000, .f32⟩
  | 68 => ⟨S_, .f32⟩
  | 69 => ⟨S_, .f32⟩
  | 70 => ⟨S20000, .f32⟩
  | 71 => ⟨S20000, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000, .f32⟩
  | 81 => ⟨S_, .i32⟩
  | 82 => ⟨S500000, .i32⟩
  | 83 => ⟨S500000, .i1⟩
  | 84 => ⟨S_, .i32⟩
  | 85 => ⟨S500000, .i32⟩
  | 86 => ⟨S500000, .i32⟩
  | 87 => ⟨S500000, .i32⟩
  | 88 => ⟨S500000x1, .i32⟩
  | 89 => ⟨S500000, .f32⟩
  | 90 => ⟨S500000, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x128, .f32⟩
  | 100 => ⟨S500000x1, .f32⟩
  | 101 => ⟨S500000x128, .f32⟩
  | 102 => ⟨S500000x128, .f32⟩
  | 103 => ⟨S_, .f32⟩
  | 104 => ⟨S20000x128, .f32⟩
  | 105 => ⟨S500000x1, .i32⟩
  | 106 => ⟨S20000x128, .f32⟩
  | 107 => ⟨S1x128, .f32⟩
  | 108 => ⟨S20000x128, .f32⟩
  | 109 => ⟨S20000x128, .f32⟩
  | 110 => ⟨S20000x128, .f32⟩
  | 111 => ⟨S_, .f32⟩
  | 112 => ⟨S128, .f32⟩
  | 113 => ⟨S1x128x128, .f32⟩
  | 114 => ⟨S128x128, .f32⟩
  | 115 => ⟨S1x128, .f32⟩
  | 116 => ⟨S60000x128, .f32⟩
  | 117 => ⟨S1x128, .f32⟩
  | 118 => ⟨S128, .f32⟩
  | 119 => ⟨S1x500000, .i32⟩
  | 120 => ⟨S500000, .i32⟩
  | 121 => ⟨S1x500000, .i32⟩
  | 122 => ⟨S500000, .i32⟩
  | 123 => ⟨S_, .f32⟩
  | 124 => ⟨S500000, .f32⟩
  | 125 => ⟨S_, .f32⟩
  | 126 => ⟨S60000, .f32⟩
  | 127 => ⟨S500000x1, .i32⟩
  | _ => ⟨S20000x128, .f32⟩

abbrev hbmTy0_3 (i : Nat) : BufTy := match i % 128 with
  | 0 => ⟨S60000, .f32⟩
  | 1 => ⟨S_, .f32⟩
  | 2 => ⟨S20000, .f32⟩
  | 3 => ⟨S500000x1, .i32⟩
  | 4 => ⟨S20000, .f32⟩
  | 5 => ⟨S_, .f32⟩
  | 6 => ⟨S60000, .f32⟩
  | 7 => ⟨S60000, .i1⟩
  | 8 => ⟨S_, .f32⟩
  | 9 => ⟨S60000, .f32⟩
  | 10 => ⟨S60000, .f32⟩
  | 11 => ⟨S60000, .f32⟩
  | 12 => ⟨S_, .f32⟩
  | 13 => ⟨S_, .f32⟩
  | 14 => ⟨S60000, .f32⟩
  | 15 => ⟨S60000, .f32⟩
  | 16 => ⟨S_, .f32⟩
  | 17 => ⟨S20000, .f32⟩
  | 18 => ⟨S20000, .i1⟩
  | 19 => ⟨S_, .f32⟩
  | 20 => ⟨S20000, .f32⟩
  | 21 => ⟨S20000, .f32⟩
  | 22 => ⟨S20000, .f32⟩
  | 23 => ⟨S_, .f32⟩
  | 24 => ⟨S_, .f32⟩
  | 25 => ⟨S20000, .f32⟩
  | 26 => ⟨S20000, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000, .f32⟩
  | 45 => ⟨S500000, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x128, .f32⟩
  | 55 => ⟨S500000x1, .f32⟩
  | 56 => ⟨S500000x128, .f32⟩
  | 57 => ⟨S500000x128, .f32⟩
  | 58 => ⟨S_, .f32⟩
  | 59 => ⟨S20000x128, .f32⟩
  | 60 => ⟨S500000x1, .i32⟩
  | 61 => ⟨S20000x128, .f32⟩
  | 62 => ⟨S1x128, .f32⟩
  | 63 => ⟨S20000x128, .f32⟩
  | 64 => ⟨S20000x128, .f32⟩
  | 65 => ⟨S20000x128, .f32⟩
  | 66 => ⟨S_, .f32⟩
  | 67 => ⟨S128, .f32⟩
  | 68 => ⟨S1x128x128, .f32⟩
  | 69 => ⟨S128x128, .f32⟩
  | 70 => ⟨S1x128, .f32⟩
  | 71 => ⟨S20000x128, .f32⟩
  | 72 => ⟨S1x128, .f32⟩
  | 73 => ⟨S128, .f32⟩
  | 74 => ⟨S1x500000, .i32⟩
  | 75 => ⟨S500000, .i32⟩
  | 76 => ⟨S1x500000, .i32⟩
  | 77 => ⟨S500000, .i32⟩
  | 78 => ⟨S_, .f32⟩
  | 79 => ⟨S500000, .f32⟩
  | 80 => ⟨S_, .f32⟩
  | 81 => ⟨S20000, .f32⟩
  | 82 => ⟨S500000x1, .i32⟩
  | 83 => ⟨S20000, .f32⟩
  | 84 => ⟨S_, .f32⟩
  | 85 => ⟨S60000, .f32⟩
  | 86 => ⟨S500000x1, .i32⟩
  | 87 => ⟨S60000, .f32⟩
  | 88 => ⟨S_, .f32⟩
  | 89 => ⟨S20000, .f32⟩
  | 90 => ⟨S20000, .i1⟩
  | 91 => ⟨S_, .f32⟩
  | 92 => ⟨S20000, .f32⟩
  | 93 => ⟨S20000, .f32⟩
  | 94 => ⟨S20000, .f32⟩
  | 95 => ⟨S_, .f32⟩
  | 96 => ⟨S_, .f32⟩
  | 97 => ⟨S20000, .f32⟩
  | 98 => ⟨S20000, .f32⟩
  | 99 => ⟨S_, .f32⟩
  | 100 => ⟨S60000, .f32⟩
  | 101 => ⟨S60000, .i1⟩
  | 102 => ⟨S_, .f32⟩
  | 103 => ⟨S60000, .f32⟩
  | 104 => ⟨S60000, .f32⟩
  | 105 => ⟨S60000, .f32⟩
  | 106 => ⟨S_, .f32⟩
  | 107 => ⟨S_, .f32⟩
  | 108 => ⟨S60000, .f32⟩
  | 109 => ⟨S60000, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000, .f32⟩
  | _ => ⟨S20000x128, .f32⟩

abbrev hbmTy0_4 (i : Nat) : BufTy := match i % 128 with
  | 0 => ⟨S500000, .f32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000x128, .f32⟩
  | 10 => ⟨S500000x1, .f32⟩
  | 11 => ⟨S500000x128, .f32⟩
  | 12 => ⟨S500000x128, .f32⟩
  | 13 => ⟨S_, .f32⟩
  | 14 => ⟨S60000x128, .f32⟩
  | 15 => ⟨S500000x1, .i32⟩
  | 16 => ⟨S60000x128, .f32⟩
  | 17 => ⟨S1x128, .f32⟩
  | 18 => ⟨S60000x128, .f32⟩
  | 19 => ⟨S60000x128, .f32⟩
  | 20 => ⟨S60000x128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S1x128, .f32⟩
  | 27 => ⟨S20000x128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S1x128, .f32⟩
  | 34 => ⟨S60000x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S1x128, .f32⟩
  | 41 => ⟨S20000x128, .f32⟩
  | 42 => ⟨S_, .f32⟩
  | 43 => ⟨S20000x64, .f32⟩
  | 44 => ⟨S_, .f32⟩
  | 45 => ⟨S60000x64, .f32⟩
  | 46 => ⟨S_, .f32⟩
  | 47 => ⟨S20000x64, .f32⟩
  | 48 => ⟨S_, .f32⟩
  | 49 => ⟨S64, .f32⟩
  | 50 => ⟨S1x128x64, .f32⟩
  | 51 => ⟨S128x64, .f32⟩
  | 52 => ⟨S1x64, .f32⟩
  | 53 => ⟨S20000x64, .f32⟩
  | 54 => ⟨S1x64, .f32⟩
  | 55 => ⟨S64, .f32⟩
  | 56 => ⟨S1x500000, .i32⟩
  | 57 => ⟨S500000, .i32⟩
  | 58 => ⟨S1x500000, .i32⟩
  | 59 => ⟨S500000, .i32⟩
  | 60 => ⟨S_, .f32⟩
  | 61 => ⟨S500000, .f32⟩
  | 62 => ⟨S_, .f32⟩
  | 63 => ⟨S20000, .f32⟩
  | 64 => ⟨S500000x1, .i32⟩
  | 65 => ⟨S20000, .f32⟩
  | 66 => ⟨S_, .f32⟩
  | 67 => ⟨S20000, .f32⟩
  | 68 => ⟨S500000x1, .i32⟩
  | 69 => ⟨S20000, .f32⟩
  | 70 => ⟨S_, .f32⟩
  | 71 => ⟨S20000, .f32⟩
  | 72 => ⟨S20000, .i1⟩
  | 73 => ⟨S_, .f32⟩
  | 74 => ⟨S20000, .f32⟩
  | 75 => ⟨S20000, .f32⟩
  | 76 => ⟨S20000, .f32⟩
  | 77 => ⟨S_, .f32⟩
  | 78 => ⟨S_, .f32⟩
  | 79 => ⟨S20000, .f32⟩
  | 80 => ⟨S20000, .f32⟩
  | 81 => ⟨S_, .f32⟩
  | 82 => ⟨S20000, .f32⟩
  | 83 => ⟨S20000, .i1⟩
  | 84 => ⟨S_, .f32⟩
  | 85 => ⟨S20000, .f32⟩
  | 86 => ⟨S20000, .f32⟩
  | 87 => ⟨S20000, .f32⟩
  | 88 => ⟨S_, .f32⟩
  | 89 => ⟨S_, .f32⟩
  | 90 => ⟨S20000, .f32⟩
  | 91 => ⟨S20000, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000, .f32⟩
  | 110 => ⟨S500000, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x64, .f32⟩
  | 120 => ⟨S500000x1, .f32⟩
  | 121 => ⟨S500000x64, .f32⟩
  | 122 => ⟨S500000x64, .f32⟩
  | 123 => ⟨S_, .f32⟩
  | 124 => ⟨S20000x64, .f32⟩
  | 125 => ⟨S500000x1, .i32⟩
  | 126 => ⟨S20000x64, .f32⟩
  | 127 => ⟨S1x64, .f32⟩
  | _ => ⟨S20000x128, .f32⟩

abbrev hbmTy0_5 (i : Nat) : BufTy := match i % 128 with
  | 0 => ⟨S20000x64, .f32⟩
  | 1 => ⟨S20000x64, .f32⟩
  | 2 => ⟨S20000x64, .f32⟩
  | 3 => ⟨S_, .f32⟩
  | 4 => ⟨S64, .f32⟩
  | 5 => ⟨S1x128x64, .f32⟩
  | 6 => ⟨S128x64, .f32⟩
  | 7 => ⟨S1x64, .f32⟩
  | 8 => ⟨S20000x64, .f32⟩
  | 9 => ⟨S1x64, .f32⟩
  | 10 => ⟨S64, .f32⟩
  | 11 => ⟨S1x500000, .i32⟩
  | 12 => ⟨S500000, .i32⟩
  | 13 => ⟨S1x500000, .i32⟩
  | 14 => ⟨S500000, .i32⟩
  | 15 => ⟨S_, .f32⟩
  | 16 => ⟨S500000, .f32⟩
  | 17 => ⟨S_, .f32⟩
  | 18 => ⟨S20000, .f32⟩
  | 19 => ⟨S500000x1, .i32⟩
  | 20 => ⟨S20000, .f32⟩
  | 21 => ⟨S_, .f32⟩
  | 22 => ⟨S60000, .f32⟩
  | 23 => ⟨S500000x1, .i32⟩
  | 24 => ⟨S60000, .f32⟩
  | 25 => ⟨S_, .f32⟩
  | 26 => ⟨S20000, .f32⟩
  | 27 => ⟨S20000, .i1⟩
  | 28 => ⟨S_, .f32⟩
  | 29 => ⟨S20000, .f32⟩
  | 30 => ⟨S20000, .f32⟩
  | 31 => ⟨S20000, .f32⟩
  | 32 => ⟨S_, .f32⟩
  | 33 => ⟨S_, .f32⟩
  | 34 => ⟨S20000, .f32⟩
  | 35 => ⟨S20000, .f32⟩
  | 36 => ⟨S_, .f32⟩
  | 37 => ⟨S60000, .f32⟩
  | 38 => ⟨S60000, .i1⟩
  | 39 => ⟨S_, .f32⟩
  | 40 => ⟨S60000, .f32⟩
  | 41 => ⟨S60000, .f32⟩
  | 42 => ⟨S60000, .f32⟩
  | 43 => ⟨S_, .f32⟩
  | 44 => ⟨S_, .f32⟩
  | 45 => ⟨S60000, .f32⟩
  | 46 => ⟨S60000, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000, .f32⟩
  | 65 => ⟨S500000, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x64, .f32⟩
  | 75 => ⟨S500000x1, .f32⟩
  | 76 => ⟨S500000x64, .f32⟩
  | 77 => ⟨S500000x64, .f32⟩
  | 78 => ⟨S_, .f32⟩
  | 79 => ⟨S60000x64, .f32⟩
  | 80 => ⟨S500000x1, .i32⟩
  | 81 => ⟨S60000x64, .f32⟩
  | 82 => ⟨S1x64, .f32⟩
  | 83 => ⟨S60000x64, .f32⟩
  | 84 => ⟨S60000x64, .f32⟩
  | 85 => ⟨S60000x64, .f32⟩
  | 86 => ⟨S_, .f32⟩
  | 87 => ⟨S64, .f32⟩
  | 88 => ⟨S1x128x64, .f32⟩
  | 89 => ⟨S128x64, .f32⟩
  | 90 => ⟨S1x64, .f32⟩
  | 91 => ⟨S60000x64, .f32⟩
  | 92 => ⟨S1x64, .f32⟩
  | 93 => ⟨S64, .f32⟩
  | 94 => ⟨S1x500000, .i32⟩
  | 95 => ⟨S500000, .i32⟩
  | 96 => ⟨S1x500000, .i32⟩
  | 97 => ⟨S500000, .i32⟩
  | 98 => ⟨S_, .f32⟩
  | 99 => ⟨S500000, .f32⟩
  | 100 => ⟨S_, .f32⟩
  | 101 => ⟨S60000, .f32⟩
  | 102 => ⟨S500000x1, .i32⟩
  | 103 => ⟨S60000, .f32⟩
  | 104 => ⟨S_, .f32⟩
  | 105 => ⟨S20000, .f32⟩
  | 106 => ⟨S500000x1, .i32⟩
  | 107 => ⟨S20000, .f32⟩
  | 108 => ⟨S_, .f32⟩
  | 109 => ⟨S60000, .f32⟩
  | 110 => ⟨S60000, .i1⟩
  | 111 => ⟨S_, .f32⟩
  | 112 => ⟨S60000, .f32⟩
  | 113 => ⟨S60000, .f32⟩
  | 114 => ⟨S60000, .f32⟩
  | 115 => ⟨S_, .f32⟩
  | 116 => ⟨S_, .f32⟩
  | 117 => ⟨S60000, .f32⟩
  | 118 => ⟨S60000, .f32⟩
  | 119 => ⟨S_, .f32⟩
  | 120 => ⟨S20000, .f32⟩
  | 121 => ⟨S20000, .i1⟩
  | 122 => ⟨S_, .f32⟩
  | 123 => ⟨S20000, .f32⟩
  | 124 => ⟨S20000, .f32⟩
  | 125 => ⟨S20000, .f32⟩
  | 126 => ⟨S_, .f32⟩
  | 127 => ⟨S_, .f32⟩
  | _ => ⟨S20000x128, .f32⟩

abbrev hbmTy0_6 (i : Nat) : BufTy := match i % 128 with
  | 0 => ⟨S20000, .f32⟩
  | 1 => ⟨S20000, .f32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000, .f32⟩
  | 20 => ⟨S500000, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x64, .f32⟩
  | 30 => ⟨S500000x1, .f32⟩
  | 31 => ⟨S500000x64, .f32⟩
  | 32 => ⟨S500000x64, .f32⟩
  | 33 => ⟨S_, .f32⟩
  | 34 => ⟨S20000x64, .f32⟩
  | 35 => ⟨S500000x1, .i32⟩
  | 36 => ⟨S20000x64, .f32⟩
  | 37 => ⟨S1x64, .f32⟩
  | 38 => ⟨S20000x64, .f32⟩
  | 39 => ⟨S20000x64, .f32⟩
  | 40 => ⟨S20000x64, .f32⟩
  | 41 => ⟨S_, .f32⟩
  | 42 => ⟨S64, .f32⟩
  | 43 => ⟨S1x128x64, .f32⟩
  | 44 => ⟨S128x64, .f32⟩
  | 45 => ⟨S1x64, .f32⟩
  | 46 => ⟨S20000x64, .f32⟩
  | 47 => ⟨S1x64, .f32⟩
  | 48 => ⟨S64, .f32⟩
  | 49 => ⟨S1x500000, .i32⟩
  | 50 => ⟨S500000, .i32⟩
  | 51 => ⟨S1x500000, .i32⟩
  | 52 => ⟨S500000, .i32⟩
  | 53 => ⟨S_, .f32⟩
  | 54 => ⟨S500000, .f32⟩
  | 55 => ⟨S_, .f32⟩
  | 56 => ⟨S20000, .f32⟩
  | 57 => ⟨S500000x1, .i32⟩
  | 58 => ⟨S20000, .f32⟩
  | 59 => ⟨S_, .f32⟩
  | 60 => ⟨S20000, .f32⟩
  | 61 => ⟨S500000x1, .i32⟩
  | 62 => ⟨S20000, .f32⟩
  | 63 => ⟨S_, .f32⟩
  | 64 => ⟨S20000, .f32⟩
  | 65 => ⟨S20000, .i1⟩
  | 66 => ⟨S_, .f32⟩
  | 67 => ⟨S20000, .f32⟩
  | 68 => ⟨S20000, .f32⟩
  | 69 => ⟨S20000, .f32⟩
  | 70 => ⟨S_, .f32⟩
  | 71 => ⟨S_, .f32⟩
  | 72 => ⟨S20000, .f32⟩
  | 73 => ⟨S20000, .f32⟩
  | 74 => ⟨S_, .f32⟩
  | 75 => ⟨S20000, .f32⟩
  | 76 => ⟨S20000, .i1⟩
  | 77 => ⟨S_, .f32⟩
  | 78 => ⟨S20000, .f32⟩
  | 79 => ⟨S20000, .f32⟩
  | 80 => ⟨S20000, .f32⟩
  | 81 => ⟨S_, .f32⟩
  | 82 => ⟨S_, .f32⟩
  | 83 => ⟨S20000, .f32⟩
  | 84 => ⟨S20000, .f32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000, .f32⟩
  | 103 => ⟨S500000, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x64, .f32⟩
  | 113 => ⟨S500000x1, .f32⟩
  | 114 => ⟨S500000x64, .f32⟩
  | 115 => ⟨S500000x64, .f32⟩
  | 116 => ⟨S_, .f32⟩
  | 117 => ⟨S20000x64, .f32⟩
  | 118 => ⟨S500000x1, .i32⟩
  | 119 => ⟨S20000x64, .f32⟩
  | 120 => ⟨S1x64, .f32⟩
  | 121 => ⟨S20000x64, .f32⟩
  | 122 => ⟨S20000x64, .f32⟩
  | 123 => ⟨S20000x64, .f32⟩
  | 124 => ⟨S_, .f32⟩
  | 125 => ⟨S64, .f32⟩
  | 126 => ⟨S1x128x64, .f32⟩
  | 127 => ⟨S128x64, .f32⟩
  | _ => ⟨S20000x128, .f32⟩

abbrev hbmTy0_7 (i : Nat) : BufTy := match i % 128 with
  | 0 => ⟨S1x64, .f32⟩
  | 1 => ⟨S60000x64, .f32⟩
  | 2 => ⟨S1x64, .f32⟩
  | 3 => ⟨S64, .f32⟩
  | 4 => ⟨S1x500000, .i32⟩
  | 5 => ⟨S500000, .i32⟩
  | 6 => ⟨S1x500000, .i32⟩
  | 7 => ⟨S500000, .i32⟩
  | 8 => ⟨S_, .f32⟩
  | 9 => ⟨S500000, .f32⟩
  | 10 => ⟨S_, .f32⟩
  | 11 => ⟨S60000, .f32⟩
  | 12 => ⟨S500000x1, .i32⟩
  | 13 => ⟨S60000, .f32⟩
  | 14 => ⟨S_, .f32⟩
  | 15 => ⟨S20000, .f32⟩
  | 16 => ⟨S500000x1, .i32⟩
  | 17 => ⟨S20000, .f32⟩
  | 18 => ⟨S_, .f32⟩
  | 19 => ⟨S60000, .f32⟩
  | 20 => ⟨S60000, .i1⟩
  | 21 => ⟨S_, .f32⟩
  | 22 => ⟨S60000, .f32⟩
  | 23 => ⟨S60000, .f32⟩
  | 24 => ⟨S60000, .f32⟩
  | 25 => ⟨S_, .f32⟩
  | 26 => ⟨S_, .f32⟩
  | 27 => ⟨S60000, .f32⟩
  | 28 => ⟨S60000, .f32⟩
  | 29 => ⟨S_, .f32⟩
  | 30 => ⟨S20000, .f32⟩
  | 31 => ⟨S20000, .i1⟩
  | 32 => ⟨S_, .f32⟩
  | 33 => ⟨S20000, .f32⟩
  | 34 => ⟨S20000, .f32⟩
  | 35 => ⟨S20000, .f32⟩
  | 36 => ⟨S_, .f32⟩
  | 37 => ⟨S_, .f32⟩
  | 38 => ⟨S20000, .f32⟩
  | 39 => ⟨S20000, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000, .f32⟩
  | 58 => ⟨S500000, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x64, .f32⟩
  | 68 => ⟨S500000x1, .f32⟩
  | 69 => ⟨S500000x64, .f32⟩
  | 70 => ⟨S500000x64, .f32⟩
  | 71 => ⟨S_, .f32⟩
  | 72 => ⟨S20000x64, .f32⟩
  | 73 => ⟨S500000x1, .i32⟩
  | 74 => ⟨S20000x64, .f32⟩
  | 75 => ⟨S1x64, .f32⟩
  | 76 => ⟨S20000x64, .f32⟩
  | 77 => ⟨S20000x64, .f32⟩
  | 78 => ⟨S20000x64, .f32⟩
  | 79 => ⟨S_, .f32⟩
  | 80 => ⟨S64, .f32⟩
  | 81 => ⟨S1x128x64, .f32⟩
  | 82 => ⟨S128x64, .f32⟩
  | 83 => ⟨S1x64, .f32⟩
  | 84 => ⟨S20000x64, .f32⟩
  | 85 => ⟨S1x64, .f32⟩
  | 86 => ⟨S64, .f32⟩
  | 87 => ⟨S1x500000, .i32⟩
  | 88 => ⟨S500000, .i32⟩
  | 89 => ⟨S1x500000, .i32⟩
  | 90 => ⟨S500000, .i32⟩
  | 91 => ⟨S_, .f32⟩
  | 92 => ⟨S500000, .f32⟩
  | 93 => ⟨S_, .f32⟩
  | 94 => ⟨S20000, .f32⟩
  | 95 => ⟨S500000x1, .i32⟩
  | 96 => ⟨S20000, .f32⟩
  | 97 => ⟨S_, .f32⟩
  | 98 => ⟨S60000, .f32⟩
  | 99 => ⟨S500000x1, .i32⟩
  | 100 => ⟨S60000, .f32⟩
  | 101 => ⟨S_, .f32⟩
  | 102 => ⟨S20000, .f32⟩
  | 103 => ⟨S20000, .i1⟩
  | 104 => ⟨S_, .f32⟩
  | 105 => ⟨S20000, .f32⟩
  | 106 => ⟨S20000, .f32⟩
  | 107 => ⟨S20000, .f32⟩
  | 108 => ⟨S_, .f32⟩
  | 109 => ⟨S_, .f32⟩
  | 110 => ⟨S20000, .f32⟩
  | 111 => ⟨S20000, .f32⟩
  | 112 => ⟨S_, .f32⟩
  | 113 => ⟨S60000, .f32⟩
  | 114 => ⟨S60000, .i1⟩
  | 115 => ⟨S_, .f32⟩
  | 116 => ⟨S60000, .f32⟩
  | 117 => ⟨S60000, .f32⟩
  | 118 => ⟨S60000, .f32⟩
  | 119 => ⟨S_, .f32⟩
  | 120 => ⟨S_, .f32⟩
  | 121 => ⟨S60000, .f32⟩
  | 122 => ⟨S60000, .f32⟩
  | 123 => ⟨S_, .i32⟩
  | 124 => ⟨S500000, .i32⟩
  | 125 => ⟨S500000, .i1⟩
  | 126 => ⟨S_, .i32⟩
  | 127 => ⟨S500000, .i32⟩
  | _ => ⟨S20000x128, .f32⟩

abbrev hbmTy0_8 (i : Nat) : BufTy := match i % 128 with
  | 0 => ⟨S500000, .i32⟩
  | 1 => ⟨S500000, .i32⟩
  | 2 => ⟨S500000x1, .i32⟩
  | 3 => ⟨S500000, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000, .f32⟩
  | 13 => ⟨S500000, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x64, .f32⟩
  | 23 => ⟨S500000x1, .f32⟩
  | 24 => ⟨S500000x64, .f32⟩
  | 25 => ⟨S500000x64, .f32⟩
  | 26 => ⟨S_, .f32⟩
  | 27 => ⟨S60000x64, .f32⟩
  | 28 => ⟨S500000x1, .i32⟩
  | 29 => ⟨S60000x64, .f32⟩
  | 30 => ⟨S1x64, .f32⟩
  | 31 => ⟨S60000x64, .f32⟩
  | 32 => ⟨S60000x64, .f32⟩
  | 33 => ⟨S60000x64, .f32⟩
  | 34 => ⟨S1x64, .f32⟩
  | 35 => ⟨S64, .f32⟩
  | 36 => ⟨S1x64, .f32⟩
  | 37 => ⟨S64, .f32⟩
  | 38 => ⟨S1x64, .f32⟩
  | 39 => ⟨S1x64, .f32⟩
  | 40 => ⟨S20000x64, .f32⟩
  | 41 => ⟨S1x64, .f32⟩
  | 42 => ⟨S64, .f32⟩
  | 43 => ⟨S1x64, .f32⟩
  | 44 => ⟨S64, .f32⟩
  | 45 => ⟨S1x64, .f32⟩
  | 46 => ⟨S1x64, .f32⟩
  | 47 => ⟨S60000x64, .f32⟩
  | 48 => ⟨S1x64, .f32⟩
  | 49 => ⟨S64, .f32⟩
  | 50 => ⟨S1x64, .f32⟩
  | 51 => ⟨S64, .f32⟩
  | 52 => ⟨S1x64, .f32⟩
  | 53 => ⟨S1x64, .f32⟩
  | 54 => ⟨S20000x64, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S20000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S128x128, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S128x128, .f32⟩
  | .local _ .vmem, ⟨45, _⟩ => ⟨S1x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S128x128, .f32⟩
  | .local _ .vmem, ⟨51, _⟩ => ⟨S1x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | .local _ .vmem, ⟨56, _⟩ => ⟨S1x128, .f32⟩
  | .local _ .vmem, ⟨57, _⟩ => ⟨S1x128, .f32⟩
  | .local _ .vmem, ⟨58, _⟩ => ⟨S4000x128, .f32⟩
  | .local _ .vmem, ⟨59, _⟩ => ⟨S4000x128, .f32⟩
  | .local _ .vmem, ⟨60, _⟩ => ⟨S4000x128, .f32⟩
  | .local _ .vmem, ⟨61, _⟩ => ⟨S4000x128, .f32⟩
  | .local _ .vmem, ⟨62, _⟩ => ⟨S1x128, .f32⟩
  | .local _ .vmem, ⟨63, _⟩ => ⟨S1x128, .f32⟩
  | .local _ .vmem, ⟨64, _⟩ => ⟨S4000x128, .f32⟩
  | .local _ .vmem, ⟨65, _⟩ => ⟨S4000x128, .f32⟩
  | .local _ .vmem, ⟨66, _⟩ => ⟨S4000x128, .f32⟩
  | .local _ .vmem, ⟨67, _⟩ => ⟨S4000x128, .f32⟩
  | .local _ .vmem, ⟨68, _⟩ => ⟨S1x128, .f32⟩
  | .local _ .vmem, ⟨69, _⟩ => ⟨S1x128, .f32⟩
  | .local _ .vmem, ⟨70, _⟩ => ⟨S4000x128, .f32⟩
  | .local _ .vmem, ⟨71, _⟩ => ⟨S4000x128, .f32⟩
  | .local _ .vmem, ⟨72, _⟩ => ⟨S4000x128, .f32⟩
  | .local _ .vmem, ⟨73, _⟩ => ⟨S4000x128, .f32⟩
  | .local _ .vmem, ⟨74, _⟩ => ⟨S128x64, .f32⟩
  | .local _ .vmem, ⟨75, _⟩ => ⟨S1x64, .f32⟩
  | .local _ .vmem, ⟨76, _⟩ => ⟨S4000x64, .f32⟩
  | .local _ .vmem, ⟨77, _⟩ => ⟨S4000x64, .f32⟩
  | .local _ .vmem, ⟨78, _⟩ => ⟨S4000x128, .f32⟩
  | .local _ .vmem, ⟨79, _⟩ => ⟨S4000x128, .f32⟩
  | .local _ .vmem, ⟨80, _⟩ => ⟨S128x64, .f32⟩
  | .local _ .vmem, ⟨81, _⟩ => ⟨S1x64, .f32⟩
  | .local _ .vmem, ⟨82, _⟩ => ⟨S4000x64, .f32⟩
  | .local _ .vmem, ⟨83, _⟩ => ⟨S4000x64, .f32⟩
  | .local _ .vmem, ⟨84, _⟩ => ⟨S4000x128, .f32⟩
  | .local _ .vmem, ⟨85, _⟩ => ⟨S4000x128, .f32⟩
  | .local _ .vmem, ⟨86, _⟩ => ⟨S128x64, .f32⟩
  | .local _ .vmem, ⟨87, _⟩ => ⟨S1x64, .f32⟩
  | .local _ .vmem, ⟨88, _⟩ => ⟨S4000x64, .f32⟩
  | .local _ .vmem, ⟨89, _⟩ => ⟨S4000x64, .f32⟩
  | .local _ .vmem, ⟨90, _⟩ => ⟨S4000x128, .f32⟩
  | .local _ .vmem, ⟨91, _⟩ => ⟨S4000x128, .f32⟩
  | .local _ .vmem, ⟨92, _⟩ => ⟨S128x64, .f32⟩
  | .local _ .vmem, ⟨93, _⟩ => ⟨S1x64, .f32⟩
  | .local _ .vmem, ⟨94, _⟩ => ⟨S4000x64, .f32⟩
  | .local _ .vmem, ⟨95, _⟩ => ⟨S4000x64, .f32⟩
  | .local _ .vmem, ⟨96, _⟩ => ⟨S4000x128, .f32⟩
  | .local _ .vmem, ⟨97, _⟩ => ⟨S4000x128, .f32⟩
  | .local _ .vmem, ⟨98, _⟩ => ⟨S128x64, .f32⟩
  | .local _ .vmem, ⟨99, _⟩ => ⟨S1x64, .f32⟩
  | .local _ .vmem, ⟨100, _⟩ => ⟨S4000x64, .f32⟩
  | .local _ .vmem, ⟨101, _⟩ => ⟨S4000x64, .f32⟩
  | .local _ .vmem, ⟨102, _⟩ => ⟨S4000x128, .f32⟩
  | .local _ .vmem, ⟨103, _⟩ => ⟨S4000x128, .f32⟩
  | .local _ .vmem, ⟨104, _⟩ => ⟨S128x64, .f32⟩
  | .local _ .vmem, ⟨105, _⟩ => ⟨S1x64, .f32⟩
  | .local _ .vmem, ⟨106, _⟩ => ⟨S4000x64, .f32⟩
  | .local _ .vmem, ⟨107, _⟩ => ⟨S4000x64, .f32⟩
  | .local _ .vmem, ⟨108, _⟩ => ⟨S4000x64, .f32⟩
  | .local _ .vmem, ⟨109, _⟩ => ⟨S4000x64, .f32⟩
  | .local _ .vmem, ⟨110, _⟩ => ⟨S1x64, .f32⟩
  | .local _ .vmem, ⟨111, _⟩ => ⟨S1x64, .f32⟩
  | .local _ .vmem, ⟨112, _⟩ => ⟨S4000x64, .f32⟩
  | .local _ .vmem, ⟨113, _⟩ => ⟨S4000x64, .f32⟩
  | .local _ .vmem, ⟨114, _⟩ => ⟨S4000x64, .f32⟩
  | .local _ .vmem, ⟨115, _⟩ => ⟨S4000x64, .f32⟩
  | .local _ .vmem, ⟨116, _⟩ => ⟨S1x64, .f32⟩
  | .local _ .vmem, ⟨117, _⟩ => ⟨S1x64, .f32⟩
  | .local _ .vmem, ⟨118, _⟩ => ⟨S4000x64, .f32⟩
  | .local _ .vmem, ⟨119, _⟩ => ⟨S4000x64, .f32⟩
  | .local _ .vmem, ⟨120, _⟩ => ⟨S4000x64, .f32⟩
  | .local _ .vmem, ⟨121, _⟩ => ⟨S4000x64, .f32⟩
  | .local _ .vmem, ⟨122, _⟩ => ⟨S1x64, .f32⟩
  | .local _ .vmem, ⟨123, _⟩ => ⟨S1x64, .f32⟩
  | .local _ .vmem, ⟨124, _⟩ => ⟨S4000x64, .f32⟩
  | .local _ .vmem, ⟨125, _⟩ => ⟨S4000x64, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | _, _ => false

abbrev semScoped : Fin 0 → Bool
  | ⟨_, h⟩ => absurd h (Nat.not_lt_zero _)

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  ofTc nBuf bufTy 0 126 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_cst_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_6 : Ref sig .tc := ⟨.hbm, 57, rfl⟩
abbrev main_v27 : Ref sig .tc := ⟨.hbm, 58, rfl⟩
abbrev main_v28 : Ref sig .tc := ⟨.hbm, 59, rfl⟩
abbrev main_cst_7 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_8 : Ref sig .tc := ⟨.hbm, 64, rfl⟩
abbrev main_call0_v0 : Ref sig .tc := ⟨.hbm, 65, rfl⟩
abbrev main_call0_v1 : Ref sig .tc := ⟨.hbm, 66, rfl⟩
abbrev main_v32 : Ref sig .tc := ⟨.hbm, 67, rfl⟩
abbrev main_cst_9 : Ref sig .tc := ⟨.hbm, 68, rfl⟩
abbrev main_v33 : Ref sig .tc := ⟨.hbm, 69, rfl⟩
abbrev main_v34 : Ref sig .tc := ⟨.hbm, 70, rfl⟩
abbrev main_cst_10 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_11 : Ref sig .tc := ⟨.hbm, 75, rfl⟩
abbrev main_call1_v0 : Ref sig .tc := ⟨.hbm, 76, rfl⟩
abbrev main_call1_v1 : Ref sig .tc := ⟨.hbm, 77, rfl⟩
abbrev main_v38 : Ref sig .tc := ⟨.hbm, 78, rfl⟩
abbrev main_c : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_13 : Ref sig .tc := ⟨.hbm, 88, rfl⟩
abbrev main_v46 : Ref sig .tc := ⟨.hbm, 89, rfl⟩
abbrev main_v47 : Ref sig .tc := ⟨.hbm, 90, rfl⟩
abbrev main_c_14 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_15 : Ref sig .tc := ⟨.hbm, 98, rfl⟩
abbrev main_v54 : Ref sig .tc := ⟨.hbm, 99, rfl⟩
abbrev main_v55 : Ref sig .tc := ⟨.hbm, 100, rfl⟩
abbrev main_c_16 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_17 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_18 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_19 : Ref sig .tc := ⟨.hbm, 130, rfl⟩
abbrev main_v82 : Ref sig .tc := ⟨.hbm, 131, rfl⟩
abbrev main_cst_20 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_21 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_22 : Ref sig .tc := ⟨.hbm, 140, rfl⟩
abbrev main_v89 : Ref sig .tc := ⟨.hbm, 141, rfl⟩
abbrev main_v90 : Ref sig .tc := ⟨.hbm, 142, rfl⟩
abbrev main_cst_23 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_24 : Ref sig .tc := ⟨.hbm, 147, rfl⟩
abbrev main_call2_v0 : Ref sig .tc := ⟨.hbm, 148, rfl⟩
abbrev main_call2_v1 : Ref sig .tc := ⟨.hbm, 149, rfl⟩
abbrev main_v94 : Ref sig .tc := ⟨.hbm, 150, rfl⟩
abbrev main_cst_25 : Ref sig .tc := ⟨.hbm, 151, rfl⟩
abbrev main_v95 : Ref sig .tc := ⟨.hbm, 152, rfl⟩
abbrev main_v96 : Ref sig .tc := ⟨.hbm, 153, rfl⟩
abbrev main_cst_26 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_27 : Ref sig .tc := ⟨.hbm, 158, rfl⟩
abbrev main_call3_v0 : Ref sig .tc := ⟨.hbm, 159, rfl⟩
abbrev main_call3_v1 : Ref sig .tc := ⟨.hbm, 160, rfl⟩
abbrev main_v100 : Ref sig .tc := ⟨.hbm, 161, rfl⟩
abbrev main_c_28 : Ref sig .tc := ⟨.hbm, 162, rfl⟩
abbrev main_v101 : Ref sig .tc := ⟨.hbm, 163, rfl⟩
abbrev main_v102 : Ref sig .tc := ⟨.hbm, 164, rfl⟩
abbrev main_c_29 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_c_30 : Ref sig .tc := ⟨.hbm, 171, rfl⟩
abbrev main_v108 : Ref sig .tc := ⟨.hbm, 172, rfl⟩
abbrev main_v109 : Ref sig .tc := ⟨.hbm, 173, rfl⟩
abbrev main_c_31 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_c_32 : Ref sig .tc := ⟨.hbm, 181, rfl⟩
abbrev main_v116 : Ref sig .tc := ⟨.hbm, 182, rfl⟩
abbrev main_v117 : Ref sig .tc := ⟨.hbm, 183, rfl⟩
abbrev main_c_33 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_34 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_35 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_cst_36 : Ref sig .tc := ⟨.hbm, 213, rfl⟩
abbrev main_v144 : Ref sig .tc := ⟨.hbm, 214, rfl⟩
abbrev main_cst_37 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_38 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_cst_39 : Ref sig .tc := ⟨.hbm, 223, rfl⟩
abbrev main_v151 : Ref sig .tc := ⟨.hbm, 224, rfl⟩
abbrev main_v152 : Ref sig .tc := ⟨.hbm, 225, rfl⟩
abbrev main_cst_40 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_cst_41 : Ref sig .tc := ⟨.hbm, 230, rfl⟩
abbrev main_call4_v0 : Ref sig .tc := ⟨.hbm, 231, rfl⟩
abbrev main_call4_v1 : Ref sig .tc := ⟨.hbm, 232, rfl⟩
abbrev main_v156 : Ref sig .tc := ⟨.hbm, 233, rfl⟩
abbrev main_cst_42 : Ref sig .tc := ⟨.hbm, 234, rfl⟩
abbrev main_v157 : Ref sig .tc := ⟨.hbm, 235, rfl⟩
abbrev main_v158 : Ref sig .tc := ⟨.hbm, 236, rfl⟩
abbrev main_cst_43 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_cst_44 : Ref sig .tc := ⟨.hbm, 241, rfl⟩
abbrev main_call5_v0 : Ref sig .tc := ⟨.hbm, 242, rfl⟩
abbrev main_call5_v1 : Ref sig .tc := ⟨.hbm, 243, rfl⟩
abbrev main_v162 : Ref sig .tc := ⟨.hbm, 244, rfl⟩
abbrev main_c_45 : Ref sig .tc := ⟨.hbm, 245, rfl⟩
abbrev main_v163 : Ref sig .tc := ⟨.hbm, 246, rfl⟩
abbrev main_v164 : Ref sig .tc := ⟨.hbm, 247, rfl⟩
abbrev main_c_46 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_c_47 : Ref sig .tc := ⟨.hbm, 254, rfl⟩
abbrev main_v170 : Ref sig .tc := ⟨.hbm, 255, rfl⟩
abbrev main_v171 : Ref sig .tc := ⟨.hbm, 256, rfl⟩
abbrev main_c_48 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_c_49 : Ref sig .tc := ⟨.hbm, 264, rfl⟩
abbrev main_v178 : Ref sig .tc := ⟨.hbm, 265, rfl⟩
abbrev main_v179 : Ref sig .tc := ⟨.hbm, 266, rfl⟩
abbrev main_c_50 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_cst_51 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_cst_52 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_cst_53 : Ref sig .tc := ⟨.hbm, 296, rfl⟩
abbrev main_v206 : Ref sig .tc := ⟨.hbm, 297, rfl⟩
abbrev main_cst_54 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_cst_55 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_cst_56 : Ref sig .tc := ⟨.hbm, 306, rfl⟩
abbrev main_v213 : Ref sig .tc := ⟨.hbm, 307, rfl⟩
abbrev main_v214 : Ref sig .tc := ⟨.hbm, 308, rfl⟩
abbrev main_cst_57 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_cst_58 : Ref sig .tc := ⟨.hbm, 313, rfl⟩
abbrev main_call6_v0 : Ref sig .tc := ⟨.hbm, 314, rfl⟩
abbrev main_call6_v1 : Ref sig .tc := ⟨.hbm, 315, rfl⟩
abbrev main_v218 : Ref sig .tc := ⟨.hbm, 316, rfl⟩
abbrev main_cst_59 : Ref sig .tc := ⟨.hbm, 317, rfl⟩
abbrev main_v219 : Ref sig .tc := ⟨.hbm, 318, rfl⟩
abbrev main_v220 : Ref sig .tc := ⟨.hbm, 319, rfl⟩
abbrev main_cst_60 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_cst_61 : Ref sig .tc := ⟨.hbm, 324, rfl⟩
abbrev main_call7_v0 : Ref sig .tc := ⟨.hbm, 325, rfl⟩
abbrev main_call7_v1 : Ref sig .tc := ⟨.hbm, 326, rfl⟩
abbrev main_v224 : Ref sig .tc := ⟨.hbm, 327, rfl⟩
abbrev main_c_62 : Ref sig .tc := ⟨.hbm, 328, rfl⟩
abbrev main_v225 : Ref sig .tc := ⟨.hbm, 329, rfl⟩
abbrev main_v226 : Ref sig .tc := ⟨.hbm, 330, rfl⟩
abbrev main_c_63 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_c_64 : Ref sig .tc := ⟨.hbm, 337, rfl⟩
abbrev main_v232 : Ref sig .tc := ⟨.hbm, 338, rfl⟩
abbrev main_v233 : Ref sig .tc := ⟨.hbm, 339, rfl⟩
abbrev main_c_65 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_v238 : Ref sig .tc := ⟨.hbm, 345, rfl⟩
abbrev main_v239 : Ref sig .tc := ⟨.hbm, 346, rfl⟩
abbrev main_c_66 : Ref sig .tc := ⟨.hbm, 347, rfl⟩
abbrev main_v240 : Ref sig .tc := ⟨.hbm, 348, rfl⟩
abbrev main_v241 : Ref sig .tc := ⟨.hbm, 349, rfl⟩
abbrev main_c_67 : Ref sig .tc := ⟨.hbm, 350, rfl⟩
abbrev main_v242 : Ref sig .tc := ⟨.hbm, 351, rfl⟩
abbrev main_v243 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_v247 : Ref sig .tc := ⟨.hbm, 356, rfl⟩
abbrev main_v248 : Ref sig .tc := ⟨.hbm, 357, rfl⟩
abbrev main_v249 : Ref sig .tc := ⟨.hbm, 358, rfl⟩
abbrev main_cst_68 : Ref sig .tc := ⟨.hbm, 359, rfl⟩
abbrev main_v250 : Ref sig .tc := ⟨.hbm, 360, rfl⟩
abbrev main_v251 : Ref sig .tc := ⟨.hbm, 361, rfl⟩
abbrev main_v252 : Ref sig .tc := ⟨.hbm, 362, rfl⟩
abbrev main_v253 : Ref sig .tc := ⟨.hbm, 363, rfl⟩
abbrev main_v254 : Ref sig .tc := ⟨.hbm, 364, rfl⟩
abbrev main_v255 : Ref sig .tc := ⟨.hbm, 365, rfl⟩
abbrev main_v256 : Ref sig .tc := ⟨.hbm, 366, rfl⟩
abbrev main_cst_69 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_v261 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_cst_70 : Ref sig .tc := ⟨.hbm, 379, rfl⟩
abbrev main_v268 : Ref sig .tc := ⟨.hbm, 380, rfl⟩
abbrev main_cst_71 : Ref sig .tc := ⟨.hbm, 381, rfl⟩
abbrev main_v269 : Ref sig .tc := ⟨.hbm, 382, rfl⟩
abbrev main_v270 : Ref sig .tc := ⟨.hbm, 383, rfl⟩
abbrev main_v271 : Ref sig .tc := ⟨.hbm, 384, rfl⟩
abbrev main_cst_72 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_cst_73 : Ref sig .tc := ⟨.hbm, 389, rfl⟩
abbrev main_v275 : Ref sig .tc := ⟨.hbm, 390, rfl⟩
abbrev main_v276 : Ref sig .tc := ⟨.hbm, 391, rfl⟩
abbrev main_cst_74 : Ref sig .tc := ⟨.hbm, 392, rfl⟩
abbrev main_v277 : Ref sig .tc := ⟨.hbm, 393, rfl⟩
abbrev main_v278 : Ref sig .tc := ⟨.hbm, 394, rfl⟩
abbrev main_v279 : Ref sig .tc := ⟨.hbm, 395, rfl⟩
abbrev main_cst_75 : Ref sig .tc := ⟨.hbm, 396, rfl⟩
abbrev main_call8_v0 : Ref sig .tc := ⟨.hbm, 397, rfl⟩
abbrev main_call8_v1 : Ref sig .tc := ⟨.hbm, 398, rfl⟩
abbrev main_v280 : Ref sig .tc := ⟨.hbm, 399, rfl⟩
abbrev main_cst_76 : Ref sig .tc := ⟨.hbm, 400, rfl⟩
abbrev main_v281 : Ref sig .tc := ⟨.hbm, 401, rfl⟩
abbrev main_v282 : Ref sig .tc := ⟨.hbm, 402, rfl⟩
abbrev main_cst_77 : Ref sig .tc := ⟨.hbm, 403, rfl⟩
abbrev main_v283 : Ref sig .tc := ⟨.hbm, 404, rfl⟩
abbrev main_v284 : Ref sig .tc := ⟨.hbm, 405, rfl⟩
abbrev main_v285 : Ref sig .tc := ⟨.hbm, 406, rfl⟩
abbrev main_cst_78 : Ref sig .tc := ⟨.hbm, 407, rfl⟩
abbrev main_call9_v0 : Ref sig .tc := ⟨.hbm, 408, rfl⟩
abbrev main_call9_v1 : Ref sig .tc := ⟨.hbm, 409, rfl⟩
abbrev main_v286 : Ref sig .tc := ⟨.hbm, 410, rfl⟩
abbrev main_c_79 : Ref sig .tc := ⟨.hbm, 411, rfl⟩
abbrev main_v287 : Ref sig .tc := ⟨.hbm, 412, rfl⟩
abbrev main_v288 : Ref sig .tc := ⟨.hbm, 413, rfl⟩
abbrev main_c_80 : Ref sig .tc := ⟨.hbm, 414, rfl⟩
abbrev main_v289 : Ref sig .tc := ⟨.hbm, 415, rfl⟩
abbrev main_v290 : Ref sig .tc := ⟨.hbm, 416, rfl⟩
abbrev main_v291 : Ref sig .tc := ⟨.hbm, 417, rfl⟩
abbrev main_v292 : Ref sig .tc := ⟨.hbm, 418, rfl⟩
abbrev main_v293 : Ref sig .tc := ⟨.hbm, 419, rfl⟩
abbrev main_c_81 : Ref sig .tc := ⟨.hbm, 420, rfl⟩
abbrev main_v294 : Ref sig .tc := ⟨.hbm, 421, rfl⟩
abbrev main_v295 : Ref sig .tc := ⟨.hbm, 422, rfl⟩
abbrev main_c_82 : Ref sig .tc := ⟨.hbm, 423, rfl⟩
abbrev main_v296 : Ref sig .tc := ⟨.hbm, 424, rfl⟩
abbrev main_v297 : Ref sig .tc := ⟨.hbm, 425, rfl⟩
abbrev main_v298 : Ref sig .tc := ⟨.hbm, 426, rfl⟩
abbrev main_v299 : Ref sig .tc := ⟨.hbm, 427, rfl⟩
abbrev main_v300 : Ref sig .tc := ⟨.hbm, 428, rfl⟩
abbrev main_v301 : Ref sig .tc := ⟨.hbm, 429, rfl⟩
abbrev main_c_83 : Ref sig .tc := ⟨.hbm, 430, rfl⟩
abbrev main_v302 : Ref sig .tc := ⟨.hbm, 431, rfl⟩
abbrev main_v303 : Ref sig .tc := ⟨.hbm, 432, rfl⟩
abbrev main_c_84 : Ref sig .tc := ⟨.hbm, 433, rfl⟩
abbrev main_v304 : Ref sig .tc := ⟨.hbm, 434, rfl⟩
abbrev main_v305 : Ref sig .tc := ⟨.hbm, 435, rfl⟩
abbrev main_v306 : Ref sig .tc := ⟨.hbm, 436, rfl⟩
abbrev main_v307 : Ref sig .tc := ⟨.hbm, 437, rfl⟩
abbrev main_v308 : Ref sig .tc := ⟨.hbm, 438, rfl⟩
abbrev main_v309 : Ref sig .tc := ⟨.hbm, 439, rfl⟩
abbrev main_v310 : Ref sig .tc := ⟨.hbm, 440, rfl⟩
abbrev main_v311 : Ref sig .tc := ⟨.hbm, 441, rfl⟩
abbrev main_cst_85 : Ref sig .tc := ⟨.hbm, 442, rfl⟩
abbrev main_v312 : Ref sig .tc := ⟨.hbm, 443, rfl⟩
abbrev main_v313 : Ref sig .tc := ⟨.hbm, 444, rfl⟩
abbrev main_v314 : Ref sig .tc := ⟨.hbm, 445, rfl⟩
abbrev main_v315 : Ref sig .tc := ⟨.hbm, 446, rfl⟩
abbrev main_v316 : Ref sig .tc := ⟨.hbm, 447, rfl⟩
abbrev main_v317 : Ref sig .tc := ⟨.hbm, 448, rfl⟩
abbrev main_v318 : Ref sig .tc := ⟨.hbm, 449, rfl⟩
abbrev main_cst_86 : Ref sig .tc := ⟨.hbm, 450, rfl⟩
abbrev main_v319 : Ref sig .tc := ⟨.hbm, 451, rfl⟩
abbrev main_v320 : Ref sig .tc := ⟨.hbm, 452, rfl⟩
abbrev main_v321 : Ref sig .tc := ⟨.hbm, 453, rfl⟩
abbrev main_v322 : Ref sig .tc := ⟨.hbm, 454, rfl⟩
abbrev main_v323 : Ref sig .tc := ⟨.hbm, 455, rfl⟩
abbrev main_v324 : Ref sig .tc := ⟨.hbm, 456, rfl⟩
abbrev main_v325 : Ref sig .tc := ⟨.hbm, 457, rfl⟩
abbrev main_v326 : Ref sig .tc := ⟨.hbm, 458, rfl⟩
abbrev main_v327 : Ref sig .tc := ⟨.hbm, 459, rfl⟩
abbrev main_v328 : Ref sig .tc := ⟨.hbm, 460, rfl⟩
abbrev main_v329 : Ref sig .tc := ⟨.hbm, 461, rfl⟩
abbrev main_cst_87 : Ref sig .tc := ⟨.hbm, 462, rfl⟩
abbrev main_v330 : Ref sig .tc := ⟨.hbm, 463, rfl⟩
abbrev main_cst_88 : Ref sig .tc := ⟨.hbm, 464, rfl⟩
abbrev main_v331 : Ref sig .tc := ⟨.hbm, 465, rfl⟩
abbrev main_v332 : Ref sig .tc := ⟨.hbm, 466, rfl⟩
abbrev main_v333 : Ref sig .tc := ⟨.hbm, 467, rfl⟩
abbrev main_cst_89 : Ref sig .tc := ⟨.hbm, 468, rfl⟩
abbrev main_v334 : Ref sig .tc := ⟨.hbm, 469, rfl⟩
abbrev main_v335 : Ref sig .tc := ⟨.hbm, 470, rfl⟩
abbrev main_v336 : Ref sig .tc := ⟨.hbm, 471, rfl⟩
abbrev main_cst_90 : Ref sig .tc := ⟨.hbm, 472, rfl⟩
abbrev main_v337 : Ref sig .tc := ⟨.hbm, 473, rfl⟩
abbrev main_v338 : Ref sig .tc := ⟨.hbm, 474, rfl⟩
abbrev main_cst_91 : Ref sig .tc := ⟨.hbm, 475, rfl⟩
abbrev main_v339 : Ref sig .tc := ⟨.hbm, 476, rfl⟩
abbrev main_v340 : Ref sig .tc := ⟨.hbm, 477, rfl⟩
abbrev main_v341 : Ref sig .tc := ⟨.hbm, 478, rfl⟩
abbrev main_cst_92 : Ref sig .tc := ⟨.hbm, 479, rfl⟩
abbrev main_call10_v0 : Ref sig .tc := ⟨.hbm, 480, rfl⟩
abbrev main_call10_v1 : Ref sig .tc := ⟨.hbm, 481, rfl⟩
abbrev main_v342 : Ref sig .tc := ⟨.hbm, 482, rfl⟩
abbrev main_cst_93 : Ref sig .tc := ⟨.hbm, 483, rfl⟩
abbrev main_v343 : Ref sig .tc := ⟨.hbm, 484, rfl⟩
abbrev main_v344 : Ref sig .tc := ⟨.hbm, 485, rfl⟩
abbrev main_cst_94 : Ref sig .tc := ⟨.hbm, 486, rfl⟩
abbrev main_v345 : Ref sig .tc := ⟨.hbm, 487, rfl⟩
abbrev main_v346 : Ref sig .tc := ⟨.hbm, 488, rfl⟩
abbrev main_v347 : Ref sig .tc := ⟨.hbm, 489, rfl⟩
abbrev main_cst_95 : Ref sig .tc := ⟨.hbm, 490, rfl⟩
abbrev main_call11_v0 : Ref sig .tc := ⟨.hbm, 491, rfl⟩
abbrev main_call11_v1 : Ref sig .tc := ⟨.hbm, 492, rfl⟩
abbrev main_v348 : Ref sig .tc := ⟨.hbm, 493, rfl⟩
abbrev main_c_96 : Ref sig .tc := ⟨.hbm, 494, rfl⟩
abbrev main_v349 : Ref sig .tc := ⟨.hbm, 495, rfl⟩
abbrev main_v350 : Ref sig .tc := ⟨.hbm, 496, rfl⟩
abbrev main_c_97 : Ref sig .tc := ⟨.hbm, 497, rfl⟩
abbrev main_v351 : Ref sig .tc := ⟨.hbm, 498, rfl⟩
abbrev main_v352 : Ref sig .tc := ⟨.hbm, 499, rfl⟩
abbrev main_v353 : Ref sig .tc := ⟨.hbm, 500, rfl⟩
abbrev main_v354 : Ref sig .tc := ⟨.hbm, 501, rfl⟩
abbrev main_v355 : Ref sig .tc := ⟨.hbm, 502, rfl⟩
abbrev main_c_98 : Ref sig .tc := ⟨.hbm, 503, rfl⟩
abbrev main_v356 : Ref sig .tc := ⟨.hbm, 504, rfl⟩
abbrev main_v357 : Ref sig .tc := ⟨.hbm, 505, rfl⟩
abbrev main_c_99 : Ref sig .tc := ⟨.hbm, 506, rfl⟩
abbrev main_v358 : Ref sig .tc := ⟨.hbm, 507, rfl⟩
abbrev main_v359 : Ref sig .tc := ⟨.hbm, 508, rfl⟩
abbrev main_v360 : Ref sig .tc := ⟨.hbm, 509, rfl⟩
abbrev main_v361 : Ref sig .tc := ⟨.hbm, 510, rfl⟩
abbrev main_v362 : Ref sig .tc := ⟨.hbm, 511, rfl⟩
abbrev main_v363 : Ref sig .tc := ⟨.hbm, 512, rfl⟩
abbrev main_c_100 : Ref sig .tc := ⟨.hbm, 513, rfl⟩
abbrev main_v364 : Ref sig .tc := ⟨.hbm, 514, rfl⟩
abbrev main_v365 : Ref sig .tc := ⟨.hbm, 515, rfl⟩
abbrev main_c_101 : Ref sig .tc := ⟨.hbm, 516, rfl⟩
abbrev main_v366 : Ref sig .tc := ⟨.hbm, 517, rfl⟩
abbrev main_v367 : Ref sig .tc := ⟨.hbm, 518, rfl⟩
abbrev main_v368 : Ref sig .tc := ⟨.hbm, 519, rfl⟩
abbrev main_v369 : Ref sig .tc := ⟨.hbm, 520, rfl⟩
abbrev main_v370 : Ref sig .tc := ⟨.hbm, 521, rfl⟩
abbrev main_v371 : Ref sig .tc := ⟨.hbm, 522, rfl⟩
abbrev main_v372 : Ref sig .tc := ⟨.hbm, 523, rfl⟩
abbrev main_v373 : Ref sig .tc := ⟨.hbm, 524, rfl⟩
abbrev main_cst_102 : Ref sig .tc := ⟨.hbm, 525, rfl⟩
abbrev main_v374 : Ref sig .tc := ⟨.hbm, 526, rfl⟩
abbrev main_v375 : Ref sig .tc := ⟨.hbm, 527, rfl⟩
abbrev main_v376 : Ref sig .tc := ⟨.hbm, 528, rfl⟩
abbrev main_v377 : Ref sig .tc := ⟨.hbm, 529, rfl⟩
abbrev main_v378 : Ref sig .tc := ⟨.hbm, 530, rfl⟩
abbrev main_v379 : Ref sig .tc := ⟨.hbm, 531, rfl⟩
abbrev main_v380 : Ref sig .tc := ⟨.hbm, 532, rfl⟩
abbrev main_v381 : Ref sig .tc := ⟨.hbm, 533, rfl⟩
abbrev main_v382 : Ref sig .tc := ⟨.hbm, 534, rfl⟩
abbrev main_v383 : Ref sig .tc := ⟨.hbm, 535, rfl⟩
abbrev main_v384 : Ref sig .tc := ⟨.hbm, 536, rfl⟩
abbrev main_v385 : Ref sig .tc := ⟨.hbm, 537, rfl⟩
abbrev main_v386 : Ref sig .tc := ⟨.hbm, 538, rfl⟩
abbrev main_v387 : Ref sig .tc := ⟨.hbm, 539, rfl⟩
abbrev main_v388 : Ref sig .tc := ⟨.hbm, 540, rfl⟩
abbrev main_v389 : Ref sig .tc := ⟨.hbm, 541, rfl⟩
abbrev main_v390 : Ref sig .tc := ⟨.hbm, 542, rfl⟩
abbrev main_v391 : Ref sig .tc := ⟨.hbm, 543, rfl⟩
abbrev main_v392 : Ref sig .tc := ⟨.hbm, 544, rfl⟩
abbrev main_v393 : Ref sig .tc := ⟨.hbm, 545, rfl⟩
abbrev main_v394 : Ref sig .tc := ⟨.hbm, 546, rfl⟩
abbrev main_v395 : Ref sig .tc := ⟨.hbm, 547, rfl⟩
abbrev main_v396 : Ref sig .tc := ⟨.hbm, 548, rfl⟩
abbrev main_v397 : Ref sig .tc := ⟨.hbm, 549, rfl⟩
abbrev main_v398 : Ref sig .tc := ⟨.hbm, 550, rfl⟩
abbrev main_v399 : Ref sig .tc := ⟨.hbm, 551, rfl⟩
abbrev main_v400 : Ref sig .tc := ⟨.hbm, 552, rfl⟩
abbrev main_v401 : Ref sig .tc := ⟨.hbm, 553, rfl⟩
abbrev main_cst_103 : Ref sig .tc := ⟨.hbm, 554, rfl⟩
abbrev main_v402 : Ref sig .tc := ⟨.hbm, 555, rfl⟩
abbrev main_cst_104 : Ref sig .tc := ⟨.hbm, 556, rfl⟩
abbrev main_v403 : Ref sig .tc := ⟨.hbm, 557, rfl⟩
abbrev main_cst_105 : Ref sig .tc := ⟨.hbm, 558, rfl⟩
abbrev main_v404 : Ref sig .tc := ⟨.hbm, 559, rfl⟩
abbrev main_cst_106 : Ref sig .tc := ⟨.hbm, 560, rfl⟩
abbrev main_v405 : Ref sig .tc := ⟨.hbm, 561, rfl⟩
abbrev main_v406 : Ref sig .tc := ⟨.hbm, 562, rfl⟩
abbrev main_v407 : Ref sig .tc := ⟨.hbm, 563, rfl⟩
abbrev main_v408 : Ref sig .tc := ⟨.hbm, 564, rfl⟩
abbrev main_v409 : Ref sig .tc := ⟨.hbm, 565, rfl⟩
abbrev main_v410 : Ref sig .tc := ⟨.hbm, 566, rfl⟩
abbrev main_v411 : Ref sig .tc := ⟨.hbm, 567, rfl⟩
abbrev main_v412 : Ref sig .tc := ⟨.hbm, 568, rfl⟩
abbrev main_v413 : Ref sig .tc := ⟨.hbm, 569, rfl⟩
abbrev main_v414 : Ref sig .tc := ⟨.hbm, 570, rfl⟩
abbrev main_v415 : Ref sig .tc := ⟨.hbm, 571, rfl⟩
abbrev main_cst_107 : Ref sig .tc := ⟨.hbm, 572, rfl⟩
abbrev main_v416 : Ref sig .tc := ⟨.hbm, 573, rfl⟩
abbrev main_cst_108 : Ref sig .tc := ⟨.hbm, 574, rfl⟩
abbrev main_v417 : Ref sig .tc := ⟨.hbm, 575, rfl⟩
abbrev main_v418 : Ref sig .tc := ⟨.hbm, 576, rfl⟩
abbrev main_v419 : Ref sig .tc := ⟨.hbm, 577, rfl⟩
abbrev main_cst_109 : Ref sig .tc := ⟨.hbm, 578, rfl⟩
abbrev main_v420 : Ref sig .tc := ⟨.hbm, 579, rfl⟩
abbrev main_v421 : Ref sig .tc := ⟨.hbm, 580, rfl⟩
abbrev main_v422 : Ref sig .tc := ⟨.hbm, 581, rfl⟩
abbrev main_cst_110 : Ref sig .tc := ⟨.hbm, 582, rfl⟩
abbrev main_v423 : Ref sig .tc := ⟨.hbm, 583, rfl⟩
abbrev main_v424 : Ref sig .tc := ⟨.hbm, 584, rfl⟩
abbrev main_cst_111 : Ref sig .tc := ⟨.hbm, 585, rfl⟩
abbrev main_v425 : Ref sig .tc := ⟨.hbm, 586, rfl⟩
abbrev main_v426 : Ref sig .tc := ⟨.hbm, 587, rfl⟩
abbrev main_v427 : Ref sig .tc := ⟨.hbm, 588, rfl⟩
abbrev main_cst_112 : Ref sig .tc := ⟨.hbm, 589, rfl⟩
abbrev main_call12_v0 : Ref sig .tc := ⟨.hbm, 590, rfl⟩
abbrev main_call12_v1 : Ref sig .tc := ⟨.hbm, 591, rfl⟩
abbrev main_v428 : Ref sig .tc := ⟨.hbm, 592, rfl⟩
abbrev main_cst_113 : Ref sig .tc := ⟨.hbm, 593, rfl⟩
abbrev main_v429 : Ref sig .tc := ⟨.hbm, 594, rfl⟩
abbrev main_v430 : Ref sig .tc := ⟨.hbm, 595, rfl⟩
abbrev main_cst_114 : Ref sig .tc := ⟨.hbm, 596, rfl⟩
abbrev main_v431 : Ref sig .tc := ⟨.hbm, 597, rfl⟩
abbrev main_v432 : Ref sig .tc := ⟨.hbm, 598, rfl⟩
abbrev main_v433 : Ref sig .tc := ⟨.hbm, 599, rfl⟩
abbrev main_cst_115 : Ref sig .tc := ⟨.hbm, 600, rfl⟩
abbrev main_call13_v0 : Ref sig .tc := ⟨.hbm, 601, rfl⟩
abbrev main_call13_v1 : Ref sig .tc := ⟨.hbm, 602, rfl⟩
abbrev main_v434 : Ref sig .tc := ⟨.hbm, 603, rfl⟩
abbrev main_c_116 : Ref sig .tc := ⟨.hbm, 604, rfl⟩
abbrev main_v435 : Ref sig .tc := ⟨.hbm, 605, rfl⟩
abbrev main_v436 : Ref sig .tc := ⟨.hbm, 606, rfl⟩
abbrev main_c_117 : Ref sig .tc := ⟨.hbm, 607, rfl⟩
abbrev main_v437 : Ref sig .tc := ⟨.hbm, 608, rfl⟩
abbrev main_v438 : Ref sig .tc := ⟨.hbm, 609, rfl⟩
abbrev main_v439 : Ref sig .tc := ⟨.hbm, 610, rfl⟩
abbrev main_v440 : Ref sig .tc := ⟨.hbm, 611, rfl⟩
abbrev main_v441 : Ref sig .tc := ⟨.hbm, 612, rfl⟩
abbrev main_c_118 : Ref sig .tc := ⟨.hbm, 613, rfl⟩
abbrev main_v442 : Ref sig .tc := ⟨.hbm, 614, rfl⟩
abbrev main_v443 : Ref sig .tc := ⟨.hbm, 615, rfl⟩
abbrev main_c_119 : Ref sig .tc := ⟨.hbm, 616, rfl⟩
abbrev main_v444 : Ref sig .tc := ⟨.hbm, 617, rfl⟩
abbrev main_v445 : Ref sig .tc := ⟨.hbm, 618, rfl⟩
abbrev main_v446 : Ref sig .tc := ⟨.hbm, 619, rfl⟩
abbrev main_v447 : Ref sig .tc := ⟨.hbm, 620, rfl⟩
abbrev main_v448 : Ref sig .tc := ⟨.hbm, 621, rfl⟩
abbrev main_v449 : Ref sig .tc := ⟨.hbm, 622, rfl⟩
abbrev main_c_120 : Ref sig .tc := ⟨.hbm, 623, rfl⟩
abbrev main_v450 : Ref sig .tc := ⟨.hbm, 624, rfl⟩
abbrev main_v451 : Ref sig .tc := ⟨.hbm, 625, rfl⟩
abbrev main_c_121 : Ref sig .tc := ⟨.hbm, 626, rfl⟩
abbrev main_v452 : Ref sig .tc := ⟨.hbm, 627, rfl⟩
abbrev main_v453 : Ref sig .tc := ⟨.hbm, 628, rfl⟩
abbrev main_v454 : Ref sig .tc := ⟨.hbm, 629, rfl⟩
abbrev main_v455 : Ref sig .tc := ⟨.hbm, 630, rfl⟩
abbrev main_v456 : Ref sig .tc := ⟨.hbm, 631, rfl⟩
abbrev main_v457 : Ref sig .tc := ⟨.hbm, 632, rfl⟩
abbrev main_v458 : Ref sig .tc := ⟨.hbm, 633, rfl⟩
abbrev main_v459 : Ref sig .tc := ⟨.hbm, 634, rfl⟩
abbrev main_cst_122 : Ref sig .tc := ⟨.hbm, 635, rfl⟩
abbrev main_v460 : Ref sig .tc := ⟨.hbm, 636, rfl⟩
abbrev main_v461 : Ref sig .tc := ⟨.hbm, 637, rfl⟩
abbrev main_v462 : Ref sig .tc := ⟨.hbm, 638, rfl⟩
abbrev main_v463 : Ref sig .tc := ⟨.hbm, 639, rfl⟩
abbrev main_v464 : Ref sig .tc := ⟨.hbm, 640, rfl⟩
abbrev main_v465 : Ref sig .tc := ⟨.hbm, 641, rfl⟩
abbrev main_v466 : Ref sig .tc := ⟨.hbm, 642, rfl⟩
abbrev main_cst_123 : Ref sig .tc := ⟨.hbm, 643, rfl⟩
abbrev main_v467 : Ref sig .tc := ⟨.hbm, 644, rfl⟩
abbrev main_v468 : Ref sig .tc := ⟨.hbm, 645, rfl⟩
abbrev main_v469 : Ref sig .tc := ⟨.hbm, 646, rfl⟩
abbrev main_v470 : Ref sig .tc := ⟨.hbm, 647, rfl⟩
abbrev main_v471 : Ref sig .tc := ⟨.hbm, 648, rfl⟩
abbrev main_v472 : Ref sig .tc := ⟨.hbm, 649, rfl⟩
abbrev main_v473 : Ref sig .tc := ⟨.hbm, 650, rfl⟩
abbrev main_v474 : Ref sig .tc := ⟨.hbm, 651, rfl⟩
abbrev main_v475 : Ref sig .tc := ⟨.hbm, 652, rfl⟩
abbrev main_v476 : Ref sig .tc := ⟨.hbm, 653, rfl⟩
abbrev main_v477 : Ref sig .tc := ⟨.hbm, 654, rfl⟩
abbrev main_cst_124 : Ref sig .tc := ⟨.hbm, 655, rfl⟩
abbrev main_v478 : Ref sig .tc := ⟨.hbm, 656, rfl⟩
abbrev main_cst_125 : Ref sig .tc := ⟨.hbm, 657, rfl⟩
abbrev main_v479 : Ref sig .tc := ⟨.hbm, 658, rfl⟩
abbrev main_v480 : Ref sig .tc := ⟨.hbm, 659, rfl⟩
abbrev main_v481 : Ref sig .tc := ⟨.hbm, 660, rfl⟩
abbrev main_cst_126 : Ref sig .tc := ⟨.hbm, 661, rfl⟩
abbrev main_v482 : Ref sig .tc := ⟨.hbm, 662, rfl⟩
abbrev main_v483 : Ref sig .tc := ⟨.hbm, 663, rfl⟩
abbrev main_v484 : Ref sig .tc := ⟨.hbm, 664, rfl⟩
abbrev main_cst_127 : Ref sig .tc := ⟨.hbm, 665, rfl⟩
abbrev main_v485 : Ref sig .tc := ⟨.hbm, 666, rfl⟩
abbrev main_v486 : Ref sig .tc := ⟨.hbm, 667, rfl⟩
abbrev main_cst_128 : Ref sig .tc := ⟨.hbm, 668, rfl⟩
abbrev main_v487 : Ref sig .tc := ⟨.hbm, 669, rfl⟩
abbrev main_v488 : Ref sig .tc := ⟨.hbm, 670, rfl⟩
abbrev main_v489 : Ref sig .tc := ⟨.hbm, 671, rfl⟩
abbrev main_cst_129 : Ref sig .tc := ⟨.hbm, 672, rfl⟩
abbrev main_call14_v0 : Ref sig .tc := ⟨.hbm, 673, rfl⟩
abbrev main_call14_v1 : Ref sig .tc := ⟨.hbm, 674, rfl⟩
abbrev main_v490 : Ref sig .tc := ⟨.hbm, 675, rfl⟩
abbrev main_cst_130 : Ref sig .tc := ⟨.hbm, 676, rfl⟩
abbrev main_v491 : Ref sig .tc := ⟨.hbm, 677, rfl⟩
abbrev main_v492 : Ref sig .tc := ⟨.hbm, 678, rfl⟩
abbrev main_cst_131 : Ref sig .tc := ⟨.hbm, 679, rfl⟩
abbrev main_v493 : Ref sig .tc := ⟨.hbm, 680, rfl⟩
abbrev main_v494 : Ref sig .tc := ⟨.hbm, 681, rfl⟩
abbrev main_v495 : Ref sig .tc := ⟨.hbm, 682, rfl⟩
abbrev main_cst_132 : Ref sig .tc := ⟨.hbm, 683, rfl⟩
abbrev main_call15_v0 : Ref sig .tc := ⟨.hbm, 684, rfl⟩
abbrev main_call15_v1 : Ref sig .tc := ⟨.hbm, 685, rfl⟩
abbrev main_v496 : Ref sig .tc := ⟨.hbm, 686, rfl⟩
abbrev main_c_133 : Ref sig .tc := ⟨.hbm, 687, rfl⟩
abbrev main_v497 : Ref sig .tc := ⟨.hbm, 688, rfl⟩
abbrev main_v498 : Ref sig .tc := ⟨.hbm, 689, rfl⟩
abbrev main_c_134 : Ref sig .tc := ⟨.hbm, 690, rfl⟩
abbrev main_v499 : Ref sig .tc := ⟨.hbm, 691, rfl⟩
abbrev main_v500 : Ref sig .tc := ⟨.hbm, 692, rfl⟩
abbrev main_v501 : Ref sig .tc := ⟨.hbm, 693, rfl⟩
abbrev main_v502 : Ref sig .tc := ⟨.hbm, 694, rfl⟩
abbrev main_v503 : Ref sig .tc := ⟨.hbm, 695, rfl⟩
abbrev main_c_135 : Ref sig .tc := ⟨.hbm, 696, rfl⟩
abbrev main_v504 : Ref sig .tc := ⟨.hbm, 697, rfl⟩
abbrev main_v505 : Ref sig .tc := ⟨.hbm, 698, rfl⟩
abbrev main_c_136 : Ref sig .tc := ⟨.hbm, 699, rfl⟩
abbrev main_v506 : Ref sig .tc := ⟨.hbm, 700, rfl⟩
abbrev main_v507 : Ref sig .tc := ⟨.hbm, 701, rfl⟩
abbrev main_v508 : Ref sig .tc := ⟨.hbm, 702, rfl⟩
abbrev main_v509 : Ref sig .tc := ⟨.hbm, 703, rfl⟩
abbrev main_v510 : Ref sig .tc := ⟨.hbm, 704, rfl⟩
abbrev main_v511 : Ref sig .tc := ⟨.hbm, 705, rfl⟩
abbrev main_c_137 : Ref sig .tc := ⟨.hbm, 706, rfl⟩
abbrev main_v512 : Ref sig .tc := ⟨.hbm, 707, rfl⟩
abbrev main_v513 : Ref sig .tc := ⟨.hbm, 708, rfl⟩
abbrev main_c_138 : Ref sig .tc := ⟨.hbm, 709, rfl⟩
abbrev main_v514 : Ref sig .tc := ⟨.hbm, 710, rfl⟩
abbrev main_v515 : Ref sig .tc := ⟨.hbm, 711, rfl⟩
abbrev main_v516 : Ref sig .tc := ⟨.hbm, 712, rfl⟩
abbrev main_v517 : Ref sig .tc := ⟨.hbm, 713, rfl⟩
abbrev main_v518 : Ref sig .tc := ⟨.hbm, 714, rfl⟩
abbrev main_v519 : Ref sig .tc := ⟨.hbm, 715, rfl⟩
abbrev main_v520 : Ref sig .tc := ⟨.hbm, 716, rfl⟩
abbrev main_v521 : Ref sig .tc := ⟨.hbm, 717, rfl⟩
abbrev main_cst_139 : Ref sig .tc := ⟨.hbm, 718, rfl⟩
abbrev main_v522 : Ref sig .tc := ⟨.hbm, 719, rfl⟩
abbrev main_v523 : Ref sig .tc := ⟨.hbm, 720, rfl⟩
abbrev main_v524 : Ref sig .tc := ⟨.hbm, 721, rfl⟩
abbrev main_v525 : Ref sig .tc := ⟨.hbm, 722, rfl⟩
abbrev main_v526 : Ref sig .tc := ⟨.hbm, 723, rfl⟩
abbrev main_v527 : Ref sig .tc := ⟨.hbm, 724, rfl⟩
abbrev main_v528 : Ref sig .tc := ⟨.hbm, 725, rfl⟩
abbrev main_cst_140 : Ref sig .tc := ⟨.hbm, 726, rfl⟩
abbrev main_v529 : Ref sig .tc := ⟨.hbm, 727, rfl⟩
abbrev main_v530 : Ref sig .tc := ⟨.hbm, 728, rfl⟩
abbrev main_v531 : Ref sig .tc := ⟨.hbm, 729, rfl⟩
abbrev main_v532 : Ref sig .tc := ⟨.hbm, 730, rfl⟩
abbrev main_v533 : Ref sig .tc := ⟨.hbm, 731, rfl⟩
abbrev main_v534 : Ref sig .tc := ⟨.hbm, 732, rfl⟩
abbrev main_v535 : Ref sig .tc := ⟨.hbm, 733, rfl⟩
abbrev main_v536 : Ref sig .tc := ⟨.hbm, 734, rfl⟩
abbrev main_v537 : Ref sig .tc := ⟨.hbm, 735, rfl⟩
abbrev main_v538 : Ref sig .tc := ⟨.hbm, 736, rfl⟩
abbrev main_v539 : Ref sig .tc := ⟨.hbm, 737, rfl⟩
abbrev main_cst_141 : Ref sig .tc := ⟨.hbm, 738, rfl⟩
abbrev main_v540 : Ref sig .tc := ⟨.hbm, 739, rfl⟩
abbrev main_cst_142 : Ref sig .tc := ⟨.hbm, 740, rfl⟩
abbrev main_v541 : Ref sig .tc := ⟨.hbm, 741, rfl⟩
abbrev main_v542 : Ref sig .tc := ⟨.hbm, 742, rfl⟩
abbrev main_v543 : Ref sig .tc := ⟨.hbm, 743, rfl⟩
abbrev main_cst_143 : Ref sig .tc := ⟨.hbm, 744, rfl⟩
abbrev main_v544 : Ref sig .tc := ⟨.hbm, 745, rfl⟩
abbrev main_v545 : Ref sig .tc := ⟨.hbm, 746, rfl⟩
abbrev main_v546 : Ref sig .tc := ⟨.hbm, 747, rfl⟩
abbrev main_cst_144 : Ref sig .tc := ⟨.hbm, 748, rfl⟩
abbrev main_v547 : Ref sig .tc := ⟨.hbm, 749, rfl⟩
abbrev main_v548 : Ref sig .tc := ⟨.hbm, 750, rfl⟩
abbrev main_cst_145 : Ref sig .tc := ⟨.hbm, 751, rfl⟩
abbrev main_v549 : Ref sig .tc := ⟨.hbm, 752, rfl⟩
abbrev main_v550 : Ref sig .tc := ⟨.hbm, 753, rfl⟩
abbrev main_v551 : Ref sig .tc := ⟨.hbm, 754, rfl⟩
abbrev main_cst_146 : Ref sig .tc := ⟨.hbm, 755, rfl⟩
abbrev main_call16_v0 : Ref sig .tc := ⟨.hbm, 756, rfl⟩
abbrev main_call16_v1 : Ref sig .tc := ⟨.hbm, 757, rfl⟩
abbrev main_v552 : Ref sig .tc := ⟨.hbm, 758, rfl⟩
abbrev main_cst_147 : Ref sig .tc := ⟨.hbm, 759, rfl⟩
abbrev main_v553 : Ref sig .tc := ⟨.hbm, 760, rfl⟩
abbrev main_v554 : Ref sig .tc := ⟨.hbm, 761, rfl⟩
abbrev main_cst_148 : Ref sig .tc := ⟨.hbm, 762, rfl⟩
abbrev main_v555 : Ref sig .tc := ⟨.hbm, 763, rfl⟩
abbrev main_v556 : Ref sig .tc := ⟨.hbm, 764, rfl⟩
abbrev main_v557 : Ref sig .tc := ⟨.hbm, 765, rfl⟩
abbrev main_cst_149 : Ref sig .tc := ⟨.hbm, 766, rfl⟩
abbrev main_call17_v0 : Ref sig .tc := ⟨.hbm, 767, rfl⟩
abbrev main_call17_v1 : Ref sig .tc := ⟨.hbm, 768, rfl⟩
abbrev main_v558 : Ref sig .tc := ⟨.hbm, 769, rfl⟩
abbrev main_c_150 : Ref sig .tc := ⟨.hbm, 770, rfl⟩
abbrev main_v559 : Ref sig .tc := ⟨.hbm, 771, rfl⟩
abbrev main_v560 : Ref sig .tc := ⟨.hbm, 772, rfl⟩
abbrev main_c_151 : Ref sig .tc := ⟨.hbm, 773, rfl⟩
abbrev main_v561 : Ref sig .tc := ⟨.hbm, 774, rfl⟩
abbrev main_v562 : Ref sig .tc := ⟨.hbm, 775, rfl⟩
abbrev main_v563 : Ref sig .tc := ⟨.hbm, 776, rfl⟩
abbrev main_v564 : Ref sig .tc := ⟨.hbm, 777, rfl⟩
abbrev main_v565 : Ref sig .tc := ⟨.hbm, 778, rfl⟩
abbrev main_c_152 : Ref sig .tc := ⟨.hbm, 779, rfl⟩
abbrev main_v566 : Ref sig .tc := ⟨.hbm, 780, rfl⟩
abbrev main_v567 : Ref sig .tc := ⟨.hbm, 781, rfl⟩
abbrev main_c_153 : Ref sig .tc := ⟨.hbm, 782, rfl⟩
abbrev main_v568 : Ref sig .tc := ⟨.hbm, 783, rfl⟩
abbrev main_v569 : Ref sig .tc := ⟨.hbm, 784, rfl⟩
abbrev main_v570 : Ref sig .tc := ⟨.hbm, 785, rfl⟩
abbrev main_v571 : Ref sig .tc := ⟨.hbm, 786, rfl⟩
abbrev main_v572 : Ref sig .tc := ⟨.hbm, 787, rfl⟩
abbrev main_v573 : Ref sig .tc := ⟨.hbm, 788, rfl⟩
abbrev main_c_154 : Ref sig .tc := ⟨.hbm, 789, rfl⟩
abbrev main_v574 : Ref sig .tc := ⟨.hbm, 790, rfl⟩
abbrev main_v575 : Ref sig .tc := ⟨.hbm, 791, rfl⟩
abbrev main_c_155 : Ref sig .tc := ⟨.hbm, 792, rfl⟩
abbrev main_v576 : Ref sig .tc := ⟨.hbm, 793, rfl⟩
abbrev main_v577 : Ref sig .tc := ⟨.hbm, 794, rfl⟩
abbrev main_v578 : Ref sig .tc := ⟨.hbm, 795, rfl⟩
abbrev main_v579 : Ref sig .tc := ⟨.hbm, 796, rfl⟩
abbrev main_v580 : Ref sig .tc := ⟨.hbm, 797, rfl⟩
abbrev main_v581 : Ref sig .tc := ⟨.hbm, 798, rfl⟩
abbrev main_v582 : Ref sig .tc := ⟨.hbm, 799, rfl⟩
abbrev main_v583 : Ref sig .tc := ⟨.hbm, 800, rfl⟩
abbrev main_cst_156 : Ref sig .tc := ⟨.hbm, 801, rfl⟩
abbrev main_v584 : Ref sig .tc := ⟨.hbm, 802, rfl⟩
abbrev main_v585 : Ref sig .tc := ⟨.hbm, 803, rfl⟩
abbrev main_v586 : Ref sig .tc := ⟨.hbm, 804, rfl⟩
abbrev main_v587 : Ref sig .tc := ⟨.hbm, 805, rfl⟩
abbrev main_v588 : Ref sig .tc := ⟨.hbm, 806, rfl⟩
abbrev main_v589 : Ref sig .tc := ⟨.hbm, 807, rfl⟩
abbrev main_v590 : Ref sig .tc := ⟨.hbm, 808, rfl⟩
abbrev main_cst_157 : Ref sig .tc := ⟨.hbm, 809, rfl⟩
abbrev main_v591 : Ref sig .tc := ⟨.hbm, 810, rfl⟩
abbrev main_v592 : Ref sig .tc := ⟨.hbm, 811, rfl⟩
abbrev main_v593 : Ref sig .tc := ⟨.hbm, 812, rfl⟩
abbrev main_v594 : Ref sig .tc := ⟨.hbm, 813, rfl⟩
abbrev main_v595 : Ref sig .tc := ⟨.hbm, 814, rfl⟩
abbrev main_v596 : Ref sig .tc := ⟨.hbm, 815, rfl⟩
abbrev main_v597 : Ref sig .tc := ⟨.hbm, 816, rfl⟩
abbrev main_v598 : Ref sig .tc := ⟨.hbm, 817, rfl⟩
abbrev main_v599 : Ref sig .tc := ⟨.hbm, 818, rfl⟩
abbrev main_v600 : Ref sig .tc := ⟨.hbm, 819, rfl⟩
abbrev main_v601 : Ref sig .tc := ⟨.hbm, 820, rfl⟩
abbrev main_cst_158 : Ref sig .tc := ⟨.hbm, 821, rfl⟩
abbrev main_v602 : Ref sig .tc := ⟨.hbm, 822, rfl⟩
abbrev main_cst_159 : Ref sig .tc := ⟨.hbm, 823, rfl⟩
abbrev main_v603 : Ref sig .tc := ⟨.hbm, 824, rfl⟩
abbrev main_v604 : Ref sig .tc := ⟨.hbm, 825, rfl⟩
abbrev main_v605 : Ref sig .tc := ⟨.hbm, 826, rfl⟩
abbrev main_cst_160 : Ref sig .tc := ⟨.hbm, 827, rfl⟩
abbrev main_v606 : Ref sig .tc := ⟨.hbm, 828, rfl⟩
abbrev main_v607 : Ref sig .tc := ⟨.hbm, 829, rfl⟩
abbrev main_v608 : Ref sig .tc := ⟨.hbm, 830, rfl⟩
abbrev main_cst_161 : Ref sig .tc := ⟨.hbm, 831, rfl⟩
abbrev main_v609 : Ref sig .tc := ⟨.hbm, 832, rfl⟩
abbrev main_v610 : Ref sig .tc := ⟨.hbm, 833, rfl⟩
abbrev main_cst_162 : Ref sig .tc := ⟨.hbm, 834, rfl⟩
abbrev main_v611 : Ref sig .tc := ⟨.hbm, 835, rfl⟩
abbrev main_v612 : Ref sig .tc := ⟨.hbm, 836, rfl⟩
abbrev main_v613 : Ref sig .tc := ⟨.hbm, 837, rfl⟩
abbrev main_cst_163 : Ref sig .tc := ⟨.hbm, 838, rfl⟩
abbrev main_call18_v0 : Ref sig .tc := ⟨.hbm, 839, rfl⟩
abbrev main_call18_v1 : Ref sig .tc := ⟨.hbm, 840, rfl⟩
abbrev main_v614 : Ref sig .tc := ⟨.hbm, 841, rfl⟩
abbrev main_cst_164 : Ref sig .tc := ⟨.hbm, 842, rfl⟩
abbrev main_v615 : Ref sig .tc := ⟨.hbm, 843, rfl⟩
abbrev main_v616 : Ref sig .tc := ⟨.hbm, 844, rfl⟩
abbrev main_cst_165 : Ref sig .tc := ⟨.hbm, 845, rfl⟩
abbrev main_v617 : Ref sig .tc := ⟨.hbm, 846, rfl⟩
abbrev main_v618 : Ref sig .tc := ⟨.hbm, 847, rfl⟩
abbrev main_v619 : Ref sig .tc := ⟨.hbm, 848, rfl⟩
abbrev main_cst_166 : Ref sig .tc := ⟨.hbm, 849, rfl⟩
abbrev main_call19_v0 : Ref sig .tc := ⟨.hbm, 850, rfl⟩
abbrev main_call19_v1 : Ref sig .tc := ⟨.hbm, 851, rfl⟩
abbrev main_v620 : Ref sig .tc := ⟨.hbm, 852, rfl⟩
abbrev main_c_167 : Ref sig .tc := ⟨.hbm, 853, rfl⟩
abbrev main_v621 : Ref sig .tc := ⟨.hbm, 854, rfl⟩
abbrev main_v622 : Ref sig .tc := ⟨.hbm, 855, rfl⟩
abbrev main_c_168 : Ref sig .tc := ⟨.hbm, 856, rfl⟩
abbrev main_v623 : Ref sig .tc := ⟨.hbm, 857, rfl⟩
abbrev main_v624 : Ref sig .tc := ⟨.hbm, 858, rfl⟩
abbrev main_v625 : Ref sig .tc := ⟨.hbm, 859, rfl⟩
abbrev main_v626 : Ref sig .tc := ⟨.hbm, 860, rfl⟩
abbrev main_v627 : Ref sig .tc := ⟨.hbm, 861, rfl⟩
abbrev main_c_169 : Ref sig .tc := ⟨.hbm, 862, rfl⟩
abbrev main_v628 : Ref sig .tc := ⟨.hbm, 863, rfl⟩
abbrev main_v629 : Ref sig .tc := ⟨.hbm, 864, rfl⟩
abbrev main_c_170 : Ref sig .tc := ⟨.hbm, 865, rfl⟩
abbrev main_v630 : Ref sig .tc := ⟨.hbm, 866, rfl⟩
abbrev main_v631 : Ref sig .tc := ⟨.hbm, 867, rfl⟩
abbrev main_v632 : Ref sig .tc := ⟨.hbm, 868, rfl⟩
abbrev main_v633 : Ref sig .tc := ⟨.hbm, 869, rfl⟩
abbrev main_v634 : Ref sig .tc := ⟨.hbm, 870, rfl⟩
abbrev main_v635 : Ref sig .tc := ⟨.hbm, 871, rfl⟩
abbrev main_c_171 : Ref sig .tc := ⟨.hbm, 872, rfl⟩
abbrev main_v636 : Ref sig .tc := ⟨.hbm, 873, rfl⟩
abbrev main_v637 : Ref sig .tc := ⟨.hbm, 874, rfl⟩
abbrev main_c_172 : Ref sig .tc := ⟨.hbm, 875, rfl⟩
abbrev main_v638 : Ref sig .tc := ⟨.hbm, 876, rfl⟩
abbrev main_v639 : Ref sig .tc := ⟨.hbm, 877, rfl⟩
abbrev main_v640 : Ref sig .tc := ⟨.hbm, 878, rfl⟩
abbrev main_v641 : Ref sig .tc := ⟨.hbm, 879, rfl⟩
abbrev main_v642 : Ref sig .tc := ⟨.hbm, 880, rfl⟩
abbrev main_v643 : Ref sig .tc := ⟨.hbm, 881, rfl⟩
abbrev main_v644 : Ref sig .tc := ⟨.hbm, 882, rfl⟩
abbrev main_v645 : Ref sig .tc := ⟨.hbm, 883, rfl⟩
abbrev main_cst_173 : Ref sig .tc := ⟨.hbm, 884, rfl⟩
abbrev main_v646 : Ref sig .tc := ⟨.hbm, 885, rfl⟩
abbrev main_v647 : Ref sig .tc := ⟨.hbm, 886, rfl⟩
abbrev main_v648 : Ref sig .tc := ⟨.hbm, 887, rfl⟩
abbrev main_v649 : Ref sig .tc := ⟨.hbm, 888, rfl⟩
abbrev main_v650 : Ref sig .tc := ⟨.hbm, 889, rfl⟩
abbrev main_v651 : Ref sig .tc := ⟨.hbm, 890, rfl⟩
abbrev main_v652 : Ref sig .tc := ⟨.hbm, 891, rfl⟩
abbrev main_cst_174 : Ref sig .tc := ⟨.hbm, 892, rfl⟩
abbrev main_v653 : Ref sig .tc := ⟨.hbm, 893, rfl⟩
abbrev main_v654 : Ref sig .tc := ⟨.hbm, 894, rfl⟩
abbrev main_v655 : Ref sig .tc := ⟨.hbm, 895, rfl⟩
abbrev main_v656 : Ref sig .tc := ⟨.hbm, 896, rfl⟩
abbrev main_v657 : Ref sig .tc := ⟨.hbm, 897, rfl⟩
abbrev main_v658 : Ref sig .tc := ⟨.hbm, 898, rfl⟩
abbrev main_v659 : Ref sig .tc := ⟨.hbm, 899, rfl⟩
abbrev main_v660 : Ref sig .tc := ⟨.hbm, 900, rfl⟩
abbrev main_v661 : Ref sig .tc := ⟨.hbm, 901, rfl⟩
abbrev main_v662 : Ref sig .tc := ⟨.hbm, 902, rfl⟩
abbrev main_v663 : Ref sig .tc := ⟨.hbm, 903, rfl⟩
abbrev main_cst_175 : Ref sig .tc := ⟨.hbm, 904, rfl⟩
abbrev main_v664 : Ref sig .tc := ⟨.hbm, 905, rfl⟩
abbrev main_cst_176 : Ref sig .tc := ⟨.hbm, 906, rfl⟩
abbrev main_v665 : Ref sig .tc := ⟨.hbm, 907, rfl⟩
abbrev main_v666 : Ref sig .tc := ⟨.hbm, 908, rfl⟩
abbrev main_v667 : Ref sig .tc := ⟨.hbm, 909, rfl⟩
abbrev main_cst_177 : Ref sig .tc := ⟨.hbm, 910, rfl⟩
abbrev main_v668 : Ref sig .tc := ⟨.hbm, 911, rfl⟩
abbrev main_v669 : Ref sig .tc := ⟨.hbm, 912, rfl⟩
abbrev main_v670 : Ref sig .tc := ⟨.hbm, 913, rfl⟩
abbrev main_cst_178 : Ref sig .tc := ⟨.hbm, 914, rfl⟩
abbrev main_v671 : Ref sig .tc := ⟨.hbm, 915, rfl⟩
abbrev main_v672 : Ref sig .tc := ⟨.hbm, 916, rfl⟩
abbrev main_cst_179 : Ref sig .tc := ⟨.hbm, 917, rfl⟩
abbrev main_v673 : Ref sig .tc := ⟨.hbm, 918, rfl⟩
abbrev main_v674 : Ref sig .tc := ⟨.hbm, 919, rfl⟩
abbrev main_v675 : Ref sig .tc := ⟨.hbm, 920, rfl⟩
abbrev main_cst_180 : Ref sig .tc := ⟨.hbm, 921, rfl⟩
abbrev main_call20_v0 : Ref sig .tc := ⟨.hbm, 922, rfl⟩
abbrev main_call20_v1 : Ref sig .tc := ⟨.hbm, 923, rfl⟩
abbrev main_v676 : Ref sig .tc := ⟨.hbm, 924, rfl⟩
abbrev main_cst_181 : Ref sig .tc := ⟨.hbm, 925, rfl⟩
abbrev main_v677 : Ref sig .tc := ⟨.hbm, 926, rfl⟩
abbrev main_v678 : Ref sig .tc := ⟨.hbm, 927, rfl⟩
abbrev main_cst_182 : Ref sig .tc := ⟨.hbm, 928, rfl⟩
abbrev main_v679 : Ref sig .tc := ⟨.hbm, 929, rfl⟩
abbrev main_v680 : Ref sig .tc := ⟨.hbm, 930, rfl⟩
abbrev main_v681 : Ref sig .tc := ⟨.hbm, 931, rfl⟩
abbrev main_cst_183 : Ref sig .tc := ⟨.hbm, 932, rfl⟩
abbrev main_call21_v0 : Ref sig .tc := ⟨.hbm, 933, rfl⟩
abbrev main_call21_v1 : Ref sig .tc := ⟨.hbm, 934, rfl⟩
abbrev main_v682 : Ref sig .tc := ⟨.hbm, 935, rfl⟩
abbrev main_c_184 : Ref sig .tc := ⟨.hbm, 936, rfl⟩
abbrev main_v683 : Ref sig .tc := ⟨.hbm, 937, rfl⟩
abbrev main_v684 : Ref sig .tc := ⟨.hbm, 938, rfl⟩
abbrev main_c_185 : Ref sig .tc := ⟨.hbm, 939, rfl⟩
abbrev main_v685 : Ref sig .tc := ⟨.hbm, 940, rfl⟩
abbrev main_v686 : Ref sig .tc := ⟨.hbm, 941, rfl⟩
abbrev main_v687 : Ref sig .tc := ⟨.hbm, 942, rfl⟩
abbrev main_v688 : Ref sig .tc := ⟨.hbm, 943, rfl⟩
abbrev main_v689 : Ref sig .tc := ⟨.hbm, 944, rfl⟩
abbrev main_c_186 : Ref sig .tc := ⟨.hbm, 945, rfl⟩
abbrev main_v690 : Ref sig .tc := ⟨.hbm, 946, rfl⟩
abbrev main_v691 : Ref sig .tc := ⟨.hbm, 947, rfl⟩
abbrev main_c_187 : Ref sig .tc := ⟨.hbm, 948, rfl⟩
abbrev main_v692 : Ref sig .tc := ⟨.hbm, 949, rfl⟩
abbrev main_v693 : Ref sig .tc := ⟨.hbm, 950, rfl⟩
abbrev main_v694 : Ref sig .tc := ⟨.hbm, 951, rfl⟩
abbrev main_v695 : Ref sig .tc := ⟨.hbm, 952, rfl⟩
abbrev main_v696 : Ref sig .tc := ⟨.hbm, 953, rfl⟩
abbrev main_v697 : Ref sig .tc := ⟨.hbm, 954, rfl⟩
abbrev main_c_188 : Ref sig .tc := ⟨.hbm, 955, rfl⟩
abbrev main_v698 : Ref sig .tc := ⟨.hbm, 956, rfl⟩
abbrev main_v699 : Ref sig .tc := ⟨.hbm, 957, rfl⟩
abbrev main_c_189 : Ref sig .tc := ⟨.hbm, 958, rfl⟩
abbrev main_v700 : Ref sig .tc := ⟨.hbm, 959, rfl⟩
abbrev main_v701 : Ref sig .tc := ⟨.hbm, 960, rfl⟩
abbrev main_v702 : Ref sig .tc := ⟨.hbm, 961, rfl⟩
abbrev main_v703 : Ref sig .tc := ⟨.hbm, 962, rfl⟩
abbrev main_v704 : Ref sig .tc := ⟨.hbm, 963, rfl⟩
abbrev main_v705 : Ref sig .tc := ⟨.hbm, 964, rfl⟩
abbrev main_v706 : Ref sig .tc := ⟨.hbm, 965, rfl⟩
abbrev main_v707 : Ref sig .tc := ⟨.hbm, 966, rfl⟩
abbrev main_cst_190 : Ref sig .tc := ⟨.hbm, 967, rfl⟩
abbrev main_v708 : Ref sig .tc := ⟨.hbm, 968, rfl⟩
abbrev main_v709 : Ref sig .tc := ⟨.hbm, 969, rfl⟩
abbrev main_v710 : Ref sig .tc := ⟨.hbm, 970, rfl⟩
abbrev main_v711 : Ref sig .tc := ⟨.hbm, 971, rfl⟩
abbrev main_v712 : Ref sig .tc := ⟨.hbm, 972, rfl⟩
abbrev main_v713 : Ref sig .tc := ⟨.hbm, 973, rfl⟩
abbrev main_v714 : Ref sig .tc := ⟨.hbm, 974, rfl⟩
abbrev main_cst_191 : Ref sig .tc := ⟨.hbm, 975, rfl⟩
abbrev main_v715 : Ref sig .tc := ⟨.hbm, 976, rfl⟩
abbrev main_v716 : Ref sig .tc := ⟨.hbm, 977, rfl⟩
abbrev main_v717 : Ref sig .tc := ⟨.hbm, 978, rfl⟩
abbrev main_v718 : Ref sig .tc := ⟨.hbm, 979, rfl⟩
abbrev main_v719 : Ref sig .tc := ⟨.hbm, 980, rfl⟩
abbrev main_v720 : Ref sig .tc := ⟨.hbm, 981, rfl⟩
abbrev main_v721 : Ref sig .tc := ⟨.hbm, 982, rfl⟩
abbrev main_v722 : Ref sig .tc := ⟨.hbm, 983, rfl⟩
abbrev main_v723 : Ref sig .tc := ⟨.hbm, 984, rfl⟩
abbrev main_v724 : Ref sig .tc := ⟨.hbm, 985, rfl⟩
abbrev main_v725 : Ref sig .tc := ⟨.hbm, 986, rfl⟩
abbrev main_cst_192 : Ref sig .tc := ⟨.hbm, 987, rfl⟩
abbrev main_v726 : Ref sig .tc := ⟨.hbm, 988, rfl⟩
abbrev main_cst_193 : Ref sig .tc := ⟨.hbm, 989, rfl⟩
abbrev main_v727 : Ref sig .tc := ⟨.hbm, 990, rfl⟩
abbrev main_v728 : Ref sig .tc := ⟨.hbm, 991, rfl⟩
abbrev main_v729 : Ref sig .tc := ⟨.hbm, 992, rfl⟩
abbrev main_cst_194 : Ref sig .tc := ⟨.hbm, 993, rfl⟩
abbrev main_v730 : Ref sig .tc := ⟨.hbm, 994, rfl⟩
abbrev main_v731 : Ref sig .tc := ⟨.hbm, 995, rfl⟩
abbrev main_v732 : Ref sig .tc := ⟨.hbm, 996, rfl⟩
abbrev main_cst_195 : Ref sig .tc := ⟨.hbm, 997, rfl⟩
abbrev main_v733 : Ref sig .tc := ⟨.hbm, 998, rfl⟩
abbrev main_v734 : Ref sig .tc := ⟨.hbm, 999, rfl⟩
abbrev main_cst_196 : Ref sig .tc := ⟨.hbm, 1000, rfl⟩
abbrev main_v735 : Ref sig .tc := ⟨.hbm, 1001, rfl⟩
abbrev main_v736 : Ref sig .tc := ⟨.hbm, 1002, rfl⟩
abbrev main_v737 : Ref sig .tc := ⟨.hbm, 1003, rfl⟩
abbrev main_cst_197 : Ref sig .tc := ⟨.hbm, 1004, rfl⟩
abbrev main_call22_v0 : Ref sig .tc := ⟨.hbm, 1005, rfl⟩
abbrev main_call22_v1 : Ref sig .tc := ⟨.hbm, 1006, rfl⟩
abbrev main_v738 : Ref sig .tc := ⟨.hbm, 1007, rfl⟩
abbrev main_cst_198 : Ref sig .tc := ⟨.hbm, 1008, rfl⟩
abbrev main_v739 : Ref sig .tc := ⟨.hbm, 1009, rfl⟩
abbrev main_v740 : Ref sig .tc := ⟨.hbm, 1010, rfl⟩
abbrev main_cst_199 : Ref sig .tc := ⟨.hbm, 1011, rfl⟩
abbrev main_v741 : Ref sig .tc := ⟨.hbm, 1012, rfl⟩
abbrev main_v742 : Ref sig .tc := ⟨.hbm, 1013, rfl⟩
abbrev main_v743 : Ref sig .tc := ⟨.hbm, 1014, rfl⟩
abbrev main_cst_200 : Ref sig .tc := ⟨.hbm, 1015, rfl⟩
abbrev main_call23_v0 : Ref sig .tc := ⟨.hbm, 1016, rfl⟩
abbrev main_call23_v1 : Ref sig .tc := ⟨.hbm, 1017, rfl⟩
abbrev main_v744 : Ref sig .tc := ⟨.hbm, 1018, rfl⟩
abbrev main_c_201 : Ref sig .tc := ⟨.hbm, 1019, rfl⟩
abbrev main_v745 : Ref sig .tc := ⟨.hbm, 1020, rfl⟩
abbrev main_v746 : Ref sig .tc := ⟨.hbm, 1021, rfl⟩
abbrev main_c_202 : Ref sig .tc := ⟨.hbm, 1022, rfl⟩
abbrev main_v747 : Ref sig .tc := ⟨.hbm, 1023, rfl⟩
abbrev main_v748 : Ref sig .tc := ⟨.hbm, 1024, rfl⟩
abbrev main_v749 : Ref sig .tc := ⟨.hbm, 1025, rfl⟩
abbrev main_v750 : Ref sig .tc := ⟨.hbm, 1026, rfl⟩
abbrev main_v751 : Ref sig .tc := ⟨.hbm, 1027, rfl⟩
abbrev main_c_203 : Ref sig .tc := ⟨.hbm, 1028, rfl⟩
abbrev main_v752 : Ref sig .tc := ⟨.hbm, 1029, rfl⟩
abbrev main_v753 : Ref sig .tc := ⟨.hbm, 1030, rfl⟩
abbrev main_c_204 : Ref sig .tc := ⟨.hbm, 1031, rfl⟩
abbrev main_v754 : Ref sig .tc := ⟨.hbm, 1032, rfl⟩
abbrev main_v755 : Ref sig .tc := ⟨.hbm, 1033, rfl⟩
abbrev main_v756 : Ref sig .tc := ⟨.hbm, 1034, rfl⟩
abbrev main_v757 : Ref sig .tc := ⟨.hbm, 1035, rfl⟩
abbrev main_v758 : Ref sig .tc := ⟨.hbm, 1036, rfl⟩
abbrev main_v759 : Ref sig .tc := ⟨.hbm, 1037, rfl⟩
abbrev main_c_205 : Ref sig .tc := ⟨.hbm, 1038, rfl⟩
abbrev main_v760 : Ref sig .tc := ⟨.hbm, 1039, rfl⟩
abbrev main_v761 : Ref sig .tc := ⟨.hbm, 1040, rfl⟩
abbrev main_c_206 : Ref sig .tc := ⟨.hbm, 1041, rfl⟩
abbrev main_v762 : Ref sig .tc := ⟨.hbm, 1042, rfl⟩
abbrev main_v763 : Ref sig .tc := ⟨.hbm, 1043, rfl⟩
abbrev main_v764 : Ref sig .tc := ⟨.hbm, 1044, rfl⟩
abbrev main_v765 : Ref sig .tc := ⟨.hbm, 1045, rfl⟩
abbrev main_v766 : Ref sig .tc := ⟨.hbm, 1046, rfl⟩
abbrev main_v767 : Ref sig .tc := ⟨.hbm, 1047, rfl⟩
abbrev main_v768 : Ref sig .tc := ⟨.hbm, 1048, rfl⟩
abbrev main_v769 : Ref sig .tc := ⟨.hbm, 1049, rfl⟩
abbrev main_cst_207 : Ref sig .tc := ⟨.hbm, 1050, rfl⟩
abbrev main_v770 : Ref sig .tc := ⟨.hbm, 1051, rfl⟩
abbrev main_v771 : Ref sig .tc := ⟨.hbm, 1052, rfl⟩
abbrev main_v772 : Ref sig .tc := ⟨.hbm, 1053, rfl⟩
abbrev main_v773 : Ref sig .tc := ⟨.hbm, 1054, rfl⟩
abbrev main_v774 : Ref sig .tc := ⟨.hbm, 1055, rfl⟩
abbrev main_v775 : Ref sig .tc := ⟨.hbm, 1056, rfl⟩
abbrev main_v776 : Ref sig .tc := ⟨.hbm, 1057, rfl⟩
abbrev main_v777 : Ref sig .tc := ⟨.hbm, 1058, rfl⟩
abbrev main_v778 : Ref sig .tc := ⟨.hbm, 1059, rfl⟩
abbrev main_v779 : Ref sig .tc := ⟨.hbm, 1060, rfl⟩
abbrev main_v780 : Ref sig .tc := ⟨.hbm, 1061, rfl⟩
abbrev main_v781 : Ref sig .tc := ⟨.hbm, 1062, rfl⟩
abbrev main_v782 : Ref sig .tc := ⟨.hbm, 1063, rfl⟩
abbrev main_v783 : Ref sig .tc := ⟨.hbm, 1064, rfl⟩
abbrev main_v784 : Ref sig .tc := ⟨.hbm, 1065, rfl⟩
abbrev main_v785 : Ref sig .tc := ⟨.hbm, 1066, rfl⟩
abbrev main_v786 : Ref sig .tc := ⟨.hbm, 1067, rfl⟩
abbrev main_v787 : Ref sig .tc := ⟨.hbm, 1068, rfl⟩
abbrev main_v788 : Ref sig .tc := ⟨.hbm, 1069, rfl⟩
abbrev main_v789 : Ref sig .tc := ⟨.hbm, 1070, rfl⟩
abbrev main_v790 : Ref sig .tc := ⟨.hbm, 1071, rfl⟩
abbrev main_v791 : Ref sig .tc := ⟨.hbm, 1072, rfl⟩
abbrev main_v792 : Ref sig .tc := ⟨.hbm, 1073, rfl⟩
abbrev main_v793 : Ref sig .tc := ⟨.hbm, 1074, rfl⟩
abbrev main_v794 : Ref sig .tc := ⟨.hbm, 1075, rfl⟩
abbrev main_v795 : Ref sig .tc := ⟨.hbm, 1076, rfl⟩
abbrev main_v796 : Ref sig .tc := ⟨.hbm, 1077, rfl⟩
abbrev main_v797 : Ref sig .tc := ⟨.hbm, 1078, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg3_0 : Ref sig .tc := ⟨.vmem, 64, rfl⟩
abbrev cc10_stg3_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg2_0 : Ref sig .tc := ⟨.vmem, 69, rfl⟩
abbrev cc11_stg3_0 : Ref sig .tc := ⟨.vmem, 70, rfl⟩
abbrev cc11_stg3_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg2_0 : Ref sig .tc := ⟨.vmem, 75, rfl⟩
abbrev cc12_stg3_0 : Ref sig .tc := ⟨.vmem, 76, rfl⟩
abbrev cc12_stg3_1 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg2_0 : Ref sig .tc := ⟨.vmem, 81, rfl⟩
abbrev cc13_stg3_0 : Ref sig .tc := ⟨.vmem, 82, rfl⟩
abbrev cc13_stg3_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg2_0 : Ref sig .tc := ⟨.vmem, 87, rfl⟩
abbrev cc14_stg3_0 : Ref sig .tc := ⟨.vmem, 88, rfl⟩
abbrev cc14_stg3_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg2_0 : Ref sig .tc := ⟨.vmem, 93, rfl⟩
abbrev cc15_stg3_0 : Ref sig .tc := ⟨.vmem, 94, rfl⟩
abbrev cc15_stg3_1 : Ref sig .tc := ⟨.vmem, 95, rfl⟩
abbrev cc16_stg0_0 : Ref sig .tc := ⟨.vmem, 96, rfl⟩
abbrev cc16_stg0_1 : Ref sig .tc := ⟨.vmem, 97, rfl⟩
abbrev cc16_stg1_0 : Ref sig .tc := ⟨.vmem, 98, rfl⟩
abbrev cc16_stg2_0 : Ref sig .tc := ⟨.vmem, 99, rfl⟩
abbrev cc16_stg3_0 : Ref sig .tc := ⟨.vmem, 100, rfl⟩
abbrev cc16_stg3_1 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg2_0 : Ref sig .tc := ⟨.vmem, 105, rfl⟩
abbrev cc17_stg3_0 : Ref sig .tc := ⟨.vmem, 106, rfl⟩
abbrev cc17_stg3_1 : Ref sig .tc := ⟨.vmem, 107, rfl⟩
abbrev cc18_stg0_0 : Ref sig .tc := ⟨.vmem, 108, rfl⟩
abbrev cc18_stg0_1 : Ref sig .tc := ⟨.vmem, 109, rfl⟩
abbrev cc18_stg1_0 : Ref sig .tc := ⟨.vmem, 110, rfl⟩
abbrev cc18_stg2_0 : Ref sig .tc := ⟨.vmem, 111, rfl⟩
abbrev cc18_stg3_0 : Ref sig .tc := ⟨.vmem, 112, rfl⟩
abbrev cc18_stg3_1 : Ref sig .tc := ⟨.vmem, 113, rfl⟩
abbrev cc19_stg0_0 : Ref sig .tc := ⟨.vmem, 114, rfl⟩
abbrev cc19_stg0_1 : Ref sig .tc := ⟨.vmem, 115, rfl⟩
abbrev cc19_stg1_0 : Ref sig .tc := ⟨.vmem, 116, rfl⟩
abbrev cc19_stg2_0 : Ref sig .tc := ⟨.vmem, 117, rfl⟩
abbrev cc19_stg3_0 : Ref sig .tc := ⟨.vmem, 118, rfl⟩
abbrev cc19_stg3_1 : Ref sig .tc := ⟨.vmem, 119, rfl⟩
abbrev cc20_stg0_0 : Ref sig .tc := ⟨.vmem, 120, rfl⟩
abbrev cc20_stg0_1 : Ref sig .tc := ⟨.vmem, 121, rfl⟩
abbrev cc20_stg1_0 : Ref sig .tc := ⟨.vmem, 122, rfl⟩
abbrev cc20_stg2_0 : Ref sig .tc := ⟨.vmem, 123, rfl⟩
abbrev cc20_stg3_0 : Ref sig .tc := ⟨.vmem, 124, rfl⟩
abbrev cc20_stg3_1 : Ref sig .tc := ⟨.vmem, 125, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem3_0 : DmaSem sig := 64
abbrev cc10_sem3_1 : DmaSem sig := 65
abbrev cc11_sem0_0 : DmaSem sig := 66
abbrev cc11_sem0_1 : DmaSem sig := 67
abbrev cc11_sem1_0 : DmaSem sig := 68
abbrev cc11_sem2_0 : DmaSem sig := 69
abbrev cc11_sem3_0 : DmaSem sig := 70
abbrev cc11_sem3_1 : DmaSem sig := 71
abbrev cc12_sem0_0 : DmaSem sig := 72
abbrev cc12_sem0_1 : DmaSem sig := 73
abbrev cc12_sem1_0 : DmaSem sig := 74
abbrev cc12_sem2_0 : DmaSem sig := 75
abbrev cc12_sem3_0 : DmaSem sig := 76
abbrev cc12_sem3_1 : DmaSem sig := 77
abbrev cc13_sem0_0 : DmaSem sig := 78
abbrev cc13_sem0_1 : DmaSem sig := 79
abbrev cc13_sem1_0 : DmaSem sig := 80
abbrev cc13_sem2_0 : DmaSem sig := 81
abbrev cc13_sem3_0 : DmaSem sig := 82
abbrev cc13_sem3_1 : DmaSem sig := 83
abbrev cc14_sem0_0 : DmaSem sig := 84
abbrev cc14_sem0_1 : DmaSem sig := 85
abbrev cc14_sem1_0 : DmaSem sig := 86
abbrev cc14_sem2_0 : DmaSem sig := 87
abbrev cc14_sem3_0 : DmaSem sig := 88
abbrev cc14_sem3_1 : DmaSem sig := 89
abbrev cc15_sem0_0 : DmaSem sig := 90
abbrev cc15_sem0_1 : DmaSem sig := 91
abbrev cc15_sem1_0 : DmaSem sig := 92
abbrev cc15_sem2_0 : DmaSem sig := 93
abbrev cc15_sem3_0 : DmaSem sig := 94
abbrev cc15_sem3_1 : DmaSem sig := 95
abbrev cc16_sem0_0 : DmaSem sig := 96
abbrev cc16_sem0_1 : DmaSem sig := 97
abbrev cc16_sem1_0 : DmaSem sig := 98
abbrev cc16_sem2_0 : DmaSem sig := 99
abbrev cc16_sem3_0 : DmaSem sig := 100
abbrev cc16_sem3_1 : DmaSem sig := 101
abbrev cc17_sem0_0 : DmaSem sig := 102
abbrev cc17_sem0_1 : DmaSem sig := 103
abbrev cc17_sem1_0 : DmaSem sig := 104
abbrev cc17_sem2_0 : DmaSem sig := 105
abbrev cc17_sem3_0 : DmaSem sig := 106
abbrev cc17_sem3_1 : DmaSem sig := 107
abbrev cc18_sem0_0 : DmaSem sig := 108
abbrev cc18_sem0_1 : DmaSem sig := 109
abbrev cc18_sem1_0 : DmaSem sig := 110
abbrev cc18_sem2_0 : DmaSem sig := 111
abbrev cc18_sem3_0 : DmaSem sig := 112
abbrev cc18_sem3_1 : DmaSem sig := 113
abbrev cc19_sem0_0 : DmaSem sig := 114
abbrev cc19_sem0_1 : DmaSem sig := 115
abbrev cc19_sem1_0 : DmaSem sig := 116
abbrev cc19_sem2_0 : DmaSem sig := 117
abbrev cc19_sem3_0 : DmaSem sig := 118
abbrev cc19_sem3_1 : DmaSem sig := 119
abbrev cc20_sem0_0 : DmaSem sig := 120
abbrev cc20_sem0_1 : DmaSem sig := 121
abbrev cc20_sem1_0 : DmaSem sig := 122
abbrev cc20_sem2_0 : DmaSem sig := 123
abbrev cc20_sem3_0 : DmaSem sig := 124
abbrev cc20_sem3_1 : DmaSem sig := 125

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![15], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![15], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![15], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S4000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S4000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S4000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S4000x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![15], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S4000x64 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S4000x64 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![15], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S4000x64 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![5], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S4000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S128x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x64 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S4000x64 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![5], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S4000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x64 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x64 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S4000x64 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev grid19 : Pipeline.Grid := ⟨1, ![15], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S4000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x64 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 2 → Memref sig .tc .vmem S4000x64 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![5], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S4000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S1x64 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x64 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S4000x64 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

class Facts₀ : Prop where
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S20000x128 : S_.BroadcastsInDim S20000x128 (![] : Fin 0 → Fin S20000x128.rank)
  bcast_S_S60000x128 : S_.BroadcastsInDim S60000x128 (![] : Fin 0 → Fin S60000x128.rank)
  bcast_S_S128 : S_.BroadcastsInDim S128 (![] : Fin 0 → Fin S128.rank)
  slices_S6x128x128_S1x128x128_0_0_0 : S6x128x128.Slices ![0, 0, 0] S1x128x128
  shapeCasts_S1x128x128_S128x128 : S1x128x128.ShapeCasts S128x128
  shapeCasts_S4000x128_S4000x128 : S4000x128.ShapeCasts S4000x128
  shapeCasts_S128x128_S128x128 : S128x128.ShapeCasts S128x128
  slices_S6x128_S1x128_0_0 : S6x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S20000 : S_.BroadcastsInDim S20000 (![] : Fin 0 → Fin S20000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S6x128x128_S1x128x128_1_0_0 : S6x128x128.Slices ![1, 0, 0] S1x128x128
  slices_S6x128_S1x128_1_0 : S6x128.Slices ![1, 0] S1x128
  bcast_S_S60000 : S_.BroadcastsInDim S60000 (![] : Fin 0 → Fin S60000.rank)
  bcast_S1x128_S60000x128_0_1 : S1x128.BroadcastsInDim S60000x128 (![0, 1] : Fin 2 → Fin S60000x128.rank)
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  slices_S3x128_S1x128_0_0 : S3x128.Slices ![0, 0] S1x128
  reduces_S4000x128_S4000 : S4000x128.Reduces [1] S4000
  shapeCasts_S4000_S4000x1 : S4000.ShapeCasts S4000x1
  broadcasts_S4000x1_S4000x128 : S4000x1.Broadcasts S4000x128
  slices_S3x128_S1x128_1_0 : S3x128.Slices ![1, 0] S1x128
  slices_S3x128_S1x128_2_0 : S3x128.Slices ![2, 0] S1x128
  bcast_S_S20000x64 : S_.BroadcastsInDim S20000x64 (![] : Fin 0 → Fin S20000x64.rank)
  bcast_S_S60000x64 : S_.BroadcastsInDim S60000x64 (![] : Fin 0 → Fin S60000x64.rank)
  bcast_S_S64 : S_.BroadcastsInDim S64 (![] : Fin 0 → Fin S64.rank)
  slices_S6x128x64_S1x128x64_0_0_0 : S6x128x64.Slices ![0, 0, 0] S1x128x64
  shapeCasts_S1x128x64_S128x64 : S1x128x64.ShapeCasts S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  slices_S6x64_S1x64_0_0 : S6x64.Slices ![0, 0] S1x64
  shapeCasts_S1x64_S64 : S1x64.ShapeCasts S64
  bcast_S500000x1_S500000x64_0_1 : S500000x1.BroadcastsInDim S500000x64 (![0, 1] : Fin 2 → Fin S500000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  slices_S6x128x64_S1x128x64_1_0_0 : S6x128x64.Slices ![1, 0, 0] S1x128x64
  slices_S6x64_S1x64_1_0 : S6x64.Slices ![1, 0] S1x64
  bcast_S1x64_S60000x64_0_1 : S1x64.BroadcastsInDim S60000x64 (![0, 1] : Fin 2 → Fin S60000x64.rank)
  slices_S6x128x64_S1x128x64_2_0_0 : S6x128x64.Slices ![2, 0, 0] S1x128x64
  slices_S6x64_S1x64_2_0 : S6x64.Slices ![2, 0] S1x64
  slices_S6x128x64_S1x128x64_3_0_0 : S6x128x64.Slices ![3, 0, 0] S1x128x64
  slices_S6x64_S1x64_3_0 : S6x64.Slices ![3, 0] S1x64
  slices_S6x128x64_S1x128x64_4_0_0 : S6x128x64.Slices ![4, 0, 0] S1x128x64
  slices_S6x64_S1x64_4_0 : S6x64.Slices ![4, 0] S1x64
  slices_S6x128x64_S1x128x64_5_0_0 : S6x128x64.Slices ![5, 0, 0] S1x128x64
  slices_S6x64_S1x64_5_0 : S6x64.Slices ![5, 0] S1x64
  slices_S3x64_S1x64_0_0 : S3x64.Slices ![0, 0] S1x64
  shapeCasts_S4000x64_S4000x64 : S4000x64.ShapeCasts S4000x64
  reduces_S4000x64_S4000 : S4000x64.Reduces [1] S4000
  broadcasts_S4000x1_S4000x64 : S4000x1.Broadcasts S4000x64
  slices_S3x64_S1x64_1_0 : S3x64.Slices ![1, 0] S1x64
  slices_S3x64_S1x64_2_0 : S3x64.Slices ![2, 0] S1x64
  dot_S4000x128_S128x128_S4000x128_1_0_0_1_n_n_wf : DotDims.WF S4000x128 S128x128 S4000x128 [1] [0] [0] [1] [] []
  scatter_S20000_S500000x1_S500000_n_0_0_1_wf : ScatterDims.WF S20000 S500000x1 S500000 [] [0] [0] 1
  gather_S20000_S500000x1_S500000_n_0_n_n_0_1_1_wf : GatherDims.WF S20000 S500000x1 S500000 [] [0] [] [0] [] 1 ![1]
  gather_S20000x128_S500000x1_S500000x128_1_0_n_n_0_1_1128_wf : GatherDims.WF S20000x128 S500000x1 S500000x128 [1] [0] [] [0] [] 1 ![1, 128]
  scatter_S20000x128_S500000x1_S500000x128_1_0_0_1_wf : ScatterDims.WF S20000x128 S500000x1 S500000x128 [1] [0] [0] 1
  scatter_S60000_S500000x1_S500000_n_0_0_1_wf : ScatterDims.WF S60000 S500000x1 S500000 [] [0] [0] 1
  gather_S60000_S500000x1_S500000_n_0_n_n_0_1_1_wf : GatherDims.WF S60000 S500000x1 S500000 [] [0] [] [0] [] 1 ![1]
  scatter_S60000x128_S500000x1_S500000x128_1_0_0_1_wf : ScatterDims.WF S60000x128 S500000x1 S500000x128 [1] [0] [0] 1
  gather_S60000x128_S500000x1_S500000x128_1_0_n_n_0_1_1128_wf : GatherDims.WF S60000x128 S500000x1 S500000x128 [1] [0] [] [0] [] 1 ![1, 128]
  dot_S4000x128_S128x64_S4000x64_1_0_0_1_n_n_wf : DotDims.WF S4000x128 S128x64 S4000x64 [1] [0] [0] [1] [] []
  gather_S20000x64_S500000x1_S500000x64_1_0_n_n_0_1_164_wf : GatherDims.WF S20000x64 S500000x1 S500000x64 [1] [0] [] [0] [] 1 ![1, 64]
  scatter_S20000x64_S500000x1_S500000x64_1_0_0_1_wf : ScatterDims.WF S20000x64 S500000x1 S500000x64 [1] [0] [0] 1
  scatter_S60000x64_S500000x1_S500000x64_1_0_0_1_wf : ScatterDims.WF S60000x64 S500000x1 S500000x64 [1] [0] [0] 1
  gather_S60000x64_S500000x1_S500000x64_1_0_n_n_0_1_164_wf : GatherDims.WF S60000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S20000x128.size a
  hwx0_0 : ∀ i : grid0.Coords, EltTy.bits .f32 = 32 ∨ (Rect.block (s := S20000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S20000x128.size a
  hwx0_3 : ∀ i : grid0.Coords, EltTy.bits .f32 = 32 ∨ (Rect.block (s := S20000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S60000x128.size a
  hwx1_0 : ∀ i : grid1.Coords, EltTy.bits .f32 = 32 ∨ (Rect.block (s := S60000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S60000x128.size a
  hwx1_3 : ∀ i : grid1.Coords, EltTy.bits .f32 = 32 ∨ (Rect.block (s := S60000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S20000x128.size a
  hwx2_3 : ∀ i : grid2.Coords, EltTy.bits .f32 = 32 ∨ (Rect.block (s := S20000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S20000x128.size a
  hwx3_3 : ∀ i : grid3.Coords, EltTy.bits .f32 = 32 ∨ (Rect.block (s := S20000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S20000x128.size a
  hwx4_0 : ∀ i : grid4.Coords, EltTy.bits .f32 = 32 ∨ (Rect.block (s := S20000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S20000x128.size a
  hwx4_3 : ∀ i : grid4.Coords, EltTy.bits .f32 = 32 ∨ (Rect.block (s := S20000x128) S4000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S60000x128.size a
  hwx5_0 : ∀ i : grid5.Coords, EltTy.bits .f32 = 32 ∨ (Rect.block (s := S60000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S60000x128.size a
  hwx5_3 : ∀ i : grid5.Coords, EltTy.bits .f32 = 32 ∨ (Rect.block (s := S60000x128) S4000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S20000x128.size a
  hwx6_0 : ∀ i : grid6.Coords, EltTy.bits .f32 = 32 ∨ (Rect.block (s := S20000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x128.size a ≤ S20000x128.size a
  hwx6_3 : ∀ i : grid6.Coords, EltTy.bits .f32 = 32 ∨ (Rect.block (s := S20000x128) S4000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S60000x128.size a
  hwx7_0 : ∀ i : grid7.Coords, EltTy.bits .f32 = 32 ∨ (Rect.block (s := S60000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x128.size a ≤ S60000x128.size a
  hwx7_3 : ∀ i : grid7.Coords, EltTy.bits .f32 = 32 ∨ (Rect.block (s := S60000x128) S4000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S20000x128.size a
  hwx8_0 : ∀ i : grid8.Coords, EltTy.bits .f32 = 32 ∨ (Rect.block (s := S20000x128) S4000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x128.size a ≤ S20000x128.size a
  hwx8_3 : ∀ i : grid8.Coords, EltTy.bits .f32 = 32 ∨ (Rect.block (s := S20000x128) S4000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S20000x128.size a
  hwx9_0 : ∀ i : grid9.Coords, EltTy.bits .f32 = 32 ∨ (Rect.block (s := S20000x128) S4000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x128.size a ≤ S20000x128.size a
  hwx9_3 : ∀ i : grid9.Coords, EltTy.bits .f32 = 32 ∨ (Rect.block (s := S20000x128) S4000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S60000x128.size a
  hwx10_0 : ∀ i : grid10.Coords, EltTy.bits .f32 = 32 ∨ (Rect.block (s := S60000x128) S4000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4000x128.size a ≤ S60000x128.size a
  hwx10_3 : ∀ i : grid10.Coords, EltTy.bits .f32 = 32 ∨ (Rect.block (s := S60000x128) S4000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x128.size a ≤ S20000x128.size a
  hwx11_0 : ∀ i : grid11.Coords, EltTy.bits .f32 = 32 ∨ (Rect.block (s := S20000x128) S4000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4000x128.size a ≤ S20000x128.size a
  hwx11_3 : ∀ i : grid11.Coords, EltTy.bits .f32 = 32 ∨ (Rect.block (s := S20000x128) S4000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x128.size a ≤ S20000x128.size a
  hwx12_0 : ∀ i : grid12.Coords, EltTy.bits .f32 = 32 ∨ (Rect.block (s := S20000x128) S4000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x64.size a ≤ S128x64.size a
  hwx12_1 : ∀ i : grid12.Coords, EltTy.bits .f32 = 32 ∨ (Rect.block (s := S128x64) S128x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S4000x64.size a ≤ S20000x64.size a
  hwx12_3 : ∀ i : grid12.Coords, EltTy.bits .f32 = 32 ∨ (Rect.block (s := S20000x64) S4000x64.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x128.size a ≤ S20000x128.size a
  hwx13_0 : ∀ i : grid13.Coords, EltTy.bits .f32 = 32 ∨ (Rect.block (s := S20000x128) S4000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x64.size a ≤ S128x64.size a
  hwx13_1 : ∀ i : grid13.Coords, EltTy.bits .f32 = 32 ∨ (Rect.block (s := S128x64) S128x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4000x64.size a ≤ S20000x64.size a
  hwx13_3 : ∀ i : grid13.Coords, EltTy.bits .f32 = 32 ∨ (Rect.block (s := S20000x64) S4000x64.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4000x128.size a ≤ S60000x128.size a
  hwx14_0 : ∀ i : grid14.Coords, EltTy.bits .f32 = 32 ∨ (Rect.block (s := S60000x128) S4000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x64.size a ≤ S128x64.size a
  hwx14_1 : ∀ i : grid14.Coords, EltTy.bits .f32 = 32 ∨ (Rect.block (s := S128x64) S128x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S4000x64.size a ≤ S60000x64.size a
  hwx14_3 : ∀ i : grid14.Coords, EltTy.bits .f32 = 32 ∨ (Rect.block (s := S60000x64) S4000x64.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4000x128.size a ≤ S20000x128.size a
  hwx15_0 : ∀ i : grid15.Coords, EltTy.bits .f32 = 32 ∨ (Rect.block (s := S20000x128) S4000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x64.size a ≤ S128x64.size a
  hwx15_1 : ∀ i : grid15.Coords, EltTy.bits .f32 = 32 ∨ (Rect.block (s := S128x64) S128x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S4000x64.size a ≤ S20000x64.size a
  hwx15_3 : ∀ i : grid15.Coords, EltTy.bits .f32 = 32 ∨ (Rect.block (s := S20000x64) S4000x64.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S4000x128.size a ≤ S60000x128.size a
  hwx16_0 : ∀ i : grid16.Coords, EltTy.bits .f32 = 32 ∨ (Rect.block (s := S60000x128) S4000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x64.size a ≤ S128x64.size a
  hwx16_1 : ∀ i : grid16.Coords, EltTy.bits .f32 = 32 ∨ (Rect.block (s := S128x64) S128x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x64.size a ≤ S1x64.size a
  hwx16_2 : ∀ i : grid16.Coords, EltTy.bits .f32 = 32 ∨ (Rect.block (s := S1x64) S1x64.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S4000x64.size a ≤ S60000x64.size a
  hwx16_3 : ∀ i : grid16.Coords, EltTy.bits .f32 = 32 ∨ (Rect.block (s := S60000x64) S4000x64.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S4000x128.size a ≤ S20000x128.size a
  hwx17_0 : ∀ i : grid17.Coords, EltTy.bits .f32 = 32 ∨ (Rect.block (s := S20000x128) S4000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x64.size a ≤ S128x64.size a
  hwx17_1 : ∀ i : grid17.Coords, EltTy.bits .f32 = 32 ∨ (Rect.block (s := S128x64) S128x64.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x64.size a ≤ S1x64.size a
  hwx17_2 : ∀ i : grid17.Coords, EltTy.bits .f32 = 32 ∨ (Rect.block (s := S1x64) S1x64.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S4000x64.size a ≤ S20000x64.size a
  hwx17_3 : ∀ i : grid17.Coords, EltTy.bits .f32 = 32 ∨ (Rect.block (s := S20000x64) S4000x64.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S4000x64.size a ≤ S20000x64.size a
  hwx18_0 : ∀ i : grid18.Coords, EltTy.bits .f32 = 32 ∨ (Rect.block (s := S20000x64) S4000x64.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x64.size a ≤ S1x64.size a
  hwx18_1 : ∀ i : grid18.Coords, EltTy.bits .f32 = 32 ∨ (Rect.block (s := S1x64) S1x64.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x64.size a ≤ S1x64.size a
  hwx18_2 : ∀ i : grid18.Coords, EltTy.bits .f32 = 32 ∨ (Rect.block (s := S1x64) S1x64.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S4000x64.size a ≤ S20000x64.size a
  hwx18_3 : ∀ i : grid18.Coords, EltTy.bits .f32 = 32 ∨ (Rect.block (s := S20000x64) S4000x64.size (cc18_transform_3 i) (hinb18_3 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S4000x64.size a ≤ S60000x64.size a
  hwx19_0 : ∀ i : grid19.Coords, EltTy.bits .f32 = 32 ∨ (Rect.block (s := S60000x64) S4000x64.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x64.size a ≤ S1x64.size a
  hwx19_1 : ∀ i : grid19.Coords, EltTy.bits .f32 = 32 ∨ (Rect.block (s := S1x64) S1x64.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x64.size a ≤ S1x64.size a
  hwx19_2 : ∀ i : grid19.Coords, EltTy.bits .f32 = 32 ∨ (Rect.block (s := S1x64) S1x64.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S4000x64.size a ≤ S60000x64.size a
  hwx19_3 : ∀ i : grid19.Coords, EltTy.bits .f32 = 32 ∨ (Rect.block (s := S60000x64) S4000x64.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S4000x64.size a ≤ S20000x64.size a
  hwx20_0 : ∀ i : grid20.Coords, EltTy.bits .f32 = 32 ∨ (Rect.block (s := S20000x64) S4000x64.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S1x64.size a ≤ S1x64.size a
  hwx20_1 : ∀ i : grid20.Coords, EltTy.bits .f32 = 32 ∨ (Rect.block (s := S1x64) S1x64.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x64.size a ≤ S1x64.size a
  hwx20_2 : ∀ i : grid20.Coords, EltTy.bits .f32 = 32 ∨ (Rect.block (s := S1x64) S1x64.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S4000x64.size a ≤ S20000x64.size a
  hwx20_3 : ∀ i : grid20.Coords, EltTy.bits .f32 = 32 ∨ (Rect.block (s := S20000x64) S4000x64.size (cc20_transform_3 i) (hinb20_3 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def gather_S20000_S500000x1_S500000_n_0_n_n_0_1_1 : GatherDims S20000 S500000x1 S500000 where
  offsetDims := []
  collapsedSliceDims := [0]
  operandBatchingDims := []
  startIndicesBatchingDims := []
  startIndexMap := [0]
  indexVectorDim := 1
  sliceSizes := ![1]
  wf := gather_S20000_S500000x1_S500000_n_0_n_n_0_1_1_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S60000_S500000x1_S500000_n_0_0_1 : ScatterDims S60000 S500000x1 S500000 where
  updateWindowDims := []
  insertedWindowDims := [0]
  scatterDimsToOperandDims := [0]
  indexVectorDim := 1
  wf := scatter_S60000_S500000x1_S500000_n_0_0_1_wf
def gather_S60000_S500000x1_S500000_n_0_n_n_0_1_1 : GatherDims S60000 S500000x1 S500000 where
  offsetDims := []
  collapsedSliceDims := [0]
  operandBatchingDims := []
  startIndicesBatchingDims := []
  startIndexMap := [0]
  indexVectorDim := 1
  sliceSizes := ![1]
  wf := gather_S60000_S500000x1_S500000_n_0_n_n_0_1_1_wf
def scatter_S60000x128_S500000x1_S500000x128_1_0_0_1 : ScatterDims S60000x128 S500000x1 S500000x128 where
  updateWindowDims := [1]
  insertedWindowDims := [0]
  scatterDimsToOperandDims := [0]
  indexVectorDim := 1
  wf := scatter_S60000x128_S500000x1_S500000x128_1_0_0_1_wf
def gather_S60000x128_S500000x1_S500000x128_1_0_n_n_0_1_1128 : GatherDims S60000x128 S500000x1 S500000x128 where
  offsetDims := [1]
  collapsedSliceDims := [0]
  operandBatchingDims := []
  startIndicesBatchingDims := []
  startIndexMap := [0]
  indexVectorDim := 1
  sliceSizes := ![1, 128]
  wf := gather_S60000x128_S500000x1_S500000x128_1_0_n_n_0_1_1128_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def scatter_S60000x64_S500000x1_S500000x64_1_0_0_1 : ScatterDims S60000x64 S500000x1 S500000x64 where
  updateWindowDims := [1]
  insertedWindowDims := [0]
  scatterDimsToOperandDims := [0]
  indexVectorDim := 1
  wf := scatter_S60000x64_S500000x1_S500000x64_1_0_0_1_wf
def gather_S60000x64_S500000x1_S500000x64_1_0_n_n_0_1_164 : GatherDims S60000x64 S500000x1 S500000x64 where
  offsetDims := [1]
  collapsedSliceDims := [0]
  operandBatchingDims := []
  startIndicesBatchingDims := []
  startIndexMap := [0]
  indexVectorDim := 1
  sliceSizes := ![1, 64]
  wf := gather_S60000x64_S500000x1_S500000x64_1_0_n_n_0_1_164_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S4000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v3) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v135) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v136) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v137) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v5) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v197) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v198) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v199) S4000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v3) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v259) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v260) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v261) S4000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v5) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v321) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v322) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v323) S4000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v318) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v385) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v386) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v387) S4000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v380) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v392) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v393) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v394) S4000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v194) S4000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v399) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v400) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v401) S4000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v387) S4000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v407) S128x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v408) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v409) S4000x64.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v387) S4000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v469) S128x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v470) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v471) S4000x64.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v394) S4000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v531) S128x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v532) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v533) S4000x64.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v401) S4000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v593) S128x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v594) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v595) S4000x64.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v394) S4000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v655) S128x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v656) S1x64.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v657) S4000x64.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v401) S4000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v717) S128x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v718) S1x64.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v719) S4000x64.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v714) S4000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v781) S1x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v782) S1x64.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v783) S4000x64.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_v776) S4000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v788) S1x64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v789) S1x64.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v790) S4000x64.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v590) S4000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v795) S1x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v796) S1x64.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v797) S4000x64.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

class Facts : Prop extends Facts₀ where

variable [Facts]
-- ==== ReferenceIdeal.lean ====
abbrev S20000x128 : Shape := ⟨2, ![20000, 128]⟩
abbrev S60000x128 : Shape := ⟨2, ![60000, 128]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S6x128x64 : Shape := ⟨3, ![6, 128, 64]⟩
abbrev S6x64 : Shape := ⟨2, ![6, 64]⟩
abbrev S3x128 : Shape := ⟨2, ![3, 128]⟩
abbrev S3x64 : Shape := ⟨2, ![3, 64]⟩
abbrev S2x500000 : Shape := ⟨2, ![2, 500000]⟩
abbrev S1x128 : Shape := ⟨2, ![1, 128]⟩
abbrev S_ : Shape := ⟨0, ![]⟩
abbrev S1x128x128 : Shape := ⟨3, ![1, 128, 128]⟩
abbrev S1x500000 : Shape := ⟨2, ![1, 500000]⟩
abbrev S500000 : Shape := ⟨1, ![500000]⟩
abbrev S20000 : Shape := ⟨1, ![20000]⟩
abbrev S500000x1 : Shape := ⟨2, ![500000, 1]⟩
abbrev S500000x128 : Shape := ⟨2, ![500000, 128]⟩
abbrev S60000 : Shape := ⟨1, ![60000]⟩
abbrev S20000x1 : Shape := ⟨2, ![20000, 1]⟩
abbrev S60000x1 : Shape := ⟨2, ![60000, 1]⟩
abbrev S20000x64 : Shape := ⟨2, ![20000, 64]⟩
abbrev S60000x64 : Shape := ⟨2, ![60000, 64]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S500000x64 : Shape := ⟨2, ![500000, 64]⟩

abbrev nBuf : Space → Nat
  | .hbm => 1214
  | .vmem => 0
  | .smem => 0
  | _ => 0

abbrev hbmTy0_0 (i : Nat) : BufTy := match i % 128 with
  | 0 => ⟨S20000x128, .f32⟩
  | 1 => ⟨S60000x128, .f32⟩
  | 2 => ⟨S20000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S6x128x128, .f32⟩
  | 10 => ⟨S6x128, .f32⟩
  | 11 => ⟨S6x128x64, .f32⟩
  | 12 => ⟨S6x64, .f32⟩
  | 13 => ⟨S3x128, .f32⟩
  | 14 => ⟨S3x128, .f32⟩
  | 15 => ⟨S3x64, .f32⟩
  | 16 => ⟨S3x64, .f32⟩
  | 17 => ⟨S2x500000, .i32⟩
  | 18 => ⟨S2x500000, .i32⟩
  | 19 => ⟨S2x500000, .i32⟩
  | 20 => ⟨S2x500000, .i32⟩
  | 21 => ⟨S2x500000, .i32⟩
  | 22 => ⟨S2x500000, .i32⟩
  | 23 => ⟨S20000x128, .f32⟩
  | 24 => ⟨S1x128, .f32⟩
  | 25 => ⟨S20000x128, .f32⟩
  | 26 => ⟨S20000x128, .f32⟩
  | 27 => ⟨S60000x128, .f32⟩
  | 28 => ⟨S1x128, .f32⟩
  | 29 => ⟨S60000x128, .f32⟩
  | 30 => ⟨S60000x128, .f32⟩
  | 31 => ⟨S20000x128, .f32⟩
  | 32 => ⟨S1x128, .f32⟩
  | 33 => ⟨S20000x128, .f32⟩
  | 34 => ⟨S20000x128, .f32⟩
  | 35 => ⟨S_, .f32⟩
  | 36 => ⟨S20000x128, .f32⟩
  | 37 => ⟨S_, .f32⟩
  | 38 => ⟨S60000x128, .f32⟩
  | 39 => ⟨S_, .f32⟩
  | 40 => ⟨S20000x128, .f32⟩
  | 41 => ⟨S1x128x128, .f32⟩
  | 42 => ⟨S128x128, .f32⟩
  | 43 => ⟨S1x128, .f32⟩
  | 44 => ⟨S128, .f32⟩
  | 45 => ⟨S1x500000, .i32⟩
  | 46 => ⟨S500000, .i32⟩
  | 47 => ⟨S1x500000, .i32⟩
  | 48 => ⟨S500000, .i32⟩
  | 49 => ⟨S_, .f32⟩
  | 50 => ⟨S500000, .f32⟩
  | 51 => ⟨S_, .f32⟩
  | 52 => ⟨S20000, .f32⟩
  | 53 => ⟨S500000x1, .i32⟩
  | 54 => ⟨S20000, .f32⟩
  | 55 => ⟨S_, .f32⟩
  | 56 => ⟨S20000, .f32⟩
  | 57 => ⟨S500000x1, .i32⟩
  | 58 => ⟨S20000, .f32⟩
  | 59 => ⟨S_, .f32⟩
  | 60 => ⟨S20000, .f32⟩
  | 61 => ⟨S20000, .i1⟩
  | 62 => ⟨S_, .f32⟩
  | 63 => ⟨S20000, .f32⟩
  | 64 => ⟨S20000, .f32⟩
  | 65 => ⟨S20000, .f32⟩
  | 66 => ⟨S_, .f32⟩
  | 67 => ⟨S_, .f32⟩
  | 68 => ⟨S20000, .f32⟩
  | 69 => ⟨S20000, .f32⟩
  | 70 => ⟨S_, .f32⟩
  | 71 => ⟨S20000, .f32⟩
  | 72 => ⟨S20000, .i1⟩
  | 73 => ⟨S_, .f32⟩
  | 74 => ⟨S20000, .f32⟩
  | 75 => ⟨S20000, .f32⟩
  | 76 => ⟨S20000, .f32⟩
  | 77 => ⟨S_, .f32⟩
  | 78 => ⟨S_, .f32⟩
  | 79 => ⟨S20000, .f32⟩
  | 80 => ⟨S20000, .f32⟩
  | 81 => ⟨S20000x128, .f32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S500000, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000, .f32⟩
  | 100 => ⟨S500000, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S500000x1, .f32⟩
  | 111 => ⟨S500000x128, .f32⟩
  | 112 => ⟨S500000x128, .f32⟩
  | 113 => ⟨S_, .f32⟩
  | 114 => ⟨S20000x128, .f32⟩
  | 115 => ⟨S500000x1, .i32⟩
  | 116 => ⟨S20000x128, .f32⟩
  | 117 => ⟨S1x128, .f32⟩
  | 118 => ⟨S20000x128, .f32⟩
  | 119 => ⟨S20000x128, .f32⟩
  | 120 => ⟨S20000x128, .f32⟩
  | 121 => ⟨S1x128x128, .f32⟩
  | 122 => ⟨S128x128, .f32⟩
  | 123 => ⟨S1x128, .f32⟩
  | 124 => ⟨S128, .f32⟩
  | 125 => ⟨S1x500000, .i32⟩
  | 126 => ⟨S500000, .i32⟩
  | 127 => ⟨S1x500000, .i32⟩
  | _ => ⟨S20000x128, .f32⟩

abbrev hbmTy0_1 (i : Nat) : BufTy := match i % 128 with
  | 0 => ⟨S500000, .i32⟩
  | 1 => ⟨S_, .f32⟩
  | 2 => ⟨S500000, .f32⟩
  | 3 => ⟨S_, .f32⟩
  | 4 => ⟨S20000, .f32⟩
  | 5 => ⟨S500000x1, .i32⟩
  | 6 => ⟨S20000, .f32⟩
  | 7 => ⟨S_, .f32⟩
  | 8 => ⟨S60000, .f32⟩
  | 9 => ⟨S500000x1, .i32⟩
  | 10 => ⟨S60000, .f32⟩
  | 11 => ⟨S_, .f32⟩
  | 12 => ⟨S20000, .f32⟩
  | 13 => ⟨S20000, .i1⟩
  | 14 => ⟨S_, .f32⟩
  | 15 => ⟨S20000, .f32⟩
  | 16 => ⟨S20000, .f32⟩
  | 17 => ⟨S20000, .f32⟩
  | 18 => ⟨S_, .f32⟩
  | 19 => ⟨S_, .f32⟩
  | 20 => ⟨S20000, .f32⟩
  | 21 => ⟨S20000, .f32⟩
  | 22 => ⟨S_, .f32⟩
  | 23 => ⟨S60000, .f32⟩
  | 24 => ⟨S60000, .i1⟩
  | 25 => ⟨S_, .f32⟩
  | 26 => ⟨S60000, .f32⟩
  | 27 => ⟨S60000, .f32⟩
  | 28 => ⟨S60000, .f32⟩
  | 29 => ⟨S_, .f32⟩
  | 30 => ⟨S_, .f32⟩
  | 31 => ⟨S60000, .f32⟩
  | 32 => ⟨S60000, .f32⟩
  | 33 => ⟨S20000x128, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000, .f32⟩
  | 52 => ⟨S500000, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S500000x1, .f32⟩
  | 63 => ⟨S500000x128, .f32⟩
  | 64 => ⟨S500000x128, .f32⟩
  | 65 => ⟨S_, .f32⟩
  | 66 => ⟨S60000x128, .f32⟩
  | 67 => ⟨S500000x1, .i32⟩
  | 68 => ⟨S60000x128, .f32⟩
  | 69 => ⟨S1x128, .f32⟩
  | 70 => ⟨S60000x128, .f32⟩
  | 71 => ⟨S60000x128, .f32⟩
  | 72 => ⟨S60000x128, .f32⟩
  | 73 => ⟨S1x128x128, .f32⟩
  | 74 => ⟨S128x128, .f32⟩
  | 75 => ⟨S1x128, .f32⟩
  | 76 => ⟨S128, .f32⟩
  | 77 => ⟨S1x500000, .i32⟩
  | 78 => ⟨S500000, .i32⟩
  | 79 => ⟨S1x500000, .i32⟩
  | 80 => ⟨S500000, .i32⟩
  | 81 => ⟨S_, .f32⟩
  | 82 => ⟨S500000, .f32⟩
  | 83 => ⟨S_, .f32⟩
  | 84 => ⟨S60000, .f32⟩
  | 85 => ⟨S500000x1, .i32⟩
  | 86 => ⟨S60000, .f32⟩
  | 87 => ⟨S_, .f32⟩
  | 88 => ⟨S20000, .f32⟩
  | 89 => ⟨S500000x1, .i32⟩
  | 90 => ⟨S20000, .f32⟩
  | 91 => ⟨S_, .f32⟩
  | 92 => ⟨S60000, .f32⟩
  | 93 => ⟨S60000, .i1⟩
  | 94 => ⟨S_, .f32⟩
  | 95 => ⟨S60000, .f32⟩
  | 96 => ⟨S60000, .f32⟩
  | 97 => ⟨S60000, .f32⟩
  | 98 => ⟨S_, .f32⟩
  | 99 => ⟨S_, .f32⟩
  | 100 => ⟨S60000, .f32⟩
  | 101 => ⟨S60000, .f32⟩
  | 102 => ⟨S_, .f32⟩
  | 103 => ⟨S20000, .f32⟩
  | 104 => ⟨S20000, .i1⟩
  | 105 => ⟨S_, .f32⟩
  | 106 => ⟨S20000, .f32⟩
  | 107 => ⟨S20000, .f32⟩
  | 108 => ⟨S20000, .f32⟩
  | 109 => ⟨S_, .f32⟩
  | 110 => ⟨S_, .f32⟩
  | 111 => ⟨S20000, .f32⟩
  | 112 => ⟨S20000, .f32⟩
  | 113 => ⟨S60000x128, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000, .f32⟩
  | 123 => ⟨S_, .i32⟩
  | 124 => ⟨S500000, .i32⟩
  | 125 => ⟨S500000, .i1⟩
  | 126 => ⟨S_, .i32⟩
  | 127 => ⟨S500000, .i32⟩
  | _ => ⟨S20000x128, .f32⟩

abbrev hbmTy0_2 (i : Nat) : BufTy := match i % 128 with
  | 0 => ⟨S500000, .i32⟩
  | 1 => ⟨S500000, .i32⟩
  | 2 => ⟨S500000x1, .i32⟩
  | 3 => ⟨S500000, .f32⟩
  | 4 => ⟨S500000, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x128, .f32⟩
  | 14 => ⟨S500000x1, .f32⟩
  | 15 => ⟨S500000x128, .f32⟩
  | 16 => ⟨S500000x128, .f32⟩
  | 17 => ⟨S_, .f32⟩
  | 18 => ⟨S20000x128, .f32⟩
  | 19 => ⟨S500000x1, .i32⟩
  | 20 => ⟨S20000x128, .f32⟩
  | 21 => ⟨S1x128, .f32⟩
  | 22 => ⟨S20000x128, .f32⟩
  | 23 => ⟨S20000x128, .f32⟩
  | 24 => ⟨S20000x128, .f32⟩
  | 25 => ⟨S1x128x128, .f32⟩
  | 26 => ⟨S128x128, .f32⟩
  | 27 => ⟨S1x128, .f32⟩
  | 28 => ⟨S128, .f32⟩
  | 29 => ⟨S1x500000, .i32⟩
  | 30 => ⟨S500000, .i32⟩
  | 31 => ⟨S1x500000, .i32⟩
  | 32 => ⟨S500000, .i32⟩
  | 33 => ⟨S_, .f32⟩
  | 34 => ⟨S500000, .f32⟩
  | 35 => ⟨S_, .f32⟩
  | 36 => ⟨S20000, .f32⟩
  | 37 => ⟨S500000x1, .i32⟩
  | 38 => ⟨S20000, .f32⟩
  | 39 => ⟨S_, .f32⟩
  | 40 => ⟨S20000, .f32⟩
  | 41 => ⟨S500000x1, .i32⟩
  | 42 => ⟨S20000, .f32⟩
  | 43 => ⟨S_, .f32⟩
  | 44 => ⟨S20000, .f32⟩
  | 45 => ⟨S20000, .i1⟩
  | 46 => ⟨S_, .f32⟩
  | 47 => ⟨S20000, .f32⟩
  | 48 => ⟨S20000, .f32⟩
  | 49 => ⟨S20000, .f32⟩
  | 50 => ⟨S_, .f32⟩
  | 51 => ⟨S_, .f32⟩
  | 52 => ⟨S20000, .f32⟩
  | 53 => ⟨S20000, .f32⟩
  | 54 => ⟨S_, .f32⟩
  | 55 => ⟨S20000, .f32⟩
  | 56 => ⟨S20000, .i1⟩
  | 57 => ⟨S_, .f32⟩
  | 58 => ⟨S20000, .f32⟩
  | 59 => ⟨S20000, .f32⟩
  | 60 => ⟨S20000, .f32⟩
  | 61 => ⟨S_, .f32⟩
  | 62 => ⟨S_, .f32⟩
  | 63 => ⟨S20000, .f32⟩
  | 64 => ⟨S20000, .f32⟩
  | 65 => ⟨S20000x128, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000, .f32⟩
  | 84 => ⟨S500000, .f32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x128, .f32⟩
  | 94 => ⟨S500000x1, .f32⟩
  | 95 => ⟨S500000x128, .f32⟩
  | 96 => ⟨S500000x128, .f32⟩
  | 97 => ⟨S_, .f32⟩
  | 98 => ⟨S20000x128, .f32⟩
  | 99 => ⟨S500000x1, .i32⟩
  | 100 => ⟨S20000x128, .f32⟩
  | 101 => ⟨S1x128, .f32⟩
  | 102 => ⟨S20000x128, .f32⟩
  | 103 => ⟨S20000x128, .f32⟩
  | 104 => ⟨S20000x128, .f32⟩
  | 105 => ⟨S1x128x128, .f32⟩
  | 106 => ⟨S128x128, .f32⟩
  | 107 => ⟨S1x128, .f32⟩
  | 108 => ⟨S128, .f32⟩
  | 109 => ⟨S1x500000, .i32⟩
  | 110 => ⟨S500000, .i32⟩
  | 111 => ⟨S1x500000, .i32⟩
  | 112 => ⟨S500000, .i32⟩
  | 113 => ⟨S_, .f32⟩
  | 114 => ⟨S500000, .f32⟩
  | 115 => ⟨S_, .f32⟩
  | 116 => ⟨S60000, .f32⟩
  | 117 => ⟨S500000x1, .i32⟩
  | 118 => ⟨S60000, .f32⟩
  | 119 => ⟨S_, .f32⟩
  | 120 => ⟨S20000, .f32⟩
  | 121 => ⟨S500000x1, .i32⟩
  | 122 => ⟨S20000, .f32⟩
  | 123 => ⟨S_, .f32⟩
  | 124 => ⟨S60000, .f32⟩
  | 125 => ⟨S60000, .i1⟩
  | 126 => ⟨S_, .f32⟩
  | 127 => ⟨S60000, .f32⟩
  | _ => ⟨S20000x128, .f32⟩

abbrev hbmTy0_3 (i : Nat) : BufTy := match i % 128 with
  | 0 => ⟨S60000, .f32⟩
  | 1 => ⟨S60000, .f32⟩
  | 2 => ⟨S_, .f32⟩
  | 3 => ⟨S_, .f32⟩
  | 4 => ⟨S60000, .f32⟩
  | 5 => ⟨S60000, .f32⟩
  | 6 => ⟨S_, .f32⟩
  | 7 => ⟨S20000, .f32⟩
  | 8 => ⟨S20000, .i1⟩
  | 9 => ⟨S_, .f32⟩
  | 10 => ⟨S20000, .f32⟩
  | 11 => ⟨S20000, .f32⟩
  | 12 => ⟨S20000, .f32⟩
  | 13 => ⟨S_, .f32⟩
  | 14 => ⟨S_, .f32⟩
  | 15 => ⟨S20000, .f32⟩
  | 16 => ⟨S20000, .f32⟩
  | 17 => ⟨S60000x128, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000, .f32⟩
  | 36 => ⟨S500000, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x128, .f32⟩
  | 46 => ⟨S500000x1, .f32⟩
  | 47 => ⟨S500000x128, .f32⟩
  | 48 => ⟨S500000x128, .f32⟩
  | 49 => ⟨S_, .f32⟩
  | 50 => ⟨S20000x128, .f32⟩
  | 51 => ⟨S500000x1, .i32⟩
  | 52 => ⟨S20000x128, .f32⟩
  | 53 => ⟨S1x128, .f32⟩
  | 54 => ⟨S20000x128, .f32⟩
  | 55 => ⟨S20000x128, .f32⟩
  | 56 => ⟨S20000x128, .f32⟩
  | 57 => ⟨S1x128x128, .f32⟩
  | 58 => ⟨S128x128, .f32⟩
  | 59 => ⟨S1x128, .f32⟩
  | 60 => ⟨S128, .f32⟩
  | 61 => ⟨S1x500000, .i32⟩
  | 62 => ⟨S500000, .i32⟩
  | 63 => ⟨S1x500000, .i32⟩
  | 64 => ⟨S500000, .i32⟩
  | 65 => ⟨S_, .f32⟩
  | 66 => ⟨S500000, .f32⟩
  | 67 => ⟨S_, .f32⟩
  | 68 => ⟨S20000, .f32⟩
  | 69 => ⟨S500000x1, .i32⟩
  | 70 => ⟨S20000, .f32⟩
  | 71 => ⟨S_, .f32⟩
  | 72 => ⟨S60000, .f32⟩
  | 73 => ⟨S500000x1, .i32⟩
  | 74 => ⟨S60000, .f32⟩
  | 75 => ⟨S_, .f32⟩
  | 76 => ⟨S20000, .f32⟩
  | 77 => ⟨S20000, .i1⟩
  | 78 => ⟨S_, .f32⟩
  | 79 => ⟨S20000, .f32⟩
  | 80 => ⟨S20000, .f32⟩
  | 81 => ⟨S20000, .f32⟩
  | 82 => ⟨S_, .f32⟩
  | 83 => ⟨S_, .f32⟩
  | 84 => ⟨S20000, .f32⟩
  | 85 => ⟨S20000, .f32⟩
  | 86 => ⟨S_, .f32⟩
  | 87 => ⟨S60000, .f32⟩
  | 88 => ⟨S60000, .i1⟩
  | 89 => ⟨S_, .f32⟩
  | 90 => ⟨S60000, .f32⟩
  | 91 => ⟨S60000, .f32⟩
  | 92 => ⟨S60000, .f32⟩
  | 93 => ⟨S_, .f32⟩
  | 94 => ⟨S_, .f32⟩
  | 95 => ⟨S60000, .f32⟩
  | 96 => ⟨S60000, .f32⟩
  | 97 => ⟨S20000x128, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000, .f32⟩
  | 116 => ⟨S500000, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x128, .f32⟩
  | 126 => ⟨S500000x1, .f32⟩
  | 127 => ⟨S500000x128, .f32⟩
  | _ => ⟨S20000x128, .f32⟩

abbrev hbmTy0_4 (i : Nat) : BufTy := match i % 128 with
  | 0 => ⟨S500000x128, .f32⟩
  | 1 => ⟨S_, .f32⟩
  | 2 => ⟨S60000x128, .f32⟩
  | 3 => ⟨S500000x1, .i32⟩
  | 4 => ⟨S60000x128, .f32⟩
  | 5 => ⟨S1x128, .f32⟩
  | 6 => ⟨S60000x128, .f32⟩
  | 7 => ⟨S60000x128, .f32⟩
  | 8 => ⟨S60000x128, .f32⟩
  | 9 => ⟨S1x128, .f32⟩
  | 10 => ⟨S128, .f32⟩
  | 11 => ⟨S1x128, .f32⟩
  | 12 => ⟨S128, .f32⟩
  | 13 => ⟨S_, .f32⟩
  | 14 => ⟨S20000, .f32⟩
  | 15 => ⟨S20000x1, .f32⟩
  | 16 => ⟨S_, .f32⟩
  | 17 => ⟨S20000x1, .f32⟩
  | 18 => ⟨S20000x1, .f32⟩
  | 19 => ⟨S20000x128, .f32⟩
  | 20 => ⟨S20000x128, .f32⟩
  | 21 => ⟨S20000x128, .f32⟩
  | 22 => ⟨S_, .f32⟩
  | 23 => ⟨S20000, .f32⟩
  | 24 => ⟨S20000x1, .f32⟩
  | 25 => ⟨S_, .f32⟩
  | 26 => ⟨S20000x1, .f32⟩
  | 27 => ⟨S20000x1, .f32⟩
  | 28 => ⟨S20000x128, .f32⟩
  | 29 => ⟨S20000x128, .f32⟩
  | 30 => ⟨S_, .f32⟩
  | 31 => ⟨S20000x1, .f32⟩
  | 32 => ⟨S20000x1, .f32⟩
  | 33 => ⟨S20000x1, .f32⟩
  | 34 => ⟨S20000x128, .f32⟩
  | 35 => ⟨S20000x128, .f32⟩
  | 36 => ⟨S1x128, .f32⟩
  | 37 => ⟨S20000x128, .f32⟩
  | 38 => ⟨S20000x128, .f32⟩
  | 39 => ⟨S1x128, .f32⟩
  | 40 => ⟨S20000x128, .f32⟩
  | 41 => ⟨S20000x128, .f32⟩
  | 42 => ⟨S1x128, .f32⟩
  | 43 => ⟨S128, .f32⟩
  | 44 => ⟨S1x128, .f32⟩
  | 45 => ⟨S128, .f32⟩
  | 46 => ⟨S_, .f32⟩
  | 47 => ⟨S60000, .f32⟩
  | 48 => ⟨S60000x1, .f32⟩
  | 49 => ⟨S_, .f32⟩
  | 50 => ⟨S60000x1, .f32⟩
  | 51 => ⟨S60000x1, .f32⟩
  | 52 => ⟨S60000x128, .f32⟩
  | 53 => ⟨S60000x128, .f32⟩
  | 54 => ⟨S60000x128, .f32⟩
  | 55 => ⟨S_, .f32⟩
  | 56 => ⟨S60000, .f32⟩
  | 57 => ⟨S60000x1, .f32⟩
  | 58 => ⟨S_, .f32⟩
  | 59 => ⟨S60000x1, .f32⟩
  | 60 => ⟨S60000x1, .f32⟩
  | 61 => ⟨S60000x128, .f32⟩
  | 62 => ⟨S60000x128, .f32⟩
  | 63 => ⟨S_, .f32⟩
  | 64 => ⟨S60000x1, .f32⟩
  | 65 => ⟨S60000x1, .f32⟩
  | 66 => ⟨S60000x1, .f32⟩
  | 67 => ⟨S60000x128, .f32⟩
  | 68 => ⟨S60000x128, .f32⟩
  | 69 => ⟨S1x128, .f32⟩
  | 70 => ⟨S60000x128, .f32⟩
  | 71 => ⟨S60000x128, .f32⟩
  | 72 => ⟨S1x128, .f32⟩
  | 73 => ⟨S60000x128, .f32⟩
  | 74 => ⟨S60000x128, .f32⟩
  | 75 => ⟨S1x128, .f32⟩
  | 76 => ⟨S128, .f32⟩
  | 77 => ⟨S1x128, .f32⟩
  | 78 => ⟨S128, .f32⟩
  | 79 => ⟨S_, .f32⟩
  | 80 => ⟨S20000, .f32⟩
  | 81 => ⟨S20000x1, .f32⟩
  | 82 => ⟨S_, .f32⟩
  | 83 => ⟨S20000x1, .f32⟩
  | 84 => ⟨S20000x1, .f32⟩
  | 85 => ⟨S20000x128, .f32⟩
  | 86 => ⟨S20000x128, .f32⟩
  | 87 => ⟨S20000x128, .f32⟩
  | 88 => ⟨S_, .f32⟩
  | 89 => ⟨S20000, .f32⟩
  | 90 => ⟨S20000x1, .f32⟩
  | 91 => ⟨S_, .f32⟩
  | 92 => ⟨S20000x1, .f32⟩
  | 93 => ⟨S20000x1, .f32⟩
  | 94 => ⟨S20000x128, .f32⟩
  | 95 => ⟨S20000x128, .f32⟩
  | 96 => ⟨S_, .f32⟩
  | 97 => ⟨S20000x1, .f32⟩
  | 98 => ⟨S20000x1, .f32⟩
  | 99 => ⟨S20000x1, .f32⟩
  | 100 => ⟨S20000x128, .f32⟩
  | 101 => ⟨S20000x128, .f32⟩
  | 102 => ⟨S1x128, .f32⟩
  | 103 => ⟨S20000x128, .f32⟩
  | 104 => ⟨S20000x128, .f32⟩
  | 105 => ⟨S1x128, .f32⟩
  | 106 => ⟨S20000x128, .f32⟩
  | 107 => ⟨S20000x128, .f32⟩
  | 108 => ⟨S_, .f32⟩
  | 109 => ⟨S20000x128, .f32⟩
  | 110 => ⟨S20000x128, .f32⟩
  | 111 => ⟨S_, .f32⟩
  | 112 => ⟨S60000x128, .f32⟩
  | 113 => ⟨S60000x128, .f32⟩
  | 114 => ⟨S_, .f32⟩
  | 115 => ⟨S20000x128, .f32⟩
  | 116 => ⟨S20000x128, .f32⟩
  | 117 => ⟨S_, .f32⟩
  | 118 => ⟨S20000x64, .f32⟩
  | 119 => ⟨S_, .f32⟩
  | 120 => ⟨S60000x64, .f32⟩
  | 121 => ⟨S_, .f32⟩
  | 122 => ⟨S20000x64, .f32⟩
  | 123 => ⟨S1x128x64, .f32⟩
  | 124 => ⟨S128x64, .f32⟩
  | 125 => ⟨S1x64, .f32⟩
  | 126 => ⟨S64, .f32⟩
  | 127 => ⟨S1x500000, .i32⟩
  | _ => ⟨S20000x128, .f32⟩

abbrev hbmTy0_5 (i : Nat) : BufTy := match i % 128 with
  | 0 => ⟨S500000, .i32⟩
  | 1 => ⟨S1x500000, .i32⟩
  | 2 => ⟨S500000, .i32⟩
  | 3 => ⟨S_, .f32⟩
  | 4 => ⟨S500000, .f32⟩
  | 5 => ⟨S_, .f32⟩
  | 6 => ⟨S20000, .f32⟩
  | 7 => ⟨S500000x1, .i32⟩
  | 8 => ⟨S20000, .f32⟩
  | 9 => ⟨S_, .f32⟩
  | 10 => ⟨S20000, .f32⟩
  | 11 => ⟨S500000x1, .i32⟩
  | 12 => ⟨S20000, .f32⟩
  | 13 => ⟨S_, .f32⟩
  | 14 => ⟨S20000, .f32⟩
  | 15 => ⟨S20000, .i1⟩
  | 16 => ⟨S_, .f32⟩
  | 17 => ⟨S20000, .f32⟩
  | 18 => ⟨S20000, .f32⟩
  | 19 => ⟨S20000, .f32⟩
  | 20 => ⟨S_, .f32⟩
  | 21 => ⟨S_, .f32⟩
  | 22 => ⟨S20000, .f32⟩
  | 23 => ⟨S20000, .f32⟩
  | 24 => ⟨S_, .f32⟩
  | 25 => ⟨S20000, .f32⟩
  | 26 => ⟨S20000, .i1⟩
  | 27 => ⟨S_, .f32⟩
  | 28 => ⟨S20000, .f32⟩
  | 29 => ⟨S20000, .f32⟩
  | 30 => ⟨S20000, .f32⟩
  | 31 => ⟨S_, .f32⟩
  | 32 => ⟨S_, .f32⟩
  | 33 => ⟨S20000, .f32⟩
  | 34 => ⟨S20000, .f32⟩
  | 35 => ⟨S20000x64, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000, .f32⟩
  | 54 => ⟨S500000, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x64, .f32⟩
  | 64 => ⟨S500000x1, .f32⟩
  | 65 => ⟨S500000x64, .f32⟩
  | 66 => ⟨S500000x64, .f32⟩
  | 67 => ⟨S_, .f32⟩
  | 68 => ⟨S20000x64, .f32⟩
  | 69 => ⟨S500000x1, .i32⟩
  | 70 => ⟨S20000x64, .f32⟩
  | 71 => ⟨S1x64, .f32⟩
  | 72 => ⟨S20000x64, .f32⟩
  | 73 => ⟨S20000x64, .f32⟩
  | 74 => ⟨S20000x64, .f32⟩
  | 75 => ⟨S1x128x64, .f32⟩
  | 76 => ⟨S128x64, .f32⟩
  | 77 => ⟨S1x64, .f32⟩
  | 78 => ⟨S64, .f32⟩
  | 79 => ⟨S1x500000, .i32⟩
  | 80 => ⟨S500000, .i32⟩
  | 81 => ⟨S1x500000, .i32⟩
  | 82 => ⟨S500000, .i32⟩
  | 83 => ⟨S_, .f32⟩
  | 84 => ⟨S500000, .f32⟩
  | 85 => ⟨S_, .f32⟩
  | 86 => ⟨S20000, .f32⟩
  | 87 => ⟨S500000x1, .i32⟩
  | 88 => ⟨S20000, .f32⟩
  | 89 => ⟨S_, .f32⟩
  | 90 => ⟨S60000, .f32⟩
  | 91 => ⟨S500000x1, .i32⟩
  | 92 => ⟨S60000, .f32⟩
  | 93 => ⟨S_, .f32⟩
  | 94 => ⟨S20000, .f32⟩
  | 95 => ⟨S20000, .i1⟩
  | 96 => ⟨S_, .f32⟩
  | 97 => ⟨S20000, .f32⟩
  | 98 => ⟨S20000, .f32⟩
  | 99 => ⟨S20000, .f32⟩
  | 100 => ⟨S_, .f32⟩
  | 101 => ⟨S_, .f32⟩
  | 102 => ⟨S20000, .f32⟩
  | 103 => ⟨S20000, .f32⟩
  | 104 => ⟨S_, .f32⟩
  | 105 => ⟨S60000, .f32⟩
  | 106 => ⟨S60000, .i1⟩
  | 107 => ⟨S_, .f32⟩
  | 108 => ⟨S60000, .f32⟩
  | 109 => ⟨S60000, .f32⟩
  | 110 => ⟨S60000, .f32⟩
  | 111 => ⟨S_, .f32⟩
  | 112 => ⟨S_, .f32⟩
  | 113 => ⟨S60000, .f32⟩
  | 114 => ⟨S60000, .f32⟩
  | 115 => ⟨S20000x64, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000, .f32⟩
  | 125 => ⟨S_, .i32⟩
  | 126 => ⟨S500000, .i32⟩
  | 127 => ⟨S500000, .i1⟩
  | _ => ⟨S20000x128, .f32⟩

abbrev hbmTy0_6 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000, .f32⟩
  | 6 => ⟨S500000, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x64, .f32⟩
  | 16 => ⟨S500000x1, .f32⟩
  | 17 => ⟨S500000x64, .f32⟩
  | 18 => ⟨S500000x64, .f32⟩
  | 19 => ⟨S_, .f32⟩
  | 20 => ⟨S60000x64, .f32⟩
  | 21 => ⟨S500000x1, .i32⟩
  | 22 => ⟨S60000x64, .f32⟩
  | 23 => ⟨S1x64, .f32⟩
  | 24 => ⟨S60000x64, .f32⟩
  | 25 => ⟨S60000x64, .f32⟩
  | 26 => ⟨S60000x64, .f32⟩
  | 27 => ⟨S1x128x64, .f32⟩
  | 28 => ⟨S128x64, .f32⟩
  | 29 => ⟨S1x64, .f32⟩
  | 30 => ⟨S64, .f32⟩
  | 31 => ⟨S1x500000, .i32⟩
  | 32 => ⟨S500000, .i32⟩
  | 33 => ⟨S1x500000, .i32⟩
  | 34 => ⟨S500000, .i32⟩
  | 35 => ⟨S_, .f32⟩
  | 36 => ⟨S500000, .f32⟩
  | 37 => ⟨S_, .f32⟩
  | 38 => ⟨S60000, .f32⟩
  | 39 => ⟨S500000x1, .i32⟩
  | 40 => ⟨S60000, .f32⟩
  | 41 => ⟨S_, .f32⟩
  | 42 => ⟨S20000, .f32⟩
  | 43 => ⟨S500000x1, .i32⟩
  | 44 => ⟨S20000, .f32⟩
  | 45 => ⟨S_, .f32⟩
  | 46 => ⟨S60000, .f32⟩
  | 47 => ⟨S60000, .i1⟩
  | 48 => ⟨S_, .f32⟩
  | 49 => ⟨S60000, .f32⟩
  | 50 => ⟨S60000, .f32⟩
  | 51 => ⟨S60000, .f32⟩
  | 52 => ⟨S_, .f32⟩
  | 53 => ⟨S_, .f32⟩
  | 54 => ⟨S60000, .f32⟩
  | 55 => ⟨S60000, .f32⟩
  | 56 => ⟨S_, .f32⟩
  | 57 => ⟨S20000, .f32⟩
  | 58 => ⟨S20000, .i1⟩
  | 59 => ⟨S_, .f32⟩
  | 60 => ⟨S20000, .f32⟩
  | 61 => ⟨S20000, .f32⟩
  | 62 => ⟨S20000, .f32⟩
  | 63 => ⟨S_, .f32⟩
  | 64 => ⟨S_, .f32⟩
  | 65 => ⟨S20000, .f32⟩
  | 66 => ⟨S20000, .f32⟩
  | 67 => ⟨S60000x64, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000, .f32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000, .f32⟩
  | 86 => ⟨S500000, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x64, .f32⟩
  | 96 => ⟨S500000x1, .f32⟩
  | 97 => ⟨S500000x64, .f32⟩
  | 98 => ⟨S500000x64, .f32⟩
  | 99 => ⟨S_, .f32⟩
  | 100 => ⟨S20000x64, .f32⟩
  | 101 => ⟨S500000x1, .i32⟩
  | 102 => ⟨S20000x64, .f32⟩
  | 103 => ⟨S1x64, .f32⟩
  | 104 => ⟨S20000x64, .f32⟩
  | 105 => ⟨S20000x64, .f32⟩
  | 106 => ⟨S20000x64, .f32⟩
  | 107 => ⟨S1x128x64, .f32⟩
  | 108 => ⟨S128x64, .f32⟩
  | 109 => ⟨S1x64, .f32⟩
  | 110 => ⟨S64, .f32⟩
  | 111 => ⟨S1x500000, .i32⟩
  | 112 => ⟨S500000, .i32⟩
  | 113 => ⟨S1x500000, .i32⟩
  | 114 => ⟨S500000, .i32⟩
  | 115 => ⟨S_, .f32⟩
  | 116 => ⟨S500000, .f32⟩
  | 117 => ⟨S_, .f32⟩
  | 118 => ⟨S20000, .f32⟩
  | 119 => ⟨S500000x1, .i32⟩
  | 120 => ⟨S20000, .f32⟩
  | 121 => ⟨S_, .f32⟩
  | 122 => ⟨S20000, .f32⟩
  | 123 => ⟨S500000x1, .i32⟩
  | 124 => ⟨S20000, .f32⟩
  | 125 => ⟨S_, .f32⟩
  | 126 => ⟨S20000, .f32⟩
  | 127 => ⟨S20000, .i1⟩
  | _ => ⟨S20000x128, .f32⟩

abbrev hbmTy0_7 (i : Nat) : BufTy := match i % 128 with
  | 0 => ⟨S_, .f32⟩
  | 1 => ⟨S20000, .f32⟩
  | 2 => ⟨S20000, .f32⟩
  | 3 => ⟨S20000, .f32⟩
  | 4 => ⟨S_, .f32⟩
  | 5 => ⟨S_, .f32⟩
  | 6 => ⟨S20000, .f32⟩
  | 7 => ⟨S20000, .f32⟩
  | 8 => ⟨S_, .f32⟩
  | 9 => ⟨S20000, .f32⟩
  | 10 => ⟨S20000, .i1⟩
  | 11 => ⟨S_, .f32⟩
  | 12 => ⟨S20000, .f32⟩
  | 13 => ⟨S20000, .f32⟩
  | 14 => ⟨S20000, .f32⟩
  | 15 => ⟨S_, .f32⟩
  | 16 => ⟨S_, .f32⟩
  | 17 => ⟨S20000, .f32⟩
  | 18 => ⟨S20000, .f32⟩
  | 19 => ⟨S20000x64, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000, .f32⟩
  | 38 => ⟨S500000, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x64, .f32⟩
  | 48 => ⟨S500000x1, .f32⟩
  | 49 => ⟨S500000x64, .f32⟩
  | 50 => ⟨S500000x64, .f32⟩
  | 51 => ⟨S_, .f32⟩
  | 52 => ⟨S20000x64, .f32⟩
  | 53 => ⟨S500000x1, .i32⟩
  | 54 => ⟨S20000x64, .f32⟩
  | 55 => ⟨S1x64, .f32⟩
  | 56 => ⟨S20000x64, .f32⟩
  | 57 => ⟨S20000x64, .f32⟩
  | 58 => ⟨S20000x64, .f32⟩
  | 59 => ⟨S1x128x64, .f32⟩
  | 60 => ⟨S128x64, .f32⟩
  | 61 => ⟨S1x64, .f32⟩
  | 62 => ⟨S64, .f32⟩
  | 63 => ⟨S1x500000, .i32⟩
  | 64 => ⟨S500000, .i32⟩
  | 65 => ⟨S1x500000, .i32⟩
  | 66 => ⟨S500000, .i32⟩
  | 67 => ⟨S_, .f32⟩
  | 68 => ⟨S500000, .f32⟩
  | 69 => ⟨S_, .f32⟩
  | 70 => ⟨S60000, .f32⟩
  | 71 => ⟨S500000x1, .i32⟩
  | 72 => ⟨S60000, .f32⟩
  | 73 => ⟨S_, .f32⟩
  | 74 => ⟨S20000, .f32⟩
  | 75 => ⟨S500000x1, .i32⟩
  | 76 => ⟨S20000, .f32⟩
  | 77 => ⟨S_, .f32⟩
  | 78 => ⟨S60000, .f32⟩
  | 79 => ⟨S60000, .i1⟩
  | 80 => ⟨S_, .f32⟩
  | 81 => ⟨S60000, .f32⟩
  | 82 => ⟨S60000, .f32⟩
  | 83 => ⟨S60000, .f32⟩
  | 84 => ⟨S_, .f32⟩
  | 85 => ⟨S_, .f32⟩
  | 86 => ⟨S60000, .f32⟩
  | 87 => ⟨S60000, .f32⟩
  | 88 => ⟨S_, .f32⟩
  | 89 => ⟨S20000, .f32⟩
  | 90 => ⟨S20000, .i1⟩
  | 91 => ⟨S_, .f32⟩
  | 92 => ⟨S20000, .f32⟩
  | 93 => ⟨S20000, .f32⟩
  | 94 => ⟨S20000, .f32⟩
  | 95 => ⟨S_, .f32⟩
  | 96 => ⟨S_, .f32⟩
  | 97 => ⟨S20000, .f32⟩
  | 98 => ⟨S20000, .f32⟩
  | 99 => ⟨S60000x64, .f32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000, .f32⟩
  | 118 => ⟨S500000, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000x64, .f32⟩
  | _ => ⟨S20000x128, .f32⟩

abbrev hbmTy0_8 (i : Nat) : BufTy := match i % 128 with
  | 0 => ⟨S500000x1, .f32⟩
  | 1 => ⟨S500000x64, .f32⟩
  | 2 => ⟨S500000x64, .f32⟩
  | 3 => ⟨S_, .f32⟩
  | 4 => ⟨S20000x64, .f32⟩
  | 5 => ⟨S500000x1, .i32⟩
  | 6 => ⟨S20000x64, .f32⟩
  | 7 => ⟨S1x64, .f32⟩
  | 8 => ⟨S20000x64, .f32⟩
  | 9 => ⟨S20000x64, .f32⟩
  | 10 => ⟨S20000x64, .f32⟩
  | 11 => ⟨S1x128x64, .f32⟩
  | 12 => ⟨S128x64, .f32⟩
  | 13 => ⟨S1x64, .f32⟩
  | 14 => ⟨S64, .f32⟩
  | 15 => ⟨S1x500000, .i32⟩
  | 16 => ⟨S500000, .i32⟩
  | 17 => ⟨S1x500000, .i32⟩
  | 18 => ⟨S500000, .i32⟩
  | 19 => ⟨S_, .f32⟩
  | 20 => ⟨S500000, .f32⟩
  | 21 => ⟨S_, .f32⟩
  | 22 => ⟨S20000, .f32⟩
  | 23 => ⟨S500000x1, .i32⟩
  | 24 => ⟨S20000, .f32⟩
  | 25 => ⟨S_, .f32⟩
  | 26 => ⟨S60000, .f32⟩
  | 27 => ⟨S500000x1, .i32⟩
  | 28 => ⟨S60000, .f32⟩
  | 29 => ⟨S_, .f32⟩
  | 30 => ⟨S20000, .f32⟩
  | 31 => ⟨S20000, .i1⟩
  | 32 => ⟨S_, .f32⟩
  | 33 => ⟨S20000, .f32⟩
  | 34 => ⟨S20000, .f32⟩
  | 35 => ⟨S20000, .f32⟩
  | 36 => ⟨S_, .f32⟩
  | 37 => ⟨S_, .f32⟩
  | 38 => ⟨S20000, .f32⟩
  | 39 => ⟨S20000, .f32⟩
  | 40 => ⟨S_, .f32⟩
  | 41 => ⟨S60000, .f32⟩
  | 42 => ⟨S60000, .i1⟩
  | 43 => ⟨S_, .f32⟩
  | 44 => ⟨S60000, .f32⟩
  | 45 => ⟨S60000, .f32⟩
  | 46 => ⟨S60000, .f32⟩
  | 47 => ⟨S_, .f32⟩
  | 48 => ⟨S_, .f32⟩
  | 49 => ⟨S60000, .f32⟩
  | 50 => ⟨S60000, .f32⟩
  | 51 => ⟨S20000x64, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000, .f32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S500000, .f32⟩
  | 70 => ⟨S500000, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x64, .f32⟩
  | 80 => ⟨S500000x1, .f32⟩
  | 81 => ⟨S500000x64, .f32⟩
  | 82 => ⟨S500000x64, .f32⟩
  | 83 => ⟨S_, .f32⟩
  | 84 => ⟨S60000x64, .f32⟩
  | 85 => ⟨S500000x1, .i32⟩
  | 86 => ⟨S60000x64, .f32⟩
  | 87 => ⟨S1x64, .f32⟩
  | 88 => ⟨S60000x64, .f32⟩
  | 89 => ⟨S60000x64, .f32⟩
  | 90 => ⟨S60000x64, .f32⟩
  | 91 => ⟨S1x64, .f32⟩
  | 92 => ⟨S64, .f32⟩
  | 93 => ⟨S1x64, .f32⟩
  | 94 => ⟨S64, .f32⟩
  | 95 => ⟨S_, .f32⟩
  | 96 => ⟨S20000, .f32⟩
  | 97 => ⟨S20000x1, .f32⟩
  | 98 => ⟨S_, .f32⟩
  | 99 => ⟨S20000x1, .f32⟩
  | 100 => ⟨S20000x1, .f32⟩
  | 101 => ⟨S20000x64, .f32⟩
  | 102 => ⟨S20000x64, .f32⟩
  | 103 => ⟨S20000x64, .f32⟩
  | 104 => ⟨S_, .f32⟩
  | 105 => ⟨S20000, .f32⟩
  | 106 => ⟨S20000x1, .f32⟩
  | 107 => ⟨S_, .f32⟩
  | 108 => ⟨S20000x1, .f32⟩
  | 109 => ⟨S20000x1, .f32⟩
  | 110 => ⟨S20000x64, .f32⟩
  | 111 => ⟨S20000x64, .f32⟩
  | 112 => ⟨S_, .f32⟩
  | 113 => ⟨S20000x1, .f32⟩
  | 114 => ⟨S20000x1, .f32⟩
  | 115 => ⟨S20000x1, .f32⟩
  | 116 => ⟨S20000x64, .f32⟩
  | 117 => ⟨S20000x64, .f32⟩
  | 118 => ⟨S1x64, .f32⟩
  | 119 => ⟨S20000x64, .f32⟩
  | 120 => ⟨S20000x64, .f32⟩
  | 121 => ⟨S1x64, .f32⟩
  | 122 => ⟨S20000x64, .f32⟩
  | 123 => ⟨S20000x64, .f32⟩
  | 124 => ⟨S1x64, .f32⟩
  | 125 => ⟨S64, .f32⟩
  | 126 => ⟨S1x64, .f32⟩
  | 127 => ⟨S64, .f32⟩
  | _ => ⟨S20000x128, .f32⟩

abbrev hbmTy0_9 (i : Nat) : BufTy := match i % 128 with
  | 0 => ⟨S_, .f32⟩
  | 1 => ⟨S60000, .f32⟩
  | 2 => ⟨S60000x1, .f32⟩
  | 3 => ⟨S_, .f32⟩
  | 4 => ⟨S60000x1, .f32⟩
  | 5 => ⟨S60000x1, .f32⟩
  | 6 => ⟨S60000x64, .f32⟩
  | 7 => ⟨S60000x64, .f32⟩
  | 8 => ⟨S60000x64, .f32⟩
  | 9 => ⟨S_, .f32⟩
  | 10 => ⟨S60000, .f32⟩
  | 11 => ⟨S60000x1, .f32⟩
  | 12 => ⟨S_, .f32⟩
  | 13 => ⟨S60000x1, .f32⟩
  | 14 => ⟨S60000x1, .f32⟩
  | 15 => ⟨S60000x64, .f32⟩
  | 16 => ⟨S60000x64, .f32⟩
  | 17 => ⟨S_, .f32⟩
  | 18 => ⟨S60000x1, .f32⟩
  | 19 => ⟨S60000x1, .f32⟩
  | 20 => ⟨S60000x1, .f32⟩
  | 21 => ⟨S60000x64, .f32⟩
  | 22 => ⟨S60000x64, .f32⟩
  | 23 => ⟨S1x64, .f32⟩
  | 24 => ⟨S60000x64, .f32⟩
  | 25 => ⟨S60000x64, .f32⟩
  | 26 => ⟨S1x64, .f32⟩
  | 27 => ⟨S60000x64, .f32⟩
  | 28 => ⟨S60000x64, .f32⟩
  | 29 => ⟨S1x64, .f32⟩
  | 30 => ⟨S64, .f32⟩
  | 31 => ⟨S1x64, .f32⟩
  | 32 => ⟨S64, .f32⟩
  | 33 => ⟨S_, .f32⟩
  | 34 => ⟨S20000, .f32⟩
  | 35 => ⟨S20000x1, .f32⟩
  | 36 => ⟨S_, .f32⟩
  | 37 => ⟨S20000x1, .f32⟩
  | 38 => ⟨S20000x1, .f32⟩
  | 39 => ⟨S20000x64, .f32⟩
  | 40 => ⟨S20000x64, .f32⟩
  | 41 => ⟨S20000x64, .f32⟩
  | 42 => ⟨S_, .f32⟩
  | 43 => ⟨S20000, .f32⟩
  | 44 => ⟨S20000x1, .f32⟩
  | 45 => ⟨S_, .f32⟩
  | 46 => ⟨S20000x1, .f32⟩
  | 47 => ⟨S20000x1, .f32⟩
  | 48 => ⟨S20000x64, .f32⟩
  | 49 => ⟨S20000x64, .f32⟩
  | 50 => ⟨S_, .f32⟩
  | 51 => ⟨S20000x1, .f32⟩
  | 52 => ⟨S20000x1, .f32⟩
  | 53 => ⟨S20000x1, .f32⟩
  | 54 => ⟨S20000x64, .f32⟩
  | 55 => ⟨S20000x64, .f32⟩
  | 56 => ⟨S1x64, .f32⟩
  | 57 => ⟨S20000x64, .f32⟩
  | 58 => ⟨S20000x64, .f32⟩
  | 59 => ⟨S1x64, .f32⟩
  | 60 => ⟨S20000x64, .f32⟩
  | 61 => ⟨S20000x64, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_7 : Ref sig .tc := ⟨.hbm, 66, rfl⟩
abbrev main_call0_v0 : Ref sig .tc := ⟨.hbm, 67, rfl⟩
abbrev main_call0_v1 : Ref sig .tc := ⟨.hbm, 68, rfl⟩
abbrev main_v35 : Ref sig .tc := ⟨.hbm, 69, rfl⟩
abbrev main_cst_8 : Ref sig .tc := ⟨.hbm, 70, rfl⟩
abbrev main_v36 : Ref sig .tc := ⟨.hbm, 71, rfl⟩
abbrev main_v37 : Ref sig .tc := ⟨.hbm, 72, rfl⟩
abbrev main_cst_9 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_10 : Ref sig .tc := ⟨.hbm, 77, rfl⟩
abbrev main_call1_v0 : Ref sig .tc := ⟨.hbm, 78, rfl⟩
abbrev main_call1_v1 : Ref sig .tc := ⟨.hbm, 79, rfl⟩
abbrev main_v41 : Ref sig .tc := ⟨.hbm, 80, rfl⟩
abbrev main_v42 : Ref sig .tc := ⟨.hbm, 81, rfl⟩
abbrev main_c : Ref sig .tc := ⟨.hbm, 82, rfl⟩
abbrev main_v43 : Ref sig .tc := ⟨.hbm, 83, rfl⟩
abbrev main_v44 : Ref sig .tc := ⟨.hbm, 84, rfl⟩
abbrev main_c_11 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_c_12 : Ref sig .tc := ⟨.hbm, 91, rfl⟩
abbrev main_v50 : Ref sig .tc := ⟨.hbm, 92, rfl⟩
abbrev main_v51 : Ref sig .tc := ⟨.hbm, 93, rfl⟩
abbrev main_c_13 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_c_14 : Ref sig .tc := ⟨.hbm, 101, rfl⟩
abbrev main_v58 : Ref sig .tc := ⟨.hbm, 102, rfl⟩
abbrev main_v59 : Ref sig .tc := ⟨.hbm, 103, rfl⟩
abbrev main_c_15 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_16 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_17 : Ref sig .tc := ⟨.hbm, 129, rfl⟩
abbrev main_v83 : Ref sig .tc := ⟨.hbm, 130, rfl⟩
abbrev main_cst_18 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_19 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_20 : Ref sig .tc := ⟨.hbm, 139, rfl⟩
abbrev main_v90 : Ref sig .tc := ⟨.hbm, 140, rfl⟩
abbrev main_v91 : Ref sig .tc := ⟨.hbm, 141, rfl⟩
abbrev main_cst_21 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_22 : Ref sig .tc := ⟨.hbm, 146, rfl⟩
abbrev main_call2_v0 : Ref sig .tc := ⟨.hbm, 147, rfl⟩
abbrev main_call2_v1 : Ref sig .tc := ⟨.hbm, 148, rfl⟩
abbrev main_v95 : Ref sig .tc := ⟨.hbm, 149, rfl⟩
abbrev main_cst_23 : Ref sig .tc := ⟨.hbm, 150, rfl⟩
abbrev main_v96 : Ref sig .tc := ⟨.hbm, 151, rfl⟩
abbrev main_v97 : Ref sig .tc := ⟨.hbm, 152, rfl⟩
abbrev main_cst_24 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_25 : Ref sig .tc := ⟨.hbm, 157, rfl⟩
abbrev main_call3_v0 : Ref sig .tc := ⟨.hbm, 158, rfl⟩
abbrev main_call3_v1 : Ref sig .tc := ⟨.hbm, 159, rfl⟩
abbrev main_v101 : Ref sig .tc := ⟨.hbm, 160, rfl⟩
abbrev main_v102 : Ref sig .tc := ⟨.hbm, 161, rfl⟩
abbrev main_c_26 : Ref sig .tc := ⟨.hbm, 162, rfl⟩
abbrev main_v103 : Ref sig .tc := ⟨.hbm, 163, rfl⟩
abbrev main_v104 : Ref sig .tc := ⟨.hbm, 164, rfl⟩
abbrev main_c_27 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_c_28 : Ref sig .tc := ⟨.hbm, 171, rfl⟩
abbrev main_v110 : Ref sig .tc := ⟨.hbm, 172, rfl⟩
abbrev main_v111 : Ref sig .tc := ⟨.hbm, 173, rfl⟩
abbrev main_c_29 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_c_30 : Ref sig .tc := ⟨.hbm, 181, rfl⟩
abbrev main_v118 : Ref sig .tc := ⟨.hbm, 182, rfl⟩
abbrev main_v119 : Ref sig .tc := ⟨.hbm, 183, rfl⟩
abbrev main_c_31 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_32 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_cst_33 : Ref sig .tc := ⟨.hbm, 209, rfl⟩
abbrev main_v143 : Ref sig .tc := ⟨.hbm, 210, rfl⟩
abbrev main_cst_34 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_35 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_cst_36 : Ref sig .tc := ⟨.hbm, 219, rfl⟩
abbrev main_v150 : Ref sig .tc := ⟨.hbm, 220, rfl⟩
abbrev main_v151 : Ref sig .tc := ⟨.hbm, 221, rfl⟩
abbrev main_cst_37 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_cst_38 : Ref sig .tc := ⟨.hbm, 226, rfl⟩
abbrev main_call4_v0 : Ref sig .tc := ⟨.hbm, 227, rfl⟩
abbrev main_call4_v1 : Ref sig .tc := ⟨.hbm, 228, rfl⟩
abbrev main_v155 : Ref sig .tc := ⟨.hbm, 229, rfl⟩
abbrev main_cst_39 : Ref sig .tc := ⟨.hbm, 230, rfl⟩
abbrev main_v156 : Ref sig .tc := ⟨.hbm, 231, rfl⟩
abbrev main_v157 : Ref sig .tc := ⟨.hbm, 232, rfl⟩
abbrev main_cst_40 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_cst_41 : Ref sig .tc := ⟨.hbm, 237, rfl⟩
abbrev main_call5_v0 : Ref sig .tc := ⟨.hbm, 238, rfl⟩
abbrev main_call5_v1 : Ref sig .tc := ⟨.hbm, 239, rfl⟩
abbrev main_v161 : Ref sig .tc := ⟨.hbm, 240, rfl⟩
abbrev main_v162 : Ref sig .tc := ⟨.hbm, 241, rfl⟩
abbrev main_c_42 : Ref sig .tc := ⟨.hbm, 242, rfl⟩
abbrev main_v163 : Ref sig .tc := ⟨.hbm, 243, rfl⟩
abbrev main_v164 : Ref sig .tc := ⟨.hbm, 244, rfl⟩
abbrev main_c_43 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_c_44 : Ref sig .tc := ⟨.hbm, 251, rfl⟩
abbrev main_v170 : Ref sig .tc := ⟨.hbm, 252, rfl⟩
abbrev main_v171 : Ref sig .tc := ⟨.hbm, 253, rfl⟩
abbrev main_c_45 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_c_46 : Ref sig .tc := ⟨.hbm, 261, rfl⟩
abbrev main_v178 : Ref sig .tc := ⟨.hbm, 262, rfl⟩
abbrev main_v179 : Ref sig .tc := ⟨.hbm, 263, rfl⟩
abbrev main_c_47 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_cst_48 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_cst_49 : Ref sig .tc := ⟨.hbm, 289, rfl⟩
abbrev main_v203 : Ref sig .tc := ⟨.hbm, 290, rfl⟩
abbrev main_cst_50 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_cst_51 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_cst_52 : Ref sig .tc := ⟨.hbm, 299, rfl⟩
abbrev main_v210 : Ref sig .tc := ⟨.hbm, 300, rfl⟩
abbrev main_v211 : Ref sig .tc := ⟨.hbm, 301, rfl⟩
abbrev main_cst_53 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩
abbrev main_cst_54 : Ref sig .tc := ⟨.hbm, 306, rfl⟩
abbrev main_call6_v0 : Ref sig .tc := ⟨.hbm, 307, rfl⟩
abbrev main_call6_v1 : Ref sig .tc := ⟨.hbm, 308, rfl⟩
abbrev main_v215 : Ref sig .tc := ⟨.hbm, 309, rfl⟩
abbrev main_cst_55 : Ref sig .tc := ⟨.hbm, 310, rfl⟩
abbrev main_v216 : Ref sig .tc := ⟨.hbm, 311, rfl⟩
abbrev main_v217 : Ref sig .tc := ⟨.hbm, 312, rfl⟩
abbrev main_cst_56 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_cst_57 : Ref sig .tc := ⟨.hbm, 317, rfl⟩
abbrev main_call7_v0 : Ref sig .tc := ⟨.hbm, 318, rfl⟩
abbrev main_call7_v1 : Ref sig .tc := ⟨.hbm, 319, rfl⟩
abbrev main_v221 : Ref sig .tc := ⟨.hbm, 320, rfl⟩
abbrev main_v222 : Ref sig .tc := ⟨.hbm, 321, rfl⟩
abbrev main_c_58 : Ref sig .tc := ⟨.hbm, 322, rfl⟩
abbrev main_v223 : Ref sig .tc := ⟨.hbm, 323, rfl⟩
abbrev main_v224 : Ref sig .tc := ⟨.hbm, 324, rfl⟩
abbrev main_c_59 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_c_60 : Ref sig .tc := ⟨.hbm, 331, rfl⟩
abbrev main_v230 : Ref sig .tc := ⟨.hbm, 332, rfl⟩
abbrev main_v231 : Ref sig .tc := ⟨.hbm, 333, rfl⟩
abbrev main_c_61 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_c_62 : Ref sig .tc := ⟨.hbm, 341, rfl⟩
abbrev main_v238 : Ref sig .tc := ⟨.hbm, 342, rfl⟩
abbrev main_v239 : Ref sig .tc := ⟨.hbm, 343, rfl⟩
abbrev main_c_63 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_cst_64 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_cst_65 : Ref sig .tc := ⟨.hbm, 369, rfl⟩
abbrev main_v263 : Ref sig .tc := ⟨.hbm, 370, rfl⟩
abbrev main_cst_66 : Ref sig .tc := ⟨.hbm, 371, rfl⟩
abbrev main_v264 : Ref sig .tc := ⟨.hbm, 372, rfl⟩
abbrev main_v265 : Ref sig .tc := ⟨.hbm, 373, rfl⟩
abbrev main_v266 : Ref sig .tc := ⟨.hbm, 374, rfl⟩
abbrev main_cst_67 : Ref sig .tc := ⟨.hbm, 375, rfl⟩
abbrev main_v267 : Ref sig .tc := ⟨.hbm, 376, rfl⟩
abbrev main_v268 : Ref sig .tc := ⟨.hbm, 377, rfl⟩
abbrev main_v269 : Ref sig .tc := ⟨.hbm, 378, rfl⟩
abbrev main_cst_68 : Ref sig .tc := ⟨.hbm, 379, rfl⟩
abbrev main_v270 : Ref sig .tc := ⟨.hbm, 380, rfl⟩
abbrev main_v271 : Ref sig .tc := ⟨.hbm, 381, rfl⟩
abbrev main_cst_69 : Ref sig .tc := ⟨.hbm, 382, rfl⟩
abbrev main_v272 : Ref sig .tc := ⟨.hbm, 383, rfl⟩
abbrev main_v273 : Ref sig .tc := ⟨.hbm, 384, rfl⟩
abbrev main_v274 : Ref sig .tc := ⟨.hbm, 385, rfl⟩
abbrev main_cst_70 : Ref sig .tc := ⟨.hbm, 386, rfl⟩
abbrev main_call8_v0 : Ref sig .tc := ⟨.hbm, 387, rfl⟩
abbrev main_call8_v1 : Ref sig .tc := ⟨.hbm, 388, rfl⟩
abbrev main_v275 : Ref sig .tc := ⟨.hbm, 389, rfl⟩
abbrev main_cst_71 : Ref sig .tc := ⟨.hbm, 390, rfl⟩
abbrev main_v276 : Ref sig .tc := ⟨.hbm, 391, rfl⟩
abbrev main_v277 : Ref sig .tc := ⟨.hbm, 392, rfl⟩
abbrev main_cst_72 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_cst_73 : Ref sig .tc := ⟨.hbm, 397, rfl⟩
abbrev main_call9_v0 : Ref sig .tc := ⟨.hbm, 398, rfl⟩
abbrev main_call9_v1 : Ref sig .tc := ⟨.hbm, 399, rfl⟩
abbrev main_v281 : Ref sig .tc := ⟨.hbm, 400, rfl⟩
abbrev main_v282 : Ref sig .tc := ⟨.hbm, 401, rfl⟩
abbrev main_c_74 : Ref sig .tc := ⟨.hbm, 402, rfl⟩
abbrev main_v283 : Ref sig .tc := ⟨.hbm, 403, rfl⟩
abbrev main_v284 : Ref sig .tc := ⟨.hbm, 404, rfl⟩
abbrev main_c_75 : Ref sig .tc := ⟨.hbm, 405, rfl⟩
abbrev main_v285 : Ref sig .tc := ⟨.hbm, 406, rfl⟩
abbrev main_v286 : Ref sig .tc := ⟨.hbm, 407, rfl⟩
abbrev main_v287 : Ref sig .tc := ⟨.hbm, 408, rfl⟩
abbrev main_v288 : Ref sig .tc := ⟨.hbm, 409, rfl⟩
abbrev main_v289 : Ref sig .tc := ⟨.hbm, 410, rfl⟩
abbrev main_c_76 : Ref sig .tc := ⟨.hbm, 411, rfl⟩
abbrev main_v290 : Ref sig .tc := ⟨.hbm, 412, rfl⟩
abbrev main_v291 : Ref sig .tc := ⟨.hbm, 413, rfl⟩
abbrev main_c_77 : Ref sig .tc := ⟨.hbm, 414, rfl⟩
abbrev main_v292 : Ref sig .tc := ⟨.hbm, 415, rfl⟩
abbrev main_v293 : Ref sig .tc := ⟨.hbm, 416, rfl⟩
abbrev main_v294 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_c_78 : Ref sig .tc := ⟨.hbm, 421, rfl⟩
abbrev main_v298 : Ref sig .tc := ⟨.hbm, 422, rfl⟩
abbrev main_v299 : Ref sig .tc := ⟨.hbm, 423, rfl⟩
abbrev main_c_79 : Ref sig .tc := ⟨.hbm, 424, rfl⟩
abbrev main_v300 : Ref sig .tc := ⟨.hbm, 425, rfl⟩
abbrev main_v301 : Ref sig .tc := ⟨.hbm, 426, rfl⟩
abbrev main_v302 : Ref sig .tc := ⟨.hbm, 427, rfl⟩
abbrev main_v303 : Ref sig .tc := ⟨.hbm, 428, rfl⟩
abbrev main_v304 : Ref sig .tc := ⟨.hbm, 429, rfl⟩
abbrev main_v305 : Ref sig .tc := ⟨.hbm, 430, rfl⟩
abbrev main_v306 : Ref sig .tc := ⟨.hbm, 431, rfl⟩
abbrev main_v307 : Ref sig .tc := ⟨.hbm, 432, rfl⟩
abbrev main_cst_80 : Ref sig .tc := ⟨.hbm, 433, rfl⟩
abbrev main_v308 : Ref sig .tc := ⟨.hbm, 434, rfl⟩
abbrev main_v309 : Ref sig .tc := ⟨.hbm, 435, rfl⟩
abbrev main_v310 : Ref sig .tc := ⟨.hbm, 436, rfl⟩
abbrev main_v311 : Ref sig .tc := ⟨.hbm, 437, rfl⟩
abbrev main_v312 : Ref sig .tc := ⟨.hbm, 438, rfl⟩
abbrev main_v313 : Ref sig .tc := ⟨.hbm, 439, rfl⟩
abbrev main_v314 : Ref sig .tc := ⟨.hbm, 440, rfl⟩
abbrev main_v315 : Ref sig .tc := ⟨.hbm, 441, rfl⟩
abbrev main_v316 : Ref sig .tc := ⟨.hbm, 442, rfl⟩
abbrev main_v317 : Ref sig .tc := ⟨.hbm, 443, rfl⟩
abbrev main_v318 : Ref sig .tc := ⟨.hbm, 444, rfl⟩
abbrev main_v319 : Ref sig .tc := ⟨.hbm, 445, rfl⟩
abbrev main_v320 : Ref sig .tc := ⟨.hbm, 446, rfl⟩
abbrev main_v321 : Ref sig .tc := ⟨.hbm, 447, rfl⟩
abbrev main_v322 : Ref sig .tc := ⟨.hbm, 448, rfl⟩
abbrev main_cst_81 : Ref sig .tc := ⟨.hbm, 449, rfl⟩
abbrev main_v323 : Ref sig .tc := ⟨.hbm, 450, rfl⟩
abbrev main_cst_82 : Ref sig .tc := ⟨.hbm, 451, rfl⟩
abbrev main_v324 : Ref sig .tc := ⟨.hbm, 452, rfl⟩
abbrev main_v325 : Ref sig .tc := ⟨.hbm, 453, rfl⟩
abbrev main_v326 : Ref sig .tc := ⟨.hbm, 454, rfl⟩
abbrev main_cst_83 : Ref sig .tc := ⟨.hbm, 455, rfl⟩
abbrev main_v327 : Ref sig .tc := ⟨.hbm, 456, rfl⟩
abbrev main_v328 : Ref sig .tc := ⟨.hbm, 457, rfl⟩
abbrev main_v329 : Ref sig .tc := ⟨.hbm, 458, rfl⟩
abbrev main_cst_84 : Ref sig .tc := ⟨.hbm, 459, rfl⟩
abbrev main_v330 : Ref sig .tc := ⟨.hbm, 460, rfl⟩
abbrev main_v331 : Ref sig .tc := ⟨.hbm, 461, rfl⟩
abbrev main_cst_85 : Ref sig .tc := ⟨.hbm, 462, rfl⟩
abbrev main_v332 : Ref sig .tc := ⟨.hbm, 463, rfl⟩
abbrev main_v333 : Ref sig .tc := ⟨.hbm, 464, rfl⟩
abbrev main_v334 : Ref sig .tc := ⟨.hbm, 465, rfl⟩
abbrev main_cst_86 : Ref sig .tc := ⟨.hbm, 466, rfl⟩
abbrev main_call10_v0 : Ref sig .tc := ⟨.hbm, 467, rfl⟩
abbrev main_call10_v1 : Ref sig .tc := ⟨.hbm, 468, rfl⟩
abbrev main_v335 : Ref sig .tc := ⟨.hbm, 469, rfl⟩
abbrev main_cst_87 : Ref sig .tc := ⟨.hbm, 470, rfl⟩
abbrev main_v336 : Ref sig .tc := ⟨.hbm, 471, rfl⟩
abbrev main_v337 : Ref sig .tc := ⟨.hbm, 472, rfl⟩
abbrev main_cst_88 : Ref sig .tc := ⟨.hbm, 473, rfl⟩
abbrev main_v338 : Ref sig .tc := ⟨.hbm, 474, rfl⟩
abbrev main_v339 : Ref sig .tc := ⟨.hbm, 475, rfl⟩
abbrev main_v340 : Ref sig .tc := ⟨.hbm, 476, rfl⟩
abbrev main_cst_89 : Ref sig .tc := ⟨.hbm, 477, rfl⟩
abbrev main_call11_v0 : Ref sig .tc := ⟨.hbm, 478, rfl⟩
abbrev main_call11_v1 : Ref sig .tc := ⟨.hbm, 479, rfl⟩
abbrev main_v341 : Ref sig .tc := ⟨.hbm, 480, rfl⟩
abbrev main_v342 : Ref sig .tc := ⟨.hbm, 481, rfl⟩
abbrev main_c_90 : Ref sig .tc := ⟨.hbm, 482, rfl⟩
abbrev main_v343 : Ref sig .tc := ⟨.hbm, 483, rfl⟩
abbrev main_v344 : Ref sig .tc := ⟨.hbm, 484, rfl⟩
abbrev main_c_91 : Ref sig .tc := ⟨.hbm, 485, rfl⟩
abbrev main_v345 : Ref sig .tc := ⟨.hbm, 486, rfl⟩
abbrev main_v346 : Ref sig .tc := ⟨.hbm, 487, rfl⟩
abbrev main_v347 : Ref sig .tc := ⟨.hbm, 488, rfl⟩
abbrev main_v348 : Ref sig .tc := ⟨.hbm, 489, rfl⟩
abbrev main_v349 : Ref sig .tc := ⟨.hbm, 490, rfl⟩
abbrev main_c_92 : Ref sig .tc := ⟨.hbm, 491, rfl⟩
abbrev main_v350 : Ref sig .tc := ⟨.hbm, 492, rfl⟩
abbrev main_v351 : Ref sig .tc := ⟨.hbm, 493, rfl⟩
abbrev main_c_93 : Ref sig .tc := ⟨.hbm, 494, rfl⟩
abbrev main_v352 : Ref sig .tc := ⟨.hbm, 495, rfl⟩
abbrev main_v353 : Ref sig .tc := ⟨.hbm, 496, rfl⟩
abbrev main_v354 : Ref sig .tc := ⟨.hbm, 497, rfl⟩
abbrev main_v355 : Ref sig .tc := ⟨.hbm, 498, rfl⟩
abbrev main_v356 : Ref sig .tc := ⟨.hbm, 499, rfl⟩
abbrev main_v357 : Ref sig .tc := ⟨.hbm, 500, rfl⟩
abbrev main_c_94 : Ref sig .tc := ⟨.hbm, 501, rfl⟩
abbrev main_v358 : Ref sig .tc := ⟨.hbm, 502, rfl⟩
abbrev main_v359 : Ref sig .tc := ⟨.hbm, 503, rfl⟩
abbrev main_c_95 : Ref sig .tc := ⟨.hbm, 504, rfl⟩
abbrev main_v360 : Ref sig .tc := ⟨.hbm, 505, rfl⟩
abbrev main_v361 : Ref sig .tc := ⟨.hbm, 506, rfl⟩
abbrev main_v362 : Ref sig .tc := ⟨.hbm, 507, rfl⟩
abbrev main_v363 : Ref sig .tc := ⟨.hbm, 508, rfl⟩
abbrev main_v364 : Ref sig .tc := ⟨.hbm, 509, rfl⟩
abbrev main_v365 : Ref sig .tc := ⟨.hbm, 510, rfl⟩
abbrev main_v366 : Ref sig .tc := ⟨.hbm, 511, rfl⟩
abbrev main_v367 : Ref sig .tc := ⟨.hbm, 512, rfl⟩
abbrev main_cst_96 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_v371 : Ref sig .tc := ⟨.hbm, 517, rfl⟩
abbrev main_v372 : Ref sig .tc := ⟨.hbm, 518, rfl⟩
abbrev main_v373 : Ref sig .tc := ⟨.hbm, 519, rfl⟩
abbrev main_v374 : Ref sig .tc := ⟨.hbm, 520, rfl⟩
abbrev main_v375 : Ref sig .tc := ⟨.hbm, 521, rfl⟩
abbrev main_v376 : Ref sig .tc := ⟨.hbm, 522, rfl⟩
abbrev main_v377 : Ref sig .tc := ⟨.hbm, 523, rfl⟩
abbrev main_v378 : Ref sig .tc := ⟨.hbm, 524, rfl⟩
abbrev main_cst_97 : Ref sig .tc := ⟨.hbm, 525, rfl⟩
abbrev main_v379 : Ref sig .tc := ⟨.hbm, 526, rfl⟩
abbrev main_v380 : Ref sig .tc := ⟨.hbm, 527, rfl⟩
abbrev main_cst_98 : Ref sig .tc := ⟨.hbm, 528, rfl⟩
abbrev main_v381 : Ref sig .tc := ⟨.hbm, 529, rfl⟩
abbrev main_v382 : Ref sig .tc := ⟨.hbm, 530, rfl⟩
abbrev main_v383 : Ref sig .tc := ⟨.hbm, 531, rfl⟩
abbrev main_v384 : Ref sig .tc := ⟨.hbm, 532, rfl⟩
abbrev main_v385 : Ref sig .tc := ⟨.hbm, 533, rfl⟩
abbrev main_cst_99 : Ref sig .tc := ⟨.hbm, 534, rfl⟩
abbrev main_v386 : Ref sig .tc := ⟨.hbm, 535, rfl⟩
abbrev main_v387 : Ref sig .tc := ⟨.hbm, 536, rfl⟩
abbrev main_cst_100 : Ref sig .tc := ⟨.hbm, 537, rfl⟩
abbrev main_v388 : Ref sig .tc := ⟨.hbm, 538, rfl⟩
abbrev main_v389 : Ref sig .tc := ⟨.hbm, 539, rfl⟩
abbrev main_v390 : Ref sig .tc := ⟨.hbm, 540, rfl⟩
abbrev main_v391 : Ref sig .tc := ⟨.hbm, 541, rfl⟩
abbrev main_cst_101 : Ref sig .tc := ⟨.hbm, 542, rfl⟩
abbrev main_v392 : Ref sig .tc := ⟨.hbm, 543, rfl⟩
abbrev main_v393 : Ref sig .tc := ⟨.hbm, 544, rfl⟩
abbrev main_v394 : Ref sig .tc := ⟨.hbm, 545, rfl⟩
abbrev main_v395 : Ref sig .tc := ⟨.hbm, 546, rfl⟩
abbrev main_v396 : Ref sig .tc := ⟨.hbm, 547, rfl⟩
abbrev main_v397 : Ref sig .tc := ⟨.hbm, 548, rfl⟩
abbrev main_v398 : Ref sig .tc := ⟨.hbm, 549, rfl⟩
abbrev main_v399 : Ref sig .tc := ⟨.hbm, 550, rfl⟩
abbrev main_v400 : Ref sig .tc := ⟨.hbm, 551, rfl⟩
abbrev main_v401 : Ref sig .tc := ⟨.hbm, 552, rfl⟩
abbrev main_v402 : Ref sig .tc := ⟨.hbm, 553, rfl⟩
abbrev main_v403 : Ref sig .tc := ⟨.hbm, 554, rfl⟩
abbrev main_v404 : Ref sig .tc := ⟨.hbm, 555, rfl⟩
abbrev main_v405 : Ref sig .tc := ⟨.hbm, 556, rfl⟩
abbrev main_v406 : Ref sig .tc := ⟨.hbm, 557, rfl⟩
abbrev main_cst_102 : Ref sig .tc := ⟨.hbm, 558, rfl⟩
abbrev main_v407 : Ref sig .tc := ⟨.hbm, 559, rfl⟩
abbrev main_v408 : Ref sig .tc := ⟨.hbm, 560, rfl⟩
abbrev main_cst_103 : Ref sig .tc := ⟨.hbm, 561, rfl⟩
abbrev main_v409 : Ref sig .tc := ⟨.hbm, 562, rfl⟩
abbrev main_v410 : Ref sig .tc := ⟨.hbm, 563, rfl⟩
abbrev main_v411 : Ref sig .tc := ⟨.hbm, 564, rfl⟩
abbrev main_v412 : Ref sig .tc := ⟨.hbm, 565, rfl⟩
abbrev main_v413 : Ref sig .tc := ⟨.hbm, 566, rfl⟩
abbrev main_cst_104 : Ref sig .tc := ⟨.hbm, 567, rfl⟩
abbrev main_v414 : Ref sig .tc := ⟨.hbm, 568, rfl⟩
abbrev main_v415 : Ref sig .tc := ⟨.hbm, 569, rfl⟩
abbrev main_cst_105 : Ref sig .tc := ⟨.hbm, 570, rfl⟩
abbrev main_v416 : Ref sig .tc := ⟨.hbm, 571, rfl⟩
abbrev main_v417 : Ref sig .tc := ⟨.hbm, 572, rfl⟩
abbrev main_v418 : Ref sig .tc := ⟨.hbm, 573, rfl⟩
abbrev main_v419 : Ref sig .tc := ⟨.hbm, 574, rfl⟩
abbrev main_cst_106 : Ref sig .tc := ⟨.hbm, 575, rfl⟩
abbrev main_v420 : Ref sig .tc := ⟨.hbm, 576, rfl⟩
abbrev main_v421 : Ref sig .tc := ⟨.hbm, 577, rfl⟩
abbrev main_v422 : Ref sig .tc := ⟨.hbm, 578, rfl⟩
abbrev main_v423 : Ref sig .tc := ⟨.hbm, 579, rfl⟩
abbrev main_v424 : Ref sig .tc := ⟨.hbm, 580, rfl⟩
abbrev main_v425 : Ref sig .tc := ⟨.hbm, 581, rfl⟩
abbrev main_v426 : Ref sig .tc := ⟨.hbm, 582, rfl⟩
abbrev main_v427 : Ref sig .tc := ⟨.hbm, 583, rfl⟩
abbrev main_v428 : Ref sig .tc := ⟨.hbm, 584, rfl⟩
abbrev main_v429 : Ref sig .tc := ⟨.hbm, 585, rfl⟩
abbrev main_v430 : Ref sig .tc := ⟨.hbm, 586, rfl⟩
abbrev main_v431 : Ref sig .tc := ⟨.hbm, 587, rfl⟩
abbrev main_v432 : Ref sig .tc := ⟨.hbm, 588, rfl⟩
abbrev main_v433 : Ref sig .tc := ⟨.hbm, 589, rfl⟩
abbrev main_v434 : Ref sig .tc := ⟨.hbm, 590, rfl⟩
abbrev main_cst_107 : Ref sig .tc := ⟨.hbm, 591, rfl⟩
abbrev main_v435 : Ref sig .tc := ⟨.hbm, 592, rfl⟩
abbrev main_v436 : Ref sig .tc := ⟨.hbm, 593, rfl⟩
abbrev main_cst_108 : Ref sig .tc := ⟨.hbm, 594, rfl⟩
abbrev main_v437 : Ref sig .tc := ⟨.hbm, 595, rfl⟩
abbrev main_v438 : Ref sig .tc := ⟨.hbm, 596, rfl⟩
abbrev main_v439 : Ref sig .tc := ⟨.hbm, 597, rfl⟩
abbrev main_v440 : Ref sig .tc := ⟨.hbm, 598, rfl⟩
abbrev main_v441 : Ref sig .tc := ⟨.hbm, 599, rfl⟩
abbrev main_cst_109 : Ref sig .tc := ⟨.hbm, 600, rfl⟩
abbrev main_v442 : Ref sig .tc := ⟨.hbm, 601, rfl⟩
abbrev main_v443 : Ref sig .tc := ⟨.hbm, 602, rfl⟩
abbrev main_cst_110 : Ref sig .tc := ⟨.hbm, 603, rfl⟩
abbrev main_v444 : Ref sig .tc := ⟨.hbm, 604, rfl⟩
abbrev main_v445 : Ref sig .tc := ⟨.hbm, 605, rfl⟩
abbrev main_v446 : Ref sig .tc := ⟨.hbm, 606, rfl⟩
abbrev main_v447 : Ref sig .tc := ⟨.hbm, 607, rfl⟩
abbrev main_cst_111 : Ref sig .tc := ⟨.hbm, 608, rfl⟩
abbrev main_v448 : Ref sig .tc := ⟨.hbm, 609, rfl⟩
abbrev main_v449 : Ref sig .tc := ⟨.hbm, 610, rfl⟩
abbrev main_v450 : Ref sig .tc := ⟨.hbm, 611, rfl⟩
abbrev main_v451 : Ref sig .tc := ⟨.hbm, 612, rfl⟩
abbrev main_v452 : Ref sig .tc := ⟨.hbm, 613, rfl⟩
abbrev main_v453 : Ref sig .tc := ⟨.hbm, 614, rfl⟩
abbrev main_v454 : Ref sig .tc := ⟨.hbm, 615, rfl⟩
abbrev main_v455 : Ref sig .tc := ⟨.hbm, 616, rfl⟩
abbrev main_v456 : Ref sig .tc := ⟨.hbm, 617, rfl⟩
abbrev main_v457 : Ref sig .tc := ⟨.hbm, 618, rfl⟩
abbrev main_v458 : Ref sig .tc := ⟨.hbm, 619, rfl⟩
abbrev main_call12_cst : Ref sig .tc := ⟨.hbm, 620, rfl⟩
abbrev main_call12_v0 : Ref sig .tc := ⟨.hbm, 621, rfl⟩
abbrev main_v459 : Ref sig .tc := ⟨.hbm, 622, rfl⟩
abbrev main_call13_cst : Ref sig .tc := ⟨.hbm, 623, rfl⟩
abbrev main_call13_v0 : Ref sig .tc := ⟨.hbm, 624, rfl⟩
abbrev main_v460 : Ref sig .tc := ⟨.hbm, 625, rfl⟩
abbrev main_call14_cst : Ref sig .tc := ⟨.hbm, 626, rfl⟩
abbrev main_call14_v0 : Ref sig .tc := ⟨.hbm, 627, rfl⟩
abbrev main_v461 : Ref sig .tc := ⟨.hbm, 628, rfl⟩
abbrev main_cst_112 : Ref sig .tc := ⟨.hbm, 629, rfl⟩
abbrev main_v462 : Ref sig .tc := ⟨.hbm, 630, rfl⟩
abbrev main_cst_113 : Ref sig .tc := ⟨.hbm, 631, rfl⟩
abbrev main_v463 : Ref sig .tc := ⟨.hbm, 632, rfl⟩
abbrev main_cst_114 : Ref sig .tc := ⟨.hbm, 633, rfl⟩
abbrev main_v464 : Ref sig .tc := ⟨.hbm, 634, rfl⟩
abbrev main_v465 : Ref sig .tc := ⟨.hbm, 635, rfl⟩
abbrev main_v466 : Ref sig .tc := ⟨.hbm, 636, rfl⟩
abbrev main_v467 : Ref sig .tc := ⟨.hbm, 637, rfl⟩
abbrev main_v468 : Ref sig .tc := ⟨.hbm, 638, rfl⟩
abbrev main_v469 : Ref sig .tc := ⟨.hbm, 639, rfl⟩
abbrev main_v470 : Ref sig .tc := ⟨.hbm, 640, rfl⟩
abbrev main_v471 : Ref sig .tc := ⟨.hbm, 641, rfl⟩
abbrev main_v472 : Ref sig .tc := ⟨.hbm, 642, rfl⟩
abbrev main_cst_115 : Ref sig .tc := ⟨.hbm, 643, rfl⟩
abbrev main_v473 : Ref sig .tc := ⟨.hbm, 644, rfl⟩
abbrev main_cst_116 : Ref sig .tc := ⟨.hbm, 645, rfl⟩
abbrev main_v474 : Ref sig .tc := ⟨.hbm, 646, rfl⟩
abbrev main_v475 : Ref sig .tc := ⟨.hbm, 647, rfl⟩
abbrev main_v476 : Ref sig .tc := ⟨.hbm, 648, rfl⟩
abbrev main_cst_117 : Ref sig .tc := ⟨.hbm, 649, rfl⟩
abbrev main_v477 : Ref sig .tc := ⟨.hbm, 650, rfl⟩
abbrev main_v478 : Ref sig .tc := ⟨.hbm, 651, rfl⟩
abbrev main_v479 : Ref sig .tc := ⟨.hbm, 652, rfl⟩
abbrev main_cst_118 : Ref sig .tc := ⟨.hbm, 653, rfl⟩
abbrev main_v480 : Ref sig .tc := ⟨.hbm, 654, rfl⟩
abbrev main_v481 : Ref sig .tc := ⟨.hbm, 655, rfl⟩
abbrev main_cst_119 : Ref sig .tc := ⟨.hbm, 656, rfl⟩
abbrev main_v482 : Ref sig .tc := ⟨.hbm, 657, rfl⟩
abbrev main_v483 : Ref sig .tc := ⟨.hbm, 658, rfl⟩
abbrev main_v484 : Ref sig .tc := ⟨.hbm, 659, rfl⟩
abbrev main_cst_120 : Ref sig .tc := ⟨.hbm, 660, rfl⟩
abbrev main_call15_v0 : Ref sig .tc := ⟨.hbm, 661, rfl⟩
abbrev main_call15_v1 : Ref sig .tc := ⟨.hbm, 662, rfl⟩
abbrev main_v485 : Ref sig .tc := ⟨.hbm, 663, rfl⟩
abbrev main_cst_121 : Ref sig .tc := ⟨.hbm, 664, rfl⟩
abbrev main_v486 : Ref sig .tc := ⟨.hbm, 665, rfl⟩
abbrev main_v487 : Ref sig .tc := ⟨.hbm, 666, rfl⟩
abbrev main_cst_122 : Ref sig .tc := ⟨.hbm, 667, rfl⟩
abbrev main_v488 : Ref sig .tc := ⟨.hbm, 668, rfl⟩
abbrev main_v489 : Ref sig .tc := ⟨.hbm, 669, rfl⟩
abbrev main_v490 : Ref sig .tc := ⟨.hbm, 670, rfl⟩
abbrev main_cst_123 : Ref sig .tc := ⟨.hbm, 671, rfl⟩
abbrev main_call16_v0 : Ref sig .tc := ⟨.hbm, 672, rfl⟩
abbrev main_call16_v1 : Ref sig .tc := ⟨.hbm, 673, rfl⟩
abbrev main_v491 : Ref sig .tc := ⟨.hbm, 674, rfl⟩
abbrev main_v492 : Ref sig .tc := ⟨.hbm, 675, rfl⟩
abbrev main_c_124 : Ref sig .tc := ⟨.hbm, 676, rfl⟩
abbrev main_v493 : Ref sig .tc := ⟨.hbm, 677, rfl⟩
abbrev main_v494 : Ref sig .tc := ⟨.hbm, 678, rfl⟩
abbrev main_c_125 : Ref sig .tc := ⟨.hbm, 679, rfl⟩
abbrev main_v495 : Ref sig .tc := ⟨.hbm, 680, rfl⟩
abbrev main_v496 : Ref sig .tc := ⟨.hbm, 681, rfl⟩
abbrev main_v497 : Ref sig .tc := ⟨.hbm, 682, rfl⟩
abbrev main_v498 : Ref sig .tc := ⟨.hbm, 683, rfl⟩
abbrev main_v499 : Ref sig .tc := ⟨.hbm, 684, rfl⟩
abbrev main_c_126 : Ref sig .tc := ⟨.hbm, 685, rfl⟩
abbrev main_v500 : Ref sig .tc := ⟨.hbm, 686, rfl⟩
abbrev main_v501 : Ref sig .tc := ⟨.hbm, 687, rfl⟩
abbrev main_c_127 : Ref sig .tc := ⟨.hbm, 688, rfl⟩
abbrev main_v502 : Ref sig .tc := ⟨.hbm, 689, rfl⟩
abbrev main_v503 : Ref sig .tc := ⟨.hbm, 690, rfl⟩
abbrev main_v504 : Ref sig .tc := ⟨.hbm, 691, rfl⟩
abbrev main_v505 : Ref sig .tc := ⟨.hbm, 692, rfl⟩
abbrev main_v506 : Ref sig .tc := ⟨.hbm, 693, rfl⟩
abbrev main_v507 : Ref sig .tc := ⟨.hbm, 694, rfl⟩
abbrev main_c_128 : Ref sig .tc := ⟨.hbm, 695, rfl⟩
abbrev main_v508 : Ref sig .tc := ⟨.hbm, 696, rfl⟩
abbrev main_v509 : Ref sig .tc := ⟨.hbm, 697, rfl⟩
abbrev main_c_129 : Ref sig .tc := ⟨.hbm, 698, rfl⟩
abbrev main_v510 : Ref sig .tc := ⟨.hbm, 699, rfl⟩
abbrev main_v511 : Ref sig .tc := ⟨.hbm, 700, rfl⟩
abbrev main_v512 : Ref sig .tc := ⟨.hbm, 701, rfl⟩
abbrev main_v513 : Ref sig .tc := ⟨.hbm, 702, rfl⟩
abbrev main_v514 : Ref sig .tc := ⟨.hbm, 703, rfl⟩
abbrev main_v515 : Ref sig .tc := ⟨.hbm, 704, rfl⟩
abbrev main_v516 : Ref sig .tc := ⟨.hbm, 705, rfl⟩
abbrev main_v517 : Ref sig .tc := ⟨.hbm, 706, rfl⟩
abbrev main_cst_130 : Ref sig .tc := ⟨.hbm, 707, rfl⟩
abbrev main_v518 : Ref sig .tc := ⟨.hbm, 708, rfl⟩
abbrev main_v519 : Ref sig .tc := ⟨.hbm, 709, rfl⟩
abbrev main_v520 : Ref sig .tc := ⟨.hbm, 710, rfl⟩
abbrev main_v521 : Ref sig .tc := ⟨.hbm, 711, rfl⟩
abbrev main_v522 : Ref sig .tc := ⟨.hbm, 712, rfl⟩
abbrev main_v523 : Ref sig .tc := ⟨.hbm, 713, rfl⟩
abbrev main_v524 : Ref sig .tc := ⟨.hbm, 714, rfl⟩
abbrev main_v525 : Ref sig .tc := ⟨.hbm, 715, rfl⟩
abbrev main_v526 : Ref sig .tc := ⟨.hbm, 716, rfl⟩
abbrev main_v527 : Ref sig .tc := ⟨.hbm, 717, rfl⟩
abbrev main_v528 : Ref sig .tc := ⟨.hbm, 718, rfl⟩
abbrev main_v529 : Ref sig .tc := ⟨.hbm, 719, rfl⟩
abbrev main_v530 : Ref sig .tc := ⟨.hbm, 720, rfl⟩
abbrev main_v531 : Ref sig .tc := ⟨.hbm, 721, rfl⟩
abbrev main_v532 : Ref sig .tc := ⟨.hbm, 722, rfl⟩
abbrev main_cst_131 : Ref sig .tc := ⟨.hbm, 723, rfl⟩
abbrev main_v533 : Ref sig .tc := ⟨.hbm, 724, rfl⟩
abbrev main_cst_132 : Ref sig .tc := ⟨.hbm, 725, rfl⟩
abbrev main_v534 : Ref sig .tc := ⟨.hbm, 726, rfl⟩
abbrev main_v535 : Ref sig .tc := ⟨.hbm, 727, rfl⟩
abbrev main_v536 : Ref sig .tc := ⟨.hbm, 728, rfl⟩
abbrev main_cst_133 : Ref sig .tc := ⟨.hbm, 729, rfl⟩
abbrev main_v537 : Ref sig .tc := ⟨.hbm, 730, rfl⟩
abbrev main_v538 : Ref sig .tc := ⟨.hbm, 731, rfl⟩
abbrev main_v539 : Ref sig .tc := ⟨.hbm, 732, rfl⟩
abbrev main_cst_134 : Ref sig .tc := ⟨.hbm, 733, rfl⟩
abbrev main_v540 : Ref sig .tc := ⟨.hbm, 734, rfl⟩
abbrev main_v541 : Ref sig .tc := ⟨.hbm, 735, rfl⟩
abbrev main_cst_135 : Ref sig .tc := ⟨.hbm, 736, rfl⟩
abbrev main_v542 : Ref sig .tc := ⟨.hbm, 737, rfl⟩
abbrev main_v543 : Ref sig .tc := ⟨.hbm, 738, rfl⟩
abbrev main_v544 : Ref sig .tc := ⟨.hbm, 739, rfl⟩
abbrev main_cst_136 : Ref sig .tc := ⟨.hbm, 740, rfl⟩
abbrev main_call17_v0 : Ref sig .tc := ⟨.hbm, 741, rfl⟩
abbrev main_call17_v1 : Ref sig .tc := ⟨.hbm, 742, rfl⟩
abbrev main_v545 : Ref sig .tc := ⟨.hbm, 743, rfl⟩
abbrev main_cst_137 : Ref sig .tc := ⟨.hbm, 744, rfl⟩
abbrev main_v546 : Ref sig .tc := ⟨.hbm, 745, rfl⟩
abbrev main_v547 : Ref sig .tc := ⟨.hbm, 746, rfl⟩
abbrev main_cst_138 : Ref sig .tc := ⟨.hbm, 747, rfl⟩
abbrev main_v548 : Ref sig .tc := ⟨.hbm, 748, rfl⟩
abbrev main_v549 : Ref sig .tc := ⟨.hbm, 749, rfl⟩
abbrev main_v550 : Ref sig .tc := ⟨.hbm, 750, rfl⟩
abbrev main_cst_139 : Ref sig .tc := ⟨.hbm, 751, rfl⟩
abbrev main_call18_v0 : Ref sig .tc := ⟨.hbm, 752, rfl⟩
abbrev main_call18_v1 : Ref sig .tc := ⟨.hbm, 753, rfl⟩
abbrev main_v551 : Ref sig .tc := ⟨.hbm, 754, rfl⟩
abbrev main_v552 : Ref sig .tc := ⟨.hbm, 755, rfl⟩
abbrev main_c_140 : Ref sig .tc := ⟨.hbm, 756, rfl⟩
abbrev main_v553 : Ref sig .tc := ⟨.hbm, 757, rfl⟩
abbrev main_v554 : Ref sig .tc := ⟨.hbm, 758, rfl⟩
abbrev main_c_141 : Ref sig .tc := ⟨.hbm, 759, rfl⟩
abbrev main_v555 : Ref sig .tc := ⟨.hbm, 760, rfl⟩
abbrev main_v556 : Ref sig .tc := ⟨.hbm, 761, rfl⟩
abbrev main_v557 : Ref sig .tc := ⟨.hbm, 762, rfl⟩
abbrev main_v558 : Ref sig .tc := ⟨.hbm, 763, rfl⟩
abbrev main_v559 : Ref sig .tc := ⟨.hbm, 764, rfl⟩
abbrev main_c_142 : Ref sig .tc := ⟨.hbm, 765, rfl⟩
abbrev main_v560 : Ref sig .tc := ⟨.hbm, 766, rfl⟩
abbrev main_v561 : Ref sig .tc := ⟨.hbm, 767, rfl⟩
abbrev main_c_143 : Ref sig .tc := ⟨.hbm, 768, rfl⟩
abbrev main_v562 : Ref sig .tc := ⟨.hbm, 769, rfl⟩
abbrev main_v563 : Ref sig .tc := ⟨.hbm, 770, rfl⟩
abbrev main_v564 : Ref sig .tc := ⟨.hbm, 771, rfl⟩
abbrev main_v565 : Ref sig .tc := ⟨.hbm, 772, rfl⟩
abbrev main_v566 : Ref sig .tc := ⟨.hbm, 773, rfl⟩
abbrev main_v567 : Ref sig .tc := ⟨.hbm, 774, rfl⟩
abbrev main_c_144 : Ref sig .tc := ⟨.hbm, 775, rfl⟩
abbrev main_v568 : Ref sig .tc := ⟨.hbm, 776, rfl⟩
abbrev main_v569 : Ref sig .tc := ⟨.hbm, 777, rfl⟩
abbrev main_c_145 : Ref sig .tc := ⟨.hbm, 778, rfl⟩
abbrev main_v570 : Ref sig .tc := ⟨.hbm, 779, rfl⟩
abbrev main_v571 : Ref sig .tc := ⟨.hbm, 780, rfl⟩
abbrev main_v572 : Ref sig .tc := ⟨.hbm, 781, rfl⟩
abbrev main_v573 : Ref sig .tc := ⟨.hbm, 782, rfl⟩
abbrev main_v574 : Ref sig .tc := ⟨.hbm, 783, rfl⟩
abbrev main_v575 : Ref sig .tc := ⟨.hbm, 784, rfl⟩
abbrev main_v576 : Ref sig .tc := ⟨.hbm, 785, rfl⟩
abbrev main_v577 : Ref sig .tc := ⟨.hbm, 786, rfl⟩
abbrev main_cst_146 : Ref sig .tc := ⟨.hbm, 787, rfl⟩
abbrev main_v578 : Ref sig .tc := ⟨.hbm, 788, rfl⟩
abbrev main_v579 : Ref sig .tc := ⟨.hbm, 789, rfl⟩
abbrev main_v580 : Ref sig .tc := ⟨.hbm, 790, rfl⟩
abbrev main_v581 : Ref sig .tc := ⟨.hbm, 791, rfl⟩
abbrev main_v582 : Ref sig .tc := ⟨.hbm, 792, rfl⟩
abbrev main_v583 : Ref sig .tc := ⟨.hbm, 793, rfl⟩
abbrev main_v584 : Ref sig .tc := ⟨.hbm, 794, rfl⟩
abbrev main_v585 : Ref sig .tc := ⟨.hbm, 795, rfl⟩
abbrev main_v586 : Ref sig .tc := ⟨.hbm, 796, rfl⟩
abbrev main_v587 : Ref sig .tc := ⟨.hbm, 797, rfl⟩
abbrev main_v588 : Ref sig .tc := ⟨.hbm, 798, rfl⟩
abbrev main_v589 : Ref sig .tc := ⟨.hbm, 799, rfl⟩
abbrev main_v590 : Ref sig .tc := ⟨.hbm, 800, rfl⟩
abbrev main_v591 : Ref sig .tc := ⟨.hbm, 801, rfl⟩
abbrev main_v592 : Ref sig .tc := ⟨.hbm, 802, rfl⟩
abbrev main_cst_147 : Ref sig .tc := ⟨.hbm, 803, rfl⟩
abbrev main_v593 : Ref sig .tc := ⟨.hbm, 804, rfl⟩
abbrev main_cst_148 : Ref sig .tc := ⟨.hbm, 805, rfl⟩
abbrev main_v594 : Ref sig .tc := ⟨.hbm, 806, rfl⟩
abbrev main_v595 : Ref sig .tc := ⟨.hbm, 807, rfl⟩
abbrev main_v596 : Ref sig .tc := ⟨.hbm, 808, rfl⟩
abbrev main_cst_149 : Ref sig .tc := ⟨.hbm, 809, rfl⟩
abbrev main_v597 : Ref sig .tc := ⟨.hbm, 810, rfl⟩
abbrev main_v598 : Ref sig .tc := ⟨.hbm, 811, rfl⟩
abbrev main_v599 : Ref sig .tc := ⟨.hbm, 812, rfl⟩
abbrev main_cst_150 : Ref sig .tc := ⟨.hbm, 813, rfl⟩
abbrev main_v600 : Ref sig .tc := ⟨.hbm, 814, rfl⟩
abbrev main_v601 : Ref sig .tc := ⟨.hbm, 815, rfl⟩
abbrev main_cst_151 : Ref sig .tc := ⟨.hbm, 816, rfl⟩
abbrev main_v602 : Ref sig .tc := ⟨.hbm, 817, rfl⟩
abbrev main_v603 : Ref sig .tc := ⟨.hbm, 818, rfl⟩
abbrev main_v604 : Ref sig .tc := ⟨.hbm, 819, rfl⟩
abbrev main_cst_152 : Ref sig .tc := ⟨.hbm, 820, rfl⟩
abbrev main_call19_v0 : Ref sig .tc := ⟨.hbm, 821, rfl⟩
abbrev main_call19_v1 : Ref sig .tc := ⟨.hbm, 822, rfl⟩
abbrev main_v605 : Ref sig .tc := ⟨.hbm, 823, rfl⟩
abbrev main_cst_153 : Ref sig .tc := ⟨.hbm, 824, rfl⟩
abbrev main_v606 : Ref sig .tc := ⟨.hbm, 825, rfl⟩
abbrev main_v607 : Ref sig .tc := ⟨.hbm, 826, rfl⟩
abbrev main_cst_154 : Ref sig .tc := ⟨.hbm, 827, rfl⟩
abbrev main_v608 : Ref sig .tc := ⟨.hbm, 828, rfl⟩
abbrev main_v609 : Ref sig .tc := ⟨.hbm, 829, rfl⟩
abbrev main_v610 : Ref sig .tc := ⟨.hbm, 830, rfl⟩
abbrev main_cst_155 : Ref sig .tc := ⟨.hbm, 831, rfl⟩
abbrev main_call20_v0 : Ref sig .tc := ⟨.hbm, 832, rfl⟩
abbrev main_call20_v1 : Ref sig .tc := ⟨.hbm, 833, rfl⟩
abbrev main_v611 : Ref sig .tc := ⟨.hbm, 834, rfl⟩
abbrev main_v612 : Ref sig .tc := ⟨.hbm, 835, rfl⟩
abbrev main_c_156 : Ref sig .tc := ⟨.hbm, 836, rfl⟩
abbrev main_v613 : Ref sig .tc := ⟨.hbm, 837, rfl⟩
abbrev main_v614 : Ref sig .tc := ⟨.hbm, 838, rfl⟩
abbrev main_c_157 : Ref sig .tc := ⟨.hbm, 839, rfl⟩
abbrev main_v615 : Ref sig .tc := ⟨.hbm, 840, rfl⟩
abbrev main_v616 : Ref sig .tc := ⟨.hbm, 841, rfl⟩
abbrev main_v617 : Ref sig .tc := ⟨.hbm, 842, rfl⟩
abbrev main_v618 : Ref sig .tc := ⟨.hbm, 843, rfl⟩
abbrev main_v619 : Ref sig .tc := ⟨.hbm, 844, rfl⟩
abbrev main_c_158 : Ref sig .tc := ⟨.hbm, 845, rfl⟩
abbrev main_v620 : Ref sig .tc := ⟨.hbm, 846, rfl⟩
abbrev main_v621 : Ref sig .tc := ⟨.hbm, 847, rfl⟩
abbrev main_c_159 : Ref sig .tc := ⟨.hbm, 848, rfl⟩
abbrev main_v622 : Ref sig .tc := ⟨.hbm, 849, rfl⟩
abbrev main_v623 : Ref sig .tc := ⟨.hbm, 850, rfl⟩
abbrev main_v624 : Ref sig .tc := ⟨.hbm, 851, rfl⟩
abbrev main_v625 : Ref sig .tc := ⟨.hbm, 852, rfl⟩
abbrev main_v626 : Ref sig .tc := ⟨.hbm, 853, rfl⟩
abbrev main_v627 : Ref sig .tc := ⟨.hbm, 854, rfl⟩
abbrev main_c_160 : Ref sig .tc := ⟨.hbm, 855, rfl⟩
abbrev main_v628 : Ref sig .tc := ⟨.hbm, 856, rfl⟩
abbrev main_v629 : Ref sig .tc := ⟨.hbm, 857, rfl⟩
abbrev main_c_161 : Ref sig .tc := ⟨.hbm, 858, rfl⟩
abbrev main_v630 : Ref sig .tc := ⟨.hbm, 859, rfl⟩
abbrev main_v631 : Ref sig .tc := ⟨.hbm, 860, rfl⟩
abbrev main_v632 : Ref sig .tc := ⟨.hbm, 861, rfl⟩
abbrev main_v633 : Ref sig .tc := ⟨.hbm, 862, rfl⟩
abbrev main_v634 : Ref sig .tc := ⟨.hbm, 863, rfl⟩
abbrev main_v635 : Ref sig .tc := ⟨.hbm, 864, rfl⟩
abbrev main_v636 : Ref sig .tc := ⟨.hbm, 865, rfl⟩
abbrev main_v637 : Ref sig .tc := ⟨.hbm, 866, rfl⟩
abbrev main_cst_162 : Ref sig .tc := ⟨.hbm, 867, rfl⟩
abbrev main_v638 : Ref sig .tc := ⟨.hbm, 868, rfl⟩
abbrev main_v639 : Ref sig .tc := ⟨.hbm, 869, rfl⟩
abbrev main_v640 : Ref sig .tc := ⟨.hbm, 870, rfl⟩
abbrev main_v641 : Ref sig .tc := ⟨.hbm, 871, rfl⟩
abbrev main_v642 : Ref sig .tc := ⟨.hbm, 872, rfl⟩
abbrev main_v643 : Ref sig .tc := ⟨.hbm, 873, rfl⟩
abbrev main_v644 : Ref sig .tc := ⟨.hbm, 874, rfl⟩
abbrev main_v645 : Ref sig .tc := ⟨.hbm, 875, rfl⟩
abbrev main_v646 : Ref sig .tc := ⟨.hbm, 876, rfl⟩
abbrev main_v647 : Ref sig .tc := ⟨.hbm, 877, rfl⟩
abbrev main_v648 : Ref sig .tc := ⟨.hbm, 878, rfl⟩
abbrev main_v649 : Ref sig .tc := ⟨.hbm, 879, rfl⟩
abbrev main_v650 : Ref sig .tc := ⟨.hbm, 880, rfl⟩
abbrev main_v651 : Ref sig .tc := ⟨.hbm, 881, rfl⟩
abbrev main_v652 : Ref sig .tc := ⟨.hbm, 882, rfl⟩
abbrev main_cst_163 : Ref sig .tc := ⟨.hbm, 883, rfl⟩
abbrev main_v653 : Ref sig .tc := ⟨.hbm, 884, rfl⟩
abbrev main_cst_164 : Ref sig .tc := ⟨.hbm, 885, rfl⟩
abbrev main_v654 : Ref sig .tc := ⟨.hbm, 886, rfl⟩
abbrev main_v655 : Ref sig .tc := ⟨.hbm, 887, rfl⟩
abbrev main_v656 : Ref sig .tc := ⟨.hbm, 888, rfl⟩
abbrev main_cst_165 : Ref sig .tc := ⟨.hbm, 889, rfl⟩
abbrev main_v657 : Ref sig .tc := ⟨.hbm, 890, rfl⟩
abbrev main_v658 : Ref sig .tc := ⟨.hbm, 891, rfl⟩
abbrev main_v659 : Ref sig .tc := ⟨.hbm, 892, rfl⟩
abbrev main_cst_166 : Ref sig .tc := ⟨.hbm, 893, rfl⟩
abbrev main_v660 : Ref sig .tc := ⟨.hbm, 894, rfl⟩
abbrev main_v661 : Ref sig .tc := ⟨.hbm, 895, rfl⟩
abbrev main_cst_167 : Ref sig .tc := ⟨.hbm, 896, rfl⟩
abbrev main_v662 : Ref sig .tc := ⟨.hbm, 897, rfl⟩
abbrev main_v663 : Ref sig .tc := ⟨.hbm, 898, rfl⟩
abbrev main_v664 : Ref sig .tc := ⟨.hbm, 899, rfl⟩
abbrev main_cst_168 : Ref sig .tc := ⟨.hbm, 900, rfl⟩
abbrev main_call21_v0 : Ref sig .tc := ⟨.hbm, 901, rfl⟩
abbrev main_call21_v1 : Ref sig .tc := ⟨.hbm, 902, rfl⟩
abbrev main_v665 : Ref sig .tc := ⟨.hbm, 903, rfl⟩
abbrev main_cst_169 : Ref sig .tc := ⟨.hbm, 904, rfl⟩
abbrev main_v666 : Ref sig .tc := ⟨.hbm, 905, rfl⟩
abbrev main_v667 : Ref sig .tc := ⟨.hbm, 906, rfl⟩
abbrev main_cst_170 : Ref sig .tc := ⟨.hbm, 907, rfl⟩
abbrev main_v668 : Ref sig .tc := ⟨.hbm, 908, rfl⟩
abbrev main_v669 : Ref sig .tc := ⟨.hbm, 909, rfl⟩
abbrev main_v670 : Ref sig .tc := ⟨.hbm, 910, rfl⟩
abbrev main_cst_171 : Ref sig .tc := ⟨.hbm, 911, rfl⟩
abbrev main_call22_v0 : Ref sig .tc := ⟨.hbm, 912, rfl⟩
abbrev main_call22_v1 : Ref sig .tc := ⟨.hbm, 913, rfl⟩
abbrev main_v671 : Ref sig .tc := ⟨.hbm, 914, rfl⟩
abbrev main_v672 : Ref sig .tc := ⟨.hbm, 915, rfl⟩
abbrev main_c_172 : Ref sig .tc := ⟨.hbm, 916, rfl⟩
abbrev main_v673 : Ref sig .tc := ⟨.hbm, 917, rfl⟩
abbrev main_v674 : Ref sig .tc := ⟨.hbm, 918, rfl⟩
abbrev main_c_173 : Ref sig .tc := ⟨.hbm, 919, rfl⟩
abbrev main_v675 : Ref sig .tc := ⟨.hbm, 920, rfl⟩
abbrev main_v676 : Ref sig .tc := ⟨.hbm, 921, rfl⟩
abbrev main_v677 : Ref sig .tc := ⟨.hbm, 922, rfl⟩
abbrev main_v678 : Ref sig .tc := ⟨.hbm, 923, rfl⟩
abbrev main_v679 : Ref sig .tc := ⟨.hbm, 924, rfl⟩
abbrev main_c_174 : Ref sig .tc := ⟨.hbm, 925, rfl⟩
abbrev main_v680 : Ref sig .tc := ⟨.hbm, 926, rfl⟩
abbrev main_v681 : Ref sig .tc := ⟨.hbm, 927, rfl⟩
abbrev main_c_175 : Ref sig .tc := ⟨.hbm, 928, rfl⟩
abbrev main_v682 : Ref sig .tc := ⟨.hbm, 929, rfl⟩
abbrev main_v683 : Ref sig .tc := ⟨.hbm, 930, rfl⟩
abbrev main_v684 : Ref sig .tc := ⟨.hbm, 931, rfl⟩
abbrev main_v685 : Ref sig .tc := ⟨.hbm, 932, rfl⟩
abbrev main_v686 : Ref sig .tc := ⟨.hbm, 933, rfl⟩
abbrev main_v687 : Ref sig .tc := ⟨.hbm, 934, rfl⟩
abbrev main_c_176 : Ref sig .tc := ⟨.hbm, 935, rfl⟩
abbrev main_v688 : Ref sig .tc := ⟨.hbm, 936, rfl⟩
abbrev main_v689 : Ref sig .tc := ⟨.hbm, 937, rfl⟩
abbrev main_c_177 : Ref sig .tc := ⟨.hbm, 938, rfl⟩
abbrev main_v690 : Ref sig .tc := ⟨.hbm, 939, rfl⟩
abbrev main_v691 : Ref sig .tc := ⟨.hbm, 940, rfl⟩
abbrev main_v692 : Ref sig .tc := ⟨.hbm, 941, rfl⟩
abbrev main_v693 : Ref sig .tc := ⟨.hbm, 942, rfl⟩
abbrev main_v694 : Ref sig .tc := ⟨.hbm, 943, rfl⟩
abbrev main_v695 : Ref sig .tc := ⟨.hbm, 944, rfl⟩
abbrev main_v696 : Ref sig .tc := ⟨.hbm, 945, rfl⟩
abbrev main_v697 : Ref sig .tc := ⟨.hbm, 946, rfl⟩
abbrev main_cst_178 : Ref sig .tc := ⟨.hbm, 947, rfl⟩
abbrev main_v698 : Ref sig .tc := ⟨.hbm, 948, rfl⟩
abbrev main_v699 : Ref sig .tc := ⟨.hbm, 949, rfl⟩
abbrev main_v700 : Ref sig .tc := ⟨.hbm, 950, rfl⟩
abbrev main_v701 : Ref sig .tc := ⟨.hbm, 951, rfl⟩
abbrev main_v702 : Ref sig .tc := ⟨.hbm, 952, rfl⟩
abbrev main_v703 : Ref sig .tc := ⟨.hbm, 953, rfl⟩
abbrev main_v704 : Ref sig .tc := ⟨.hbm, 954, rfl⟩
abbrev main_v705 : Ref sig .tc := ⟨.hbm, 955, rfl⟩
abbrev main_v706 : Ref sig .tc := ⟨.hbm, 956, rfl⟩
abbrev main_v707 : Ref sig .tc := ⟨.hbm, 957, rfl⟩
abbrev main_v708 : Ref sig .tc := ⟨.hbm, 958, rfl⟩
abbrev main_v709 : Ref sig .tc := ⟨.hbm, 959, rfl⟩
abbrev main_v710 : Ref sig .tc := ⟨.hbm, 960, rfl⟩
abbrev main_v711 : Ref sig .tc := ⟨.hbm, 961, rfl⟩
abbrev main_v712 : Ref sig .tc := ⟨.hbm, 962, rfl⟩
abbrev main_cst_179 : Ref sig .tc := ⟨.hbm, 963, rfl⟩
abbrev main_v713 : Ref sig .tc := ⟨.hbm, 964, rfl⟩
abbrev main_cst_180 : Ref sig .tc := ⟨.hbm, 965, rfl⟩
abbrev main_v714 : Ref sig .tc := ⟨.hbm, 966, rfl⟩
abbrev main_v715 : Ref sig .tc := ⟨.hbm, 967, rfl⟩
abbrev main_v716 : Ref sig .tc := ⟨.hbm, 968, rfl⟩
abbrev main_cst_181 : Ref sig .tc := ⟨.hbm, 969, rfl⟩
abbrev main_v717 : Ref sig .tc := ⟨.hbm, 970, rfl⟩
abbrev main_v718 : Ref sig .tc := ⟨.hbm, 971, rfl⟩
abbrev main_v719 : Ref sig .tc := ⟨.hbm, 972, rfl⟩
abbrev main_cst_182 : Ref sig .tc := ⟨.hbm, 973, rfl⟩
abbrev main_v720 : Ref sig .tc := ⟨.hbm, 974, rfl⟩
abbrev main_v721 : Ref sig .tc := ⟨.hbm, 975, rfl⟩
abbrev main_cst_183 : Ref sig .tc := ⟨.hbm, 976, rfl⟩
abbrev main_v722 : Ref sig .tc := ⟨.hbm, 977, rfl⟩
abbrev main_v723 : Ref sig .tc := ⟨.hbm, 978, rfl⟩
abbrev main_v724 : Ref sig .tc := ⟨.hbm, 979, rfl⟩
abbrev main_cst_184 : Ref sig .tc := ⟨.hbm, 980, rfl⟩
abbrev main_call23_v0 : Ref sig .tc := ⟨.hbm, 981, rfl⟩
abbrev main_call23_v1 : Ref sig .tc := ⟨.hbm, 982, rfl⟩
abbrev main_v725 : Ref sig .tc := ⟨.hbm, 983, rfl⟩
abbrev main_cst_185 : Ref sig .tc := ⟨.hbm, 984, rfl⟩
abbrev main_v726 : Ref sig .tc := ⟨.hbm, 985, rfl⟩
abbrev main_v727 : Ref sig .tc := ⟨.hbm, 986, rfl⟩
abbrev main_cst_186 : Ref sig .tc := ⟨.hbm, 987, rfl⟩
abbrev main_v728 : Ref sig .tc := ⟨.hbm, 988, rfl⟩
abbrev main_v729 : Ref sig .tc := ⟨.hbm, 989, rfl⟩
abbrev main_v730 : Ref sig .tc := ⟨.hbm, 990, rfl⟩
abbrev main_cst_187 : Ref sig .tc := ⟨.hbm, 991, rfl⟩
abbrev main_call24_v0 : Ref sig .tc := ⟨.hbm, 992, rfl⟩
abbrev main_call24_v1 : Ref sig .tc := ⟨.hbm, 993, rfl⟩
abbrev main_v731 : Ref sig .tc := ⟨.hbm, 994, rfl⟩
abbrev main_v732 : Ref sig .tc := ⟨.hbm, 995, rfl⟩
abbrev main_c_188 : Ref sig .tc := ⟨.hbm, 996, rfl⟩
abbrev main_v733 : Ref sig .tc := ⟨.hbm, 997, rfl⟩
abbrev main_v734 : Ref sig .tc := ⟨.hbm, 998, rfl⟩
abbrev main_c_189 : Ref sig .tc := ⟨.hbm, 999, rfl⟩
abbrev main_v735 : Ref sig .tc := ⟨.hbm, 1000, rfl⟩
abbrev main_v736 : Ref sig .tc := ⟨.hbm, 1001, rfl⟩
abbrev main_v737 : Ref sig .tc := ⟨.hbm, 1002, rfl⟩
abbrev main_v738 : Ref sig .tc := ⟨.hbm, 1003, rfl⟩
abbrev main_v739 : Ref sig .tc := ⟨.hbm, 1004, rfl⟩
abbrev main_c_190 : Ref sig .tc := ⟨.hbm, 1005, rfl⟩
abbrev main_v740 : Ref sig .tc := ⟨.hbm, 1006, rfl⟩
abbrev main_v741 : Ref sig .tc := ⟨.hbm, 1007, rfl⟩
abbrev main_c_191 : Ref sig .tc := ⟨.hbm, 1008, rfl⟩
abbrev main_v742 : Ref sig .tc := ⟨.hbm, 1009, rfl⟩
abbrev main_v743 : Ref sig .tc := ⟨.hbm, 1010, rfl⟩
abbrev main_v744 : Ref sig .tc := ⟨.hbm, 1011, rfl⟩
abbrev main_v745 : Ref sig .tc := ⟨.hbm, 1012, rfl⟩
abbrev main_v746 : Ref sig .tc := ⟨.hbm, 1013, rfl⟩
abbrev main_v747 : Ref sig .tc := ⟨.hbm, 1014, rfl⟩
abbrev main_c_192 : Ref sig .tc := ⟨.hbm, 1015, rfl⟩
abbrev main_v748 : Ref sig .tc := ⟨.hbm, 1016, rfl⟩
abbrev main_v749 : Ref sig .tc := ⟨.hbm, 1017, rfl⟩
abbrev main_c_193 : Ref sig .tc := ⟨.hbm, 1018, rfl⟩
abbrev main_v750 : Ref sig .tc := ⟨.hbm, 1019, rfl⟩
abbrev main_v751 : Ref sig .tc := ⟨.hbm, 1020, rfl⟩
abbrev main_v752 : Ref sig .tc := ⟨.hbm, 1021, rfl⟩
abbrev main_v753 : Ref sig .tc := ⟨.hbm, 1022, rfl⟩
abbrev main_v754 : Ref sig .tc := ⟨.hbm, 1023, rfl⟩
abbrev main_v755 : Ref sig .tc := ⟨.hbm, 1024, rfl⟩
abbrev main_v756 : Ref sig .tc := ⟨.hbm, 1025, rfl⟩
abbrev main_v757 : Ref sig .tc := ⟨.hbm, 1026, rfl⟩
abbrev main_cst_194 : Ref sig .tc := ⟨.hbm, 1027, rfl⟩
abbrev main_v758 : Ref sig .tc := ⟨.hbm, 1028, rfl⟩
abbrev main_v759 : Ref sig .tc := ⟨.hbm, 1029, rfl⟩
abbrev main_v760 : Ref sig .tc := ⟨.hbm, 1030, rfl⟩
abbrev main_v761 : Ref sig .tc := ⟨.hbm, 1031, rfl⟩
abbrev main_v762 : Ref sig .tc := ⟨.hbm, 1032, rfl⟩
abbrev main_v763 : Ref sig .tc := ⟨.hbm, 1033, rfl⟩
abbrev main_v764 : Ref sig .tc := ⟨.hbm, 1034, rfl⟩
abbrev main_v765 : Ref sig .tc := ⟨.hbm, 1035, rfl⟩
abbrev main_v766 : Ref sig .tc := ⟨.hbm, 1036, rfl⟩
abbrev main_v767 : Ref sig .tc := ⟨.hbm, 1037, rfl⟩
abbrev main_v768 : Ref sig .tc := ⟨.hbm, 1038, rfl⟩
abbrev main_v769 : Ref sig .tc := ⟨.hbm, 1039, rfl⟩
abbrev main_v770 : Ref sig .tc := ⟨.hbm, 1040, rfl⟩
abbrev main_v771 : Ref sig .tc := ⟨.hbm, 1041, rfl⟩
abbrev main_v772 : Ref sig .tc := ⟨.hbm, 1042, rfl⟩
abbrev main_cst_195 : Ref sig .tc := ⟨.hbm, 1043, rfl⟩
abbrev main_v773 : Ref sig .tc := ⟨.hbm, 1044, rfl⟩
abbrev main_cst_196 : Ref sig .tc := ⟨.hbm, 1045, rfl⟩
abbrev main_v774 : Ref sig .tc := ⟨.hbm, 1046, rfl⟩
abbrev main_v775 : Ref sig .tc := ⟨.hbm, 1047, rfl⟩
abbrev main_v776 : Ref sig .tc := ⟨.hbm, 1048, rfl⟩
abbrev main_cst_197 : Ref sig .tc := ⟨.hbm, 1049, rfl⟩
abbrev main_v777 : Ref sig .tc := ⟨.hbm, 1050, rfl⟩
abbrev main_v778 : Ref sig .tc := ⟨.hbm, 1051, rfl⟩
abbrev main_v779 : Ref sig .tc := ⟨.hbm, 1052, rfl⟩
abbrev main_cst_198 : Ref sig .tc := ⟨.hbm, 1053, rfl⟩
abbrev main_v780 : Ref sig .tc := ⟨.hbm, 1054, rfl⟩
abbrev main_v781 : Ref sig .tc := ⟨.hbm, 1055, rfl⟩
abbrev main_cst_199 : Ref sig .tc := ⟨.hbm, 1056, rfl⟩
abbrev main_v782 : Ref sig .tc := ⟨.hbm, 1057, rfl⟩
abbrev main_v783 : Ref sig .tc := ⟨.hbm, 1058, rfl⟩
abbrev main_v784 : Ref sig .tc := ⟨.hbm, 1059, rfl⟩
abbrev main_cst_200 : Ref sig .tc := ⟨.hbm, 1060, rfl⟩
abbrev main_call25_v0 : Ref sig .tc := ⟨.hbm, 1061, rfl⟩
abbrev main_call25_v1 : Ref sig .tc := ⟨.hbm, 1062, rfl⟩
abbrev main_v785 : Ref sig .tc := ⟨.hbm, 1063, rfl⟩
abbrev main_cst_201 : Ref sig .tc := ⟨.hbm, 1064, rfl⟩
abbrev main_v786 : Ref sig .tc := ⟨.hbm, 1065, rfl⟩
abbrev main_v787 : Ref sig .tc := ⟨.hbm, 1066, rfl⟩
abbrev main_cst_202 : Ref sig .tc := ⟨.hbm, 1067, rfl⟩
abbrev main_v788 : Ref sig .tc := ⟨.hbm, 1068, rfl⟩
abbrev main_v789 : Ref sig .tc := ⟨.hbm, 1069, rfl⟩
abbrev main_v790 : Ref sig .tc := ⟨.hbm, 1070, rfl⟩
abbrev main_cst_203 : Ref sig .tc := ⟨.hbm, 1071, rfl⟩
abbrev main_call26_v0 : Ref sig .tc := ⟨.hbm, 1072, rfl⟩
abbrev main_call26_v1 : Ref sig .tc := ⟨.hbm, 1073, rfl⟩
abbrev main_v791 : Ref sig .tc := ⟨.hbm, 1074, rfl⟩
abbrev main_v792 : Ref sig .tc := ⟨.hbm, 1075, rfl⟩
abbrev main_c_204 : Ref sig .tc := ⟨.hbm, 1076, rfl⟩
abbrev main_v793 : Ref sig .tc := ⟨.hbm, 1077, rfl⟩
abbrev main_v794 : Ref sig .tc := ⟨.hbm, 1078, rfl⟩
abbrev main_c_205 : Ref sig .tc := ⟨.hbm, 1079, rfl⟩
abbrev main_v795 : Ref sig .tc := ⟨.hbm, 1080, rfl⟩
abbrev main_v796 : Ref sig .tc := ⟨.hbm, 1081, rfl⟩
abbrev main_v797 : Ref sig .tc := ⟨.hbm, 1082, rfl⟩
abbrev main_v798 : Ref sig .tc := ⟨.hbm, 1083, rfl⟩
abbrev main_v799 : Ref sig .tc := ⟨.hbm, 1084, rfl⟩
abbrev main_c_206 : Ref sig .tc := ⟨.hbm, 1085, rfl⟩
abbrev main_v800 : Ref sig .tc := ⟨.hbm, 1086, rfl⟩
abbrev main_v801 : Ref sig .tc := ⟨.hbm, 1087, rfl⟩
abbrev main_c_207 : Ref sig .tc := ⟨.hbm, 1088, rfl⟩
abbrev main_v802 : Ref sig .tc := ⟨.hbm, 1089, rfl⟩
abbrev main_v803 : Ref sig .tc := ⟨.hbm, 1090, rfl⟩
abbrev main_v804 : Ref sig .tc := ⟨.hbm, 1091, rfl⟩
abbrev main_v805 : Ref sig .tc := ⟨.hbm, 1092, rfl⟩
abbrev main_v806 : Ref sig .tc := ⟨.hbm, 1093, rfl⟩
abbrev main_v807 : Ref sig .tc := ⟨.hbm, 1094, rfl⟩
abbrev main_c_208 : Ref sig .tc := ⟨.hbm, 1095, rfl⟩
abbrev main_v808 : Ref sig .tc := ⟨.hbm, 1096, rfl⟩
abbrev main_v809 : Ref sig .tc := ⟨.hbm, 1097, rfl⟩
abbrev main_c_209 : Ref sig .tc := ⟨.hbm, 1098, rfl⟩
abbrev main_v810 : Ref sig .tc := ⟨.hbm, 1099, rfl⟩
abbrev main_v811 : Ref sig .tc := ⟨.hbm, 1100, rfl⟩
abbrev main_v812 : Ref sig .tc := ⟨.hbm, 1101, rfl⟩
abbrev main_v813 : Ref sig .tc := ⟨.hbm, 1102, rfl⟩
abbrev main_v814 : Ref sig .tc := ⟨.hbm, 1103, rfl⟩
abbrev main_v815 : Ref sig .tc := ⟨.hbm, 1104, rfl⟩
abbrev main_v816 : Ref sig .tc := ⟨.hbm, 1105, rfl⟩
abbrev main_v817 : Ref sig .tc := ⟨.hbm, 1106, rfl⟩
abbrev main_cst_210 : Ref sig .tc := ⟨.hbm, 1107, rfl⟩
abbrev main_v818 : Ref sig .tc := ⟨.hbm, 1108, rfl⟩
abbrev main_v819 : Ref sig .tc := ⟨.hbm, 1109, rfl⟩
abbrev main_v820 : Ref sig .tc := ⟨.hbm, 1110, rfl⟩
abbrev main_v821 : Ref sig .tc := ⟨.hbm, 1111, rfl⟩
abbrev main_v822 : Ref sig .tc := ⟨.hbm, 1112, rfl⟩
abbrev main_v823 : Ref sig .tc := ⟨.hbm, 1113, rfl⟩
abbrev main_v824 : Ref sig .tc := ⟨.hbm, 1114, rfl⟩
abbrev main_v825 : Ref sig .tc := ⟨.hbm, 1115, rfl⟩
abbrev main_v826 : Ref sig .tc := ⟨.hbm, 1116, rfl⟩
abbrev main_v827 : Ref sig .tc := ⟨.hbm, 1117, rfl⟩
abbrev main_v828 : Ref sig .tc := ⟨.hbm, 1118, rfl⟩
abbrev main_cst_211 : Ref sig .tc := ⟨.hbm, 1119, rfl⟩
abbrev main_v829 : Ref sig .tc := ⟨.hbm, 1120, rfl⟩
abbrev main_v830 : Ref sig .tc := ⟨.hbm, 1121, rfl⟩
abbrev main_cst_212 : Ref sig .tc := ⟨.hbm, 1122, rfl⟩
abbrev main_v831 : Ref sig .tc := ⟨.hbm, 1123, rfl⟩
abbrev main_v832 : Ref sig .tc := ⟨.hbm, 1124, rfl⟩
abbrev main_v833 : Ref sig .tc := ⟨.hbm, 1125, rfl⟩
abbrev main_v834 : Ref sig .tc := ⟨.hbm, 1126, rfl⟩
abbrev main_v835 : Ref sig .tc := ⟨.hbm, 1127, rfl⟩
abbrev main_cst_213 : Ref sig .tc := ⟨.hbm, 1128, rfl⟩
abbrev main_v836 : Ref sig .tc := ⟨.hbm, 1129, rfl⟩
abbrev main_v837 : Ref sig .tc := ⟨.hbm, 1130, rfl⟩
abbrev main_cst_214 : Ref sig .tc := ⟨.hbm, 1131, rfl⟩
abbrev main_v838 : Ref sig .tc := ⟨.hbm, 1132, rfl⟩
abbrev main_v839 : Ref sig .tc := ⟨.hbm, 1133, rfl⟩
abbrev main_v840 : Ref sig .tc := ⟨.hbm, 1134, rfl⟩
abbrev main_v841 : Ref sig .tc := ⟨.hbm, 1135, rfl⟩
abbrev main_cst_215 : Ref sig .tc := ⟨.hbm, 1136, rfl⟩
abbrev main_v842 : Ref sig .tc := ⟨.hbm, 1137, rfl⟩
abbrev main_v843 : Ref sig .tc := ⟨.hbm, 1138, rfl⟩
abbrev main_v844 : Ref sig .tc := ⟨.hbm, 1139, rfl⟩
abbrev main_v845 : Ref sig .tc := ⟨.hbm, 1140, rfl⟩
abbrev main_v846 : Ref sig .tc := ⟨.hbm, 1141, rfl⟩
abbrev main_v847 : Ref sig .tc := ⟨.hbm, 1142, rfl⟩
abbrev main_v848 : Ref sig .tc := ⟨.hbm, 1143, rfl⟩
abbrev main_v849 : Ref sig .tc := ⟨.hbm, 1144, rfl⟩
abbrev main_v850 : Ref sig .tc := ⟨.hbm, 1145, rfl⟩
abbrev main_v851 : Ref sig .tc := ⟨.hbm, 1146, rfl⟩
abbrev main_v852 : Ref sig .tc := ⟨.hbm, 1147, rfl⟩
abbrev main_v853 : Ref sig .tc := ⟨.hbm, 1148, rfl⟩
abbrev main_v854 : Ref sig .tc := ⟨.hbm, 1149, rfl⟩
abbrev main_v855 : Ref sig .tc := ⟨.hbm, 1150, rfl⟩
abbrev main_v856 : Ref sig .tc := ⟨.hbm, 1151, rfl⟩
abbrev main_cst_216 : Ref sig .tc := ⟨.hbm, 1152, rfl⟩
abbrev main_v857 : Ref sig .tc := ⟨.hbm, 1153, rfl⟩
abbrev main_v858 : Ref sig .tc := ⟨.hbm, 1154, rfl⟩
abbrev main_cst_217 : Ref sig .tc := ⟨.hbm, 1155, rfl⟩
abbrev main_v859 : Ref sig .tc := ⟨.hbm, 1156, rfl⟩
abbrev main_v860 : Ref sig .tc := ⟨.hbm, 1157, rfl⟩
abbrev main_v861 : Ref sig .tc := ⟨.hbm, 1158, rfl⟩
abbrev main_v862 : Ref sig .tc := ⟨.hbm, 1159, rfl⟩
abbrev main_v863 : Ref sig .tc := ⟨.hbm, 1160, rfl⟩
abbrev main_cst_218 : Ref sig .tc := ⟨.hbm, 1161, rfl⟩
abbrev main_v864 : Ref sig .tc := ⟨.hbm, 1162, rfl⟩
abbrev main_v865 : Ref sig .tc := ⟨.hbm, 1163, rfl⟩
abbrev main_cst_219 : Ref sig .tc := ⟨.hbm, 1164, rfl⟩
abbrev main_v866 : Ref sig .tc := ⟨.hbm, 1165, rfl⟩
abbrev main_v867 : Ref sig .tc := ⟨.hbm, 1166, rfl⟩
abbrev main_v868 : Ref sig .tc := ⟨.hbm, 1167, rfl⟩
abbrev main_v869 : Ref sig .tc := ⟨.hbm, 1168, rfl⟩
abbrev main_cst_220 : Ref sig .tc := ⟨.hbm, 1169, rfl⟩
abbrev main_v870 : Ref sig .tc := ⟨.hbm, 1170, rfl⟩
abbrev main_v871 : Ref sig .tc := ⟨.hbm, 1171, rfl⟩
abbrev main_v872 : Ref sig .tc := ⟨.hbm, 1172, rfl⟩
abbrev main_v873 : Ref sig .tc := ⟨.hbm, 1173, rfl⟩
abbrev main_v874 : Ref sig .tc := ⟨.hbm, 1174, rfl⟩
abbrev main_v875 : Ref sig .tc := ⟨.hbm, 1175, rfl⟩
abbrev main_v876 : Ref sig .tc := ⟨.hbm, 1176, rfl⟩
abbrev main_v877 : Ref sig .tc := ⟨.hbm, 1177, rfl⟩
abbrev main_v878 : Ref sig .tc := ⟨.hbm, 1178, rfl⟩
abbrev main_v879 : Ref sig .tc := ⟨.hbm, 1179, rfl⟩
abbrev main_v880 : Ref sig .tc := ⟨.hbm, 1180, rfl⟩
abbrev main_v881 : Ref sig .tc := ⟨.hbm, 1181, rfl⟩
abbrev main_v882 : Ref sig .tc := ⟨.hbm, 1182, rfl⟩
abbrev main_v883 : Ref sig .tc := ⟨.hbm, 1183, rfl⟩
abbrev main_v884 : Ref sig .tc := ⟨.hbm, 1184, rfl⟩
abbrev main_cst_221 : Ref sig .tc := ⟨.hbm, 1185, rfl⟩
abbrev main_v885 : Ref sig .tc := ⟨.hbm, 1186, rfl⟩
abbrev main_v886 : Ref sig .tc := ⟨.hbm, 1187, rfl⟩
abbrev main_cst_222 : Ref sig .tc := ⟨.hbm, 1188, rfl⟩
abbrev main_v887 : Ref sig .tc := ⟨.hbm, 1189, rfl⟩
abbrev main_v888 : Ref sig .tc := ⟨.hbm, 1190, rfl⟩
abbrev main_v889 : Ref sig .tc := ⟨.hbm, 1191, rfl⟩
abbrev main_v890 : Ref sig .tc := ⟨.hbm, 1192, rfl⟩
abbrev main_v891 : Ref sig .tc := ⟨.hbm, 1193, rfl⟩
abbrev main_cst_223 : Ref sig .tc := ⟨.hbm, 1194, rfl⟩
abbrev main_v892 : Ref sig .tc := ⟨.hbm, 1195, rfl⟩
abbrev main_v893 : Ref sig .tc := ⟨.hbm, 1196, rfl⟩
abbrev main_cst_224 : Ref sig .tc := ⟨.hbm, 1197, rfl⟩
abbrev main_v894 : Ref sig .tc := ⟨.hbm, 1198, rfl⟩
abbrev main_v895 : Ref sig .tc := ⟨.hbm, 1199, rfl⟩
abbrev main_v896 : Ref sig .tc := ⟨.hbm, 1200, rfl⟩
abbrev main_v897 : Ref sig .tc := ⟨.hbm, 1201, rfl⟩
abbrev main_cst_225 : Ref sig .tc := ⟨.hbm, 1202, rfl⟩
abbrev main_v898 : Ref sig .tc := ⟨.hbm, 1203, rfl⟩
abbrev main_v899 : Ref sig .tc := ⟨.hbm, 1204, rfl⟩
abbrev main_v900 : Ref sig .tc := ⟨.hbm, 1205, rfl⟩
abbrev main_v901 : Ref sig .tc := ⟨.hbm, 1206, rfl⟩
abbrev main_v902 : Ref sig .tc := ⟨.hbm, 1207, rfl⟩
abbrev main_v903 : Ref sig .tc := ⟨.hbm, 1208, rfl⟩
abbrev main_v904 : Ref sig .tc := ⟨.hbm, 1209, rfl⟩
abbrev main_v905 : Ref sig .tc := ⟨.hbm, 1210, rfl⟩
abbrev main_v906 : Ref sig .tc := ⟨.hbm, 1211, rfl⟩
abbrev main_v907 : Ref sig .tc := ⟨.hbm, 1212, rfl⟩
abbrev main_v908 : Ref sig .tc := ⟨.hbm, 1213, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S1x128_S60000x128_0_1 : S1x128.BroadcastsInDim S60000x128 (![0, 1] : Fin 2 → Fin S60000x128.rank)
  bcast_S_S20000x128 : S_.BroadcastsInDim S20000x128 (![] : Fin 0 → Fin S20000x128.rank)
  bcast_S_S60000x128 : S_.BroadcastsInDim S60000x128 (![] : Fin 0 → Fin S60000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S20000 : S_.BroadcastsInDim S20000 (![] : Fin 0 → Fin S20000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  slices_S6x128x128_S1x128x128_1_0_0 : S6x128x128.Slices ![1, 0, 0] S1x128x128
  slices_S6x128_S1x128_1_0 : S6x128.Slices ![1, 0] S1x128
  bcast_S_S60000 : S_.BroadcastsInDim S60000 (![] : Fin 0 → Fin S60000.rank)
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  slices_S3x128_S1x128_0_0 : S3x128.Slices ![0, 0] S1x128
  reducesTo_S20000x128_S20000_d1 : S20000x128.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  slices_S3x128_S1x128_1_0 : S3x128.Slices ![1, 0] S1x128
  reducesTo_S60000x128_S60000_d1 : S60000x128.ReducesTo [1] S60000
  bcast_S60000_S60000x1_0 : S60000.BroadcastsInDim S60000x1 (![0] : Fin 1 → Fin S60000x1.rank)
  bcast_S_S60000x1 : S_.BroadcastsInDim S60000x1 (![] : Fin 0 → Fin S60000x1.rank)
  bcast_S60000x1_S60000x128_0_1 : S60000x1.BroadcastsInDim S60000x128 (![0, 1] : Fin 2 → Fin S60000x128.rank)
  slices_S3x128_S1x128_2_0 : S3x128.Slices ![2, 0] S1x128
  bcast_S_S20000x64 : S_.BroadcastsInDim S20000x64 (![] : Fin 0 → Fin S20000x64.rank)
  bcast_S_S60000x64 : S_.BroadcastsInDim S60000x64 (![] : Fin 0 → Fin S60000x64.rank)
  slices_S6x128x64_S1x128x64_0_0_0 : S6x128x64.Slices ![0, 0, 0] S1x128x64
  shapeCasts_S1x128x64_S128x64 : S1x128x64.ShapeCasts S128x64
  slices_S6x64_S1x64_0_0 : S6x64.Slices ![0, 0] S1x64
  shapeCasts_S1x64_S64 : S1x64.ShapeCasts S64
  bcast_S500000x1_S500000x64_0_1 : S500000x1.BroadcastsInDim S500000x64 (![0, 1] : Fin 2 → Fin S500000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  slices_S6x128x64_S1x128x64_1_0_0 : S6x128x64.Slices ![1, 0, 0] S1x128x64
  slices_S6x64_S1x64_1_0 : S6x64.Slices ![1, 0] S1x64
  bcast_S1x64_S60000x64_0_1 : S1x64.BroadcastsInDim S60000x64 (![0, 1] : Fin 2 → Fin S60000x64.rank)
  slices_S6x128x64_S1x128x64_2_0_0 : S6x128x64.Slices ![2, 0, 0] S1x128x64
  slices_S6x64_S1x64_2_0 : S6x64.Slices ![2, 0] S1x64
  slices_S6x128x64_S1x128x64_3_0_0 : S6x128x64.Slices ![3, 0, 0] S1x128x64
  slices_S6x64_S1x64_3_0 : S6x64.Slices ![3, 0] S1x64
  slices_S6x128x64_S1x128x64_4_0_0 : S6x128x64.Slices ![4, 0, 0] S1x128x64
  slices_S6x64_S1x64_4_0 : S6x64.Slices ![4, 0] S1x64
  slices_S6x128x64_S1x128x64_5_0_0 : S6x128x64.Slices ![5, 0, 0] S1x128x64
  slices_S6x64_S1x64_5_0 : S6x64.Slices ![5, 0] S1x64
  slices_S3x64_S1x64_0_0 : S3x64.Slices ![0, 0] S1x64
  reducesTo_S20000x64_S20000_d1 : S20000x64.ReducesTo [1] S20000
  bcast_S20000x1_S20000x64_0_1 : S20000x1.BroadcastsInDim S20000x64 (![0, 1] : Fin 2 → Fin S20000x64.rank)
  slices_S3x64_S1x64_1_0 : S3x64.Slices ![1, 0] S1x64
  reducesTo_S60000x64_S60000_d1 : S60000x64.ReducesTo [1] S60000
  bcast_S60000x1_S60000x64_0_1 : S60000x1.BroadcastsInDim S60000x64 (![0, 1] : Fin 2 → Fin S60000x64.rank)
  slices_S3x64_S1x64_2_0 : S3x64.Slices ![2, 0] S1x64
  dot_S20000x128_S128x128_S20000x128_1_0_0_1_n_n_wf : DotDims.WF S20000x128 S128x128 S20000x128 [1] [0] [0] [1] [] []
  dot_S60000x128_S128x128_S60000x128_1_0_0_1_n_n_wf : DotDims.WF S60000x128 S128x128 S60000x128 [1] [0] [0] [1] [] []
  scatter_S20000_S500000x1_S500000_n_0_0_1_wf : ScatterDims.WF S20000 S500000x1 S500000 [] [0] [0] 1
  gather_S20000_S500000x1_S500000_n_0_n_n_0_1_1_wf : GatherDims.WF S20000 S500000x1 S500000 [] [0] [] [0] [] 1 ![1]
  gather_S20000x128_S500000x1_S500000x128_1_0_n_n_0_1_1128_wf : GatherDims.WF S20000x128 S500000x1 S500000x128 [1] [0] [] [0] [] 1 ![1, 128]
  scatter_S20000x128_S500000x1_S500000x128_1_0_0_1_wf : ScatterDims.WF S20000x128 S500000x1 S500000x128 [1] [0] [0] 1
  scatter_S60000_S500000x1_S500000_n_0_0_1_wf : ScatterDims.WF S60000 S500000x1 S500000 [] [0] [0] 1
  gather_S60000_S500000x1_S500000_n_0_n_n_0_1_1_wf : GatherDims.WF S60000 S500000x1 S500000 [] [0] [] [0] [] 1 ![1]
  scatter_S60000x128_S500000x1_S500000x128_1_0_0_1_wf : ScatterDims.WF S60000x128 S500000x1 S500000x128 [1] [0] [0] 1
  gather_S60000x128_S500000x1_S500000x128_1_0_n_n_0_1_1128_wf : GatherDims.WF S60000x128 S500000x1 S500000x128 [1] [0] [] [0] [] 1 ![1, 128]
  dot_S20000x128_S128x64_S20000x64_1_0_0_1_n_n_wf : DotDims.WF S20000x128 S128x64 S20000x64 [1] [0] [0] [1] [] []
  gather_S20000x64_S500000x1_S500000x64_1_0_n_n_0_1_164_wf : GatherDims.WF S20000x64 S500000x1 S500000x64 [1] [0] [] [0] [] 1 ![1, 64]
  scatter_S20000x64_S500000x1_S500000x64_1_0_0_1_wf : ScatterDims.WF S20000x64 S500000x1 S500000x64 [1] [0] [0] 1
  scatter_S60000x64_S500000x1_S500000x64_1_0_0_1_wf : ScatterDims.WF S60000x64 S500000x1 S500000x64 [1] [0] [0] 1
  dot_S60000x128_S128x64_S60000x64_1_0_0_1_n_n_wf : DotDims.WF S60000x128 S128x64 S60000x64 [1] [0] [0] [1] [] []
  gather_S60000x64_S500000x1_S500000x64_1_0_n_n_0_1_164_wf : GatherDims.WF S60000x64 S500000x1 S500000x64 [1] [0] [] [0] [] 1 ![1, 64]

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S60000x128_S128x128_S60000x128_1_0_0_1_n_n : DotDims S60000x128 S128x128 S60000x128 where
  lhsContracting := [1]
  rhsContracting := [0]
  lhsNonContracting := [0]
  rhsNonContracting := [1]
  lhsBatch := []
  rhsBatch := []
  wf := dot_S60000x128_S128x128_S60000x128_1_0_0_1_n_n_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def gather_S20000_S500000x1_S500000_n_0_n_n_0_1_1 : GatherDims S20000 S500000x1 S500000 where
  offsetDims := []
  collapsedSliceDims := [0]
  operandBatchingDims := []
  startIndicesBatchingDims := []
  startIndexMap := [0]
  indexVectorDim := 1
  sliceSizes := ![1]
  wf := gather_S20000_S500000x1_S500000_n_0_n_n_0_1_1_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S60000_S500000x1_S500000_n_0_0_1 : ScatterDims S60000 S500000x1 S500000 where
  updateWindowDims := []
  insertedWindowDims := [0]
  scatterDimsToOperandDims := [0]
  indexVectorDim := 1
  wf := scatter_S60000_S500000x1_S500000_n_0_0_1_wf
def gather_S60000_S500000x1_S500000_n_0_n_n_0_1_1 : GatherDims S60000 S500000x1 S500000 where
  offsetDims := []
  collapsedSliceDims := [0]
  operandBatchingDims := []
  startIndicesBatchingDims := []
  startIndexMap := [0]
  indexVectorDim := 1
  sliceSizes := ![1]
  wf := gather_S60000_S500000x1_S500000_n_0_n_n_0_1_1_wf
def scatter_S60000x128_S500000x1_S500000x128_1_0_0_1 : ScatterDims S60000x128 S500000x1 S500000x128 where
  updateWindowDims := [1]
  insertedWindowDims := [0]
  scatterDimsToOperandDims := [0]
  indexVectorDim := 1
  wf := scatter_S60000x128_S500000x1_S500000x128_1_0_0_1_wf
def gather_S60000x128_S500000x1_S500000x128_1_0_n_n_0_1_1128 : GatherDims S60000x128 S500000x1 S500000x128 where
  offsetDims := [1]
  collapsedSliceDims := [0]
  operandBatchingDims := []
  startIndicesBatchingDims := []
  startIndexMap := [0]
  indexVectorDim := 1
  sliceSizes := ![1, 128]
  wf := gather_S60000x128_S500000x1_S500000x128_1_0_n_n_0_1_1128_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def scatter_S60000x64_S500000x1_S500000x64_1_0_0_1 : ScatterDims S60000x64 S500000x1 S500000x64 where
  updateWindowDims := [1]
  insertedWindowDims := [0]
  scatterDimsToOperandDims := [0]
  indexVectorDim := 1
  wf := scatter_S60000x64_S500000x1_S500000x64_1_0_0_1_wf
def dot_S60000x128_S128x64_S60000x64_1_0_0_1_n_n : DotDims S60000x128 S128x64 S60000x64 where
  lhsContracting := [1]
  rhsContracting := [0]
  lhsNonContracting := [0]
  rhsNonContracting := [1]
  lhsBatch := []
  rhsBatch := []
  wf := dot_S60000x128_S128x64_S60000x64_1_0_0_1_n_n_wf
def gather_S60000x64_S500000x1_S500000x64_1_0_n_n_0_1_164 : GatherDims S60000x64 S500000x1 S500000x64 where
  offsetDims := [1]
  collapsedSliceDims := [0]
  operandBatchingDims := []
  startIndicesBatchingDims := []
  startIndexMap := [0]
  indexVectorDim := 1
  sliceSizes := ![1, 64]
  wf := gather_S60000x64_S500000x1_S500000x64_1_0_n_n_0_1_164_wf

class Facts : Prop extends Facts₀ where

variable [Facts]
-- ==== Proof.KFoldK.Writes.lean ====
/- What each host stretch of the kernel program writes: the result buffer of each of its operations, as a literal list
   of references, and that every operation's written set lies in that list. -/
import proofs.«147021_j7619271983570_1_alg».proof.Proof.Gen.Kernel.Launch

set_option maxRecDepth 16384

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ) (ρ : Dev nD → PrngReg)

/-- The references the operations of `hostOps0` write. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  all_goals exact List.mem_map_of_mem (by decide)
/-- The references the operations of `hostOps1` write. -/
abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  all_goals exact List.mem_map_of_mem (by decide)
/-- The references the operations of `hostOps2` write. -/
abbrev hostOps2_W : List (Ref sig .tc) := [main_v4]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  all_goals exact List.mem_map_of_mem (by decide)
/-- The references the operations of `hostOps3` write. -/
abbrev hostOps3_W : List (Ref sig .tc) := [main_cst, main_v6, main_cst_0, main_v7, main_cst_1, main_v8, main_cst_2, main_v9, main_v10, main_v11, main_v12]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4` write. -/
abbrev hostOps4_W : List (Ref sig .tc) := [main_v14, main_v15, main_v16, main_v17, main_v18, main_v19, main_cst_3, main_v20, main_cst_4, main_v21, main_v22, main_v23, main_cst_5, main_v24, main_v25, main_v26, main_cst_6, main_v27, main_v28, main_cst_7, main_v29, main_v30, main_v31, main_cst_8]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4_1` write. -/
abbrev hostOps4_1_W : List (Ref sig .tc) := [main_call0_v0, main_call0_v1, main_v32]
theorem hostOps4_1_writes : (hostOps4_1 : List (HloOp τ sig (Elt F))).Forall fun op => op.writes ⊆ (hostOps4_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4_2` write. -/
abbrev hostOps4_2_W : List (Ref sig .tc) := [main_cst_9, main_v33, main_v34, main_cst_10, main_v35, main_v36, main_v37, main_cst_11]
theorem hostOps4_2_writes : (hostOps4_2 : List (HloOp τ sig (Elt F))).Forall fun op => op.writes ⊆ (hostOps4_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4_3` write. -/
abbrev hostOps4_3_W : List (Ref sig .tc) := [main_call1_v0, main_call1_v1, main_v38]
theorem hostOps4_3_writes : (hostOps4_3 : List (HloOp τ sig (Elt F))).Forall fun op => op.writes ⊆ (hostOps4_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4_4` write. -/
abbrev hostOps4_4_W : List (Ref sig .tc) := [main_c, main_v39, main_v40, main_c_12, main_v41, main_v42, main_v43, main_v44, main_v45, main_c_13, main_v46, main_v47, main_c_14, main_v48, main_v49, main_v50, main_v51, main_v52, main_v53, main_c_15, main_v54, main_v55, main_c_16, main_v56, main_v57, main_v58, main_v59, main_v60, main_v61, main_v62, main_v63, main_cst_17, main_v64, main_v65, main_v66, main_v67, main_v68, main_v69, main_v70, main_cst_18, main_v71, main_v72, main_v73, main_v74]
theorem hostOps4_4_writes : (hostOps4_4 : List (HloOp τ sig (Elt F))).Forall fun op => op.writes ⊆ (hostOps4_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5` write. -/
abbrev hostOps5_W : List (Ref sig .tc) := [main_v76, main_v77, main_v78, main_v79, main_v80, main_v81, main_cst_19, main_v82, main_cst_20, main_v83, main_v84, main_v85, main_cst_21, main_v86, main_v87, main_v88, main_cst_22, main_v89, main_v90, main_cst_23, main_v91, main_v92, main_v93, main_cst_24]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5_1` write. -/
abbrev hostOps5_1_W : List (Ref sig .tc) := [main_call2_v0, main_call2_v1, main_v94]
theorem hostOps5_1_writes : (hostOps5_1 : List (HloOp τ sig (Elt F))).Forall fun op => op.writes ⊆ (hostOps5_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5_2` write. -/
abbrev hostOps5_2_W : List (Ref sig .tc) := [main_cst_25, main_v95, main_v96, main_cst_26, main_v97, main_v98, main_v99, main_cst_27]
theorem hostOps5_2_writes : (hostOps5_2 : List (HloOp τ sig (Elt F))).Forall fun op => op.writes ⊆ (hostOps5_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5_3` write. -/
abbrev hostOps5_3_W : List (Ref sig .tc) := [main_call3_v0, main_call3_v1, main_v100]
theorem hostOps5_3_writes : (hostOps5_3 : List (HloOp τ sig (Elt F))).Forall fun op => op.writes ⊆ (hostOps5_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5_4` write. -/
abbrev hostOps5_4_W : List (Ref sig .tc) := [main_c_28, main_v101, main_v102, main_c_29, main_v103, main_v104, main_v105, main_v106, main_v107, main_c_30, main_v108, main_v109, main_c_31, main_v110, main_v111, main_v112, main_v113, main_v114, main_v115, main_c_32, main_v116, main_v117, main_c_33, main_v118, main_v119, main_v120, main_v121, main_v122, main_v123, main_v124, main_v125, main_cst_34, main_v126, main_v127, main_v128, main_v129, main_v130, main_v131, main_v132, main_cst_35, main_v133, main_v134, main_v135, main_v136]
theorem hostOps5_4_writes : (hostOps5_4 : List (HloOp τ sig (Elt F))).Forall fun op => op.writes ⊆ (hostOps5_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6` write. -/
abbrev hostOps6_W : List (Ref sig .tc) := [main_v138, main_v139, main_v140, main_v141, main_v142, main_v143, main_cst_36, main_v144, main_cst_37, main_v145, main_v146, main_v147, main_cst_38, main_v148, main_v149, main_v150, main_cst_39, main_v151, main_v152, main_cst_40, main_v153, main_v154, main_v155, main_cst_41]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6_1` write. -/
abbrev hostOps6_1_W : List (Ref sig .tc) := [main_call4_v0, main_call4_v1, main_v156]
theorem hostOps6_1_writes : (hostOps6_1 : List (HloOp τ sig (Elt F))).Forall fun op => op.writes ⊆ (hostOps6_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6_2` write. -/
abbrev hostOps6_2_W : List (Ref sig .tc) := [main_cst_42, main_v157, main_v158, main_cst_43, main_v159, main_v160, main_v161, main_cst_44]
theorem hostOps6_2_writes : (hostOps6_2 : List (HloOp τ sig (Elt F))).Forall fun op => op.writes ⊆ (hostOps6_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6_3` write. -/
abbrev hostOps6_3_W : List (Ref sig .tc) := [main_call5_v0, main_call5_v1, main_v162]
theorem hostOps6_3_writes : (hostOps6_3 : List (HloOp τ sig (Elt F))).Forall fun op => op.writes ⊆ (hostOps6_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6_4` write. -/
abbrev hostOps6_4_W : List (Ref sig .tc) := [main_c_45, main_v163, main_v164, main_c_46, main_v165, main_v166, main_v167, main_v168, main_v169, main_c_47, main_v170, main_v171, main_c_48, main_v172, main_v173, main_v174, main_v175, main_v176, main_v177, main_c_49, main_v178, main_v179, main_c_50, main_v180, main_v181, main_v182, main_v183, main_v184, main_v185, main_v186, main_v187, main_cst_51, main_v188, main_v189, main_v190, main_v191, main_v192, main_v193, main_v194, main_cst_52, main_v195, main_v196, main_v197, main_v198]
theorem hostOps6_4_writes : (hostOps6_4 : List (HloOp τ sig (Elt F))).Forall fun op => op.writes ⊆ (hostOps6_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7` write. -/
abbrev hostOps7_W : List (Ref sig .tc) := [main_v200, main_v201, main_v202, main_v203, main_v204, main_v205, main_cst_53, main_v206, main_cst_54, main_v207, main_v208, main_v209, main_cst_55, main_v210, main_v211, main_v212, main_cst_56, main_v213, main_v214, main_cst_57, main_v215, main_v216, main_v217, main_cst_58]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7_1` write. -/
abbrev hostOps7_1_W : List (Ref sig .tc) := [main_call6_v0, main_call6_v1, main_v218]
theorem hostOps7_1_writes : (hostOps7_1 : List (HloOp τ sig (Elt F))).Forall fun op => op.writes ⊆ (hostOps7_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7_2` write. -/
abbrev hostOps7_2_W : List (Ref sig .tc) := [main_cst_59, main_v219, main_v220, main_cst_60, main_v221, main_v222, main_v223, main_cst_61]
theorem hostOps7_2_writes : (hostOps7_2 : List (HloOp τ sig (Elt F))).Forall fun op => op.writes ⊆ (hostOps7_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7_3` write. -/
abbrev hostOps7_3_W : List (Ref sig .tc) := [main_call7_v0, main_call7_v1, main_v224]
theorem hostOps7_3_writes : (hostOps7_3 : List (HloOp τ sig (Elt F))).Forall fun op => op.writes ⊆ (hostOps7_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7_4` write. -/
abbrev hostOps7_4_W : List (Ref sig .tc) := [main_c_62, main_v225, main_v226, main_c_63, main_v227, main_v228, main_v229, main_v230, main_v231, main_c_64, main_v232, main_v233, main_c_65, main_v234, main_v235, main_v236, main_v237, main_v238, main_v239, main_c_66, main_v240, main_v241, main_c_67, main_v242, main_v243, main_v244, main_v245, main_v246, main_v247, main_v248, main_v249, main_cst_68, main_v250, main_v251, main_v252, main_v253, main_v254, main_v255, main_v256, main_cst_69, main_v257, main_v258, main_v259, main_v260]
theorem hostOps7_4_writes : (hostOps7_4 : List (HloOp τ sig (Elt F))).Forall fun op => op.writes ⊆ (hostOps7_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8` write. -/
abbrev hostOps8_W : List (Ref sig .tc) := [main_v262, main_v263, main_v264, main_v265, main_v266, main_v267, main_cst_70, main_v268, main_cst_71, main_v269, main_v270, main_v271, main_cst_72, main_v272, main_v273, main_v274, main_cst_73, main_v275, main_v276, main_cst_74, main_v277, main_v278, main_v279, main_cst_75]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8_1` write. -/
abbrev hostOps8_1_W : List (Ref sig .tc) := [main_call8_v0, main_call8_v1, main_v280]
theorem hostOps8_1_writes : (hostOps8_1 : List (HloOp τ sig (Elt F))).Forall fun op => op.writes ⊆ (hostOps8_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8_2` write. -/
abbrev hostOps8_2_W : List (Ref sig .tc) := [main_cst_76, main_v281, main_v282, main_cst_77, main_v283, main_v284, main_v285, main_cst_78]
theorem hostOps8_2_writes : (hostOps8_2 : List (HloOp τ sig (Elt F))).Forall fun op => op.writes ⊆ (hostOps8_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8_3` write. -/
abbrev hostOps8_3_W : List (Ref sig .tc) := [main_call9_v0, main_call9_v1, main_v286]
theorem hostOps8_3_writes : (hostOps8_3 : List (HloOp τ sig (Elt F))).Forall fun op => op.writes ⊆ (hostOps8_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8_4` write. -/
abbrev hostOps8_4_W : List (Ref sig .tc) := [main_c_79, main_v287, main_v288, main_c_80, main_v289, main_v290, main_v291, main_v292, main_v293, main_c_81, main_v294, main_v295, main_c_82, main_v296, main_v297, main_v298, main_v299, main_v300, main_v301, main_c_83, main_v302, main_v303, main_c_84, main_v304, main_v305, main_v306, main_v307, main_v308, main_v309, main_v310, main_v311, main_cst_85, main_v312, main_v313, main_v314, main_v315, main_v316, main_v317, main_v318, main_cst_86, main_v319, main_v320, main_v321, main_v322]
theorem hostOps8_4_writes : (hostOps8_4 : List (HloOp τ sig (Elt F))).Forall fun op => op.writes ⊆ (hostOps8_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9` write. -/
abbrev hostOps9_W : List (Ref sig .tc) := [main_v324, main_v325, main_v326, main_v327, main_v328, main_v329, main_cst_87, main_v330, main_cst_88, main_v331, main_v332, main_v333, main_cst_89, main_v334, main_v335, main_v336, main_cst_90, main_v337, main_v338, main_cst_91, main_v339, main_v340, main_v341, main_cst_92]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9_1` write. -/
abbrev hostOps9_1_W : List (Ref sig .tc) := [main_call10_v0, main_call10_v1, main_v342]
theorem hostOps9_1_writes : (hostOps9_1 : List (HloOp τ sig (Elt F))).Forall fun op => op.writes ⊆ (hostOps9_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9_2` write. -/
abbrev hostOps9_2_W : List (Ref sig .tc) := [main_cst_93, main_v343, main_v344, main_cst_94, main_v345, main_v346, main_v347, main_cst_95]
theorem hostOps9_2_writes : (hostOps9_2 : List (HloOp τ sig (Elt F))).Forall fun op => op.writes ⊆ (hostOps9_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9_3` write. -/
abbrev hostOps9_3_W : List (Ref sig .tc) := [main_call11_v0, main_call11_v1, main_v348]
theorem hostOps9_3_writes : (hostOps9_3 : List (HloOp τ sig (Elt F))).Forall fun op => op.writes ⊆ (hostOps9_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9_4` write. -/
abbrev hostOps9_4_W : List (Ref sig .tc) := [main_c_96, main_v349, main_v350, main_c_97, main_v351, main_v352, main_v353, main_v354, main_v355, main_c_98, main_v356, main_v357, main_c_99, main_v358, main_v359, main_v360, main_v361, main_v362, main_v363, main_c_100, main_v364, main_v365, main_c_101, main_v366, main_v367, main_v368, main_v369, main_v370, main_v371, main_v372, main_v373, main_cst_102, main_v374, main_v375, main_v376, main_v377, main_v378, main_v379, main_v380, main_v381, main_v382, main_v383, main_v384, main_v385, main_v386]
theorem hostOps9_4_writes : (hostOps9_4 : List (HloOp τ sig (Elt F))).Forall fun op => op.writes ⊆ (hostOps9_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps10` write. -/
abbrev hostOps10_W : List (Ref sig .tc) := [main_v388, main_v389, main_v390, main_v391, main_v392, main_v393]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps11` write. -/
abbrev hostOps11_W : List (Ref sig .tc) := [main_v395, main_v396, main_v397, main_v398, main_v399, main_v400]
theorem hostOps11_writes : (hostOps11 : List (HloOp τ sig (Elt F))).Forall fun op => op.writes ⊆ (hostOps11_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps12` write. -/
abbrev hostOps12_W : List (Ref sig .tc) := [main_cst_103, main_v402, main_cst_104, main_v403, main_cst_105, main_v404, main_cst_106, main_v405, main_v406, main_v407, main_v408]
theorem hostOps12_writes : (hostOps12 : List (HloOp τ sig (Elt F))).Forall fun op => op.writes ⊆ (hostOps12_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13` write. -/
abbrev hostOps13_W : List (Ref sig .tc) := [main_v410, main_v411, main_v412, main_v413, main_v414, main_v415, main_cst_107, main_v416, main_cst_108, main_v417, main_v418, main_v419, main_cst_109, main_v420, main_v421, main_v422, main_cst_110, main_v423, main_v424, main_cst_111, main_v425, main_v426, main_v427, main_cst_112]
theorem hostOps13_writes : (hostOps13 : List (HloOp τ sig (Elt F))).Forall fun op => op.writes ⊆ (hostOps13_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13_1` write. -/
abbrev hostOps13_1_W : List (Ref sig .tc) := [main_call12_v0, main_call12_v1, main_v428]
theorem hostOps13_1_writes : (hostOps13_1 : List (HloOp τ sig (Elt F))).Forall fun op => op.writes ⊆ (hostOps13_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13_2` write. -/
abbrev hostOps13_2_W : List (Ref sig .tc) := [main_cst_113, main_v429, main_v430, main_cst_114, main_v431, main_v432, main_v433, main_cst_115]
theorem hostOps13_2_writes : (hostOps13_2 : List (HloOp τ sig (Elt F))).Forall fun op => op.writes ⊆ (hostOps13_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13_3` write. -/
abbrev hostOps13_3_W : List (Ref sig .tc) := [main_call13_v0, main_call13_v1, main_v434]
theorem hostOps13_3_writes : (hostOps13_3 : List (HloOp τ sig (Elt F))).Forall fun op => op.writes ⊆ (hostOps13_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13_4` write. -/
abbrev hostOps13_4_W : List (Ref sig .tc) := [main_c_116, main_v435, main_v436, main_c_117, main_v437, main_v438, main_v439, main_v440, main_v441, main_c_118, main_v442, main_v443, main_c_119, main_v444, main_v445, main_v446, main_v447, main_v448, main_v449, main_c_120, main_v450, main_v451, main_c_121, main_v452, main_v453, main_v454, main_v455, main_v456, main_v457, main_v458, main_v459, main_cst_122, main_v460, main_v461, main_v462, main_v463, main_v464, main_v465, main_v466, main_cst_123, main_v467, main_v468, main_v469, main_v470]
theorem hostOps13_4_writes : (hostOps13_4 : List (HloOp τ sig (Elt F))).Forall fun op => op.writes ⊆ (hostOps13_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14` write. -/
abbrev hostOps14_W : List (Ref sig .tc) := [main_v472, main_v473, main_v474, main_v475, main_v476, main_v477, main_cst_124, main_v478, main_cst_125, main_v479, main_v480, main_v481, main_cst_126, main_v482, main_v483, main_v484, main_cst_127, main_v485, main_v486, main_cst_128, main_v487, main_v488, main_v489, main_cst_129]
theorem hostOps14_writes : (hostOps14 : List (HloOp τ sig (Elt F))).Forall fun op => op.writes ⊆ (hostOps14_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14_1` write. -/
abbrev hostOps14_1_W : List (Ref sig .tc) := [main_call14_v0, main_call14_v1, main_v490]
theorem hostOps14_1_writes : (hostOps14_1 : List (HloOp τ sig (Elt F))).Forall fun op => op.writes ⊆ (hostOps14_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14_2` write. -/
abbrev hostOps14_2_W : List (Ref sig .tc) := [main_cst_130, main_v491, main_v492, main_cst_131, main_v493, main_v494, main_v495, main_cst_132]
theorem hostOps14_2_writes : (hostOps14_2 : List (HloOp τ sig (Elt F))).Forall fun op => op.writes ⊆ (hostOps14_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14_3` write. -/
abbrev hostOps14_3_W : List (Ref sig .tc) := [main_call15_v0, main_call15_v1, main_v496]
theorem hostOps14_3_writes : (hostOps14_3 : List (HloOp τ sig (Elt F))).Forall fun op => op.writes ⊆ (hostOps14_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14_4` write. -/
abbrev hostOps14_4_W : List (Ref sig .tc) := [main_c_133, main_v497, main_v498, main_c_134, main_v499, main_v500, main_v501, main_v502, main_v503, main_c_135, main_v504, main_v505, main_c_136, main_v506, main_v507, main_v508, main_v509, main_v510, main_v511, main_c_137, main_v512, main_v513, main_c_138, main_v514, main_v515, main_v516, main_v517, main_v518, main_v519, main_v520, main_v521, main_cst_139, main_v522, main_v523, main_v524, main_v525, main_v526, main_v527, main_v528, main_cst_140, main_v529, main_v530, main_v531, main_v532]
theorem hostOps14_4_writes : (hostOps14_4 : List (HloOp τ sig (Elt F))).Forall fun op => op.writes ⊆ (hostOps14_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15` write. -/
abbrev hostOps15_W : List (Ref sig .tc) := [main_v534, main_v535, main_v536, main_v537, main_v538, main_v539, main_cst_141, main_v540, main_cst_142, main_v541, main_v542, main_v543, main_cst_143, main_v544, main_v545, main_v546, main_cst_144, main_v547, main_v548, main_cst_145, main_v549, main_v550, main_v551, main_cst_146]
theorem hostOps15_writes : (hostOps15 : List (HloOp τ sig (Elt F))).Forall fun op => op.writes ⊆ (hostOps15_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15_1` write. -/
abbrev hostOps15_1_W : List (Ref sig .tc) := [main_call16_v0, main_call16_v1, main_v552]
theorem hostOps15_1_writes : (hostOps15_1 : List (HloOp τ sig (Elt F))).Forall fun op => op.writes ⊆ (hostOps15_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15_2` write. -/
abbrev hostOps15_2_W : List (Ref sig .tc) := [main_cst_147, main_v553, main_v554, main_cst_148, main_v555, main_v556, main_v557, main_cst_149]
theorem hostOps15_2_writes : (hostOps15_2 : List (HloOp τ sig (Elt F))).Forall fun op => op.writes ⊆ (hostOps15_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15_3` write. -/
abbrev hostOps15_3_W : List (Ref sig .tc) := [main_call17_v0, main_call17_v1, main_v558]
theorem hostOps15_3_writes : (hostOps15_3 : List (HloOp τ sig (Elt F))).Forall fun op => op.writes ⊆ (hostOps15_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15_4` write. -/
abbrev hostOps15_4_W : List (Ref sig .tc) := [main_c_150, main_v559, main_v560, main_c_151, main_v561, main_v562, main_v563, main_v564, main_v565, main_c_152, main_v566, main_v567, main_c_153, main_v568, main_v569, main_v570, main_v571, main_v572, main_v573, main_c_154, main_v574, main_v575, main_c_155, main_v576, main_v577, main_v578, main_v579, main_v580, main_v581, main_v582, main_v583, main_cst_156, main_v584, main_v585, main_v586, main_v587, main_v588, main_v589, main_v590, main_cst_157, main_v591, main_v592, main_v593, main_v594]
theorem hostOps15_4_writes : (hostOps15_4 : List (HloOp τ sig (Elt F))).Forall fun op => op.writes ⊆ (hostOps15_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16` write. -/
abbrev hostOps16_W : List (Ref sig .tc) := [main_v596, main_v597, main_v598, main_v599, main_v600, main_v601, main_cst_158, main_v602, main_cst_159, main_v603, main_v604, main_v605, main_cst_160, main_v606, main_v607, main_v608, main_cst_161, main_v609, main_v610, main_cst_162, main_v611, main_v612, main_v613, main_cst_163]
theorem hostOps16_writes : (hostOps16 : List (HloOp τ sig (Elt F))).Forall fun op => op.writes ⊆ (hostOps16_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16_1` write. -/
abbrev hostOps16_1_W : List (Ref sig .tc) := [main_call18_v0, main_call18_v1, main_v614]
theorem hostOps16_1_writes : (hostOps16_1 : List (HloOp τ sig (Elt F))).Forall fun op => op.writes ⊆ (hostOps16_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16_2` write. -/
abbrev hostOps16_2_W : List (Ref sig .tc) := [main_cst_164, main_v615, main_v616, main_cst_165, main_v617, main_v618, main_v619, main_cst_166]
theorem hostOps16_2_writes : (hostOps16_2 : List (HloOp τ sig (Elt F))).Forall fun op => op.writes ⊆ (hostOps16_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16_3` write. -/
abbrev hostOps16_3_W : List (Ref sig .tc) := [main_call19_v0, main_call19_v1, main_v620]
theorem hostOps16_3_writes : (hostOps16_3 : List (HloOp τ sig (Elt F))).Forall fun op => op.writes ⊆ (hostOps16_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16_4` write. -/
abbrev hostOps16_4_W : List (Ref sig .tc) := [main_c_167, main_v621, main_v622, main_c_168, main_v623, main_v624, main_v625, main_v626, main_v627, main_c_169, main_v628, main_v629, main_c_170, main_v630, main_v631, main_v632, main_v633, main_v634, main_v635, main_c_171, main_v636, main_v637, main_c_172, main_v638, main_v639, main_v640, main_v641, main_v642, main_v643, main_v644, main_v645, main_cst_173, main_v646, main_v647, main_v648, main_v649, main_v650, main_v651, main_v652, main_cst_174, main_v653, main_v654, main_v655, main_v656]
theorem hostOps16_4_writes : (hostOps16_4 : List (HloOp τ sig (Elt F))).Forall fun op => op.writes ⊆ (hostOps16_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17` write. -/
abbrev hostOps17_W : List (Ref sig .tc) := [main_v658, main_v659, main_v660, main_v661, main_v662, main_v663, main_cst_175, main_v664, main_cst_176, main_v665, main_v666, main_v667, main_cst_177, main_v668, main_v669, main_v670, main_cst_178, main_v671, main_v672, main_cst_179, main_v673, main_v674, main_v675, main_cst_180]
theorem hostOps17_writes : (hostOps17 : List (HloOp τ sig (Elt F))).Forall fun op => op.writes ⊆ (hostOps17_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17_1` write. -/
abbrev hostOps17_1_W : List (Ref sig .tc) := [main_call20_v0, main_call20_v1, main_v676]
theorem hostOps17_1_writes : (hostOps17_1 : List (HloOp τ sig (Elt F))).Forall fun op => op.writes ⊆ (hostOps17_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17_2` write. -/
abbrev hostOps17_2_W : List (Ref sig .tc) := [main_cst_181, main_v677, main_v678, main_cst_182, main_v679, main_v680, main_v681, main_cst_183]
theorem hostOps17_2_writes : (hostOps17_2 : List (HloOp τ sig (Elt F))).Forall fun op => op.writes ⊆ (hostOps17_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17_3` write. -/
abbrev hostOps17_3_W : List (Ref sig .tc) := [main_call21_v0, main_call21_v1, main_v682]
theorem hostOps17_3_writes : (hostOps17_3 : List (HloOp τ sig (Elt F))).Forall fun op => op.writes ⊆ (hostOps17_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17_4` write. -/
abbrev hostOps17_4_W : List (Ref sig .tc) := [main_c_184, main_v683, main_v684, main_c_185, main_v685, main_v686, main_v687, main_v688, main_v689, main_c_186, main_v690, main_v691, main_c_187, main_v692, main_v693, main_v694, main_v695, main_v696, main_v697, main_c_188, main_v698, main_v699, main_c_189, main_v700, main_v701, main_v702, main_v703, main_v704, main_v705, main_v706, main_v707, main_cst_190, main_v708, main_v709, main_v710, main_v711, main_v712, main_v713, main_v714, main_cst_191, main_v715, main_v716, main_v717, main_v718]
theorem hostOps17_4_writes : (hostOps17_4 : List (HloOp τ sig (Elt F))).Forall fun op => op.writes ⊆ (hostOps17_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18` write. -/
abbrev hostOps18_W : List (Ref sig .tc) := [main_v720, main_v721, main_v722, main_v723, main_v724, main_v725, main_cst_192, main_v726, main_cst_193, main_v727, main_v728, main_v729, main_cst_194, main_v730, main_v731, main_v732, main_cst_195, main_v733, main_v734, main_cst_196, main_v735, main_v736, main_v737, main_cst_197]
theorem hostOps18_writes : (hostOps18 : List (HloOp τ sig (Elt F))).Forall fun op => op.writes ⊆ (hostOps18_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18_1` write. -/
abbrev hostOps18_1_W : List (Ref sig .tc) := [main_call22_v0, main_call22_v1, main_v738]
theorem hostOps18_1_writes : (hostOps18_1 : List (HloOp τ sig (Elt F))).Forall fun op => op.writes ⊆ (hostOps18_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18_2` write. -/
abbrev hostOps18_2_W : List (Ref sig .tc) := [main_cst_198, main_v739, main_v740, main_cst_199, main_v741, main_v742, main_v743, main_cst_200]
theorem hostOps18_2_writes : (hostOps18_2 : List (HloOp τ sig (Elt F))).Forall fun op => op.writes ⊆ (hostOps18_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18_3` write. -/
abbrev hostOps18_3_W : List (Ref sig .tc) := [main_call23_v0, main_call23_v1, main_v744]
theorem hostOps18_3_writes : (hostOps18_3 : List (HloOp τ sig (Elt F))).Forall fun op => op.writes ⊆ (hostOps18_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18_4` write. -/
abbrev hostOps18_4_W : List (Ref sig .tc) := [main_c_201, main_v745, main_v746, main_c_202, main_v747, main_v748, main_v749, main_v750, main_v751, main_c_203, main_v752, main_v753, main_c_204, main_v754, main_v755, main_v756, main_v757, main_v758, main_v759, main_c_205, main_v760, main_v761, main_c_206, main_v762, main_v763, main_v764, main_v765, main_v766, main_v767, main_v768, main_v769, main_cst_207, main_v770, main_v771, main_v772, main_v773, main_v774, main_v775, main_v776, main_v777, main_v778, main_v779, main_v780, main_v781, main_v782]
theorem hostOps18_4_writes : (hostOps18_4 : List (HloOp τ sig (Elt F))).Forall fun op => op.writes ⊆ (hostOps18_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps19` write. -/
abbrev hostOps19_W : List (Ref sig .tc) := [main_v784, main_v785, main_v786, main_v787, main_v788, main_v789]
theorem hostOps19_writes : (hostOps19 : List (HloOp τ sig (Elt F))).Forall fun op => op.writes ⊆ (hostOps19_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps20` write. -/
abbrev hostOps20_W : List (Ref sig .tc) := [main_v791, main_v792, main_v793, main_v794, main_v795, main_v796]
theorem hostOps20_writes : (hostOps20 : List (HloOp τ sig (Elt F))).Forall fun op => op.writes ⊆ (hostOps20_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

end Cert.Kernel.Hand

end
-- ==== Proof.KFoldK.Keep.lean ====
/- What each segment of the kernel program's run leaves unchanged. A host stretch rewrites the result buffer of each of
   its operations and nothing else: a reference outside the literal list of those results keeps its contents across the
   stretch. A region rewrites its four arrays: each INPUT array with the contents it was entered at (the pipeline never
   writes an input window back), so an input array too keeps its contents across the region. -/
import proofs.«147021_j7619271983570_1_alg».proof.Proof.FrameK_A
import proofs.«147021_j7619271983570_1_alg».proof.Proof.KFoldK.Writes

set_option maxRecDepth 16384

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ) (ρ : Dev nD → PrngReg)

/-- Across `hostOps0` a reference it does not write keeps its contents. -/
theorem W1_keep (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- Region 0 leaves its input array `main_arg0` (window 0) as entered. -/
theorem W2_in0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
/-- Region 0 leaves its input array `main_arg3` (window 1) as entered. -/
theorem W2_in1 (c : Dev nD) : W2 m ρ c (Proc.devRef .tc main_arg3) = W1 m ρ c (Proc.devRef .tc main_arg3) :=
  (W2_arr m ρ c 1).trans (((dat0 (V1 m ρ) c).arrAt_in 1 rfl _).trans (A_eq0 (V1 m ρ) c 1))
/-- Region 0 leaves its input array `main_v0` (window 2) as entered. -/
theorem W2_in2 (c : Dev nD) : W2 m ρ c (Proc.devRef .tc main_v0) = W1 m ρ c (Proc.devRef .tc main_v0) :=
  (W2_arr m ρ c 2).trans (((dat0 (V1 m ρ) c).arrAt_in 2 rfl _).trans (A_eq0 (V1 m ρ) c 2))
/-- Across `hostOps1` a reference it does not write keeps its contents. -/
theorem W3_keep (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- Region 1 leaves its input array `main_arg1` (window 0) as entered. -/
theorem W4_in0 (c : Dev nD) : W4 m ρ c (Proc.devRef .tc main_arg1) = W3 m ρ c (Proc.devRef .tc main_arg1) :=
  (W4_arr m ρ c 0).trans (((dat1 (V3 m ρ) c).arrAt_in 0 rfl _).trans (A_eq1 (V3 m ρ) c 0))
/-- Region 1 leaves its input array `main_arg5` (window 1) as entered. -/
theorem W4_in1 (c : Dev nD) : W4 m ρ c (Proc.devRef .tc main_arg5) = W3 m ρ c (Proc.devRef .tc main_arg5) :=
  (W4_arr m ρ c 1).trans (((dat1 (V3 m ρ) c).arrAt_in 1 rfl _).trans (A_eq1 (V3 m ρ) c 1))
/-- Region 1 leaves its input array `main_v2` (window 2) as entered. -/
theorem W4_in2 (c : Dev nD) : W4 m ρ c (Proc.devRef .tc main_v2) = W3 m ρ c (Proc.devRef .tc main_v2) :=
  (W4_arr m ρ c 2).trans (((dat1 (V3 m ρ) c).arrAt_in 2 rfl _).trans (A_eq1 (V3 m ρ) c 2))
/-- Across `hostOps2` a reference it does not write keeps its contents. -/
theorem W5_keep (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- Region 2 leaves its input array `main_arg2` (window 0) as entered. -/
theorem W6_in0 (c : Dev nD) : W6 m ρ c (Proc.devRef .tc main_arg2) = W5 m ρ c (Proc.devRef .tc main_arg2) :=
  (W6_arr m ρ c 0).trans (((dat2 (V5 m ρ) c).arrAt_in 0 rfl _).trans (A_eq2 (V5 m ρ) c 0))
/-- Region 2 leaves its input array `main_arg7` (window 1) as entered. -/
theorem W6_in1 (c : Dev nD) : W6 m ρ c (Proc.devRef .tc main_arg7) = W5 m ρ c (Proc.devRef .tc main_arg7) :=
  (W6_arr m ρ c 1).trans (((dat2 (V5 m ρ) c).arrAt_in 1 rfl _).trans (A_eq2 (V5 m ρ) c 1))
/-- Region 2 leaves its input array `main_v4` (window 2) as entered. -/
theorem W6_in2 (c : Dev nD) : W6 m ρ c (Proc.devRef .tc main_v4) = W5 m ρ c (Proc.devRef .tc main_v4) :=
  (W6_arr m ρ c 2).trans (((dat2 (V5 m ρ) c).arrAt_in 2 rfl _).trans (A_eq2 (V5 m ρ) c 2))
/-- Across `hostOps3` a reference it does not write keeps its contents. -/
theorem W7_keep (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
/-- Region 3 leaves its input array `main_v1` (window 0) as entered. -/
theorem W8_in0 (c : Dev nD) : W8 m ρ c (Proc.devRef .tc main_v1) = W7 m ρ c (Proc.devRef .tc main_v1) :=
  (W8_arr m ρ c 0).trans (((dat3 (V7 m ρ) c).arrAt_in 0 rfl _).trans (A_eq3 (V7 m ρ) c 0))
/-- Region 3 leaves its input array `main_v11` (window 1) as entered. -/
theorem W8_in1 (c : Dev nD) : W8 m ρ c (Proc.devRef .tc main_v11) = W7 m ρ c (Proc.devRef .tc main_v11) :=
  (W8_arr m ρ c 1).trans (((dat3 (V7 m ρ) c).arrAt_in 1 rfl _).trans (A_eq3 (V7 m ρ) c 1))
/-- Region 3 leaves its input array `main_v12` (window 2) as entered. -/
theorem W8_in2 (c : Dev nD) : W8 m ρ c (Proc.devRef .tc main_v12) = W7 m ρ c (Proc.devRef .tc main_v12) :=
  (W8_arr m ρ c 2).trans (((dat3 (V7 m ρ) c).arrAt_in 2 rfl _).trans (A_eq3 (V7 m ρ) c 2))
/-- Across `hostOps4` a reference it does not write keeps its contents. -/
theorem W9_keep (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h
/-- Across `hostOps4_1` a reference it does not write keeps its contents. -/
theorem W10_keep (c : Dev nD) (r : Ref sig .tc) (h : r ∉ (hostOps4_1_W : List (Ref sig .tc))) :
    W10 m ρ c (Proc.devRef .tc r) = W9 m ρ c (Proc.devRef .tc r) :=
  StableHlo.after_of_writes_sub hostOps4_1 _ hostOps4_1_writes h
/-- Across `hostOps4_2` a reference it does not write keeps its contents. -/
theorem W11_keep (c : Dev nD) (r : Ref sig .tc) (h : r ∉ (hostOps4_2_W : List (Ref sig .tc))) :
    W11 m ρ c (Proc.devRef .tc r) = W10 m ρ c (Proc.devRef .tc r) :=
  StableHlo.after_of_writes_sub hostOps4_2 _ hostOps4_2_writes h
/-- Across `hostOps4_3` a reference it does not write keeps its contents. -/
theorem W12_keep (c : Dev nD) (r : Ref sig .tc) (h : r ∉ (hostOps4_3_W : List (Ref sig .tc))) :
    W12 m ρ c (Proc.devRef .tc r) = W11 m ρ c (Proc.devRef .tc r) :=
  StableHlo.after_of_writes_sub hostOps4_3 _ hostOps4_3_writes h
/-- Across `hostOps4_4` a reference it does not write keeps its contents. -/
theorem W13_keep (c : Dev nD) (r : Ref sig .tc) (h : r ∉ (hostOps4_4_W : List (Ref sig .tc))) :
    W13 m ρ c (Proc.devRef .tc r) = W12 m ρ c (Proc.devRef .tc r) :=
  StableHlo.after_of_writes_sub hostOps4_4 _ hostOps4_4_writes h
/-- Region 4 leaves its input array `main_v1` (window 0) as entered. -/
theorem W14_in0 (c : Dev nD) : W14 m ρ c (Proc.devRef .tc main_v1) = W13 m ρ c (Proc.devRef .tc main_v1) :=
  (W14_arr m ρ c 0).trans (((dat4 (V13 m ρ) c).arrAt_in 0 rfl _).trans (A_eq4 (V13 m ρ) c 0))
/-- Region 4 leaves its input array `main_v73` (window 1) as entered. -/
theorem W14_in1 (c : Dev nD) : W14 m ρ c (Proc.devRef .tc main_v73) = W13 m ρ c (Proc.devRef .tc main_v73) :=
  (W14_arr m ρ c 1).trans (((dat4 (V13 m ρ) c).arrAt_in 1 rfl _).trans (A_eq4 (V13 m ρ) c 1))
/-- Region 4 leaves its input array `main_v74` (window 2) as entered. -/
theorem W14_in2 (c : Dev nD) : W14 m ρ c (Proc.devRef .tc main_v74) = W13 m ρ c (Proc.devRef .tc main_v74) :=
  (W14_arr m ρ c 2).trans (((dat4 (V13 m ρ) c).arrAt_in 2 rfl _).trans (A_eq4 (V13 m ρ) c 2))
/-- Across `hostOps5` a reference it does not write keeps its contents. -/
theorem W15_keep (c : Dev nD) (r : Ref sig .tc) (h : r ∉ (hostOps5_W : List (Ref sig .tc))) :
    W15 m ρ c (Proc.devRef .tc r) = W14 m ρ c (Proc.devRef .tc r) :=
  StableHlo.after_of_writes_sub hostOps5 _ hostOps5_writes h
/-- Across `hostOps5_1` a reference it does not write keeps its contents. -/
theorem W16_keep (c : Dev nD) (r : Ref sig .tc) (h : r ∉ (hostOps5_1_W : List (Ref sig .tc))) :
    W16 m ρ c (Proc.devRef .tc r) = W15 m ρ c (Proc.devRef .tc r) :=
  StableHlo.after_of_writes_sub hostOps5_1 _ hostOps5_1_writes h
/-- Across `hostOps5_2` a reference it does not write keeps its contents. -/
theorem W17_keep (c : Dev nD) (r : Ref sig .tc) (h : r ∉ (hostOps5_2_W : List (Ref sig .tc))) :
    W17 m ρ c (Proc.devRef .tc r) = W16 m ρ c (Proc.devRef .tc r) :=
  StableHlo.after_of_writes_sub hostOps5_2 _ hostOps5_2_writes h
/-- Across `hostOps5_3` a reference it does not write keeps its contents. -/
theorem W18_keep (c : Dev nD) (r : Ref sig .tc) (h : r ∉ (hostOps5_3_W : List (Ref sig .tc))) :
    W18 m ρ c (Proc.devRef .tc r) = W17 m ρ c (Proc.devRef .tc r) :=
  StableHlo.after_of_writes_sub hostOps5_3 _ hostOps5_3_writes h
/-- Across `hostOps5_4` a reference it does not write keeps its contents. -/
theorem W19_keep (c : Dev nD) (r : Ref sig .tc) (h : r ∉ (hostOps5_4_W : List (Ref sig .tc))) :
    W19 m ρ c (Proc.devRef .tc r) = W18 m ρ c (Proc.devRef .tc r) :=
  StableHlo.after_of_writes_sub hostOps5_4 _ hostOps5_4_writes h
/-- Region 5 leaves its input array `main_v3` (window 0) as entered. -/
theorem W20_in0 (c : Dev nD) : W20 m ρ c (Proc.devRef .tc main_v3) = W19 m ρ c (Proc.devRef .tc main_v3) :=
  (W20_arr m ρ c 0).trans (((dat5 (V19 m ρ) c).arrAt_in 0 rfl _).trans (A_eq5 (V19 m ρ) c 0))
/-- Region 5 leaves its input array `main_v135` (window 1) as entered. -/
theorem W20_in1 (c : Dev nD) : W20 m ρ c (Proc.devRef .tc main_v135) = W19 m ρ c (Proc.devRef .tc main_v135) :=
  (W20_arr m ρ c 1).trans (((dat5 (V19 m ρ) c).arrAt_in 1 rfl _).trans (A_eq5 (V19 m ρ) c 1))
/-- Region 5 leaves its input array `main_v136` (window 2) as entered. -/
theorem W20_in2 (c : Dev nD) : W20 m ρ c (Proc.devRef .tc main_v136) = W19 m ρ c (Proc.devRef .tc main_v136) :=
  (W20_arr m ρ c 2).trans (((dat5 (V19 m ρ) c).arrAt_in 2 rfl _).trans (A_eq5 (V19 m ρ) c 2))
/-- Across `hostOps6` a reference it does not write keeps its contents. -/
theorem W21_keep (c : Dev nD) (r : Ref sig .tc) (h : r ∉ (hostOps6_W : List (Ref sig .tc))) :
    W21 m ρ c (Proc.devRef .tc r) = W20 m ρ c (Proc.devRef .tc r) :=
  StableHlo.after_of_writes_sub hostOps6 _ hostOps6_writes h
/-- Across `hostOps6_1` a reference it does not write keeps its contents. -/
theorem W22_keep (c : Dev nD) (r : Ref sig .tc) (h : r ∉ (hostOps6_1_W : List (Ref sig .tc))) :
    W22 m ρ c (Proc.devRef .tc r) = W21 m ρ c (Proc.devRef .tc r) :=
  StableHlo.after_of_writes_sub hostOps6_1 _ hostOps6_1_writes h
/-- Across `hostOps6_2` a reference it does not write keeps its contents. -/
theorem W23_keep (c : Dev nD) (r : Ref sig .tc) (h : r ∉ (hostOps6_2_W : List (Ref sig .tc))) :
    W23 m ρ c (Proc.devRef .tc r) = W22 m ρ c (Proc.devRef .tc r) :=
  StableHlo.after_of_writes_sub hostOps6_2 _ hostOps6_2_writes h
/-- Across `hostOps6_3` a reference it does not write keeps its contents. -/
theorem W24_keep (c : Dev nD) (r : Ref sig .tc) (h : r ∉ (hostOps6_3_W : List (Ref sig .tc))) :
    W24 m ρ c (Proc.devRef .tc r) = W23 m ρ c (Proc.devRef .tc r) :=
  StableHlo.after_of_writes_sub hostOps6_3 _ hostOps6_3_writes h
/-- Across `hostOps6_4` a reference it does not write keeps its contents. -/
theorem W25_keep (c : Dev nD) (r : Ref sig .tc) (h : r ∉ (hostOps6_4_W : List (Ref sig .tc))) :
    W25 m ρ c (Proc.devRef .tc r) = W24 m ρ c (Proc.devRef .tc r) :=
  StableHlo.after_of_writes_sub hostOps6_4 _ hostOps6_4_writes h
/-- Region 6 leaves its input array `main_v5` (window 0) as entered. -/
theorem W26_in0 (c : Dev nD) : W26 m ρ c (Proc.devRef .tc main_v5) = W25 m ρ c (Proc.devRef .tc main_v5) :=
  (W26_arr m ρ c 0).trans (((dat6 (V25 m ρ) c).arrAt_in 0 rfl _).trans (A_eq6 (V25 m ρ) c 0))
/-- Region 6 leaves its input array `main_v197` (window 1) as entered. -/
theorem W26_in1 (c : Dev nD) : W26 m ρ c (Proc.devRef .tc main_v197) = W25 m ρ c (Proc.devRef .tc main_v197) :=
  (W26_arr m ρ c 1).trans (((dat6 (V25 m ρ) c).arrAt_in 1 rfl _).trans (A_eq6 (V25 m ρ) c 1))
/-- Region 6 leaves its input array `main_v198` (window 2) as entered. -/
theorem W26_in2 (c : Dev nD) : W26 m ρ c (Proc.devRef .tc main_v198) = W25 m ρ c (Proc.devRef .tc main_v198) :=
  (W26_arr m ρ c 2).trans (((dat6 (V25 m ρ) c).arrAt_in 2 rfl _).trans (A_eq6 (V25 m ρ) c 2))
/-- Across `hostOps7` a reference it does not write keeps its contents. -/
theorem W27_keep (c : Dev nD) (r : Ref sig .tc) (h : r ∉ (hostOps7_W : List (Ref sig .tc))) :
    W27 m ρ c (Proc.devRef .tc r) = W26 m ρ c (Proc.devRef .tc r) :=
  StableHlo.after_of_writes_sub hostOps7 _ hostOps7_writes h
/-- Across `hostOps7_1` a reference it does not write keeps its contents. -/
theorem W28_keep (c : Dev nD) (r : Ref sig .tc) (h : r ∉ (hostOps7_1_W : List (Ref sig .tc))) :
    W28 m ρ c (Proc.devRef .tc r) = W27 m ρ c (Proc.devRef .tc r) :=
  StableHlo.after_of_writes_sub hostOps7_1 _ hostOps7_1_writes h
/-- Across `hostOps7_2` a reference it does not write keeps its contents. -/
theorem W29_keep (c : Dev nD) (r : Ref sig .tc) (h : r ∉ (hostOps7_2_W : List (Ref sig .tc))) :
    W29 m ρ c (Proc.devRef .tc r) = W28 m ρ c (Proc.devRef .tc r) :=
  StableHlo.after_of_writes_sub hostOps7_2 _ hostOps7_2_writes h
/-- Across `hostOps7_3` a reference it does not write keeps its contents. -/
theorem W30_keep (c : Dev nD) (r : Ref sig .tc) (h : r ∉ (hostOps7_3_W : List (Ref sig .tc))) :
    W30 m ρ c (Proc.devRef .tc r) = W29 m ρ c (Proc.devRef .tc r) :=
  StableHlo.after_of_writes_sub hostOps7_3 _ hostOps7_3_writes h
/-- Across `hostOps7_4` a reference it does not write keeps its contents. -/
theorem W31_keep (c : Dev nD) (r : Ref sig .tc) (h : r ∉ (hostOps7_4_W : List (Ref sig .tc))) :
    W31 m ρ c (Proc.devRef .tc r) = W30 m ρ c (Proc.devRef .tc r) :=
  StableHlo.after_of_writes_sub hostOps7_4 _ hostOps7_4_writes h
/-- Region 7 leaves its input array `main_v3` (window 0) as entered. -/
theorem W32_in0 (c : Dev nD) : W32 m ρ c (Proc.devRef .tc main_v3) = W31 m ρ c (Proc.devRef .tc main_v3) :=
  (W32_arr m ρ c 0).trans (((dat7 (V31 m ρ) c).arrAt_in 0 rfl _).trans (A_eq7 (V31 m ρ) c 0))
/-- Region 7 leaves its input array `main_v259` (window 1) as entered. -/
theorem W32_in1 (c : Dev nD) : W32 m ρ c (Proc.devRef .tc main_v259) = W31 m ρ c (Proc.devRef .tc main_v259) :=
  (W32_arr m ρ c 1).trans (((dat7 (V31 m ρ) c).arrAt_in 1 rfl _).trans (A_eq7 (V31 m ρ) c 1))
/-- Region 7 leaves its input array `main_v260` (window 2) as entered. -/
theorem W32_in2 (c : Dev nD) : W32 m ρ c (Proc.devRef .tc main_v260) = W31 m ρ c (Proc.devRef .tc main_v260) :=
  (W32_arr m ρ c 2).trans (((dat7 (V31 m ρ) c).arrAt_in 2 rfl _).trans (A_eq7 (V31 m ρ) c 2))
/-- Across `hostOps8` a reference it does not write keeps its contents. -/
theorem W33_keep (c : Dev nD) (r : Ref sig .tc) (h : r ∉ (hostOps8_W : List (Ref sig .tc))) :
    W33 m ρ c (Proc.devRef .tc r) = W32 m ρ c (Proc.devRef .tc r) :=
  StableHlo.after_of_writes_sub hostOps8 _ hostOps8_writes h
/-- Across `hostOps8_1` a reference it does not write keeps its contents. -/
theorem W34_keep (c : Dev nD) (r : Ref sig .tc) (h : r ∉ (hostOps8_1_W : List (Ref sig .tc))) :
    W34 m ρ c (Proc.devRef .tc r) = W33 m ρ c (Proc.devRef .tc r) :=
  StableHlo.after_of_writes_sub hostOps8_1 _ hostOps8_1_writes h
/-- Across `hostOps8_2` a reference it does not write keeps its contents. -/
theorem W35_keep (c : Dev nD) (r : Ref sig .tc) (h : r ∉ (hostOps8_2_W : List (Ref sig .tc))) :
    W35 m ρ c (Proc.devRef .tc r) = W34 m ρ c (Proc.devRef .tc r) :=
  StableHlo.after_of_writes_sub hostOps8_2 _ hostOps8_2_writes h
/-- Across `hostOps8_3` a reference it does not write keeps its contents. -/
theorem W36_keep (c : Dev nD) (r : Ref sig .tc) (h : r ∉ (hostOps8_3_W : List (Ref sig .tc))) :
    W36 m ρ c (Proc.devRef .tc r) = W35 m ρ c (Proc.devRef .tc r) :=
  StableHlo.after_of_writes_sub hostOps8_3 _ hostOps8_3_writes h
/-- Across `hostOps8_4` a reference it does not write keeps its contents. -/
theorem W37_keep (c : Dev nD) (r : Ref sig .tc) (h : r ∉ (hostOps8_4_W : List (Ref sig .tc))) :
    W37 m ρ c (Proc.devRef .tc r) = W36 m ρ c (Proc.devRef .tc r) :=
  StableHlo.after_of_writes_sub hostOps8_4 _ hostOps8_4_writes h
/-- Region 8 leaves its input array `main_v5` (window 0) as entered. -/
theorem W38_in0 (c : Dev nD) : W38 m ρ c (Proc.devRef .tc main_v5) = W37 m ρ c (Proc.devRef .tc main_v5) :=
  (W38_arr m ρ c 0).trans (((dat8 (V37 m ρ) c).arrAt_in 0 rfl _).trans (A_eq8 (V37 m ρ) c 0))
/-- Region 8 leaves its input array `main_v321` (window 1) as entered. -/
theorem W38_in1 (c : Dev nD) : W38 m ρ c (Proc.devRef .tc main_v321) = W37 m ρ c (Proc.devRef .tc main_v321) :=
  (W38_arr m ρ c 1).trans (((dat8 (V37 m ρ) c).arrAt_in 1 rfl _).trans (A_eq8 (V37 m ρ) c 1))
/-- Region 8 leaves its input array `main_v322` (window 2) as entered. -/
theorem W38_in2 (c : Dev nD) : W38 m ρ c (Proc.devRef .tc main_v322) = W37 m ρ c (Proc.devRef .tc main_v322) :=
  (W38_arr m ρ c 2).trans (((dat8 (V37 m ρ) c).arrAt_in 2 rfl _).trans (A_eq8 (V37 m ρ) c 2))
/-- Across `hostOps9` a reference it does not write keeps its contents. -/
theorem W39_keep (c : Dev nD) (r : Ref sig .tc) (h : r ∉ (hostOps9_W : List (Ref sig .tc))) :
    W39 m ρ c (Proc.devRef .tc r) = W38 m ρ c (Proc.devRef .tc r) :=
  StableHlo.after_of_writes_sub hostOps9 _ hostOps9_writes h
/-- Across `hostOps9_1` a reference it does not write keeps its contents. -/
theorem W40_keep (c : Dev nD) (r : Ref sig .tc) (h : r ∉ (hostOps9_1_W : List (Ref sig .tc))) :
    W40 m ρ c (Proc.devRef .tc r) = W39 m ρ c (Proc.devRef .tc r) :=
  StableHlo.after_of_writes_sub hostOps9_1 _ hostOps9_1_writes h
/-- Across `hostOps9_2` a reference it does not write keeps its contents. -/
theorem W41_keep (c : Dev nD) (r : Ref sig .tc) (h : r ∉ (hostOps9_2_W : List (Ref sig .tc))) :
    W41 m ρ c (Proc.devRef .tc r) = W40 m ρ c (Proc.devRef .tc r) :=
  StableHlo.after_of_writes_sub hostOps9_2 _ hostOps9_2_writes h
/-- Across `hostOps9_3` a reference it does not write keeps its contents. -/
theorem W42_keep (c : Dev nD) (r : Ref sig .tc) (h : r ∉ (hostOps9_3_W : List (Ref sig .tc))) :
    W42 m ρ c (Proc.devRef .tc r) = W41 m ρ c (Proc.devRef .tc r) :=
  StableHlo.after_of_writes_sub hostOps9_3 _ hostOps9_3_writes h
/-- Across `hostOps9_4` a reference it does not write keeps its contents. -/
theorem W43_keep (c : Dev nD) (r : Ref sig .tc) (h : r ∉ (hostOps9_4_W : List (Ref sig .tc))) :
    W43 m ρ c (Proc.devRef .tc r) = W42 m ρ c (Proc.devRef .tc r) :=
  StableHlo.after_of_writes_sub hostOps9_4 _ hostOps9_4_writes h
/-- Region 9 leaves its input array `main_v318` (window 0) as entered. -/
theorem W44_in0 (c : Dev nD) : W44 m ρ c (Proc.devRef .tc main_v318) = W43 m ρ c (Proc.devRef .tc main_v318) :=
  (W44_arr m ρ c 0).trans (((dat9 (V43 m ρ) c).arrAt_in 0 rfl _).trans (A_eq9 (V43 m ρ) c 0))
/-- Region 9 leaves its input array `main_v385` (window 1) as entered. -/
theorem W44_in1 (c : Dev nD) : W44 m ρ c (Proc.devRef .tc main_v385) = W43 m ρ c (Proc.devRef .tc main_v385) :=
  (W44_arr m ρ c 1).trans (((dat9 (V43 m ρ) c).arrAt_in 1 rfl _).trans (A_eq9 (V43 m ρ) c 1))
/-- Region 9 leaves its input array `main_v386` (window 2) as entered. -/
theorem W44_in2 (c : Dev nD) : W44 m ρ c (Proc.devRef .tc main_v386) = W43 m ρ c (Proc.devRef .tc main_v386) :=
  (W44_arr m ρ c 2).trans (((dat9 (V43 m ρ) c).arrAt_in 2 rfl _).trans (A_eq9 (V43 m ρ) c 2))
/-- Across `hostOps10` a reference it does not write keeps its contents. -/
theorem W45_keep (c : Dev nD) (r : Ref sig .tc) (h : r ∉ (hostOps10_W : List (Ref sig .tc))) :
    W45 m ρ c (Proc.devRef .tc r) = W44 m ρ c (Proc.devRef .tc r) :=
  StableHlo.after_of_writes_sub hostOps10 _ hostOps10_writes h
/-- Region 10 leaves its input array `main_v380` (window 0) as entered. -/
theorem W46_in0 (c : Dev nD) : W46 m ρ c (Proc.devRef .tc main_v380) = W45 m ρ c (Proc.devRef .tc main_v380) :=
  (W46_arr m ρ c 0).trans (((dat10 (V45 m ρ) c).arrAt_in 0 rfl _).trans (A_eq10 (V45 m ρ) c 0))
/-- Region 10 leaves its input array `main_v392` (window 1) as entered. -/
theorem W46_in1 (c : Dev nD) : W46 m ρ c (Proc.devRef .tc main_v392) = W45 m ρ c (Proc.devRef .tc main_v392) :=
  (W46_arr m ρ c 1).trans (((dat10 (V45 m ρ) c).arrAt_in 1 rfl _).trans (A_eq10 (V45 m ρ) c 1))
/-- Region 10 leaves its input array `main_v393` (window 2) as entered. -/
theorem W46_in2 (c : Dev nD) : W46 m ρ c (Proc.devRef .tc main_v393) = W45 m ρ c (Proc.devRef .tc main_v393) :=
  (W46_arr m ρ c 2).trans (((dat10 (V45 m ρ) c).arrAt_in 2 rfl _).trans (A_eq10 (V45 m ρ) c 2))
/-- Across `hostOps11` a reference it does not write keeps its contents. -/
theorem W47_keep (c : Dev nD) (r : Ref sig .tc) (h : r ∉ (hostOps11_W : List (Ref sig .tc))) :
    W47 m ρ c (Proc.devRef .tc r) = W46 m ρ c (Proc.devRef .tc r) :=
  StableHlo.after_of_writes_sub hostOps11 _ hostOps11_writes h
/-- Region 11 leaves its input array `main_v194` (window 0) as entered. -/
theorem W48_in0 (c : Dev nD) : W48 m ρ c (Proc.devRef .tc main_v194) = W47 m ρ c (Proc.devRef .tc main_v194) :=
  (W48_arr m ρ c 0).trans (((dat11 (V47 m ρ) c).arrAt_in 0 rfl _).trans (A_eq11 (V47 m ρ) c 0))
/-- Region 11 leaves its input array `main_v399` (window 1) as entered. -/
theorem W48_in1 (c : Dev nD) : W48 m ρ c (Proc.devRef .tc main_v399) = W47 m ρ c (Proc.devRef .tc main_v399) :=
  (W48_arr m ρ c 1).trans (((dat11 (V47 m ρ) c).arrAt_in 1 rfl _).trans (A_eq11 (V47 m ρ) c 1))
/-- Region 11 leaves its input array `main_v400` (window 2) as entered. -/
theorem W48_in2 (c : Dev nD) : W48 m ρ c (Proc.devRef .tc main_v400) = W47 m ρ c (Proc.devRef .tc main_v400) :=
  (W48_arr m ρ c 2).trans (((dat11 (V47 m ρ) c).arrAt_in 2 rfl _).trans (A_eq11 (V47 m ρ) c 2))
/-- Across `hostOps12` a reference it does not write keeps its contents. -/
theorem W49_keep (c : Dev nD) (r : Ref sig .tc) (h : r ∉ (hostOps12_W : List (Ref sig .tc))) :
    W49 m ρ c (Proc.devRef .tc r) = W48 m ρ c (Proc.devRef .tc r) :=
  StableHlo.after_of_writes_sub hostOps12 _ hostOps12_writes h
/-- Region 12 leaves its input array `main_v387` (window 0) as entered. -/
theorem W50_in0 (c : Dev nD) : W50 m ρ c (Proc.devRef .tc main_v387) = W49 m ρ c (Proc.devRef .tc main_v387) :=
  (W50_arr m ρ c 0).trans (((dat12 (V49 m ρ) c).arrAt_in 0 rfl _).trans (A_eq12 (V49 m ρ) c 0))
/-- Region 12 leaves its input array `main_v407` (window 1) as entered. -/
theorem W50_in1 (c : Dev nD) : W50 m ρ c (Proc.devRef .tc main_v407) = W49 m ρ c (Proc.devRef .tc main_v407) :=
  (W50_arr m ρ c 1).trans (((dat12 (V49 m ρ) c).arrAt_in 1 rfl _).trans (A_eq12 (V49 m ρ) c 1))
/-- Region 12 leaves its input array `main_v408` (window 2) as entered. -/
theorem W50_in2 (c : Dev nD) : W50 m ρ c (Proc.devRef .tc main_v408) = W49 m ρ c (Proc.devRef .tc main_v408) :=
  (W50_arr m ρ c 2).trans (((dat12 (V49 m ρ) c).arrAt_in 2 rfl _).trans (A_eq12 (V49 m ρ) c 2))
/-- Across `hostOps13` a reference it does not write keeps its contents. -/
theorem W51_keep (c : Dev nD) (r : Ref sig .tc) (h : r ∉ (hostOps13_W : List (Ref sig .tc))) :
    W51 m ρ c (Proc.devRef .tc r) = W50 m ρ c (Proc.devRef .tc r) :=
  StableHlo.after_of_writes_sub hostOps13 _ hostOps13_writes h
/-- Across `hostOps13_1` a reference it does not write keeps its contents. -/
theorem W52_keep (c : Dev nD) (r : Ref sig .tc) (h : r ∉ (hostOps13_1_W : List (Ref sig .tc))) :
    W52 m ρ c (Proc.devRef .tc r) = W51 m ρ c (Proc.devRef .tc r) :=
  StableHlo.after_of_writes_sub hostOps13_1 _ hostOps13_1_writes h
/-- Across `hostOps13_2` a reference it does not write keeps its contents. -/
theorem W53_keep (c : Dev nD) (r : Ref sig .tc) (h : r ∉ (hostOps13_2_W : List (Ref sig .tc))) :
    W53 m ρ c (Proc.devRef .tc r) = W52 m ρ c (Proc.devRef .tc r) :=
  StableHlo.after_of_writes_sub hostOps13_2 _ hostOps13_2_writes h
/-- Across `hostOps13_3` a reference it does not write keeps its contents. -/
theorem W54_keep (c : Dev nD) (r : Ref sig .tc) (h : r ∉ (hostOps13_3_W : List (Ref sig .tc))) :
    W54 m ρ c (Proc.devRef .tc r) = W53 m ρ c (Proc.devRef .tc r) :=
  StableHlo.after_of_writes_sub hostOps13_3 _ hostOps13_3_writes h
/-- Across `hostOps13_4` a reference it does not write keeps its contents. -/
theorem W55_keep (c : Dev nD) (r : Ref sig .tc) (h : r ∉ (hostOps13_4_W : List (Ref sig .tc))) :
    W55 m ρ c (Proc.devRef .tc r) = W54 m ρ c (Proc.devRef .tc r) :=
  StableHlo.after_of_writes_sub hostOps13_4 _ hostOps13_4_writes h
/-- Region 13 leaves its input array `main_v387` (window 0) as entered. -/
theorem W56_in0 (c : Dev nD) : W56 m ρ c (Proc.devRef .tc main_v387) = W55 m ρ c (Proc.devRef .tc main_v387) :=
  (W56_arr m ρ c 0).trans (((dat13 (V55 m ρ) c).arrAt_in 0 rfl _).trans (A_eq13 (V55 m ρ) c 0))
/-- Region 13 leaves its input array `main_v469` (window 1) as entered. -/
theorem W56_in1 (c : Dev nD) : W56 m ρ c (Proc.devRef .tc main_v469) = W55 m ρ c (Proc.devRef .tc main_v469) :=
  (W56_arr m ρ c 1).trans (((dat13 (V55 m ρ) c).arrAt_in 1 rfl _).trans (A_eq13 (V55 m ρ) c 1))
/-- Region 13 leaves its input array `main_v470` (window 2) as entered. -/
theorem W56_in2 (c : Dev nD) : W56 m ρ c (Proc.devRef .tc main_v470) = W55 m ρ c (Proc.devRef .tc main_v470) :=
  (W56_arr m ρ c 2).trans (((dat13 (V55 m ρ) c).arrAt_in 2 rfl _).trans (A_eq13 (V55 m ρ) c 2))
/-- Across `hostOps14` a reference it does not write keeps its contents. -/
theorem W57_keep (c : Dev nD) (r : Ref sig .tc) (h : r ∉ (hostOps14_W : List (Ref sig .tc))) :
    W57 m ρ c (Proc.devRef .tc r) = W56 m ρ c (Proc.devRef .tc r) :=
  StableHlo.after_of_writes_sub hostOps14 _ hostOps14_writes h
/-- Across `hostOps14_1` a reference it does not write keeps its contents. -/
theorem W58_keep (c : Dev nD) (r : Ref sig .tc) (h : r ∉ (hostOps14_1_W : List (Ref sig .tc))) :
    W58 m ρ c (Proc.devRef .tc r) = W57 m ρ c (Proc.devRef .tc r) :=
  StableHlo.after_of_writes_sub hostOps14_1 _ hostOps14_1_writes h
/-- Across `hostOps14_2` a reference it does not write keeps its contents. -/
theorem W59_keep (c : Dev nD) (r : Ref sig .tc) (h : r ∉ (hostOps14_2_W : List (Ref sig .tc))) :
    W59 m ρ c (Proc.devRef .tc r) = W58 m ρ c (Proc.devRef .tc r) :=
  StableHlo.after_of_writes_sub hostOps14_2 _ hostOps14_2_writes h
/-- Across `hostOps14_3` a reference it does not write keeps its contents. -/
theorem W60_keep (c : Dev nD) (r : Ref sig .tc) (h : r ∉ (hostOps14_3_W : List (Ref sig .tc))) :
    W60 m ρ c (Proc.devRef .tc r) = W59 m ρ c (Proc.devRef .tc r) :=
  StableHlo.after_of_writes_sub hostOps14_3 _ hostOps14_3_writes h
/-- Across `hostOps14_4` a reference it does not write keeps its contents. -/
theorem W61_keep (c : Dev nD) (r : Ref sig .tc) (h : r ∉ (hostOps14_4_W : List (Ref sig .tc))) :
    W61 m ρ c (Proc.devRef .tc r) = W60 m ρ c (Proc.devRef .tc r) :=
  StableHlo.after_of_writes_sub hostOps14_4 _ hostOps14_4_writes h
/-- Region 14 leaves its input array `main_v394` (window 0) as entered. -/
theorem W62_in0 (c : Dev nD) : W62 m ρ c (Proc.devRef .tc main_v394) = W61 m ρ c (Proc.devRef .tc main_v394) :=
  (W62_arr m ρ c 0).trans (((dat14 (V61 m ρ) c).arrAt_in 0 rfl _).trans (A_eq14 (V61 m ρ) c 0))
/-- Region 14 leaves its input array `main_v531` (window 1) as entered. -/
theorem W62_in1 (c : Dev nD) : W62 m ρ c (Proc.devRef .tc main_v531) = W61 m ρ c (Proc.devRef .tc main_v531) :=
  (W62_arr m ρ c 1).trans (((dat14 (V61 m ρ) c).arrAt_in 1 rfl _).trans (A_eq14 (V61 m ρ) c 1))
/-- Region 14 leaves its input array `main_v532` (window 2) as entered. -/
theorem W62_in2 (c : Dev nD) : W62 m ρ c (Proc.devRef .tc main_v532) = W61 m ρ c (Proc.devRef .tc main_v532) :=
  (W62_arr m ρ c 2).trans (((dat14 (V61 m ρ) c).arrAt_in 2 rfl _).trans (A_eq14 (V61 m ρ) c 2))
/-- Across `hostOps15` a reference it does not write keeps its contents. -/
theorem W63_keep (c : Dev nD) (r : Ref sig .tc) (h : r ∉ (hostOps15_W : List (Ref sig .tc))) :
    W63 m ρ c (Proc.devRef .tc r) = W62 m ρ c (Proc.devRef .tc r) :=
  StableHlo.after_of_writes_sub hostOps15 _ hostOps15_writes h
/-- Across `hostOps15_1` a reference it does not write keeps its contents. -/
theorem W64_keep (c : Dev nD) (r : Ref sig .tc) (h : r ∉ (hostOps15_1_W : List (Ref sig .tc))) :
    W64 m ρ c (Proc.devRef .tc r) = W63 m ρ c (Proc.devRef .tc r) :=
  StableHlo.after_of_writes_sub hostOps15_1 _ hostOps15_1_writes h
/-- Across `hostOps15_2` a reference it does not write keeps its contents. -/
theorem W65_keep (c : Dev nD) (r : Ref sig .tc) (h : r ∉ (hostOps15_2_W : List (Ref sig .tc))) :
    W65 m ρ c (Proc.devRef .tc r) = W64 m ρ c (Proc.devRef .tc r) :=
  StableHlo.after_of_writes_sub hostOps15_2 _ hostOps15_2_writes h
/-- Across `hostOps15_3` a reference it does not write keeps its contents. -/
theorem W66_keep (c : Dev nD) (r : Ref sig .tc) (h : r ∉ (hostOps15_3_W : List (Ref sig .tc))) :
    W66 m ρ c (Proc.devRef .tc r) = W65 m ρ c (Proc.devRef .tc r) :=
  StableHlo.after_of_writes_sub hostOps15_3 _ hostOps15_3_writes h
/-- Across `hostOps15_4` a reference it does not write keeps its contents. -/
theorem W67_keep (c : Dev nD) (r : Ref sig .tc) (h : r ∉ (hostOps15_4_W : List (Ref sig .tc))) :
    W67 m ρ c (Proc.devRef .tc r) = W66 m ρ c (Proc.devRef .tc r) :=
  StableHlo.after_of_writes_sub hostOps15_4 _ hostOps15_4_writes h
/-- Region 15 leaves its input array `main_v401` (window 0) as entered. -/
theorem W68_in0 (c : Dev nD) : W68 m ρ c (Proc.devRef .tc main_v401) = W67 m ρ c (Proc.devRef .tc main_v401) :=
  (W68_arr m ρ c 0).trans (((dat15 (V67 m ρ) c).arrAt_in 0 rfl _).trans (A_eq15 (V67 m ρ) c 0))
/-- Region 15 leaves its input array `main_v593` (window 1) as entered. -/
theorem W68_in1 (c : Dev nD) : W68 m ρ c (Proc.devRef .tc main_v593) = W67 m ρ c (Proc.devRef .tc main_v593) :=
  (W68_arr m ρ c 1).trans (((dat15 (V67 m ρ) c).arrAt_in 1 rfl _).trans (A_eq15 (V67 m ρ) c 1))
/-- Region 15 leaves its input array `main_v594` (window 2) as entered. -/
theorem W68_in2 (c : Dev nD) : W68 m ρ c (Proc.devRef .tc main_v594) = W67 m ρ c (Proc.devRef .tc main_v594) :=
  (W68_arr m ρ c 2).trans (((dat15 (V67 m ρ) c).arrAt_in 2 rfl _).trans (A_eq15 (V67 m ρ) c 2))
/-- Across `hostOps16` a reference it does not write keeps its contents. -/
theorem W69_keep (c : Dev nD) (r : Ref sig .tc) (h : r ∉ (hostOps16_W : List (Ref sig .tc))) :
    W69 m ρ c (Proc.devRef .tc r) = W68 m ρ c (Proc.devRef .tc r) :=
  StableHlo.after_of_writes_sub hostOps16 _ hostOps16_writes h
/-- Across `hostOps16_1` a reference it does not write keeps its contents. -/
theorem W70_keep (c : Dev nD) (r : Ref sig .tc) (h : r ∉ (hostOps16_1_W : List (Ref sig .tc))) :
    W70 m ρ c (Proc.devRef .tc r) = W69 m ρ c (Proc.devRef .tc r) :=
  StableHlo.after_of_writes_sub hostOps16_1 _ hostOps16_1_writes h
/-- Across `hostOps16_2` a reference it does not write keeps its contents. -/
theorem W71_keep (c : Dev nD) (r : Ref sig .tc) (h : r ∉ (hostOps16_2_W : List (Ref sig .tc))) :
    W71 m ρ c (Proc.devRef .tc r) = W70 m ρ c (Proc.devRef .tc r) :=
  StableHlo.after_of_writes_sub hostOps16_2 _ hostOps16_2_writes h
/-- Across `hostOps16_3` a reference it does not write keeps its contents. -/
theorem W72_keep (c : Dev nD) (r : Ref sig .tc) (h : r ∉ (hostOps16_3_W : List (Ref sig .tc))) :
    W72 m ρ c (Proc.devRef .tc r) = W71 m ρ c (Proc.devRef .tc r) :=
  StableHlo.after_of_writes_sub hostOps16_3 _ hostOps16_3_writes h
/-- Across `hostOps16_4` a reference it does not write keeps its contents. -/
theorem W73_keep (c : Dev nD) (r : Ref sig .tc) (h : r ∉ (hostOps16_4_W : List (Ref sig .tc))) :
    W73 m ρ c (Proc.devRef .tc r) = W72 m ρ c (Proc.devRef .tc r) :=
  StableHlo.after_of_writes_sub hostOps16_4 _ hostOps16_4_writes h
/-- Region 16 leaves its input array `main_v394` (window 0) as entered. -/
theorem W74_in0 (c : Dev nD) : W74 m ρ c (Proc.devRef .tc main_v394) = W73 m ρ c (Proc.devRef .tc main_v394) :=
  (W74_arr m ρ c 0).trans (((dat16 (V73 m ρ) c).arrAt_in 0 rfl _).trans (A_eq16 (V73 m ρ) c 0))
/-- Region 16 leaves its input array `main_v655` (window 1) as entered. -/
theorem W74_in1 (c : Dev nD) : W74 m ρ c (Proc.devRef .tc main_v655) = W73 m ρ c (Proc.devRef .tc main_v655) :=
  (W74_arr m ρ c 1).trans (((dat16 (V73 m ρ) c).arrAt_in 1 rfl _).trans (A_eq16 (V73 m ρ) c 1))
/-- Region 16 leaves its input array `main_v656` (window 2) as entered. -/
theorem W74_in2 (c : Dev nD) : W74 m ρ c (Proc.devRef .tc main_v656) = W73 m ρ c (Proc.devRef .tc main_v656) :=
  (W74_arr m ρ c 2).trans (((dat16 (V73 m ρ) c).arrAt_in 2 rfl _).trans (A_eq16 (V73 m ρ) c 2))
/-- Across `hostOps17` a reference it does not write keeps its contents. -/
theorem W75_keep (c : Dev nD) (r : Ref sig .tc) (h : r ∉ (hostOps17_W : List (Ref sig .tc))) :
    W75 m ρ c (Proc.devRef .tc r) = W74 m ρ c (Proc.devRef .tc r) :=
  StableHlo.after_of_writes_sub hostOps17 _ hostOps17_writes h
/-- Across `hostOps17_1` a reference it does not write keeps its contents. -/
theorem W76_keep (c : Dev nD) (r : Ref sig .tc) (h : r ∉ (hostOps17_1_W : List (Ref sig .tc))) :
    W76 m ρ c (Proc.devRef .tc r) = W75 m ρ c (Proc.devRef .tc r) :=
  StableHlo.after_of_writes_sub hostOps17_1 _ hostOps17_1_writes h
/-- Across `hostOps17_2` a reference it does not write keeps its contents. -/
theorem W77_keep (c : Dev nD) (r : Ref sig .tc) (h : r ∉ (hostOps17_2_W : List (Ref sig .tc))) :
    W77 m ρ c (Proc.devRef .tc r) = W76 m ρ c (Proc.devRef .tc r) :=
  StableHlo.after_of_writes_sub hostOps17_2 _ hostOps17_2_writes h
/-- Across `hostOps17_3` a reference it does not write keeps its contents. -/
theorem W78_keep (c : Dev nD) (r : Ref sig .tc) (h : r ∉ (hostOps17_3_W : List (Ref sig .tc))) :
    W78 m ρ c (Proc.devRef .tc r) = W77 m ρ c (Proc.devRef .tc r) :=
  StableHlo.after_of_writes_sub hostOps17_3 _ hostOps17_3_writes h
/-- Across `hostOps17_4` a reference it does not write keeps its contents. -/
theorem W79_keep (c : Dev nD) (r : Ref sig .tc) (h : r ∉ (hostOps17_4_W : List (Ref sig .tc))) :
    W79 m ρ c (Proc.devRef .tc r) = W78 m ρ c (Proc.devRef .tc r) :=
  StableHlo.after_of_writes_sub hostOps17_4 _ hostOps17_4_writes h
/-- Region 17 leaves its input array `main_v401` (window 0) as entered. -/
theorem W80_in0 (c : Dev nD) : W80 m ρ c (Proc.devRef .tc main_v401) = W79 m ρ c (Proc.devRef .tc main_v401) :=
  (W80_arr m ρ c 0).trans (((dat17 (V79 m ρ) c).arrAt_in 0 rfl _).trans (A_eq17 (V79 m ρ) c 0))
/-- Region 17 leaves its input array `main_v717` (window 1) as entered. -/
theorem W80_in1 (c : Dev nD) : W80 m ρ c (Proc.devRef .tc main_v717) = W79 m ρ c (Proc.devRef .tc main_v717) :=
  (W80_arr m ρ c 1).trans (((dat17 (V79 m ρ) c).arrAt_in 1 rfl _).trans (A_eq17 (V79 m ρ) c 1))
/-- Region 17 leaves its input array `main_v718` (window 2) as entered. -/
theorem W80_in2 (c : Dev nD) : W80 m ρ c (Proc.devRef .tc main_v718) = W79 m ρ c (Proc.devRef .tc main_v718) :=
  (W80_arr m ρ c 2).trans (((dat17 (V79 m ρ) c).arrAt_in 2 rfl _).trans (A_eq17 (V79 m ρ) c 2))
/-- Across `hostOps18` a reference it does not write keeps its contents. -/
theorem W81_keep (c : Dev nD) (r : Ref sig .tc) (h : r ∉ (hostOps18_W : List (Ref sig .tc))) :
    W81 m ρ c (Proc.devRef .tc r) = W80 m ρ c (Proc.devRef .tc r) :=
  StableHlo.after_of_writes_sub hostOps18 _ hostOps18_writes h
/-- Across `hostOps18_1` a reference it does not write keeps its contents. -/
theorem W82_keep (c : Dev nD) (r : Ref sig .tc) (h : r ∉ (hostOps18_1_W : List (Ref sig .tc))) :
    W82 m ρ c (Proc.devRef .tc r) = W81 m ρ c (Proc.devRef .tc r) :=
  StableHlo.after_of_writes_sub hostOps18_1 _ hostOps18_1_writes h
/-- Across `hostOps18_2` a reference it does not write keeps its contents. -/
theorem W83_keep (c : Dev nD) (r : Ref sig .tc) (h : r ∉ (hostOps18_2_W : List (Ref sig .tc))) :
    W83 m ρ c (Proc.devRef .tc r) = W82 m ρ c (Proc.devRef .tc r) :=
  StableHlo.after_of_writes_sub hostOps18_2 _ hostOps18_2_writes h
/-- Across `hostOps18_3` a reference it does not write keeps its contents. -/
theorem W84_keep (c : Dev nD) (r : Ref sig .tc) (h : r ∉ (hostOps18_3_W : List (Ref sig .tc))) :
    W84 m ρ c (Proc.devRef .tc r) = W83 m ρ c (Proc.devRef .tc r) :=
  StableHlo.after_of_writes_sub hostOps18_3 _ hostOps18_3_writes h
/-- Across `hostOps18_4` a reference it does not write keeps its contents. -/
theorem W85_keep (c : Dev nD) (r : Ref sig .tc) (h : r ∉ (hostOps18_4_W : List (Ref sig .tc))) :
    W85 m ρ c (Proc.devRef .tc r) = W84 m ρ c (Proc.devRef .tc r) :=
  StableHlo.after_of_writes_sub hostOps18_4 _ hostOps18_4_writes h
/-- Region 18 leaves its input array `main_v714` (window 0) as entered. -/
theorem W86_in0 (c : Dev nD) : W86 m ρ c (Proc.devRef .tc main_v714) = W85 m ρ c (Proc.devRef .tc main_v714) :=
  (W86_arr m ρ c 0).trans (((dat18 (V85 m ρ) c).arrAt_in 0 rfl _).trans (A_eq18 (V85 m ρ) c 0))
/-- Region 18 leaves its input array `main_v781` (window 1) as entered. -/
theorem W86_in1 (c : Dev nD) : W86 m ρ c (Proc.devRef .tc main_v781) = W85 m ρ c (Proc.devRef .tc main_v781) :=
  (W86_arr m ρ c 1).trans (((dat18 (V85 m ρ) c).arrAt_in 1 rfl _).trans (A_eq18 (V85 m ρ) c 1))
/-- Region 18 leaves its input array `main_v782` (window 2) as entered. -/
theorem W86_in2 (c : Dev nD) : W86 m ρ c (Proc.devRef .tc main_v782) = W85 m ρ c (Proc.devRef .tc main_v782) :=
  (W86_arr m ρ c 2).trans (((dat18 (V85 m ρ) c).arrAt_in 2 rfl _).trans (A_eq18 (V85 m ρ) c 2))
/-- Across `hostOps19` a reference it does not write keeps its contents. -/
theorem W87_keep (c : Dev nD) (r : Ref sig .tc) (h : r ∉ (hostOps19_W : List (Ref sig .tc))) :
    W87 m ρ c (Proc.devRef .tc r) = W86 m ρ c (Proc.devRef .tc r) :=
  StableHlo.after_of_writes_sub hostOps19 _ hostOps19_writes h
/-- Region 19 leaves its input array `main_v776` (window 0) as entered. -/
theorem W88_in0 (c : Dev nD) : W88 m ρ c (Proc.devRef .tc main_v776) = W87 m ρ c (Proc.devRef .tc main_v776) :=
  (W88_arr m ρ c 0).trans (((dat19 (V87 m ρ) c).arrAt_in 0 rfl _).trans (A_eq19 (V87 m ρ) c 0))
/-- Region 19 leaves its input array `main_v788` (window 1) as entered. -/
theorem W88_in1 (c : Dev nD) : W88 m ρ c (Proc.devRef .tc main_v788) = W87 m ρ c (Proc.devRef .tc main_v788) :=
  (W88_arr m ρ c 1).trans (((dat19 (V87 m ρ) c).arrAt_in 1 rfl _).trans (A_eq19 (V87 m ρ) c 1))
/-- Region 19 leaves its input array `main_v789` (window 2) as entered. -/
theorem W88_in2 (c : Dev nD) : W88 m ρ c (Proc.devRef .tc main_v789) = W87 m ρ c (Proc.devRef .tc main_v789) :=
  (W88_arr m ρ c 2).trans (((dat19 (V87 m ρ) c).arrAt_in 2 rfl _).trans (A_eq19 (V87 m ρ) c 2))
/-- Across `hostOps20` a reference it does not write keeps its contents. -/
theorem W89_keep (c : Dev nD) (r : Ref sig .tc) (h : r ∉ (hostOps20_W : List (Ref sig .tc))) :
    W89 m ρ c (Proc.devRef .tc r) = W88 m ρ c (Proc.devRef .tc r) :=
  StableHlo.after_of_writes_sub hostOps20 _ hostOps20_writes h
/-- Region 20 leaves its input array `main_v590` (window 0) as entered. -/
theorem W90_in0 (c : Dev nD) : W90 m ρ c (Proc.devRef .tc main_v590) = W89 m ρ c (Proc.devRef .tc main_v590) :=
  (W90_arr m ρ c 0).trans (((dat20 (V89 m ρ) c).arrAt_in 0 rfl _).trans (A_eq20 (V89 m ρ) c 0))
/-- Region 20 leaves its input array `main_v795` (window 1) as entered. -/
theorem W90_in1 (c : Dev nD) : W90 m ρ c (Proc.devRef .tc main_v795) = W89 m ρ c (Proc.devRef .tc main_v795) :=
  (W90_arr m ρ c 1).trans (((dat20 (V89 m ρ) c).arrAt_in 1 rfl _).trans (A_eq20 (V89 m ρ) c 1))
/-- Region 20 leaves its input array `main_v796` (window 2) as entered. -/
theorem W90_in2 (c : Dev nD) : W90 m ρ c (Proc.devRef .tc main_v796) = W89 m ρ c (Proc.devRef .tc main_v796) :=
  (W90_arr m ρ c 2).trans (((dat20 (V89 m ρ) c).arrAt_in 2 rfl _).trans (A_eq20 (V89 m ρ) c 2))

end Cert.Kernel.Hand

end
-- ==== Proof.KFoldK.Args0.lean ====
/- The argument arrays main_arg0 .. main_arg7 along the fold: no host operation and no region writes an
   argument (a region that reads one through an input window leaves it as entered), so at every boundary an
   argument's buffer holds its launch contents. One step per boundary, each from the boundary before. -/
import proofs.«147021_j7619271983570_1_alg».proof.Proof.KFoldK.Keep

set_option maxRecDepth 16384

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ) (ρ : Dev nD → PrngReg)

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (W1_keep m ρ c main_arg0 (by decide)).trans (W0_arg0 m ρ c)
theorem W2_arg0 (c : Dev nD) : W2 m ρ c (Proc.devRef .tc main_arg0) = m ((c : Thread nD τ).loc main_arg0) :=
  (W2_in0 m ρ c).trans (W1_arg0 m ρ c)
theorem W3_arg0 (c : Dev nD) : W3 m ρ c (Proc.devRef .tc main_arg0) = m ((c : Thread nD τ).loc main_arg0) :=
  (W3_keep m ρ c main_arg0 (by decide)).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) :=
  (W5_keep m ρ c main_arg0 (by decide)).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W7_arg0 (c : Dev nD) : W7 m ρ c (Proc.devRef .tc main_arg0) = m ((c : Thread nD τ).loc main_arg0) :=
  (W7_keep m ρ c main_arg0 (by decide)).trans (W6_arg0 m ρ c)
theorem W8_arg0 (c : Dev nD) : W8 m ρ c (Proc.devRef .tc main_arg0) = m ((c : Thread nD τ).loc main_arg0) :=
  (W8_of_ne m ρ c main_arg0 (by decide)).trans (W7_arg0 m ρ c)
theorem W9_arg0 (c : Dev nD) : W9 m ρ c (Proc.devRef .tc main_arg0) = m ((c : Thread nD τ).loc main_arg0) :=
  (W9_keep m ρ c main_arg0 (by decide)).trans (W8_arg0 m ρ c)
theorem W10_arg0 (c : Dev nD) : W10 m ρ c (Proc.devRef .tc main_arg0) = m ((c : Thread nD τ).loc main_arg0) :=
  (W10_keep m ρ c main_arg0 (by decide)).trans (W9_arg0 m ρ c)
theorem W11_arg0 (c : Dev nD) : W11 m ρ c (Proc.devRef .tc main_arg0) = m ((c : Thread nD τ).loc main_arg0) :=
  (W11_keep m ρ c main_arg0 (by decide)).trans (W10_arg0 m ρ c)
theorem W12_arg0 (c : Dev nD) : W12 m ρ c (Proc.devRef .tc main_arg0) = m ((c : Thread nD τ).loc main_arg0) :=
  (W12_keep m ρ c main_arg0 (by decide)).trans (W11_arg0 m ρ c)
theorem W13_arg0 (c : Dev nD) : W13 m ρ c (Proc.devRef .tc main_arg0) = m ((c : Thread nD τ).loc main_arg0) :=
  (W13_keep m ρ c main_arg0 (by decide)).trans (W12_arg0 m ρ c)
theorem W14_arg0 (c : Dev nD) : W14 m ρ c (Proc.devRef .tc main_arg0) = m ((c : Thread nD τ).loc main_arg0) :=
  (W14_of_ne m ρ c main_arg0 (by decide)).trans (W13_arg0 m ρ c)
theorem W15_arg0 (c : Dev nD) : W15 m ρ c (Proc.devRef .tc main_arg0) = m ((c : Thread nD τ).loc main_arg0) :=
  (W15_keep m ρ c main_arg0 (by decide)).trans (W14_arg0 m ρ c)
theorem W16_arg0 (c : Dev nD) : W16 m ρ c (Proc.devRef .tc main_arg0) = m ((c : Thread nD τ).loc main_arg0) :=
  (W16_keep m ρ c main_arg0 (by decide)).trans (W15_arg0 m ρ c)
theorem W17_arg0 (c : Dev nD) : W17 m ρ c (Proc.devRef .tc main_arg0) = m ((c : Thread nD τ).loc main_arg0) :=
  (W17_keep m ρ c main_arg0 (by decide)).trans (W16_arg0 m ρ c)
theorem W18_arg0 (c : Dev nD) : W18 m ρ c (Proc.devRef .tc main_arg0) = m ((c : Thread nD τ).loc main_arg0) :=
  (W18_keep m ρ c main_arg0 (by decide)).trans (W17_arg0 m ρ c)
theorem W19_arg0 (c : Dev nD) : W19 m ρ c (Proc.devRef .tc main_arg0) = m ((c : Thread nD τ).loc main_arg0) :=
  (W19_keep m ρ c main_arg0 (by decide)).trans (W18_arg0 m ρ c)
theorem W20_arg0 (c : Dev nD) : W20 m ρ c (Proc.devRef .tc main_arg0) = m ((c : Thread nD τ).loc main_arg0) :=
  (W20_of_ne m ρ c main_arg0 (by decide)).trans (W19_arg0 m ρ c)
theorem W21_arg0 (c : Dev nD) : W21 m ρ c (Proc.devRef .tc main_arg0) = m ((c : Thread nD τ).loc main_arg0) :=
  (W21_keep m ρ c main_arg0 (by decide)).trans (W20_arg0 m ρ c)
theorem W22_arg0 (c : Dev nD) : W22 m ρ c (Proc.devRef .tc main_arg0) = m ((c : Thread nD τ).loc main_arg0) :=
  (W22_keep m ρ c main_arg0 (by decide)).trans (W21_arg0 m ρ c)
theorem W23_arg0 (c : Dev nD) : W23 m ρ c (Proc.devRef .tc main_arg0) = m ((c : Thread nD τ).loc main_arg0) :=
  (W23_keep m ρ c main_arg0 (by decide)).trans (W22_arg0 m ρ c)
theorem W24_arg0 (c : Dev nD) : W24 m ρ c (Proc.devRef .tc main_arg0) = m ((c : Thread nD τ).loc main_arg0) :=
  (W24_keep m ρ c main_arg0 (by decide)).trans (W23_arg0 m ρ c)
theorem W25_arg0 (c : Dev nD) : W25 m ρ c (Proc.devRef .tc main_arg0) = m ((c : Thread nD τ).loc main_arg0) :=
  (W25_keep m ρ c main_arg0 (by decide)).trans (W24_arg0 m ρ c)
theorem W26_arg0 (c : Dev nD) : W26 m ρ c (Proc.devRef .tc main_arg0) = m ((c : Thread nD τ).loc main_arg0) :=
  (W26_of_ne m ρ c main_arg0 (by decide)).trans (W25_arg0 m ρ c)
theorem W27_arg0 (c : Dev nD) : W27 m ρ c (Proc.devRef .tc main_arg0) = m ((c : Thread nD τ).loc main_arg0) :=
  (W27_keep m ρ c main_arg0 (by decide)).trans (W26_arg0 m ρ c)
theorem W28_arg0 (c : Dev nD) : W28 m ρ c (Proc.devRef .tc main_arg0) = m ((c : Thread nD τ).loc main_arg0) :=
  (W28_keep m ρ c main_arg0 (by decide)).trans (W27_arg0 m ρ c)
theorem W29_arg0 (c : Dev nD) : W29 m ρ c (Proc.devRef .tc main_arg0) = m ((c : Thread nD τ).loc main_arg0) :=
  (W29_keep m ρ c main_arg0 (by decide)).trans (W28_arg0 m ρ c)
theorem W30_arg0 (c : Dev nD) : W30 m ρ c (Proc.devRef .tc main_arg0) = m ((c : Thread nD τ).loc main_arg0) :=
  (W30_keep m ρ c main_arg0 (by decide)).trans (W29_arg0 m ρ c)
theorem W31_arg0 (c : Dev nD) : W31 m ρ c (Proc.devRef .tc main_arg0) = m ((c : Thread nD τ).loc main_arg0) :=
  (W31_keep m ρ c main_arg0 (by decide)).trans (W30_arg0 m ρ c)
theorem W32_arg0 (c : Dev nD) : W32 m ρ c (Proc.devRef .tc main_arg0) = m ((c : Thread nD τ).loc main_arg0) :=
  (W32_of_ne m ρ c main_arg0 (by decide)).trans (W31_arg0 m ρ c)
theorem W33_arg0 (c : Dev nD) : W33 m ρ c (Proc.devRef .tc main_arg0) = m ((c : Thread nD τ).loc main_arg0) :=
  (W33_keep m ρ c main_arg0 (by decide)).trans (W32_arg0 m ρ c)
theorem W34_arg0 (c : Dev nD) : W34 m ρ c (Proc.devRef .tc main_arg0) = m ((c : Thread nD τ).loc main_arg0) :=
  (W34_keep m ρ c main_arg0 (by decide)).trans (W33_arg0 m ρ c)
theorem W35_arg0 (c : Dev nD) : W35 m ρ c (Proc.devRef .tc main_arg0) = m ((c : Thread nD τ).loc main_arg0) :=
  (W35_keep m ρ c main_arg0 (by decide)).trans (W34_arg0 m ρ c)
theorem W36_arg0 (c : Dev nD) : W36 m ρ c (Proc.devRef .tc main_arg0) = m ((c : Thread nD τ).loc main_arg0) :=
  (W36_keep m ρ c main_arg0 (by decide)).trans (W35_arg0 m ρ c)
theorem W37_arg0 (c : Dev nD) : W37 m ρ c (Proc.devRef .tc main_arg0) = m ((c : Thread nD τ).loc main_arg0) :=
  (W37_keep m ρ c main_arg0 (by decide)).trans (W36_arg0 m ρ c)
theorem W38_arg0 (c : Dev nD) : W38 m ρ c (Proc.devRef .tc main_arg0) = m ((c : Thread nD τ).loc main_arg0) :=
  (W38_of_ne m ρ c main_arg0 (by decide)).trans (W37_arg0 m ρ c)
theorem W39_arg0 (c : Dev nD) : W39 m ρ c (Proc.devRef .tc main_arg0) = m ((c : Thread nD τ).loc main_arg0) :=
  (W39_keep m ρ c main_arg0 (by decide)).trans (W38_arg0 m ρ c)
theorem W40_arg0 (c : Dev nD) : W40 m ρ c (Proc.devRef .tc main_arg0) = m ((c : Thread nD τ).loc main_arg0) :=
  (W40_keep m ρ c main_arg0 (by decide)).trans (W39_arg0 m ρ c)
theorem W41_arg0 (c : Dev nD) : W41 m ρ c (Proc.devRef .tc main_arg0) = m ((c : Thread nD τ).loc main_arg0) :=
  (W41_keep m ρ c main_arg0 (by decide)).trans (W40_arg0 m ρ c)
theorem W42_arg0 (c : Dev nD) : W42 m ρ c (Proc.devRef .tc main_arg0) = m ((c : Thread nD τ).loc main_arg0) :=
  (W42_keep m ρ c main_arg0 (by decide)).trans (W41_arg0 m ρ c)
theorem W43_arg0 (c : Dev nD) : W43 m ρ c (Proc.devRef .tc main_arg0) = m ((c : Thread nD τ).loc main_arg0) :=
  (W43_keep m ρ c main_arg0 (by decide)).trans (W42_arg0 m ρ c)
theorem W44_arg0 (c : Dev nD) : W44 m ρ c (Proc.devRef .tc main_arg0) = m ((c : Thread nD τ).loc main_arg0) :=
  (W44_of_ne m ρ c main_arg0 (by decide)).trans (W43_arg0 m ρ c)
theorem W45_arg0 (c : Dev nD) : W45 m ρ c (Proc.devRef .tc main_arg0) = m ((c : Thread nD τ).loc main_arg0) :=
  (W45_keep m ρ c main_arg0 (by decide)).trans (W44_arg0 m ρ c)
theorem W46_arg0 (c : Dev nD) : W46 m ρ c (Proc.devRef .tc main_arg0) = m ((c : Thread nD τ).loc main_arg0) :=
  (W46_of_ne m ρ c main_arg0 (by decide)).trans (W45_arg0 m ρ c)
theorem W47_arg0 (c : Dev nD) : W47 m ρ c (Proc.devRef .tc main_arg0) = m ((c : Thread nD τ).loc main_arg0) :=
  (W47_keep m ρ c main_arg0 (by decide)).trans (W46_arg0 m ρ c)
theorem W48_arg0 (c : Dev nD) : W48 m ρ c (Proc.devRef .tc main_arg0) = m ((c : Thread nD τ).loc main_arg0) :=
  (W48_of_ne m ρ c main_arg0 (by decide)).trans (W47_arg0 m ρ c)
theorem W49_arg0 (c : Dev nD) : W49 m ρ c (Proc.devRef .tc main_arg0) = m ((c : Thread nD τ).loc main_arg0) :=
  (W49_keep m ρ c main_arg0 (by decide)).trans (W48_arg0 m ρ c)
theorem W50_arg0 (c : Dev nD) : W50 m ρ c (Proc.devRef .tc main_arg0) = m ((c : Thread nD τ).loc main_arg0) :=
  (W50_of_ne m ρ c main_arg0 (by decide)).trans (W49_arg0 m ρ c)
theorem W51_arg0 (c : Dev nD) : W51 m ρ c (Proc.devRef .tc main_arg0) = m ((c : Thread nD τ).loc main_arg0) :=
  (W51_keep m ρ c main_arg0 (by decide)).trans (W50_arg0 m ρ c)
theorem W52_arg0 (c : Dev nD) : W52 m ρ c (Proc.devRef .tc main_arg0) = m ((c : Thread nD τ).loc main_arg0) :=
  (W52_keep m ρ c main_arg0 (by decide)).trans (W51_arg0 m ρ c)
theorem W53_arg0 (c : Dev nD) : W53 m ρ c (Proc.devRef .tc main_arg0) = m ((c : Thread nD τ).loc main_arg0) :=
  (W53_keep m ρ c main_arg0 (by decide)).trans (W52_arg0 m ρ c)
theorem W54_arg0 (c : Dev nD) : W54 m ρ c (Proc.devRef .tc main_arg0) = m ((c : Thread nD τ).loc main_arg0) :=
  (W54_keep m ρ c main_arg0 (by decide)).trans (W53_arg0 m ρ c)
theorem W55_arg0 (c : Dev nD) : W55 m ρ c (Proc.devRef .tc main_arg0) = m ((c : Thread nD τ).loc main_arg0) :=
  (W55_keep m ρ c main_arg0 (by decide)).trans (W54_arg0 m ρ c)
theorem W56_arg0 (c : Dev nD) : W56 m ρ c (Proc.devRef .tc main_arg0) = m ((c : Thread nD τ).loc main_arg0) :=
  (W56_of_ne m ρ c main_arg0 (by decide)).trans (W55_arg0 m ρ c)
theorem W57_arg0 (c : Dev nD) : W57 m ρ c (Proc.devRef .tc main_arg0) = m ((c : Thread nD τ).loc main_arg0) :=
  (W57_keep m ρ c main_arg0 (by decide)).trans (W56_arg0 m ρ c)
theorem W58_arg0 (c : Dev nD) : W58 m ρ c (Proc.devRef .tc main_arg0) = m ((c : Thread nD τ).loc main_arg0) :=
  (W58_keep m ρ c main_arg0 (by decide)).trans (W57_arg0 m ρ c)
theorem W59_arg0 (c : Dev nD) : W59 m ρ c (Proc.devRef .tc main_arg0) = m ((c : Thread nD τ).loc main_arg0) :=
  (W59_keep m ρ c main_arg0 (by decide)).trans (W58_arg0 m ρ c)
theorem W60_arg0 (c : Dev nD) : W60 m ρ c (Proc.devRef .tc main_arg0) = m ((c : Thread nD τ).loc main_arg0) :=
  (W60_keep m ρ c main_arg0 (by decide)).trans (W59_arg0 m ρ c)
theorem W61_arg0 (c : Dev nD) : W61 m ρ c (Proc.devRef .tc main_arg0) = m ((c : Thread nD τ).loc main_arg0) :=
  (W61_keep m ρ c main_arg0 (by decide)).trans (W60_arg0 m ρ c)
theorem W62_arg0 (c : Dev nD) : W62 m ρ c (Proc.devRef .tc main_arg0) = m ((c : Thread nD τ).loc main_arg0) :=
  (W62_of_ne m ρ c main_arg0 (by decide)).trans (W61_arg0 m ρ c)
theorem W63_arg0 (c : Dev nD) : W63 m ρ c (Proc.devRef .tc main_arg0) = m ((c : Thread nD τ).loc main_arg0) :=
  (W63_keep m ρ c main_arg0 (by decide)).trans (W62_arg0 m ρ c)
theorem W64_arg0 (c : Dev nD) : W64 m ρ c (Proc.devRef .tc main_arg0) = m ((c : Thread nD τ).loc main_arg0) :=
  (W64_keep m ρ c main_arg0 (by decide)).trans (W63_arg0 m ρ c)
theorem W65_arg0 (c : Dev nD) : W65 m ρ c (Proc.devRef .tc main_arg0) = m ((c : Thread nD τ).loc main_arg0) :=
  (W65_keep m ρ c main_arg0 (by decide)).trans (W64_arg0 m ρ c)
theorem W66_arg0 (c : Dev nD) : W66 m ρ c (Proc.devRef .tc main_arg0) = m ((c : Thread nD τ).loc main_arg0) :=
  (W66_keep m ρ c main_arg0 (by decide)).trans (W65_arg0 m ρ c)
theorem W67_arg0 (c : Dev nD) : W67 m ρ c (Proc.devRef .tc main_arg0) = m ((c : Thread nD τ).loc main_arg0) :=
  (W67_keep m ρ c main_arg0 (by decide)).trans (W66_arg0 m ρ c)
theorem W68_arg0 (c : Dev nD) : W68 m ρ c (Proc.devRef .tc main_arg0) = m ((c : Thread nD τ).loc main_arg0) :=
  (W68_of_ne m ρ c main_arg0 (by decide)).trans (W67_arg0 m ρ c)
theorem W69_arg0 (c : Dev nD) : W69 m ρ c (Proc.devRef .tc main_arg0) = m ((c : Thread nD τ).loc main_arg0) :=
  (W69_keep m ρ c main_arg0 (by decide)).trans (W68_arg0 m ρ c)
theorem W70_arg0 (c : Dev nD) : W70 m ρ c (Proc.devRef .tc main_arg0) = m ((c : Thread nD τ).loc main_arg0) :=
  (W70_keep m ρ c main_arg0 (by decide)).trans (W69_arg0 m ρ c)
theorem W71_arg0 (c : Dev nD) : W71 m ρ c (Proc.devRef .tc main_arg0) = m ((c : Thread nD τ).loc main_arg0) :=
  (W71_keep m ρ c main_arg0 (by decide)).trans (W70_arg0 m ρ c)
theorem W72_arg0 (c : Dev nD) : W72 m ρ c (Proc.devRef .tc main_arg0) = m ((c : Thread nD τ).loc main_arg0) :=
  (W72_keep m ρ c main_arg0 (by decide)).trans (W71_arg0 m ρ c)
theorem W73_arg0 (c : Dev nD) : W73 m ρ c (Proc.devRef .tc main_arg0) = m ((c : Thread nD τ).loc main_arg0) :=
  (W73_keep m ρ c main_arg0 (by decide)).trans (W72_arg0 m ρ c)
theorem W74_arg0 (c : Dev nD) : W74 m ρ c (Proc.devRef .tc main_arg0) = m ((c : Thread nD τ).loc main_arg0) :=
  (W74_of_ne m ρ c main_arg0 (by decide)).trans (W73_arg0 m ρ c)
theorem W75_arg0 (c : Dev nD) : W75 m ρ c (Proc.devRef .tc main_arg0) = m ((c : Thread nD τ).loc main_arg0) :=
  (W75_keep m ρ c main_arg0 (by decide)).trans (W74_arg0 m ρ c)
theorem W76_arg0 (c : Dev nD) : W76 m ρ c (Proc.devRef .tc main_arg0) = m ((c : Thread nD τ).loc main_arg0) :=
  (W76_keep m ρ c main_arg0 (by decide)).trans (W75_arg0 m ρ c)
theorem W77_arg0 (c : Dev nD) : W77 m ρ c (Proc.devRef .tc main_arg0) = m ((c : Thread nD τ).loc main_arg0) :=
  (W77_keep m ρ c main_arg0 (by decide)).trans (W76_arg0 m ρ c)
theorem W78_arg0 (c : Dev nD) : W78 m ρ c (Proc.devRef .tc main_arg0) = m ((c : Thread nD τ).loc main_arg0) :=
  (W78_keep m ρ c main_arg0 (by decide)).trans (W77_arg0 m ρ c)
theorem W79_arg0 (c : Dev nD) : W79 m ρ c (Proc.devRef .tc main_arg0) = m ((c : Thread nD τ).loc main_arg0) :=
  (W79_keep m ρ c main_arg0 (by decide)).trans (W78_arg0 m ρ c)
theorem W80_arg0 (c : Dev nD) : W80 m ρ c (Proc.devRef .tc main_arg0) = m ((c : Thread nD τ).loc main_arg0) :=
  (W80_of_ne m ρ c main_arg0 (by decide)).trans (W79_arg0 m ρ c)
theorem W81_arg0 (c : Dev nD) : W81 m ρ c (Proc.devRef .tc main_arg0) = m ((c : Thread nD τ).loc main_arg0) :=
  (W81_keep m ρ c main_arg0 (by decide)).trans (W80_arg0 m ρ c)
theorem W82_arg0 (c : Dev nD) : W82 m ρ c (Proc.devRef .tc main_arg0) = m ((c : Thread nD τ).loc main_arg0) :=
  (W82_keep m ρ c main_arg0 (by decide)).trans (W81_arg0 m ρ c)
theorem W83_arg0 (c : Dev nD) : W83 m ρ c (Proc.devRef .tc main_arg0) = m ((c : Thread nD τ).loc main_arg0) :=
  (W83_keep m ρ c main_arg0 (by decide)).trans (W82_arg0 m ρ c)
theorem W84_arg0 (c : Dev nD) : W84 m ρ c (Proc.devRef .tc main_arg0) = m ((c : Thread nD τ).loc main_arg0) :=
  (W84_keep m ρ c main_arg0 (by decide)).trans (W83_arg0 m ρ c)
theorem W85_arg0 (c : Dev nD) : W85 m ρ c (Proc.devRef .tc main_arg0) = m ((c : Thread nD τ).loc main_arg0) :=
  (W85_keep m ρ c main_arg0 (by decide)).trans (W84_arg0 m ρ c)
theorem W86_arg0 (c : Dev nD) : W86 m ρ c (Proc.devRef .tc main_arg0) = m ((c : Thread nD τ).loc main_arg0) :=
  (W86_of_ne m ρ c main_arg0 (by decide)).trans (W85_arg0 m ρ c)
theorem W87_arg0 (c : Dev nD) : W87 m ρ c (Proc.devRef .tc main_arg0) = m ((c : Thread nD τ).loc main_arg0) :=
  (W87_keep m ρ c main_arg0 (by decide)).trans (W86_arg0 m ρ c)
theorem W88_arg0 (c : Dev nD) : W88 m ρ c (Proc.devRef .tc main_arg0) = m ((c : Thread nD τ).loc main_arg0) :=
  (W88_of_ne m ρ c main_arg0 (by decide)).trans (W87_arg0 m ρ c)
theorem W89_arg0 (c : Dev nD) : W89 m ρ c (Proc.devRef .tc main_arg0) = m ((c : Thread nD τ).loc main_arg0) :=
  (W89_keep m ρ c main_arg0 (by decide)).trans (W88_arg0 m ρ c)
theorem W90_arg0 (c : Dev nD) : W90 m ρ c (Proc.devRef .tc main_arg0) = m ((c : Thread nD τ).loc main_arg0) :=
  (W90_of_ne m ρ c main_arg0 (by decide)).trans (W89_arg0 m ρ c)
theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) :=
  (W1_keep m ρ c main_arg1 (by decide)).trans (W0_arg1 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_keep m ρ c main_arg1 (by decide)).trans (W2_arg1 m ρ c)
theorem W4_arg1 (c : Dev nD) : W4 m ρ c (Proc.devRef .tc main_arg1) = m ((c : Thread nD τ).loc main_arg1) :=
  (W4_in0 m ρ c).trans (W3_arg1 m ρ c)
theorem W5_arg1 (c : Dev nD) : W5 m ρ c (Proc.devRef .tc main_arg1) = m ((c : Thread nD τ).loc main_arg1) :=
  (W5_keep m ρ c main_arg1 (by decide)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (W7_keep m ρ c main_arg1 (by decide)).trans (W6_arg1 m ρ c)
theorem W8_arg1 (c : Dev nD) : W8 m ρ c (Proc.devRef .tc main_arg1) = m ((c : Thread nD τ).loc main_arg1) :=
  (W8_of_ne m ρ c main_arg1 (by decide)).trans (W7_arg1 m ρ c)
theorem W9_arg1 (c : Dev nD) : W9 m ρ c (Proc.devRef .tc main_arg1) = m ((c : Thread nD τ).loc main_arg1) :=
  (W9_keep m ρ c main_arg1 (by decide)).trans (W8_arg1 m ρ c)
theorem W10_arg1 (c : Dev nD) : W10 m ρ c (Proc.devRef .tc main_arg1) = m ((c : Thread nD τ).loc main_arg1) :=
  (W10_keep m ρ c main_arg1 (by decide)).trans (W9_arg1 m ρ c)
theorem W11_arg1 (c : Dev nD) : W11 m ρ c (Proc.devRef .tc main_arg1) = m ((c : Thread nD τ).loc main_arg1) :=
  (W11_keep m ρ c main_arg1 (by decide)).trans (W10_arg1 m ρ c)
theorem W12_arg1 (c : Dev nD) : W12 m ρ c (Proc.devRef .tc main_arg1) = m ((c : Thread nD τ).loc main_arg1) :=
  (W12_keep m ρ c main_arg1 (by decide)).trans (W11_arg1 m ρ c)
theorem W13_arg1 (c : Dev nD) : W13 m ρ c (Proc.devRef .tc main_arg1) = m ((c : Thread nD τ).loc main_arg1) :=
  (W13_keep m ρ c main_arg1 (by decide)).trans (W12_arg1 m ρ c)
theorem W14_arg1 (c : Dev nD) : W14 m ρ c (Proc.devRef .tc main_arg1) = m ((c : Thread nD τ).loc main_arg1) :=
  (W14_of_ne m ρ c main_arg1 (by decide)).trans (W13_arg1 m ρ c)
theorem W15_arg1 (c : Dev nD) : W15 m ρ c (Proc.devRef .tc main_arg1) = m ((c : Thread nD τ).loc main_arg1) :=
  (W15_keep m ρ c main_arg1 (by decide)).trans (W14_arg1 m ρ c)
theorem W16_arg1 (c : Dev nD) : W16 m ρ c (Proc.devRef .tc main_arg1) = m ((c : Thread nD τ).loc main_arg1) :=
  (W16_keep m ρ c main_arg1 (by decide)).trans (W15_arg1 m ρ c)
theorem W17_arg1 (c : Dev nD) : W17 m ρ c (Proc.devRef .tc main_arg1) = m ((c : Thread nD τ).loc main_arg1) :=
  (W17_keep m ρ c main_arg1 (by decide)).trans (W16_arg1 m ρ c)
theorem W18_arg1 (c : Dev nD) : W18 m ρ c (Proc.devRef .tc main_arg1) = m ((c : Thread nD τ).loc main_arg1) :=
  (W18_keep m ρ c main_arg1 (by decide)).trans (W17_arg1 m ρ c)
theorem W19_arg1 (c : Dev nD) : W19 m ρ c (Proc.devRef .tc main_arg1) = m ((c : Thread nD τ).loc main_arg1) :=
  (W19_keep m ρ c main_arg1 (by decide)).trans (W18_arg1 m ρ c)
theorem W20_arg1 (c : Dev nD) : W20 m ρ c (Proc.devRef .tc main_arg1) = m ((c : Thread nD τ).loc main_arg1) :=
  (W20_of_ne m ρ c main_arg1 (by decide)).trans (W19_arg1 m ρ c)
theorem W21_arg1 (c : Dev nD) : W21 m ρ c (Proc.devRef .tc main_arg1) = m ((c : Thread nD τ).loc main_arg1) :=
  (W21_keep m ρ c main_arg1 (by decide)).trans (W20_arg1 m ρ c)
theorem W22_arg1 (c : Dev nD) : W22 m ρ c (Proc.devRef .tc main_arg1) = m ((c : Thread nD τ).loc main_arg1) :=
  (W22_keep m ρ c main_arg1 (by decide)).trans (W21_arg1 m ρ c)
theorem W23_arg1 (c : Dev nD) : W23 m ρ c (Proc.devRef .tc main_arg1) = m ((c : Thread nD τ).loc main_arg1) :=
  (W23_keep m ρ c main_arg1 (by decide)).trans (W22_arg1 m ρ c)
theorem W24_arg1 (c : Dev nD) : W24 m ρ c (Proc.devRef .tc main_arg1) = m ((c : Thread nD τ).loc main_arg1) :=
  (W24_keep m ρ c main_arg1 (by decide)).trans (W23_arg1 m ρ c)
theorem W25_arg1 (c : Dev nD) : W25 m ρ c (Proc.devRef .tc main_arg1) = m ((c : Thread nD τ).loc main_arg1) :=
  (W25_keep m ρ c main_arg1 (by decide)).trans (W24_arg1 m ρ c)
theorem W26_arg1 (c : Dev nD) : W26 m ρ c (Proc.devRef .tc main_arg1) = m ((c : Thread nD τ).loc main_arg1) :=
  (W26_of_ne m ρ c main_arg1 (by decide)).trans (W25_arg1 m ρ c)
theorem W27_arg1 (c : Dev nD) : W27 m ρ c (Proc.devRef .tc main_arg1) = m ((c : Thread nD τ).loc main_arg1) :=
  (W27_keep m ρ c main_arg1 (by decide)).trans (W26_arg1 m ρ c)
theorem W28_arg1 (c : Dev nD) : W28 m ρ c (Proc.devRef .tc main_arg1) = m ((c : Thread nD τ).loc main_arg1) :=
  (W28_keep m ρ c main_arg1 (by decide)).trans (W27_arg1 m ρ c)
theorem W29_arg1 (c : Dev nD) : W29 m ρ c (Proc.devRef .tc main_arg1) = m ((c : Thread nD τ).loc main_arg1) :=
  (W29_keep m ρ c main_arg1 (by decide)).trans (W28_arg1 m ρ c)
theorem W30_arg1 (c : Dev nD) : W30 m ρ c (Proc.devRef .tc main_arg1) = m ((c : Thread nD τ).loc main_arg1) :=
  (W30_keep m ρ c main_arg1 (by decide)).trans (W29_arg1 m ρ c)
theorem W31_arg1 (c : Dev nD) : W31 m ρ c (Proc.devRef .tc main_arg1) = m ((c : Thread nD τ).loc main_arg1) :=
  (W31_keep m ρ c main_arg1 (by decide)).trans (W30_arg1 m ρ c)
theorem W32_arg1 (c : Dev nD) : W32 m ρ c (Proc.devRef .tc main_arg1) = m ((c : Thread nD τ).loc main_arg1) :=
  (W32_of_ne m ρ c main_arg1 (by decide)).trans (W31_arg1 m ρ c)
theorem W33_arg1 (c : Dev nD) : W33 m ρ c (Proc.devRef .tc main_arg1) = m ((c : Thread nD τ).loc main_arg1) :=
  (W33_keep m ρ c main_arg1 (by decide)).trans (W32_arg1 m ρ c)
theorem W34_arg1 (c : Dev nD) : W34 m ρ c (Proc.devRef .tc main_arg1) = m ((c : Thread nD τ).loc main_arg1) :=
  (W34_keep m ρ c main_arg1 (by decide)).trans (W33_arg1 m ρ c)
theorem W35_arg1 (c : Dev nD) : W35 m ρ c (Proc.devRef .tc main_arg1) = m ((c : Thread nD τ).loc main_arg1) :=
  (W35_keep m ρ c main_arg1 (by decide)).trans (W34_arg1 m ρ c)
theorem W36_arg1 (c : Dev nD) : W36 m ρ c (Proc.devRef .tc main_arg1) = m ((c : Thread nD τ).loc main_arg1) :=
  (W36_keep m ρ c main_arg1 (by decide)).trans (W35_arg1 m ρ c)
theorem W37_arg1 (c : Dev nD) : W37 m ρ c (Proc.devRef .tc main_arg1) = m ((c : Thread nD τ).loc main_arg1) :=
  (W37_keep m ρ c main_arg1 (by decide)).trans (W36_arg1 m ρ c)
theorem W38_arg1 (c : Dev nD) : W38 m ρ c (Proc.devRef .tc main_arg1) = m ((c : Thread nD τ).loc main_arg1) :=
  (W38_of_ne m ρ c main_arg1 (by decide)).trans (W37_arg1 m ρ c)
theorem W39_arg1 (c : Dev nD) : W39 m ρ c (Proc.devRef .tc main_arg1) = m ((c : Thread nD τ).loc main_arg1) :=
  (W39_keep m ρ c main_arg1 (by decide)).trans (W38_arg1 m ρ c)
theorem W40_arg1 (c : Dev nD) : W40 m ρ c (Proc.devRef .tc main_arg1) = m ((c : Thread nD τ).loc main_arg1) :=
  (W40_keep m ρ c main_arg1 (by decide)).trans (W39_arg1 m ρ c)
theorem W41_arg1 (c : Dev nD) : W41 m ρ c (Proc.devRef .tc main_arg1) = m ((c : Thread nD τ).loc main_arg1) :=
  (W41_keep m ρ c main_arg1 (by decide)).trans (W40_arg1 m ρ c)
theorem W42_arg1 (c : Dev nD) : W42 m ρ c (Proc.devRef .tc main_arg1) = m ((c : Thread nD τ).loc main_arg1) :=
  (W42_keep m ρ c main_arg1 (by decide)).trans (W41_arg1 m ρ c)
theorem W43_arg1 (c : Dev nD) : W43 m ρ c (Proc.devRef .tc main_arg1) = m ((c : Thread nD τ).loc main_arg1) :=
  (W43_keep m ρ c main_arg1 (by decide)).trans (W42_arg1 m ρ c)
theorem W44_arg1 (c : Dev nD) : W44 m ρ c (Proc.devRef .tc main_arg1) = m ((c : Thread nD τ).loc main_arg1) :=
  (W44_of_ne m ρ c main_arg1 (by decide)).trans (W43_arg1 m ρ c)
theorem W45_arg1 (c : Dev nD) : W45 m ρ c (Proc.devRef .tc main_arg1) = m ((c : Thread nD τ).loc main_arg1) :=
  (W45_keep m ρ c main_arg1 (by decide)).trans (W44_arg1 m ρ c)
theorem W46_arg1 (c : Dev nD) : W46 m ρ c (Proc.devRef .tc main_arg1) = m ((c : Thread nD τ).loc main_arg1) :=
  (W46_of_ne m ρ c main_arg1 (by decide)).trans (W45_arg1 m ρ c)
theorem W47_arg1 (c : Dev nD) : W47 m ρ c (Proc.devRef .tc main_arg1) = m ((c : Thread nD τ).loc main_arg1) :=
  (W47_keep m ρ c main_arg1 (by decide)).trans (W46_arg1 m ρ c)
theorem W48_arg1 (c : Dev nD) : W48 m ρ c (Proc.devRef .tc main_arg1) = m ((c : Thread nD τ).loc main_arg1) :=
  (W48_of_ne m ρ c main_arg1 (by decide)).trans (W47_arg1 m ρ c)
theorem W49_arg1 (c : Dev nD) : W49 m ρ c (Proc.devRef .tc main_arg1) = m ((c : Thread nD τ).loc main_arg1) :=
  (W49_keep m ρ c main_arg1 (by decide)).trans (W48_arg1 m ρ c)
theorem W50_arg1 (c : Dev nD) : W50 m ρ c (Proc.devRef .tc main_arg1) = m ((c : Thread nD τ).loc main_arg1) :=
  (W50_of_ne m ρ c main_arg1 (by decide)).trans (W49_arg1 m ρ c)
theorem W51_arg1 (c : Dev nD) : W51 m ρ c (Proc.devRef .tc main_arg1) = m ((c : Thread nD τ).loc main_arg1) :=
  (W51_keep m ρ c main_arg1 (by decide)).trans (W50_arg1 m ρ c)
theorem W52_arg1 (c : Dev nD) : W52 m ρ c (Proc.devRef .tc main_arg1) = m ((c : Thread nD τ).loc main_arg1) :=
  (W52_keep m ρ c main_arg1 (by decide)).trans (W51_arg1 m ρ c)
theorem W53_arg1 (c : Dev nD) : W53 m ρ c (Proc.devRef .tc main_arg1) = m ((c : Thread nD τ).loc main_arg1) :=
  (W53_keep m ρ c main_arg1 (by decide)).trans (W52_arg1 m ρ c)
theorem W54_arg1 (c : Dev nD) : W54 m ρ c (Proc.devRef .tc main_arg1) = m ((c : Thread nD τ).loc main_arg1) :=
  (W54_keep m ρ c main_arg1 (by decide)).trans (W53_arg1 m ρ c)
theorem W55_arg1 (c : Dev nD) : W55 m ρ c (Proc.devRef .tc main_arg1) = m ((c : Thread nD τ).loc main_arg1) :=
  (W55_keep m ρ c main_arg1 (by decide)).trans (W54_arg1 m ρ c)
theorem W56_arg1 (c : Dev nD) : W56 m ρ c (Proc.devRef .tc main_arg1) = m ((c : Thread nD τ).loc main_arg1) :=
  (W56_of_ne m ρ c main_arg1 (by decide)).trans (W55_arg1 m ρ c)
theorem W57_arg1 (c : Dev nD) : W57 m ρ c (Proc.devRef .tc main_arg1) = m ((c : Thread nD τ).loc main_arg1) :=
  (W57_keep m ρ c main_arg1 (by decide)).trans (W56_arg1 m ρ c)
theorem W58_arg1 (c : Dev nD) : W58 m ρ c (Proc.devRef .tc main_arg1) = m ((c : Thread nD τ).loc main_arg1) :=
  (W58_keep m ρ c main_arg1 (by decide)).trans (W57_arg1 m ρ c)
theorem W59_arg1 (c : Dev nD) : W59 m ρ c (Proc.devRef .tc main_arg1) = m ((c : Thread nD τ).loc main_arg1) :=
  (W59_keep m ρ c main_arg1 (by decide)).trans (W58_arg1 m ρ c)
theorem W60_arg1 (c : Dev nD) : W60 m ρ c (Proc.devRef .tc main_arg1) = m ((c : Thread nD τ).loc main_arg1) :=
  (W60_keep m ρ c main_arg1 (by decide)).trans (W59_arg1 m ρ c)
theorem W61_arg1 (c : Dev nD) : W61 m ρ c (Proc.devRef .tc main_arg1) = m ((c : Thread nD τ).loc main_arg1) :=
  (W61_keep m ρ c main_arg1 (by decide)).trans (W60_arg1 m ρ c)
theorem W62_arg1 (c : Dev nD) : W62 m ρ c (Proc.devRef .tc main_arg1) = m ((c : Thread nD τ).loc main_arg1) :=
  (W62_of_ne m ρ c main_arg1 (by decide)).trans (W61_arg1 m ρ c)
theorem W63_arg1 (c : Dev nD) : W63 m ρ c (Proc.devRef .tc main_arg1) = m ((c : Thread nD τ).loc main_arg1) :=
  (W63_keep m ρ c main_arg1 (by decide)).trans (W62_arg1 m ρ c)
theorem W64_arg1 (c : Dev nD) : W64 m ρ c (Proc.devRef .tc main_arg1) = m ((c : Thread nD τ).loc main_arg1) :=
  (W64_keep m ρ c main_arg1 (by decide)).trans (W63_arg1 m ρ c)
theorem W65_arg1 (c : Dev nD) : W65 m ρ c (Proc.devRef .tc main_arg1) = m ((c : Thread nD τ).loc main_arg1) :=
  (W65_keep m ρ c main_arg1 (by decide)).trans (W64_arg1 m ρ c)
theorem W66_arg1 (c : Dev nD) : W66 m ρ c (Proc.devRef .tc main_arg1) = m ((c : Thread nD τ).loc main_arg1) :=
  (W66_keep m ρ c main_arg1 (by decide)).trans (W65_arg1 m ρ c)
theorem W67_arg1 (c : Dev nD) : W67 m ρ c (Proc.devRef .tc main_arg1) = m ((c : Thread nD τ).loc main_arg1) :=
  (W67_keep m ρ c main_arg1 (by decide)).trans (W66_arg1 m ρ c)
theorem W68_arg1 (c : Dev nD) : W68 m ρ c (Proc.devRef .tc main_arg1) = m ((c : Thread nD τ).loc main_arg1) :=
  (W68_of_ne m ρ c main_arg1 (by decide)).trans (W67_arg1 m ρ c)
theorem W69_arg1 (c : Dev nD) : W69 m ρ c (Proc.devRef .tc main_arg1) = m ((c : Thread nD τ).loc main_arg1) :=
  (W69_keep m ρ c main_arg1 (by decide)).trans (W68_arg1 m ρ c)
theorem W70_arg1 (c : Dev nD) : W70 m ρ c (Proc.devRef .tc main_arg1) = m ((c : Thread nD τ).loc main_arg1) :=
  (W70_keep m ρ c main_arg1 (by decide)).trans (W69_arg1 m ρ c)
theorem W71_arg1 (c : Dev nD) : W71 m ρ c (Proc.devRef .tc main_arg1) = m ((c : Thread nD τ).loc main_arg1) :=
  (W71_keep m ρ c main_arg1 (by decide)).trans (W70_arg1 m ρ c)
theorem W72_arg1 (c : Dev nD) : W72 m ρ c (Proc.devRef .tc main_arg1) = m ((c : Thread nD τ).loc main_arg1) :=
  (W72_keep m ρ c main_arg1 (by decide)).trans (W71_arg1 m ρ c)
theorem W73_arg1 (c : Dev nD) : W73 m ρ c (Proc.devRef .tc main_arg1) = m ((c : Thread nD τ).loc main_arg1) :=
  (W73_keep m ρ c main_arg1 (by decide)).trans (W72_arg1 m ρ c)
theorem W74_arg1 (c : Dev nD) : W74 m ρ c (Proc.devRef .tc main_arg1) = m ((c : Thread nD τ).loc main_arg1) :=
  (W74_of_ne m ρ c main_arg1 (by decide)).trans (W73_arg1 m ρ c)
theorem W75_arg1 (c : Dev nD) : W75 m ρ c (Proc.devRef .tc main_arg1) = m ((c : Thread nD τ).loc main_arg1) :=
  (W75_keep m ρ c main_arg1 (by decide)).trans (W74_arg1 m ρ c)
theorem W76_arg1 (c : Dev nD) : W76 m ρ c (Proc.devRef .tc main_arg1) = m ((c : Thread nD τ).loc main_arg1) :=
  (W76_keep m ρ c main_arg1 (by decide)).trans (W75_arg1 m ρ c)
theorem W77_arg1 (c : Dev nD) : W77 m ρ c (Proc.devRef .tc main_arg1) = m ((c : Thread nD τ).loc main_arg1) :=
  (W77_keep m ρ c main_arg1 (by decide)).trans (W76_arg1 m ρ c)
theorem W78_arg1 (c : Dev nD) : W78 m ρ c (Proc.devRef .tc main_arg1) = m ((c : Thread nD τ).loc main_arg1) :=
  (W78_keep m ρ c main_arg1 (by decide)).trans (W77_arg1 m ρ c)
theorem W79_arg1 (c : Dev nD) : W79 m ρ c (Proc.devRef .tc main_arg1) = m ((c : Thread nD τ).loc main_arg1) :=
  (W79_keep m ρ c main_arg1 (by decide)).trans (W78_arg1 m ρ c)
theorem W80_arg1 (c : Dev nD) : W80 m ρ c (Proc.devRef .tc main_arg1) = m ((c : Thread nD τ).loc main_arg1) :=
  (W80_of_ne m ρ c main_arg1 (by decide)).trans (W79_arg1 m ρ c)
theorem W81_arg1 (c : Dev nD) : W81 m ρ c (Proc.devRef .tc main_arg1) = m ((c : Thread nD τ).loc main_arg1) :=
  (W81_keep m ρ c main_arg1 (by decide)).trans (W80_arg1 m ρ c)
theorem W82_arg1 (c : Dev nD) : W82 m ρ c (Proc.devRef .tc main_arg1) = m ((c : Thread nD τ).loc main_arg1) :=
  (W82_keep m ρ c main_arg1 (by decide)).trans (W81_arg1 m ρ c)
theorem W83_arg1 (c : Dev nD) : W83 m ρ c (Proc.devRef .tc main_arg1) = m ((c : Thread nD τ).loc main_arg1) :=
  (W83_keep m ρ c main_arg1 (by decide)).trans (W82_arg1 m ρ c)
theorem W84_arg1 (c : Dev nD) : W84 m ρ c (Proc.devRef .tc main_arg1) = m ((c : Thread nD τ).loc main_arg1) :=
  (W84_keep m ρ c main_arg1 (by decide)).trans (W83_arg1 m ρ c)
theorem W85_arg1 (c : Dev nD) : W85 m ρ c (Proc.devRef .tc main_arg1) = m ((c : Thread nD τ).loc main_arg1) :=
  (W85_keep m ρ c main_arg1 (by decide)).trans (W84_arg1 m ρ c)
theorem W86_arg1 (c : Dev nD) : W86 m ρ c (Proc.devRef .tc main_arg1) = m ((c : Thread nD τ).loc main_arg1) :=
  (W86_of_ne m ρ c main_arg1 (by decide)).trans (W85_arg1 m ρ c)
theorem W87_arg1 (c : Dev nD) : W87 m ρ c (Proc.devRef .tc main_arg1) = m ((c : Thread nD τ).loc main_arg1) :=
  (W87_keep m ρ c main_arg1 (by decide)).trans (W86_arg1 m ρ c)
theorem W88_arg1 (c : Dev nD) : W88 m ρ c (Proc.devRef .tc main_arg1) = m ((c : Thread nD τ).loc main_arg1) :=
  (W88_of_ne m ρ c main_arg1 (by decide)).trans (W87_arg1 m ρ c)
theorem W89_arg1 (c : Dev nD) : W89 m ρ c (Proc.devRef .tc main_arg1) = m ((c : Thread nD τ).loc main_arg1) :=
  (W89_keep m ρ c main_arg1 (by decide)).trans (W88_arg1 m ρ c)
theorem W90_arg1 (c : Dev nD) : W90 m ρ c (Proc.devRef .tc main_arg1) = m ((c : Thread nD τ).loc main_arg1) :=
  (W90_of_ne m ρ c main_arg1 (by decide)).trans (W89_arg1 m ρ c)
theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (W1_keep m ρ c main_arg2 (by decide)).trans (W0_arg2 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (W3_keep m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (W5_keep m ρ c main_arg2 (by decide)).trans (W4_arg2 m ρ c)
theorem W6_arg2 (c : Dev nD) : W6 m ρ c (Proc.devRef .tc main_arg2) = m ((c : Thread nD τ).loc main_arg2) :=
  (W6_in0 m ρ c).trans (W5_arg2 m ρ c)
theorem W7_arg2 (c : Dev nD) : W7 m ρ c (Proc.devRef .tc main_arg2) = m ((c : Thread nD τ).loc main_arg2) :=
  (W7_keep m ρ c main_arg2 (by decide)).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W9_arg2 (c : Dev nD) : W9 m ρ c (Proc.devRef .tc main_arg2) = m ((c : Thread nD τ).loc main_arg2) :=
  (W9_keep m ρ c main_arg2 (by decide)).trans (W8_arg2 m ρ c)
theorem W10_arg2 (c : Dev nD) : W10 m ρ c (Proc.devRef .tc main_arg2) = m ((c : Thread nD τ).loc main_arg2) :=
  (W10_keep m ρ c main_arg2 (by decide)).trans (W9_arg2 m ρ c)
theorem W11_arg2 (c : Dev nD) : W11 m ρ c (Proc.devRef .tc main_arg2) = m ((c : Thread nD τ).loc main_arg2) :=
  (W11_keep m ρ c main_arg2 (by decide)).trans (W10_arg2 m ρ c)
theorem W12_arg2 (c : Dev nD) : W12 m ρ c (Proc.devRef .tc main_arg2) = m ((c : Thread nD τ).loc main_arg2) :=
  (W12_keep m ρ c main_arg2 (by decide)).trans (W11_arg2 m ρ c)
theorem W13_arg2 (c : Dev nD) : W13 m ρ c (Proc.devRef .tc main_arg2) = m ((c : Thread nD τ).loc main_arg2) :=
  (W13_keep m ρ c main_arg2 (by decide)).trans (W12_arg2 m ρ c)
theorem W14_arg2 (c : Dev nD) : W14 m ρ c (Proc.devRef .tc main_arg2) = m ((c : Thread nD τ).loc main_arg2) :=
  (W14_of_ne m ρ c main_arg2 (by decide)).trans (W13_arg2 m ρ c)
theorem W15_arg2 (c : Dev nD) : W15 m ρ c (Proc.devRef .tc main_arg2) = m ((c : Thread nD τ).loc main_arg2) :=
  (W15_keep m ρ c main_arg2 (by decide)).trans (W14_arg2 m ρ c)
theorem W16_arg2 (c : Dev nD) : W16 m ρ c (Proc.devRef .tc main_arg2) = m ((c : Thread nD τ).loc main_arg2) :=
  (W16_keep m ρ c main_arg2 (by decide)).trans (W15_arg2 m ρ c)
theorem W17_arg2 (c : Dev nD) : W17 m ρ c (Proc.devRef .tc main_arg2) = m ((c : Thread nD τ).loc main_arg2) :=
  (W17_keep m ρ c main_arg2 (by decide)).trans (W16_arg2 m ρ c)
theorem W18_arg2 (c : Dev nD) : W18 m ρ c (Proc.devRef .tc main_arg2) = m ((c : Thread nD τ).loc main_arg2) :=
  (W18_keep m ρ c main_arg2 (by decide)).trans (W17_arg2 m ρ c)
theorem W19_arg2 (c : Dev nD) : W19 m ρ c (Proc.devRef .tc main_arg2) = m ((c : Thread nD τ).loc main_arg2) :=
  (W19_keep m ρ c main_arg2 (by decide)).trans (W18_arg2 m ρ c)
theorem W20_arg2 (c : Dev nD) : W20 m ρ c (Proc.devRef .tc main_arg2) = m ((c : Thread nD τ).loc main_arg2) :=
  (W20_of_ne m ρ c main_arg2 (by decide)).trans (W19_arg2 m ρ c)
theorem W21_arg2 (c : Dev nD) : W21 m ρ c (Proc.devRef .tc main_arg2) = m ((c : Thread nD τ).loc main_arg2) :=
  (W21_keep m ρ c main_arg2 (by decide)).trans (W20_arg2 m ρ c)
theorem W22_arg2 (c : Dev nD) : W22 m ρ c (Proc.devRef .tc main_arg2) = m ((c : Thread nD τ).loc main_arg2) :=
  (W22_keep m ρ c main_arg2 (by decide)).trans (W21_arg2 m ρ c)
theorem W23_arg2 (c : Dev nD) : W23 m ρ c (Proc.devRef .tc main_arg2) = m ((c : Thread nD τ).loc main_arg2) :=
  (W23_keep m ρ c main_arg2 (by decide)).trans (W22_arg2 m ρ c)
theorem W24_arg2 (c : Dev nD) : W24 m ρ c (Proc.devRef .tc main_arg2) = m ((c : Thread nD τ).loc main_arg2) :=
  (W24_keep m ρ c main_arg2 (by decide)).trans (W23_arg2 m ρ c)
theorem W25_arg2 (c : Dev nD) : W25 m ρ c (Proc.devRef .tc main_arg2) = m ((c : Thread nD τ).loc main_arg2) :=
  (W25_keep m ρ c main_arg2 (by decide)).trans (W24_arg2 m ρ c)
theorem W26_arg2 (c : Dev nD) : W26 m ρ c (Proc.devRef .tc main_arg2) = m ((c : Thread nD τ).loc main_arg2) :=
  (W26_of_ne m ρ c main_arg2 (by decide)).trans (W25_arg2 m ρ c)
theorem W27_arg2 (c : Dev nD) : W27 m ρ c (Proc.devRef .tc main_arg2) = m ((c : Thread nD τ).loc main_arg2) :=
  (W27_keep m ρ c main_arg2 (by decide)).trans (W26_arg2 m ρ c)
theorem W28_arg2 (c : Dev nD) : W28 m ρ c (Proc.devRef .tc main_arg2) = m ((c : Thread nD τ).loc main_arg2) :=
  (W28_keep m ρ c main_arg2 (by decide)).trans (W27_arg2 m ρ c)
theorem W29_arg2 (c : Dev nD) : W29 m ρ c (Proc.devRef .tc main_arg2) = m ((c : Thread nD τ).loc main_arg2) :=
  (W29_keep m ρ c main_arg2 (by decide)).trans (W28_arg2 m ρ c)
theorem W30_arg2 (c : Dev nD) : W30 m ρ c (Proc.devRef .tc main_arg2) = m ((c : Thread nD τ).loc main_arg2) :=
  (W30_keep m ρ c main_arg2 (by decide)).trans (W29_arg2 m ρ c)
theorem W31_arg2 (c : Dev nD) : W31 m ρ c (Proc.devRef .tc main_arg2) = m ((c : Thread nD τ).loc main_arg2) :=
  (W31_keep m ρ c main_arg2 (by decide)).trans (W30_arg2 m ρ c)
theorem W32_arg2 (c : Dev nD) : W32 m ρ c (Proc.devRef .tc main_arg2) = m ((c : Thread nD τ).loc main_arg2) :=
  (W32_of_ne m ρ c main_arg2 (by decide)).trans (W31_arg2 m ρ c)
theorem W33_arg2 (c : Dev nD) : W33 m ρ c (Proc.devRef .tc main_arg2) = m ((c : Thread nD τ).loc main_arg2) :=
  (W33_keep m ρ c main_arg2 (by decide)).trans (W32_arg2 m ρ c)
theorem W34_arg2 (c : Dev nD) : W34 m ρ c (Proc.devRef .tc main_arg2) = m ((c : Thread nD τ).loc main_arg2) :=
  (W34_keep m ρ c main_arg2 (by decide)).trans (W33_arg2 m ρ c)
theorem W35_arg2 (c : Dev nD) : W35 m ρ c (Proc.devRef .tc main_arg2) = m ((c : Thread nD τ).loc main_arg2) :=
  (W35_keep m ρ c main_arg2 (by decide)).trans (W34_arg2 m ρ c)
theorem W36_arg2 (c : Dev nD) : W36 m ρ c (Proc.devRef .tc main_arg2) = m ((c : Thread nD τ).loc main_arg2) :=
  (W36_keep m ρ c main_arg2 (by decide)).trans (W35_arg2 m ρ c)
theorem W37_arg2 (c : Dev nD) : W37 m ρ c (Proc.devRef .tc main_arg2) = m ((c : Thread nD τ).loc main_arg2) :=
  (W37_keep m ρ c main_arg2 (by decide)).trans (W36_arg2 m ρ c)
theorem W38_arg2 (c : Dev nD) : W38 m ρ c (Proc.devRef .tc main_arg2) = m ((c : Thread nD τ).loc main_arg2) :=
  (W38_of_ne m ρ c main_arg2 (by decide)).trans (W37_arg2 m ρ c)
theorem W39_arg2 (c : Dev nD) : W39 m ρ c (Proc.devRef .tc main_arg2) = m ((c : Thread nD τ).loc main_arg2) :=
  (W39_keep m ρ c main_arg2 (by decide)).trans (W38_arg2 m ρ c)
theorem W40_arg2 (c : Dev nD) : W40 m ρ c (Proc.devRef .tc main_arg2) = m ((c : Thread nD τ).loc main_arg2) :=
  (W40_keep m ρ c main_arg2 (by decide)).trans (W39_arg2 m ρ c)
theorem W41_arg2 (c : Dev nD) : W41 m ρ c (Proc.devRef .tc main_arg2) = m ((c : Thread nD τ).loc main_arg2) :=
  (W41_keep m ρ c main_arg2 (by decide)).trans (W40_arg2 m ρ c)
theorem W42_arg2 (c : Dev nD) : W42 m ρ c (Proc.devRef .tc main_arg2) = m ((c : Thread nD τ).loc main_arg2) :=
  (W42_keep m ρ c main_arg2 (by decide)).trans (W41_arg2 m ρ c)
theorem W43_arg2 (c : Dev nD) : W43 m ρ c (Proc.devRef .tc main_arg2) = m ((c : Thread nD τ).loc main_arg2) :=
  (W43_keep m ρ c main_arg2 (by decide)).trans (W42_arg2 m ρ c)
theorem W44_arg2 (c : Dev nD) : W44 m ρ c (Proc.devRef .tc main_arg2) = m ((c : Thread nD τ).loc main_arg2) :=
  (W44_of_ne m ρ c main_arg2 (by decide)).trans (W43_arg2 m ρ c)
theorem W45_arg2 (c : Dev nD) : W45 m ρ c (Proc.devRef .tc main_arg2) = m ((c : Thread nD τ).loc main_arg2) :=
  (W45_keep m ρ c main_arg2 (by decide)).trans (W44_arg2 m ρ c)
theorem W46_arg2 (c : Dev nD) : W46 m ρ c (Proc.devRef .tc main_arg2) = m ((c : Thread nD τ).loc main_arg2) :=
  (W46_of_ne m ρ c main_arg2 (by decide)).trans (W45_arg2 m ρ c)
theorem W47_arg2 (c : Dev nD) : W47 m ρ c (Proc.devRef .tc main_arg2) = m ((c : Thread nD τ).loc main_arg2) :=
  (W47_keep m ρ c main_arg2 (by decide)).trans (W46_arg2 m ρ c)
theorem W48_arg2 (c : Dev nD) : W48 m ρ c (Proc.devRef .tc main_arg2) = m ((c : Thread nD τ).loc main_arg2) :=
  (W48_of_ne m ρ c main_arg2 (by decide)).trans (W47_arg2 m ρ c)
theorem W49_arg2 (c : Dev nD) : W49 m ρ c (Proc.devRef .tc main_arg2) = m ((c : Thread nD τ).loc main_arg2) :=
  (W49_keep m ρ c main_arg2 (by decide)).trans (W48_arg2 m ρ c)
theorem W50_arg2 (c : Dev nD) : W50 m ρ c (Proc.devRef .tc main_arg2) = m ((c : Thread nD τ).loc main_arg2) :=
  (W50_of_ne m ρ c main_arg2 (by decide)).trans (W49_arg2 m ρ c)
theorem W51_arg2 (c : Dev nD) : W51 m ρ c (Proc.devRef .tc main_arg2) = m ((c : Thread nD τ).loc main_arg2) :=
  (W51_keep m ρ c main_arg2 (by decide)).trans (W50_arg2 m ρ c)
theorem W52_arg2 (c : Dev nD) : W52 m ρ c (Proc.devRef .tc main_arg2) = m ((c : Thread nD τ).loc main_arg2) :=
  (W52_keep m ρ c main_arg2 (by decide)).trans (W51_arg2 m ρ c)
theorem W53_arg2 (c : Dev nD) : W53 m ρ c (Proc.devRef .tc main_arg2) = m ((c : Thread nD τ).loc main_arg2) :=
  (W53_keep m ρ c main_arg2 (by decide)).trans (W52_arg2 m ρ c)
theorem W54_arg2 (c : Dev nD) : W54 m ρ c (Proc.devRef .tc main_arg2) = m ((c : Thread nD τ).loc main_arg2) :=
  (W54_keep m ρ c main_arg2 (by decide)).trans (W53_arg2 m ρ c)
theorem W55_arg2 (c : Dev nD) : W55 m ρ c (Proc.devRef .tc main_arg2) = m ((c : Thread nD τ).loc main_arg2) :=
  (W55_keep m ρ c main_arg2 (by decide)).trans (W54_arg2 m ρ c)
theorem W56_arg2 (c : Dev nD) : W56 m ρ c (Proc.devRef .tc main_arg2) = m ((c : Thread nD τ).loc main_arg2) :=
  (W56_of_ne m ρ c main_arg2 (by decide)).trans (W55_arg2 m ρ c)
theorem W57_arg2 (c : Dev nD) : W57 m ρ c (Proc.devRef .tc main_arg2) = m ((c : Thread nD τ).loc main_arg2) :=
  (W57_keep m ρ c main_arg2 (by decide)).trans (W56_arg2 m ρ c)
theorem W58_arg2 (c : Dev nD) : W58 m ρ c (Proc.devRef .tc main_arg2) = m ((c : Thread nD τ).loc main_arg2) :=
  (W58_keep m ρ c main_arg2 (by decide)).trans (W57_arg2 m ρ c)
theorem W59_arg2 (c : Dev nD) : W59 m ρ c (Proc.devRef .tc main_arg2) = m ((c : Thread nD τ).loc main_arg2) :=
  (W59_keep m ρ c main_arg2 (by decide)).trans (W58_arg2 m ρ c)
theorem W60_arg2 (c : Dev nD) : W60 m ρ c (Proc.devRef .tc main_arg2) = m ((c : Thread nD τ).loc main_arg2) :=
  (W60_keep m ρ c main_arg2 (by decide)).trans (W59_arg2 m ρ c)
theorem W61_arg2 (c : Dev nD) : W61 m ρ c (Proc.devRef .tc main_arg2) = m ((c : Thread nD τ).loc main_arg2) :=
  (W61_keep m ρ c main_arg2 (by decide)).trans (W60_arg2 m ρ c)
theorem W62_arg2 (c : Dev nD) : W62 m ρ c (Proc.devRef .tc main_arg2) = m ((c : Thread nD τ).loc main_arg2) :=
  (W62_of_ne m ρ c main_arg2 (by decide)).trans (W61_arg2 m ρ c)
theorem W63_arg2 (c : Dev nD) : W63 m ρ c (Proc.devRef .tc main_arg2) = m ((c : Thread nD τ).loc main_arg2) :=
  (W63_keep m ρ c main_arg2 (by decide)).trans (W62_arg2 m ρ c)
theorem W64_arg2 (c : Dev nD) : W64 m ρ c (Proc.devRef .tc main_arg2) = m ((c : Thread nD τ).loc main_arg2) :=
  (W64_keep m ρ c main_arg2 (by decide)).trans (W63_arg2 m ρ c)
theorem W65_arg2 (c : Dev nD) : W65 m ρ c (Proc.devRef .tc main_arg2) = m ((c : Thread nD τ).loc main_arg2) :=
  (W65_keep m ρ c main_arg2 (by decide)).trans (W64_arg2 m ρ c)
theorem W66_arg2 (c : Dev nD) : W66 m ρ c (Proc.devRef .tc main_arg2) = m ((c : Thread nD τ).loc main_arg2) :=
  (W66_keep m ρ c main_arg2 (by decide)).trans (W65_arg2 m ρ c)
theorem W67_arg2 (c : Dev nD) : W67 m ρ c (Proc.devRef .tc main_arg2) = m ((c : Thread nD τ).loc main_arg2) :=
  (W67_keep m ρ c main_arg2 (by decide)).trans (W66_arg2 m ρ c)
theorem W68_arg2 (c : Dev nD) : W68 m ρ c (Proc.devRef .tc main_arg2) = m ((c : Thread nD τ).loc main_arg2) :=
  (W68_of_ne m ρ c main_arg2 (by decide)).trans (W67_arg2 m ρ c)
theorem W69_arg2 (c : Dev nD) : W69 m ρ c (Proc.devRef .tc main_arg2) = m ((c : Thread nD τ).loc main_arg2) :=
  (W69_keep m ρ c main_arg2 (by decide)).trans (W68_arg2 m ρ c)
theorem W70_arg2 (c : Dev nD) : W70 m ρ c (Proc.devRef .tc main_arg2) = m ((c : Thread nD τ).loc main_arg2) :=
  (W70_keep m ρ c main_arg2 (by decide)).trans (W69_arg2 m ρ c)
theorem W71_arg2 (c : Dev nD) : W71 m ρ c (Proc.devRef .tc main_arg2) = m ((c : Thread nD τ).loc main_arg2) :=
  (W71_keep m ρ c main_arg2 (by decide)).trans (W70_arg2 m ρ c)
theorem W72_arg2 (c : Dev nD) : W72 m ρ c (Proc.devRef .tc main_arg2) = m ((c : Thread nD τ).loc main_arg2) :=
  (W72_keep m ρ c main_arg2 (by decide)).trans (W71_arg2 m ρ c)
theorem W73_arg2 (c : Dev nD) : W73 m ρ c (Proc.devRef .tc main_arg2) = m ((c : Thread nD τ).loc main_arg2) :=
  (W73_keep m ρ c main_arg2 (by decide)).trans (W72_arg2 m ρ c)
theorem W74_arg2 (c : Dev nD) : W74 m ρ c (Proc.devRef .tc main_arg2) = m ((c : Thread nD τ).loc main_arg2) :=
  (W74_of_ne m ρ c main_arg2 (by decide)).trans (W73_arg2 m ρ c)
theorem W75_arg2 (c : Dev nD) : W75 m ρ c (Proc.devRef .tc main_arg2) = m ((c : Thread nD τ).loc main_arg2) :=
  (W75_keep m ρ c main_arg2 (by decide)).trans (W74_arg2 m ρ c)
theorem W76_arg2 (c : Dev nD) : W76 m ρ c (Proc.devRef .tc main_arg2) = m ((c : Thread nD τ).loc main_arg2) :=
  (W76_keep m ρ c main_arg2 (by decide)).trans (W75_arg2 m ρ c)
theorem W77_arg2 (c : Dev nD) : W77 m ρ c (Proc.devRef .tc main_arg2) = m ((c : Thread nD τ).loc main_arg2) :=
  (W77_keep m ρ c main_arg2 (by decide)).trans (W76_arg2 m ρ c)
theorem W78_arg2 (c : Dev nD) : W78 m ρ c (Proc.devRef .tc main_arg2) = m ((c : Thread nD τ).loc main_arg2) :=
  (W78_keep m ρ c main_arg2 (by decide)).trans (W77_arg2 m ρ c)
theorem W79_arg2 (c : Dev nD) : W79 m ρ c (Proc.devRef .tc main_arg2) = m ((c : Thread nD τ).loc main_arg2) :=
  (W79_keep m ρ c main_arg2 (by decide)).trans (W78_arg2 m ρ c)
theorem W80_arg2 (c : Dev nD) : W80 m ρ c (Proc.devRef .tc main_arg2) = m ((c : Thread nD τ).loc main_arg2) :=
  (W80_of_ne m ρ c main_arg2 (by decide)).trans (W79_arg2 m ρ c)
theorem W81_arg2 (c : Dev nD) : W81 m ρ c (Proc.devRef .tc main_arg2) = m ((c : Thread nD τ).loc main_arg2) :=
  (W81_keep m ρ c main_arg2 (by decide)).trans (W80_arg2 m ρ c)
theorem W82_arg2 (c : Dev nD) : W82 m ρ c (Proc.devRef .tc main_arg2) = m ((c : Thread nD τ).loc main_arg2) :=
  (W82_keep m ρ c main_arg2 (by decide)).trans (W81_arg2 m ρ c)
theorem W83_arg2 (c : Dev nD) : W83 m ρ c (Proc.devRef .tc main_arg2) = m ((c : Thread nD τ).loc main_arg2) :=
  (W83_keep m ρ c main_arg2 (by decide)).trans (W82_arg2 m ρ c)
theorem W84_arg2 (c : Dev nD) : W84 m ρ c (Proc.devRef .tc main_arg2) = m ((c : Thread nD τ).loc main_arg2) :=
  (W84_keep m ρ c main_arg2 (by decide)).trans (W83_arg2 m ρ c)
theorem W85_arg2 (c : Dev nD) : W85 m ρ c (Proc.devRef .tc main_arg2) = m ((c : Thread nD τ).loc main_arg2) :=
  (W85_keep m ρ c main_arg2 (by decide)).trans (W84_arg2 m ρ c)
theorem W86_arg2 (c : Dev nD) : W86 m ρ c (Proc.devRef .tc main_arg2) = m ((c : Thread nD τ).loc main_arg2) :=
  (W86_of_ne m ρ c main_arg2 (by decide)).trans (W85_arg2 m ρ c)
theorem W87_arg2 (c : Dev nD) : W87 m ρ c (Proc.devRef .tc main_arg2) = m ((c : Thread nD τ).loc main_arg2) :=
  (W87_keep m ρ c main_arg2 (by decide)).trans (W86_arg2 m ρ c)
theorem W88_arg2 (c : Dev nD) : W88 m ρ c (Proc.devRef .tc main_arg2) = m ((c : Thread nD τ).loc main_arg2) :=
  (W88_of_ne m ρ c main_arg2 (by decide)).trans (W87_arg2 m ρ c)
theorem W89_arg2 (c : Dev nD) : W89 m ρ c (Proc.devRef .tc main_arg2) = m ((c : Thread nD τ).loc main_arg2) :=
  (W89_keep m ρ c main_arg2 (by decide)).trans (W88_arg2 m ρ c)
theorem W90_arg2 (c : Dev nD) : W90 m ρ c (Proc.devRef .tc main_arg2) = m ((c : Thread nD τ).loc main_arg2) :=
  (W90_of_ne m ρ c main_arg2 (by decide)).trans (W89_arg2 m ρ c)
theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (W1_keep m ρ c main_arg3 (by decide)).trans (W0_arg3 m ρ c)
theorem W2_arg3 (c : Dev nD) : W2 m ρ c (Proc.devRef .tc main_arg3) = m ((c : Thread nD τ).loc main_arg3) :=
  (W2_in1 m ρ c).trans (W1_arg3 m ρ c)
theorem W3_arg3 (c : Dev nD) : W3 m ρ c (Proc.devRef .tc main_arg3) = m ((c : Thread nD τ).loc main_arg3) :=
  (W3_keep m ρ c main_arg3 (by decide)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) :=
  (W5_keep m ρ c main_arg3 (by decide)).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (W7_keep m ρ c main_arg3 (by decide)).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)
theorem W9_arg3 (c : Dev nD) : W9 m ρ c (Proc.devRef .tc main_arg3) = m ((c : Thread nD τ).loc main_arg3) :=
  (W9_keep m ρ c main_arg3 (by decide)).trans (W8_arg3 m ρ c)
theorem W10_arg3 (c : Dev nD) : W10 m ρ c (Proc.devRef .tc main_arg3) = m ((c : Thread nD τ).loc main_arg3) :=
  (W10_keep m ρ c main_arg3 (by decide)).trans (W9_arg3 m ρ c)
theorem W11_arg3 (c : Dev nD) : W11 m ρ c (Proc.devRef .tc main_arg3) = m ((c : Thread nD τ).loc main_arg3) :=
  (W11_keep m ρ c main_arg3 (by decide)).trans (W10_arg3 m ρ c)
theorem W12_arg3 (c : Dev nD) : W12 m ρ c (Proc.devRef .tc main_arg3) = m ((c : Thread nD τ).loc main_arg3) :=
  (W12_keep m ρ c main_arg3 (by decide)).trans (W11_arg3 m ρ c)
theorem W13_arg3 (c : Dev nD) : W13 m ρ c (Proc.devRef .tc main_arg3) = m ((c : Thread nD τ).loc main_arg3) :=
  (W13_keep m ρ c main_arg3 (by decide)).trans (W12_arg3 m ρ c)
theorem W14_arg3 (c : Dev nD) : W14 m ρ c (Proc.devRef .tc main_arg3) = m ((c : Thread nD τ).loc main_arg3) :=
  (W14_of_ne m ρ c main_arg3 (by decide)).trans (W13_arg3 m ρ c)
theorem W15_arg3 (c : Dev nD) : W15 m ρ c (Proc.devRef .tc main_arg3) = m ((c : Thread nD τ).loc main_arg3) :=
  (W15_keep m ρ c main_arg3 (by decide)).trans (W14_arg3 m ρ c)
theorem W16_arg3 (c : Dev nD) : W16 m ρ c (Proc.devRef .tc main_arg3) = m ((c : Thread nD τ).loc main_arg3) :=
  (W16_keep m ρ c main_arg3 (by decide)).trans (W15_arg3 m ρ c)
theorem W17_arg3 (c : Dev nD) : W17 m ρ c (Proc.devRef .tc main_arg3) = m ((c : Thread nD τ).loc main_arg3) :=
  (W17_keep m ρ c main_arg3 (by decide)).trans (W16_arg3 m ρ c)
theorem W18_arg3 (c : Dev nD) : W18 m ρ c (Proc.devRef .tc main_arg3) = m ((c : Thread nD τ).loc main_arg3) :=
  (W18_keep m ρ c main_arg3 (by decide)).trans (W17_arg3 m ρ c)
theorem W19_arg3 (c : Dev nD) : W19 m ρ c (Proc.devRef .tc main_arg3) = m ((c : Thread nD τ).loc main_arg3) :=
  (W19_keep m ρ c main_arg3 (by decide)).trans (W18_arg3 m ρ c)
theorem W20_arg3 (c : Dev nD) : W20 m ρ c (Proc.devRef .tc main_arg3) = m ((c : Thread nD τ).loc main_arg3) :=
  (W20_of_ne m ρ c main_arg3 (by decide)).trans (W19_arg3 m ρ c)
theorem W21_arg3 (c : Dev nD) : W21 m ρ c (Proc.devRef .tc main_arg3) = m ((c : Thread nD τ).loc main_arg3) :=
  (W21_keep m ρ c main_arg3 (by decide)).trans (W20_arg3 m ρ c)
theorem W22_arg3 (c : Dev nD) : W22 m ρ c (Proc.devRef .tc main_arg3) = m ((c : Thread nD τ).loc main_arg3) :=
  (W22_keep m ρ c main_arg3 (by decide)).trans (W21_arg3 m ρ c)
theorem W23_arg3 (c : Dev nD) : W23 m ρ c (Proc.devRef .tc main_arg3) = m ((c : Thread nD τ).loc main_arg3) :=
  (W23_keep m ρ c main_arg3 (by decide)).trans (W22_arg3 m ρ c)
theorem W24_arg3 (c : Dev nD) : W24 m ρ c (Proc.devRef .tc main_arg3) = m ((c : Thread nD τ).loc main_arg3) :=
  (W24_keep m ρ c main_arg3 (by decide)).trans (W23_arg3 m ρ c)
theorem W25_arg3 (c : Dev nD) : W25 m ρ c (Proc.devRef .tc main_arg3) = m ((c : Thread nD τ).loc main_arg3) :=
  (W25_keep m ρ c main_arg3 (by decide)).trans (W24_arg3 m ρ c)
theorem W26_arg3 (c : Dev nD) : W26 m ρ c (Proc.devRef .tc main_arg3) = m ((c : Thread nD τ).loc main_arg3) :=
  (W26_of_ne m ρ c main_arg3 (by decide)).trans (W25_arg3 m ρ c)
theorem W27_arg3 (c : Dev nD) : W27 m ρ c (Proc.devRef .tc main_arg3) = m ((c : Thread nD τ).loc main_arg3) :=
  (W27_keep m ρ c main_arg3 (by decide)).trans (W26_arg3 m ρ c)
theorem W28_arg3 (c : Dev nD) : W28 m ρ c (Proc.devRef .tc main_arg3) = m ((c : Thread nD τ).loc main_arg3) :=
  (W28_keep m ρ c main_arg3 (by decide)).trans (W27_arg3 m ρ c)
theorem W29_arg3 (c : Dev nD) : W29 m ρ c (Proc.devRef .tc main_arg3) = m ((c : Thread nD τ).loc main_arg3) :=
  (W29_keep m ρ c main_arg3 (by decide)).trans (W28_arg3 m ρ c)
theorem W30_arg3 (c : Dev nD) : W30 m ρ c (Proc.devRef .tc main_arg3) = m ((c : Thread nD τ).loc main_arg3) :=
  (W30_keep m ρ c main_arg3 (by decide)).trans (W29_arg3 m ρ c)
theorem W31_arg3 (c : Dev nD) : W31 m ρ c (Proc.devRef .tc main_arg3) = m ((c : Thread nD τ).loc main_arg3) :=
  (W31_keep m ρ c main_arg3 (by decide)).trans (W30_arg3 m ρ c)
theorem W32_arg3 (c : Dev nD) : W32 m ρ c (Proc.devRef .tc main_arg3) = m ((c : Thread nD τ).loc main_arg3) :=
  (W32_of_ne m ρ c main_arg3 (by decide)).trans (W31_arg3 m ρ c)
theorem W33_arg3 (c : Dev nD) : W33 m ρ c (Proc.devRef .tc main_arg3) = m ((c : Thread nD τ).loc main_arg3) :=
  (W33_keep m ρ c main_arg3 (by decide)).trans (W32_arg3 m ρ c)
theorem W34_arg3 (c : Dev nD) : W34 m ρ c (Proc.devRef .tc main_arg3) = m ((c : Thread nD τ).loc main_arg3) :=
  (W34_keep m ρ c main_arg3 (by decide)).trans (W33_arg3 m ρ c)
theorem W35_arg3 (c : Dev nD) : W35 m ρ c (Proc.devRef .tc main_arg3) = m ((c : Thread nD τ).loc main_arg3) :=
  (W35_keep m ρ c main_arg3 (by decide)).trans (W34_arg3 m ρ c)
theorem W36_arg3 (c : Dev nD) : W36 m ρ c (Proc.devRef .tc main_arg3) = m ((c : Thread nD τ).loc main_arg3) :=
  (W36_keep m ρ c main_arg3 (by decide)).trans (W35_arg3 m ρ c)
theorem W37_arg3 (c : Dev nD) : W37 m ρ c (Proc.devRef .tc main_arg3) = m ((c : Thread nD τ).loc main_arg3) :=
  (W37_keep m ρ c main_arg3 (by decide)).trans (W36_arg3 m ρ c)
theorem W38_arg3 (c : Dev nD) : W38 m ρ c (Proc.devRef .tc main_arg3) = m ((c : Thread nD τ).loc main_arg3) :=
  (W38_of_ne m ρ c main_arg3 (by decide)).trans (W37_arg3 m ρ c)
theorem W39_arg3 (c : Dev nD) : W39 m ρ c (Proc.devRef .tc main_arg3) = m ((c : Thread nD τ).loc main_arg3) :=
  (W39_keep m ρ c main_arg3 (by decide)).trans (W38_arg3 m ρ c)
theorem W40_arg3 (c : Dev nD) : W40 m ρ c (Proc.devRef .tc main_arg3) = m ((c : Thread nD τ).loc main_arg3) :=
  (W40_keep m ρ c main_arg3 (by decide)).trans (W39_arg3 m ρ c)
theorem W41_arg3 (c : Dev nD) : W41 m ρ c (Proc.devRef .tc main_arg3) = m ((c : Thread nD τ).loc main_arg3) :=
  (W41_keep m ρ c main_arg3 (by decide)).trans (W40_arg3 m ρ c)
theorem W42_arg3 (c : Dev nD) : W42 m ρ c (Proc.devRef .tc main_arg3) = m ((c : Thread nD τ).loc main_arg3) :=
  (W42_keep m ρ c main_arg3 (by decide)).trans (W41_arg3 m ρ c)
theorem W43_arg3 (c : Dev nD) : W43 m ρ c (Proc.devRef .tc main_arg3) = m ((c : Thread nD τ).loc main_arg3) :=
  (W43_keep m ρ c main_arg3 (by decide)).trans (W42_arg3 m ρ c)
theorem W44_arg3 (c : Dev nD) : W44 m ρ c (Proc.devRef .tc main_arg3) = m ((c : Thread nD τ).loc main_arg3) :=
  (W44_of_ne m ρ c main_arg3 (by decide)).trans (W43_arg3 m ρ c)
theorem W45_arg3 (c : Dev nD) : W45 m ρ c (Proc.devRef .tc main_arg3) = m ((c : Thread nD τ).loc main_arg3) :=
  (W45_keep m ρ c main_arg3 (by decide)).trans (W44_arg3 m ρ c)
theorem W46_arg3 (c : Dev nD) : W46 m ρ c (Proc.devRef .tc main_arg3) = m ((c : Thread nD τ).loc main_arg3) :=
  (W46_of_ne m ρ c main_arg3 (by decide)).trans (W45_arg3 m ρ c)
theorem W47_arg3 (c : Dev nD) : W47 m ρ c (Proc.devRef .tc main_arg3) = m ((c : Thread nD τ).loc main_arg3) :=
  (W47_keep m ρ c main_arg3 (by decide)).trans (W46_arg3 m ρ c)
theorem W48_arg3 (c : Dev nD) : W48 m ρ c (Proc.devRef .tc main_arg3) = m ((c : Thread nD τ).loc main_arg3) :=
  (W48_of_ne m ρ c main_arg3 (by decide)).trans (W47_arg3 m ρ c)
theorem W49_arg3 (c : Dev nD) : W49 m ρ c (Proc.devRef .tc main_arg3) = m ((c : Thread nD τ).loc main_arg3) :=
  (W49_keep m ρ c main_arg3 (by decide)).trans (W48_arg3 m ρ c)
theorem W50_arg3 (c : Dev nD) : W50 m ρ c (Proc.devRef .tc main_arg3) = m ((c : Thread nD τ).loc main_arg3) :=
  (W50_of_ne m ρ c main_arg3 (by decide)).trans (W49_arg3 m ρ c)
theorem W51_arg3 (c : Dev nD) : W51 m ρ c (Proc.devRef .tc main_arg3) = m ((c : Thread nD τ).loc main_arg3) :=
  (W51_keep m ρ c main_arg3 (by decide)).trans (W50_arg3 m ρ c)
theorem W52_arg3 (c : Dev nD) : W52 m ρ c (Proc.devRef .tc main_arg3) = m ((c : Thread nD τ).loc main_arg3) :=
  (W52_keep m ρ c main_arg3 (by decide)).trans (W51_arg3 m ρ c)
theorem W53_arg3 (c : Dev nD) : W53 m ρ c (Proc.devRef .tc main_arg3) = m ((c : Thread nD τ).loc main_arg3) :=
  (W53_keep m ρ c main_arg3 (by decide)).trans (W52_arg3 m ρ c)
theorem W54_arg3 (c : Dev nD) : W54 m ρ c (Proc.devRef .tc main_arg3) = m ((c : Thread nD τ).loc main_arg3) :=
  (W54_keep m ρ c main_arg3 (by decide)).trans (W53_arg3 m ρ c)
theorem W55_arg3 (c : Dev nD) : W55 m ρ c (Proc.devRef .tc main_arg3) = m ((c : Thread nD τ).loc main_arg3) :=
  (W55_keep m ρ c main_arg3 (by decide)).trans (W54_arg3 m ρ c)
theorem W56_arg3 (c : Dev nD) : W56 m ρ c (Proc.devRef .tc main_arg3) = m ((c : Thread nD τ).loc main_arg3) :=
  (W56_of_ne m ρ c main_arg3 (by decide)).trans (W55_arg3 m ρ c)
theorem W57_arg3 (c : Dev nD) : W57 m ρ c (Proc.devRef .tc main_arg3) = m ((c : Thread nD τ).loc main_arg3) :=
  (W57_keep m ρ c main_arg3 (by decide)).trans (W56_arg3 m ρ c)
theorem W58_arg3 (c : Dev nD) : W58 m ρ c (Proc.devRef .tc main_arg3) = m ((c : Thread nD τ).loc main_arg3) :=
  (W58_keep m ρ c main_arg3 (by decide)).trans (W57_arg3 m ρ c)
theorem W59_arg3 (c : Dev nD) : W59 m ρ c (Proc.devRef .tc main_arg3) = m ((c : Thread nD τ).loc main_arg3) :=
  (W59_keep m ρ c main_arg3 (by decide)).trans (W58_arg3 m ρ c)
theorem W60_arg3 (c : Dev nD) : W60 m ρ c (Proc.devRef .tc main_arg3) = m ((c : Thread nD τ).loc main_arg3) :=
  (W60_keep m ρ c main_arg3 (by decide)).trans (W59_arg3 m ρ c)
theorem W61_arg3 (c : Dev nD) : W61 m ρ c (Proc.devRef .tc main_arg3) = m ((c : Thread nD τ).loc main_arg3) :=
  (W61_keep m ρ c main_arg3 (by decide)).trans (W60_arg3 m ρ c)
theorem W62_arg3 (c : Dev nD) : W62 m ρ c (Proc.devRef .tc main_arg3) = m ((c : Thread nD τ).loc main_arg3) :=
  (W62_of_ne m ρ c main_arg3 (by decide)).trans (W61_arg3 m ρ c)
theorem W63_arg3 (c : Dev nD) : W63 m ρ c (Proc.devRef .tc main_arg3) = m ((c : Thread nD τ).loc main_arg3) :=
  (W63_keep m ρ c main_arg3 (by decide)).trans (W62_arg3 m ρ c)
theorem W64_arg3 (c : Dev nD) : W64 m ρ c (Proc.devRef .tc main_arg3) = m ((c : Thread nD τ).loc main_arg3) :=
  (W64_keep m ρ c main_arg3 (by decide)).trans (W63_arg3 m ρ c)
theorem W65_arg3 (c : Dev nD) : W65 m ρ c (Proc.devRef .tc main_arg3) = m ((c : Thread nD τ).loc main_arg3) :=
  (W65_keep m ρ c main_arg3 (by decide)).trans (W64_arg3 m ρ c)
theorem W66_arg3 (c : Dev nD) : W66 m ρ c (Proc.devRef .tc main_arg3) = m ((c : Thread nD τ).loc main_arg3) :=
  (W66_keep m ρ c main_arg3 (by decide)).trans (W65_arg3 m ρ c)
theorem W67_arg3 (c : Dev nD) : W67 m ρ c (Proc.devRef .tc main_arg3) = m ((c : Thread nD τ).loc main_arg3) :=
  (W67_keep m ρ c main_arg3 (by decide)).trans (W66_arg3 m ρ c)
theorem W68_arg3 (c : Dev nD) : W68 m ρ c (Proc.devRef .tc main_arg3) = m ((c : Thread nD τ).loc main_arg3) :=
  (W68_of_ne m ρ c main_arg3 (by decide)).trans (W67_arg3 m ρ c)
theorem W69_arg3 (c : Dev nD) : W69 m ρ c (Proc.devRef .tc main_arg3) = m ((c : Thread nD τ).loc main_arg3) :=
  (W69_keep m ρ c main_arg3 (by decide)).trans (W68_arg3 m ρ c)
theorem W70_arg3 (c : Dev nD) : W70 m ρ c (Proc.devRef .tc main_arg3) = m ((c : Thread nD τ).loc main_arg3) :=
  (W70_keep m ρ c main_arg3 (by decide)).trans (W69_arg3 m ρ c)
theorem W71_arg3 (c : Dev nD) : W71 m ρ c (Proc.devRef .tc main_arg3) = m ((c : Thread nD τ).loc main_arg3) :=
  (W71_keep m ρ c main_arg3 (by decide)).trans (W70_arg3 m ρ c)
theorem W72_arg3 (c : Dev nD) : W72 m ρ c (Proc.devRef .tc main_arg3) = m ((c : Thread nD τ).loc main_arg3) :=
  (W72_keep m ρ c main_arg3 (by decide)).trans (W71_arg3 m ρ c)
theorem W73_arg3 (c : Dev nD) : W73 m ρ c (Proc.devRef .tc main_arg3) = m ((c : Thread nD τ).loc main_arg3) :=
  (W73_keep m ρ c main_arg3 (by decide)).trans (W72_arg3 m ρ c)
theorem W74_arg3 (c : Dev nD) : W74 m ρ c (Proc.devRef .tc main_arg3) = m ((c : Thread nD τ).loc main_arg3) :=
  (W74_of_ne m ρ c main_arg3 (by decide)).trans (W73_arg3 m ρ c)
theorem W75_arg3 (c : Dev nD) : W75 m ρ c (Proc.devRef .tc main_arg3) = m ((c : Thread nD τ).loc main_arg3) :=
  (W75_keep m ρ c main_arg3 (by decide)).trans (W74_arg3 m ρ c)
theorem W76_arg3 (c : Dev nD) : W76 m ρ c (Proc.devRef .tc main_arg3) = m ((c : Thread nD τ).loc main_arg3) :=
  (W76_keep m ρ c main_arg3 (by decide)).trans (W75_arg3 m ρ c)
theorem W77_arg3 (c : Dev nD) : W77 m ρ c (Proc.devRef .tc main_arg3) = m ((c : Thread nD τ).loc main_arg3) :=
  (W77_keep m ρ c main_arg3 (by decide)).trans (W76_arg3 m ρ c)
theorem W78_arg3 (c : Dev nD) : W78 m ρ c (Proc.devRef .tc main_arg3) = m ((c : Thread nD τ).loc main_arg3) :=
  (W78_keep m ρ c main_arg3 (by decide)).trans (W77_arg3 m ρ c)
theorem W79_arg3 (c : Dev nD) : W79 m ρ c (Proc.devRef .tc main_arg3) = m ((c : Thread nD τ).loc main_arg3) :=
  (W79_keep m ρ c main_arg3 (by decide)).trans (W78_arg3 m ρ c)
theorem W80_arg3 (c : Dev nD) : W80 m ρ c (Proc.devRef .tc main_arg3) = m ((c : Thread nD τ).loc main_arg3) :=
  (W80_of_ne m ρ c main_arg3 (by decide)).trans (W79_arg3 m ρ c)
theorem W81_arg3 (c : Dev nD) : W81 m ρ c (Proc.devRef .tc main_arg3) = m ((c : Thread nD τ).loc main_arg3) :=
  (W81_keep m ρ c main_arg3 (by decide)).trans (W80_arg3 m ρ c)
theorem W82_arg3 (c : Dev nD) : W82 m ρ c (Proc.devRef .tc main_arg3) = m ((c : Thread nD τ).loc main_arg3) :=
  (W82_keep m ρ c main_arg3 (by decide)).trans (W81_arg3 m ρ c)
theorem W83_arg3 (c : Dev nD) : W83 m ρ c (Proc.devRef .tc main_arg3) = m ((c : Thread nD τ).loc main_arg3) :=
  (W83_keep m ρ c main_arg3 (by decide)).trans (W82_arg3 m ρ c)
theorem W84_arg3 (c : Dev nD) : W84 m ρ c (Proc.devRef .tc main_arg3) = m ((c : Thread nD τ).loc main_arg3) :=
  (W84_keep m ρ c main_arg3 (by decide)).trans (W83_arg3 m ρ c)
theorem W85_arg3 (c : Dev nD) : W85 m ρ c (Proc.devRef .tc main_arg3) = m ((c : Thread nD τ).loc main_arg3) :=
  (W85_keep m ρ c main_arg3 (by decide)).trans (W84_arg3 m ρ c)
theorem W86_arg3 (c : Dev nD) : W86 m ρ c (Proc.devRef .tc main_arg3) = m ((c : Thread nD τ).loc main_arg3) :=
  (W86_of_ne m ρ c main_arg3 (by decide)).trans (W85_arg3 m ρ c)
theorem W87_arg3 (c : Dev nD) : W87 m ρ c (Proc.devRef .tc main_arg3) = m ((c : Thread nD τ).loc main_arg3) :=
  (W87_keep m ρ c main_arg3 (by decide)).trans (W86_arg3 m ρ c)
theorem W88_arg3 (c : Dev nD) : W88 m ρ c (Proc.devRef .tc main_arg3) = m ((c : Thread nD τ).loc main_arg3) :=
  (W88_of_ne m ρ c main_arg3 (by decide)).trans (W87_arg3 m ρ c)
theorem W89_arg3 (c : Dev nD) : W89 m ρ c (Proc.devRef .tc main_arg3) = m ((c : Thread nD τ).loc main_arg3) :=
  (W89_keep m ρ c main_arg3 (by decide)).trans (W88_arg3 m ρ c)
theorem W90_arg3 (c : Dev nD) : W90 m ρ c (Proc.devRef .tc main_arg3) = m ((c : Thread nD τ).loc main_arg3) :=
  (W90_of_ne m ρ c main_arg3 (by decide)).trans (W89_arg3 m ρ c)
theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (W1_keep m ρ c main_arg4 (by decide)).trans (W0_arg4 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (W3_keep m ρ c main_arg4 (by decide)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (W5_keep m ρ c main_arg4 (by decide)).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W7_arg4 (c : Dev nD) : W7 m ρ c (Proc.devRef .tc main_arg4) = m ((c : Thread nD τ).loc main_arg4) :=
  (W7_keep m ρ c main_arg4 (by decide)).trans (W6_arg4 m ρ c)
theorem W8_arg4 (c : Dev nD) : W8 m ρ c (Proc.devRef .tc main_arg4) = m ((c : Thread nD τ).loc main_arg4) :=
  (W8_of_ne m ρ c main_arg4 (by decide)).trans (W7_arg4 m ρ c)
theorem W9_arg4 (c : Dev nD) : W9 m ρ c (Proc.devRef .tc main_arg4) = m ((c : Thread nD τ).loc main_arg4) :=
  (W9_keep m ρ c main_arg4 (by decide)).trans (W8_arg4 m ρ c)
theorem W10_arg4 (c : Dev nD) : W10 m ρ c (Proc.devRef .tc main_arg4) = m ((c : Thread nD τ).loc main_arg4) :=
  (W10_keep m ρ c main_arg4 (by decide)).trans (W9_arg4 m ρ c)
theorem W11_arg4 (c : Dev nD) : W11 m ρ c (Proc.devRef .tc main_arg4) = m ((c : Thread nD τ).loc main_arg4) :=
  (W11_keep m ρ c main_arg4 (by decide)).trans (W10_arg4 m ρ c)
theorem W12_arg4 (c : Dev nD) : W12 m ρ c (Proc.devRef .tc main_arg4) = m ((c : Thread nD τ).loc main_arg4) :=
  (W12_keep m ρ c main_arg4 (by decide)).trans (W11_arg4 m ρ c)
theorem W13_arg4 (c : Dev nD) : W13 m ρ c (Proc.devRef .tc main_arg4) = m ((c : Thread nD τ).loc main_arg4) :=
  (W13_keep m ρ c main_arg4 (by decide)).trans (W12_arg4 m ρ c)
theorem W14_arg4 (c : Dev nD) : W14 m ρ c (Proc.devRef .tc main_arg4) = m ((c : Thread nD τ).loc main_arg4) :=
  (W14_of_ne m ρ c main_arg4 (by decide)).trans (W13_arg4 m ρ c)
theorem W15_arg4 (c : Dev nD) : W15 m ρ c (Proc.devRef .tc main_arg4) = m ((c : Thread nD τ).loc main_arg4) :=
  (W15_keep m ρ c main_arg4 (by decide)).trans (W14_arg4 m ρ c)
theorem W16_arg4 (c : Dev nD) : W16 m ρ c (Proc.devRef .tc main_arg4) = m ((c : Thread nD τ).loc main_arg4) :=
  (W16_keep m ρ c main_arg4 (by decide)).trans (W15_arg4 m ρ c)
theorem W17_arg4 (c : Dev nD) : W17 m ρ c (Proc.devRef .tc main_arg4) = m ((c : Thread nD τ).loc main_arg4) :=
  (W17_keep m ρ c main_arg4 (by decide)).trans (W16_arg4 m ρ c)
theorem W18_arg4 (c : Dev nD) : W18 m ρ c (Proc.devRef .tc main_arg4) = m ((c : Thread nD τ).loc main_arg4) :=
  (W18_keep m ρ c main_arg4 (by decide)).trans (W17_arg4 m ρ c)
theorem W19_arg4 (c : Dev nD) : W19 m ρ c (Proc.devRef .tc main_arg4) = m ((c : Thread nD τ).loc main_arg4) :=
  (W19_keep m ρ c main_arg4 (by decide)).trans (W18_arg4 m ρ c)
theorem W20_arg4 (c : Dev nD) : W20 m ρ c (Proc.devRef .tc main_arg4) = m ((c : Thread nD τ).loc main_arg4) :=
  (W20_of_ne m ρ c main_arg4 (by decide)).trans (W19_arg4 m ρ c)
theorem W21_arg4 (c : Dev nD) : W21 m ρ c (Proc.devRef .tc main_arg4) = m ((c : Thread nD τ).loc main_arg4) :=
  (W21_keep m ρ c main_arg4 (by decide)).trans (W20_arg4 m ρ c)
theorem W22_arg4 (c : Dev nD) : W22 m ρ c (Proc.devRef .tc main_arg4) = m ((c : Thread nD τ).loc main_arg4) :=
  (W22_keep m ρ c main_arg4 (by decide)).trans (W21_arg4 m ρ c)
theorem W23_arg4 (c : Dev nD) : W23 m ρ c (Proc.devRef .tc main_arg4) = m ((c : Thread nD τ).loc main_arg4) :=
  (W23_keep m ρ c main_arg4 (by decide)).trans (W22_arg4 m ρ c)
theorem W24_arg4 (c : Dev nD) : W24 m ρ c (Proc.devRef .tc main_arg4) = m ((c : Thread nD τ).loc main_arg4) :=
  (W24_keep m ρ c main_arg4 (by decide)).trans (W23_arg4 m ρ c)
theorem W25_arg4 (c : Dev nD) : W25 m ρ c (Proc.devRef .tc main_arg4) = m ((c : Thread nD τ).loc main_arg4) :=
  (W25_keep m ρ c main_arg4 (by decide)).trans (W24_arg4 m ρ c)
theorem W26_arg4 (c : Dev nD) : W26 m ρ c (Proc.devRef .tc main_arg4) = m ((c : Thread nD τ).loc main_arg4) :=
  (W26_of_ne m ρ c main_arg4 (by decide)).trans (W25_arg4 m ρ c)
theorem W27_arg4 (c : Dev nD) : W27 m ρ c (Proc.devRef .tc main_arg4) = m ((c : Thread nD τ).loc main_arg4) :=
  (W27_keep m ρ c main_arg4 (by decide)).trans (W26_arg4 m ρ c)
theorem W28_arg4 (c : Dev nD) : W28 m ρ c (Proc.devRef .tc main_arg4) = m ((c : Thread nD τ).loc main_arg4) :=
  (W28_keep m ρ c main_arg4 (by decide)).trans (W27_arg4 m ρ c)
theorem W29_arg4 (c : Dev nD) : W29 m ρ c (Proc.devRef .tc main_arg4) = m ((c : Thread nD τ).loc main_arg4) :=
  (W29_keep m ρ c main_arg4 (by decide)).trans (W28_arg4 m ρ c)
theorem W30_arg4 (c : Dev nD) : W30 m ρ c (Proc.devRef .tc main_arg4) = m ((c : Thread nD τ).loc main_arg4) :=
  (W30_keep m ρ c main_arg4 (by decide)).trans (W29_arg4 m ρ c)
theorem W31_arg4 (c : Dev nD) : W31 m ρ c (Proc.devRef .tc main_arg4) = m ((c : Thread nD τ).loc main_arg4) :=
  (W31_keep m ρ c main_arg4 (by decide)).trans (W30_arg4 m ρ c)
theorem W32_arg4 (c : Dev nD) : W32 m ρ c (Proc.devRef .tc main_arg4) = m ((c : Thread nD τ).loc main_arg4) :=
  (W32_of_ne m ρ c main_arg4 (by decide)).trans (W31_arg4 m ρ c)
theorem W33_arg4 (c : Dev nD) : W33 m ρ c (Proc.devRef .tc main_arg4) = m ((c : Thread nD τ).loc main_arg4) :=
  (W33_keep m ρ c main_arg4 (by decide)).trans (W32_arg4 m ρ c)
theorem W34_arg4 (c : Dev nD) : W34 m ρ c (Proc.devRef .tc main_arg4) = m ((c : Thread nD τ).loc main_arg4) :=
  (W34_keep m ρ c main_arg4 (by decide)).trans (W33_arg4 m ρ c)
theorem W35_arg4 (c : Dev nD) : W35 m ρ c (Proc.devRef .tc main_arg4) = m ((c : Thread nD τ).loc main_arg4) :=
  (W35_keep m ρ c main_arg4 (by decide)).trans (W34_arg4 m ρ c)
theorem W36_arg4 (c : Dev nD) : W36 m ρ c (Proc.devRef .tc main_arg4) = m ((c : Thread nD τ).loc main_arg4) :=
  (W36_keep m ρ c main_arg4 (by decide)).trans (W35_arg4 m ρ c)
theorem W37_arg4 (c : Dev nD) : W37 m ρ c (Proc.devRef .tc main_arg4) = m ((c : Thread nD τ).loc main_arg4) :=
  (W37_keep m ρ c main_arg4 (by decide)).trans (W36_arg4 m ρ c)
theorem W38_arg4 (c : Dev nD) : W38 m ρ c (Proc.devRef .tc main_arg4) = m ((c : Thread nD τ).loc main_arg4) :=
  (W38_of_ne m ρ c main_arg4 (by decide)).trans (W37_arg4 m ρ c)
theorem W39_arg4 (c : Dev nD) : W39 m ρ c (Proc.devRef .tc main_arg4) = m ((c : Thread nD τ).loc main_arg4) :=
  (W39_keep m ρ c main_arg4 (by decide)).trans (W38_arg4 m ρ c)
theorem W40_arg4 (c : Dev nD) : W40 m ρ c (Proc.devRef .tc main_arg4) = m ((c : Thread nD τ).loc main_arg4) :=
  (W40_keep m ρ c main_arg4 (by decide)).trans (W39_arg4 m ρ c)
theorem W41_arg4 (c : Dev nD) : W41 m ρ c (Proc.devRef .tc main_arg4) = m ((c : Thread nD τ).loc main_arg4) :=
  (W41_keep m ρ c main_arg4 (by decide)).trans (W40_arg4 m ρ c)
theorem W42_arg4 (c : Dev nD) : W42 m ρ c (Proc.devRef .tc main_arg4) = m ((c : Thread nD τ).loc main_arg4) :=
  (W42_keep m ρ c main_arg4 (by decide)).trans (W41_arg4 m ρ c)
theorem W43_arg4 (c : Dev nD) : W43 m ρ c (Proc.devRef .tc main_arg4) = m ((c : Thread nD τ).loc main_arg4) :=
  (W43_keep m ρ c main_arg4 (by decide)).trans (W42_arg4 m ρ c)
theorem W44_arg4 (c : Dev nD) : W44 m ρ c (Proc.devRef .tc main_arg4) = m ((c : Thread nD τ).loc main_arg4) :=
  (W44_of_ne m ρ c main_arg4 (by decide)).trans (W43_arg4 m ρ c)
theorem W45_arg4 (c : Dev nD) : W45 m ρ c (Proc.devRef .tc main_arg4) = m ((c : Thread nD τ).loc main_arg4) :=
  (W45_keep m ρ c main_arg4 (by decide)).trans (W44_arg4 m ρ c)
theorem W46_arg4 (c : Dev nD) : W46 m ρ c (Proc.devRef .tc main_arg4) = m ((c : Thread nD τ).loc main_arg4) :=
  (W46_of_ne m ρ c main_arg4 (by decide)).trans (W45_arg4 m ρ c)
theorem W47_arg4 (c : Dev nD) : W47 m ρ c (Proc.devRef .tc main_arg4) = m ((c : Thread nD τ).loc main_arg4) :=
  (W47_keep m ρ c main_arg4 (by decide)).trans (W46_arg4 m ρ c)
theorem W48_arg4 (c : Dev nD) : W48 m ρ c (Proc.devRef .tc main_arg4) = m ((c : Thread nD τ).loc main_arg4) :=
  (W48_of_ne m ρ c main_arg4 (by decide)).trans (W47_arg4 m ρ c)
theorem W49_arg4 (c : Dev nD) : W49 m ρ c (Proc.devRef .tc main_arg4) = m ((c : Thread nD τ).loc main_arg4) :=
  (W49_keep m ρ c main_arg4 (by decide)).trans (W48_arg4 m ρ c)
theorem W50_arg4 (c : Dev nD) : W50 m ρ c (Proc.devRef .tc main_arg4) = m ((c : Thread nD τ).loc main_arg4) :=
  (W50_of_ne m ρ c main_arg4 (by decide)).trans (W49_arg4 m ρ c)
theorem W51_arg4 (c : Dev nD) : W51 m ρ c (Proc.devRef .tc main_arg4) = m ((c : Thread nD τ).loc main_arg4) :=
  (W51_keep m ρ c main_arg4 (by decide)).trans (W50_arg4 m ρ c)
theorem W52_arg4 (c : Dev nD) : W52 m ρ c (Proc.devRef .tc main_arg4) = m ((c : Thread nD τ).loc main_arg4) :=
  (W52_keep m ρ c main_arg4 (by decide)).trans (W51_arg4 m ρ c)
theorem W53_arg4 (c : Dev nD) : W53 m ρ c (Proc.devRef .tc main_arg4) = m ((c : Thread nD τ).loc main_arg4) :=
  (W53_keep m ρ c main_arg4 (by decide)).trans (W52_arg4 m ρ c)
theorem W54_arg4 (c : Dev nD) : W54 m ρ c (Proc.devRef .tc main_arg4) = m ((c : Thread nD τ).loc main_arg4) :=
  (W54_keep m ρ c main_arg4 (by decide)).trans (W53_arg4 m ρ c)
theorem W55_arg4 (c : Dev nD) : W55 m ρ c (Proc.devRef .tc main_arg4) = m ((c : Thread nD τ).loc main_arg4) :=
  (W55_keep m ρ c main_arg4 (by decide)).trans (W54_arg4 m ρ c)
theorem W56_arg4 (c : Dev nD) : W56 m ρ c (Proc.devRef .tc main_arg4) = m ((c : Thread nD τ).loc main_arg4) :=
  (W56_of_ne m ρ c main_arg4 (by decide)).trans (W55_arg4 m ρ c)
theorem W57_arg4 (c : Dev nD) : W57 m ρ c (Proc.devRef .tc main_arg4) = m ((c : Thread nD τ).loc main_arg4) :=
  (W57_keep m ρ c main_arg4 (by decide)).trans (W56_arg4 m ρ c)
theorem W58_arg4 (c : Dev nD) : W58 m ρ c (Proc.devRef .tc main_arg4) = m ((c : Thread nD τ).loc main_arg4) :=
  (W58_keep m ρ c main_arg4 (by decide)).trans (W57_arg4 m ρ c)
theorem W59_arg4 (c : Dev nD) : W59 m ρ c (Proc.devRef .tc main_arg4) = m ((c : Thread nD τ).loc main_arg4) :=
  (W59_keep m ρ c main_arg4 (by decide)).trans (W58_arg4 m ρ c)
theorem W60_arg4 (c : Dev nD) : W60 m ρ c (Proc.devRef .tc main_arg4) = m ((c : Thread nD τ).loc main_arg4) :=
  (W60_keep m ρ c main_arg4 (by decide)).trans (W59_arg4 m ρ c)
theorem W61_arg4 (c : Dev nD) : W61 m ρ c (Proc.devRef .tc main_arg4) = m ((c : Thread nD τ).loc main_arg4) :=
  (W61_keep m ρ c main_arg4 (by decide)).trans (W60_arg4 m ρ c)
theorem W62_arg4 (c : Dev nD) : W62 m ρ c (Proc.devRef .tc main_arg4) = m ((c : Thread nD τ).loc main_arg4) :=
  (W62_of_ne m ρ c main_arg4 (by decide)).trans (W61_arg4 m ρ c)
theorem W63_arg4 (c : Dev nD) : W63 m ρ c (Proc.devRef .tc main_arg4) = m ((c : Thread nD τ).loc main_arg4) :=
  (W63_keep m ρ c main_arg4 (by decide)).trans (W62_arg4 m ρ c)
theorem W64_arg4 (c : Dev nD) : W64 m ρ c (Proc.devRef .tc main_arg4) = m ((c : Thread nD τ).loc main_arg4) :=
  (W64_keep m ρ c main_arg4 (by decide)).trans (W63_arg4 m ρ c)
theorem W65_arg4 (c : Dev nD) : W65 m ρ c (Proc.devRef .tc main_arg4) = m ((c : Thread nD τ).loc main_arg4) :=
  (W65_keep m ρ c main_arg4 (by decide)).trans (W64_arg4 m ρ c)
theorem W66_arg4 (c : Dev nD) : W66 m ρ c (Proc.devRef .tc main_arg4) = m ((c : Thread nD τ).loc main_arg4) :=
  (W66_keep m ρ c main_arg4 (by decide)).trans (W65_arg4 m ρ c)
theorem W67_arg4 (c : Dev nD) : W67 m ρ c (Proc.devRef .tc main_arg4) = m ((c : Thread nD τ).loc main_arg4) :=
  (W67_keep m ρ c main_arg4 (by decide)).trans (W66_arg4 m ρ c)
theorem W68_arg4 (c : Dev nD) : W68 m ρ c (Proc.devRef .tc main_arg4) = m ((c : Thread nD τ).loc main_arg4) :=
  (W68_of_ne m ρ c main_arg4 (by decide)).trans (W67_arg4 m ρ c)
theorem W69_arg4 (c : Dev nD) : W69 m ρ c (Proc.devRef .tc main_arg4) = m ((c : Thread nD τ).loc main_arg4) :=
  (W69_keep m ρ c main_arg4 (by decide)).trans (W68_arg4 m ρ c)
theorem W70_arg4 (c : Dev nD) : W70 m ρ c (Proc.devRef .tc main_arg4) = m ((c : Thread nD τ).loc main_arg4) :=
  (W70_keep m ρ c main_arg4 (by decide)).trans (W69_arg4 m ρ c)
theorem W71_arg4 (c : Dev nD) : W71 m ρ c (Proc.devRef .tc main_arg4) = m ((c : Thread nD τ).loc main_arg4) :=
  (W71_keep m ρ c main_arg4 (by decide)).trans (W70_arg4 m ρ c)
theorem W72_arg4 (c : Dev nD) : W72 m ρ c (Proc.devRef .tc main_arg4) = m ((c : Thread nD τ).loc main_arg4) :=
  (W72_keep m ρ c main_arg4 (by decide)).trans (W71_arg4 m ρ c)
theorem W73_arg4 (c : Dev nD) : W73 m ρ c (Proc.devRef .tc main_arg4) = m ((c : Thread nD τ).loc main_arg4) :=
  (W73_keep m ρ c main_arg4 (by decide)).trans (W72_arg4 m ρ c)
theorem W74_arg4 (c : Dev nD) : W74 m ρ c (Proc.devRef .tc main_arg4) = m ((c : Thread nD τ).loc main_arg4) :=
  (W74_of_ne m ρ c main_arg4 (by decide)).trans (W73_arg4 m ρ c)
theorem W75_arg4 (c : Dev nD) : W75 m ρ c (Proc.devRef .tc main_arg4) = m ((c : Thread nD τ).loc main_arg4) :=
  (W75_keep m ρ c main_arg4 (by decide)).trans (W74_arg4 m ρ c)
theorem W76_arg4 (c : Dev nD) : W76 m ρ c (Proc.devRef .tc main_arg4) = m ((c : Thread nD τ).loc main_arg4) :=
  (W76_keep m ρ c main_arg4 (by decide)).trans (W75_arg4 m ρ c)
theorem W77_arg4 (c : Dev nD) : W77 m ρ c (Proc.devRef .tc main_arg4) = m ((c : Thread nD τ).loc main_arg4) :=
  (W77_keep m ρ c main_arg4 (by decide)).trans (W76_arg4 m ρ c)
theorem W78_arg4 (c : Dev nD) : W78 m ρ c (Proc.devRef .tc main_arg4) = m ((c : Thread nD τ).loc main_arg4) :=
  (W78_keep m ρ c main_arg4 (by decide)).trans (W77_arg4 m ρ c)
theorem W79_arg4 (c : Dev nD) : W79 m ρ c (Proc.devRef .tc main_arg4) = m ((c : Thread nD τ).loc main_arg4) :=
  (W79_keep m ρ c main_arg4 (by decide)).trans (W78_arg4 m ρ c)
theorem W80_arg4 (c : Dev nD) : W80 m ρ c (Proc.devRef .tc main_arg4) = m ((c : Thread nD τ).loc main_arg4) :=
  (W80_of_ne m ρ c main_arg4 (by decide)).trans (W79_arg4 m ρ c)
theorem W81_arg4 (c : Dev nD) : W81 m ρ c (Proc.devRef .tc main_arg4) = m ((c : Thread nD τ).loc main_arg4) :=
  (W81_keep m ρ c main_arg4 (by decide)).trans (W80_arg4 m ρ c)
theorem W82_arg4 (c : Dev nD) : W82 m ρ c (Proc.devRef .tc main_arg4) = m ((c : Thread nD τ).loc main_arg4) :=
  (W82_keep m ρ c main_arg4 (by decide)).trans (W81_arg4 m ρ c)
theorem W83_arg4 (c : Dev nD) : W83 m ρ c (Proc.devRef .tc main_arg4) = m ((c : Thread nD τ).loc main_arg4) :=
  (W83_keep m ρ c main_arg4 (by decide)).trans (W82_arg4 m ρ c)
theorem W84_arg4 (c : Dev nD) : W84 m ρ c (Proc.devRef .tc main_arg4) = m ((c : Thread nD τ).loc main_arg4) :=
  (W84_keep m ρ c main_arg4 (by decide)).trans (W83_arg4 m ρ c)
theorem W85_arg4 (c : Dev nD) : W85 m ρ c (Proc.devRef .tc main_arg4) = m ((c : Thread nD τ).loc main_arg4) :=
  (W85_keep m ρ c main_arg4 (by decide)).trans (W84_arg4 m ρ c)
theorem W86_arg4 (c : Dev nD) : W86 m ρ c (Proc.devRef .tc main_arg4) = m ((c : Thread nD τ).loc main_arg4) :=
  (W86_of_ne m ρ c main_arg4 (by decide)).trans (W85_arg4 m ρ c)
theorem W87_arg4 (c : Dev nD) : W87 m ρ c (Proc.devRef .tc main_arg4) = m ((c : Thread nD τ).loc main_arg4) :=
  (W87_keep m ρ c main_arg4 (by decide)).trans (W86_arg4 m ρ c)
theorem W88_arg4 (c : Dev nD) : W88 m ρ c (Proc.devRef .tc main_arg4) = m ((c : Thread nD τ).loc main_arg4) :=
  (W88_of_ne m ρ c main_arg4 (by decide)).trans (W87_arg4 m ρ c)
theorem W89_arg4 (c : Dev nD) : W89 m ρ c (Proc.devRef .tc main_arg4) = m ((c : Thread nD τ).loc main_arg4) :=
  (W89_keep m ρ c main_arg4 (by decide)).trans (W88_arg4 m ρ c)
theorem W90_arg4 (c : Dev nD) : W90 m ρ c (Proc.devRef .tc main_arg4) = m ((c : Thread nD τ).loc main_arg4) :=
  (W90_of_ne m ρ c main_arg4 (by decide)).trans (W89_arg4 m ρ c)
theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  (W1_keep m ρ c main_arg5 (by decide)).trans (W0_arg5 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (W3_keep m ρ c main_arg5 (by decide)).trans (W2_arg5 m ρ c)
theorem W4_arg5 (c : Dev nD) : W4 m ρ c (Proc.devRef .tc main_arg5) = m ((c : Thread nD τ).loc main_arg5) :=
  (W4_in1 m ρ c).trans (W3_arg5 m ρ c)
theorem W5_arg5 (c : Dev nD) : W5 m ρ c (Proc.devRef .tc main_arg5) = m ((c : Thread nD τ).loc main_arg5) :=
  (W5_keep m ρ c main_arg5 (by decide)).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) :=
  (W7_keep m ρ c main_arg5 (by decide)).trans (W6_arg5 m ρ c)
theorem W8_arg5 (c : Dev nD) : W8 m ρ c (Proc.devRef .tc main_arg5) = m ((c : Thread nD τ).loc main_arg5) :=
  (W8_of_ne m ρ c main_arg5 (by decide)).trans (W7_arg5 m ρ c)
theorem W9_arg5 (c : Dev nD) : W9 m ρ c (Proc.devRef .tc main_arg5) = m ((c : Thread nD τ).loc main_arg5) :=
  (W9_keep m ρ c main_arg5 (by decide)).trans (W8_arg5 m ρ c)
theorem W10_arg5 (c : Dev nD) : W10 m ρ c (Proc.devRef .tc main_arg5) = m ((c : Thread nD τ).loc main_arg5) :=
  (W10_keep m ρ c main_arg5 (by decide)).trans (W9_arg5 m ρ c)
theorem W11_arg5 (c : Dev nD) : W11 m ρ c (Proc.devRef .tc main_arg5) = m ((c : Thread nD τ).loc main_arg5) :=
  (W11_keep m ρ c main_arg5 (by decide)).trans (W10_arg5 m ρ c)
theorem W12_arg5 (c : Dev nD) : W12 m ρ c (Proc.devRef .tc main_arg5) = m ((c : Thread nD τ).loc main_arg5) :=
  (W12_keep m ρ c main_arg5 (by decide)).trans (W11_arg5 m ρ c)
theorem W13_arg5 (c : Dev nD) : W13 m ρ c (Proc.devRef .tc main_arg5) = m ((c : Thread nD τ).loc main_arg5) :=
  (W13_keep m ρ c main_arg5 (by decide)).trans (W12_arg5 m ρ c)
theorem W14_arg5 (c : Dev nD) : W14 m ρ c (Proc.devRef .tc main_arg5) = m ((c : Thread nD τ).loc main_arg5) :=
  (W14_of_ne m ρ c main_arg5 (by decide)).trans (W13_arg5 m ρ c)
theorem W15_arg5 (c : Dev nD) : W15 m ρ c (Proc.devRef .tc main_arg5) = m ((c : Thread nD τ).loc main_arg5) :=
  (W15_keep m ρ c main_arg5 (by decide)).trans (W14_arg5 m ρ c)
theorem W16_arg5 (c : Dev nD) : W16 m ρ c (Proc.devRef .tc main_arg5) = m ((c : Thread nD τ).loc main_arg5) :=
  (W16_keep m ρ c main_arg5 (by decide)).trans (W15_arg5 m ρ c)
theorem W17_arg5 (c : Dev nD) : W17 m ρ c (Proc.devRef .tc main_arg5) = m ((c : Thread nD τ).loc main_arg5) :=
  (W17_keep m ρ c main_arg5 (by decide)).trans (W16_arg5 m ρ c)
theorem W18_arg5 (c : Dev nD) : W18 m ρ c (Proc.devRef .tc main_arg5) = m ((c : Thread nD τ).loc main_arg5) :=
  (W18_keep m ρ c main_arg5 (by decide)).trans (W17_arg5 m ρ c)
theorem W19_arg5 (c : Dev nD) : W19 m ρ c (Proc.devRef .tc main_arg5) = m ((c : Thread nD τ).loc main_arg5) :=
  (W19_keep m ρ c main_arg5 (by decide)).trans (W18_arg5 m ρ c)
theorem W20_arg5 (c : Dev nD) : W20 m ρ c (Proc.devRef .tc main_arg5) = m ((c : Thread nD τ).loc main_arg5) :=
  (W20_of_ne m ρ c main_arg5 (by decide)).trans (W19_arg5 m ρ c)
theorem W21_arg5 (c : Dev nD) : W21 m ρ c (Proc.devRef .tc main_arg5) = m ((c : Thread nD τ).loc main_arg5) :=
  (W21_keep m ρ c main_arg5 (by decide)).trans (W20_arg5 m ρ c)
theorem W22_arg5 (c : Dev nD) : W22 m ρ c (Proc.devRef .tc main_arg5) = m ((c : Thread nD τ).loc main_arg5) :=
  (W22_keep m ρ c main_arg5 (by decide)).trans (W21_arg5 m ρ c)
theorem W23_arg5 (c : Dev nD) : W23 m ρ c (Proc.devRef .tc main_arg5) = m ((c : Thread nD τ).loc main_arg5) :=
  (W23_keep m ρ c main_arg5 (by decide)).trans (W22_arg5 m ρ c)
theorem W24_arg5 (c : Dev nD) : W24 m ρ c (Proc.devRef .tc main_arg5) = m ((c : Thread nD τ).loc main_arg5) :=
  (W24_keep m ρ c main_arg5 (by decide)).trans (W23_arg5 m ρ c)
theorem W25_arg5 (c : Dev nD) : W25 m ρ c (Proc.devRef .tc main_arg5) = m ((c : Thread nD τ).loc main_arg5) :=
  (W25_keep m ρ c main_arg5 (by decide)).trans (W24_arg5 m ρ c)
theorem W26_arg5 (c : Dev nD) : W26 m ρ c (Proc.devRef .tc main_arg5) = m ((c : Thread nD τ).loc main_arg5) :=
  (W26_of_ne m ρ c main_arg5 (by decide)).trans (W25_arg5 m ρ c)
theorem W27_arg5 (c : Dev nD) : W27 m ρ c (Proc.devRef .tc main_arg5) = m ((c : Thread nD τ).loc main_arg5) :=
  (W27_keep m ρ c main_arg5 (by decide)).trans (W26_arg5 m ρ c)
theorem W28_arg5 (c : Dev nD) : W28 m ρ c (Proc.devRef .tc main_arg5) = m ((c : Thread nD τ).loc main_arg5) :=
  (W28_keep m ρ c main_arg5 (by decide)).trans (W27_arg5 m ρ c)
theorem W29_arg5 (c : Dev nD) : W29 m ρ c (Proc.devRef .tc main_arg5) = m ((c : Thread nD τ).loc main_arg5) :=
  (W29_keep m ρ c main_arg5 (by decide)).trans (W28_arg5 m ρ c)
theorem W30_arg5 (c : Dev nD) : W30 m ρ c (Proc.devRef .tc main_arg5) = m ((c : Thread nD τ).loc main_arg5) :=
  (W30_keep m ρ c main_arg5 (by decide)).trans (W29_arg5 m ρ c)
theorem W31_arg5 (c : Dev nD) : W31 m ρ c (Proc.devRef .tc main_arg5) = m ((c : Thread nD τ).loc main_arg5) :=
  (W31_keep m ρ c main_arg5 (by decide)).trans (W30_arg5 m ρ c)
theorem W32_arg5 (c : Dev nD) : W32 m ρ c (Proc.devRef .tc main_arg5) = m ((c : Thread nD τ).loc main_arg5) :=
  (W32_of_ne m ρ c main_arg5 (by decide)).trans (W31_arg5 m ρ c)
theorem W33_arg5 (c : Dev nD) : W33 m ρ c (Proc.devRef .tc main_arg5) = m ((c : Thread nD τ).loc main_arg5) :=
  (W33_keep m ρ c main_arg5 (by decide)).trans (W32_arg5 m ρ c)
theorem W34_arg5 (c : Dev nD) : W34 m ρ c (Proc.devRef .tc main_arg5) = m ((c : Thread nD τ).loc main_arg5) :=
  (W34_keep m ρ c main_arg5 (by decide)).trans (W33_arg5 m ρ c)
theorem W35_arg5 (c : Dev nD) : W35 m ρ c (Proc.devRef .tc main_arg5) = m ((c : Thread nD τ).loc main_arg5) :=
  (W35_keep m ρ c main_arg5 (by decide)).trans (W34_arg5 m ρ c)
theorem W36_arg5 (c : Dev nD) : W36 m ρ c (Proc.devRef .tc main_arg5) = m ((c : Thread nD τ).loc main_arg5) :=
  (W36_keep m ρ c main_arg5 (by decide)).trans (W35_arg5 m ρ c)
theorem W37_arg5 (c : Dev nD) : W37 m ρ c (Proc.devRef .tc main_arg5) = m ((c : Thread nD τ).loc main_arg5) :=
  (W37_keep m ρ c main_arg5 (by decide)).trans (W36_arg5 m ρ c)
theorem W38_arg5 (c : Dev nD) : W38 m ρ c (Proc.devRef .tc main_arg5) = m ((c : Thread nD τ).loc main_arg5) :=
  (W38_of_ne m ρ c main_arg5 (by decide)).trans (W37_arg5 m ρ c)
theorem W39_arg5 (c : Dev nD) : W39 m ρ c (Proc.devRef .tc main_arg5) = m ((c : Thread nD τ).loc main_arg5) :=
  (W39_keep m ρ c main_arg5 (by decide)).trans (W38_arg5 m ρ c)
theorem W40_arg5 (c : Dev nD) : W40 m ρ c (Proc.devRef .tc main_arg5) = m ((c : Thread nD τ).loc main_arg5) :=
  (W40_keep m ρ c main_arg5 (by decide)).trans (W39_arg5 m ρ c)
theorem W41_arg5 (c : Dev nD) : W41 m ρ c (Proc.devRef .tc main_arg5) = m ((c : Thread nD τ).loc main_arg5) :=
  (W41_keep m ρ c main_arg5 (by decide)).trans (W40_arg5 m ρ c)
theorem W42_arg5 (c : Dev nD) : W42 m ρ c (Proc.devRef .tc main_arg5) = m ((c : Thread nD τ).loc main_arg5) :=
  (W42_keep m ρ c main_arg5 (by decide)).trans (W41_arg5 m ρ c)
theorem W43_arg5 (c : Dev nD) : W43 m ρ c (Proc.devRef .tc main_arg5) = m ((c : Thread nD τ).loc main_arg5) :=
  (W43_keep m ρ c main_arg5 (by decide)).trans (W42_arg5 m ρ c)
theorem W44_arg5 (c : Dev nD) : W44 m ρ c (Proc.devRef .tc main_arg5) = m ((c : Thread nD τ).loc main_arg5) :=
  (W44_of_ne m ρ c main_arg5 (by decide)).trans (W43_arg5 m ρ c)
theorem W45_arg5 (c : Dev nD) : W45 m ρ c (Proc.devRef .tc main_arg5) = m ((c : Thread nD τ).loc main_arg5) :=
  (W45_keep m ρ c main_arg5 (by decide)).trans (W44_arg5 m ρ c)
theorem W46_arg5 (c : Dev nD) : W46 m ρ c (Proc.devRef .tc main_arg5) = m ((c : Thread nD τ).loc main_arg5) :=
  (W46_of_ne m ρ c main_arg5 (by decide)).trans (W45_arg5 m ρ c)
theorem W47_arg5 (c : Dev nD) : W47 m ρ c (Proc.devRef .tc main_arg5) = m ((c : Thread nD τ).loc main_arg5) :=
  (W47_keep m ρ c main_arg5 (by decide)).trans (W46_arg5 m ρ c)
theorem W48_arg5 (c : Dev nD) : W48 m ρ c (Proc.devRef .tc main_arg5) = m ((c : Thread nD τ).loc main_arg5) :=
  (W48_of_ne m ρ c main_arg5 (by decide)).trans (W47_arg5 m ρ c)
theorem W49_arg5 (c : Dev nD) : W49 m ρ c (Proc.devRef .tc main_arg5) = m ((c : Thread nD τ).loc main_arg5) :=
  (W49_keep m ρ c main_arg5 (by decide)).trans (W48_arg5 m ρ c)
theorem W50_arg5 (c : Dev nD) : W50 m ρ c (Proc.devRef .tc main_arg5) = m ((c : Thread nD τ).loc main_arg5) :=
  (W50_of_ne m ρ c main_arg5 (by decide)).trans (W49_arg5 m ρ c)
theorem W51_arg5 (c : Dev nD) : W51 m ρ c (Proc.devRef .tc main_arg5) = m ((c : Thread nD τ).loc main_arg5) :=
  (W51_keep m ρ c main_arg5 (by decide)).trans (W50_arg5 m ρ c)
theorem W52_arg5 (c : Dev nD) : W52 m ρ c (Proc.devRef .tc main_arg5) = m ((c : Thread nD τ).loc main_arg5) :=
  (W52_keep m ρ c main_arg5 (by decide)).trans (W51_arg5 m ρ c)
theorem W53_arg5 (c : Dev nD) : W53 m ρ c (Proc.devRef .tc main_arg5) = m ((c : Thread nD τ).loc main_arg5) :=
  (W53_keep m ρ c main_arg5 (by decide)).trans (W52_arg5 m ρ c)
theorem W54_arg5 (c : Dev nD) : W54 m ρ c (Proc.devRef .tc main_arg5) = m ((c : Thread nD τ).loc main_arg5) :=
  (W54_keep m ρ c main_arg5 (by decide)).trans (W53_arg5 m ρ c)
theorem W55_arg5 (c : Dev nD) : W55 m ρ c (Proc.devRef .tc main_arg5) = m ((c : Thread nD τ).loc main_arg5) :=
  (W55_keep m ρ c main_arg5 (by decide)).trans (W54_arg5 m ρ c)
theorem W56_arg5 (c : Dev nD) : W56 m ρ c (Proc.devRef .tc main_arg5) = m ((c : Thread nD τ).loc main_arg5) :=
  (W56_of_ne m ρ c main_arg5 (by decide)).trans (W55_arg5 m ρ c)
theorem W57_arg5 (c : Dev nD) : W57 m ρ c (Proc.devRef .tc main_arg5) = m ((c : Thread nD τ).loc main_arg5) :=
  (W57_keep m ρ c main_arg5 (by decide)).trans (W56_arg5 m ρ c)
theorem W58_arg5 (c : Dev nD) : W58 m ρ c (Proc.devRef .tc main_arg5) = m ((c : Thread nD τ).loc main_arg5) :=
  (W58_keep m ρ c main_arg5 (by decide)).trans (W57_arg5 m ρ c)
theorem W59_arg5 (c : Dev nD) : W59 m ρ c (Proc.devRef .tc main_arg5) = m ((c : Thread nD τ).loc main_arg5) :=
  (W59_keep m ρ c main_arg5 (by decide)).trans (W58_arg5 m ρ c)
theorem W60_arg5 (c : Dev nD) : W60 m ρ c (Proc.devRef .tc main_arg5) = m ((c : Thread nD τ).loc main_arg5) :=
  (W60_keep m ρ c main_arg5 (by decide)).trans (W59_arg5 m ρ c)
theorem W61_arg5 (c : Dev nD) : W61 m ρ c (Proc.devRef .tc main_arg5) = m ((c : Thread nD τ).loc main_arg5) :=
  (W61_keep m ρ c main_arg5 (by decide)).trans (W60_arg5 m ρ c)
theorem W62_arg5 (c : Dev nD) : W62 m ρ c (Proc.devRef .tc main_arg5) = m ((c : Thread nD τ).loc main_arg5) :=
  (W62_of_ne m ρ c main_arg5 (by decide)).trans (W61_arg5 m ρ c)
theorem W63_arg5 (c : Dev nD) : W63 m ρ c (Proc.devRef .tc main_arg5) = m ((c : Thread nD τ).loc main_arg5) :=
  (W63_keep m ρ c main_arg5 (by decide)).trans (W62_arg5 m ρ c)
theorem W64_arg5 (c : Dev nD) : W64 m ρ c (Proc.devRef .tc main_arg5) = m ((c : Thread nD τ).loc main_arg5) :=
  (W64_keep m ρ c main_arg5 (by decide)).trans (W63_arg5 m ρ c)
theorem W65_arg5 (c : Dev nD) : W65 m ρ c (Proc.devRef .tc main_arg5) = m ((c : Thread nD τ).loc main_arg5) :=
  (W65_keep m ρ c main_arg5 (by decide)).trans (W64_arg5 m ρ c)
theorem W66_arg5 (c : Dev nD) : W66 m ρ c (Proc.devRef .tc main_arg5) = m ((c : Thread nD τ).loc main_arg5) :=
  (W66_keep m ρ c main_arg5 (by decide)).trans (W65_arg5 m ρ c)
theorem W67_arg5 (c : Dev nD) : W67 m ρ c (Proc.devRef .tc main_arg5) = m ((c : Thread nD τ).loc main_arg5) :=
  (W67_keep m ρ c main_arg5 (by decide)).trans (W66_arg5 m ρ c)
theorem W68_arg5 (c : Dev nD) : W68 m ρ c (Proc.devRef .tc main_arg5) = m ((c : Thread nD τ).loc main_arg5) :=
  (W68_of_ne m ρ c main_arg5 (by decide)).trans (W67_arg5 m ρ c)
theorem W69_arg5 (c : Dev nD) : W69 m ρ c (Proc.devRef .tc main_arg5) = m ((c : Thread nD τ).loc main_arg5) :=
  (W69_keep m ρ c main_arg5 (by decide)).trans (W68_arg5 m ρ c)
theorem W70_arg5 (c : Dev nD) : W70 m ρ c (Proc.devRef .tc main_arg5) = m ((c : Thread nD τ).loc main_arg5) :=
  (W70_keep m ρ c main_arg5 (by decide)).trans (W69_arg5 m ρ c)
theorem W71_arg5 (c : Dev nD) : W71 m ρ c (Proc.devRef .tc main_arg5) = m ((c : Thread nD τ).loc main_arg5) :=
  (W71_keep m ρ c main_arg5 (by decide)).trans (W70_arg5 m ρ c)
theorem W72_arg5 (c : Dev nD) : W72 m ρ c (Proc.devRef .tc main_arg5) = m ((c : Thread nD τ).loc main_arg5) :=
  (W72_keep m ρ c main_arg5 (by decide)).trans (W71_arg5 m ρ c)
theorem W73_arg5 (c : Dev nD) : W73 m ρ c (Proc.devRef .tc main_arg5) = m ((c : Thread nD τ).loc main_arg5) :=
  (W73_keep m ρ c main_arg5 (by decide)).trans (W72_arg5 m ρ c)
theorem W74_arg5 (c : Dev nD) : W74 m ρ c (Proc.devRef .tc main_arg5) = m ((c : Thread nD τ).loc main_arg5) :=
  (W74_of_ne m ρ c main_arg5 (by decide)).trans (W73_arg5 m ρ c)
theorem W75_arg5 (c : Dev nD) : W75 m ρ c (Proc.devRef .tc main_arg5) = m ((c : Thread nD τ).loc main_arg5) :=
  (W75_keep m ρ c main_arg5 (by decide)).trans (W74_arg5 m ρ c)
theorem W76_arg5 (c : Dev nD) : W76 m ρ c (Proc.devRef .tc main_arg5) = m ((c : Thread nD τ).loc main_arg5) :=
  (W76_keep m ρ c main_arg5 (by decide)).trans (W75_arg5 m ρ c)
theorem W77_arg5 (c : Dev nD) : W77 m ρ c (Proc.devRef .tc main_arg5) = m ((c : Thread nD τ).loc main_arg5) :=
  (W77_keep m ρ c main_arg5 (by decide)).trans (W76_arg5 m ρ c)
theorem W78_arg5 (c : Dev nD) : W78 m ρ c (Proc.devRef .tc main_arg5) = m ((c : Thread nD τ).loc main_arg5) :=
  (W78_keep m ρ c main_arg5 (by decide)).trans (W77_arg5 m ρ c)
theorem W79_arg5 (c : Dev nD) : W79 m ρ c (Proc.devRef .tc main_arg5) = m ((c : Thread nD τ).loc main_arg5) :=
  (W79_keep m ρ c main_arg5 (by decide)).trans (W78_arg5 m ρ c)
theorem W80_arg5 (c : Dev nD) : W80 m ρ c (Proc.devRef .tc main_arg5) = m ((c : Thread nD τ).loc main_arg5) :=
  (W80_of_ne m ρ c main_arg5 (by decide)).trans (W79_arg5 m ρ c)
theorem W81_arg5 (c : Dev nD) : W81 m ρ c (Proc.devRef .tc main_arg5) = m ((c : Thread nD τ).loc main_arg5) :=
  (W81_keep m ρ c main_arg5 (by decide)).trans (W80_arg5 m ρ c)
theorem W82_arg5 (c : Dev nD) : W82 m ρ c (Proc.devRef .tc main_arg5) = m ((c : Thread nD τ).loc main_arg5) :=
  (W82_keep m ρ c main_arg5 (by decide)).trans (W81_arg5 m ρ c)
theorem W83_arg5 (c : Dev nD) : W83 m ρ c (Proc.devRef .tc main_arg5) = m ((c : Thread nD τ).loc main_arg5) :=
  (W83_keep m ρ c main_arg5 (by decide)).trans (W82_arg5 m ρ c)
theorem W84_arg5 (c : Dev nD) : W84 m ρ c (Proc.devRef .tc main_arg5) = m ((c : Thread nD τ).loc main_arg5) :=
  (W84_keep m ρ c main_arg5 (by decide)).trans (W83_arg5 m ρ c)
theorem W85_arg5 (c : Dev nD) : W85 m ρ c (Proc.devRef .tc main_arg5) = m ((c : Thread nD τ).loc main_arg5) :=
  (W85_keep m ρ c main_arg5 (by decide)).trans (W84_arg5 m ρ c)
theorem W86_arg5 (c : Dev nD) : W86 m ρ c (Proc.devRef .tc main_arg5) = m ((c : Thread nD τ).loc main_arg5) :=
  (W86_of_ne m ρ c main_arg5 (by decide)).trans (W85_arg5 m ρ c)
theorem W87_arg5 (c : Dev nD) : W87 m ρ c (Proc.devRef .tc main_arg5) = m ((c : Thread nD τ).loc main_arg5) :=
  (W87_keep m ρ c main_arg5 (by decide)).trans (W86_arg5 m ρ c)
theorem W88_arg5 (c : Dev nD) : W88 m ρ c (Proc.devRef .tc main_arg5) = m ((c : Thread nD τ).loc main_arg5) :=
  (W88_of_ne m ρ c main_arg5 (by decide)).trans (W87_arg5 m ρ c)
theorem W89_arg5 (c : Dev nD) : W89 m ρ c (Proc.devRef .tc main_arg5) = m ((c : Thread nD τ).loc main_arg5) :=
  (W89_keep m ρ c main_arg5 (by decide)).trans (W88_arg5 m ρ c)
theorem W90_arg5 (c : Dev nD) : W90 m ρ c (Proc.devRef .tc main_arg5) = m ((c : Thread nD τ).loc main_arg5) :=
  (W90_of_ne m ρ c main_arg5 (by decide)).trans (W89_arg5 m ρ c)
theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) :=
  (W1_keep m ρ c main_arg6 (by decide)).trans (W0_arg6 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W3_arg6 (c : Dev nD) : W3 m ρ c (Proc.devRef .tc main_arg6) = m ((c : Thread nD τ).loc main_arg6) :=
  (W3_keep m ρ c main_arg6 (by decide)).trans (W2_arg6 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (W5_keep m ρ c main_arg6 (by decide)).trans (W4_arg6 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W7_arg6 (c : Dev nD) : W7 m ρ c (Proc.devRef .tc main_arg6) = m ((c : Thread nD τ).loc main_arg6) :=
  (W7_keep m ρ c main_arg6 (by decide)).trans (W6_arg6 m ρ c)
theorem W8_arg6 (c : Dev nD) : W8 m ρ c (Proc.devRef .tc main_arg6) = m ((c : Thread nD τ).loc main_arg6) :=
  (W8_of_ne m ρ c main_arg6 (by decide)).trans (W7_arg6 m ρ c)
theorem W9_arg6 (c : Dev nD) : W9 m ρ c (Proc.devRef .tc main_arg6) = m ((c : Thread nD τ).loc main_arg6) :=
  (W9_keep m ρ c main_arg6 (by decide)).trans (W8_arg6 m ρ c)
theorem W10_arg6 (c : Dev nD) : W10 m ρ c (Proc.devRef .tc main_arg6) = m ((c : Thread nD τ).loc main_arg6) :=
  (W10_keep m ρ c main_arg6 (by decide)).trans (W9_arg6 m ρ c)
theorem W11_arg6 (c : Dev nD) : W11 m ρ c (Proc.devRef .tc main_arg6) = m ((c : Thread nD τ).loc main_arg6) :=
  (W11_keep m ρ c main_arg6 (by decide)).trans (W10_arg6 m ρ c)
theorem W12_arg6 (c : Dev nD) : W12 m ρ c (Proc.devRef .tc main_arg6) = m ((c : Thread nD τ).loc main_arg6) :=
  (W12_keep m ρ c main_arg6 (by decide)).trans (W11_arg6 m ρ c)
theorem W13_arg6 (c : Dev nD) : W13 m ρ c (Proc.devRef .tc main_arg6) = m ((c : Thread nD τ).loc main_arg6) :=
  (W13_keep m ρ c main_arg6 (by decide)).trans (W12_arg6 m ρ c)
theorem W14_arg6 (c : Dev nD) : W14 m ρ c (Proc.devRef .tc main_arg6) = m ((c : Thread nD τ).loc main_arg6) :=
  (W14_of_ne m ρ c main_arg6 (by decide)).trans (W13_arg6 m ρ c)
theorem W15_arg6 (c : Dev nD) : W15 m ρ c (Proc.devRef .tc main_arg6) = m ((c : Thread nD τ).loc main_arg6) :=
  (W15_keep m ρ c main_arg6 (by decide)).trans (W14_arg6 m ρ c)
theorem W16_arg6 (c : Dev nD) : W16 m ρ c (Proc.devRef .tc main_arg6) = m ((c : Thread nD τ).loc main_arg6) :=
  (W16_keep m ρ c main_arg6 (by decide)).trans (W15_arg6 m ρ c)
theorem W17_arg6 (c : Dev nD) : W17 m ρ c (Proc.devRef .tc main_arg6) = m ((c : Thread nD τ).loc main_arg6) :=
  (W17_keep m ρ c main_arg6 (by decide)).trans (W16_arg6 m ρ c)
theorem W18_arg6 (c : Dev nD) : W18 m ρ c (Proc.devRef .tc main_arg6) = m ((c : Thread nD τ).loc main_arg6) :=
  (W18_keep m ρ c main_arg6 (by decide)).trans (W17_arg6 m ρ c)
theorem W19_arg6 (c : Dev nD) : W19 m ρ c (Proc.devRef .tc main_arg6) = m ((c : Thread nD τ).loc main_arg6) :=
  (W19_keep m ρ c main_arg6 (by decide)).trans (W18_arg6 m ρ c)
theorem W20_arg6 (c : Dev nD) : W20 m ρ c (Proc.devRef .tc main_arg6) = m ((c : Thread nD τ).loc main_arg6) :=
  (W20_of_ne m ρ c main_arg6 (by decide)).trans (W19_arg6 m ρ c)
theorem W21_arg6 (c : Dev nD) : W21 m ρ c (Proc.devRef .tc main_arg6) = m ((c : Thread nD τ).loc main_arg6) :=
  (W21_keep m ρ c main_arg6 (by decide)).trans (W20_arg6 m ρ c)
theorem W22_arg6 (c : Dev nD) : W22 m ρ c (Proc.devRef .tc main_arg6) = m ((c : Thread nD τ).loc main_arg6) :=
  (W22_keep m ρ c main_arg6 (by decide)).trans (W21_arg6 m ρ c)
theorem W23_arg6 (c : Dev nD) : W23 m ρ c (Proc.devRef .tc main_arg6) = m ((c : Thread nD τ).loc main_arg6) :=
  (W23_keep m ρ c main_arg6 (by decide)).trans (W22_arg6 m ρ c)
theorem W24_arg6 (c : Dev nD) : W24 m ρ c (Proc.devRef .tc main_arg6) = m ((c : Thread nD τ).loc main_arg6) :=
  (W24_keep m ρ c main_arg6 (by decide)).trans (W23_arg6 m ρ c)
theorem W25_arg6 (c : Dev nD) : W25 m ρ c (Proc.devRef .tc main_arg6) = m ((c : Thread nD τ).loc main_arg6) :=
  (W25_keep m ρ c main_arg6 (by decide)).trans (W24_arg6 m ρ c)
theorem W26_arg6 (c : Dev nD) : W26 m ρ c (Proc.devRef .tc main_arg6) = m ((c : Thread nD τ).loc main_arg6) :=
  (W26_of_ne m ρ c main_arg6 (by decide)).trans (W25_arg6 m ρ c)
theorem W27_arg6 (c : Dev nD) : W27 m ρ c (Proc.devRef .tc main_arg6) = m ((c : Thread nD τ).loc main_arg6) :=
  (W27_keep m ρ c main_arg6 (by decide)).trans (W26_arg6 m ρ c)
theorem W28_arg6 (c : Dev nD) : W28 m ρ c (Proc.devRef .tc main_arg6) = m ((c : Thread nD τ).loc main_arg6) :=
  (W28_keep m ρ c main_arg6 (by decide)).trans (W27_arg6 m ρ c)
theorem W29_arg6 (c : Dev nD) : W29 m ρ c (Proc.devRef .tc main_arg6) = m ((c : Thread nD τ).loc main_arg6) :=
  (W29_keep m ρ c main_arg6 (by decide)).trans (W28_arg6 m ρ c)
theorem W30_arg6 (c : Dev nD) : W30 m ρ c (Proc.devRef .tc main_arg6) = m ((c : Thread nD τ).loc main_arg6) :=
  (W30_keep m ρ c main_arg6 (by decide)).trans (W29_arg6 m ρ c)
theorem W31_arg6 (c : Dev nD) : W31 m ρ c (Proc.devRef .tc main_arg6) = m ((c : Thread nD τ).loc main_arg6) :=
  (W31_keep m ρ c main_arg6 (by decide)).trans (W30_arg6 m ρ c)
theorem W32_arg6 (c : Dev nD) : W32 m ρ c (Proc.devRef .tc main_arg6) = m ((c : Thread nD τ).loc main_arg6) :=
  (W32_of_ne m ρ c main_arg6 (by decide)).trans (W31_arg6 m ρ c)
theorem W33_arg6 (c : Dev nD) : W33 m ρ c (Proc.devRef .tc main_arg6) = m ((c : Thread nD τ).loc main_arg6) :=
  (W33_keep m ρ c main_arg6 (by decide)).trans (W32_arg6 m ρ c)
theorem W34_arg6 (c : Dev nD) : W34 m ρ c (Proc.devRef .tc main_arg6) = m ((c : Thread nD τ).loc main_arg6) :=
  (W34_keep m ρ c main_arg6 (by decide)).trans (W33_arg6 m ρ c)
theorem W35_arg6 (c : Dev nD) : W35 m ρ c (Proc.devRef .tc main_arg6) = m ((c : Thread nD τ).loc main_arg6) :=
  (W35_keep m ρ c main_arg6 (by decide)).trans (W34_arg6 m ρ c)
theorem W36_arg6 (c : Dev nD) : W36 m ρ c (Proc.devRef .tc main_arg6) = m ((c : Thread nD τ).loc main_arg6) :=
  (W36_keep m ρ c main_arg6 (by decide)).trans (W35_arg6 m ρ c)
theorem W37_arg6 (c : Dev nD) : W37 m ρ c (Proc.devRef .tc main_arg6) = m ((c : Thread nD τ).loc main_arg6) :=
  (W37_keep m ρ c main_arg6 (by decide)).trans (W36_arg6 m ρ c)
theorem W38_arg6 (c : Dev nD) : W38 m ρ c (Proc.devRef .tc main_arg6) = m ((c : Thread nD τ).loc main_arg6) :=
  (W38_of_ne m ρ c main_arg6 (by decide)).trans (W37_arg6 m ρ c)
theorem W39_arg6 (c : Dev nD) : W39 m ρ c (Proc.devRef .tc main_arg6) = m ((c : Thread nD τ).loc main_arg6) :=
  (W39_keep m ρ c main_arg6 (by decide)).trans (W38_arg6 m ρ c)
theorem W40_arg6 (c : Dev nD) : W40 m ρ c (Proc.devRef .tc main_arg6) = m ((c : Thread nD τ).loc main_arg6) :=
  (W40_keep m ρ c main_arg6 (by decide)).trans (W39_arg6 m ρ c)
theorem W41_arg6 (c : Dev nD) : W41 m ρ c (Proc.devRef .tc main_arg6) = m ((c : Thread nD τ).loc main_arg6) :=
  (W41_keep m ρ c main_arg6 (by decide)).trans (W40_arg6 m ρ c)
theorem W42_arg6 (c : Dev nD) : W42 m ρ c (Proc.devRef .tc main_arg6) = m ((c : Thread nD τ).loc main_arg6) :=
  (W42_keep m ρ c main_arg6 (by decide)).trans (W41_arg6 m ρ c)
theorem W43_arg6 (c : Dev nD) : W43 m ρ c (Proc.devRef .tc main_arg6) = m ((c : Thread nD τ).loc main_arg6) :=
  (W43_keep m ρ c main_arg6 (by decide)).trans (W42_arg6 m ρ c)
theorem W44_arg6 (c : Dev nD) : W44 m ρ c (Proc.devRef .tc main_arg6) = m ((c : Thread nD τ).loc main_arg6) :=
  (W44_of_ne m ρ c main_arg6 (by decide)).trans (W43_arg6 m ρ c)
theorem W45_arg6 (c : Dev nD) : W45 m ρ c (Proc.devRef .tc main_arg6) = m ((c : Thread nD τ).loc main_arg6) :=
  (W45_keep m ρ c main_arg6 (by decide)).trans (W44_arg6 m ρ c)
theorem W46_arg6 (c : Dev nD) : W46 m ρ c (Proc.devRef .tc main_arg6) = m ((c : Thread nD τ).loc main_arg6) :=
  (W46_of_ne m ρ c main_arg6 (by decide)).trans (W45_arg6 m ρ c)
theorem W47_arg6 (c : Dev nD) : W47 m ρ c (Proc.devRef .tc main_arg6) = m ((c : Thread nD τ).loc main_arg6) :=
  (W47_keep m ρ c main_arg6 (by decide)).trans (W46_arg6 m ρ c)
theorem W48_arg6 (c : Dev nD) : W48 m ρ c (Proc.devRef .tc main_arg6) = m ((c : Thread nD τ).loc main_arg6) :=
  (W48_of_ne m ρ c main_arg6 (by decide)).trans (W47_arg6 m ρ c)
theorem W49_arg6 (c : Dev nD) : W49 m ρ c (Proc.devRef .tc main_arg6) = m ((c : Thread nD τ).loc main_arg6) :=
  (W49_keep m ρ c main_arg6 (by decide)).trans (W48_arg6 m ρ c)
theorem W50_arg6 (c : Dev nD) : W50 m ρ c (Proc.devRef .tc main_arg6) = m ((c : Thread nD τ).loc main_arg6) :=
  (W50_of_ne m ρ c main_arg6 (by decide)).trans (W49_arg6 m ρ c)
theorem W51_arg6 (c : Dev nD) : W51 m ρ c (Proc.devRef .tc main_arg6) = m ((c : Thread nD τ).loc main_arg6) :=
  (W51_keep m ρ c main_arg6 (by decide)).trans (W50_arg6 m ρ c)
theorem W52_arg6 (c : Dev nD) : W52 m ρ c (Proc.devRef .tc main_arg6) = m ((c : Thread nD τ).loc main_arg6) :=
  (W52_keep m ρ c main_arg6 (by decide)).trans (W51_arg6 m ρ c)
theorem W53_arg6 (c : Dev nD) : W53 m ρ c (Proc.devRef .tc main_arg6) = m ((c : Thread nD τ).loc main_arg6) :=
  (W53_keep m ρ c main_arg6 (by decide)).trans (W52_arg6 m ρ c)
theorem W54_arg6 (c : Dev nD) : W54 m ρ c (Proc.devRef .tc main_arg6) = m ((c : Thread nD τ).loc main_arg6) :=
  (W54_keep m ρ c main_arg6 (by decide)).trans (W53_arg6 m ρ c)
theorem W55_arg6 (c : Dev nD) : W55 m ρ c (Proc.devRef .tc main_arg6) = m ((c : Thread nD τ).loc main_arg6) :=
  (W55_keep m ρ c main_arg6 (by decide)).trans (W54_arg6 m ρ c)
theorem W56_arg6 (c : Dev nD) : W56 m ρ c (Proc.devRef .tc main_arg6) = m ((c : Thread nD τ).loc main_arg6) :=
  (W56_of_ne m ρ c main_arg6 (by decide)).trans (W55_arg6 m ρ c)
theorem W57_arg6 (c : Dev nD) : W57 m ρ c (Proc.devRef .tc main_arg6) = m ((c : Thread nD τ).loc main_arg6) :=
  (W57_keep m ρ c main_arg6 (by decide)).trans (W56_arg6 m ρ c)
theorem W58_arg6 (c : Dev nD) : W58 m ρ c (Proc.devRef .tc main_arg6) = m ((c : Thread nD τ).loc main_arg6) :=
  (W58_keep m ρ c main_arg6 (by decide)).trans (W57_arg6 m ρ c)
theorem W59_arg6 (c : Dev nD) : W59 m ρ c (Proc.devRef .tc main_arg6) = m ((c : Thread nD τ).loc main_arg6) :=
  (W59_keep m ρ c main_arg6 (by decide)).trans (W58_arg6 m ρ c)
theorem W60_arg6 (c : Dev nD) : W60 m ρ c (Proc.devRef .tc main_arg6) = m ((c : Thread nD τ).loc main_arg6) :=
  (W60_keep m ρ c main_arg6 (by decide)).trans (W59_arg6 m ρ c)
theorem W61_arg6 (c : Dev nD) : W61 m ρ c (Proc.devRef .tc main_arg6) = m ((c : Thread nD τ).loc main_arg6) :=
  (W61_keep m ρ c main_arg6 (by decide)).trans (W60_arg6 m ρ c)
theorem W62_arg6 (c : Dev nD) : W62 m ρ c (Proc.devRef .tc main_arg6) = m ((c : Thread nD τ).loc main_arg6) :=
  (W62_of_ne m ρ c main_arg6 (by decide)).trans (W61_arg6 m ρ c)
theorem W63_arg6 (c : Dev nD) : W63 m ρ c (Proc.devRef .tc main_arg6) = m ((c : Thread nD τ).loc main_arg6) :=
  (W63_keep m ρ c main_arg6 (by decide)).trans (W62_arg6 m ρ c)
theorem W64_arg6 (c : Dev nD) : W64 m ρ c (Proc.devRef .tc main_arg6) = m ((c : Thread nD τ).loc main_arg6) :=
  (W64_keep m ρ c main_arg6 (by decide)).trans (W63_arg6 m ρ c)
theorem W65_arg6 (c : Dev nD) : W65 m ρ c (Proc.devRef .tc main_arg6) = m ((c : Thread nD τ).loc main_arg6) :=
  (W65_keep m ρ c main_arg6 (by decide)).trans (W64_arg6 m ρ c)
theorem W66_arg6 (c : Dev nD) : W66 m ρ c (Proc.devRef .tc main_arg6) = m ((c : Thread nD τ).loc main_arg6) :=
  (W66_keep m ρ c main_arg6 (by decide)).trans (W65_arg6 m ρ c)
theorem W67_arg6 (c : Dev nD) : W67 m ρ c (Proc.devRef .tc main_arg6) = m ((c : Thread nD τ).loc main_arg6) :=
  (W67_keep m ρ c main_arg6 (by decide)).trans (W66_arg6 m ρ c)
theorem W68_arg6 (c : Dev nD) : W68 m ρ c (Proc.devRef .tc main_arg6) = m ((c : Thread nD τ).loc main_arg6) :=
  (W68_of_ne m ρ c main_arg6 (by decide)).trans (W67_arg6 m ρ c)
theorem W69_arg6 (c : Dev nD) : W69 m ρ c (Proc.devRef .tc main_arg6) = m ((c : Thread nD τ).loc main_arg6) :=
  (W69_keep m ρ c main_arg6 (by decide)).trans (W68_arg6 m ρ c)
theorem W70_arg6 (c : Dev nD) : W70 m ρ c (Proc.devRef .tc main_arg6) = m ((c : Thread nD τ).loc main_arg6) :=
  (W70_keep m ρ c main_arg6 (by decide)).trans (W69_arg6 m ρ c)
theorem W71_arg6 (c : Dev nD) : W71 m ρ c (Proc.devRef .tc main_arg6) = m ((c : Thread nD τ).loc main_arg6) :=
  (W71_keep m ρ c main_arg6 (by decide)).trans (W70_arg6 m ρ c)
theorem W72_arg6 (c : Dev nD) : W72 m ρ c (Proc.devRef .tc main_arg6) = m ((c : Thread nD τ).loc main_arg6) :=
  (W72_keep m ρ c main_arg6 (by decide)).trans (W71_arg6 m ρ c)
theorem W73_arg6 (c : Dev nD) : W73 m ρ c (Proc.devRef .tc main_arg6) = m ((c : Thread nD τ).loc main_arg6) :=
  (W73_keep m ρ c main_arg6 (by decide)).trans (W72_arg6 m ρ c)
theorem W74_arg6 (c : Dev nD) : W74 m ρ c (Proc.devRef .tc main_arg6) = m ((c : Thread nD τ).loc main_arg6) :=
  (W74_of_ne m ρ c main_arg6 (by decide)).trans (W73_arg6 m ρ c)
theorem W75_arg6 (c : Dev nD) : W75 m ρ c (Proc.devRef .tc main_arg6) = m ((c : Thread nD τ).loc main_arg6) :=
  (W75_keep m ρ c main_arg6 (by decide)).trans (W74_arg6 m ρ c)
theorem W76_arg6 (c : Dev nD) : W76 m ρ c (Proc.devRef .tc main_arg6) = m ((c : Thread nD τ).loc main_arg6) :=
  (W76_keep m ρ c main_arg6 (by decide)).trans (W75_arg6 m ρ c)
theorem W77_arg6 (c : Dev nD) : W77 m ρ c (Proc.devRef .tc main_arg6) = m ((c : Thread nD τ).loc main_arg6) :=
  (W77_keep m ρ c main_arg6 (by decide)).trans (W76_arg6 m ρ c)
theorem W78_arg6 (c : Dev nD) : W78 m ρ c (Proc.devRef .tc main_arg6) = m ((c : Thread nD τ).loc main_arg6) :=
  (W78_keep m ρ c main_arg6 (by decide)).trans (W77_arg6 m ρ c)
theorem W79_arg6 (c : Dev nD) : W79 m ρ c (Proc.devRef .tc main_arg6) = m ((c : Thread nD τ).loc main_arg6) :=
  (W79_keep m ρ c main_arg6 (by decide)).trans (W78_arg6 m ρ c)
theorem W80_arg6 (c : Dev nD) : W80 m ρ c (Proc.devRef .tc main_arg6) = m ((c : Thread nD τ).loc main_arg6) :=
  (W80_of_ne m ρ c main_arg6 (by decide)).trans (W79_arg6 m ρ c)
theorem W81_arg6 (c : Dev nD) : W81 m ρ c (Proc.devRef .tc main_arg6) = m ((c : Thread nD τ).loc main_arg6) :=
  (W81_keep m ρ c main_arg6 (by decide)).trans (W80_arg6 m ρ c)
theorem W82_arg6 (c : Dev nD) : W82 m ρ c (Proc.devRef .tc main_arg6) = m ((c : Thread nD τ).loc main_arg6) :=
  (W82_keep m ρ c main_arg6 (by decide)).trans (W81_arg6 m ρ c)
theorem W83_arg6 (c : Dev nD) : W83 m ρ c (Proc.devRef .tc main_arg6) = m ((c : Thread nD τ).loc main_arg6) :=
  (W83_keep m ρ c main_arg6 (by decide)).trans (W82_arg6 m ρ c)
theorem W84_arg6 (c : Dev nD) : W84 m ρ c (Proc.devRef .tc main_arg6) = m ((c : Thread nD τ).loc main_arg6) :=
  (W84_keep m ρ c main_arg6 (by decide)).trans (W83_arg6 m ρ c)
theorem W85_arg6 (c : Dev nD) : W85 m ρ c (Proc.devRef .tc main_arg6) = m ((c : Thread nD τ).loc main_arg6) :=
  (W85_keep m ρ c main_arg6 (by decide)).trans (W84_arg6 m ρ c)
theorem W86_arg6 (c : Dev nD) : W86 m ρ c (Proc.devRef .tc main_arg6) = m ((c : Thread nD τ).loc main_arg6) :=
  (W86_of_ne m ρ c main_arg6 (by decide)).trans (W85_arg6 m ρ c)
theorem W87_arg6 (c : Dev nD) : W87 m ρ c (Proc.devRef .tc main_arg6) = m ((c : Thread nD τ).loc main_arg6) :=
  (W87_keep m ρ c main_arg6 (by decide)).trans (W86_arg6 m ρ c)
theorem W88_arg6 (c : Dev nD) : W88 m ρ c (Proc.devRef .tc main_arg6) = m ((c : Thread nD τ).loc main_arg6) :=
  (W88_of_ne m ρ c main_arg6 (by decide)).trans (W87_arg6 m ρ c)
theorem W89_arg6 (c : Dev nD) : W89 m ρ c (Proc.devRef .tc main_arg6) = m ((c : Thread nD τ).loc main_arg6) :=
  (W89_keep m ρ c main_arg6 (by decide)).trans (W88_arg6 m ρ c)
theorem W90_arg6 (c : Dev nD) : W90 m ρ c (Proc.devRef .tc main_arg6) = m ((c : Thread nD τ).loc main_arg6) :=
  (W90_of_ne m ρ c main_arg6 (by decide)).trans (W89_arg6 m ρ c)
theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) :=
  (W1_keep m ρ c main_arg7 (by decide)).trans (W0_arg7 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  (W3_keep m ρ c main_arg7 (by decide)).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) :=
  (W5_keep m ρ c main_arg7 (by decide)).trans (W4_arg7 m ρ c)
theorem W6_arg7 (c : Dev nD) : W6 m ρ c (Proc.devRef .tc main_arg7) = m ((c : Thread nD τ).loc main_arg7) :=
  (W6_in1 m ρ c).trans (W5_arg7 m ρ c)
theorem W7_arg7 (c : Dev nD) : W7 m ρ c (Proc.devRef .tc main_arg7) = m ((c : Thread nD τ).loc main_arg7) :=
  (W7_keep m ρ c main_arg7 (by decide)).trans (W6_arg7 m ρ c)
theorem W8_arg7 (c : Dev nD) : W8 m ρ c (Proc.devRef .tc main_arg7) = m ((c : Thread nD τ).loc main_arg7) :=
  (W8_of_ne m ρ c main_arg7 (by decide)).trans (W7_arg7 m ρ c)
theorem W9_arg7 (c : Dev nD) : W9 m ρ c (Proc.devRef .tc main_arg7) = m ((c : Thread nD τ).loc main_arg7) :=
  (W9_keep m ρ c main_arg7 (by decide)).trans (W8_arg7 m ρ c)
theorem W10_arg7 (c : Dev nD) : W10 m ρ c (Proc.devRef .tc main_arg7) = m ((c : Thread nD τ).loc main_arg7) :=
  (W10_keep m ρ c main_arg7 (by decide)).trans (W9_arg7 m ρ c)
theorem W11_arg7 (c : Dev nD) : W11 m ρ c (Proc.devRef .tc main_arg7) = m ((c : Thread nD τ).loc main_arg7) :=
  (W11_keep m ρ c main_arg7 (by decide)).trans (W10_arg7 m ρ c)
theorem W12_arg7 (c : Dev nD) : W12 m ρ c (Proc.devRef .tc main_arg7) = m ((c : Thread nD τ).loc main_arg7) :=
  (W12_keep m ρ c main_arg7 (by decide)).trans (W11_arg7 m ρ c)
theorem W13_arg7 (c : Dev nD) : W13 m ρ c (Proc.devRef .tc main_arg7) = m ((c : Thread nD τ).loc main_arg7) :=
  (W13_keep m ρ c main_arg7 (by decide)).trans (W12_arg7 m ρ c)
theorem W14_arg7 (c : Dev nD) : W14 m ρ c (Proc.devRef .tc main_arg7) = m ((c : Thread nD τ).loc main_arg7) :=
  (W14_of_ne m ρ c main_arg7 (by decide)).trans (W13_arg7 m ρ c)
theorem W15_arg7 (c : Dev nD) : W15 m ρ c (Proc.devRef .tc main_arg7) = m ((c : Thread nD τ).loc main_arg7) :=
  (W15_keep m ρ c main_arg7 (by decide)).trans (W14_arg7 m ρ c)
theorem W16_arg7 (c : Dev nD) : W16 m ρ c (Proc.devRef .tc main_arg7) = m ((c : Thread nD τ).loc main_arg7) :=
  (W16_keep m ρ c main_arg7 (by decide)).trans (W15_arg7 m ρ c)
theorem W17_arg7 (c : Dev nD) : W17 m ρ c (Proc.devRef .tc main_arg7) = m ((c : Thread nD τ).loc main_arg7) :=
  (W17_keep m ρ c main_arg7 (by decide)).trans (W16_arg7 m ρ c)
theorem W18_arg7 (c : Dev nD) : W18 m ρ c (Proc.devRef .tc main_arg7) = m ((c : Thread nD τ).loc main_arg7) :=
  (W18_keep m ρ c main_arg7 (by decide)).trans (W17_arg7 m ρ c)
theorem W19_arg7 (c : Dev nD) : W19 m ρ c (Proc.devRef .tc main_arg7) = m ((c : Thread nD τ).loc main_arg7) :=
  (W19_keep m ρ c main_arg7 (by decide)).trans (W18_arg7 m ρ c)
theorem W20_arg7 (c : Dev nD) : W20 m ρ c (Proc.devRef .tc main_arg7) = m ((c : Thread nD τ).loc main_arg7) :=
  (W20_of_ne m ρ c main_arg7 (by decide)).trans (W19_arg7 m ρ c)
theorem W21_arg7 (c : Dev nD) : W21 m ρ c (Proc.devRef .tc main_arg7) = m ((c : Thread nD τ).loc main_arg7) :=
  (W21_keep m ρ c main_arg7 (by decide)).trans (W20_arg7 m ρ c)
theorem W22_arg7 (c : Dev nD) : W22 m ρ c (Proc.devRef .tc main_arg7) = m ((c : Thread nD τ).loc main_arg7) :=
  (W22_keep m ρ c main_arg7 (by decide)).trans (W21_arg7 m ρ c)
theorem W23_arg7 (c : Dev nD) : W23 m ρ c (Proc.devRef .tc main_arg7) = m ((c : Thread nD τ).loc main_arg7) :=
  (W23_keep m ρ c main_arg7 (by decide)).trans (W22_arg7 m ρ c)
theorem W24_arg7 (c : Dev nD) : W24 m ρ c (Proc.devRef .tc main_arg7) = m ((c : Thread nD τ).loc main_arg7) :=
  (W24_keep m ρ c main_arg7 (by decide)).trans (W23_arg7 m ρ c)
theorem W25_arg7 (c : Dev nD) : W25 m ρ c (Proc.devRef .tc main_arg7) = m ((c : Thread nD τ).loc main_arg7) :=
  (W25_keep m ρ c main_arg7 (by decide)).trans (W24_arg7 m ρ c)
theorem W26_arg7 (c : Dev nD) : W26 m ρ c (Proc.devRef .tc main_arg7) = m ((c : Thread nD τ).loc main_arg7) :=
  (W26_of_ne m ρ c main_arg7 (by decide)).trans (W25_arg7 m ρ c)
theorem W27_arg7 (c : Dev nD) : W27 m ρ c (Proc.devRef .tc main_arg7) = m ((c : Thread nD τ).loc main_arg7) :=
  (W27_keep m ρ c main_arg7 (by decide)).trans (W26_arg7 m ρ c)
theorem W28_arg7 (c : Dev nD) : W28 m ρ c (Proc.devRef .tc main_arg7) = m ((c : Thread nD τ).loc main_arg7) :=
  (W28_keep m ρ c main_arg7 (by decide)).trans (W27_arg7 m ρ c)
theorem W29_arg7 (c : Dev nD) : W29 m ρ c (Proc.devRef .tc main_arg7) = m ((c : Thread nD τ).loc main_arg7) :=
  (W29_keep m ρ c main_arg7 (by decide)).trans (W28_arg7 m ρ c)
theorem W30_arg7 (c : Dev nD) : W30 m ρ c (Proc.devRef .tc main_arg7) = m ((c : Thread nD τ).loc main_arg7) :=
  (W30_keep m ρ c main_arg7 (by decide)).trans (W29_arg7 m ρ c)
theorem W31_arg7 (c : Dev nD) : W31 m ρ c (Proc.devRef .tc main_arg7) = m ((c : Thread nD τ).loc main_arg7) :=
  (W31_keep m ρ c main_arg7 (by decide)).trans (W30_arg7 m ρ c)
theorem W32_arg7 (c : Dev nD) : W32 m ρ c (Proc.devRef .tc main_arg7) = m ((c : Thread nD τ).loc main_arg7) :=
  (W32_of_ne m ρ c main_arg7 (by decide)).trans (W31_arg7 m ρ c)
theorem W33_arg7 (c : Dev nD) : W33 m ρ c (Proc.devRef .tc main_arg7) = m ((c : Thread nD τ).loc main_arg7) :=
  (W33_keep m ρ c main_arg7 (by decide)).trans (W32_arg7 m ρ c)
theorem W34_arg7 (c : Dev nD) : W34 m ρ c (Proc.devRef .tc main_arg7) = m ((c : Thread nD τ).loc main_arg7) :=
  (W34_keep m ρ c main_arg7 (by decide)).trans (W33_arg7 m ρ c)
theorem W35_arg7 (c : Dev nD) : W35 m ρ c (Proc.devRef .tc main_arg7) = m ((c : Thread nD τ).loc main_arg7) :=
  (W35_keep m ρ c main_arg7 (by decide)).trans (W34_arg7 m ρ c)
theorem W36_arg7 (c : Dev nD) : W36 m ρ c (Proc.devRef .tc main_arg7) = m ((c : Thread nD τ).loc main_arg7) :=
  (W36_keep m ρ c main_arg7 (by decide)).trans (W35_arg7 m ρ c)
theorem W37_arg7 (c : Dev nD) : W37 m ρ c (Proc.devRef .tc main_arg7) = m ((c : Thread nD τ).loc main_arg7) :=
  (W37_keep m ρ c main_arg7 (by decide)).trans (W36_arg7 m ρ c)
theorem W38_arg7 (c : Dev nD) : W38 m ρ c (Proc.devRef .tc main_arg7) = m ((c : Thread nD τ).loc main_arg7) :=
  (W38_of_ne m ρ c main_arg7 (by decide)).trans (W37_arg7 m ρ c)
theorem W39_arg7 (c : Dev nD) : W39 m ρ c (Proc.devRef .tc main_arg7) = m ((c : Thread nD τ).loc main_arg7) :=
  (W39_keep m ρ c main_arg7 (by decide)).trans (W38_arg7 m ρ c)
theorem W40_arg7 (c : Dev nD) : W40 m ρ c (Proc.devRef .tc main_arg7) = m ((c : Thread nD τ).loc main_arg7) :=
  (W40_keep m ρ c main_arg7 (by decide)).trans (W39_arg7 m ρ c)
theorem W41_arg7 (c : Dev nD) : W41 m ρ c (Proc.devRef .tc main_arg7) = m ((c : Thread nD τ).loc main_arg7) :=
  (W41_keep m ρ c main_arg7 (by decide)).trans (W40_arg7 m ρ c)
theorem W42_arg7 (c : Dev nD) : W42 m ρ c (Proc.devRef .tc main_arg7) = m ((c : Thread nD τ).loc main_arg7) :=
  (W42_keep m ρ c main_arg7 (by decide)).trans (W41_arg7 m ρ c)
theorem W43_arg7 (c : Dev nD) : W43 m ρ c (Proc.devRef .tc main_arg7) = m ((c : Thread nD τ).loc main_arg7) :=
  (W43_keep m ρ c main_arg7 (by decide)).trans (W42_arg7 m ρ c)
theorem W44_arg7 (c : Dev nD) : W44 m ρ c (Proc.devRef .tc main_arg7) = m ((c : Thread nD τ).loc main_arg7) :=
  (W44_of_ne m ρ c main_arg7 (by decide)).trans (W43_arg7 m ρ c)
theorem W45_arg7 (c : Dev nD) : W45 m ρ c (Proc.devRef .tc main_arg7) = m ((c : Thread nD τ).loc main_arg7) :=
  (W45_keep m ρ c main_arg7 (by decide)).trans (W44_arg7 m ρ c)
theorem W46_arg7 (c : Dev nD) : W46 m ρ c (Proc.devRef .tc main_arg7) = m ((c : Thread nD τ).loc main_arg7) :=
  (W46_of_ne m ρ c main_arg7 (by decide)).trans (W45_arg7 m ρ c)
theorem W47_arg7 (c : Dev nD) : W47 m ρ c (Proc.devRef .tc main_arg7) = m ((c : Thread nD τ).loc main_arg7) :=
  (W47_keep m ρ c main_arg7 (by decide)).trans (W46_arg7 m ρ c)
theorem W48_arg7 (c : Dev nD) : W48 m ρ c (Proc.devRef .tc main_arg7) = m ((c : Thread nD τ).loc main_arg7) :=
  (W48_of_ne m ρ c main_arg7 (by decide)).trans (W47_arg7 m ρ c)
theorem W49_arg7 (c : Dev nD) : W49 m ρ c (Proc.devRef .tc main_arg7) = m ((c : Thread nD τ).loc main_arg7) :=
  (W49_keep m ρ c main_arg7 (by decide)).trans (W48_arg7 m ρ c)
theorem W50_arg7 (c : Dev nD) : W50 m ρ c (Proc.devRef .tc main_arg7) = m ((c : Thread nD τ).loc main_arg7) :=
  (W50_of_ne m ρ c main_arg7 (by decide)).trans (W49_arg7 m ρ c)
theorem W51_arg7 (c : Dev nD) : W51 m ρ c (Proc.devRef .tc main_arg7) = m ((c : Thread nD τ).loc main_arg7) :=
  (W51_keep m ρ c main_arg7 (by decide)).trans (W50_arg7 m ρ c)
theorem W52_arg7 (c : Dev nD) : W52 m ρ c (Proc.devRef .tc main_arg7) = m ((c : Thread nD τ).loc main_arg7) :=
  (W52_keep m ρ c main_arg7 (by decide)).trans (W51_arg7 m ρ c)
theorem W53_arg7 (c : Dev nD) : W53 m ρ c (Proc.devRef .tc main_arg7) = m ((c : Thread nD τ).loc main_arg7) :=
  (W53_keep m ρ c main_arg7 (by decide)).trans (W52_arg7 m ρ c)
theorem W54_arg7 (c : Dev nD) : W54 m ρ c (Proc.devRef .tc main_arg7) = m ((c : Thread nD τ).loc main_arg7) :=
  (W54_keep m ρ c main_arg7 (by decide)).trans (W53_arg7 m ρ c)
theorem W55_arg7 (c : Dev nD) : W55 m ρ c (Proc.devRef .tc main_arg7) = m ((c : Thread nD τ).loc main_arg7) :=
  (W55_keep m ρ c main_arg7 (by decide)).trans (W54_arg7 m ρ c)
theorem W56_arg7 (c : Dev nD) : W56 m ρ c (Proc.devRef .tc main_arg7) = m ((c : Thread nD τ).loc main_arg7) :=
  (W56_of_ne m ρ c main_arg7 (by decide)).trans (W55_arg7 m ρ c)
theorem W57_arg7 (c : Dev nD) : W57 m ρ c (Proc.devRef .tc main_arg7) = m ((c : Thread nD τ).loc main_arg7) :=
  (W57_keep m ρ c main_arg7 (by decide)).trans (W56_arg7 m ρ c)
theorem W58_arg7 (c : Dev nD) : W58 m ρ c (Proc.devRef .tc main_arg7) = m ((c : Thread nD τ).loc main_arg7) :=
  (W58_keep m ρ c main_arg7 (by decide)).trans (W57_arg7 m ρ c)
theorem W59_arg7 (c : Dev nD) : W59 m ρ c (Proc.devRef .tc main_arg7) = m ((c : Thread nD τ).loc main_arg7) :=
  (W59_keep m ρ c main_arg7 (by decide)).trans (W58_arg7 m ρ c)
theorem W60_arg7 (c : Dev nD) : W60 m ρ c (Proc.devRef .tc main_arg7) = m ((c : Thread nD τ).loc main_arg7) :=
  (W60_keep m ρ c main_arg7 (by decide)).trans (W59_arg7 m ρ c)
theorem W61_arg7 (c : Dev nD) : W61 m ρ c (Proc.devRef .tc main_arg7) = m ((c : Thread nD τ).loc main_arg7) :=
  (W61_keep m ρ c main_arg7 (by decide)).trans (W60_arg7 m ρ c)
theorem W62_arg7 (c : Dev nD) : W62 m ρ c (Proc.devRef .tc main_arg7) = m ((c : Thread nD τ).loc main_arg7) :=
  (W62_of_ne m ρ c main_arg7 (by decide)).trans (W61_arg7 m ρ c)
theorem W63_arg7 (c : Dev nD) : W63 m ρ c (Proc.devRef .tc main_arg7) = m ((c : Thread nD τ).loc main_arg7) :=
  (W63_keep m ρ c main_arg7 (by decide)).trans (W62_arg7 m ρ c)
theorem W64_arg7 (c : Dev nD) : W64 m ρ c (Proc.devRef .tc main_arg7) = m ((c : Thread nD τ).loc main_arg7) :=
  (W64_keep m ρ c main_arg7 (by decide)).trans (W63_arg7 m ρ c)
theorem W65_arg7 (c : Dev nD) : W65 m ρ c (Proc.devRef .tc main_arg7) = m ((c : Thread nD τ).loc main_arg7) :=
  (W65_keep m ρ c main_arg7 (by decide)).trans (W64_arg7 m ρ c)
theorem W66_arg7 (c : Dev nD) : W66 m ρ c (Proc.devRef .tc main_arg7) = m ((c : Thread nD τ).loc main_arg7) :=
  (W66_keep m ρ c main_arg7 (by decide)).trans (W65_arg7 m ρ c)
theorem W67_arg7 (c : Dev nD) : W67 m ρ c (Proc.devRef .tc main_arg7) = m ((c : Thread nD τ).loc main_arg7) :=
  (W67_keep m ρ c main_arg7 (by decide)).trans (W66_arg7 m ρ c)
theorem W68_arg7 (c : Dev nD) : W68 m ρ c (Proc.devRef .tc main_arg7) = m ((c : Thread nD τ).loc main_arg7) :=
  (W68_of_ne m ρ c main_arg7 (by decide)).trans (W67_arg7 m ρ c)
theorem W69_arg7 (c : Dev nD) : W69 m ρ c (Proc.devRef .tc main_arg7) = m ((c : Thread nD τ).loc main_arg7) :=
  (W69_keep m ρ c main_arg7 (by decide)).trans (W68_arg7 m ρ c)
theorem W70_arg7 (c : Dev nD) : W70 m ρ c (Proc.devRef .tc main_arg7) = m ((c : Thread nD τ).loc main_arg7) :=
  (W70_keep m ρ c main_arg7 (by decide)).trans (W69_arg7 m ρ c)
theorem W71_arg7 (c : Dev nD) : W71 m ρ c (Proc.devRef .tc main_arg7) = m ((c : Thread nD τ).loc main_arg7) :=
  (W71_keep m ρ c main_arg7 (by decide)).trans (W70_arg7 m ρ c)
theorem W72_arg7 (c : Dev nD) : W72 m ρ c (Proc.devRef .tc main_arg7) = m ((c : Thread nD τ).loc main_arg7) :=
  (W72_keep m ρ c main_arg7 (by decide)).trans (W71_arg7 m ρ c)
theorem W73_arg7 (c : Dev nD) : W73 m ρ c (Proc.devRef .tc main_arg7) = m ((c : Thread nD τ).loc main_arg7) :=
  (W73_keep m ρ c main_arg7 (by decide)).trans (W72_arg7 m ρ c)
theorem W74_arg7 (c : Dev nD) : W74 m ρ c (Proc.devRef .tc main_arg7) = m ((c : Thread nD τ).loc main_arg7) :=
  (W74_of_ne m ρ c main_arg7 (by decide)).trans (W73_arg7 m ρ c)
theorem W75_arg7 (c : Dev nD) : W75 m ρ c (Proc.devRef .tc main_arg7) = m ((c : Thread nD τ).loc main_arg7) :=
  (W75_keep m ρ c main_arg7 (by decide)).trans (W74_arg7 m ρ c)
theorem W76_arg7 (c : Dev nD) : W76 m ρ c (Proc.devRef .tc main_arg7) = m ((c : Thread nD τ).loc main_arg7) :=
  (W76_keep m ρ c main_arg7 (by decide)).trans (W75_arg7 m ρ c)
theorem W77_arg7 (c : Dev nD) : W77 m ρ c (Proc.devRef .tc main_arg7) = m ((c : Thread nD τ).loc main_arg7) :=
  (W77_keep m ρ c main_arg7 (by decide)).trans (W76_arg7 m ρ c)
theorem W78_arg7 (c : Dev nD) : W78 m ρ c (Proc.devRef .tc main_arg7) = m ((c : Thread nD τ).loc main_arg7) :=
  (W78_keep m ρ c main_arg7 (by decide)).trans (W77_arg7 m ρ c)
theorem W79_arg7 (c : Dev nD) : W79 m ρ c (Proc.devRef .tc main_arg7) = m ((c : Thread nD τ).loc main_arg7) :=
  (W79_keep m ρ c main_arg7 (by decide)).trans (W78_arg7 m ρ c)
theorem W80_arg7 (c : Dev nD) : W80 m ρ c (Proc.devRef .tc main_arg7) = m ((c : Thread nD τ).loc main_arg7) :=
  (W80_of_ne m ρ c main_arg7 (by decide)).trans (W79_arg7 m ρ c)
theorem W81_arg7 (c : Dev nD) : W81 m ρ c (Proc.devRef .tc main_arg7) = m ((c : Thread nD τ).loc main_arg7) :=
  (W81_keep m ρ c main_arg7 (by decide)).trans (W80_arg7 m ρ c)
theorem W82_arg7 (c : Dev nD) : W82 m ρ c (Proc.devRef .tc main_arg7) = m ((c : Thread nD τ).loc main_arg7) :=
  (W82_keep m ρ c main_arg7 (by decide)).trans (W81_arg7 m ρ c)
theorem W83_arg7 (c : Dev nD) : W83 m ρ c (Proc.devRef .tc main_arg7) = m ((c : Thread nD τ).loc main_arg7) :=
  (W83_keep m ρ c main_arg7 (by decide)).trans (W82_arg7 m ρ c)
theorem W84_arg7 (c : Dev nD) : W84 m ρ c (Proc.devRef .tc main_arg7) = m ((c : Thread nD τ).loc main_arg7) :=
  (W84_keep m ρ c main_arg7 (by decide)).trans (W83_arg7 m ρ c)
theorem W85_arg7 (c : Dev nD) : W85 m ρ c (Proc.devRef .tc main_arg7) = m ((c : Thread nD τ).loc main_arg7) :=
  (W85_keep m ρ c main_arg7 (by decide)).trans (W84_arg7 m ρ c)
theorem W86_arg7 (c : Dev nD) : W86 m ρ c (Proc.devRef .tc main_arg7) = m ((c : Thread nD τ).loc main_arg7) :=
  (W86_of_ne m ρ c main_arg7 (by decide)).trans (W85_arg7 m ρ c)
theorem W87_arg7 (c : Dev nD) : W87 m ρ c (Proc.devRef .tc main_arg7) = m ((c : Thread nD τ).loc main_arg7) :=
  (W87_keep m ρ c main_arg7 (by decide)).trans (W86_arg7 m ρ c)
theorem W88_arg7 (c : Dev nD) : W88 m ρ c (Proc.devRef .tc main_arg7) = m ((c : Thread nD τ).loc main_arg7) :=
  (W88_of_ne m ρ c main_arg7 (by decide)).trans (W87_arg7 m ρ c)
theorem W89_arg7 (c : Dev nD) : W89 m ρ c (Proc.devRef .tc main_arg7) = m ((c : Thread nD τ).loc main_arg7) :=
  (W89_keep m ρ c main_arg7 (by decide)).trans (W88_arg7 m ρ c)
theorem W90_arg7 (c : Dev nD) : W90 m ρ c (Proc.devRef .tc main_arg7) = m ((c : Thread nD τ).loc main_arg7) :=
  (W90_of_ne m ρ c main_arg7 (by decide)).trans (W89_arg7 m ρ c)

end Cert.Kernel.Hand

end
-- ==== Proof.KFoldK.Args1.lean ====
/- The argument arrays main_arg8 .. main_arg15 along the fold: no host operation and no region writes an
   argument (a region that reads one through an input window leaves it as entered), so at every boundary an
   argument's buffer holds its launch contents. One step per boundary, each from the boundary before. -/
import proofs.«147021_j7619271983570_1_alg».proof.Proof.KFoldK.Keep

set_option maxRecDepth 16384

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ) (ρ : Dev nD → PrngReg)

theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) :=
  (W1_keep m ρ c main_arg8 (by decide)).trans (W0_arg8 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (W3_keep m ρ c main_arg8 (by decide)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (W5_keep m ρ c main_arg8 (by decide)).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) :=
  (W7_keep m ρ c main_arg8 (by decide)).trans (W6_arg8 m ρ c)
theorem W8_arg8 (c : Dev nD) : W8 m ρ c (Proc.devRef .tc main_arg8) = m ((c : Thread nD τ).loc main_arg8) :=
  (W8_of_ne m ρ c main_arg8 (by decide)).trans (W7_arg8 m ρ c)
theorem W9_arg8 (c : Dev nD) : W9 m ρ c (Proc.devRef .tc main_arg8) = m ((c : Thread nD τ).loc main_arg8) :=
  (W9_keep m ρ c main_arg8 (by decide)).trans (W8_arg8 m ρ c)
theorem W10_arg8 (c : Dev nD) : W10 m ρ c (Proc.devRef .tc main_arg8) = m ((c : Thread nD τ).loc main_arg8) :=
  (W10_keep m ρ c main_arg8 (by decide)).trans (W9_arg8 m ρ c)
theorem W11_arg8 (c : Dev nD) : W11 m ρ c (Proc.devRef .tc main_arg8) = m ((c : Thread nD τ).loc main_arg8) :=
  (W11_keep m ρ c main_arg8 (by decide)).trans (W10_arg8 m ρ c)
theorem W12_arg8 (c : Dev nD) : W12 m ρ c (Proc.devRef .tc main_arg8) = m ((c : Thread nD τ).loc main_arg8) :=
  (W12_keep m ρ c main_arg8 (by decide)).trans (W11_arg8 m ρ c)
theorem W13_arg8 (c : Dev nD) : W13 m ρ c (Proc.devRef .tc main_arg8) = m ((c : Thread nD τ).loc main_arg8) :=
  (W13_keep m ρ c main_arg8 (by decide)).trans (W12_arg8 m ρ c)
theorem W14_arg8 (c : Dev nD) : W14 m ρ c (Proc.devRef .tc main_arg8) = m ((c : Thread nD τ).loc main_arg8) :=
  (W14_of_ne m ρ c main_arg8 (by decide)).trans (W13_arg8 m ρ c)
theorem W15_arg8 (c : Dev nD) : W15 m ρ c (Proc.devRef .tc main_arg8) = m ((c : Thread nD τ).loc main_arg8) :=
  (W15_keep m ρ c main_arg8 (by decide)).trans (W14_arg8 m ρ c)
theorem W16_arg8 (c : Dev nD) : W16 m ρ c (Proc.devRef .tc main_arg8) = m ((c : Thread nD τ).loc main_arg8) :=
  (W16_keep m ρ c main_arg8 (by decide)).trans (W15_arg8 m ρ c)
theorem W17_arg8 (c : Dev nD) : W17 m ρ c (Proc.devRef .tc main_arg8) = m ((c : Thread nD τ).loc main_arg8) :=
  (W17_keep m ρ c main_arg8 (by decide)).trans (W16_arg8 m ρ c)
theorem W18_arg8 (c : Dev nD) : W18 m ρ c (Proc.devRef .tc main_arg8) = m ((c : Thread nD τ).loc main_arg8) :=
  (W18_keep m ρ c main_arg8 (by decide)).trans (W17_arg8 m ρ c)
theorem W19_arg8 (c : Dev nD) : W19 m ρ c (Proc.devRef .tc main_arg8) = m ((c : Thread nD τ).loc main_arg8) :=
  (W19_keep m ρ c main_arg8 (by decide)).trans (W18_arg8 m ρ c)
theorem W20_arg8 (c : Dev nD) : W20 m ρ c (Proc.devRef .tc main_arg8) = m ((c : Thread nD τ).loc main_arg8) :=
  (W20_of_ne m ρ c main_arg8 (by decide)).trans (W19_arg8 m ρ c)
theorem W21_arg8 (c : Dev nD) : W21 m ρ c (Proc.devRef .tc main_arg8) = m ((c : Thread nD τ).loc main_arg8) :=
  (W21_keep m ρ c main_arg8 (by decide)).trans (W20_arg8 m ρ c)
theorem W22_arg8 (c : Dev nD) : W22 m ρ c (Proc.devRef .tc main_arg8) = m ((c : Thread nD τ).loc main_arg8) :=
  (W22_keep m ρ c main_arg8 (by decide)).trans (W21_arg8 m ρ c)
theorem W23_arg8 (c : Dev nD) : W23 m ρ c (Proc.devRef .tc main_arg8) = m ((c : Thread nD τ).loc main_arg8) :=
  (W23_keep m ρ c main_arg8 (by decide)).trans (W22_arg8 m ρ c)
theorem W24_arg8 (c : Dev nD) : W24 m ρ c (Proc.devRef .tc main_arg8) = m ((c : Thread nD τ).loc main_arg8) :=
  (W24_keep m ρ c main_arg8 (by decide)).trans (W23_arg8 m ρ c)
theorem W25_arg8 (c : Dev nD) : W25 m ρ c (Proc.devRef .tc main_arg8) = m ((c : Thread nD τ).loc main_arg8) :=
  (W25_keep m ρ c main_arg8 (by decide)).trans (W24_arg8 m ρ c)
theorem W26_arg8 (c : Dev nD) : W26 m ρ c (Proc.devRef .tc main_arg8) = m ((c : Thread nD τ).loc main_arg8) :=
  (W26_of_ne m ρ c main_arg8 (by decide)).trans (W25_arg8 m ρ c)
theorem W27_arg8 (c : Dev nD) : W27 m ρ c (Proc.devRef .tc main_arg8) = m ((c : Thread nD τ).loc main_arg8) :=
  (W27_keep m ρ c main_arg8 (by decide)).trans (W26_arg8 m ρ c)
theorem W28_arg8 (c : Dev nD) : W28 m ρ c (Proc.devRef .tc main_arg8) = m ((c : Thread nD τ).loc main_arg8) :=
  (W28_keep m ρ c main_arg8 (by decide)).trans (W27_arg8 m ρ c)
theorem W29_arg8 (c : Dev nD) : W29 m ρ c (Proc.devRef .tc main_arg8) = m ((c : Thread nD τ).loc main_arg8) :=
  (W29_keep m ρ c main_arg8 (by decide)).trans (W28_arg8 m ρ c)
theorem W30_arg8 (c : Dev nD) : W30 m ρ c (Proc.devRef .tc main_arg8) = m ((c : Thread nD τ).loc main_arg8) :=
  (W30_keep m ρ c main_arg8 (by decide)).trans (W29_arg8 m ρ c)
theorem W31_arg8 (c : Dev nD) : W31 m ρ c (Proc.devRef .tc main_arg8) = m ((c : Thread nD τ).loc main_arg8) :=
  (W31_keep m ρ c main_arg8 (by decide)).trans (W30_arg8 m ρ c)
theorem W32_arg8 (c : Dev nD) : W32 m ρ c (Proc.devRef .tc main_arg8) = m ((c : Thread nD τ).loc main_arg8) :=
  (W32_of_ne m ρ c main_arg8 (by decide)).trans (W31_arg8 m ρ c)
theorem W33_arg8 (c : Dev nD) : W33 m ρ c (Proc.devRef .tc main_arg8) = m ((c : Thread nD τ).loc main_arg8) :=
  (W33_keep m ρ c main_arg8 (by decide)).trans (W32_arg8 m ρ c)
theorem W34_arg8 (c : Dev nD) : W34 m ρ c (Proc.devRef .tc main_arg8) = m ((c : Thread nD τ).loc main_arg8) :=
  (W34_keep m ρ c main_arg8 (by decide)).trans (W33_arg8 m ρ c)
theorem W35_arg8 (c : Dev nD) : W35 m ρ c (Proc.devRef .tc main_arg8) = m ((c : Thread nD τ).loc main_arg8) :=
  (W35_keep m ρ c main_arg8 (by decide)).trans (W34_arg8 m ρ c)
theorem W36_arg8 (c : Dev nD) : W36 m ρ c (Proc.devRef .tc main_arg8) = m ((c : Thread nD τ).loc main_arg8) :=
  (W36_keep m ρ c main_arg8 (by decide)).trans (W35_arg8 m ρ c)
theorem W37_arg8 (c : Dev nD) : W37 m ρ c (Proc.devRef .tc main_arg8) = m ((c : Thread nD τ).loc main_arg8) :=
  (W37_keep m ρ c main_arg8 (by decide)).trans (W36_arg8 m ρ c)
theorem W38_arg8 (c : Dev nD) : W38 m ρ c (Proc.devRef .tc main_arg8) = m ((c : Thread nD τ).loc main_arg8) :=
  (W38_of_ne m ρ c main_arg8 (by decide)).trans (W37_arg8 m ρ c)
theorem W39_arg8 (c : Dev nD) : W39 m ρ c (Proc.devRef .tc main_arg8) = m ((c : Thread nD τ).loc main_arg8) :=
  (W39_keep m ρ c main_arg8 (by decide)).trans (W38_arg8 m ρ c)
theorem W40_arg8 (c : Dev nD) : W40 m ρ c (Proc.devRef .tc main_arg8) = m ((c : Thread nD τ).loc main_arg8) :=
  (W40_keep m ρ c main_arg8 (by decide)).trans (W39_arg8 m ρ c)
theorem W41_arg8 (c : Dev nD) : W41 m ρ c (Proc.devRef .tc main_arg8) = m ((c : Thread nD τ).loc main_arg8) :=
  (W41_keep m ρ c main_arg8 (by decide)).trans (W40_arg8 m ρ c)
theorem W42_arg8 (c : Dev nD) : W42 m ρ c (Proc.devRef .tc main_arg8) = m ((c : Thread nD τ).loc main_arg8) :=
  (W42_keep m ρ c main_arg8 (by decide)).trans (W41_arg8 m ρ c)
theorem W43_arg8 (c : Dev nD) : W43 m ρ c (Proc.devRef .tc main_arg8) = m ((c : Thread nD τ).loc main_arg8) :=
  (W43_keep m ρ c main_arg8 (by decide)).trans (W42_arg8 m ρ c)
theorem W44_arg8 (c : Dev nD) : W44 m ρ c (Proc.devRef .tc main_arg8) = m ((c : Thread nD τ).loc main_arg8) :=
  (W44_of_ne m ρ c main_arg8 (by decide)).trans (W43_arg8 m ρ c)
theorem W45_arg8 (c : Dev nD) : W45 m ρ c (Proc.devRef .tc main_arg8) = m ((c : Thread nD τ).loc main_arg8) :=
  (W45_keep m ρ c main_arg8 (by decide)).trans (W44_arg8 m ρ c)
theorem W46_arg8 (c : Dev nD) : W46 m ρ c (Proc.devRef .tc main_arg8) = m ((c : Thread nD τ).loc main_arg8) :=
  (W46_of_ne m ρ c main_arg8 (by decide)).trans (W45_arg8 m ρ c)
theorem W47_arg8 (c : Dev nD) : W47 m ρ c (Proc.devRef .tc main_arg8) = m ((c : Thread nD τ).loc main_arg8) :=
  (W47_keep m ρ c main_arg8 (by decide)).trans (W46_arg8 m ρ c)
theorem W48_arg8 (c : Dev nD) : W48 m ρ c (Proc.devRef .tc main_arg8) = m ((c : Thread nD τ).loc main_arg8) :=
  (W48_of_ne m ρ c main_arg8 (by decide)).trans (W47_arg8 m ρ c)
theorem W49_arg8 (c : Dev nD) : W49 m ρ c (Proc.devRef .tc main_arg8) = m ((c : Thread nD τ).loc main_arg8) :=
  (W49_keep m ρ c main_arg8 (by decide)).trans (W48_arg8 m ρ c)
theorem W50_arg8 (c : Dev nD) : W50 m ρ c (Proc.devRef .tc main_arg8) = m ((c : Thread nD τ).loc main_arg8) :=
  (W50_of_ne m ρ c main_arg8 (by decide)).trans (W49_arg8 m ρ c)
theorem W51_arg8 (c : Dev nD) : W51 m ρ c (Proc.devRef .tc main_arg8) = m ((c : Thread nD τ).loc main_arg8) :=
  (W51_keep m ρ c main_arg8 (by decide)).trans (W50_arg8 m ρ c)
theorem W52_arg8 (c : Dev nD) : W52 m ρ c (Proc.devRef .tc main_arg8) = m ((c : Thread nD τ).loc main_arg8) :=
  (W52_keep m ρ c main_arg8 (by decide)).trans (W51_arg8 m ρ c)
theorem W53_arg8 (c : Dev nD) : W53 m ρ c (Proc.devRef .tc main_arg8) = m ((c : Thread nD τ).loc main_arg8) :=
  (W53_keep m ρ c main_arg8 (by decide)).trans (W52_arg8 m ρ c)
theorem W54_arg8 (c : Dev nD) : W54 m ρ c (Proc.devRef .tc main_arg8) = m ((c : Thread nD τ).loc main_arg8) :=
  (W54_keep m ρ c main_arg8 (by decide)).trans (W53_arg8 m ρ c)
theorem W55_arg8 (c : Dev nD) : W55 m ρ c (Proc.devRef .tc main_arg8) = m ((c : Thread nD τ).loc main_arg8) :=
  (W55_keep m ρ c main_arg8 (by decide)).trans (W54_arg8 m ρ c)
theorem W56_arg8 (c : Dev nD) : W56 m ρ c (Proc.devRef .tc main_arg8) = m ((c : Thread nD τ).loc main_arg8) :=
  (W56_of_ne m ρ c main_arg8 (by decide)).trans (W55_arg8 m ρ c)
theorem W57_arg8 (c : Dev nD) : W57 m ρ c (Proc.devRef .tc main_arg8) = m ((c : Thread nD τ).loc main_arg8) :=
  (W57_keep m ρ c main_arg8 (by decide)).trans (W56_arg8 m ρ c)
theorem W58_arg8 (c : Dev nD) : W58 m ρ c (Proc.devRef .tc main_arg8) = m ((c : Thread nD τ).loc main_arg8) :=
  (W58_keep m ρ c main_arg8 (by decide)).trans (W57_arg8 m ρ c)
theorem W59_arg8 (c : Dev nD) : W59 m ρ c (Proc.devRef .tc main_arg8) = m ((c : Thread nD τ).loc main_arg8) :=
  (W59_keep m ρ c main_arg8 (by decide)).trans (W58_arg8 m ρ c)
theorem W60_arg8 (c : Dev nD) : W60 m ρ c (Proc.devRef .tc main_arg8) = m ((c : Thread nD τ).loc main_arg8) :=
  (W60_keep m ρ c main_arg8 (by decide)).trans (W59_arg8 m ρ c)
theorem W61_arg8 (c : Dev nD) : W61 m ρ c (Proc.devRef .tc main_arg8) = m ((c : Thread nD τ).loc main_arg8) :=
  (W61_keep m ρ c main_arg8 (by decide)).trans (W60_arg8 m ρ c)
theorem W62_arg8 (c : Dev nD) : W62 m ρ c (Proc.devRef .tc main_arg8) = m ((c : Thread nD τ).loc main_arg8) :=
  (W62_of_ne m ρ c main_arg8 (by decide)).trans (W61_arg8 m ρ c)
theorem W63_arg8 (c : Dev nD) : W63 m ρ c (Proc.devRef .tc main_arg8) = m ((c : Thread nD τ).loc main_arg8) :=
  (W63_keep m ρ c main_arg8 (by decide)).trans (W62_arg8 m ρ c)
theorem W64_arg8 (c : Dev nD) : W64 m ρ c (Proc.devRef .tc main_arg8) = m ((c : Thread nD τ).loc main_arg8) :=
  (W64_keep m ρ c main_arg8 (by decide)).trans (W63_arg8 m ρ c)
theorem W65_arg8 (c : Dev nD) : W65 m ρ c (Proc.devRef .tc main_arg8) = m ((c : Thread nD τ).loc main_arg8) :=
  (W65_keep m ρ c main_arg8 (by decide)).trans (W64_arg8 m ρ c)
theorem W66_arg8 (c : Dev nD) : W66 m ρ c (Proc.devRef .tc main_arg8) = m ((c : Thread nD τ).loc main_arg8) :=
  (W66_keep m ρ c main_arg8 (by decide)).trans (W65_arg8 m ρ c)
theorem W67_arg8 (c : Dev nD) : W67 m ρ c (Proc.devRef .tc main_arg8) = m ((c : Thread nD τ).loc main_arg8) :=
  (W67_keep m ρ c main_arg8 (by decide)).trans (W66_arg8 m ρ c)
theorem W68_arg8 (c : Dev nD) : W68 m ρ c (Proc.devRef .tc main_arg8) = m ((c : Thread nD τ).loc main_arg8) :=
  (W68_of_ne m ρ c main_arg8 (by decide)).trans (W67_arg8 m ρ c)
theorem W69_arg8 (c : Dev nD) : W69 m ρ c (Proc.devRef .tc main_arg8) = m ((c : Thread nD τ).loc main_arg8) :=
  (W69_keep m ρ c main_arg8 (by decide)).trans (W68_arg8 m ρ c)
theorem W70_arg8 (c : Dev nD) : W70 m ρ c (Proc.devRef .tc main_arg8) = m ((c : Thread nD τ).loc main_arg8) :=
  (W70_keep m ρ c main_arg8 (by decide)).trans (W69_arg8 m ρ c)
theorem W71_arg8 (c : Dev nD) : W71 m ρ c (Proc.devRef .tc main_arg8) = m ((c : Thread nD τ).loc main_arg8) :=
  (W71_keep m ρ c main_arg8 (by decide)).trans (W70_arg8 m ρ c)
theorem W72_arg8 (c : Dev nD) : W72 m ρ c (Proc.devRef .tc main_arg8) = m ((c : Thread nD τ).loc main_arg8) :=
  (W72_keep m ρ c main_arg8 (by decide)).trans (W71_arg8 m ρ c)
theorem W73_arg8 (c : Dev nD) : W73 m ρ c (Proc.devRef .tc main_arg8) = m ((c : Thread nD τ).loc main_arg8) :=
  (W73_keep m ρ c main_arg8 (by decide)).trans (W72_arg8 m ρ c)
theorem W74_arg8 (c : Dev nD) : W74 m ρ c (Proc.devRef .tc main_arg8) = m ((c : Thread nD τ).loc main_arg8) :=
  (W74_of_ne m ρ c main_arg8 (by decide)).trans (W73_arg8 m ρ c)
theorem W75_arg8 (c : Dev nD) : W75 m ρ c (Proc.devRef .tc main_arg8) = m ((c : Thread nD τ).loc main_arg8) :=
  (W75_keep m ρ c main_arg8 (by decide)).trans (W74_arg8 m ρ c)
theorem W76_arg8 (c : Dev nD) : W76 m ρ c (Proc.devRef .tc main_arg8) = m ((c : Thread nD τ).loc main_arg8) :=
  (W76_keep m ρ c main_arg8 (by decide)).trans (W75_arg8 m ρ c)
theorem W77_arg8 (c : Dev nD) : W77 m ρ c (Proc.devRef .tc main_arg8) = m ((c : Thread nD τ).loc main_arg8) :=
  (W77_keep m ρ c main_arg8 (by decide)).trans (W76_arg8 m ρ c)
theorem W78_arg8 (c : Dev nD) : W78 m ρ c (Proc.devRef .tc main_arg8) = m ((c : Thread nD τ).loc main_arg8) :=
  (W78_keep m ρ c main_arg8 (by decide)).trans (W77_arg8 m ρ c)
theorem W79_arg8 (c : Dev nD) : W79 m ρ c (Proc.devRef .tc main_arg8) = m ((c : Thread nD τ).loc main_arg8) :=
  (W79_keep m ρ c main_arg8 (by decide)).trans (W78_arg8 m ρ c)
theorem W80_arg8 (c : Dev nD) : W80 m ρ c (Proc.devRef .tc main_arg8) = m ((c : Thread nD τ).loc main_arg8) :=
  (W80_of_ne m ρ c main_arg8 (by decide)).trans (W79_arg8 m ρ c)
theorem W81_arg8 (c : Dev nD) : W81 m ρ c (Proc.devRef .tc main_arg8) = m ((c : Thread nD τ).loc main_arg8) :=
  (W81_keep m ρ c main_arg8 (by decide)).trans (W80_arg8 m ρ c)
theorem W82_arg8 (c : Dev nD) : W82 m ρ c (Proc.devRef .tc main_arg8) = m ((c : Thread nD τ).loc main_arg8) :=
  (W82_keep m ρ c main_arg8 (by decide)).trans (W81_arg8 m ρ c)
theorem W83_arg8 (c : Dev nD) : W83 m ρ c (Proc.devRef .tc main_arg8) = m ((c : Thread nD τ).loc main_arg8) :=
  (W83_keep m ρ c main_arg8 (by decide)).trans (W82_arg8 m ρ c)
theorem W84_arg8 (c : Dev nD) : W84 m ρ c (Proc.devRef .tc main_arg8) = m ((c : Thread nD τ).loc main_arg8) :=
  (W84_keep m ρ c main_arg8 (by decide)).trans (W83_arg8 m ρ c)
theorem W85_arg8 (c : Dev nD) : W85 m ρ c (Proc.devRef .tc main_arg8) = m ((c : Thread nD τ).loc main_arg8) :=
  (W85_keep m ρ c main_arg8 (by decide)).trans (W84_arg8 m ρ c)
theorem W86_arg8 (c : Dev nD) : W86 m ρ c (Proc.devRef .tc main_arg8) = m ((c : Thread nD τ).loc main_arg8) :=
  (W86_of_ne m ρ c main_arg8 (by decide)).trans (W85_arg8 m ρ c)
theorem W87_arg8 (c : Dev nD) : W87 m ρ c (Proc.devRef .tc main_arg8) = m ((c : Thread nD τ).loc main_arg8) :=
  (W87_keep m ρ c main_arg8 (by decide)).trans (W86_arg8 m ρ c)
theorem W88_arg8 (c : Dev nD) : W88 m ρ c (Proc.devRef .tc main_arg8) = m ((c : Thread nD τ).loc main_arg8) :=
  (W88_of_ne m ρ c main_arg8 (by decide)).trans (W87_arg8 m ρ c)
theorem W89_arg8 (c : Dev nD) : W89 m ρ c (Proc.devRef .tc main_arg8) = m ((c : Thread nD τ).loc main_arg8) :=
  (W89_keep m ρ c main_arg8 (by decide)).trans (W88_arg8 m ρ c)
theorem W90_arg8 (c : Dev nD) : W90 m ρ c (Proc.devRef .tc main_arg8) = m ((c : Thread nD τ).loc main_arg8) :=
  (W90_of_ne m ρ c main_arg8 (by decide)).trans (W89_arg8 m ρ c)
theorem W0_arg9 (c : Dev nD) : W0 m ρ c (Proc.devRef .tc main_arg9) = m ((c : Thread nD τ).loc main_arg9) := rfl
theorem W1_arg9 (c : Dev nD) : W1 m ρ c (Proc.devRef .tc main_arg9) = m ((c : Thread nD τ).loc main_arg9) :=
  (W1_keep m ρ c main_arg9 (by decide)).trans (W0_arg9 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (W3_keep m ρ c main_arg9 (by decide)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (W5_keep m ρ c main_arg9 (by decide)).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) :=
  (W7_keep m ρ c main_arg9 (by decide)).trans (W6_arg9 m ρ c)
theorem W8_arg9 (c : Dev nD) : W8 m ρ c (Proc.devRef .tc main_arg9) = m ((c : Thread nD τ).loc main_arg9) :=
  (W8_of_ne m ρ c main_arg9 (by decide)).trans (W7_arg9 m ρ c)
theorem W9_arg9 (c : Dev nD) : W9 m ρ c (Proc.devRef .tc main_arg9) = m ((c : Thread nD τ).loc main_arg9) :=
  (W9_keep m ρ c main_arg9 (by decide)).trans (W8_arg9 m ρ c)
theorem W10_arg9 (c : Dev nD) : W10 m ρ c (Proc.devRef .tc main_arg9) = m ((c : Thread nD τ).loc main_arg9) :=
  (W10_keep m ρ c main_arg9 (by decide)).trans (W9_arg9 m ρ c)
theorem W11_arg9 (c : Dev nD) : W11 m ρ c (Proc.devRef .tc main_arg9) = m ((c : Thread nD τ).loc main_arg9) :=
  (W11_keep m ρ c main_arg9 (by decide)).trans (W10_arg9 m ρ c)
theorem W12_arg9 (c : Dev nD) : W12 m ρ c (Proc.devRef .tc main_arg9) = m ((c : Thread nD τ).loc main_arg9) :=
  (W12_keep m ρ c main_arg9 (by decide)).trans (W11_arg9 m ρ c)
theorem W13_arg9 (c : Dev nD) : W13 m ρ c (Proc.devRef .tc main_arg9) = m ((c : Thread nD τ).loc main_arg9) :=
  (W13_keep m ρ c main_arg9 (by decide)).trans (W12_arg9 m ρ c)
theorem W14_arg9 (c : Dev nD) : W14 m ρ c (Proc.devRef .tc main_arg9) = m ((c : Thread nD τ).loc main_arg9) :=
  (W14_of_ne m ρ c main_arg9 (by decide)).trans (W13_arg9 m ρ c)
theorem W15_arg9 (c : Dev nD) : W15 m ρ c (Proc.devRef .tc main_arg9) = m ((c : Thread nD τ).loc main_arg9) :=
  (W15_keep m ρ c main_arg9 (by decide)).trans (W14_arg9 m ρ c)
theorem W16_arg9 (c : Dev nD) : W16 m ρ c (Proc.devRef .tc main_arg9) = m ((c : Thread nD τ).loc main_arg9) :=
  (W16_keep m ρ c main_arg9 (by decide)).trans (W15_arg9 m ρ c)
theorem W17_arg9 (c : Dev nD) : W17 m ρ c (Proc.devRef .tc main_arg9) = m ((c : Thread nD τ).loc main_arg9) :=
  (W17_keep m ρ c main_arg9 (by decide)).trans (W16_arg9 m ρ c)
theorem W18_arg9 (c : Dev nD) : W18 m ρ c (Proc.devRef .tc main_arg9) = m ((c : Thread nD τ).loc main_arg9) :=
  (W18_keep m ρ c main_arg9 (by decide)).trans (W17_arg9 m ρ c)
theorem W19_arg9 (c : Dev nD) : W19 m ρ c (Proc.devRef .tc main_arg9) = m ((c : Thread nD τ).loc main_arg9) :=
  (W19_keep m ρ c main_arg9 (by decide)).trans (W18_arg9 m ρ c)
theorem W20_arg9 (c : Dev nD) : W20 m ρ c (Proc.devRef .tc main_arg9) = m ((c : Thread nD τ).loc main_arg9) :=
  (W20_of_ne m ρ c main_arg9 (by decide)).trans (W19_arg9 m ρ c)
theorem W21_arg9 (c : Dev nD) : W21 m ρ c (Proc.devRef .tc main_arg9) = m ((c : Thread nD τ).loc main_arg9) :=
  (W21_keep m ρ c main_arg9 (by decide)).trans (W20_arg9 m ρ c)
theorem W22_arg9 (c : Dev nD) : W22 m ρ c (Proc.devRef .tc main_arg9) = m ((c : Thread nD τ).loc main_arg9) :=
  (W22_keep m ρ c main_arg9 (by decide)).trans (W21_arg9 m ρ c)
theorem W23_arg9 (c : Dev nD) : W23 m ρ c (Proc.devRef .tc main_arg9) = m ((c : Thread nD τ).loc main_arg9) :=
  (W23_keep m ρ c main_arg9 (by decide)).trans (W22_arg9 m ρ c)
theorem W24_arg9 (c : Dev nD) : W24 m ρ c (Proc.devRef .tc main_arg9) = m ((c : Thread nD τ).loc main_arg9) :=
  (W24_keep m ρ c main_arg9 (by decide)).trans (W23_arg9 m ρ c)
theorem W25_arg9 (c : Dev nD) : W25 m ρ c (Proc.devRef .tc main_arg9) = m ((c : Thread nD τ).loc main_arg9) :=
  (W25_keep m ρ c main_arg9 (by decide)).trans (W24_arg9 m ρ c)
theorem W26_arg9 (c : Dev nD) : W26 m ρ c (Proc.devRef .tc main_arg9) = m ((c : Thread nD τ).loc main_arg9) :=
  (W26_of_ne m ρ c main_arg9 (by decide)).trans (W25_arg9 m ρ c)
theorem W27_arg9 (c : Dev nD) : W27 m ρ c (Proc.devRef .tc main_arg9) = m ((c : Thread nD τ).loc main_arg9) :=
  (W27_keep m ρ c main_arg9 (by decide)).trans (W26_arg9 m ρ c)
theorem W28_arg9 (c : Dev nD) : W28 m ρ c (Proc.devRef .tc main_arg9) = m ((c : Thread nD τ).loc main_arg9) :=
  (W28_keep m ρ c main_arg9 (by decide)).trans (W27_arg9 m ρ c)
theorem W29_arg9 (c : Dev nD) : W29 m ρ c (Proc.devRef .tc main_arg9) = m ((c : Thread nD τ).loc main_arg9) :=
  (W29_keep m ρ c main_arg9 (by decide)).trans (W28_arg9 m ρ c)
theorem W30_arg9 (c : Dev nD) : W30 m ρ c (Proc.devRef .tc main_arg9) = m ((c : Thread nD τ).loc main_arg9) :=
  (W30_keep m ρ c main_arg9 (by decide)).trans (W29_arg9 m ρ c)
theorem W31_arg9 (c : Dev nD) : W31 m ρ c (Proc.devRef .tc main_arg9) = m ((c : Thread nD τ).loc main_arg9) :=
  (W31_keep m ρ c main_arg9 (by decide)).trans (W30_arg9 m ρ c)
theorem W32_arg9 (c : Dev nD) : W32 m ρ c (Proc.devRef .tc main_arg9) = m ((c : Thread nD τ).loc main_arg9) :=
  (W32_of_ne m ρ c main_arg9 (by decide)).trans (W31_arg9 m ρ c)
theorem W33_arg9 (c : Dev nD) : W33 m ρ c (Proc.devRef .tc main_arg9) = m ((c : Thread nD τ).loc main_arg9) :=
  (W33_keep m ρ c main_arg9 (by decide)).trans (W32_arg9 m ρ c)
theorem W34_arg9 (c : Dev nD) : W34 m ρ c (Proc.devRef .tc main_arg9) = m ((c : Thread nD τ).loc main_arg9) :=
  (W34_keep m ρ c main_arg9 (by decide)).trans (W33_arg9 m ρ c)
theorem W35_arg9 (c : Dev nD) : W35 m ρ c (Proc.devRef .tc main_arg9) = m ((c : Thread nD τ).loc main_arg9) :=
  (W35_keep m ρ c main_arg9 (by decide)).trans (W34_arg9 m ρ c)
theorem W36_arg9 (c : Dev nD) : W36 m ρ c (Proc.devRef .tc main_arg9) = m ((c : Thread nD τ).loc main_arg9) :=
  (W36_keep m ρ c main_arg9 (by decide)).trans (W35_arg9 m ρ c)
theorem W37_arg9 (c : Dev nD) : W37 m ρ c (Proc.devRef .tc main_arg9) = m ((c : Thread nD τ).loc main_arg9) :=
  (W37_keep m ρ c main_arg9 (by decide)).trans (W36_arg9 m ρ c)
theorem W38_arg9 (c : Dev nD) : W38 m ρ c (Proc.devRef .tc main_arg9) = m ((c : Thread nD τ).loc main_arg9) :=
  (W38_of_ne m ρ c main_arg9 (by decide)).trans (W37_arg9 m ρ c)
theorem W39_arg9 (c : Dev nD) : W39 m ρ c (Proc.devRef .tc main_arg9) = m ((c : Thread nD τ).loc main_arg9) :=
  (W39_keep m ρ c main_arg9 (by decide)).trans (W38_arg9 m ρ c)
theorem W40_arg9 (c : Dev nD) : W40 m ρ c (Proc.devRef .tc main_arg9) = m ((c : Thread nD τ).loc main_arg9) :=
  (W40_keep m ρ c main_arg9 (by decide)).trans (W39_arg9 m ρ c)
theorem W41_arg9 (c : Dev nD) : W41 m ρ c (Proc.devRef .tc main_arg9) = m ((c : Thread nD τ).loc main_arg9) :=
  (W41_keep m ρ c main_arg9 (by decide)).trans (W40_arg9 m ρ c)
theorem W42_arg9 (c : Dev nD) : W42 m ρ c (Proc.devRef .tc main_arg9) = m ((c : Thread nD τ).loc main_arg9) :=
  (W42_keep m ρ c main_arg9 (by decide)).trans (W41_arg9 m ρ c)
theorem W43_arg9 (c : Dev nD) : W43 m ρ c (Proc.devRef .tc main_arg9) = m ((c : Thread nD τ).loc main_arg9) :=
  (W43_keep m ρ c main_arg9 (by decide)).trans (W42_arg9 m ρ c)
theorem W44_arg9 (c : Dev nD) : W44 m ρ c (Proc.devRef .tc main_arg9) = m ((c : Thread nD τ).loc main_arg9) :=
  (W44_of_ne m ρ c main_arg9 (by decide)).trans (W43_arg9 m ρ c)
theorem W45_arg9 (c : Dev nD) : W45 m ρ c (Proc.devRef .tc main_arg9) = m ((c : Thread nD τ).loc main_arg9) :=
  (W45_keep m ρ c main_arg9 (by decide)).trans (W44_arg9 m ρ c)
theorem W46_arg9 (c : Dev nD) : W46 m ρ c (Proc.devRef .tc main_arg9) = m ((c : Thread nD τ).loc main_arg9) :=
  (W46_of_ne m ρ c main_arg9 (by decide)).trans (W45_arg9 m ρ c)
theorem W47_arg9 (c : Dev nD) : W47 m ρ c (Proc.devRef .tc main_arg9) = m ((c : Thread nD τ).loc main_arg9) :=
  (W47_keep m ρ c main_arg9 (by decide)).trans (W46_arg9 m ρ c)
theorem W48_arg9 (c : Dev nD) : W48 m ρ c (Proc.devRef .tc main_arg9) = m ((c : Thread nD τ).loc main_arg9) :=
  (W48_of_ne m ρ c main_arg9 (by decide)).trans (W47_arg9 m ρ c)
theorem W49_arg9 (c : Dev nD) : W49 m ρ c (Proc.devRef .tc main_arg9) = m ((c : Thread nD τ).loc main_arg9) :=
  (W49_keep m ρ c main_arg9 (by decide)).trans (W48_arg9 m ρ c)
theorem W50_arg9 (c : Dev nD) : W50 m ρ c (Proc.devRef .tc main_arg9) = m ((c : Thread nD τ).loc main_arg9) :=
  (W50_of_ne m ρ c main_arg9 (by decide)).trans (W49_arg9 m ρ c)
theorem W51_arg9 (c : Dev nD) : W51 m ρ c (Proc.devRef .tc main_arg9) = m ((c : Thread nD τ).loc main_arg9) :=
  (W51_keep m ρ c main_arg9 (by decide)).trans (W50_arg9 m ρ c)
theorem W52_arg9 (c : Dev nD) : W52 m ρ c (Proc.devRef .tc main_arg9) = m ((c : Thread nD τ).loc main_arg9) :=
  (W52_keep m ρ c main_arg9 (by decide)).trans (W51_arg9 m ρ c)
theorem W53_arg9 (c : Dev nD) : W53 m ρ c (Proc.devRef .tc main_arg9) = m ((c : Thread nD τ).loc main_arg9) :=
  (W53_keep m ρ c main_arg9 (by decide)).trans (W52_arg9 m ρ c)
theorem W54_arg9 (c : Dev nD) : W54 m ρ c (Proc.devRef .tc main_arg9) = m ((c : Thread nD τ).loc main_arg9) :=
  (W54_keep m ρ c main_arg9 (by decide)).trans (W53_arg9 m ρ c)
theorem W55_arg9 (c : Dev nD) : W55 m ρ c (Proc.devRef .tc main_arg9) = m ((c : Thread nD τ).loc main_arg9) :=
  (W55_keep m ρ c main_arg9 (by decide)).trans (W54_arg9 m ρ c)
theorem W56_arg9 (c : Dev nD) : W56 m ρ c (Proc.devRef .tc main_arg9) = m ((c : Thread nD τ).loc main_arg9) :=
  (W56_of_ne m ρ c main_arg9 (by decide)).trans (W55_arg9 m ρ c)
theorem W57_arg9 (c : Dev nD) : W57 m ρ c (Proc.devRef .tc main_arg9) = m ((c : Thread nD τ).loc main_arg9) :=
  (W57_keep m ρ c main_arg9 (by decide)).trans (W56_arg9 m ρ c)
theorem W58_arg9 (c : Dev nD) : W58 m ρ c (Proc.devRef .tc main_arg9) = m ((c : Thread nD τ).loc main_arg9) :=
  (W58_keep m ρ c main_arg9 (by decide)).trans (W57_arg9 m ρ c)
theorem W59_arg9 (c : Dev nD) : W59 m ρ c (Proc.devRef .tc main_arg9) = m ((c : Thread nD τ).loc main_arg9) :=
  (W59_keep m ρ c main_arg9 (by decide)).trans (W58_arg9 m ρ c)
theorem W60_arg9 (c : Dev nD) : W60 m ρ c (Proc.devRef .tc main_arg9) = m ((c : Thread nD τ).loc main_arg9) :=
  (W60_keep m ρ c main_arg9 (by decide)).trans (W59_arg9 m ρ c)
theorem W61_arg9 (c : Dev nD) : W61 m ρ c (Proc.devRef .tc main_arg9) = m ((c : Thread nD τ).loc main_arg9) :=
  (W61_keep m ρ c main_arg9 (by decide)).trans (W60_arg9 m ρ c)
theorem W62_arg9 (c : Dev nD) : W62 m ρ c (Proc.devRef .tc main_arg9) = m ((c : Thread nD τ).loc main_arg9) :=
  (W62_of_ne m ρ c main_arg9 (by decide)).trans (W61_arg9 m ρ c)
theorem W63_arg9 (c : Dev nD) : W63 m ρ c (Proc.devRef .tc main_arg9) = m ((c : Thread nD τ).loc main_arg9) :=
  (W63_keep m ρ c main_arg9 (by decide)).trans (W62_arg9 m ρ c)
theorem W64_arg9 (c : Dev nD) : W64 m ρ c (Proc.devRef .tc main_arg9) = m ((c : Thread nD τ).loc main_arg9) :=
  (W64_keep m ρ c main_arg9 (by decide)).trans (W63_arg9 m ρ c)
theorem W65_arg9 (c : Dev nD) : W65 m ρ c (Proc.devRef .tc main_arg9) = m ((c : Thread nD τ).loc main_arg9) :=
  (W65_keep m ρ c main_arg9 (by decide)).trans (W64_arg9 m ρ c)
theorem W66_arg9 (c : Dev nD) : W66 m ρ c (Proc.devRef .tc main_arg9) = m ((c : Thread nD τ).loc main_arg9) :=
  (W66_keep m ρ c main_arg9 (by decide)).trans (W65_arg9 m ρ c)
theorem W67_arg9 (c : Dev nD) : W67 m ρ c (Proc.devRef .tc main_arg9) = m ((c : Thread nD τ).loc main_arg9) :=
  (W67_keep m ρ c main_arg9 (by decide)).trans (W66_arg9 m ρ c)
theorem W68_arg9 (c : Dev nD) : W68 m ρ c (Proc.devRef .tc main_arg9) = m ((c : Thread nD τ).loc main_arg9) :=
  (W68_of_ne m ρ c main_arg9 (by decide)).trans (W67_arg9 m ρ c)
theorem W69_arg9 (c : Dev nD) : W69 m ρ c (Proc.devRef .tc main_arg9) = m ((c : Thread nD τ).loc main_arg9) :=
  (W69_keep m ρ c main_arg9 (by decide)).trans (W68_arg9 m ρ c)
theorem W70_arg9 (c : Dev nD) : W70 m ρ c (Proc.devRef .tc main_arg9) = m ((c : Thread nD τ).loc main_arg9) :=
  (W70_keep m ρ c main_arg9 (by decide)).trans (W69_arg9 m ρ c)
theorem W71_arg9 (c : Dev nD) : W71 m ρ c (Proc.devRef .tc main_arg9) = m ((c : Thread nD τ).loc main_arg9) :=
  (W71_keep m ρ c main_arg9 (by decide)).trans (W70_arg9 m ρ c)
theorem W72_arg9 (c : Dev nD) : W72 m ρ c (Proc.devRef .tc main_arg9) = m ((c : Thread nD τ).loc main_arg9) :=
  (W72_keep m ρ c main_arg9 (by decide)).trans (W71_arg9 m ρ c)
theorem W73_arg9 (c : Dev nD) : W73 m ρ c (Proc.devRef .tc main_arg9) = m ((c : Thread nD τ).loc main_arg9) :=
  (W73_keep m ρ c main_arg9 (by decide)).trans (W72_arg9 m ρ c)
theorem W74_arg9 (c : Dev nD) : W74 m ρ c (Proc.devRef .tc main_arg9) = m ((c : Thread nD τ).loc main_arg9) :=
  (W74_of_ne m ρ c main_arg9 (by decide)).trans (W73_arg9 m ρ c)
theorem W75_arg9 (c : Dev nD) : W75 m ρ c (Proc.devRef .tc main_arg9) = m ((c : Thread nD τ).loc main_arg9) :=
  (W75_keep m ρ c main_arg9 (by decide)).trans (W74_arg9 m ρ c)
theorem W76_arg9 (c : Dev nD) : W76 m ρ c (Proc.devRef .tc main_arg9) = m ((c : Thread nD τ).loc main_arg9) :=
  (W76_keep m ρ c main_arg9 (by decide)).trans (W75_arg9 m ρ c)
theorem W77_arg9 (c : Dev nD) : W77 m ρ c (Proc.devRef .tc main_arg9) = m ((c : Thread nD τ).loc main_arg9) :=
  (W77_keep m ρ c main_arg9 (by decide)).trans (W76_arg9 m ρ c)
theorem W78_arg9 (c : Dev nD) : W78 m ρ c (Proc.devRef .tc main_arg9) = m ((c : Thread nD τ).loc main_arg9) :=
  (W78_keep m ρ c main_arg9 (by decide)).trans (W77_arg9 m ρ c)
theorem W79_arg9 (c : Dev nD) : W79 m ρ c (Proc.devRef .tc main_arg9) = m ((c : Thread nD τ).loc main_arg9) :=
  (W79_keep m ρ c main_arg9 (by decide)).trans (W78_arg9 m ρ c)
theorem W80_arg9 (c : Dev nD) : W80 m ρ c (Proc.devRef .tc main_arg9) = m ((c : Thread nD τ).loc main_arg9) :=
  (W80_of_ne m ρ c main_arg9 (by decide)).trans (W79_arg9 m ρ c)
theorem W81_arg9 (c : Dev nD) : W81 m ρ c (Proc.devRef .tc main_arg9) = m ((c : Thread nD τ).loc main_arg9) :=
  (W81_keep m ρ c main_arg9 (by decide)).trans (W80_arg9 m ρ c)
theorem W82_arg9 (c : Dev nD) : W82 m ρ c (Proc.devRef .tc main_arg9) = m ((c : Thread nD τ).loc main_arg9) :=
  (W82_keep m ρ c main_arg9 (by decide)).trans (W81_arg9 m ρ c)
theorem W83_arg9 (c : Dev nD) : W83 m ρ c (Proc.devRef .tc main_arg9) = m ((c : Thread nD τ).loc main_arg9) :=
  (W83_keep m ρ c main_arg9 (by decide)).trans (W82_arg9 m ρ c)
theorem W84_arg9 (c : Dev nD) : W84 m ρ c (Proc.devRef .tc main_arg9) = m ((c : Thread nD τ).loc main_arg9) :=
  (W84_keep m ρ c main_arg9 (by decide)).trans (W83_arg9 m ρ c)
theorem W85_arg9 (c : Dev nD) : W85 m ρ c (Proc.devRef .tc main_arg9) = m ((c : Thread nD τ).loc main_arg9) :=
  (W85_keep m ρ c main_arg9 (by decide)).trans (W84_arg9 m ρ c)
theorem W86_arg9 (c : Dev nD) : W86 m ρ c (Proc.devRef .tc main_arg9) = m ((c : Thread nD τ).loc main_arg9) :=
  (W86_of_ne m ρ c main_arg9 (by decide)).trans (W85_arg9 m ρ c)
theorem W87_arg9 (c : Dev nD) : W87 m ρ c (Proc.devRef .tc main_arg9) = m ((c : Thread nD τ).loc main_arg9) :=
  (W87_keep m ρ c main_arg9 (by decide)).trans (W86_arg9 m ρ c)
theorem W88_arg9 (c : Dev nD) : W88 m ρ c (Proc.devRef .tc main_arg9) = m ((c : Thread nD τ).loc main_arg9) :=
  (W88_of_ne m ρ c main_arg9 (by decide)).trans (W87_arg9 m ρ c)
theorem W89_arg9 (c : Dev nD) : W89 m ρ c (Proc.devRef .tc main_arg9) = m ((c : Thread nD τ).loc main_arg9) :=
  (W89_keep m ρ c main_arg9 (by decide)).trans (W88_arg9 m ρ c)
theorem W90_arg9 (c : Dev nD) : W90 m ρ c (Proc.devRef .tc main_arg9) = m ((c : Thread nD τ).loc main_arg9) :=
  (W90_of_ne m ρ c main_arg9 (by decide)).trans (W89_arg9 m ρ c)
theorem W0_arg10 (c : Dev nD) : W0 m ρ c (Proc.devRef .tc main_arg10) = m ((c : Thread nD τ).loc main_arg10) := rfl
theorem W1_arg10 (c : Dev nD) : W1 m ρ c (Proc.devRef .tc main_arg10) = m ((c : Thread nD τ).loc main_arg10) :=
  (W1_keep m ρ c main_arg10 (by decide)).trans (W0_arg10 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (W3_keep m ρ c main_arg10 (by decide)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (W5_keep m ρ c main_arg10 (by decide)).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (W7_keep m ρ c main_arg10 (by decide)).trans (W6_arg10 m ρ c)
theorem W8_arg10 (c : Dev nD) : W8 m ρ c (Proc.devRef .tc main_arg10) = m ((c : Thread nD τ).loc main_arg10) :=
  (W8_of_ne m ρ c main_arg10 (by decide)).trans (W7_arg10 m ρ c)
theorem W9_arg10 (c : Dev nD) : W9 m ρ c (Proc.devRef .tc main_arg10) = m ((c : Thread nD τ).loc main_arg10) :=
  (W9_keep m ρ c main_arg10 (by decide)).trans (W8_arg10 m ρ c)
theorem W10_arg10 (c : Dev nD) : W10 m ρ c (Proc.devRef .tc main_arg10) = m ((c : Thread nD τ).loc main_arg10) :=
  (W10_keep m ρ c main_arg10 (by decide)).trans (W9_arg10 m ρ c)
theorem W11_arg10 (c : Dev nD) : W11 m ρ c (Proc.devRef .tc main_arg10) = m ((c : Thread nD τ).loc main_arg10) :=
  (W11_keep m ρ c main_arg10 (by decide)).trans (W10_arg10 m ρ c)
theorem W12_arg10 (c : Dev nD) : W12 m ρ c (Proc.devRef .tc main_arg10) = m ((c : Thread nD τ).loc main_arg10) :=
  (W12_keep m ρ c main_arg10 (by decide)).trans (W11_arg10 m ρ c)
theorem W13_arg10 (c : Dev nD) : W13 m ρ c (Proc.devRef .tc main_arg10) = m ((c : Thread nD τ).loc main_arg10) :=
  (W13_keep m ρ c main_arg10 (by decide)).trans (W12_arg10 m ρ c)
theorem W14_arg10 (c : Dev nD) : W14 m ρ c (Proc.devRef .tc main_arg10) = m ((c : Thread nD τ).loc main_arg10) :=
  (W14_of_ne m ρ c main_arg10 (by decide)).trans (W13_arg10 m ρ c)
theorem W15_arg10 (c : Dev nD) : W15 m ρ c (Proc.devRef .tc main_arg10) = m ((c : Thread nD τ).loc main_arg10) :=
  (W15_keep m ρ c main_arg10 (by decide)).trans (W14_arg10 m ρ c)
theorem W16_arg10 (c : Dev nD) : W16 m ρ c (Proc.devRef .tc main_arg10) = m ((c : Thread nD τ).loc main_arg10) :=
  (W16_keep m ρ c main_arg10 (by decide)).trans (W15_arg10 m ρ c)
theorem W17_arg10 (c : Dev nD) : W17 m ρ c (Proc.devRef .tc main_arg10) = m ((c : Thread nD τ).loc main_arg10) :=
  (W17_keep m ρ c main_arg10 (by decide)).trans (W16_arg10 m ρ c)
theorem W18_arg10 (c : Dev nD) : W18 m ρ c (Proc.devRef .tc main_arg10) = m ((c : Thread nD τ).loc main_arg10) :=
  (W18_keep m ρ c main_arg10 (by decide)).trans (W17_arg10 m ρ c)
theorem W19_arg10 (c : Dev nD) : W19 m ρ c (Proc.devRef .tc main_arg10) = m ((c : Thread nD τ).loc main_arg10) :=
  (W19_keep m ρ c main_arg10 (by decide)).trans (W18_arg10 m ρ c)
theorem W20_arg10 (c : Dev nD) : W20 m ρ c (Proc.devRef .tc main_arg10) = m ((c : Thread nD τ).loc main_arg10) :=
  (W20_of_ne m ρ c main_arg10 (by decide)).trans (W19_arg10 m ρ c)
theorem W21_arg10 (c : Dev nD) : W21 m ρ c (Proc.devRef .tc main_arg10) = m ((c : Thread nD τ).loc main_arg10) :=
  (W21_keep m ρ c main_arg10 (by decide)).trans (W20_arg10 m ρ c)
theorem W22_arg10 (c : Dev nD) : W22 m ρ c (Proc.devRef .tc main_arg10) = m ((c : Thread nD τ).loc main_arg10) :=
  (W22_keep m ρ c main_arg10 (by decide)).trans (W21_arg10 m ρ c)
theorem W23_arg10 (c : Dev nD) : W23 m ρ c (Proc.devRef .tc main_arg10) = m ((c : Thread nD τ).loc main_arg10) :=
  (W23_keep m ρ c main_arg10 (by decide)).trans (W22_arg10 m ρ c)
theorem W24_arg10 (c : Dev nD) : W24 m ρ c (Proc.devRef .tc main_arg10) = m ((c : Thread nD τ).loc main_arg10) :=
  (W24_keep m ρ c main_arg10 (by decide)).trans (W23_arg10 m ρ c)
theorem W25_arg10 (c : Dev nD) : W25 m ρ c (Proc.devRef .tc main_arg10) = m ((c : Thread nD τ).loc main_arg10) :=
  (W25_keep m ρ c main_arg10 (by decide)).trans (W24_arg10 m ρ c)
theorem W26_arg10 (c : Dev nD) : W26 m ρ c (Proc.devRef .tc main_arg10) = m ((c : Thread nD τ).loc main_arg10) :=
  (W26_of_ne m ρ c main_arg10 (by decide)).trans (W25_arg10 m ρ c)
theorem W27_arg10 (c : Dev nD) : W27 m ρ c (Proc.devRef .tc main_arg10) = m ((c : Thread nD τ).loc main_arg10) :=
  (W27_keep m ρ c main_arg10 (by decide)).trans (W26_arg10 m ρ c)
theorem W28_arg10 (c : Dev nD) : W28 m ρ c (Proc.devRef .tc main_arg10) = m ((c : Thread nD τ).loc main_arg10) :=
  (W28_keep m ρ c main_arg10 (by decide)).trans (W27_arg10 m ρ c)
theorem W29_arg10 (c : Dev nD) : W29 m ρ c (Proc.devRef .tc main_arg10) = m ((c : Thread nD τ).loc main_arg10) :=
  (W29_keep m ρ c main_arg10 (by decide)).trans (W28_arg10 m ρ c)
theorem W30_arg10 (c : Dev nD) : W30 m ρ c (Proc.devRef .tc main_arg10) = m ((c : Thread nD τ).loc main_arg10) :=
  (W30_keep m ρ c main_arg10 (by decide)).trans (W29_arg10 m ρ c)
theorem W31_arg10 (c : Dev nD) : W31 m ρ c (Proc.devRef .tc main_arg10) = m ((c : Thread nD τ).loc main_arg10) :=
  (W31_keep m ρ c main_arg10 (by decide)).trans (W30_arg10 m ρ c)
theorem W32_arg10 (c : Dev nD) : W32 m ρ c (Proc.devRef .tc main_arg10) = m ((c : Thread nD τ).loc main_arg10) :=
  (W32_of_ne m ρ c main_arg10 (by decide)).trans (W31_arg10 m ρ c)
theorem W33_arg10 (c : Dev nD) : W33 m ρ c (Proc.devRef .tc main_arg10) = m ((c : Thread nD τ).loc main_arg10) :=
  (W33_keep m ρ c main_arg10 (by decide)).trans (W32_arg10 m ρ c)
theorem W34_arg10 (c : Dev nD) : W34 m ρ c (Proc.devRef .tc main_arg10) = m ((c : Thread nD τ).loc main_arg10) :=
  (W34_keep m ρ c main_arg10 (by decide)).trans (W33_arg10 m ρ c)
theorem W35_arg10 (c : Dev nD) : W35 m ρ c (Proc.devRef .tc main_arg10) = m ((c : Thread nD τ).loc main_arg10) :=
  (W35_keep m ρ c main_arg10 (by decide)).trans (W34_arg10 m ρ c)
theorem W36_arg10 (c : Dev nD) : W36 m ρ c (Proc.devRef .tc main_arg10) = m ((c : Thread nD τ).loc main_arg10) :=
  (W36_keep m ρ c main_arg10 (by decide)).trans (W35_arg10 m ρ c)
theorem W37_arg10 (c : Dev nD) : W37 m ρ c (Proc.devRef .tc main_arg10) = m ((c : Thread nD τ).loc main_arg10) :=
  (W37_keep m ρ c main_arg10 (by decide)).trans (W36_arg10 m ρ c)
theorem W38_arg10 (c : Dev nD) : W38 m ρ c (Proc.devRef .tc main_arg10) = m ((c : Thread nD τ).loc main_arg10) :=
  (W38_of_ne m ρ c main_arg10 (by decide)).trans (W37_arg10 m ρ c)
theorem W39_arg10 (c : Dev nD) : W39 m ρ c (Proc.devRef .tc main_arg10) = m ((c : Thread nD τ).loc main_arg10) :=
  (W39_keep m ρ c main_arg10 (by decide)).trans (W38_arg10 m ρ c)
theorem W40_arg10 (c : Dev nD) : W40 m ρ c (Proc.devRef .tc main_arg10) = m ((c : Thread nD τ).loc main_arg10) :=
  (W40_keep m ρ c main_arg10 (by decide)).trans (W39_arg10 m ρ c)
theorem W41_arg10 (c : Dev nD) : W41 m ρ c (Proc.devRef .tc main_arg10) = m ((c : Thread nD τ).loc main_arg10) :=
  (W41_keep m ρ c main_arg10 (by decide)).trans (W40_arg10 m ρ c)
theorem W42_arg10 (c : Dev nD) : W42 m ρ c (Proc.devRef .tc main_arg10) = m ((c : Thread nD τ).loc main_arg10) :=
  (W42_keep m ρ c main_arg10 (by decide)).trans (W41_arg10 m ρ c)
theorem W43_arg10 (c : Dev nD) : W43 m ρ c (Proc.devRef .tc main_arg10) = m ((c : Thread nD τ).loc main_arg10) :=
  (W43_keep m ρ c main_arg10 (by decide)).trans (W42_arg10 m ρ c)
theorem W44_arg10 (c : Dev nD) : W44 m ρ c (Proc.devRef .tc main_arg10) = m ((c : Thread nD τ).loc main_arg10) :=
  (W44_of_ne m ρ c main_arg10 (by decide)).trans (W43_arg10 m ρ c)
theorem W45_arg10 (c : Dev nD) : W45 m ρ c (Proc.devRef .tc main_arg10) = m ((c : Thread nD τ).loc main_arg10) :=
  (W45_keep m ρ c main_arg10 (by decide)).trans (W44_arg10 m ρ c)
theorem W46_arg10 (c : Dev nD) : W46 m ρ c (Proc.devRef .tc main_arg10) = m ((c : Thread nD τ).loc main_arg10) :=
  (W46_of_ne m ρ c main_arg10 (by decide)).trans (W45_arg10 m ρ c)
theorem W47_arg10 (c : Dev nD) : W47 m ρ c (Proc.devRef .tc main_arg10) = m ((c : Thread nD τ).loc main_arg10) :=
  (W47_keep m ρ c main_arg10 (by decide)).trans (W46_arg10 m ρ c)
theorem W48_arg10 (c : Dev nD) : W48 m ρ c (Proc.devRef .tc main_arg10) = m ((c : Thread nD τ).loc main_arg10) :=
  (W48_of_ne m ρ c main_arg10 (by decide)).trans (W47_arg10 m ρ c)
theorem W49_arg10 (c : Dev nD) : W49 m ρ c (Proc.devRef .tc main_arg10) = m ((c : Thread nD τ).loc main_arg10) :=
  (W49_keep m ρ c main_arg10 (by decide)).trans (W48_arg10 m ρ c)
theorem W50_arg10 (c : Dev nD) : W50 m ρ c (Proc.devRef .tc main_arg10) = m ((c : Thread nD τ).loc main_arg10) :=
  (W50_of_ne m ρ c main_arg10 (by decide)).trans (W49_arg10 m ρ c)
theorem W51_arg10 (c : Dev nD) : W51 m ρ c (Proc.devRef .tc main_arg10) = m ((c : Thread nD τ).loc main_arg10) :=
  (W51_keep m ρ c main_arg10 (by decide)).trans (W50_arg10 m ρ c)
theorem W52_arg10 (c : Dev nD) : W52 m ρ c (Proc.devRef .tc main_arg10) = m ((c : Thread nD τ).loc main_arg10) :=
  (W52_keep m ρ c main_arg10 (by decide)).trans (W51_arg10 m ρ c)
theorem W53_arg10 (c : Dev nD) : W53 m ρ c (Proc.devRef .tc main_arg10) = m ((c : Thread nD τ).loc main_arg10) :=
  (W53_keep m ρ c main_arg10 (by decide)).trans (W52_arg10 m ρ c)
theorem W54_arg10 (c : Dev nD) : W54 m ρ c (Proc.devRef .tc main_arg10) = m ((c : Thread nD τ).loc main_arg10) :=
  (W54_keep m ρ c main_arg10 (by decide)).trans (W53_arg10 m ρ c)
theorem W55_arg10 (c : Dev nD) : W55 m ρ c (Proc.devRef .tc main_arg10) = m ((c : Thread nD τ).loc main_arg10) :=
  (W55_keep m ρ c main_arg10 (by decide)).trans (W54_arg10 m ρ c)
theorem W56_arg10 (c : Dev nD) : W56 m ρ c (Proc.devRef .tc main_arg10) = m ((c : Thread nD τ).loc main_arg10) :=
  (W56_of_ne m ρ c main_arg10 (by decide)).trans (W55_arg10 m ρ c)
theorem W57_arg10 (c : Dev nD) : W57 m ρ c (Proc.devRef .tc main_arg10) = m ((c : Thread nD τ).loc main_arg10) :=
  (W57_keep m ρ c main_arg10 (by decide)).trans (W56_arg10 m ρ c)
theorem W58_arg10 (c : Dev nD) : W58 m ρ c (Proc.devRef .tc main_arg10) = m ((c : Thread nD τ).loc main_arg10) :=
  (W58_keep m ρ c main_arg10 (by decide)).trans (W57_arg10 m ρ c)
theorem W59_arg10 (c : Dev nD) : W59 m ρ c (Proc.devRef .tc main_arg10) = m ((c : Thread nD τ).loc main_arg10) :=
  (W59_keep m ρ c main_arg10 (by decide)).trans (W58_arg10 m ρ c)
theorem W60_arg10 (c : Dev nD) : W60 m ρ c (Proc.devRef .tc main_arg10) = m ((c : Thread nD τ).loc main_arg10) :=
  (W60_keep m ρ c main_arg10 (by decide)).trans (W59_arg10 m ρ c)
theorem W61_arg10 (c : Dev nD) : W61 m ρ c (Proc.devRef .tc main_arg10) = m ((c : Thread nD τ).loc main_arg10) :=
  (W61_keep m ρ c main_arg10 (by decide)).trans (W60_arg10 m ρ c)
theorem W62_arg10 (c : Dev nD) : W62 m ρ c (Proc.devRef .tc main_arg10) = m ((c : Thread nD τ).loc main_arg10) :=
  (W62_of_ne m ρ c main_arg10 (by decide)).trans (W61_arg10 m ρ c)
theorem W63_arg10 (c : Dev nD) : W63 m ρ c (Proc.devRef .tc main_arg10) = m ((c : Thread nD τ).loc main_arg10) :=
  (W63_keep m ρ c main_arg10 (by decide)).trans (W62_arg10 m ρ c)
theorem W64_arg10 (c : Dev nD) : W64 m ρ c (Proc.devRef .tc main_arg10) = m ((c : Thread nD τ).loc main_arg10) :=
  (W64_keep m ρ c main_arg10 (by decide)).trans (W63_arg10 m ρ c)
theorem W65_arg10 (c : Dev nD) : W65 m ρ c (Proc.devRef .tc main_arg10) = m ((c : Thread nD τ).loc main_arg10) :=
  (W65_keep m ρ c main_arg10 (by decide)).trans (W64_arg10 m ρ c)
theorem W66_arg10 (c : Dev nD) : W66 m ρ c (Proc.devRef .tc main_arg10) = m ((c : Thread nD τ).loc main_arg10) :=
  (W66_keep m ρ c main_arg10 (by decide)).trans (W65_arg10 m ρ c)
theorem W67_arg10 (c : Dev nD) : W67 m ρ c (Proc.devRef .tc main_arg10) = m ((c : Thread nD τ).loc main_arg10) :=
  (W67_keep m ρ c main_arg10 (by decide)).trans (W66_arg10 m ρ c)
theorem W68_arg10 (c : Dev nD) : W68 m ρ c (Proc.devRef .tc main_arg10) = m ((c : Thread nD τ).loc main_arg10) :=
  (W68_of_ne m ρ c main_arg10 (by decide)).trans (W67_arg10 m ρ c)
theorem W69_arg10 (c : Dev nD) : W69 m ρ c (Proc.devRef .tc main_arg10) = m ((c : Thread nD τ).loc main_arg10) :=
  (W69_keep m ρ c main_arg10 (by decide)).trans (W68_arg10 m ρ c)
theorem W70_arg10 (c : Dev nD) : W70 m ρ c (Proc.devRef .tc main_arg10) = m ((c : Thread nD τ).loc main_arg10) :=
  (W70_keep m ρ c main_arg10 (by decide)).trans (W69_arg10 m ρ c)
theorem W71_arg10 (c : Dev nD) : W71 m ρ c (Proc.devRef .tc main_arg10) = m ((c : Thread nD τ).loc main_arg10) :=
  (W71_keep m ρ c main_arg10 (by decide)).trans (W70_arg10 m ρ c)
theorem W72_arg10 (c : Dev nD) : W72 m ρ c (Proc.devRef .tc main_arg10) = m ((c : Thread nD τ).loc main_arg10) :=
  (W72_keep m ρ c main_arg10 (by decide)).trans (W71_arg10 m ρ c)
theorem W73_arg10 (c : Dev nD) : W73 m ρ c (Proc.devRef .tc main_arg10) = m ((c : Thread nD τ).loc main_arg10) :=
  (W73_keep m ρ c main_arg10 (by decide)).trans (W72_arg10 m ρ c)
theorem W74_arg10 (c : Dev nD) : W74 m ρ c (Proc.devRef .tc main_arg10) = m ((c : Thread nD τ).loc main_arg10) :=
  (W74_of_ne m ρ c main_arg10 (by decide)).trans (W73_arg10 m ρ c)
theorem W75_arg10 (c : Dev nD) : W75 m ρ c (Proc.devRef .tc main_arg10) = m ((c : Thread nD τ).loc main_arg10) :=
  (W75_keep m ρ c main_arg10 (by decide)).trans (W74_arg10 m ρ c)
theorem W76_arg10 (c : Dev nD) : W76 m ρ c (Proc.devRef .tc main_arg10) = m ((c : Thread nD τ).loc main_arg10) :=
  (W76_keep m ρ c main_arg10 (by decide)).trans (W75_arg10 m ρ c)
theorem W77_arg10 (c : Dev nD) : W77 m ρ c (Proc.devRef .tc main_arg10) = m ((c : Thread nD τ).loc main_arg10) :=
  (W77_keep m ρ c main_arg10 (by decide)).trans (W76_arg10 m ρ c)
theorem W78_arg10 (c : Dev nD) : W78 m ρ c (Proc.devRef .tc main_arg10) = m ((c : Thread nD τ).loc main_arg10) :=
  (W78_keep m ρ c main_arg10 (by decide)).trans (W77_arg10 m ρ c)
theorem W79_arg10 (c : Dev nD) : W79 m ρ c (Proc.devRef .tc main_arg10) = m ((c : Thread nD τ).loc main_arg10) :=
  (W79_keep m ρ c main_arg10 (by decide)).trans (W78_arg10 m ρ c)
theorem W80_arg10 (c : Dev nD) : W80 m ρ c (Proc.devRef .tc main_arg10) = m ((c : Thread nD τ).loc main_arg10) :=
  (W80_of_ne m ρ c main_arg10 (by decide)).trans (W79_arg10 m ρ c)
theorem W81_arg10 (c : Dev nD) : W81 m ρ c (Proc.devRef .tc main_arg10) = m ((c : Thread nD τ).loc main_arg10) :=
  (W81_keep m ρ c main_arg10 (by decide)).trans (W80_arg10 m ρ c)
theorem W82_arg10 (c : Dev nD) : W82 m ρ c (Proc.devRef .tc main_arg10) = m ((c : Thread nD τ).loc main_arg10) :=
  (W82_keep m ρ c main_arg10 (by decide)).trans (W81_arg10 m ρ c)
theorem W83_arg10 (c : Dev nD) : W83 m ρ c (Proc.devRef .tc main_arg10) = m ((c : Thread nD τ).loc main_arg10) :=
  (W83_keep m ρ c main_arg10 (by decide)).trans (W82_arg10 m ρ c)
theorem W84_arg10 (c : Dev nD) : W84 m ρ c (Proc.devRef .tc main_arg10) = m ((c : Thread nD τ).loc main_arg10) :=
  (W84_keep m ρ c main_arg10 (by decide)).trans (W83_arg10 m ρ c)
theorem W85_arg10 (c : Dev nD) : W85 m ρ c (Proc.devRef .tc main_arg10) = m ((c : Thread nD τ).loc main_arg10) :=
  (W85_keep m ρ c main_arg10 (by decide)).trans (W84_arg10 m ρ c)
theorem W86_arg10 (c : Dev nD) : W86 m ρ c (Proc.devRef .tc main_arg10) = m ((c : Thread nD τ).loc main_arg10) :=
  (W86_of_ne m ρ c main_arg10 (by decide)).trans (W85_arg10 m ρ c)
theorem W87_arg10 (c : Dev nD) : W87 m ρ c (Proc.devRef .tc main_arg10) = m ((c : Thread nD τ).loc main_arg10) :=
  (W87_keep m ρ c main_arg10 (by decide)).trans (W86_arg10 m ρ c)
theorem W88_arg10 (c : Dev nD) : W88 m ρ c (Proc.devRef .tc main_arg10) = m ((c : Thread nD τ).loc main_arg10) :=
  (W88_of_ne m ρ c main_arg10 (by decide)).trans (W87_arg10 m ρ c)
theorem W89_arg10 (c : Dev nD) : W89 m ρ c (Proc.devRef .tc main_arg10) = m ((c : Thread nD τ).loc main_arg10) :=
  (W89_keep m ρ c main_arg10 (by decide)).trans (W88_arg10 m ρ c)
theorem W90_arg10 (c : Dev nD) : W90 m ρ c (Proc.devRef .tc main_arg10) = m ((c : Thread nD τ).loc main_arg10) :=
  (W90_of_ne m ρ c main_arg10 (by decide)).trans (W89_arg10 m ρ c)
theorem W0_arg11 (c : Dev nD) : W0 m ρ c (Proc.devRef .tc main_arg11) = m ((c : Thread nD τ).loc main_arg11) := rfl
theorem W1_arg11 (c : Dev nD) : W1 m ρ c (Proc.devRef .tc main_arg11) = m ((c : Thread nD τ).loc main_arg11) :=
  (W1_keep m ρ c main_arg11 (by decide)).trans (W0_arg11 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W3_arg11 (c : Dev nD) : W3 m ρ c (Proc.devRef .tc main_arg11) = m ((c : Thread nD τ).loc main_arg11) :=
  (W3_keep m ρ c main_arg11 (by decide)).trans (W2_arg11 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W5_arg11 (c : Dev nD) : W5 m ρ c (Proc.devRef .tc main_arg11) = m ((c : Thread nD τ).loc main_arg11) :=
  (W5_keep m ρ c main_arg11 (by decide)).trans (W4_arg11 m ρ c)
theorem W6_arg11 (c : Dev nD) : W6 m ρ c (Proc.devRef .tc main_arg11) = m ((c : Thread nD τ).loc main_arg11) :=
  (W6_of_ne m ρ c main_arg11 (by decide)).trans (W5_arg11 m ρ c)
theorem W7_arg11 (c : Dev nD) : W7 m ρ c (Proc.devRef .tc main_arg11) = m ((c : Thread nD τ).loc main_arg11) :=
  (W7_keep m ρ c main_arg11 (by decide)).trans (W6_arg11 m ρ c)
theorem W8_arg11 (c : Dev nD) : W8 m ρ c (Proc.devRef .tc main_arg11) = m ((c : Thread nD τ).loc main_arg11) :=
  (W8_of_ne m ρ c main_arg11 (by decide)).trans (W7_arg11 m ρ c)
theorem W9_arg11 (c : Dev nD) : W9 m ρ c (Proc.devRef .tc main_arg11) = m ((c : Thread nD τ).loc main_arg11) :=
  (W9_keep m ρ c main_arg11 (by decide)).trans (W8_arg11 m ρ c)
theorem W10_arg11 (c : Dev nD) : W10 m ρ c (Proc.devRef .tc main_arg11) = m ((c : Thread nD τ).loc main_arg11) :=
  (W10_keep m ρ c main_arg11 (by decide)).trans (W9_arg11 m ρ c)
theorem W11_arg11 (c : Dev nD) : W11 m ρ c (Proc.devRef .tc main_arg11) = m ((c : Thread nD τ).loc main_arg11) :=
  (W11_keep m ρ c main_arg11 (by decide)).trans (W10_arg11 m ρ c)
theorem W12_arg11 (c : Dev nD) : W12 m ρ c (Proc.devRef .tc main_arg11) = m ((c : Thread nD τ).loc main_arg11) :=
  (W12_keep m ρ c main_arg11 (by decide)).trans (W11_arg11 m ρ c)
theorem W13_arg11 (c : Dev nD) : W13 m ρ c (Proc.devRef .tc main_arg11) = m ((c : Thread nD τ).loc main_arg11) :=
  (W13_keep m ρ c main_arg11 (by decide)).trans (W12_arg11 m ρ c)
theorem W14_arg11 (c : Dev nD) : W14 m ρ c (Proc.devRef .tc main_arg11) = m ((c : Thread nD τ).loc main_arg11) :=
  (W14_of_ne m ρ c main_arg11 (by decide)).trans (W13_arg11 m ρ c)
theorem W15_arg11 (c : Dev nD) : W15 m ρ c (Proc.devRef .tc main_arg11) = m ((c : Thread nD τ).loc main_arg11) :=
  (W15_keep m ρ c main_arg11 (by decide)).trans (W14_arg11 m ρ c)
theorem W16_arg11 (c : Dev nD) : W16 m ρ c (Proc.devRef .tc main_arg11) = m ((c : Thread nD τ).loc main_arg11) :=
  (W16_keep m ρ c main_arg11 (by decide)).trans (W15_arg11 m ρ c)
theorem W17_arg11 (c : Dev nD) : W17 m ρ c (Proc.devRef .tc main_arg11) = m ((c : Thread nD τ).loc main_arg11) :=
  (W17_keep m ρ c main_arg11 (by decide)).trans (W16_arg11 m ρ c)
theorem W18_arg11 (c : Dev nD) : W18 m ρ c (Proc.devRef .tc main_arg11) = m ((c : Thread nD τ).loc main_arg11) :=
  (W18_keep m ρ c main_arg11 (by decide)).trans (W17_arg11 m ρ c)
theorem W19_arg11 (c : Dev nD) : W19 m ρ c (Proc.devRef .tc main_arg11) = m ((c : Thread nD τ).loc main_arg11) :=
  (W19_keep m ρ c main_arg11 (by decide)).trans (W18_arg11 m ρ c)
theorem W20_arg11 (c : Dev nD) : W20 m ρ c (Proc.devRef .tc main_arg11) = m ((c : Thread nD τ).loc main_arg11) :=
  (W20_of_ne m ρ c main_arg11 (by decide)).trans (W19_arg11 m ρ c)
theorem W21_arg11 (c : Dev nD) : W21 m ρ c (Proc.devRef .tc main_arg11) = m ((c : Thread nD τ).loc main_arg11) :=
  (W21_keep m ρ c main_arg11 (by decide)).trans (W20_arg11 m ρ c)
theorem W22_arg11 (c : Dev nD) : W22 m ρ c (Proc.devRef .tc main_arg11) = m ((c : Thread nD τ).loc main_arg11) :=
  (W22_keep m ρ c main_arg11 (by decide)).trans (W21_arg11 m ρ c)
theorem W23_arg11 (c : Dev nD) : W23 m ρ c (Proc.devRef .tc main_arg11) = m ((c : Thread nD τ).loc main_arg11) :=
  (W23_keep m ρ c main_arg11 (by decide)).trans (W22_arg11 m ρ c)
theorem W24_arg11 (c : Dev nD) : W24 m ρ c (Proc.devRef .tc main_arg11) = m ((c : Thread nD τ).loc main_arg11) :=
  (W24_keep m ρ c main_arg11 (by decide)).trans (W23_arg11 m ρ c)
theorem W25_arg11 (c : Dev nD) : W25 m ρ c (Proc.devRef .tc main_arg11) = m ((c : Thread nD τ).loc main_arg11) :=
  (W25_keep m ρ c main_arg11 (by decide)).trans (W24_arg11 m ρ c)
theorem W26_arg11 (c : Dev nD) : W26 m ρ c (Proc.devRef .tc main_arg11) = m ((c : Thread nD τ).loc main_arg11) :=
  (W26_of_ne m ρ c main_arg11 (by decide)).trans (W25_arg11 m ρ c)
theorem W27_arg11 (c : Dev nD) : W27 m ρ c (Proc.devRef .tc main_arg11) = m ((c : Thread nD τ).loc main_arg11) :=
  (W27_keep m ρ c main_arg11 (by decide)).trans (W26_arg11 m ρ c)
theorem W28_arg11 (c : Dev nD) : W28 m ρ c (Proc.devRef .tc main_arg11) = m ((c : Thread nD τ).loc main_arg11) :=
  (W28_keep m ρ c main_arg11 (by decide)).trans (W27_arg11 m ρ c)
theorem W29_arg11 (c : Dev nD) : W29 m ρ c (Proc.devRef .tc main_arg11) = m ((c : Thread nD τ).loc main_arg11) :=
  (W29_keep m ρ c main_arg11 (by decide)).trans (W28_arg11 m ρ c)
theorem W30_arg11 (c : Dev nD) : W30 m ρ c (Proc.devRef .tc main_arg11) = m ((c : Thread nD τ).loc main_arg11) :=
  (W30_keep m ρ c main_arg11 (by decide)).trans (W29_arg11 m ρ c)
theorem W31_arg11 (c : Dev nD) : W31 m ρ c (Proc.devRef .tc main_arg11) = m ((c : Thread nD τ).loc main_arg11) :=
  (W31_keep m ρ c main_arg11 (by decide)).trans (W30_arg11 m ρ c)
theorem W32_arg11 (c : Dev nD) : W32 m ρ c (Proc.devRef .tc main_arg11) = m ((c : Thread nD τ).loc main_arg11) :=
  (W32_of_ne m ρ c main_arg11 (by decide)).trans (W31_arg11 m ρ c)
theorem W33_arg11 (c : Dev nD) : W33 m ρ c (Proc.devRef .tc main_arg11) = m ((c : Thread nD τ).loc main_arg11) :=
  (W33_keep m ρ c main_arg11 (by decide)).trans (W32_arg11 m ρ c)
theorem W34_arg11 (c : Dev nD) : W34 m ρ c (Proc.devRef .tc main_arg11) = m ((c : Thread nD τ).loc main_arg11) :=
  (W34_keep m ρ c main_arg11 (by decide)).trans (W33_arg11 m ρ c)
theorem W35_arg11 (c : Dev nD) : W35 m ρ c (Proc.devRef .tc main_arg11) = m ((c : Thread nD τ).loc main_arg11) :=
  (W35_keep m ρ c main_arg11 (by decide)).trans (W34_arg11 m ρ c)
theorem W36_arg11 (c : Dev nD) : W36 m ρ c (Proc.devRef .tc main_arg11) = m ((c : Thread nD τ).loc main_arg11) :=
  (W36_keep m ρ c main_arg11 (by decide)).trans (W35_arg11 m ρ c)
theorem W37_arg11 (c : Dev nD) : W37 m ρ c (Proc.devRef .tc main_arg11) = m ((c : Thread nD τ).loc main_arg11) :=
  (W37_keep m ρ c main_arg11 (by decide)).trans (W36_arg11 m ρ c)
theorem W38_arg11 (c : Dev nD) : W38 m ρ c (Proc.devRef .tc main_arg11) = m ((c : Thread nD τ).loc main_arg11) :=
  (W38_of_ne m ρ c main_arg11 (by decide)).trans (W37_arg11 m ρ c)
theorem W39_arg11 (c : Dev nD) : W39 m ρ c (Proc.devRef .tc main_arg11) = m ((c : Thread nD τ).loc main_arg11) :=
  (W39_keep m ρ c main_arg11 (by decide)).trans (W38_arg11 m ρ c)
theorem W40_arg11 (c : Dev nD) : W40 m ρ c (Proc.devRef .tc main_arg11) = m ((c : Thread nD τ).loc main_arg11) :=
  (W40_keep m ρ c main_arg11 (by decide)).trans (W39_arg11 m ρ c)
theorem W41_arg11 (c : Dev nD) : W41 m ρ c (Proc.devRef .tc main_arg11) = m ((c : Thread nD τ).loc main_arg11) :=
  (W41_keep m ρ c main_arg11 (by decide)).trans (W40_arg11 m ρ c)
theorem W42_arg11 (c : Dev nD) : W42 m ρ c (Proc.devRef .tc main_arg11) = m ((c : Thread nD τ).loc main_arg11) :=
  (W42_keep m ρ c main_arg11 (by decide)).trans (W41_arg11 m ρ c)
theorem W43_arg11 (c : Dev nD) : W43 m ρ c (Proc.devRef .tc main_arg11) = m ((c : Thread nD τ).loc main_arg11) :=
  (W43_keep m ρ c main_arg11 (by decide)).trans (W42_arg11 m ρ c)
theorem W44_arg11 (c : Dev nD) : W44 m ρ c (Proc.devRef .tc main_arg11) = m ((c : Thread nD τ).loc main_arg11) :=
  (W44_of_ne m ρ c main_arg11 (by decide)).trans (W43_arg11 m ρ c)
theorem W45_arg11 (c : Dev nD) : W45 m ρ c (Proc.devRef .tc main_arg11) = m ((c : Thread nD τ).loc main_arg11) :=
  (W45_keep m ρ c main_arg11 (by decide)).trans (W44_arg11 m ρ c)
theorem W46_arg11 (c : Dev nD) : W46 m ρ c (Proc.devRef .tc main_arg11) = m ((c : Thread nD τ).loc main_arg11) :=
  (W46_of_ne m ρ c main_arg11 (by decide)).trans (W45_arg11 m ρ c)
theorem W47_arg11 (c : Dev nD) : W47 m ρ c (Proc.devRef .tc main_arg11) = m ((c : Thread nD τ).loc main_arg11) :=
  (W47_keep m ρ c main_arg11 (by decide)).trans (W46_arg11 m ρ c)
theorem W48_arg11 (c : Dev nD) : W48 m ρ c (Proc.devRef .tc main_arg11) = m ((c : Thread nD τ).loc main_arg11) :=
  (W48_of_ne m ρ c main_arg11 (by decide)).trans (W47_arg11 m ρ c)
theorem W49_arg11 (c : Dev nD) : W49 m ρ c (Proc.devRef .tc main_arg11) = m ((c : Thread nD τ).loc main_arg11) :=
  (W49_keep m ρ c main_arg11 (by decide)).trans (W48_arg11 m ρ c)
theorem W50_arg11 (c : Dev nD) : W50 m ρ c (Proc.devRef .tc main_arg11) = m ((c : Thread nD τ).loc main_arg11) :=
  (W50_of_ne m ρ c main_arg11 (by decide)).trans (W49_arg11 m ρ c)
theorem W51_arg11 (c : Dev nD) : W51 m ρ c (Proc.devRef .tc main_arg11) = m ((c : Thread nD τ).loc main_arg11) :=
  (W51_keep m ρ c main_arg11 (by decide)).trans (W50_arg11 m ρ c)
theorem W52_arg11 (c : Dev nD) : W52 m ρ c (Proc.devRef .tc main_arg11) = m ((c : Thread nD τ).loc main_arg11) :=
  (W52_keep m ρ c main_arg11 (by decide)).trans (W51_arg11 m ρ c)
theorem W53_arg11 (c : Dev nD) : W53 m ρ c (Proc.devRef .tc main_arg11) = m ((c : Thread nD τ).loc main_arg11) :=
  (W53_keep m ρ c main_arg11 (by decide)).trans (W52_arg11 m ρ c)
theorem W54_arg11 (c : Dev nD) : W54 m ρ c (Proc.devRef .tc main_arg11) = m ((c : Thread nD τ).loc main_arg11) :=
  (W54_keep m ρ c main_arg11 (by decide)).trans (W53_arg11 m ρ c)
theorem W55_arg11 (c : Dev nD) : W55 m ρ c (Proc.devRef .tc main_arg11) = m ((c : Thread nD τ).loc main_arg11) :=
  (W55_keep m ρ c main_arg11 (by decide)).trans (W54_arg11 m ρ c)
theorem W56_arg11 (c : Dev nD) : W56 m ρ c (Proc.devRef .tc main_arg11) = m ((c : Thread nD τ).loc main_arg11) :=
  (W56_of_ne m ρ c main_arg11 (by decide)).trans (W55_arg11 m ρ c)
theorem W57_arg11 (c : Dev nD) : W57 m ρ c (Proc.devRef .tc main_arg11) = m ((c : Thread nD τ).loc main_arg11) :=
  (W57_keep m ρ c main_arg11 (by decide)).trans (W56_arg11 m ρ c)
theorem W58_arg11 (c : Dev nD) : W58 m ρ c (Proc.devRef .tc main_arg11) = m ((c : Thread nD τ).loc main_arg11) :=
  (W58_keep m ρ c main_arg11 (by decide)).trans (W57_arg11 m ρ c)
theorem W59_arg11 (c : Dev nD) : W59 m ρ c (Proc.devRef .tc main_arg11) = m ((c : Thread nD τ).loc main_arg11) :=
  (W59_keep m ρ c main_arg11 (by decide)).trans (W58_arg11 m ρ c)
theorem W60_arg11 (c : Dev nD) : W60 m ρ c (Proc.devRef .tc main_arg11) = m ((c : Thread nD τ).loc main_arg11) :=
  (W60_keep m ρ c main_arg11 (by decide)).trans (W59_arg11 m ρ c)
theorem W61_arg11 (c : Dev nD) : W61 m ρ c (Proc.devRef .tc main_arg11) = m ((c : Thread nD τ).loc main_arg11) :=
  (W61_keep m ρ c main_arg11 (by decide)).trans (W60_arg11 m ρ c)
theorem W62_arg11 (c : Dev nD) : W62 m ρ c (Proc.devRef .tc main_arg11) = m ((c : Thread nD τ).loc main_arg11) :=
  (W62_of_ne m ρ c main_arg11 (by decide)).trans (W61_arg11 m ρ c)
theorem W63_arg11 (c : Dev nD) : W63 m ρ c (Proc.devRef .tc main_arg11) = m ((c : Thread nD τ).loc main_arg11) :=
  (W63_keep m ρ c main_arg11 (by decide)).trans (W62_arg11 m ρ c)
theorem W64_arg11 (c : Dev nD) : W64 m ρ c (Proc.devRef .tc main_arg11) = m ((c : Thread nD τ).loc main_arg11) :=
  (W64_keep m ρ c main_arg11 (by decide)).trans (W63_arg11 m ρ c)
theorem W65_arg11 (c : Dev nD) : W65 m ρ c (Proc.devRef .tc main_arg11) = m ((c : Thread nD τ).loc main_arg11) :=
  (W65_keep m ρ c main_arg11 (by decide)).trans (W64_arg11 m ρ c)
theorem W66_arg11 (c : Dev nD) : W66 m ρ c (Proc.devRef .tc main_arg11) = m ((c : Thread nD τ).loc main_arg11) :=
  (W66_keep m ρ c main_arg11 (by decide)).trans (W65_arg11 m ρ c)
theorem W67_arg11 (c : Dev nD) : W67 m ρ c (Proc.devRef .tc main_arg11) = m ((c : Thread nD τ).loc main_arg11) :=
  (W67_keep m ρ c main_arg11 (by decide)).trans (W66_arg11 m ρ c)
theorem W68_arg11 (c : Dev nD) : W68 m ρ c (Proc.devRef .tc main_arg11) = m ((c : Thread nD τ).loc main_arg11) :=
  (W68_of_ne m ρ c main_arg11 (by decide)).trans (W67_arg11 m ρ c)
theorem W69_arg11 (c : Dev nD) : W69 m ρ c (Proc.devRef .tc main_arg11) = m ((c : Thread nD τ).loc main_arg11) :=
  (W69_keep m ρ c main_arg11 (by decide)).trans (W68_arg11 m ρ c)
theorem W70_arg11 (c : Dev nD) : W70 m ρ c (Proc.devRef .tc main_arg11) = m ((c : Thread nD τ).loc main_arg11) :=
  (W70_keep m ρ c main_arg11 (by decide)).trans (W69_arg11 m ρ c)
theorem W71_arg11 (c : Dev nD) : W71 m ρ c (Proc.devRef .tc main_arg11) = m ((c : Thread nD τ).loc main_arg11) :=
  (W71_keep m ρ c main_arg11 (by decide)).trans (W70_arg11 m ρ c)
theorem W72_arg11 (c : Dev nD) : W72 m ρ c (Proc.devRef .tc main_arg11) = m ((c : Thread nD τ).loc main_arg11) :=
  (W72_keep m ρ c main_arg11 (by decide)).trans (W71_arg11 m ρ c)
theorem W73_arg11 (c : Dev nD) : W73 m ρ c (Proc.devRef .tc main_arg11) = m ((c : Thread nD τ).loc main_arg11) :=
  (W73_keep m ρ c main_arg11 (by decide)).trans (W72_arg11 m ρ c)
theorem W74_arg11 (c : Dev nD) : W74 m ρ c (Proc.devRef .tc main_arg11) = m ((c : Thread nD τ).loc main_arg11) :=
  (W74_of_ne m ρ c main_arg11 (by decide)).trans (W73_arg11 m ρ c)
theorem W75_arg11 (c : Dev nD) : W75 m ρ c (Proc.devRef .tc main_arg11) = m ((c : Thread nD τ).loc main_arg11) :=
  (W75_keep m ρ c main_arg11 (by decide)).trans (W74_arg11 m ρ c)
theorem W76_arg11 (c : Dev nD) : W76 m ρ c (Proc.devRef .tc main_arg11) = m ((c : Thread nD τ).loc main_arg11) :=
  (W76_keep m ρ c main_arg11 (by decide)).trans (W75_arg11 m ρ c)
theorem W77_arg11 (c : Dev nD) : W77 m ρ c (Proc.devRef .tc main_arg11) = m ((c : Thread nD τ).loc main_arg11) :=
  (W77_keep m ρ c main_arg11 (by decide)).trans (W76_arg11 m ρ c)
theorem W78_arg11 (c : Dev nD) : W78 m ρ c (Proc.devRef .tc main_arg11) = m ((c : Thread nD τ).loc main_arg11) :=
  (W78_keep m ρ c main_arg11 (by decide)).trans (W77_arg11 m ρ c)
theorem W79_arg11 (c : Dev nD) : W79 m ρ c (Proc.devRef .tc main_arg11) = m ((c : Thread nD τ).loc main_arg11) :=
  (W79_keep m ρ c main_arg11 (by decide)).trans (W78_arg11 m ρ c)
theorem W80_arg11 (c : Dev nD) : W80 m ρ c (Proc.devRef .tc main_arg11) = m ((c : Thread nD τ).loc main_arg11) :=
  (W80_of_ne m ρ c main_arg11 (by decide)).trans (W79_arg11 m ρ c)
theorem W81_arg11 (c : Dev nD) : W81 m ρ c (Proc.devRef .tc main_arg11) = m ((c : Thread nD τ).loc main_arg11) :=
  (W81_keep m ρ c main_arg11 (by decide)).trans (W80_arg11 m ρ c)
theorem W82_arg11 (c : Dev nD) : W82 m ρ c (Proc.devRef .tc main_arg11) = m ((c : Thread nD τ).loc main_arg11) :=
  (W82_keep m ρ c main_arg11 (by decide)).trans (W81_arg11 m ρ c)
theorem W83_arg11 (c : Dev nD) : W83 m ρ c (Proc.devRef .tc main_arg11) = m ((c : Thread nD τ).loc main_arg11) :=
  (W83_keep m ρ c main_arg11 (by decide)).trans (W82_arg11 m ρ c)
theorem W84_arg11 (c : Dev nD) : W84 m ρ c (Proc.devRef .tc main_arg11) = m ((c : Thread nD τ).loc main_arg11) :=
  (W84_keep m ρ c main_arg11 (by decide)).trans (W83_arg11 m ρ c)
theorem W85_arg11 (c : Dev nD) : W85 m ρ c (Proc.devRef .tc main_arg11) = m ((c : Thread nD τ).loc main_arg11) :=
  (W85_keep m ρ c main_arg11 (by decide)).trans (W84_arg11 m ρ c)
theorem W86_arg11 (c : Dev nD) : W86 m ρ c (Proc.devRef .tc main_arg11) = m ((c : Thread nD τ).loc main_arg11) :=
  (W86_of_ne m ρ c main_arg11 (by decide)).trans (W85_arg11 m ρ c)
theorem W87_arg11 (c : Dev nD) : W87 m ρ c (Proc.devRef .tc main_arg11) = m ((c : Thread nD τ).loc main_arg11) :=
  (W87_keep m ρ c main_arg11 (by decide)).trans (W86_arg11 m ρ c)
theorem W88_arg11 (c : Dev nD) : W88 m ρ c (Proc.devRef .tc main_arg11) = m ((c : Thread nD τ).loc main_arg11) :=
  (W88_of_ne m ρ c main_arg11 (by decide)).trans (W87_arg11 m ρ c)
theorem W89_arg11 (c : Dev nD) : W89 m ρ c (Proc.devRef .tc main_arg11) = m ((c : Thread nD τ).loc main_arg11) :=
  (W89_keep m ρ c main_arg11 (by decide)).trans (W88_arg11 m ρ c)
theorem W90_arg11 (c : Dev nD) : W90 m ρ c (Proc.devRef .tc main_arg11) = m ((c : Thread nD τ).loc main_arg11) :=
  (W90_of_ne m ρ c main_arg11 (by decide)).trans (W89_arg11 m ρ c)
theorem W0_arg12 (c : Dev nD) : W0 m ρ c (Proc.devRef .tc main_arg12) = m ((c : Thread nD τ).loc main_arg12) := rfl
theorem W1_arg12 (c : Dev nD) : W1 m ρ c (Proc.devRef .tc main_arg12) = m ((c : Thread nD τ).loc main_arg12) :=
  (W1_keep m ρ c main_arg12 (by decide)).trans (W0_arg12 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W3_arg12 (c : Dev nD) : W3 m ρ c (Proc.devRef .tc main_arg12) = m ((c : Thread nD τ).loc main_arg12) :=
  (W3_keep m ρ c main_arg12 (by decide)).trans (W2_arg12 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W5_arg12 (c : Dev nD) : W5 m ρ c (Proc.devRef .tc main_arg12) = m ((c : Thread nD τ).loc main_arg12) :=
  (W5_keep m ρ c main_arg12 (by decide)).trans (W4_arg12 m ρ c)
theorem W6_arg12 (c : Dev nD) : W6 m ρ c (Proc.devRef .tc main_arg12) = m ((c : Thread nD τ).loc main_arg12) :=
  (W6_of_ne m ρ c main_arg12 (by decide)).trans (W5_arg12 m ρ c)
theorem W7_arg12 (c : Dev nD) : W7 m ρ c (Proc.devRef .tc main_arg12) = m ((c : Thread nD τ).loc main_arg12) :=
  (W7_keep m ρ c main_arg12 (by decide)).trans (W6_arg12 m ρ c)
theorem W8_arg12 (c : Dev nD) : W8 m ρ c (Proc.devRef .tc main_arg12) = m ((c : Thread nD τ).loc main_arg12) :=
  (W8_of_ne m ρ c main_arg12 (by decide)).trans (W7_arg12 m ρ c)
theorem W9_arg12 (c : Dev nD) : W9 m ρ c (Proc.devRef .tc main_arg12) = m ((c : Thread nD τ).loc main_arg12) :=
  (W9_keep m ρ c main_arg12 (by decide)).trans (W8_arg12 m ρ c)
theorem W10_arg12 (c : Dev nD) : W10 m ρ c (Proc.devRef .tc main_arg12) = m ((c : Thread nD τ).loc main_arg12) :=
  (W10_keep m ρ c main_arg12 (by decide)).trans (W9_arg12 m ρ c)
theorem W11_arg12 (c : Dev nD) : W11 m ρ c (Proc.devRef .tc main_arg12) = m ((c : Thread nD τ).loc main_arg12) :=
  (W11_keep m ρ c main_arg12 (by decide)).trans (W10_arg12 m ρ c)
theorem W12_arg12 (c : Dev nD) : W12 m ρ c (Proc.devRef .tc main_arg12) = m ((c : Thread nD τ).loc main_arg12) :=
  (W12_keep m ρ c main_arg12 (by decide)).trans (W11_arg12 m ρ c)
theorem W13_arg12 (c : Dev nD) : W13 m ρ c (Proc.devRef .tc main_arg12) = m ((c : Thread nD τ).loc main_arg12) :=
  (W13_keep m ρ c main_arg12 (by decide)).trans (W12_arg12 m ρ c)
theorem W14_arg12 (c : Dev nD) : W14 m ρ c (Proc.devRef .tc main_arg12) = m ((c : Thread nD τ).loc main_arg12) :=
  (W14_of_ne m ρ c main_arg12 (by decide)).trans (W13_arg12 m ρ c)
theorem W15_arg12 (c : Dev nD) : W15 m ρ c (Proc.devRef .tc main_arg12) = m ((c : Thread nD τ).loc main_arg12) :=
  (W15_keep m ρ c main_arg12 (by decide)).trans (W14_arg12 m ρ c)
theorem W16_arg12 (c : Dev nD) : W16 m ρ c (Proc.devRef .tc main_arg12) = m ((c : Thread nD τ).loc main_arg12) :=
  (W16_keep m ρ c main_arg12 (by decide)).trans (W15_arg12 m ρ c)
theorem W17_arg12 (c : Dev nD) : W17 m ρ c (Proc.devRef .tc main_arg12) = m ((c : Thread nD τ).loc main_arg12) :=
  (W17_keep m ρ c main_arg12 (by decide)).trans (W16_arg12 m ρ c)
theorem W18_arg12 (c : Dev nD) : W18 m ρ c (Proc.devRef .tc main_arg12) = m ((c : Thread nD τ).loc main_arg12) :=
  (W18_keep m ρ c main_arg12 (by decide)).trans (W17_arg12 m ρ c)
theorem W19_arg12 (c : Dev nD) : W19 m ρ c (Proc.devRef .tc main_arg12) = m ((c : Thread nD τ).loc main_arg12) :=
  (W19_keep m ρ c main_arg12 (by decide)).trans (W18_arg12 m ρ c)
theorem W20_arg12 (c : Dev nD) : W20 m ρ c (Proc.devRef .tc main_arg12) = m ((c : Thread nD τ).loc main_arg12) :=
  (W20_of_ne m ρ c main_arg12 (by decide)).trans (W19_arg12 m ρ c)
theorem W21_arg12 (c : Dev nD) : W21 m ρ c (Proc.devRef .tc main_arg12) = m ((c : Thread nD τ).loc main_arg12) :=
  (W21_keep m ρ c main_arg12 (by decide)).trans (W20_arg12 m ρ c)
theorem W22_arg12 (c : Dev nD) : W22 m ρ c (Proc.devRef .tc main_arg12) = m ((c : Thread nD τ).loc main_arg12) :=
  (W22_keep m ρ c main_arg12 (by decide)).trans (W21_arg12 m ρ c)
theorem W23_arg12 (c : Dev nD) : W23 m ρ c (Proc.devRef .tc main_arg12) = m ((c : Thread nD τ).loc main_arg12) :=
  (W23_keep m ρ c main_arg12 (by decide)).trans (W22_arg12 m ρ c)
theorem W24_arg12 (c : Dev nD) : W24 m ρ c (Proc.devRef .tc main_arg12) = m ((c : Thread nD τ).loc main_arg12) :=
  (W24_keep m ρ c main_arg12 (by decide)).trans (W23_arg12 m ρ c)
theorem W25_arg12 (c : Dev nD) : W25 m ρ c (Proc.devRef .tc main_arg12) = m ((c : Thread nD τ).loc main_arg12) :=
  (W25_keep m ρ c main_arg12 (by decide)).trans (W24_arg12 m ρ c)
theorem W26_arg12 (c : Dev nD) : W26 m ρ c (Proc.devRef .tc main_arg12) = m ((c : Thread nD τ).loc main_arg12) :=
  (W26_of_ne m ρ c main_arg12 (by decide)).trans (W25_arg12 m ρ c)
theorem W27_arg12 (c : Dev nD) : W27 m ρ c (Proc.devRef .tc main_arg12) = m ((c : Thread nD τ).loc main_arg12) :=
  (W27_keep m ρ c main_arg12 (by decide)).trans (W26_arg12 m ρ c)
theorem W28_arg12 (c : Dev nD) : W28 m ρ c (Proc.devRef .tc main_arg12) = m ((c : Thread nD τ).loc main_arg12) :=
  (W28_keep m ρ c main_arg12 (by decide)).trans (W27_arg12 m ρ c)
theorem W29_arg12 (c : Dev nD) : W29 m ρ c (Proc.devRef .tc main_arg12) = m ((c : Thread nD τ).loc main_arg12) :=
  (W29_keep m ρ c main_arg12 (by decide)).trans (W28_arg12 m ρ c)
theorem W30_arg12 (c : Dev nD) : W30 m ρ c (Proc.devRef .tc main_arg12) = m ((c : Thread nD τ).loc main_arg12) :=
  (W30_keep m ρ c main_arg12 (by decide)).trans (W29_arg12 m ρ c)
theorem W31_arg12 (c : Dev nD) : W31 m ρ c (Proc.devRef .tc main_arg12) = m ((c : Thread nD τ).loc main_arg12) :=
  (W31_keep m ρ c main_arg12 (by decide)).trans (W30_arg12 m ρ c)
theorem W32_arg12 (c : Dev nD) : W32 m ρ c (Proc.devRef .tc main_arg12) = m ((c : Thread nD τ).loc main_arg12) :=
  (W32_of_ne m ρ c main_arg12 (by decide)).trans (W31_arg12 m ρ c)
theorem W33_arg12 (c : Dev nD) : W33 m ρ c (Proc.devRef .tc main_arg12) = m ((c : Thread nD τ).loc main_arg12) :=
  (W33_keep m ρ c main_arg12 (by decide)).trans (W32_arg12 m ρ c)
theorem W34_arg12 (c : Dev nD) : W34 m ρ c (Proc.devRef .tc main_arg12) = m ((c : Thread nD τ).loc main_arg12) :=
  (W34_keep m ρ c main_arg12 (by decide)).trans (W33_arg12 m ρ c)
theorem W35_arg12 (c : Dev nD) : W35 m ρ c (Proc.devRef .tc main_arg12) = m ((c : Thread nD τ).loc main_arg12) :=
  (W35_keep m ρ c main_arg12 (by decide)).trans (W34_arg12 m ρ c)
theorem W36_arg12 (c : Dev nD) : W36 m ρ c (Proc.devRef .tc main_arg12) = m ((c : Thread nD τ).loc main_arg12) :=
  (W36_keep m ρ c main_arg12 (by decide)).trans (W35_arg12 m ρ c)
theorem W37_arg12 (c : Dev nD) : W37 m ρ c (Proc.devRef .tc main_arg12) = m ((c : Thread nD τ).loc main_arg12) :=
  (W37_keep m ρ c main_arg12 (by decide)).trans (W36_arg12 m ρ c)
theorem W38_arg12 (c : Dev nD) : W38 m ρ c (Proc.devRef .tc main_arg12) = m ((c : Thread nD τ).loc main_arg12) :=
  (W38_of_ne m ρ c main_arg12 (by decide)).trans (W37_arg12 m ρ c)
theorem W39_arg12 (c : Dev nD) : W39 m ρ c (Proc.devRef .tc main_arg12) = m ((c : Thread nD τ).loc main_arg12) :=
  (W39_keep m ρ c main_arg12 (by decide)).trans (W38_arg12 m ρ c)
theorem W40_arg12 (c : Dev nD) : W40 m ρ c (Proc.devRef .tc main_arg12) = m ((c : Thread nD τ).loc main_arg12) :=
  (W40_keep m ρ c main_arg12 (by decide)).trans (W39_arg12 m ρ c)
theorem W41_arg12 (c : Dev nD) : W41 m ρ c (Proc.devRef .tc main_arg12) = m ((c : Thread nD τ).loc main_arg12) :=
  (W41_keep m ρ c main_arg12 (by decide)).trans (W40_arg12 m ρ c)
theorem W42_arg12 (c : Dev nD) : W42 m ρ c (Proc.devRef .tc main_arg12) = m ((c : Thread nD τ).loc main_arg12) :=
  (W42_keep m ρ c main_arg12 (by decide)).trans (W41_arg12 m ρ c)
theorem W43_arg12 (c : Dev nD) : W43 m ρ c (Proc.devRef .tc main_arg12) = m ((c : Thread nD τ).loc main_arg12) :=
  (W43_keep m ρ c main_arg12 (by decide)).trans (W42_arg12 m ρ c)
theorem W44_arg12 (c : Dev nD) : W44 m ρ c (Proc.devRef .tc main_arg12) = m ((c : Thread nD τ).loc main_arg12) :=
  (W44_of_ne m ρ c main_arg12 (by decide)).trans (W43_arg12 m ρ c)
theorem W45_arg12 (c : Dev nD) : W45 m ρ c (Proc.devRef .tc main_arg12) = m ((c : Thread nD τ).loc main_arg12) :=
  (W45_keep m ρ c main_arg12 (by decide)).trans (W44_arg12 m ρ c)
theorem W46_arg12 (c : Dev nD) : W46 m ρ c (Proc.devRef .tc main_arg12) = m ((c : Thread nD τ).loc main_arg12) :=
  (W46_of_ne m ρ c main_arg12 (by decide)).trans (W45_arg12 m ρ c)
theorem W47_arg12 (c : Dev nD) : W47 m ρ c (Proc.devRef .tc main_arg12) = m ((c : Thread nD τ).loc main_arg12) :=
  (W47_keep m ρ c main_arg12 (by decide)).trans (W46_arg12 m ρ c)
theorem W48_arg12 (c : Dev nD) : W48 m ρ c (Proc.devRef .tc main_arg12) = m ((c : Thread nD τ).loc main_arg12) :=
  (W48_of_ne m ρ c main_arg12 (by decide)).trans (W47_arg12 m ρ c)
theorem W49_arg12 (c : Dev nD) : W49 m ρ c (Proc.devRef .tc main_arg12) = m ((c : Thread nD τ).loc main_arg12) :=
  (W49_keep m ρ c main_arg12 (by decide)).trans (W48_arg12 m ρ c)
theorem W50_arg12 (c : Dev nD) : W50 m ρ c (Proc.devRef .tc main_arg12) = m ((c : Thread nD τ).loc main_arg12) :=
  (W50_of_ne m ρ c main_arg12 (by decide)).trans (W49_arg12 m ρ c)
theorem W51_arg12 (c : Dev nD) : W51 m ρ c (Proc.devRef .tc main_arg12) = m ((c : Thread nD τ).loc main_arg12) :=
  (W51_keep m ρ c main_arg12 (by decide)).trans (W50_arg12 m ρ c)
theorem W52_arg12 (c : Dev nD) : W52 m ρ c (Proc.devRef .tc main_arg12) = m ((c : Thread nD τ).loc main_arg12) :=
  (W52_keep m ρ c main_arg12 (by decide)).trans (W51_arg12 m ρ c)
theorem W53_arg12 (c : Dev nD) : W53 m ρ c (Proc.devRef .tc main_arg12) = m ((c : Thread nD τ).loc main_arg12) :=
  (W53_keep m ρ c main_arg12 (by decide)).trans (W52_arg12 m ρ c)
theorem W54_arg12 (c : Dev nD) : W54 m ρ c (Proc.devRef .tc main_arg12) = m ((c : Thread nD τ).loc main_arg12) :=
  (W54_keep m ρ c main_arg12 (by decide)).trans (W53_arg12 m ρ c)
theorem W55_arg12 (c : Dev nD) : W55 m ρ c (Proc.devRef .tc main_arg12) = m ((c : Thread nD τ).loc main_arg12) :=
  (W55_keep m ρ c main_arg12 (by decide)).trans (W54_arg12 m ρ c)
theorem W56_arg12 (c : Dev nD) : W56 m ρ c (Proc.devRef .tc main_arg12) = m ((c : Thread nD τ).loc main_arg12) :=
  (W56_of_ne m ρ c main_arg12 (by decide)).trans (W55_arg12 m ρ c)
theorem W57_arg12 (c : Dev nD) : W57 m ρ c (Proc.devRef .tc main_arg12) = m ((c : Thread nD τ).loc main_arg12) :=
  (W57_keep m ρ c main_arg12 (by decide)).trans (W56_arg12 m ρ c)
theorem W58_arg12 (c : Dev nD) : W58 m ρ c (Proc.devRef .tc main_arg12) = m ((c : Thread nD τ).loc main_arg12) :=
  (W58_keep m ρ c main_arg12 (by decide)).trans (W57_arg12 m ρ c)
theorem W59_arg12 (c : Dev nD) : W59 m ρ c (Proc.devRef .tc main_arg12) = m ((c : Thread nD τ).loc main_arg12) :=
  (W59_keep m ρ c main_arg12 (by decide)).trans (W58_arg12 m ρ c)
theorem W60_arg12 (c : Dev nD) : W60 m ρ c (Proc.devRef .tc main_arg12) = m ((c : Thread nD τ).loc main_arg12) :=
  (W60_keep m ρ c main_arg12 (by decide)).trans (W59_arg12 m ρ c)
theorem W61_arg12 (c : Dev nD) : W61 m ρ c (Proc.devRef .tc main_arg12) = m ((c : Thread nD τ).loc main_arg12) :=
  (W61_keep m ρ c main_arg12 (by decide)).trans (W60_arg12 m ρ c)
theorem W62_arg12 (c : Dev nD) : W62 m ρ c (Proc.devRef .tc main_arg12) = m ((c : Thread nD τ).loc main_arg12) :=
  (W62_of_ne m ρ c main_arg12 (by decide)).trans (W61_arg12 m ρ c)
theorem W63_arg12 (c : Dev nD) : W63 m ρ c (Proc.devRef .tc main_arg12) = m ((c : Thread nD τ).loc main_arg12) :=
  (W63_keep m ρ c main_arg12 (by decide)).trans (W62_arg12 m ρ c)
theorem W64_arg12 (c : Dev nD) : W64 m ρ c (Proc.devRef .tc main_arg12) = m ((c : Thread nD τ).loc main_arg12) :=
  (W64_keep m ρ c main_arg12 (by decide)).trans (W63_arg12 m ρ c)
theorem W65_arg12 (c : Dev nD) : W65 m ρ c (Proc.devRef .tc main_arg12) = m ((c : Thread nD τ).loc main_arg12) :=
  (W65_keep m ρ c main_arg12 (by decide)).trans (W64_arg12 m ρ c)
theorem W66_arg12 (c : Dev nD) : W66 m ρ c (Proc.devRef .tc main_arg12) = m ((c : Thread nD τ).loc main_arg12) :=
  (W66_keep m ρ c main_arg12 (by decide)).trans (W65_arg12 m ρ c)
theorem W67_arg12 (c : Dev nD) : W67 m ρ c (Proc.devRef .tc main_arg12) = m ((c : Thread nD τ).loc main_arg12) :=
  (W67_keep m ρ c main_arg12 (by decide)).trans (W66_arg12 m ρ c)
theorem W68_arg12 (c : Dev nD) : W68 m ρ c (Proc.devRef .tc main_arg12) = m ((c : Thread nD τ).loc main_arg12) :=
  (W68_of_ne m ρ c main_arg12 (by decide)).trans (W67_arg12 m ρ c)
theorem W69_arg12 (c : Dev nD) : W69 m ρ c (Proc.devRef .tc main_arg12) = m ((c : Thread nD τ).loc main_arg12) :=
  (W69_keep m ρ c main_arg12 (by decide)).trans (W68_arg12 m ρ c)
theorem W70_arg12 (c : Dev nD) : W70 m ρ c (Proc.devRef .tc main_arg12) = m ((c : Thread nD τ).loc main_arg12) :=
  (W70_keep m ρ c main_arg12 (by decide)).trans (W69_arg12 m ρ c)
theorem W71_arg12 (c : Dev nD) : W71 m ρ c (Proc.devRef .tc main_arg12) = m ((c : Thread nD τ).loc main_arg12) :=
  (W71_keep m ρ c main_arg12 (by decide)).trans (W70_arg12 m ρ c)
theorem W72_arg12 (c : Dev nD) : W72 m ρ c (Proc.devRef .tc main_arg12) = m ((c : Thread nD τ).loc main_arg12) :=
  (W72_keep m ρ c main_arg12 (by decide)).trans (W71_arg12 m ρ c)
theorem W73_arg12 (c : Dev nD) : W73 m ρ c (Proc.devRef .tc main_arg12) = m ((c : Thread nD τ).loc main_arg12) :=
  (W73_keep m ρ c main_arg12 (by decide)).trans (W72_arg12 m ρ c)
theorem W74_arg12 (c : Dev nD) : W74 m ρ c (Proc.devRef .tc main_arg12) = m ((c : Thread nD τ).loc main_arg12) :=
  (W74_of_ne m ρ c main_arg12 (by decide)).trans (W73_arg12 m ρ c)
theorem W75_arg12 (c : Dev nD) : W75 m ρ c (Proc.devRef .tc main_arg12) = m ((c : Thread nD τ).loc main_arg12) :=
  (W75_keep m ρ c main_arg12 (by decide)).trans (W74_arg12 m ρ c)
theorem W76_arg12 (c : Dev nD) : W76 m ρ c (Proc.devRef .tc main_arg12) = m ((c : Thread nD τ).loc main_arg12) :=
  (W76_keep m ρ c main_arg12 (by decide)).trans (W75_arg12 m ρ c)
theorem W77_arg12 (c : Dev nD) : W77 m ρ c (Proc.devRef .tc main_arg12) = m ((c : Thread nD τ).loc main_arg12) :=
  (W77_keep m ρ c main_arg12 (by decide)).trans (W76_arg12 m ρ c)
theorem W78_arg12 (c : Dev nD) : W78 m ρ c (Proc.devRef .tc main_arg12) = m ((c : Thread nD τ).loc main_arg12) :=
  (W78_keep m ρ c main_arg12 (by decide)).trans (W77_arg12 m ρ c)
theorem W79_arg12 (c : Dev nD) : W79 m ρ c (Proc.devRef .tc main_arg12) = m ((c : Thread nD τ).loc main_arg12) :=
  (W79_keep m ρ c main_arg12 (by decide)).trans (W78_arg12 m ρ c)
theorem W80_arg12 (c : Dev nD) : W80 m ρ c (Proc.devRef .tc main_arg12) = m ((c : Thread nD τ).loc main_arg12) :=
  (W80_of_ne m ρ c main_arg12 (by decide)).trans (W79_arg12 m ρ c)
theorem W81_arg12 (c : Dev nD) : W81 m ρ c (Proc.devRef .tc main_arg12) = m ((c : Thread nD τ).loc main_arg12) :=
  (W81_keep m ρ c main_arg12 (by decide)).trans (W80_arg12 m ρ c)
theorem W82_arg12 (c : Dev nD) : W82 m ρ c (Proc.devRef .tc main_arg12) = m ((c : Thread nD τ).loc main_arg12) :=
  (W82_keep m ρ c main_arg12 (by decide)).trans (W81_arg12 m ρ c)
theorem W83_arg12 (c : Dev nD) : W83 m ρ c (Proc.devRef .tc main_arg12) = m ((c : Thread nD τ).loc main_arg12) :=
  (W83_keep m ρ c main_arg12 (by decide)).trans (W82_arg12 m ρ c)
theorem W84_arg12 (c : Dev nD) : W84 m ρ c (Proc.devRef .tc main_arg12) = m ((c : Thread nD τ).loc main_arg12) :=
  (W84_keep m ρ c main_arg12 (by decide)).trans (W83_arg12 m ρ c)
theorem W85_arg12 (c : Dev nD) : W85 m ρ c (Proc.devRef .tc main_arg12) = m ((c : Thread nD τ).loc main_arg12) :=
  (W85_keep m ρ c main_arg12 (by decide)).trans (W84_arg12 m ρ c)
theorem W86_arg12 (c : Dev nD) : W86 m ρ c (Proc.devRef .tc main_arg12) = m ((c : Thread nD τ).loc main_arg12) :=
  (W86_of_ne m ρ c main_arg12 (by decide)).trans (W85_arg12 m ρ c)
theorem W87_arg12 (c : Dev nD) : W87 m ρ c (Proc.devRef .tc main_arg12) = m ((c : Thread nD τ).loc main_arg12) :=
  (W87_keep m ρ c main_arg12 (by decide)).trans (W86_arg12 m ρ c)
theorem W88_arg12 (c : Dev nD) : W88 m ρ c (Proc.devRef .tc main_arg12) = m ((c : Thread nD τ).loc main_arg12) :=
  (W88_of_ne m ρ c main_arg12 (by decide)).trans (W87_arg12 m ρ c)
theorem W89_arg12 (c : Dev nD) : W89 m ρ c (Proc.devRef .tc main_arg12) = m ((c : Thread nD τ).loc main_arg12) :=
  (W89_keep m ρ c main_arg12 (by decide)).trans (W88_arg12 m ρ c)
theorem W90_arg12 (c : Dev nD) : W90 m ρ c (Proc.devRef .tc main_arg12) = m ((c : Thread nD τ).loc main_arg12) :=
  (W90_of_ne m ρ c main_arg12 (by decide)).trans (W89_arg12 m ρ c)
theorem W0_arg13 (c : Dev nD) : W0 m ρ c (Proc.devRef .tc main_arg13) = m ((c : Thread nD τ).loc main_arg13) := rfl
theorem W1_arg13 (c : Dev nD) : W1 m ρ c (Proc.devRef .tc main_arg13) = m ((c : Thread nD τ).loc main_arg13) :=
  (W1_keep m ρ c main_arg13 (by decide)).trans (W0_arg13 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W3_arg13 (c : Dev nD) : W3 m ρ c (Proc.devRef .tc main_arg13) = m ((c : Thread nD τ).loc main_arg13) :=
  (W3_keep m ρ c main_arg13 (by decide)).trans (W2_arg13 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W5_arg13 (c : Dev nD) : W5 m ρ c (Proc.devRef .tc main_arg13) = m ((c : Thread nD τ).loc main_arg13) :=
  (W5_keep m ρ c main_arg13 (by decide)).trans (W4_arg13 m ρ c)
theorem W6_arg13 (c : Dev nD) : W6 m ρ c (Proc.devRef .tc main_arg13) = m ((c : Thread nD τ).loc main_arg13) :=
  (W6_of_ne m ρ c main_arg13 (by decide)).trans (W5_arg13 m ρ c)
theorem W7_arg13 (c : Dev nD) : W7 m ρ c (Proc.devRef .tc main_arg13) = m ((c : Thread nD τ).loc main_arg13) :=
  (W7_keep m ρ c main_arg13 (by decide)).trans (W6_arg13 m ρ c)
theorem W8_arg13 (c : Dev nD) : W8 m ρ c (Proc.devRef .tc main_arg13) = m ((c : Thread nD τ).loc main_arg13) :=
  (W8_of_ne m ρ c main_arg13 (by decide)).trans (W7_arg13 m ρ c)
theorem W9_arg13 (c : Dev nD) : W9 m ρ c (Proc.devRef .tc main_arg13) = m ((c : Thread nD τ).loc main_arg13) :=
  (W9_keep m ρ c main_arg13 (by decide)).trans (W8_arg13 m ρ c)
theorem W10_arg13 (c : Dev nD) : W10 m ρ c (Proc.devRef .tc main_arg13) = m ((c : Thread nD τ).loc main_arg13) :=
  (W10_keep m ρ c main_arg13 (by decide)).trans (W9_arg13 m ρ c)
theorem W11_arg13 (c : Dev nD) : W11 m ρ c (Proc.devRef .tc main_arg13) = m ((c : Thread nD τ).loc main_arg13) :=
  (W11_keep m ρ c main_arg13 (by decide)).trans (W10_arg13 m ρ c)
theorem W12_arg13 (c : Dev nD) : W12 m ρ c (Proc.devRef .tc main_arg13) = m ((c : Thread nD τ).loc main_arg13) :=
  (W12_keep m ρ c main_arg13 (by decide)).trans (W11_arg13 m ρ c)
theorem W13_arg13 (c : Dev nD) : W13 m ρ c (Proc.devRef .tc main_arg13) = m ((c : Thread nD τ).loc main_arg13) :=
  (W13_keep m ρ c main_arg13 (by decide)).trans (W12_arg13 m ρ c)
theorem W14_arg13 (c : Dev nD) : W14 m ρ c (Proc.devRef .tc main_arg13) = m ((c : Thread nD τ).loc main_arg13) :=
  (W14_of_ne m ρ c main_arg13 (by decide)).trans (W13_arg13 m ρ c)
theorem W15_arg13 (c : Dev nD) : W15 m ρ c (Proc.devRef .tc main_arg13) = m ((c : Thread nD τ).loc main_arg13) :=
  (W15_keep m ρ c main_arg13 (by decide)).trans (W14_arg13 m ρ c)
theorem W16_arg13 (c : Dev nD) : W16 m ρ c (Proc.devRef .tc main_arg13) = m ((c : Thread nD τ).loc main_arg13) :=
  (W16_keep m ρ c main_arg13 (by decide)).trans (W15_arg13 m ρ c)
theorem W17_arg13 (c : Dev nD) : W17 m ρ c (Proc.devRef .tc main_arg13) = m ((c : Thread nD τ).loc main_arg13) :=
  (W17_keep m ρ c main_arg13 (by decide)).trans (W16_arg13 m ρ c)
theorem W18_arg13 (c : Dev nD) : W18 m ρ c (Proc.devRef .tc main_arg13) = m ((c : Thread nD τ).loc main_arg13) :=
  (W18_keep m ρ c main_arg13 (by decide)).trans (W17_arg13 m ρ c)
theorem W19_arg13 (c : Dev nD) : W19 m ρ c (Proc.devRef .tc main_arg13) = m ((c : Thread nD τ).loc main_arg13) :=
  (W19_keep m ρ c main_arg13 (by decide)).trans (W18_arg13 m ρ c)
theorem W20_arg13 (c : Dev nD) : W20 m ρ c (Proc.devRef .tc main_arg13) = m ((c : Thread nD τ).loc main_arg13) :=
  (W20_of_ne m ρ c main_arg13 (by decide)).trans (W19_arg13 m ρ c)
theorem W21_arg13 (c : Dev nD) : W21 m ρ c (Proc.devRef .tc main_arg13) = m ((c : Thread nD τ).loc main_arg13) :=
  (W21_keep m ρ c main_arg13 (by decide)).trans (W20_arg13 m ρ c)
theorem W22_arg13 (c : Dev nD) : W22 m ρ c (Proc.devRef .tc main_arg13) = m ((c : Thread nD τ).loc main_arg13) :=
  (W22_keep m ρ c main_arg13 (by decide)).trans (W21_arg13 m ρ c)
theorem W23_arg13 (c : Dev nD) : W23 m ρ c (Proc.devRef .tc main_arg13) = m ((c : Thread nD τ).loc main_arg13) :=
  (W23_keep m ρ c main_arg13 (by decide)).trans (W22_arg13 m ρ c)
theorem W24_arg13 (c : Dev nD) : W24 m ρ c (Proc.devRef .tc main_arg13) = m ((c : Thread nD τ).loc main_arg13) :=
  (W24_keep m ρ c main_arg13 (by decide)).trans (W23_arg13 m ρ c)
theorem W25_arg13 (c : Dev nD) : W25 m ρ c (Proc.devRef .tc main_arg13) = m ((c : Thread nD τ).loc main_arg13) :=
  (W25_keep m ρ c main_arg13 (by decide)).trans (W24_arg13 m ρ c)
theorem W26_arg13 (c : Dev nD) : W26 m ρ c (Proc.devRef .tc main_arg13) = m ((c : Thread nD τ).loc main_arg13) :=
  (W26_of_ne m ρ c main_arg13 (by decide)).trans (W25_arg13 m ρ c)
theorem W27_arg13 (c : Dev nD) : W27 m ρ c (Proc.devRef .tc main_arg13) = m ((c : Thread nD τ).loc main_arg13) :=
  (W27_keep m ρ c main_arg13 (by decide)).trans (W26_arg13 m ρ c)
theorem W28_arg13 (c : Dev nD) : W28 m ρ c (Proc.devRef .tc main_arg13) = m ((c : Thread nD τ).loc main_arg13) :=
  (W28_keep m ρ c main_arg13 (by decide)).trans (W27_arg13 m ρ c)
theorem W29_arg13 (c : Dev nD) : W29 m ρ c (Proc.devRef .tc main_arg13) = m ((c : Thread nD τ).loc main_arg13) :=
  (W29_keep m ρ c main_arg13 (by decide)).trans (W28_arg13 m ρ c)
theorem W30_arg13 (c : Dev nD) : W30 m ρ c (Proc.devRef .tc main_arg13) = m ((c : Thread nD τ).loc main_arg13) :=
  (W30_keep m ρ c main_arg13 (by decide)).trans (W29_arg13 m ρ c)
theorem W31_arg13 (c : Dev nD) : W31 m ρ c (Proc.devRef .tc main_arg13) = m ((c : Thread nD τ).loc main_arg13) :=
  (W31_keep m ρ c main_arg13 (by decide)).trans (W30_arg13 m ρ c)
theorem W32_arg13 (c : Dev nD) : W32 m ρ c (Proc.devRef .tc main_arg13) = m ((c : Thread nD τ).loc main_arg13) :=
  (W32_of_ne m ρ c main_arg13 (by decide)).trans (W31_arg13 m ρ c)
theorem W33_arg13 (c : Dev nD) : W33 m ρ c (Proc.devRef .tc main_arg13) = m ((c : Thread nD τ).loc main_arg13) :=
  (W33_keep m ρ c main_arg13 (by decide)).trans (W32_arg13 m ρ c)
theorem W34_arg13 (c : Dev nD) : W34 m ρ c (Proc.devRef .tc main_arg13) = m ((c : Thread nD τ).loc main_arg13) :=
  (W34_keep m ρ c main_arg13 (by decide)).trans (W33_arg13 m ρ c)
theorem W35_arg13 (c : Dev nD) : W35 m ρ c (Proc.devRef .tc main_arg13) = m ((c : Thread nD τ).loc main_arg13) :=
  (W35_keep m ρ c main_arg13 (by decide)).trans (W34_arg13 m ρ c)
theorem W36_arg13 (c : Dev nD) : W36 m ρ c (Proc.devRef .tc main_arg13) = m ((c : Thread nD τ).loc main_arg13) :=
  (W36_keep m ρ c main_arg13 (by decide)).trans (W35_arg13 m ρ c)
theorem W37_arg13 (c : Dev nD) : W37 m ρ c (Proc.devRef .tc main_arg13) = m ((c : Thread nD τ).loc main_arg13) :=
  (W37_keep m ρ c main_arg13 (by decide)).trans (W36_arg13 m ρ c)
theorem W38_arg13 (c : Dev nD) : W38 m ρ c (Proc.devRef .tc main_arg13) = m ((c : Thread nD τ).loc main_arg13) :=
  (W38_of_ne m ρ c main_arg13 (by decide)).trans (W37_arg13 m ρ c)
theorem W39_arg13 (c : Dev nD) : W39 m ρ c (Proc.devRef .tc main_arg13) = m ((c : Thread nD τ).loc main_arg13) :=
  (W39_keep m ρ c main_arg13 (by decide)).trans (W38_arg13 m ρ c)
theorem W40_arg13 (c : Dev nD) : W40 m ρ c (Proc.devRef .tc main_arg13) = m ((c : Thread nD τ).loc main_arg13) :=
  (W40_keep m ρ c main_arg13 (by decide)).trans (W39_arg13 m ρ c)
theorem W41_arg13 (c : Dev nD) : W41 m ρ c (Proc.devRef .tc main_arg13) = m ((c : Thread nD τ).loc main_arg13) :=
  (W41_keep m ρ c main_arg13 (by decide)).trans (W40_arg13 m ρ c)
theorem W42_arg13 (c : Dev nD) : W42 m ρ c (Proc.devRef .tc main_arg13) = m ((c : Thread nD τ).loc main_arg13) :=
  (W42_keep m ρ c main_arg13 (by decide)).trans (W41_arg13 m ρ c)
theorem W43_arg13 (c : Dev nD) : W43 m ρ c (Proc.devRef .tc main_arg13) = m ((c : Thread nD τ).loc main_arg13) :=
  (W43_keep m ρ c main_arg13 (by decide)).trans (W42_arg13 m ρ c)
theorem W44_arg13 (c : Dev nD) : W44 m ρ c (Proc.devRef .tc main_arg13) = m ((c : Thread nD τ).loc main_arg13) :=
  (W44_of_ne m ρ c main_arg13 (by decide)).trans (W43_arg13 m ρ c)
theorem W45_arg13 (c : Dev nD) : W45 m ρ c (Proc.devRef .tc main_arg13) = m ((c : Thread nD τ).loc main_arg13) :=
  (W45_keep m ρ c main_arg13 (by decide)).trans (W44_arg13 m ρ c)
theorem W46_arg13 (c : Dev nD) : W46 m ρ c (Proc.devRef .tc main_arg13) = m ((c : Thread nD τ).loc main_arg13) :=
  (W46_of_ne m ρ c main_arg13 (by decide)).trans (W45_arg13 m ρ c)
theorem W47_arg13 (c : Dev nD) : W47 m ρ c (Proc.devRef .tc main_arg13) = m ((c : Thread nD τ).loc main_arg13) :=
  (W47_keep m ρ c main_arg13 (by decide)).trans (W46_arg13 m ρ c)
theorem W48_arg13 (c : Dev nD) : W48 m ρ c (Proc.devRef .tc main_arg13) = m ((c : Thread nD τ).loc main_arg13) :=
  (W48_of_ne m ρ c main_arg13 (by decide)).trans (W47_arg13 m ρ c)
theorem W49_arg13 (c : Dev nD) : W49 m ρ c (Proc.devRef .tc main_arg13) = m ((c : Thread nD τ).loc main_arg13) :=
  (W49_keep m ρ c main_arg13 (by decide)).trans (W48_arg13 m ρ c)
theorem W50_arg13 (c : Dev nD) : W50 m ρ c (Proc.devRef .tc main_arg13) = m ((c : Thread nD τ).loc main_arg13) :=
  (W50_of_ne m ρ c main_arg13 (by decide)).trans (W49_arg13 m ρ c)
theorem W51_arg13 (c : Dev nD) : W51 m ρ c (Proc.devRef .tc main_arg13) = m ((c : Thread nD τ).loc main_arg13) :=
  (W51_keep m ρ c main_arg13 (by decide)).trans (W50_arg13 m ρ c)
theorem W52_arg13 (c : Dev nD) : W52 m ρ c (Proc.devRef .tc main_arg13) = m ((c : Thread nD τ).loc main_arg13) :=
  (W52_keep m ρ c main_arg13 (by decide)).trans (W51_arg13 m ρ c)
theorem W53_arg13 (c : Dev nD) : W53 m ρ c (Proc.devRef .tc main_arg13) = m ((c : Thread nD τ).loc main_arg13) :=
  (W53_keep m ρ c main_arg13 (by decide)).trans (W52_arg13 m ρ c)
theorem W54_arg13 (c : Dev nD) : W54 m ρ c (Proc.devRef .tc main_arg13) = m ((c : Thread nD τ).loc main_arg13) :=
  (W54_keep m ρ c main_arg13 (by decide)).trans (W53_arg13 m ρ c)
theorem W55_arg13 (c : Dev nD) : W55 m ρ c (Proc.devRef .tc main_arg13) = m ((c : Thread nD τ).loc main_arg13) :=
  (W55_keep m ρ c main_arg13 (by decide)).trans (W54_arg13 m ρ c)
theorem W56_arg13 (c : Dev nD) : W56 m ρ c (Proc.devRef .tc main_arg13) = m ((c : Thread nD τ).loc main_arg13) :=
  (W56_of_ne m ρ c main_arg13 (by decide)).trans (W55_arg13 m ρ c)
theorem W57_arg13 (c : Dev nD) : W57 m ρ c (Proc.devRef .tc main_arg13) = m ((c : Thread nD τ).loc main_arg13) :=
  (W57_keep m ρ c main_arg13 (by decide)).trans (W56_arg13 m ρ c)
theorem W58_arg13 (c : Dev nD) : W58 m ρ c (Proc.devRef .tc main_arg13) = m ((c : Thread nD τ).loc main_arg13) :=
  (W58_keep m ρ c main_arg13 (by decide)).trans (W57_arg13 m ρ c)
theorem W59_arg13 (c : Dev nD) : W59 m ρ c (Proc.devRef .tc main_arg13) = m ((c : Thread nD τ).loc main_arg13) :=
  (W59_keep m ρ c main_arg13 (by decide)).trans (W58_arg13 m ρ c)
theorem W60_arg13 (c : Dev nD) : W60 m ρ c (Proc.devRef .tc main_arg13) = m ((c : Thread nD τ).loc main_arg13) :=
  (W60_keep m ρ c main_arg13 (by decide)).trans (W59_arg13 m ρ c)
theorem W61_arg13 (c : Dev nD) : W61 m ρ c (Proc.devRef .tc main_arg13) = m ((c : Thread nD τ).loc main_arg13) :=
  (W61_keep m ρ c main_arg13 (by decide)).trans (W60_arg13 m ρ c)
theorem W62_arg13 (c : Dev nD) : W62 m ρ c (Proc.devRef .tc main_arg13) = m ((c : Thread nD τ).loc main_arg13) :=
  (W62_of_ne m ρ c main_arg13 (by decide)).trans (W61_arg13 m ρ c)
theorem W63_arg13 (c : Dev nD) : W63 m ρ c (Proc.devRef .tc main_arg13) = m ((c : Thread nD τ).loc main_arg13) :=
  (W63_keep m ρ c main_arg13 (by decide)).trans (W62_arg13 m ρ c)
theorem W64_arg13 (c : Dev nD) : W64 m ρ c (Proc.devRef .tc main_arg13) = m ((c : Thread nD τ).loc main_arg13) :=
  (W64_keep m ρ c main_arg13 (by decide)).trans (W63_arg13 m ρ c)
theorem W65_arg13 (c : Dev nD) : W65 m ρ c (Proc.devRef .tc main_arg13) = m ((c : Thread nD τ).loc main_arg13) :=
  (W65_keep m ρ c main_arg13 (by decide)).trans (W64_arg13 m ρ c)
theorem W66_arg13 (c : Dev nD) : W66 m ρ c (Proc.devRef .tc main_arg13) = m ((c : Thread nD τ).loc main_arg13) :=
  (W66_keep m ρ c main_arg13 (by decide)).trans (W65_arg13 m ρ c)
theorem W67_arg13 (c : Dev nD) : W67 m ρ c (Proc.devRef .tc main_arg13) = m ((c : Thread nD τ).loc main_arg13) :=
  (W67_keep m ρ c main_arg13 (by decide)).trans (W66_arg13 m ρ c)
theorem W68_arg13 (c : Dev nD) : W68 m ρ c (Proc.devRef .tc main_arg13) = m ((c : Thread nD τ).loc main_arg13) :=
  (W68_of_ne m ρ c main_arg13 (by decide)).trans (W67_arg13 m ρ c)
theorem W69_arg13 (c : Dev nD) : W69 m ρ c (Proc.devRef .tc main_arg13) = m ((c : Thread nD τ).loc main_arg13) :=
  (W69_keep m ρ c main_arg13 (by decide)).trans (W68_arg13 m ρ c)
theorem W70_arg13 (c : Dev nD) : W70 m ρ c (Proc.devRef .tc main_arg13) = m ((c : Thread nD τ).loc main_arg13) :=
  (W70_keep m ρ c main_arg13 (by decide)).trans (W69_arg13 m ρ c)
theorem W71_arg13 (c : Dev nD) : W71 m ρ c (Proc.devRef .tc main_arg13) = m ((c : Thread nD τ).loc main_arg13) :=
  (W71_keep m ρ c main_arg13 (by decide)).trans (W70_arg13 m ρ c)
theorem W72_arg13 (c : Dev nD) : W72 m ρ c (Proc.devRef .tc main_arg13) = m ((c : Thread nD τ).loc main_arg13) :=
  (W72_keep m ρ c main_arg13 (by decide)).trans (W71_arg13 m ρ c)
theorem W73_arg13 (c : Dev nD) : W73 m ρ c (Proc.devRef .tc main_arg13) = m ((c : Thread nD τ).loc main_arg13) :=
  (W73_keep m ρ c main_arg13 (by decide)).trans (W72_arg13 m ρ c)
theorem W74_arg13 (c : Dev nD) : W74 m ρ c (Proc.devRef .tc main_arg13) = m ((c : Thread nD τ).loc main_arg13) :=
  (W74_of_ne m ρ c main_arg13 (by decide)).trans (W73_arg13 m ρ c)
theorem W75_arg13 (c : Dev nD) : W75 m ρ c (Proc.devRef .tc main_arg13) = m ((c : Thread nD τ).loc main_arg13) :=
  (W75_keep m ρ c main_arg13 (by decide)).trans (W74_arg13 m ρ c)
theorem W76_arg13 (c : Dev nD) : W76 m ρ c (Proc.devRef .tc main_arg13) = m ((c : Thread nD τ).loc main_arg13) :=
  (W76_keep m ρ c main_arg13 (by decide)).trans (W75_arg13 m ρ c)
theorem W77_arg13 (c : Dev nD) : W77 m ρ c (Proc.devRef .tc main_arg13) = m ((c : Thread nD τ).loc main_arg13) :=
  (W77_keep m ρ c main_arg13 (by decide)).trans (W76_arg13 m ρ c)
theorem W78_arg13 (c : Dev nD) : W78 m ρ c (Proc.devRef .tc main_arg13) = m ((c : Thread nD τ).loc main_arg13) :=
  (W78_keep m ρ c main_arg13 (by decide)).trans (W77_arg13 m ρ c)
theorem W79_arg13 (c : Dev nD) : W79 m ρ c (Proc.devRef .tc main_arg13) = m ((c : Thread nD τ).loc main_arg13) :=
  (W79_keep m ρ c main_arg13 (by decide)).trans (W78_arg13 m ρ c)
theorem W80_arg13 (c : Dev nD) : W80 m ρ c (Proc.devRef .tc main_arg13) = m ((c : Thread nD τ).loc main_arg13) :=
  (W80_of_ne m ρ c main_arg13 (by decide)).trans (W79_arg13 m ρ c)
theorem W81_arg13 (c : Dev nD) : W81 m ρ c (Proc.devRef .tc main_arg13) = m ((c : Thread nD τ).loc main_arg13) :=
  (W81_keep m ρ c main_arg13 (by decide)).trans (W80_arg13 m ρ c)
theorem W82_arg13 (c : Dev nD) : W82 m ρ c (Proc.devRef .tc main_arg13) = m ((c : Thread nD τ).loc main_arg13) :=
  (W82_keep m ρ c main_arg13 (by decide)).trans (W81_arg13 m ρ c)
theorem W83_arg13 (c : Dev nD) : W83 m ρ c (Proc.devRef .tc main_arg13) = m ((c : Thread nD τ).loc main_arg13) :=
  (W83_keep m ρ c main_arg13 (by decide)).trans (W82_arg13 m ρ c)
theorem W84_arg13 (c : Dev nD) : W84 m ρ c (Proc.devRef .tc main_arg13) = m ((c : Thread nD τ).loc main_arg13) :=
  (W84_keep m ρ c main_arg13 (by decide)).trans (W83_arg13 m ρ c)
theorem W85_arg13 (c : Dev nD) : W85 m ρ c (Proc.devRef .tc main_arg13) = m ((c : Thread nD τ).loc main_arg13) :=
  (W85_keep m ρ c main_arg13 (by decide)).trans (W84_arg13 m ρ c)
theorem W86_arg13 (c : Dev nD) : W86 m ρ c (Proc.devRef .tc main_arg13) = m ((c : Thread nD τ).loc main_arg13) :=
  (W86_of_ne m ρ c main_arg13 (by decide)).trans (W85_arg13 m ρ c)
theorem W87_arg13 (c : Dev nD) : W87 m ρ c (Proc.devRef .tc main_arg13) = m ((c : Thread nD τ).loc main_arg13) :=
  (W87_keep m ρ c main_arg13 (by decide)).trans (W86_arg13 m ρ c)
theorem W88_arg13 (c : Dev nD) : W88 m ρ c (Proc.devRef .tc main_arg13) = m ((c : Thread nD τ).loc main_arg13) :=
  (W88_of_ne m ρ c main_arg13 (by decide)).trans (W87_arg13 m ρ c)
theorem W89_arg13 (c : Dev nD) : W89 m ρ c (Proc.devRef .tc main_arg13) = m ((c : Thread nD τ).loc main_arg13) :=
  (W89_keep m ρ c main_arg13 (by decide)).trans (W88_arg13 m ρ c)
theorem W90_arg13 (c : Dev nD) : W90 m ρ c (Proc.devRef .tc main_arg13) = m ((c : Thread nD τ).loc main_arg13) :=
  (W90_of_ne m ρ c main_arg13 (by decide)).trans (W89_arg13 m ρ c)
theorem W0_arg14 (c : Dev nD) : W0 m ρ c (Proc.devRef .tc main_arg14) = m ((c : Thread nD τ).loc main_arg14) := rfl
theorem W1_arg14 (c : Dev nD) : W1 m ρ c (Proc.devRef .tc main_arg14) = m ((c : Thread nD τ).loc main_arg14) :=
  (W1_keep m ρ c main_arg14 (by decide)).trans (W0_arg14 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W3_arg14 (c : Dev nD) : W3 m ρ c (Proc.devRef .tc main_arg14) = m ((c : Thread nD τ).loc main_arg14) :=
  (W3_keep m ρ c main_arg14 (by decide)).trans (W2_arg14 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W5_arg14 (c : Dev nD) : W5 m ρ c (Proc.devRef .tc main_arg14) = m ((c : Thread nD τ).loc main_arg14) :=
  (W5_keep m ρ c main_arg14 (by decide)).trans (W4_arg14 m ρ c)
theorem W6_arg14 (c : Dev nD) : W6 m ρ c (Proc.devRef .tc main_arg14) = m ((c : Thread nD τ).loc main_arg14) :=
  (W6_of_ne m ρ c main_arg14 (by decide)).trans (W5_arg14 m ρ c)
theorem W7_arg14 (c : Dev nD) : W7 m ρ c (Proc.devRef .tc main_arg14) = m ((c : Thread nD τ).loc main_arg14) :=
  (W7_keep m ρ c main_arg14 (by decide)).trans (W6_arg14 m ρ c)
theorem W8_arg14 (c : Dev nD) : W8 m ρ c (Proc.devRef .tc main_arg14) = m ((c : Thread nD τ).loc main_arg14) :=
  (W8_of_ne m ρ c main_arg14 (by decide)).trans (W7_arg14 m ρ c)
theorem W9_arg14 (c : Dev nD) : W9 m ρ c (Proc.devRef .tc main_arg14) = m ((c : Thread nD τ).loc main_arg14) :=
  (W9_keep m ρ c main_arg14 (by decide)).trans (W8_arg14 m ρ c)
theorem W10_arg14 (c : Dev nD) : W10 m ρ c (Proc.devRef .tc main_arg14) = m ((c : Thread nD τ).loc main_arg14) :=
  (W10_keep m ρ c main_arg14 (by decide)).trans (W9_arg14 m ρ c)
theorem W11_arg14 (c : Dev nD) : W11 m ρ c (Proc.devRef .tc main_arg14) = m ((c : Thread nD τ).loc main_arg14) :=
  (W11_keep m ρ c main_arg14 (by decide)).trans (W10_arg14 m ρ c)
theorem W12_arg14 (c : Dev nD) : W12 m ρ c (Proc.devRef .tc main_arg14) = m ((c : Thread nD τ).loc main_arg14) :=
  (W12_keep m ρ c main_arg14 (by decide)).trans (W11_arg14 m ρ c)
theorem W13_arg14 (c : Dev nD) : W13 m ρ c (Proc.devRef .tc main_arg14) = m ((c : Thread nD τ).loc main_arg14) :=
  (W13_keep m ρ c main_arg14 (by decide)).trans (W12_arg14 m ρ c)
theorem W14_arg14 (c : Dev nD) : W14 m ρ c (Proc.devRef .tc main_arg14) = m ((c : Thread nD τ).loc main_arg14) :=
  (W14_of_ne m ρ c main_arg14 (by decide)).trans (W13_arg14 m ρ c)
theorem W15_arg14 (c : Dev nD) : W15 m ρ c (Proc.devRef .tc main_arg14) = m ((c : Thread nD τ).loc main_arg14) :=
  (W15_keep m ρ c main_arg14 (by decide)).trans (W14_arg14 m ρ c)
theorem W16_arg14 (c : Dev nD) : W16 m ρ c (Proc.devRef .tc main_arg14) = m ((c : Thread nD τ).loc main_arg14) :=
  (W16_keep m ρ c main_arg14 (by decide)).trans (W15_arg14 m ρ c)
theorem W17_arg14 (c : Dev nD) : W17 m ρ c (Proc.devRef .tc main_arg14) = m ((c : Thread nD τ).loc main_arg14) :=
  (W17_keep m ρ c main_arg14 (by decide)).trans (W16_arg14 m ρ c)
theorem W18_arg14 (c : Dev nD) : W18 m ρ c (Proc.devRef .tc main_arg14) = m ((c : Thread nD τ).loc main_arg14) :=
  (W18_keep m ρ c main_arg14 (by decide)).trans (W17_arg14 m ρ c)
theorem W19_arg14 (c : Dev nD) : W19 m ρ c (Proc.devRef .tc main_arg14) = m ((c : Thread nD τ).loc main_arg14) :=
  (W19_keep m ρ c main_arg14 (by decide)).trans (W18_arg14 m ρ c)
theorem W20_arg14 (c : Dev nD) : W20 m ρ c (Proc.devRef .tc main_arg14) = m ((c : Thread nD τ).loc main_arg14) :=
  (W20_of_ne m ρ c main_arg14 (by decide)).trans (W19_arg14 m ρ c)
theorem W21_arg14 (c : Dev nD) : W21 m ρ c (Proc.devRef .tc main_arg14) = m ((c : Thread nD τ).loc main_arg14) :=
  (W21_keep m ρ c main_arg14 (by decide)).trans (W20_arg14 m ρ c)
theorem W22_arg14 (c : Dev nD) : W22 m ρ c (Proc.devRef .tc main_arg14) = m ((c : Thread nD τ).loc main_arg14) :=
  (W22_keep m ρ c main_arg14 (by decide)).trans (W21_arg14 m ρ c)
theorem W23_arg14 (c : Dev nD) : W23 m ρ c (Proc.devRef .tc main_arg14) = m ((c : Thread nD τ).loc main_arg14) :=
  (W23_keep m ρ c main_arg14 (by decide)).trans (W22_arg14 m ρ c)
theorem W24_arg14 (c : Dev nD) : W24 m ρ c (Proc.devRef .tc main_arg14) = m ((c : Thread nD τ).loc main_arg14) :=
  (W24_keep m ρ c main_arg14 (by decide)).trans (W23_arg14 m ρ c)
theorem W25_arg14 (c : Dev nD) : W25 m ρ c (Proc.devRef .tc main_arg14) = m ((c : Thread nD τ).loc main_arg14) :=
  (W25_keep m ρ c main_arg14 (by decide)).trans (W24_arg14 m ρ c)
theorem W26_arg14 (c : Dev nD) : W26 m ρ c (Proc.devRef .tc main_arg14) = m ((c : Thread nD τ).loc main_arg14) :=
  (W26_of_ne m ρ c main_arg14 (by decide)).trans (W25_arg14 m ρ c)
theorem W27_arg14 (c : Dev nD) : W27 m ρ c (Proc.devRef .tc main_arg14) = m ((c : Thread nD τ).loc main_arg14) :=
  (W27_keep m ρ c main_arg14 (by decide)).trans (W26_arg14 m ρ c)
theorem W28_arg14 (c : Dev nD) : W28 m ρ c (Proc.devRef .tc main_arg14) = m ((c : Thread nD τ).loc main_arg14) :=
  (W28_keep m ρ c main_arg14 (by decide)).trans (W27_arg14 m ρ c)
theorem W29_arg14 (c : Dev nD) : W29 m ρ c (Proc.devRef .tc main_arg14) = m ((c : Thread nD τ).loc main_arg14) :=
  (W29_keep m ρ c main_arg14 (by decide)).trans (W28_arg14 m ρ c)
theorem W30_arg14 (c : Dev nD) : W30 m ρ c (Proc.devRef .tc main_arg14) = m ((c : Thread nD τ).loc main_arg14) :=
  (W30_keep m ρ c main_arg14 (by decide)).trans (W29_arg14 m ρ c)
theorem W31_arg14 (c : Dev nD) : W31 m ρ c (Proc.devRef .tc main_arg14) = m ((c : Thread nD τ).loc main_arg14) :=
  (W31_keep m ρ c main_arg14 (by decide)).trans (W30_arg14 m ρ c)
theorem W32_arg14 (c : Dev nD) : W32 m ρ c (Proc.devRef .tc main_arg14) = m ((c : Thread nD τ).loc main_arg14) :=
  (W32_of_ne m ρ c main_arg14 (by decide)).trans (W31_arg14 m ρ c)
theorem W33_arg14 (c : Dev nD) : W33 m ρ c (Proc.devRef .tc main_arg14) = m ((c : Thread nD τ).loc main_arg14) :=
  (W33_keep m ρ c main_arg14 (by decide)).trans (W32_arg14 m ρ c)
theorem W34_arg14 (c : Dev nD) : W34 m ρ c (Proc.devRef .tc main_arg14) = m ((c : Thread nD τ).loc main_arg14) :=
  (W34_keep m ρ c main_arg14 (by decide)).trans (W33_arg14 m ρ c)
theorem W35_arg14 (c : Dev nD) : W35 m ρ c (Proc.devRef .tc main_arg14) = m ((c : Thread nD τ).loc main_arg14) :=
  (W35_keep m ρ c main_arg14 (by decide)).trans (W34_arg14 m ρ c)
theorem W36_arg14 (c : Dev nD) : W36 m ρ c (Proc.devRef .tc main_arg14) = m ((c : Thread nD τ).loc main_arg14) :=
  (W36_keep m ρ c main_arg14 (by decide)).trans (W35_arg14 m ρ c)
theorem W37_arg14 (c : Dev nD) : W37 m ρ c (Proc.devRef .tc main_arg14) = m ((c : Thread nD τ).loc main_arg14) :=
  (W37_keep m ρ c main_arg14 (by decide)).trans (W36_arg14 m ρ c)
theorem W38_arg14 (c : Dev nD) : W38 m ρ c (Proc.devRef .tc main_arg14) = m ((c : Thread nD τ).loc main_arg14) :=
  (W38_of_ne m ρ c main_arg14 (by decide)).trans (W37_arg14 m ρ c)
theorem W39_arg14 (c : Dev nD) : W39 m ρ c (Proc.devRef .tc main_arg14) = m ((c : Thread nD τ).loc main_arg14) :=
  (W39_keep m ρ c main_arg14 (by decide)).trans (W38_arg14 m ρ c)
theorem W40_arg14 (c : Dev nD) : W40 m ρ c (Proc.devRef .tc main_arg14) = m ((c : Thread nD τ).loc main_arg14) :=
  (W40_keep m ρ c main_arg14 (by decide)).trans (W39_arg14 m ρ c)
theorem W41_arg14 (c : Dev nD) : W41 m ρ c (Proc.devRef .tc main_arg14) = m ((c : Thread nD τ).loc main_arg14) :=
  (W41_keep m ρ c main_arg14 (by decide)).trans (W40_arg14 m ρ c)
theorem W42_arg14 (c : Dev nD) : W42 m ρ c (Proc.devRef .tc main_arg14) = m ((c : Thread nD τ).loc main_arg14) :=
  (W42_keep m ρ c main_arg14 (by decide)).trans (W41_arg14 m ρ c)
theorem W43_arg14 (c : Dev nD) : W43 m ρ c (Proc.devRef .tc main_arg14) = m ((c : Thread nD τ).loc main_arg14) :=
  (W43_keep m ρ c main_arg14 (by decide)).trans (W42_arg14 m ρ c)
theorem W44_arg14 (c : Dev nD) : W44 m ρ c (Proc.devRef .tc main_arg14) = m ((c : Thread nD τ).loc main_arg14) :=
  (W44_of_ne m ρ c main_arg14 (by decide)).trans (W43_arg14 m ρ c)
theorem W45_arg14 (c : Dev nD) : W45 m ρ c (Proc.devRef .tc main_arg14) = m ((c : Thread nD τ).loc main_arg14) :=
  (W45_keep m ρ c main_arg14 (by decide)).trans (W44_arg14 m ρ c)
theorem W46_arg14 (c : Dev nD) : W46 m ρ c (Proc.devRef .tc main_arg14) = m ((c : Thread nD τ).loc main_arg14) :=
  (W46_of_ne m ρ c main_arg14 (by decide)).trans (W45_arg14 m ρ c)
theorem W47_arg14 (c : Dev nD) : W47 m ρ c (Proc.devRef .tc main_arg14) = m ((c : Thread nD τ).loc main_arg14) :=
  (W47_keep m ρ c main_arg14 (by decide)).trans (W46_arg14 m ρ c)
theorem W48_arg14 (c : Dev nD) : W48 m ρ c (Proc.devRef .tc main_arg14) = m ((c : Thread nD τ).loc main_arg14) :=
  (W48_of_ne m ρ c main_arg14 (by decide)).trans (W47_arg14 m ρ c)
theorem W49_arg14 (c : Dev nD) : W49 m ρ c (Proc.devRef .tc main_arg14) = m ((c : Thread nD τ).loc main_arg14) :=
  (W49_keep m ρ c main_arg14 (by decide)).trans (W48_arg14 m ρ c)
theorem W50_arg14 (c : Dev nD) : W50 m ρ c (Proc.devRef .tc main_arg14) = m ((c : Thread nD τ).loc main_arg14) :=
  (W50_of_ne m ρ c main_arg14 (by decide)).trans (W49_arg14 m ρ c)
theorem W51_arg14 (c : Dev nD) : W51 m ρ c (Proc.devRef .tc main_arg14) = m ((c : Thread nD τ).loc main_arg14) :=
  (W51_keep m ρ c main_arg14 (by decide)).trans (W50_arg14 m ρ c)
theorem W52_arg14 (c : Dev nD) : W52 m ρ c (Proc.devRef .tc main_arg14) = m ((c : Thread nD τ).loc main_arg14) :=
  (W52_keep m ρ c main_arg14 (by decide)).trans (W51_arg14 m ρ c)
theorem W53_arg14 (c : Dev nD) : W53 m ρ c (Proc.devRef .tc main_arg14) = m ((c : Thread nD τ).loc main_arg14) :=
  (W53_keep m ρ c main_arg14 (by decide)).trans (W52_arg14 m ρ c)
theorem W54_arg14 (c : Dev nD) : W54 m ρ c (Proc.devRef .tc main_arg14) = m ((c : Thread nD τ).loc main_arg14) :=
  (W54_keep m ρ c main_arg14 (by decide)).trans (W53_arg14 m ρ c)
theorem W55_arg14 (c : Dev nD) : W55 m ρ c (Proc.devRef .tc main_arg14) = m ((c : Thread nD τ).loc main_arg14) :=
  (W55_keep m ρ c main_arg14 (by decide)).trans (W54_arg14 m ρ c)
theorem W56_arg14 (c : Dev nD) : W56 m ρ c (Proc.devRef .tc main_arg14) = m ((c : Thread nD τ).loc main_arg14) :=
  (W56_of_ne m ρ c main_arg14 (by decide)).trans (W55_arg14 m ρ c)
theorem W57_arg14 (c : Dev nD) : W57 m ρ c (Proc.devRef .tc main_arg14) = m ((c : Thread nD τ).loc main_arg14) :=
  (W57_keep m ρ c main_arg14 (by decide)).trans (W56_arg14 m ρ c)
theorem W58_arg14 (c : Dev nD) : W58 m ρ c (Proc.devRef .tc main_arg14) = m ((c : Thread nD τ).loc main_arg14) :=
  (W58_keep m ρ c main_arg14 (by decide)).trans (W57_arg14 m ρ c)
theorem W59_arg14 (c : Dev nD) : W59 m ρ c (Proc.devRef .tc main_arg14) = m ((c : Thread nD τ).loc main_arg14) :=
  (W59_keep m ρ c main_arg14 (by decide)).trans (W58_arg14 m ρ c)
theorem W60_arg14 (c : Dev nD) : W60 m ρ c (Proc.devRef .tc main_arg14) = m ((c : Thread nD τ).loc main_arg14) :=
  (W60_keep m ρ c main_arg14 (by decide)).trans (W59_arg14 m ρ c)
theorem W61_arg14 (c : Dev nD) : W61 m ρ c (Proc.devRef .tc main_arg14) = m ((c : Thread nD τ).loc main_arg14) :=
  (W61_keep m ρ c main_arg14 (by decide)).trans (W60_arg14 m ρ c)
theorem W62_arg14 (c : Dev nD) : W62 m ρ c (Proc.devRef .tc main_arg14) = m ((c : Thread nD τ).loc main_arg14) :=
  (W62_of_ne m ρ c main_arg14 (by decide)).trans (W61_arg14 m ρ c)
theorem W63_arg14 (c : Dev nD) : W63 m ρ c (Proc.devRef .tc main_arg14) = m ((c : Thread nD τ).loc main_arg14) :=
  (W63_keep m ρ c main_arg14 (by decide)).trans (W62_arg14 m ρ c)
theorem W64_arg14 (c : Dev nD) : W64 m ρ c (Proc.devRef .tc main_arg14) = m ((c : Thread nD τ).loc main_arg14) :=
  (W64_keep m ρ c main_arg14 (by decide)).trans (W63_arg14 m ρ c)
theorem W65_arg14 (c : Dev nD) : W65 m ρ c (Proc.devRef .tc main_arg14) = m ((c : Thread nD τ).loc main_arg14) :=
  (W65_keep m ρ c main_arg14 (by decide)).trans (W64_arg14 m ρ c)
theorem W66_arg14 (c : Dev nD) : W66 m ρ c (Proc.devRef .tc main_arg14) = m ((c : Thread nD τ).loc main_arg14) :=
  (W66_keep m ρ c main_arg14 (by decide)).trans (W65_arg14 m ρ c)
theorem W67_arg14 (c : Dev nD) : W67 m ρ c (Proc.devRef .tc main_arg14) = m ((c : Thread nD τ).loc main_arg14) :=
  (W67_keep m ρ c main_arg14 (by decide)).trans (W66_arg14 m ρ c)
theorem W68_arg14 (c : Dev nD) : W68 m ρ c (Proc.devRef .tc main_arg14) = m ((c : Thread nD τ).loc main_arg14) :=
  (W68_of_ne m ρ c main_arg14 (by decide)).trans (W67_arg14 m ρ c)
theorem W69_arg14 (c : Dev nD) : W69 m ρ c (Proc.devRef .tc main_arg14) = m ((c : Thread nD τ).loc main_arg14) :=
  (W69_keep m ρ c main_arg14 (by decide)).trans (W68_arg14 m ρ c)
theorem W70_arg14 (c : Dev nD) : W70 m ρ c (Proc.devRef .tc main_arg14) = m ((c : Thread nD τ).loc main_arg14) :=
  (W70_keep m ρ c main_arg14 (by decide)).trans (W69_arg14 m ρ c)
theorem W71_arg14 (c : Dev nD) : W71 m ρ c (Proc.devRef .tc main_arg14) = m ((c : Thread nD τ).loc main_arg14) :=
  (W71_keep m ρ c main_arg14 (by decide)).trans (W70_arg14 m ρ c)
theorem W72_arg14 (c : Dev nD) : W72 m ρ c (Proc.devRef .tc main_arg14) = m ((c : Thread nD τ).loc main_arg14) :=
  (W72_keep m ρ c main_arg14 (by decide)).trans (W71_arg14 m ρ c)
theorem W73_arg14 (c : Dev nD) : W73 m ρ c (Proc.devRef .tc main_arg14) = m ((c : Thread nD τ).loc main_arg14) :=
  (W73_keep m ρ c main_arg14 (by decide)).trans (W72_arg14 m ρ c)
theorem W74_arg14 (c : Dev nD) : W74 m ρ c (Proc.devRef .tc main_arg14) = m ((c : Thread nD τ).loc main_arg14) :=
  (W74_of_ne m ρ c main_arg14 (by decide)).trans (W73_arg14 m ρ c)
theorem W75_arg14 (c : Dev nD) : W75 m ρ c (Proc.devRef .tc main_arg14) = m ((c : Thread nD τ).loc main_arg14) :=
  (W75_keep m ρ c main_arg14 (by decide)).trans (W74_arg14 m ρ c)
theorem W76_arg14 (c : Dev nD) : W76 m ρ c (Proc.devRef .tc main_arg14) = m ((c : Thread nD τ).loc main_arg14) :=
  (W76_keep m ρ c main_arg14 (by decide)).trans (W75_arg14 m ρ c)
theorem W77_arg14 (c : Dev nD) : W77 m ρ c (Proc.devRef .tc main_arg14) = m ((c : Thread nD τ).loc main_arg14) :=
  (W77_keep m ρ c main_arg14 (by decide)).trans (W76_arg14 m ρ c)
theorem W78_arg14 (c : Dev nD) : W78 m ρ c (Proc.devRef .tc main_arg14) = m ((c : Thread nD τ).loc main_arg14) :=
  (W78_keep m ρ c main_arg14 (by decide)).trans (W77_arg14 m ρ c)
theorem W79_arg14 (c : Dev nD) : W79 m ρ c (Proc.devRef .tc main_arg14) = m ((c : Thread nD τ).loc main_arg14) :=
  (W79_keep m ρ c main_arg14 (by decide)).trans (W78_arg14 m ρ c)
theorem W80_arg14 (c : Dev nD) : W80 m ρ c (Proc.devRef .tc main_arg14) = m ((c : Thread nD τ).loc main_arg14) :=
  (W80_of_ne m ρ c main_arg14 (by decide)).trans (W79_arg14 m ρ c)
theorem W81_arg14 (c : Dev nD) : W81 m ρ c (Proc.devRef .tc main_arg14) = m ((c : Thread nD τ).loc main_arg14) :=
  (W81_keep m ρ c main_arg14 (by decide)).trans (W80_arg14 m ρ c)
theorem W82_arg14 (c : Dev nD) : W82 m ρ c (Proc.devRef .tc main_arg14) = m ((c : Thread nD τ).loc main_arg14) :=
  (W82_keep m ρ c main_arg14 (by decide)).trans (W81_arg14 m ρ c)
theorem W83_arg14 (c : Dev nD) : W83 m ρ c (Proc.devRef .tc main_arg14) = m ((c : Thread nD τ).loc main_arg14) :=
  (W83_keep m ρ c main_arg14 (by decide)).trans (W82_arg14 m ρ c)
theorem W84_arg14 (c : Dev nD) : W84 m ρ c (Proc.devRef .tc main_arg14) = m ((c : Thread nD τ).loc main_arg14) :=
  (W84_keep m ρ c main_arg14 (by decide)).trans (W83_arg14 m ρ c)
theorem W85_arg14 (c : Dev nD) : W85 m ρ c (Proc.devRef .tc main_arg14) = m ((c : Thread nD τ).loc main_arg14) :=
  (W85_keep m ρ c main_arg14 (by decide)).trans (W84_arg14 m ρ c)
theorem W86_arg14 (c : Dev nD) : W86 m ρ c (Proc.devRef .tc main_arg14) = m ((c : Thread nD τ).loc main_arg14) :=
  (W86_of_ne m ρ c main_arg14 (by decide)).trans (W85_arg14 m ρ c)
theorem W87_arg14 (c : Dev nD) : W87 m ρ c (Proc.devRef .tc main_arg14) = m ((c : Thread nD τ).loc main_arg14) :=
  (W87_keep m ρ c main_arg14 (by decide)).trans (W86_arg14 m ρ c)
theorem W88_arg14 (c : Dev nD) : W88 m ρ c (Proc.devRef .tc main_arg14) = m ((c : Thread nD τ).loc main_arg14) :=
  (W88_of_ne m ρ c main_arg14 (by decide)).trans (W87_arg14 m ρ c)
theorem W89_arg14 (c : Dev nD) : W89 m ρ c (Proc.devRef .tc main_arg14) = m ((c : Thread nD τ).loc main_arg14) :=
  (W89_keep m ρ c main_arg14 (by decide)).trans (W88_arg14 m ρ c)
theorem W90_arg14 (c : Dev nD) : W90 m ρ c (Proc.devRef .tc main_arg14) = m ((c : Thread nD τ).loc main_arg14) :=
  (W90_of_ne m ρ c main_arg14 (by decide)).trans (W89_arg14 m ρ c)
theorem W0_arg15 (c : Dev nD) : W0 m ρ c (Proc.devRef .tc main_arg15) = m ((c : Thread nD τ).loc main_arg15) := rfl
theorem W1_arg15 (c : Dev nD) : W1 m ρ c (Proc.devRef .tc main_arg15) = m ((c : Thread nD τ).loc main_arg15) :=
  (W1_keep m ρ c main_arg15 (by decide)).trans (W0_arg15 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W3_arg15 (c : Dev nD) : W3 m ρ c (Proc.devRef .tc main_arg15) = m ((c : Thread nD τ).loc main_arg15) :=
  (W3_keep m ρ c main_arg15 (by decide)).trans (W2_arg15 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W5_arg15 (c : Dev nD) : W5 m ρ c (Proc.devRef .tc main_arg15) = m ((c : Thread nD τ).loc main_arg15) :=
  (W5_keep m ρ c main_arg15 (by decide)).trans (W4_arg15 m ρ c)
theorem W6_arg15 (c : Dev nD) : W6 m ρ c (Proc.devRef .tc main_arg15) = m ((c : Thread nD τ).loc main_arg15) :=
  (W6_of_ne m ρ c main_arg15 (by decide)).trans (W5_arg15 m ρ c)
theorem W7_arg15 (c : Dev nD) : W7 m ρ c (Proc.devRef .tc main_arg15) = m ((c : Thread nD τ).loc main_arg15) :=
  (W7_keep m ρ c main_arg15 (by decide)).trans (W6_arg15 m ρ c)
theorem W8_arg15 (c : Dev nD) : W8 m ρ c (Proc.devRef .tc main_arg15) = m ((c : Thread nD τ).loc main_arg15) :=
  (W8_of_ne m ρ c main_arg15 (by decide)).trans (W7_arg15 m ρ c)
theorem W9_arg15 (c : Dev nD) : W9 m ρ c (Proc.devRef .tc main_arg15) = m ((c : Thread nD τ).loc main_arg15) :=
  (W9_keep m ρ c main_arg15 (by decide)).trans (W8_arg15 m ρ c)
theorem W10_arg15 (c : Dev nD) : W10 m ρ c (Proc.devRef .tc main_arg15) = m ((c : Thread nD τ).loc main_arg15) :=
  (W10_keep m ρ c main_arg15 (by decide)).trans (W9_arg15 m ρ c)
theorem W11_arg15 (c : Dev nD) : W11 m ρ c (Proc.devRef .tc main_arg15) = m ((c : Thread nD τ).loc main_arg15) :=
  (W11_keep m ρ c main_arg15 (by decide)).trans (W10_arg15 m ρ c)
theorem W12_arg15 (c : Dev nD) : W12 m ρ c (Proc.devRef .tc main_arg15) = m ((c : Thread nD τ).loc main_arg15) :=
  (W12_keep m ρ c main_arg15 (by decide)).trans (W11_arg15 m ρ c)
theorem W13_arg15 (c : Dev nD) : W13 m ρ c (Proc.devRef .tc main_arg15) = m ((c : Thread nD τ).loc main_arg15) :=
  (W13_keep m ρ c main_arg15 (by decide)).trans (W12_arg15 m ρ c)
theorem W14_arg15 (c : Dev nD) : W14 m ρ c (Proc.devRef .tc main_arg15) = m ((c : Thread nD τ).loc main_arg15) :=
  (W14_of_ne m ρ c main_arg15 (by decide)).trans (W13_arg15 m ρ c)
theorem W15_arg15 (c : Dev nD) : W15 m ρ c (Proc.devRef .tc main_arg15) = m ((c : Thread nD τ).loc main_arg15) :=
  (W15_keep m ρ c main_arg15 (by decide)).trans (W14_arg15 m ρ c)
theorem W16_arg15 (c : Dev nD) : W16 m ρ c (Proc.devRef .tc main_arg15) = m ((c : Thread nD τ).loc main_arg15) :=
  (W16_keep m ρ c main_arg15 (by decide)).trans (W15_arg15 m ρ c)
theorem W17_arg15 (c : Dev nD) : W17 m ρ c (Proc.devRef .tc main_arg15) = m ((c : Thread nD τ).loc main_arg15) :=
  (W17_keep m ρ c main_arg15 (by decide)).trans (W16_arg15 m ρ c)
theorem W18_arg15 (c : Dev nD) : W18 m ρ c (Proc.devRef .tc main_arg15) = m ((c : Thread nD τ).loc main_arg15) :=
  (W18_keep m ρ c main_arg15 (by decide)).trans (W17_arg15 m ρ c)
theorem W19_arg15 (c : Dev nD) : W19 m ρ c (Proc.devRef .tc main_arg15) = m ((c : Thread nD τ).loc main_arg15) :=
  (W19_keep m ρ c main_arg15 (by decide)).trans (W18_arg15 m ρ c)
theorem W20_arg15 (c : Dev nD) : W20 m ρ c (Proc.devRef .tc main_arg15) = m ((c : Thread nD τ).loc main_arg15) :=
  (W20_of_ne m ρ c main_arg15 (by decide)).trans (W19_arg15 m ρ c)
theorem W21_arg15 (c : Dev nD) : W21 m ρ c (Proc.devRef .tc main_arg15) = m ((c : Thread nD τ).loc main_arg15) :=
  (W21_keep m ρ c main_arg15 (by decide)).trans (W20_arg15 m ρ c)
theorem W22_arg15 (c : Dev nD) : W22 m ρ c (Proc.devRef .tc main_arg15) = m ((c : Thread nD τ).loc main_arg15) :=
  (W22_keep m ρ c main_arg15 (by decide)).trans (W21_arg15 m ρ c)
theorem W23_arg15 (c : Dev nD) : W23 m ρ c (Proc.devRef .tc main_arg15) = m ((c : Thread nD τ).loc main_arg15) :=
  (W23_keep m ρ c main_arg15 (by decide)).trans (W22_arg15 m ρ c)
theorem W24_arg15 (c : Dev nD) : W24 m ρ c (Proc.devRef .tc main_arg15) = m ((c : Thread nD τ).loc main_arg15) :=
  (W24_keep m ρ c main_arg15 (by decide)).trans (W23_arg15 m ρ c)
theorem W25_arg15 (c : Dev nD) : W25 m ρ c (Proc.devRef .tc main_arg15) = m ((c : Thread nD τ).loc main_arg15) :=
  (W25_keep m ρ c main_arg15 (by decide)).trans (W24_arg15 m ρ c)
theorem W26_arg15 (c : Dev nD) : W26 m ρ c (Proc.devRef .tc main_arg15) = m ((c : Thread nD τ).loc main_arg15) :=
  (W26_of_ne m ρ c main_arg15 (by decide)).trans (W25_arg15 m ρ c)
theorem W27_arg15 (c : Dev nD) : W27 m ρ c (Proc.devRef .tc main_arg15) = m ((c : Thread nD τ).loc main_arg15) :=
  (W27_keep m ρ c main_arg15 (by decide)).trans (W26_arg15 m ρ c)
theorem W28_arg15 (c : Dev nD) : W28 m ρ c (Proc.devRef .tc main_arg15) = m ((c : Thread nD τ).loc main_arg15) :=
  (W28_keep m ρ c main_arg15 (by decide)).trans (W27_arg15 m ρ c)
theorem W29_arg15 (c : Dev nD) : W29 m ρ c (Proc.devRef .tc main_arg15) = m ((c : Thread nD τ).loc main_arg15) :=
  (W29_keep m ρ c main_arg15 (by decide)).trans (W28_arg15 m ρ c)
theorem W30_arg15 (c : Dev nD) : W30 m ρ c (Proc.devRef .tc main_arg15) = m ((c : Thread nD τ).loc main_arg15) :=
  (W30_keep m ρ c main_arg15 (by decide)).trans (W29_arg15 m ρ c)
theorem W31_arg15 (c : Dev nD) : W31 m ρ c (Proc.devRef .tc main_arg15) = m ((c : Thread nD τ).loc main_arg15) :=
  (W31_keep m ρ c main_arg15 (by decide)).trans (W30_arg15 m ρ c)
theorem W32_arg15 (c : Dev nD) : W32 m ρ c (Proc.devRef .tc main_arg15) = m ((c : Thread nD τ).loc main_arg15) :=
  (W32_of_ne m ρ c main_arg15 (by decide)).trans (W31_arg15 m ρ c)
theorem W33_arg15 (c : Dev nD) : W33 m ρ c (Proc.devRef .tc main_arg15) = m ((c : Thread nD τ).loc main_arg15) :=
  (W33_keep m ρ c main_arg15 (by decide)).trans (W32_arg15 m ρ c)
theorem W34_arg15 (c : Dev nD) : W34 m ρ c (Proc.devRef .tc main_arg15) = m ((c : Thread nD τ).loc main_arg15) :=
  (W34_keep m ρ c main_arg15 (by decide)).trans (W33_arg15 m ρ c)
theorem W35_arg15 (c : Dev nD) : W35 m ρ c (Proc.devRef .tc main_arg15) = m ((c : Thread nD τ).loc main_arg15) :=
  (W35_keep m ρ c main_arg15 (by decide)).trans (W34_arg15 m ρ c)
theorem W36_arg15 (c : Dev nD) : W36 m ρ c (Proc.devRef .tc main_arg15) = m ((c : Thread nD τ).loc main_arg15) :=
  (W36_keep m ρ c main_arg15 (by decide)).trans (W35_arg15 m ρ c)
theorem W37_arg15 (c : Dev nD) : W37 m ρ c (Proc.devRef .tc main_arg15) = m ((c : Thread nD τ).loc main_arg15) :=
  (W37_keep m ρ c main_arg15 (by decide)).trans (W36_arg15 m ρ c)
theorem W38_arg15 (c : Dev nD) : W38 m ρ c (Proc.devRef .tc main_arg15) = m ((c : Thread nD τ).loc main_arg15) :=
  (W38_of_ne m ρ c main_arg15 (by decide)).trans (W37_arg15 m ρ c)
theorem W39_arg15 (c : Dev nD) : W39 m ρ c (Proc.devRef .tc main_arg15) = m ((c : Thread nD τ).loc main_arg15) :=
  (W39_keep m ρ c main_arg15 (by decide)).trans (W38_arg15 m ρ c)
theorem W40_arg15 (c : Dev nD) : W40 m ρ c (Proc.devRef .tc main_arg15) = m ((c : Thread nD τ).loc main_arg15) :=
  (W40_keep m ρ c main_arg15 (by decide)).trans (W39_arg15 m ρ c)
theorem W41_arg15 (c : Dev nD) : W41 m ρ c (Proc.devRef .tc main_arg15) = m ((c : Thread nD τ).loc main_arg15) :=
  (W41_keep m ρ c main_arg15 (by decide)).trans (W40_arg15 m ρ c)
theorem W42_arg15 (c : Dev nD) : W42 m ρ c (Proc.devRef .tc main_arg15) = m ((c : Thread nD τ).loc main_arg15) :=
  (W42_keep m ρ c main_arg15 (by decide)).trans (W41_arg15 m ρ c)
theorem W43_arg15 (c : Dev nD) : W43 m ρ c (Proc.devRef .tc main_arg15) = m ((c : Thread nD τ).loc main_arg15) :=
  (W43_keep m ρ c main_arg15 (by decide)).trans (W42_arg15 m ρ c)
theorem W44_arg15 (c : Dev nD) : W44 m ρ c (Proc.devRef .tc main_arg15) = m ((c : Thread nD τ).loc main_arg15) :=
  (W44_of_ne m ρ c main_arg15 (by decide)).trans (W43_arg15 m ρ c)
theorem W45_arg15 (c : Dev nD) : W45 m ρ c (Proc.devRef .tc main_arg15) = m ((c : Thread nD τ).loc main_arg15) :=
  (W45_keep m ρ c main_arg15 (by decide)).trans (W44_arg15 m ρ c)
theorem W46_arg15 (c : Dev nD) : W46 m ρ c (Proc.devRef .tc main_arg15) = m ((c : Thread nD τ).loc main_arg15) :=
  (W46_of_ne m ρ c main_arg15 (by decide)).trans (W45_arg15 m ρ c)
theorem W47_arg15 (c : Dev nD) : W47 m ρ c (Proc.devRef .tc main_arg15) = m ((c : Thread nD τ).loc main_arg15) :=
  (W47_keep m ρ c main_arg15 (by decide)).trans (W46_arg15 m ρ c)
theorem W48_arg15 (c : Dev nD) : W48 m ρ c (Proc.devRef .tc main_arg15) = m ((c : Thread nD τ).loc main_arg15) :=
  (W48_of_ne m ρ c main_arg15 (by decide)).trans (W47_arg15 m ρ c)
theorem W49_arg15 (c : Dev nD) : W49 m ρ c (Proc.devRef .tc main_arg15) = m ((c : Thread nD τ).loc main_arg15) :=
  (W49_keep m ρ c main_arg15 (by decide)).trans (W48_arg15 m ρ c)
theorem W50_arg15 (c : Dev nD) : W50 m ρ c (Proc.devRef .tc main_arg15) = m ((c : Thread nD τ).loc main_arg15) :=
  (W50_of_ne m ρ c main_arg15 (by decide)).trans (W49_arg15 m ρ c)
theorem W51_arg15 (c : Dev nD) : W51 m ρ c (Proc.devRef .tc main_arg15) = m ((c : Thread nD τ).loc main_arg15) :=
  (W51_keep m ρ c main_arg15 (by decide)).trans (W50_arg15 m ρ c)
theorem W52_arg15 (c : Dev nD) : W52 m ρ c (Proc.devRef .tc main_arg15) = m ((c : Thread nD τ).loc main_arg15) :=
  (W52_keep m ρ c main_arg15 (by decide)).trans (W51_arg15 m ρ c)
theorem W53_arg15 (c : Dev nD) : W53 m ρ c (Proc.devRef .tc main_arg15) = m ((c : Thread nD τ).loc main_arg15) :=
  (W53_keep m ρ c main_arg15 (by decide)).trans (W52_arg15 m ρ c)
theorem W54_arg15 (c : Dev nD) : W54 m ρ c (Proc.devRef .tc main_arg15) = m ((c : Thread nD τ).loc main_arg15) :=
  (W54_keep m ρ c main_arg15 (by decide)).trans (W53_arg15 m ρ c)
theorem W55_arg15 (c : Dev nD) : W55 m ρ c (Proc.devRef .tc main_arg15) = m ((c : Thread nD τ).loc main_arg15) :=
  (W55_keep m ρ c main_arg15 (by decide)).trans (W54_arg15 m ρ c)
theorem W56_arg15 (c : Dev nD) : W56 m ρ c (Proc.devRef .tc main_arg15) = m ((c : Thread nD τ).loc main_arg15) :=
  (W56_of_ne m ρ c main_arg15 (by decide)).trans (W55_arg15 m ρ c)
theorem W57_arg15 (c : Dev nD) : W57 m ρ c (Proc.devRef .tc main_arg15) = m ((c : Thread nD τ).loc main_arg15) :=
  (W57_keep m ρ c main_arg15 (by decide)).trans (W56_arg15 m ρ c)
theorem W58_arg15 (c : Dev nD) : W58 m ρ c (Proc.devRef .tc main_arg15) = m ((c : Thread nD τ).loc main_arg15) :=
  (W58_keep m ρ c main_arg15 (by decide)).trans (W57_arg15 m ρ c)
theorem W59_arg15 (c : Dev nD) : W59 m ρ c (Proc.devRef .tc main_arg15) = m ((c : Thread nD τ).loc main_arg15) :=
  (W59_keep m ρ c main_arg15 (by decide)).trans (W58_arg15 m ρ c)
theorem W60_arg15 (c : Dev nD) : W60 m ρ c (Proc.devRef .tc main_arg15) = m ((c : Thread nD τ).loc main_arg15) :=
  (W60_keep m ρ c main_arg15 (by decide)).trans (W59_arg15 m ρ c)
theorem W61_arg15 (c : Dev nD) : W61 m ρ c (Proc.devRef .tc main_arg15) = m ((c : Thread nD τ).loc main_arg15) :=
  (W61_keep m ρ c main_arg15 (by decide)).trans (W60_arg15 m ρ c)
theorem W62_arg15 (c : Dev nD) : W62 m ρ c (Proc.devRef .tc main_arg15) = m ((c : Thread nD τ).loc main_arg15) :=
  (W62_of_ne m ρ c main_arg15 (by decide)).trans (W61_arg15 m ρ c)
theorem W63_arg15 (c : Dev nD) : W63 m ρ c (Proc.devRef .tc main_arg15) = m ((c : Thread nD τ).loc main_arg15) :=
  (W63_keep m ρ c main_arg15 (by decide)).trans (W62_arg15 m ρ c)
theorem W64_arg15 (c : Dev nD) : W64 m ρ c (Proc.devRef .tc main_arg15) = m ((c : Thread nD τ).loc main_arg15) :=
  (W64_keep m ρ c main_arg15 (by decide)).trans (W63_arg15 m ρ c)
theorem W65_arg15 (c : Dev nD) : W65 m ρ c (Proc.devRef .tc main_arg15) = m ((c : Thread nD τ).loc main_arg15) :=
  (W65_keep m ρ c main_arg15 (by decide)).trans (W64_arg15 m ρ c)
theorem W66_arg15 (c : Dev nD) : W66 m ρ c (Proc.devRef .tc main_arg15) = m ((c : Thread nD τ).loc main_arg15) :=
  (W66_keep m ρ c main_arg15 (by decide)).trans (W65_arg15 m ρ c)
theorem W67_arg15 (c : Dev nD) : W67 m ρ c (Proc.devRef .tc main_arg15) = m ((c : Thread nD τ).loc main_arg15) :=
  (W67_keep m ρ c main_arg15 (by decide)).trans (W66_arg15 m ρ c)
theorem W68_arg15 (c : Dev nD) : W68 m ρ c (Proc.devRef .tc main_arg15) = m ((c : Thread nD τ).loc main_arg15) :=
  (W68_of_ne m ρ c main_arg15 (by decide)).trans (W67_arg15 m ρ c)
theorem W69_arg15 (c : Dev nD) : W69 m ρ c (Proc.devRef .tc main_arg15) = m ((c : Thread nD τ).loc main_arg15) :=
  (W69_keep m ρ c main_arg15 (by decide)).trans (W68_arg15 m ρ c)
theorem W70_arg15 (c : Dev nD) : W70 m ρ c (Proc.devRef .tc main_arg15) = m ((c : Thread nD τ).loc main_arg15) :=
  (W70_keep m ρ c main_arg15 (by decide)).trans (W69_arg15 m ρ c)
theorem W71_arg15 (c : Dev nD) : W71 m ρ c (Proc.devRef .tc main_arg15) = m ((c : Thread nD τ).loc main_arg15) :=
  (W71_keep m ρ c main_arg15 (by decide)).trans (W70_arg15 m ρ c)
theorem W72_arg15 (c : Dev nD) : W72 m ρ c (Proc.devRef .tc main_arg15) = m ((c : Thread nD τ).loc main_arg15) :=
  (W72_keep m ρ c main_arg15 (by decide)).trans (W71_arg15 m ρ c)
theorem W73_arg15 (c : Dev nD) : W73 m ρ c (Proc.devRef .tc main_arg15) = m ((c : Thread nD τ).loc main_arg15) :=
  (W73_keep m ρ c main_arg15 (by decide)).trans (W72_arg15 m ρ c)
theorem W74_arg15 (c : Dev nD) : W74 m ρ c (Proc.devRef .tc main_arg15) = m ((c : Thread nD τ).loc main_arg15) :=
  (W74_of_ne m ρ c main_arg15 (by decide)).trans (W73_arg15 m ρ c)
theorem W75_arg15 (c : Dev nD) : W75 m ρ c (Proc.devRef .tc main_arg15) = m ((c : Thread nD τ).loc main_arg15) :=
  (W75_keep m ρ c main_arg15 (by decide)).trans (W74_arg15 m ρ c)
theorem W76_arg15 (c : Dev nD) : W76 m ρ c (Proc.devRef .tc main_arg15) = m ((c : Thread nD τ).loc main_arg15) :=
  (W76_keep m ρ c main_arg15 (by decide)).trans (W75_arg15 m ρ c)
theorem W77_arg15 (c : Dev nD) : W77 m ρ c (Proc.devRef .tc main_arg15) = m ((c : Thread nD τ).loc main_arg15) :=
  (W77_keep m ρ c main_arg15 (by decide)).trans (W76_arg15 m ρ c)
theorem W78_arg15 (c : Dev nD) : W78 m ρ c (Proc.devRef .tc main_arg15) = m ((c : Thread nD τ).loc main_arg15) :=
  (W78_keep m ρ c main_arg15 (by decide)).trans (W77_arg15 m ρ c)
theorem W79_arg15 (c : Dev nD) : W79 m ρ c (Proc.devRef .tc main_arg15) = m ((c : Thread nD τ).loc main_arg15) :=
  (W79_keep m ρ c main_arg15 (by decide)).trans (W78_arg15 m ρ c)
theorem W80_arg15 (c : Dev nD) : W80 m ρ c (Proc.devRef .tc main_arg15) = m ((c : Thread nD τ).loc main_arg15) :=
  (W80_of_ne m ρ c main_arg15 (by decide)).trans (W79_arg15 m ρ c)
theorem W81_arg15 (c : Dev nD) : W81 m ρ c (Proc.devRef .tc main_arg15) = m ((c : Thread nD τ).loc main_arg15) :=
  (W81_keep m ρ c main_arg15 (by decide)).trans (W80_arg15 m ρ c)
theorem W82_arg15 (c : Dev nD) : W82 m ρ c (Proc.devRef .tc main_arg15) = m ((c : Thread nD τ).loc main_arg15) :=
  (W82_keep m ρ c main_arg15 (by decide)).trans (W81_arg15 m ρ c)
theorem W83_arg15 (c : Dev nD) : W83 m ρ c (Proc.devRef .tc main_arg15) = m ((c : Thread nD τ).loc main_arg15) :=
  (W83_keep m ρ c main_arg15 (by decide)).trans (W82_arg15 m ρ c)
theorem W84_arg15 (c : Dev nD) : W84 m ρ c (Proc.devRef .tc main_arg15) = m ((c : Thread nD τ).loc main_arg15) :=
  (W84_keep m ρ c main_arg15 (by decide)).trans (W83_arg15 m ρ c)
theorem W85_arg15 (c : Dev nD) : W85 m ρ c (Proc.devRef .tc main_arg15) = m ((c : Thread nD τ).loc main_arg15) :=
  (W85_keep m ρ c main_arg15 (by decide)).trans (W84_arg15 m ρ c)
theorem W86_arg15 (c : Dev nD) : W86 m ρ c (Proc.devRef .tc main_arg15) = m ((c : Thread nD τ).loc main_arg15) :=
  (W86_of_ne m ρ c main_arg15 (by decide)).trans (W85_arg15 m ρ c)
theorem W87_arg15 (c : Dev nD) : W87 m ρ c (Proc.devRef .tc main_arg15) = m ((c : Thread nD τ).loc main_arg15) :=
  (W87_keep m ρ c main_arg15 (by decide)).trans (W86_arg15 m ρ c)
theorem W88_arg15 (c : Dev nD) : W88 m ρ c (Proc.devRef .tc main_arg15) = m ((c : Thread nD τ).loc main_arg15) :=
  (W88_of_ne m ρ c main_arg15 (by decide)).trans (W87_arg15 m ρ c)
theorem W89_arg15 (c : Dev nD) : W89 m ρ c (Proc.devRef .tc main_arg15) = m ((c : Thread nD τ).loc main_arg15) :=
  (W89_keep m ρ c main_arg15 (by decide)).trans (W88_arg15 m ρ c)
theorem W90_arg15 (c : Dev nD) : W90 m ρ c (Proc.devRef .tc main_arg15) = m ((c : Thread nD τ).loc main_arg15) :=
  (W90_of_ne m ρ c main_arg15 (by decide)).trans (W89_arg15 m ρ c)

end Cert.Kernel.Hand

end
-- ==== Proof.KFoldK.Args2.lean ====
/- The argument arrays main_arg16 .. main_arg22 along the fold: no host operation and no region writes an
   argument (a region that reads one through an input window leaves it as entered), so at every boundary an
   argument's buffer holds its launch contents. One step per boundary, each from the boundary before. -/
import proofs.«147021_j7619271983570_1_alg».proof.Proof.KFoldK.Keep

set_option maxRecDepth 16384

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ) (ρ : Dev nD → PrngReg)

theorem W0_arg16 (c : Dev nD) : W0 m ρ c (Proc.devRef .tc main_arg16) = m ((c : Thread nD τ).loc main_arg16) := rfl
theorem W1_arg16 (c : Dev nD) : W1 m ρ c (Proc.devRef .tc main_arg16) = m ((c : Thread nD τ).loc main_arg16) :=
  (W1_keep m ρ c main_arg16 (by decide)).trans (W0_arg16 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W3_arg16 (c : Dev nD) : W3 m ρ c (Proc.devRef .tc main_arg16) = m ((c : Thread nD τ).loc main_arg16) :=
  (W3_keep m ρ c main_arg16 (by decide)).trans (W2_arg16 m ρ c)
theorem W4_arg16 (c : Dev nD) : W4 m ρ c (Proc.devRef .tc main_arg16) = m ((c : Thread nD τ).loc main_arg16) :=
  (W4_of_ne m ρ c main_arg16 (by decide)).trans (W3_arg16 m ρ c)
theorem W5_arg16 (c : Dev nD) : W5 m ρ c (Proc.devRef .tc main_arg16) = m ((c : Thread nD τ).loc main_arg16) :=
  (W5_keep m ρ c main_arg16 (by decide)).trans (W4_arg16 m ρ c)
theorem W6_arg16 (c : Dev nD) : W6 m ρ c (Proc.devRef .tc main_arg16) = m ((c : Thread nD τ).loc main_arg16) :=
  (W6_of_ne m ρ c main_arg16 (by decide)).trans (W5_arg16 m ρ c)
theorem W7_arg16 (c : Dev nD) : W7 m ρ c (Proc.devRef .tc main_arg16) = m ((c : Thread nD τ).loc main_arg16) :=
  (W7_keep m ρ c main_arg16 (by decide)).trans (W6_arg16 m ρ c)
theorem W8_arg16 (c : Dev nD) : W8 m ρ c (Proc.devRef .tc main_arg16) = m ((c : Thread nD τ).loc main_arg16) :=
  (W8_of_ne m ρ c main_arg16 (by decide)).trans (W7_arg16 m ρ c)
theorem W9_arg16 (c : Dev nD) : W9 m ρ c (Proc.devRef .tc main_arg16) = m ((c : Thread nD τ).loc main_arg16) :=
  (W9_keep m ρ c main_arg16 (by decide)).trans (W8_arg16 m ρ c)
theorem W10_arg16 (c : Dev nD) : W10 m ρ c (Proc.devRef .tc main_arg16) = m ((c : Thread nD τ).loc main_arg16) :=
  (W10_keep m ρ c main_arg16 (by decide)).trans (W9_arg16 m ρ c)
theorem W11_arg16 (c : Dev nD) : W11 m ρ c (Proc.devRef .tc main_arg16) = m ((c : Thread nD τ).loc main_arg16) :=
  (W11_keep m ρ c main_arg16 (by decide)).trans (W10_arg16 m ρ c)
theorem W12_arg16 (c : Dev nD) : W12 m ρ c (Proc.devRef .tc main_arg16) = m ((c : Thread nD τ).loc main_arg16) :=
  (W12_keep m ρ c main_arg16 (by decide)).trans (W11_arg16 m ρ c)
theorem W13_arg16 (c : Dev nD) : W13 m ρ c (Proc.devRef .tc main_arg16) = m ((c : Thread nD τ).loc main_arg16) :=
  (W13_keep m ρ c main_arg16 (by decide)).trans (W12_arg16 m ρ c)
theorem W14_arg16 (c : Dev nD) : W14 m ρ c (Proc.devRef .tc main_arg16) = m ((c : Thread nD τ).loc main_arg16) :=
  (W14_of_ne m ρ c main_arg16 (by decide)).trans (W13_arg16 m ρ c)
theorem W15_arg16 (c : Dev nD) : W15 m ρ c (Proc.devRef .tc main_arg16) = m ((c : Thread nD τ).loc main_arg16) :=
  (W15_keep m ρ c main_arg16 (by decide)).trans (W14_arg16 m ρ c)
theorem W16_arg16 (c : Dev nD) : W16 m ρ c (Proc.devRef .tc main_arg16) = m ((c : Thread nD τ).loc main_arg16) :=
  (W16_keep m ρ c main_arg16 (by decide)).trans (W15_arg16 m ρ c)
theorem W17_arg16 (c : Dev nD) : W17 m ρ c (Proc.devRef .tc main_arg16) = m ((c : Thread nD τ).loc main_arg16) :=
  (W17_keep m ρ c main_arg16 (by decide)).trans (W16_arg16 m ρ c)
theorem W18_arg16 (c : Dev nD) : W18 m ρ c (Proc.devRef .tc main_arg16) = m ((c : Thread nD τ).loc main_arg16) :=
  (W18_keep m ρ c main_arg16 (by decide)).trans (W17_arg16 m ρ c)
theorem W19_arg16 (c : Dev nD) : W19 m ρ c (Proc.devRef .tc main_arg16) = m ((c : Thread nD τ).loc main_arg16) :=
  (W19_keep m ρ c main_arg16 (by decide)).trans (W18_arg16 m ρ c)
theorem W20_arg16 (c : Dev nD) : W20 m ρ c (Proc.devRef .tc main_arg16) = m ((c : Thread nD τ).loc main_arg16) :=
  (W20_of_ne m ρ c main_arg16 (by decide)).trans (W19_arg16 m ρ c)
theorem W21_arg16 (c : Dev nD) : W21 m ρ c (Proc.devRef .tc main_arg16) = m ((c : Thread nD τ).loc main_arg16) :=
  (W21_keep m ρ c main_arg16 (by decide)).trans (W20_arg16 m ρ c)
theorem W22_arg16 (c : Dev nD) : W22 m ρ c (Proc.devRef .tc main_arg16) = m ((c : Thread nD τ).loc main_arg16) :=
  (W22_keep m ρ c main_arg16 (by decide)).trans (W21_arg16 m ρ c)
theorem W23_arg16 (c : Dev nD) : W23 m ρ c (Proc.devRef .tc main_arg16) = m ((c : Thread nD τ).loc main_arg16) :=
  (W23_keep m ρ c main_arg16 (by decide)).trans (W22_arg16 m ρ c)
theorem W24_arg16 (c : Dev nD) : W24 m ρ c (Proc.devRef .tc main_arg16) = m ((c : Thread nD τ).loc main_arg16) :=
  (W24_keep m ρ c main_arg16 (by decide)).trans (W23_arg16 m ρ c)
theorem W25_arg16 (c : Dev nD) : W25 m ρ c (Proc.devRef .tc main_arg16) = m ((c : Thread nD τ).loc main_arg16) :=
  (W25_keep m ρ c main_arg16 (by decide)).trans (W24_arg16 m ρ c)
theorem W26_arg16 (c : Dev nD) : W26 m ρ c (Proc.devRef .tc main_arg16) = m ((c : Thread nD τ).loc main_arg16) :=
  (W26_of_ne m ρ c main_arg16 (by decide)).trans (W25_arg16 m ρ c)
theorem W27_arg16 (c : Dev nD) : W27 m ρ c (Proc.devRef .tc main_arg16) = m ((c : Thread nD τ).loc main_arg16) :=
  (W27_keep m ρ c main_arg16 (by decide)).trans (W26_arg16 m ρ c)
theorem W28_arg16 (c : Dev nD) : W28 m ρ c (Proc.devRef .tc main_arg16) = m ((c : Thread nD τ).loc main_arg16) :=
  (W28_keep m ρ c main_arg16 (by decide)).trans (W27_arg16 m ρ c)
theorem W29_arg16 (c : Dev nD) : W29 m ρ c (Proc.devRef .tc main_arg16) = m ((c : Thread nD τ).loc main_arg16) :=
  (W29_keep m ρ c main_arg16 (by decide)).trans (W28_arg16 m ρ c)
theorem W30_arg16 (c : Dev nD) : W30 m ρ c (Proc.devRef .tc main_arg16) = m ((c : Thread nD τ).loc main_arg16) :=
  (W30_keep m ρ c main_arg16 (by decide)).trans (W29_arg16 m ρ c)
theorem W31_arg16 (c : Dev nD) : W31 m ρ c (Proc.devRef .tc main_arg16) = m ((c : Thread nD τ).loc main_arg16) :=
  (W31_keep m ρ c main_arg16 (by decide)).trans (W30_arg16 m ρ c)
theorem W32_arg16 (c : Dev nD) : W32 m ρ c (Proc.devRef .tc main_arg16) = m ((c : Thread nD τ).loc main_arg16) :=
  (W32_of_ne m ρ c main_arg16 (by decide)).trans (W31_arg16 m ρ c)
theorem W33_arg16 (c : Dev nD) : W33 m ρ c (Proc.devRef .tc main_arg16) = m ((c : Thread nD τ).loc main_arg16) :=
  (W33_keep m ρ c main_arg16 (by decide)).trans (W32_arg16 m ρ c)
theorem W34_arg16 (c : Dev nD) : W34 m ρ c (Proc.devRef .tc main_arg16) = m ((c : Thread nD τ).loc main_arg16) :=
  (W34_keep m ρ c main_arg16 (by decide)).trans (W33_arg16 m ρ c)
theorem W35_arg16 (c : Dev nD) : W35 m ρ c (Proc.devRef .tc main_arg16) = m ((c : Thread nD τ).loc main_arg16) :=
  (W35_keep m ρ c main_arg16 (by decide)).trans (W34_arg16 m ρ c)
theorem W36_arg16 (c : Dev nD) : W36 m ρ c (Proc.devRef .tc main_arg16) = m ((c : Thread nD τ).loc main_arg16) :=
  (W36_keep m ρ c main_arg16 (by decide)).trans (W35_arg16 m ρ c)
theorem W37_arg16 (c : Dev nD) : W37 m ρ c (Proc.devRef .tc main_arg16) = m ((c : Thread nD τ).loc main_arg16) :=
  (W37_keep m ρ c main_arg16 (by decide)).trans (W36_arg16 m ρ c)
theorem W38_arg16 (c : Dev nD) : W38 m ρ c (Proc.devRef .tc main_arg16) = m ((c : Thread nD τ).loc main_arg16) :=
  (W38_of_ne m ρ c main_arg16 (by decide)).trans (W37_arg16 m ρ c)
theorem W39_arg16 (c : Dev nD) : W39 m ρ c (Proc.devRef .tc main_arg16) = m ((c : Thread nD τ).loc main_arg16) :=
  (W39_keep m ρ c main_arg16 (by decide)).trans (W38_arg16 m ρ c)
theorem W40_arg16 (c : Dev nD) : W40 m ρ c (Proc.devRef .tc main_arg16) = m ((c : Thread nD τ).loc main_arg16) :=
  (W40_keep m ρ c main_arg16 (by decide)).trans (W39_arg16 m ρ c)
theorem W41_arg16 (c : Dev nD) : W41 m ρ c (Proc.devRef .tc main_arg16) = m ((c : Thread nD τ).loc main_arg16) :=
  (W41_keep m ρ c main_arg16 (by decide)).trans (W40_arg16 m ρ c)
theorem W42_arg16 (c : Dev nD) : W42 m ρ c (Proc.devRef .tc main_arg16) = m ((c : Thread nD τ).loc main_arg16) :=
  (W42_keep m ρ c main_arg16 (by decide)).trans (W41_arg16 m ρ c)
theorem W43_arg16 (c : Dev nD) : W43 m ρ c (Proc.devRef .tc main_arg16) = m ((c : Thread nD τ).loc main_arg16) :=
  (W43_keep m ρ c main_arg16 (by decide)).trans (W42_arg16 m ρ c)
theorem W44_arg16 (c : Dev nD) : W44 m ρ c (Proc.devRef .tc main_arg16) = m ((c : Thread nD τ).loc main_arg16) :=
  (W44_of_ne m ρ c main_arg16 (by decide)).trans (W43_arg16 m ρ c)
theorem W45_arg16 (c : Dev nD) : W45 m ρ c (Proc.devRef .tc main_arg16) = m ((c : Thread nD τ).loc main_arg16) :=
  (W45_keep m ρ c main_arg16 (by decide)).trans (W44_arg16 m ρ c)
theorem W46_arg16 (c : Dev nD) : W46 m ρ c (Proc.devRef .tc main_arg16) = m ((c : Thread nD τ).loc main_arg16) :=
  (W46_of_ne m ρ c main_arg16 (by decide)).trans (W45_arg16 m ρ c)
theorem W47_arg16 (c : Dev nD) : W47 m ρ c (Proc.devRef .tc main_arg16) = m ((c : Thread nD τ).loc main_arg16) :=
  (W47_keep m ρ c main_arg16 (by decide)).trans (W46_arg16 m ρ c)
theorem W48_arg16 (c : Dev nD) : W48 m ρ c (Proc.devRef .tc main_arg16) = m ((c : Thread nD τ).loc main_arg16) :=
  (W48_of_ne m ρ c main_arg16 (by decide)).trans (W47_arg16 m ρ c)
theorem W49_arg16 (c : Dev nD) : W49 m ρ c (Proc.devRef .tc main_arg16) = m ((c : Thread nD τ).loc main_arg16) :=
  (W49_keep m ρ c main_arg16 (by decide)).trans (W48_arg16 m ρ c)
theorem W50_arg16 (c : Dev nD) : W50 m ρ c (Proc.devRef .tc main_arg16) = m ((c : Thread nD τ).loc main_arg16) :=
  (W50_of_ne m ρ c main_arg16 (by decide)).trans (W49_arg16 m ρ c)
theorem W51_arg16 (c : Dev nD) : W51 m ρ c (Proc.devRef .tc main_arg16) = m ((c : Thread nD τ).loc main_arg16) :=
  (W51_keep m ρ c main_arg16 (by decide)).trans (W50_arg16 m ρ c)
theorem W52_arg16 (c : Dev nD) : W52 m ρ c (Proc.devRef .tc main_arg16) = m ((c : Thread nD τ).loc main_arg16) :=
  (W52_keep m ρ c main_arg16 (by decide)).trans (W51_arg16 m ρ c)
theorem W53_arg16 (c : Dev nD) : W53 m ρ c (Proc.devRef .tc main_arg16) = m ((c : Thread nD τ).loc main_arg16) :=
  (W53_keep m ρ c main_arg16 (by decide)).trans (W52_arg16 m ρ c)
theorem W54_arg16 (c : Dev nD) : W54 m ρ c (Proc.devRef .tc main_arg16) = m ((c : Thread nD τ).loc main_arg16) :=
  (W54_keep m ρ c main_arg16 (by decide)).trans (W53_arg16 m ρ c)
theorem W55_arg16 (c : Dev nD) : W55 m ρ c (Proc.devRef .tc main_arg16) = m ((c : Thread nD τ).loc main_arg16) :=
  (W55_keep m ρ c main_arg16 (by decide)).trans (W54_arg16 m ρ c)
theorem W56_arg16 (c : Dev nD) : W56 m ρ c (Proc.devRef .tc main_arg16) = m ((c : Thread nD τ).loc main_arg16) :=
  (W56_of_ne m ρ c main_arg16 (by decide)).trans (W55_arg16 m ρ c)
theorem W57_arg16 (c : Dev nD) : W57 m ρ c (Proc.devRef .tc main_arg16) = m ((c : Thread nD τ).loc main_arg16) :=
  (W57_keep m ρ c main_arg16 (by decide)).trans (W56_arg16 m ρ c)
theorem W58_arg16 (c : Dev nD) : W58 m ρ c (Proc.devRef .tc main_arg16) = m ((c : Thread nD τ).loc main_arg16) :=
  (W58_keep m ρ c main_arg16 (by decide)).trans (W57_arg16 m ρ c)
theorem W59_arg16 (c : Dev nD) : W59 m ρ c (Proc.devRef .tc main_arg16) = m ((c : Thread nD τ).loc main_arg16) :=
  (W59_keep m ρ c main_arg16 (by decide)).trans (W58_arg16 m ρ c)
theorem W60_arg16 (c : Dev nD) : W60 m ρ c (Proc.devRef .tc main_arg16) = m ((c : Thread nD τ).loc main_arg16) :=
  (W60_keep m ρ c main_arg16 (by decide)).trans (W59_arg16 m ρ c)
theorem W61_arg16 (c : Dev nD) : W61 m ρ c (Proc.devRef .tc main_arg16) = m ((c : Thread nD τ).loc main_arg16) :=
  (W61_keep m ρ c main_arg16 (by decide)).trans (W60_arg16 m ρ c)
theorem W62_arg16 (c : Dev nD) : W62 m ρ c (Proc.devRef .tc main_arg16) = m ((c : Thread nD τ).loc main_arg16) :=
  (W62_of_ne m ρ c main_arg16 (by decide)).trans (W61_arg16 m ρ c)
theorem W63_arg16 (c : Dev nD) : W63 m ρ c (Proc.devRef .tc main_arg16) = m ((c : Thread nD τ).loc main_arg16) :=
  (W63_keep m ρ c main_arg16 (by decide)).trans (W62_arg16 m ρ c)
theorem W64_arg16 (c : Dev nD) : W64 m ρ c (Proc.devRef .tc main_arg16) = m ((c : Thread nD τ).loc main_arg16) :=
  (W64_keep m ρ c main_arg16 (by decide)).trans (W63_arg16 m ρ c)
theorem W65_arg16 (c : Dev nD) : W65 m ρ c (Proc.devRef .tc main_arg16) = m ((c : Thread nD τ).loc main_arg16) :=
  (W65_keep m ρ c main_arg16 (by decide)).trans (W64_arg16 m ρ c)
theorem W66_arg16 (c : Dev nD) : W66 m ρ c (Proc.devRef .tc main_arg16) = m ((c : Thread nD τ).loc main_arg16) :=
  (W66_keep m ρ c main_arg16 (by decide)).trans (W65_arg16 m ρ c)
theorem W67_arg16 (c : Dev nD) : W67 m ρ c (Proc.devRef .tc main_arg16) = m ((c : Thread nD τ).loc main_arg16) :=
  (W67_keep m ρ c main_arg16 (by decide)).trans (W66_arg16 m ρ c)
theorem W68_arg16 (c : Dev nD) : W68 m ρ c (Proc.devRef .tc main_arg16) = m ((c : Thread nD τ).loc main_arg16) :=
  (W68_of_ne m ρ c main_arg16 (by decide)).trans (W67_arg16 m ρ c)
theorem W69_arg16 (c : Dev nD) : W69 m ρ c (Proc.devRef .tc main_arg16) = m ((c : Thread nD τ).loc main_arg16) :=
  (W69_keep m ρ c main_arg16 (by decide)).trans (W68_arg16 m ρ c)
theorem W70_arg16 (c : Dev nD) : W70 m ρ c (Proc.devRef .tc main_arg16) = m ((c : Thread nD τ).loc main_arg16) :=
  (W70_keep m ρ c main_arg16 (by decide)).trans (W69_arg16 m ρ c)
theorem W71_arg16 (c : Dev nD) : W71 m ρ c (Proc.devRef .tc main_arg16) = m ((c : Thread nD τ).loc main_arg16) :=
  (W71_keep m ρ c main_arg16 (by decide)).trans (W70_arg16 m ρ c)
theorem W72_arg16 (c : Dev nD) : W72 m ρ c (Proc.devRef .tc main_arg16) = m ((c : Thread nD τ).loc main_arg16) :=
  (W72_keep m ρ c main_arg16 (by decide)).trans (W71_arg16 m ρ c)
theorem W73_arg16 (c : Dev nD) : W73 m ρ c (Proc.devRef .tc main_arg16) = m ((c : Thread nD τ).loc main_arg16) :=
  (W73_keep m ρ c main_arg16 (by decide)).trans (W72_arg16 m ρ c)
theorem W74_arg16 (c : Dev nD) : W74 m ρ c (Proc.devRef .tc main_arg16) = m ((c : Thread nD τ).loc main_arg16) :=
  (W74_of_ne m ρ c main_arg16 (by decide)).trans (W73_arg16 m ρ c)
theorem W75_arg16 (c : Dev nD) : W75 m ρ c (Proc.devRef .tc main_arg16) = m ((c : Thread nD τ).loc main_arg16) :=
  (W75_keep m ρ c main_arg16 (by decide)).trans (W74_arg16 m ρ c)
theorem W76_arg16 (c : Dev nD) : W76 m ρ c (Proc.devRef .tc main_arg16) = m ((c : Thread nD τ).loc main_arg16) :=
  (W76_keep m ρ c main_arg16 (by decide)).trans (W75_arg16 m ρ c)
theorem W77_arg16 (c : Dev nD) : W77 m ρ c (Proc.devRef .tc main_arg16) = m ((c : Thread nD τ).loc main_arg16) :=
  (W77_keep m ρ c main_arg16 (by decide)).trans (W76_arg16 m ρ c)
theorem W78_arg16 (c : Dev nD) : W78 m ρ c (Proc.devRef .tc main_arg16) = m ((c : Thread nD τ).loc main_arg16) :=
  (W78_keep m ρ c main_arg16 (by decide)).trans (W77_arg16 m ρ c)
theorem W79_arg16 (c : Dev nD) : W79 m ρ c (Proc.devRef .tc main_arg16) = m ((c : Thread nD τ).loc main_arg16) :=
  (W79_keep m ρ c main_arg16 (by decide)).trans (W78_arg16 m ρ c)
theorem W80_arg16 (c : Dev nD) : W80 m ρ c (Proc.devRef .tc main_arg16) = m ((c : Thread nD τ).loc main_arg16) :=
  (W80_of_ne m ρ c main_arg16 (by decide)).trans (W79_arg16 m ρ c)
theorem W81_arg16 (c : Dev nD) : W81 m ρ c (Proc.devRef .tc main_arg16) = m ((c : Thread nD τ).loc main_arg16) :=
  (W81_keep m ρ c main_arg16 (by decide)).trans (W80_arg16 m ρ c)
theorem W82_arg16 (c : Dev nD) : W82 m ρ c (Proc.devRef .tc main_arg16) = m ((c : Thread nD τ).loc main_arg16) :=
  (W82_keep m ρ c main_arg16 (by decide)).trans (W81_arg16 m ρ c)
theorem W83_arg16 (c : Dev nD) : W83 m ρ c (Proc.devRef .tc main_arg16) = m ((c : Thread nD τ).loc main_arg16) :=
  (W83_keep m ρ c main_arg16 (by decide)).trans (W82_arg16 m ρ c)
theorem W84_arg16 (c : Dev nD) : W84 m ρ c (Proc.devRef .tc main_arg16) = m ((c : Thread nD τ).loc main_arg16) :=
  (W84_keep m ρ c main_arg16 (by decide)).trans (W83_arg16 m ρ c)
theorem W85_arg16 (c : Dev nD) : W85 m ρ c (Proc.devRef .tc main_arg16) = m ((c : Thread nD τ).loc main_arg16) :=
  (W85_keep m ρ c main_arg16 (by decide)).trans (W84_arg16 m ρ c)
theorem W86_arg16 (c : Dev nD) : W86 m ρ c (Proc.devRef .tc main_arg16) = m ((c : Thread nD τ).loc main_arg16) :=
  (W86_of_ne m ρ c main_arg16 (by decide)).trans (W85_arg16 m ρ c)
theorem W87_arg16 (c : Dev nD) : W87 m ρ c (Proc.devRef .tc main_arg16) = m ((c : Thread nD τ).loc main_arg16) :=
  (W87_keep m ρ c main_arg16 (by decide)).trans (W86_arg16 m ρ c)
theorem W88_arg16 (c : Dev nD) : W88 m ρ c (Proc.devRef .tc main_arg16) = m ((c : Thread nD τ).loc main_arg16) :=
  (W88_of_ne m ρ c main_arg16 (by decide)).trans (W87_arg16 m ρ c)
theorem W89_arg16 (c : Dev nD) : W89 m ρ c (Proc.devRef .tc main_arg16) = m ((c : Thread nD τ).loc main_arg16) :=
  (W89_keep m ρ c main_arg16 (by decide)).trans (W88_arg16 m ρ c)
theorem W90_arg16 (c : Dev nD) : W90 m ρ c (Proc.devRef .tc main_arg16) = m ((c : Thread nD τ).loc main_arg16) :=
  (W90_of_ne m ρ c main_arg16 (by decide)).trans (W89_arg16 m ρ c)
theorem W0_arg17 (c : Dev nD) : W0 m ρ c (Proc.devRef .tc main_arg17) = m ((c : Thread nD τ).loc main_arg17) := rfl
theorem W1_arg17 (c : Dev nD) : W1 m ρ c (Proc.devRef .tc main_arg17) = m ((c : Thread nD τ).loc main_arg17) :=
  (W1_keep m ρ c main_arg17 (by decide)).trans (W0_arg17 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W3_arg17 (c : Dev nD) : W3 m ρ c (Proc.devRef .tc main_arg17) = m ((c : Thread nD τ).loc main_arg17) :=
  (W3_keep m ρ c main_arg17 (by decide)).trans (W2_arg17 m ρ c)
theorem W4_arg17 (c : Dev nD) : W4 m ρ c (Proc.devRef .tc main_arg17) = m ((c : Thread nD τ).loc main_arg17) :=
  (W4_of_ne m ρ c main_arg17 (by decide)).trans (W3_arg17 m ρ c)
theorem W5_arg17 (c : Dev nD) : W5 m ρ c (Proc.devRef .tc main_arg17) = m ((c : Thread nD τ).loc main_arg17) :=
  (W5_keep m ρ c main_arg17 (by decide)).trans (W4_arg17 m ρ c)
theorem W6_arg17 (c : Dev nD) : W6 m ρ c (Proc.devRef .tc main_arg17) = m ((c : Thread nD τ).loc main_arg17) :=
  (W6_of_ne m ρ c main_arg17 (by decide)).trans (W5_arg17 m ρ c)
theorem W7_arg17 (c : Dev nD) : W7 m ρ c (Proc.devRef .tc main_arg17) = m ((c : Thread nD τ).loc main_arg17) :=
  (W7_keep m ρ c main_arg17 (by decide)).trans (W6_arg17 m ρ c)
theorem W8_arg17 (c : Dev nD) : W8 m ρ c (Proc.devRef .tc main_arg17) = m ((c : Thread nD τ).loc main_arg17) :=
  (W8_of_ne m ρ c main_arg17 (by decide)).trans (W7_arg17 m ρ c)
theorem W9_arg17 (c : Dev nD) : W9 m ρ c (Proc.devRef .tc main_arg17) = m ((c : Thread nD τ).loc main_arg17) :=
  (W9_keep m ρ c main_arg17 (by decide)).trans (W8_arg17 m ρ c)
theorem W10_arg17 (c : Dev nD) : W10 m ρ c (Proc.devRef .tc main_arg17) = m ((c : Thread nD τ).loc main_arg17) :=
  (W10_keep m ρ c main_arg17 (by decide)).trans (W9_arg17 m ρ c)
theorem W11_arg17 (c : Dev nD) : W11 m ρ c (Proc.devRef .tc main_arg17) = m ((c : Thread nD τ).loc main_arg17) :=
  (W11_keep m ρ c main_arg17 (by decide)).trans (W10_arg17 m ρ c)
theorem W12_arg17 (c : Dev nD) : W12 m ρ c (Proc.devRef .tc main_arg17) = m ((c : Thread nD τ).loc main_arg17) :=
  (W12_keep m ρ c main_arg17 (by decide)).trans (W11_arg17 m ρ c)
theorem W13_arg17 (c : Dev nD) : W13 m ρ c (Proc.devRef .tc main_arg17) = m ((c : Thread nD τ).loc main_arg17) :=
  (W13_keep m ρ c main_arg17 (by decide)).trans (W12_arg17 m ρ c)
theorem W14_arg17 (c : Dev nD) : W14 m ρ c (Proc.devRef .tc main_arg17) = m ((c : Thread nD τ).loc main_arg17) :=
  (W14_of_ne m ρ c main_arg17 (by decide)).trans (W13_arg17 m ρ c)
theorem W15_arg17 (c : Dev nD) : W15 m ρ c (Proc.devRef .tc main_arg17) = m ((c : Thread nD τ).loc main_arg17) :=
  (W15_keep m ρ c main_arg17 (by decide)).trans (W14_arg17 m ρ c)
theorem W16_arg17 (c : Dev nD) : W16 m ρ c (Proc.devRef .tc main_arg17) = m ((c : Thread nD τ).loc main_arg17) :=
  (W16_keep m ρ c main_arg17 (by decide)).trans (W15_arg17 m ρ c)
theorem W17_arg17 (c : Dev nD) : W17 m ρ c (Proc.devRef .tc main_arg17) = m ((c : Thread nD τ).loc main_arg17) :=
  (W17_keep m ρ c main_arg17 (by decide)).trans (W16_arg17 m ρ c)
theorem W18_arg17 (c : Dev nD) : W18 m ρ c (Proc.devRef .tc main_arg17) = m ((c : Thread nD τ).loc main_arg17) :=
  (W18_keep m ρ c main_arg17 (by decide)).trans (W17_arg17 m ρ c)
theorem W19_arg17 (c : Dev nD) : W19 m ρ c (Proc.devRef .tc main_arg17) = m ((c : Thread nD τ).loc main_arg17) :=
  (W19_keep m ρ c main_arg17 (by decide)).trans (W18_arg17 m ρ c)
theorem W20_arg17 (c : Dev nD) : W20 m ρ c (Proc.devRef .tc main_arg17) = m ((c : Thread nD τ).loc main_arg17) :=
  (W20_of_ne m ρ c main_arg17 (by decide)).trans (W19_arg17 m ρ c)
theorem W21_arg17 (c : Dev nD) : W21 m ρ c (Proc.devRef .tc main_arg17) = m ((c : Thread nD τ).loc main_arg17) :=
  (W21_keep m ρ c main_arg17 (by decide)).trans (W20_arg17 m ρ c)
theorem W22_arg17 (c : Dev nD) : W22 m ρ c (Proc.devRef .tc main_arg17) = m ((c : Thread nD τ).loc main_arg17) :=
  (W22_keep m ρ c main_arg17 (by decide)).trans (W21_arg17 m ρ c)
theorem W23_arg17 (c : Dev nD) : W23 m ρ c (Proc.devRef .tc main_arg17) = m ((c : Thread nD τ).loc main_arg17) :=
  (W23_keep m ρ c main_arg17 (by decide)).trans (W22_arg17 m ρ c)
theorem W24_arg17 (c : Dev nD) : W24 m ρ c (Proc.devRef .tc main_arg17) = m ((c : Thread nD τ).loc main_arg17) :=
  (W24_keep m ρ c main_arg17 (by decide)).trans (W23_arg17 m ρ c)
theorem W25_arg17 (c : Dev nD) : W25 m ρ c (Proc.devRef .tc main_arg17) = m ((c : Thread nD τ).loc main_arg17) :=
  (W25_keep m ρ c main_arg17 (by decide)).trans (W24_arg17 m ρ c)
theorem W26_arg17 (c : Dev nD) : W26 m ρ c (Proc.devRef .tc main_arg17) = m ((c : Thread nD τ).loc main_arg17) :=
  (W26_of_ne m ρ c main_arg17 (by decide)).trans (W25_arg17 m ρ c)
theorem W27_arg17 (c : Dev nD) : W27 m ρ c (Proc.devRef .tc main_arg17) = m ((c : Thread nD τ).loc main_arg17) :=
  (W27_keep m ρ c main_arg17 (by decide)).trans (W26_arg17 m ρ c)
theorem W28_arg17 (c : Dev nD) : W28 m ρ c (Proc.devRef .tc main_arg17) = m ((c : Thread nD τ).loc main_arg17) :=
  (W28_keep m ρ c main_arg17 (by decide)).trans (W27_arg17 m ρ c)
theorem W29_arg17 (c : Dev nD) : W29 m ρ c (Proc.devRef .tc main_arg17) = m ((c : Thread nD τ).loc main_arg17) :=
  (W29_keep m ρ c main_arg17 (by decide)).trans (W28_arg17 m ρ c)
theorem W30_arg17 (c : Dev nD) : W30 m ρ c (Proc.devRef .tc main_arg17) = m ((c : Thread nD τ).loc main_arg17) :=
  (W30_keep m ρ c main_arg17 (by decide)).trans (W29_arg17 m ρ c)
theorem W31_arg17 (c : Dev nD) : W31 m ρ c (Proc.devRef .tc main_arg17) = m ((c : Thread nD τ).loc main_arg17) :=
  (W31_keep m ρ c main_arg17 (by decide)).trans (W30_arg17 m ρ c)
theorem W32_arg17 (c : Dev nD) : W32 m ρ c (Proc.devRef .tc main_arg17) = m ((c : Thread nD τ).loc main_arg17) :=
  (W32_of_ne m ρ c main_arg17 (by decide)).trans (W31_arg17 m ρ c)
theorem W33_arg17 (c : Dev nD) : W33 m ρ c (Proc.devRef .tc main_arg17) = m ((c : Thread nD τ).loc main_arg17) :=
  (W33_keep m ρ c main_arg17 (by decide)).trans (W32_arg17 m ρ c)
theorem W34_arg17 (c : Dev nD) : W34 m ρ c (Proc.devRef .tc main_arg17) = m ((c : Thread nD τ).loc main_arg17) :=
  (W34_keep m ρ c main_arg17 (by decide)).trans (W33_arg17 m ρ c)
theorem W35_arg17 (c : Dev nD) : W35 m ρ c (Proc.devRef .tc main_arg17) = m ((c : Thread nD τ).loc main_arg17) :=
  (W35_keep m ρ c main_arg17 (by decide)).trans (W34_arg17 m ρ c)
theorem W36_arg17 (c : Dev nD) : W36 m ρ c (Proc.devRef .tc main_arg17) = m ((c : Thread nD τ).loc main_arg17) :=
  (W36_keep m ρ c main_arg17 (by decide)).trans (W35_arg17 m ρ c)
theorem W37_arg17 (c : Dev nD) : W37 m ρ c (Proc.devRef .tc main_arg17) = m ((c : Thread nD τ).loc main_arg17) :=
  (W37_keep m ρ c main_arg17 (by decide)).trans (W36_arg17 m ρ c)
theorem W38_arg17 (c : Dev nD) : W38 m ρ c (Proc.devRef .tc main_arg17) = m ((c : Thread nD τ).loc main_arg17) :=
  (W38_of_ne m ρ c main_arg17 (by decide)).trans (W37_arg17 m ρ c)
theorem W39_arg17 (c : Dev nD) : W39 m ρ c (Proc.devRef .tc main_arg17) = m ((c : Thread nD τ).loc main_arg17) :=
  (W39_keep m ρ c main_arg17 (by decide)).trans (W38_arg17 m ρ c)
theorem W40_arg17 (c : Dev nD) : W40 m ρ c (Proc.devRef .tc main_arg17) = m ((c : Thread nD τ).loc main_arg17) :=
  (W40_keep m ρ c main_arg17 (by decide)).trans (W39_arg17 m ρ c)
theorem W41_arg17 (c : Dev nD) : W41 m ρ c (Proc.devRef .tc main_arg17) = m ((c : Thread nD τ).loc main_arg17) :=
  (W41_keep m ρ c main_arg17 (by decide)).trans (W40_arg17 m ρ c)
theorem W42_arg17 (c : Dev nD) : W42 m ρ c (Proc.devRef .tc main_arg17) = m ((c : Thread nD τ).loc main_arg17) :=
  (W42_keep m ρ c main_arg17 (by decide)).trans (W41_arg17 m ρ c)
theorem W43_arg17 (c : Dev nD) : W43 m ρ c (Proc.devRef .tc main_arg17) = m ((c : Thread nD τ).loc main_arg17) :=
  (W43_keep m ρ c main_arg17 (by decide)).trans (W42_arg17 m ρ c)
theorem W44_arg17 (c : Dev nD) : W44 m ρ c (Proc.devRef .tc main_arg17) = m ((c : Thread nD τ).loc main_arg17) :=
  (W44_of_ne m ρ c main_arg17 (by decide)).trans (W43_arg17 m ρ c)
theorem W45_arg17 (c : Dev nD) : W45 m ρ c (Proc.devRef .tc main_arg17) = m ((c : Thread nD τ).loc main_arg17) :=
  (W45_keep m ρ c main_arg17 (by decide)).trans (W44_arg17 m ρ c)
theorem W46_arg17 (c : Dev nD) : W46 m ρ c (Proc.devRef .tc main_arg17) = m ((c : Thread nD τ).loc main_arg17) :=
  (W46_of_ne m ρ c main_arg17 (by decide)).trans (W45_arg17 m ρ c)
theorem W47_arg17 (c : Dev nD) : W47 m ρ c (Proc.devRef .tc main_arg17) = m ((c : Thread nD τ).loc main_arg17) :=
  (W47_keep m ρ c main_arg17 (by decide)).trans (W46_arg17 m ρ c)
theorem W48_arg17 (c : Dev nD) : W48 m ρ c (Proc.devRef .tc main_arg17) = m ((c : Thread nD τ).loc main_arg17) :=
  (W48_of_ne m ρ c main_arg17 (by decide)).trans (W47_arg17 m ρ c)
theorem W49_arg17 (c : Dev nD) : W49 m ρ c (Proc.devRef .tc main_arg17) = m ((c : Thread nD τ).loc main_arg17) :=
  (W49_keep m ρ c main_arg17 (by decide)).trans (W48_arg17 m ρ c)
theorem W50_arg17 (c : Dev nD) : W50 m ρ c (Proc.devRef .tc main_arg17) = m ((c : Thread nD τ).loc main_arg17) :=
  (W50_of_ne m ρ c main_arg17 (by decide)).trans (W49_arg17 m ρ c)
theorem W51_arg17 (c : Dev nD) : W51 m ρ c (Proc.devRef .tc main_arg17) = m ((c : Thread nD τ).loc main_arg17) :=
  (W51_keep m ρ c main_arg17 (by decide)).trans (W50_arg17 m ρ c)
theorem W52_arg17 (c : Dev nD) : W52 m ρ c (Proc.devRef .tc main_arg17) = m ((c : Thread nD τ).loc main_arg17) :=
  (W52_keep m ρ c main_arg17 (by decide)).trans (W51_arg17 m ρ c)
theorem W53_arg17 (c : Dev nD) : W53 m ρ c (Proc.devRef .tc main_arg17) = m ((c : Thread nD τ).loc main_arg17) :=
  (W53_keep m ρ c main_arg17 (by decide)).trans (W52_arg17 m ρ c)
theorem W54_arg17 (c : Dev nD) : W54 m ρ c (Proc.devRef .tc main_arg17) = m ((c : Thread nD τ).loc main_arg17) :=
  (W54_keep m ρ c main_arg17 (by decide)).trans (W53_arg17 m ρ c)
theorem W55_arg17 (c : Dev nD) : W55 m ρ c (Proc.devRef .tc main_arg17) = m ((c : Thread nD τ).loc main_arg17) :=
  (W55_keep m ρ c main_arg17 (by decide)).trans (W54_arg17 m ρ c)
theorem W56_arg17 (c : Dev nD) : W56 m ρ c (Proc.devRef .tc main_arg17) = m ((c : Thread nD τ).loc main_arg17) :=
  (W56_of_ne m ρ c main_arg17 (by decide)).trans (W55_arg17 m ρ c)
theorem W57_arg17 (c : Dev nD) : W57 m ρ c (Proc.devRef .tc main_arg17) = m ((c : Thread nD τ).loc main_arg17) :=
  (W57_keep m ρ c main_arg17 (by decide)).trans (W56_arg17 m ρ c)
theorem W58_arg17 (c : Dev nD) : W58 m ρ c (Proc.devRef .tc main_arg17) = m ((c : Thread nD τ).loc main_arg17) :=
  (W58_keep m ρ c main_arg17 (by decide)).trans (W57_arg17 m ρ c)
theorem W59_arg17 (c : Dev nD) : W59 m ρ c (Proc.devRef .tc main_arg17) = m ((c : Thread nD τ).loc main_arg17) :=
  (W59_keep m ρ c main_arg17 (by decide)).trans (W58_arg17 m ρ c)
theorem W60_arg17 (c : Dev nD) : W60 m ρ c (Proc.devRef .tc main_arg17) = m ((c : Thread nD τ).loc main_arg17) :=
  (W60_keep m ρ c main_arg17 (by decide)).trans (W59_arg17 m ρ c)
theorem W61_arg17 (c : Dev nD) : W61 m ρ c (Proc.devRef .tc main_arg17) = m ((c : Thread nD τ).loc main_arg17) :=
  (W61_keep m ρ c main_arg17 (by decide)).trans (W60_arg17 m ρ c)
theorem W62_arg17 (c : Dev nD) : W62 m ρ c (Proc.devRef .tc main_arg17) = m ((c : Thread nD τ).loc main_arg17) :=
  (W62_of_ne m ρ c main_arg17 (by decide)).trans (W61_arg17 m ρ c)
theorem W63_arg17 (c : Dev nD) : W63 m ρ c (Proc.devRef .tc main_arg17) = m ((c : Thread nD τ).loc main_arg17) :=
  (W63_keep m ρ c main_arg17 (by decide)).trans (W62_arg17 m ρ c)
theorem W64_arg17 (c : Dev nD) : W64 m ρ c (Proc.devRef .tc main_arg17) = m ((c : Thread nD τ).loc main_arg17) :=
  (W64_keep m ρ c main_arg17 (by decide)).trans (W63_arg17 m ρ c)
theorem W65_arg17 (c : Dev nD) : W65 m ρ c (Proc.devRef .tc main_arg17) = m ((c : Thread nD τ).loc main_arg17) :=
  (W65_keep m ρ c main_arg17 (by decide)).trans (W64_arg17 m ρ c)
theorem W66_arg17 (c : Dev nD) : W66 m ρ c (Proc.devRef .tc main_arg17) = m ((c : Thread nD τ).loc main_arg17) :=
  (W66_keep m ρ c main_arg17 (by decide)).trans (W65_arg17 m ρ c)
theorem W67_arg17 (c : Dev nD) : W67 m ρ c (Proc.devRef .tc main_arg17) = m ((c : Thread nD τ).loc main_arg17) :=
  (W67_keep m ρ c main_arg17 (by decide)).trans (W66_arg17 m ρ c)
theorem W68_arg17 (c : Dev nD) : W68 m ρ c (Proc.devRef .tc main_arg17) = m ((c : Thread nD τ).loc main_arg17) :=
  (W68_of_ne m ρ c main_arg17 (by decide)).trans (W67_arg17 m ρ c)
theorem W69_arg17 (c : Dev nD) : W69 m ρ c (Proc.devRef .tc main_arg17) = m ((c : Thread nD τ).loc main_arg17) :=
  (W69_keep m ρ c main_arg17 (by decide)).trans (W68_arg17 m ρ c)
theorem W70_arg17 (c : Dev nD) : W70 m ρ c (Proc.devRef .tc main_arg17) = m ((c : Thread nD τ).loc main_arg17) :=
  (W70_keep m ρ c main_arg17 (by decide)).trans (W69_arg17 m ρ c)
theorem W71_arg17 (c : Dev nD) : W71 m ρ c (Proc.devRef .tc main_arg17) = m ((c : Thread nD τ).loc main_arg17) :=
  (W71_keep m ρ c main_arg17 (by decide)).trans (W70_arg17 m ρ c)
theorem W72_arg17 (c : Dev nD) : W72 m ρ c (Proc.devRef .tc main_arg17) = m ((c : Thread nD τ).loc main_arg17) :=
  (W72_keep m ρ c main_arg17 (by decide)).trans (W71_arg17 m ρ c)
theorem W73_arg17 (c : Dev nD) : W73 m ρ c (Proc.devRef .tc main_arg17) = m ((c : Thread nD τ).loc main_arg17) :=
  (W73_keep m ρ c main_arg17 (by decide)).trans (W72_arg17 m ρ c)
theorem W74_arg17 (c : Dev nD) : W74 m ρ c (Proc.devRef .tc main_arg17) = m ((c : Thread nD τ).loc main_arg17) :=
  (W74_of_ne m ρ c main_arg17 (by decide)).trans (W73_arg17 m ρ c)
theorem W75_arg17 (c : Dev nD) : W75 m ρ c (Proc.devRef .tc main_arg17) = m ((c : Thread nD τ).loc main_arg17) :=
  (W75_keep m ρ c main_arg17 (by decide)).trans (W74_arg17 m ρ c)
theorem W76_arg17 (c : Dev nD) : W76 m ρ c (Proc.devRef .tc main_arg17) = m ((c : Thread nD τ).loc main_arg17) :=
  (W76_keep m ρ c main_arg17 (by decide)).trans (W75_arg17 m ρ c)
theorem W77_arg17 (c : Dev nD) : W77 m ρ c (Proc.devRef .tc main_arg17) = m ((c : Thread nD τ).loc main_arg17) :=
  (W77_keep m ρ c main_arg17 (by decide)).trans (W76_arg17 m ρ c)
theorem W78_arg17 (c : Dev nD) : W78 m ρ c (Proc.devRef .tc main_arg17) = m ((c : Thread nD τ).loc main_arg17) :=
  (W78_keep m ρ c main_arg17 (by decide)).trans (W77_arg17 m ρ c)
theorem W79_arg17 (c : Dev nD) : W79 m ρ c (Proc.devRef .tc main_arg17) = m ((c : Thread nD τ).loc main_arg17) :=
  (W79_keep m ρ c main_arg17 (by decide)).trans (W78_arg17 m ρ c)
theorem W80_arg17 (c : Dev nD) : W80 m ρ c (Proc.devRef .tc main_arg17) = m ((c : Thread nD τ).loc main_arg17) :=
  (W80_of_ne m ρ c main_arg17 (by decide)).trans (W79_arg17 m ρ c)
theorem W81_arg17 (c : Dev nD) : W81 m ρ c (Proc.devRef .tc main_arg17) = m ((c : Thread nD τ).loc main_arg17) :=
  (W81_keep m ρ c main_arg17 (by decide)).trans (W80_arg17 m ρ c)
theorem W82_arg17 (c : Dev nD) : W82 m ρ c (Proc.devRef .tc main_arg17) = m ((c : Thread nD τ).loc main_arg17) :=
  (W82_keep m ρ c main_arg17 (by decide)).trans (W81_arg17 m ρ c)
theorem W83_arg17 (c : Dev nD) : W83 m ρ c (Proc.devRef .tc main_arg17) = m ((c : Thread nD τ).loc main_arg17) :=
  (W83_keep m ρ c main_arg17 (by decide)).trans (W82_arg17 m ρ c)
theorem W84_arg17 (c : Dev nD) : W84 m ρ c (Proc.devRef .tc main_arg17) = m ((c : Thread nD τ).loc main_arg17) :=
  (W84_keep m ρ c main_arg17 (by decide)).trans (W83_arg17 m ρ c)
theorem W85_arg17 (c : Dev nD) : W85 m ρ c (Proc.devRef .tc main_arg17) = m ((c : Thread nD τ).loc main_arg17) :=
  (W85_keep m ρ c main_arg17 (by decide)).trans (W84_arg17 m ρ c)
theorem W86_arg17 (c : Dev nD) : W86 m ρ c (Proc.devRef .tc main_arg17) = m ((c : Thread nD τ).loc main_arg17) :=
  (W86_of_ne m ρ c main_arg17 (by decide)).trans (W85_arg17 m ρ c)
theorem W87_arg17 (c : Dev nD) : W87 m ρ c (Proc.devRef .tc main_arg17) = m ((c : Thread nD τ).loc main_arg17) :=
  (W87_keep m ρ c main_arg17 (by decide)).trans (W86_arg17 m ρ c)
theorem W88_arg17 (c : Dev nD) : W88 m ρ c (Proc.devRef .tc main_arg17) = m ((c : Thread nD τ).loc main_arg17) :=
  (W88_of_ne m ρ c main_arg17 (by decide)).trans (W87_arg17 m ρ c)
theorem W89_arg17 (c : Dev nD) : W89 m ρ c (Proc.devRef .tc main_arg17) = m ((c : Thread nD τ).loc main_arg17) :=
  (W89_keep m ρ c main_arg17 (by decide)).trans (W88_arg17 m ρ c)
theorem W90_arg17 (c : Dev nD) : W90 m ρ c (Proc.devRef .tc main_arg17) = m ((c : Thread nD τ).loc main_arg17) :=
  (W90_of_ne m ρ c main_arg17 (by decide)).trans (W89_arg17 m ρ c)
theorem W0_arg18 (c : Dev nD) : W0 m ρ c (Proc.devRef .tc main_arg18) = m ((c : Thread nD τ).loc main_arg18) := rfl
theorem W1_arg18 (c : Dev nD) : W1 m ρ c (Proc.devRef .tc main_arg18) = m ((c : Thread nD τ).loc main_arg18) :=
  (W1_keep m ρ c main_arg18 (by decide)).trans (W0_arg18 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W3_arg18 (c : Dev nD) : W3 m ρ c (Proc.devRef .tc main_arg18) = m ((c : Thread nD τ).loc main_arg18) :=
  (W3_keep m ρ c main_arg18 (by decide)).trans (W2_arg18 m ρ c)
theorem W4_arg18 (c : Dev nD) : W4 m ρ c (Proc.devRef .tc main_arg18) = m ((c : Thread nD τ).loc main_arg18) :=
  (W4_of_ne m ρ c main_arg18 (by decide)).trans (W3_arg18 m ρ c)
theorem W5_arg18 (c : Dev nD) : W5 m ρ c (Proc.devRef .tc main_arg18) = m ((c : Thread nD τ).loc main_arg18) :=
  (W5_keep m ρ c main_arg18 (by decide)).trans (W4_arg18 m ρ c)
theorem W6_arg18 (c : Dev nD) : W6 m ρ c (Proc.devRef .tc main_arg18) = m ((c : Thread nD τ).loc main_arg18) :=
  (W6_of_ne m ρ c main_arg18 (by decide)).trans (W5_arg18 m ρ c)
theorem W7_arg18 (c : Dev nD) : W7 m ρ c (Proc.devRef .tc main_arg18) = m ((c : Thread nD τ).loc main_arg18) :=
  (W7_keep m ρ c main_arg18 (by decide)).trans (W6_arg18 m ρ c)
theorem W8_arg18 (c : Dev nD) : W8 m ρ c (Proc.devRef .tc main_arg18) = m ((c : Thread nD τ).loc main_arg18) :=
  (W8_of_ne m ρ c main_arg18 (by decide)).trans (W7_arg18 m ρ c)
theorem W9_arg18 (c : Dev nD) : W9 m ρ c (Proc.devRef .tc main_arg18) = m ((c : Thread nD τ).loc main_arg18) :=
  (W9_keep m ρ c main_arg18 (by decide)).trans (W8_arg18 m ρ c)
theorem W10_arg18 (c : Dev nD) : W10 m ρ c (Proc.devRef .tc main_arg18) = m ((c : Thread nD τ).loc main_arg18) :=
  (W10_keep m ρ c main_arg18 (by decide)).trans (W9_arg18 m ρ c)
theorem W11_arg18 (c : Dev nD) : W11 m ρ c (Proc.devRef .tc main_arg18) = m ((c : Thread nD τ).loc main_arg18) :=
  (W11_keep m ρ c main_arg18 (by decide)).trans (W10_arg18 m ρ c)
theorem W12_arg18 (c : Dev nD) : W12 m ρ c (Proc.devRef .tc main_arg18) = m ((c : Thread nD τ).loc main_arg18) :=
  (W12_keep m ρ c main_arg18 (by decide)).trans (W11_arg18 m ρ c)
theorem W13_arg18 (c : Dev nD) : W13 m ρ c (Proc.devRef .tc main_arg18) = m ((c : Thread nD τ).loc main_arg18) :=
  (W13_keep m ρ c main_arg18 (by decide)).trans (W12_arg18 m ρ c)
theorem W14_arg18 (c : Dev nD) : W14 m ρ c (Proc.devRef .tc main_arg18) = m ((c : Thread nD τ).loc main_arg18) :=
  (W14_of_ne m ρ c main_arg18 (by decide)).trans (W13_arg18 m ρ c)
theorem W15_arg18 (c : Dev nD) : W15 m ρ c (Proc.devRef .tc main_arg18) = m ((c : Thread nD τ).loc main_arg18) :=
  (W15_keep m ρ c main_arg18 (by decide)).trans (W14_arg18 m ρ c)
theorem W16_arg18 (c : Dev nD) : W16 m ρ c (Proc.devRef .tc main_arg18) = m ((c : Thread nD τ).loc main_arg18) :=
  (W16_keep m ρ c main_arg18 (by decide)).trans (W15_arg18 m ρ c)
theorem W17_arg18 (c : Dev nD) : W17 m ρ c (Proc.devRef .tc main_arg18) = m ((c : Thread nD τ).loc main_arg18) :=
  (W17_keep m ρ c main_arg18 (by decide)).trans (W16_arg18 m ρ c)
theorem W18_arg18 (c : Dev nD) : W18 m ρ c (Proc.devRef .tc main_arg18) = m ((c : Thread nD τ).loc main_arg18) :=
  (W18_keep m ρ c main_arg18 (by decide)).trans (W17_arg18 m ρ c)
theorem W19_arg18 (c : Dev nD) : W19 m ρ c (Proc.devRef .tc main_arg18) = m ((c : Thread nD τ).loc main_arg18) :=
  (W19_keep m ρ c main_arg18 (by decide)).trans (W18_arg18 m ρ c)
theorem W20_arg18 (c : Dev nD) : W20 m ρ c (Proc.devRef .tc main_arg18) = m ((c : Thread nD τ).loc main_arg18) :=
  (W20_of_ne m ρ c main_arg18 (by decide)).trans (W19_arg18 m ρ c)
theorem W21_arg18 (c : Dev nD) : W21 m ρ c (Proc.devRef .tc main_arg18) = m ((c : Thread nD τ).loc main_arg18) :=
  (W21_keep m ρ c main_arg18 (by decide)).trans (W20_arg18 m ρ c)
theorem W22_arg18 (c : Dev nD) : W22 m ρ c (Proc.devRef .tc main_arg18) = m ((c : Thread nD τ).loc main_arg18) :=
  (W22_keep m ρ c main_arg18 (by decide)).trans (W21_arg18 m ρ c)
theorem W23_arg18 (c : Dev nD) : W23 m ρ c (Proc.devRef .tc main_arg18) = m ((c : Thread nD τ).loc main_arg18) :=
  (W23_keep m ρ c main_arg18 (by decide)).trans (W22_arg18 m ρ c)
theorem W24_arg18 (c : Dev nD) : W24 m ρ c (Proc.devRef .tc main_arg18) = m ((c : Thread nD τ).loc main_arg18) :=
  (W24_keep m ρ c main_arg18 (by decide)).trans (W23_arg18 m ρ c)
theorem W25_arg18 (c : Dev nD) : W25 m ρ c (Proc.devRef .tc main_arg18) = m ((c : Thread nD τ).loc main_arg18) :=
  (W25_keep m ρ c main_arg18 (by decide)).trans (W24_arg18 m ρ c)
theorem W26_arg18 (c : Dev nD) : W26 m ρ c (Proc.devRef .tc main_arg18) = m ((c : Thread nD τ).loc main_arg18) :=
  (W26_of_ne m ρ c main_arg18 (by decide)).trans (W25_arg18 m ρ c)
theorem W27_arg18 (c : Dev nD) : W27 m ρ c (Proc.devRef .tc main_arg18) = m ((c : Thread nD τ).loc main_arg18) :=
  (W27_keep m ρ c main_arg18 (by decide)).trans (W26_arg18 m ρ c)
theorem W28_arg18 (c : Dev nD) : W28 m ρ c (Proc.devRef .tc main_arg18) = m ((c : Thread nD τ).loc main_arg18) :=
  (W28_keep m ρ c main_arg18 (by decide)).trans (W27_arg18 m ρ c)
theorem W29_arg18 (c : Dev nD) : W29 m ρ c (Proc.devRef .tc main_arg18) = m ((c : Thread nD τ).loc main_arg18) :=
  (W29_keep m ρ c main_arg18 (by decide)).trans (W28_arg18 m ρ c)
theorem W30_arg18 (c : Dev nD) : W30 m ρ c (Proc.devRef .tc main_arg18) = m ((c : Thread nD τ).loc main_arg18) :=
  (W30_keep m ρ c main_arg18 (by decide)).trans (W29_arg18 m ρ c)
theorem W31_arg18 (c : Dev nD) : W31 m ρ c (Proc.devRef .tc main_arg18) = m ((c : Thread nD τ).loc main_arg18) :=
  (W31_keep m ρ c main_arg18 (by decide)).trans (W30_arg18 m ρ c)
theorem W32_arg18 (c : Dev nD) : W32 m ρ c (Proc.devRef .tc main_arg18) = m ((c : Thread nD τ).loc main_arg18) :=
  (W32_of_ne m ρ c main_arg18 (by decide)).trans (W31_arg18 m ρ c)
theorem W33_arg18 (c : Dev nD) : W33 m ρ c (Proc.devRef .tc main_arg18) = m ((c : Thread nD τ).loc main_arg18) :=
  (W33_keep m ρ c main_arg18 (by decide)).trans (W32_arg18 m ρ c)
theorem W34_arg18 (c : Dev nD) : W34 m ρ c (Proc.devRef .tc main_arg18) = m ((c : Thread nD τ).loc main_arg18) :=
  (W34_keep m ρ c main_arg18 (by decide)).trans (W33_arg18 m ρ c)
theorem W35_arg18 (c : Dev nD) : W35 m ρ c (Proc.devRef .tc main_arg18) = m ((c : Thread nD τ).loc main_arg18) :=
  (W35_keep m ρ c main_arg18 (by decide)).trans (W34_arg18 m ρ c)
theorem W36_arg18 (c : Dev nD) : W36 m ρ c (Proc.devRef .tc main_arg18) = m ((c : Thread nD τ).loc main_arg18) :=
  (W36_keep m ρ c main_arg18 (by decide)).trans (W35_arg18 m ρ c)
theorem W37_arg18 (c : Dev nD) : W37 m ρ c (Proc.devRef .tc main_arg18) = m ((c : Thread nD τ).loc main_arg18) :=
  (W37_keep m ρ c main_arg18 (by decide)).trans (W36_arg18 m ρ c)
theorem W38_arg18 (c : Dev nD) : W38 m ρ c (Proc.devRef .tc main_arg18) = m ((c : Thread nD τ).loc main_arg18) :=
  (W38_of_ne m ρ c main_arg18 (by decide)).trans (W37_arg18 m ρ c)
theorem W39_arg18 (c : Dev nD) : W39 m ρ c (Proc.devRef .tc main_arg18) = m ((c : Thread nD τ).loc main_arg18) :=
  (W39_keep m ρ c main_arg18 (by decide)).trans (W38_arg18 m ρ c)
theorem W40_arg18 (c : Dev nD) : W40 m ρ c (Proc.devRef .tc main_arg18) = m ((c : Thread nD τ).loc main_arg18) :=
  (W40_keep m ρ c main_arg18 (by decide)).trans (W39_arg18 m ρ c)
theorem W41_arg18 (c : Dev nD) : W41 m ρ c (Proc.devRef .tc main_arg18) = m ((c : Thread nD τ).loc main_arg18) :=
  (W41_keep m ρ c main_arg18 (by decide)).trans (W40_arg18 m ρ c)
theorem W42_arg18 (c : Dev nD) : W42 m ρ c (Proc.devRef .tc main_arg18) = m ((c : Thread nD τ).loc main_arg18) :=
  (W42_keep m ρ c main_arg18 (by decide)).trans (W41_arg18 m ρ c)
theorem W43_arg18 (c : Dev nD) : W43 m ρ c (Proc.devRef .tc main_arg18) = m ((c : Thread nD τ).loc main_arg18) :=
  (W43_keep m ρ c main_arg18 (by decide)).trans (W42_arg18 m ρ c)
theorem W44_arg18 (c : Dev nD) : W44 m ρ c (Proc.devRef .tc main_arg18) = m ((c : Thread nD τ).loc main_arg18) :=
  (W44_of_ne m ρ c main_arg18 (by decide)).trans (W43_arg18 m ρ c)
theorem W45_arg18 (c : Dev nD) : W45 m ρ c (Proc.devRef .tc main_arg18) = m ((c : Thread nD τ).loc main_arg18) :=
  (W45_keep m ρ c main_arg18 (by decide)).trans (W44_arg18 m ρ c)
theorem W46_arg18 (c : Dev nD) : W46 m ρ c (Proc.devRef .tc main_arg18) = m ((c : Thread nD τ).loc main_arg18) :=
  (W46_of_ne m ρ c main_arg18 (by decide)).trans (W45_arg18 m ρ c)
theorem W47_arg18 (c : Dev nD) : W47 m ρ c (Proc.devRef .tc main_arg18) = m ((c : Thread nD τ).loc main_arg18) :=
  (W47_keep m ρ c main_arg18 (by decide)).trans (W46_arg18 m ρ c)
theorem W48_arg18 (c : Dev nD) : W48 m ρ c (Proc.devRef .tc main_arg18) = m ((c : Thread nD τ).loc main_arg18) :=
  (W48_of_ne m ρ c main_arg18 (by decide)).trans (W47_arg18 m ρ c)
theorem W49_arg18 (c : Dev nD) : W49 m ρ c (Proc.devRef .tc main_arg18) = m ((c : Thread nD τ).loc main_arg18) :=
  (W49_keep m ρ c main_arg18 (by decide)).trans (W48_arg18 m ρ c)
theorem W50_arg18 (c : Dev nD) : W50 m ρ c (Proc.devRef .tc main_arg18) = m ((c : Thread nD τ).loc main_arg18) :=
  (W50_of_ne m ρ c main_arg18 (by decide)).trans (W49_arg18 m ρ c)
theorem W51_arg18 (c : Dev nD) : W51 m ρ c (Proc.devRef .tc main_arg18) = m ((c : Thread nD τ).loc main_arg18) :=
  (W51_keep m ρ c main_arg18 (by decide)).trans (W50_arg18 m ρ c)
theorem W52_arg18 (c : Dev nD) : W52 m ρ c (Proc.devRef .tc main_arg18) = m ((c : Thread nD τ).loc main_arg18) :=
  (W52_keep m ρ c main_arg18 (by decide)).trans (W51_arg18 m ρ c)
theorem W53_arg18 (c : Dev nD) : W53 m ρ c (Proc.devRef .tc main_arg18) = m ((c : Thread nD τ).loc main_arg18) :=
  (W53_keep m ρ c main_arg18 (by decide)).trans (W52_arg18 m ρ c)
theorem W54_arg18 (c : Dev nD) : W54 m ρ c (Proc.devRef .tc main_arg18) = m ((c : Thread nD τ).loc main_arg18) :=
  (W54_keep m ρ c main_arg18 (by decide)).trans (W53_arg18 m ρ c)
theorem W55_arg18 (c : Dev nD) : W55 m ρ c (Proc.devRef .tc main_arg18) = m ((c : Thread nD τ).loc main_arg18) :=
  (W55_keep m ρ c main_arg18 (by decide)).trans (W54_arg18 m ρ c)
theorem W56_arg18 (c : Dev nD) : W56 m ρ c (Proc.devRef .tc main_arg18) = m ((c : Thread nD τ).loc main_arg18) :=
  (W56_of_ne m ρ c main_arg18 (by decide)).trans (W55_arg18 m ρ c)
theorem W57_arg18 (c : Dev nD) : W57 m ρ c (Proc.devRef .tc main_arg18) = m ((c : Thread nD τ).loc main_arg18) :=
  (W57_keep m ρ c main_arg18 (by decide)).trans (W56_arg18 m ρ c)
theorem W58_arg18 (c : Dev nD) : W58 m ρ c (Proc.devRef .tc main_arg18) = m ((c : Thread nD τ).loc main_arg18) :=
  (W58_keep m ρ c main_arg18 (by decide)).trans (W57_arg18 m ρ c)
theorem W59_arg18 (c : Dev nD) : W59 m ρ c (Proc.devRef .tc main_arg18) = m ((c : Thread nD τ).loc main_arg18) :=
  (W59_keep m ρ c main_arg18 (by decide)).trans (W58_arg18 m ρ c)
theorem W60_arg18 (c : Dev nD) : W60 m ρ c (Proc.devRef .tc main_arg18) = m ((c : Thread nD τ).loc main_arg18) :=
  (W60_keep m ρ c main_arg18 (by decide)).trans (W59_arg18 m ρ c)
theorem W61_arg18 (c : Dev nD) : W61 m ρ c (Proc.devRef .tc main_arg18) = m ((c : Thread nD τ).loc main_arg18) :=
  (W61_keep m ρ c main_arg18 (by decide)).trans (W60_arg18 m ρ c)
theorem W62_arg18 (c : Dev nD) : W62 m ρ c (Proc.devRef .tc main_arg18) = m ((c : Thread nD τ).loc main_arg18) :=
  (W62_of_ne m ρ c main_arg18 (by decide)).trans (W61_arg18 m ρ c)
theorem W63_arg18 (c : Dev nD) : W63 m ρ c (Proc.devRef .tc main_arg18) = m ((c : Thread nD τ).loc main_arg18) :=
  (W63_keep m ρ c main_arg18 (by decide)).trans (W62_arg18 m ρ c)
theorem W64_arg18 (c : Dev nD) : W64 m ρ c (Proc.devRef .tc main_arg18) = m ((c : Thread nD τ).loc main_arg18) :=
  (W64_keep m ρ c main_arg18 (by decide)).trans (W63_arg18 m ρ c)
theorem W65_arg18 (c : Dev nD) : W65 m ρ c (Proc.devRef .tc main_arg18) = m ((c : Thread nD τ).loc main_arg18) :=
  (W65_keep m ρ c main_arg18 (by decide)).trans (W64_arg18 m ρ c)
theorem W66_arg18 (c : Dev nD) : W66 m ρ c (Proc.devRef .tc main_arg18) = m ((c : Thread nD τ).loc main_arg18) :=
  (W66_keep m ρ c main_arg18 (by decide)).trans (W65_arg18 m ρ c)
theorem W67_arg18 (c : Dev nD) : W67 m ρ c (Proc.devRef .tc main_arg18) = m ((c : Thread nD τ).loc main_arg18) :=
  (W67_keep m ρ c main_arg18 (by decide)).trans (W66_arg18 m ρ c)
theorem W68_arg18 (c : Dev nD) : W68 m ρ c (Proc.devRef .tc main_arg18) = m ((c : Thread nD τ).loc main_arg18) :=
  (W68_of_ne m ρ c main_arg18 (by decide)).trans (W67_arg18 m ρ c)
theorem W69_arg18 (c : Dev nD) : W69 m ρ c (Proc.devRef .tc main_arg18) = m ((c : Thread nD τ).loc main_arg18) :=
  (W69_keep m ρ c main_arg18 (by decide)).trans (W68_arg18 m ρ c)
theorem W70_arg18 (c : Dev nD) : W70 m ρ c (Proc.devRef .tc main_arg18) = m ((c : Thread nD τ).loc main_arg18) :=
  (W70_keep m ρ c main_arg18 (by decide)).trans (W69_arg18 m ρ c)
theorem W71_arg18 (c : Dev nD) : W71 m ρ c (Proc.devRef .tc main_arg18) = m ((c : Thread nD τ).loc main_arg18) :=
  (W71_keep m ρ c main_arg18 (by decide)).trans (W70_arg18 m ρ c)
theorem W72_arg18 (c : Dev nD) : W72 m ρ c (Proc.devRef .tc main_arg18) = m ((c : Thread nD τ).loc main_arg18) :=
  (W72_keep m ρ c main_arg18 (by decide)).trans (W71_arg18 m ρ c)
theorem W73_arg18 (c : Dev nD) : W73 m ρ c (Proc.devRef .tc main_arg18) = m ((c : Thread nD τ).loc main_arg18) :=
  (W73_keep m ρ c main_arg18 (by decide)).trans (W72_arg18 m ρ c)
theorem W74_arg18 (c : Dev nD) : W74 m ρ c (Proc.devRef .tc main_arg18) = m ((c : Thread nD τ).loc main_arg18) :=
  (W74_of_ne m ρ c main_arg18 (by decide)).trans (W73_arg18 m ρ c)
theorem W75_arg18 (c : Dev nD) : W75 m ρ c (Proc.devRef .tc main_arg18) = m ((c : Thread nD τ).loc main_arg18) :=
  (W75_keep m ρ c main_arg18 (by decide)).trans (W74_arg18 m ρ c)
theorem W76_arg18 (c : Dev nD) : W76 m ρ c (Proc.devRef .tc main_arg18) = m ((c : Thread nD τ).loc main_arg18) :=
  (W76_keep m ρ c main_arg18 (by decide)).trans (W75_arg18 m ρ c)
theorem W77_arg18 (c : Dev nD) : W77 m ρ c (Proc.devRef .tc main_arg18) = m ((c : Thread nD τ).loc main_arg18) :=
  (W77_keep m ρ c main_arg18 (by decide)).trans (W76_arg18 m ρ c)
theorem W78_arg18 (c : Dev nD) : W78 m ρ c (Proc.devRef .tc main_arg18) = m ((c : Thread nD τ).loc main_arg18) :=
  (W78_keep m ρ c main_arg18 (by decide)).trans (W77_arg18 m ρ c)
theorem W79_arg18 (c : Dev nD) : W79 m ρ c (Proc.devRef .tc main_arg18) = m ((c : Thread nD τ).loc main_arg18) :=
  (W79_keep m ρ c main_arg18 (by decide)).trans (W78_arg18 m ρ c)
theorem W80_arg18 (c : Dev nD) : W80 m ρ c (Proc.devRef .tc main_arg18) = m ((c : Thread nD τ).loc main_arg18) :=
  (W80_of_ne m ρ c main_arg18 (by decide)).trans (W79_arg18 m ρ c)
theorem W81_arg18 (c : Dev nD) : W81 m ρ c (Proc.devRef .tc main_arg18) = m ((c : Thread nD τ).loc main_arg18) :=
  (W81_keep m ρ c main_arg18 (by decide)).trans (W80_arg18 m ρ c)
theorem W82_arg18 (c : Dev nD) : W82 m ρ c (Proc.devRef .tc main_arg18) = m ((c : Thread nD τ).loc main_arg18) :=
  (W82_keep m ρ c main_arg18 (by decide)).trans (W81_arg18 m ρ c)
theorem W83_arg18 (c : Dev nD) : W83 m ρ c (Proc.devRef .tc main_arg18) = m ((c : Thread nD τ).loc main_arg18) :=
  (W83_keep m ρ c main_arg18 (by decide)).trans (W82_arg18 m ρ c)
theorem W84_arg18 (c : Dev nD) : W84 m ρ c (Proc.devRef .tc main_arg18) = m ((c : Thread nD τ).loc main_arg18) :=
  (W84_keep m ρ c main_arg18 (by decide)).trans (W83_arg18 m ρ c)
theorem W85_arg18 (c : Dev nD) : W85 m ρ c (Proc.devRef .tc main_arg18) = m ((c : Thread nD τ).loc main_arg18) :=
  (W85_keep m ρ c main_arg18 (by decide)).trans (W84_arg18 m ρ c)
theorem W86_arg18 (c : Dev nD) : W86 m ρ c (Proc.devRef .tc main_arg18) = m ((c : Thread nD τ).loc main_arg18) :=
  (W86_of_ne m ρ c main_arg18 (by decide)).trans (W85_arg18 m ρ c)
theorem W87_arg18 (c : Dev nD) : W87 m ρ c (Proc.devRef .tc main_arg18) = m ((c : Thread nD τ).loc main_arg18) :=
  (W87_keep m ρ c main_arg18 (by decide)).trans (W86_arg18 m ρ c)
theorem W88_arg18 (c : Dev nD) : W88 m ρ c (Proc.devRef .tc main_arg18) = m ((c : Thread nD τ).loc main_arg18) :=
  (W88_of_ne m ρ c main_arg18 (by decide)).trans (W87_arg18 m ρ c)
theorem W89_arg18 (c : Dev nD) : W89 m ρ c (Proc.devRef .tc main_arg18) = m ((c : Thread nD τ).loc main_arg18) :=
  (W89_keep m ρ c main_arg18 (by decide)).trans (W88_arg18 m ρ c)
theorem W90_arg18 (c : Dev nD) : W90 m ρ c (Proc.devRef .tc main_arg18) = m ((c : Thread nD τ).loc main_arg18) :=
  (W90_of_ne m ρ c main_arg18 (by decide)).trans (W89_arg18 m ρ c)
theorem W0_arg19 (c : Dev nD) : W0 m ρ c (Proc.devRef .tc main_arg19) = m ((c : Thread nD τ).loc main_arg19) := rfl
theorem W1_arg19 (c : Dev nD) : W1 m ρ c (Proc.devRef .tc main_arg19) = m ((c : Thread nD τ).loc main_arg19) :=
  (W1_keep m ρ c main_arg19 (by decide)).trans (W0_arg19 m ρ c)
theorem W2_arg19 (c : Dev nD) : W2 m ρ c (Proc.devRef .tc main_arg19) = m ((c : Thread nD τ).loc main_arg19) :=
  (W2_of_ne m ρ c main_arg19 (by decide)).trans (W1_arg19 m ρ c)
theorem W3_arg19 (c : Dev nD) : W3 m ρ c (Proc.devRef .tc main_arg19) = m ((c : Thread nD τ).loc main_arg19) :=
  (W3_keep m ρ c main_arg19 (by decide)).trans (W2_arg19 m ρ c)
theorem W4_arg19 (c : Dev nD) : W4 m ρ c (Proc.devRef .tc main_arg19) = m ((c : Thread nD τ).loc main_arg19) :=
  (W4_of_ne m ρ c main_arg19 (by decide)).trans (W3_arg19 m ρ c)
theorem W5_arg19 (c : Dev nD) : W5 m ρ c (Proc.devRef .tc main_arg19) = m ((c : Thread nD τ).loc main_arg19) :=
  (W5_keep m ρ c main_arg19 (by decide)).trans (W4_arg19 m ρ c)
theorem W6_arg19 (c : Dev nD) : W6 m ρ c (Proc.devRef .tc main_arg19) = m ((c : Thread nD τ).loc main_arg19) :=
  (W6_of_ne m ρ c main_arg19 (by decide)).trans (W5_arg19 m ρ c)
theorem W7_arg19 (c : Dev nD) : W7 m ρ c (Proc.devRef .tc main_arg19) = m ((c : Thread nD τ).loc main_arg19) :=
  (W7_keep m ρ c main_arg19 (by decide)).trans (W6_arg19 m ρ c)
theorem W8_arg19 (c : Dev nD) : W8 m ρ c (Proc.devRef .tc main_arg19) = m ((c : Thread nD τ).loc main_arg19) :=
  (W8_of_ne m ρ c main_arg19 (by decide)).trans (W7_arg19 m ρ c)
theorem W9_arg19 (c : Dev nD) : W9 m ρ c (Proc.devRef .tc main_arg19) = m ((c : Thread nD τ).loc main_arg19) :=
  (W9_keep m ρ c main_arg19 (by decide)).trans (W8_arg19 m ρ c)
theorem W10_arg19 (c : Dev nD) : W10 m ρ c (Proc.devRef .tc main_arg19) = m ((c : Thread nD τ).loc main_arg19) :=
  (W10_keep m ρ c main_arg19 (by decide)).trans (W9_arg19 m ρ c)
theorem W11_arg19 (c : Dev nD) : W11 m ρ c (Proc.devRef .tc main_arg19) = m ((c : Thread nD τ).loc main_arg19) :=
  (W11_keep m ρ c main_arg19 (by decide)).trans (W10_arg19 m ρ c)
theorem W12_arg19 (c : Dev nD) : W12 m ρ c (Proc.devRef .tc main_arg19) = m ((c : Thread nD τ).loc main_arg19) :=
  (W12_keep m ρ c main_arg19 (by decide)).trans (W11_arg19 m ρ c)
theorem W13_arg19 (c : Dev nD) : W13 m ρ c (Proc.devRef .tc main_arg19) = m ((c : Thread nD τ).loc main_arg19) :=
  (W13_keep m ρ c main_arg19 (by decide)).trans (W12_arg19 m ρ c)
theorem W14_arg19 (c : Dev nD) : W14 m ρ c (Proc.devRef .tc main_arg19) = m ((c : Thread nD τ).loc main_arg19) :=
  (W14_of_ne m ρ c main_arg19 (by decide)).trans (W13_arg19 m ρ c)
theorem W15_arg19 (c : Dev nD) : W15 m ρ c (Proc.devRef .tc main_arg19) = m ((c : Thread nD τ).loc main_arg19) :=
  (W15_keep m ρ c main_arg19 (by decide)).trans (W14_arg19 m ρ c)
theorem W16_arg19 (c : Dev nD) : W16 m ρ c (Proc.devRef .tc main_arg19) = m ((c : Thread nD τ).loc main_arg19) :=
  (W16_keep m ρ c main_arg19 (by decide)).trans (W15_arg19 m ρ c)
theorem W17_arg19 (c : Dev nD) : W17 m ρ c (Proc.devRef .tc main_arg19) = m ((c : Thread nD τ).loc main_arg19) :=
  (W17_keep m ρ c main_arg19 (by decide)).trans (W16_arg19 m ρ c)
theorem W18_arg19 (c : Dev nD) : W18 m ρ c (Proc.devRef .tc main_arg19) = m ((c : Thread nD τ).loc main_arg19) :=
  (W18_keep m ρ c main_arg19 (by decide)).trans (W17_arg19 m ρ c)
theorem W19_arg19 (c : Dev nD) : W19 m ρ c (Proc.devRef .tc main_arg19) = m ((c : Thread nD τ).loc main_arg19) :=
  (W19_keep m ρ c main_arg19 (by decide)).trans (W18_arg19 m ρ c)
theorem W20_arg19 (c : Dev nD) : W20 m ρ c (Proc.devRef .tc main_arg19) = m ((c : Thread nD τ).loc main_arg19) :=
  (W20_of_ne m ρ c main_arg19 (by decide)).trans (W19_arg19 m ρ c)
theorem W21_arg19 (c : Dev nD) : W21 m ρ c (Proc.devRef .tc main_arg19) = m ((c : Thread nD τ).loc main_arg19) :=
  (W21_keep m ρ c main_arg19 (by decide)).trans (W20_arg19 m ρ c)
theorem W22_arg19 (c : Dev nD) : W22 m ρ c (Proc.devRef .tc main_arg19) = m ((c : Thread nD τ).loc main_arg19) :=
  (W22_keep m ρ c main_arg19 (by decide)).trans (W21_arg19 m ρ c)
theorem W23_arg19 (c : Dev nD) : W23 m ρ c (Proc.devRef .tc main_arg19) = m ((c : Thread nD τ).loc main_arg19) :=
  (W23_keep m ρ c main_arg19 (by decide)).trans (W22_arg19 m ρ c)
theorem W24_arg19 (c : Dev nD) : W24 m ρ c (Proc.devRef .tc main_arg19) = m ((c : Thread nD τ).loc main_arg19) :=
  (W24_keep m ρ c main_arg19 (by decide)).trans (W23_arg19 m ρ c)
theorem W25_arg19 (c : Dev nD) : W25 m ρ c (Proc.devRef .tc main_arg19) = m ((c : Thread nD τ).loc main_arg19) :=
  (W25_keep m ρ c main_arg19 (by decide)).trans (W24_arg19 m ρ c)
theorem W26_arg19 (c : Dev nD) : W26 m ρ c (Proc.devRef .tc main_arg19) = m ((c : Thread nD τ).loc main_arg19) :=
  (W26_of_ne m ρ c main_arg19 (by decide)).trans (W25_arg19 m ρ c)
theorem W27_arg19 (c : Dev nD) : W27 m ρ c (Proc.devRef .tc main_arg19) = m ((c : Thread nD τ).loc main_arg19) :=
  (W27_keep m ρ c main_arg19 (by decide)).trans (W26_arg19 m ρ c)
theorem W28_arg19 (c : Dev nD) : W28 m ρ c (Proc.devRef .tc main_arg19) = m ((c : Thread nD τ).loc main_arg19) :=
  (W28_keep m ρ c main_arg19 (by decide)).trans (W27_arg19 m ρ c)
theorem W29_arg19 (c : Dev nD) : W29 m ρ c (Proc.devRef .tc main_arg19) = m ((c : Thread nD τ).loc main_arg19) :=
  (W29_keep m ρ c main_arg19 (by decide)).trans (W28_arg19 m ρ c)
theorem W30_arg19 (c : Dev nD) : W30 m ρ c (Proc.devRef .tc main_arg19) = m ((c : Thread nD τ).loc main_arg19) :=
  (W30_keep m ρ c main_arg19 (by decide)).trans (W29_arg19 m ρ c)
theorem W31_arg19 (c : Dev nD) : W31 m ρ c (Proc.devRef .tc main_arg19) = m ((c : Thread nD τ).loc main_arg19) :=
  (W31_keep m ρ c main_arg19 (by decide)).trans (W30_arg19 m ρ c)
theorem W32_arg19 (c : Dev nD) : W32 m ρ c (Proc.devRef .tc main_arg19) = m ((c : Thread nD τ).loc main_arg19) :=
  (W32_of_ne m ρ c main_arg19 (by decide)).trans (W31_arg19 m ρ c)
theorem W33_arg19 (c : Dev nD) : W33 m ρ c (Proc.devRef .tc main_arg19) = m ((c : Thread nD τ).loc main_arg19) :=
  (W33_keep m ρ c main_arg19 (by decide)).trans (W32_arg19 m ρ c)
theorem W34_arg19 (c : Dev nD) : W34 m ρ c (Proc.devRef .tc main_arg19) = m ((c : Thread nD τ).loc main_arg19) :=
  (W34_keep m ρ c main_arg19 (by decide)).trans (W33_arg19 m ρ c)
theorem W35_arg19 (c : Dev nD) : W35 m ρ c (Proc.devRef .tc main_arg19) = m ((c : Thread nD τ).loc main_arg19) :=
  (W35_keep m ρ c main_arg19 (by decide)).trans (W34_arg19 m ρ c)
theorem W36_arg19 (c : Dev nD) : W36 m ρ c (Proc.devRef .tc main_arg19) = m ((c : Thread nD τ).loc main_arg19) :=
  (W36_keep m ρ c main_arg19 (by decide)).trans (W35_arg19 m ρ c)
theorem W37_arg19 (c : Dev nD) : W37 m ρ c (Proc.devRef .tc main_arg19) = m ((c : Thread nD τ).loc main_arg19) :=
  (W37_keep m ρ c main_arg19 (by decide)).trans (W36_arg19 m ρ c)
theorem W38_arg19 (c : Dev nD) : W38 m ρ c (Proc.devRef .tc main_arg19) = m ((c : Thread nD τ).loc main_arg19) :=
  (W38_of_ne m ρ c main_arg19 (by decide)).trans (W37_arg19 m ρ c)
theorem W39_arg19 (c : Dev nD) : W39 m ρ c (Proc.devRef .tc main_arg19) = m ((c : Thread nD τ).loc main_arg19) :=
  (W39_keep m ρ c main_arg19 (by decide)).trans (W38_arg19 m ρ c)
theorem W40_arg19 (c : Dev nD) : W40 m ρ c (Proc.devRef .tc main_arg19) = m ((c : Thread nD τ).loc main_arg19) :=
  (W40_keep m ρ c main_arg19 (by decide)).trans (W39_arg19 m ρ c)
theorem W41_arg19 (c : Dev nD) : W41 m ρ c (Proc.devRef .tc main_arg19) = m ((c : Thread nD τ).loc main_arg19) :=
  (W41_keep m ρ c main_arg19 (by decide)).trans (W40_arg19 m ρ c)
theorem W42_arg19 (c : Dev nD) : W42 m ρ c (Proc.devRef .tc main_arg19) = m ((c : Thread nD τ).loc main_arg19) :=
  (W42_keep m ρ c main_arg19 (by decide)).trans (W41_arg19 m ρ c)
theorem W43_arg19 (c : Dev nD) : W43 m ρ c (Proc.devRef .tc main_arg19) = m ((c : Thread nD τ).loc main_arg19) :=
  (W43_keep m ρ c main_arg19 (by decide)).trans (W42_arg19 m ρ c)
theorem W44_arg19 (c : Dev nD) : W44 m ρ c (Proc.devRef .tc main_arg19) = m ((c : Thread nD τ).loc main_arg19) :=
  (W44_of_ne m ρ c main_arg19 (by decide)).trans (W43_arg19 m ρ c)
theorem W45_arg19 (c : Dev nD) : W45 m ρ c (Proc.devRef .tc main_arg19) = m ((c : Thread nD τ).loc main_arg19) :=
  (W45_keep m ρ c main_arg19 (by decide)).trans (W44_arg19 m ρ c)
theorem W46_arg19 (c : Dev nD) : W46 m ρ c (Proc.devRef .tc main_arg19) = m ((c : Thread nD τ).loc main_arg19) :=
  (W46_of_ne m ρ c main_arg19 (by decide)).trans (W45_arg19 m ρ c)
theorem W47_arg19 (c : Dev nD) : W47 m ρ c (Proc.devRef .tc main_arg19) = m ((c : Thread nD τ).loc main_arg19) :=
  (W47_keep m ρ c main_arg19 (by decide)).trans (W46_arg19 m ρ c)
theorem W48_arg19 (c : Dev nD) : W48 m ρ c (Proc.devRef .tc main_arg19) = m ((c : Thread nD τ).loc main_arg19) :=
  (W48_of_ne m ρ c main_arg19 (by decide)).trans (W47_arg19 m ρ c)
theorem W49_arg19 (c : Dev nD) : W49 m ρ c (Proc.devRef .tc main_arg19) = m ((c : Thread nD τ).loc main_arg19) :=
  (W49_keep m ρ c main_arg19 (by decide)).trans (W48_arg19 m ρ c)
theorem W50_arg19 (c : Dev nD) : W50 m ρ c (Proc.devRef .tc main_arg19) = m ((c : Thread nD τ).loc main_arg19) :=
  (W50_of_ne m ρ c main_arg19 (by decide)).trans (W49_arg19 m ρ c)
theorem W51_arg19 (c : Dev nD) : W51 m ρ c (Proc.devRef .tc main_arg19) = m ((c : Thread nD τ).loc main_arg19) :=
  (W51_keep m ρ c main_arg19 (by decide)).trans (W50_arg19 m ρ c)
theorem W52_arg19 (c : Dev nD) : W52 m ρ c (Proc.devRef .tc main_arg19) = m ((c : Thread nD τ).loc main_arg19) :=
  (W52_keep m ρ c main_arg19 (by decide)).trans (W51_arg19 m ρ c)
theorem W53_arg19 (c : Dev nD) : W53 m ρ c (Proc.devRef .tc main_arg19) = m ((c : Thread nD τ).loc main_arg19) :=
  (W53_keep m ρ c main_arg19 (by decide)).trans (W52_arg19 m ρ c)
theorem W54_arg19 (c : Dev nD) : W54 m ρ c (Proc.devRef .tc main_arg19) = m ((c : Thread nD τ).loc main_arg19) :=
  (W54_keep m ρ c main_arg19 (by decide)).trans (W53_arg19 m ρ c)
theorem W55_arg19 (c : Dev nD) : W55 m ρ c (Proc.devRef .tc main_arg19) = m ((c : Thread nD τ).loc main_arg19) :=
  (W55_keep m ρ c main_arg19 (by decide)).trans (W54_arg19 m ρ c)
theorem W56_arg19 (c : Dev nD) : W56 m ρ c (Proc.devRef .tc main_arg19) = m ((c : Thread nD τ).loc main_arg19) :=
  (W56_of_ne m ρ c main_arg19 (by decide)).trans (W55_arg19 m ρ c)
theorem W57_arg19 (c : Dev nD) : W57 m ρ c (Proc.devRef .tc main_arg19) = m ((c : Thread nD τ).loc main_arg19) :=
  (W57_keep m ρ c main_arg19 (by decide)).trans (W56_arg19 m ρ c)
theorem W58_arg19 (c : Dev nD) : W58 m ρ c (Proc.devRef .tc main_arg19) = m ((c : Thread nD τ).loc main_arg19) :=
  (W58_keep m ρ c main_arg19 (by decide)).trans (W57_arg19 m ρ c)
theorem W59_arg19 (c : Dev nD) : W59 m ρ c (Proc.devRef .tc main_arg19) = m ((c : Thread nD τ).loc main_arg19) :=
  (W59_keep m ρ c main_arg19 (by decide)).trans (W58_arg19 m ρ c)
theorem W60_arg19 (c : Dev nD) : W60 m ρ c (Proc.devRef .tc main_arg19) = m ((c : Thread nD τ).loc main_arg19) :=
  (W60_keep m ρ c main_arg19 (by decide)).trans (W59_arg19 m ρ c)
theorem W61_arg19 (c : Dev nD) : W61 m ρ c (Proc.devRef .tc main_arg19) = m ((c : Thread nD τ).loc main_arg19) :=
  (W61_keep m ρ c main_arg19 (by decide)).trans (W60_arg19 m ρ c)
theorem W62_arg19 (c : Dev nD) : W62 m ρ c (Proc.devRef .tc main_arg19) = m ((c : Thread nD τ).loc main_arg19) :=
  (W62_of_ne m ρ c main_arg19 (by decide)).trans (W61_arg19 m ρ c)
theorem W63_arg19 (c : Dev nD) : W63 m ρ c (Proc.devRef .tc main_arg19) = m ((c : Thread nD τ).loc main_arg19) :=
  (W63_keep m ρ c main_arg19 (by decide)).trans (W62_arg19 m ρ c)
theorem W64_arg19 (c : Dev nD) : W64 m ρ c (Proc.devRef .tc main_arg19) = m ((c : Thread nD τ).loc main_arg19) :=
  (W64_keep m ρ c main_arg19 (by decide)).trans (W63_arg19 m ρ c)
theorem W65_arg19 (c : Dev nD) : W65 m ρ c (Proc.devRef .tc main_arg19) = m ((c : Thread nD τ).loc main_arg19) :=
  (W65_keep m ρ c main_arg19 (by decide)).trans (W64_arg19 m ρ c)
theorem W66_arg19 (c : Dev nD) : W66 m ρ c (Proc.devRef .tc main_arg19) = m ((c : Thread nD τ).loc main_arg19) :=
  (W66_keep m ρ c main_arg19 (by decide)).trans (W65_arg19 m ρ c)
theorem W67_arg19 (c : Dev nD) : W67 m ρ c (Proc.devRef .tc main_arg19) = m ((c : Thread nD τ).loc main_arg19) :=
  (W67_keep m ρ c main_arg19 (by decide)).trans (W66_arg19 m ρ c)
theorem W68_arg19 (c : Dev nD) : W68 m ρ c (Proc.devRef .tc main_arg19) = m ((c : Thread nD τ).loc main_arg19) :=
  (W68_of_ne m ρ c main_arg19 (by decide)).trans (W67_arg19 m ρ c)
theorem W69_arg19 (c : Dev nD) : W69 m ρ c (Proc.devRef .tc main_arg19) = m ((c : Thread nD τ).loc main_arg19) :=
  (W69_keep m ρ c main_arg19 (by decide)).trans (W68_arg19 m ρ c)
theorem W70_arg19 (c : Dev nD) : W70 m ρ c (Proc.devRef .tc main_arg19) = m ((c : Thread nD τ).loc main_arg19) :=
  (W70_keep m ρ c main_arg19 (by decide)).trans (W69_arg19 m ρ c)
theorem W71_arg19 (c : Dev nD) : W71 m ρ c (Proc.devRef .tc main_arg19) = m ((c : Thread nD τ).loc main_arg19) :=
  (W71_keep m ρ c main_arg19 (by decide)).trans (W70_arg19 m ρ c)
theorem W72_arg19 (c : Dev nD) : W72 m ρ c (Proc.devRef .tc main_arg19) = m ((c : Thread nD τ).loc main_arg19) :=
  (W72_keep m ρ c main_arg19 (by decide)).trans (W71_arg19 m ρ c)
theorem W73_arg19 (c : Dev nD) : W73 m ρ c (Proc.devRef .tc main_arg19) = m ((c : Thread nD τ).loc main_arg19) :=
  (W73_keep m ρ c main_arg19 (by decide)).trans (W72_arg19 m ρ c)
theorem W74_arg19 (c : Dev nD) : W74 m ρ c (Proc.devRef .tc main_arg19) = m ((c : Thread nD τ).loc main_arg19) :=
  (W74_of_ne m ρ c main_arg19 (by decide)).trans (W73_arg19 m ρ c)
theorem W75_arg19 (c : Dev nD) : W75 m ρ c (Proc.devRef .tc main_arg19) = m ((c : Thread nD τ).loc main_arg19) :=
  (W75_keep m ρ c main_arg19 (by decide)).trans (W74_arg19 m ρ c)
theorem W76_arg19 (c : Dev nD) : W76 m ρ c (Proc.devRef .tc main_arg19) = m ((c : Thread nD τ).loc main_arg19) :=
  (W76_keep m ρ c main_arg19 (by decide)).trans (W75_arg19 m ρ c)
theorem W77_arg19 (c : Dev nD) : W77 m ρ c (Proc.devRef .tc main_arg19) = m ((c : Thread nD τ).loc main_arg19) :=
  (W77_keep m ρ c main_arg19 (by decide)).trans (W76_arg19 m ρ c)
theorem W78_arg19 (c : Dev nD) : W78 m ρ c (Proc.devRef .tc main_arg19) = m ((c : Thread nD τ).loc main_arg19) :=
  (W78_keep m ρ c main_arg19 (by decide)).trans (W77_arg19 m ρ c)
theorem W79_arg19 (c : Dev nD) : W79 m ρ c (Proc.devRef .tc main_arg19) = m ((c : Thread nD τ).loc main_arg19) :=
  (W79_keep m ρ c main_arg19 (by decide)).trans (W78_arg19 m ρ c)
theorem W80_arg19 (c : Dev nD) : W80 m ρ c (Proc.devRef .tc main_arg19) = m ((c : Thread nD τ).loc main_arg19) :=
  (W80_of_ne m ρ c main_arg19 (by decide)).trans (W79_arg19 m ρ c)
theorem W81_arg19 (c : Dev nD) : W81 m ρ c (Proc.devRef .tc main_arg19) = m ((c : Thread nD τ).loc main_arg19) :=
  (W81_keep m ρ c main_arg19 (by decide)).trans (W80_arg19 m ρ c)
theorem W82_arg19 (c : Dev nD) : W82 m ρ c (Proc.devRef .tc main_arg19) = m ((c : Thread nD τ).loc main_arg19) :=
  (W82_keep m ρ c main_arg19 (by decide)).trans (W81_arg19 m ρ c)
theorem W83_arg19 (c : Dev nD) : W83 m ρ c (Proc.devRef .tc main_arg19) = m ((c : Thread nD τ).loc main_arg19) :=
  (W83_keep m ρ c main_arg19 (by decide)).trans (W82_arg19 m ρ c)
theorem W84_arg19 (c : Dev nD) : W84 m ρ c (Proc.devRef .tc main_arg19) = m ((c : Thread nD τ).loc main_arg19) :=
  (W84_keep m ρ c main_arg19 (by decide)).trans (W83_arg19 m ρ c)
theorem W85_arg19 (c : Dev nD) : W85 m ρ c (Proc.devRef .tc main_arg19) = m ((c : Thread nD τ).loc main_arg19) :=
  (W85_keep m ρ c main_arg19 (by decide)).trans (W84_arg19 m ρ c)
theorem W86_arg19 (c : Dev nD) : W86 m ρ c (Proc.devRef .tc main_arg19) = m ((c : Thread nD τ).loc main_arg19) :=
  (W86_of_ne m ρ c main_arg19 (by decide)).trans (W85_arg19 m ρ c)
theorem W87_arg19 (c : Dev nD) : W87 m ρ c (Proc.devRef .tc main_arg19) = m ((c : Thread nD τ).loc main_arg19) :=
  (W87_keep m ρ c main_arg19 (by decide)).trans (W86_arg19 m ρ c)
theorem W88_arg19 (c : Dev nD) : W88 m ρ c (Proc.devRef .tc main_arg19) = m ((c : Thread nD τ).loc main_arg19) :=
  (W88_of_ne m ρ c main_arg19 (by decide)).trans (W87_arg19 m ρ c)
theorem W89_arg19 (c : Dev nD) : W89 m ρ c (Proc.devRef .tc main_arg19) = m ((c : Thread nD τ).loc main_arg19) :=
  (W89_keep m ρ c main_arg19 (by decide)).trans (W88_arg19 m ρ c)
theorem W90_arg19 (c : Dev nD) : W90 m ρ c (Proc.devRef .tc main_arg19) = m ((c : Thread nD τ).loc main_arg19) :=
  (W90_of_ne m ρ c main_arg19 (by decide)).trans (W89_arg19 m ρ c)
theorem W0_arg20 (c : Dev nD) : W0 m ρ c (Proc.devRef .tc main_arg20) = m ((c : Thread nD τ).loc main_arg20) := rfl
theorem W1_arg20 (c : Dev nD) : W1 m ρ c (Proc.devRef .tc main_arg20) = m ((c : Thread nD τ).loc main_arg20) :=
  (W1_keep m ρ c main_arg20 (by decide)).trans (W0_arg20 m ρ c)
theorem W2_arg20 (c : Dev nD) : W2 m ρ c (Proc.devRef .tc main_arg20) = m ((c : Thread nD τ).loc main_arg20) :=
  (W2_of_ne m ρ c main_arg20 (by decide)).trans (W1_arg20 m ρ c)
theorem W3_arg20 (c : Dev nD) : W3 m ρ c (Proc.devRef .tc main_arg20) = m ((c : Thread nD τ).loc main_arg20) :=
  (W3_keep m ρ c main_arg20 (by decide)).trans (W2_arg20 m ρ c)
theorem W4_arg20 (c : Dev nD) : W4 m ρ c (Proc.devRef .tc main_arg20) = m ((c : Thread nD τ).loc main_arg20) :=
  (W4_of_ne m ρ c main_arg20 (by decide)).trans (W3_arg20 m ρ c)
theorem W5_arg20 (c : Dev nD) : W5 m ρ c (Proc.devRef .tc main_arg20) = m ((c : Thread nD τ).loc main_arg20) :=
  (W5_keep m ρ c main_arg20 (by decide)).trans (W4_arg20 m ρ c)
theorem W6_arg20 (c : Dev nD) : W6 m ρ c (Proc.devRef .tc main_arg20) = m ((c : Thread nD τ).loc main_arg20) :=
  (W6_of_ne m ρ c main_arg20 (by decide)).trans (W5_arg20 m ρ c)
theorem W7_arg20 (c : Dev nD) : W7 m ρ c (Proc.devRef .tc main_arg20) = m ((c : Thread nD τ).loc main_arg20) :=
  (W7_keep m ρ c main_arg20 (by decide)).trans (W6_arg20 m ρ c)
theorem W8_arg20 (c : Dev nD) : W8 m ρ c (Proc.devRef .tc main_arg20) = m ((c : Thread nD τ).loc main_arg20) :=
  (W8_of_ne m ρ c main_arg20 (by decide)).trans (W7_arg20 m ρ c)
theorem W9_arg20 (c : Dev nD) : W9 m ρ c (Proc.devRef .tc main_arg20) = m ((c : Thread nD τ).loc main_arg20) :=
  (W9_keep m ρ c main_arg20 (by decide)).trans (W8_arg20 m ρ c)
theorem W10_arg20 (c : Dev nD) : W10 m ρ c (Proc.devRef .tc main_arg20) = m ((c : Thread nD τ).loc main_arg20) :=
  (W10_keep m ρ c main_arg20 (by decide)).trans (W9_arg20 m ρ c)
theorem W11_arg20 (c : Dev nD) : W11 m ρ c (Proc.devRef .tc main_arg20) = m ((c : Thread nD τ).loc main_arg20) :=
  (W11_keep m ρ c main_arg20 (by decide)).trans (W10_arg20 m ρ c)
theorem W12_arg20 (c : Dev nD) : W12 m ρ c (Proc.devRef .tc main_arg20) = m ((c : Thread nD τ).loc main_arg20) :=
  (W12_keep m ρ c main_arg20 (by decide)).trans (W11_arg20 m ρ c)
theorem W13_arg20 (c : Dev nD) : W13 m ρ c (Proc.devRef .tc main_arg20) = m ((c : Thread nD τ).loc main_arg20) :=
  (W13_keep m ρ c main_arg20 (by decide)).trans (W12_arg20 m ρ c)
theorem W14_arg20 (c : Dev nD) : W14 m ρ c (Proc.devRef .tc main_arg20) = m ((c : Thread nD τ).loc main_arg20) :=
  (W14_of_ne m ρ c main_arg20 (by decide)).trans (W13_arg20 m ρ c)
theorem W15_arg20 (c : Dev nD) : W15 m ρ c (Proc.devRef .tc main_arg20) = m ((c : Thread nD τ).loc main_arg20) :=
  (W15_keep m ρ c main_arg20 (by decide)).trans (W14_arg20 m ρ c)
theorem W16_arg20 (c : Dev nD) : W16 m ρ c (Proc.devRef .tc main_arg20) = m ((c : Thread nD τ).loc main_arg20) :=
  (W16_keep m ρ c main_arg20 (by decide)).trans (W15_arg20 m ρ c)
theorem W17_arg20 (c : Dev nD) : W17 m ρ c (Proc.devRef .tc main_arg20) = m ((c : Thread nD τ).loc main_arg20) :=
  (W17_keep m ρ c main_arg20 (by decide)).trans (W16_arg20 m ρ c)
theorem W18_arg20 (c : Dev nD) : W18 m ρ c (Proc.devRef .tc main_arg20) = m ((c : Thread nD τ).loc main_arg20) :=
  (W18_keep m ρ c main_arg20 (by decide)).trans (W17_arg20 m ρ c)
theorem W19_arg20 (c : Dev nD) : W19 m ρ c (Proc.devRef .tc main_arg20) = m ((c : Thread nD τ).loc main_arg20) :=
  (W19_keep m ρ c main_arg20 (by decide)).trans (W18_arg20 m ρ c)
theorem W20_arg20 (c : Dev nD) : W20 m ρ c (Proc.devRef .tc main_arg20) = m ((c : Thread nD τ).loc main_arg20) :=
  (W20_of_ne m ρ c main_arg20 (by decide)).trans (W19_arg20 m ρ c)
theorem W21_arg20 (c : Dev nD) : W21 m ρ c (Proc.devRef .tc main_arg20) = m ((c : Thread nD τ).loc main_arg20) :=
  (W21_keep m ρ c main_arg20 (by decide)).trans (W20_arg20 m ρ c)
theorem W22_arg20 (c : Dev nD) : W22 m ρ c (Proc.devRef .tc main_arg20) = m ((c : Thread nD τ).loc main_arg20) :=
  (W22_keep m ρ c main_arg20 (by decide)).trans (W21_arg20 m ρ c)
theorem W23_arg20 (c : Dev nD) : W23 m ρ c (Proc.devRef .tc main_arg20) = m ((c : Thread nD τ).loc main_arg20) :=
  (W23_keep m ρ c main_arg20 (by decide)).trans (W22_arg20 m ρ c)
theorem W24_arg20 (c : Dev nD) : W24 m ρ c (Proc.devRef .tc main_arg20) = m ((c : Thread nD τ).loc main_arg20) :=
  (W24_keep m ρ c main_arg20 (by decide)).trans (W23_arg20 m ρ c)
theorem W25_arg20 (c : Dev nD) : W25 m ρ c (Proc.devRef .tc main_arg20) = m ((c : Thread nD τ).loc main_arg20) :=
  (W25_keep m ρ c main_arg20 (by decide)).trans (W24_arg20 m ρ c)
theorem W26_arg20 (c : Dev nD) : W26 m ρ c (Proc.devRef .tc main_arg20) = m ((c : Thread nD τ).loc main_arg20) :=
  (W26_of_ne m ρ c main_arg20 (by decide)).trans (W25_arg20 m ρ c)
theorem W27_arg20 (c : Dev nD) : W27 m ρ c (Proc.devRef .tc main_arg20) = m ((c : Thread nD τ).loc main_arg20) :=
  (W27_keep m ρ c main_arg20 (by decide)).trans (W26_arg20 m ρ c)
theorem W28_arg20 (c : Dev nD) : W28 m ρ c (Proc.devRef .tc main_arg20) = m ((c : Thread nD τ).loc main_arg20) :=
  (W28_keep m ρ c main_arg20 (by decide)).trans (W27_arg20 m ρ c)
theorem W29_arg20 (c : Dev nD) : W29 m ρ c (Proc.devRef .tc main_arg20) = m ((c : Thread nD τ).loc main_arg20) :=
  (W29_keep m ρ c main_arg20 (by decide)).trans (W28_arg20 m ρ c)
theorem W30_arg20 (c : Dev nD) : W30 m ρ c (Proc.devRef .tc main_arg20) = m ((c : Thread nD τ).loc main_arg20) :=
  (W30_keep m ρ c main_arg20 (by decide)).trans (W29_arg20 m ρ c)
theorem W31_arg20 (c : Dev nD) : W31 m ρ c (Proc.devRef .tc main_arg20) = m ((c : Thread nD τ).loc main_arg20) :=
  (W31_keep m ρ c main_arg20 (by decide)).trans (W30_arg20 m ρ c)
theorem W32_arg20 (c : Dev nD) : W32 m ρ c (Proc.devRef .tc main_arg20) = m ((c : Thread nD τ).loc main_arg20) :=
  (W32_of_ne m ρ c main_arg20 (by decide)).trans (W31_arg20 m ρ c)
theorem W33_arg20 (c : Dev nD) : W33 m ρ c (Proc.devRef .tc main_arg20) = m ((c : Thread nD τ).loc main_arg20) :=
  (W33_keep m ρ c main_arg20 (by decide)).trans (W32_arg20 m ρ c)
theorem W34_arg20 (c : Dev nD) : W34 m ρ c (Proc.devRef .tc main_arg20) = m ((c : Thread nD τ).loc main_arg20) :=
  (W34_keep m ρ c main_arg20 (by decide)).trans (W33_arg20 m ρ c)
theorem W35_arg20 (c : Dev nD) : W35 m ρ c (Proc.devRef .tc main_arg20) = m ((c : Thread nD τ).loc main_arg20) :=
  (W35_keep m ρ c main_arg20 (by decide)).trans (W34_arg20 m ρ c)
theorem W36_arg20 (c : Dev nD) : W36 m ρ c (Proc.devRef .tc main_arg20) = m ((c : Thread nD τ).loc main_arg20) :=
  (W36_keep m ρ c main_arg20 (by decide)).trans (W35_arg20 m ρ c)
theorem W37_arg20 (c : Dev nD) : W37 m ρ c (Proc.devRef .tc main_arg20) = m ((c : Thread nD τ).loc main_arg20) :=
  (W37_keep m ρ c main_arg20 (by decide)).trans (W36_arg20 m ρ c)
theorem W38_arg20 (c : Dev nD) : W38 m ρ c (Proc.devRef .tc main_arg20) = m ((c : Thread nD τ).loc main_arg20) :=
  (W38_of_ne m ρ c main_arg20 (by decide)).trans (W37_arg20 m ρ c)
theorem W39_arg20 (c : Dev nD) : W39 m ρ c (Proc.devRef .tc main_arg20) = m ((c : Thread nD τ).loc main_arg20) :=
  (W39_keep m ρ c main_arg20 (by decide)).trans (W38_arg20 m ρ c)
theorem W40_arg20 (c : Dev nD) : W40 m ρ c (Proc.devRef .tc main_arg20) = m ((c : Thread nD τ).loc main_arg20) :=
  (W40_keep m ρ c main_arg20 (by decide)).trans (W39_arg20 m ρ c)
theorem W41_arg20 (c : Dev nD) : W41 m ρ c (Proc.devRef .tc main_arg20) = m ((c : Thread nD τ).loc main_arg20) :=
  (W41_keep m ρ c main_arg20 (by decide)).trans (W40_arg20 m ρ c)
theorem W42_arg20 (c : Dev nD) : W42 m ρ c (Proc.devRef .tc main_arg20) = m ((c : Thread nD τ).loc main_arg20) :=
  (W42_keep m ρ c main_arg20 (by decide)).trans (W41_arg20 m ρ c)
theorem W43_arg20 (c : Dev nD) : W43 m ρ c (Proc.devRef .tc main_arg20) = m ((c : Thread nD τ).loc main_arg20) :=
  (W43_keep m ρ c main_arg20 (by decide)).trans (W42_arg20 m ρ c)
theorem W44_arg20 (c : Dev nD) : W44 m ρ c (Proc.devRef .tc main_arg20) = m ((c : Thread nD τ).loc main_arg20) :=
  (W44_of_ne m ρ c main_arg20 (by decide)).trans (W43_arg20 m ρ c)
theorem W45_arg20 (c : Dev nD) : W45 m ρ c (Proc.devRef .tc main_arg20) = m ((c : Thread nD τ).loc main_arg20) :=
  (W45_keep m ρ c main_arg20 (by decide)).trans (W44_arg20 m ρ c)
theorem W46_arg20 (c : Dev nD) : W46 m ρ c (Proc.devRef .tc main_arg20) = m ((c : Thread nD τ).loc main_arg20) :=
  (W46_of_ne m ρ c main_arg20 (by decide)).trans (W45_arg20 m ρ c)
theorem W47_arg20 (c : Dev nD) : W47 m ρ c (Proc.devRef .tc main_arg20) = m ((c : Thread nD τ).loc main_arg20) :=
  (W47_keep m ρ c main_arg20 (by decide)).trans (W46_arg20 m ρ c)
theorem W48_arg20 (c : Dev nD) : W48 m ρ c (Proc.devRef .tc main_arg20) = m ((c : Thread nD τ).loc main_arg20) :=
  (W48_of_ne m ρ c main_arg20 (by decide)).trans (W47_arg20 m ρ c)
theorem W49_arg20 (c : Dev nD) : W49 m ρ c (Proc.devRef .tc main_arg20) = m ((c : Thread nD τ).loc main_arg20) :=
  (W49_keep m ρ c main_arg20 (by decide)).trans (W48_arg20 m ρ c)
theorem W50_arg20 (c : Dev nD) : W50 m ρ c (Proc.devRef .tc main_arg20) = m ((c : Thread nD τ).loc main_arg20) :=
  (W50_of_ne m ρ c main_arg20 (by decide)).trans (W49_arg20 m ρ c)
theorem W51_arg20 (c : Dev nD) : W51 m ρ c (Proc.devRef .tc main_arg20) = m ((c : Thread nD τ).loc main_arg20) :=
  (W51_keep m ρ c main_arg20 (by decide)).trans (W50_arg20 m ρ c)
theorem W52_arg20 (c : Dev nD) : W52 m ρ c (Proc.devRef .tc main_arg20) = m ((c : Thread nD τ).loc main_arg20) :=
  (W52_keep m ρ c main_arg20 (by decide)).trans (W51_arg20 m ρ c)
theorem W53_arg20 (c : Dev nD) : W53 m ρ c (Proc.devRef .tc main_arg20) = m ((c : Thread nD τ).loc main_arg20) :=
  (W53_keep m ρ c main_arg20 (by decide)).trans (W52_arg20 m ρ c)
theorem W54_arg20 (c : Dev nD) : W54 m ρ c (Proc.devRef .tc main_arg20) = m ((c : Thread nD τ).loc main_arg20) :=
  (W54_keep m ρ c main_arg20 (by decide)).trans (W53_arg20 m ρ c)
theorem W55_arg20 (c : Dev nD) : W55 m ρ c (Proc.devRef .tc main_arg20) = m ((c : Thread nD τ).loc main_arg20) :=
  (W55_keep m ρ c main_arg20 (by decide)).trans (W54_arg20 m ρ c)
theorem W56_arg20 (c : Dev nD) : W56 m ρ c (Proc.devRef .tc main_arg20) = m ((c : Thread nD τ).loc main_arg20) :=
  (W56_of_ne m ρ c main_arg20 (by decide)).trans (W55_arg20 m ρ c)
theorem W57_arg20 (c : Dev nD) : W57 m ρ c (Proc.devRef .tc main_arg20) = m ((c : Thread nD τ).loc main_arg20) :=
  (W57_keep m ρ c main_arg20 (by decide)).trans (W56_arg20 m ρ c)
theorem W58_arg20 (c : Dev nD) : W58 m ρ c (Proc.devRef .tc main_arg20) = m ((c : Thread nD τ).loc main_arg20) :=
  (W58_keep m ρ c main_arg20 (by decide)).trans (W57_arg20 m ρ c)
theorem W59_arg20 (c : Dev nD) : W59 m ρ c (Proc.devRef .tc main_arg20) = m ((c : Thread nD τ).loc main_arg20) :=
  (W59_keep m ρ c main_arg20 (by decide)).trans (W58_arg20 m ρ c)
theorem W60_arg20 (c : Dev nD) : W60 m ρ c (Proc.devRef .tc main_arg20) = m ((c : Thread nD τ).loc main_arg20) :=
  (W60_keep m ρ c main_arg20 (by decide)).trans (W59_arg20 m ρ c)
theorem W61_arg20 (c : Dev nD) : W61 m ρ c (Proc.devRef .tc main_arg20) = m ((c : Thread nD τ).loc main_arg20) :=
  (W61_keep m ρ c main_arg20 (by decide)).trans (W60_arg20 m ρ c)
theorem W62_arg20 (c : Dev nD) : W62 m ρ c (Proc.devRef .tc main_arg20) = m ((c : Thread nD τ).loc main_arg20) :=
  (W62_of_ne m ρ c main_arg20 (by decide)).trans (W61_arg20 m ρ c)
theorem W63_arg20 (c : Dev nD) : W63 m ρ c (Proc.devRef .tc main_arg20) = m ((c : Thread nD τ).loc main_arg20) :=
  (W63_keep m ρ c main_arg20 (by decide)).trans (W62_arg20 m ρ c)
theorem W64_arg20 (c : Dev nD) : W64 m ρ c (Proc.devRef .tc main_arg20) = m ((c : Thread nD τ).loc main_arg20) :=
  (W64_keep m ρ c main_arg20 (by decide)).trans (W63_arg20 m ρ c)
theorem W65_arg20 (c : Dev nD) : W65 m ρ c (Proc.devRef .tc main_arg20) = m ((c : Thread nD τ).loc main_arg20) :=
  (W65_keep m ρ c main_arg20 (by decide)).trans (W64_arg20 m ρ c)
theorem W66_arg20 (c : Dev nD) : W66 m ρ c (Proc.devRef .tc main_arg20) = m ((c : Thread nD τ).loc main_arg20) :=
  (W66_keep m ρ c main_arg20 (by decide)).trans (W65_arg20 m ρ c)
theorem W67_arg20 (c : Dev nD) : W67 m ρ c (Proc.devRef .tc main_arg20) = m ((c : Thread nD τ).loc main_arg20) :=
  (W67_keep m ρ c main_arg20 (by decide)).trans (W66_arg20 m ρ c)
theorem W68_arg20 (c : Dev nD) : W68 m ρ c (Proc.devRef .tc main_arg20) = m ((c : Thread nD τ).loc main_arg20) :=
  (W68_of_ne m ρ c main_arg20 (by decide)).trans (W67_arg20 m ρ c)
theorem W69_arg20 (c : Dev nD) : W69 m ρ c (Proc.devRef .tc main_arg20) = m ((c : Thread nD τ).loc main_arg20) :=
  (W69_keep m ρ c main_arg20 (by decide)).trans (W68_arg20 m ρ c)
theorem W70_arg20 (c : Dev nD) : W70 m ρ c (Proc.devRef .tc main_arg20) = m ((c : Thread nD τ).loc main_arg20) :=
  (W70_keep m ρ c main_arg20 (by decide)).trans (W69_arg20 m ρ c)
theorem W71_arg20 (c : Dev nD) : W71 m ρ c (Proc.devRef .tc main_arg20) = m ((c : Thread nD τ).loc main_arg20) :=
  (W71_keep m ρ c main_arg20 (by decide)).trans (W70_arg20 m ρ c)
theorem W72_arg20 (c : Dev nD) : W72 m ρ c (Proc.devRef .tc main_arg20) = m ((c : Thread nD τ).loc main_arg20) :=
  (W72_keep m ρ c main_arg20 (by decide)).trans (W71_arg20 m ρ c)
theorem W73_arg20 (c : Dev nD) : W73 m ρ c (Proc.devRef .tc main_arg20) = m ((c : Thread nD τ).loc main_arg20) :=
  (W73_keep m ρ c main_arg20 (by decide)).trans (W72_arg20 m ρ c)
theorem W74_arg20 (c : Dev nD) : W74 m ρ c (Proc.devRef .tc main_arg20) = m ((c : Thread nD τ).loc main_arg20) :=
  (W74_of_ne m ρ c main_arg20 (by decide)).trans (W73_arg20 m ρ c)
theorem W75_arg20 (c : Dev nD) : W75 m ρ c (Proc.devRef .tc main_arg20) = m ((c : Thread nD τ).loc main_arg20) :=
  (W75_keep m ρ c main_arg20 (by decide)).trans (W74_arg20 m ρ c)
theorem W76_arg20 (c : Dev nD) : W76 m ρ c (Proc.devRef .tc main_arg20) = m ((c : Thread nD τ).loc main_arg20) :=
  (W76_keep m ρ c main_arg20 (by decide)).trans (W75_arg20 m ρ c)
theorem W77_arg20 (c : Dev nD) : W77 m ρ c (Proc.devRef .tc main_arg20) = m ((c : Thread nD τ).loc main_arg20) :=
  (W77_keep m ρ c main_arg20 (by decide)).trans (W76_arg20 m ρ c)
theorem W78_arg20 (c : Dev nD) : W78 m ρ c (Proc.devRef .tc main_arg20) = m ((c : Thread nD τ).loc main_arg20) :=
  (W78_keep m ρ c main_arg20 (by decide)).trans (W77_arg20 m ρ c)
theorem W79_arg20 (c : Dev nD) : W79 m ρ c (Proc.devRef .tc main_arg20) = m ((c : Thread nD τ).loc main_arg20) :=
  (W79_keep m ρ c main_arg20 (by decide)).trans (W78_arg20 m ρ c)
theorem W80_arg20 (c : Dev nD) : W80 m ρ c (Proc.devRef .tc main_arg20) = m ((c : Thread nD τ).loc main_arg20) :=
  (W80_of_ne m ρ c main_arg20 (by decide)).trans (W79_arg20 m ρ c)
theorem W81_arg20 (c : Dev nD) : W81 m ρ c (Proc.devRef .tc main_arg20) = m ((c : Thread nD τ).loc main_arg20) :=
  (W81_keep m ρ c main_arg20 (by decide)).trans (W80_arg20 m ρ c)
theorem W82_arg20 (c : Dev nD) : W82 m ρ c (Proc.devRef .tc main_arg20) = m ((c : Thread nD τ).loc main_arg20) :=
  (W82_keep m ρ c main_arg20 (by decide)).trans (W81_arg20 m ρ c)
theorem W83_arg20 (c : Dev nD) : W83 m ρ c (Proc.devRef .tc main_arg20) = m ((c : Thread nD τ).loc main_arg20) :=
  (W83_keep m ρ c main_arg20 (by decide)).trans (W82_arg20 m ρ c)
theorem W84_arg20 (c : Dev nD) : W84 m ρ c (Proc.devRef .tc main_arg20) = m ((c : Thread nD τ).loc main_arg20) :=
  (W84_keep m ρ c main_arg20 (by decide)).trans (W83_arg20 m ρ c)
theorem W85_arg20 (c : Dev nD) : W85 m ρ c (Proc.devRef .tc main_arg20) = m ((c : Thread nD τ).loc main_arg20) :=
  (W85_keep m ρ c main_arg20 (by decide)).trans (W84_arg20 m ρ c)
theorem W86_arg20 (c : Dev nD) : W86 m ρ c (Proc.devRef .tc main_arg20) = m ((c : Thread nD τ).loc main_arg20) :=
  (W86_of_ne m ρ c main_arg20 (by decide)).trans (W85_arg20 m ρ c)
theorem W87_arg20 (c : Dev nD) : W87 m ρ c (Proc.devRef .tc main_arg20) = m ((c : Thread nD τ).loc main_arg20) :=
  (W87_keep m ρ c main_arg20 (by decide)).trans (W86_arg20 m ρ c)
theorem W88_arg20 (c : Dev nD) : W88 m ρ c (Proc.devRef .tc main_arg20) = m ((c : Thread nD τ).loc main_arg20) :=
  (W88_of_ne m ρ c main_arg20 (by decide)).trans (W87_arg20 m ρ c)
theorem W89_arg20 (c : Dev nD) : W89 m ρ c (Proc.devRef .tc main_arg20) = m ((c : Thread nD τ).loc main_arg20) :=
  (W89_keep m ρ c main_arg20 (by decide)).trans (W88_arg20 m ρ c)
theorem W90_arg20 (c : Dev nD) : W90 m ρ c (Proc.devRef .tc main_arg20) = m ((c : Thread nD τ).loc main_arg20) :=
  (W90_of_ne m ρ c main_arg20 (by decide)).trans (W89_arg20 m ρ c)
theorem W0_arg21 (c : Dev nD) : W0 m ρ c (Proc.devRef .tc main_arg21) = m ((c : Thread nD τ).loc main_arg21) := rfl
theorem W1_arg21 (c : Dev nD) : W1 m ρ c (Proc.devRef .tc main_arg21) = m ((c : Thread nD τ).loc main_arg21) :=
  (W1_keep m ρ c main_arg21 (by decide)).trans (W0_arg21 m ρ c)
theorem W2_arg21 (c : Dev nD) : W2 m ρ c (Proc.devRef .tc main_arg21) = m ((c : Thread nD τ).loc main_arg21) :=
  (W2_of_ne m ρ c main_arg21 (by decide)).trans (W1_arg21 m ρ c)
theorem W3_arg21 (c : Dev nD) : W3 m ρ c (Proc.devRef .tc main_arg21) = m ((c : Thread nD τ).loc main_arg21) :=
  (W3_keep m ρ c main_arg21 (by decide)).trans (W2_arg21 m ρ c)
theorem W4_arg21 (c : Dev nD) : W4 m ρ c (Proc.devRef .tc main_arg21) = m ((c : Thread nD τ).loc main_arg21) :=
  (W4_of_ne m ρ c main_arg21 (by decide)).trans (W3_arg21 m ρ c)
theorem W5_arg21 (c : Dev nD) : W5 m ρ c (Proc.devRef .tc main_arg21) = m ((c : Thread nD τ).loc main_arg21) :=
  (W5_keep m ρ c main_arg21 (by decide)).trans (W4_arg21 m ρ c)
theorem W6_arg21 (c : Dev nD) : W6 m ρ c (Proc.devRef .tc main_arg21) = m ((c : Thread nD τ).loc main_arg21) :=
  (W6_of_ne m ρ c main_arg21 (by decide)).trans (W5_arg21 m ρ c)
theorem W7_arg21 (c : Dev nD) : W7 m ρ c (Proc.devRef .tc main_arg21) = m ((c : Thread nD τ).loc main_arg21) :=
  (W7_keep m ρ c main_arg21 (by decide)).trans (W6_arg21 m ρ c)
theorem W8_arg21 (c : Dev nD) : W8 m ρ c (Proc.devRef .tc main_arg21) = m ((c : Thread nD τ).loc main_arg21) :=
  (W8_of_ne m ρ c main_arg21 (by decide)).trans (W7_arg21 m ρ c)
theorem W9_arg21 (c : Dev nD) : W9 m ρ c (Proc.devRef .tc main_arg21) = m ((c : Thread nD τ).loc main_arg21) :=
  (W9_keep m ρ c main_arg21 (by decide)).trans (W8_arg21 m ρ c)
theorem W10_arg21 (c : Dev nD) : W10 m ρ c (Proc.devRef .tc main_arg21) = m ((c : Thread nD τ).loc main_arg21) :=
  (W10_keep m ρ c main_arg21 (by decide)).trans (W9_arg21 m ρ c)
theorem W11_arg21 (c : Dev nD) : W11 m ρ c (Proc.devRef .tc main_arg21) = m ((c : Thread nD τ).loc main_arg21) :=
  (W11_keep m ρ c main_arg21 (by decide)).trans (W10_arg21 m ρ c)
theorem W12_arg21 (c : Dev nD) : W12 m ρ c (Proc.devRef .tc main_arg21) = m ((c : Thread nD τ).loc main_arg21) :=
  (W12_keep m ρ c main_arg21 (by decide)).trans (W11_arg21 m ρ c)
theorem W13_arg21 (c : Dev nD) : W13 m ρ c (Proc.devRef .tc main_arg21) = m ((c : Thread nD τ).loc main_arg21) :=
  (W13_keep m ρ c main_arg21 (by decide)).trans (W12_arg21 m ρ c)
theorem W14_arg21 (c : Dev nD) : W14 m ρ c (Proc.devRef .tc main_arg21) = m ((c : Thread nD τ).loc main_arg21) :=
  (W14_of_ne m ρ c main_arg21 (by decide)).trans (W13_arg21 m ρ c)
theorem W15_arg21 (c : Dev nD) : W15 m ρ c (Proc.devRef .tc main_arg21) = m ((c : Thread nD τ).loc main_arg21) :=
  (W15_keep m ρ c main_arg21 (by decide)).trans (W14_arg21 m ρ c)
theorem W16_arg21 (c : Dev nD) : W16 m ρ c (Proc.devRef .tc main_arg21) = m ((c : Thread nD τ).loc main_arg21) :=
  (W16_keep m ρ c main_arg21 (by decide)).trans (W15_arg21 m ρ c)
theorem W17_arg21 (c : Dev nD) : W17 m ρ c (Proc.devRef .tc main_arg21) = m ((c : Thread nD τ).loc main_arg21) :=
  (W17_keep m ρ c main_arg21 (by decide)).trans (W16_arg21 m ρ c)
theorem W18_arg21 (c : Dev nD) : W18 m ρ c (Proc.devRef .tc main_arg21) = m ((c : Thread nD τ).loc main_arg21) :=
  (W18_keep m ρ c main_arg21 (by decide)).trans (W17_arg21 m ρ c)
theorem W19_arg21 (c : Dev nD) : W19 m ρ c (Proc.devRef .tc main_arg21) = m ((c : Thread nD τ).loc main_arg21) :=
  (W19_keep m ρ c main_arg21 (by decide)).trans (W18_arg21 m ρ c)
theorem W20_arg21 (c : Dev nD) : W20 m ρ c (Proc.devRef .tc main_arg21) = m ((c : Thread nD τ).loc main_arg21) :=
  (W20_of_ne m ρ c main_arg21 (by decide)).trans (W19_arg21 m ρ c)
theorem W21_arg21 (c : Dev nD) : W21 m ρ c (Proc.devRef .tc main_arg21) = m ((c : Thread nD τ).loc main_arg21) :=
  (W21_keep m ρ c main_arg21 (by decide)).trans (W20_arg21 m ρ c)
theorem W22_arg21 (c : Dev nD) : W22 m ρ c (Proc.devRef .tc main_arg21) = m ((c : Thread nD τ).loc main_arg21) :=
  (W22_keep m ρ c main_arg21 (by decide)).trans (W21_arg21 m ρ c)
theorem W23_arg21 (c : Dev nD) : W23 m ρ c (Proc.devRef .tc main_arg21) = m ((c : Thread nD τ).loc main_arg21) :=
  (W23_keep m ρ c main_arg21 (by decide)).trans (W22_arg21 m ρ c)
theorem W24_arg21 (c : Dev nD) : W24 m ρ c (Proc.devRef .tc main_arg21) = m ((c : Thread nD τ).loc main_arg21) :=
  (W24_keep m ρ c main_arg21 (by decide)).trans (W23_arg21 m ρ c)
theorem W25_arg21 (c : Dev nD) : W25 m ρ c (Proc.devRef .tc main_arg21) = m ((c : Thread nD τ).loc main_arg21) :=
  (W25_keep m ρ c main_arg21 (by decide)).trans (W24_arg21 m ρ c)
theorem W26_arg21 (c : Dev nD) : W26 m ρ c (Proc.devRef .tc main_arg21) = m ((c : Thread nD τ).loc main_arg21) :=
  (W26_of_ne m ρ c main_arg21 (by decide)).trans (W25_arg21 m ρ c)
theorem W27_arg21 (c : Dev nD) : W27 m ρ c (Proc.devRef .tc main_arg21) = m ((c : Thread nD τ).loc main_arg21) :=
  (W27_keep m ρ c main_arg21 (by decide)).trans (W26_arg21 m ρ c)
theorem W28_arg21 (c : Dev nD) : W28 m ρ c (Proc.devRef .tc main_arg21) = m ((c : Thread nD τ).loc main_arg21) :=
  (W28_keep m ρ c main_arg21 (by decide)).trans (W27_arg21 m ρ c)
theorem W29_arg21 (c : Dev nD) : W29 m ρ c (Proc.devRef .tc main_arg21) = m ((c : Thread nD τ).loc main_arg21) :=
  (W29_keep m ρ c main_arg21 (by decide)).trans (W28_arg21 m ρ c)
theorem W30_arg21 (c : Dev nD) : W30 m ρ c (Proc.devRef .tc main_arg21) = m ((c : Thread nD τ).loc main_arg21) :=
  (W30_keep m ρ c main_arg21 (by decide)).trans (W29_arg21 m ρ c)
theorem W31_arg21 (c : Dev nD) : W31 m ρ c (Proc.devRef .tc main_arg21) = m ((c : Thread nD τ).loc main_arg21) :=
  (W31_keep m ρ c main_arg21 (by decide)).trans (W30_arg21 m ρ c)
theorem W32_arg21 (c : Dev nD) : W32 m ρ c (Proc.devRef .tc main_arg21) = m ((c : Thread nD τ).loc main_arg21) :=
  (W32_of_ne m ρ c main_arg21 (by decide)).trans (W31_arg21 m ρ c)
theorem W33_arg21 (c : Dev nD) : W33 m ρ c (Proc.devRef .tc main_arg21) = m ((c : Thread nD τ).loc main_arg21) :=
  (W33_keep m ρ c main_arg21 (by decide)).trans (W32_arg21 m ρ c)
theorem W34_arg21 (c : Dev nD) : W34 m ρ c (Proc.devRef .tc main_arg21) = m ((c : Thread nD τ).loc main_arg21) :=
  (W34_keep m ρ c main_arg21 (by decide)).trans (W33_arg21 m ρ c)
theorem W35_arg21 (c : Dev nD) : W35 m ρ c (Proc.devRef .tc main_arg21) = m ((c : Thread nD τ).loc main_arg21) :=
  (W35_keep m ρ c main_arg21 (by decide)).trans (W34_arg21 m ρ c)
theorem W36_arg21 (c : Dev nD) : W36 m ρ c (Proc.devRef .tc main_arg21) = m ((c : Thread nD τ).loc main_arg21) :=
  (W36_keep m ρ c main_arg21 (by decide)).trans (W35_arg21 m ρ c)
theorem W37_arg21 (c : Dev nD) : W37 m ρ c (Proc.devRef .tc main_arg21) = m ((c : Thread nD τ).loc main_arg21) :=
  (W37_keep m ρ c main_arg21 (by decide)).trans (W36_arg21 m ρ c)
theorem W38_arg21 (c : Dev nD) : W38 m ρ c (Proc.devRef .tc main_arg21) = m ((c : Thread nD τ).loc main_arg21) :=
  (W38_of_ne m ρ c main_arg21 (by decide)).trans (W37_arg21 m ρ c)
theorem W39_arg21 (c : Dev nD) : W39 m ρ c (Proc.devRef .tc main_arg21) = m ((c : Thread nD τ).loc main_arg21) :=
  (W39_keep m ρ c main_arg21 (by decide)).trans (W38_arg21 m ρ c)
theorem W40_arg21 (c : Dev nD) : W40 m ρ c (Proc.devRef .tc main_arg21) = m ((c : Thread nD τ).loc main_arg21) :=
  (W40_keep m ρ c main_arg21 (by decide)).trans (W39_arg21 m ρ c)
theorem W41_arg21 (c : Dev nD) : W41 m ρ c (Proc.devRef .tc main_arg21) = m ((c : Thread nD τ).loc main_arg21) :=
  (W41_keep m ρ c main_arg21 (by decide)).trans (W40_arg21 m ρ c)
theorem W42_arg21 (c : Dev nD) : W42 m ρ c (Proc.devRef .tc main_arg21) = m ((c : Thread nD τ).loc main_arg21) :=
  (W42_keep m ρ c main_arg21 (by decide)).trans (W41_arg21 m ρ c)
theorem W43_arg21 (c : Dev nD) : W43 m ρ c (Proc.devRef .tc main_arg21) = m ((c : Thread nD τ).loc main_arg21) :=
  (W43_keep m ρ c main_arg21 (by decide)).trans (W42_arg21 m ρ c)
theorem W44_arg21 (c : Dev nD) : W44 m ρ c (Proc.devRef .tc main_arg21) = m ((c : Thread nD τ).loc main_arg21) :=
  (W44_of_ne m ρ c main_arg21 (by decide)).trans (W43_arg21 m ρ c)
theorem W45_arg21 (c : Dev nD) : W45 m ρ c (Proc.devRef .tc main_arg21) = m ((c : Thread nD τ).loc main_arg21) :=
  (W45_keep m ρ c main_arg21 (by decide)).trans (W44_arg21 m ρ c)
theorem W46_arg21 (c : Dev nD) : W46 m ρ c (Proc.devRef .tc main_arg21) = m ((c : Thread nD τ).loc main_arg21) :=
  (W46_of_ne m ρ c main_arg21 (by decide)).trans (W45_arg21 m ρ c)
theorem W47_arg21 (c : Dev nD) : W47 m ρ c (Proc.devRef .tc main_arg21) = m ((c : Thread nD τ).loc main_arg21) :=
  (W47_keep m ρ c main_arg21 (by decide)).trans (W46_arg21 m ρ c)
theorem W48_arg21 (c : Dev nD) : W48 m ρ c (Proc.devRef .tc main_arg21) = m ((c : Thread nD τ).loc main_arg21) :=
  (W48_of_ne m ρ c main_arg21 (by decide)).trans (W47_arg21 m ρ c)
theorem W49_arg21 (c : Dev nD) : W49 m ρ c (Proc.devRef .tc main_arg21) = m ((c : Thread nD τ).loc main_arg21) :=
  (W49_keep m ρ c main_arg21 (by decide)).trans (W48_arg21 m ρ c)
theorem W50_arg21 (c : Dev nD) : W50 m ρ c (Proc.devRef .tc main_arg21) = m ((c : Thread nD τ).loc main_arg21) :=
  (W50_of_ne m ρ c main_arg21 (by decide)).trans (W49_arg21 m ρ c)
theorem W51_arg21 (c : Dev nD) : W51 m ρ c (Proc.devRef .tc main_arg21) = m ((c : Thread nD τ).loc main_arg21) :=
  (W51_keep m ρ c main_arg21 (by decide)).trans (W50_arg21 m ρ c)
theorem W52_arg21 (c : Dev nD) : W52 m ρ c (Proc.devRef .tc main_arg21) = m ((c : Thread nD τ).loc main_arg21) :=
  (W52_keep m ρ c main_arg21 (by decide)).trans (W51_arg21 m ρ c)
theorem W53_arg21 (c : Dev nD) : W53 m ρ c (Proc.devRef .tc main_arg21) = m ((c : Thread nD τ).loc main_arg21) :=
  (W53_keep m ρ c main_arg21 (by decide)).trans (W52_arg21 m ρ c)
theorem W54_arg21 (c : Dev nD) : W54 m ρ c (Proc.devRef .tc main_arg21) = m ((c : Thread nD τ).loc main_arg21) :=
  (W54_keep m ρ c main_arg21 (by decide)).trans (W53_arg21 m ρ c)
theorem W55_arg21 (c : Dev nD) : W55 m ρ c (Proc.devRef .tc main_arg21) = m ((c : Thread nD τ).loc main_arg21) :=
  (W55_keep m ρ c main_arg21 (by decide)).trans (W54_arg21 m ρ c)
theorem W56_arg21 (c : Dev nD) : W56 m ρ c (Proc.devRef .tc main_arg21) = m ((c : Thread nD τ).loc main_arg21) :=
  (W56_of_ne m ρ c main_arg21 (by decide)).trans (W55_arg21 m ρ c)
theorem W57_arg21 (c : Dev nD) : W57 m ρ c (Proc.devRef .tc main_arg21) = m ((c : Thread nD τ).loc main_arg21) :=
  (W57_keep m ρ c main_arg21 (by decide)).trans (W56_arg21 m ρ c)
theorem W58_arg21 (c : Dev nD) : W58 m ρ c (Proc.devRef .tc main_arg21) = m ((c : Thread nD τ).loc main_arg21) :=
  (W58_keep m ρ c main_arg21 (by decide)).trans (W57_arg21 m ρ c)
theorem W59_arg21 (c : Dev nD) : W59 m ρ c (Proc.devRef .tc main_arg21) = m ((c : Thread nD τ).loc main_arg21) :=
  (W59_keep m ρ c main_arg21 (by decide)).trans (W58_arg21 m ρ c)
theorem W60_arg21 (c : Dev nD) : W60 m ρ c (Proc.devRef .tc main_arg21) = m ((c : Thread nD τ).loc main_arg21) :=
  (W60_keep m ρ c main_arg21 (by decide)).trans (W59_arg21 m ρ c)
theorem W61_arg21 (c : Dev nD) : W61 m ρ c (Proc.devRef .tc main_arg21) = m ((c : Thread nD τ).loc main_arg21) :=
  (W61_keep m ρ c main_arg21 (by decide)).trans (W60_arg21 m ρ c)
theorem W62_arg21 (c : Dev nD) : W62 m ρ c (Proc.devRef .tc main_arg21) = m ((c : Thread nD τ).loc main_arg21) :=
  (W62_of_ne m ρ c main_arg21 (by decide)).trans (W61_arg21 m ρ c)
theorem W63_arg21 (c : Dev nD) : W63 m ρ c (Proc.devRef .tc main_arg21) = m ((c : Thread nD τ).loc main_arg21) :=
  (W63_keep m ρ c main_arg21 (by decide)).trans (W62_arg21 m ρ c)
theorem W64_arg21 (c : Dev nD) : W64 m ρ c (Proc.devRef .tc main_arg21) = m ((c : Thread nD τ).loc main_arg21) :=
  (W64_keep m ρ c main_arg21 (by decide)).trans (W63_arg21 m ρ c)
theorem W65_arg21 (c : Dev nD) : W65 m ρ c (Proc.devRef .tc main_arg21) = m ((c : Thread nD τ).loc main_arg21) :=
  (W65_keep m ρ c main_arg21 (by decide)).trans (W64_arg21 m ρ c)
theorem W66_arg21 (c : Dev nD) : W66 m ρ c (Proc.devRef .tc main_arg21) = m ((c : Thread nD τ).loc main_arg21) :=
  (W66_keep m ρ c main_arg21 (by decide)).trans (W65_arg21 m ρ c)
theorem W67_arg21 (c : Dev nD) : W67 m ρ c (Proc.devRef .tc main_arg21) = m ((c : Thread nD τ).loc main_arg21) :=
  (W67_keep m ρ c main_arg21 (by decide)).trans (W66_arg21 m ρ c)
theorem W68_arg21 (c : Dev nD) : W68 m ρ c (Proc.devRef .tc main_arg21) = m ((c : Thread nD τ).loc main_arg21) :=
  (W68_of_ne m ρ c main_arg21 (by decide)).trans (W67_arg21 m ρ c)
theorem W69_arg21 (c : Dev nD) : W69 m ρ c (Proc.devRef .tc main_arg21) = m ((c : Thread nD τ).loc main_arg21) :=
  (W69_keep m ρ c main_arg21 (by decide)).trans (W68_arg21 m ρ c)
theorem W70_arg21 (c : Dev nD) : W70 m ρ c (Proc.devRef .tc main_arg21) = m ((c : Thread nD τ).loc main_arg21) :=
  (W70_keep m ρ c main_arg21 (by decide)).trans (W69_arg21 m ρ c)
theorem W71_arg21 (c : Dev nD) : W71 m ρ c (Proc.devRef .tc main_arg21) = m ((c : Thread nD τ).loc main_arg21) :=
  (W71_keep m ρ c main_arg21 (by decide)).trans (W70_arg21 m ρ c)
theorem W72_arg21 (c : Dev nD) : W72 m ρ c (Proc.devRef .tc main_arg21) = m ((c : Thread nD τ).loc main_arg21) :=
  (W72_keep m ρ c main_arg21 (by decide)).trans (W71_arg21 m ρ c)
theorem W73_arg21 (c : Dev nD) : W73 m ρ c (Proc.devRef .tc main_arg21) = m ((c : Thread nD τ).loc main_arg21) :=
  (W73_keep m ρ c main_arg21 (by decide)).trans (W72_arg21 m ρ c)
theorem W74_arg21 (c : Dev nD) : W74 m ρ c (Proc.devRef .tc main_arg21) = m ((c : Thread nD τ).loc main_arg21) :=
  (W74_of_ne m ρ c main_arg21 (by decide)).trans (W73_arg21 m ρ c)
theorem W75_arg21 (c : Dev nD) : W75 m ρ c (Proc.devRef .tc main_arg21) = m ((c : Thread nD τ).loc main_arg21) :=
  (W75_keep m ρ c main_arg21 (by decide)).trans (W74_arg21 m ρ c)
theorem W76_arg21 (c : Dev nD) : W76 m ρ c (Proc.devRef .tc main_arg21) = m ((c : Thread nD τ).loc main_arg21) :=
  (W76_keep m ρ c main_arg21 (by decide)).trans (W75_arg21 m ρ c)
theorem W77_arg21 (c : Dev nD) : W77 m ρ c (Proc.devRef .tc main_arg21) = m ((c : Thread nD τ).loc main_arg21) :=
  (W77_keep m ρ c main_arg21 (by decide)).trans (W76_arg21 m ρ c)
theorem W78_arg21 (c : Dev nD) : W78 m ρ c (Proc.devRef .tc main_arg21) = m ((c : Thread nD τ).loc main_arg21) :=
  (W78_keep m ρ c main_arg21 (by decide)).trans (W77_arg21 m ρ c)
theorem W79_arg21 (c : Dev nD) : W79 m ρ c (Proc.devRef .tc main_arg21) = m ((c : Thread nD τ).loc main_arg21) :=
  (W79_keep m ρ c main_arg21 (by decide)).trans (W78_arg21 m ρ c)
theorem W80_arg21 (c : Dev nD) : W80 m ρ c (Proc.devRef .tc main_arg21) = m ((c : Thread nD τ).loc main_arg21) :=
  (W80_of_ne m ρ c main_arg21 (by decide)).trans (W79_arg21 m ρ c)
theorem W81_arg21 (c : Dev nD) : W81 m ρ c (Proc.devRef .tc main_arg21) = m ((c : Thread nD τ).loc main_arg21) :=
  (W81_keep m ρ c main_arg21 (by decide)).trans (W80_arg21 m ρ c)
theorem W82_arg21 (c : Dev nD) : W82 m ρ c (Proc.devRef .tc main_arg21) = m ((c : Thread nD τ).loc main_arg21) :=
  (W82_keep m ρ c main_arg21 (by decide)).trans (W81_arg21 m ρ c)
theorem W83_arg21 (c : Dev nD) : W83 m ρ c (Proc.devRef .tc main_arg21) = m ((c : Thread nD τ).loc main_arg21) :=
  (W83_keep m ρ c main_arg21 (by decide)).trans (W82_arg21 m ρ c)
theorem W84_arg21 (c : Dev nD) : W84 m ρ c (Proc.devRef .tc main_arg21) = m ((c : Thread nD τ).loc main_arg21) :=
  (W84_keep m ρ c main_arg21 (by decide)).trans (W83_arg21 m ρ c)
theorem W85_arg21 (c : Dev nD) : W85 m ρ c (Proc.devRef .tc main_arg21) = m ((c : Thread nD τ).loc main_arg21) :=
  (W85_keep m ρ c main_arg21 (by decide)).trans (W84_arg21 m ρ c)
theorem W86_arg21 (c : Dev nD) : W86 m ρ c (Proc.devRef .tc main_arg21) = m ((c : Thread nD τ).loc main_arg21) :=
  (W86_of_ne m ρ c main_arg21 (by decide)).trans (W85_arg21 m ρ c)
theorem W87_arg21 (c : Dev nD) : W87 m ρ c (Proc.devRef .tc main_arg21) = m ((c : Thread nD τ).loc main_arg21) :=
  (W87_keep m ρ c main_arg21 (by decide)).trans (W86_arg21 m ρ c)
theorem W88_arg21 (c : Dev nD) : W88 m ρ c (Proc.devRef .tc main_arg21) = m ((c : Thread nD τ).loc main_arg21) :=
  (W88_of_ne m ρ c main_arg21 (by decide)).trans (W87_arg21 m ρ c)
theorem W89_arg21 (c : Dev nD) : W89 m ρ c (Proc.devRef .tc main_arg21) = m ((c : Thread nD τ).loc main_arg21) :=
  (W89_keep m ρ c main_arg21 (by decide)).trans (W88_arg21 m ρ c)
theorem W90_arg21 (c : Dev nD) : W90 m ρ c (Proc.devRef .tc main_arg21) = m ((c : Thread nD τ).loc main_arg21) :=
  (W90_of_ne m ρ c main_arg21 (by decide)).trans (W89_arg21 m ρ c)
theorem W0_arg22 (c : Dev nD) : W0 m ρ c (Proc.devRef .tc main_arg22) = m ((c : Thread nD τ).loc main_arg22) := rfl
theorem W1_arg22 (c : Dev nD) : W1 m ρ c (Proc.devRef .tc main_arg22) = m ((c : Thread nD τ).loc main_arg22) :=
  (W1_keep m ρ c main_arg22 (by decide)).trans (W0_arg22 m ρ c)
theorem W2_arg22 (c : Dev nD) : W2 m ρ c (Proc.devRef .tc main_arg22) = m ((c : Thread nD τ).loc main_arg22) :=
  (W2_of_ne m ρ c main_arg22 (by decide)).trans (W1_arg22 m ρ c)
theorem W3_arg22 (c : Dev nD) : W3 m ρ c (Proc.devRef .tc main_arg22) = m ((c : Thread nD τ).loc main_arg22) :=
  (W3_keep m ρ c main_arg22 (by decide)).trans (W2_arg22 m ρ c)
theorem W4_arg22 (c : Dev nD) : W4 m ρ c (Proc.devRef .tc main_arg22) = m ((c : Thread nD τ).loc main_arg22) :=
  (W4_of_ne m ρ c main_arg22 (by decide)).trans (W3_arg22 m ρ c)
theorem W5_arg22 (c : Dev nD) : W5 m ρ c (Proc.devRef .tc main_arg22) = m ((c : Thread nD τ).loc main_arg22) :=
  (W5_keep m ρ c main_arg22 (by decide)).trans (W4_arg22 m ρ c)
theorem W6_arg22 (c : Dev nD) : W6 m ρ c (Proc.devRef .tc main_arg22) = m ((c : Thread nD τ).loc main_arg22) :=
  (W6_of_ne m ρ c main_arg22 (by decide)).trans (W5_arg22 m ρ c)
theorem W7_arg22 (c : Dev nD) : W7 m ρ c (Proc.devRef .tc main_arg22) = m ((c : Thread nD τ).loc main_arg22) :=
  (W7_keep m ρ c main_arg22 (by decide)).trans (W6_arg22 m ρ c)
theorem W8_arg22 (c : Dev nD) : W8 m ρ c (Proc.devRef .tc main_arg22) = m ((c : Thread nD τ).loc main_arg22) :=
  (W8_of_ne m ρ c main_arg22 (by decide)).trans (W7_arg22 m ρ c)
theorem W9_arg22 (c : Dev nD) : W9 m ρ c (Proc.devRef .tc main_arg22) = m ((c : Thread nD τ).loc main_arg22) :=
  (W9_keep m ρ c main_arg22 (by decide)).trans (W8_arg22 m ρ c)
theorem W10_arg22 (c : Dev nD) : W10 m ρ c (Proc.devRef .tc main_arg22) = m ((c : Thread nD τ).loc main_arg22) :=
  (W10_keep m ρ c main_arg22 (by decide)).trans (W9_arg22 m ρ c)
theorem W11_arg22 (c : Dev nD) : W11 m ρ c (Proc.devRef .tc main_arg22) = m ((c : Thread nD τ).loc main_arg22) :=
  (W11_keep m ρ c main_arg22 (by decide)).trans (W10_arg22 m ρ c)
theorem W12_arg22 (c : Dev nD) : W12 m ρ c (Proc.devRef .tc main_arg22) = m ((c : Thread nD τ).loc main_arg22) :=
  (W12_keep m ρ c main_arg22 (by decide)).trans (W11_arg22 m ρ c)
theorem W13_arg22 (c : Dev nD) : W13 m ρ c (Proc.devRef .tc main_arg22) = m ((c : Thread nD τ).loc main_arg22) :=
  (W13_keep m ρ c main_arg22 (by decide)).trans (W12_arg22 m ρ c)
theorem W14_arg22 (c : Dev nD) : W14 m ρ c (Proc.devRef .tc main_arg22) = m ((c : Thread nD τ).loc main_arg22) :=
  (W14_of_ne m ρ c main_arg22 (by decide)).trans (W13_arg22 m ρ c)
theorem W15_arg22 (c : Dev nD) : W15 m ρ c (Proc.devRef .tc main_arg22) = m ((c : Thread nD τ).loc main_arg22) :=
  (W15_keep m ρ c main_arg22 (by decide)).trans (W14_arg22 m ρ c)
theorem W16_arg22 (c : Dev nD) : W16 m ρ c (Proc.devRef .tc main_arg22) = m ((c : Thread nD τ).loc main_arg22) :=
  (W16_keep m ρ c main_arg22 (by decide)).trans (W15_arg22 m ρ c)
theorem W17_arg22 (c : Dev nD) : W17 m ρ c (Proc.devRef .tc main_arg22) = m ((c : Thread nD τ).loc main_arg22) :=
  (W17_keep m ρ c main_arg22 (by decide)).trans (W16_arg22 m ρ c)
theorem W18_arg22 (c : Dev nD) : W18 m ρ c (Proc.devRef .tc main_arg22) = m ((c : Thread nD τ).loc main_arg22) :=
  (W18_keep m ρ c main_arg22 (by decide)).trans (W17_arg22 m ρ c)
theorem W19_arg22 (c : Dev nD) : W19 m ρ c (Proc.devRef .tc main_arg22) = m ((c : Thread nD τ).loc main_arg22) :=
  (W19_keep m ρ c main_arg22 (by decide)).trans (W18_arg22 m ρ c)
theorem W20_arg22 (c : Dev nD) : W20 m ρ c (Proc.devRef .tc main_arg22) = m ((c : Thread nD τ).loc main_arg22) :=
  (W20_of_ne m ρ c main_arg22 (by decide)).trans (W19_arg22 m ρ c)
theorem W21_arg22 (c : Dev nD) : W21 m ρ c (Proc.devRef .tc main_arg22) = m ((c : Thread nD τ).loc main_arg22) :=
  (W21_keep m ρ c main_arg22 (by decide)).trans (W20_arg22 m ρ c)
theorem W22_arg22 (c : Dev nD) : W22 m ρ c (Proc.devRef .tc main_arg22) = m ((c : Thread nD τ).loc main_arg22) :=
  (W22_keep m ρ c main_arg22 (by decide)).trans (W21_arg22 m ρ c)
theorem W23_arg22 (c : Dev nD) : W23 m ρ c (Proc.devRef .tc main_arg22) = m ((c : Thread nD τ).loc main_arg22) :=
  (W23_keep m ρ c main_arg22 (by decide)).trans (W22_arg22 m ρ c)
theorem W24_arg22 (c : Dev nD) : W24 m ρ c (Proc.devRef .tc main_arg22) = m ((c : Thread nD τ).loc main_arg22) :=
  (W24_keep m ρ c main_arg22 (by decide)).trans (W23_arg22 m ρ c)
theorem W25_arg22 (c : Dev nD) : W25 m ρ c (Proc.devRef .tc main_arg22) = m ((c : Thread nD τ).loc main_arg22) :=
  (W25_keep m ρ c main_arg22 (by decide)).trans (W24_arg22 m ρ c)
theorem W26_arg22 (c : Dev nD) : W26 m ρ c (Proc.devRef .tc main_arg22) = m ((c : Thread nD τ).loc main_arg22) :=
  (W26_of_ne m ρ c main_arg22 (by decide)).trans (W25_arg22 m ρ c)
theorem W27_arg22 (c : Dev nD) : W27 m ρ c (Proc.devRef .tc main_arg22) = m ((c : Thread nD τ).loc main_arg22) :=
  (W27_keep m ρ c main_arg22 (by decide)).trans (W26_arg22 m ρ c)
theorem W28_arg22 (c : Dev nD) : W28 m ρ c (Proc.devRef .tc main_arg22) = m ((c : Thread nD τ).loc main_arg22) :=
  (W28_keep m ρ c main_arg22 (by decide)).trans (W27_arg22 m ρ c)
theorem W29_arg22 (c : Dev nD) : W29 m ρ c (Proc.devRef .tc main_arg22) = m ((c : Thread nD τ).loc main_arg22) :=
  (W29_keep m ρ c main_arg22 (by decide)).trans (W28_arg22 m ρ c)
theorem W30_arg22 (c : Dev nD) : W30 m ρ c (Proc.devRef .tc main_arg22) = m ((c : Thread nD τ).loc main_arg22) :=
  (W30_keep m ρ c main_arg22 (by decide)).trans (W29_arg22 m ρ c)
theorem W31_arg22 (c : Dev nD) : W31 m ρ c (Proc.devRef .tc main_arg22) = m ((c : Thread nD τ).loc main_arg22) :=
  (W31_keep m ρ c main_arg22 (by decide)).trans (W30_arg22 m ρ c)
theorem W32_arg22 (c : Dev nD) : W32 m ρ c (Proc.devRef .tc main_arg22) = m ((c : Thread nD τ).loc main_arg22) :=
  (W32_of_ne m ρ c main_arg22 (by decide)).trans (W31_arg22 m ρ c)
theorem W33_arg22 (c : Dev nD) : W33 m ρ c (Proc.devRef .tc main_arg22) = m ((c : Thread nD τ).loc main_arg22) :=
  (W33_keep m ρ c main_arg22 (by decide)).trans (W32_arg22 m ρ c)
theorem W34_arg22 (c : Dev nD) : W34 m ρ c (Proc.devRef .tc main_arg22) = m ((c : Thread nD τ).loc main_arg22) :=
  (W34_keep m ρ c main_arg22 (by decide)).trans (W33_arg22 m ρ c)
theorem W35_arg22 (c : Dev nD) : W35 m ρ c (Proc.devRef .tc main_arg22) = m ((c : Thread nD τ).loc main_arg22) :=
  (W35_keep m ρ c main_arg22 (by decide)).trans (W34_arg22 m ρ c)
theorem W36_arg22 (c : Dev nD) : W36 m ρ c (Proc.devRef .tc main_arg22) = m ((c : Thread nD τ).loc main_arg22) :=
  (W36_keep m ρ c main_arg22 (by decide)).trans (W35_arg22 m ρ c)
theorem W37_arg22 (c : Dev nD) : W37 m ρ c (Proc.devRef .tc main_arg22) = m ((c : Thread nD τ).loc main_arg22) :=
  (W37_keep m ρ c main_arg22 (by decide)).trans (W36_arg22 m ρ c)
theorem W38_arg22 (c : Dev nD) : W38 m ρ c (Proc.devRef .tc main_arg22) = m ((c : Thread nD τ).loc main_arg22) :=
  (W38_of_ne m ρ c main_arg22 (by decide)).trans (W37_arg22 m ρ c)
theorem W39_arg22 (c : Dev nD) : W39 m ρ c (Proc.devRef .tc main_arg22) = m ((c : Thread nD τ).loc main_arg22) :=
  (W39_keep m ρ c main_arg22 (by decide)).trans (W38_arg22 m ρ c)
theorem W40_arg22 (c : Dev nD) : W40 m ρ c (Proc.devRef .tc main_arg22) = m ((c : Thread nD τ).loc main_arg22) :=
  (W40_keep m ρ c main_arg22 (by decide)).trans (W39_arg22 m ρ c)
theorem W41_arg22 (c : Dev nD) : W41 m ρ c (Proc.devRef .tc main_arg22) = m ((c : Thread nD τ).loc main_arg22) :=
  (W41_keep m ρ c main_arg22 (by decide)).trans (W40_arg22 m ρ c)
theorem W42_arg22 (c : Dev nD) : W42 m ρ c (Proc.devRef .tc main_arg22) = m ((c : Thread nD τ).loc main_arg22) :=
  (W42_keep m ρ c main_arg22 (by decide)).trans (W41_arg22 m ρ c)
theorem W43_arg22 (c : Dev nD) : W43 m ρ c (Proc.devRef .tc main_arg22) = m ((c : Thread nD τ).loc main_arg22) :=
  (W43_keep m ρ c main_arg22 (by decide)).trans (W42_arg22 m ρ c)
theorem W44_arg22 (c : Dev nD) : W44 m ρ c (Proc.devRef .tc main_arg22) = m ((c : Thread nD τ).loc main_arg22) :=
  (W44_of_ne m ρ c main_arg22 (by decide)).trans (W43_arg22 m ρ c)
theorem W45_arg22 (c : Dev nD) : W45 m ρ c (Proc.devRef .tc main_arg22) = m ((c : Thread nD τ).loc main_arg22) :=
  (W45_keep m ρ c main_arg22 (by decide)).trans (W44_arg22 m ρ c)
theorem W46_arg22 (c : Dev nD) : W46 m ρ c (Proc.devRef .tc main_arg22) = m ((c : Thread nD τ).loc main_arg22) :=
  (W46_of_ne m ρ c main_arg22 (by decide)).trans (W45_arg22 m ρ c)
theorem W47_arg22 (c : Dev nD) : W47 m ρ c (Proc.devRef .tc main_arg22) = m ((c : Thread nD τ).loc main_arg22) :=
  (W47_keep m ρ c main_arg22 (by decide)).trans (W46_arg22 m ρ c)
theorem W48_arg22 (c : Dev nD) : W48 m ρ c (Proc.devRef .tc main_arg22) = m ((c : Thread nD τ).loc main_arg22) :=
  (W48_of_ne m ρ c main_arg22 (by decide)).trans (W47_arg22 m ρ c)
theorem W49_arg22 (c : Dev nD) : W49 m ρ c (Proc.devRef .tc main_arg22) = m ((c : Thread nD τ).loc main_arg22) :=
  (W49_keep m ρ c main_arg22 (by decide)).trans (W48_arg22 m ρ c)
theorem W50_arg22 (c : Dev nD) : W50 m ρ c (Proc.devRef .tc main_arg22) = m ((c : Thread nD τ).loc main_arg22) :=
  (W50_of_ne m ρ c main_arg22 (by decide)).trans (W49_arg22 m ρ c)
theorem W51_arg22 (c : Dev nD) : W51 m ρ c (Proc.devRef .tc main_arg22) = m ((c : Thread nD τ).loc main_arg22) :=
  (W51_keep m ρ c main_arg22 (by decide)).trans (W50_arg22 m ρ c)
theorem W52_arg22 (c : Dev nD) : W52 m ρ c (Proc.devRef .tc main_arg22) = m ((c : Thread nD τ).loc main_arg22) :=
  (W52_keep m ρ c main_arg22 (by decide)).trans (W51_arg22 m ρ c)
theorem W53_arg22 (c : Dev nD) : W53 m ρ c (Proc.devRef .tc main_arg22) = m ((c : Thread nD τ).loc main_arg22) :=
  (W53_keep m ρ c main_arg22 (by decide)).trans (W52_arg22 m ρ c)
theorem W54_arg22 (c : Dev nD) : W54 m ρ c (Proc.devRef .tc main_arg22) = m ((c : Thread nD τ).loc main_arg22) :=
  (W54_keep m ρ c main_arg22 (by decide)).trans (W53_arg22 m ρ c)
theorem W55_arg22 (c : Dev nD) : W55 m ρ c (Proc.devRef .tc main_arg22) = m ((c : Thread nD τ).loc main_arg22) :=
  (W55_keep m ρ c main_arg22 (by decide)).trans (W54_arg22 m ρ c)
theorem W56_arg22 (c : Dev nD) : W56 m ρ c (Proc.devRef .tc main_arg22) = m ((c : Thread nD τ).loc main_arg22) :=
  (W56_of_ne m ρ c main_arg22 (by decide)).trans (W55_arg22 m ρ c)
theorem W57_arg22 (c : Dev nD) : W57 m ρ c (Proc.devRef .tc main_arg22) = m ((c : Thread nD τ).loc main_arg22) :=
  (W57_keep m ρ c main_arg22 (by decide)).trans (W56_arg22 m ρ c)
theorem W58_arg22 (c : Dev nD) : W58 m ρ c (Proc.devRef .tc main_arg22) = m ((c : Thread nD τ).loc main_arg22) :=
  (W58_keep m ρ c main_arg22 (by decide)).trans (W57_arg22 m ρ c)
theorem W59_arg22 (c : Dev nD) : W59 m ρ c (Proc.devRef .tc main_arg22) = m ((c : Thread nD τ).loc main_arg22) :=
  (W59_keep m ρ c main_arg22 (by decide)).trans (W58_arg22 m ρ c)
theorem W60_arg22 (c : Dev nD) : W60 m ρ c (Proc.devRef .tc main_arg22) = m ((c : Thread nD τ).loc main_arg22) :=
  (W60_keep m ρ c main_arg22 (by decide)).trans (W59_arg22 m ρ c)
theorem W61_arg22 (c : Dev nD) : W61 m ρ c (Proc.devRef .tc main_arg22) = m ((c : Thread nD τ).loc main_arg22) :=
  (W61_keep m ρ c main_arg22 (by decide)).trans (W60_arg22 m ρ c)
theorem W62_arg22 (c : Dev nD) : W62 m ρ c (Proc.devRef .tc main_arg22) = m ((c : Thread nD τ).loc main_arg22) :=
  (W62_of_ne m ρ c main_arg22 (by decide)).trans (W61_arg22 m ρ c)
theorem W63_arg22 (c : Dev nD) : W63 m ρ c (Proc.devRef .tc main_arg22) = m ((c : Thread nD τ).loc main_arg22) :=
  (W63_keep m ρ c main_arg22 (by decide)).trans (W62_arg22 m ρ c)
theorem W64_arg22 (c : Dev nD) : W64 m ρ c (Proc.devRef .tc main_arg22) = m ((c : Thread nD τ).loc main_arg22) :=
  (W64_keep m ρ c main_arg22 (by decide)).trans (W63_arg22 m ρ c)
theorem W65_arg22 (c : Dev nD) : W65 m ρ c (Proc.devRef .tc main_arg22) = m ((c : Thread nD τ).loc main_arg22) :=
  (W65_keep m ρ c main_arg22 (by decide)).trans (W64_arg22 m ρ c)
theorem W66_arg22 (c : Dev nD) : W66 m ρ c (Proc.devRef .tc main_arg22) = m ((c : Thread nD τ).loc main_arg22) :=
  (W66_keep m ρ c main_arg22 (by decide)).trans (W65_arg22 m ρ c)
theorem W67_arg22 (c : Dev nD) : W67 m ρ c (Proc.devRef .tc main_arg22) = m ((c : Thread nD τ).loc main_arg22) :=
  (W67_keep m ρ c main_arg22 (by decide)).trans (W66_arg22 m ρ c)
theorem W68_arg22 (c : Dev nD) : W68 m ρ c (Proc.devRef .tc main_arg22) = m ((c : Thread nD τ).loc main_arg22) :=
  (W68_of_ne m ρ c main_arg22 (by decide)).trans (W67_arg22 m ρ c)
theorem W69_arg22 (c : Dev nD) : W69 m ρ c (Proc.devRef .tc main_arg22) = m ((c : Thread nD τ).loc main_arg22) :=
  (W69_keep m ρ c main_arg22 (by decide)).trans (W68_arg22 m ρ c)
theorem W70_arg22 (c : Dev nD) : W70 m ρ c (Proc.devRef .tc main_arg22) = m ((c : Thread nD τ).loc main_arg22) :=
  (W70_keep m ρ c main_arg22 (by decide)).trans (W69_arg22 m ρ c)
theorem W71_arg22 (c : Dev nD) : W71 m ρ c (Proc.devRef .tc main_arg22) = m ((c : Thread nD τ).loc main_arg22) :=
  (W71_keep m ρ c main_arg22 (by decide)).trans (W70_arg22 m ρ c)
theorem W72_arg22 (c : Dev nD) : W72 m ρ c (Proc.devRef .tc main_arg22) = m ((c : Thread nD τ).loc main_arg22) :=
  (W72_keep m ρ c main_arg22 (by decide)).trans (W71_arg22 m ρ c)
theorem W73_arg22 (c : Dev nD) : W73 m ρ c (Proc.devRef .tc main_arg22) = m ((c : Thread nD τ).loc main_arg22) :=
  (W73_keep m ρ c main_arg22 (by decide)).trans (W72_arg22 m ρ c)
theorem W74_arg22 (c : Dev nD) : W74 m ρ c (Proc.devRef .tc main_arg22) = m ((c : Thread nD τ).loc main_arg22) :=
  (W74_of_ne m ρ c main_arg22 (by decide)).trans (W73_arg22 m ρ c)
theorem W75_arg22 (c : Dev nD) : W75 m ρ c (Proc.devRef .tc main_arg22) = m ((c : Thread nD τ).loc main_arg22) :=
  (W75_keep m ρ c main_arg22 (by decide)).trans (W74_arg22 m ρ c)
theorem W76_arg22 (c : Dev nD) : W76 m ρ c (Proc.devRef .tc main_arg22) = m ((c : Thread nD τ).loc main_arg22) :=
  (W76_keep m ρ c main_arg22 (by decide)).trans (W75_arg22 m ρ c)
theorem W77_arg22 (c : Dev nD) : W77 m ρ c (Proc.devRef .tc main_arg22) = m ((c : Thread nD τ).loc main_arg22) :=
  (W77_keep m ρ c main_arg22 (by decide)).trans (W76_arg22 m ρ c)
theorem W78_arg22 (c : Dev nD) : W78 m ρ c (Proc.devRef .tc main_arg22) = m ((c : Thread nD τ).loc main_arg22) :=
  (W78_keep m ρ c main_arg22 (by decide)).trans (W77_arg22 m ρ c)
theorem W79_arg22 (c : Dev nD) : W79 m ρ c (Proc.devRef .tc main_arg22) = m ((c : Thread nD τ).loc main_arg22) :=
  (W79_keep m ρ c main_arg22 (by decide)).trans (W78_arg22 m ρ c)
theorem W80_arg22 (c : Dev nD) : W80 m ρ c (Proc.devRef .tc main_arg22) = m ((c : Thread nD τ).loc main_arg22) :=
  (W80_of_ne m ρ c main_arg22 (by decide)).trans (W79_arg22 m ρ c)
theorem W81_arg22 (c : Dev nD) : W81 m ρ c (Proc.devRef .tc main_arg22) = m ((c : Thread nD τ).loc main_arg22) :=
  (W81_keep m ρ c main_arg22 (by decide)).trans (W80_arg22 m ρ c)
theorem W82_arg22 (c : Dev nD) : W82 m ρ c (Proc.devRef .tc main_arg22) = m ((c : Thread nD τ).loc main_arg22) :=
  (W82_keep m ρ c main_arg22 (by decide)).trans (W81_arg22 m ρ c)
theorem W83_arg22 (c : Dev nD) : W83 m ρ c (Proc.devRef .tc main_arg22) = m ((c : Thread nD τ).loc main_arg22) :=
  (W83_keep m ρ c main_arg22 (by decide)).trans (W82_arg22 m ρ c)
theorem W84_arg22 (c : Dev nD) : W84 m ρ c (Proc.devRef .tc main_arg22) = m ((c : Thread nD τ).loc main_arg22) :=
  (W84_keep m ρ c main_arg22 (by decide)).trans (W83_arg22 m ρ c)
theorem W85_arg22 (c : Dev nD) : W85 m ρ c (Proc.devRef .tc main_arg22) = m ((c : Thread nD τ).loc main_arg22) :=
  (W85_keep m ρ c main_arg22 (by decide)).trans (W84_arg22 m ρ c)
theorem W86_arg22 (c : Dev nD) : W86 m ρ c (Proc.devRef .tc main_arg22) = m ((c : Thread nD τ).loc main_arg22) :=
  (W86_of_ne m ρ c main_arg22 (by decide)).trans (W85_arg22 m ρ c)
theorem W87_arg22 (c : Dev nD) : W87 m ρ c (Proc.devRef .tc main_arg22) = m ((c : Thread nD τ).loc main_arg22) :=
  (W87_keep m ρ c main_arg22 (by decide)).trans (W86_arg22 m ρ c)
theorem W88_arg22 (c : Dev nD) : W88 m ρ c (Proc.devRef .tc main_arg22) = m ((c : Thread nD τ).loc main_arg22) :=
  (W88_of_ne m ρ c main_arg22 (by decide)).trans (W87_arg22 m ρ c)
theorem W89_arg22 (c : Dev nD) : W89 m ρ c (Proc.devRef .tc main_arg22) = m ((c : Thread nD τ).loc main_arg22) :=
  (W89_keep m ρ c main_arg22 (by decide)).trans (W88_arg22 m ρ c)
theorem W90_arg22 (c : Dev nD) : W90 m ρ c (Proc.devRef .tc main_arg22) = m ((c : Thread nD τ).loc main_arg22) :=
  (W90_of_ne m ρ c main_arg22 (by decide)).trans (W89_arg22 m ρ c)

end Cert.Kernel.Hand

end
-- ==== Proof.KFoldK.Args.lean ====
/- Every argument array at every boundary of the fold holds its launch contents: the three parts together
   (`W<j>_arg<k>`, j = 0 .. 90, k = 0 .. 22). -/
import proofs.«147021_j7619271983570_1_alg».proof.Proof.KFoldK.Args0
import proofs.«147021_j7619271983570_1_alg».proof.Proof.KFoldK.Args1
import proofs.«147021_j7619271983570_1_alg».proof.Proof.KFoldK.Args2
-- ==== Proof.KFold.Writes.lean ====
/- What each host stretch of the kernel program writes: the result buffer of each of its operations, as a literal list
   of references, and that every operation's written set lies in that list. -/
import proofs.«147021_j7619271983570_1_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- The references the operations of `hostOps0` write. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  all_goals exact List.mem_map_of_mem (by decide)
/-- The references the operations of `hostOps1` write. -/
abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  all_goals exact List.mem_map_of_mem (by decide)
/-- The references the operations of `hostOps2` write. -/
abbrev hostOps2_W : List (Ref sig .tc) := [main_v4]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  all_goals exact List.mem_map_of_mem (by decide)
/-- The references the operations of `hostOps3` write. -/
abbrev hostOps3_W : List (Ref sig .tc) := [main_cst, main_v6, main_cst_0, main_v7, main_cst_1, main_v8, main_cst_2, main_v9, main_v10, main_v11, main_v12]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4` write. -/
abbrev hostOps4_W : List (Ref sig .tc) := [main_v14, main_v15, main_v16, main_v17, main_v18, main_v19, main_cst_3, main_v20, main_cst_4, main_v21, main_v22, main_v23, main_cst_5, main_v24, main_v25, main_v26, main_cst_6, main_v27, main_v28, main_cst_7, main_v29, main_v30, main_v31, main_cst_8]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4_1` write. -/
abbrev hostOps4_1_W : List (Ref sig .tc) := [main_call0_v0, main_call0_v1, main_v32]
theorem hostOps4_1_writes : (hostOps4_1 : List (HloOp τ sig (Elt F))).Forall fun op => op.writes ⊆ (hostOps4_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4_2` write. -/
abbrev hostOps4_2_W : List (Ref sig .tc) := [main_cst_9, main_v33, main_v34, main_cst_10, main_v35, main_v36, main_v37, main_cst_11]
theorem hostOps4_2_writes : (hostOps4_2 : List (HloOp τ sig (Elt F))).Forall fun op => op.writes ⊆ (hostOps4_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4_3` write. -/
abbrev hostOps4_3_W : List (Ref sig .tc) := [main_call1_v0, main_call1_v1, main_v38]
theorem hostOps4_3_writes : (hostOps4_3 : List (HloOp τ sig (Elt F))).Forall fun op => op.writes ⊆ (hostOps4_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps4_4` write. -/
abbrev hostOps4_4_W : List (Ref sig .tc) := [main_c, main_v39, main_v40, main_c_12, main_v41, main_v42, main_v43, main_v44, main_v45, main_c_13, main_v46, main_v47, main_c_14, main_v48, main_v49, main_v50, main_v51, main_v52, main_v53, main_c_15, main_v54, main_v55, main_c_16, main_v56, main_v57, main_v58, main_v59, main_v60, main_v61, main_v62, main_v63, main_cst_17, main_v64, main_v65, main_v66, main_v67, main_v68, main_v69, main_v70, main_cst_18, main_v71, main_v72, main_v73, main_v74]
theorem hostOps4_4_writes : (hostOps4_4 : List (HloOp τ sig (Elt F))).Forall fun op => op.writes ⊆ (hostOps4_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5` write. -/
abbrev hostOps5_W : List (Ref sig .tc) := [main_v76, main_v77, main_v78, main_v79, main_v80, main_v81, main_cst_19, main_v82, main_cst_20, main_v83, main_v84, main_v85, main_cst_21, main_v86, main_v87, main_v88, main_cst_22, main_v89, main_v90, main_cst_23, main_v91, main_v92, main_v93, main_cst_24]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5_1` write. -/
abbrev hostOps5_1_W : List (Ref sig .tc) := [main_call2_v0, main_call2_v1, main_v94]
theorem hostOps5_1_writes : (hostOps5_1 : List (HloOp τ sig (Elt F))).Forall fun op => op.writes ⊆ (hostOps5_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5_2` write. -/
abbrev hostOps5_2_W : List (Ref sig .tc) := [main_cst_25, main_v95, main_v96, main_cst_26, main_v97, main_v98, main_v99, main_cst_27]
theorem hostOps5_2_writes : (hostOps5_2 : List (HloOp τ sig (Elt F))).Forall fun op => op.writes ⊆ (hostOps5_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5_3` write. -/
abbrev hostOps5_3_W : List (Ref sig .tc) := [main_call3_v0, main_call3_v1, main_v100]
theorem hostOps5_3_writes : (hostOps5_3 : List (HloOp τ sig (Elt F))).Forall fun op => op.writes ⊆ (hostOps5_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps5_4` write. -/
abbrev hostOps5_4_W : List (Ref sig .tc) := [main_c_28, main_v101, main_v102, main_c_29, main_v103, main_v104, main_v105, main_v106, main_v107, main_c_30, main_v108, main_v109, main_c_31, main_v110, main_v111, main_v112, main_v113, main_v114, main_v115, main_c_32, main_v116, main_v117, main_c_33, main_v118, main_v119, main_v120, main_v121, main_v122, main_v123, main_v124, main_v125, main_cst_34, main_v126, main_v127, main_v128, main_v129, main_v130, main_v131, main_v132, main_cst_35, main_v133, main_v134, main_v135, main_v136]
theorem hostOps5_4_writes : (hostOps5_4 : List (HloOp τ sig (Elt F))).Forall fun op => op.writes ⊆ (hostOps5_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6` write. -/
abbrev hostOps6_W : List (Ref sig .tc) := [main_v138, main_v139, main_v140, main_v141, main_v142, main_v143, main_cst_36, main_v144, main_cst_37, main_v145, main_v146, main_v147, main_cst_38, main_v148, main_v149, main_v150, main_cst_39, main_v151, main_v152, main_cst_40, main_v153, main_v154, main_v155, main_cst_41]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6_1` write. -/
abbrev hostOps6_1_W : List (Ref sig .tc) := [main_call4_v0, main_call4_v1, main_v156]
theorem hostOps6_1_writes : (hostOps6_1 : List (HloOp τ sig (Elt F))).Forall fun op => op.writes ⊆ (hostOps6_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6_2` write. -/
abbrev hostOps6_2_W : List (Ref sig .tc) := [main_cst_42, main_v157, main_v158, main_cst_43, main_v159, main_v160, main_v161, main_cst_44]
theorem hostOps6_2_writes : (hostOps6_2 : List (HloOp τ sig (Elt F))).Forall fun op => op.writes ⊆ (hostOps6_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6_3` write. -/
abbrev hostOps6_3_W : List (Ref sig .tc) := [main_call5_v0, main_call5_v1, main_v162]
theorem hostOps6_3_writes : (hostOps6_3 : List (HloOp τ sig (Elt F))).Forall fun op => op.writes ⊆ (hostOps6_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps6_4` write. -/
abbrev hostOps6_4_W : List (Ref sig .tc) := [main_c_45, main_v163, main_v164, main_c_46, main_v165, main_v166, main_v167, main_v168, main_v169, main_c_47, main_v170, main_v171, main_c_48, main_v172, main_v173, main_v174, main_v175, main_v176, main_v177, main_c_49, main_v178, main_v179, main_c_50, main_v180, main_v181, main_v182, main_v183, main_v184, main_v185, main_v186, main_v187, main_cst_51, main_v188, main_v189, main_v190, main_v191, main_v192, main_v193, main_v194, main_cst_52, main_v195, main_v196, main_v197, main_v198]
theorem hostOps6_4_writes : (hostOps6_4 : List (HloOp τ sig (Elt F))).Forall fun op => op.writes ⊆ (hostOps6_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7` write. -/
abbrev hostOps7_W : List (Ref sig .tc) := [main_v200, main_v201, main_v202, main_v203, main_v204, main_v205, main_cst_53, main_v206, main_cst_54, main_v207, main_v208, main_v209, main_cst_55, main_v210, main_v211, main_v212, main_cst_56, main_v213, main_v214, main_cst_57, main_v215, main_v216, main_v217, main_cst_58]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7_1` write. -/
abbrev hostOps7_1_W : List (Ref sig .tc) := [main_call6_v0, main_call6_v1, main_v218]
theorem hostOps7_1_writes : (hostOps7_1 : List (HloOp τ sig (Elt F))).Forall fun op => op.writes ⊆ (hostOps7_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7_2` write. -/
abbrev hostOps7_2_W : List (Ref sig .tc) := [main_cst_59, main_v219, main_v220, main_cst_60, main_v221, main_v222, main_v223, main_cst_61]
theorem hostOps7_2_writes : (hostOps7_2 : List (HloOp τ sig (Elt F))).Forall fun op => op.writes ⊆ (hostOps7_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7_3` write. -/
abbrev hostOps7_3_W : List (Ref sig .tc) := [main_call7_v0, main_call7_v1, main_v224]
theorem hostOps7_3_writes : (hostOps7_3 : List (HloOp τ sig (Elt F))).Forall fun op => op.writes ⊆ (hostOps7_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps7_4` write. -/
abbrev hostOps7_4_W : List (Ref sig .tc) := [main_c_62, main_v225, main_v226, main_c_63, main_v227, main_v228, main_v229, main_v230, main_v231, main_c_64, main_v232, main_v233, main_c_65, main_v234, main_v235, main_v236, main_v237, main_v238, main_v239, main_c_66, main_v240, main_v241, main_c_67, main_v242, main_v243, main_v244, main_v245, main_v246, main_v247, main_v248, main_v249, main_cst_68, main_v250, main_v251, main_v252, main_v253, main_v254, main_v255, main_v256, main_cst_69, main_v257, main_v258, main_v259, main_v260]
theorem hostOps7_4_writes : (hostOps7_4 : List (HloOp τ sig (Elt F))).Forall fun op => op.writes ⊆ (hostOps7_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8` write. -/
abbrev hostOps8_W : List (Ref sig .tc) := [main_v262, main_v263, main_v264, main_v265, main_v266, main_v267, main_cst_70, main_v268, main_cst_71, main_v269, main_v270, main_v271, main_cst_72, main_v272, main_v273, main_v274, main_cst_73, main_v275, main_v276, main_cst_74, main_v277, main_v278, main_v279, main_cst_75]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8_1` write. -/
abbrev hostOps8_1_W : List (Ref sig .tc) := [main_call8_v0, main_call8_v1, main_v280]
theorem hostOps8_1_writes : (hostOps8_1 : List (HloOp τ sig (Elt F))).Forall fun op => op.writes ⊆ (hostOps8_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8_2` write. -/
abbrev hostOps8_2_W : List (Ref sig .tc) := [main_cst_76, main_v281, main_v282, main_cst_77, main_v283, main_v284, main_v285, main_cst_78]
theorem hostOps8_2_writes : (hostOps8_2 : List (HloOp τ sig (Elt F))).Forall fun op => op.writes ⊆ (hostOps8_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8_3` write. -/
abbrev hostOps8_3_W : List (Ref sig .tc) := [main_call9_v0, main_call9_v1, main_v286]
theorem hostOps8_3_writes : (hostOps8_3 : List (HloOp τ sig (Elt F))).Forall fun op => op.writes ⊆ (hostOps8_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps8_4` write. -/
abbrev hostOps8_4_W : List (Ref sig .tc) := [main_c_79, main_v287, main_v288, main_c_80, main_v289, main_v290, main_v291, main_v292, main_v293, main_c_81, main_v294, main_v295, main_c_82, main_v296, main_v297, main_v298, main_v299, main_v300, main_v301, main_c_83, main_v302, main_v303, main_c_84, main_v304, main_v305, main_v306, main_v307, main_v308, main_v309, main_v310, main_v311, main_cst_85, main_v312, main_v313, main_v314, main_v315, main_v316, main_v317, main_v318, main_cst_86, main_v319, main_v320, main_v321, main_v322]
theorem hostOps8_4_writes : (hostOps8_4 : List (HloOp τ sig (Elt F))).Forall fun op => op.writes ⊆ (hostOps8_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9` write. -/
abbrev hostOps9_W : List (Ref sig .tc) := [main_v324, main_v325, main_v326, main_v327, main_v328, main_v329, main_cst_87, main_v330, main_cst_88, main_v331, main_v332, main_v333, main_cst_89, main_v334, main_v335, main_v336, main_cst_90, main_v337, main_v338, main_cst_91, main_v339, main_v340, main_v341, main_cst_92]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9_1` write. -/
abbrev hostOps9_1_W : List (Ref sig .tc) := [main_call10_v0, main_call10_v1, main_v342]
theorem hostOps9_1_writes : (hostOps9_1 : List (HloOp τ sig (Elt F))).Forall fun op => op.writes ⊆ (hostOps9_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9_2` write. -/
abbrev hostOps9_2_W : List (Ref sig .tc) := [main_cst_93, main_v343, main_v344, main_cst_94, main_v345, main_v346, main_v347, main_cst_95]
theorem hostOps9_2_writes : (hostOps9_2 : List (HloOp τ sig (Elt F))).Forall fun op => op.writes ⊆ (hostOps9_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9_3` write. -/
abbrev hostOps9_3_W : List (Ref sig .tc) := [main_call11_v0, main_call11_v1, main_v348]
theorem hostOps9_3_writes : (hostOps9_3 : List (HloOp τ sig (Elt F))).Forall fun op => op.writes ⊆ (hostOps9_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps9_4` write. -/
abbrev hostOps9_4_W : List (Ref sig .tc) := [main_c_96, main_v349, main_v350, main_c_97, main_v351, main_v352, main_v353, main_v354, main_v355, main_c_98, main_v356, main_v357, main_c_99, main_v358, main_v359, main_v360, main_v361, main_v362, main_v363, main_c_100, main_v364, main_v365, main_c_101, main_v366, main_v367, main_v368, main_v369, main_v370, main_v371, main_v372, main_v373, main_cst_102, main_v374, main_v375, main_v376, main_v377, main_v378, main_v379, main_v380, main_v381, main_v382, main_v383, main_v384, main_v385, main_v386]
theorem hostOps9_4_writes : (hostOps9_4 : List (HloOp τ sig (Elt F))).Forall fun op => op.writes ⊆ (hostOps9_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps10` write. -/
abbrev hostOps10_W : List (Ref sig .tc) := [main_v388, main_v389, main_v390, main_v391, main_v392, main_v393]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps11` write. -/
abbrev hostOps11_W : List (Ref sig .tc) := [main_v395, main_v396, main_v397, main_v398, main_v399, main_v400]
theorem hostOps11_writes : (hostOps11 : List (HloOp τ sig (Elt F))).Forall fun op => op.writes ⊆ (hostOps11_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps12` write. -/
abbrev hostOps12_W : List (Ref sig .tc) := [main_cst_103, main_v402, main_cst_104, main_v403, main_cst_105, main_v404, main_cst_106, main_v405, main_v406, main_v407, main_v408]
theorem hostOps12_writes : (hostOps12 : List (HloOp τ sig (Elt F))).Forall fun op => op.writes ⊆ (hostOps12_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13` write. -/
abbrev hostOps13_W : List (Ref sig .tc) := [main_v410, main_v411, main_v412, main_v413, main_v414, main_v415, main_cst_107, main_v416, main_cst_108, main_v417, main_v418, main_v419, main_cst_109, main_v420, main_v421, main_v422, main_cst_110, main_v423, main_v424, main_cst_111, main_v425, main_v426, main_v427, main_cst_112]
theorem hostOps13_writes : (hostOps13 : List (HloOp τ sig (Elt F))).Forall fun op => op.writes ⊆ (hostOps13_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13_1` write. -/
abbrev hostOps13_1_W : List (Ref sig .tc) := [main_call12_v0, main_call12_v1, main_v428]
theorem hostOps13_1_writes : (hostOps13_1 : List (HloOp τ sig (Elt F))).Forall fun op => op.writes ⊆ (hostOps13_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13_2` write. -/
abbrev hostOps13_2_W : List (Ref sig .tc) := [main_cst_113, main_v429, main_v430, main_cst_114, main_v431, main_v432, main_v433, main_cst_115]
theorem hostOps13_2_writes : (hostOps13_2 : List (HloOp τ sig (Elt F))).Forall fun op => op.writes ⊆ (hostOps13_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13_3` write. -/
abbrev hostOps13_3_W : List (Ref sig .tc) := [main_call13_v0, main_call13_v1, main_v434]
theorem hostOps13_3_writes : (hostOps13_3 : List (HloOp τ sig (Elt F))).Forall fun op => op.writes ⊆ (hostOps13_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps13_4` write. -/
abbrev hostOps13_4_W : List (Ref sig .tc) := [main_c_116, main_v435, main_v436, main_c_117, main_v437, main_v438, main_v439, main_v440, main_v441, main_c_118, main_v442, main_v443, main_c_119, main_v444, main_v445, main_v446, main_v447, main_v448, main_v449, main_c_120, main_v450, main_v451, main_c_121, main_v452, main_v453, main_v454, main_v455, main_v456, main_v457, main_v458, main_v459, main_cst_122, main_v460, main_v461, main_v462, main_v463, main_v464, main_v465, main_v466, main_cst_123, main_v467, main_v468, main_v469, main_v470]
theorem hostOps13_4_writes : (hostOps13_4 : List (HloOp τ sig (Elt F))).Forall fun op => op.writes ⊆ (hostOps13_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14` write. -/
abbrev hostOps14_W : List (Ref sig .tc) := [main_v472, main_v473, main_v474, main_v475, main_v476, main_v477, main_cst_124, main_v478, main_cst_125, main_v479, main_v480, main_v481, main_cst_126, main_v482, main_v483, main_v484, main_cst_127, main_v485, main_v486, main_cst_128, main_v487, main_v488, main_v489, main_cst_129]
theorem hostOps14_writes : (hostOps14 : List (HloOp τ sig (Elt F))).Forall fun op => op.writes ⊆ (hostOps14_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14_1` write. -/
abbrev hostOps14_1_W : List (Ref sig .tc) := [main_call14_v0, main_call14_v1, main_v490]
theorem hostOps14_1_writes : (hostOps14_1 : List (HloOp τ sig (Elt F))).Forall fun op => op.writes ⊆ (hostOps14_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14_2` write. -/
abbrev hostOps14_2_W : List (Ref sig .tc) := [main_cst_130, main_v491, main_v492, main_cst_131, main_v493, main_v494, main_v495, main_cst_132]
theorem hostOps14_2_writes : (hostOps14_2 : List (HloOp τ sig (Elt F))).Forall fun op => op.writes ⊆ (hostOps14_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14_3` write. -/
abbrev hostOps14_3_W : List (Ref sig .tc) := [main_call15_v0, main_call15_v1, main_v496]
theorem hostOps14_3_writes : (hostOps14_3 : List (HloOp τ sig (Elt F))).Forall fun op => op.writes ⊆ (hostOps14_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps14_4` write. -/
abbrev hostOps14_4_W : List (Ref sig .tc) := [main_c_133, main_v497, main_v498, main_c_134, main_v499, main_v500, main_v501, main_v502, main_v503, main_c_135, main_v504, main_v505, main_c_136, main_v506, main_v507, main_v508, main_v509, main_v510, main_v511, main_c_137, main_v512, main_v513, main_c_138, main_v514, main_v515, main_v516, main_v517, main_v518, main_v519, main_v520, main_v521, main_cst_139, main_v522, main_v523, main_v524, main_v525, main_v526, main_v527, main_v528, main_cst_140, main_v529, main_v530, main_v531, main_v532]
theorem hostOps14_4_writes : (hostOps14_4 : List (HloOp τ sig (Elt F))).Forall fun op => op.writes ⊆ (hostOps14_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15` write. -/
abbrev hostOps15_W : List (Ref sig .tc) := [main_v534, main_v535, main_v536, main_v537, main_v538, main_v539, main_cst_141, main_v540, main_cst_142, main_v541, main_v542, main_v543, main_cst_143, main_v544, main_v545, main_v546, main_cst_144, main_v547, main_v548, main_cst_145, main_v549, main_v550, main_v551, main_cst_146]
theorem hostOps15_writes : (hostOps15 : List (HloOp τ sig (Elt F))).Forall fun op => op.writes ⊆ (hostOps15_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15_1` write. -/
abbrev hostOps15_1_W : List (Ref sig .tc) := [main_call16_v0, main_call16_v1, main_v552]
theorem hostOps15_1_writes : (hostOps15_1 : List (HloOp τ sig (Elt F))).Forall fun op => op.writes ⊆ (hostOps15_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15_2` write. -/
abbrev hostOps15_2_W : List (Ref sig .tc) := [main_cst_147, main_v553, main_v554, main_cst_148, main_v555, main_v556, main_v557, main_cst_149]
theorem hostOps15_2_writes : (hostOps15_2 : List (HloOp τ sig (Elt F))).Forall fun op => op.writes ⊆ (hostOps15_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15_3` write. -/
abbrev hostOps15_3_W : List (Ref sig .tc) := [main_call17_v0, main_call17_v1, main_v558]
theorem hostOps15_3_writes : (hostOps15_3 : List (HloOp τ sig (Elt F))).Forall fun op => op.writes ⊆ (hostOps15_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps15_4` write. -/
abbrev hostOps15_4_W : List (Ref sig .tc) := [main_c_150, main_v559, main_v560, main_c_151, main_v561, main_v562, main_v563, main_v564, main_v565, main_c_152, main_v566, main_v567, main_c_153, main_v568, main_v569, main_v570, main_v571, main_v572, main_v573, main_c_154, main_v574, main_v575, main_c_155, main_v576, main_v577, main_v578, main_v579, main_v580, main_v581, main_v582, main_v583, main_cst_156, main_v584, main_v585, main_v586, main_v587, main_v588, main_v589, main_v590, main_cst_157, main_v591, main_v592, main_v593, main_v594]
theorem hostOps15_4_writes : (hostOps15_4 : List (HloOp τ sig (Elt F))).Forall fun op => op.writes ⊆ (hostOps15_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16` write. -/
abbrev hostOps16_W : List (Ref sig .tc) := [main_v596, main_v597, main_v598, main_v599, main_v600, main_v601, main_cst_158, main_v602, main_cst_159, main_v603, main_v604, main_v605, main_cst_160, main_v606, main_v607, main_v608, main_cst_161, main_v609, main_v610, main_cst_162, main_v611, main_v612, main_v613, main_cst_163]
theorem hostOps16_writes : (hostOps16 : List (HloOp τ sig (Elt F))).Forall fun op => op.writes ⊆ (hostOps16_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16_1` write. -/
abbrev hostOps16_1_W : List (Ref sig .tc) := [main_call18_v0, main_call18_v1, main_v614]
theorem hostOps16_1_writes : (hostOps16_1 : List (HloOp τ sig (Elt F))).Forall fun op => op.writes ⊆ (hostOps16_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16_2` write. -/
abbrev hostOps16_2_W : List (Ref sig .tc) := [main_cst_164, main_v615, main_v616, main_cst_165, main_v617, main_v618, main_v619, main_cst_166]
theorem hostOps16_2_writes : (hostOps16_2 : List (HloOp τ sig (Elt F))).Forall fun op => op.writes ⊆ (hostOps16_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16_3` write. -/
abbrev hostOps16_3_W : List (Ref sig .tc) := [main_call19_v0, main_call19_v1, main_v620]
theorem hostOps16_3_writes : (hostOps16_3 : List (HloOp τ sig (Elt F))).Forall fun op => op.writes ⊆ (hostOps16_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps16_4` write. -/
abbrev hostOps16_4_W : List (Ref sig .tc) := [main_c_167, main_v621, main_v622, main_c_168, main_v623, main_v624, main_v625, main_v626, main_v627, main_c_169, main_v628, main_v629, main_c_170, main_v630, main_v631, main_v632, main_v633, main_v634, main_v635, main_c_171, main_v636, main_v637, main_c_172, main_v638, main_v639, main_v640, main_v641, main_v642, main_v643, main_v644, main_v645, main_cst_173, main_v646, main_v647, main_v648, main_v649, main_v650, main_v651, main_v652, main_cst_174, main_v653, main_v654, main_v655, main_v656]
theorem hostOps16_4_writes : (hostOps16_4 : List (HloOp τ sig (Elt F))).Forall fun op => op.writes ⊆ (hostOps16_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17` write. -/
abbrev hostOps17_W : List (Ref sig .tc) := [main_v658, main_v659, main_v660, main_v661, main_v662, main_v663, main_cst_175, main_v664, main_cst_176, main_v665, main_v666, main_v667, main_cst_177, main_v668, main_v669, main_v670, main_cst_178, main_v671, main_v672, main_cst_179, main_v673, main_v674, main_v675, main_cst_180]
theorem hostOps17_writes : (hostOps17 : List (HloOp τ sig (Elt F))).Forall fun op => op.writes ⊆ (hostOps17_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17_1` write. -/
abbrev hostOps17_1_W : List (Ref sig .tc) := [main_call20_v0, main_call20_v1, main_v676]
theorem hostOps17_1_writes : (hostOps17_1 : List (HloOp τ sig (Elt F))).Forall fun op => op.writes ⊆ (hostOps17_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17_2` write. -/
abbrev hostOps17_2_W : List (Ref sig .tc) := [main_cst_181, main_v677, main_v678, main_cst_182, main_v679, main_v680, main_v681, main_cst_183]
theorem hostOps17_2_writes : (hostOps17_2 : List (HloOp τ sig (Elt F))).Forall fun op => op.writes ⊆ (hostOps17_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17_3` write. -/
abbrev hostOps17_3_W : List (Ref sig .tc) := [main_call21_v0, main_call21_v1, main_v682]
theorem hostOps17_3_writes : (hostOps17_3 : List (HloOp τ sig (Elt F))).Forall fun op => op.writes ⊆ (hostOps17_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps17_4` write. -/
abbrev hostOps17_4_W : List (Ref sig .tc) := [main_c_184, main_v683, main_v684, main_c_185, main_v685, main_v686, main_v687, main_v688, main_v689, main_c_186, main_v690, main_v691, main_c_187, main_v692, main_v693, main_v694, main_v695, main_v696, main_v697, main_c_188, main_v698, main_v699, main_c_189, main_v700, main_v701, main_v702, main_v703, main_v704, main_v705, main_v706, main_v707, main_cst_190, main_v708, main_v709, main_v710, main_v711, main_v712, main_v713, main_v714, main_cst_191, main_v715, main_v716, main_v717, main_v718]
theorem hostOps17_4_writes : (hostOps17_4 : List (HloOp τ sig (Elt F))).Forall fun op => op.writes ⊆ (hostOps17_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18` write. -/
abbrev hostOps18_W : List (Ref sig .tc) := [main_v720, main_v721, main_v722, main_v723, main_v724, main_v725, main_cst_192, main_v726, main_cst_193, main_v727, main_v728, main_v729, main_cst_194, main_v730, main_v731, main_v732, main_cst_195, main_v733, main_v734, main_cst_196, main_v735, main_v736, main_v737, main_cst_197]
theorem hostOps18_writes : (hostOps18 : List (HloOp τ sig (Elt F))).Forall fun op => op.writes ⊆ (hostOps18_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18_1` write. -/
abbrev hostOps18_1_W : List (Ref sig .tc) := [main_call22_v0, main_call22_v1, main_v738]
theorem hostOps18_1_writes : (hostOps18_1 : List (HloOp τ sig (Elt F))).Forall fun op => op.writes ⊆ (hostOps18_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18_2` write. -/
abbrev hostOps18_2_W : List (Ref sig .tc) := [main_cst_198, main_v739, main_v740, main_cst_199, main_v741, main_v742, main_v743, main_cst_200]
theorem hostOps18_2_writes : (hostOps18_2 : List (HloOp τ sig (Elt F))).Forall fun op => op.writes ⊆ (hostOps18_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18_3` write. -/
abbrev hostOps18_3_W : List (Ref sig .tc) := [main_call23_v0, main_call23_v1, main_v744]
theorem hostOps18_3_writes : (hostOps18_3 : List (HloOp τ sig (Elt F))).Forall fun op => op.writes ⊆ (hostOps18_3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps18_4` write. -/
abbrev hostOps18_4_W : List (Ref sig .tc) := [main_c_201, main_v745, main_v746, main_c_202, main_v747, main_v748, main_v749, main_v750, main_v751, main_c_203, main_v752, main_v753, main_c_204, main_v754, main_v755, main_v756, main_v757, main_v758, main_v759, main_c_205, main_v760, main_v761, main_c_206, main_v762, main_v763, main_v764, main_v765, main_v766, main_v767, main_v768, main_v769, main_cst_207, main_v770, main_v771, main_v772, main_v773, main_v774, main_v775, main_v776, main_v777, main_v778, main_v779, main_v780, main_v781, main_v782]
theorem hostOps18_4_writes : (hostOps18_4 : List (HloOp τ sig (Elt F))).Forall fun op => op.writes ⊆ (hostOps18_4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps19` write. -/
abbrev hostOps19_W : List (Ref sig .tc) := [main_v784, main_v785, main_v786, main_v787, main_v788, main_v789]
theorem hostOps19_writes : (hostOps19 : List (HloOp τ sig (Elt F))).Forall fun op => op.writes ⊆ (hostOps19_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- The references the operations of `hostOps20` write. -/
abbrev hostOps20_W : List (Ref sig .tc) := [main_v791, main_v792, main_v793, main_v794, main_v795, main_v796]
theorem hostOps20_writes : (hostOps20 : List (HloOp τ sig (Elt F))).Forall fun op => op.writes ⊆ (hostOps20_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

end Cert.KernelIdeal.Hand

end
-- ==== Proof.KFold.Keep.lean ====
/- What each segment of the kernel program's run leaves unchanged. A host stretch rewrites the result buffer of each of
   its operations and nothing else: a reference outside the literal list of those results keeps its contents across the
   stretch. A region rewrites its four arrays: each INPUT array with the contents it was entered at (the pipeline never
   writes an input window back), so an input array too keeps its contents across the region. -/
import proofs.«147021_j7619271983570_1_alg».proof.Proof.FrameKI_A
import proofs.«147021_j7619271983570_1_alg».proof.Proof.KFold.Writes

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Across `hostOps0` a reference it does not write keeps its contents. -/
theorem W1_keep (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- Region 0 leaves its input array `main_arg0` (window 0) as entered. -/
theorem W2_in0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
/-- Region 0 leaves its input array `main_arg3` (window 1) as entered. -/
theorem W2_in1 (c : Dev nD) : W2 m ρ c (Proc.devRef .tc main_arg3) = W1 m ρ c (Proc.devRef .tc main_arg3) :=
  (W2_arr m ρ c 1).trans (((dat0 (V1 m ρ) c).arrAt_in 1 rfl _).trans (A_eq0 (V1 m ρ) c 1))
/-- Region 0 leaves its input array `main_v0` (window 2) as entered. -/
theorem W2_in2 (c : Dev nD) : W2 m ρ c (Proc.devRef .tc main_v0) = W1 m ρ c (Proc.devRef .tc main_v0) :=
  (W2_arr m ρ c 2).trans (((dat0 (V1 m ρ) c).arrAt_in 2 rfl _).trans (A_eq0 (V1 m ρ) c 2))
/-- Across `hostOps1` a reference it does not write keeps its contents. -/
theorem W3_keep (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- Region 1 leaves its input array `main_arg1` (window 0) as entered. -/
theorem W4_in0 (c : Dev nD) : W4 m ρ c (Proc.devRef .tc main_arg1) = W3 m ρ c (Proc.devRef .tc main_arg1) :=
  (W4_arr m ρ c 0).trans (((dat1 (V3 m ρ) c).arrAt_in 0 rfl _).trans (A_eq1 (V3 m ρ) c 0))
/-- Region 1 leaves its input array `main_arg5` (window 1) as entered. -/
theorem W4_in1 (c : Dev nD) : W4 m ρ c (Proc.devRef .tc main_arg5) = W3 m ρ c (Proc.devRef .tc main_arg5) :=
  (W4_arr m ρ c 1).trans (((dat1 (V3 m ρ) c).arrAt_in 1 rfl _).trans (A_eq1 (V3 m ρ) c 1))
/-- Region 1 leaves its input array `main_v2` (window 2) as entered. -/
theorem W4_in2 (c : Dev nD) : W4 m ρ c (Proc.devRef .tc main_v2) = W3 m ρ c (Proc.devRef .tc main_v2) :=
  (W4_arr m ρ c 2).trans (((dat1 (V3 m ρ) c).arrAt_in 2 rfl _).trans (A_eq1 (V3 m ρ) c 2))
/-- Across `hostOps2` a reference it does not write keeps its contents. -/
theorem W5_keep (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- Region 2 leaves its input array `main_arg2` (window 0) as entered. -/
theorem W6_in0 (c : Dev nD) : W6 m ρ c (Proc.devRef .tc main_arg2) = W5 m ρ c (Proc.devRef .tc main_arg2) :=
  (W6_arr m ρ c 0).trans (((dat2 (V5 m ρ) c).arrAt_in 0 rfl _).trans (A_eq2 (V5 m ρ) c 0))
/-- Region 2 leaves its input array `main_arg7` (window 1) as entered. -/
theorem W6_in1 (c : Dev nD) : W6 m ρ c (Proc.devRef .tc main_arg7) = W5 m ρ c (Proc.devRef .tc main_arg7) :=
  (W6_arr m ρ c 1).trans (((dat2 (V5 m ρ) c).arrAt_in 1 rfl _).trans (A_eq2 (V5 m ρ) c 1))
/-- Region 2 leaves its input array `main_v4` (window 2) as entered. -/
theorem W6_in2 (c : Dev nD) : W6 m ρ c (Proc.devRef .tc main_v4) = W5 m ρ c (Proc.devRef .tc main_v4) :=
  (W6_arr m ρ c 2).trans (((dat2 (V5 m ρ) c).arrAt_in 2 rfl _).trans (A_eq2 (V5 m ρ) c 2))
/-- Across `hostOps3` a reference it does not write keeps its contents. -/
theorem W7_keep (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
/-- Region 3 leaves its input array `main_v1` (window 0) as entered. -/
theorem W8_in0 (c : Dev nD) : W8 m ρ c (Proc.devRef .tc main_v1) = W7 m ρ c (Proc.devRef .tc main_v1) :=
  (W8_arr m ρ c 0).trans (((dat3 (V7 m ρ) c).arrAt_in 0 rfl _).trans (A_eq3 (V7 m ρ) c 0))
/-- Region 3 leaves its input array `main_v11` (window 1) as entered. -/
theorem W8_in1 (c : Dev nD) : W8 m ρ c (Proc.devRef .tc main_v11) = W7 m ρ c (Proc.devRef .tc main_v11) :=
  (W8_arr m ρ c 1).trans (((dat3 (V7 m ρ) c).arrAt_in 1 rfl _).trans (A_eq3 (V7 m ρ) c 1))
/-- Region 3 leaves its input array `main_v12` (window 2) as entered. -/
theorem W8_in2 (c : Dev nD) : W8 m ρ c (Proc.devRef .tc main_v12) = W7 m ρ c (Proc.devRef .tc main_v12) :=
  (W8_arr m ρ c 2).trans (((dat3 (V7 m ρ) c).arrAt_in 2 rfl _).trans (A_eq3 (V7 m ρ) c 2))
/-- Across `hostOps4` a reference it does not write keeps its contents. -/
theorem W9_keep (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h
/-- Across `hostOps4_1` a reference it does not write keeps its contents. -/
theorem W10_keep (c : Dev nD) (r : Ref sig .tc) (h : r ∉ (hostOps4_1_W : List (Ref sig .tc))) :
    W10 m ρ c (Proc.devRef .tc r) = W9 m ρ c (Proc.devRef .tc r) :=
  StableHlo.after_of_writes_sub hostOps4_1 _ hostOps4_1_writes h
/-- Across `hostOps4_2` a reference it does not write keeps its contents. -/
theorem W11_keep (c : Dev nD) (r : Ref sig .tc) (h : r ∉ (hostOps4_2_W : List (Ref sig .tc))) :
    W11 m ρ c (Proc.devRef .tc r) = W10 m ρ c (Proc.devRef .tc r) :=
  StableHlo.after_of_writes_sub hostOps4_2 _ hostOps4_2_writes h
/-- Across `hostOps4_3` a reference it does not write keeps its contents. -/
theorem W12_keep (c : Dev nD) (r : Ref sig .tc) (h : r ∉ (hostOps4_3_W : List (Ref sig .tc))) :
    W12 m ρ c (Proc.devRef .tc r) = W11 m ρ c (Proc.devRef .tc r) :=
  StableHlo.after_of_writes_sub hostOps4_3 _ hostOps4_3_writes h
/-- Across `hostOps4_4` a reference it does not write keeps its contents. -/
theorem W13_keep (c : Dev nD) (r : Ref sig .tc) (h : r ∉ (hostOps4_4_W : List (Ref sig .tc))) :
    W13 m ρ c (Proc.devRef .tc r) = W12 m ρ c (Proc.devRef .tc r) :=
  StableHlo.after_of_writes_sub hostOps4_4 _ hostOps4_4_writes h
/-- Region 4 leaves its input array `main_v1` (window 0) as entered. -/
theorem W14_in0 (c : Dev nD) : W14 m ρ c (Proc.devRef .tc main_v1) = W13 m ρ c (Proc.devRef .tc main_v1) :=
  (W14_arr m ρ c 0).trans (((dat4 (V13 m ρ) c).arrAt_in 0 rfl _).trans (A_eq4 (V13 m ρ) c 0))
/-- Region 4 leaves its input array `main_v73` (window 1) as entered. -/
theorem W14_in1 (c : Dev nD) : W14 m ρ c (Proc.devRef .tc main_v73) = W13 m ρ c (Proc.devRef .tc main_v73) :=
  (W14_arr m ρ c 1).trans (((dat4 (V13 m ρ) c).arrAt_in 1 rfl _).trans (A_eq4 (V13 m ρ) c 1))
/-- Region 4 leaves its input array `main_v74` (window 2) as entered. -/
theorem W14_in2 (c : Dev nD) : W14 m ρ c (Proc.devRef .tc main_v74) = W13 m ρ c (Proc.devRef .tc main_v74) :=
  (W14_arr m ρ c 2).trans (((dat4 (V13 m ρ) c).arrAt_in 2 rfl _).trans (A_eq4 (V13 m ρ) c 2))
/-- Across `hostOps5` a reference it does not write keeps its contents. -/
theorem W15_keep (c : Dev nD) (r : Ref sig .tc) (h : r ∉ (hostOps5_W : List (Ref sig .tc))) :
    W15 m ρ c (Proc.devRef .tc r) = W14 m ρ c (Proc.devRef .tc r) :=
  StableHlo.after_of_writes_sub hostOps5 _ hostOps5_writes h
/-- Across `hostOps5_1` a reference it does not write keeps its contents. -/
theorem W16_keep (c : Dev nD) (r : Ref sig .tc) (h : r ∉ (hostOps5_1_W : List (Ref sig .tc))) :
    W16 m ρ c (Proc.devRef .tc r) = W15 m ρ c (Proc.devRef .tc r) :=
  StableHlo.after_of_writes_sub hostOps5_1 _ hostOps5_1_writes h
/-- Across `hostOps5_2` a reference it does not write keeps its contents. -/
theorem W17_keep (c : Dev nD) (r : Ref sig .tc) (h : r ∉ (hostOps5_2_W : List (Ref sig .tc))) :
    W17 m ρ c (Proc.devRef .tc r) = W16 m ρ c (Proc.devRef .tc r) :=
  StableHlo.after_of_writes_sub hostOps5_2 _ hostOps5_2_writes h
/-- Across `hostOps5_3` a reference it does not write keeps its contents. -/
theorem W18_keep (c : Dev nD) (r : Ref sig .tc) (h : r ∉ (hostOps5_3_W : List (Ref sig .tc))) :
    W18 m ρ c (Proc.devRef .tc r) = W17 m ρ c (Proc.devRef .tc r) :=
  StableHlo.after_of_writes_sub hostOps5_3 _ hostOps5_3_writes h
/-- Across `hostOps5_4` a reference it does not write keeps its contents. -/
theorem W19_keep (c : Dev nD) (r : Ref sig .tc) (h : r ∉ (hostOps5_4_W : List (Ref sig .tc))) :
    W19 m ρ c (Proc.devRef .tc r) = W18 m ρ c (Proc.devRef .tc r) :=
  StableHlo.after_of_writes_sub hostOps5_4 _ hostOps5_4_writes h
/-- Region 5 leaves its input array `main_v3` (window 0) as entered. -/
theorem W20_in0 (c : Dev nD) : W20 m ρ c (Proc.devRef .tc main_v3) = W19 m ρ c (Proc.devRef .tc main_v3) :=
  (W20_arr m ρ c 0).trans (((dat5 (V19 m ρ) c).arrAt_in 0 rfl _).trans (A_eq5 (V19 m ρ) c 0))
/-- Region 5 leaves its input array `main_v135` (window 1) as entered. -/
theorem W20_in1 (c : Dev nD) : W20 m ρ c (Proc.devRef .tc main_v135) = W19 m ρ c (Proc.devRef .tc main_v135) :=
  (W20_arr m ρ c 1).trans (((dat5 (V19 m ρ) c).arrAt_in 1 rfl _).trans (A_eq5 (V19 m ρ) c 1))
/-- Region 5 leaves its input array `main_v136` (window 2) as entered. -/
theorem W20_in2 (c : Dev nD) : W20 m ρ c (Proc.devRef .tc main_v136) = W19 m ρ c (Proc.devRef .tc main_v136) :=
  (W20_arr m ρ c 2).trans (((dat5 (V19 m ρ) c).arrAt_in 2 rfl _).trans (A_eq5 (V19 m ρ) c 2))
/-- Across `hostOps6` a reference it does not write keeps its contents. -/
theorem W21_keep (c : Dev nD) (r : Ref sig .tc) (h : r ∉ (hostOps6_W : List (Ref sig .tc))) :
    W21 m ρ c (Proc.devRef .tc r) = W20 m ρ c (Proc.devRef .tc r) :=
  StableHlo.after_of_writes_sub hostOps6 _ hostOps6_writes h
/-- Across `hostOps6_1` a reference it does not write keeps its contents. -/
theorem W22_keep (c : Dev nD) (r : Ref sig .tc) (h : r ∉ (hostOps6_1_W : List (Ref sig .tc))) :
    W22 m ρ c (Proc.devRef .tc r) = W21 m ρ c (Proc.devRef .tc r) :=
  StableHlo.after_of_writes_sub hostOps6_1 _ hostOps6_1_writes h
/-- Across `hostOps6_2` a reference it does not write keeps its contents. -/
theorem W23_keep (c : Dev nD) (r : Ref sig .tc) (h : r ∉ (hostOps6_2_W : List (Ref sig .tc))) :
    W23 m ρ c (Proc.devRef .tc r) = W22 m ρ c (Proc.devRef .tc r) :=
  StableHlo.after_of_writes_sub hostOps6_2 _ hostOps6_2_writes h
/-- Across `hostOps6_3` a reference it does not write keeps its contents. -/
theorem W24_keep (c : Dev nD) (r : Ref sig .tc) (h : r ∉ (hostOps6_3_W : List (Ref sig .tc))) :
    W24 m ρ c (Proc.devRef .tc r) = W23 m ρ c (Proc.devRef .tc r) :=
  StableHlo.after_of_writes_sub hostOps6_3 _ hostOps6_3_writes h
/-- Across `hostOps6_4` a reference it does not write keeps its contents. -/
theorem W25_keep (c : Dev nD) (r : Ref sig .tc) (h : r ∉ (hostOps6_4_W : List (Ref sig .tc))) :
    W25 m ρ c (Proc.devRef .tc r) = W24 m ρ c (Proc.devRef .tc r) :=
  StableHlo.after_of_writes_sub hostOps6_4 _ hostOps6_4_writes h
/-- Region 6 leaves its input array `main_v5` (window 0) as entered. -/
theorem W26_in0 (c : Dev nD) : W26 m ρ c (Proc.devRef .tc main_v5) = W25 m ρ c (Proc.devRef .tc main_v5) :=
  (W26_arr m ρ c 0).trans (((dat6 (V25 m ρ) c).arrAt_in 0 rfl _).trans (A_eq6 (V25 m ρ) c 0))
/-- Region 6 leaves its input array `main_v197` (window 1) as entered. -/
theorem W26_in1 (c : Dev nD) : W26 m ρ c (Proc.devRef .tc main_v197) = W25 m ρ c (Proc.devRef .tc main_v197) :=
  (W26_arr m ρ c 1).trans (((dat6 (V25 m ρ) c).arrAt_in 1 rfl _).trans (A_eq6 (V25 m ρ) c 1))
/-- Region 6 leaves its input array `main_v198` (window 2) as entered. -/
theorem W26_in2 (c : Dev nD) : W26 m ρ c (Proc.devRef .tc main_v198) = W25 m ρ c (Proc.devRef .tc main_v198) :=
  (W26_arr m ρ c 2).trans (((dat6 (V25 m ρ) c).arrAt_in 2 rfl _).trans (A_eq6 (V25 m ρ) c 2))
/-- Across `hostOps7` a reference it does not write keeps its contents. -/
theorem W27_keep (c : Dev nD) (r : Ref sig .tc) (h : r ∉ (hostOps7_W : List (Ref sig .tc))) :
    W27 m ρ c (Proc.devRef .tc r) = W26 m ρ c (Proc.devRef .tc r) :=
  StableHlo.after_of_writes_sub hostOps7 _ hostOps7_writes h
/-- Across `hostOps7_1` a reference it does not write keeps its contents. -/
theorem W28_keep (c : Dev nD) (r : Ref sig .tc) (h : r ∉ (hostOps7_1_W : List (Ref sig .tc))) :
    W28 m ρ c (Proc.devRef .tc r) = W27 m ρ c (Proc.devRef .tc r) :=
  StableHlo.after_of_writes_sub hostOps7_1 _ hostOps7_1_writes h
/-- Across `hostOps7_2` a reference it does not write keeps its contents. -/
theorem W29_keep (c : Dev nD) (r : Ref sig .tc) (h : r ∉ (hostOps7_2_W : List (Ref sig .tc))) :
    W29 m ρ c (Proc.devRef .tc r) = W28 m ρ c (Proc.devRef .tc r) :=
  StableHlo.after_of_writes_sub hostOps7_2 _ hostOps7_2_writes h
/-- Across `hostOps7_3` a reference it does not write keeps its contents. -/
theorem W30_keep (c : Dev nD) (r : Ref sig .tc) (h : r ∉ (hostOps7_3_W : List (Ref sig .tc))) :
    W30 m ρ c (Proc.devRef .tc r) = W29 m ρ c (Proc.devRef .tc r) :=
  StableHlo.after_of_writes_sub hostOps7_3 _ hostOps7_3_writes h
/-- Across `hostOps7_4` a reference it does not write keeps its contents. -/
theorem W31_keep (c : Dev nD) (r : Ref sig .tc) (h : r ∉ (hostOps7_4_W : List (Ref sig .tc))) :
    W31 m ρ c (Proc.devRef .tc r) = W30 m ρ c (Proc.devRef .tc r) :=
  StableHlo.after_of_writes_sub hostOps7_4 _ hostOps7_4_writes h
/-- Region 7 leaves its input array `main_v3` (window 0) as entered. -/
theorem W32_in0 (c : Dev nD) : W32 m ρ c (Proc.devRef .tc main_v3) = W31 m ρ c (Proc.devRef .tc main_v3) :=
  (W32_arr m ρ c 0).trans (((dat7 (V31 m ρ) c).arrAt_in 0 rfl _).trans (A_eq7 (V31 m ρ) c 0))
/-- Region 7 leaves its input array `main_v259` (window 1) as entered. -/
theorem W32_in1 (c : Dev nD) : W32 m ρ c (Proc.devRef .tc main_v259) = W31 m ρ c (Proc.devRef .tc main_v259) :=
  (W32_arr m ρ c 1).trans (((dat7 (V31 m ρ) c).arrAt_in 1 rfl _).trans (A_eq7 (V31 m ρ) c 1))
/-- Region 7 leaves its input array `main_v260` (window 2) as entered. -/
theorem W32_in2 (c : Dev nD) : W32 m ρ c (Proc.devRef .tc main_v260) = W31 m ρ c (Proc.devRef .tc main_v260) :=
  (W32_arr m ρ c 2).trans (((dat7 (V31 m ρ) c).arrAt_in 2 rfl _).trans (A_eq7 (V31 m ρ) c 2))
/-- Across `hostOps8` a reference it does not write keeps its contents. -/
theorem W33_keep (c : Dev nD) (r : Ref sig .tc) (h : r ∉ (hostOps8_W : List (Ref sig .tc))) :
    W33 m ρ c (Proc.devRef .tc r) = W32 m ρ c (Proc.devRef .tc r) :=
  StableHlo.after_of_writes_sub hostOps8 _ hostOps8_writes h
/-- Across `hostOps8_1` a reference it does not write keeps its contents. -/
theorem W34_keep (c : Dev nD) (r : Ref sig .tc) (h : r ∉ (hostOps8_1_W : List (Ref sig .tc))) :
    W34 m ρ c (Proc.devRef .tc r) = W33 m ρ c (Proc.devRef .tc r) :=
  StableHlo.after_of_writes_sub hostOps8_1 _ hostOps8_1_writes h
/-- Across `hostOps8_2` a reference it does not write keeps its contents. -/
theorem W35_keep (c : Dev nD) (r : Ref sig .tc) (h : r ∉ (hostOps8_2_W : List (Ref sig .tc))) :
    W35 m ρ c (Proc.devRef .tc r) = W34 m ρ c (Proc.devRef .tc r) :=
  StableHlo.after_of_writes_sub hostOps8_2 _ hostOps8_2_writes h
/-- Across `hostOps8_3` a reference it does not write keeps its contents. -/
theorem W36_keep (c : Dev nD) (r : Ref sig .tc) (h : r ∉ (hostOps8_3_W : List (Ref sig .tc))) :
    W36 m ρ c (Proc.devRef .tc r) = W35 m ρ c (Proc.devRef .tc r) :=
  StableHlo.after_of_writes_sub hostOps8_3 _ hostOps8_3_writes h
/-- Across `hostOps8_4` a reference it does not write keeps its contents. -/
theorem W37_keep (c : Dev nD) (r : Ref sig .tc) (h : r ∉ (hostOps8_4_W : List (Ref sig .tc))) :
    W37 m ρ c (Proc.devRef .tc r) = W36 m ρ c (Proc.devRef .tc r) :=
  StableHlo.after_of_writes_sub hostOps8_4 _ hostOps8_4_writes h
/-- Region 8 leaves its input array `main_v5` (window 0) as entered. -/
theorem W38_in0 (c : Dev nD) : W38 m ρ c (Proc.devRef .tc main_v5) = W37 m ρ c (Proc.devRef .tc main_v5) :=
  (W38_arr m ρ c 0).trans (((dat8 (V37 m ρ) c).arrAt_in 0 rfl _).trans (A_eq8 (V37 m ρ) c 0))
/-- Region 8 leaves its input array `main_v321` (window 1) as entered. -/
theorem W38_in1 (c : Dev nD) : W38 m ρ c (Proc.devRef .tc main_v321) = W37 m ρ c (Proc.devRef .tc main_v321) :=
  (W38_arr m ρ c 1).trans (((dat8 (V37 m ρ) c).arrAt_in 1 rfl _).trans (A_eq8 (V37 m ρ) c 1))
/-- Region 8 leaves its input array `main_v322` (window 2) as entered. -/
theorem W38_in2 (c : Dev nD) : W38 m ρ c (Proc.devRef .tc main_v322) = W37 m ρ c (Proc.devRef .tc main_v322) :=
  (W38_arr m ρ c 2).trans (((dat8 (V37 m ρ) c).arrAt_in 2 rfl _).trans (A_eq8 (V37 m ρ) c 2))
/-- Across `hostOps9` a reference it does not write keeps its contents. -/
theorem W39_keep (c : Dev nD) (r : Ref sig .tc) (h : r ∉ (hostOps9_W : List (Ref sig .tc))) :
    W39 m ρ c (Proc.devRef .tc r) = W38 m ρ c (Proc.devRef .tc r) :=
  StableHlo.after_of_writes_sub hostOps9 _ hostOps9_writes h
/-- Across `hostOps9_1` a reference it does not write keeps its contents. -/
theorem W40_keep (c : Dev nD) (r : Ref sig .tc) (h : r ∉ (hostOps9_1_W : List (Ref sig .tc))) :
    W40 m ρ c (Proc.devRef .tc r) = W39 m ρ c (Proc.devRef .tc r) :=
  StableHlo.after_of_writes_sub hostOps9_1 _ hostOps9_1_writes h
/-- Across `hostOps9_2` a reference it does not write keeps its contents. -/
theorem W41_keep (c : Dev nD) (r : Ref sig .tc) (h : r ∉ (hostOps9_2_W : List (Ref sig .tc))) :
    W41 m ρ c (Proc.devRef .tc r) = W40 m ρ c (Proc.devRef .tc r) :=
  StableHlo.after_of_writes_sub hostOps9_2 _ hostOps9_2_writes h
/-- Across `hostOps9_3` a reference it does not write keeps its contents. -/
theorem W42_keep (c : Dev nD) (r : Ref sig .tc) (h : r ∉ (hostOps9_3_W : List (Ref sig .tc))) :
    W42 m ρ c (Proc.devRef .tc r) = W41 m ρ c (Proc.devRef .tc r) :=
  StableHlo.after_of_writes_sub hostOps9_3 _ hostOps9_3_writes h
/-- Across `hostOps9_4` a reference it does not write keeps its contents. -/
theorem W43_keep (c : Dev nD) (r : Ref sig .tc) (h : r ∉ (hostOps9_4_W : List (Ref sig .tc))) :
    W43 m ρ c (Proc.devRef .tc r) = W42 m ρ c (Proc.devRef .tc r) :=
  StableHlo.after_of_writes_sub hostOps9_4 _ hostOps9_4_writes h
/-- Region 9 leaves its input array `main_v318` (window 0) as entered. -/
theorem W44_in0 (c : Dev nD) : W44 m ρ c (Proc.devRef .tc main_v318) = W43 m ρ c (Proc.devRef .tc main_v318) :=
  (W44_arr m ρ c 0).trans (((dat9 (V43 m ρ) c).arrAt_in 0 rfl _).trans (A_eq9 (V43 m ρ) c 0))
/-- Region 9 leaves its input array `main_v385` (window 1) as entered. -/
theorem W44_in1 (c : Dev nD) : W44 m ρ c (Proc.devRef .tc main_v385) = W43 m ρ c (Proc.devRef .tc main_v385) :=
  (W44_arr m ρ c 1).trans (((dat9 (V43 m ρ) c).arrAt_in 1 rfl _).trans (A_eq9 (V43 m ρ) c 1))
/-- Region 9 leaves its input array `main_v386` (window 2) as entered. -/
theorem W44_in2 (c : Dev nD) : W44 m ρ c (Proc.devRef .tc main_v386) = W43 m ρ c (Proc.devRef .tc main_v386) :=
  (W44_arr m ρ c 2).trans (((dat9 (V43 m ρ) c).arrAt_in 2 rfl _).trans (A_eq9 (V43 m ρ) c 2))
/-- Across `hostOps10` a reference it does not write keeps its contents. -/
theorem W45_keep (c : Dev nD) (r : Ref sig .tc) (h : r ∉ (hostOps10_W : List (Ref sig .tc))) :
    W45 m ρ c (Proc.devRef .tc r) = W44 m ρ c (Proc.devRef .tc r) :=
  StableHlo.after_of_writes_sub hostOps10 _ hostOps10_writes h
/-- Region 10 leaves its input array `main_v380` (window 0) as entered. -/
theorem W46_in0 (c : Dev nD) : W46 m ρ c (Proc.devRef .tc main_v380) = W45 m ρ c (Proc.devRef .tc main_v380) :=
  (W46_arr m ρ c 0).trans (((dat10 (V45 m ρ) c).arrAt_in 0 rfl _).trans (A_eq10 (V45 m ρ) c 0))
/-- Region 10 leaves its input array `main_v392` (window 1) as entered. -/
theorem W46_in1 (c : Dev nD) : W46 m ρ c (Proc.devRef .tc main_v392) = W45 m ρ c (Proc.devRef .tc main_v392) :=
  (W46_arr m ρ c 1).trans (((dat10 (V45 m ρ) c).arrAt_in 1 rfl _).trans (A_eq10 (V45 m ρ) c 1))
/-- Region 10 leaves its input array `main_v393` (window 2) as entered. -/
theorem W46_in2 (c : Dev nD) : W46 m ρ c (Proc.devRef .tc main_v393) = W45 m ρ c (Proc.devRef .tc main_v393) :=
  (W46_arr m ρ c 2).trans (((dat10 (V45 m ρ) c).arrAt_in 2 rfl _).trans (A_eq10 (V45 m ρ) c 2))
/-- Across `hostOps11` a reference it does not write keeps its contents. -/
theorem W47_keep (c : Dev nD) (r : Ref sig .tc) (h : r ∉ (hostOps11_W : List (Ref sig .tc))) :
    W47 m ρ c (Proc.devRef .tc r) = W46 m ρ c (Proc.devRef .tc r) :=
  StableHlo.after_of_writes_sub hostOps11 _ hostOps11_writes h
/-- Region 11 leaves its input array `main_v194` (window 0) as entered. -/
theorem W48_in0 (c : Dev nD) : W48 m ρ c (Proc.devRef .tc main_v194) = W47 m ρ c (Proc.devRef .tc main_v194) :=
  (W48_arr m ρ c 0).trans (((dat11 (V47 m ρ) c).arrAt_in 0 rfl _).trans (A_eq11 (V47 m ρ) c 0))
/-- Region 11 leaves its input array `main_v399` (window 1) as entered. -/
theorem W48_in1 (c : Dev nD) : W48 m ρ c (Proc.devRef .tc main_v399) = W47 m ρ c (Proc.devRef .tc main_v399) :=
  (W48_arr m ρ c 1).trans (((dat11 (V47 m ρ) c).arrAt_in 1 rfl _).trans (A_eq11 (V47 m ρ) c 1))
/-- Region 11 leaves its input array `main_v400` (window 2) as entered. -/
theorem W48_in2 (c : Dev nD) : W48 m ρ c (Proc.devRef .tc main_v400) = W47 m ρ c (Proc.devRef .tc main_v400) :=
  (W48_arr m ρ c 2).trans (((dat11 (V47 m ρ) c).arrAt_in 2 rfl _).trans (A_eq11 (V47 m ρ) c 2))
/-- Across `hostOps12` a reference it does not write keeps its contents. -/
theorem W49_keep (c : Dev nD) (r : Ref sig .tc) (h : r ∉ (hostOps12_W : List (Ref sig .tc))) :
    W49 m ρ c (Proc.devRef .tc r) = W48 m ρ c (Proc.devRef .tc r) :=
  StableHlo.after_of_writes_sub hostOps12 _ hostOps12_writes h
/-- Region 12 leaves its input array `main_v387` (window 0) as entered. -/
theorem W50_in0 (c : Dev nD) : W50 m ρ c (Proc.devRef .tc main_v387) = W49 m ρ c (Proc.devRef .tc main_v387) :=
  (W50_arr m ρ c 0).trans (((dat12 (V49 m ρ) c).arrAt_in 0 rfl _).trans (A_eq12 (V49 m ρ) c 0))
/-- Region 12 leaves its input array `main_v407` (window 1) as entered. -/
theorem W50_in1 (c : Dev nD) : W50 m ρ c (Proc.devRef .tc main_v407) = W49 m ρ c (Proc.devRef .tc main_v407) :=
  (W50_arr m ρ c 1).trans (((dat12 (V49 m ρ) c).arrAt_in 1 rfl _).trans (A_eq12 (V49 m ρ) c 1))
/-- Region 12 leaves its input array `main_v408` (window 2) as entered. -/
theorem W50_in2 (c : Dev nD) : W50 m ρ c (Proc.devRef .tc main_v408) = W49 m ρ c (Proc.devRef .tc main_v408) :=
  (W50_arr m ρ c 2).trans (((dat12 (V49 m ρ) c).arrAt_in 2 rfl _).trans (A_eq12 (V49 m ρ) c 2))
/-- Across `hostOps13` a reference it does not write keeps its contents. -/
theorem W51_keep (c : Dev nD) (r : Ref sig .tc) (h : r ∉ (hostOps13_W : List (Ref sig .tc))) :
    W51 m ρ c (Proc.devRef .tc r) = W50 m ρ c (Proc.devRef .tc r) :=
  StableHlo.after_of_writes_sub hostOps13 _ hostOps13_writes h
/-- Across `hostOps13_1` a reference it does not write keeps its contents. -/
theorem W52_keep (c : Dev nD) (r : Ref sig .tc) (h : r ∉ (hostOps13_1_W : List (Ref sig .tc))) :
    W52 m ρ c (Proc.devRef .tc r) = W51 m ρ c (Proc.devRef .tc r) :=
  StableHlo.after_of_writes_sub hostOps13_1 _ hostOps13_1_writes h
/-- Across `hostOps13_2` a reference it does not write keeps its contents. -/
theorem W53_keep (c : Dev nD) (r : Ref sig .tc) (h : r ∉ (hostOps13_2_W : List (Ref sig .tc))) :
    W53 m ρ c (Proc.devRef .tc r) = W52 m ρ c (Proc.devRef .tc r) :=
  StableHlo.after_of_writes_sub hostOps13_2 _ hostOps13_2_writes h
/-- Across `hostOps13_3` a reference it does not write keeps its contents. -/
theorem W54_keep (c : Dev nD) (r : Ref sig .tc) (h : r ∉ (hostOps13_3_W : List (Ref sig .tc))) :
    W54 m ρ c (Proc.devRef .tc r) = W53 m ρ c (Proc.devRef .tc r) :=
  StableHlo.after_of_writes_sub hostOps13_3 _ hostOps13_3_writes h
/-- Across `hostOps13_4` a reference it does not write keeps its contents. -/
theorem W55_keep (c : Dev nD) (r : Ref sig .tc) (h : r ∉ (hostOps13_4_W : List (Ref sig .tc))) :
    W55 m ρ c (Proc.devRef .tc r) = W54 m ρ c (Proc.devRef .tc r) :=
  StableHlo.after_of_writes_sub hostOps13_4 _ hostOps13_4_writes h
/-- Region 13 leaves its input array `main_v387` (window 0) as entered. -/
theorem W56_in0 (c : Dev nD) : W56 m ρ c (Proc.devRef .tc main_v387) = W55 m ρ c (Proc.devRef .tc main_v387) :=
  (W56_arr m ρ c 0).trans (((dat13 (V55 m ρ) c).arrAt_in 0 rfl _).trans (A_eq13 (V55 m ρ) c 0))
/-- Region 13 leaves its input array `main_v469` (window 1) as entered. -/
theorem W56_in1 (c : Dev nD) : W56 m ρ c (Proc.devRef .tc main_v469) = W55 m ρ c (Proc.devRef .tc main_v469) :=
  (W56_arr m ρ c 1).trans (((dat13 (V55 m ρ) c).arrAt_in 1 rfl _).trans (A_eq13 (V55 m ρ) c 1))
/-- Region 13 leaves its input array `main_v470` (window 2) as entered. -/
theorem W56_in2 (c : Dev nD) : W56 m ρ c (Proc.devRef .tc main_v470) = W55 m ρ c (Proc.devRef .tc main_v470) :=
  (W56_arr m ρ c 2).trans (((dat13 (V55 m ρ) c).arrAt_in 2 rfl _).trans (A_eq13 (V55 m ρ) c 2))
/-- Across `hostOps14` a reference it does not write keeps its contents. -/
theorem W57_keep (c : Dev nD) (r : Ref sig .tc) (h : r ∉ (hostOps14_W : List (Ref sig .tc))) :
    W57 m ρ c (Proc.devRef .tc r) = W56 m ρ c (Proc.devRef .tc r) :=
  StableHlo.after_of_writes_sub hostOps14 _ hostOps14_writes h
/-- Across `hostOps14_1` a reference it does not write keeps its contents. -/
theorem W58_keep (c : Dev nD) (r : Ref sig .tc) (h : r ∉ (hostOps14_1_W : List (Ref sig .tc))) :
    W58 m ρ c (Proc.devRef .tc r) = W57 m ρ c (Proc.devRef .tc r) :=
  StableHlo.after_of_writes_sub hostOps14_1 _ hostOps14_1_writes h
/-- Across `hostOps14_2` a reference it does not write keeps its contents. -/
theorem W59_keep (c : Dev nD) (r : Ref sig .tc) (h : r ∉ (hostOps14_2_W : List (Ref sig .tc))) :
    W59 m ρ c (Proc.devRef .tc r) = W58 m ρ c (Proc.devRef .tc r) :=
  StableHlo.after_of_writes_sub hostOps14_2 _ hostOps14_2_writes h
/-- Across `hostOps14_3` a reference it does not write keeps its contents. -/
theorem W60_keep (c : Dev nD) (r : Ref sig .tc) (h : r ∉ (hostOps14_3_W : List (Ref sig .tc))) :
    W60 m ρ c (Proc.devRef .tc r) = W59 m ρ c (Proc.devRef .tc r) :=
  StableHlo.after_of_writes_sub hostOps14_3 _ hostOps14_3_writes h
/-- Across `hostOps14_4` a reference it does not write keeps its contents. -/
theorem W61_keep (c : Dev nD) (r : Ref sig .tc) (h : r ∉ (hostOps14_4_W : List (Ref sig .tc))) :
    W61 m ρ c (Proc.devRef .tc r) = W60 m ρ c (Proc.devRef .tc r) :=
  StableHlo.after_of_writes_sub hostOps14_4 _ hostOps14_4_writes h
/-- Region 14 leaves its input array `main_v394` (window 0) as entered. -/
theorem W62_in0 (c : Dev nD) : W62 m ρ c (Proc.devRef .tc main_v394) = W61 m ρ c (Proc.devRef .tc main_v394) :=
  (W62_arr m ρ c 0).trans (((dat14 (V61 m ρ) c).arrAt_in 0 rfl _).trans (A_eq14 (V61 m ρ) c 0))
/-- Region 14 leaves its input array `main_v531` (window 1) as entered. -/
theorem W62_in1 (c : Dev nD) : W62 m ρ c (Proc.devRef .tc main_v531) = W61 m ρ c (Proc.devRef .tc main_v531) :=
  (W62_arr m ρ c 1).trans (((dat14 (V61 m ρ) c).arrAt_in 1 rfl _).trans (A_eq14 (V61 m ρ) c 1))
/-- Region 14 leaves its input array `main_v532` (window 2) as entered. -/
theorem W62_in2 (c : Dev nD) : W62 m ρ c (Proc.devRef .tc main_v532) = W61 m ρ c (Proc.devRef .tc main_v532) :=
  (W62_arr m ρ c 2).trans (((dat14 (V61 m ρ) c).arrAt_in 2 rfl _).trans (A_eq14 (V61 m ρ) c 2))
/-- Across `hostOps15` a reference it does not write keeps its contents. -/
theorem W63_keep (c : Dev nD) (r : Ref sig .tc) (h : r ∉ (hostOps15_W : List (Ref sig .tc))) :
    W63 m ρ c (Proc.devRef .tc r) = W62 m ρ c (Proc.devRef .tc r) :=
  StableHlo.after_of_writes_sub hostOps15 _ hostOps15_writes h
/-- Across `hostOps15_1` a reference it does not write keeps its contents. -/
theorem W64_keep (c : Dev nD) (r : Ref sig .tc) (h : r ∉ (hostOps15_1_W : List (Ref sig .tc))) :
    W64 m ρ c (Proc.devRef .tc r) = W63 m ρ c (Proc.devRef .tc r) :=
  StableHlo.after_of_writes_sub hostOps15_1 _ hostOps15_1_writes h
/-- Across `hostOps15_2` a reference it does not write keeps its contents. -/
theorem W65_keep (c : Dev nD) (r : Ref sig .tc) (h : r ∉ (hostOps15_2_W : List (Ref sig .tc))) :
    W65 m ρ c (Proc.devRef .tc r) = W64 m ρ c (Proc.devRef .tc r) :=
  StableHlo.after_of_writes_sub hostOps15_2 _ hostOps15_2_writes h
/-- Across `hostOps15_3` a reference it does not write keeps its contents. -/
theorem W66_keep (c : Dev nD) (r : Ref sig .tc) (h : r ∉ (hostOps15_3_W : List (Ref sig .tc))) :
    W66 m ρ c (Proc.devRef .tc r) = W65 m ρ c (Proc.devRef .tc r) :=
  StableHlo.after_of_writes_sub hostOps15_3 _ hostOps15_3_writes h
/-- Across `hostOps15_4` a reference it does not write keeps its contents. -/
theorem W67_keep (c : Dev nD) (r : Ref sig .tc) (h : r ∉ (hostOps15_4_W : List (Ref sig .tc))) :
    W67 m ρ c (Proc.devRef .tc r) = W66 m ρ c (Proc.devRef .tc r) :=
  StableHlo.after_of_writes_sub hostOps15_4 _ hostOps15_4_writes h
/-- Region 15 leaves its input array `main_v401` (window 0) as entered. -/
theorem W68_in0 (c : Dev nD) : W68 m ρ c (Proc.devRef .tc main_v401) = W67 m ρ c (Proc.devRef .tc main_v401) :=
  (W68_arr m ρ c 0).trans (((dat15 (V67 m ρ) c).arrAt_in 0 rfl _).trans (A_eq15 (V67 m ρ) c 0))
/-- Region 15 leaves its input array `main_v593` (window 1) as entered. -/
theorem W68_in1 (c : Dev nD) : W68 m ρ c (Proc.devRef .tc main_v593) = W67 m ρ c (Proc.devRef .tc main_v593) :=
  (W68_arr m ρ c 1).trans (((dat15 (V67 m ρ) c).arrAt_in 1 rfl _).trans (A_eq15 (V67 m ρ) c 1))
/-- Region 15 leaves its input array `main_v594` (window 2) as entered. -/
theorem W68_in2 (c : Dev nD) : W68 m ρ c (Proc.devRef .tc main_v594) = W67 m ρ c (Proc.devRef .tc main_v594) :=
  (W68_arr m ρ c 2).trans (((dat15 (V67 m ρ) c).arrAt_in 2 rfl _).trans (A_eq15 (V67 m ρ) c 2))
/-- Across `hostOps16` a reference it does not write keeps its contents. -/
theorem W69_keep (c : Dev nD) (r : Ref sig .tc) (h : r ∉ (hostOps16_W : List (Ref sig .tc))) :
    W69 m ρ c (Proc.devRef .tc r) = W68 m ρ c (Proc.devRef .tc r) :=
  StableHlo.after_of_writes_sub hostOps16 _ hostOps16_writes h
/-- Across `hostOps16_1` a reference it does not write keeps its contents. -/
theorem W70_keep (c : Dev nD) (r : Ref sig .tc) (h : r ∉ (hostOps16_1_W : List (Ref sig .tc))) :
    W70 m ρ c (Proc.devRef .tc r) = W69 m ρ c (Proc.devRef .tc r) :=
  StableHlo.after_of_writes_sub hostOps16_1 _ hostOps16_1_writes h
/-- Across `hostOps16_2` a reference it does not write keeps its contents. -/
theorem W71_keep (c : Dev nD) (r : Ref sig .tc) (h : r ∉ (hostOps16_2_W : List (Ref sig .tc))) :
    W71 m ρ c (Proc.devRef .tc r) = W70 m ρ c (Proc.devRef .tc r) :=
  StableHlo.after_of_writes_sub hostOps16_2 _ hostOps16_2_writes h
/-- Across `hostOps16_3` a reference it does not write keeps its contents. -/
theorem W72_keep (c : Dev nD) (r : Ref sig .tc) (h : r ∉ (hostOps16_3_W : List (Ref sig .tc))) :
    W72 m ρ c (Proc.devRef .tc r) = W71 m ρ c (Proc.devRef .tc r) :=
  StableHlo.after_of_writes_sub hostOps16_3 _ hostOps16_3_writes h
/-- Across `hostOps16_4` a reference it does not write keeps its contents. -/
theorem W73_keep (c : Dev nD) (r : Ref sig .tc) (h : r ∉ (hostOps16_4_W : List (Ref sig .tc))) :
    W73 m ρ c (Proc.devRef .tc r) = W72 m ρ c (Proc.devRef .tc r) :=
  StableHlo.after_of_writes_sub hostOps16_4 _ hostOps16_4_writes h
/-- Region 16 leaves its input array `main_v394` (window 0) as entered. -/
theorem W74_in0 (c : Dev nD) : W74 m ρ c (Proc.devRef .tc main_v394) = W73 m ρ c (Proc.devRef .tc main_v394) :=
  (W74_arr m ρ c 0).trans (((dat16 (V73 m ρ) c).arrAt_in 0 rfl _).trans (A_eq16 (V73 m ρ) c 0))
/-- Region 16 leaves its input array `main_v655` (window 1) as entered. -/
theorem W74_in1 (c : Dev nD) : W74 m ρ c (Proc.devRef .tc main_v655) = W73 m ρ c (Proc.devRef .tc main_v655) :=
  (W74_arr m ρ c 1).trans (((dat16 (V73 m ρ) c).arrAt_in 1 rfl _).trans (A_eq16 (V73 m ρ) c 1))
/-- Region 16 leaves its input array `main_v656` (window 2) as entered. -/
theorem W74_in2 (c : Dev nD) : W74 m ρ c (Proc.devRef .tc main_v656) = W73 m ρ c (Proc.devRef .tc main_v656) :=
  (W74_arr m ρ c 2).trans (((dat16 (V73 m ρ) c).arrAt_in 2 rfl _).trans (A_eq16 (V73 m ρ) c 2))
/-- Across `hostOps17` a reference it does not write keeps its contents. -/
theorem W75_keep (c : Dev nD) (r : Ref sig .tc) (h : r ∉ (hostOps17_W : List (Ref sig .tc))) :
    W75 m ρ c (Proc.devRef .tc r) = W74 m ρ c (Proc.devRef .tc r) :=
  StableHlo.after_of_writes_sub hostOps17 _ hostOps17_writes h
/-- Across `hostOps17_1` a reference it does not write keeps its contents. -/
theorem W76_keep (c : Dev nD) (r : Ref sig .tc) (h : r ∉ (hostOps17_1_W : List (Ref sig .tc))) :
    W76 m ρ c (Proc.devRef .tc r) = W75 m ρ c (Proc.devRef .tc r) :=
  StableHlo.after_of_writes_sub hostOps17_1 _ hostOps17_1_writes h
/-- Across `hostOps17_2` a reference it does not write keeps its contents. -/
theorem W77_keep (c : Dev nD) (r : Ref sig .tc) (h : r ∉ (hostOps17_2_W : List (Ref sig .tc))) :
    W77 m ρ c (Proc.devRef .tc r) = W76 m ρ c (Proc.devRef .tc r) :=
  StableHlo.after_of_writes_sub hostOps17_2 _ hostOps17_2_writes h
/-- Across `hostOps17_3` a reference it does not write keeps its contents. -/
theorem W78_keep (c : Dev nD) (r : Ref sig .tc) (h : r ∉ (hostOps17_3_W : List (Ref sig .tc))) :
    W78 m ρ c (Proc.devRef .tc r) = W77 m ρ c (Proc.devRef .tc r) :=
  StableHlo.after_of_writes_sub hostOps17_3 _ hostOps17_3_writes h
/-- Across `hostOps17_4` a reference it does not write keeps its contents. -/
theorem W79_keep (c : Dev nD) (r : Ref sig .tc) (h : r ∉ (hostOps17_4_W : List (Ref sig .tc))) :
    W79 m ρ c (Proc.devRef .tc r) = W78 m ρ c (Proc.devRef .tc r) :=
  StableHlo.after_of_writes_sub hostOps17_4 _ hostOps17_4_writes h
/-- Region 17 leaves its input array `main_v401` (window 0) as entered. -/
theorem W80_in0 (c : Dev nD) : W80 m ρ c (Proc.devRef .tc main_v401) = W79 m ρ c (Proc.devRef .tc main_v401) :=
  (W80_arr m ρ c 0).trans (((dat17 (V79 m ρ) c).arrAt_in 0 rfl _).trans (A_eq17 (V79 m ρ) c 0))
/-- Region 17 leaves its input array `main_v717` (window 1) as entered. -/
theorem W80_in1 (c : Dev nD) : W80 m ρ c (Proc.devRef .tc main_v717) = W79 m ρ c (Proc.devRef .tc main_v717) :=
  (W80_arr m ρ c 1).trans (((dat17 (V79 m ρ) c).arrAt_in 1 rfl _).trans (A_eq17 (V79 m ρ) c 1))
/-- Region 17 leaves its input array `main_v718` (window 2) as entered. -/
theorem W80_in2 (c : Dev nD) : W80 m ρ c (Proc.devRef .tc main_v718) = W79 m ρ c (Proc.devRef .tc main_v718) :=
  (W80_arr m ρ c 2).trans (((dat17 (V79 m ρ) c).arrAt_in 2 rfl _).trans (A_eq17 (V79 m ρ) c 2))
/-- Across `hostOps18` a reference it does not write keeps its contents. -/
theorem W81_keep (c : Dev nD) (r : Ref sig .tc) (h : r ∉ (hostOps18_W : List (Ref sig .tc))) :
    W81 m ρ c (Proc.devRef .tc r) = W80 m ρ c (Proc.devRef .tc r) :=
  StableHlo.after_of_writes_sub hostOps18 _ hostOps18_writes h
/-- Across `hostOps18_1` a reference it does not write keeps its contents. -/
theorem W82_keep (c : Dev nD) (r : Ref sig .tc) (h : r ∉ (hostOps18_1_W : List (Ref sig .tc))) :
    W82 m ρ c (Proc.devRef .tc r) = W81 m ρ c (Proc.devRef .tc r) :=
  StableHlo.after_of_writes_sub hostOps18_1 _ hostOps18_1_writes h
/-- Across `hostOps18_2` a reference it does not write keeps its contents. -/
theorem W83_keep (c : Dev nD) (r : Ref sig .tc) (h : r ∉ (hostOps18_2_W : List (Ref sig .tc))) :
    W83 m ρ c (Proc.devRef .tc r) = W82 m ρ c (Proc.devRef .tc r) :=
  StableHlo.after_of_writes_sub hostOps18_2 _ hostOps18_2_writes h
/-- Across `hostOps18_3` a reference it does not write keeps its contents. -/
theorem W84_keep (c : Dev nD) (r : Ref sig .tc) (h : r ∉ (hostOps18_3_W : List (Ref sig .tc))) :
    W84 m ρ c (Proc.devRef .tc r) = W83 m ρ c (Proc.devRef .tc r) :=
  StableHlo.after_of_writes_sub hostOps18_3 _ hostOps18_3_writes h
/-- Across `hostOps18_4` a reference it does not write keeps its contents. -/
theorem W85_keep (c : Dev nD) (r : Ref sig .tc) (h : r ∉ (hostOps18_4_W : List (Ref sig .tc))) :
    W85 m ρ c (Proc.devRef .tc r) = W84 m ρ c (Proc.devRef .tc r) :=
  StableHlo.after_of_writes_sub hostOps18_4 _ hostOps18_4_writes h
/-- Region 18 leaves its input array `main_v714` (window 0) as entered. -/
theorem W86_in0 (c : Dev nD) : W86 m ρ c (Proc.devRef .tc main_v714) = W85 m ρ c (Proc.devRef .tc main_v714) :=
  (W86_arr m ρ c 0).trans (((dat18 (V85 m ρ) c).arrAt_in 0 rfl _).trans (A_eq18 (V85 m ρ) c 0))
/-- Region 18 leaves its input array `main_v781` (window 1) as entered. -/
theorem W86_in1 (c : Dev nD) : W86 m ρ c (Proc.devRef .tc main_v781) = W85 m ρ c (Proc.devRef .tc main_v781) :=
  (W86_arr m ρ c 1).trans (((dat18 (V85 m ρ) c).arrAt_in 1 rfl _).trans (A_eq18 (V85 m ρ) c 1))
/-- Region 18 leaves its input array `main_v782` (window 2) as entered. -/
theorem W86_in2 (c : Dev nD) : W86 m ρ c (Proc.devRef .tc main_v782) = W85 m ρ c (Proc.devRef .tc main_v782) :=
  (W86_arr m ρ c 2).trans (((dat18 (V85 m ρ) c).arrAt_in 2 rfl _).trans (A_eq18 (V85 m ρ) c 2))
/-- Across `hostOps19` a reference it does not write keeps its contents. -/
theorem W87_keep (c : Dev nD) (r : Ref sig .tc) (h : r ∉ (hostOps19_W : List (Ref sig .tc))) :
    W87 m ρ c (Proc.devRef .tc r) = W86 m ρ c (Proc.devRef .tc r) :=
  StableHlo.after_of_writes_sub hostOps19 _ hostOps19_writes h
/-- Region 19 leaves its input array `main_v776` (window 0) as entered. -/
theorem W88_in0 (c : Dev nD) : W88 m ρ c (Proc.devRef .tc main_v776) = W87 m ρ c (Proc.devRef .tc main_v776) :=
  (W88_arr m ρ c 0).trans (((dat19 (V87 m ρ) c).arrAt_in 0 rfl _).trans (A_eq19 (V87 m ρ) c 0))
/-- Region 19 leaves its input array `main_v788` (window 1) as entered. -/
theorem W88_in1 (c : Dev nD) : W88 m ρ c (Proc.devRef .tc main_v788) = W87 m ρ c (Proc.devRef .tc main_v788) :=
  (W88_arr m ρ c 1).trans (((dat19 (V87 m ρ) c).arrAt_in 1 rfl _).trans (A_eq19 (V87 m ρ) c 1))
/-- Region 19 leaves its input array `main_v789` (window 2) as entered. -/
theorem W88_in2 (c : Dev nD) : W88 m ρ c (Proc.devRef .tc main_v789) = W87 m ρ c (Proc.devRef .tc main_v789) :=
  (W88_arr m ρ c 2).trans (((dat19 (V87 m ρ) c).arrAt_in 2 rfl _).trans (A_eq19 (V87 m ρ) c 2))
/-- Across `hostOps20` a reference it does not write keeps its contents. -/
theorem W89_keep (c : Dev nD) (r : Ref sig .tc) (h : r ∉ (hostOps20_W : List (Ref sig .tc))) :
    W89 m ρ c (Proc.devRef .tc r) = W88 m ρ c (Proc.devRef .tc r) :=
  StableHlo.after_of_writes_sub hostOps20 _ hostOps20_writes h
/-- Region 20 leaves its input array `main_v590` (window 0) as entered. -/
theorem W90_in0 (c : Dev nD) : W90 m ρ c (Proc.devRef .tc main_v590) = W89 m ρ c (Proc.devRef .tc main_v590) :=
  (W90_arr m ρ c 0).trans (((dat20 (V89 m ρ) c).arrAt_in 0 rfl _).trans (A_eq20 (V89 m ρ) c 0))
/-- Region 20 leaves its input array `main_v795` (window 1) as entered. -/
theorem W90_in1 (c : Dev nD) : W90 m ρ c (Proc.devRef .tc main_v795) = W89 m ρ c (Proc.devRef .tc main_v795) :=
  (W90_arr m ρ c 1).trans (((dat20 (V89 m ρ) c).arrAt_in 1 rfl _).trans (A_eq20 (V89 m ρ) c 1))
/-- Region 20 leaves its input array `main_v796` (window 2) as entered. -/
theorem W90_in2 (c : Dev nD) : W90 m ρ c (Proc.devRef .tc main_v796) = W89 m ρ c (Proc.devRef .tc main_v796) :=
  (W90_arr m ρ c 2).trans (((dat20 (V89 m ρ) c).arrAt_in 2 rfl _).trans (A_eq20 (V89 m ρ) c 2))

end Cert.KernelIdeal.Hand

end
-- ==== Proof.KFold.Args0.lean ====
/- The argument arrays main_arg0 .. main_arg7 along the fold: no host operation and no region writes an
   argument (a region that reads one through an input window leaves it as entered), so at every boundary an
   argument's buffer holds its launch contents. One step per boundary, each from the boundary before. -/
import proofs.«147021_j7619271983570_1_alg».proof.Proof.KFold.Keep

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (W1_keep m ρ c main_arg0 (by decide)).trans (W0_arg0 m ρ c)
theorem W2_arg0 (c : Dev nD) : W2 m ρ c (Proc.devRef .tc main_arg0) = m ((c : Thread nD τ).loc main_arg0) :=
  (W2_in0 m ρ c).trans (W1_arg0 m ρ c)
theorem W3_arg0 (c : Dev nD) : W3 m ρ c (Proc.devRef .tc main_arg0) = m ((c : Thread nD τ).loc main_arg0) :=
  (W3_keep m ρ c main_arg0 (by decide)).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) :=
  (W5_keep m ρ c main_arg0 (by decide)).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W7_arg0 (c : Dev nD) : W7 m ρ c (Proc.devRef .tc main_arg0) = m ((c : Thread nD τ).loc main_arg0) :=
  (W7_keep m ρ c main_arg0 (by decide)).trans (W6_arg0 m ρ c)
theorem W8_arg0 (c : Dev nD) : W8 m ρ c (Proc.devRef .tc main_arg0) = m ((c : Thread nD τ).loc main_arg0) :=
  (W8_of_ne m ρ c main_arg0 (by decide)).trans (W7_arg0 m ρ c)
theorem W9_arg0 (c : Dev nD) : W9 m ρ c (Proc.devRef .tc main_arg0) = m ((c : Thread nD τ).loc main_arg0) :=
  (W9_keep m ρ c main_arg0 (by decide)).trans (W8_arg0 m ρ c)
theorem W10_arg0 (c : Dev nD) : W10 m ρ c (Proc.devRef .tc main_arg0) = m ((c : Thread nD τ).loc main_arg0) :=
  (W10_keep m ρ c main_arg0 (by decide)).trans (W9_arg0 m ρ c)
theorem W11_arg0 (c : Dev nD) : W11 m ρ c (Proc.devRef .tc main_arg0) = m ((c : Thread nD τ).loc main_arg0) :=
  (W11_keep m ρ c main_arg0 (by decide)).trans (W10_arg0 m ρ c)
theorem W12_arg0 (c : Dev nD) : W12 m ρ c (Proc.devRef .tc main_arg0) = m ((c : Thread nD τ).loc main_arg0) :=
  (W12_keep m ρ c main_arg0 (by decide)).trans (W11_arg0 m ρ c)
theorem W13_arg0 (c : Dev nD) : W13 m ρ c (Proc.devRef .tc main_arg0) = m ((c : Thread nD τ).loc main_arg0) :=
  (W13_keep m ρ c main_arg0 (by decide)).trans (W12_arg0 m ρ c)
theorem W14_arg0 (c : Dev nD) : W14 m ρ c (Proc.devRef .tc main_arg0) = m ((c : Thread nD τ).loc main_arg0) :=
  (W14_of_ne m ρ c main_arg0 (by decide)).trans (W13_arg0 m ρ c)
theorem W15_arg0 (c : Dev nD) : W15 m ρ c (Proc.devRef .tc main_arg0) = m ((c : Thread nD τ).loc main_arg0) :=
  (W15_keep m ρ c main_arg0 (by decide)).trans (W14_arg0 m ρ c)
theorem W16_arg0 (c : Dev nD) : W16 m ρ c (Proc.devRef .tc main_arg0) = m ((c : Thread nD τ).loc main_arg0) :=
  (W16_keep m ρ c main_arg0 (by decide)).trans (W15_arg0 m ρ c)
theorem W17_arg0 (c : Dev nD) : W17 m ρ c (Proc.devRef .tc main_arg0) = m ((c : Thread nD τ).loc main_arg0) :=
  (W17_keep m ρ c main_arg0 (by decide)).trans (W16_arg0 m ρ c)
theorem W18_arg0 (c : Dev nD) : W18 m ρ c (Proc.devRef .tc main_arg0) = m ((c : Thread nD τ).loc main_arg0) :=
  (W18_keep m ρ c main_arg0 (by decide)).trans (W17_arg0 m ρ c)
theorem W19_arg0 (c : Dev nD) : W19 m ρ c (Proc.devRef .tc main_arg0) = m ((c : Thread nD τ).loc main_arg0) :=
  (W19_keep m ρ c main_arg0 (by decide)).trans (W18_arg0 m ρ c)
theorem W20_arg0 (c : Dev nD) : W20 m ρ c (Proc.devRef .tc main_arg0) = m ((c : Thread nD τ).loc main_arg0) :=
  (W20_of_ne m ρ c main_arg0 (by decide)).trans (W19_arg0 m ρ c)
theorem W21_arg0 (c : Dev nD) : W21 m ρ c (Proc.devRef .tc main_arg0) = m ((c : Thread nD τ).loc main_arg0) :=
  (W21_keep m ρ c main_arg0 (by decide)).trans (W20_arg0 m ρ c)
theorem W22_arg0 (c : Dev nD) : W22 m ρ c (Proc.devRef .tc main_arg0) = m ((c : Thread nD τ).loc main_arg0) :=
  (W22_keep m ρ c main_arg0 (by decide)).trans (W21_arg0 m ρ c)
theorem W23_arg0 (c : Dev nD) : W23 m ρ c (Proc.devRef .tc main_arg0) = m ((c : Thread nD τ).loc main_arg0) :=
  (W23_keep m ρ c main_arg0 (by decide)).trans (W22_arg0 m ρ c)
theorem W24_arg0 (c : Dev nD) : W24 m ρ c (Proc.devRef .tc main_arg0) = m ((c : Thread nD τ).loc main_arg0) :=
  (W24_keep m ρ c main_arg0 (by decide)).trans (W23_arg0 m ρ c)
theorem W25_arg0 (c : Dev nD) : W25 m ρ c (Proc.devRef .tc main_arg0) = m ((c : Thread nD τ).loc main_arg0) :=
  (W25_keep m ρ c main_arg0 (by decide)).trans (W24_arg0 m ρ c)
theorem W26_arg0 (c : Dev nD) : W26 m ρ c (Proc.devRef .tc main_arg0) = m ((c : Thread nD τ).loc main_arg0) :=
  (W26_of_ne m ρ c main_arg0 (by decide)).trans (W25_arg0 m ρ c)
theorem W27_arg0 (c : Dev nD) : W27 m ρ c (Proc.devRef .tc main_arg0) = m ((c : Thread nD τ).loc main_arg0) :=
  (W27_keep m ρ c main_arg0 (by decide)).trans (W26_arg0 m ρ c)
theorem W28_arg0 (c : Dev nD) : W28 m ρ c (Proc.devRef .tc main_arg0) = m ((c : Thread nD τ).loc main_arg0) :=
  (W28_keep m ρ c main_arg0 (by decide)).trans (W27_arg0 m ρ c)
theorem W29_arg0 (c : Dev nD) : W29 m ρ c (Proc.devRef .tc main_arg0) = m ((c : Thread nD τ).loc main_arg0) :=
  (W29_keep m ρ c main_arg0 (by decide)).trans (W28_arg0 m ρ c)
theorem W30_arg0 (c : Dev nD) : W30 m ρ c (Proc.devRef .tc main_arg0) = m ((c : Thread nD τ).loc main_arg0) :=
  (W30_keep m ρ c main_arg0 (by decide)).trans (W29_arg0 m ρ c)
theorem W31_arg0 (c : Dev nD) : W31 m ρ c (Proc.devRef .tc main_arg0) = m ((c : Thread nD τ).loc main_arg0) :=
  (W31_keep m ρ c main_arg0 (by decide)).trans (W30_arg0 m ρ c)
theorem W32_arg0 (c : Dev nD) : W32 m ρ c (Proc.devRef .tc main_arg0) = m ((c : Thread nD τ).loc main_arg0) :=
  (W32_of_ne m ρ c main_arg0 (by decide)).trans (W31_arg0 m ρ c)
theorem W33_arg0 (c : Dev nD) : W33 m ρ c (Proc.devRef .tc main_arg0) = m ((c : Thread nD τ).loc main_arg0) :=
  (W33_keep m ρ c main_arg0 (by decide)).trans (W32_arg0 m ρ c)
theorem W34_arg0 (c : Dev nD) : W34 m ρ c (Proc.devRef .tc main_arg0) = m ((c : Thread nD τ).loc main_arg0) :=
  (W34_keep m ρ c main_arg0 (by decide)).trans (W33_arg0 m ρ c)
theorem W35_arg0 (c : Dev nD) : W35 m ρ c (Proc.devRef .tc main_arg0) = m ((c : Thread nD τ).loc main_arg0) :=
  (W35_keep m ρ c main_arg0 (by decide)).trans (W34_arg0 m ρ c)
theorem W36_arg0 (c : Dev nD) : W36 m ρ c (Proc.devRef .tc main_arg0) = m ((c : Thread nD τ).loc main_arg0) :=
  (W36_keep m ρ c main_arg0 (by decide)).trans (W35_arg0 m ρ c)
theorem W37_arg0 (c : Dev nD) : W37 m ρ c (Proc.devRef .tc main_arg0) = m ((c : Thread nD τ).loc main_arg0) :=
  (W37_keep m ρ c main_arg0 (by decide)).trans (W36_arg0 m ρ c)
theorem W38_arg0 (c : Dev nD) : W38 m ρ c (Proc.devRef .tc main_arg0) = m ((c : Thread nD τ).loc main_arg0) :=
  (W38_of_ne m ρ c main_arg0 (by decide)).trans (W37_arg0 m ρ c)
theorem W39_arg0 (c : Dev nD) : W39 m ρ c (Proc.devRef .tc main_arg0) = m ((c : Thread nD τ).loc main_arg0) :=
  (W39_keep m ρ c main_arg0 (by decide)).trans (W38_arg0 m ρ c)
theorem W40_arg0 (c : Dev nD) : W40 m ρ c (Proc.devRef .tc main_arg0) = m ((c : Thread nD τ).loc main_arg0) :=
  (W40_keep m ρ c main_arg0 (by decide)).trans (W39_arg0 m ρ c)
theorem W41_arg0 (c : Dev nD) : W41 m ρ c (Proc.devRef .tc main_arg0) = m ((c : Thread nD τ).loc main_arg0) :=
  (W41_keep m ρ c main_arg0 (by decide)).trans (W40_arg0 m ρ c)
theorem W42_arg0 (c : Dev nD) : W42 m ρ c (Proc.devRef .tc main_arg0) = m ((c : Thread nD τ).loc main_arg0) :=
  (W42_keep m ρ c main_arg0 (by decide)).trans (W41_arg0 m ρ c)
theorem W43_arg0 (c : Dev nD) : W43 m ρ c (Proc.devRef .tc main_arg0) = m ((c : Thread nD τ).loc main_arg0) :=
  (W43_keep m ρ c main_arg0 (by decide)).trans (W42_arg0 m ρ c)
theorem W44_arg0 (c : Dev nD) : W44 m ρ c (Proc.devRef .tc main_arg0) = m ((c : Thread nD τ).loc main_arg0) :=
  (W44_of_ne m ρ c main_arg0 (by decide)).trans (W43_arg0 m ρ c)
theorem W45_arg0 (c : Dev nD) : W45 m ρ c (Proc.devRef .tc main_arg0) = m ((c : Thread nD τ).loc main_arg0) :=
  (W45_keep m ρ c main_arg0 (by decide)).trans (W44_arg0 m ρ c)
theorem W46_arg0 (c : Dev nD) : W46 m ρ c (Proc.devRef .tc main_arg0) = m ((c : Thread nD τ).loc main_arg0) :=
  (W46_of_ne m ρ c main_arg0 (by decide)).trans (W45_arg0 m ρ c)
theorem W47_arg0 (c : Dev nD) : W47 m ρ c (Proc.devRef .tc main_arg0) = m ((c : Thread nD τ).loc main_arg0) :=
  (W47_keep m ρ c main_arg0 (by decide)).trans (W46_arg0 m ρ c)
theorem W48_arg0 (c : Dev nD) : W48 m ρ c (Proc.devRef .tc main_arg0) = m ((c : Thread nD τ).loc main_arg0) :=
  (W48_of_ne m ρ c main_arg0 (by decide)).trans (W47_arg0 m ρ c)
theorem W49_arg0 (c : Dev nD) : W49 m ρ c (Proc.devRef .tc main_arg0) = m ((c : Thread nD τ).loc main_arg0) :=
  (W49_keep m ρ c main_arg0 (by decide)).trans (W48_arg0 m ρ c)
theorem W50_arg0 (c : Dev nD) : W50 m ρ c (Proc.devRef .tc main_arg0) = m ((c : Thread nD τ).loc main_arg0) :=
  (W50_of_ne m ρ c main_arg0 (by decide)).trans (W49_arg0 m ρ c)
theorem W51_arg0 (c : Dev nD) : W51 m ρ c (Proc.devRef .tc main_arg0) = m ((c : Thread nD τ).loc main_arg0) :=
  (W51_keep m ρ c main_arg0 (by decide)).trans (W50_arg0 m ρ c)
theorem W52_arg0 (c : Dev nD) : W52 m ρ c (Proc.devRef .tc main_arg0) = m ((c : Thread nD τ).loc main_arg0) :=
  (W52_keep m ρ c main_arg0 (by decide)).trans (W51_arg0 m ρ c)
theorem W53_arg0 (c : Dev nD) : W53 m ρ c (Proc.devRef .tc main_arg0) = m ((c : Thread nD τ).loc main_arg0) :=
  (W53_keep m ρ c main_arg0 (by decide)).trans (W52_arg0 m ρ c)
theorem W54_arg0 (c : Dev nD) : W54 m ρ c (Proc.devRef .tc main_arg0) = m ((c : Thread nD τ).loc main_arg0) :=
  (W54_keep m ρ c main_arg0 (by decide)).trans (W53_arg0 m ρ c)
theorem W55_arg0 (c : Dev nD) : W55 m ρ c (Proc.devRef .tc main_arg0) = m ((c : Thread nD τ).loc main_arg0) :=
  (W55_keep m ρ c main_arg0 (by decide)).trans (W54_arg0 m ρ c)
theorem W56_arg0 (c : Dev nD) : W56 m ρ c (Proc.devRef .tc main_arg0) = m ((c : Thread nD τ).loc main_arg0) :=
  (W56_of_ne m ρ c main_arg0 (by decide)).trans (W55_arg0 m ρ c)
theorem W57_arg0 (c : Dev nD) : W57 m ρ c (Proc.devRef .tc main_arg0) = m ((c : Thread nD τ).loc main_arg0) :=
  (W57_keep m ρ c main_arg0 (by decide)).trans (W56_arg0 m ρ c)
theorem W58_arg0 (c : Dev nD) : W58 m ρ c (Proc.devRef .tc main_arg0) = m ((c : Thread nD τ).loc main_arg0) :=
  (W58_keep m ρ c main_arg0 (by decide)).trans (W57_arg0 m ρ c)
theorem W59_arg0 (c : Dev nD) : W59 m ρ c (Proc.devRef .tc main_arg0) = m ((c : Thread nD τ).loc main_arg0) :=
  (W59_keep m ρ c main_arg0 (by decide)).trans (W58_arg0 m ρ c)
theorem W60_arg0 (c : Dev nD) : W60 m ρ c (Proc.devRef .tc main_arg0) = m ((c : Thread nD τ).loc main_arg0) :=
  (W60_keep m ρ c main_arg0 (by decide)).trans (W59_arg0 m ρ c)
theorem W61_arg0 (c : Dev nD) : W61 m ρ c (Proc.devRef .tc main_arg0) = m ((c : Thread nD τ).loc main_arg0) :=
  (W61_keep m ρ c main_arg0 (by decide)).trans (W60_arg0 m ρ c)
theorem W62_arg0 (c : Dev nD) : W62 m ρ c (Proc.devRef .tc main_arg0) = m ((c : Thread nD τ).loc main_arg0) :=
  (W62_of_ne m ρ c main_arg0 (by decide)).trans (W61_arg0 m ρ c)
theorem W63_arg0 (c : Dev nD) : W63 m ρ c (Proc.devRef .tc main_arg0) = m ((c : Thread nD τ).loc main_arg0) :=
  (W63_keep m ρ c main_arg0 (by decide)).trans (W62_arg0 m ρ c)
theorem W64_arg0 (c : Dev nD) : W64 m ρ c (Proc.devRef .tc main_arg0) = m ((c : Thread nD τ).loc main_arg0) :=
  (W64_keep m ρ c main_arg0 (by decide)).trans (W63_arg0 m ρ c)
theorem W65_arg0 (c : Dev nD) : W65 m ρ c (Proc.devRef .tc main_arg0) = m ((c : Thread nD τ).loc main_arg0) :=
  (W65_keep m ρ c main_arg0 (by decide)).trans (W64_arg0 m ρ c)
theorem W66_arg0 (c : Dev nD) : W66 m ρ c (Proc.devRef .tc main_arg0) = m ((c : Thread nD τ).loc main_arg0) :=
  (W66_keep m ρ c main_arg0 (by decide)).trans (W65_arg0 m ρ c)
theorem W67_arg0 (c : Dev nD) : W67 m ρ c (Proc.devRef .tc main_arg0) = m ((c : Thread nD τ).loc main_arg0) :=
  (W67_keep m ρ c main_arg0 (by decide)).trans (W66_arg0 m ρ c)
theorem W68_arg0 (c : Dev nD) : W68 m ρ c (Proc.devRef .tc main_arg0) = m ((c : Thread nD τ).loc main_arg0) :=
  (W68_of_ne m ρ c main_arg0 (by decide)).trans (W67_arg0 m ρ c)
theorem W69_arg0 (c : Dev nD) : W69 m ρ c (Proc.devRef .tc main_arg0) = m ((c : Thread nD τ).loc main_arg0) :=
  (W69_keep m ρ c main_arg0 (by decide)).trans (W68_arg0 m ρ c)
theorem W70_arg0 (c : Dev nD) : W70 m ρ c (Proc.devRef .tc main_arg0) = m ((c : Thread nD τ).loc main_arg0) :=
  (W70_keep m ρ c main_arg0 (by decide)).trans (W69_arg0 m ρ c)
theorem W71_arg0 (c : Dev nD) : W71 m ρ c (Proc.devRef .tc main_arg0) = m ((c : Thread nD τ).loc main_arg0) :=
  (W71_keep m ρ c main_arg0 (by decide)).trans (W70_arg0 m ρ c)
theorem W72_arg0 (c : Dev nD) : W72 m ρ c (Proc.devRef .tc main_arg0) = m ((c : Thread nD τ).loc main_arg0) :=
  (W72_keep m ρ c main_arg0 (by decide)).trans (W71_arg0 m ρ c)
theorem W73_arg0 (c : Dev nD) : W73 m ρ c (Proc.devRef .tc main_arg0) = m ((c : Thread nD τ).loc main_arg0) :=
  (W73_keep m ρ c main_arg0 (by decide)).trans (W72_arg0 m ρ c)
theorem W74_arg0 (c : Dev nD) : W74 m ρ c (Proc.devRef .tc main_arg0) = m ((c : Thread nD τ).loc main_arg0) :=
  (W74_of_ne m ρ c main_arg0 (by decide)).trans (W73_arg0 m ρ c)
theorem W75_arg0 (c : Dev nD) : W75 m ρ c (Proc.devRef .tc main_arg0) = m ((c : Thread nD τ).loc main_arg0) :=
  (W75_keep m ρ c main_arg0 (by decide)).trans (W74_arg0 m ρ c)
theorem W76_arg0 (c : Dev nD) : W76 m ρ c (Proc.devRef .tc main_arg0) = m ((c : Thread nD τ).loc main_arg0) :=
  (W76_keep m ρ c main_arg0 (by decide)).trans (W75_arg0 m ρ c)
theorem W77_arg0 (c : Dev nD) : W77 m ρ c (Proc.devRef .tc main_arg0) = m ((c : Thread nD τ).loc main_arg0) :=
  (W77_keep m ρ c main_arg0 (by decide)).trans (W76_arg0 m ρ c)
theorem W78_arg0 (c : Dev nD) : W78 m ρ c (Proc.devRef .tc main_arg0) = m ((c : Thread nD τ).loc main_arg0) :=
  (W78_keep m ρ c main_arg0 (by decide)).trans (W77_arg0 m ρ c)
theorem W79_arg0 (c : Dev nD) : W79 m ρ c (Proc.devRef .tc main_arg0) = m ((c : Thread nD τ).loc main_arg0) :=
  (W79_keep m ρ c main_arg0 (by decide)).trans (W78_arg0 m ρ c)
theorem W80_arg0 (c : Dev nD) : W80 m ρ c (Proc.devRef .tc main_arg0) = m ((c : Thread nD τ).loc main_arg0) :=
  (W80_of_ne m ρ c main_arg0 (by decide)).trans (W79_arg0 m ρ c)
theorem W81_arg0 (c : Dev nD) : W81 m ρ c (Proc.devRef .tc main_arg0) = m ((c : Thread nD τ).loc main_arg0) :=
  (W81_keep m ρ c main_arg0 (by decide)).trans (W80_arg0 m ρ c)
theorem W82_arg0 (c : Dev nD) : W82 m ρ c (Proc.devRef .tc main_arg0) = m ((c : Thread nD τ).loc main_arg0) :=
  (W82_keep m ρ c main_arg0 (by decide)).trans (W81_arg0 m ρ c)
theorem W83_arg0 (c : Dev nD) : W83 m ρ c (Proc.devRef .tc main_arg0) = m ((c : Thread nD τ).loc main_arg0) :=
  (W83_keep m ρ c main_arg0 (by decide)).trans (W82_arg0 m ρ c)
theorem W84_arg0 (c : Dev nD) : W84 m ρ c (Proc.devRef .tc main_arg0) = m ((c : Thread nD τ).loc main_arg0) :=
  (W84_keep m ρ c main_arg0 (by decide)).trans (W83_arg0 m ρ c)
theorem W85_arg0 (c : Dev nD) : W85 m ρ c (Proc.devRef .tc main_arg0) = m ((c : Thread nD τ).loc main_arg0) :=
  (W85_keep m ρ c main_arg0 (by decide)).trans (W84_arg0 m ρ c)
theorem W86_arg0 (c : Dev nD) : W86 m ρ c (Proc.devRef .tc main_arg0) = m ((c : Thread nD τ).loc main_arg0) :=
  (W86_of_ne m ρ c main_arg0 (by decide)).trans (W85_arg0 m ρ c)
theorem W87_arg0 (c : Dev nD) : W87 m ρ c (Proc.devRef .tc main_arg0) = m ((c : Thread nD τ).loc main_arg0) :=
  (W87_keep m ρ c main_arg0 (by decide)).trans (W86_arg0 m ρ c)
theorem W88_arg0 (c : Dev nD) : W88 m ρ c (Proc.devRef .tc main_arg0) = m ((c : Thread nD τ).loc main_arg0) :=
  (W88_of_ne m ρ c main_arg0 (by decide)).trans (W87_arg0 m ρ c)
theorem W89_arg0 (c : Dev nD) : W89 m ρ c (Proc.devRef .tc main_arg0) = m ((c : Thread nD τ).loc main_arg0) :=
  (W89_keep m ρ c main_arg0 (by decide)).trans (W88_arg0 m ρ c)
theorem W90_arg0 (c : Dev nD) : W90 m ρ c (Proc.devRef .tc main_arg0) = m ((c : Thread nD τ).loc main_arg0) :=
  (W90_of_ne m ρ c main_arg0 (by decide)).trans (W89_arg0 m ρ c)
theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) :=
  (W1_keep m ρ c main_arg1 (by decide)).trans (W0_arg1 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_keep m ρ c main_arg1 (by decide)).trans (W2_arg1 m ρ c)
theorem W4_arg1 (c : Dev nD) : W4 m ρ c (Proc.devRef .tc main_arg1) = m ((c : Thread nD τ).loc main_arg1) :=
  (W4_in0 m ρ c).trans (W3_arg1 m ρ c)
theorem W5_arg1 (c : Dev nD) : W5 m ρ c (Proc.devRef .tc main_arg1) = m ((c : Thread nD τ).loc main_arg1) :=
  (W5_keep m ρ c main_arg1 (by decide)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (W7_keep m ρ c main_arg1 (by decide)).trans (W6_arg1 m ρ c)
theorem W8_arg1 (c : Dev nD) : W8 m ρ c (Proc.devRef .tc main_arg1) = m ((c : Thread nD τ).loc main_arg1) :=
  (W8_of_ne m ρ c main_arg1 (by decide)).trans (W7_arg1 m ρ c)
theorem W9_arg1 (c : Dev nD) : W9 m ρ c (Proc.devRef .tc main_arg1) = m ((c : Thread nD τ).loc main_arg1) :=
  (W9_keep m ρ c main_arg1 (by decide)).trans (W8_arg1 m ρ c)
theorem W10_arg1 (c : Dev nD) : W10 m ρ c (Proc.devRef .tc main_arg1) = m ((c : Thread nD τ).loc main_arg1) :=
  (W10_keep m ρ c main_arg1 (by decide)).trans (W9_arg1 m ρ c)
theorem W11_arg1 (c : Dev nD) : W11 m ρ c (Proc.devRef .tc main_arg1) = m ((c : Thread nD τ).loc main_arg1) :=
  (W11_keep m ρ c main_arg1 (by decide)).trans (W10_arg1 m ρ c)
theorem W12_arg1 (c : Dev nD) : W12 m ρ c (Proc.devRef .tc main_arg1) = m ((c : Thread nD τ).loc main_arg1) :=
  (W12_keep m ρ c main_arg1 (by decide)).trans (W11_arg1 m ρ c)
theorem W13_arg1 (c : Dev nD) : W13 m ρ c (Proc.devRef .tc main_arg1) = m ((c : Thread nD τ).loc main_arg1) :=
  (W13_keep m ρ c main_arg1 (by decide)).trans (W12_arg1 m ρ c)
theorem W14_arg1 (c : Dev nD) : W14 m ρ c (Proc.devRef .tc main_arg1) = m ((c : Thread nD τ).loc main_arg1) :=
  (W14_of_ne m ρ c main_arg1 (by decide)).trans (W13_arg1 m ρ c)
theorem W15_arg1 (c : Dev nD) : W15 m ρ c (Proc.devRef .tc main_arg1) = m ((c : Thread nD τ).loc main_arg1) :=
  (W15_keep m ρ c main_arg1 (by decide)).trans (W14_arg1 m ρ c)
theorem W16_arg1 (c : Dev nD) : W16 m ρ c (Proc.devRef .tc main_arg1) = m ((c : Thread nD τ).loc main_arg1) :=
  (W16_keep m ρ c main_arg1 (by decide)).trans (W15_arg1 m ρ c)
theorem W17_arg1 (c : Dev nD) : W17 m ρ c (Proc.devRef .tc main_arg1) = m ((c : Thread nD τ).loc main_arg1) :=
  (W17_keep m ρ c main_arg1 (by decide)).trans (W16_arg1 m ρ c)
theorem W18_arg1 (c : Dev nD) : W18 m ρ c (Proc.devRef .tc main_arg1) = m ((c : Thread nD τ).loc main_arg1) :=
  (W18_keep m ρ c main_arg1 (by decide)).trans (W17_arg1 m ρ c)
theorem W19_arg1 (c : Dev nD) : W19 m ρ c (Proc.devRef .tc main_arg1) = m ((c : Thread nD τ).loc main_arg1) :=
  (W19_keep m ρ c main_arg1 (by decide)).trans (W18_arg1 m ρ c)
theorem W20_arg1 (c : Dev nD) : W20 m ρ c (Proc.devRef .tc main_arg1) = m ((c : Thread nD τ).loc main_arg1) :=
  (W20_of_ne m ρ c main_arg1 (by decide)).trans (W19_arg1 m ρ c)
theorem W21_arg1 (c : Dev nD) : W21 m ρ c (Proc.devRef .tc main_arg1) = m ((c : Thread nD τ).loc main_arg1) :=
  (W21_keep m ρ c main_arg1 (by decide)).trans (W20_arg1 m ρ c)
theorem W22_arg1 (c : Dev nD) : W22 m ρ c (Proc.devRef .tc main_arg1) = m ((c : Thread nD τ).loc main_arg1) :=
  (W22_keep m ρ c main_arg1 (by decide)).trans (W21_arg1 m ρ c)
theorem W23_arg1 (c : Dev nD) : W23 m ρ c (Proc.devRef .tc main_arg1) = m ((c : Thread nD τ).loc main_arg1) :=
  (W23_keep m ρ c main_arg1 (by decide)).trans (W22_arg1 m ρ c)
theorem W24_arg1 (c : Dev nD) : W24 m ρ c (Proc.devRef .tc main_arg1) = m ((c : Thread nD τ).loc main_arg1) :=
  (W24_keep m ρ c main_arg1 (by decide)).trans (W23_arg1 m ρ c)
theorem W25_arg1 (c : Dev nD) : W25 m ρ c (Proc.devRef .tc main_arg1) = m ((c : Thread nD τ).loc main_arg1) :=
  (W25_keep m ρ c main_arg1 (by decide)).trans (W24_arg1 m ρ c)
theorem W26_arg1 (c : Dev nD) : W26 m ρ c (Proc.devRef .tc main_arg1) = m ((c : Thread nD τ).loc main_arg1) :=
  (W26_of_ne m ρ c main_arg1 (by decide)).trans (W25_arg1 m ρ c)
theorem W27_arg1 (c : Dev nD) : W27 m ρ c (Proc.devRef .tc main_arg1) = m ((c : Thread nD τ).loc main_arg1) :=
  (W27_keep m ρ c main_arg1 (by decide)).trans (W26_arg1 m ρ c)
theorem W28_arg1 (c : Dev nD) : W28 m ρ c (Proc.devRef .tc main_arg1) = m ((c : Thread nD τ).loc main_arg1) :=
  (W28_keep m ρ c main_arg1 (by decide)).trans (W27_arg1 m ρ c)
theorem W29_arg1 (c : Dev nD) : W29 m ρ c (Proc.devRef .tc main_arg1) = m ((c : Thread nD τ).loc main_arg1) :=
  (W29_keep m ρ c main_arg1 (by decide)).trans (W28_arg1 m ρ c)
theorem W30_arg1 (c : Dev nD) : W30 m ρ c (Proc.devRef .tc main_arg1) = m ((c : Thread nD τ).loc main_arg1) :=
  (W30_keep m ρ c main_arg1 (by decide)).trans (W29_arg1 m ρ c)
theorem W31_arg1 (c : Dev nD) : W31 m ρ c (Proc.devRef .tc main_arg1) = m ((c : Thread nD τ).loc main_arg1) :=
  (W31_keep m ρ c main_arg1 (by decide)).trans (W30_arg1 m ρ c)
theorem W32_arg1 (c : Dev nD) : W32 m ρ c (Proc.devRef .tc main_arg1) = m ((c : Thread nD τ).loc main_arg1) :=
  (W32_of_ne m ρ c main_arg1 (by decide)).trans (W31_arg1 m ρ c)
theorem W33_arg1 (c : Dev nD) : W33 m ρ c (Proc.devRef .tc main_arg1) = m ((c : Thread nD τ).loc main_arg1) :=
  (W33_keep m ρ c main_arg1 (by decide)).trans (W32_arg1 m ρ c)
theorem W34_arg1 (c : Dev nD) : W34 m ρ c (Proc.devRef .tc main_arg1) = m ((c : Thread nD τ).loc main_arg1) :=
  (W34_keep m ρ c main_arg1 (by decide)).trans (W33_arg1 m ρ c)
theorem W35_arg1 (c : Dev nD) : W35 m ρ c (Proc.devRef .tc main_arg1) = m ((c : Thread nD τ).loc main_arg1) :=
  (W35_keep m ρ c main_arg1 (by decide)).trans (W34_arg1 m ρ c)
theorem W36_arg1 (c : Dev nD) : W36 m ρ c (Proc.devRef .tc main_arg1) = m ((c : Thread nD τ).loc main_arg1) :=
  (W36_keep m ρ c main_arg1 (by decide)).trans (W35_arg1 m ρ c)
theorem W37_arg1 (c : Dev nD) : W37 m ρ c (Proc.devRef .tc main_arg1) = m ((c : Thread nD τ).loc main_arg1) :=
  (W37_keep m ρ c main_arg1 (by decide)).trans (W36_arg1 m ρ c)
theorem W38_arg1 (c : Dev nD) : W38 m ρ c (Proc.devRef .tc main_arg1) = m ((c : Thread nD τ).loc main_arg1) :=
  (W38_of_ne m ρ c main_arg1 (by decide)).trans (W37_arg1 m ρ c)
theorem W39_arg1 (c : Dev nD) : W39 m ρ c (Proc.devRef .tc main_arg1) = m ((c : Thread nD τ).loc main_arg1) :=
  (W39_keep m ρ c main_arg1 (by decide)).trans (W38_arg1 m ρ c)
theorem W40_arg1 (c : Dev nD) : W40 m ρ c (Proc.devRef .tc main_arg1) = m ((c : Thread nD τ).loc main_arg1) :=
  (W40_keep m ρ c main_arg1 (by decide)).trans (W39_arg1 m ρ c)
theorem W41_arg1 (c : Dev nD) : W41 m ρ c (Proc.devRef .tc main_arg1) = m ((c : Thread nD τ).loc main_arg1) :=
  (W41_keep m ρ c main_arg1 (by decide)).trans (W40_arg1 m ρ c)
theorem W42_arg1 (c : Dev nD) : W42 m ρ c (Proc.devRef .tc main_arg1) = m ((c : Thread nD τ).loc main_arg1) :=
  (W42_keep m ρ c main_arg1 (by decide)).trans (W41_arg1 m ρ c)
theorem W43_arg1 (c : Dev nD) : W43 m ρ c (Proc.devRef .tc main_arg1) = m ((c : Thread nD τ).loc main_arg1) :=
  (W43_keep m ρ c main_arg1 (by decide)).trans (W42_arg1 m ρ c)
theorem W44_arg1 (c : Dev nD) : W44 m ρ c (Proc.devRef .tc main_arg1) = m ((c : Thread nD τ).loc main_arg1) :=
  (W44_of_ne m ρ c main_arg1 (by decide)).trans (W43_arg1 m ρ c)
theorem W45_arg1 (c : Dev nD) : W45 m ρ c (Proc.devRef .tc main_arg1) = m ((c : Thread nD τ).loc main_arg1) :=
  (W45_keep m ρ c main_arg1 (by decide)).trans (W44_arg1 m ρ c)
theorem W46_arg1 (c : Dev nD) : W46 m ρ c (Proc.devRef .tc main_arg1) = m ((c : Thread nD τ).loc main_arg1) :=
  (W46_of_ne m ρ c main_arg1 (by decide)).trans (W45_arg1 m ρ c)
theorem W47_arg1 (c : Dev nD) : W47 m ρ c (Proc.devRef .tc main_arg1) = m ((c : Thread nD τ).loc main_arg1) :=
  (W47_keep m ρ c main_arg1 (by decide)).trans (W46_arg1 m ρ c)
theorem W48_arg1 (c : Dev nD) : W48 m ρ c (Proc.devRef .tc main_arg1) = m ((c : Thread nD τ).loc main_arg1) :=
  (W48_of_ne m ρ c main_arg1 (by decide)).trans (W47_arg1 m ρ c)
theorem W49_arg1 (c : Dev nD) : W49 m ρ c (Proc.devRef .tc main_arg1) = m ((c : Thread nD τ).loc main_arg1) :=
  (W49_keep m ρ c main_arg1 (by decide)).trans (W48_arg1 m ρ c)
theorem W50_arg1 (c : Dev nD) : W50 m ρ c (Proc.devRef .tc main_arg1) = m ((c : Thread nD τ).loc main_arg1) :=
  (W50_of_ne m ρ c main_arg1 (by decide)).trans (W49_arg1 m ρ c)
theorem W51_arg1 (c : Dev nD) : W51 m ρ c (Proc.devRef .tc main_arg1) = m ((c : Thread nD τ).loc main_arg1) :=
  (W51_keep m ρ c main_arg1 (by decide)).trans (W50_arg1 m ρ c)
theorem W52_arg1 (c : Dev nD) : W52 m ρ c (Proc.devRef .tc main_arg1) = m ((c : Thread nD τ).loc main_arg1) :=
  (W52_keep m ρ c main_arg1 (by decide)).trans (W51_arg1 m ρ c)
theorem W53_arg1 (c : Dev nD) : W53 m ρ c (Proc.devRef .tc main_arg1) = m ((c : Thread nD τ).loc main_arg1) :=
  (W53_keep m ρ c main_arg1 (by decide)).trans (W52_arg1 m ρ c)
theorem W54_arg1 (c : Dev nD) : W54 m ρ c (Proc.devRef .tc main_arg1) = m ((c : Thread nD τ).loc main_arg1) :=
  (W54_keep m ρ c main_arg1 (by decide)).trans (W53_arg1 m ρ c)
theorem W55_arg1 (c : Dev nD) : W55 m ρ c (Proc.devRef .tc main_arg1) = m ((c : Thread nD τ).loc main_arg1) :=
  (W55_keep m ρ c main_arg1 (by decide)).trans (W54_arg1 m ρ c)
theorem W56_arg1 (c : Dev nD) : W56 m ρ c (Proc.devRef .tc main_arg1) = m ((c : Thread nD τ).loc main_arg1) :=
  (W56_of_ne m ρ c main_arg1 (by decide)).trans (W55_arg1 m ρ c)
theorem W57_arg1 (c : Dev nD) : W57 m ρ c (Proc.devRef .tc main_arg1) = m ((c : Thread nD τ).loc main_arg1) :=
  (W57_keep m ρ c main_arg1 (by decide)).trans (W56_arg1 m ρ c)
theorem W58_arg1 (c : Dev nD) : W58 m ρ c (Proc.devRef .tc main_arg1) = m ((c : Thread nD τ).loc main_arg1) :=
  (W58_keep m ρ c main_arg1 (by decide)).trans (W57_arg1 m ρ c)
theorem W59_arg1 (c : Dev nD) : W59 m ρ c (Proc.devRef .tc main_arg1) = m ((c : Thread nD τ).loc main_arg1) :=
  (W59_keep m ρ c main_arg1 (by decide)).trans (W58_arg1 m ρ c)
theorem W60_arg1 (c : Dev nD) : W60 m ρ c (Proc.devRef .tc main_arg1) = m ((c : Thread nD τ).loc main_arg1) :=
  (W60_keep m ρ c main_arg1 (by decide)).trans (W59_arg1 m ρ c)
theorem W61_arg1 (c : Dev nD) : W61 m ρ c (Proc.devRef .tc main_arg1) = m ((c : Thread nD τ).loc main_arg1) :=
  (W61_keep m ρ c main_arg1 (by decide)).trans (W60_arg1 m ρ c)
theorem W62_arg1 (c : Dev nD) : W62 m ρ c (Proc.devRef .tc main_arg1) = m ((c : Thread nD τ).loc main_arg1) :=
  (W62_of_ne m ρ c main_arg1 (by decide)).trans (W61_arg1 m ρ c)
theorem W63_arg1 (c : Dev nD) : W63 m ρ c (Proc.devRef .tc main_arg1) = m ((c : Thread nD τ).loc main_arg1) :=
  (W63_keep m ρ c main_arg1 (by decide)).trans (W62_arg1 m ρ c)
theorem W64_arg1 (c : Dev nD) : W64 m ρ c (Proc.devRef .tc main_arg1) = m ((c : Thread nD τ).loc main_arg1) :=
  (W64_keep m ρ c main_arg1 (by decide)).trans (W63_arg1 m ρ c)
theorem W65_arg1 (c : Dev nD) : W65 m ρ c (Proc.devRef .tc main_arg1) = m ((c : Thread nD τ).loc main_arg1) :=
  (W65_keep m ρ c main_arg1 (by decide)).trans (W64_arg1 m ρ c)
theorem W66_arg1 (c : Dev nD) : W66 m ρ c (Proc.devRef .tc main_arg1) = m ((c : Thread nD τ).loc main_arg1) :=
  (W66_keep m ρ c main_arg1 (by decide)).trans (W65_arg1 m ρ c)
theorem W67_arg1 (c : Dev nD) : W67 m ρ c (Proc.devRef .tc main_arg1) = m ((c : Thread nD τ).loc main_arg1) :=
  (W67_keep m ρ c main_arg1 (by decide)).trans (W66_arg1 m ρ c)
theorem W68_arg1 (c : Dev nD) : W68 m ρ c (Proc.devRef .tc main_arg1) = m ((c : Thread nD τ).loc main_arg1) :=
  (W68_of_ne m ρ c main_arg1 (by decide)).trans (W67_arg1 m ρ c)
theorem W69_arg1 (c : Dev nD) : W69 m ρ c (Proc.devRef .tc main_arg1) = m ((c : Thread nD τ).loc main_arg1) :=
  (W69_keep m ρ c main_arg1 (by decide)).trans (W68_arg1 m ρ c)
theorem W70_arg1 (c : Dev nD) : W70 m ρ c (Proc.devRef .tc main_arg1) = m ((c : Thread nD τ).loc main_arg1) :=
  (W70_keep m ρ c main_arg1 (by decide)).trans (W69_arg1 m ρ c)
theorem W71_arg1 (c : Dev nD) : W71 m ρ c (Proc.devRef .tc main_arg1) = m ((c : Thread nD τ).loc main_arg1) :=
  (W71_keep m ρ c main_arg1 (by decide)).trans (W70_arg1 m ρ c)
theorem W72_arg1 (c : Dev nD) : W72 m ρ c (Proc.devRef .tc main_arg1) = m ((c : Thread nD τ).loc main_arg1) :=
  (W72_keep m ρ c main_arg1 (by decide)).trans (W71_arg1 m ρ c)
theorem W73_arg1 (c : Dev nD) : W73 m ρ c (Proc.devRef .tc main_arg1) = m ((c : Thread nD τ).loc main_arg1) :=
  (W73_keep m ρ c main_arg1 (by decide)).trans (W72_arg1 m ρ c)
theorem W74_arg1 (c : Dev nD) : W74 m ρ c (Proc.devRef .tc main_arg1) = m ((c : Thread nD τ).loc main_arg1) :=
  (W74_of_ne m ρ c main_arg1 (by decide)).trans (W73_arg1 m ρ c)
theorem W75_arg1 (c : Dev nD) : W75 m ρ c (Proc.devRef .tc main_arg1) = m ((c : Thread nD τ).loc main_arg1) :=
  (W75_keep m ρ c main_arg1 (by decide)).trans (W74_arg1 m ρ c)
theorem W76_arg1 (c : Dev nD) : W76 m ρ c (Proc.devRef .tc main_arg1) = m ((c : Thread nD τ).loc main_arg1) :=
  (W76_keep m ρ c main_arg1 (by decide)).trans (W75_arg1 m ρ c)
theorem W77_arg1 (c : Dev nD) : W77 m ρ c (Proc.devRef .tc main_arg1) = m ((c : Thread nD τ).loc main_arg1) :=
  (W77_keep m ρ c main_arg1 (by decide)).trans (W76_arg1 m ρ c)
theorem W78_arg1 (c : Dev nD) : W78 m ρ c (Proc.devRef .tc main_arg1) = m ((c : Thread nD τ).loc main_arg1) :=
  (W78_keep m ρ c main_arg1 (by decide)).trans (W77_arg1 m ρ c)
theorem W79_arg1 (c : Dev nD) : W79 m ρ c (Proc.devRef .tc main_arg1) = m ((c : Thread nD τ).loc main_arg1) :=
  (W79_keep m ρ c main_arg1 (by decide)).trans (W78_arg1 m ρ c)
theorem W80_arg1 (c : Dev nD) : W80 m ρ c (Proc.devRef .tc main_arg1) = m ((c : Thread nD τ).loc main_arg1) :=
  (W80_of_ne m ρ c main_arg1 (by decide)).trans (W79_arg1 m ρ c)
theorem W81_arg1 (c : Dev nD) : W81 m ρ c (Proc.devRef .tc main_arg1) = m ((c : Thread nD τ).loc main_arg1) :=
  (W81_keep m ρ c main_arg1 (by decide)).trans (W80_arg1 m ρ c)
theorem W82_arg1 (c : Dev nD) : W82 m ρ c (Proc.devRef .tc main_arg1) = m ((c : Thread nD τ).loc main_arg1) :=
  (W82_keep m ρ c main_arg1 (by decide)).trans (W81_arg1 m ρ c)
theorem W83_arg1 (c : Dev nD) : W83 m ρ c (Proc.devRef .tc main_arg1) = m ((c : Thread nD τ).loc main_arg1) :=
  (W83_keep m ρ c main_arg1 (by decide)).trans (W82_arg1 m ρ c)
theorem W84_arg1 (c : Dev nD) : W84 m ρ c (Proc.devRef .tc main_arg1) = m ((c : Thread nD τ).loc main_arg1) :=
  (W84_keep m ρ c main_arg1 (by decide)).trans (W83_arg1 m ρ c)
theorem W85_arg1 (c : Dev nD) : W85 m ρ c (Proc.devRef .tc main_arg1) = m ((c : Thread nD τ).loc main_arg1) :=
  (W85_keep m ρ c main_arg1 (by decide)).trans (W84_arg1 m ρ c)
theorem W86_arg1 (c : Dev nD) : W86 m ρ c (Proc.devRef .tc main_arg1) = m ((c : Thread nD τ).loc main_arg1) :=
  (W86_of_ne m ρ c main_arg1 (by decide)).trans (W85_arg1 m ρ c)
theorem W87_arg1 (c : Dev nD) : W87 m ρ c (Proc.devRef .tc main_arg1) = m ((c : Thread nD τ).loc main_arg1) :=
  (W87_keep m ρ c main_arg1 (by decide)).trans (W86_arg1 m ρ c)
theorem W88_arg1 (c : Dev nD) : W88 m ρ c (Proc.devRef .tc main_arg1) = m ((c : Thread nD τ).loc main_arg1) :=
  (W88_of_ne m ρ c main_arg1 (by decide)).trans (W87_arg1 m ρ c)
theorem W89_arg1 (c : Dev nD) : W89 m ρ c (Proc.devRef .tc main_arg1) = m ((c : Thread nD τ).loc main_arg1) :=
  (W89_keep m ρ c main_arg1 (by decide)).trans (W88_arg1 m ρ c)
theorem W90_arg1 (c : Dev nD) : W90 m ρ c (Proc.devRef .tc main_arg1) = m ((c : Thread nD τ).loc main_arg1) :=
  (W90_of_ne m ρ c main_arg1 (by decide)).trans (W89_arg1 m ρ c)
theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (W1_keep m ρ c main_arg2 (by decide)).trans (W0_arg2 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (W3_keep m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (W5_keep m ρ c main_arg2 (by decide)).trans (W4_arg2 m ρ c)
theorem W6_arg2 (c : Dev nD) : W6 m ρ c (Proc.devRef .tc main_arg2) = m ((c : Thread nD τ).loc main_arg2) :=
  (W6_in0 m ρ c).trans (W5_arg2 m ρ c)
theorem W7_arg2 (c : Dev nD) : W7 m ρ c (Proc.devRef .tc main_arg2) = m ((c : Thread nD τ).loc main_arg2) :=
  (W7_keep m ρ c main_arg2 (by decide)).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W9_arg2 (c : Dev nD) : W9 m ρ c (Proc.devRef .tc main_arg2) = m ((c : Thread nD τ).loc main_arg2) :=
  (W9_keep m ρ c main_arg2 (by decide)).trans (W8_arg2 m ρ c)
theorem W10_arg2 (c : Dev nD) : W10 m ρ c (Proc.devRef .tc main_arg2) = m ((c : Thread nD τ).loc main_arg2) :=
  (W10_keep m ρ c main_arg2 (by decide)).trans (W9_arg2 m ρ c)
theorem W11_arg2 (c : Dev nD) : W11 m ρ c (Proc.devRef .tc main_arg2) = m ((c : Thread nD τ).loc main_arg2) :=
  (W11_keep m ρ c main_arg2 (by decide)).trans (W10_arg2 m ρ c)
theorem W12_arg2 (c : Dev nD) : W12 m ρ c (Proc.devRef .tc main_arg2) = m ((c : Thread nD τ).loc main_arg2) :=
  (W12_keep m ρ c main_arg2 (by decide)).trans (W11_arg2 m ρ c)
theorem W13_arg2 (c : Dev nD) : W13 m ρ c (Proc.devRef .tc main_arg2) = m ((c : Thread nD τ).loc main_arg2) :=
  (W13_keep m ρ c main_arg2 (by decide)).trans (W12_arg2 m ρ c)
theorem W14_arg2 (c : Dev nD) : W14 m ρ c (Proc.devRef .tc main_arg2) = m ((c : Thread nD τ).loc main_arg2) :=
  (W14_of_ne m ρ c main_arg2 (by decide)).trans (W13_arg2 m ρ c)
theorem W15_arg2 (c : Dev nD) : W15 m ρ c (Proc.devRef .tc main_arg2) = m ((c : Thread nD τ).loc main_arg2) :=
  (W15_keep m ρ c main_arg2 (by decide)).trans (W14_arg2 m ρ c)
theorem W16_arg2 (c : Dev nD) : W16 m ρ c (Proc.devRef .tc main_arg2) = m ((c : Thread nD τ).loc main_arg2) :=
  (W16_keep m ρ c main_arg2 (by decide)).trans (W15_arg2 m ρ c)
theorem W17_arg2 (c : Dev nD) : W17 m ρ c (Proc.devRef .tc main_arg2) = m ((c : Thread nD τ).loc main_arg2) :=
  (W17_keep m ρ c main_arg2 (by decide)).trans (W16_arg2 m ρ c)
theorem W18_arg2 (c : Dev nD) : W18 m ρ c (Proc.devRef .tc main_arg2) = m ((c : Thread nD τ).loc main_arg2) :=
  (W18_keep m ρ c main_arg2 (by decide)).trans (W17_arg2 m ρ c)
theorem W19_arg2 (c : Dev nD) : W19 m ρ c (Proc.devRef .tc main_arg2) = m ((c : Thread nD τ).loc main_arg2) :=
  (W19_keep m ρ c main_arg2 (by decide)).trans (W18_arg2 m ρ c)
theorem W20_arg2 (c : Dev nD) : W20 m ρ c (Proc.devRef .tc main_arg2) = m ((c : Thread nD τ).loc main_arg2) :=
  (W20_of_ne m ρ c main_arg2 (by decide)).trans (W19_arg2 m ρ c)
theorem W21_arg2 (c : Dev nD) : W21 m ρ c (Proc.devRef .tc main_arg2) = m ((c : Thread nD τ).loc main_arg2) :=
  (W21_keep m ρ c main_arg2 (by decide)).trans (W20_arg2 m ρ c)
theorem W22_arg2 (c : Dev nD) : W22 m ρ c (Proc.devRef .tc main_arg2) = m ((c : Thread nD τ).loc main_arg2) :=
  (W22_keep m ρ c main_arg2 (by decide)).trans (W21_arg2 m ρ c)
theorem W23_arg2 (c : Dev nD) : W23 m ρ c (Proc.devRef .tc main_arg2) = m ((c : Thread nD τ).loc main_arg2) :=
  (W23_keep m ρ c main_arg2 (by decide)).trans (W22_arg2 m ρ c)
theorem W24_arg2 (c : Dev nD) : W24 m ρ c (Proc.devRef .tc main_arg2) = m ((c : Thread nD τ).loc main_arg2) :=
  (W24_keep m ρ c main_arg2 (by decide)).trans (W23_arg2 m ρ c)
theorem W25_arg2 (c : Dev nD) : W25 m ρ c (Proc.devRef .tc main_arg2) = m ((c : Thread nD τ).loc main_arg2) :=
  (W25_keep m ρ c main_arg2 (by decide)).trans (W24_arg2 m ρ c)
theorem W26_arg2 (c : Dev nD) : W26 m ρ c (Proc.devRef .tc main_arg2) = m ((c : Thread nD τ).loc main_arg2) :=
  (W26_of_ne m ρ c main_arg2 (by decide)).trans (W25_arg2 m ρ c)
theorem W27_arg2 (c : Dev nD) : W27 m ρ c (Proc.devRef .tc main_arg2) = m ((c : Thread nD τ).loc main_arg2) :=
  (W27_keep m ρ c main_arg2 (by decide)).trans (W26_arg2 m ρ c)
theorem W28_arg2 (c : Dev nD) : W28 m ρ c (Proc.devRef .tc main_arg2) = m ((c : Thread nD τ).loc main_arg2) :=
  (W28_keep m ρ c main_arg2 (by decide)).trans (W27_arg2 m ρ c)
theorem W29_arg2 (c : Dev nD) : W29 m ρ c (Proc.devRef .tc main_arg2) = m ((c : Thread nD τ).loc main_arg2) :=
  (W29_keep m ρ c main_arg2 (by decide)).trans (W28_arg2 m ρ c)
theorem W30_arg2 (c : Dev nD) : W30 m ρ c (Proc.devRef .tc main_arg2) = m ((c : Thread nD τ).loc main_arg2) :=
  (W30_keep m ρ c main_arg2 (by decide)).trans (W29_arg2 m ρ c)
theorem W31_arg2 (c : Dev nD) : W31 m ρ c (Proc.devRef .tc main_arg2) = m ((c : Thread nD τ).loc main_arg2) :=
  (W31_keep m ρ c main_arg2 (by decide)).trans (W30_arg2 m ρ c)
theorem W32_arg2 (c : Dev nD) : W32 m ρ c (Proc.devRef .tc main_arg2) = m ((c : Thread nD τ).loc main_arg2) :=
  (W32_of_ne m ρ c main_arg2 (by decide)).trans (W31_arg2 m ρ c)
theorem W33_arg2 (c : Dev nD) : W33 m ρ c (Proc.devRef .tc main_arg2) = m ((c : Thread nD τ).loc main_arg2) :=
  (W33_keep m ρ c main_arg2 (by decide)).trans (W32_arg2 m ρ c)
theorem W34_arg2 (c : Dev nD) : W34 m ρ c (Proc.devRef .tc main_arg2) = m ((c : Thread nD τ).loc main_arg2) :=
  (W34_keep m ρ c main_arg2 (by decide)).trans (W33_arg2 m ρ c)
theorem W35_arg2 (c : Dev nD) : W35 m ρ c (Proc.devRef .tc main_arg2) = m ((c : Thread nD τ).loc main_arg2) :=
  (W35_keep m ρ c main_arg2 (by decide)).trans (W34_arg2 m ρ c)
theorem W36_arg2 (c : Dev nD) : W36 m ρ c (Proc.devRef .tc main_arg2) = m ((c : Thread nD τ).loc main_arg2) :=
  (W36_keep m ρ c main_arg2 (by decide)).trans (W35_arg2 m ρ c)
theorem W37_arg2 (c : Dev nD) : W37 m ρ c (Proc.devRef .tc main_arg2) = m ((c : Thread nD τ).loc main_arg2) :=
  (W37_keep m ρ c main_arg2 (by decide)).trans (W36_arg2 m ρ c)
theorem W38_arg2 (c : Dev nD) : W38 m ρ c (Proc.devRef .tc main_arg2) = m ((c : Thread nD τ).loc main_arg2) :=
  (W38_of_ne m ρ c main_arg2 (by decide)).trans (W37_arg2 m ρ c)
theorem W39_arg2 (c : Dev nD) : W39 m ρ c (Proc.devRef .tc main_arg2) = m ((c : Thread nD τ).loc main_arg2) :=
  (W39_keep m ρ c main_arg2 (by decide)).trans (W38_arg2 m ρ c)
theorem W40_arg2 (c : Dev nD) : W40 m ρ c (Proc.devRef .tc main_arg2) = m ((c : Thread nD τ).loc main_arg2) :=
  (W40_keep m ρ c main_arg2 (by decide)).trans (W39_arg2 m ρ c)
theorem W41_arg2 (c : Dev nD) : W41 m ρ c (Proc.devRef .tc main_arg2) = m ((c : Thread nD τ).loc main_arg2) :=
  (W41_keep m ρ c main_arg2 (by decide)).trans (W40_arg2 m ρ c)
theorem W42_arg2 (c : Dev nD) : W42 m ρ c (Proc.devRef .tc main_arg2) = m ((c : Thread nD τ).loc main_arg2) :=
  (W42_keep m ρ c main_arg2 (by decide)).trans (W41_arg2 m ρ c)
theorem W43_arg2 (c : Dev nD) : W43 m ρ c (Proc.devRef .tc main_arg2) = m ((c : Thread nD τ).loc main_arg2) :=
  (W43_keep m ρ c main_arg2 (by decide)).trans (W42_arg2 m ρ c)
theorem W44_arg2 (c : Dev nD) : W44 m ρ c (Proc.devRef .tc main_arg2) = m ((c : Thread nD τ).loc main_arg2) :=
  (W44_of_ne m ρ c main_arg2 (by decide)).trans (W43_arg2 m ρ c)
theorem W45_arg2 (c : Dev nD) : W45 m ρ c (Proc.devRef .tc main_arg2) = m ((c : Thread nD τ).loc main_arg2) :=
  (W45_keep m ρ c main_arg2 (by decide)).trans (W44_arg2 m ρ c)
theorem W46_arg2 (c : Dev nD) : W46 m ρ c (Proc.devRef .tc main_arg2) = m ((c : Thread nD τ).loc main_arg2) :=
  (W46_of_ne m ρ c main_arg2 (by decide)).trans (W45_arg2 m ρ c)
theorem W47_arg2 (c : Dev nD) : W47 m ρ c (Proc.devRef .tc main_arg2) = m ((c : Thread nD τ).loc main_arg2) :=
  (W47_keep m ρ c main_arg2 (by decide)).trans (W46_arg2 m ρ c)
theorem W48_arg2 (c : Dev nD) : W48 m ρ c (Proc.devRef .tc main_arg2) = m ((c : Thread nD τ).loc main_arg2) :=
  (W48_of_ne m ρ c main_arg2 (by decide)).trans (W47_arg2 m ρ c)
theorem W49_arg2 (c : Dev nD) : W49 m ρ c (Proc.devRef .tc main_arg2) = m ((c : Thread nD τ).loc main_arg2) :=
  (W49_keep m ρ c main_arg2 (by decide)).trans (W48_arg2 m ρ c)
theorem W50_arg2 (c : Dev nD) : W50 m ρ c (Proc.devRef .tc main_arg2) = m ((c : Thread nD τ).loc main_arg2) :=
  (W50_of_ne m ρ c main_arg2 (by decide)).trans (W49_arg2 m ρ c)
theorem W51_arg2 (c : Dev nD) : W51 m ρ c (Proc.devRef .tc main_arg2) = m ((c : Thread nD τ).loc main_arg2) :=
  (W51_keep m ρ c main_arg2 (by decide)).trans (W50_arg2 m ρ c)
theorem W52_arg2 (c : Dev nD) : W52 m ρ c (Proc.devRef .tc main_arg2) = m ((c : Thread nD τ).loc main_arg2) :=
  (W52_keep m ρ c main_arg2 (by decide)).trans (W51_arg2 m ρ c)
theorem W53_arg2 (c : Dev nD) : W53 m ρ c (Proc.devRef .tc main_arg2) = m ((c : Thread nD τ).loc main_arg2) :=
  (W53_keep m ρ c main_arg2 (by decide)).trans (W52_arg2 m ρ c)
theorem W54_arg2 (c : Dev nD) : W54 m ρ c (Proc.devRef .tc main_arg2) = m ((c : Thread nD τ).loc main_arg2) :=
  (W54_keep m ρ c main_arg2 (by decide)).trans (W53_arg2 m ρ c)
theorem W55_arg2 (c : Dev nD) : W55 m ρ c (Proc.devRef .tc main_arg2) = m ((c : Thread nD τ).loc main_arg2) :=
  (W55_keep m ρ c main_arg2 (by decide)).trans (W54_arg2 m ρ c)
theorem W56_arg2 (c : Dev nD) : W56 m ρ c (Proc.devRef .tc main_arg2) = m ((c : Thread nD τ).loc main_arg2) :=
  (W56_of_ne m ρ c main_arg2 (by decide)).trans (W55_arg2 m ρ c)
theorem W57_arg2 (c : Dev nD) : W57 m ρ c (Proc.devRef .tc main_arg2) = m ((c : Thread nD τ).loc main_arg2) :=
  (W57_keep m ρ c main_arg2 (by decide)).trans (W56_arg2 m ρ c)
theorem W58_arg2 (c : Dev nD) : W58 m ρ c (Proc.devRef .tc main_arg2) = m ((c : Thread nD τ).loc main_arg2) :=
  (W58_keep m ρ c main_arg2 (by decide)).trans (W57_arg2 m ρ c)
theorem W59_arg2 (c : Dev nD) : W59 m ρ c (Proc.devRef .tc main_arg2) = m ((c : Thread nD τ).loc main_arg2) :=
  (W59_keep m ρ c main_arg2 (by decide)).trans (W58_arg2 m ρ c)
theorem W60_arg2 (c : Dev nD) : W60 m ρ c (Proc.devRef .tc main_arg2) = m ((c : Thread nD τ).loc main_arg2) :=
  (W60_keep m ρ c main_arg2 (by decide)).trans (W59_arg2 m ρ c)
theorem W61_arg2 (c : Dev nD) : W61 m ρ c (Proc.devRef .tc main_arg2) = m ((c : Thread nD τ).loc main_arg2) :=
  (W61_keep m ρ c main_arg2 (by decide)).trans (W60_arg2 m ρ c)
theorem W62_arg2 (c : Dev nD) : W62 m ρ c (Proc.devRef .tc main_arg2) = m ((c : Thread nD τ).loc main_arg2) :=
  (W62_of_ne m ρ c main_arg2 (by decide)).trans (W61_arg2 m ρ c)
theorem W63_arg2 (c : Dev nD) : W63 m ρ c (Proc.devRef .tc main_arg2) = m ((c : Thread nD τ).loc main_arg2) :=
  (W63_keep m ρ c main_arg2 (by decide)).trans (W62_arg2 m ρ c)
theorem W64_arg2 (c : Dev nD) : W64 m ρ c (Proc.devRef .tc main_arg2) = m ((c : Thread nD τ).loc main_arg2) :=
  (W64_keep m ρ c main_arg2 (by decide)).trans (W63_arg2 m ρ c)
theorem W65_arg2 (c : Dev nD) : W65 m ρ c (Proc.devRef .tc main_arg2) = m ((c : Thread nD τ).loc main_arg2) :=
  (W65_keep m ρ c main_arg2 (by decide)).trans (W64_arg2 m ρ c)
theorem W66_arg2 (c : Dev nD) : W66 m ρ c (Proc.devRef .tc main_arg2) = m ((c : Thread nD τ).loc main_arg2) :=
  (W66_keep m ρ c main_arg2 (by decide)).trans (W65_arg2 m ρ c)
theorem W67_arg2 (c : Dev nD) : W67 m ρ c (Proc.devRef .tc main_arg2) = m ((c : Thread nD τ).loc main_arg2) :=
  (W67_keep m ρ c main_arg2 (by decide)).trans (W66_arg2 m ρ c)
theorem W68_arg2 (c : Dev nD) : W68 m ρ c (Proc.devRef .tc main_arg2) = m ((c : Thread nD τ).loc main_arg2) :=
  (W68_of_ne m ρ c main_arg2 (by decide)).trans (W67_arg2 m ρ c)
theorem W69_arg2 (c : Dev nD) : W69 m ρ c (Proc.devRef .tc main_arg2) = m ((c : Thread nD τ).loc main_arg2) :=
  (W69_keep m ρ c main_arg2 (by decide)).trans (W68_arg2 m ρ c)
theorem W70_arg2 (c : Dev nD) : W70 m ρ c (Proc.devRef .tc main_arg2) = m ((c : Thread nD τ).loc main_arg2) :=
  (W70_keep m ρ c main_arg2 (by decide)).trans (W69_arg2 m ρ c)
theorem W71_arg2 (c : Dev nD) : W71 m ρ c (Proc.devRef .tc main_arg2) = m ((c : Thread nD τ).loc main_arg2) :=
  (W71_keep m ρ c main_arg2 (by decide)).trans (W70_arg2 m ρ c)
theorem W72_arg2 (c : Dev nD) : W72 m ρ c (Proc.devRef .tc main_arg2) = m ((c : Thread nD τ).loc main_arg2) :=
  (W72_keep m ρ c main_arg2 (by decide)).trans (W71_arg2 m ρ c)
theorem W73_arg2 (c : Dev nD) : W73 m ρ c (Proc.devRef .tc main_arg2) = m ((c : Thread nD τ).loc main_arg2) :=
  (W73_keep m ρ c main_arg2 (by decide)).trans (W72_arg2 m ρ c)
theorem W74_arg2 (c : Dev nD) : W74 m ρ c (Proc.devRef .tc main_arg2) = m ((c : Thread nD τ).loc main_arg2) :=
  (W74_of_ne m ρ c main_arg2 (by decide)).trans (W73_arg2 m ρ c)
theorem W75_arg2 (c : Dev nD) : W75 m ρ c (Proc.devRef .tc main_arg2) = m ((c : Thread nD τ).loc main_arg2) :=
  (W75_keep m ρ c main_arg2 (by decide)).trans (W74_arg2 m ρ c)
theorem W76_arg2 (c : Dev nD) : W76 m ρ c (Proc.devRef .tc main_arg2) = m ((c : Thread nD τ).loc main_arg2) :=
  (W76_keep m ρ c main_arg2 (by decide)).trans (W75_arg2 m ρ c)
theorem W77_arg2 (c : Dev nD) : W77 m ρ c (Proc.devRef .tc main_arg2) = m ((c : Thread nD τ).loc main_arg2) :=
  (W77_keep m ρ c main_arg2 (by decide)).trans (W76_arg2 m ρ c)
theorem W78_arg2 (c : Dev nD) : W78 m ρ c (Proc.devRef .tc main_arg2) = m ((c : Thread nD τ).loc main_arg2) :=
  (W78_keep m ρ c main_arg2 (by decide)).trans (W77_arg2 m ρ c)
theorem W79_arg2 (c : Dev nD) : W79 m ρ c (Proc.devRef .tc main_arg2) = m ((c : Thread nD τ).loc main_arg2) :=
  (W79_keep m ρ c main_arg2 (by decide)).trans (W78_arg2 m ρ c)
theorem W80_arg2 (c : Dev nD) : W80 m ρ c (Proc.devRef .tc main_arg2) = m ((c : Thread nD τ).loc main_arg2) :=
  (W80_of_ne m ρ c main_arg2 (by decide)).trans (W79_arg2 m ρ c)
theorem W81_arg2 (c : Dev nD) : W81 m ρ c (Proc.devRef .tc main_arg2) = m ((c : Thread nD τ).loc main_arg2) :=
  (W81_keep m ρ c main_arg2 (by decide)).trans (W80_arg2 m ρ c)
theorem W82_arg2 (c : Dev nD) : W82 m ρ c (Proc.devRef .tc main_arg2) = m ((c : Thread nD τ).loc main_arg2) :=
  (W82_keep m ρ c main_arg2 (by decide)).trans (W81_arg2 m ρ c)
theorem W83_arg2 (c : Dev nD) : W83 m ρ c (Proc.devRef .tc main_arg2) = m ((c : Thread nD τ).loc main_arg2) :=
  (W83_keep m ρ c main_arg2 (by decide)).trans (W82_arg2 m ρ c)
theorem W84_arg2 (c : Dev nD) : W84 m ρ c (Proc.devRef .tc main_arg2) = m ((c : Thread nD τ).loc main_arg2) :=
  (W84_keep m ρ c main_arg2 (by decide)).trans (W83_arg2 m ρ c)
theorem W85_arg2 (c : Dev nD) : W85 m ρ c (Proc.devRef .tc main_arg2) = m ((c : Thread nD τ).loc main_arg2) :=
  (W85_keep m ρ c main_arg2 (by decide)).trans (W84_arg2 m ρ c)
theorem W86_arg2 (c : Dev nD) : W86 m ρ c (Proc.devRef .tc main_arg2) = m ((c : Thread nD τ).loc main_arg2) :=
  (W86_of_ne m ρ c main_arg2 (by decide)).trans (W85_arg2 m ρ c)
theorem W87_arg2 (c : Dev nD) : W87 m ρ c (Proc.devRef .tc main_arg2) = m ((c : Thread nD τ).loc main_arg2) :=
  (W87_keep m ρ c main_arg2 (by decide)).trans (W86_arg2 m ρ c)
theorem W88_arg2 (c : Dev nD) : W88 m ρ c (Proc.devRef .tc main_arg2) = m ((c : Thread nD τ).loc main_arg2) :=
  (W88_of_ne m ρ c main_arg2 (by decide)).trans (W87_arg2 m ρ c)
theorem W89_arg2 (c : Dev nD) : W89 m ρ c (Proc.devRef .tc main_arg2) = m ((c : Thread nD τ).loc main_arg2) :=
  (W89_keep m ρ c main_arg2 (by decide)).trans (W88_arg2 m ρ c)
theorem W90_arg2 (c : Dev nD) : W90 m ρ c (Proc.devRef .tc main_arg2) = m ((c : Thread nD τ).loc main_arg2) :=
  (W90_of_ne m ρ c main_arg2 (by decide)).trans (W89_arg2 m ρ c)
theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (W1_keep m ρ c main_arg3 (by decide)).trans (W0_arg3 m ρ c)
theorem W2_arg3 (c : Dev nD) : W2 m ρ c (Proc.devRef .tc main_arg3) = m ((c : Thread nD τ).loc main_arg3) :=
  (W2_in1 m ρ c).trans (W1_arg3 m ρ c)
theorem W3_arg3 (c : Dev nD) : W3 m ρ c (Proc.devRef .tc main_arg3) = m ((c : Thread nD τ).loc main_arg3) :=
  (W3_keep m ρ c main_arg3 (by decide)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) :=
  (W5_keep m ρ c main_arg3 (by decide)).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (W7_keep m ρ c main_arg3 (by decide)).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)
theorem W9_arg3 (c : Dev nD) : W9 m ρ c (Proc.devRef .tc main_arg3) = m ((c : Thread nD τ).loc main_arg3) :=
  (W9_keep m ρ c main_arg3 (by decide)).trans (W8_arg3 m ρ c)
theorem W10_arg3 (c : Dev nD) : W10 m ρ c (Proc.devRef .tc main_arg3) = m ((c : Thread nD τ).loc main_arg3) :=
  (W10_keep m ρ c main_arg3 (by decide)).trans (W9_arg3 m ρ c)
theorem W11_arg3 (c : Dev nD) : W11 m ρ c (Proc.devRef .tc main_arg3) = m ((c : Thread nD τ).loc main_arg3) :=
  (W11_keep m ρ c main_arg3 (by decide)).trans (W10_arg3 m ρ c)
theorem W12_arg3 (c : Dev nD) : W12 m ρ c (Proc.devRef .tc main_arg3) = m ((c : Thread nD τ).loc main_arg3) :=
  (W12_keep m ρ c main_arg3 (by decide)).trans (W11_arg3 m ρ c)
theorem W13_arg3 (c : Dev nD) : W13 m ρ c (Proc.devRef .tc main_arg3) = m ((c : Thread nD τ).loc main_arg3) :=
  (W13_keep m ρ c main_arg3 (by decide)).trans (W12_arg3 m ρ c)
theorem W14_arg3 (c : Dev nD) : W14 m ρ c (Proc.devRef .tc main_arg3) = m ((c : Thread nD τ).loc main_arg3) :=
  (W14_of_ne m ρ c main_arg3 (by decide)).trans (W13_arg3 m ρ c)
theorem W15_arg3 (c : Dev nD) : W15 m ρ c (Proc.devRef .tc main_arg3) = m ((c : Thread nD τ).loc main_arg3) :=
  (W15_keep m ρ c main_arg3 (by decide)).trans (W14_arg3 m ρ c)
theorem W16_arg3 (c : Dev nD) : W16 m ρ c (Proc.devRef .tc main_arg3) = m ((c : Thread nD τ).loc main_arg3) :=
  (W16_keep m ρ c main_arg3 (by decide)).trans (W15_arg3 m ρ c)
theorem W17_arg3 (c : Dev nD) : W17 m ρ c (Proc.devRef .tc main_arg3) = m ((c : Thread nD τ).loc main_arg3) :=
  (W17_keep m ρ c main_arg3 (by decide)).trans (W16_arg3 m ρ c)
theorem W18_arg3 (c : Dev nD) : W18 m ρ c (Proc.devRef .tc main_arg3) = m ((c : Thread nD τ).loc main_arg3) :=
  (W18_keep m ρ c main_arg3 (by decide)).trans (W17_arg3 m ρ c)
theorem W19_arg3 (c : Dev nD) : W19 m ρ c (Proc.devRef .tc main_arg3) = m ((c : Thread nD τ).loc main_arg3) :=
  (W19_keep m ρ c main_arg3 (by decide)).trans (W18_arg3 m ρ c)
theorem W20_arg3 (c : Dev nD) : W20 m ρ c (Proc.devRef .tc main_arg3) = m ((c : Thread nD τ).loc main_arg3) :=
  (W20_of_ne m ρ c main_arg3 (by decide)).trans (W19_arg3 m ρ c)
theorem W21_arg3 (c : Dev nD) : W21 m ρ c (Proc.devRef .tc main_arg3) = m ((c : Thread nD τ).loc main_arg3) :=
  (W21_keep m ρ c main_arg3 (by decide)).trans (W20_arg3 m ρ c)
theorem W22_arg3 (c : Dev nD) : W22 m ρ c (Proc.devRef .tc main_arg3) = m ((c : Thread nD τ).loc main_arg3) :=
  (W22_keep m ρ c main_arg3 (by decide)).trans (W21_arg3 m ρ c)
theorem W23_arg3 (c : Dev nD) : W23 m ρ c (Proc.devRef .tc main_arg3) = m ((c : Thread nD τ).loc main_arg3) :=
  (W23_keep m ρ c main_arg3 (by decide)).trans (W22_arg3 m ρ c)
theorem W24_arg3 (c : Dev nD) : W24 m ρ c (Proc.devRef .tc main_arg3) = m ((c : Thread nD τ).loc main_arg3) :=
  (W24_keep m ρ c main_arg3 (by decide)).trans (W23_arg3 m ρ c)
theorem W25_arg3 (c : Dev nD) : W25 m ρ c (Proc.devRef .tc main_arg3) = m ((c : Thread nD τ).loc main_arg3) :=
  (W25_keep m ρ c main_arg3 (by decide)).trans (W24_arg3 m ρ c)
theorem W26_arg3 (c : Dev nD) : W26 m ρ c (Proc.devRef .tc main_arg3) = m ((c : Thread nD τ).loc main_arg3) :=
  (W26_of_ne m ρ c main_arg3 (by decide)).trans (W25_arg3 m ρ c)
theorem W27_arg3 (c : Dev nD) : W27 m ρ c (Proc.devRef .tc main_arg3) = m ((c : Thread nD τ).loc main_arg3) :=
  (W27_keep m ρ c main_arg3 (by decide)).trans (W26_arg3 m ρ c)
theorem W28_arg3 (c : Dev nD) : W28 m ρ c (Proc.devRef .tc main_arg3) = m ((c : Thread nD τ).loc main_arg3) :=
  (W28_keep m ρ c main_arg3 (by decide)).trans (W27_arg3 m ρ c)
theorem W29_arg3 (c : Dev nD) : W29 m ρ c (Proc.devRef .tc main_arg3) = m ((c : Thread nD τ).loc main_arg3) :=
  (W29_keep m ρ c main_arg3 (by decide)).trans (W28_arg3 m ρ c)
theorem W30_arg3 (c : Dev nD) : W30 m ρ c (Proc.devRef .tc main_arg3) = m ((c : Thread nD τ).loc main_arg3) :=
  (W30_keep m ρ c main_arg3 (by decide)).trans (W29_arg3 m ρ c)
theorem W31_arg3 (c : Dev nD) : W31 m ρ c (Proc.devRef .tc main_arg3) = m ((c : Thread nD τ).loc main_arg3) :=
  (W31_keep m ρ c main_arg3 (by decide)).trans (W30_arg3 m ρ c)
theorem W32_arg3 (c : Dev nD) : W32 m ρ c (Proc.devRef .tc main_arg3) = m ((c : Thread nD τ).loc main_arg3) :=
  (W32_of_ne m ρ c main_arg3 (by decide)).trans (W31_arg3 m ρ c)
theorem W33_arg3 (c : Dev nD) : W33 m ρ c (Proc.devRef .tc main_arg3) = m ((c : Thread nD τ).loc main_arg3) :=
  (W33_keep m ρ c main_arg3 (by decide)).trans (W32_arg3 m ρ c)
theorem W34_arg3 (c : Dev nD) : W34 m ρ c (Proc.devRef .tc main_arg3) = m ((c : Thread nD τ).loc main_arg3) :=
  (W34_keep m ρ c main_arg3 (by decide)).trans (W33_arg3 m ρ c)
theorem W35_arg3 (c : Dev nD) : W35 m ρ c (Proc.devRef .tc main_arg3) = m ((c : Thread nD τ).loc main_arg3) :=
  (W35_keep m ρ c main_arg3 (by decide)).trans (W34_arg3 m ρ c)
theorem W36_arg3 (c : Dev nD) : W36 m ρ c (Proc.devRef .tc main_arg3) = m ((c : Thread nD τ).loc main_arg3) :=
  (W36_keep m ρ c main_arg3 (by decide)).trans (W35_arg3 m ρ c)
theorem W37_arg3 (c : Dev nD) : W37 m ρ c (Proc.devRef .tc main_arg3) = m ((c : Thread nD τ).loc main_arg3) :=
  (W37_keep m ρ c main_arg3 (by decide)).trans (W36_arg3 m ρ c)
theorem W38_arg3 (c : Dev nD) : W38 m ρ c (Proc.devRef .tc main_arg3) = m ((c : Thread nD τ).loc main_arg3) :=
  (W38_of_ne m ρ c main_arg3 (by decide)).trans (W37_arg3 m ρ c)
theorem W39_arg3 (c : Dev nD) : W39 m ρ c (Proc.devRef .tc main_arg3) = m ((c : Thread nD τ).loc main_arg3) :=
  (W39_keep m ρ c main_arg3 (by decide)).trans (W38_arg3 m ρ c)
theorem W40_arg3 (c : Dev nD) : W40 m ρ c (Proc.devRef .tc main_arg3) = m ((c : Thread nD τ).loc main_arg3) :=
  (W40_keep m ρ c main_arg3 (by decide)).trans (W39_arg3 m ρ c)
theorem W41_arg3 (c : Dev nD) : W41 m ρ c (Proc.devRef .tc main_arg3) = m ((c : Thread nD τ).loc main_arg3) :=
  (W41_keep m ρ c main_arg3 (by decide)).trans (W40_arg3 m ρ c)
theorem W42_arg3 (c : Dev nD) : W42 m ρ c (Proc.devRef .tc main_arg3) = m ((c : Thread nD τ).loc main_arg3) :=
  (W42_keep m ρ c main_arg3 (by decide)).trans (W41_arg3 m ρ c)
theorem W43_arg3 (c : Dev nD) : W43 m ρ c (Proc.devRef .tc main_arg3) = m ((c : Thread nD τ).loc main_arg3) :=
  (W43_keep m ρ c main_arg3 (by decide)).trans (W42_arg3 m ρ c)
theorem W44_arg3 (c : Dev nD) : W44 m ρ c (Proc.devRef .tc main_arg3) = m ((c : Thread nD τ).loc main_arg3) :=
  (W44_of_ne m ρ c main_arg3 (by decide)).trans (W43_arg3 m ρ c)
theorem W45_arg3 (c : Dev nD) : W45 m ρ c (Proc.devRef .tc main_arg3) = m ((c : Thread nD τ).loc main_arg3) :=
  (W45_keep m ρ c main_arg3 (by decide)).trans (W44_arg3 m ρ c)
theorem W46_arg3 (c : Dev nD) : W46 m ρ c (Proc.devRef .tc main_arg3) = m ((c : Thread nD τ).loc main_arg3) :=
  (W46_of_ne m ρ c main_arg3 (by decide)).trans (W45_arg3 m ρ c)
theorem W47_arg3 (c : Dev nD) : W47 m ρ c (Proc.devRef .tc main_arg3) = m ((c : Thread nD τ).loc main_arg3) :=
  (W47_keep m ρ c main_arg3 (by decide)).trans (W46_arg3 m ρ c)
theorem W48_arg3 (c : Dev nD) : W48 m ρ c (Proc.devRef .tc main_arg3) = m ((c : Thread nD τ).loc main_arg3) :=
  (W48_of_ne m ρ c main_arg3 (by decide)).trans (W47_arg3 m ρ c)
theorem W49_arg3 (c : Dev nD) : W49 m ρ c (Proc.devRef .tc main_arg3) = m ((c : Thread nD τ).loc main_arg3) :=
  (W49_keep m ρ c main_arg3 (by decide)).trans (W48_arg3 m ρ c)
theorem W50_arg3 (c : Dev nD) : W50 m ρ c (Proc.devRef .tc main_arg3) = m ((c : Thread nD τ).loc main_arg3) :=
  (W50_of_ne m ρ c main_arg3 (by decide)).trans (W49_arg3 m ρ c)
theorem W51_arg3 (c : Dev nD) : W51 m ρ c (Proc.devRef .tc main_arg3) = m ((c : Thread nD τ).loc main_arg3) :=
  (W51_keep m ρ c main_arg3 (by decide)).trans (W50_arg3 m ρ c)
theorem W52_arg3 (c : Dev nD) : W52 m ρ c (Proc.devRef .tc main_arg3) = m ((c : Thread nD τ).loc main_arg3) :=
  (W52_keep m ρ c main_arg3 (by decide)).trans (W51_arg3 m ρ c)
theorem W53_arg3 (c : Dev nD) : W53 m ρ c (Proc.devRef .tc main_arg3) = m ((c : Thread nD τ).loc main_arg3) :=
  (W53_keep m ρ c main_arg3 (by decide)).trans (W52_arg3 m ρ c)
theorem W54_arg3 (c : Dev nD) : W54 m ρ c (Proc.devRef .tc main_arg3) = m ((c : Thread nD τ).loc main_arg3) :=
  (W54_keep m ρ c main_arg3 (by decide)).trans (W53_arg3 m ρ c)
theorem W55_arg3 (c : Dev nD) : W55 m ρ c (Proc.devRef .tc main_arg3) = m ((c : Thread nD τ).loc main_arg3) :=
  (W55_keep m ρ c main_arg3 (by decide)).trans (W54_arg3 m ρ c)
theorem W56_arg3 (c : Dev nD) : W56 m ρ c (Proc.devRef .tc main_arg3) = m ((c : Thread nD τ).loc main_arg3) :=
  (W56_of_ne m ρ c main_arg3 (by decide)).trans (W55_arg3 m ρ c)
theorem W57_arg3 (c : Dev nD) : W57 m ρ c (Proc.devRef .tc main_arg3) = m ((c : Thread nD τ).loc main_arg3) :=
  (W57_keep m ρ c main_arg3 (by decide)).trans (W56_arg3 m ρ c)
theorem W58_arg3 (c : Dev nD) : W58 m ρ c (Proc.devRef .tc main_arg3) = m ((c : Thread nD τ).loc main_arg3) :=
  (W58_keep m ρ c main_arg3 (by decide)).trans (W57_arg3 m ρ c)
theorem W59_arg3 (c : Dev nD) : W59 m ρ c (Proc.devRef .tc main_arg3) = m ((c : Thread nD τ).loc main_arg3) :=
  (W59_keep m ρ c main_arg3 (by decide)).trans (W58_arg3 m ρ c)
theorem W60_arg3 (c : Dev nD) : W60 m ρ c (Proc.devRef .tc main_arg3) = m ((c : Thread nD τ).loc main_arg3) :=
  (W60_keep m ρ c main_arg3 (by decide)).trans (W59_arg3 m ρ c)
theorem W61_arg3 (c : Dev nD) : W61 m ρ c (Proc.devRef .tc main_arg3) = m ((c : Thread nD τ).loc main_arg3) :=
  (W61_keep m ρ c main_arg3 (by decide)).trans (W60_arg3 m ρ c)
theorem W62_arg3 (c : Dev nD) : W62 m ρ c (Proc.devRef .tc main_arg3) = m ((c : Thread nD τ).loc main_arg3) :=
  (W62_of_ne m ρ c main_arg3 (by decide)).trans (W61_arg3 m ρ c)
theorem W63_arg3 (c : Dev nD) : W63 m ρ c (Proc.devRef .tc main_arg3) = m ((c : Thread nD τ).loc main_arg3) :=
  (W63_keep m ρ c main_arg3 (by decide)).trans (W62_arg3 m ρ c)
theorem W64_arg3 (c : Dev nD) : W64 m ρ c (Proc.devRef .tc main_arg3) = m ((c : Thread nD τ).loc main_arg3) :=
  (W64_keep m ρ c main_arg3 (by decide)).trans (W63_arg3 m ρ c)
theorem W65_arg3 (c : Dev nD) : W65 m ρ c (Proc.devRef .tc main_arg3) = m ((c : Thread nD τ).loc main_arg3) :=
  (W65_keep m ρ c main_arg3 (by decide)).trans (W64_arg3 m ρ c)
theorem W66_arg3 (c : Dev nD) : W66 m ρ c (Proc.devRef .tc main_arg3) = m ((c : Thread nD τ).loc main_arg3) :=
  (W66_keep m ρ c main_arg3 (by decide)).trans (W65_arg3 m ρ c)
theorem W67_arg3 (c : Dev nD) : W67 m ρ c (Proc.devRef .tc main_arg3) = m ((c : Thread nD τ).loc main_arg3) :=
  (W67_keep m ρ c main_arg3 (by decide)).trans (W66_arg3 m ρ c)
theorem W68_arg3 (c : Dev nD) : W68 m ρ c (Proc.devRef .tc main_arg3) = m ((c : Thread nD τ).loc main_arg3) :=
  (W68_of_ne m ρ c main_arg3 (by decide)).trans (W67_arg3 m ρ c)
theorem W69_arg3 (c : Dev nD) : W69 m ρ c (Proc.devRef .tc main_arg3) = m ((c : Thread nD τ).loc main_arg3) :=
  (W69_keep m ρ c main_arg3 (by decide)).trans (W68_arg3 m ρ c)
theorem W70_arg3 (c : Dev nD) : W70 m ρ c (Proc.devRef .tc main_arg3) = m ((c : Thread nD τ).loc main_arg3) :=
  (W70_keep m ρ c main_arg3 (by decide)).trans (W69_arg3 m ρ c)
theorem W71_arg3 (c : Dev nD) : W71 m ρ c (Proc.devRef .tc main_arg3) = m ((c : Thread nD τ).loc main_arg3) :=
  (W71_keep m ρ c main_arg3 (by decide)).trans (W70_arg3 m ρ c)
theorem W72_arg3 (c : Dev nD) : W72 m ρ c (Proc.devRef .tc main_arg3) = m ((c : Thread nD τ).loc main_arg3) :=
  (W72_keep m ρ c main_arg3 (by decide)).trans (W71_arg3 m ρ c)
theorem W73_arg3 (c : Dev nD) : W73 m ρ c (Proc.devRef .tc main_arg3) = m ((c : Thread nD τ).loc main_arg3) :=
  (W73_keep m ρ c main_arg3 (by decide)).trans (W72_arg3 m ρ c)
theorem W74_arg3 (c : Dev nD) : W74 m ρ c (Proc.devRef .tc main_arg3) = m ((c : Thread nD τ).loc main_arg3) :=
  (W74_of_ne m ρ c main_arg3 (by decide)).trans (W73_arg3 m ρ c)
theorem W75_arg3 (c : Dev nD) : W75 m ρ c (Proc.devRef .tc main_arg3) = m ((c : Thread nD τ).loc main_arg3) :=
  (W75_keep m ρ c main_arg3 (by decide)).trans (W74_arg3 m ρ c)
theorem W76_arg3 (c : Dev nD) : W76 m ρ c (Proc.devRef .tc main_arg3) = m ((c : Thread nD τ).loc main_arg3) :=
  (W76_keep m ρ c main_arg3 (by decide)).trans (W75_arg3 m ρ c)
theorem W77_arg3 (c : Dev nD) : W77 m ρ c (Proc.devRef .tc main_arg3) = m ((c : Thread nD τ).loc main_arg3) :=
  (W77_keep m ρ c main_arg3 (by decide)).trans (W76_arg3 m ρ c)
theorem W78_arg3 (c : Dev nD) : W78 m ρ c (Proc.devRef .tc main_arg3) = m ((c : Thread nD τ).loc main_arg3) :=
  (W78_keep m ρ c main_arg3 (by decide)).trans (W77_arg3 m ρ c)
theorem W79_arg3 (c : Dev nD) : W79 m ρ c (Proc.devRef .tc main_arg3) = m ((c : Thread nD τ).loc main_arg3) :=
  (W79_keep m ρ c main_arg3 (by decide)).trans (W78_arg3 m ρ c)
theorem W80_arg3 (c : Dev nD) : W80 m ρ c (Proc.devRef .tc main_arg3) = m ((c : Thread nD τ).loc main_arg3) :=
  (W80_of_ne m ρ c main_arg3 (by decide)).trans (W79_arg3 m ρ c)
theorem W81_arg3 (c : Dev nD) : W81 m ρ c (Proc.devRef .tc main_arg3) = m ((c : Thread nD τ).loc main_arg3) :=
  (W81_keep m ρ c main_arg3 (by decide)).trans (W80_arg3 m ρ c)
theorem W82_arg3 (c : Dev nD) : W82 m ρ c (Proc.devRef .tc main_arg3) = m ((c : Thread nD τ).loc main_arg3) :=
  (W82_keep m ρ c main_arg3 (by decide)).trans (W81_arg3 m ρ c)
theorem W83_arg3 (c : Dev nD) : W83 m ρ c (Proc.devRef .tc main_arg3) = m ((c : Thread nD τ).loc main_arg3) :=
  (W83_keep m ρ c main_arg3 (by decide)).trans (W82_arg3 m ρ c)
theorem W84_arg3 (c : Dev nD) : W84 m ρ c (Proc.devRef .tc main_arg3) = m ((c : Thread nD τ).loc main_arg3) :=
  (W84_keep m ρ c main_arg3 (by decide)).trans (W83_arg3 m ρ c)
theorem W85_arg3 (c : Dev nD) : W85 m ρ c (Proc.devRef .tc main_arg3) = m ((c : Thread nD τ).loc main_arg3) :=
  (W85_keep m ρ c main_arg3 (by decide)).trans (W84_arg3 m ρ c)
theorem W86_arg3 (c : Dev nD) : W86 m ρ c (Proc.devRef .tc main_arg3) = m ((c : Thread nD τ).loc main_arg3) :=
  (W86_of_ne m ρ c main_arg3 (by decide)).trans (W85_arg3 m ρ c)
theorem W87_arg3 (c : Dev nD) : W87 m ρ c (Proc.devRef .tc main_arg3) = m ((c : Thread nD τ).loc main_arg3) :=
  (W87_keep m ρ c main_arg3 (by decide)).trans (W86_arg3 m ρ c)
theorem W88_arg3 (c : Dev nD) : W88 m ρ c (Proc.devRef .tc main_arg3) = m ((c : Thread nD τ).loc main_arg3) :=
  (W88_of_ne m ρ c main_arg3 (by decide)).trans (W87_arg3 m ρ c)
theorem W89_arg3 (c : Dev nD) : W89 m ρ c (Proc.devRef .tc main_arg3) = m ((c : Thread nD τ).loc main_arg3) :=
  (W89_keep m ρ c main_arg3 (by decide)).trans (W88_arg3 m ρ c)
theorem W90_arg3 (c : Dev nD) : W90 m ρ c (Proc.devRef .tc main_arg3) = m ((c : Thread nD τ).loc main_arg3) :=
  (W90_of_ne m ρ c main_arg3 (by decide)).trans (W89_arg3 m ρ c)
theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (W1_keep m ρ c main_arg4 (by decide)).trans (W0_arg4 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (W3_keep m ρ c main_arg4 (by decide)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (W5_keep m ρ c main_arg4 (by decide)).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W7_arg4 (c : Dev nD) : W7 m ρ c (Proc.devRef .tc main_arg4) = m ((c : Thread nD τ).loc main_arg4) :=
  (W7_keep m ρ c main_arg4 (by decide)).trans (W6_arg4 m ρ c)
theorem W8_arg4 (c : Dev nD) : W8 m ρ c (Proc.devRef .tc main_arg4) = m ((c : Thread nD τ).loc main_arg4) :=
  (W8_of_ne m ρ c main_arg4 (by decide)).trans (W7_arg4 m ρ c)
theorem W9_arg4 (c : Dev nD) : W9 m ρ c (Proc.devRef .tc main_arg4) = m ((c : Thread nD τ).loc main_arg4) :=
  (W9_keep m ρ c main_arg4 (by decide)).trans (W8_arg4 m ρ c)
theorem W10_arg4 (c : Dev nD) : W10 m ρ c (Proc.devRef .tc main_arg4) = m ((c : Thread nD τ).loc main_arg4) :=
  (W10_keep m ρ c main_arg4 (by decide)).trans (W9_arg4 m ρ c)
theorem W11_arg4 (c : Dev nD) : W11 m ρ c (Proc.devRef .tc main_arg4) = m ((c : Thread nD τ).loc main_arg4) :=
  (W11_keep m ρ c main_arg4 (by decide)).trans (W10_arg4 m ρ c)
theorem W12_arg4 (c : Dev nD) : W12 m ρ c (Proc.devRef .tc main_arg4) = m ((c : Thread nD τ).loc main_arg4) :=
  (W12_keep m ρ c main_arg4 (by decide)).trans (W11_arg4 m ρ c)
theorem W13_arg4 (c : Dev nD) : W13 m ρ c (Proc.devRef .tc main_arg4) = m ((c : Thread nD τ).loc main_arg4) :=
  (W13_keep m ρ c main_arg4 (by decide)).trans (W12_arg4 m ρ c)
theorem W14_arg4 (c : Dev nD) : W14 m ρ c (Proc.devRef .tc main_arg4) = m ((c : Thread nD τ).loc main_arg4) :=
  (W14_of_ne m ρ c main_arg4 (by decide)).trans (W13_arg4 m ρ c)
theorem W15_arg4 (c : Dev nD) : W15 m ρ c (Proc.devRef .tc main_arg4) = m ((c : Thread nD τ).loc main_arg4) :=
  (W15_keep m ρ c main_arg4 (by decide)).trans (W14_arg4 m ρ c)
theorem W16_arg4 (c : Dev nD) : W16 m ρ c (Proc.devRef .tc main_arg4) = m ((c : Thread nD τ).loc main_arg4) :=
  (W16_keep m ρ c main_arg4 (by decide)).trans (W15_arg4 m ρ c)
theorem W17_arg4 (c : Dev nD) : W17 m ρ c (Proc.devRef .tc main_arg4) = m ((c : Thread nD τ).loc main_arg4) :=
  (W17_keep m ρ c main_arg4 (by decide)).trans (W16_arg4 m ρ c)
theorem W18_arg4 (c : Dev nD) : W18 m ρ c (Proc.devRef .tc main_arg4) = m ((c : Thread nD τ).loc main_arg4) :=
  (W18_keep m ρ c main_arg4 (by decide)).trans (W17_arg4 m ρ c)
theorem W19_arg4 (c : Dev nD) : W19 m ρ c (Proc.devRef .tc main_arg4) = m ((c : Thread nD τ).loc main_arg4) :=
  (W19_keep m ρ c main_arg4 (by decide)).trans (W18_arg4 m ρ c)
theorem W20_arg4 (c : Dev nD) : W20 m ρ c (Proc.devRef .tc main_arg4) = m ((c : Thread nD τ).loc main_arg4) :=
  (W20_of_ne m ρ c main_arg4 (by decide)).trans (W19_arg4 m ρ c)
theorem W21_arg4 (c : Dev nD) : W21 m ρ c (Proc.devRef .tc main_arg4) = m ((c : Thread nD τ).loc main_arg4) :=
  (W21_keep m ρ c main_arg4 (by decide)).trans (W20_arg4 m ρ c)
theorem W22_arg4 (c : Dev nD) : W22 m ρ c (Proc.devRef .tc main_arg4) = m ((c : Thread nD τ).loc main_arg4) :=
  (W22_keep m ρ c main_arg4 (by decide)).trans (W21_arg4 m ρ c)
theorem W23_arg4 (c : Dev nD) : W23 m ρ c (Proc.devRef .tc main_arg4) = m ((c : Thread nD τ).loc main_arg4) :=
  (W23_keep m ρ c main_arg4 (by decide)).trans (W22_arg4 m ρ c)
theorem W24_arg4 (c : Dev nD) : W24 m ρ c (Proc.devRef .tc main_arg4) = m ((c : Thread nD τ).loc main_arg4) :=
  (W24_keep m ρ c main_arg4 (by decide)).trans (W23_arg4 m ρ c)
theorem W25_arg4 (c : Dev nD) : W25 m ρ c (Proc.devRef .tc main_arg4) = m ((c : Thread nD τ).loc main_arg4) :=
  (W25_keep m ρ c main_arg4 (by decide)).trans (W24_arg4 m ρ c)
theorem W26_arg4 (c : Dev nD) : W26 m ρ c (Proc.devRef .tc main_arg4) = m ((c : Thread nD τ).loc main_arg4) :=
  (W26_of_ne m ρ c main_arg4 (by decide)).trans (W25_arg4 m ρ c)
theorem W27_arg4 (c : Dev nD) : W27 m ρ c (Proc.devRef .tc main_arg4) = m ((c : Thread nD τ).loc main_arg4) :=
  (W27_keep m ρ c main_arg4 (by decide)).trans (W26_arg4 m ρ c)
theorem W28_arg4 (c : Dev nD) : W28 m ρ c (Proc.devRef .tc main_arg4) = m ((c : Thread nD τ).loc main_arg4) :=
  (W28_keep m ρ c main_arg4 (by decide)).trans (W27_arg4 m ρ c)
theorem W29_arg4 (c : Dev nD) : W29 m ρ c (Proc.devRef .tc main_arg4) = m ((c : Thread nD τ).loc main_arg4) :=
  (W29_keep m ρ c main_arg4 (by decide)).trans (W28_arg4 m ρ c)
theorem W30_arg4 (c : Dev nD) : W30 m ρ c (Proc.devRef .tc main_arg4) = m ((c : Thread nD τ).loc main_arg4) :=
  (W30_keep m ρ c main_arg4 (by decide)).trans (W29_arg4 m ρ c)
theorem W31_arg4 (c : Dev nD) : W31 m ρ c (Proc.devRef .tc main_arg4) = m ((c : Thread nD τ).loc main_arg4) :=
  (W31_keep m ρ c main_arg4 (by decide)).trans (W30_arg4 m ρ c)
theorem W32_arg4 (c : Dev nD) : W32 m ρ c (Proc.devRef .tc main_arg4) = m ((c : Thread nD τ).loc main_arg4) :=
  (W32_of_ne m ρ c main_arg4 (by decide)).trans (W31_arg4 m ρ c)
theorem W33_arg4 (c : Dev nD) : W33 m ρ c (Proc.devRef .tc main_arg4) = m ((c : Thread nD τ).loc main_arg4) :=
  (W33_keep m ρ c main_arg4 (by decide)).trans (W32_arg4 m ρ c)
theorem W34_arg4 (c : Dev nD) : W34 m ρ c (Proc.devRef .tc main_arg4) = m ((c : Thread nD τ).loc main_arg4) :=
  (W34_keep m ρ c main_arg4 (by decide)).trans (W33_arg4 m ρ c)
theorem W35_arg4 (c : Dev nD) : W35 m ρ c (Proc.devRef .tc main_arg4) = m ((c : Thread nD τ).loc main_arg4) :=
  (W35_keep m ρ c main_arg4 (by decide)).trans (W34_arg4 m ρ c)
theorem W36_arg4 (c : Dev nD) : W36 m ρ c (Proc.devRef .tc main_arg4) = m ((c : Thread nD τ).loc main_arg4) :=
  (W36_keep m ρ c main_arg4 (by decide)).trans (W35_arg4 m ρ c)
theorem W37_arg4 (c : Dev nD) : W37 m ρ c (Proc.devRef .tc main_arg4) = m ((c : Thread nD τ).loc main_arg4) :=
  (W37_keep m ρ c main_arg4 (by decide)).trans (W36_arg4 m ρ c)
theorem W38_arg4 (c : Dev nD) : W38 m ρ c (Proc.devRef .tc main_arg4) = m ((c : Thread nD τ).loc main_arg4) :=
  (W38_of_ne m ρ c main_arg4 (by decide)).trans (W37_arg4 m ρ c)
theorem W39_arg4 (c : Dev nD) : W39 m ρ c (Proc.devRef .tc main_arg4) = m ((c : Thread nD τ).loc main_arg4) :=
  (W39_keep m ρ c main_arg4 (by decide)).trans (W38_arg4 m ρ c)
theorem W40_arg4 (c : Dev nD) : W40 m ρ c (Proc.devRef .tc main_arg4) = m ((c : Thread nD τ).loc main_arg4) :=
  (W40_keep m ρ c main_arg4 (by decide)).trans (W39_arg4 m ρ c)
theorem W41_arg4 (c : Dev nD) : W41 m ρ c (Proc.devRef .tc main_arg4) = m ((c : Thread nD τ).loc main_arg4) :=
  (W41_keep m ρ c main_arg4 (by decide)).trans (W40_arg4 m ρ c)
theorem W42_arg4 (c : Dev nD) : W42 m ρ c (Proc.devRef .tc main_arg4) = m ((c : Thread nD τ).loc main_arg4) :=
  (W42_keep m ρ c main_arg4 (by decide)).trans (W41_arg4 m ρ c)
theorem W43_arg4 (c : Dev nD) : W43 m ρ c (Proc.devRef .tc main_arg4) = m ((c : Thread nD τ).loc main_arg4) :=
  (W43_keep m ρ c main_arg4 (by decide)).trans (W42_arg4 m ρ c)
theorem W44_arg4 (c : Dev nD) : W44 m ρ c (Proc.devRef .tc main_arg4) = m ((c : Thread nD τ).loc main_arg4) :=
  (W44_of_ne m ρ c main_arg4 (by decide)).trans (W43_arg4 m ρ c)
theorem W45_arg4 (c : Dev nD) : W45 m ρ c (Proc.devRef .tc main_arg4) = m ((c : Thread nD τ).loc main_arg4) :=
  (W45_keep m ρ c main_arg4 (by decide)).trans (W44_arg4 m ρ c)
theorem W46_arg4 (c : Dev nD) : W46 m ρ c (Proc.devRef .tc main_arg4) = m ((c : Thread nD τ).loc main_arg4) :=
  (W46_of_ne m ρ c main_arg4 (by decide)).trans (W45_arg4 m ρ c)
theorem W47_arg4 (c : Dev nD) : W47 m ρ c (Proc.devRef .tc main_arg4) = m ((c : Thread nD τ).loc main_arg4) :=
  (W47_keep m ρ c main_arg4 (by decide)).trans (W46_arg4 m ρ c)
theorem W48_arg4 (c : Dev nD) : W48 m ρ c (Proc.devRef .tc main_arg4) = m ((c : Thread nD τ).loc main_arg4) :=
  (W48_of_ne m ρ c main_arg4 (by decide)).trans (W47_arg4 m ρ c)
theorem W49_arg4 (c : Dev nD) : W49 m ρ c (Proc.devRef .tc main_arg4) = m ((c : Thread nD τ).loc main_arg4) :=
  (W49_keep m ρ c main_arg4 (by decide)).trans (W48_arg4 m ρ c)
theorem W50_arg4 (c : Dev nD) : W50 m ρ c (Proc.devRef .tc main_arg4) = m ((c : Thread nD τ).loc main_arg4) :=
  (W50_of_ne m ρ c main_arg4 (by decide)).trans (W49_arg4 m ρ c)
theorem W51_arg4 (c : Dev nD) : W51 m ρ c (Proc.devRef .tc main_arg4) = m ((c : Thread nD τ).loc main_arg4) :=
  (W51_keep m ρ c main_arg4 (by decide)).trans (W50_arg4 m ρ c)
theorem W52_arg4 (c : Dev nD) : W52 m ρ c (Proc.devRef .tc main_arg4) = m ((c : Thread nD τ).loc main_arg4) :=
  (W52_keep m ρ c main_arg4 (by decide)).trans (W51_arg4 m ρ c)
theorem W53_arg4 (c : Dev nD) : W53 m ρ c (Proc.devRef .tc main_arg4) = m ((c : Thread nD τ).loc main_arg4) :=
  (W53_keep m ρ c main_arg4 (by decide)).trans (W52_arg4 m ρ c)
theorem W54_arg4 (c : Dev nD) : W54 m ρ c (Proc.devRef .tc main_arg4) = m ((c : Thread nD τ).loc main_arg4) :=
  (W54_keep m ρ c main_arg4 (by decide)).trans (W53_arg4 m ρ c)
theorem W55_arg4 (c : Dev nD) : W55 m ρ c (Proc.devRef .tc main_arg4) = m ((c : Thread nD τ).loc main_arg4) :=
  (W55_keep m ρ c main_arg4 (by decide)).trans (W54_arg4 m ρ c)
theorem W56_arg4 (c : Dev nD) : W56 m ρ c (Proc.devRef .tc main_arg4) = m ((c : Thread nD τ).loc main_arg4) :=
  (W56_of_ne m ρ c main_arg4 (by decide)).trans (W55_arg4 m ρ c)
theorem W57_arg4 (c : Dev nD) : W57 m ρ c (Proc.devRef .tc main_arg4) = m ((c : Thread nD τ).loc main_arg4) :=
  (W57_keep m ρ c main_arg4 (by decide)).trans (W56_arg4 m ρ c)
theorem W58_arg4 (c : Dev nD) : W58 m ρ c (Proc.devRef .tc main_arg4) = m ((c : Thread nD τ).loc main_arg4) :=
  (W58_keep m ρ c main_arg4 (by decide)).trans (W57_arg4 m ρ c)
theorem W59_arg4 (c : Dev nD) : W59 m ρ c (Proc.devRef .tc main_arg4) = m ((c : Thread nD τ).loc main_arg4) :=
  (W59_keep m ρ c main_arg4 (by decide)).trans (W58_arg4 m ρ c)
theorem W60_arg4 (c : Dev nD) : W60 m ρ c (Proc.devRef .tc main_arg4) = m ((c : Thread nD τ).loc main_arg4) :=
  (W60_keep m ρ c main_arg4 (by decide)).trans (W59_arg4 m ρ c)
theorem W61_arg4 (c : Dev nD) : W61 m ρ c (Proc.devRef .tc main_arg4) = m ((c : Thread nD τ).loc main_arg4) :=
  (W61_keep m ρ c main_arg4 (by decide)).trans (W60_arg4 m ρ c)
theorem W62_arg4 (c : Dev nD) : W62 m ρ c (Proc.devRef .tc main_arg4) = m ((c : Thread nD τ).loc main_arg4) :=
  (W62_of_ne m ρ c main_arg4 (by decide)).trans (W61_arg4 m ρ c)
theorem W63_arg4 (c : Dev nD) : W63 m ρ c (Proc.devRef .tc main_arg4) = m ((c : Thread nD τ).loc main_arg4) :=
  (W63_keep m ρ c main_arg4 (by decide)).trans (W62_arg4 m ρ c)
theorem W64_arg4 (c : Dev nD) : W64 m ρ c (Proc.devRef .tc main_arg4) = m ((c : Thread nD τ).loc main_arg4) :=
  (W64_keep m ρ c main_arg4 (by decide)).trans (W63_arg4 m ρ c)
theorem W65_arg4 (c : Dev nD) : W65 m ρ c (Proc.devRef .tc main_arg4) = m ((c : Thread nD τ).loc main_arg4) :=
  (W65_keep m ρ c main_arg4 (by decide)).trans (W64_arg4 m ρ c)
theorem W66_arg4 (c : Dev nD) : W66 m ρ c (Proc.devRef .tc main_arg4) = m ((c : Thread nD τ).loc main_arg4) :=
  (W66_keep m ρ c main_arg4 (by decide)).trans (W65_arg4 m ρ c)
theorem W67_arg4 (c : Dev nD) : W67 m ρ c (Proc.devRef .tc main_arg4) = m ((c : Thread nD τ).loc main_arg4) :=
  (W67_keep m ρ c main_arg4 (by decide)).trans (W66_arg4 m ρ c)
theorem W68_arg4 (c : Dev nD) : W68 m ρ c (Proc.devRef .tc main_arg4) = m ((c : Thread nD τ).loc main_arg4) :=
  (W68_of_ne m ρ c main_arg4 (by decide)).trans (W67_arg4 m ρ c)
theorem W69_arg4 (c : Dev nD) : W69 m ρ c (Proc.devRef .tc main_arg4) = m ((c : Thread nD τ).loc main_arg4) :=
  (W69_keep m ρ c main_arg4 (by decide)).trans (W68_arg4 m ρ c)
theorem W70_arg4 (c : Dev nD) : W70 m ρ c (Proc.devRef .tc main_arg4) = m ((c : Thread nD τ).loc main_arg4) :=
  (W70_keep m ρ c main_arg4 (by decide)).trans (W69_arg4 m ρ c)
theorem W71_arg4 (c : Dev nD) : W71 m ρ c (Proc.devRef .tc main_arg4) = m ((c : Thread nD τ).loc main_arg4) :=
  (W71_keep m ρ c main_arg4 (by decide)).trans (W70_arg4 m ρ c)
theorem W72_arg4 (c : Dev nD) : W72 m ρ c (Proc.devRef .tc main_arg4) = m ((c : Thread nD τ).loc main_arg4) :=
  (W72_keep m ρ c main_arg4 (by decide)).trans (W71_arg4 m ρ c)
theorem W73_arg4 (c : Dev nD) : W73 m ρ c (Proc.devRef .tc main_arg4) = m ((c : Thread nD τ).loc main_arg4) :=
  (W73_keep m ρ c main_arg4 (by decide)).trans (W72_arg4 m ρ c)
theorem W74_arg4 (c : Dev nD) : W74 m ρ c (Proc.devRef .tc main_arg4) = m ((c : Thread nD τ).loc main_arg4) :=
  (W74_of_ne m ρ c main_arg4 (by decide)).trans (W73_arg4 m ρ c)
theorem W75_arg4 (c : Dev nD) : W75 m ρ c (Proc.devRef .tc main_arg4) = m ((c : Thread nD τ).loc main_arg4) :=
  (W75_keep m ρ c main_arg4 (by decide)).trans (W74_arg4 m ρ c)
theorem W76_arg4 (c : Dev nD) : W76 m ρ c (Proc.devRef .tc main_arg4) = m ((c : Thread nD τ).loc main_arg4) :=
  (W76_keep m ρ c main_arg4 (by decide)).trans (W75_arg4 m ρ c)
theorem W77_arg4 (c : Dev nD) : W77 m ρ c (Proc.devRef .tc main_arg4) = m ((c : Thread nD τ).loc main_arg4) :=
  (W77_keep m ρ c main_arg4 (by decide)).trans (W76_arg4 m ρ c)
theorem W78_arg4 (c : Dev nD) : W78 m ρ c (Proc.devRef .tc main_arg4) = m ((c : Thread nD τ).loc main_arg4) :=
  (W78_keep m ρ c main_arg4 (by decide)).trans (W77_arg4 m ρ c)
theorem W79_arg4 (c : Dev nD) : W79 m ρ c (Proc.devRef .tc main_arg4) = m ((c : Thread nD τ).loc main_arg4) :=
  (W79_keep m ρ c main_arg4 (by decide)).trans (W78_arg4 m ρ c)
theorem W80_arg4 (c : Dev nD) : W80 m ρ c (Proc.devRef .tc main_arg4) = m ((c : Thread nD τ).loc main_arg4) :=
  (W80_of_ne m ρ c main_arg4 (by decide)).trans (W79_arg4 m ρ c)
theorem W81_arg4 (c : Dev nD) : W81 m ρ c (Proc.devRef .tc main_arg4) = m ((c : Thread nD τ).loc main_arg4) :=
  (W81_keep m ρ c main_arg4 (by decide)).trans (W80_arg4 m ρ c)
theorem W82_arg4 (c : Dev nD) : W82 m ρ c (Proc.devRef .tc main_arg4) = m ((c : Thread nD τ).loc main_arg4) :=
  (W82_keep m ρ c main_arg4 (by decide)).trans (W81_arg4 m ρ c)
theorem W83_arg4 (c : Dev nD) : W83 m ρ c (Proc.devRef .tc main_arg4) = m ((c : Thread nD τ).loc main_arg4) :=
  (W83_keep m ρ c main_arg4 (by decide)).trans (W82_arg4 m ρ c)
theorem W84_arg4 (c : Dev nD) : W84 m ρ c (Proc.devRef .tc main_arg4) = m ((c : Thread nD τ).loc main_arg4) :=
  (W84_keep m ρ c main_arg4 (by decide)).trans (W83_arg4 m ρ c)
theorem W85_arg4 (c : Dev nD) : W85 m ρ c (Proc.devRef .tc main_arg4) = m ((c : Thread nD τ).loc main_arg4) :=
  (W85_keep m ρ c main_arg4 (by decide)).trans (W84_arg4 m ρ c)
theorem W86_arg4 (c : Dev nD) : W86 m ρ c (Proc.devRef .tc main_arg4) = m ((c : Thread nD τ).loc main_arg4) :=
  (W86_of_ne m ρ c main_arg4 (by decide)).trans (W85_arg4 m ρ c)
theorem W87_arg4 (c : Dev nD) : W87 m ρ c (Proc.devRef .tc main_arg4) = m ((c : Thread nD τ).loc main_arg4) :=
  (W87_keep m ρ c main_arg4 (by decide)).trans (W86_arg4 m ρ c)
theorem W88_arg4 (c : Dev nD) : W88 m ρ c (Proc.devRef .tc main_arg4) = m ((c : Thread nD τ).loc main_arg4) :=
  (W88_of_ne m ρ c main_arg4 (by decide)).trans (W87_arg4 m ρ c)
theorem W89_arg4 (c : Dev nD) : W89 m ρ c (Proc.devRef .tc main_arg4) = m ((c : Thread nD τ).loc main_arg4) :=
  (W89_keep m ρ c main_arg4 (by decide)).trans (W88_arg4 m ρ c)
theorem W90_arg4 (c : Dev nD) : W90 m ρ c (Proc.devRef .tc main_arg4) = m ((c : Thread nD τ).loc main_arg4) :=
  (W90_of_ne m ρ c main_arg4 (by decide)).trans (W89_arg4 m ρ c)
theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  (W1_keep m ρ c main_arg5 (by decide)).trans (W0_arg5 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (W3_keep m ρ c main_arg5 (by decide)).trans (W2_arg5 m ρ c)
theorem W4_arg5 (c : Dev nD) : W4 m ρ c (Proc.devRef .tc main_arg5) = m ((c : Thread nD τ).loc main_arg5) :=
  (W4_in1 m ρ c).trans (W3_arg5 m ρ c)
theorem W5_arg5 (c : Dev nD) : W5 m ρ c (Proc.devRef .tc main_arg5) = m ((c : Thread nD τ).loc main_arg5) :=
  (W5_keep m ρ c main_arg5 (by decide)).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) :=
  (W7_keep m ρ c main_arg5 (by decide)).trans (W6_arg5 m ρ c)
theorem W8_arg5 (c : Dev nD) : W8 m ρ c (Proc.devRef .tc main_arg5) = m ((c : Thread nD τ).loc main_arg5) :=
  (W8_of_ne m ρ c main_arg5 (by decide)).trans (W7_arg5 m ρ c)
theorem W9_arg5 (c : Dev nD) : W9 m ρ c (Proc.devRef .tc main_arg5) = m ((c : Thread nD τ).loc main_arg5) :=
  (W9_keep m ρ c main_arg5 (by decide)).trans (W8_arg5 m ρ c)
theorem W10_arg5 (c : Dev nD) : W10 m ρ c (Proc.devRef .tc main_arg5) = m ((c : Thread nD τ).loc main_arg5) :=
  (W10_keep m ρ c main_arg5 (by decide)).trans (W9_arg5 m ρ c)
theorem W11_arg5 (c : Dev nD) : W11 m ρ c (Proc.devRef .tc main_arg5) = m ((c : Thread nD τ).loc main_arg5) :=
  (W11_keep m ρ c main_arg5 (by decide)).trans (W10_arg5 m ρ c)
theorem W12_arg5 (c : Dev nD) : W12 m ρ c (Proc.devRef .tc main_arg5) = m ((c : Thread nD τ).loc main_arg5) :=
  (W12_keep m ρ c main_arg5 (by decide)).trans (W11_arg5 m ρ c)
theorem W13_arg5 (c : Dev nD) : W13 m ρ c (Proc.devRef .tc main_arg5) = m ((c : Thread nD τ).loc main_arg5) :=
  (W13_keep m ρ c main_arg5 (by decide)).trans (W12_arg5 m ρ c)
theorem W14_arg5 (c : Dev nD) : W14 m ρ c (Proc.devRef .tc main_arg5) = m ((c : Thread nD τ).loc main_arg5) :=
  (W14_of_ne m ρ c main_arg5 (by decide)).trans (W13_arg5 m ρ c)
theorem W15_arg5 (c : Dev nD) : W15 m ρ c (Proc.devRef .tc main_arg5) = m ((c : Thread nD τ).loc main_arg5) :=
  (W15_keep m ρ c main_arg5 (by decide)).trans (W14_arg5 m ρ c)
theorem W16_arg5 (c : Dev nD) : W16 m ρ c (Proc.devRef .tc main_arg5) = m ((c : Thread nD τ).loc main_arg5) :=
  (W16_keep m ρ c main_arg5 (by decide)).trans (W15_arg5 m ρ c)
theorem W17_arg5 (c : Dev nD) : W17 m ρ c (Proc.devRef .tc main_arg5) = m ((c : Thread nD τ).loc main_arg5) :=
  (W17_keep m ρ c main_arg5 (by decide)).trans (W16_arg5 m ρ c)
theorem W18_arg5 (c : Dev nD) : W18 m ρ c (Proc.devRef .tc main_arg5) = m ((c : Thread nD τ).loc main_arg5) :=
  (W18_keep m ρ c main_arg5 (by decide)).trans (W17_arg5 m ρ c)
theorem W19_arg5 (c : Dev nD) : W19 m ρ c (Proc.devRef .tc main_arg5) = m ((c : Thread nD τ).loc main_arg5) :=
  (W19_keep m ρ c main_arg5 (by decide)).trans (W18_arg5 m ρ c)
theorem W20_arg5 (c : Dev nD) : W20 m ρ c (Proc.devRef .tc main_arg5) = m ((c : Thread nD τ).loc main_arg5) :=
  (W20_of_ne m ρ c main_arg5 (by decide)).trans (W19_arg5 m ρ c)
theorem W21_arg5 (c : Dev nD) : W21 m ρ c (Proc.devRef .tc main_arg5) = m ((c : Thread nD τ).loc main_arg5) :=
  (W21_keep m ρ c main_arg5 (by decide)).trans (W20_arg5 m ρ c)
theorem W22_arg5 (c : Dev nD) : W22 m ρ c (Proc.devRef .tc main_arg5) = m ((c : Thread nD τ).loc main_arg5) :=
  (W22_keep m ρ c main_arg5 (by decide)).trans (W21_arg5 m ρ c)
theorem W23_arg5 (c : Dev nD) : W23 m ρ c (Proc.devRef .tc main_arg5) = m ((c : Thread nD τ).loc main_arg5) :=
  (W23_keep m ρ c main_arg5 (by decide)).trans (W22_arg5 m ρ c)
theorem W24_arg5 (c : Dev nD) : W24 m ρ c (Proc.devRef .tc main_arg5) = m ((c : Thread nD τ).loc main_arg5) :=
  (W24_keep m ρ c main_arg5 (by decide)).trans (W23_arg5 m ρ c)
theorem W25_arg5 (c : Dev nD) : W25 m ρ c (Proc.devRef .tc main_arg5) = m ((c : Thread nD τ).loc main_arg5) :=
  (W25_keep m ρ c main_arg5 (by decide)).trans (W24_arg5 m ρ c)
theorem W26_arg5 (c : Dev nD) : W26 m ρ c (Proc.devRef .tc main_arg5) = m ((c : Thread nD τ).loc main_arg5) :=
  (W26_of_ne m ρ c main_arg5 (by decide)).trans (W25_arg5 m ρ c)
theorem W27_arg5 (c : Dev nD) : W27 m ρ c (Proc.devRef .tc main_arg5) = m ((c : Thread nD τ).loc main_arg5) :=
  (W27_keep m ρ c main_arg5 (by decide)).trans (W26_arg5 m ρ c)
theorem W28_arg5 (c : Dev nD) : W28 m ρ c (Proc.devRef .tc main_arg5) = m ((c : Thread nD τ).loc main_arg5) :=
  (W28_keep m ρ c main_arg5 (by decide)).trans (W27_arg5 m ρ c)
theorem W29_arg5 (c : Dev nD) : W29 m ρ c (Proc.devRef .tc main_arg5) = m ((c : Thread nD τ).loc main_arg5) :=
  (W29_keep m ρ c main_arg5 (by decide)).trans (W28_arg5 m ρ c)
theorem W30_arg5 (c : Dev nD) : W30 m ρ c (Proc.devRef .tc main_arg5) = m ((c : Thread nD τ).loc main_arg5) :=
  (W30_keep m ρ c main_arg5 (by decide)).trans (W29_arg5 m ρ c)
theorem W31_arg5 (c : Dev nD) : W31 m ρ c (Proc.devRef .tc main_arg5) = m ((c : Thread nD τ).loc main_arg5) :=
  (W31_keep m ρ c main_arg5 (by decide)).trans (W30_arg5 m ρ c)
theorem W32_arg5 (c : Dev nD) : W32 m ρ c (Proc.devRef .tc main_arg5) = m ((c : Thread nD τ).loc main_arg5) :=
  (W32_of_ne m ρ c main_arg5 (by decide)).trans (W31_arg5 m ρ c)
theorem W33_arg5 (c : Dev nD) : W33 m ρ c (Proc.devRef .tc main_arg5) = m ((c : Thread nD τ).loc main_arg5) :=
  (W33_keep m ρ c main_arg5 (by decide)).trans (W32_arg5 m ρ c)
theorem W34_arg5 (c : Dev nD) : W34 m ρ c (Proc.devRef .tc main_arg5) = m ((c : Thread nD τ).loc main_arg5) :=
  (W34_keep m ρ c main_arg5 (by decide)).trans (W33_arg5 m ρ c)
theorem W35_arg5 (c : Dev nD) : W35 m ρ c (Proc.devRef .tc main_arg5) = m ((c : Thread nD τ).loc main_arg5) :=
  (W35_keep m ρ c main_arg5 (by decide)).trans (W34_arg5 m ρ c)
theorem W36_arg5 (c : Dev nD) : W36 m ρ c (Proc.devRef .tc main_arg5) = m ((c : Thread nD τ).loc main_arg5) :=
  (W36_keep m ρ c main_arg5 (by decide)).trans (W35_arg5 m ρ c)
theorem W37_arg5 (c : Dev nD) : W37 m ρ c (Proc.devRef .tc main_arg5) = m ((c : Thread nD τ).loc main_arg5) :=
  (W37_keep m ρ c main_arg5 (by decide)).trans (W36_arg5 m ρ c)
theorem W38_arg5 (c : Dev nD) : W38 m ρ c (Proc.devRef .tc main_arg5) = m ((c : Thread nD τ).loc main_arg5) :=
  (W38_of_ne m ρ c main_arg5 (by decide)).trans (W37_arg5 m ρ c)
theorem W39_arg5 (c : Dev nD) : W39 m ρ c (Proc.devRef .tc main_arg5) = m ((c : Thread nD τ).loc main_arg5) :=
  (W39_keep m ρ c main_arg5 (by decide)).trans (W38_arg5 m ρ c)
theorem W40_arg5 (c : Dev nD) : W40 m ρ c (Proc.devRef .tc main_arg5) = m ((c : Thread nD τ).loc main_arg5) :=
  (W40_keep m ρ c main_arg5 (by decide)).trans (W39_arg5 m ρ c)
theorem W41_arg5 (c : Dev nD) : W41 m ρ c (Proc.devRef .tc main_arg5) = m ((c : Thread nD τ).loc main_arg5) :=
  (W41_keep m ρ c main_arg5 (by decide)).trans (W40_arg5 m ρ c)
theorem W42_arg5 (c : Dev nD) : W42 m ρ c (Proc.devRef .tc main_arg5) = m ((c : Thread nD τ).loc main_arg5) :=
  (W42_keep m ρ c main_arg5 (by decide)).trans (W41_arg5 m ρ c)
theorem W43_arg5 (c : Dev nD) : W43 m ρ c (Proc.devRef .tc main_arg5) = m ((c : Thread nD τ).loc main_arg5) :=
  (W43_keep m ρ c main_arg5 (by decide)).trans (W42_arg5 m ρ c)
theorem W44_arg5 (c : Dev nD) : W44 m ρ c (Proc.devRef .tc main_arg5) = m ((c : Thread nD τ).loc main_arg5) :=
  (W44_of_ne m ρ c main_arg5 (by decide)).trans (W43_arg5 m ρ c)
theorem W45_arg5 (c : Dev nD) : W45 m ρ c (Proc.devRef .tc main_arg5) = m ((c : Thread nD τ).loc main_arg5) :=
  (W45_keep m ρ c main_arg5 (by decide)).trans (W44_arg5 m ρ c)
theorem W46_arg5 (c : Dev nD) : W46 m ρ c (Proc.devRef .tc main_arg5) = m ((c : Thread nD τ).loc main_arg5) :=
  (W46_of_ne m ρ c main_arg5 (by decide)).trans (W45_arg5 m ρ c)
theorem W47_arg5 (c : Dev nD) : W47 m ρ c (Proc.devRef .tc main_arg5) = m ((c : Thread nD τ).loc main_arg5) :=
  (W47_keep m ρ c main_arg5 (by decide)).trans (W46_arg5 m ρ c)
theorem W48_arg5 (c : Dev nD) : W48 m ρ c (Proc.devRef .tc main_arg5) = m ((c : Thread nD τ).loc main_arg5) :=
  (W48_of_ne m ρ c main_arg5 (by decide)).trans (W47_arg5 m ρ c)
theorem W49_arg5 (c : Dev nD) : W49 m ρ c (Proc.devRef .tc main_arg5) = m ((c : Thread nD τ).loc main_arg5) :=
  (W49_keep m ρ c main_arg5 (by decide)).trans (W48_arg5 m ρ c)
theorem W50_arg5 (c : Dev nD) : W50 m ρ c (Proc.devRef .tc main_arg5) = m ((c : Thread nD τ).loc main_arg5) :=
  (W50_of_ne m ρ c main_arg5 (by decide)).trans (W49_arg5 m ρ c)
theorem W51_arg5 (c : Dev nD) : W51 m ρ c (Proc.devRef .tc main_arg5) = m ((c : Thread nD τ).loc main_arg5) :=
  (W51_keep m ρ c main_arg5 (by decide)).trans (W50_arg5 m ρ c)
theorem W52_arg5 (c : Dev nD) : W52 m ρ c (Proc.devRef .tc main_arg5) = m ((c : Thread nD τ).loc main_arg5) :=
  (W52_keep m ρ c main_arg5 (by decide)).trans (W51_arg5 m ρ c)
theorem W53_arg5 (c : Dev nD) : W53 m ρ c (Proc.devRef .tc main_arg5) = m ((c : Thread nD τ).loc main_arg5) :=
  (W53_keep m ρ c main_arg5 (by decide)).trans (W52_arg5 m ρ c)
theorem W54_arg5 (c : Dev nD) : W54 m ρ c (Proc.devRef .tc main_arg5) = m ((c : Thread nD τ).loc main_arg5) :=
  (W54_keep m ρ c main_arg5 (by decide)).trans (W53_arg5 m ρ c)
theorem W55_arg5 (c : Dev nD) : W55 m ρ c (Proc.devRef .tc main_arg5) = m ((c : Thread nD τ).loc main_arg5) :=
  (W55_keep m ρ c main_arg5 (by decide)).trans (W54_arg5 m ρ c)
theorem W56_arg5 (c : Dev nD) : W56 m ρ c (Proc.devRef .tc main_arg5) = m ((c : Thread nD τ).loc main_arg5) :=
  (W56_of_ne m ρ c main_arg5 (by decide)).trans (W55_arg5 m ρ c)
theorem W57_arg5 (c : Dev nD) : W57 m ρ c (Proc.devRef .tc main_arg5) = m ((c : Thread nD τ).loc main_arg5) :=
  (W57_keep m ρ c main_arg5 (by decide)).trans (W56_arg5 m ρ c)
theorem W58_arg5 (c : Dev nD) : W58 m ρ c (Proc.devRef .tc main_arg5) = m ((c : Thread nD τ).loc main_arg5) :=
  (W58_keep m ρ c main_arg5 (by decide)).trans (W57_arg5 m ρ c)
theorem W59_arg5 (c : Dev nD) : W59 m ρ c (Proc.devRef .tc main_arg5) = m ((c : Thread nD τ).loc main_arg5) :=
  (W59_keep m ρ c main_arg5 (by decide)).trans (W58_arg5 m ρ c)
theorem W60_arg5 (c : Dev nD) : W60 m ρ c (Proc.devRef .tc main_arg5) = m ((c : Thread nD τ).loc main_arg5) :=
  (W60_keep m ρ c main_arg5 (by decide)).trans (W59_arg5 m ρ c)
theorem W61_arg5 (c : Dev nD) : W61 m ρ c (Proc.devRef .tc main_arg5) = m ((c : Thread nD τ).loc main_arg5) :=
  (W61_keep m ρ c main_arg5 (by decide)).trans (W60_arg5 m ρ c)
theorem W62_arg5 (c : Dev nD) : W62 m ρ c (Proc.devRef .tc main_arg5) = m ((c : Thread nD τ).loc main_arg5) :=
  (W62_of_ne m ρ c main_arg5 (by decide)).trans (W61_arg5 m ρ c)
theorem W63_arg5 (c : Dev nD) : W63 m ρ c (Proc.devRef .tc main_arg5) = m ((c : Thread nD τ).loc main_arg5) :=
  (W63_keep m ρ c main_arg5 (by decide)).trans (W62_arg5 m ρ c)
theorem W64_arg5 (c : Dev nD) : W64 m ρ c (Proc.devRef .tc main_arg5) = m ((c : Thread nD τ).loc main_arg5) :=
  (W64_keep m ρ c main_arg5 (by decide)).trans (W63_arg5 m ρ c)
theorem W65_arg5 (c : Dev nD) : W65 m ρ c (Proc.devRef .tc main_arg5) = m ((c : Thread nD τ).loc main_arg5) :=
  (W65_keep m ρ c main_arg5 (by decide)).trans (W64_arg5 m ρ c)
theorem W66_arg5 (c : Dev nD) : W66 m ρ c (Proc.devRef .tc main_arg5) = m ((c : Thread nD τ).loc main_arg5) :=
  (W66_keep m ρ c main_arg5 (by decide)).trans (W65_arg5 m ρ c)
theorem W67_arg5 (c : Dev nD) : W67 m ρ c (Proc.devRef .tc main_arg5) = m ((c : Thread nD τ).loc main_arg5) :=
  (W67_keep m ρ c main_arg5 (by decide)).trans (W66_arg5 m ρ c)
theorem W68_arg5 (c : Dev nD) : W68 m ρ c (Proc.devRef .tc main_arg5) = m ((c : Thread nD τ).loc main_arg5) :=
  (W68_of_ne m ρ c main_arg5 (by decide)).trans (W67_arg5 m ρ c)
theorem W69_arg5 (c : Dev nD) : W69 m ρ c (Proc.devRef .tc main_arg5) = m ((c : Thread nD τ).loc main_arg5) :=
  (W69_keep m ρ c main_arg5 (by decide)).trans (W68_arg5 m ρ c)
theorem W70_arg5 (c : Dev nD) : W70 m ρ c (Proc.devRef .tc main_arg5) = m ((c : Thread nD τ).loc main_arg5) :=
  (W70_keep m ρ c main_arg5 (by decide)).trans (W69_arg5 m ρ c)
theorem W71_arg5 (c : Dev nD) : W71 m ρ c (Proc.devRef .tc main_arg5) = m ((c : Thread nD τ).loc main_arg5) :=
  (W71_keep m ρ c main_arg5 (by decide)).trans (W70_arg5 m ρ c)
theorem W72_arg5 (c : Dev nD) : W72 m ρ c (Proc.devRef .tc main_arg5) = m ((c : Thread nD τ).loc main_arg5) :=
  (W72_keep m ρ c main_arg5 (by decide)).trans (W71_arg5 m ρ c)
theorem W73_arg5 (c : Dev nD) : W73 m ρ c (Proc.devRef .tc main_arg5) = m ((c : Thread nD τ).loc main_arg5) :=
  (W73_keep m ρ c main_arg5 (by decide)).trans (W72_arg5 m ρ c)
theorem W74_arg5 (c : Dev nD) : W74 m ρ c (Proc.devRef .tc main_arg5) = m ((c : Thread nD τ).loc main_arg5) :=
  (W74_of_ne m ρ c main_arg5 (by decide)).trans (W73_arg5 m ρ c)
theorem W75_arg5 (c : Dev nD) : W75 m ρ c (Proc.devRef .tc main_arg5) = m ((c : Thread nD τ).loc main_arg5) :=
  (W75_keep m ρ c main_arg5 (by decide)).trans (W74_arg5 m ρ c)
theorem W76_arg5 (c : Dev nD) : W76 m ρ c (Proc.devRef .tc main_arg5) = m ((c : Thread nD τ).loc main_arg5) :=
  (W76_keep m ρ c main_arg5 (by decide)).trans (W75_arg5 m ρ c)
theorem W77_arg5 (c : Dev nD) : W77 m ρ c (Proc.devRef .tc main_arg5) = m ((c : Thread nD τ).loc main_arg5) :=
  (W77_keep m ρ c main_arg5 (by decide)).trans (W76_arg5 m ρ c)
theorem W78_arg5 (c : Dev nD) : W78 m ρ c (Proc.devRef .tc main_arg5) = m ((c : Thread nD τ).loc main_arg5) :=
  (W78_keep m ρ c main_arg5 (by decide)).trans (W77_arg5 m ρ c)
theorem W79_arg5 (c : Dev nD) : W79 m ρ c (Proc.devRef .tc main_arg5) = m ((c : Thread nD τ).loc main_arg5) :=
  (W79_keep m ρ c main_arg5 (by decide)).trans (W78_arg5 m ρ c)
theorem W80_arg5 (c : Dev nD) : W80 m ρ c (Proc.devRef .tc main_arg5) = m ((c : Thread nD τ).loc main_arg5) :=
  (W80_of_ne m ρ c main_arg5 (by decide)).trans (W79_arg5 m ρ c)
theorem W81_arg5 (c : Dev nD) : W81 m ρ c (Proc.devRef .tc main_arg5) = m ((c : Thread nD τ).loc main_arg5) :=
  (W81_keep m ρ c main_arg5 (by decide)).trans (W80_arg5 m ρ c)
theorem W82_arg5 (c : Dev nD) : W82 m ρ c (Proc.devRef .tc main_arg5) = m ((c : Thread nD τ).loc main_arg5) :=
  (W82_keep m ρ c main_arg5 (by decide)).trans (W81_arg5 m ρ c)
theorem W83_arg5 (c : Dev nD) : W83 m ρ c (Proc.devRef .tc main_arg5) = m ((c : Thread nD τ).loc main_arg5) :=
  (W83_keep m ρ c main_arg5 (by decide)).trans (W82_arg5 m ρ c)
theorem W84_arg5 (c : Dev nD) : W84 m ρ c (Proc.devRef .tc main_arg5) = m ((c : Thread nD τ).loc main_arg5) :=
  (W84_keep m ρ c main_arg5 (by decide)).trans (W83_arg5 m ρ c)
theorem W85_arg5 (c : Dev nD) : W85 m ρ c (Proc.devRef .tc main_arg5) = m ((c : Thread nD τ).loc main_arg5) :=
  (W85_keep m ρ c main_arg5 (by decide)).trans (W84_arg5 m ρ c)
theorem W86_arg5 (c : Dev nD) : W86 m ρ c (Proc.devRef .tc main_arg5) = m ((c : Thread nD τ).loc main_arg5) :=
  (W86_of_ne m ρ c main_arg5 (by decide)).trans (W85_arg5 m ρ c)
theorem W87_arg5 (c : Dev nD) : W87 m ρ c (Proc.devRef .tc main_arg5) = m ((c : Thread nD τ).loc main_arg5) :=
  (W87_keep m ρ c main_arg5 (by decide)).trans (W86_arg5 m ρ c)
theorem W88_arg5 (c : Dev nD) : W88 m ρ c (Proc.devRef .tc main_arg5) = m ((c : Thread nD τ).loc main_arg5) :=
  (W88_of_ne m ρ c main_arg5 (by decide)).trans (W87_arg5 m ρ c)
theorem W89_arg5 (c : Dev nD) : W89 m ρ c (Proc.devRef .tc main_arg5) = m ((c : Thread nD τ).loc main_arg5) :=
  (W89_keep m ρ c main_arg5 (by decide)).trans (W88_arg5 m ρ c)
theorem W90_arg5 (c : Dev nD) : W90 m ρ c (Proc.devRef .tc main_arg5) = m ((c : Thread nD τ).loc main_arg5) :=
  (W90_of_ne m ρ c main_arg5 (by decide)).trans (W89_arg5 m ρ c)
theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) :=
  (W1_keep m ρ c main_arg6 (by decide)).trans (W0_arg6 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W3_arg6 (c : Dev nD) : W3 m ρ c (Proc.devRef .tc main_arg6) = m ((c : Thread nD τ).loc main_arg6) :=
  (W3_keep m ρ c main_arg6 (by decide)).trans (W2_arg6 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (W5_keep m ρ c main_arg6 (by decide)).trans (W4_arg6 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W7_arg6 (c : Dev nD) : W7 m ρ c (Proc.devRef .tc main_arg6) = m ((c : Thread nD τ).loc main_arg6) :=
  (W7_keep m ρ c main_arg6 (by decide)).trans (W6_arg6 m ρ c)
theorem W8_arg6 (c : Dev nD) : W8 m ρ c (Proc.devRef .tc main_arg6) = m ((c : Thread nD τ).loc main_arg6) :=
  (W8_of_ne m ρ c main_arg6 (by decide)).trans (W7_arg6 m ρ c)
theorem W9_arg6 (c : Dev nD) : W9 m ρ c (Proc.devRef .tc main_arg6) = m ((c : Thread nD τ).loc main_arg6) :=
  (W9_keep m ρ c main_arg6 (by decide)).trans (W8_arg6 m ρ c)
theorem W10_arg6 (c : Dev nD) : W10 m ρ c (Proc.devRef .tc main_arg6) = m ((c : Thread nD τ).loc main_arg6) :=
  (W10_keep m ρ c main_arg6 (by decide)).trans (W9_arg6 m ρ c)
theorem W11_arg6 (c : Dev nD) : W11 m ρ c (Proc.devRef .tc main_arg6) = m ((c : Thread nD τ).loc main_arg6) :=
  (W11_keep m ρ c main_arg6 (by decide)).trans (W10_arg6 m ρ c)
theorem W12_arg6 (c : Dev nD) : W12 m ρ c (Proc.devRef .tc main_arg6) = m ((c : Thread nD τ).loc main_arg6) :=
  (W12_keep m ρ c main_arg6 (by decide)).trans (W11_arg6 m ρ c)
theorem W13_arg6 (c : Dev nD) : W13 m ρ c (Proc.devRef .tc main_arg6) = m ((c : Thread nD τ).loc main_arg6) :=
  (W13_keep m ρ c main_arg6 (by decide)).trans (W12_arg6 m ρ c)
theorem W14_arg6 (c : Dev nD) : W14 m ρ c (Proc.devRef .tc main_arg6) = m ((c : Thread nD τ).loc main_arg6) :=
  (W14_of_ne m ρ c main_arg6 (by decide)).trans (W13_arg6 m ρ c)
theorem W15_arg6 (c : Dev nD) : W15 m ρ c (Proc.devRef .tc main_arg6) = m ((c : Thread nD τ).loc main_arg6) :=
  (W15_keep m ρ c main_arg6 (by decide)).trans (W14_arg6 m ρ c)
theorem W16_arg6 (c : Dev nD) : W16 m ρ c (Proc.devRef .tc main_arg6) = m ((c : Thread nD τ).loc main_arg6) :=
  (W16_keep m ρ c main_arg6 (by decide)).trans (W15_arg6 m ρ c)
theorem W17_arg6 (c : Dev nD) : W17 m ρ c (Proc.devRef .tc main_arg6) = m ((c : Thread nD τ).loc main_arg6) :=
  (W17_keep m ρ c main_arg6 (by decide)).trans (W16_arg6 m ρ c)
theorem W18_arg6 (c : Dev nD) : W18 m ρ c (Proc.devRef .tc main_arg6) = m ((c : Thread nD τ).loc main_arg6) :=
  (W18_keep m ρ c main_arg6 (by decide)).trans (W17_arg6 m ρ c)
theorem W19_arg6 (c : Dev nD) : W19 m ρ c (Proc.devRef .tc main_arg6) = m ((c : Thread nD τ).loc main_arg6) :=
  (W19_keep m ρ c main_arg6 (by decide)).trans (W18_arg6 m ρ c)
theorem W20_arg6 (c : Dev nD) : W20 m ρ c (Proc.devRef .tc main_arg6) = m ((c : Thread nD τ).loc main_arg6) :=
  (W20_of_ne m ρ c main_arg6 (by decide)).trans (W19_arg6 m ρ c)
theorem W21_arg6 (c : Dev nD) : W21 m ρ c (Proc.devRef .tc main_arg6) = m ((c : Thread nD τ).loc main_arg6) :=
  (W21_keep m ρ c main_arg6 (by decide)).trans (W20_arg6 m ρ c)
theorem W22_arg6 (c : Dev nD) : W22 m ρ c (Proc.devRef .tc main_arg6) = m ((c : Thread nD τ).loc main_arg6) :=
  (W22_keep m ρ c main_arg6 (by decide)).trans (W21_arg6 m ρ c)
theorem W23_arg6 (c : Dev nD) : W23 m ρ c (Proc.devRef .tc main_arg6) = m ((c : Thread nD τ).loc main_arg6) :=
  (W23_keep m ρ c main_arg6 (by decide)).trans (W22_arg6 m ρ c)
theorem W24_arg6 (c : Dev nD) : W24 m ρ c (Proc.devRef .tc main_arg6) = m ((c : Thread nD τ).loc main_arg6) :=
  (W24_keep m ρ c main_arg6 (by decide)).trans (W23_arg6 m ρ c)
theorem W25_arg6 (c : Dev nD) : W25 m ρ c (Proc.devRef .tc main_arg6) = m ((c : Thread nD τ).loc main_arg6) :=
  (W25_keep m ρ c main_arg6 (by decide)).trans (W24_arg6 m ρ c)
theorem W26_arg6 (c : Dev nD) : W26 m ρ c (Proc.devRef .tc main_arg6) = m ((c : Thread nD τ).loc main_arg6) :=
  (W26_of_ne m ρ c main_arg6 (by decide)).trans (W25_arg6 m ρ c)
theorem W27_arg6 (c : Dev nD) : W27 m ρ c (Proc.devRef .tc main_arg6) = m ((c : Thread nD τ).loc main_arg6) :=
  (W27_keep m ρ c main_arg6 (by decide)).trans (W26_arg6 m ρ c)
theorem W28_arg6 (c : Dev nD) : W28 m ρ c (Proc.devRef .tc main_arg6) = m ((c : Thread nD τ).loc main_arg6) :=
  (W28_keep m ρ c main_arg6 (by decide)).trans (W27_arg6 m ρ c)
theorem W29_arg6 (c : Dev nD) : W29 m ρ c (Proc.devRef .tc main_arg6) = m ((c : Thread nD τ).loc main_arg6) :=
  (W29_keep m ρ c main_arg6 (by decide)).trans (W28_arg6 m ρ c)
theorem W30_arg6 (c : Dev nD) : W30 m ρ c (Proc.devRef .tc main_arg6) = m ((c : Thread nD τ).loc main_arg6) :=
  (W30_keep m ρ c main_arg6 (by decide)).trans (W29_arg6 m ρ c)
theorem W31_arg6 (c : Dev nD) : W31 m ρ c (Proc.devRef .tc main_arg6) = m ((c : Thread nD τ).loc main_arg6) :=
  (W31_keep m ρ c main_arg6 (by decide)).trans (W30_arg6 m ρ c)
theorem W32_arg6 (c : Dev nD) : W32 m ρ c (Proc.devRef .tc main_arg6) = m ((c : Thread nD τ).loc main_arg6) :=
  (W32_of_ne m ρ c main_arg6 (by decide)).trans (W31_arg6 m ρ c)
theorem W33_arg6 (c : Dev nD) : W33 m ρ c (Proc.devRef .tc main_arg6) = m ((c : Thread nD τ).loc main_arg6) :=
  (W33_keep m ρ c main_arg6 (by decide)).trans (W32_arg6 m ρ c)
theorem W34_arg6 (c : Dev nD) : W34 m ρ c (Proc.devRef .tc main_arg6) = m ((c : Thread nD τ).loc main_arg6) :=
  (W34_keep m ρ c main_arg6 (by decide)).trans (W33_arg6 m ρ c)
theorem W35_arg6 (c : Dev nD) : W35 m ρ c (Proc.devRef .tc main_arg6) = m ((c : Thread nD τ).loc main_arg6) :=
  (W35_keep m ρ c main_arg6 (by decide)).trans (W34_arg6 m ρ c)
theorem W36_arg6 (c : Dev nD) : W36 m ρ c (Proc.devRef .tc main_arg6) = m ((c : Thread nD τ).loc main_arg6) :=
  (W36_keep m ρ c main_arg6 (by decide)).trans (W35_arg6 m ρ c)
theorem W37_arg6 (c : Dev nD) : W37 m ρ c (Proc.devRef .tc main_arg6) = m ((c : Thread nD τ).loc main_arg6) :=
  (W37_keep m ρ c main_arg6 (by decide)).trans (W36_arg6 m ρ c)
theorem W38_arg6 (c : Dev nD) : W38 m ρ c (Proc.devRef .tc main_arg6) = m ((c : Thread nD τ).loc main_arg6) :=
  (W38_of_ne m ρ c main_arg6 (by decide)).trans (W37_arg6 m ρ c)
theorem W39_arg6 (c : Dev nD) : W39 m ρ c (Proc.devRef .tc main_arg6) = m ((c : Thread nD τ).loc main_arg6) :=
  (W39_keep m ρ c main_arg6 (by decide)).trans (W38_arg6 m ρ c)
theorem W40_arg6 (c : Dev nD) : W40 m ρ c (Proc.devRef .tc main_arg6) = m ((c : Thread nD τ).loc main_arg6) :=
  (W40_keep m ρ c main_arg6 (by decide)).trans (W39_arg6 m ρ c)
theorem W41_arg6 (c : Dev nD) : W41 m ρ c (Proc.devRef .tc main_arg6) = m ((c : Thread nD τ).loc main_arg6) :=
  (W41_keep m ρ c main_arg6 (by decide)).trans (W40_arg6 m ρ c)
theorem W42_arg6 (c : Dev nD) : W42 m ρ c (Proc.devRef .tc main_arg6) = m ((c : Thread nD τ).loc main_arg6) :=
  (W42_keep m ρ c main_arg6 (by decide)).trans (W41_arg6 m ρ c)
theorem W43_arg6 (c : Dev nD) : W43 m ρ c (Proc.devRef .tc main_arg6) = m ((c : Thread nD τ).loc main_arg6) :=
  (W43_keep m ρ c main_arg6 (by decide)).trans (W42_arg6 m ρ c)
theorem W44_arg6 (c : Dev nD) : W44 m ρ c (Proc.devRef .tc main_arg6) = m ((c : Thread nD τ).loc main_arg6) :=
  (W44_of_ne m ρ c main_arg6 (by decide)).trans (W43_arg6 m ρ c)
theorem W45_arg6 (c : Dev nD) : W45 m ρ c (Proc.devRef .tc main_arg6) = m ((c : Thread nD τ).loc main_arg6) :=
  (W45_keep m ρ c main_arg6 (by decide)).trans (W44_arg6 m ρ c)
theorem W46_arg6 (c : Dev nD) : W46 m ρ c (Proc.devRef .tc main_arg6) = m ((c : Thread nD τ).loc main_arg6) :=
  (W46_of_ne m ρ c main_arg6 (by decide)).trans (W45_arg6 m ρ c)
theorem W47_arg6 (c : Dev nD) : W47 m ρ c (Proc.devRef .tc main_arg6) = m ((c : Thread nD τ).loc main_arg6) :=
  (W47_keep m ρ c main_arg6 (by decide)).trans (W46_arg6 m ρ c)
theorem W48_arg6 (c : Dev nD) : W48 m ρ c (Proc.devRef .tc main_arg6) = m ((c : Thread nD τ).loc main_arg6) :=
  (W48_of_ne m ρ c main_arg6 (by decide)).trans (W47_arg6 m ρ c)
theorem W49_arg6 (c : Dev nD) : W49 m ρ c (Proc.devRef .tc main_arg6) = m ((c : Thread nD τ).loc main_arg6) :=
  (W49_keep m ρ c main_arg6 (by decide)).trans (W48_arg6 m ρ c)
theorem W50_arg6 (c : Dev nD) : W50 m ρ c (Proc.devRef .tc main_arg6) = m ((c : Thread nD τ).loc main_arg6) :=
  (W50_of_ne m ρ c main_arg6 (by decide)).trans (W49_arg6 m ρ c)
theorem W51_arg6 (c : Dev nD) : W51 m ρ c (Proc.devRef .tc main_arg6) = m ((c : Thread nD τ).loc main_arg6) :=
  (W51_keep m ρ c main_arg6 (by decide)).trans (W50_arg6 m ρ c)
theorem W52_arg6 (c : Dev nD) : W52 m ρ c (Proc.devRef .tc main_arg6) = m ((c : Thread nD τ).loc main_arg6) :=
  (W52_keep m ρ c main_arg6 (by decide)).trans (W51_arg6 m ρ c)
theorem W53_arg6 (c : Dev nD) : W53 m ρ c (Proc.devRef .tc main_arg6) = m ((c : Thread nD τ).loc main_arg6) :=
  (W53_keep m ρ c main_arg6 (by decide)).trans (W52_arg6 m ρ c)
theorem W54_arg6 (c : Dev nD) : W54 m ρ c (Proc.devRef .tc main_arg6) = m ((c : Thread nD τ).loc main_arg6) :=
  (W54_keep m ρ c main_arg6 (by decide)).trans (W53_arg6 m ρ c)
theorem W55_arg6 (c : Dev nD) : W55 m ρ c (Proc.devRef .tc main_arg6) = m ((c : Thread nD τ).loc main_arg6) :=
  (W55_keep m ρ c main_arg6 (by decide)).trans (W54_arg6 m ρ c)
theorem W56_arg6 (c : Dev nD) : W56 m ρ c (Proc.devRef .tc main_arg6) = m ((c : Thread nD τ).loc main_arg6) :=
  (W56_of_ne m ρ c main_arg6 (by decide)).trans (W55_arg6 m ρ c)
theorem W57_arg6 (c : Dev nD) : W57 m ρ c (Proc.devRef .tc main_arg6) = m ((c : Thread nD τ).loc main_arg6) :=
  (W57_keep m ρ c main_arg6 (by decide)).trans (W56_arg6 m ρ c)
theorem W58_arg6 (c : Dev nD) : W58 m ρ c (Proc.devRef .tc main_arg6) = m ((c : Thread nD τ).loc main_arg6) :=
  (W58_keep m ρ c main_arg6 (by decide)).trans (W57_arg6 m ρ c)
theorem W59_arg6 (c : Dev nD) : W59 m ρ c (Proc.devRef .tc main_arg6) = m ((c : Thread nD τ).loc main_arg6) :=
  (W59_keep m ρ c main_arg6 (by decide)).trans (W58_arg6 m ρ c)
theorem W60_arg6 (c : Dev nD) : W60 m ρ c (Proc.devRef .tc main_arg6) = m ((c : Thread nD τ).loc main_arg6) :=
  (W60_keep m ρ c main_arg6 (by decide)).trans (W59_arg6 m ρ c)
theorem W61_arg6 (c : Dev nD) : W61 m ρ c (Proc.devRef .tc main_arg6) = m ((c : Thread nD τ).loc main_arg6) :=
  (W61_keep m ρ c main_arg6 (by decide)).trans (W60_arg6 m ρ c)
theorem W62_arg6 (c : Dev nD) : W62 m ρ c (Proc.devRef .tc main_arg6) = m ((c : Thread nD τ).loc main_arg6) :=
  (W62_of_ne m ρ c main_arg6 (by decide)).trans (W61_arg6 m ρ c)
theorem W63_arg6 (c : Dev nD) : W63 m ρ c (Proc.devRef .tc main_arg6) = m ((c : Thread nD τ).loc main_arg6) :=
  (W63_keep m ρ c main_arg6 (by decide)).trans (W62_arg6 m ρ c)
theorem W64_arg6 (c : Dev nD) : W64 m ρ c (Proc.devRef .tc main_arg6) = m ((c : Thread nD τ).loc main_arg6) :=
  (W64_keep m ρ c main_arg6 (by decide)).trans (W63_arg6 m ρ c)
theorem W65_arg6 (c : Dev nD) : W65 m ρ c (Proc.devRef .tc main_arg6) = m ((c : Thread nD τ).loc main_arg6) :=
  (W65_keep m ρ c main_arg6 (by decide)).trans (W64_arg6 m ρ c)
theorem W66_arg6 (c : Dev nD) : W66 m ρ c (Proc.devRef .tc main_arg6) = m ((c : Thread nD τ).loc main_arg6) :=
  (W66_keep m ρ c main_arg6 (by decide)).trans (W65_arg6 m ρ c)
theorem W67_arg6 (c : Dev nD) : W67 m ρ c (Proc.devRef .tc main_arg6) = m ((c : Thread nD τ).loc main_arg6) :=
  (W67_keep m ρ c main_arg6 (by decide)).trans (W66_arg6 m ρ c)
theorem W68_arg6 (c : Dev nD) : W68 m ρ c (Proc.devRef .tc main_arg6) = m ((c : Thread nD τ).loc main_arg6) :=
  (W68_of_ne m ρ c main_arg6 (by decide)).trans (W67_arg6 m ρ c)
theorem W69_arg6 (c : Dev nD) : W69 m ρ c (Proc.devRef .tc main_arg6) = m ((c : Thread nD τ).loc main_arg6) :=
  (W69_keep m ρ c main_arg6 (by decide)).trans (W68_arg6 m ρ c)
theorem W70_arg6 (c : Dev nD) : W70 m ρ c (Proc.devRef .tc main_arg6) = m ((c : Thread nD τ).loc main_arg6) :=
  (W70_keep m ρ c main_arg6 (by decide)).trans (W69_arg6 m ρ c)
theorem W71_arg6 (c : Dev nD) : W71 m ρ c (Proc.devRef .tc main_arg6) = m ((c : Thread nD τ).loc main_arg6) :=
  (W71_keep m ρ c main_arg6 (by decide)).trans (W70_arg6 m ρ c)
theorem W72_arg6 (c : Dev nD) : W72 m ρ c (Proc.devRef .tc main_arg6) = m ((c : Thread nD τ).loc main_arg6) :=
  (W72_keep m ρ c main_arg6 (by decide)).trans (W71_arg6 m ρ c)
theorem W73_arg6 (c : Dev nD) : W73 m ρ c (Proc.devRef .tc main_arg6) = m ((c : Thread nD τ).loc main_arg6) :=
  (W73_keep m ρ c main_arg6 (by decide)).trans (W72_arg6 m ρ c)
theorem W74_arg6 (c : Dev nD) : W74 m ρ c (Proc.devRef .tc main_arg6) = m ((c : Thread nD τ).loc main_arg6) :=
  (W74_of_ne m ρ c main_arg6 (by decide)).trans (W73_arg6 m ρ c)
theorem W75_arg6 (c : Dev nD) : W75 m ρ c (Proc.devRef .tc main_arg6) = m ((c : Thread nD τ).loc main_arg6) :=
  (W75_keep m ρ c main_arg6 (by decide)).trans (W74_arg6 m ρ c)
theorem W76_arg6 (c : Dev nD) : W76 m ρ c (Proc.devRef .tc main_arg6) = m ((c : Thread nD τ).loc main_arg6) :=
  (W76_keep m ρ c main_arg6 (by decide)).trans (W75_arg6 m ρ c)
theorem W77_arg6 (c : Dev nD) : W77 m ρ c (Proc.devRef .tc main_arg6) = m ((c : Thread nD τ).loc main_arg6) :=
  (W77_keep m ρ c main_arg6 (by decide)).trans (W76_arg6 m ρ c)
theorem W78_arg6 (c : Dev nD) : W78 m ρ c (Proc.devRef .tc main_arg6) = m ((c : Thread nD τ).loc main_arg6) :=
  (W78_keep m ρ c main_arg6 (by decide)).trans (W77_arg6 m ρ c)
theorem W79_arg6 (c : Dev nD) : W79 m ρ c (Proc.devRef .tc main_arg6) = m ((c : Thread nD τ).loc main_arg6) :=
  (W79_keep m ρ c main_arg6 (by decide)).trans (W78_arg6 m ρ c)
theorem W80_arg6 (c : Dev nD) : W80 m ρ c (Proc.devRef .tc main_arg6) = m ((c : Thread nD τ).loc main_arg6) :=
  (W80_of_ne m ρ c main_arg6 (by decide)).trans (W79_arg6 m ρ c)
theorem W81_arg6 (c : Dev nD) : W81 m ρ c (Proc.devRef .tc main_arg6) = m ((c : Thread nD τ).loc main_arg6) :=
  (W81_keep m ρ c main_arg6 (by decide)).trans (W80_arg6 m ρ c)
theorem W82_arg6 (c : Dev nD) : W82 m ρ c (Proc.devRef .tc main_arg6) = m ((c : Thread nD τ).loc main_arg6) :=
  (W82_keep m ρ c main_arg6 (by decide)).trans (W81_arg6 m ρ c)
theorem W83_arg6 (c : Dev nD) : W83 m ρ c (Proc.devRef .tc main_arg6) = m ((c : Thread nD τ).loc main_arg6) :=
  (W83_keep m ρ c main_arg6 (by decide)).trans (W82_arg6 m ρ c)
theorem W84_arg6 (c : Dev nD) : W84 m ρ c (Proc.devRef .tc main_arg6) = m ((c : Thread nD τ).loc main_arg6) :=
  (W84_keep m ρ c main_arg6 (by decide)).trans (W83_arg6 m ρ c)
theorem W85_arg6 (c : Dev nD) : W85 m ρ c (Proc.devRef .tc main_arg6) = m ((c : Thread nD τ).loc main_arg6) :=
  (W85_keep m ρ c main_arg6 (by decide)).trans (W84_arg6 m ρ c)
theorem W86_arg6 (c : Dev nD) : W86 m ρ c (Proc.devRef .tc main_arg6) = m ((c : Thread nD τ).loc main_arg6) :=
  (W86_of_ne m ρ c main_arg6 (by decide)).trans (W85_arg6 m ρ c)
theorem W87_arg6 (c : Dev nD) : W87 m ρ c (Proc.devRef .tc main_arg6) = m ((c : Thread nD τ).loc main_arg6) :=
  (W87_keep m ρ c main_arg6 (by decide)).trans (W86_arg6 m ρ c)
theorem W88_arg6 (c : Dev nD) : W88 m ρ c (Proc.devRef .tc main_arg6) = m ((c : Thread nD τ).loc main_arg6) :=
  (W88_of_ne m ρ c main_arg6 (by decide)).trans (W87_arg6 m ρ c)
theorem W89_arg6 (c : Dev nD) : W89 m ρ c (Proc.devRef .tc main_arg6) = m ((c : Thread nD τ).loc main_arg6) :=
  (W89_keep m ρ c main_arg6 (by decide)).trans (W88_arg6 m ρ c)
theorem W90_arg6 (c : Dev nD) : W90 m ρ c (Proc.devRef .tc main_arg6) = m ((c : Thread nD τ).loc main_arg6) :=
  (W90_of_ne m ρ c main_arg6 (by decide)).trans (W89_arg6 m ρ c)
theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) :=
  (W1_keep m ρ c main_arg7 (by decide)).trans (W0_arg7 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  (W3_keep m ρ c main_arg7 (by decide)).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) :=
  (W5_keep m ρ c main_arg7 (by decide)).trans (W4_arg7 m ρ c)
theorem W6_arg7 (c : Dev nD) : W6 m ρ c (Proc.devRef .tc main_arg7) = m ((c : Thread nD τ).loc main_arg7) :=
  (W6_in1 m ρ c).trans (W5_arg7 m ρ c)
theorem W7_arg7 (c : Dev nD) : W7 m ρ c (Proc.devRef .tc main_arg7) = m ((c : Thread nD τ).loc main_arg7) :=
  (W7_keep m ρ c main_arg7 (by decide)).trans (W6_arg7 m ρ c)
theorem W8_arg7 (c : Dev nD) : W8 m ρ c (Proc.devRef .tc main_arg7) = m ((c : Thread nD τ).loc main_arg7) :=
  (W8_of_ne m ρ c main_arg7 (by decide)).trans (W7_arg7 m ρ c)
theorem W9_arg7 (c : Dev nD) : W9 m ρ c (Proc.devRef .tc main_arg7) = m ((c : Thread nD τ).loc main_arg7) :=
  (W9_keep m ρ c main_arg7 (by decide)).trans (W8_arg7 m ρ c)
theorem W10_arg7 (c : Dev nD) : W10 m ρ c (Proc.devRef .tc main_arg7) = m ((c : Thread nD τ).loc main_arg7) :=
  (W10_keep m ρ c main_arg7 (by decide)).trans (W9_arg7 m ρ c)
theorem W11_arg7 (c : Dev nD) : W11 m ρ c (Proc.devRef .tc main_arg7) = m ((c : Thread nD τ).loc main_arg7) :=
  (W11_keep m ρ c main_arg7 (by decide)).trans (W10_arg7 m ρ c)
theorem W12_arg7 (c : Dev nD) : W12 m ρ c (Proc.devRef .tc main_arg7) = m ((c : Thread nD τ).loc main_arg7) :=
  (W12_keep m ρ c main_arg7 (by decide)).trans (W11_arg7 m ρ c)
theorem W13_arg7 (c : Dev nD) : W13 m ρ c (Proc.devRef .tc main_arg7) = m ((c : Thread nD τ).loc main_arg7) :=
  (W13_keep m ρ c main_arg7 (by decide)).trans (W12_arg7 m ρ c)
theorem W14_arg7 (c : Dev nD) : W14 m ρ c (Proc.devRef .tc main_arg7) = m ((c : Thread nD τ).loc main_arg7) :=
  (W14_of_ne m ρ c main_arg7 (by decide)).trans (W13_arg7 m ρ c)
theorem W15_arg7 (c : Dev nD) : W15 m ρ c (Proc.devRef .tc main_arg7) = m ((c : Thread nD τ).loc main_arg7) :=
  (W15_keep m ρ c main_arg7 (by decide)).trans (W14_arg7 m ρ c)
theorem W16_arg7 (c : Dev nD) : W16 m ρ c (Proc.devRef .tc main_arg7) = m ((c : Thread nD τ).loc main_arg7) :=
  (W16_keep m ρ c main_arg7 (by decide)).trans (W15_arg7 m ρ c)
theorem W17_arg7 (c : Dev nD) : W17 m ρ c (Proc.devRef .tc main_arg7) = m ((c : Thread nD τ).loc main_arg7) :=
  (W17_keep m ρ c main_arg7 (by decide)).trans (W16_arg7 m ρ c)
theorem W18_arg7 (c : Dev nD) : W18 m ρ c (Proc.devRef .tc main_arg7) = m ((c : Thread nD τ).loc main_arg7) :=
  (W18_keep m ρ c main_arg7 (by decide)).trans (W17_arg7 m ρ c)
theorem W19_arg7 (c : Dev nD) : W19 m ρ c (Proc.devRef .tc main_arg7) = m ((c : Thread nD τ).loc main_arg7) :=
  (W19_keep m ρ c main_arg7 (by decide)).trans (W18_arg7 m ρ c)
theorem W20_arg7 (c : Dev nD) : W20 m ρ c (Proc.devRef .tc main_arg7) = m ((c : Thread nD τ).loc main_arg7) :=
  (W20_of_ne m ρ c main_arg7 (by decide)).trans (W19_arg7 m ρ c)
theorem W21_arg7 (c : Dev nD) : W21 m ρ c (Proc.devRef .tc main_arg7) = m ((c : Thread nD τ).loc main_arg7) :=
  (W21_keep m ρ c main_arg7 (by decide)).trans (W20_arg7 m ρ c)
theorem W22_arg7 (c : Dev nD) : W22 m ρ c (Proc.devRef .tc main_arg7) = m ((c : Thread nD τ).loc main_arg7) :=
  (W22_keep m ρ c main_arg7 (by decide)).trans (W21_arg7 m ρ c)
theorem W23_arg7 (c : Dev nD) : W23 m ρ c (Proc.devRef .tc main_arg7) = m ((c : Thread nD τ).loc main_arg7) :=
  (W23_keep m ρ c main_arg7 (by decide)).trans (W22_arg7 m ρ c)
theorem W24_arg7 (c : Dev nD) : W24 m ρ c (Proc.devRef .tc main_arg7) = m ((c : Thread nD τ).loc main_arg7) :=
  (W24_keep m ρ c main_arg7 (by decide)).trans (W23_arg7 m ρ c)
theorem W25_arg7 (c : Dev nD) : W25 m ρ c (Proc.devRef .tc main_arg7) = m ((c : Thread nD τ).loc main_arg7) :=
  (W25_keep m ρ c main_arg7 (by decide)).trans (W24_arg7 m ρ c)
theorem W26_arg7 (c : Dev nD) : W26 m ρ c (Proc.devRef .tc main_arg7) = m ((c : Thread nD τ).loc main_arg7) :=
  (W26_of_ne m ρ c main_arg7 (by decide)).trans (W25_arg7 m ρ c)
theorem W27_arg7 (c : Dev nD) : W27 m ρ c (Proc.devRef .tc main_arg7) = m ((c : Thread nD τ).loc main_arg7) :=
  (W27_keep m ρ c main_arg7 (by decide)).trans (W26_arg7 m ρ c)
theorem W28_arg7 (c : Dev nD) : W28 m ρ c (Proc.devRef .tc main_arg7) = m ((c : Thread nD τ).loc main_arg7) :=
  (W28_keep m ρ c main_arg7 (by decide)).trans (W27_arg7 m ρ c)
theorem W29_arg7 (c : Dev nD) : W29 m ρ c (Proc.devRef .tc main_arg7) = m ((c : Thread nD τ).loc main_arg7) :=
  (W29_keep m ρ c main_arg7 (by decide)).trans (W28_arg7 m ρ c)
theorem W30_arg7 (c : Dev nD) : W30 m ρ c (Proc.devRef .tc main_arg7) = m ((c : Thread nD τ).loc main_arg7) :=
  (W30_keep m ρ c main_arg7 (by decide)).trans (W29_arg7 m ρ c)
theorem W31_arg7 (c : Dev nD) : W31 m ρ c (Proc.devRef .tc main_arg7) = m ((c : Thread nD τ).loc main_arg7) :=
  (W31_keep m ρ c main_arg7 (by decide)).trans (W30_arg7 m ρ c)
theorem W32_arg7 (c : Dev nD) : W32 m ρ c (Proc.devRef .tc main_arg7) = m ((c : Thread nD τ).loc main_arg7) :=
  (W32_of_ne m ρ c main_arg7 (by decide)).trans (W31_arg7 m ρ c)
theorem W33_arg7 (c : Dev nD) : W33 m ρ c (Proc.devRef .tc main_arg7) = m ((c : Thread nD τ).loc main_arg7) :=
  (W33_keep m ρ c main_arg7 (by decide)).trans (W32_arg7 m ρ c)
theorem W34_arg7 (c : Dev nD) : W34 m ρ c (Proc.devRef .tc main_arg7) = m ((c : Thread nD τ).loc main_arg7) :=
  (W34_keep m ρ c main_arg7 (by decide)).trans (W33_arg7 m ρ c)
theorem W35_arg7 (c : Dev nD) : W35 m ρ c (Proc.devRef .tc main_arg7) = m ((c : Thread nD τ).loc main_arg7) :=
  (W35_keep m ρ c main_arg7 (by decide)).trans (W34_arg7 m ρ c)
theorem W36_arg7 (c : Dev nD) : W36 m ρ c (Proc.devRef .tc main_arg7) = m ((c : Thread nD τ).loc main_arg7) :=
  (W36_keep m ρ c main_arg7 (by decide)).trans (W35_arg7 m ρ c)
theorem W37_arg7 (c : Dev nD) : W37 m ρ c (Proc.devRef .tc main_arg7) = m ((c : Thread nD τ).loc main_arg7) :=
  (W37_keep m ρ c main_arg7 (by decide)).trans (W36_arg7 m ρ c)
theorem W38_arg7 (c : Dev nD) : W38 m ρ c (Proc.devRef .tc main_arg7) = m ((c : Thread nD τ).loc main_arg7) :=
  (W38_of_ne m ρ c main_arg7 (by decide)).trans (W37_arg7 m ρ c)
theorem W39_arg7 (c : Dev nD) : W39 m ρ c (Proc.devRef .tc main_arg7) = m ((c : Thread nD τ).loc main_arg7) :=
  (W39_keep m ρ c main_arg7 (by decide)).trans (W38_arg7 m ρ c)
theorem W40_arg7 (c : Dev nD) : W40 m ρ c (Proc.devRef .tc main_arg7) = m ((c : Thread nD τ).loc main_arg7) :=
  (W40_keep m ρ c main_arg7 (by decide)).trans (W39_arg7 m ρ c)
theorem W41_arg7 (c : Dev nD) : W41 m ρ c (Proc.devRef .tc main_arg7) = m ((c : Thread nD τ).loc main_arg7) :=
  (W41_keep m ρ c main_arg7 (by decide)).trans (W40_arg7 m ρ c)
theorem W42_arg7 (c : Dev nD) : W42 m ρ c (Proc.devRef .tc main_arg7) = m ((c : Thread nD τ).loc main_arg7) :=
  (W42_keep m ρ c main_arg7 (by decide)).trans (W41_arg7 m ρ c)
theorem W43_arg7 (c : Dev nD) : W43 m ρ c (Proc.devRef .tc main_arg7) = m ((c : Thread nD τ).loc main_arg7) :=
  (W43_keep m ρ c main_arg7 (by decide)).trans (W42_arg7 m ρ c)
theorem W44_arg7 (c : Dev nD) : W44 m ρ c (Proc.devRef .tc main_arg7) = m ((c : Thread nD τ).loc main_arg7) :=
  (W44_of_ne m ρ c main_arg7 (by decide)).trans (W43_arg7 m ρ c)
theorem W45_arg7 (c : Dev nD) : W45 m ρ c (Proc.devRef .tc main_arg7) = m ((c : Thread nD τ).loc main_arg7) :=
  (W45_keep m ρ c main_arg7 (by decide)).trans (W44_arg7 m ρ c)
theorem W46_arg7 (c : Dev nD) : W46 m ρ c (Proc.devRef .tc main_arg7) = m ((c : Thread nD τ).loc main_arg7) :=
  (W46_of_ne m ρ c main_arg7 (by decide)).trans (W45_arg7 m ρ c)
theorem W47_arg7 (c : Dev nD) : W47 m ρ c (Proc.devRef .tc main_arg7) = m ((c : Thread nD τ).loc main_arg7) :=
  (W47_keep m ρ c main_arg7 (by decide)).trans (W46_arg7 m ρ c)
theorem W48_arg7 (c : Dev nD) : W48 m ρ c (Proc.devRef .tc main_arg7) = m ((c : Thread nD τ).loc main_arg7) :=
  (W48_of_ne m ρ c main_arg7 (by decide)).trans (W47_arg7 m ρ c)
theorem W49_arg7 (c : Dev nD) : W49 m ρ c (Proc.devRef .tc main_arg7) = m ((c : Thread nD τ).loc main_arg7) :=
  (W49_keep m ρ c main_arg7 (by decide)).trans (W48_arg7 m ρ c)
theorem W50_arg7 (c : Dev nD) : W50 m ρ c (Proc.devRef .tc main_arg7) = m ((c : Thread nD τ).loc main_arg7) :=
  (W50_of_ne m ρ c main_arg7 (by decide)).trans (W49_arg7 m ρ c)
theorem W51_arg7 (c : Dev nD) : W51 m ρ c (Proc.devRef .tc main_arg7) = m ((c : Thread nD τ).loc main_arg7) :=
  (W51_keep m ρ c main_arg7 (by decide)).trans (W50_arg7 m ρ c)
theorem W52_arg7 (c : Dev nD) : W52 m ρ c (Proc.devRef .tc main_arg7) = m ((c : Thread nD τ).loc main_arg7) :=
  (W52_keep m ρ c main_arg7 (by decide)).trans (W51_arg7 m ρ c)
theorem W53_arg7 (c : Dev nD) : W53 m ρ c (Proc.devRef .tc main_arg7) = m ((c : Thread nD τ).loc main_arg7) :=
  (W53_keep m ρ c main_arg7 (by decide)).trans (W52_arg7 m ρ c)
theorem W54_arg7 (c : Dev nD) : W54 m ρ c (Proc.devRef .tc main_arg7) = m ((c : Thread nD τ).loc main_arg7) :=
  (W54_keep m ρ c main_arg7 (by decide)).trans (W53_arg7 m ρ c)
theorem W55_arg7 (c : Dev nD) : W55 m ρ c (Proc.devRef .tc main_arg7) = m ((c : Thread nD τ).loc main_arg7) :=
  (W55_keep m ρ c main_arg7 (by decide)).trans (W54_arg7 m ρ c)
theorem W56_arg7 (c : Dev nD) : W56 m ρ c (Proc.devRef .tc main_arg7) = m ((c : Thread nD τ).loc main_arg7) :=
  (W56_of_ne m ρ c main_arg7 (by decide)).trans (W55_arg7 m ρ c)
theorem W57_arg7 (c : Dev nD) : W57 m ρ c (Proc.devRef .tc main_arg7) = m ((c : Thread nD τ).loc main_arg7) :=
  (W57_keep m ρ c main_arg7 (by decide)).trans (W56_arg7 m ρ c)
theorem W58_arg7 (c : Dev nD) : W58 m ρ c (Proc.devRef .tc main_arg7) = m ((c : Thread nD τ).loc main_arg7) :=
  (W58_keep m ρ c main_arg7 (by decide)).trans (W57_arg7 m ρ c)
theorem W59_arg7 (c : Dev nD) : W59 m ρ c (Proc.devRef .tc main_arg7) = m ((c : Thread nD τ).loc main_arg7) :=
  (W59_keep m ρ c main_arg7 (by decide)).trans (W58_arg7 m ρ c)
theorem W60_arg7 (c : Dev nD) : W60 m ρ c (Proc.devRef .tc main_arg7) = m ((c : Thread nD τ).loc main_arg7) :=
  (W60_keep m ρ c main_arg7 (by decide)).trans (W59_arg7 m ρ c)
theorem W61_arg7 (c : Dev nD) : W61 m ρ c (Proc.devRef .tc main_arg7) = m ((c : Thread nD τ).loc main_arg7) :=
  (W61_keep m ρ c main_arg7 (by decide)).trans (W60_arg7 m ρ c)
theorem W62_arg7 (c : Dev nD) : W62 m ρ c (Proc.devRef .tc main_arg7) = m ((c : Thread nD τ).loc main_arg7) :=
  (W62_of_ne m ρ c main_arg7 (by decide)).trans (W61_arg7 m ρ c)
theorem W63_arg7 (c : Dev nD) : W63 m ρ c (Proc.devRef .tc main_arg7) = m ((c : Thread nD τ).loc main_arg7) :=
  (W63_keep m ρ c main_arg7 (by decide)).trans (W62_arg7 m ρ c)
theorem W64_arg7 (c : Dev nD) : W64 m ρ c (Proc.devRef .tc main_arg7) = m ((c : Thread nD τ).loc main_arg7) :=
  (W64_keep m ρ c main_arg7 (by decide)).trans (W63_arg7 m ρ c)
theorem W65_arg7 (c : Dev nD) : W65 m ρ c (Proc.devRef .tc main_arg7) = m ((c : Thread nD τ).loc main_arg7) :=
  (W65_keep m ρ c main_arg7 (by decide)).trans (W64_arg7 m ρ c)
theorem W66_arg7 (c : Dev nD) : W66 m ρ c (Proc.devRef .tc main_arg7) = m ((c : Thread nD τ).loc main_arg7) :=
  (W66_keep m ρ c main_arg7 (by decide)).trans (W65_arg7 m ρ c)
theorem W67_arg7 (c : Dev nD) : W67 m ρ c (Proc.devRef .tc main_arg7) = m ((c : Thread nD τ).loc main_arg7) :=
  (W67_keep m ρ c main_arg7 (by decide)).trans (W66_arg7 m ρ c)
theorem W68_arg7 (c : Dev nD) : W68 m ρ c (Proc.devRef .tc main_arg7) = m ((c : Thread nD τ).loc main_arg7) :=
  (W68_of_ne m ρ c main_arg7 (by decide)).trans (W67_arg7 m ρ c)
theorem W69_arg7 (c : Dev nD) : W69 m ρ c (Proc.devRef .tc main_arg7) = m ((c : Thread nD τ).loc main_arg7) :=
  (W69_keep m ρ c main_arg7 (by decide)).trans (W68_arg7 m ρ c)
theorem W70_arg7 (c : Dev nD) : W70 m ρ c (Proc.devRef .tc main_arg7) = m ((c : Thread nD τ).loc main_arg7) :=
  (W70_keep m ρ c main_arg7 (by decide)).trans (W69_arg7 m ρ c)
theorem W71_arg7 (c : Dev nD) : W71 m ρ c (Proc.devRef .tc main_arg7) = m ((c : Thread nD τ).loc main_arg7) :=
  (W71_keep m ρ c main_arg7 (by decide)).trans (W70_arg7 m ρ c)
theorem W72_arg7 (c : Dev nD) : W72 m ρ c (Proc.devRef .tc main_arg7) = m ((c : Thread nD τ).loc main_arg7) :=
  (W72_keep m ρ c main_arg7 (by decide)).trans (W71_arg7 m ρ c)
theorem W73_arg7 (c : Dev nD) : W73 m ρ c (Proc.devRef .tc main_arg7) = m ((c : Thread nD τ).loc main_arg7) :=
  (W73_keep m ρ c main_arg7 (by decide)).trans (W72_arg7 m ρ c)
theorem W74_arg7 (c : Dev nD) : W74 m ρ c (Proc.devRef .tc main_arg7) = m ((c : Thread nD τ).loc main_arg7) :=
  (W74_of_ne m ρ c main_arg7 (by decide)).trans (W73_arg7 m ρ c)
theorem W75_arg7 (c : Dev nD) : W75 m ρ c (Proc.devRef .tc main_arg7) = m ((c : Thread nD τ).loc main_arg7) :=
  (W75_keep m ρ c main_arg7 (by decide)).trans (W74_arg7 m ρ c)
theorem W76_arg7 (c : Dev nD) : W76 m ρ c (Proc.devRef .tc main_arg7) = m ((c : Thread nD τ).loc main_arg7) :=
  (W76_keep m ρ c main_arg7 (by decide)).trans (W75_arg7 m ρ c)
theorem W77_arg7 (c : Dev nD) : W77 m ρ c (Proc.devRef .tc main_arg7) = m ((c : Thread nD τ).loc main_arg7) :=
  (W77_keep m ρ c main_arg7 (by decide)).trans (W76_arg7 m ρ c)
theorem W78_arg7 (c : Dev nD) : W78 m ρ c (Proc.devRef .tc main_arg7) = m ((c : Thread nD τ).loc main_arg7) :=
  (W78_keep m ρ c main_arg7 (by decide)).trans (W77_arg7 m ρ c)
theorem W79_arg7 (c : Dev nD) : W79 m ρ c (Proc.devRef .tc main_arg7) = m ((c : Thread nD τ).loc main_arg7) :=
  (W79_keep m ρ c main_arg7 (by decide)).trans (W78_arg7 m ρ c)
theorem W80_arg7 (c : Dev nD) : W80 m ρ c (Proc.devRef .tc main_arg7) = m ((c : Thread nD τ).loc main_arg7) :=
  (W80_of_ne m ρ c main_arg7 (by decide)).trans (W79_arg7 m ρ c)
theorem W81_arg7 (c : Dev nD) : W81 m ρ c (Proc.devRef .tc main_arg7) = m ((c : Thread nD τ).loc main_arg7) :=
  (W81_keep m ρ c main_arg7 (by decide)).trans (W80_arg7 m ρ c)
theorem W82_arg7 (c : Dev nD) : W82 m ρ c (Proc.devRef .tc main_arg7) = m ((c : Thread nD τ).loc main_arg7) :=
  (W82_keep m ρ c main_arg7 (by decide)).trans (W81_arg7 m ρ c)
theorem W83_arg7 (c : Dev nD) : W83 m ρ c (Proc.devRef .tc main_arg7) = m ((c : Thread nD τ).loc main_arg7) :=
  (W83_keep m ρ c main_arg7 (by decide)).trans (W82_arg7 m ρ c)
theorem W84_arg7 (c : Dev nD) : W84 m ρ c (Proc.devRef .tc main_arg7) = m ((c : Thread nD τ).loc main_arg7) :=
  (W84_keep m ρ c main_arg7 (by decide)).trans (W83_arg7 m ρ c)
theorem W85_arg7 (c : Dev nD) : W85 m ρ c (Proc.devRef .tc main_arg7) = m ((c : Thread nD τ).loc main_arg7) :=
  (W85_keep m ρ c main_arg7 (by decide)).trans (W84_arg7 m ρ c)
theorem W86_arg7 (c : Dev nD) : W86 m ρ c (Proc.devRef .tc main_arg7) = m ((c : Thread nD τ).loc main_arg7) :=
  (W86_of_ne m ρ c main_arg7 (by decide)).trans (W85_arg7 m ρ c)
theorem W87_arg7 (c : Dev nD) : W87 m ρ c (Proc.devRef .tc main_arg7) = m ((c : Thread nD τ).loc main_arg7) :=
  (W87_keep m ρ c main_arg7 (by decide)).trans (W86_arg7 m ρ c)
theorem W88_arg7 (c : Dev nD) : W88 m ρ c (Proc.devRef .tc main_arg7) = m ((c : Thread nD τ).loc main_arg7) :=
  (W88_of_ne m ρ c main_arg7 (by decide)).trans (W87_arg7 m ρ c)
theorem W89_arg7 (c : Dev nD) : W89 m ρ c (Proc.devRef .tc main_arg7) = m ((c : Thread nD τ).loc main_arg7) :=
  (W89_keep m ρ c main_arg7 (by decide)).trans (W88_arg7 m ρ c)
theorem W90_arg7 (c : Dev nD) : W90 m ρ c (Proc.devRef .tc main_arg7) = m ((c : Thread nD τ).loc main_arg7) :=
  (W90_of_ne m ρ c main_arg7 (by decide)).trans (W89_arg7 m ρ c)

end Cert.KernelIdeal.Hand

end
-- ==== Proof.KFold.Args1.lean ====
/- The argument arrays main_arg8 .. main_arg15 along the fold: no host operation and no region writes an
   argument (a region that reads one through an input window leaves it as entered), so at every boundary an
   argument's buffer holds its launch contents. One step per boundary, each from the boundary before. -/
import proofs.«147021_j7619271983570_1_alg».proof.Proof.KFold.Keep

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) :=
  (W1_keep m ρ c main_arg8 (by decide)).trans (W0_arg8 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (W3_keep m ρ c main_arg8 (by decide)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (W5_keep m ρ c main_arg8 (by decide)).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) :=
  (W7_keep m ρ c main_arg8 (by decide)).trans (W6_arg8 m ρ c)
theorem W8_arg8 (c : Dev nD) : W8 m ρ c (Proc.devRef .tc main_arg8) = m ((c : Thread nD τ).loc main_arg8) :=
  (W8_of_ne m ρ c main_arg8 (by decide)).trans (W7_arg8 m ρ c)
theorem W9_arg8 (c : Dev nD) : W9 m ρ c (Proc.devRef .tc main_arg8) = m ((c : Thread nD τ).loc main_arg8) :=
  (W9_keep m ρ c main_arg8 (by decide)).trans (W8_arg8 m ρ c)
theorem W10_arg8 (c : Dev nD) : W10 m ρ c (Proc.devRef .tc main_arg8) = m ((c : Thread nD τ).loc main_arg8) :=
  (W10_keep m ρ c main_arg8 (by decide)).trans (W9_arg8 m ρ c)
theorem W11_arg8 (c : Dev nD) : W11 m ρ c (Proc.devRef .tc main_arg8) = m ((c : Thread nD τ).loc main_arg8) :=
  (W11_keep m ρ c main_arg8 (by decide)).trans (W10_arg8 m ρ c)
theorem W12_arg8 (c : Dev nD) : W12 m ρ c (Proc.devRef .tc main_arg8) = m ((c : Thread nD τ).loc main_arg8) :=
  (W12_keep m ρ c main_arg8 (by decide)).trans (W11_arg8 m ρ c)
theorem W13_arg8 (c : Dev nD) : W13 m ρ c (Proc.devRef .tc main_arg8) = m ((c : Thread nD τ).loc main_arg8) :=
  (W13_keep m ρ c main_arg8 (by decide)).trans (W12_arg8 m ρ c)
theorem W14_arg8 (c : Dev nD) : W14 m ρ c (Proc.devRef .tc main_arg8) = m ((c : Thread nD τ).loc main_arg8) :=
  (W14_of_ne m ρ c main_arg8 (by decide)).trans (W13_arg8 m ρ c)
theorem W15_arg8 (c : Dev nD) : W15 m ρ c (Proc.devRef .tc main_arg8) = m ((c : Thread nD τ).loc main_arg8) :=
  (W15_keep m ρ c main_arg8 (by decide)).trans (W14_arg8 m ρ c)
theorem W16_arg8 (c : Dev nD) : W16 m ρ c (Proc.devRef .tc main_arg8) = m ((c : Thread nD τ).loc main_arg8) :=
  (W16_keep m ρ c main_arg8 (by decide)).trans (W15_arg8 m ρ c)
theorem W17_arg8 (c : Dev nD) : W17 m ρ c (Proc.devRef .tc main_arg8) = m ((c : Thread nD τ).loc main_arg8) :=
  (W17_keep m ρ c main_arg8 (by decide)).trans (W16_arg8 m ρ c)
theorem W18_arg8 (c : Dev nD) : W18 m ρ c (Proc.devRef .tc main_arg8) = m ((c : Thread nD τ).loc main_arg8) :=
  (W18_keep m ρ c main_arg8 (by decide)).trans (W17_arg8 m ρ c)
theorem W19_arg8 (c : Dev nD) : W19 m ρ c (Proc.devRef .tc main_arg8) = m ((c : Thread nD τ).loc main_arg8) :=
  (W19_keep m ρ c main_arg8 (by decide)).trans (W18_arg8 m ρ c)
theorem W20_arg8 (c : Dev nD) : W20 m ρ c (Proc.devRef .tc main_arg8) = m ((c : Thread nD τ).loc main_arg8) :=
  (W20_of_ne m ρ c main_arg8 (by decide)).trans (W19_arg8 m ρ c)
theorem W21_arg8 (c : Dev nD) : W21 m ρ c (Proc.devRef .tc main_arg8) = m ((c : Thread nD τ).loc main_arg8) :=
  (W21_keep m ρ c main_arg8 (by decide)).trans (W20_arg8 m ρ c)
theorem W22_arg8 (c : Dev nD) : W22 m ρ c (Proc.devRef .tc main_arg8) = m ((c : Thread nD τ).loc main_arg8) :=
  (W22_keep m ρ c main_arg8 (by decide)).trans (W21_arg8 m ρ c)
theorem W23_arg8 (c : Dev nD) : W23 m ρ c (Proc.devRef .tc main_arg8) = m ((c : Thread nD τ).loc main_arg8) :=
  (W23_keep m ρ c main_arg8 (by decide)).trans (W22_arg8 m ρ c)
theorem W24_arg8 (c : Dev nD) : W24 m ρ c (Proc.devRef .tc main_arg8) = m ((c : Thread nD τ).loc main_arg8) :=
  (W24_keep m ρ c main_arg8 (by decide)).trans (W23_arg8 m ρ c)
theorem W25_arg8 (c : Dev nD) : W25 m ρ c (Proc.devRef .tc main_arg8) = m ((c : Thread nD τ).loc main_arg8) :=
  (W25_keep m ρ c main_arg8 (by decide)).trans (W24_arg8 m ρ c)
theorem W26_arg8 (c : Dev nD) : W26 m ρ c (Proc.devRef .tc main_arg8) = m ((c : Thread nD τ).loc main_arg8) :=
  (W26_of_ne m ρ c main_arg8 (by decide)).trans (W25_arg8 m ρ c)
theorem W27_arg8 (c : Dev nD) : W27 m ρ c (Proc.devRef .tc main_arg8) = m ((c : Thread nD τ).loc main_arg8) :=
  (W27_keep m ρ c main_arg8 (by decide)).trans (W26_arg8 m ρ c)
theorem W28_arg8 (c : Dev nD) : W28 m ρ c (Proc.devRef .tc main_arg8) = m ((c : Thread nD τ).loc main_arg8) :=
  (W28_keep m ρ c main_arg8 (by decide)).trans (W27_arg8 m ρ c)
theorem W29_arg8 (c : Dev nD) : W29 m ρ c (Proc.devRef .tc main_arg8) = m ((c : Thread nD τ).loc main_arg8) :=
  (W29_keep m ρ c main_arg8 (by decide)).trans (W28_arg8 m ρ c)
theorem W30_arg8 (c : Dev nD) : W30 m ρ c (Proc.devRef .tc main_arg8) = m ((c : Thread nD τ).loc main_arg8) :=
  (W30_keep m ρ c main_arg8 (by decide)).trans (W29_arg8 m ρ c)
theorem W31_arg8 (c : Dev nD) : W31 m ρ c (Proc.devRef .tc main_arg8) = m ((c : Thread nD τ).loc main_arg8) :=
  (W31_keep m ρ c main_arg8 (by decide)).trans (W30_arg8 m ρ c)
theorem W32_arg8 (c : Dev nD) : W32 m ρ c (Proc.devRef .tc main_arg8) = m ((c : Thread nD τ).loc main_arg8) :=
  (W32_of_ne m ρ c main_arg8 (by decide)).trans (W31_arg8 m ρ c)
theorem W33_arg8 (c : Dev nD) : W33 m ρ c (Proc.devRef .tc main_arg8) = m ((c : Thread nD τ).loc main_arg8) :=
  (W33_keep m ρ c main_arg8 (by decide)).trans (W32_arg8 m ρ c)
theorem W34_arg8 (c : Dev nD) : W34 m ρ c (Proc.devRef .tc main_arg8) = m ((c : Thread nD τ).loc main_arg8) :=
  (W34_keep m ρ c main_arg8 (by decide)).trans (W33_arg8 m ρ c)
theorem W35_arg8 (c : Dev nD) : W35 m ρ c (Proc.devRef .tc main_arg8) = m ((c : Thread nD τ).loc main_arg8) :=
  (W35_keep m ρ c main_arg8 (by decide)).trans (W34_arg8 m ρ c)
theorem W36_arg8 (c : Dev nD) : W36 m ρ c (Proc.devRef .tc main_arg8) = m ((c : Thread nD τ).loc main_arg8) :=
  (W36_keep m ρ c main_arg8 (by decide)).trans (W35_arg8 m ρ c)
theorem W37_arg8 (c : Dev nD) : W37 m ρ c (Proc.devRef .tc main_arg8) = m ((c : Thread nD τ).loc main_arg8) :=
  (W37_keep m ρ c main_arg8 (by decide)).trans (W36_arg8 m ρ c)
theorem W38_arg8 (c : Dev nD) : W38 m ρ c (Proc.devRef .tc main_arg8) = m ((c : Thread nD τ).loc main_arg8) :=
  (W38_of_ne m ρ c main_arg8 (by decide)).trans (W37_arg8 m ρ c)
theorem W39_arg8 (c : Dev nD) : W39 m ρ c (Proc.devRef .tc main_arg8) = m ((c : Thread nD τ).loc main_arg8) :=
  (W39_keep m ρ c main_arg8 (by decide)).trans (W38_arg8 m ρ c)
theorem W40_arg8 (c : Dev nD) : W40 m ρ c (Proc.devRef .tc main_arg8) = m ((c : Thread nD τ).loc main_arg8) :=
  (W40_keep m ρ c main_arg8 (by decide)).trans (W39_arg8 m ρ c)
theorem W41_arg8 (c : Dev nD) : W41 m ρ c (Proc.devRef .tc main_arg8) = m ((c : Thread nD τ).loc main_arg8) :=
  (W41_keep m ρ c main_arg8 (by decide)).trans (W40_arg8 m ρ c)
theorem W42_arg8 (c : Dev nD) : W42 m ρ c (Proc.devRef .tc main_arg8) = m ((c : Thread nD τ).loc main_arg8) :=
  (W42_keep m ρ c main_arg8 (by decide)).trans (W41_arg8 m ρ c)
theorem W43_arg8 (c : Dev nD) : W43 m ρ c (Proc.devRef .tc main_arg8) = m ((c : Thread nD τ).loc main_arg8) :=
  (W43_keep m ρ c main_arg8 (by decide)).trans (W42_arg8 m ρ c)
theorem W44_arg8 (c : Dev nD) : W44 m ρ c (Proc.devRef .tc main_arg8) = m ((c : Thread nD τ).loc main_arg8) :=
  (W44_of_ne m ρ c main_arg8 (by decide)).trans (W43_arg8 m ρ c)
theorem W45_arg8 (c : Dev nD) : W45 m ρ c (Proc.devRef .tc main_arg8) = m ((c : Thread nD τ).loc main_arg8) :=
  (W45_keep m ρ c main_arg8 (by decide)).trans (W44_arg8 m ρ c)
theorem W46_arg8 (c : Dev nD) : W46 m ρ c (Proc.devRef .tc main_arg8) = m ((c : Thread nD τ).loc main_arg8) :=
  (W46_of_ne m ρ c main_arg8 (by decide)).trans (W45_arg8 m ρ c)
theorem W47_arg8 (c : Dev nD) : W47 m ρ c (Proc.devRef .tc main_arg8) = m ((c : Thread nD τ).loc main_arg8) :=
  (W47_keep m ρ c main_arg8 (by decide)).trans (W46_arg8 m ρ c)
theorem W48_arg8 (c : Dev nD) : W48 m ρ c (Proc.devRef .tc main_arg8) = m ((c : Thread nD τ).loc main_arg8) :=
  (W48_of_ne m ρ c main_arg8 (by decide)).trans (W47_arg8 m ρ c)
theorem W49_arg8 (c : Dev nD) : W49 m ρ c (Proc.devRef .tc main_arg8) = m ((c : Thread nD τ).loc main_arg8) :=
  (W49_keep m ρ c main_arg8 (by decide)).trans (W48_arg8 m ρ c)
theorem W50_arg8 (c : Dev nD) : W50 m ρ c (Proc.devRef .tc main_arg8) = m ((c : Thread nD τ).loc main_arg8) :=
  (W50_of_ne m ρ c main_arg8 (by decide)).trans (W49_arg8 m ρ c)
theorem W51_arg8 (c : Dev nD) : W51 m ρ c (Proc.devRef .tc main_arg8) = m ((c : Thread nD τ).loc main_arg8) :=
  (W51_keep m ρ c main_arg8 (by decide)).trans (W50_arg8 m ρ c)
theorem W52_arg8 (c : Dev nD) : W52 m ρ c (Proc.devRef .tc main_arg8) = m ((c : Thread nD τ).loc main_arg8) :=
  (W52_keep m ρ c main_arg8 (by decide)).trans (W51_arg8 m ρ c)
theorem W53_arg8 (c : Dev nD) : W53 m ρ c (Proc.devRef .tc main_arg8) = m ((c : Thread nD τ).loc main_arg8) :=
  (W53_keep m ρ c main_arg8 (by decide)).trans (W52_arg8 m ρ c)
theorem W54_arg8 (c : Dev nD) : W54 m ρ c (Proc.devRef .tc main_arg8) = m ((c : Thread nD τ).loc main_arg8) :=
  (W54_keep m ρ c main_arg8 (by decide)).trans (W53_arg8 m ρ c)
theorem W55_arg8 (c : Dev nD) : W55 m ρ c (Proc.devRef .tc main_arg8) = m ((c : Thread nD τ).loc main_arg8) :=
  (W55_keep m ρ c main_arg8 (by decide)).trans (W54_arg8 m ρ c)
theorem W56_arg8 (c : Dev nD) : W56 m ρ c (Proc.devRef .tc main_arg8) = m ((c : Thread nD τ).loc main_arg8) :=
  (W56_of_ne m ρ c main_arg8 (by decide)).trans (W55_arg8 m ρ c)
theorem W57_arg8 (c : Dev nD) : W57 m ρ c (Proc.devRef .tc main_arg8) = m ((c : Thread nD τ).loc main_arg8) :=
  (W57_keep m ρ c main_arg8 (by decide)).trans (W56_arg8 m ρ c)
theorem W58_arg8 (c : Dev nD) : W58 m ρ c (Proc.devRef .tc main_arg8) = m ((c : Thread nD τ).loc main_arg8) :=
  (W58_keep m ρ c main_arg8 (by decide)).trans (W57_arg8 m ρ c)
theorem W59_arg8 (c : Dev nD) : W59 m ρ c (Proc.devRef .tc main_arg8) = m ((c : Thread nD τ).loc main_arg8) :=
  (W59_keep m ρ c main_arg8 (by decide)).trans (W58_arg8 m ρ c)
theorem W60_arg8 (c : Dev nD) : W60 m ρ c (Proc.devRef .tc main_arg8) = m ((c : Thread nD τ).loc main_arg8) :=
  (W60_keep m ρ c main_arg8 (by decide)).trans (W59_arg8 m ρ c)
theorem W61_arg8 (c : Dev nD) : W61 m ρ c (Proc.devRef .tc main_arg8) = m ((c : Thread nD τ).loc main_arg8) :=
  (W61_keep m ρ c main_arg8 (by decide)).trans (W60_arg8 m ρ c)
theorem W62_arg8 (c : Dev nD) : W62 m ρ c (Proc.devRef .tc main_arg8) = m ((c : Thread nD τ).loc main_arg8) :=
  (W62_of_ne m ρ c main_arg8 (by decide)).trans (W61_arg8 m ρ c)
theorem W63_arg8 (c : Dev nD) : W63 m ρ c (Proc.devRef .tc main_arg8) = m ((c : Thread nD τ).loc main_arg8) :=
  (W63_keep m ρ c main_arg8 (by decide)).trans (W62_arg8 m ρ c)
theorem W64_arg8 (c : Dev nD) : W64 m ρ c (Proc.devRef .tc main_arg8) = m ((c : Thread nD τ).loc main_arg8) :=
  (W64_keep m ρ c main_arg8 (by decide)).trans (W63_arg8 m ρ c)
theorem W65_arg8 (c : Dev nD) : W65 m ρ c (Proc.devRef .tc main_arg8) = m ((c : Thread nD τ).loc main_arg8) :=
  (W65_keep m ρ c main_arg8 (by decide)).trans (W64_arg8 m ρ c)
theorem W66_arg8 (c : Dev nD) : W66 m ρ c (Proc.devRef .tc main_arg8) = m ((c : Thread nD τ).loc main_arg8) :=
  (W66_keep m ρ c main_arg8 (by decide)).trans (W65_arg8 m ρ c)
theorem W67_arg8 (c : Dev nD) : W67 m ρ c (Proc.devRef .tc main_arg8) = m ((c : Thread nD τ).loc main_arg8) :=
  (W67_keep m ρ c main_arg8 (by decide)).trans (W66_arg8 m ρ c)
theorem W68_arg8 (c : Dev nD) : W68 m ρ c (Proc.devRef .tc main_arg8) = m ((c : Thread nD τ).loc main_arg8) :=
  (W68_of_ne m ρ c main_arg8 (by decide)).trans (W67_arg8 m ρ c)
theorem W69_arg8 (c : Dev nD) : W69 m ρ c (Proc.devRef .tc main_arg8) = m ((c : Thread nD τ).loc main_arg8) :=
  (W69_keep m ρ c main_arg8 (by decide)).trans (W68_arg8 m ρ c)
theorem W70_arg8 (c : Dev nD) : W70 m ρ c (Proc.devRef .tc main_arg8) = m ((c : Thread nD τ).loc main_arg8) :=
  (W70_keep m ρ c main_arg8 (by decide)).trans (W69_arg8 m ρ c)
theorem W71_arg8 (c : Dev nD) : W71 m ρ c (Proc.devRef .tc main_arg8) = m ((c : Thread nD τ).loc main_arg8) :=
  (W71_keep m ρ c main_arg8 (by decide)).trans (W70_arg8 m ρ c)
theorem W72_arg8 (c : Dev nD) : W72 m ρ c (Proc.devRef .tc main_arg8) = m ((c : Thread nD τ).loc main_arg8) :=
  (W72_keep m ρ c main_arg8 (by decide)).trans (W71_arg8 m ρ c)
theorem W73_arg8 (c : Dev nD) : W73 m ρ c (Proc.devRef .tc main_arg8) = m ((c : Thread nD τ).loc main_arg8) :=
  (W73_keep m ρ c main_arg8 (by decide)).trans (W72_arg8 m ρ c)
theorem W74_arg8 (c : Dev nD) : W74 m ρ c (Proc.devRef .tc main_arg8) = m ((c : Thread nD τ).loc main_arg8) :=
  (W74_of_ne m ρ c main_arg8 (by decide)).trans (W73_arg8 m ρ c)
theorem W75_arg8 (c : Dev nD) : W75 m ρ c (Proc.devRef .tc main_arg8) = m ((c : Thread nD τ).loc main_arg8) :=
  (W75_keep m ρ c main_arg8 (by decide)).trans (W74_arg8 m ρ c)
theorem W76_arg8 (c : Dev nD) : W76 m ρ c (Proc.devRef .tc main_arg8) = m ((c : Thread nD τ).loc main_arg8) :=
  (W76_keep m ρ c main_arg8 (by decide)).trans (W75_arg8 m ρ c)
theorem W77_arg8 (c : Dev nD) : W77 m ρ c (Proc.devRef .tc main_arg8) = m ((c : Thread nD τ).loc main_arg8) :=
  (W77_keep m ρ c main_arg8 (by decide)).trans (W76_arg8 m ρ c)
theorem W78_arg8 (c : Dev nD) : W78 m ρ c (Proc.devRef .tc main_arg8) = m ((c : Thread nD τ).loc main_arg8) :=
  (W78_keep m ρ c main_arg8 (by decide)).trans (W77_arg8 m ρ c)
theorem W79_arg8 (c : Dev nD) : W79 m ρ c (Proc.devRef .tc main_arg8) = m ((c : Thread nD τ).loc main_arg8) :=
  (W79_keep m ρ c main_arg8 (by decide)).trans (W78_arg8 m ρ c)
theorem W80_arg8 (c : Dev nD) : W80 m ρ c (Proc.devRef .tc main_arg8) = m ((c : Thread nD τ).loc main_arg8) :=
  (W80_of_ne m ρ c main_arg8 (by decide)).trans (W79_arg8 m ρ c)
theorem W81_arg8 (c : Dev nD) : W81 m ρ c (Proc.devRef .tc main_arg8) = m ((c : Thread nD τ).loc main_arg8) :=
  (W81_keep m ρ c main_arg8 (by decide)).trans (W80_arg8 m ρ c)
theorem W82_arg8 (c : Dev nD) : W82 m ρ c (Proc.devRef .tc main_arg8) = m ((c : Thread nD τ).loc main_arg8) :=
  (W82_keep m ρ c main_arg8 (by decide)).trans (W81_arg8 m ρ c)
theorem W83_arg8 (c : Dev nD) : W83 m ρ c (Proc.devRef .tc main_arg8) = m ((c : Thread nD τ).loc main_arg8) :=
  (W83_keep m ρ c main_arg8 (by decide)).trans (W82_arg8 m ρ c)
theorem W84_arg8 (c : Dev nD) : W84 m ρ c (Proc.devRef .tc main_arg8) = m ((c : Thread nD τ).loc main_arg8) :=
  (W84_keep m ρ c main_arg8 (by decide)).trans (W83_arg8 m ρ c)
theorem W85_arg8 (c : Dev nD) : W85 m ρ c (Proc.devRef .tc main_arg8) = m ((c : Thread nD τ).loc main_arg8) :=
  (W85_keep m ρ c main_arg8 (by decide)).trans (W84_arg8 m ρ c)
theorem W86_arg8 (c : Dev nD) : W86 m ρ c (Proc.devRef .tc main_arg8) = m ((c : Thread nD τ).loc main_arg8) :=
  (W86_of_ne m ρ c main_arg8 (by decide)).trans (W85_arg8 m ρ c)
theorem W87_arg8 (c : Dev nD) : W87 m ρ c (Proc.devRef .tc main_arg8) = m ((c : Thread nD τ).loc main_arg8) :=
  (W87_keep m ρ c main_arg8 (by decide)).trans (W86_arg8 m ρ c)
theorem W88_arg8 (c : Dev nD) : W88 m ρ c (Proc.devRef .tc main_arg8) = m ((c : Thread nD τ).loc main_arg8) :=
  (W88_of_ne m ρ c main_arg8 (by decide)).trans (W87_arg8 m ρ c)
theorem W89_arg8 (c : Dev nD) : W89 m ρ c (Proc.devRef .tc main_arg8) = m ((c : Thread nD τ).loc main_arg8) :=
  (W89_keep m ρ c main_arg8 (by decide)).trans (W88_arg8 m ρ c)
theorem W90_arg8 (c : Dev nD) : W90 m ρ c (Proc.devRef .tc main_arg8) = m ((c : Thread nD τ).loc main_arg8) :=
  (W90_of_ne m ρ c main_arg8 (by decide)).trans (W89_arg8 m ρ c)
theorem W0_arg9 (c : Dev nD) : W0 m ρ c (Proc.devRef .tc main_arg9) = m ((c : Thread nD τ).loc main_arg9) := rfl
theorem W1_arg9 (c : Dev nD) : W1 m ρ c (Proc.devRef .tc main_arg9) = m ((c : Thread nD τ).loc main_arg9) :=
  (W1_keep m ρ c main_arg9 (by decide)).trans (W0_arg9 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (W3_keep m ρ c main_arg9 (by decide)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (W5_keep m ρ c main_arg9 (by decide)).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) :=
  (W7_keep m ρ c main_arg9 (by decide)).trans (W6_arg9 m ρ c)
theorem W8_arg9 (c : Dev nD) : W8 m ρ c (Proc.devRef .tc main_arg9) = m ((c : Thread nD τ).loc main_arg9) :=
  (W8_of_ne m ρ c main_arg9 (by decide)).trans (W7_arg9 m ρ c)
theorem W9_arg9 (c : Dev nD) : W9 m ρ c (Proc.devRef .tc main_arg9) = m ((c : Thread nD τ).loc main_arg9) :=
  (W9_keep m ρ c main_arg9 (by decide)).trans (W8_arg9 m ρ c)
theorem W10_arg9 (c : Dev nD) : W10 m ρ c (Proc.devRef .tc main_arg9) = m ((c : Thread nD τ).loc main_arg9) :=
  (W10_keep m ρ c main_arg9 (by decide)).trans (W9_arg9 m ρ c)
theorem W11_arg9 (c : Dev nD) : W11 m ρ c (Proc.devRef .tc main_arg9) = m ((c : Thread nD τ).loc main_arg9) :=
  (W11_keep m ρ c main_arg9 (by decide)).trans (W10_arg9 m ρ c)
theorem W12_arg9 (c : Dev nD) : W12 m ρ c (Proc.devRef .tc main_arg9) = m ((c : Thread nD τ).loc main_arg9) :=
  (W12_keep m ρ c main_arg9 (by decide)).trans (W11_arg9 m ρ c)
theorem W13_arg9 (c : Dev nD) : W13 m ρ c (Proc.devRef .tc main_arg9) = m ((c : Thread nD τ).loc main_arg9) :=
  (W13_keep m ρ c main_arg9 (by decide)).trans (W12_arg9 m ρ c)
theorem W14_arg9 (c : Dev nD) : W14 m ρ c (Proc.devRef .tc main_arg9) = m ((c : Thread nD τ).loc main_arg9) :=
  (W14_of_ne m ρ c main_arg9 (by decide)).trans (W13_arg9 m ρ c)
theorem W15_arg9 (c : Dev nD) : W15 m ρ c (Proc.devRef .tc main_arg9) = m ((c : Thread nD τ).loc main_arg9) :=
  (W15_keep m ρ c main_arg9 (by decide)).trans (W14_arg9 m ρ c)
theorem W16_arg9 (c : Dev nD) : W16 m ρ c (Proc.devRef .tc main_arg9) = m ((c : Thread nD τ).loc main_arg9) :=
  (W16_keep m ρ c main_arg9 (by decide)).trans (W15_arg9 m ρ c)
theorem W17_arg9 (c : Dev nD) : W17 m ρ c (Proc.devRef .tc main_arg9) = m ((c : Thread nD τ).loc main_arg9) :=
  (W17_keep m ρ c main_arg9 (by decide)).trans (W16_arg9 m ρ c)
theorem W18_arg9 (c : Dev nD) : W18 m ρ c (Proc.devRef .tc main_arg9) = m ((c : Thread nD τ).loc main_arg9) :=
  (W18_keep m ρ c main_arg9 (by decide)).trans (W17_arg9 m ρ c)
theorem W19_arg9 (c : Dev nD) : W19 m ρ c (Proc.devRef .tc main_arg9) = m ((c : Thread nD τ).loc main_arg9) :=
  (W19_keep m ρ c main_arg9 (by decide)).trans (W18_arg9 m ρ c)
theorem W20_arg9 (c : Dev nD) : W20 m ρ c (Proc.devRef .tc main_arg9) = m ((c : Thread nD τ).loc main_arg9) :=
  (W20_of_ne m ρ c main_arg9 (by decide)).trans (W19_arg9 m ρ c)
theorem W21_arg9 (c : Dev nD) : W21 m ρ c (Proc.devRef .tc main_arg9) = m ((c : Thread nD τ).loc main_arg9) :=
  (W21_keep m ρ c main_arg9 (by decide)).trans (W20_arg9 m ρ c)
theorem W22_arg9 (c : Dev nD) : W22 m ρ c (Proc.devRef .tc main_arg9) = m ((c : Thread nD τ).loc main_arg9) :=
  (W22_keep m ρ c main_arg9 (by decide)).trans (W21_arg9 m ρ c)
theorem W23_arg9 (c : Dev nD) : W23 m ρ c (Proc.devRef .tc main_arg9) = m ((c : Thread nD τ).loc main_arg9) :=
  (W23_keep m ρ c main_arg9 (by decide)).trans (W22_arg9 m ρ c)
theorem W24_arg9 (c : Dev nD) : W24 m ρ c (Proc.devRef .tc main_arg9) = m ((c : Thread nD τ).loc main_arg9) :=
  (W24_keep m ρ c main_arg9 (by decide)).trans (W23_arg9 m ρ c)
theorem W25_arg9 (c : Dev nD) : W25 m ρ c (Proc.devRef .tc main_arg9) = m ((c : Thread nD τ).loc main_arg9) :=
  (W25_keep m ρ c main_arg9 (by decide)).trans (W24_arg9 m ρ c)
theorem W26_arg9 (c : Dev nD) : W26 m ρ c (Proc.devRef .tc main_arg9) = m ((c : Thread nD τ).loc main_arg9) :=
  (W26_of_ne m ρ c main_arg9 (by decide)).trans (W25_arg9 m ρ c)
theorem W27_arg9 (c : Dev nD) : W27 m ρ c (Proc.devRef .tc main_arg9) = m ((c : Thread nD τ).loc main_arg9) :=
  (W27_keep m ρ c main_arg9 (by decide)).trans (W26_arg9 m ρ c)
theorem W28_arg9 (c : Dev nD) : W28 m ρ c (Proc.devRef .tc main_arg9) = m ((c : Thread nD τ).loc main_arg9) :=
  (W28_keep m ρ c main_arg9 (by decide)).trans (W27_arg9 m ρ c)
theorem W29_arg9 (c : Dev nD) : W29 m ρ c (Proc.devRef .tc main_arg9) = m ((c : Thread nD τ).loc main_arg9) :=
  (W29_keep m ρ c main_arg9 (by decide)).trans (W28_arg9 m ρ c)
theorem W30_arg9 (c : Dev nD) : W30 m ρ c (Proc.devRef .tc main_arg9) = m ((c : Thread nD τ).loc main_arg9) :=
  (W30_keep m ρ c main_arg9 (by decide)).trans (W29_arg9 m ρ c)
theorem W31_arg9 (c : Dev nD) : W31 m ρ c (Proc.devRef .tc main_arg9) = m ((c : Thread nD τ).loc main_arg9) :=
  (W31_keep m ρ c main_arg9 (by decide)).trans (W30_arg9 m ρ c)
theorem W32_arg9 (c : Dev nD) : W32 m ρ c (Proc.devRef .tc main_arg9) = m ((c : Thread nD τ).loc main_arg9) :=
  (W32_of_ne m ρ c main_arg9 (by decide)).trans (W31_arg9 m ρ c)
theorem W33_arg9 (c : Dev nD) : W33 m ρ c (Proc.devRef .tc main_arg9) = m ((c : Thread nD τ).loc main_arg9) :=
  (W33_keep m ρ c main_arg9 (by decide)).trans (W32_arg9 m ρ c)
theorem W34_arg9 (c : Dev nD) : W34 m ρ c (Proc.devRef .tc main_arg9) = m ((c : Thread nD τ).loc main_arg9) :=
  (W34_keep m ρ c main_arg9 (by decide)).trans (W33_arg9 m ρ c)
theorem W35_arg9 (c : Dev nD) : W35 m ρ c (Proc.devRef .tc main_arg9) = m ((c : Thread nD τ).loc main_arg9) :=
  (W35_keep m ρ c main_arg9 (by decide)).trans (W34_arg9 m ρ c)
theorem W36_arg9 (c : Dev nD) : W36 m ρ c (Proc.devRef .tc main_arg9) = m ((c : Thread nD τ).loc main_arg9) :=
  (W36_keep m ρ c main_arg9 (by decide)).trans (W35_arg9 m ρ c)
theorem W37_arg9 (c : Dev nD) : W37 m ρ c (Proc.devRef .tc main_arg9) = m ((c : Thread nD τ).loc main_arg9) :=
  (W37_keep m ρ c main_arg9 (by decide)).trans (W36_arg9 m ρ c)
theorem W38_arg9 (c : Dev nD) : W38 m ρ c (Proc.devRef .tc main_arg9) = m ((c : Thread nD τ).loc main_arg9) :=
  (W38_of_ne m ρ c main_arg9 (by decide)).trans (W37_arg9 m ρ c)
theorem W39_arg9 (c : Dev nD) : W39 m ρ c (Proc.devRef .tc main_arg9) = m ((c : Thread nD τ).loc main_arg9) :=
  (W39_keep m ρ c main_arg9 (by decide)).trans (W38_arg9 m ρ c)
theorem W40_arg9 (c : Dev nD) : W40 m ρ c (Proc.devRef .tc main_arg9) = m ((c : Thread nD τ).loc main_arg9) :=
  (W40_keep m ρ c main_arg9 (by decide)).trans (W39_arg9 m ρ c)
theorem W41_arg9 (c : Dev nD) : W41 m ρ c (Proc.devRef .tc main_arg9) = m ((c : Thread nD τ).loc main_arg9) :=
  (W41_keep m ρ c main_arg9 (by decide)).trans (W40_arg9 m ρ c)
theorem W42_arg9 (c : Dev nD) : W42 m ρ c (Proc.devRef .tc main_arg9) = m ((c : Thread nD τ).loc main_arg9) :=
  (W42_keep m ρ c main_arg9 (by decide)).trans (W41_arg9 m ρ c)
theorem W43_arg9 (c : Dev nD) : W43 m ρ c (Proc.devRef .tc main_arg9) = m ((c : Thread nD τ).loc main_arg9) :=
  (W43_keep m ρ c main_arg9 (by decide)).trans (W42_arg9 m ρ c)
theorem W44_arg9 (c : Dev nD) : W44 m ρ c (Proc.devRef .tc main_arg9) = m ((c : Thread nD τ).loc main_arg9) :=
  (W44_of_ne m ρ c main_arg9 (by decide)).trans (W43_arg9 m ρ c)
theorem W45_arg9 (c : Dev nD) : W45 m ρ c (Proc.devRef .tc main_arg9) = m ((c : Thread nD τ).loc main_arg9) :=
  (W45_keep m ρ c main_arg9 (by decide)).trans (W44_arg9 m ρ c)
theorem W46_arg9 (c : Dev nD) : W46 m ρ c (Proc.devRef .tc main_arg9) = m ((c : Thread nD τ).loc main_arg9) :=
  (W46_of_ne m ρ c main_arg9 (by decide)).trans (W45_arg9 m ρ c)
theorem W47_arg9 (c : Dev nD) : W47 m ρ c (Proc.devRef .tc main_arg9) = m ((c : Thread nD τ).loc main_arg9) :=
  (W47_keep m ρ c main_arg9 (by decide)).trans (W46_arg9 m ρ c)
theorem W48_arg9 (c : Dev nD) : W48 m ρ c (Proc.devRef .tc main_arg9) = m ((c : Thread nD τ).loc main_arg9) :=
  (W48_of_ne m ρ c main_arg9 (by decide)).trans (W47_arg9 m ρ c)
theorem W49_arg9 (c : Dev nD) : W49 m ρ c (Proc.devRef .tc main_arg9) = m ((c : Thread nD τ).loc main_arg9) :=
  (W49_keep m ρ c main_arg9 (by decide)).trans (W48_arg9 m ρ c)
theorem W50_arg9 (c : Dev nD) : W50 m ρ c (Proc.devRef .tc main_arg9) = m ((c : Thread nD τ).loc main_arg9) :=
  (W50_of_ne m ρ c main_arg9 (by decide)).trans (W49_arg9 m ρ c)
theorem W51_arg9 (c : Dev nD) : W51 m ρ c (Proc.devRef .tc main_arg9) = m ((c : Thread nD τ).loc main_arg9) :=
  (W51_keep m ρ c main_arg9 (by decide)).trans (W50_arg9 m ρ c)
theorem W52_arg9 (c : Dev nD) : W52 m ρ c (Proc.devRef .tc main_arg9) = m ((c : Thread nD τ).loc main_arg9) :=
  (W52_keep m ρ c main_arg9 (by decide)).trans (W51_arg9 m ρ c)
theorem W53_arg9 (c : Dev nD) : W53 m ρ c (Proc.devRef .tc main_arg9) = m ((c : Thread nD τ).loc main_arg9) :=
  (W53_keep m ρ c main_arg9 (by decide)).trans (W52_arg9 m ρ c)
theorem W54_arg9 (c : Dev nD) : W54 m ρ c (Proc.devRef .tc main_arg9) = m ((c : Thread nD τ).loc main_arg9) :=
  (W54_keep m ρ c main_arg9 (by decide)).trans (W53_arg9 m ρ c)
theorem W55_arg9 (c : Dev nD) : W55 m ρ c (Proc.devRef .tc main_arg9) = m ((c : Thread nD τ).loc main_arg9) :=
  (W55_keep m ρ c main_arg9 (by decide)).trans (W54_arg9 m ρ c)
theorem W56_arg9 (c : Dev nD) : W56 m ρ c (Proc.devRef .tc main_arg9) = m ((c : Thread nD τ).loc main_arg9) :=
  (W56_of_ne m ρ c main_arg9 (by decide)).trans (W55_arg9 m ρ c)
theorem W57_arg9 (c : Dev nD) : W57 m ρ c (Proc.devRef .tc main_arg9) = m ((c : Thread nD τ).loc main_arg9) :=
  (W57_keep m ρ c main_arg9 (by decide)).trans (W56_arg9 m ρ c)
theorem W58_arg9 (c : Dev nD) : W58 m ρ c (Proc.devRef .tc main_arg9) = m ((c : Thread nD τ).loc main_arg9) :=
  (W58_keep m ρ c main_arg9 (by decide)).trans (W57_arg9 m ρ c)
theorem W59_arg9 (c : Dev nD) : W59 m ρ c (Proc.devRef .tc main_arg9) = m ((c : Thread nD τ).loc main_arg9) :=
  (W59_keep m ρ c main_arg9 (by decide)).trans (W58_arg9 m ρ c)
theorem W60_arg9 (c : Dev nD) : W60 m ρ c (Proc.devRef .tc main_arg9) = m ((c : Thread nD τ).loc main_arg9) :=
  (W60_keep m ρ c main_arg9 (by decide)).trans (W59_arg9 m ρ c)
theorem W61_arg9 (c : Dev nD) : W61 m ρ c (Proc.devRef .tc main_arg9) = m ((c : Thread nD τ).loc main_arg9) :=
  (W61_keep m ρ c main_arg9 (by decide)).trans (W60_arg9 m ρ c)
theorem W62_arg9 (c : Dev nD) : W62 m ρ c (Proc.devRef .tc main_arg9) = m ((c : Thread nD τ).loc main_arg9) :=
  (W62_of_ne m ρ c main_arg9 (by decide)).trans (W61_arg9 m ρ c)
theorem W63_arg9 (c : Dev nD) : W63 m ρ c (Proc.devRef .tc main_arg9) = m ((c : Thread nD τ).loc main_arg9) :=
  (W63_keep m ρ c main_arg9 (by decide)).trans (W62_arg9 m ρ c)
theorem W64_arg9 (c : Dev nD) : W64 m ρ c (Proc.devRef .tc main_arg9) = m ((c : Thread nD τ).loc main_arg9) :=
  (W64_keep m ρ c main_arg9 (by decide)).trans (W63_arg9 m ρ c)
theorem W65_arg9 (c : Dev nD) : W65 m ρ c (Proc.devRef .tc main_arg9) = m ((c : Thread nD τ).loc main_arg9) :=
  (W65_keep m ρ c main_arg9 (by decide)).trans (W64_arg9 m ρ c)
theorem W66_arg9 (c : Dev nD) : W66 m ρ c (Proc.devRef .tc main_arg9) = m ((c : Thread nD τ).loc main_arg9) :=
  (W66_keep m ρ c main_arg9 (by decide)).trans (W65_arg9 m ρ c)
theorem W67_arg9 (c : Dev nD) : W67 m ρ c (Proc.devRef .tc main_arg9) = m ((c : Thread nD τ).loc main_arg9) :=
  (W67_keep m ρ c main_arg9 (by decide)).trans (W66_arg9 m ρ c)
theorem W68_arg9 (c : Dev nD) : W68 m ρ c (Proc.devRef .tc main_arg9) = m ((c : Thread nD τ).loc main_arg9) :=
  (W68_of_ne m ρ c main_arg9 (by decide)).trans (W67_arg9 m ρ c)
theorem W69_arg9 (c : Dev nD) : W69 m ρ c (Proc.devRef .tc main_arg9) = m ((c : Thread nD τ).loc main_arg9) :=
  (W69_keep m ρ c main_arg9 (by decide)).trans (W68_arg9 m ρ c)
theorem W70_arg9 (c : Dev nD) : W70 m ρ c (Proc.devRef .tc main_arg9) = m ((c : Thread nD τ).loc main_arg9) :=
  (W70_keep m ρ c main_arg9 (by decide)).trans (W69_arg9 m ρ c)
theorem W71_arg9 (c : Dev nD) : W71 m ρ c (Proc.devRef .tc main_arg9) = m ((c : Thread nD τ).loc main_arg9) :=
  (W71_keep m ρ c main_arg9 (by decide)).trans (W70_arg9 m ρ c)
theorem W72_arg9 (c : Dev nD) : W72 m ρ c (Proc.devRef .tc main_arg9) = m ((c : Thread nD τ).loc main_arg9) :=
  (W72_keep m ρ c main_arg9 (by decide)).trans (W71_arg9 m ρ c)
theorem W73_arg9 (c : Dev nD) : W73 m ρ c (Proc.devRef .tc main_arg9) = m ((c : Thread nD τ).loc main_arg9) :=
  (W73_keep m ρ c main_arg9 (by decide)).trans (W72_arg9 m ρ c)
theorem W74_arg9 (c : Dev nD) : W74 m ρ c (Proc.devRef .tc main_arg9) = m ((c : Thread nD τ).loc main_arg9) :=
  (W74_of_ne m ρ c main_arg9 (by decide)).trans (W73_arg9 m ρ c)
theorem W75_arg9 (c : Dev nD) : W75 m ρ c (Proc.devRef .tc main_arg9) = m ((c : Thread nD τ).loc main_arg9) :=
  (W75_keep m ρ c main_arg9 (by decide)).trans (W74_arg9 m ρ c)
theorem W76_arg9 (c : Dev nD) : W76 m ρ c (Proc.devRef .tc main_arg9) = m ((c : Thread nD τ).loc main_arg9) :=
  (W76_keep m ρ c main_arg9 (by decide)).trans (W75_arg9 m ρ c)
theorem W77_arg9 (c : Dev nD) : W77 m ρ c (Proc.devRef .tc main_arg9) = m ((c : Thread nD τ).loc main_arg9) :=
  (W77_keep m ρ c main_arg9 (by decide)).trans (W76_arg9 m ρ c)
theorem W78_arg9 (c : Dev nD) : W78 m ρ c (Proc.devRef .tc main_arg9) = m ((c : Thread nD τ).loc main_arg9) :=
  (W78_keep m ρ c main_arg9 (by decide)).trans (W77_arg9 m ρ c)
theorem W79_arg9 (c : Dev nD) : W79 m ρ c (Proc.devRef .tc main_arg9) = m ((c : Thread nD τ).loc main_arg9) :=
  (W79_keep m ρ c main_arg9 (by decide)).trans (W78_arg9 m ρ c)
theorem W80_arg9 (c : Dev nD) : W80 m ρ c (Proc.devRef .tc main_arg9) = m ((c : Thread nD τ).loc main_arg9) :=
  (W80_of_ne m ρ c main_arg9 (by decide)).trans (W79_arg9 m ρ c)
theorem W81_arg9 (c : Dev nD) : W81 m ρ c (Proc.devRef .tc main_arg9) = m ((c : Thread nD τ).loc main_arg9) :=
  (W81_keep m ρ c main_arg9 (by decide)).trans (W80_arg9 m ρ c)
theorem W82_arg9 (c : Dev nD) : W82 m ρ c (Proc.devRef .tc main_arg9) = m ((c : Thread nD τ).loc main_arg9) :=
  (W82_keep m ρ c main_arg9 (by decide)).trans (W81_arg9 m ρ c)
theorem W83_arg9 (c : Dev nD) : W83 m ρ c (Proc.devRef .tc main_arg9) = m ((c : Thread nD τ).loc main_arg9) :=
  (W83_keep m ρ c main_arg9 (by decide)).trans (W82_arg9 m ρ c)
theorem W84_arg9 (c : Dev nD) : W84 m ρ c (Proc.devRef .tc main_arg9) = m ((c : Thread nD τ).loc main_arg9) :=
  (W84_keep m ρ c main_arg9 (by decide)).trans (W83_arg9 m ρ c)
theorem W85_arg9 (c : Dev nD) : W85 m ρ c (Proc.devRef .tc main_arg9) = m ((c : Thread nD τ).loc main_arg9) :=
  (W85_keep m ρ c main_arg9 (by decide)).trans (W84_arg9 m ρ c)
theorem W86_arg9 (c : Dev nD) : W86 m ρ c (Proc.devRef .tc main_arg9) = m ((c : Thread nD τ).loc main_arg9) :=
  (W86_of_ne m ρ c main_arg9 (by decide)).trans (W85_arg9 m ρ c)
theorem W87_arg9 (c : Dev nD) : W87 m ρ c (Proc.devRef .tc main_arg9) = m ((c : Thread nD τ).loc main_arg9) :=
  (W87_keep m ρ c main_arg9 (by decide)).trans (W86_arg9 m ρ c)
theorem W88_arg9 (c : Dev nD) : W88 m ρ c (Proc.devRef .tc main_arg9) = m ((c : Thread nD τ).loc main_arg9) :=
  (W88_of_ne m ρ c main_arg9 (by decide)).trans (W87_arg9 m ρ c)
theorem W89_arg9 (c : Dev nD) : W89 m ρ c (Proc.devRef .tc main_arg9) = m ((c : Thread nD τ).loc main_arg9) :=
  (W89_keep m ρ c main_arg9 (by decide)).trans (W88_arg9 m ρ c)
theorem W90_arg9 (c : Dev nD) : W90 m ρ c (Proc.devRef .tc main_arg9) = m ((c : Thread nD τ).loc main_arg9) :=
  (W90_of_ne m ρ c main_arg9 (by decide)).trans (W89_arg9 m ρ c)
theorem W0_arg10 (c : Dev nD) : W0 m ρ c (Proc.devRef .tc main_arg10) = m ((c : Thread nD τ).loc main_arg10) := rfl
theorem W1_arg10 (c : Dev nD) : W1 m ρ c (Proc.devRef .tc main_arg10) = m ((c : Thread nD τ).loc main_arg10) :=
  (W1_keep m ρ c main_arg10 (by decide)).trans (W0_arg10 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (W3_keep m ρ c main_arg10 (by decide)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (W5_keep m ρ c main_arg10 (by decide)).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (W7_keep m ρ c main_arg10 (by decide)).trans (W6_arg10 m ρ c)
theorem W8_arg10 (c : Dev nD) : W8 m ρ c (Proc.devRef .tc main_arg10) = m ((c : Thread nD τ).loc main_arg10) :=
  (W8_of_ne m ρ c main_arg10 (by decide)).trans (W7_arg10 m ρ c)
theorem W9_arg10 (c : Dev nD) : W9 m ρ c (Proc.devRef .tc main_arg10) = m ((c : Thread nD τ).loc main_arg10) :=
  (W9_keep m ρ c main_arg10 (by decide)).trans (W8_arg10 m ρ c)
theorem W10_arg10 (c : Dev nD) : W10 m ρ c (Proc.devRef .tc main_arg10) = m ((c : Thread nD τ).loc main_arg10) :=
  (W10_keep m ρ c main_arg10 (by decide)).trans (W9_arg10 m ρ c)
theorem W11_arg10 (c : Dev nD) : W11 m ρ c (Proc.devRef .tc main_arg10) = m ((c : Thread nD τ).loc main_arg10) :=
  (W11_keep m ρ c main_arg10 (by decide)).trans (W10_arg10 m ρ c)
theorem W12_arg10 (c : Dev nD) : W12 m ρ c (Proc.devRef .tc main_arg10) = m ((c : Thread nD τ).loc main_arg10) :=
  (W12_keep m ρ c main_arg10 (by decide)).trans (W11_arg10 m ρ c)
theorem W13_arg10 (c : Dev nD) : W13 m ρ c (Proc.devRef .tc main_arg10) = m ((c : Thread nD τ).loc main_arg10) :=
  (W13_keep m ρ c main_arg10 (by decide)).trans (W12_arg10 m ρ c)
theorem W14_arg10 (c : Dev nD) : W14 m ρ c (Proc.devRef .tc main_arg10) = m ((c : Thread nD τ).loc main_arg10) :=
  (W14_of_ne m ρ c main_arg10 (by decide)).trans (W13_arg10 m ρ c)
theorem W15_arg10 (c : Dev nD) : W15 m ρ c (Proc.devRef .tc main_arg10) = m ((c : Thread nD τ).loc main_arg10) :=
  (W15_keep m ρ c main_arg10 (by decide)).trans (W14_arg10 m ρ c)
theorem W16_arg10 (c : Dev nD) : W16 m ρ c (Proc.devRef .tc main_arg10) = m ((c : Thread nD τ).loc main_arg10) :=
  (W16_keep m ρ c main_arg10 (by decide)).trans (W15_arg10 m ρ c)
theorem W17_arg10 (c : Dev nD) : W17 m ρ c (Proc.devRef .tc main_arg10) = m ((c : Thread nD τ).loc main_arg10) :=
  (W17_keep m ρ c main_arg10 (by decide)).trans (W16_arg10 m ρ c)
theorem W18_arg10 (c : Dev nD) : W18 m ρ c (Proc.devRef .tc main_arg10) = m ((c : Thread nD τ).loc main_arg10) :=
  (W18_keep m ρ c main_arg10 (by decide)).trans (W17_arg10 m ρ c)
theorem W19_arg10 (c : Dev nD) : W19 m ρ c (Proc.devRef .tc main_arg10) = m ((c : Thread nD τ).loc main_arg10) :=
  (W19_keep m ρ c main_arg10 (by decide)).trans (W18_arg10 m ρ c)
theorem W20_arg10 (c : Dev nD) : W20 m ρ c (Proc.devRef .tc main_arg10) = m ((c : Thread nD τ).loc main_arg10) :=
  (W20_of_ne m ρ c main_arg10 (by decide)).trans (W19_arg10 m ρ c)
theorem W21_arg10 (c : Dev nD) : W21 m ρ c (Proc.devRef .tc main_arg10) = m ((c : Thread nD τ).loc main_arg10) :=
  (W21_keep m ρ c main_arg10 (by decide)).trans (W20_arg10 m ρ c)
theorem W22_arg10 (c : Dev nD) : W22 m ρ c (Proc.devRef .tc main_arg10) = m ((c : Thread nD τ).loc main_arg10) :=
  (W22_keep m ρ c main_arg10 (by decide)).trans (W21_arg10 m ρ c)
theorem W23_arg10 (c : Dev nD) : W23 m ρ c (Proc.devRef .tc main_arg10) = m ((c : Thread nD τ).loc main_arg10) :=
  (W23_keep m ρ c main_arg10 (by decide)).trans (W22_arg10 m ρ c)
theorem W24_arg10 (c : Dev nD) : W24 m ρ c (Proc.devRef .tc main_arg10) = m ((c : Thread nD τ).loc main_arg10) :=
  (W24_keep m ρ c main_arg10 (by decide)).trans (W23_arg10 m ρ c)
theorem W25_arg10 (c : Dev nD) : W25 m ρ c (Proc.devRef .tc main_arg10) = m ((c : Thread nD τ).loc main_arg10) :=
  (W25_keep m ρ c main_arg10 (by decide)).trans (W24_arg10 m ρ c)
theorem W26_arg10 (c : Dev nD) : W26 m ρ c (Proc.devRef .tc main_arg10) = m ((c : Thread nD τ).loc main_arg10) :=
  (W26_of_ne m ρ c main_arg10 (by decide)).trans (W25_arg10 m ρ c)
theorem W27_arg10 (c : Dev nD) : W27 m ρ c (Proc.devRef .tc main_arg10) = m ((c : Thread nD τ).loc main_arg10) :=
  (W27_keep m ρ c main_arg10 (by decide)).trans (W26_arg10 m ρ c)
theorem W28_arg10 (c : Dev nD) : W28 m ρ c (Proc.devRef .tc main_arg10) = m ((c : Thread nD τ).loc main_arg10) :=
  (W28_keep m ρ c main_arg10 (by decide)).trans (W27_arg10 m ρ c)
theorem W29_arg10 (c : Dev nD) : W29 m ρ c (Proc.devRef .tc main_arg10) = m ((c : Thread nD τ).loc main_arg10) :=
  (W29_keep m ρ c main_arg10 (by decide)).trans (W28_arg10 m ρ c)
theorem W30_arg10 (c : Dev nD) : W30 m ρ c (Proc.devRef .tc main_arg10) = m ((c : Thread nD τ).loc main_arg10) :=
  (W30_keep m ρ c main_arg10 (by decide)).trans (W29_arg10 m ρ c)
theorem W31_arg10 (c : Dev nD) : W31 m ρ c (Proc.devRef .tc main_arg10) = m ((c : Thread nD τ).loc main_arg10) :=
  (W31_keep m ρ c main_arg10 (by decide)).trans (W30_arg10 m ρ c)
theorem W32_arg10 (c : Dev nD) : W32 m ρ c (Proc.devRef .tc main_arg10) = m ((c : Thread nD τ).loc main_arg10) :=
  (W32_of_ne m ρ c main_arg10 (by decide)).trans (W31_arg10 m ρ c)
theorem W33_arg10 (c : Dev nD) : W33 m ρ c (Proc.devRef .tc main_arg10) = m ((c : Thread nD τ).loc main_arg10) :=
  (W33_keep m ρ c main_arg10 (by decide)).trans (W32_arg10 m ρ c)
theorem W34_arg10 (c : Dev nD) : W34 m ρ c (Proc.devRef .tc main_arg10) = m ((c : Thread nD τ).loc main_arg10) :=
  (W34_keep m ρ c main_arg10 (by decide)).trans (W33_arg10 m ρ c)
theorem W35_arg10 (c : Dev nD) : W35 m ρ c (Proc.devRef .tc main_arg10) = m ((c : Thread nD τ).loc main_arg10) :=
  (W35_keep m ρ c main_arg10 (by decide)).trans (W34_arg10 m ρ c)
theorem W36_arg10 (c : Dev nD) : W36 m ρ c (Proc.devRef .tc main_arg10) = m ((c : Thread nD τ).loc main_arg10) :=
  (W36_keep m ρ c main_arg10 (by decide)).trans (W35_arg10 m ρ c)
theorem W37_arg10 (c : Dev nD) : W37 m ρ c (Proc.devRef .tc main_arg10) = m ((c : Thread nD τ).loc main_arg10) :=
  (W37_keep m ρ c main_arg10 (by decide)).trans (W36_arg10 m ρ c)
theorem W38_arg10 (c : Dev nD) : W38 m ρ c (Proc.devRef .tc main_arg10) = m ((c : Thread nD τ).loc main_arg10) :=
  (W38_of_ne m ρ c main_arg10 (by decide)).trans (W37_arg10 m ρ c)
theorem W39_arg10 (c : Dev nD) : W39 m ρ c (Proc.devRef .tc main_arg10) = m ((c : Thread nD τ).loc main_arg10) :=
  (W39_keep m ρ c main_arg10 (by decide)).trans (W38_arg10 m ρ c)
theorem W40_arg10 (c : Dev nD) : W40 m ρ c (Proc.devRef .tc main_arg10) = m ((c : Thread nD τ).loc main_arg10) :=
  (W40_keep m ρ c main_arg10 (by decide)).trans (W39_arg10 m ρ c)
theorem W41_arg10 (c : Dev nD) : W41 m ρ c (Proc.devRef .tc main_arg10) = m ((c : Thread nD τ).loc main_arg10) :=
  (W41_keep m ρ c main_arg10 (by decide)).trans (W40_arg10 m ρ c)
theorem W42_arg10 (c : Dev nD) : W42 m ρ c (Proc.devRef .tc main_arg10) = m ((c : Thread nD τ).loc main_arg10) :=
  (W42_keep m ρ c main_arg10 (by decide)).trans (W41_arg10 m ρ c)
theorem W43_arg10 (c : Dev nD) : W43 m ρ c (Proc.devRef .tc main_arg10) = m ((c : Thread nD τ).loc main_arg10) :=
  (W43_keep m ρ c main_arg10 (by decide)).trans (W42_arg10 m ρ c)
theorem W44_arg10 (c : Dev nD) : W44 m ρ c (Proc.devRef .tc main_arg10) = m ((c : Thread nD τ).loc main_arg10) :=
  (W44_of_ne m ρ c main_arg10 (by decide)).trans (W43_arg10 m ρ c)
theorem W45_arg10 (c : Dev nD) : W45 m ρ c (Proc.devRef .tc main_arg10) = m ((c : Thread nD τ).loc main_arg10) :=
  (W45_keep m ρ c main_arg10 (by decide)).trans (W44_arg10 m ρ c)
theorem W46_arg10 (c : Dev nD) : W46 m ρ c (Proc.devRef .tc main_arg10) = m ((c : Thread nD τ).loc main_arg10) :=
  (W46_of_ne m ρ c main_arg10 (by decide)).trans (W45_arg10 m ρ c)
theorem W47_arg10 (c : Dev nD) : W47 m ρ c (Proc.devRef .tc main_arg10) = m ((c : Thread nD τ).loc main_arg10) :=
  (W47_keep m ρ c main_arg10 (by decide)).trans (W46_arg10 m ρ c)
theorem W48_arg10 (c : Dev nD) : W48 m ρ c (Proc.devRef .tc main_arg10) = m ((c : Thread nD τ).loc main_arg10) :=
  (W48_of_ne m ρ c main_arg10 (by decide)).trans (W47_arg10 m ρ c)
theorem W49_arg10 (c : Dev nD) : W49 m ρ c (Proc.devRef .tc main_arg10) = m ((c : Thread nD τ).loc main_arg10) :=
  (W49_keep m ρ c main_arg10 (by decide)).trans (W48_arg10 m ρ c)
theorem W50_arg10 (c : Dev nD) : W50 m ρ c (Proc.devRef .tc main_arg10) = m ((c : Thread nD τ).loc main_arg10) :=
  (W50_of_ne m ρ c main_arg10 (by decide)).trans (W49_arg10 m ρ c)
theorem W51_arg10 (c : Dev nD) : W51 m ρ c (Proc.devRef .tc main_arg10) = m ((c : Thread nD τ).loc main_arg10) :=
  (W51_keep m ρ c main_arg10 (by decide)).trans (W50_arg10 m ρ c)
theorem W52_arg10 (c : Dev nD) : W52 m ρ c (Proc.devRef .tc main_arg10) = m ((c : Thread nD τ).loc main_arg10) :=
  (W52_keep m ρ c main_arg10 (by decide)).trans (W51_arg10 m ρ c)
theorem W53_arg10 (c : Dev nD) : W53 m ρ c (Proc.devRef .tc main_arg10) = m ((c : Thread nD τ).loc main_arg10) :=
  (W53_keep m ρ c main_arg10 (by decide)).trans (W52_arg10 m ρ c)
theorem W54_arg10 (c : Dev nD) : W54 m ρ c (Proc.devRef .tc main_arg10) = m ((c : Thread nD τ).loc main_arg10) :=
  (W54_keep m ρ c main_arg10 (by decide)).trans (W53_arg10 m ρ c)
theorem W55_arg10 (c : Dev nD) : W55 m ρ c (Proc.devRef .tc main_arg10) = m ((c : Thread nD τ).loc main_arg10) :=
  (W55_keep m ρ c main_arg10 (by decide)).trans (W54_arg10 m ρ c)
theorem W56_arg10 (c : Dev nD) : W56 m ρ c (Proc.devRef .tc main_arg10) = m ((c : Thread nD τ).loc main_arg10) :=
  (W56_of_ne m ρ c main_arg10 (by decide)).trans (W55_arg10 m ρ c)
theorem W57_arg10 (c : Dev nD) : W57 m ρ c (Proc.devRef .tc main_arg10) = m ((c : Thread nD τ).loc main_arg10) :=
  (W57_keep m ρ c main_arg10 (by decide)).trans (W56_arg10 m ρ c)
theorem W58_arg10 (c : Dev nD) : W58 m ρ c (Proc.devRef .tc main_arg10) = m ((c : Thread nD τ).loc main_arg10) :=
  (W58_keep m ρ c main_arg10 (by decide)).trans (W57_arg10 m ρ c)
theorem W59_arg10 (c : Dev nD) : W59 m ρ c (Proc.devRef .tc main_arg10) = m ((c : Thread nD τ).loc main_arg10) :=
  (W59_keep m ρ c main_arg10 (by decide)).trans (W58_arg10 m ρ c)
theorem W60_arg10 (c : Dev nD) : W60 m ρ c (Proc.devRef .tc main_arg10) = m ((c : Thread nD τ).loc main_arg10) :=
  (W60_keep m ρ c main_arg10 (by decide)).trans (W59_arg10 m ρ c)
theorem W61_arg10 (c : Dev nD) : W61 m ρ c (Proc.devRef .tc main_arg10) = m ((c : Thread nD τ).loc main_arg10) :=
  (W61_keep m ρ c main_arg10 (by decide)).trans (W60_arg10 m ρ c)
theorem W62_arg10 (c : Dev nD) : W62 m ρ c (Proc.devRef .tc main_arg10) = m ((c : Thread nD τ).loc main_arg10) :=
  (W62_of_ne m ρ c main_arg10 (by decide)).trans (W61_arg10 m ρ c)
theorem W63_arg10 (c : Dev nD) : W63 m ρ c (Proc.devRef .tc main_arg10) = m ((c : Thread nD τ).loc main_arg10) :=
  (W63_keep m ρ c main_arg10 (by decide)).trans (W62_arg10 m ρ c)
theorem W64_arg10 (c : Dev nD) : W64 m ρ c (Proc.devRef .tc main_arg10) = m ((c : Thread nD τ).loc main_arg10) :=
  (W64_keep m ρ c main_arg10 (by decide)).trans (W63_arg10 m ρ c)
theorem W65_arg10 (c : Dev nD) : W65 m ρ c (Proc.devRef .tc main_arg10) = m ((c : Thread nD τ).loc main_arg10) :=
  (W65_keep m ρ c main_arg10 (by decide)).trans (W64_arg10 m ρ c)
theorem W66_arg10 (c : Dev nD) : W66 m ρ c (Proc.devRef .tc main_arg10) = m ((c : Thread nD τ).loc main_arg10) :=
  (W66_keep m ρ c main_arg10 (by decide)).trans (W65_arg10 m ρ c)
theorem W67_arg10 (c : Dev nD) : W67 m ρ c (Proc.devRef .tc main_arg10) = m ((c : Thread nD τ).loc main_arg10) :=
  (W67_keep m ρ c main_arg10 (by decide)).trans (W66_arg10 m ρ c)
theorem W68_arg10 (c : Dev nD) : W68 m ρ c (Proc.devRef .tc main_arg10) = m ((c : Thread nD τ).loc main_arg10) :=
  (W68_of_ne m ρ c main_arg10 (by decide)).trans (W67_arg10 m ρ c)
theorem W69_arg10 (c : Dev nD) : W69 m ρ c (Proc.devRef .tc main_arg10) = m ((c : Thread nD τ).loc main_arg10) :=
  (W69_keep m ρ c main_arg10 (by decide)).trans (W68_arg10 m ρ c)
theorem W70_arg10 (c : Dev nD) : W70 m ρ c (Proc.devRef .tc main_arg10) = m ((c : Thread nD τ).loc main_arg10) :=
  (W70_keep m ρ c main_arg10 (by decide)).trans (W69_arg10 m ρ c)
theorem W71_arg10 (c : Dev nD) : W71 m ρ c (Proc.devRef .tc main_arg10) = m ((c : Thread nD τ).loc main_arg10) :=
  (W71_keep m ρ c main_arg10 (by decide)).trans (W70_arg10 m ρ c)
theorem W72_arg10 (c : Dev nD) : W72 m ρ c (Proc.devRef .tc main_arg10) = m ((c : Thread nD τ).loc main_arg10) :=
  (W72_keep m ρ c main_arg10 (by decide)).trans (W71_arg10 m ρ c)
theorem W73_arg10 (c : Dev nD) : W73 m ρ c (Proc.devRef .tc main_arg10) = m ((c : Thread nD τ).loc main_arg10) :=
  (W73_keep m ρ c main_arg10 (by decide)).trans (W72_arg10 m ρ c)
theorem W74_arg10 (c : Dev nD) : W74 m ρ c (Proc.devRef .tc main_arg10) = m ((c : Thread nD τ).loc main_arg10) :=
  (W74_of_ne m ρ c main_arg10 (by decide)).trans (W73_arg10 m ρ c)
theorem W75_arg10 (c : Dev nD) : W75 m ρ c (Proc.devRef .tc main_arg10) = m ((c : Thread nD τ).loc main_arg10) :=
  (W75_keep m ρ c main_arg10 (by decide)).trans (W74_arg10 m ρ c)
theorem W76_arg10 (c : Dev nD) : W76 m ρ c (Proc.devRef .tc main_arg10) = m ((c : Thread nD τ).loc main_arg10) :=
  (W76_keep m ρ c main_arg10 (by decide)).trans (W75_arg10 m ρ c)
theorem W77_arg10 (c : Dev nD) : W77 m ρ c (Proc.devRef .tc main_arg10) = m ((c : Thread nD τ).loc main_arg10) :=
  (W77_keep m ρ c main_arg10 (by decide)).trans (W76_arg10 m ρ c)
theorem W78_arg10 (c : Dev nD) : W78 m ρ c (Proc.devRef .tc main_arg10) = m ((c : Thread nD τ).loc main_arg10) :=
  (W78_keep m ρ c main_arg10 (by decide)).trans (W77_arg10 m ρ c)
theorem W79_arg10 (c : Dev nD) : W79 m ρ c (Proc.devRef .tc main_arg10) = m ((c : Thread nD τ).loc main_arg10) :=
  (W79_keep m ρ c main_arg10 (by decide)).trans (W78_arg10 m ρ c)
theorem W80_arg10 (c : Dev nD) : W80 m ρ c (Proc.devRef .tc main_arg10) = m ((c : Thread nD τ).loc main_arg10) :=
  (W80_of_ne m ρ c main_arg10 (by decide)).trans (W79_arg10 m ρ c)
theorem W81_arg10 (c : Dev nD) : W81 m ρ c (Proc.devRef .tc main_arg10) = m ((c : Thread nD τ).loc main_arg10) :=
  (W81_keep m ρ c main_arg10 (by decide)).trans (W80_arg10 m ρ c)
theorem W82_arg10 (c : Dev nD) : W82 m ρ c (Proc.devRef .tc main_arg10) = m ((c : Thread nD τ).loc main_arg10) :=
  (W82_keep m ρ c main_arg10 (by decide)).trans (W81_arg10 m ρ c)
theorem W83_arg10 (c : Dev nD) : W83 m ρ c (Proc.devRef .tc main_arg10) = m ((c : Thread nD τ).loc main_arg10) :=
  (W83_keep m ρ c main_arg10 (by decide)).trans (W82_arg10 m ρ c)
theorem W84_arg10 (c : Dev nD) : W84 m ρ c (Proc.devRef .tc main_arg10) = m ((c : Thread nD τ).loc main_arg10) :=
  (W84_keep m ρ c main_arg10 (by decide)).trans (W83_arg10 m ρ c)
theorem W85_arg10 (c : Dev nD) : W85 m ρ c (Proc.devRef .tc main_arg10) = m ((c : Thread nD τ).loc main_arg10) :=
  (W85_keep m ρ c main_arg10 (by decide)).trans (W84_arg10 m ρ c)
theorem W86_arg10 (c : Dev nD) : W86 m ρ c (Proc.devRef .tc main_arg10) = m ((c : Thread nD τ).loc main_arg10) :=
  (W86_of_ne m ρ c main_arg10 (by decide)).trans (W85_arg10 m ρ c)
theorem W87_arg10 (c : Dev nD) : W87 m ρ c (Proc.devRef .tc main_arg10) = m ((c : Thread nD τ).loc main_arg10) :=
  (W87_keep m ρ c main_arg10 (by decide)).trans (W86_arg10 m ρ c)
theorem W88_arg10 (c : Dev nD) : W88 m ρ c (Proc.devRef .tc main_arg10) = m ((c : Thread nD τ).loc main_arg10) :=
  (W88_of_ne m ρ c main_arg10 (by decide)).trans (W87_arg10 m ρ c)
theorem W89_arg10 (c : Dev nD) : W89 m ρ c (Proc.devRef .tc main_arg10) = m ((c : Thread nD τ).loc main_arg10) :=
  (W89_keep m ρ c main_arg10 (by decide)).trans (W88_arg10 m ρ c)
theorem W90_arg10 (c : Dev nD) : W90 m ρ c (Proc.devRef .tc main_arg10) = m ((c : Thread nD τ).loc main_arg10) :=
  (W90_of_ne m ρ c main_arg10 (by decide)).trans (W89_arg10 m ρ c)
theorem W0_arg11 (c : Dev nD) : W0 m ρ c (Proc.devRef .tc main_arg11) = m ((c : Thread nD τ).loc main_arg11) := rfl
theorem W1_arg11 (c : Dev nD) : W1 m ρ c (Proc.devRef .tc main_arg11) = m ((c : Thread nD τ).loc main_arg11) :=
  (W1_keep m ρ c main_arg11 (by decide)).trans (W0_arg11 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W3_arg11 (c : Dev nD) : W3 m ρ c (Proc.devRef .tc main_arg11) = m ((c : Thread nD τ).loc main_arg11) :=
  (W3_keep m ρ c main_arg11 (by decide)).trans (W2_arg11 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W5_arg11 (c : Dev nD) : W5 m ρ c (Proc.devRef .tc main_arg11) = m ((c : Thread nD τ).loc main_arg11) :=
  (W5_keep m ρ c main_arg11 (by decide)).trans (W4_arg11 m ρ c)
theorem W6_arg11 (c : Dev nD) : W6 m ρ c (Proc.devRef .tc main_arg11) = m ((c : Thread nD τ).loc main_arg11) :=
  (W6_of_ne m ρ c main_arg11 (by decide)).trans (W5_arg11 m ρ c)
theorem W7_arg11 (c : Dev nD) : W7 m ρ c (Proc.devRef .tc main_arg11) = m ((c : Thread nD τ).loc main_arg11) :=
  (W7_keep m ρ c main_arg11 (by decide)).trans (W6_arg11 m ρ c)
theorem W8_arg11 (c : Dev nD) : W8 m ρ c (Proc.devRef .tc main_arg11) = m ((c : Thread nD τ).loc main_arg11) :=
  (W8_of_ne m ρ c main_arg11 (by decide)).trans (W7_arg11 m ρ c)
theorem W9_arg11 (c : Dev nD) : W9 m ρ c (Proc.devRef .tc main_arg11) = m ((c : Thread nD τ).loc main_arg11) :=
  (W9_keep m ρ c main_arg11 (by decide)).trans (W8_arg11 m ρ c)
theorem W10_arg11 (c : Dev nD) : W10 m ρ c (Proc.devRef .tc main_arg11) = m ((c : Thread nD τ).loc main_arg11) :=
  (W10_keep m ρ c main_arg11 (by decide)).trans (W9_arg11 m ρ c)
theorem W11_arg11 (c : Dev nD) : W11 m ρ c (Proc.devRef .tc main_arg11) = m ((c : Thread nD τ).loc main_arg11) :=
  (W11_keep m ρ c main_arg11 (by decide)).trans (W10_arg11 m ρ c)
theorem W12_arg11 (c : Dev nD) : W12 m ρ c (Proc.devRef .tc main_arg11) = m ((c : Thread nD τ).loc main_arg11) :=
  (W12_keep m ρ c main_arg11 (by decide)).trans (W11_arg11 m ρ c)
theorem W13_arg11 (c : Dev nD) : W13 m ρ c (Proc.devRef .tc main_arg11) = m ((c : Thread nD τ).loc main_arg11) :=
  (W13_keep m ρ c main_arg11 (by decide)).trans (W12_arg11 m ρ c)
theorem W14_arg11 (c : Dev nD) : W14 m ρ c (Proc.devRef .tc main_arg11) = m ((c : Thread nD τ).loc main_arg11) :=
  (W14_of_ne m ρ c main_arg11 (by decide)).trans (W13_arg11 m ρ c)
theorem W15_arg11 (c : Dev nD) : W15 m ρ c (Proc.devRef .tc main_arg11) = m ((c : Thread nD τ).loc main_arg11) :=
  (W15_keep m ρ c main_arg11 (by decide)).trans (W14_arg11 m ρ c)
theorem W16_arg11 (c : Dev nD) : W16 m ρ c (Proc.devRef .tc main_arg11) = m ((c : Thread nD τ).loc main_arg11) :=
  (W16_keep m ρ c main_arg11 (by decide)).trans (W15_arg11 m ρ c)
theorem W17_arg11 (c : Dev nD) : W17 m ρ c (Proc.devRef .tc main_arg11) = m ((c : Thread nD τ).loc main_arg11) :=
  (W17_keep m ρ c main_arg11 (by decide)).trans (W16_arg11 m ρ c)
theorem W18_arg11 (c : Dev nD) : W18 m ρ c (Proc.devRef .tc main_arg11) = m ((c : Thread nD τ).loc main_arg11) :=
  (W18_keep m ρ c main_arg11 (by decide)).trans (W17_arg11 m ρ c)
theorem W19_arg11 (c : Dev nD) : W19 m ρ c (Proc.devRef .tc main_arg11) = m ((c : Thread nD τ).loc main_arg11) :=
  (W19_keep m ρ c main_arg11 (by decide)).trans (W18_arg11 m ρ c)
theorem W20_arg11 (c : Dev nD) : W20 m ρ c (Proc.devRef .tc main_arg11) = m ((c : Thread nD τ).loc main_arg11) :=
  (W20_of_ne m ρ c main_arg11 (by decide)).trans (W19_arg11 m ρ c)
theorem W21_arg11 (c : Dev nD) : W21 m ρ c (Proc.devRef .tc main_arg11) = m ((c : Thread nD τ).loc main_arg11) :=
  (W21_keep m ρ c main_arg11 (by decide)).trans (W20_arg11 m ρ c)
theorem W22_arg11 (c : Dev nD) : W22 m ρ c (Proc.devRef .tc main_arg11) = m ((c : Thread nD τ).loc main_arg11) :=
  (W22_keep m ρ c main_arg11 (by decide)).trans (W21_arg11 m ρ c)
theorem W23_arg11 (c : Dev nD) : W23 m ρ c (Proc.devRef .tc main_arg11) = m ((c : Thread nD τ).loc main_arg11) :=
  (W23_keep m ρ c main_arg11 (by decide)).trans (W22_arg11 m ρ c)
theorem W24_arg11 (c : Dev nD) : W24 m ρ c (Proc.devRef .tc main_arg11) = m ((c : Thread nD τ).loc main_arg11) :=
  (W24_keep m ρ c main_arg11 (by decide)).trans (W23_arg11 m ρ c)
theorem W25_arg11 (c : Dev nD) : W25 m ρ c (Proc.devRef .tc main_arg11) = m ((c : Thread nD τ).loc main_arg11) :=
  (W25_keep m ρ c main_arg11 (by decide)).trans (W24_arg11 m ρ c)
theorem W26_arg11 (c : Dev nD) : W26 m ρ c (Proc.devRef .tc main_arg11) = m ((c : Thread nD τ).loc main_arg11) :=
  (W26_of_ne m ρ c main_arg11 (by decide)).trans (W25_arg11 m ρ c)
theorem W27_arg11 (c : Dev nD) : W27 m ρ c (Proc.devRef .tc main_arg11) = m ((c : Thread nD τ).loc main_arg11) :=
  (W27_keep m ρ c main_arg11 (by decide)).trans (W26_arg11 m ρ c)
theorem W28_arg11 (c : Dev nD) : W28 m ρ c (Proc.devRef .tc main_arg11) = m ((c : Thread nD τ).loc main_arg11) :=
  (W28_keep m ρ c main_arg11 (by decide)).trans (W27_arg11 m ρ c)
theorem W29_arg11 (c : Dev nD) : W29 m ρ c (Proc.devRef .tc main_arg11) = m ((c : Thread nD τ).loc main_arg11) :=
  (W29_keep m ρ c main_arg11 (by decide)).trans (W28_arg11 m ρ c)
theorem W30_arg11 (c : Dev nD) : W30 m ρ c (Proc.devRef .tc main_arg11) = m ((c : Thread nD τ).loc main_arg11) :=
  (W30_keep m ρ c main_arg11 (by decide)).trans (W29_arg11 m ρ c)
theorem W31_arg11 (c : Dev nD) : W31 m ρ c (Proc.devRef .tc main_arg11) = m ((c : Thread nD τ).loc main_arg11) :=
  (W31_keep m ρ c main_arg11 (by decide)).trans (W30_arg11 m ρ c)
theorem W32_arg11 (c : Dev nD) : W32 m ρ c (Proc.devRef .tc main_arg11) = m ((c : Thread nD τ).loc main_arg11) :=
  (W32_of_ne m ρ c main_arg11 (by decide)).trans (W31_arg11 m ρ c)
theorem W33_arg11 (c : Dev nD) : W33 m ρ c (Proc.devRef .tc main_arg11) = m ((c : Thread nD τ).loc main_arg11) :=
  (W33_keep m ρ c main_arg11 (by decide)).trans (W32_arg11 m ρ c)
theorem W34_arg11 (c : Dev nD) : W34 m ρ c (Proc.devRef .tc main_arg11) = m ((c : Thread nD τ).loc main_arg11) :=
  (W34_keep m ρ c main_arg11 (by decide)).trans (W33_arg11 m ρ c)
theorem W35_arg11 (c : Dev nD) : W35 m ρ c (Proc.devRef .tc main_arg11) = m ((c : Thread nD τ).loc main_arg11) :=
  (W35_keep m ρ c main_arg11 (by decide)).trans (W34_arg11 m ρ c)
theorem W36_arg11 (c : Dev nD) : W36 m ρ c (Proc.devRef .tc main_arg11) = m ((c : Thread nD τ).loc main_arg11) :=
  (W36_keep m ρ c main_arg11 (by decide)).trans (W35_arg11 m ρ c)
theorem W37_arg11 (c : Dev nD) : W37 m ρ c (Proc.devRef .tc main_arg11) = m ((c : Thread nD τ).loc main_arg11) :=
  (W37_keep m ρ c main_arg11 (by decide)).trans (W36_arg11 m ρ c)
theorem W38_arg11 (c : Dev nD) : W38 m ρ c (Proc.devRef .tc main_arg11) = m ((c : Thread nD τ).loc main_arg11) :=
  (W38_of_ne m ρ c main_arg11 (by decide)).trans (W37_arg11 m ρ c)
theorem W39_arg11 (c : Dev nD) : W39 m ρ c (Proc.devRef .tc main_arg11) = m ((c : Thread nD τ).loc main_arg11) :=
  (W39_keep m ρ c main_arg11 (by decide)).trans (W38_arg11 m ρ c)
theorem W40_arg11 (c : Dev nD) : W40 m ρ c (Proc.devRef .tc main_arg11) = m ((c : Thread nD τ).loc main_arg11) :=
  (W40_keep m ρ c main_arg11 (by decide)).trans (W39_arg11 m ρ c)
theorem W41_arg11 (c : Dev nD) : W41 m ρ c (Proc.devRef .tc main_arg11) = m ((c : Thread nD τ).loc main_arg11) :=
  (W41_keep m ρ c main_arg11 (by decide)).trans (W40_arg11 m ρ c)
theorem W42_arg11 (c : Dev nD) : W42 m ρ c (Proc.devRef .tc main_arg11) = m ((c : Thread nD τ).loc main_arg11) :=
  (W42_keep m ρ c main_arg11 (by decide)).trans (W41_arg11 m ρ c)
theorem W43_arg11 (c : Dev nD) : W43 m ρ c (Proc.devRef .tc main_arg11) = m ((c : Thread nD τ).loc main_arg11) :=
  (W43_keep m ρ c main_arg11 (by decide)).trans (W42_arg11 m ρ c)
theorem W44_arg11 (c : Dev nD) : W44 m ρ c (Proc.devRef .tc main_arg11) = m ((c : Thread nD τ).loc main_arg11) :=
  (W44_of_ne m ρ c main_arg11 (by decide)).trans (W43_arg11 m ρ c)
theorem W45_arg11 (c : Dev nD) : W45 m ρ c (Proc.devRef .tc main_arg11) = m ((c : Thread nD τ).loc main_arg11) :=
  (W45_keep m ρ c main_arg11 (by decide)).trans (W44_arg11 m ρ c)
theorem W46_arg11 (c : Dev nD) : W46 m ρ c (Proc.devRef .tc main_arg11) = m ((c : Thread nD τ).loc main_arg11) :=
  (W46_of_ne m ρ c main_arg11 (by decide)).trans (W45_arg11 m ρ c)
theorem W47_arg11 (c : Dev nD) : W47 m ρ c (Proc.devRef .tc main_arg11) = m ((c : Thread nD τ).loc main_arg11) :=
  (W47_keep m ρ c main_arg11 (by decide)).trans (W46_arg11 m ρ c)
theorem W48_arg11 (c : Dev nD) : W48 m ρ c (Proc.devRef .tc main_arg11) = m ((c : Thread nD τ).loc main_arg11) :=
  (W48_of_ne m ρ c main_arg11 (by decide)).trans (W47_arg11 m ρ c)
theorem W49_arg11 (c : Dev nD) : W49 m ρ c (Proc.devRef .tc main_arg11) = m ((c : Thread nD τ).loc main_arg11) :=
  (W49_keep m ρ c main_arg11 (by decide)).trans (W48_arg11 m ρ c)
theorem W50_arg11 (c : Dev nD) : W50 m ρ c (Proc.devRef .tc main_arg11) = m ((c : Thread nD τ).loc main_arg11) :=
  (W50_of_ne m ρ c main_arg11 (by decide)).trans (W49_arg11 m ρ c)
theorem W51_arg11 (c : Dev nD) : W51 m ρ c (Proc.devRef .tc main_arg11) = m ((c : Thread nD τ).loc main_arg11) :=
  (W51_keep m ρ c main_arg11 (by decide)).trans (W50_arg11 m ρ c)
theorem W52_arg11 (c : Dev nD) : W52 m ρ c (Proc.devRef .tc main_arg11) = m ((c : Thread nD τ).loc main_arg11) :=
  (W52_keep m ρ c main_arg11 (by decide)).trans (W51_arg11 m ρ c)
theorem W53_arg11 (c : Dev nD) : W53 m ρ c (Proc.devRef .tc main_arg11) = m ((c : Thread nD τ).loc main_arg11) :=
  (W53_keep m ρ c main_arg11 (by decide)).trans (W52_arg11 m ρ c)
theorem W54_arg11 (c : Dev nD) : W54 m ρ c (Proc.devRef .tc main_arg11) = m ((c : Thread nD τ).loc main_arg11) :=
  (W54_keep m ρ c main_arg11 (by decide)).trans (W53_arg11 m ρ c)
theorem W55_arg11 (c : Dev nD) : W55 m ρ c (Proc.devRef .tc main_arg11) = m ((c : Thread nD τ).loc main_arg11) :=
  (W55_keep m ρ c main_arg11 (by decide)).trans (W54_arg11 m ρ c)
theorem W56_arg11 (c : Dev nD) : W56 m ρ c (Proc.devRef .tc main_arg11) = m ((c : Thread nD τ).loc main_arg11) :=
  (W56_of_ne m ρ c main_arg11 (by decide)).trans (W55_arg11 m ρ c)
theorem W57_arg11 (c : Dev nD) : W57 m ρ c (Proc.devRef .tc main_arg11) = m ((c : Thread nD τ).loc main_arg11) :=
  (W57_keep m ρ c main_arg11 (by decide)).trans (W56_arg11 m ρ c)
theorem W58_arg11 (c : Dev nD) : W58 m ρ c (Proc.devRef .tc main_arg11) = m ((c : Thread nD τ).loc main_arg11) :=
  (W58_keep m ρ c main_arg11 (by decide)).trans (W57_arg11 m ρ c)
theorem W59_arg11 (c : Dev nD) : W59 m ρ c (Proc.devRef .tc main_arg11) = m ((c : Thread nD τ).loc main_arg11) :=
  (W59_keep m ρ c main_arg11 (by decide)).trans (W58_arg11 m ρ c)
theorem W60_arg11 (c : Dev nD) : W60 m ρ c (Proc.devRef .tc main_arg11) = m ((c : Thread nD τ).loc main_arg11) :=
  (W60_keep m ρ c main_arg11 (by decide)).trans (W59_arg11 m ρ c)
theorem W61_arg11 (c : Dev nD) : W61 m ρ c (Proc.devRef .tc main_arg11) = m ((c : Thread nD τ).loc main_arg11) :=
  (W61_keep m ρ c main_arg11 (by decide)).trans (W60_arg11 m ρ c)
theorem W62_arg11 (c : Dev nD) : W62 m ρ c (Proc.devRef .tc main_arg11) = m ((c : Thread nD τ).loc main_arg11) :=
  (W62_of_ne m ρ c main_arg11 (by decide)).trans (W61_arg11 m ρ c)
theorem W63_arg11 (c : Dev nD) : W63 m ρ c (Proc.devRef .tc main_arg11) = m ((c : Thread nD τ).loc main_arg11) :=
  (W63_keep m ρ c main_arg11 (by decide)).trans (W62_arg11 m ρ c)
theorem W64_arg11 (c : Dev nD) : W64 m ρ c (Proc.devRef .tc main_arg11) = m ((c : Thread nD τ).loc main_arg11) :=
  (W64_keep m ρ c main_arg11 (by decide)).trans (W63_arg11 m ρ c)
theorem W65_arg11 (c : Dev nD) : W65 m ρ c (Proc.devRef .tc main_arg11) = m ((c : Thread nD τ).loc main_arg11) :=
  (W65_keep m ρ c main_arg11 (by decide)).trans (W64_arg11 m ρ c)
theorem W66_arg11 (c : Dev nD) : W66 m ρ c (Proc.devRef .tc main_arg11) = m ((c : Thread nD τ).loc main_arg11) :=
  (W66_keep m ρ c main_arg11 (by decide)).trans (W65_arg11 m ρ c)
theorem W67_arg11 (c : Dev nD) : W67 m ρ c (Proc.devRef .tc main_arg11) = m ((c : Thread nD τ).loc main_arg11) :=
  (W67_keep m ρ c main_arg11 (by decide)).trans (W66_arg11 m ρ c)
theorem W68_arg11 (c : Dev nD) : W68 m ρ c (Proc.devRef .tc main_arg11) = m ((c : Thread nD τ).loc main_arg11) :=
  (W68_of_ne m ρ c main_arg11 (by decide)).trans (W67_arg11 m ρ c)
theorem W69_arg11 (c : Dev nD) : W69 m ρ c (Proc.devRef .tc main_arg11) = m ((c : Thread nD τ).loc main_arg11) :=
  (W69_keep m ρ c main_arg11 (by decide)).trans (W68_arg11 m ρ c)
theorem W70_arg11 (c : Dev nD) : W70 m ρ c (Proc.devRef .tc main_arg11) = m ((c : Thread nD τ).loc main_arg11) :=
  (W70_keep m ρ c main_arg11 (by decide)).trans (W69_arg11 m ρ c)
theorem W71_arg11 (c : Dev nD) : W71 m ρ c (Proc.devRef .tc main_arg11) = m ((c : Thread nD τ).loc main_arg11) :=
  (W71_keep m ρ c main_arg11 (by decide)).trans (W70_arg11 m ρ c)
theorem W72_arg11 (c : Dev nD) : W72 m ρ c (Proc.devRef .tc main_arg11) = m ((c : Thread nD τ).loc main_arg11) :=
  (W72_keep m ρ c main_arg11 (by decide)).trans (W71_arg11 m ρ c)
theorem W73_arg11 (c : Dev nD) : W73 m ρ c (Proc.devRef .tc main_arg11) = m ((c : Thread nD τ).loc main_arg11) :=
  (W73_keep m ρ c main_arg11 (by decide)).trans (W72_arg11 m ρ c)
theorem W74_arg11 (c : Dev nD) : W74 m ρ c (Proc.devRef .tc main_arg11) = m ((c : Thread nD τ).loc main_arg11) :=
  (W74_of_ne m ρ c main_arg11 (by decide)).trans (W73_arg11 m ρ c)
theorem W75_arg11 (c : Dev nD) : W75 m ρ c (Proc.devRef .tc main_arg11) = m ((c : Thread nD τ).loc main_arg11) :=
  (W75_keep m ρ c main_arg11 (by decide)).trans (W74_arg11 m ρ c)
theorem W76_arg11 (c : Dev nD) : W76 m ρ c (Proc.devRef .tc main_arg11) = m ((c : Thread nD τ).loc main_arg11) :=
  (W76_keep m ρ c main_arg11 (by decide)).trans (W75_arg11 m ρ c)
theorem W77_arg11 (c : Dev nD) : W77 m ρ c (Proc.devRef .tc main_arg11) = m ((c : Thread nD τ).loc main_arg11) :=
  (W77_keep m ρ c main_arg11 (by decide)).trans (W76_arg11 m ρ c)
theorem W78_arg11 (c : Dev nD) : W78 m ρ c (Proc.devRef .tc main_arg11) = m ((c : Thread nD τ).loc main_arg11) :=
  (W78_keep m ρ c main_arg11 (by decide)).trans (W77_arg11 m ρ c)
theorem W79_arg11 (c : Dev nD) : W79 m ρ c (Proc.devRef .tc main_arg11) = m ((c : Thread nD τ).loc main_arg11) :=
  (W79_keep m ρ c main_arg11 (by decide)).trans (W78_arg11 m ρ c)
theorem W80_arg11 (c : Dev nD) : W80 m ρ c (Proc.devRef .tc main_arg11) = m ((c : Thread nD τ).loc main_arg11) :=
  (W80_of_ne m ρ c main_arg11 (by decide)).trans (W79_arg11 m ρ c)
theorem W81_arg11 (c : Dev nD) : W81 m ρ c (Proc.devRef .tc main_arg11) = m ((c : Thread nD τ).loc main_arg11) :=
  (W81_keep m ρ c main_arg11 (by decide)).trans (W80_arg11 m ρ c)
theorem W82_arg11 (c : Dev nD) : W82 m ρ c (Proc.devRef .tc main_arg11) = m ((c : Thread nD τ).loc main_arg11) :=
  (W82_keep m ρ c main_arg11 (by decide)).trans (W81_arg11 m ρ c)
theorem W83_arg11 (c : Dev nD) : W83 m ρ c (Proc.devRef .tc main_arg11) = m ((c : Thread nD τ).loc main_arg11) :=
  (W83_keep m ρ c main_arg11 (by decide)).trans (W82_arg11 m ρ c)
theorem W84_arg11 (c : Dev nD) : W84 m ρ c (Proc.devRef .tc main_arg11) = m ((c : Thread nD τ).loc main_arg11) :=
  (W84_keep m ρ c main_arg11 (by decide)).trans (W83_arg11 m ρ c)
theorem W85_arg11 (c : Dev nD) : W85 m ρ c (Proc.devRef .tc main_arg11) = m ((c : Thread nD τ).loc main_arg11) :=
  (W85_keep m ρ c main_arg11 (by decide)).trans (W84_arg11 m ρ c)
theorem W86_arg11 (c : Dev nD) : W86 m ρ c (Proc.devRef .tc main_arg11) = m ((c : Thread nD τ).loc main_arg11) :=
  (W86_of_ne m ρ c main_arg11 (by decide)).trans (W85_arg11 m ρ c)
theorem W87_arg11 (c : Dev nD) : W87 m ρ c (Proc.devRef .tc main_arg11) = m ((c : Thread nD τ).loc main_arg11) :=
  (W87_keep m ρ c main_arg11 (by decide)).trans (W86_arg11 m ρ c)
theorem W88_arg11 (c : Dev nD) : W88 m ρ c (Proc.devRef .tc main_arg11) = m ((c : Thread nD τ).loc main_arg11) :=
  (W88_of_ne m ρ c main_arg11 (by decide)).trans (W87_arg11 m ρ c)
theorem W89_arg11 (c : Dev nD) : W89 m ρ c (Proc.devRef .tc main_arg11) = m ((c : Thread nD τ).loc main_arg11) :=
  (W89_keep m ρ c main_arg11 (by decide)).trans (W88_arg11 m ρ c)
theorem W90_arg11 (c : Dev nD) : W90 m ρ c (Proc.devRef .tc main_arg11) = m ((c : Thread nD τ).loc main_arg11) :=
  (W90_of_ne m ρ c main_arg11 (by decide)).trans (W89_arg11 m ρ c)
theorem W0_arg12 (c : Dev nD) : W0 m ρ c (Proc.devRef .tc main_arg12) = m ((c : Thread nD τ).loc main_arg12) := rfl
theorem W1_arg12 (c : Dev nD) : W1 m ρ c (Proc.devRef .tc main_arg12) = m ((c : Thread nD τ).loc main_arg12) :=
  (W1_keep m ρ c main_arg12 (by decide)).trans (W0_arg12 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W3_arg12 (c : Dev nD) : W3 m ρ c (Proc.devRef .tc main_arg12) = m ((c : Thread nD τ).loc main_arg12) :=
  (W3_keep m ρ c main_arg12 (by decide)).trans (W2_arg12 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W5_arg12 (c : Dev nD) : W5 m ρ c (Proc.devRef .tc main_arg12) = m ((c : Thread nD τ).loc main_arg12) :=
  (W5_keep m ρ c main_arg12 (by decide)).trans (W4_arg12 m ρ c)
theorem W6_arg12 (c : Dev nD) : W6 m ρ c (Proc.devRef .tc main_arg12) = m ((c : Thread nD τ).loc main_arg12) :=
  (W6_of_ne m ρ c main_arg12 (by decide)).trans (W5_arg12 m ρ c)
theorem W7_arg12 (c : Dev nD) : W7 m ρ c (Proc.devRef .tc main_arg12) = m ((c : Thread nD τ).loc main_arg12) :=
  (W7_keep m ρ c main_arg12 (by decide)).trans (W6_arg12 m ρ c)
theorem W8_arg12 (c : Dev nD) : W8 m ρ c (Proc.devRef .tc main_arg12) = m ((c : Thread nD τ).loc main_arg12) :=
  (W8_of_ne m ρ c main_arg12 (by decide)).trans (W7_arg12 m ρ c)
theorem W9_arg12 (c : Dev nD) : W9 m ρ c (Proc.devRef .tc main_arg12) = m ((c : Thread nD τ).loc main_arg12) :=
  (W9_keep m ρ c main_arg12 (by decide)).trans (W8_arg12 m ρ c)
theorem W10_arg12 (c : Dev nD) : W10 m ρ c (Proc.devRef .tc main_arg12) = m ((c : Thread nD τ).loc main_arg12) :=
  (W10_keep m ρ c main_arg12 (by decide)).trans (W9_arg12 m ρ c)
theorem W11_arg12 (c : Dev nD) : W11 m ρ c (Proc.devRef .tc main_arg12) = m ((c : Thread nD τ).loc main_arg12) :=
  (W11_keep m ρ c main_arg12 (by decide)).trans (W10_arg12 m ρ c)
theorem W12_arg12 (c : Dev nD) : W12 m ρ c (Proc.devRef .tc main_arg12) = m ((c : Thread nD τ).loc main_arg12) :=
  (W12_keep m ρ c main_arg12 (by decide)).trans (W11_arg12 m ρ c)
theorem W13_arg12 (c : Dev nD) : W13 m ρ c (Proc.devRef .tc main_arg12) = m ((c : Thread nD τ).loc main_arg12) :=
  (W13_keep m ρ c main_arg12 (by decide)).trans (W12_arg12 m ρ c)
theorem W14_arg12 (c : Dev nD) : W14 m ρ c (Proc.devRef .tc main_arg12) = m ((c : Thread nD τ).loc main_arg12) :=
  (W14_of_ne m ρ c main_arg12 (by decide)).trans (W13_arg12 m ρ c)
theorem W15_arg12 (c : Dev nD) : W15 m ρ c (Proc.devRef .tc main_arg12) = m ((c : Thread nD τ).loc main_arg12) :=
  (W15_keep m ρ c main_arg12 (by decide)).trans (W14_arg12 m ρ c)
theorem W16_arg12 (c : Dev nD) : W16 m ρ c (Proc.devRef .tc main_arg12) = m ((c : Thread nD τ).loc main_arg12) :=
  (W16_keep m ρ c main_arg12 (by decide)).trans (W15_arg12 m ρ c)
theorem W17_arg12 (c : Dev nD) : W17 m ρ c (Proc.devRef .tc main_arg12) = m ((c : Thread nD τ).loc main_arg12) :=
  (W17_keep m ρ c main_arg12 (by decide)).trans (W16_arg12 m ρ c)
theorem W18_arg12 (c : Dev nD) : W18 m ρ c (Proc.devRef .tc main_arg12) = m ((c : Thread nD τ).loc main_arg12) :=
  (W18_keep m ρ c main_arg12 (by decide)).trans (W17_arg12 m ρ c)
theorem W19_arg12 (c : Dev nD) : W19 m ρ c (Proc.devRef .tc main_arg12) = m ((c : Thread nD τ).loc main_arg12) :=
  (W19_keep m ρ c main_arg12 (by decide)).trans (W18_arg12 m ρ c)
theorem W20_arg12 (c : Dev nD) : W20 m ρ c (Proc.devRef .tc main_arg12) = m ((c : Thread nD τ).loc main_arg12) :=
  (W20_of_ne m ρ c main_arg12 (by decide)).trans (W19_arg12 m ρ c)
theorem W21_arg12 (c : Dev nD) : W21 m ρ c (Proc.devRef .tc main_arg12) = m ((c : Thread nD τ).loc main_arg12) :=
  (W21_keep m ρ c main_arg12 (by decide)).trans (W20_arg12 m ρ c)
theorem W22_arg12 (c : Dev nD) : W22 m ρ c (Proc.devRef .tc main_arg12) = m ((c : Thread nD τ).loc main_arg12) :=
  (W22_keep m ρ c main_arg12 (by decide)).trans (W21_arg12 m ρ c)
theorem W23_arg12 (c : Dev nD) : W23 m ρ c (Proc.devRef .tc main_arg12) = m ((c : Thread nD τ).loc main_arg12) :=
  (W23_keep m ρ c main_arg12 (by decide)).trans (W22_arg12 m ρ c)
theorem W24_arg12 (c : Dev nD) : W24 m ρ c (Proc.devRef .tc main_arg12) = m ((c : Thread nD τ).loc main_arg12) :=
  (W24_keep m ρ c main_arg12 (by decide)).trans (W23_arg12 m ρ c)
theorem W25_arg12 (c : Dev nD) : W25 m ρ c (Proc.devRef .tc main_arg12) = m ((c : Thread nD τ).loc main_arg12) :=
  (W25_keep m ρ c main_arg12 (by decide)).trans (W24_arg12 m ρ c)
theorem W26_arg12 (c : Dev nD) : W26 m ρ c (Proc.devRef .tc main_arg12) = m ((c : Thread nD τ).loc main_arg12) :=
  (W26_of_ne m ρ c main_arg12 (by decide)).trans (W25_arg12 m ρ c)
theorem W27_arg12 (c : Dev nD) : W27 m ρ c (Proc.devRef .tc main_arg12) = m ((c : Thread nD τ).loc main_arg12) :=
  (W27_keep m ρ c main_arg12 (by decide)).trans (W26_arg12 m ρ c)
theorem W28_arg12 (c : Dev nD) : W28 m ρ c (Proc.devRef .tc main_arg12) = m ((c : Thread nD τ).loc main_arg12) :=
  (W28_keep m ρ c main_arg12 (by decide)).trans (W27_arg12 m ρ c)
theorem W29_arg12 (c : Dev nD) : W29 m ρ c (Proc.devRef .tc main_arg12) = m ((c : Thread nD τ).loc main_arg12) :=
  (W29_keep m ρ c main_arg12 (by decide)).trans (W28_arg12 m ρ c)
theorem W30_arg12 (c : Dev nD) : W30 m ρ c (Proc.devRef .tc main_arg12) = m ((c : Thread nD τ).loc main_arg12) :=
  (W30_keep m ρ c main_arg12 (by decide)).trans (W29_arg12 m ρ c)
theorem W31_arg12 (c : Dev nD) : W31 m ρ c (Proc.devRef .tc main_arg12) = m ((c : Thread nD τ).loc main_arg12) :=
  (W31_keep m ρ c main_arg12 (by decide)).trans (W30_arg12 m ρ c)
theorem W32_arg12 (c : Dev nD) : W32 m ρ c (Proc.devRef .tc main_arg12) = m ((c : Thread nD τ).loc main_arg12) :=
  (W32_of_ne m ρ c main_arg12 (by decide)).trans (W31_arg12 m ρ c)
theorem W33_arg12 (c : Dev nD) : W33 m ρ c (Proc.devRef .tc main_arg12) = m ((c : Thread nD τ).loc main_arg12) :=
  (W33_keep m ρ c main_arg12 (by decide)).trans (W32_arg12 m ρ c)
theorem W34_arg12 (c : Dev nD) : W34 m ρ c (Proc.devRef .tc main_arg12) = m ((c : Thread nD τ).loc main_arg12) :=
  (W34_keep m ρ c main_arg12 (by decide)).trans (W33_arg12 m ρ c)
theorem W35_arg12 (c : Dev nD) : W35 m ρ c (Proc.devRef .tc main_arg12) = m ((c : Thread nD τ).loc main_arg12) :=
  (W35_keep m ρ c main_arg12 (by decide)).trans (W34_arg12 m ρ c)
theorem W36_arg12 (c : Dev nD) : W36 m ρ c (Proc.devRef .tc main_arg12) = m ((c : Thread nD τ).loc main_arg12) :=
  (W36_keep m ρ c main_arg12 (by decide)).trans (W35_arg12 m ρ c)
theorem W37_arg12 (c : Dev nD) : W37 m ρ c (Proc.devRef .tc main_arg12) = m ((c : Thread nD τ).loc main_arg12) :=
  (W37_keep m ρ c main_arg12 (by decide)).trans (W36_arg12 m ρ c)
theorem W38_arg12 (c : Dev nD) : W38 m ρ c (Proc.devRef .tc main_arg12) = m ((c : Thread nD τ).loc main_arg12) :=
  (W38_of_ne m ρ c main_arg12 (by decide)).trans (W37_arg12 m ρ c)
theorem W39_arg12 (c : Dev nD) : W39 m ρ c (Proc.devRef .tc main_arg12) = m ((c : Thread nD τ).loc main_arg12) :=
  (W39_keep m ρ c main_arg12 (by decide)).trans (W38_arg12 m ρ c)
theorem W40_arg12 (c : Dev nD) : W40 m ρ c (Proc.devRef .tc main_arg12) = m ((c : Thread nD τ).loc main_arg12) :=
  (W40_keep m ρ c main_arg12 (by decide)).trans (W39_arg12 m ρ c)
theorem W41_arg12 (c : Dev nD) : W41 m ρ c (Proc.devRef .tc main_arg12) = m ((c : Thread nD τ).loc main_arg12) :=
  (W41_keep m ρ c main_arg12 (by decide)).trans (W40_arg12 m ρ c)
theorem W42_arg12 (c : Dev nD) : W42 m ρ c (Proc.devRef .tc main_arg12) = m ((c : Thread nD τ).loc main_arg12) :=
  (W42_keep m ρ c main_arg12 (by decide)).trans (W41_arg12 m ρ c)
theorem W43_arg12 (c : Dev nD) : W43 m ρ c (Proc.devRef .tc main_arg12) = m ((c : Thread nD τ).loc main_arg12) :=
  (W43_keep m ρ c main_arg12 (by decide)).trans (W42_arg12 m ρ c)
theorem W44_arg12 (c : Dev nD) : W44 m ρ c (Proc.devRef .tc main_arg12) = m ((c : Thread nD τ).loc main_arg12) :=
  (W44_of_ne m ρ c main_arg12 (by decide)).trans (W43_arg12 m ρ c)
theorem W45_arg12 (c : Dev nD) : W45 m ρ c (Proc.devRef .tc main_arg12) = m ((c : Thread nD τ).loc main_arg12) :=
  (W45_keep m ρ c main_arg12 (by decide)).trans (W44_arg12 m ρ c)
theorem W46_arg12 (c : Dev nD) : W46 m ρ c (Proc.devRef .tc main_arg12) = m ((c : Thread nD τ).loc main_arg12) :=
  (W46_of_ne m ρ c main_arg12 (by decide)).trans (W45_arg12 m ρ c)
theorem W47_arg12 (c : Dev nD) : W47 m ρ c (Proc.devRef .tc main_arg12) = m ((c : Thread nD τ).loc main_arg12) :=
  (W47_keep m ρ c main_arg12 (by decide)).trans (W46_arg12 m ρ c)
theorem W48_arg12 (c : Dev nD) : W48 m ρ c (Proc.devRef .tc main_arg12) = m ((c : Thread nD τ).loc main_arg12) :=
  (W48_of_ne m ρ c main_arg12 (by decide)).trans (W47_arg12 m ρ c)
theorem W49_arg12 (c : Dev nD) : W49 m ρ c (Proc.devRef .tc main_arg12) = m ((c : Thread nD τ).loc main_arg12) :=
  (W49_keep m ρ c main_arg12 (by decide)).trans (W48_arg12 m ρ c)
theorem W50_arg12 (c : Dev nD) : W50 m ρ c (Proc.devRef .tc main_arg12) = m ((c : Thread nD τ).loc main_arg12) :=
  (W50_of_ne m ρ c main_arg12 (by decide)).trans (W49_arg12 m ρ c)
theorem W51_arg12 (c : Dev nD) : W51 m ρ c (Proc.devRef .tc main_arg12) = m ((c : Thread nD τ).loc main_arg12) :=
  (W51_keep m ρ c main_arg12 (by decide)).trans (W50_arg12 m ρ c)
theorem W52_arg12 (c : Dev nD) : W52 m ρ c (Proc.devRef .tc main_arg12) = m ((c : Thread nD τ).loc main_arg12) :=
  (W52_keep m ρ c main_arg12 (by decide)).trans (W51_arg12 m ρ c)
theorem W53_arg12 (c : Dev nD) : W53 m ρ c (Proc.devRef .tc main_arg12) = m ((c : Thread nD τ).loc main_arg12) :=
  (W53_keep m ρ c main_arg12 (by decide)).trans (W52_arg12 m ρ c)
theorem W54_arg12 (c : Dev nD) : W54 m ρ c (Proc.devRef .tc main_arg12) = m ((c : Thread nD τ).loc main_arg12) :=
  (W54_keep m ρ c main_arg12 (by decide)).trans (W53_arg12 m ρ c)
theorem W55_arg12 (c : Dev nD) : W55 m ρ c (Proc.devRef .tc main_arg12) = m ((c : Thread nD τ).loc main_arg12) :=
  (W55_keep m ρ c main_arg12 (by decide)).trans (W54_arg12 m ρ c)
theorem W56_arg12 (c : Dev nD) : W56 m ρ c (Proc.devRef .tc main_arg12) = m ((c : Thread nD τ).loc main_arg12) :=
  (W56_of_ne m ρ c main_arg12 (by decide)).trans (W55_arg12 m ρ c)
theorem W57_arg12 (c : Dev nD) : W57 m ρ c (Proc.devRef .tc main_arg12) = m ((c : Thread nD τ).loc main_arg12) :=
  (W57_keep m ρ c main_arg12 (by decide)).trans (W56_arg12 m ρ c)
theorem W58_arg12 (c : Dev nD) : W58 m ρ c (Proc.devRef .tc main_arg12) = m ((c : Thread nD τ).loc main_arg12) :=
  (W58_keep m ρ c main_arg12 (by decide)).trans (W57_arg12 m ρ c)
theorem W59_arg12 (c : Dev nD) : W59 m ρ c (Proc.devRef .tc main_arg12) = m ((c : Thread nD τ).loc main_arg12) :=
  (W59_keep m ρ c main_arg12 (by decide)).trans (W58_arg12 m ρ c)
theorem W60_arg12 (c : Dev nD) : W60 m ρ c (Proc.devRef .tc main_arg12) = m ((c : Thread nD τ).loc main_arg12) :=
  (W60_keep m ρ c main_arg12 (by decide)).trans (W59_arg12 m ρ c)
theorem W61_arg12 (c : Dev nD) : W61 m ρ c (Proc.devRef .tc main_arg12) = m ((c : Thread nD τ).loc main_arg12) :=
  (W61_keep m ρ c main_arg12 (by decide)).trans (W60_arg12 m ρ c)
theorem W62_arg12 (c : Dev nD) : W62 m ρ c (Proc.devRef .tc main_arg12) = m ((c : Thread nD τ).loc main_arg12) :=
  (W62_of_ne m ρ c main_arg12 (by decide)).trans (W61_arg12 m ρ c)
theorem W63_arg12 (c : Dev nD) : W63 m ρ c (Proc.devRef .tc main_arg12) = m ((c : Thread nD τ).loc main_arg12) :=
  (W63_keep m ρ c main_arg12 (by decide)).trans (W62_arg12 m ρ c)
theorem W64_arg12 (c : Dev nD) : W64 m ρ c (Proc.devRef .tc main_arg12) = m ((c : Thread nD τ).loc main_arg12) :=
  (W64_keep m ρ c main_arg12 (by decide)).trans (W63_arg12 m ρ c)
theorem W65_arg12 (c : Dev nD) : W65 m ρ c (Proc.devRef .tc main_arg12) = m ((c : Thread nD τ).loc main_arg12) :=
  (W65_keep m ρ c main_arg12 (by decide)).trans (W64_arg12 m ρ c)
theorem W66_arg12 (c : Dev nD) : W66 m ρ c (Proc.devRef .tc main_arg12) = m ((c : Thread nD τ).loc main_arg12) :=
  (W66_keep m ρ c main_arg12 (by decide)).trans (W65_arg12 m ρ c)
theorem W67_arg12 (c : Dev nD) : W67 m ρ c (Proc.devRef .tc main_arg12) = m ((c : Thread nD τ).loc main_arg12) :=
  (W67_keep m ρ c main_arg12 (by decide)).trans (W66_arg12 m ρ c)
theorem W68_arg12 (c : Dev nD) : W68 m ρ c (Proc.devRef .tc main_arg12) = m ((c : Thread nD τ).loc main_arg12) :=
  (W68_of_ne m ρ c main_arg12 (by decide)).trans (W67_arg12 m ρ c)
theorem W69_arg12 (c : Dev nD) : W69 m ρ c (Proc.devRef .tc main_arg12) = m ((c : Thread nD τ).loc main_arg12) :=
  (W69_keep m ρ c main_arg12 (by decide)).trans (W68_arg12 m ρ c)
theorem W70_arg12 (c : Dev nD) : W70 m ρ c (Proc.devRef .tc main_arg12) = m ((c : Thread nD τ).loc main_arg12) :=
  (W70_keep m ρ c main_arg12 (by decide)).trans (W69_arg12 m ρ c)
theorem W71_arg12 (c : Dev nD) : W71 m ρ c (Proc.devRef .tc main_arg12) = m ((c : Thread nD τ).loc main_arg12) :=
  (W71_keep m ρ c main_arg12 (by decide)).trans (W70_arg12 m ρ c)
theorem W72_arg12 (c : Dev nD) : W72 m ρ c (Proc.devRef .tc main_arg12) = m ((c : Thread nD τ).loc main_arg12) :=
  (W72_keep m ρ c main_arg12 (by decide)).trans (W71_arg12 m ρ c)
theorem W73_arg12 (c : Dev nD) : W73 m ρ c (Proc.devRef .tc main_arg12) = m ((c : Thread nD τ).loc main_arg12) :=
  (W73_keep m ρ c main_arg12 (by decide)).trans (W72_arg12 m ρ c)
theorem W74_arg12 (c : Dev nD) : W74 m ρ c (Proc.devRef .tc main_arg12) = m ((c : Thread nD τ).loc main_arg12) :=
  (W74_of_ne m ρ c main_arg12 (by decide)).trans (W73_arg12 m ρ c)
theorem W75_arg12 (c : Dev nD) : W75 m ρ c (Proc.devRef .tc main_arg12) = m ((c : Thread nD τ).loc main_arg12) :=
  (W75_keep m ρ c main_arg12 (by decide)).trans (W74_arg12 m ρ c)
theorem W76_arg12 (c : Dev nD) : W76 m ρ c (Proc.devRef .tc main_arg12) = m ((c : Thread nD τ).loc main_arg12) :=
  (W76_keep m ρ c main_arg12 (by decide)).trans (W75_arg12 m ρ c)
theorem W77_arg12 (c : Dev nD) : W77 m ρ c (Proc.devRef .tc main_arg12) = m ((c : Thread nD τ).loc main_arg12) :=
  (W77_keep m ρ c main_arg12 (by decide)).trans (W76_arg12 m ρ c)
theorem W78_arg12 (c : Dev nD) : W78 m ρ c (Proc.devRef .tc main_arg12) = m ((c : Thread nD τ).loc main_arg12) :=
  (W78_keep m ρ c main_arg12 (by decide)).trans (W77_arg12 m ρ c)
theorem W79_arg12 (c : Dev nD) : W79 m ρ c (Proc.devRef .tc main_arg12) = m ((c : Thread nD τ).loc main_arg12) :=
  (W79_keep m ρ c main_arg12 (by decide)).trans (W78_arg12 m ρ c)
theorem W80_arg12 (c : Dev nD) : W80 m ρ c (Proc.devRef .tc main_arg12) = m ((c : Thread nD τ).loc main_arg12) :=
  (W80_of_ne m ρ c main_arg12 (by decide)).trans (W79_arg12 m ρ c)
theorem W81_arg12 (c : Dev nD) : W81 m ρ c (Proc.devRef .tc main_arg12) = m ((c : Thread nD τ).loc main_arg12) :=
  (W81_keep m ρ c main_arg12 (by decide)).trans (W80_arg12 m ρ c)
theorem W82_arg12 (c : Dev nD) : W82 m ρ c (Proc.devRef .tc main_arg12) = m ((c : Thread nD τ).loc main_arg12) :=
  (W82_keep m ρ c main_arg12 (by decide)).trans (W81_arg12 m ρ c)
theorem W83_arg12 (c : Dev nD) : W83 m ρ c (Proc.devRef .tc main_arg12) = m ((c : Thread nD τ).loc main_arg12) :=
  (W83_keep m ρ c main_arg12 (by decide)).trans (W82_arg12 m ρ c)
theorem W84_arg12 (c : Dev nD) : W84 m ρ c (Proc.devRef .tc main_arg12) = m ((c : Thread nD τ).loc main_arg12) :=
  (W84_keep m ρ c main_arg12 (by decide)).trans (W83_arg12 m ρ c)
theorem W85_arg12 (c : Dev nD) : W85 m ρ c (Proc.devRef .tc main_arg12) = m ((c : Thread nD τ).loc main_arg12) :=
  (W85_keep m ρ c main_arg12 (by decide)).trans (W84_arg12 m ρ c)
theorem W86_arg12 (c : Dev nD) : W86 m ρ c (Proc.devRef .tc main_arg12) = m ((c : Thread nD τ).loc main_arg12) :=
  (W86_of_ne m ρ c main_arg12 (by decide)).trans (W85_arg12 m ρ c)
theorem W87_arg12 (c : Dev nD) : W87 m ρ c (Proc.devRef .tc main_arg12) = m ((c : Thread nD τ).loc main_arg12) :=
  (W87_keep m ρ c main_arg12 (by decide)).trans (W86_arg12 m ρ c)
theorem W88_arg12 (c : Dev nD) : W88 m ρ c (Proc.devRef .tc main_arg12) = m ((c : Thread nD τ).loc main_arg12) :=
  (W88_of_ne m ρ c main_arg12 (by decide)).trans (W87_arg12 m ρ c)
theorem W89_arg12 (c : Dev nD) : W89 m ρ c (Proc.devRef .tc main_arg12) = m ((c : Thread nD τ).loc main_arg12) :=
  (W89_keep m ρ c main_arg12 (by decide)).trans (W88_arg12 m ρ c)
theorem W90_arg12 (c : Dev nD) : W90 m ρ c (Proc.devRef .tc main_arg12) = m ((c : Thread nD τ).loc main_arg12) :=
  (W90_of_ne m ρ c main_arg12 (by decide)).trans (W89_arg12 m ρ c)
theorem W0_arg13 (c : Dev nD) : W0 m ρ c (Proc.devRef .tc main_arg13) = m ((c : Thread nD τ).loc main_arg13) := rfl
theorem W1_arg13 (c : Dev nD) : W1 m ρ c (Proc.devRef .tc main_arg13) = m ((c : Thread nD τ).loc main_arg13) :=
  (W1_keep m ρ c main_arg13 (by decide)).trans (W0_arg13 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W3_arg13 (c : Dev nD) : W3 m ρ c (Proc.devRef .tc main_arg13) = m ((c : Thread nD τ).loc main_arg13) :=
  (W3_keep m ρ c main_arg13 (by decide)).trans (W2_arg13 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W5_arg13 (c : Dev nD) : W5 m ρ c (Proc.devRef .tc main_arg13) = m ((c : Thread nD τ).loc main_arg13) :=
  (W5_keep m ρ c main_arg13 (by decide)).trans (W4_arg13 m ρ c)
theorem W6_arg13 (c : Dev nD) : W6 m ρ c (Proc.devRef .tc main_arg13) = m ((c : Thread nD τ).loc main_arg13) :=
  (W6_of_ne m ρ c main_arg13 (by decide)).trans (W5_arg13 m ρ c)
theorem W7_arg13 (c : Dev nD) : W7 m ρ c (Proc.devRef .tc main_arg13) = m ((c : Thread nD τ).loc main_arg13) :=
  (W7_keep m ρ c main_arg13 (by decide)).trans (W6_arg13 m ρ c)
theorem W8_arg13 (c : Dev nD) : W8 m ρ c (Proc.devRef .tc main_arg13) = m ((c : Thread nD τ).loc main_arg13) :=
  (W8_of_ne m ρ c main_arg13 (by decide)).trans (W7_arg13 m ρ c)
theorem W9_arg13 (c : Dev nD) : W9 m ρ c (Proc.devRef .tc main_arg13) = m ((c : Thread nD τ).loc main_arg13) :=
  (W9_keep m ρ c main_arg13 (by decide)).trans (W8_arg13 m ρ c)
theorem W10_arg13 (c : Dev nD) : W10 m ρ c (Proc.devRef .tc main_arg13) = m ((c : Thread nD τ).loc main_arg13) :=
  (W10_keep m ρ c main_arg13 (by decide)).trans (W9_arg13 m ρ c)
theorem W11_arg13 (c : Dev nD) : W11 m ρ c (Proc.devRef .tc main_arg13) = m ((c : Thread nD τ).loc main_arg13) :=
  (W11_keep m ρ c main_arg13 (by decide)).trans (W10_arg13 m ρ c)
theorem W12_arg13 (c : Dev nD) : W12 m ρ c (Proc.devRef .tc main_arg13) = m ((c : Thread nD τ).loc main_arg13) :=
  (W12_keep m ρ c main_arg13 (by decide)).trans (W11_arg13 m ρ c)
theorem W13_arg13 (c : Dev nD) : W13 m ρ c (Proc.devRef .tc main_arg13) = m ((c : Thread nD τ).loc main_arg13) :=
  (W13_keep m ρ c main_arg13 (by decide)).trans (W12_arg13 m ρ c)
theorem W14_arg13 (c : Dev nD) : W14 m ρ c (Proc.devRef .tc main_arg13) = m ((c : Thread nD τ).loc main_arg13) :=
  (W14_of_ne m ρ c main_arg13 (by decide)).trans (W13_arg13 m ρ c)
theorem W15_arg13 (c : Dev nD) : W15 m ρ c (Proc.devRef .tc main_arg13) = m ((c : Thread nD τ).loc main_arg13) :=
  (W15_keep m ρ c main_arg13 (by decide)).trans (W14_arg13 m ρ c)
theorem W16_arg13 (c : Dev nD) : W16 m ρ c (Proc.devRef .tc main_arg13) = m ((c : Thread nD τ).loc main_arg13) :=
  (W16_keep m ρ c main_arg13 (by decide)).trans (W15_arg13 m ρ c)
theorem W17_arg13 (c : Dev nD) : W17 m ρ c (Proc.devRef .tc main_arg13) = m ((c : Thread nD τ).loc main_arg13) :=
  (W17_keep m ρ c main_arg13 (by decide)).trans (W16_arg13 m ρ c)
theorem W18_arg13 (c : Dev nD) : W18 m ρ c (Proc.devRef .tc main_arg13) = m ((c : Thread nD τ).loc main_arg13) :=
  (W18_keep m ρ c main_arg13 (by decide)).trans (W17_arg13 m ρ c)
theorem W19_arg13 (c : Dev nD) : W19 m ρ c (Proc.devRef .tc main_arg13) = m ((c : Thread nD τ).loc main_arg13) :=
  (W19_keep m ρ c main_arg13 (by decide)).trans (W18_arg13 m ρ c)
theorem W20_arg13 (c : Dev nD) : W20 m ρ c (Proc.devRef .tc main_arg13) = m ((c : Thread nD τ).loc main_arg13) :=
  (W20_of_ne m ρ c main_arg13 (by decide)).trans (W19_arg13 m ρ c)
theorem W21_arg13 (c : Dev nD) : W21 m ρ c (Proc.devRef .tc main_arg13) = m ((c : Thread nD τ).loc main_arg13) :=
  (W21_keep m ρ c main_arg13 (by decide)).trans (W20_arg13 m ρ c)
theorem W22_arg13 (c : Dev nD) : W22 m ρ c (Proc.devRef .tc main_arg13) = m ((c : Thread nD τ).loc main_arg13) :=
  (W22_keep m ρ c main_arg13 (by decide)).trans (W21_arg13 m ρ c)
theorem W23_arg13 (c : Dev nD) : W23 m ρ c (Proc.devRef .tc main_arg13) = m ((c : Thread nD τ).loc main_arg13) :=
  (W23_keep m ρ c main_arg13 (by decide)).trans (W22_arg13 m ρ c)
theorem W24_arg13 (c : Dev nD) : W24 m ρ c (Proc.devRef .tc main_arg13) = m ((c : Thread nD τ).loc main_arg13) :=
  (W24_keep m ρ c main_arg13 (by decide)).trans (W23_arg13 m ρ c)
theorem W25_arg13 (c : Dev nD) : W25 m ρ c (Proc.devRef .tc main_arg13) = m ((c : Thread nD τ).loc main_arg13) :=
  (W25_keep m ρ c main_arg13 (by decide)).trans (W24_arg13 m ρ c)
theorem W26_arg13 (c : Dev nD) : W26 m ρ c (Proc.devRef .tc main_arg13) = m ((c : Thread nD τ).loc main_arg13) :=
  (W26_of_ne m ρ c main_arg13 (by decide)).trans (W25_arg13 m ρ c)
theorem W27_arg13 (c : Dev nD) : W27 m ρ c (Proc.devRef .tc main_arg13) = m ((c : Thread nD τ).loc main_arg13) :=
  (W27_keep m ρ c main_arg13 (by decide)).trans (W26_arg13 m ρ c)
theorem W28_arg13 (c : Dev nD) : W28 m ρ c (Proc.devRef .tc main_arg13) = m ((c : Thread nD τ).loc main_arg13) :=
  (W28_keep m ρ c main_arg13 (by decide)).trans (W27_arg13 m ρ c)
theorem W29_arg13 (c : Dev nD) : W29 m ρ c (Proc.devRef .tc main_arg13) = m ((c : Thread nD τ).loc main_arg13) :=
  (W29_keep m ρ c main_arg13 (by decide)).trans (W28_arg13 m ρ c)
theorem W30_arg13 (c : Dev nD) : W30 m ρ c (Proc.devRef .tc main_arg13) = m ((c : Thread nD τ).loc main_arg13) :=
  (W30_keep m ρ c main_arg13 (by decide)).trans (W29_arg13 m ρ c)
theorem W31_arg13 (c : Dev nD) : W31 m ρ c (Proc.devRef .tc main_arg13) = m ((c : Thread nD τ).loc main_arg13) :=
  (W31_keep m ρ c main_arg13 (by decide)).trans (W30_arg13 m ρ c)
theorem W32_arg13 (c : Dev nD) : W32 m ρ c (Proc.devRef .tc main_arg13) = m ((c : Thread nD τ).loc main_arg13) :=
  (W32_of_ne m ρ c main_arg13 (by decide)).trans (W31_arg13 m ρ c)
theorem W33_arg13 (c : Dev nD) : W33 m ρ c (Proc.devRef .tc main_arg13) = m ((c : Thread nD τ).loc main_arg13) :=
  (W33_keep m ρ c main_arg13 (by decide)).trans (W32_arg13 m ρ c)
theorem W34_arg13 (c : Dev nD) : W34 m ρ c (Proc.devRef .tc main_arg13) = m ((c : Thread nD τ).loc main_arg13) :=
  (W34_keep m ρ c main_arg13 (by decide)).trans (W33_arg13 m ρ c)
theorem W35_arg13 (c : Dev nD) : W35 m ρ c (Proc.devRef .tc main_arg13) = m ((c : Thread nD τ).loc main_arg13) :=
  (W35_keep m ρ c main_arg13 (by decide)).trans (W34_arg13 m ρ c)
theorem W36_arg13 (c : Dev nD) : W36 m ρ c (Proc.devRef .tc main_arg13) = m ((c : Thread nD τ).loc main_arg13) :=
  (W36_keep m ρ c main_arg13 (by decide)).trans (W35_arg13 m ρ c)
theorem W37_arg13 (c : Dev nD) : W37 m ρ c (Proc.devRef .tc main_arg13) = m ((c : Thread nD τ).loc main_arg13) :=
  (W37_keep m ρ c main_arg13 (by decide)).trans (W36_arg13 m ρ c)
theorem W38_arg13 (c : Dev nD) : W38 m ρ c (Proc.devRef .tc main_arg13) = m ((c : Thread nD τ).loc main_arg13) :=
  (W38_of_ne m ρ c main_arg13 (by decide)).trans (W37_arg13 m ρ c)
theorem W39_arg13 (c : Dev nD) : W39 m ρ c (Proc.devRef .tc main_arg13) = m ((c : Thread nD τ).loc main_arg13) :=
  (W39_keep m ρ c main_arg13 (by decide)).trans (W38_arg13 m ρ c)
theorem W40_arg13 (c : Dev nD) : W40 m ρ c (Proc.devRef .tc main_arg13) = m ((c : Thread nD τ).loc main_arg13) :=
  (W40_keep m ρ c main_arg13 (by decide)).trans (W39_arg13 m ρ c)
theorem W41_arg13 (c : Dev nD) : W41 m ρ c (Proc.devRef .tc main_arg13) = m ((c : Thread nD τ).loc main_arg13) :=
  (W41_keep m ρ c main_arg13 (by decide)).trans (W40_arg13 m ρ c)
theorem W42_arg13 (c : Dev nD) : W42 m ρ c (Proc.devRef .tc main_arg13) = m ((c : Thread nD τ).loc main_arg13) :=
  (W42_keep m ρ c main_arg13 (by decide)).trans (W41_arg13 m ρ c)
theorem W43_arg13 (c : Dev nD) : W43 m ρ c (Proc.devRef .tc main_arg13) = m ((c : Thread nD τ).loc main_arg13) :=
  (W43_keep m ρ c main_arg13 (by decide)).trans (W42_arg13 m ρ c)
theorem W44_arg13 (c : Dev nD) : W44 m ρ c (Proc.devRef .tc main_arg13) = m ((c : Thread nD τ).loc main_arg13) :=
  (W44_of_ne m ρ c main_arg13 (by decide)).trans (W43_arg13 m ρ c)
theorem W45_arg13 (c : Dev nD) : W45 m ρ c (Proc.devRef .tc main_arg13) = m ((c : Thread nD τ).loc main_arg13) :=
  (W45_keep m ρ c main_arg13 (by decide)).trans (W44_arg13 m ρ c)
theorem W46_arg13 (c : Dev nD) : W46 m ρ c (Proc.devRef .tc main_arg13) = m ((c : Thread nD τ).loc main_arg13) :=
  (W46_of_ne m ρ c main_arg13 (by decide)).trans (W45_arg13 m ρ c)
theorem W47_arg13 (c : Dev nD) : W47 m ρ c (Proc.devRef .tc main_arg13) = m ((c : Thread nD τ).loc main_arg13) :=
  (W47_keep m ρ c main_arg13 (by decide)).trans (W46_arg13 m ρ c)
theorem W48_arg13 (c : Dev nD) : W48 m ρ c (Proc.devRef .tc main_arg13) = m ((c : Thread nD τ).loc main_arg13) :=
  (W48_of_ne m ρ c main_arg13 (by decide)).trans (W47_arg13 m ρ c)
theorem W49_arg13 (c : Dev nD) : W49 m ρ c (Proc.devRef .tc main_arg13) = m ((c : Thread nD τ).loc main_arg13) :=
  (W49_keep m ρ c main_arg13 (by decide)).trans (W48_arg13 m ρ c)
theorem W50_arg13 (c : Dev nD) : W50 m ρ c (Proc.devRef .tc main_arg13) = m ((c : Thread nD τ).loc main_arg13) :=
  (W50_of_ne m ρ c main_arg13 (by decide)).trans (W49_arg13 m ρ c)
theorem W51_arg13 (c : Dev nD) : W51 m ρ c (Proc.devRef .tc main_arg13) = m ((c : Thread nD τ).loc main_arg13) :=
  (W51_keep m ρ c main_arg13 (by decide)).trans (W50_arg13 m ρ c)
theorem W52_arg13 (c : Dev nD) : W52 m ρ c (Proc.devRef .tc main_arg13) = m ((c : Thread nD τ).loc main_arg13) :=
  (W52_keep m ρ c main_arg13 (by decide)).trans (W51_arg13 m ρ c)
theorem W53_arg13 (c : Dev nD) : W53 m ρ c (Proc.devRef .tc main_arg13) = m ((c : Thread nD τ).loc main_arg13) :=
  (W53_keep m ρ c main_arg13 (by decide)).trans (W52_arg13 m ρ c)
theorem W54_arg13 (c : Dev nD) : W54 m ρ c (Proc.devRef .tc main_arg13) = m ((c : Thread nD τ).loc main_arg13) :=
  (W54_keep m ρ c main_arg13 (by decide)).trans (W53_arg13 m ρ c)
theorem W55_arg13 (c : Dev nD) : W55 m ρ c (Proc.devRef .tc main_arg13) = m ((c : Thread nD τ).loc main_arg13) :=
  (W55_keep m ρ c main_arg13 (by decide)).trans (W54_arg13 m ρ c)
theorem W56_arg13 (c : Dev nD) : W56 m ρ c (Proc.devRef .tc main_arg13) = m ((c : Thread nD τ).loc main_arg13) :=
  (W56_of_ne m ρ c main_arg13 (by decide)).trans (W55_arg13 m ρ c)
theorem W57_arg13 (c : Dev nD) : W57 m ρ c (Proc.devRef .tc main_arg13) = m ((c : Thread nD τ).loc main_arg13) :=
  (W57_keep m ρ c main_arg13 (by decide)).trans (W56_arg13 m ρ c)
theorem W58_arg13 (c : Dev nD) : W58 m ρ c (Proc.devRef .tc main_arg13) = m ((c : Thread nD τ).loc main_arg13) :=
  (W58_keep m ρ c main_arg13 (by decide)).trans (W57_arg13 m ρ c)
theorem W59_arg13 (c : Dev nD) : W59 m ρ c (Proc.devRef .tc main_arg13) = m ((c : Thread nD τ).loc main_arg13) :=
  (W59_keep m ρ c main_arg13 (by decide)).trans (W58_arg13 m ρ c)
theorem W60_arg13 (c : Dev nD) : W60 m ρ c (Proc.devRef .tc main_arg13) = m ((c : Thread nD τ).loc main_arg13) :=
  (W60_keep m ρ c main_arg13 (by decide)).trans (W59_arg13 m ρ c)
theorem W61_arg13 (c : Dev nD) : W61 m ρ c (Proc.devRef .tc main_arg13) = m ((c : Thread nD τ).loc main_arg13) :=
  (W61_keep m ρ c main_arg13 (by decide)).trans (W60_arg13 m ρ c)
theorem W62_arg13 (c : Dev nD) : W62 m ρ c (Proc.devRef .tc main_arg13) = m ((c : Thread nD τ).loc main_arg13) :=
  (W62_of_ne m ρ c main_arg13 (by decide)).trans (W61_arg13 m ρ c)
theorem W63_arg13 (c : Dev nD) : W63 m ρ c (Proc.devRef .tc main_arg13) = m ((c : Thread nD τ).loc main_arg13) :=
  (W63_keep m ρ c main_arg13 (by decide)).trans (W62_arg13 m ρ c)
theorem W64_arg13 (c : Dev nD) : W64 m ρ c (Proc.devRef .tc main_arg13) = m ((c : Thread nD τ).loc main_arg13) :=
  (W64_keep m ρ c main_arg13 (by decide)).trans (W63_arg13 m ρ c)
theorem W65_arg13 (c : Dev nD) : W65 m ρ c (Proc.devRef .tc main_arg13) = m ((c : Thread nD τ).loc main_arg13) :=
  (W65_keep m ρ c main_arg13 (by decide)).trans (W64_arg13 m ρ c)
theorem W66_arg13 (c : Dev nD) : W66 m ρ c (Proc.devRef .tc main_arg13) = m ((c : Thread nD τ).loc main_arg13) :=
  (W66_keep m ρ c main_arg13 (by decide)).trans (W65_arg13 m ρ c)
theorem W67_arg13 (c : Dev nD) : W67 m ρ c (Proc.devRef .tc main_arg13) = m ((c : Thread nD τ).loc main_arg13) :=
  (W67_keep m ρ c main_arg13 (by decide)).trans (W66_arg13 m ρ c)
theorem W68_arg13 (c : Dev nD) : W68 m ρ c (Proc.devRef .tc main_arg13) = m ((c : Thread nD τ).loc main_arg13) :=
  (W68_of_ne m ρ c main_arg13 (by decide)).trans (W67_arg13 m ρ c)
theorem W69_arg13 (c : Dev nD) : W69 m ρ c (Proc.devRef .tc main_arg13) = m ((c : Thread nD τ).loc main_arg13) :=
  (W69_keep m ρ c main_arg13 (by decide)).trans (W68_arg13 m ρ c)
theorem W70_arg13 (c : Dev nD) : W70 m ρ c (Proc.devRef .tc main_arg13) = m ((c : Thread nD τ).loc main_arg13) :=
  (W70_keep m ρ c main_arg13 (by decide)).trans (W69_arg13 m ρ c)
theorem W71_arg13 (c : Dev nD) : W71 m ρ c (Proc.devRef .tc main_arg13) = m ((c : Thread nD τ).loc main_arg13) :=
  (W71_keep m ρ c main_arg13 (by decide)).trans (W70_arg13 m ρ c)
theorem W72_arg13 (c : Dev nD) : W72 m ρ c (Proc.devRef .tc main_arg13) = m ((c : Thread nD τ).loc main_arg13) :=
  (W72_keep m ρ c main_arg13 (by decide)).trans (W71_arg13 m ρ c)
theorem W73_arg13 (c : Dev nD) : W73 m ρ c (Proc.devRef .tc main_arg13) = m ((c : Thread nD τ).loc main_arg13) :=
  (W73_keep m ρ c main_arg13 (by decide)).trans (W72_arg13 m ρ c)
theorem W74_arg13 (c : Dev nD) : W74 m ρ c (Proc.devRef .tc main_arg13) = m ((c : Thread nD τ).loc main_arg13) :=
  (W74_of_ne m ρ c main_arg13 (by decide)).trans (W73_arg13 m ρ c)
theorem W75_arg13 (c : Dev nD) : W75 m ρ c (Proc.devRef .tc main_arg13) = m ((c : Thread nD τ).loc main_arg13) :=
  (W75_keep m ρ c main_arg13 (by decide)).trans (W74_arg13 m ρ c)
theorem W76_arg13 (c : Dev nD) : W76 m ρ c (Proc.devRef .tc main_arg13) = m ((c : Thread nD τ).loc main_arg13) :=
  (W76_keep m ρ c main_arg13 (by decide)).trans (W75_arg13 m ρ c)
theorem W77_arg13 (c : Dev nD) : W77 m ρ c (Proc.devRef .tc main_arg13) = m ((c : Thread nD τ).loc main_arg13) :=
  (W77_keep m ρ c main_arg13 (by decide)).trans (W76_arg13 m ρ c)
theorem W78_arg13 (c : Dev nD) : W78 m ρ c (Proc.devRef .tc main_arg13) = m ((c : Thread nD τ).loc main_arg13) :=
  (W78_keep m ρ c main_arg13 (by decide)).trans (W77_arg13 m ρ c)
theorem W79_arg13 (c : Dev nD) : W79 m ρ c (Proc.devRef .tc main_arg13) = m ((c : Thread nD τ).loc main_arg13) :=
  (W79_keep m ρ c main_arg13 (by decide)).trans (W78_arg13 m ρ c)
theorem W80_arg13 (c : Dev nD) : W80 m ρ c (Proc.devRef .tc main_arg13) = m ((c : Thread nD τ).loc main_arg13) :=
  (W80_of_ne m ρ c main_arg13 (by decide)).trans (W79_arg13 m ρ c)
theorem W81_arg13 (c : Dev nD) : W81 m ρ c (Proc.devRef .tc main_arg13) = m ((c : Thread nD τ).loc main_arg13) :=
  (W81_keep m ρ c main_arg13 (by decide)).trans (W80_arg13 m ρ c)
theorem W82_arg13 (c : Dev nD) : W82 m ρ c (Proc.devRef .tc main_arg13) = m ((c : Thread nD τ).loc main_arg13) :=
  (W82_keep m ρ c main_arg13 (by decide)).trans (W81_arg13 m ρ c)
theorem W83_arg13 (c : Dev nD) : W83 m ρ c (Proc.devRef .tc main_arg13) = m ((c : Thread nD τ).loc main_arg13) :=
  (W83_keep m ρ c main_arg13 (by decide)).trans (W82_arg13 m ρ c)
theorem W84_arg13 (c : Dev nD) : W84 m ρ c (Proc.devRef .tc main_arg13) = m ((c : Thread nD τ).loc main_arg13) :=
  (W84_keep m ρ c main_arg13 (by decide)).trans (W83_arg13 m ρ c)
theorem W85_arg13 (c : Dev nD) : W85 m ρ c (Proc.devRef .tc main_arg13) = m ((c : Thread nD τ).loc main_arg13) :=
  (W85_keep m ρ c main_arg13 (by decide)).trans (W84_arg13 m ρ c)
theorem W86_arg13 (c : Dev nD) : W86 m ρ c (Proc.devRef .tc main_arg13) = m ((c : Thread nD τ).loc main_arg13) :=
  (W86_of_ne m ρ c main_arg13 (by decide)).trans (W85_arg13 m ρ c)
theorem W87_arg13 (c : Dev nD) : W87 m ρ c (Proc.devRef .tc main_arg13) = m ((c : Thread nD τ).loc main_arg13) :=
  (W87_keep m ρ c main_arg13 (by decide)).trans (W86_arg13 m ρ c)
theorem W88_arg13 (c : Dev nD) : W88 m ρ c (Proc.devRef .tc main_arg13) = m ((c : Thread nD τ).loc main_arg13) :=
  (W88_of_ne m ρ c main_arg13 (by decide)).trans (W87_arg13 m ρ c)
theorem W89_arg13 (c : Dev nD) : W89 m ρ c (Proc.devRef .tc main_arg13) = m ((c : Thread nD τ).loc main_arg13) :=
  (W89_keep m ρ c main_arg13 (by decide)).trans (W88_arg13 m ρ c)
theorem W90_arg13 (c : Dev nD) : W90 m ρ c (Proc.devRef .tc main_arg13) = m ((c : Thread nD τ).loc main_arg13) :=
  (W90_of_ne m ρ c main_arg13 (by decide)).trans (W89_arg13 m ρ c)
theorem W0_arg14 (c : Dev nD) : W0 m ρ c (Proc.devRef .tc main_arg14) = m ((c : Thread nD τ).loc main_arg14) := rfl
theorem W1_arg14 (c : Dev nD) : W1 m ρ c (Proc.devRef .tc main_arg14) = m ((c : Thread nD τ).loc main_arg14) :=
  (W1_keep m ρ c main_arg14 (by decide)).trans (W0_arg14 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W3_arg14 (c : Dev nD) : W3 m ρ c (Proc.devRef .tc main_arg14) = m ((c : Thread nD τ).loc main_arg14) :=
  (W3_keep m ρ c main_arg14 (by decide)).trans (W2_arg14 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W5_arg14 (c : Dev nD) : W5 m ρ c (Proc.devRef .tc main_arg14) = m ((c : Thread nD τ).loc main_arg14) :=
  (W5_keep m ρ c main_arg14 (by decide)).trans (W4_arg14 m ρ c)
theorem W6_arg14 (c : Dev nD) : W6 m ρ c (Proc.devRef .tc main_arg14) = m ((c : Thread nD τ).loc main_arg14) :=
  (W6_of_ne m ρ c main_arg14 (by decide)).trans (W5_arg14 m ρ c)
theorem W7_arg14 (c : Dev nD) : W7 m ρ c (Proc.devRef .tc main_arg14) = m ((c : Thread nD τ).loc main_arg14) :=
  (W7_keep m ρ c main_arg14 (by decide)).trans (W6_arg14 m ρ c)
theorem W8_arg14 (c : Dev nD) : W8 m ρ c (Proc.devRef .tc main_arg14) = m ((c : Thread nD τ).loc main_arg14) :=
  (W8_of_ne m ρ c main_arg14 (by decide)).trans (W7_arg14 m ρ c)
theorem W9_arg14 (c : Dev nD) : W9 m ρ c (Proc.devRef .tc main_arg14) = m ((c : Thread nD τ).loc main_arg14) :=
  (W9_keep m ρ c main_arg14 (by decide)).trans (W8_arg14 m ρ c)
theorem W10_arg14 (c : Dev nD) : W10 m ρ c (Proc.devRef .tc main_arg14) = m ((c : Thread nD τ).loc main_arg14) :=
  (W10_keep m ρ c main_arg14 (by decide)).trans (W9_arg14 m ρ c)
theorem W11_arg14 (c : Dev nD) : W11 m ρ c (Proc.devRef .tc main_arg14) = m ((c : Thread nD τ).loc main_arg14) :=
  (W11_keep m ρ c main_arg14 (by decide)).trans (W10_arg14 m ρ c)
theorem W12_arg14 (c : Dev nD) : W12 m ρ c (Proc.devRef .tc main_arg14) = m ((c : Thread nD τ).loc main_arg14) :=
  (W12_keep m ρ c main_arg14 (by decide)).trans (W11_arg14 m ρ c)
theorem W13_arg14 (c : Dev nD) : W13 m ρ c (Proc.devRef .tc main_arg14) = m ((c : Thread nD τ).loc main_arg14) :=
  (W13_keep m ρ c main_arg14 (by decide)).trans (W12_arg14 m ρ c)
theorem W14_arg14 (c : Dev nD) : W14 m ρ c (Proc.devRef .tc main_arg14) = m ((c : Thread nD τ).loc main_arg14) :=
  (W14_of_ne m ρ c main_arg14 (by decide)).trans (W13_arg14 m ρ c)
theorem W15_arg14 (c : Dev nD) : W15 m ρ c (Proc.devRef .tc main_arg14) = m ((c : Thread nD τ).loc main_arg14) :=
  (W15_keep m ρ c main_arg14 (by decide)).trans (W14_arg14 m ρ c)
theorem W16_arg14 (c : Dev nD) : W16 m ρ c (Proc.devRef .tc main_arg14) = m ((c : Thread nD τ).loc main_arg14) :=
  (W16_keep m ρ c main_arg14 (by decide)).trans (W15_arg14 m ρ c)
theorem W17_arg14 (c : Dev nD) : W17 m ρ c (Proc.devRef .tc main_arg14) = m ((c : Thread nD τ).loc main_arg14) :=
  (W17_keep m ρ c main_arg14 (by decide)).trans (W16_arg14 m ρ c)
theorem W18_arg14 (c : Dev nD) : W18 m ρ c (Proc.devRef .tc main_arg14) = m ((c : Thread nD τ).loc main_arg14) :=
  (W18_keep m ρ c main_arg14 (by decide)).trans (W17_arg14 m ρ c)
theorem W19_arg14 (c : Dev nD) : W19 m ρ c (Proc.devRef .tc main_arg14) = m ((c : Thread nD τ).loc main_arg14) :=
  (W19_keep m ρ c main_arg14 (by decide)).trans (W18_arg14 m ρ c)
theorem W20_arg14 (c : Dev nD) : W20 m ρ c (Proc.devRef .tc main_arg14) = m ((c : Thread nD τ).loc main_arg14) :=
  (W20_of_ne m ρ c main_arg14 (by decide)).trans (W19_arg14 m ρ c)
theorem W21_arg14 (c : Dev nD) : W21 m ρ c (Proc.devRef .tc main_arg14) = m ((c : Thread nD τ).loc main_arg14) :=
  (W21_keep m ρ c main_arg14 (by decide)).trans (W20_arg14 m ρ c)
theorem W22_arg14 (c : Dev nD) : W22 m ρ c (Proc.devRef .tc main_arg14) = m ((c : Thread nD τ).loc main_arg14) :=
  (W22_keep m ρ c main_arg14 (by decide)).trans (W21_arg14 m ρ c)
theorem W23_arg14 (c : Dev nD) : W23 m ρ c (Proc.devRef .tc main_arg14) = m ((c : Thread nD τ).loc main_arg14) :=
  (W23_keep m ρ c main_arg14 (by decide)).trans (W22_arg14 m ρ c)
theorem W24_arg14 (c : Dev nD) : W24 m ρ c (Proc.devRef .tc main_arg14) = m ((c : Thread nD τ).loc main_arg14) :=
  (W24_keep m ρ c main_arg14 (by decide)).trans (W23_arg14 m ρ c)
theorem W25_arg14 (c : Dev nD) : W25 m ρ c (Proc.devRef .tc main_arg14) = m ((c : Thread nD τ).loc main_arg14) :=
  (W25_keep m ρ c main_arg14 (by decide)).trans (W24_arg14 m ρ c)
theorem W26_arg14 (c : Dev nD) : W26 m ρ c (Proc.devRef .tc main_arg14) = m ((c : Thread nD τ).loc main_arg14) :=
  (W26_of_ne m ρ c main_arg14 (by decide)).trans (W25_arg14 m ρ c)
theorem W27_arg14 (c : Dev nD) : W27 m ρ c (Proc.devRef .tc main_arg14) = m ((c : Thread nD τ).loc main_arg14) :=
  (W27_keep m ρ c main_arg14 (by decide)).trans (W26_arg14 m ρ c)
theorem W28_arg14 (c : Dev nD) : W28 m ρ c (Proc.devRef .tc main_arg14) = m ((c : Thread nD τ).loc main_arg14) :=
  (W28_keep m ρ c main_arg14 (by decide)).trans (W27_arg14 m ρ c)
theorem W29_arg14 (c : Dev nD) : W29 m ρ c (Proc.devRef .tc main_arg14) = m ((c : Thread nD τ).loc main_arg14) :=
  (W29_keep m ρ c main_arg14 (by decide)).trans (W28_arg14 m ρ c)
theorem W30_arg14 (c : Dev nD) : W30 m ρ c (Proc.devRef .tc main_arg14) = m ((c : Thread nD τ).loc main_arg14) :=
  (W30_keep m ρ c main_arg14 (by decide)).trans (W29_arg14 m ρ c)
theorem W31_arg14 (c : Dev nD) : W31 m ρ c (Proc.devRef .tc main_arg14) = m ((c : Thread nD τ).loc main_arg14) :=
  (W31_keep m ρ c main_arg14 (by decide)).trans (W30_arg14 m ρ c)
theorem W32_arg14 (c : Dev nD) : W32 m ρ c (Proc.devRef .tc main_arg14) = m ((c : Thread nD τ).loc main_arg14) :=
  (W32_of_ne m ρ c main_arg14 (by decide)).trans (W31_arg14 m ρ c)
theorem W33_arg14 (c : Dev nD) : W33 m ρ c (Proc.devRef .tc main_arg14) = m ((c : Thread nD τ).loc main_arg14) :=
  (W33_keep m ρ c main_arg14 (by decide)).trans (W32_arg14 m ρ c)
theorem W34_arg14 (c : Dev nD) : W34 m ρ c (Proc.devRef .tc main_arg14) = m ((c : Thread nD τ).loc main_arg14) :=
  (W34_keep m ρ c main_arg14 (by decide)).trans (W33_arg14 m ρ c)
theorem W35_arg14 (c : Dev nD) : W35 m ρ c (Proc.devRef .tc main_arg14) = m ((c : Thread nD τ).loc main_arg14) :=
  (W35_keep m ρ c main_arg14 (by decide)).trans (W34_arg14 m ρ c)
theorem W36_arg14 (c : Dev nD) : W36 m ρ c (Proc.devRef .tc main_arg14) = m ((c : Thread nD τ).loc main_arg14) :=
  (W36_keep m ρ c main_arg14 (by decide)).trans (W35_arg14 m ρ c)
theorem W37_arg14 (c : Dev nD) : W37 m ρ c (Proc.devRef .tc main_arg14) = m ((c : Thread nD τ).loc main_arg14) :=
  (W37_keep m ρ c main_arg14 (by decide)).trans (W36_arg14 m ρ c)
theorem W38_arg14 (c : Dev nD) : W38 m ρ c (Proc.devRef .tc main_arg14) = m ((c : Thread nD τ).loc main_arg14) :=
  (W38_of_ne m ρ c main_arg14 (by decide)).trans (W37_arg14 m ρ c)
theorem W39_arg14 (c : Dev nD) : W39 m ρ c (Proc.devRef .tc main_arg14) = m ((c : Thread nD τ).loc main_arg14) :=
  (W39_keep m ρ c main_arg14 (by decide)).trans (W38_arg14 m ρ c)
theorem W40_arg14 (c : Dev nD) : W40 m ρ c (Proc.devRef .tc main_arg14) = m ((c : Thread nD τ).loc main_arg14) :=
  (W40_keep m ρ c main_arg14 (by decide)).trans (W39_arg14 m ρ c)
theorem W41_arg14 (c : Dev nD) : W41 m ρ c (Proc.devRef .tc main_arg14) = m ((c : Thread nD τ).loc main_arg14) :=
  (W41_keep m ρ c main_arg14 (by decide)).trans (W40_arg14 m ρ c)
theorem W42_arg14 (c : Dev nD) : W42 m ρ c (Proc.devRef .tc main_arg14) = m ((c : Thread nD τ).loc main_arg14) :=
  (W42_keep m ρ c main_arg14 (by decide)).trans (W41_arg14 m ρ c)
theorem W43_arg14 (c : Dev nD) : W43 m ρ c (Proc.devRef .tc main_arg14) = m ((c : Thread nD τ).loc main_arg14) :=
  (W43_keep m ρ c main_arg14 (by decide)).trans (W42_arg14 m ρ c)
theorem W44_arg14 (c : Dev nD) : W44 m ρ c (Proc.devRef .tc main_arg14) = m ((c : Thread nD τ).loc main_arg14) :=
  (W44_of_ne m ρ c main_arg14 (by decide)).trans (W43_arg14 m ρ c)
theorem W45_arg14 (c : Dev nD) : W45 m ρ c (Proc.devRef .tc main_arg14) = m ((c : Thread nD τ).loc main_arg14) :=
  (W45_keep m ρ c main_arg14 (by decide)).trans (W44_arg14 m ρ c)
theorem W46_arg14 (c : Dev nD) : W46 m ρ c (Proc.devRef .tc main_arg14) = m ((c : Thread nD τ).loc main_arg14) :=
  (W46_of_ne m ρ c main_arg14 (by decide)).trans (W45_arg14 m ρ c)
theorem W47_arg14 (c : Dev nD) : W47 m ρ c (Proc.devRef .tc main_arg14) = m ((c : Thread nD τ).loc main_arg14) :=
  (W47_keep m ρ c main_arg14 (by decide)).trans (W46_arg14 m ρ c)
theorem W48_arg14 (c : Dev nD) : W48 m ρ c (Proc.devRef .tc main_arg14) = m ((c : Thread nD τ).loc main_arg14) :=
  (W48_of_ne m ρ c main_arg14 (by decide)).trans (W47_arg14 m ρ c)
theorem W49_arg14 (c : Dev nD) : W49 m ρ c (Proc.devRef .tc main_arg14) = m ((c : Thread nD τ).loc main_arg14) :=
  (W49_keep m ρ c main_arg14 (by decide)).trans (W48_arg14 m ρ c)
theorem W50_arg14 (c : Dev nD) : W50 m ρ c (Proc.devRef .tc main_arg14) = m ((c : Thread nD τ).loc main_arg14) :=
  (W50_of_ne m ρ c main_arg14 (by decide)).trans (W49_arg14 m ρ c)
theorem W51_arg14 (c : Dev nD) : W51 m ρ c (Proc.devRef .tc main_arg14) = m ((c : Thread nD τ).loc main_arg14) :=
  (W51_keep m ρ c main_arg14 (by decide)).trans (W50_arg14 m ρ c)
theorem W52_arg14 (c : Dev nD) : W52 m ρ c (Proc.devRef .tc main_arg14) = m ((c : Thread nD τ).loc main_arg14) :=
  (W52_keep m ρ c main_arg14 (by decide)).trans (W51_arg14 m ρ c)
theorem W53_arg14 (c : Dev nD) : W53 m ρ c (Proc.devRef .tc main_arg14) = m ((c : Thread nD τ).loc main_arg14) :=
  (W53_keep m ρ c main_arg14 (by decide)).trans (W52_arg14 m ρ c)
theorem W54_arg14 (c : Dev nD) : W54 m ρ c (Proc.devRef .tc main_arg14) = m ((c : Thread nD τ).loc main_arg14) :=
  (W54_keep m ρ c main_arg14 (by decide)).trans (W53_arg14 m ρ c)
theorem W55_arg14 (c : Dev nD) : W55 m ρ c (Proc.devRef .tc main_arg14) = m ((c : Thread nD τ).loc main_arg14) :=
  (W55_keep m ρ c main_arg14 (by decide)).trans (W54_arg14 m ρ c)
theorem W56_arg14 (c : Dev nD) : W56 m ρ c (Proc.devRef .tc main_arg14) = m ((c : Thread nD τ).loc main_arg14) :=
  (W56_of_ne m ρ c main_arg14 (by decide)).trans (W55_arg14 m ρ c)
theorem W57_arg14 (c : Dev nD) : W57 m ρ c (Proc.devRef .tc main_arg14) = m ((c : Thread nD τ).loc main_arg14) :=
  (W57_keep m ρ c main_arg14 (by decide)).trans (W56_arg14 m ρ c)
theorem W58_arg14 (c : Dev nD) : W58 m ρ c (Proc.devRef .tc main_arg14) = m ((c : Thread nD τ).loc main_arg14) :=
  (W58_keep m ρ c main_arg14 (by decide)).trans (W57_arg14 m ρ c)
theorem W59_arg14 (c : Dev nD) : W59 m ρ c (Proc.devRef .tc main_arg14) = m ((c : Thread nD τ).loc main_arg14) :=
  (W59_keep m ρ c main_arg14 (by decide)).trans (W58_arg14 m ρ c)
theorem W60_arg14 (c : Dev nD) : W60 m ρ c (Proc.devRef .tc main_arg14) = m ((c : Thread nD τ).loc main_arg14) :=
  (W60_keep m ρ c main_arg14 (by decide)).trans (W59_arg14 m ρ c)
theorem W61_arg14 (c : Dev nD) : W61 m ρ c (Proc.devRef .tc main_arg14) = m ((c : Thread nD τ).loc main_arg14) :=
  (W61_keep m ρ c main_arg14 (by decide)).trans (W60_arg14 m ρ c)
theorem W62_arg14 (c : Dev nD) : W62 m ρ c (Proc.devRef .tc main_arg14) = m ((c : Thread nD τ).loc main_arg14) :=
  (W62_of_ne m ρ c main_arg14 (by decide)).trans (W61_arg14 m ρ c)
theorem W63_arg14 (c : Dev nD) : W63 m ρ c (Proc.devRef .tc main_arg14) = m ((c : Thread nD τ).loc main_arg14) :=
  (W63_keep m ρ c main_arg14 (by decide)).trans (W62_arg14 m ρ c)
theorem W64_arg14 (c : Dev nD) : W64 m ρ c (Proc.devRef .tc main_arg14) = m ((c : Thread nD τ).loc main_arg14) :=
  (W64_keep m ρ c main_arg14 (by decide)).trans (W63_arg14 m ρ c)
theorem W65_arg14 (c : Dev nD) : W65 m ρ c (Proc.devRef .tc main_arg14) = m ((c : Thread nD τ).loc main_arg14) :=
  (W65_keep m ρ c main_arg14 (by decide)).trans (W64_arg14 m ρ c)
theorem W66_arg14 (c : Dev nD) : W66 m ρ c (Proc.devRef .tc main_arg14) = m ((c : Thread nD τ).loc main_arg14) :=
  (W66_keep m ρ c main_arg14 (by decide)).trans (W65_arg14 m ρ c)
theorem W67_arg14 (c : Dev nD) : W67 m ρ c (Proc.devRef .tc main_arg14) = m ((c : Thread nD τ).loc main_arg14) :=
  (W67_keep m ρ c main_arg14 (by decide)).trans (W66_arg14 m ρ c)
theorem W68_arg14 (c : Dev nD) : W68 m ρ c (Proc.devRef .tc main_arg14) = m ((c : Thread nD τ).loc main_arg14) :=
  (W68_of_ne m ρ c main_arg14 (by decide)).trans (W67_arg14 m ρ c)
theorem W69_arg14 (c : Dev nD) : W69 m ρ c (Proc.devRef .tc main_arg14) = m ((c : Thread nD τ).loc main_arg14) :=
  (W69_keep m ρ c main_arg14 (by decide)).trans (W68_arg14 m ρ c)
theorem W70_arg14 (c : Dev nD) : W70 m ρ c (Proc.devRef .tc main_arg14) = m ((c : Thread nD τ).loc main_arg14) :=
  (W70_keep m ρ c main_arg14 (by decide)).trans (W69_arg14 m ρ c)
theorem W71_arg14 (c : Dev nD) : W71 m ρ c (Proc.devRef .tc main_arg14) = m ((c : Thread nD τ).loc main_arg14) :=
  (W71_keep m ρ c main_arg14 (by decide)).trans (W70_arg14 m ρ c)
theorem W72_arg14 (c : Dev nD) : W72 m ρ c (Proc.devRef .tc main_arg14) = m ((c : Thread nD τ).loc main_arg14) :=
  (W72_keep m ρ c main_arg14 (by decide)).trans (W71_arg14 m ρ c)
theorem W73_arg14 (c : Dev nD) : W73 m ρ c (Proc.devRef .tc main_arg14) = m ((c : Thread nD τ).loc main_arg14) :=
  (W73_keep m ρ c main_arg14 (by decide)).trans (W72_arg14 m ρ c)
theorem W74_arg14 (c : Dev nD) : W74 m ρ c (Proc.devRef .tc main_arg14) = m ((c : Thread nD τ).loc main_arg14) :=
  (W74_of_ne m ρ c main_arg14 (by decide)).trans (W73_arg14 m ρ c)
theorem W75_arg14 (c : Dev nD) : W75 m ρ c (Proc.devRef .tc main_arg14) = m ((c : Thread nD τ).loc main_arg14) :=
  (W75_keep m ρ c main_arg14 (by decide)).trans (W74_arg14 m ρ c)
theorem W76_arg14 (c : Dev nD) : W76 m ρ c (Proc.devRef .tc main_arg14) = m ((c : Thread nD τ).loc main_arg14) :=
  (W76_keep m ρ c main_arg14 (by decide)).trans (W75_arg14 m ρ c)
theorem W77_arg14 (c : Dev nD) : W77 m ρ c (Proc.devRef .tc main_arg14) = m ((c : Thread nD τ).loc main_arg14) :=
  (W77_keep m ρ c main_arg14 (by decide)).trans (W76_arg14 m ρ c)
theorem W78_arg14 (c : Dev nD) : W78 m ρ c (Proc.devRef .tc main_arg14) = m ((c : Thread nD τ).loc main_arg14) :=
  (W78_keep m ρ c main_arg14 (by decide)).trans (W77_arg14 m ρ c)
theorem W79_arg14 (c : Dev nD) : W79 m ρ c (Proc.devRef .tc main_arg14) = m ((c : Thread nD τ).loc main_arg14) :=
  (W79_keep m ρ c main_arg14 (by decide)).trans (W78_arg14 m ρ c)
theorem W80_arg14 (c : Dev nD) : W80 m ρ c (Proc.devRef .tc main_arg14) = m ((c : Thread nD τ).loc main_arg14) :=
  (W80_of_ne m ρ c main_arg14 (by decide)).trans (W79_arg14 m ρ c)
theorem W81_arg14 (c : Dev nD) : W81 m ρ c (Proc.devRef .tc main_arg14) = m ((c : Thread nD τ).loc main_arg14) :=
  (W81_keep m ρ c main_arg14 (by decide)).trans (W80_arg14 m ρ c)
theorem W82_arg14 (c : Dev nD) : W82 m ρ c (Proc.devRef .tc main_arg14) = m ((c : Thread nD τ).loc main_arg14) :=
  (W82_keep m ρ c main_arg14 (by decide)).trans (W81_arg14 m ρ c)
theorem W83_arg14 (c : Dev nD) : W83 m ρ c (Proc.devRef .tc main_arg14) = m ((c : Thread nD τ).loc main_arg14) :=
  (W83_keep m ρ c main_arg14 (by decide)).trans (W82_arg14 m ρ c)
theorem W84_arg14 (c : Dev nD) : W84 m ρ c (Proc.devRef .tc main_arg14) = m ((c : Thread nD τ).loc main_arg14) :=
  (W84_keep m ρ c main_arg14 (by decide)).trans (W83_arg14 m ρ c)
theorem W85_arg14 (c : Dev nD) : W85 m ρ c (Proc.devRef .tc main_arg14) = m ((c : Thread nD τ).loc main_arg14) :=
  (W85_keep m ρ c main_arg14 (by decide)).trans (W84_arg14 m ρ c)
theorem W86_arg14 (c : Dev nD) : W86 m ρ c (Proc.devRef .tc main_arg14) = m ((c : Thread nD τ).loc main_arg14) :=
  (W86_of_ne m ρ c main_arg14 (by decide)).trans (W85_arg14 m ρ c)
theorem W87_arg14 (c : Dev nD) : W87 m ρ c (Proc.devRef .tc main_arg14) = m ((c : Thread nD τ).loc main_arg14) :=
  (W87_keep m ρ c main_arg14 (by decide)).trans (W86_arg14 m ρ c)
theorem W88_arg14 (c : Dev nD) : W88 m ρ c (Proc.devRef .tc main_arg14) = m ((c : Thread nD τ).loc main_arg14) :=
  (W88_of_ne m ρ c main_arg14 (by decide)).trans (W87_arg14 m ρ c)
theorem W89_arg14 (c : Dev nD) : W89 m ρ c (Proc.devRef .tc main_arg14) = m ((c : Thread nD τ).loc main_arg14) :=
  (W89_keep m ρ c main_arg14 (by decide)).trans (W88_arg14 m ρ c)
theorem W90_arg14 (c : Dev nD) : W90 m ρ c (Proc.devRef .tc main_arg14) = m ((c : Thread nD τ).loc main_arg14) :=
  (W90_of_ne m ρ c main_arg14 (by decide)).trans (W89_arg14 m ρ c)
theorem W0_arg15 (c : Dev nD) : W0 m ρ c (Proc.devRef .tc main_arg15) = m ((c : Thread nD τ).loc main_arg15) := rfl
theorem W1_arg15 (c : Dev nD) : W1 m ρ c (Proc.devRef .tc main_arg15) = m ((c : Thread nD τ).loc main_arg15) :=
  (W1_keep m ρ c main_arg15 (by decide)).trans (W0_arg15 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W3_arg15 (c : Dev nD) : W3 m ρ c (Proc.devRef .tc main_arg15) = m ((c : Thread nD τ).loc main_arg15) :=
  (W3_keep m ρ c main_arg15 (by decide)).trans (W2_arg15 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W5_arg15 (c : Dev nD) : W5 m ρ c (Proc.devRef .tc main_arg15) = m ((c : Thread nD τ).loc main_arg15) :=
  (W5_keep m ρ c main_arg15 (by decide)).trans (W4_arg15 m ρ c)
theorem W6_arg15 (c : Dev nD) : W6 m ρ c (Proc.devRef .tc main_arg15) = m ((c : Thread nD τ).loc main_arg15) :=
  (W6_of_ne m ρ c main_arg15 (by decide)).trans (W5_arg15 m ρ c)
theorem W7_arg15 (c : Dev nD) : W7 m ρ c (Proc.devRef .tc main_arg15) = m ((c : Thread nD τ).loc main_arg15) :=
  (W7_keep m ρ c main_arg15 (by decide)).trans (W6_arg15 m ρ c)
theorem W8_arg15 (c : Dev nD) : W8 m ρ c (Proc.devRef .tc main_arg15) = m ((c : Thread nD τ).loc main_arg15) :=
  (W8_of_ne m ρ c main_arg15 (by decide)).trans (W7_arg15 m ρ c)
theorem W9_arg15 (c : Dev nD) : W9 m ρ c (Proc.devRef .tc main_arg15) = m ((c : Thread nD τ).loc main_arg15) :=
  (W9_keep m ρ c main_arg15 (by decide)).trans (W8_arg15 m ρ c)
theorem W10_arg15 (c : Dev nD) : W10 m ρ c (Proc.devRef .tc main_arg15) = m ((c : Thread nD τ).loc main_arg15) :=
  (W10_keep m ρ c main_arg15 (by decide)).trans (W9_arg15 m ρ c)
theorem W11_arg15 (c : Dev nD) : W11 m ρ c (Proc.devRef .tc main_arg15) = m ((c : Thread nD τ).loc main_arg15) :=
  (W11_keep m ρ c main_arg15 (by decide)).trans (W10_arg15 m ρ c)
theorem W12_arg15 (c : Dev nD) : W12 m ρ c (Proc.devRef .tc main_arg15) = m ((c : Thread nD τ).loc main_arg15) :=
  (W12_keep m ρ c main_arg15 (by decide)).trans (W11_arg15 m ρ c)
theorem W13_arg15 (c : Dev nD) : W13 m ρ c (Proc.devRef .tc main_arg15) = m ((c : Thread nD τ).loc main_arg15) :=
  (W13_keep m ρ c main_arg15 (by decide)).trans (W12_arg15 m ρ c)
theorem W14_arg15 (c : Dev nD) : W14 m ρ c (Proc.devRef .tc main_arg15) = m ((c : Thread nD τ).loc main_arg15) :=
  (W14_of_ne m ρ c main_arg15 (by decide)).trans (W13_arg15 m ρ c)
theorem W15_arg15 (c : Dev nD) : W15 m ρ c (Proc.devRef .tc main_arg15) = m ((c : Thread nD τ).loc main_arg15) :=
  (W15_keep m ρ c main_arg15 (by decide)).trans (W14_arg15 m ρ c)
theorem W16_arg15 (c : Dev nD) : W16 m ρ c (Proc.devRef .tc main_arg15) = m ((c : Thread nD τ).loc main_arg15) :=
  (W16_keep m ρ c main_arg15 (by decide)).trans (W15_arg15 m ρ c)
theorem W17_arg15 (c : Dev nD) : W17 m ρ c (Proc.devRef .tc main_arg15) = m ((c : Thread nD τ).loc main_arg15) :=
  (W17_keep m ρ c main_arg15 (by decide)).trans (W16_arg15 m ρ c)
theorem W18_arg15 (c : Dev nD) : W18 m ρ c (Proc.devRef .tc main_arg15) = m ((c : Thread nD τ).loc main_arg15) :=
  (W18_keep m ρ c main_arg15 (by decide)).trans (W17_arg15 m ρ c)
theorem W19_arg15 (c : Dev nD) : W19 m ρ c (Proc.devRef .tc main_arg15) = m ((c : Thread nD τ).loc main_arg15) :=
  (W19_keep m ρ c main_arg15 (by decide)).trans (W18_arg15 m ρ c)
theorem W20_arg15 (c : Dev nD) : W20 m ρ c (Proc.devRef .tc main_arg15) = m ((c : Thread nD τ).loc main_arg15) :=
  (W20_of_ne m ρ c main_arg15 (by decide)).trans (W19_arg15 m ρ c)
theorem W21_arg15 (c : Dev nD) : W21 m ρ c (Proc.devRef .tc main_arg15) = m ((c : Thread nD τ).loc main_arg15) :=
  (W21_keep m ρ c main_arg15 (by decide)).trans (W20_arg15 m ρ c)
theorem W22_arg15 (c : Dev nD) : W22 m ρ c (Proc.devRef .tc main_arg15) = m ((c : Thread nD τ).loc main_arg15) :=
  (W22_keep m ρ c main_arg15 (by decide)).trans (W21_arg15 m ρ c)
theorem W23_arg15 (c : Dev nD) : W23 m ρ c (Proc.devRef .tc main_arg15) = m ((c : Thread nD τ).loc main_arg15) :=
  (W23_keep m ρ c main_arg15 (by decide)).trans (W22_arg15 m ρ c)
theorem W24_arg15 (c : Dev nD) : W24 m ρ c (Proc.devRef .tc main_arg15) = m ((c : Thread nD τ).loc main_arg15) :=
  (W24_keep m ρ c main_arg15 (by decide)).trans (W23_arg15 m ρ c)
theorem W25_arg15 (c : Dev nD) : W25 m ρ c (Proc.devRef .tc main_arg15) = m ((c : Thread nD τ).loc main_arg15) :=
  (W25_keep m ρ c main_arg15 (by decide)).trans (W24_arg15 m ρ c)
theorem W26_arg15 (c : Dev nD) : W26 m ρ c (Proc.devRef .tc main_arg15) = m ((c : Thread nD τ).loc main_arg15) :=
  (W26_of_ne m ρ c main_arg15 (by decide)).trans (W25_arg15 m ρ c)
theorem W27_arg15 (c : Dev nD) : W27 m ρ c (Proc.devRef .tc main_arg15) = m ((c : Thread nD τ).loc main_arg15) :=
  (W27_keep m ρ c main_arg15 (by decide)).trans (W26_arg15 m ρ c)
theorem W28_arg15 (c : Dev nD) : W28 m ρ c (Proc.devRef .tc main_arg15) = m ((c : Thread nD τ).loc main_arg15) :=
  (W28_keep m ρ c main_arg15 (by decide)).trans (W27_arg15 m ρ c)
theorem W29_arg15 (c : Dev nD) : W29 m ρ c (Proc.devRef .tc main_arg15) = m ((c : Thread nD τ).loc main_arg15) :=
  (W29_keep m ρ c main_arg15 (by decide)).trans (W28_arg15 m ρ c)
theorem W30_arg15 (c : Dev nD) : W30 m ρ c (Proc.devRef .tc main_arg15) = m ((c : Thread nD τ).loc main_arg15) :=
  (W30_keep m ρ c main_arg15 (by decide)).trans (W29_arg15 m ρ c)
theorem W31_arg15 (c : Dev nD) : W31 m ρ c (Proc.devRef .tc main_arg15) = m ((c : Thread nD τ).loc main_arg15) :=
  (W31_keep m ρ c main_arg15 (by decide)).trans (W30_arg15 m ρ c)
theorem W32_arg15 (c : Dev nD) : W32 m ρ c (Proc.devRef .tc main_arg15) = m ((c : Thread nD τ).loc main_arg15) :=
  (W32_of_ne m ρ c main_arg15 (by decide)).trans (W31_arg15 m ρ c)
theorem W33_arg15 (c : Dev nD) : W33 m ρ c (Proc.devRef .tc main_arg15) = m ((c : Thread nD τ).loc main_arg15) :=
  (W33_keep m ρ c main_arg15 (by decide)).trans (W32_arg15 m ρ c)
theorem W34_arg15 (c : Dev nD) : W34 m ρ c (Proc.devRef .tc main_arg15) = m ((c : Thread nD τ).loc main_arg15) :=
  (W34_keep m ρ c main_arg15 (by decide)).trans (W33_arg15 m ρ c)
theorem W35_arg15 (c : Dev nD) : W35 m ρ c (Proc.devRef .tc main_arg15) = m ((c : Thread nD τ).loc main_arg15) :=
  (W35_keep m ρ c main_arg15 (by decide)).trans (W34_arg15 m ρ c)
theorem W36_arg15 (c : Dev nD) : W36 m ρ c (Proc.devRef .tc main_arg15) = m ((c : Thread nD τ).loc main_arg15) :=
  (W36_keep m ρ c main_arg15 (by decide)).trans (W35_arg15 m ρ c)
theorem W37_arg15 (c : Dev nD) : W37 m ρ c (Proc.devRef .tc main_arg15) = m ((c : Thread nD τ).loc main_arg15) :=
  (W37_keep m ρ c main_arg15 (by decide)).trans (W36_arg15 m ρ c)
theorem W38_arg15 (c : Dev nD) : W38 m ρ c (Proc.devRef .tc main_arg15) = m ((c : Thread nD τ).loc main_arg15) :=
  (W38_of_ne m ρ c main_arg15 (by decide)).trans (W37_arg15 m ρ c)
theorem W39_arg15 (c : Dev nD) : W39 m ρ c (Proc.devRef .tc main_arg15) = m ((c : Thread nD τ).loc main_arg15) :=
  (W39_keep m ρ c main_arg15 (by decide)).trans (W38_arg15 m ρ c)
theorem W40_arg15 (c : Dev nD) : W40 m ρ c (Proc.devRef .tc main_arg15) = m ((c : Thread nD τ).loc main_arg15) :=
  (W40_keep m ρ c main_arg15 (by decide)).trans (W39_arg15 m ρ c)
theorem W41_arg15 (c : Dev nD) : W41 m ρ c (Proc.devRef .tc main_arg15) = m ((c : Thread nD τ).loc main_arg15) :=
  (W41_keep m ρ c main_arg15 (by decide)).trans (W40_arg15 m ρ c)
theorem W42_arg15 (c : Dev nD) : W42 m ρ c (Proc.devRef .tc main_arg15) = m ((c : Thread nD τ).loc main_arg15) :=
  (W42_keep m ρ c main_arg15 (by decide)).trans (W41_arg15 m ρ c)
theorem W43_arg15 (c : Dev nD) : W43 m ρ c (Proc.devRef .tc main_arg15) = m ((c : Thread nD τ).loc main_arg15) :=
  (W43_keep m ρ c main_arg15 (by decide)).trans (W42_arg15 m ρ c)
theorem W44_arg15 (c : Dev nD) : W44 m ρ c (Proc.devRef .tc main_arg15) = m ((c : Thread nD τ).loc main_arg15) :=
  (W44_of_ne m ρ c main_arg15 (by decide)).trans (W43_arg15 m ρ c)
theorem W45_arg15 (c : Dev nD) : W45 m ρ c (Proc.devRef .tc main_arg15) = m ((c : Thread nD τ).loc main_arg15) :=
  (W45_keep m ρ c main_arg15 (by decide)).trans (W44_arg15 m ρ c)
theorem W46_arg15 (c : Dev nD) : W46 m ρ c (Proc.devRef .tc main_arg15) = m ((c : Thread nD τ).loc main_arg15) :=
  (W46_of_ne m ρ c main_arg15 (by decide)).trans (W45_arg15 m ρ c)
theorem W47_arg15 (c : Dev nD) : W47 m ρ c (Proc.devRef .tc main_arg15) = m ((c : Thread nD τ).loc main_arg15) :=
  (W47_keep m ρ c main_arg15 (by decide)).trans (W46_arg15 m ρ c)
theorem W48_arg15 (c : Dev nD) : W48 m ρ c (Proc.devRef .tc main_arg15) = m ((c : Thread nD τ).loc main_arg15) :=
  (W48_of_ne m ρ c main_arg15 (by decide)).trans (W47_arg15 m ρ c)
theorem W49_arg15 (c : Dev nD) : W49 m ρ c (Proc.devRef .tc main_arg15) = m ((c : Thread nD τ).loc main_arg15) :=
  (W49_keep m ρ c main_arg15 (by decide)).trans (W48_arg15 m ρ c)
theorem W50_arg15 (c : Dev nD) : W50 m ρ c (Proc.devRef .tc main_arg15) = m ((c : Thread nD τ).loc main_arg15) :=
  (W50_of_ne m ρ c main_arg15 (by decide)).trans (W49_arg15 m ρ c)
theorem W51_arg15 (c : Dev nD) : W51 m ρ c (Proc.devRef .tc main_arg15) = m ((c : Thread nD τ).loc main_arg15) :=
  (W51_keep m ρ c main_arg15 (by decide)).trans (W50_arg15 m ρ c)
theorem W52_arg15 (c : Dev nD) : W52 m ρ c (Proc.devRef .tc main_arg15) = m ((c : Thread nD τ).loc main_arg15) :=
  (W52_keep m ρ c main_arg15 (by decide)).trans (W51_arg15 m ρ c)
theorem W53_arg15 (c : Dev nD) : W53 m ρ c (Proc.devRef .tc main_arg15) = m ((c : Thread nD τ).loc main_arg15) :=
  (W53_keep m ρ c main_arg15 (by decide)).trans (W52_arg15 m ρ c)
theorem W54_arg15 (c : Dev nD) : W54 m ρ c (Proc.devRef .tc main_arg15) = m ((c : Thread nD τ).loc main_arg15) :=
  (W54_keep m ρ c main_arg15 (by decide)).trans (W53_arg15 m ρ c)
theorem W55_arg15 (c : Dev nD) : W55 m ρ c (Proc.devRef .tc main_arg15) = m ((c : Thread nD τ).loc main_arg15) :=
  (W55_keep m ρ c main_arg15 (by decide)).trans (W54_arg15 m ρ c)
theorem W56_arg15 (c : Dev nD) : W56 m ρ c (Proc.devRef .tc main_arg15) = m ((c : Thread nD τ).loc main_arg15) :=
  (W56_of_ne m ρ c main_arg15 (by decide)).trans (W55_arg15 m ρ c)
theorem W57_arg15 (c : Dev nD) : W57 m ρ c (Proc.devRef .tc main_arg15) = m ((c : Thread nD τ).loc main_arg15) :=
  (W57_keep m ρ c main_arg15 (by decide)).trans (W56_arg15 m ρ c)
theorem W58_arg15 (c : Dev nD) : W58 m ρ c (Proc.devRef .tc main_arg15) = m ((c : Thread nD τ).loc main_arg15) :=
  (W58_keep m ρ c main_arg15 (by decide)).trans (W57_arg15 m ρ c)
theorem W59_arg15 (c : Dev nD) : W59 m ρ c (Proc.devRef .tc main_arg15) = m ((c : Thread nD τ).loc main_arg15) :=
  (W59_keep m ρ c main_arg15 (by decide)).trans (W58_arg15 m ρ c)
theorem W60_arg15 (c : Dev nD) : W60 m ρ c (Proc.devRef .tc main_arg15) = m ((c : Thread nD τ).loc main_arg15) :=
  (W60_keep m ρ c main_arg15 (by decide)).trans (W59_arg15 m ρ c)
theorem W61_arg15 (c : Dev nD) : W61 m ρ c (Proc.devRef .tc main_arg15) = m ((c : Thread nD τ).loc main_arg15) :=
  (W61_keep m ρ c main_arg15 (by decide)).trans (W60_arg15 m ρ c)
theorem W62_arg15 (c : Dev nD) : W62 m ρ c (Proc.devRef .tc main_arg15) = m ((c : Thread nD τ).loc main_arg15) :=
  (W62_of_ne m ρ c main_arg15 (by decide)).trans (W61_arg15 m ρ c)
theorem W63_arg15 (c : Dev nD) : W63 m ρ c (Proc.devRef .tc main_arg15) = m ((c : Thread nD τ).loc main_arg15) :=
  (W63_keep m ρ c main_arg15 (by decide)).trans (W62_arg15 m ρ c)
theorem W64_arg15 (c : Dev nD) : W64 m ρ c (Proc.devRef .tc main_arg15) = m ((c : Thread nD τ).loc main_arg15) :=
  (W64_keep m ρ c main_arg15 (by decide)).trans (W63_arg15 m ρ c)
theorem W65_arg15 (c : Dev nD) : W65 m ρ c (Proc.devRef .tc main_arg15) = m ((c : Thread nD τ).loc main_arg15) :=
  (W65_keep m ρ c main_arg15 (by decide)).trans (W64_arg15 m ρ c)
theorem W66_arg15 (c : Dev nD) : W66 m ρ c (Proc.devRef .tc main_arg15) = m ((c : Thread nD τ).loc main_arg15) :=
  (W66_keep m ρ c main_arg15 (by decide)).trans (W65_arg15 m ρ c)
theorem W67_arg15 (c : Dev nD) : W67 m ρ c (Proc.devRef .tc main_arg15) = m ((c : Thread nD τ).loc main_arg15) :=
  (W67_keep m ρ c main_arg15 (by decide)).trans (W66_arg15 m ρ c)
theorem W68_arg15 (c : Dev nD) : W68 m ρ c (Proc.devRef .tc main_arg15) = m ((c : Thread nD τ).loc main_arg15) :=
  (W68_of_ne m ρ c main_arg15 (by decide)).trans (W67_arg15 m ρ c)
theorem W69_arg15 (c : Dev nD) : W69 m ρ c (Proc.devRef .tc main_arg15) = m ((c : Thread nD τ).loc main_arg15) :=
  (W69_keep m ρ c main_arg15 (by decide)).trans (W68_arg15 m ρ c)
theorem W70_arg15 (c : Dev nD) : W70 m ρ c (Proc.devRef .tc main_arg15) = m ((c : Thread nD τ).loc main_arg15) :=
  (W70_keep m ρ c main_arg15 (by decide)).trans (W69_arg15 m ρ c)
theorem W71_arg15 (c : Dev nD) : W71 m ρ c (Proc.devRef .tc main_arg15) = m ((c : Thread nD τ).loc main_arg15) :=
  (W71_keep m ρ c main_arg15 (by decide)).trans (W70_arg15 m ρ c)
theorem W72_arg15 (c : Dev nD) : W72 m ρ c (Proc.devRef .tc main_arg15) = m ((c : Thread nD τ).loc main_arg15) :=
  (W72_keep m ρ c main_arg15 (by decide)).trans (W71_arg15 m ρ c)
theorem W73_arg15 (c : Dev nD) : W73 m ρ c (Proc.devRef .tc main_arg15) = m ((c : Thread nD τ).loc main_arg15) :=
  (W73_keep m ρ c main_arg15 (by decide)).trans (W72_arg15 m ρ c)
theorem W74_arg15 (c : Dev nD) : W74 m ρ c (Proc.devRef .tc main_arg15) = m ((c : Thread nD τ).loc main_arg15) :=
  (W74_of_ne m ρ c main_arg15 (by decide)).trans (W73_arg15 m ρ c)
theorem W75_arg15 (c : Dev nD) : W75 m ρ c (Proc.devRef .tc main_arg15) = m ((c : Thread nD τ).loc main_arg15) :=
  (W75_keep m ρ c main_arg15 (by decide)).trans (W74_arg15 m ρ c)
theorem W76_arg15 (c : Dev nD) : W76 m ρ c (Proc.devRef .tc main_arg15) = m ((c : Thread nD τ).loc main_arg15) :=
  (W76_keep m ρ c main_arg15 (by decide)).trans (W75_arg15 m ρ c)
theorem W77_arg15 (c : Dev nD) : W77 m ρ c (Proc.devRef .tc main_arg15) = m ((c : Thread nD τ).loc main_arg15) :=
  (W77_keep m ρ c main_arg15 (by decide)).trans (W76_arg15 m ρ c)
theorem W78_arg15 (c : Dev nD) : W78 m ρ c (Proc.devRef .tc main_arg15) = m ((c : Thread nD τ).loc main_arg15) :=
  (W78_keep m ρ c main_arg15 (by decide)).trans (W77_arg15 m ρ c)
theorem W79_arg15 (c : Dev nD) : W79 m ρ c (Proc.devRef .tc main_arg15) = m ((c : Thread nD τ).loc main_arg15) :=
  (W79_keep m ρ c main_arg15 (by decide)).trans (W78_arg15 m ρ c)
theorem W80_arg15 (c : Dev nD) : W80 m ρ c (Proc.devRef .tc main_arg15) = m ((c : Thread nD τ).loc main_arg15) :=
  (W80_of_ne m ρ c main_arg15 (by decide)).trans (W79_arg15 m ρ c)
theorem W81_arg15 (c : Dev nD) : W81 m ρ c (Proc.devRef .tc main_arg15) = m ((c : Thread nD τ).loc main_arg15) :=
  (W81_keep m ρ c main_arg15 (by decide)).trans (W80_arg15 m ρ c)
theorem W82_arg15 (c : Dev nD) : W82 m ρ c (Proc.devRef .tc main_arg15) = m ((c : Thread nD τ).loc main_arg15) :=
  (W82_keep m ρ c main_arg15 (by decide)).trans (W81_arg15 m ρ c)
theorem W83_arg15 (c : Dev nD) : W83 m ρ c (Proc.devRef .tc main_arg15) = m ((c : Thread nD τ).loc main_arg15) :=
  (W83_keep m ρ c main_arg15 (by decide)).trans (W82_arg15 m ρ c)
theorem W84_arg15 (c : Dev nD) : W84 m ρ c (Proc.devRef .tc main_arg15) = m ((c : Thread nD τ).loc main_arg15) :=
  (W84_keep m ρ c main_arg15 (by decide)).trans (W83_arg15 m ρ c)
theorem W85_arg15 (c : Dev nD) : W85 m ρ c (Proc.devRef .tc main_arg15) = m ((c : Thread nD τ).loc main_arg15) :=
  (W85_keep m ρ c main_arg15 (by decide)).trans (W84_arg15 m ρ c)
theorem W86_arg15 (c : Dev nD) : W86 m ρ c (Proc.devRef .tc main_arg15) = m ((c : Thread nD τ).loc main_arg15) :=
  (W86_of_ne m ρ c main_arg15 (by decide)).trans (W85_arg15 m ρ c)
theorem W87_arg15 (c : Dev nD) : W87 m ρ c (Proc.devRef .tc main_arg15) = m ((c : Thread nD τ).loc main_arg15) :=
  (W87_keep m ρ c main_arg15 (by decide)).trans (W86_arg15 m ρ c)
theorem W88_arg15 (c : Dev nD) : W88 m ρ c (Proc.devRef .tc main_arg15) = m ((c : Thread nD τ).loc main_arg15) :=
  (W88_of_ne m ρ c main_arg15 (by decide)).trans (W87_arg15 m ρ c)
theorem W89_arg15 (c : Dev nD) : W89 m ρ c (Proc.devRef .tc main_arg15) = m ((c : Thread nD τ).loc main_arg15) :=
  (W89_keep m ρ c main_arg15 (by decide)).trans (W88_arg15 m ρ c)
theorem W90_arg15 (c : Dev nD) : W90 m ρ c (Proc.devRef .tc main_arg15) = m ((c : Thread nD τ).loc main_arg15) :=
  (W90_of_ne m ρ c main_arg15 (by decide)).trans (W89_arg15 m ρ c)

end Cert.KernelIdeal.Hand

end
-- ==== Proof.KFold.Args2.lean ====
/- The argument arrays main_arg16 .. main_arg22 along the fold: no host operation and no region writes an
   argument (a region that reads one through an input window leaves it as entered), so at every boundary an
   argument's buffer holds its launch contents. One step per boundary, each from the boundary before. -/
import proofs.«147021_j7619271983570_1_alg».proof.Proof.KFold.Keep

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem W0_arg16 (c : Dev nD) : W0 m ρ c (Proc.devRef .tc main_arg16) = m ((c : Thread nD τ).loc main_arg16) := rfl
theorem W1_arg16 (c : Dev nD) : W1 m ρ c (Proc.devRef .tc main_arg16) = m ((c : Thread nD τ).loc main_arg16) :=
  (W1_keep m ρ c main_arg16 (by decide)).trans (W0_arg16 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W3_arg16 (c : Dev nD) : W3 m ρ c (Proc.devRef .tc main_arg16) = m ((c : Thread nD τ).loc main_arg16) :=
  (W3_keep m ρ c main_arg16 (by decide)).trans (W2_arg16 m ρ c)
theorem W4_arg16 (c : Dev nD) : W4 m ρ c (Proc.devRef .tc main_arg16) = m ((c : Thread nD τ).loc main_arg16) :=
  (W4_of_ne m ρ c main_arg16 (by decide)).trans (W3_arg16 m ρ c)
theorem W5_arg16 (c : Dev nD) : W5 m ρ c (Proc.devRef .tc main_arg16) = m ((c : Thread nD τ).loc main_arg16) :=
  (W5_keep m ρ c main_arg16 (by decide)).trans (W4_arg16 m ρ c)
theorem W6_arg16 (c : Dev nD) : W6 m ρ c (Proc.devRef .tc main_arg16) = m ((c : Thread nD τ).loc main_arg16) :=
  (W6_of_ne m ρ c main_arg16 (by decide)).trans (W5_arg16 m ρ c)
theorem W7_arg16 (c : Dev nD) : W7 m ρ c (Proc.devRef .tc main_arg16) = m ((c : Thread nD τ).loc main_arg16) :=
  (W7_keep m ρ c main_arg16 (by decide)).trans (W6_arg16 m ρ c)
theorem W8_arg16 (c : Dev nD) : W8 m ρ c (Proc.devRef .tc main_arg16) = m ((c : Thread nD τ).loc main_arg16) :=
  (W8_of_ne m ρ c main_arg16 (by decide)).trans (W7_arg16 m ρ c)
theorem W9_arg16 (c : Dev nD) : W9 m ρ c (Proc.devRef .tc main_arg16) = m ((c : Thread nD τ).loc main_arg16) :=
  (W9_keep m ρ c main_arg16 (by decide)).trans (W8_arg16 m ρ c)
theorem W10_arg16 (c : Dev nD) : W10 m ρ c (Proc.devRef .tc main_arg16) = m ((c : Thread nD τ).loc main_arg16) :=
  (W10_keep m ρ c main_arg16 (by decide)).trans (W9_arg16 m ρ c)
theorem W11_arg16 (c : Dev nD) : W11 m ρ c (Proc.devRef .tc main_arg16) = m ((c : Thread nD τ).loc main_arg16) :=
  (W11_keep m ρ c main_arg16 (by decide)).trans (W10_arg16 m ρ c)
theorem W12_arg16 (c : Dev nD) : W12 m ρ c (Proc.devRef .tc main_arg16) = m ((c : Thread nD τ).loc main_arg16) :=
  (W12_keep m ρ c main_arg16 (by decide)).trans (W11_arg16 m ρ c)
theorem W13_arg16 (c : Dev nD) : W13 m ρ c (Proc.devRef .tc main_arg16) = m ((c : Thread nD τ).loc main_arg16) :=
  (W13_keep m ρ c main_arg16 (by decide)).trans (W12_arg16 m ρ c)
theorem W14_arg16 (c : Dev nD) : W14 m ρ c (Proc.devRef .tc main_arg16) = m ((c : Thread nD τ).loc main_arg16) :=
  (W14_of_ne m ρ c main_arg16 (by decide)).trans (W13_arg16 m ρ c)
theorem W15_arg16 (c : Dev nD) : W15 m ρ c (Proc.devRef .tc main_arg16) = m ((c : Thread nD τ).loc main_arg16) :=
  (W15_keep m ρ c main_arg16 (by decide)).trans (W14_arg16 m ρ c)
theorem W16_arg16 (c : Dev nD) : W16 m ρ c (Proc.devRef .tc main_arg16) = m ((c : Thread nD τ).loc main_arg16) :=
  (W16_keep m ρ c main_arg16 (by decide)).trans (W15_arg16 m ρ c)
theorem W17_arg16 (c : Dev nD) : W17 m ρ c (Proc.devRef .tc main_arg16) = m ((c : Thread nD τ).loc main_arg16) :=
  (W17_keep m ρ c main_arg16 (by decide)).trans (W16_arg16 m ρ c)
theorem W18_arg16 (c : Dev nD) : W18 m ρ c (Proc.devRef .tc main_arg16) = m ((c : Thread nD τ).loc main_arg16) :=
  (W18_keep m ρ c main_arg16 (by decide)).trans (W17_arg16 m ρ c)
theorem W19_arg16 (c : Dev nD) : W19 m ρ c (Proc.devRef .tc main_arg16) = m ((c : Thread nD τ).loc main_arg16) :=
  (W19_keep m ρ c main_arg16 (by decide)).trans (W18_arg16 m ρ c)
theorem W20_arg16 (c : Dev nD) : W20 m ρ c (Proc.devRef .tc main_arg16) = m ((c : Thread nD τ).loc main_arg16) :=
  (W20_of_ne m ρ c main_arg16 (by decide)).trans (W19_arg16 m ρ c)
theorem W21_arg16 (c : Dev nD) : W21 m ρ c (Proc.devRef .tc main_arg16) = m ((c : Thread nD τ).loc main_arg16) :=
  (W21_keep m ρ c main_arg16 (by decide)).trans (W20_arg16 m ρ c)
theorem W22_arg16 (c : Dev nD) : W22 m ρ c (Proc.devRef .tc main_arg16) = m ((c : Thread nD τ).loc main_arg16) :=
  (W22_keep m ρ c main_arg16 (by decide)).trans (W21_arg16 m ρ c)
theorem W23_arg16 (c : Dev nD) : W23 m ρ c (Proc.devRef .tc main_arg16) = m ((c : Thread nD τ).loc main_arg16) :=
  (W23_keep m ρ c main_arg16 (by decide)).trans (W22_arg16 m ρ c)
theorem W24_arg16 (c : Dev nD) : W24 m ρ c (Proc.devRef .tc main_arg16) = m ((c : Thread nD τ).loc main_arg16) :=
  (W24_keep m ρ c main_arg16 (by decide)).trans (W23_arg16 m ρ c)
theorem W25_arg16 (c : Dev nD) : W25 m ρ c (Proc.devRef .tc main_arg16) = m ((c : Thread nD τ).loc main_arg16) :=
  (W25_keep m ρ c main_arg16 (by decide)).trans (W24_arg16 m ρ c)
theorem W26_arg16 (c : Dev nD) : W26 m ρ c (Proc.devRef .tc main_arg16) = m ((c : Thread nD τ).loc main_arg16) :=
  (W26_of_ne m ρ c main_arg16 (by decide)).trans (W25_arg16 m ρ c)
theorem W27_arg16 (c : Dev nD) : W27 m ρ c (Proc.devRef .tc main_arg16) = m ((c : Thread nD τ).loc main_arg16) :=
  (W27_keep m ρ c main_arg16 (by decide)).trans (W26_arg16 m ρ c)
theorem W28_arg16 (c : Dev nD) : W28 m ρ c (Proc.devRef .tc main_arg16) = m ((c : Thread nD τ).loc main_arg16) :=
  (W28_keep m ρ c main_arg16 (by decide)).trans (W27_arg16 m ρ c)
theorem W29_arg16 (c : Dev nD) : W29 m ρ c (Proc.devRef .tc main_arg16) = m ((c : Thread nD τ).loc main_arg16) :=
  (W29_keep m ρ c main_arg16 (by decide)).trans (W28_arg16 m ρ c)
theorem W30_arg16 (c : Dev nD) : W30 m ρ c (Proc.devRef .tc main_arg16) = m ((c : Thread nD τ).loc main_arg16) :=
  (W30_keep m ρ c main_arg16 (by decide)).trans (W29_arg16 m ρ c)
theorem W31_arg16 (c : Dev nD) : W31 m ρ c (Proc.devRef .tc main_arg16) = m ((c : Thread nD τ).loc main_arg16) :=
  (W31_keep m ρ c main_arg16 (by decide)).trans (W30_arg16 m ρ c)
theorem W32_arg16 (c : Dev nD) : W32 m ρ c (Proc.devRef .tc main_arg16) = m ((c : Thread nD τ).loc main_arg16) :=
  (W32_of_ne m ρ c main_arg16 (by decide)).trans (W31_arg16 m ρ c)
theorem W33_arg16 (c : Dev nD) : W33 m ρ c (Proc.devRef .tc main_arg16) = m ((c : Thread nD τ).loc main_arg16) :=
  (W33_keep m ρ c main_arg16 (by decide)).trans (W32_arg16 m ρ c)
theorem W34_arg16 (c : Dev nD) : W34 m ρ c (Proc.devRef .tc main_arg16) = m ((c : Thread nD τ).loc main_arg16) :=
  (W34_keep m ρ c main_arg16 (by decide)).trans (W33_arg16 m ρ c)
theorem W35_arg16 (c : Dev nD) : W35 m ρ c (Proc.devRef .tc main_arg16) = m ((c : Thread nD τ).loc main_arg16) :=
  (W35_keep m ρ c main_arg16 (by decide)).trans (W34_arg16 m ρ c)
theorem W36_arg16 (c : Dev nD) : W36 m ρ c (Proc.devRef .tc main_arg16) = m ((c : Thread nD τ).loc main_arg16) :=
  (W36_keep m ρ c main_arg16 (by decide)).trans (W35_arg16 m ρ c)
theorem W37_arg16 (c : Dev nD) : W37 m ρ c (Proc.devRef .tc main_arg16) = m ((c : Thread nD τ).loc main_arg16) :=
  (W37_keep m ρ c main_arg16 (by decide)).trans (W36_arg16 m ρ c)
theorem W38_arg16 (c : Dev nD) : W38 m ρ c (Proc.devRef .tc main_arg16) = m ((c : Thread nD τ).loc main_arg16) :=
  (W38_of_ne m ρ c main_arg16 (by decide)).trans (W37_arg16 m ρ c)
theorem W39_arg16 (c : Dev nD) : W39 m ρ c (Proc.devRef .tc main_arg16) = m ((c : Thread nD τ).loc main_arg16) :=
  (W39_keep m ρ c main_arg16 (by decide)).trans (W38_arg16 m ρ c)
theorem W40_arg16 (c : Dev nD) : W40 m ρ c (Proc.devRef .tc main_arg16) = m ((c : Thread nD τ).loc main_arg16) :=
  (W40_keep m ρ c main_arg16 (by decide)).trans (W39_arg16 m ρ c)
theorem W41_arg16 (c : Dev nD) : W41 m ρ c (Proc.devRef .tc main_arg16) = m ((c : Thread nD τ).loc main_arg16) :=
  (W41_keep m ρ c main_arg16 (by decide)).trans (W40_arg16 m ρ c)
theorem W42_arg16 (c : Dev nD) : W42 m ρ c (Proc.devRef .tc main_arg16) = m ((c : Thread nD τ).loc main_arg16) :=
  (W42_keep m ρ c main_arg16 (by decide)).trans (W41_arg16 m ρ c)
theorem W43_arg16 (c : Dev nD) : W43 m ρ c (Proc.devRef .tc main_arg16) = m ((c : Thread nD τ).loc main_arg16) :=
  (W43_keep m ρ c main_arg16 (by decide)).trans (W42_arg16 m ρ c)
theorem W44_arg16 (c : Dev nD) : W44 m ρ c (Proc.devRef .tc main_arg16) = m ((c : Thread nD τ).loc main_arg16) :=
  (W44_of_ne m ρ c main_arg16 (by decide)).trans (W43_arg16 m ρ c)
theorem W45_arg16 (c : Dev nD) : W45 m ρ c (Proc.devRef .tc main_arg16) = m ((c : Thread nD τ).loc main_arg16) :=
  (W45_keep m ρ c main_arg16 (by decide)).trans (W44_arg16 m ρ c)
theorem W46_arg16 (c : Dev nD) : W46 m ρ c (Proc.devRef .tc main_arg16) = m ((c : Thread nD τ).loc main_arg16) :=
  (W46_of_ne m ρ c main_arg16 (by decide)).trans (W45_arg16 m ρ c)
theorem W47_arg16 (c : Dev nD) : W47 m ρ c (Proc.devRef .tc main_arg16) = m ((c : Thread nD τ).loc main_arg16) :=
  (W47_keep m ρ c main_arg16 (by decide)).trans (W46_arg16 m ρ c)
theorem W48_arg16 (c : Dev nD) : W48 m ρ c (Proc.devRef .tc main_arg16) = m ((c : Thread nD τ).loc main_arg16) :=
  (W48_of_ne m ρ c main_arg16 (by decide)).trans (W47_arg16 m ρ c)
theorem W49_arg16 (c : Dev nD) : W49 m ρ c (Proc.devRef .tc main_arg16) = m ((c : Thread nD τ).loc main_arg16) :=
  (W49_keep m ρ c main_arg16 (by decide)).trans (W48_arg16 m ρ c)
theorem W50_arg16 (c : Dev nD) : W50 m ρ c (Proc.devRef .tc main_arg16) = m ((c : Thread nD τ).loc main_arg16) :=
  (W50_of_ne m ρ c main_arg16 (by decide)).trans (W49_arg16 m ρ c)
theorem W51_arg16 (c : Dev nD) : W51 m ρ c (Proc.devRef .tc main_arg16) = m ((c : Thread nD τ).loc main_arg16) :=
  (W51_keep m ρ c main_arg16 (by decide)).trans (W50_arg16 m ρ c)
theorem W52_arg16 (c : Dev nD) : W52 m ρ c (Proc.devRef .tc main_arg16) = m ((c : Thread nD τ).loc main_arg16) :=
  (W52_keep m ρ c main_arg16 (by decide)).trans (W51_arg16 m ρ c)
theorem W53_arg16 (c : Dev nD) : W53 m ρ c (Proc.devRef .tc main_arg16) = m ((c : Thread nD τ).loc main_arg16) :=
  (W53_keep m ρ c main_arg16 (by decide)).trans (W52_arg16 m ρ c)
theorem W54_arg16 (c : Dev nD) : W54 m ρ c (Proc.devRef .tc main_arg16) = m ((c : Thread nD τ).loc main_arg16) :=
  (W54_keep m ρ c main_arg16 (by decide)).trans (W53_arg16 m ρ c)
theorem W55_arg16 (c : Dev nD) : W55 m ρ c (Proc.devRef .tc main_arg16) = m ((c : Thread nD τ).loc main_arg16) :=
  (W55_keep m ρ c main_arg16 (by decide)).trans (W54_arg16 m ρ c)
theorem W56_arg16 (c : Dev nD) : W56 m ρ c (Proc.devRef .tc main_arg16) = m ((c : Thread nD τ).loc main_arg16) :=
  (W56_of_ne m ρ c main_arg16 (by decide)).trans (W55_arg16 m ρ c)
theorem W57_arg16 (c : Dev nD) : W57 m ρ c (Proc.devRef .tc main_arg16) = m ((c : Thread nD τ).loc main_arg16) :=
  (W57_keep m ρ c main_arg16 (by decide)).trans (W56_arg16 m ρ c)
theorem W58_arg16 (c : Dev nD) : W58 m ρ c (Proc.devRef .tc main_arg16) = m ((c : Thread nD τ).loc main_arg16) :=
  (W58_keep m ρ c main_arg16 (by decide)).trans (W57_arg16 m ρ c)
theorem W59_arg16 (c : Dev nD) : W59 m ρ c (Proc.devRef .tc main_arg16) = m ((c : Thread nD τ).loc main_arg16) :=
  (W59_keep m ρ c main_arg16 (by decide)).trans (W58_arg16 m ρ c)
theorem W60_arg16 (c : Dev nD) : W60 m ρ c (Proc.devRef .tc main_arg16) = m ((c : Thread nD τ).loc main_arg16) :=
  (W60_keep m ρ c main_arg16 (by decide)).trans (W59_arg16 m ρ c)
theorem W61_arg16 (c : Dev nD) : W61 m ρ c (Proc.devRef .tc main_arg16) = m ((c : Thread nD τ).loc main_arg16) :=
  (W61_keep m ρ c main_arg16 (by decide)).trans (W60_arg16 m ρ c)
theorem W62_arg16 (c : Dev nD) : W62 m ρ c (Proc.devRef .tc main_arg16) = m ((c : Thread nD τ).loc main_arg16) :=
  (W62_of_ne m ρ c main_arg16 (by decide)).trans (W61_arg16 m ρ c)
theorem W63_arg16 (c : Dev nD) : W63 m ρ c (Proc.devRef .tc main_arg16) = m ((c : Thread nD τ).loc main_arg16) :=
  (W63_keep m ρ c main_arg16 (by decide)).trans (W62_arg16 m ρ c)
theorem W64_arg16 (c : Dev nD) : W64 m ρ c (Proc.devRef .tc main_arg16) = m ((c : Thread nD τ).loc main_arg16) :=
  (W64_keep m ρ c main_arg16 (by decide)).trans (W63_arg16 m ρ c)
theorem W65_arg16 (c : Dev nD) : W65 m ρ c (Proc.devRef .tc main_arg16) = m ((c : Thread nD τ).loc main_arg16) :=
  (W65_keep m ρ c main_arg16 (by decide)).trans (W64_arg16 m ρ c)
theorem W66_arg16 (c : Dev nD) : W66 m ρ c (Proc.devRef .tc main_arg16) = m ((c : Thread nD τ).loc main_arg16) :=
  (W66_keep m ρ c main_arg16 (by decide)).trans (W65_arg16 m ρ c)
theorem W67_arg16 (c : Dev nD) : W67 m ρ c (Proc.devRef .tc main_arg16) = m ((c : Thread nD τ).loc main_arg16) :=
  (W67_keep m ρ c main_arg16 (by decide)).trans (W66_arg16 m ρ c)
theorem W68_arg16 (c : Dev nD) : W68 m ρ c (Proc.devRef .tc main_arg16) = m ((c : Thread nD τ).loc main_arg16) :=
  (W68_of_ne m ρ c main_arg16 (by decide)).trans (W67_arg16 m ρ c)
theorem W69_arg16 (c : Dev nD) : W69 m ρ c (Proc.devRef .tc main_arg16) = m ((c : Thread nD τ).loc main_arg16) :=
  (W69_keep m ρ c main_arg16 (by decide)).trans (W68_arg16 m ρ c)
theorem W70_arg16 (c : Dev nD) : W70 m ρ c (Proc.devRef .tc main_arg16) = m ((c : Thread nD τ).loc main_arg16) :=
  (W70_keep m ρ c main_arg16 (by decide)).trans (W69_arg16 m ρ c)
theorem W71_arg16 (c : Dev nD) : W71 m ρ c (Proc.devRef .tc main_arg16) = m ((c : Thread nD τ).loc main_arg16) :=
  (W71_keep m ρ c main_arg16 (by decide)).trans (W70_arg16 m ρ c)
theorem W72_arg16 (c : Dev nD) : W72 m ρ c (Proc.devRef .tc main_arg16) = m ((c : Thread nD τ).loc main_arg16) :=
  (W72_keep m ρ c main_arg16 (by decide)).trans (W71_arg16 m ρ c)
theorem W73_arg16 (c : Dev nD) : W73 m ρ c (Proc.devRef .tc main_arg16) = m ((c : Thread nD τ).loc main_arg16) :=
  (W73_keep m ρ c main_arg16 (by decide)).trans (W72_arg16 m ρ c)
theorem W74_arg16 (c : Dev nD) : W74 m ρ c (Proc.devRef .tc main_arg16) = m ((c : Thread nD τ).loc main_arg16) :=
  (W74_of_ne m ρ c main_arg16 (by decide)).trans (W73_arg16 m ρ c)
theorem W75_arg16 (c : Dev nD) : W75 m ρ c (Proc.devRef .tc main_arg16) = m ((c : Thread nD τ).loc main_arg16) :=
  (W75_keep m ρ c main_arg16 (by decide)).trans (W74_arg16 m ρ c)
theorem W76_arg16 (c : Dev nD) : W76 m ρ c (Proc.devRef .tc main_arg16) = m ((c : Thread nD τ).loc main_arg16) :=
  (W76_keep m ρ c main_arg16 (by decide)).trans (W75_arg16 m ρ c)
theorem W77_arg16 (c : Dev nD) : W77 m ρ c (Proc.devRef .tc main_arg16) = m ((c : Thread nD τ).loc main_arg16) :=
  (W77_keep m ρ c main_arg16 (by decide)).trans (W76_arg16 m ρ c)
theorem W78_arg16 (c : Dev nD) : W78 m ρ c (Proc.devRef .tc main_arg16) = m ((c : Thread nD τ).loc main_arg16) :=
  (W78_keep m ρ c main_arg16 (by decide)).trans (W77_arg16 m ρ c)
theorem W79_arg16 (c : Dev nD) : W79 m ρ c (Proc.devRef .tc main_arg16) = m ((c : Thread nD τ).loc main_arg16) :=
  (W79_keep m ρ c main_arg16 (by decide)).trans (W78_arg16 m ρ c)
theorem W80_arg16 (c : Dev nD) : W80 m ρ c (Proc.devRef .tc main_arg16) = m ((c : Thread nD τ).loc main_arg16) :=
  (W80_of_ne m ρ c main_arg16 (by decide)).trans (W79_arg16 m ρ c)
theorem W81_arg16 (c : Dev nD) : W81 m ρ c (Proc.devRef .tc main_arg16) = m ((c : Thread nD τ).loc main_arg16) :=
  (W81_keep m ρ c main_arg16 (by decide)).trans (W80_arg16 m ρ c)
theorem W82_arg16 (c : Dev nD) : W82 m ρ c (Proc.devRef .tc main_arg16) = m ((c : Thread nD τ).loc main_arg16) :=
  (W82_keep m ρ c main_arg16 (by decide)).trans (W81_arg16 m ρ c)
theorem W83_arg16 (c : Dev nD) : W83 m ρ c (Proc.devRef .tc main_arg16) = m ((c : Thread nD τ).loc main_arg16) :=
  (W83_keep m ρ c main_arg16 (by decide)).trans (W82_arg16 m ρ c)
theorem W84_arg16 (c : Dev nD) : W84 m ρ c (Proc.devRef .tc main_arg16) = m ((c : Thread nD τ).loc main_arg16) :=
  (W84_keep m ρ c main_arg16 (by decide)).trans (W83_arg16 m ρ c)
theorem W85_arg16 (c : Dev nD) : W85 m ρ c (Proc.devRef .tc main_arg16) = m ((c : Thread nD τ).loc main_arg16) :=
  (W85_keep m ρ c main_arg16 (by decide)).trans (W84_arg16 m ρ c)
theorem W86_arg16 (c : Dev nD) : W86 m ρ c (Proc.devRef .tc main_arg16) = m ((c : Thread nD τ).loc main_arg16) :=
  (W86_of_ne m ρ c main_arg16 (by decide)).trans (W85_arg16 m ρ c)
theorem W87_arg16 (c : Dev nD) : W87 m ρ c (Proc.devRef .tc main_arg16) = m ((c : Thread nD τ).loc main_arg16) :=
  (W87_keep m ρ c main_arg16 (by decide)).trans (W86_arg16 m ρ c)
theorem W88_arg16 (c : Dev nD) : W88 m ρ c (Proc.devRef .tc main_arg16) = m ((c : Thread nD τ).loc main_arg16) :=
  (W88_of_ne m ρ c main_arg16 (by decide)).trans (W87_arg16 m ρ c)
theorem W89_arg16 (c : Dev nD) : W89 m ρ c (Proc.devRef .tc main_arg16) = m ((c : Thread nD τ).loc main_arg16) :=
  (W89_keep m ρ c main_arg16 (by decide)).trans (W88_arg16 m ρ c)
theorem W90_arg16 (c : Dev nD) : W90 m ρ c (Proc.devRef .tc main_arg16) = m ((c : Thread nD τ).loc main_arg16) :=
  (W90_of_ne m ρ c main_arg16 (by decide)).trans (W89_arg16 m ρ c)
theorem W0_arg17 (c : Dev nD) : W0 m ρ c (Proc.devRef .tc main_arg17) = m ((c : Thread nD τ).loc main_arg17) := rfl
theorem W1_arg17 (c : Dev nD) : W1 m ρ c (Proc.devRef .tc main_arg17) = m ((c : Thread nD τ).loc main_arg17) :=
  (W1_keep m ρ c main_arg17 (by decide)).trans (W0_arg17 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W3_arg17 (c : Dev nD) : W3 m ρ c (Proc.devRef .tc main_arg17) = m ((c : Thread nD τ).loc main_arg17) :=
  (W3_keep m ρ c main_arg17 (by decide)).trans (W2_arg17 m ρ c)
theorem W4_arg17 (c : Dev nD) : W4 m ρ c (Proc.devRef .tc main_arg17) = m ((c : Thread nD τ).loc main_arg17) :=
  (W4_of_ne m ρ c main_arg17 (by decide)).trans (W3_arg17 m ρ c)
theorem W5_arg17 (c : Dev nD) : W5 m ρ c (Proc.devRef .tc main_arg17) = m ((c : Thread nD τ).loc main_arg17) :=
  (W5_keep m ρ c main_arg17 (by decide)).trans (W4_arg17 m ρ c)
theorem W6_arg17 (c : Dev nD) : W6 m ρ c (Proc.devRef .tc main_arg17) = m ((c : Thread nD τ).loc main_arg17) :=
  (W6_of_ne m ρ c main_arg17 (by decide)).trans (W5_arg17 m ρ c)
theorem W7_arg17 (c : Dev nD) : W7 m ρ c (Proc.devRef .tc main_arg17) = m ((c : Thread nD τ).loc main_arg17) :=
  (W7_keep m ρ c main_arg17 (by decide)).trans (W6_arg17 m ρ c)
theorem W8_arg17 (c : Dev nD) : W8 m ρ c (Proc.devRef .tc main_arg17) = m ((c : Thread nD τ).loc main_arg17) :=
  (W8_of_ne m ρ c main_arg17 (by decide)).trans (W7_arg17 m ρ c)
theorem W9_arg17 (c : Dev nD) : W9 m ρ c (Proc.devRef .tc main_arg17) = m ((c : Thread nD τ).loc main_arg17) :=
  (W9_keep m ρ c main_arg17 (by decide)).trans (W8_arg17 m ρ c)
theorem W10_arg17 (c : Dev nD) : W10 m ρ c (Proc.devRef .tc main_arg17) = m ((c : Thread nD τ).loc main_arg17) :=
  (W10_keep m ρ c main_arg17 (by decide)).trans (W9_arg17 m ρ c)
theorem W11_arg17 (c : Dev nD) : W11 m ρ c (Proc.devRef .tc main_arg17) = m ((c : Thread nD τ).loc main_arg17) :=
  (W11_keep m ρ c main_arg17 (by decide)).trans (W10_arg17 m ρ c)
theorem W12_arg17 (c : Dev nD) : W12 m ρ c (Proc.devRef .tc main_arg17) = m ((c : Thread nD τ).loc main_arg17) :=
  (W12_keep m ρ c main_arg17 (by decide)).trans (W11_arg17 m ρ c)
theorem W13_arg17 (c : Dev nD) : W13 m ρ c (Proc.devRef .tc main_arg17) = m ((c : Thread nD τ).loc main_arg17) :=
  (W13_keep m ρ c main_arg17 (by decide)).trans (W12_arg17 m ρ c)
theorem W14_arg17 (c : Dev nD) : W14 m ρ c (Proc.devRef .tc main_arg17) = m ((c : Thread nD τ).loc main_arg17) :=
  (W14_of_ne m ρ c main_arg17 (by decide)).trans (W13_arg17 m ρ c)
theorem W15_arg17 (c : Dev nD) : W15 m ρ c (Proc.devRef .tc main_arg17) = m ((c : Thread nD τ).loc main_arg17) :=
  (W15_keep m ρ c main_arg17 (by decide)).trans (W14_arg17 m ρ c)
theorem W16_arg17 (c : Dev nD) : W16 m ρ c (Proc.devRef .tc main_arg17) = m ((c : Thread nD τ).loc main_arg17) :=
  (W16_keep m ρ c main_arg17 (by decide)).trans (W15_arg17 m ρ c)
theorem W17_arg17 (c : Dev nD) : W17 m ρ c (Proc.devRef .tc main_arg17) = m ((c : Thread nD τ).loc main_arg17) :=
  (W17_keep m ρ c main_arg17 (by decide)).trans (W16_arg17 m ρ c)
theorem W18_arg17 (c : Dev nD) : W18 m ρ c (Proc.devRef .tc main_arg17) = m ((c : Thread nD τ).loc main_arg17) :=
  (W18_keep m ρ c main_arg17 (by decide)).trans (W17_arg17 m ρ c)
theorem W19_arg17 (c : Dev nD) : W19 m ρ c (Proc.devRef .tc main_arg17) = m ((c : Thread nD τ).loc main_arg17) :=
  (W19_keep m ρ c main_arg17 (by decide)).trans (W18_arg17 m ρ c)
theorem W20_arg17 (c : Dev nD) : W20 m ρ c (Proc.devRef .tc main_arg17) = m ((c : Thread nD τ).loc main_arg17) :=
  (W20_of_ne m ρ c main_arg17 (by decide)).trans (W19_arg17 m ρ c)
theorem W21_arg17 (c : Dev nD) : W21 m ρ c (Proc.devRef .tc main_arg17) = m ((c : Thread nD τ).loc main_arg17) :=
  (W21_keep m ρ c main_arg17 (by decide)).trans (W20_arg17 m ρ c)
theorem W22_arg17 (c : Dev nD) : W22 m ρ c (Proc.devRef .tc main_arg17) = m ((c : Thread nD τ).loc main_arg17) :=
  (W22_keep m ρ c main_arg17 (by decide)).trans (W21_arg17 m ρ c)
theorem W23_arg17 (c : Dev nD) : W23 m ρ c (Proc.devRef .tc main_arg17) = m ((c : Thread nD τ).loc main_arg17) :=
  (W23_keep m ρ c main_arg17 (by decide)).trans (W22_arg17 m ρ c)
theorem W24_arg17 (c : Dev nD) : W24 m ρ c (Proc.devRef .tc main_arg17) = m ((c : Thread nD τ).loc main_arg17) :=
  (W24_keep m ρ c main_arg17 (by decide)).trans (W23_arg17 m ρ c)
theorem W25_arg17 (c : Dev nD) : W25 m ρ c (Proc.devRef .tc main_arg17) = m ((c : Thread nD τ).loc main_arg17) :=
  (W25_keep m ρ c main_arg17 (by decide)).trans (W24_arg17 m ρ c)
theorem W26_arg17 (c : Dev nD) : W26 m ρ c (Proc.devRef .tc main_arg17) = m ((c : Thread nD τ).loc main_arg17) :=
  (W26_of_ne m ρ c main_arg17 (by decide)).trans (W25_arg17 m ρ c)
theorem W27_arg17 (c : Dev nD) : W27 m ρ c (Proc.devRef .tc main_arg17) = m ((c : Thread nD τ).loc main_arg17) :=
  (W27_keep m ρ c main_arg17 (by decide)).trans (W26_arg17 m ρ c)
theorem W28_arg17 (c : Dev nD) : W28 m ρ c (Proc.devRef .tc main_arg17) = m ((c : Thread nD τ).loc main_arg17) :=
  (W28_keep m ρ c main_arg17 (by decide)).trans (W27_arg17 m ρ c)
theorem W29_arg17 (c : Dev nD) : W29 m ρ c (Proc.devRef .tc main_arg17) = m ((c : Thread nD τ).loc main_arg17) :=
  (W29_keep m ρ c main_arg17 (by decide)).trans (W28_arg17 m ρ c)
theorem W30_arg17 (c : Dev nD) : W30 m ρ c (Proc.devRef .tc main_arg17) = m ((c : Thread nD τ).loc main_arg17) :=
  (W30_keep m ρ c main_arg17 (by decide)).trans (W29_arg17 m ρ c)
theorem W31_arg17 (c : Dev nD) : W31 m ρ c (Proc.devRef .tc main_arg17) = m ((c : Thread nD τ).loc main_arg17) :=
  (W31_keep m ρ c main_arg17 (by decide)).trans (W30_arg17 m ρ c)
theorem W32_arg17 (c : Dev nD) : W32 m ρ c (Proc.devRef .tc main_arg17) = m ((c : Thread nD τ).loc main_arg17) :=
  (W32_of_ne m ρ c main_arg17 (by decide)).trans (W31_arg17 m ρ c)
theorem W33_arg17 (c : Dev nD) : W33 m ρ c (Proc.devRef .tc main_arg17) = m ((c : Thread nD τ).loc main_arg17) :=
  (W33_keep m ρ c main_arg17 (by decide)).trans (W32_arg17 m ρ c)
theorem W34_arg17 (c : Dev nD) : W34 m ρ c (Proc.devRef .tc main_arg17) = m ((c : Thread nD τ).loc main_arg17) :=
  (W34_keep m ρ c main_arg17 (by decide)).trans (W33_arg17 m ρ c)
theorem W35_arg17 (c : Dev nD) : W35 m ρ c (Proc.devRef .tc main_arg17) = m ((c : Thread nD τ).loc main_arg17) :=
  (W35_keep m ρ c main_arg17 (by decide)).trans (W34_arg17 m ρ c)
theorem W36_arg17 (c : Dev nD) : W36 m ρ c (Proc.devRef .tc main_arg17) = m ((c : Thread nD τ).loc main_arg17) :=
  (W36_keep m ρ c main_arg17 (by decide)).trans (W35_arg17 m ρ c)
theorem W37_arg17 (c : Dev nD) : W37 m ρ c (Proc.devRef .tc main_arg17) = m ((c : Thread nD τ).loc main_arg17) :=
  (W37_keep m ρ c main_arg17 (by decide)).trans (W36_arg17 m ρ c)
theorem W38_arg17 (c : Dev nD) : W38 m ρ c (Proc.devRef .tc main_arg17) = m ((c : Thread nD τ).loc main_arg17) :=
  (W38_of_ne m ρ c main_arg17 (by decide)).trans (W37_arg17 m ρ c)
theorem W39_arg17 (c : Dev nD) : W39 m ρ c (Proc.devRef .tc main_arg17) = m ((c : Thread nD τ).loc main_arg17) :=
  (W39_keep m ρ c main_arg17 (by decide)).trans (W38_arg17 m ρ c)
theorem W40_arg17 (c : Dev nD) : W40 m ρ c (Proc.devRef .tc main_arg17) = m ((c : Thread nD τ).loc main_arg17) :=
  (W40_keep m ρ c main_arg17 (by decide)).trans (W39_arg17 m ρ c)
theorem W41_arg17 (c : Dev nD) : W41 m ρ c (Proc.devRef .tc main_arg17) = m ((c : Thread nD τ).loc main_arg17) :=
  (W41_keep m ρ c main_arg17 (by decide)).trans (W40_arg17 m ρ c)
theorem W42_arg17 (c : Dev nD) : W42 m ρ c (Proc.devRef .tc main_arg17) = m ((c : Thread nD τ).loc main_arg17) :=
  (W42_keep m ρ c main_arg17 (by decide)).trans (W41_arg17 m ρ c)
theorem W43_arg17 (c : Dev nD) : W43 m ρ c (Proc.devRef .tc main_arg17) = m ((c : Thread nD τ).loc main_arg17) :=
  (W43_keep m ρ c main_arg17 (by decide)).trans (W42_arg17 m ρ c)
theorem W44_arg17 (c : Dev nD) : W44 m ρ c (Proc.devRef .tc main_arg17) = m ((c : Thread nD τ).loc main_arg17) :=
  (W44_of_ne m ρ c main_arg17 (by decide)).trans (W43_arg17 m ρ c)
theorem W45_arg17 (c : Dev nD) : W45 m ρ c (Proc.devRef .tc main_arg17) = m ((c : Thread nD τ).loc main_arg17) :=
  (W45_keep m ρ c main_arg17 (by decide)).trans (W44_arg17 m ρ c)
theorem W46_arg17 (c : Dev nD) : W46 m ρ c (Proc.devRef .tc main_arg17) = m ((c : Thread nD τ).loc main_arg17) :=
  (W46_of_ne m ρ c main_arg17 (by decide)).trans (W45_arg17 m ρ c)
theorem W47_arg17 (c : Dev nD) : W47 m ρ c (Proc.devRef .tc main_arg17) = m ((c : Thread nD τ).loc main_arg17) :=
  (W47_keep m ρ c main_arg17 (by decide)).trans (W46_arg17 m ρ c)
theorem W48_arg17 (c : Dev nD) : W48 m ρ c (Proc.devRef .tc main_arg17) = m ((c : Thread nD τ).loc main_arg17) :=
  (W48_of_ne m ρ c main_arg17 (by decide)).trans (W47_arg17 m ρ c)
theorem W49_arg17 (c : Dev nD) : W49 m ρ c (Proc.devRef .tc main_arg17) = m ((c : Thread nD τ).loc main_arg17) :=
  (W49_keep m ρ c main_arg17 (by decide)).trans (W48_arg17 m ρ c)
theorem W50_arg17 (c : Dev nD) : W50 m ρ c (Proc.devRef .tc main_arg17) = m ((c : Thread nD τ).loc main_arg17) :=
  (W50_of_ne m ρ c main_arg17 (by decide)).trans (W49_arg17 m ρ c)
theorem W51_arg17 (c : Dev nD) : W51 m ρ c (Proc.devRef .tc main_arg17) = m ((c : Thread nD τ).loc main_arg17) :=
  (W51_keep m ρ c main_arg17 (by decide)).trans (W50_arg17 m ρ c)
theorem W52_arg17 (c : Dev nD) : W52 m ρ c (Proc.devRef .tc main_arg17) = m ((c : Thread nD τ).loc main_arg17) :=
  (W52_keep m ρ c main_arg17 (by decide)).trans (W51_arg17 m ρ c)
theorem W53_arg17 (c : Dev nD) : W53 m ρ c (Proc.devRef .tc main_arg17) = m ((c : Thread nD τ).loc main_arg17) :=
  (W53_keep m ρ c main_arg17 (by decide)).trans (W52_arg17 m ρ c)
theorem W54_arg17 (c : Dev nD) : W54 m ρ c (Proc.devRef .tc main_arg17) = m ((c : Thread nD τ).loc main_arg17) :=
  (W54_keep m ρ c main_arg17 (by decide)).trans (W53_arg17 m ρ c)
theorem W55_arg17 (c : Dev nD) : W55 m ρ c (Proc.devRef .tc main_arg17) = m ((c : Thread nD τ).loc main_arg17) :=
  (W55_keep m ρ c main_arg17 (by decide)).trans (W54_arg17 m ρ c)
theorem W56_arg17 (c : Dev nD) : W56 m ρ c (Proc.devRef .tc main_arg17) = m ((c : Thread nD τ).loc main_arg17) :=
  (W56_of_ne m ρ c main_arg17 (by decide)).trans (W55_arg17 m ρ c)
theorem W57_arg17 (c : Dev nD) : W57 m ρ c (Proc.devRef .tc main_arg17) = m ((c : Thread nD τ).loc main_arg17) :=
  (W57_keep m ρ c main_arg17 (by decide)).trans (W56_arg17 m ρ c)
theorem W58_arg17 (c : Dev nD) : W58 m ρ c (Proc.devRef .tc main_arg17) = m ((c : Thread nD τ).loc main_arg17) :=
  (W58_keep m ρ c main_arg17 (by decide)).trans (W57_arg17 m ρ c)
theorem W59_arg17 (c : Dev nD) : W59 m ρ c (Proc.devRef .tc main_arg17) = m ((c : Thread nD τ).loc main_arg17) :=
  (W59_keep m ρ c main_arg17 (by decide)).trans (W58_arg17 m ρ c)
theorem W60_arg17 (c : Dev nD) : W60 m ρ c (Proc.devRef .tc main_arg17) = m ((c : Thread nD τ).loc main_arg17) :=
  (W60_keep m ρ c main_arg17 (by decide)).trans (W59_arg17 m ρ c)
theorem W61_arg17 (c : Dev nD) : W61 m ρ c (Proc.devRef .tc main_arg17) = m ((c : Thread nD τ).loc main_arg17) :=
  (W61_keep m ρ c main_arg17 (by decide)).trans (W60_arg17 m ρ c)
theorem W62_arg17 (c : Dev nD) : W62 m ρ c (Proc.devRef .tc main_arg17) = m ((c : Thread nD τ).loc main_arg17) :=
  (W62_of_ne m ρ c main_arg17 (by decide)).trans (W61_arg17 m ρ c)
theorem W63_arg17 (c : Dev nD) : W63 m ρ c (Proc.devRef .tc main_arg17) = m ((c : Thread nD τ).loc main_arg17) :=
  (W63_keep m ρ c main_arg17 (by decide)).trans (W62_arg17 m ρ c)
theorem W64_arg17 (c : Dev nD) : W64 m ρ c (Proc.devRef .tc main_arg17) = m ((c : Thread nD τ).loc main_arg17) :=
  (W64_keep m ρ c main_arg17 (by decide)).trans (W63_arg17 m ρ c)
theorem W65_arg17 (c : Dev nD) : W65 m ρ c (Proc.devRef .tc main_arg17) = m ((c : Thread nD τ).loc main_arg17) :=
  (W65_keep m ρ c main_arg17 (by decide)).trans (W64_arg17 m ρ c)
theorem W66_arg17 (c : Dev nD) : W66 m ρ c (Proc.devRef .tc main_arg17) = m ((c : Thread nD τ).loc main_arg17) :=
  (W66_keep m ρ c main_arg17 (by decide)).trans (W65_arg17 m ρ c)
theorem W67_arg17 (c : Dev nD) : W67 m ρ c (Proc.devRef .tc main_arg17) = m ((c : Thread nD τ).loc main_arg17) :=
  (W67_keep m ρ c main_arg17 (by decide)).trans (W66_arg17 m ρ c)
theorem W68_arg17 (c : Dev nD) : W68 m ρ c (Proc.devRef .tc main_arg17) = m ((c : Thread nD τ).loc main_arg17) :=
  (W68_of_ne m ρ c main_arg17 (by decide)).trans (W67_arg17 m ρ c)
theorem W69_arg17 (c : Dev nD) : W69 m ρ c (Proc.devRef .tc main_arg17) = m ((c : Thread nD τ).loc main_arg17) :=
  (W69_keep m ρ c main_arg17 (by decide)).trans (W68_arg17 m ρ c)
theorem W70_arg17 (c : Dev nD) : W70 m ρ c (Proc.devRef .tc main_arg17) = m ((c : Thread nD τ).loc main_arg17) :=
  (W70_keep m ρ c main_arg17 (by decide)).trans (W69_arg17 m ρ c)
theorem W71_arg17 (c : Dev nD) : W71 m ρ c (Proc.devRef .tc main_arg17) = m ((c : Thread nD τ).loc main_arg17) :=
  (W71_keep m ρ c main_arg17 (by decide)).trans (W70_arg17 m ρ c)
theorem W72_arg17 (c : Dev nD) : W72 m ρ c (Proc.devRef .tc main_arg17) = m ((c : Thread nD τ).loc main_arg17) :=
  (W72_keep m ρ c main_arg17 (by decide)).trans (W71_arg17 m ρ c)
theorem W73_arg17 (c : Dev nD) : W73 m ρ c (Proc.devRef .tc main_arg17) = m ((c : Thread nD τ).loc main_arg17) :=
  (W73_keep m ρ c main_arg17 (by decide)).trans (W72_arg17 m ρ c)
theorem W74_arg17 (c : Dev nD) : W74 m ρ c (Proc.devRef .tc main_arg17) = m ((c : Thread nD τ).loc main_arg17) :=
  (W74_of_ne m ρ c main_arg17 (by decide)).trans (W73_arg17 m ρ c)
theorem W75_arg17 (c : Dev nD) : W75 m ρ c (Proc.devRef .tc main_arg17) = m ((c : Thread nD τ).loc main_arg17) :=
  (W75_keep m ρ c main_arg17 (by decide)).trans (W74_arg17 m ρ c)
theorem W76_arg17 (c : Dev nD) : W76 m ρ c (Proc.devRef .tc main_arg17) = m ((c : Thread nD τ).loc main_arg17) :=
  (W76_keep m ρ c main_arg17 (by decide)).trans (W75_arg17 m ρ c)
theorem W77_arg17 (c : Dev nD) : W77 m ρ c (Proc.devRef .tc main_arg17) = m ((c : Thread nD τ).loc main_arg17) :=
  (W77_keep m ρ c main_arg17 (by decide)).trans (W76_arg17 m ρ c)
theorem W78_arg17 (c : Dev nD) : W78 m ρ c (Proc.devRef .tc main_arg17) = m ((c : Thread nD τ).loc main_arg17) :=
  (W78_keep m ρ c main_arg17 (by decide)).trans (W77_arg17 m ρ c)
theorem W79_arg17 (c : Dev nD) : W79 m ρ c (Proc.devRef .tc main_arg17) = m ((c : Thread nD τ).loc main_arg17) :=
  (W79_keep m ρ c main_arg17 (by decide)).trans (W78_arg17 m ρ c)
theorem W80_arg17 (c : Dev nD) : W80 m ρ c (Proc.devRef .tc main_arg17) = m ((c : Thread nD τ).loc main_arg17) :=
  (W80_of_ne m ρ c main_arg17 (by decide)).trans (W79_arg17 m ρ c)
theorem W81_arg17 (c : Dev nD) : W81 m ρ c (Proc.devRef .tc main_arg17) = m ((c : Thread nD τ).loc main_arg17) :=
  (W81_keep m ρ c main_arg17 (by decide)).trans (W80_arg17 m ρ c)
theorem W82_arg17 (c : Dev nD) : W82 m ρ c (Proc.devRef .tc main_arg17) = m ((c : Thread nD τ).loc main_arg17) :=
  (W82_keep m ρ c main_arg17 (by decide)).trans (W81_arg17 m ρ c)
theorem W83_arg17 (c : Dev nD) : W83 m ρ c (Proc.devRef .tc main_arg17) = m ((c : Thread nD τ).loc main_arg17) :=
  (W83_keep m ρ c main_arg17 (by decide)).trans (W82_arg17 m ρ c)
theorem W84_arg17 (c : Dev nD) : W84 m ρ c (Proc.devRef .tc main_arg17) = m ((c : Thread nD τ).loc main_arg17) :=
  (W84_keep m ρ c main_arg17 (by decide)).trans (W83_arg17 m ρ c)
theorem W85_arg17 (c : Dev nD) : W85 m ρ c (Proc.devRef .tc main_arg17) = m ((c : Thread nD τ).loc main_arg17) :=
  (W85_keep m ρ c main_arg17 (by decide)).trans (W84_arg17 m ρ c)
theorem W86_arg17 (c : Dev nD) : W86 m ρ c (Proc.devRef .tc main_arg17) = m ((c : Thread nD τ).loc main_arg17) :=
  (W86_of_ne m ρ c main_arg17 (by decide)).trans (W85_arg17 m ρ c)
theorem W87_arg17 (c : Dev nD) : W87 m ρ c (Proc.devRef .tc main_arg17) = m ((c : Thread nD τ).loc main_arg17) :=
  (W87_keep m ρ c main_arg17 (by decide)).trans (W86_arg17 m ρ c)
theorem W88_arg17 (c : Dev nD) : W88 m ρ c (Proc.devRef .tc main_arg17) = m ((c : Thread nD τ).loc main_arg17) :=
  (W88_of_ne m ρ c main_arg17 (by decide)).trans (W87_arg17 m ρ c)
theorem W89_arg17 (c : Dev nD) : W89 m ρ c (Proc.devRef .tc main_arg17) = m ((c : Thread nD τ).loc main_arg17) :=
  (W89_keep m ρ c main_arg17 (by decide)).trans (W88_arg17 m ρ c)
theorem W90_arg17 (c : Dev nD) : W90 m ρ c (Proc.devRef .tc main_arg17) = m ((c : Thread nD τ).loc main_arg17) :=
  (W90_of_ne m ρ c main_arg17 (by decide)).trans (W89_arg17 m ρ c)
theorem W0_arg18 (c : Dev nD) : W0 m ρ c (Proc.devRef .tc main_arg18) = m ((c : Thread nD τ).loc main_arg18) := rfl
theorem W1_arg18 (c : Dev nD) : W1 m ρ c (Proc.devRef .tc main_arg18) = m ((c : Thread nD τ).loc main_arg18) :=
  (W1_keep m ρ c main_arg18 (by decide)).trans (W0_arg18 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W3_arg18 (c : Dev nD) : W3 m ρ c (Proc.devRef .tc main_arg18) = m ((c : Thread nD τ).loc main_arg18) :=
  (W3_keep m ρ c main_arg18 (by decide)).trans (W2_arg18 m ρ c)
theorem W4_arg18 (c : Dev nD) : W4 m ρ c (Proc.devRef .tc main_arg18) = m ((c : Thread nD τ).loc main_arg18) :=
  (W4_of_ne m ρ c main_arg18 (by decide)).trans (W3_arg18 m ρ c)
theorem W5_arg18 (c : Dev nD) : W5 m ρ c (Proc.devRef .tc main_arg18) = m ((c : Thread nD τ).loc main_arg18) :=
  (W5_keep m ρ c main_arg18 (by decide)).trans (W4_arg18 m ρ c)
theorem W6_arg18 (c : Dev nD) : W6 m ρ c (Proc.devRef .tc main_arg18) = m ((c : Thread nD τ).loc main_arg18) :=
  (W6_of_ne m ρ c main_arg18 (by decide)).trans (W5_arg18 m ρ c)
theorem W7_arg18 (c : Dev nD) : W7 m ρ c (Proc.devRef .tc main_arg18) = m ((c : Thread nD τ).loc main_arg18) :=
  (W7_keep m ρ c main_arg18 (by decide)).trans (W6_arg18 m ρ c)
theorem W8_arg18 (c : Dev nD) : W8 m ρ c (Proc.devRef .tc main_arg18) = m ((c : Thread nD τ).loc main_arg18) :=
  (W8_of_ne m ρ c main_arg18 (by decide)).trans (W7_arg18 m ρ c)
theorem W9_arg18 (c : Dev nD) : W9 m ρ c (Proc.devRef .tc main_arg18) = m ((c : Thread nD τ).loc main_arg18) :=
  (W9_keep m ρ c main_arg18 (by decide)).trans (W8_arg18 m ρ c)
theorem W10_arg18 (c : Dev nD) : W10 m ρ c (Proc.devRef .tc main_arg18) = m ((c : Thread nD τ).loc main_arg18) :=
  (W10_keep m ρ c main_arg18 (by decide)).trans (W9_arg18 m ρ c)
theorem W11_arg18 (c : Dev nD) : W11 m ρ c (Proc.devRef .tc main_arg18) = m ((c : Thread nD τ).loc main_arg18) :=
  (W11_keep m ρ c main_arg18 (by decide)).trans (W10_arg18 m ρ c)
theorem W12_arg18 (c : Dev nD) : W12 m ρ c (Proc.devRef .tc main_arg18) = m ((c : Thread nD τ).loc main_arg18) :=
  (W12_keep m ρ c main_arg18 (by decide)).trans (W11_arg18 m ρ c)
theorem W13_arg18 (c : Dev nD) : W13 m ρ c (Proc.devRef .tc main_arg18) = m ((c : Thread nD τ).loc main_arg18) :=
  (W13_keep m ρ c main_arg18 (by decide)).trans (W12_arg18 m ρ c)
theorem W14_arg18 (c : Dev nD) : W14 m ρ c (Proc.devRef .tc main_arg18) = m ((c : Thread nD τ).loc main_arg18) :=
  (W14_of_ne m ρ c main_arg18 (by decide)).trans (W13_arg18 m ρ c)
theorem W15_arg18 (c : Dev nD) : W15 m ρ c (Proc.devRef .tc main_arg18) = m ((c : Thread nD τ).loc main_arg18) :=
  (W15_keep m ρ c main_arg18 (by decide)).trans (W14_arg18 m ρ c)
theorem W16_arg18 (c : Dev nD) : W16 m ρ c (Proc.devRef .tc main_arg18) = m ((c : Thread nD τ).loc main_arg18) :=
  (W16_keep m ρ c main_arg18 (by decide)).trans (W15_arg18 m ρ c)
theorem W17_arg18 (c : Dev nD) : W17 m ρ c (Proc.devRef .tc main_arg18) = m ((c : Thread nD τ).loc main_arg18) :=
  (W17_keep m ρ c main_arg18 (by decide)).trans (W16_arg18 m ρ c)
theorem W18_arg18 (c : Dev nD) : W18 m ρ c (Proc.devRef .tc main_arg18) = m ((c : Thread nD τ).loc main_arg18) :=
  (W18_keep m ρ c main_arg18 (by decide)).trans (W17_arg18 m ρ c)
theorem W19_arg18 (c : Dev nD) : W19 m ρ c (Proc.devRef .tc main_arg18) = m ((c : Thread nD τ).loc main_arg18) :=
  (W19_keep m ρ c main_arg18 (by decide)).trans (W18_arg18 m ρ c)
theorem W20_arg18 (c : Dev nD) : W20 m ρ c (Proc.devRef .tc main_arg18) = m ((c : Thread nD τ).loc main_arg18) :=
  (W20_of_ne m ρ c main_arg18 (by decide)).trans (W19_arg18 m ρ c)
theorem W21_arg18 (c : Dev nD) : W21 m ρ c (Proc.devRef .tc main_arg18) = m ((c : Thread nD τ).loc main_arg18) :=
  (W21_keep m ρ c main_arg18 (by decide)).trans (W20_arg18 m ρ c)
theorem W22_arg18 (c : Dev nD) : W22 m ρ c (Proc.devRef .tc main_arg18) = m ((c : Thread nD τ).loc main_arg18) :=
  (W22_keep m ρ c main_arg18 (by decide)).trans (W21_arg18 m ρ c)
theorem W23_arg18 (c : Dev nD) : W23 m ρ c (Proc.devRef .tc main_arg18) = m ((c : Thread nD τ).loc main_arg18) :=
  (W23_keep m ρ c main_arg18 (by decide)).trans (W22_arg18 m ρ c)
theorem W24_arg18 (c : Dev nD) : W24 m ρ c (Proc.devRef .tc main_arg18) = m ((c : Thread nD τ).loc main_arg18) :=
  (W24_keep m ρ c main_arg18 (by decide)).trans (W23_arg18 m ρ c)
theorem W25_arg18 (c : Dev nD) : W25 m ρ c (Proc.devRef .tc main_arg18) = m ((c : Thread nD τ).loc main_arg18) :=
  (W25_keep m ρ c main_arg18 (by decide)).trans (W24_arg18 m ρ c)
theorem W26_arg18 (c : Dev nD) : W26 m ρ c (Proc.devRef .tc main_arg18) = m ((c : Thread nD τ).loc main_arg18) :=
  (W26_of_ne m ρ c main_arg18 (by decide)).trans (W25_arg18 m ρ c)
theorem W27_arg18 (c : Dev nD) : W27 m ρ c (Proc.devRef .tc main_arg18) = m ((c : Thread nD τ).loc main_arg18) :=
  (W27_keep m ρ c main_arg18 (by decide)).trans (W26_arg18 m ρ c)
theorem W28_arg18 (c : Dev nD) : W28 m ρ c (Proc.devRef .tc main_arg18) = m ((c : Thread nD τ).loc main_arg18) :=
  (W28_keep m ρ c main_arg18 (by decide)).trans (W27_arg18 m ρ c)
theorem W29_arg18 (c : Dev nD) : W29 m ρ c (Proc.devRef .tc main_arg18) = m ((c : Thread nD τ).loc main_arg18) :=
  (W29_keep m ρ c main_arg18 (by decide)).trans (W28_arg18 m ρ c)
theorem W30_arg18 (c : Dev nD) : W30 m ρ c (Proc.devRef .tc main_arg18) = m ((c : Thread nD τ).loc main_arg18) :=
  (W30_keep m ρ c main_arg18 (by decide)).trans (W29_arg18 m ρ c)
theorem W31_arg18 (c : Dev nD) : W31 m ρ c (Proc.devRef .tc main_arg18) = m ((c : Thread nD τ).loc main_arg18) :=
  (W31_keep m ρ c main_arg18 (by decide)).trans (W30_arg18 m ρ c)
theorem W32_arg18 (c : Dev nD) : W32 m ρ c (Proc.devRef .tc main_arg18) = m ((c : Thread nD τ).loc main_arg18) :=
  (W32_of_ne m ρ c main_arg18 (by decide)).trans (W31_arg18 m ρ c)
theorem W33_arg18 (c : Dev nD) : W33 m ρ c (Proc.devRef .tc main_arg18) = m ((c : Thread nD τ).loc main_arg18) :=
  (W33_keep m ρ c main_arg18 (by decide)).trans (W32_arg18 m ρ c)
theorem W34_arg18 (c : Dev nD) : W34 m ρ c (Proc.devRef .tc main_arg18) = m ((c : Thread nD τ).loc main_arg18) :=
  (W34_keep m ρ c main_arg18 (by decide)).trans (W33_arg18 m ρ c)
theorem W35_arg18 (c : Dev nD) : W35 m ρ c (Proc.devRef .tc main_arg18) = m ((c : Thread nD τ).loc main_arg18) :=
  (W35_keep m ρ c main_arg18 (by decide)).trans (W34_arg18 m ρ c)
theorem W36_arg18 (c : Dev nD) : W36 m ρ c (Proc.devRef .tc main_arg18) = m ((c : Thread nD τ).loc main_arg18) :=
  (W36_keep m ρ c main_arg18 (by decide)).trans (W35_arg18 m ρ c)
theorem W37_arg18 (c : Dev nD) : W37 m ρ c (Proc.devRef .tc main_arg18) = m ((c : Thread nD τ).loc main_arg18) :=
  (W37_keep m ρ c main_arg18 (by decide)).trans (W36_arg18 m ρ c)
theorem W38_arg18 (c : Dev nD) : W38 m ρ c (Proc.devRef .tc main_arg18) = m ((c : Thread nD τ).loc main_arg18) :=
  (W38_of_ne m ρ c main_arg18 (by decide)).trans (W37_arg18 m ρ c)
theorem W39_arg18 (c : Dev nD) : W39 m ρ c (Proc.devRef .tc main_arg18) = m ((c : Thread nD τ).loc main_arg18) :=
  (W39_keep m ρ c main_arg18 (by decide)).trans (W38_arg18 m ρ c)
theorem W40_arg18 (c : Dev nD) : W40 m ρ c (Proc.devRef .tc main_arg18) = m ((c : Thread nD τ).loc main_arg18) :=
  (W40_keep m ρ c main_arg18 (by decide)).trans (W39_arg18 m ρ c)
theorem W41_arg18 (c : Dev nD) : W41 m ρ c (Proc.devRef .tc main_arg18) = m ((c : Thread nD τ).loc main_arg18) :=
  (W41_keep m ρ c main_arg18 (by decide)).trans (W40_arg18 m ρ c)
theorem W42_arg18 (c : Dev nD) : W42 m ρ c (Proc.devRef .tc main_arg18) = m ((c : Thread nD τ).loc main_arg18) :=
  (W42_keep m ρ c main_arg18 (by decide)).trans (W41_arg18 m ρ c)
theorem W43_arg18 (c : Dev nD) : W43 m ρ c (Proc.devRef .tc main_arg18) = m ((c : Thread nD τ).loc main_arg18) :=
  (W43_keep m ρ c main_arg18 (by decide)).trans (W42_arg18 m ρ c)
theorem W44_arg18 (c : Dev nD) : W44 m ρ c (Proc.devRef .tc main_arg18) = m ((c : Thread nD τ).loc main_arg18) :=
  (W44_of_ne m ρ c main_arg18 (by decide)).trans (W43_arg18 m ρ c)
theorem W45_arg18 (c : Dev nD) : W45 m ρ c (Proc.devRef .tc main_arg18) = m ((c : Thread nD τ).loc main_arg18) :=
  (W45_keep m ρ c main_arg18 (by decide)).trans (W44_arg18 m ρ c)
theorem W46_arg18 (c : Dev nD) : W46 m ρ c (Proc.devRef .tc main_arg18) = m ((c : Thread nD τ).loc main_arg18) :=
  (W46_of_ne m ρ c main_arg18 (by decide)).trans (W45_arg18 m ρ c)
theorem W47_arg18 (c : Dev nD) : W47 m ρ c (Proc.devRef .tc main_arg18) = m ((c : Thread nD τ).loc main_arg18) :=
  (W47_keep m ρ c main_arg18 (by decide)).trans (W46_arg18 m ρ c)
theorem W48_arg18 (c : Dev nD) : W48 m ρ c (Proc.devRef .tc main_arg18) = m ((c : Thread nD τ).loc main_arg18) :=
  (W48_of_ne m ρ c main_arg18 (by decide)).trans (W47_arg18 m ρ c)
theorem W49_arg18 (c : Dev nD) : W49 m ρ c (Proc.devRef .tc main_arg18) = m ((c : Thread nD τ).loc main_arg18) :=
  (W49_keep m ρ c main_arg18 (by decide)).trans (W48_arg18 m ρ c)
theorem W50_arg18 (c : Dev nD) : W50 m ρ c (Proc.devRef .tc main_arg18) = m ((c : Thread nD τ).loc main_arg18) :=
  (W50_of_ne m ρ c main_arg18 (by decide)).trans (W49_arg18 m ρ c)
theorem W51_arg18 (c : Dev nD) : W51 m ρ c (Proc.devRef .tc main_arg18) = m ((c : Thread nD τ).loc main_arg18) :=
  (W51_keep m ρ c main_arg18 (by decide)).trans (W50_arg18 m ρ c)
theorem W52_arg18 (c : Dev nD) : W52 m ρ c (Proc.devRef .tc main_arg18) = m ((c : Thread nD τ).loc main_arg18) :=
  (W52_keep m ρ c main_arg18 (by decide)).trans (W51_arg18 m ρ c)
theorem W53_arg18 (c : Dev nD) : W53 m ρ c (Proc.devRef .tc main_arg18) = m ((c : Thread nD τ).loc main_arg18) :=
  (W53_keep m ρ c main_arg18 (by decide)).trans (W52_arg18 m ρ c)
theorem W54_arg18 (c : Dev nD) : W54 m ρ c (Proc.devRef .tc main_arg18) = m ((c : Thread nD τ).loc main_arg18) :=
  (W54_keep m ρ c main_arg18 (by decide)).trans (W53_arg18 m ρ c)
theorem W55_arg18 (c : Dev nD) : W55 m ρ c (Proc.devRef .tc main_arg18) = m ((c : Thread nD τ).loc main_arg18) :=
  (W55_keep m ρ c main_arg18 (by decide)).trans (W54_arg18 m ρ c)
theorem W56_arg18 (c : Dev nD) : W56 m ρ c (Proc.devRef .tc main_arg18) = m ((c : Thread nD τ).loc main_arg18) :=
  (W56_of_ne m ρ c main_arg18 (by decide)).trans (W55_arg18 m ρ c)
theorem W57_arg18 (c : Dev nD) : W57 m ρ c (Proc.devRef .tc main_arg18) = m ((c : Thread nD τ).loc main_arg18) :=
  (W57_keep m ρ c main_arg18 (by decide)).trans (W56_arg18 m ρ c)
theorem W58_arg18 (c : Dev nD) : W58 m ρ c (Proc.devRef .tc main_arg18) = m ((c : Thread nD τ).loc main_arg18) :=
  (W58_keep m ρ c main_arg18 (by decide)).trans (W57_arg18 m ρ c)
theorem W59_arg18 (c : Dev nD) : W59 m ρ c (Proc.devRef .tc main_arg18) = m ((c : Thread nD τ).loc main_arg18) :=
  (W59_keep m ρ c main_arg18 (by decide)).trans (W58_arg18 m ρ c)
theorem W60_arg18 (c : Dev nD) : W60 m ρ c (Proc.devRef .tc main_arg18) = m ((c : Thread nD τ).loc main_arg18) :=
  (W60_keep m ρ c main_arg18 (by decide)).trans (W59_arg18 m ρ c)
theorem W61_arg18 (c : Dev nD) : W61 m ρ c (Proc.devRef .tc main_arg18) = m ((c : Thread nD τ).loc main_arg18) :=
  (W61_keep m ρ c main_arg18 (by decide)).trans (W60_arg18 m ρ c)
theorem W62_arg18 (c : Dev nD) : W62 m ρ c (Proc.devRef .tc main_arg18) = m ((c : Thread nD τ).loc main_arg18) :=
  (W62_of_ne m ρ c main_arg18 (by decide)).trans (W61_arg18 m ρ c)
theorem W63_arg18 (c : Dev nD) : W63 m ρ c (Proc.devRef .tc main_arg18) = m ((c : Thread nD τ).loc main_arg18) :=
  (W63_keep m ρ c main_arg18 (by decide)).trans (W62_arg18 m ρ c)
theorem W64_arg18 (c : Dev nD) : W64 m ρ c (Proc.devRef .tc main_arg18) = m ((c : Thread nD τ).loc main_arg18) :=
  (W64_keep m ρ c main_arg18 (by decide)).trans (W63_arg18 m ρ c)
theorem W65_arg18 (c : Dev nD) : W65 m ρ c (Proc.devRef .tc main_arg18) = m ((c : Thread nD τ).loc main_arg18) :=
  (W65_keep m ρ c main_arg18 (by decide)).trans (W64_arg18 m ρ c)
theorem W66_arg18 (c : Dev nD) : W66 m ρ c (Proc.devRef .tc main_arg18) = m ((c : Thread nD τ).loc main_arg18) :=
  (W66_keep m ρ c main_arg18 (by decide)).trans (W65_arg18 m ρ c)
theorem W67_arg18 (c : Dev nD) : W67 m ρ c (Proc.devRef .tc main_arg18) = m ((c : Thread nD τ).loc main_arg18) :=
  (W67_keep m ρ c main_arg18 (by decide)).trans (W66_arg18 m ρ c)
theorem W68_arg18 (c : Dev nD) : W68 m ρ c (Proc.devRef .tc main_arg18) = m ((c : Thread nD τ).loc main_arg18) :=
  (W68_of_ne m ρ c main_arg18 (by decide)).trans (W67_arg18 m ρ c)
theorem W69_arg18 (c : Dev nD) : W69 m ρ c (Proc.devRef .tc main_arg18) = m ((c : Thread nD τ).loc main_arg18) :=
  (W69_keep m ρ c main_arg18 (by decide)).trans (W68_arg18 m ρ c)
theorem W70_arg18 (c : Dev nD) : W70 m ρ c (Proc.devRef .tc main_arg18) = m ((c : Thread nD τ).loc main_arg18) :=
  (W70_keep m ρ c main_arg18 (by decide)).trans (W69_arg18 m ρ c)
theorem W71_arg18 (c : Dev nD) : W71 m ρ c (Proc.devRef .tc main_arg18) = m ((c : Thread nD τ).loc main_arg18) :=
  (W71_keep m ρ c main_arg18 (by decide)).trans (W70_arg18 m ρ c)
theorem W72_arg18 (c : Dev nD) : W72 m ρ c (Proc.devRef .tc main_arg18) = m ((c : Thread nD τ).loc main_arg18) :=
  (W72_keep m ρ c main_arg18 (by decide)).trans (W71_arg18 m ρ c)
theorem W73_arg18 (c : Dev nD) : W73 m ρ c (Proc.devRef .tc main_arg18) = m ((c : Thread nD τ).loc main_arg18) :=
  (W73_keep m ρ c main_arg18 (by decide)).trans (W72_arg18 m ρ c)
theorem W74_arg18 (c : Dev nD) : W74 m ρ c (Proc.devRef .tc main_arg18) = m ((c : Thread nD τ).loc main_arg18) :=
  (W74_of_ne m ρ c main_arg18 (by decide)).trans (W73_arg18 m ρ c)
theorem W75_arg18 (c : Dev nD) : W75 m ρ c (Proc.devRef .tc main_arg18) = m ((c : Thread nD τ).loc main_arg18) :=
  (W75_keep m ρ c main_arg18 (by decide)).trans (W74_arg18 m ρ c)
theorem W76_arg18 (c : Dev nD) : W76 m ρ c (Proc.devRef .tc main_arg18) = m ((c : Thread nD τ).loc main_arg18) :=
  (W76_keep m ρ c main_arg18 (by decide)).trans (W75_arg18 m ρ c)
theorem W77_arg18 (c : Dev nD) : W77 m ρ c (Proc.devRef .tc main_arg18) = m ((c : Thread nD τ).loc main_arg18) :=
  (W77_keep m ρ c main_arg18 (by decide)).trans (W76_arg18 m ρ c)
theorem W78_arg18 (c : Dev nD) : W78 m ρ c (Proc.devRef .tc main_arg18) = m ((c : Thread nD τ).loc main_arg18) :=
  (W78_keep m ρ c main_arg18 (by decide)).trans (W77_arg18 m ρ c)
theorem W79_arg18 (c : Dev nD) : W79 m ρ c (Proc.devRef .tc main_arg18) = m ((c : Thread nD τ).loc main_arg18) :=
  (W79_keep m ρ c main_arg18 (by decide)).trans (W78_arg18 m ρ c)
theorem W80_arg18 (c : Dev nD) : W80 m ρ c (Proc.devRef .tc main_arg18) = m ((c : Thread nD τ).loc main_arg18) :=
  (W80_of_ne m ρ c main_arg18 (by decide)).trans (W79_arg18 m ρ c)
theorem W81_arg18 (c : Dev nD) : W81 m ρ c (Proc.devRef .tc main_arg18) = m ((c : Thread nD τ).loc main_arg18) :=
  (W81_keep m ρ c main_arg18 (by decide)).trans (W80_arg18 m ρ c)
theorem W82_arg18 (c : Dev nD) : W82 m ρ c (Proc.devRef .tc main_arg18) = m ((c : Thread nD τ).loc main_arg18) :=
  (W82_keep m ρ c main_arg18 (by decide)).trans (W81_arg18 m ρ c)
theorem W83_arg18 (c : Dev nD) : W83 m ρ c (Proc.devRef .tc main_arg18) = m ((c : Thread nD τ).loc main_arg18) :=
  (W83_keep m ρ c main_arg18 (by decide)).trans (W82_arg18 m ρ c)
theorem W84_arg18 (c : Dev nD) : W84 m ρ c (Proc.devRef .tc main_arg18) = m ((c : Thread nD τ).loc main_arg18) :=
  (W84_keep m ρ c main_arg18 (by decide)).trans (W83_arg18 m ρ c)
theorem W85_arg18 (c : Dev nD) : W85 m ρ c (Proc.devRef .tc main_arg18) = m ((c : Thread nD τ).loc main_arg18) :=
  (W85_keep m ρ c main_arg18 (by decide)).trans (W84_arg18 m ρ c)
theorem W86_arg18 (c : Dev nD) : W86 m ρ c (Proc.devRef .tc main_arg18) = m ((c : Thread nD τ).loc main_arg18) :=
  (W86_of_ne m ρ c main_arg18 (by decide)).trans (W85_arg18 m ρ c)
theorem W87_arg18 (c : Dev nD) : W87 m ρ c (Proc.devRef .tc main_arg18) = m ((c : Thread nD τ).loc main_arg18) :=
  (W87_keep m ρ c main_arg18 (by decide)).trans (W86_arg18 m ρ c)
theorem W88_arg18 (c : Dev nD) : W88 m ρ c (Proc.devRef .tc main_arg18) = m ((c : Thread nD τ).loc main_arg18) :=
  (W88_of_ne m ρ c main_arg18 (by decide)).trans (W87_arg18 m ρ c)
theorem W89_arg18 (c : Dev nD) : W89 m ρ c (Proc.devRef .tc main_arg18) = m ((c : Thread nD τ).loc main_arg18) :=
  (W89_keep m ρ c main_arg18 (by decide)).trans (W88_arg18 m ρ c)
theorem W90_arg18 (c : Dev nD) : W90 m ρ c (Proc.devRef .tc main_arg18) = m ((c : Thread nD τ).loc main_arg18) :=
  (W90_of_ne m ρ c main_arg18 (by decide)).trans (W89_arg18 m ρ c)
theorem W0_arg19 (c : Dev nD) : W0 m ρ c (Proc.devRef .tc main_arg19) = m ((c : Thread nD τ).loc main_arg19) := rfl
theorem W1_arg19 (c : Dev nD) : W1 m ρ c (Proc.devRef .tc main_arg19) = m ((c : Thread nD τ).loc main_arg19) :=
  (W1_keep m ρ c main_arg19 (by decide)).trans (W0_arg19 m ρ c)
theorem W2_arg19 (c : Dev nD) : W2 m ρ c (Proc.devRef .tc main_arg19) = m ((c : Thread nD τ).loc main_arg19) :=
  (W2_of_ne m ρ c main_arg19 (by decide)).trans (W1_arg19 m ρ c)
theorem W3_arg19 (c : Dev nD) : W3 m ρ c (Proc.devRef .tc main_arg19) = m ((c : Thread nD τ).loc main_arg19) :=
  (W3_keep m ρ c main_arg19 (by decide)).trans (W2_arg19 m ρ c)
theorem W4_arg19 (c : Dev nD) : W4 m ρ c (Proc.devRef .tc main_arg19) = m ((c : Thread nD τ).loc main_arg19) :=
  (W4_of_ne m ρ c main_arg19 (by decide)).trans (W3_arg19 m ρ c)
theorem W5_arg19 (c : Dev nD) : W5 m ρ c (Proc.devRef .tc main_arg19) = m ((c : Thread nD τ).loc main_arg19) :=
  (W5_keep m ρ c main_arg19 (by decide)).trans (W4_arg19 m ρ c)
theorem W6_arg19 (c : Dev nD) : W6 m ρ c (Proc.devRef .tc main_arg19) = m ((c : Thread nD τ).loc main_arg19) :=
  (W6_of_ne m ρ c main_arg19 (by decide)).trans (W5_arg19 m ρ c)
theorem W7_arg19 (c : Dev nD) : W7 m ρ c (Proc.devRef .tc main_arg19) = m ((c : Thread nD τ).loc main_arg19) :=
  (W7_keep m ρ c main_arg19 (by decide)).trans (W6_arg19 m ρ c)
theorem W8_arg19 (c : Dev nD) : W8 m ρ c (Proc.devRef .tc main_arg19) = m ((c : Thread nD τ).loc main_arg19) :=
  (W8_of_ne m ρ c main_arg19 (by decide)).trans (W7_arg19 m ρ c)
theorem W9_arg19 (c : Dev nD) : W9 m ρ c (Proc.devRef .tc main_arg19) = m ((c : Thread nD τ).loc main_arg19) :=
  (W9_keep m ρ c main_arg19 (by decide)).trans (W8_arg19 m ρ c)
theorem W10_arg19 (c : Dev nD) : W10 m ρ c (Proc.devRef .tc main_arg19) = m ((c : Thread nD τ).loc main_arg19) :=
  (W10_keep m ρ c main_arg19 (by decide)).trans (W9_arg19 m ρ c)
theorem W11_arg19 (c : Dev nD) : W11 m ρ c (Proc.devRef .tc main_arg19) = m ((c : Thread nD τ).loc main_arg19) :=
  (W11_keep m ρ c main_arg19 (by decide)).trans (W10_arg19 m ρ c)
theorem W12_arg19 (c : Dev nD) : W12 m ρ c (Proc.devRef .tc main_arg19) = m ((c : Thread nD τ).loc main_arg19) :=
  (W12_keep m ρ c main_arg19 (by decide)).trans (W11_arg19 m ρ c)
theorem W13_arg19 (c : Dev nD) : W13 m ρ c (Proc.devRef .tc main_arg19) = m ((c : Thread nD τ).loc main_arg19) :=
  (W13_keep m ρ c main_arg19 (by decide)).trans (W12_arg19 m ρ c)
theorem W14_arg19 (c : Dev nD) : W14 m ρ c (Proc.devRef .tc main_arg19) = m ((c : Thread nD τ).loc main_arg19) :=
  (W14_of_ne m ρ c main_arg19 (by decide)).trans (W13_arg19 m ρ c)
theorem W15_arg19 (c : Dev nD) : W15 m ρ c (Proc.devRef .tc main_arg19) = m ((c : Thread nD τ).loc main_arg19) :=
  (W15_keep m ρ c main_arg19 (by decide)).trans (W14_arg19 m ρ c)
theorem W16_arg19 (c : Dev nD) : W16 m ρ c (Proc.devRef .tc main_arg19) = m ((c : Thread nD τ).loc main_arg19) :=
  (W16_keep m ρ c main_arg19 (by decide)).trans (W15_arg19 m ρ c)
theorem W17_arg19 (c : Dev nD) : W17 m ρ c (Proc.devRef .tc main_arg19) = m ((c : Thread nD τ).loc main_arg19) :=
  (W17_keep m ρ c main_arg19 (by decide)).trans (W16_arg19 m ρ c)
theorem W18_arg19 (c : Dev nD) : W18 m ρ c (Proc.devRef .tc main_arg19) = m ((c : Thread nD τ).loc main_arg19) :=
  (W18_keep m ρ c main_arg19 (by decide)).trans (W17_arg19 m ρ c)
theorem W19_arg19 (c : Dev nD) : W19 m ρ c (Proc.devRef .tc main_arg19) = m ((c : Thread nD τ).loc main_arg19) :=
  (W19_keep m ρ c main_arg19 (by decide)).trans (W18_arg19 m ρ c)
theorem W20_arg19 (c : Dev nD) : W20 m ρ c (Proc.devRef .tc main_arg19) = m ((c : Thread nD τ).loc main_arg19) :=
  (W20_of_ne m ρ c main_arg19 (by decide)).trans (W19_arg19 m ρ c)
theorem W21_arg19 (c : Dev nD) : W21 m ρ c (Proc.devRef .tc main_arg19) = m ((c : Thread nD τ).loc main_arg19) :=
  (W21_keep m ρ c main_arg19 (by decide)).trans (W20_arg19 m ρ c)
theorem W22_arg19 (c : Dev nD) : W22 m ρ c (Proc.devRef .tc main_arg19) = m ((c : Thread nD τ).loc main_arg19) :=
  (W22_keep m ρ c main_arg19 (by decide)).trans (W21_arg19 m ρ c)
theorem W23_arg19 (c : Dev nD) : W23 m ρ c (Proc.devRef .tc main_arg19) = m ((c : Thread nD τ).loc main_arg19) :=
  (W23_keep m ρ c main_arg19 (by decide)).trans (W22_arg19 m ρ c)
theorem W24_arg19 (c : Dev nD) : W24 m ρ c (Proc.devRef .tc main_arg19) = m ((c : Thread nD τ).loc main_arg19) :=
  (W24_keep m ρ c main_arg19 (by decide)).trans (W23_arg19 m ρ c)
theorem W25_arg19 (c : Dev nD) : W25 m ρ c (Proc.devRef .tc main_arg19) = m ((c : Thread nD τ).loc main_arg19) :=
  (W25_keep m ρ c main_arg19 (by decide)).trans (W24_arg19 m ρ c)
theorem W26_arg19 (c : Dev nD) : W26 m ρ c (Proc.devRef .tc main_arg19) = m ((c : Thread nD τ).loc main_arg19) :=
  (W26_of_ne m ρ c main_arg19 (by decide)).trans (W25_arg19 m ρ c)
theorem W27_arg19 (c : Dev nD) : W27 m ρ c (Proc.devRef .tc main_arg19) = m ((c : Thread nD τ).loc main_arg19) :=
  (W27_keep m ρ c main_arg19 (by decide)).trans (W26_arg19 m ρ c)
theorem W28_arg19 (c : Dev nD) : W28 m ρ c (Proc.devRef .tc main_arg19) = m ((c : Thread nD τ).loc main_arg19) :=
  (W28_keep m ρ c main_arg19 (by decide)).trans (W27_arg19 m ρ c)
theorem W29_arg19 (c : Dev nD) : W29 m ρ c (Proc.devRef .tc main_arg19) = m ((c : Thread nD τ).loc main_arg19) :=
  (W29_keep m ρ c main_arg19 (by decide)).trans (W28_arg19 m ρ c)
theorem W30_arg19 (c : Dev nD) : W30 m ρ c (Proc.devRef .tc main_arg19) = m ((c : Thread nD τ).loc main_arg19) :=
  (W30_keep m ρ c main_arg19 (by decide)).trans (W29_arg19 m ρ c)
theorem W31_arg19 (c : Dev nD) : W31 m ρ c (Proc.devRef .tc main_arg19) = m ((c : Thread nD τ).loc main_arg19) :=
  (W31_keep m ρ c main_arg19 (by decide)).trans (W30_arg19 m ρ c)
theorem W32_arg19 (c : Dev nD) : W32 m ρ c (Proc.devRef .tc main_arg19) = m ((c : Thread nD τ).loc main_arg19) :=
  (W32_of_ne m ρ c main_arg19 (by decide)).trans (W31_arg19 m ρ c)
theorem W33_arg19 (c : Dev nD) : W33 m ρ c (Proc.devRef .tc main_arg19) = m ((c : Thread nD τ).loc main_arg19) :=
  (W33_keep m ρ c main_arg19 (by decide)).trans (W32_arg19 m ρ c)
theorem W34_arg19 (c : Dev nD) : W34 m ρ c (Proc.devRef .tc main_arg19) = m ((c : Thread nD τ).loc main_arg19) :=
  (W34_keep m ρ c main_arg19 (by decide)).trans (W33_arg19 m ρ c)
theorem W35_arg19 (c : Dev nD) : W35 m ρ c (Proc.devRef .tc main_arg19) = m ((c : Thread nD τ).loc main_arg19) :=
  (W35_keep m ρ c main_arg19 (by decide)).trans (W34_arg19 m ρ c)
theorem W36_arg19 (c : Dev nD) : W36 m ρ c (Proc.devRef .tc main_arg19) = m ((c : Thread nD τ).loc main_arg19) :=
  (W36_keep m ρ c main_arg19 (by decide)).trans (W35_arg19 m ρ c)
theorem W37_arg19 (c : Dev nD) : W37 m ρ c (Proc.devRef .tc main_arg19) = m ((c : Thread nD τ).loc main_arg19) :=
  (W37_keep m ρ c main_arg19 (by decide)).trans (W36_arg19 m ρ c)
theorem W38_arg19 (c : Dev nD) : W38 m ρ c (Proc.devRef .tc main_arg19) = m ((c : Thread nD τ).loc main_arg19) :=
  (W38_of_ne m ρ c main_arg19 (by decide)).trans (W37_arg19 m ρ c)
theorem W39_arg19 (c : Dev nD) : W39 m ρ c (Proc.devRef .tc main_arg19) = m ((c : Thread nD τ).loc main_arg19) :=
  (W39_keep m ρ c main_arg19 (by decide)).trans (W38_arg19 m ρ c)
theorem W40_arg19 (c : Dev nD) : W40 m ρ c (Proc.devRef .tc main_arg19) = m ((c : Thread nD τ).loc main_arg19) :=
  (W40_keep m ρ c main_arg19 (by decide)).trans (W39_arg19 m ρ c)
theorem W41_arg19 (c : Dev nD) : W41 m ρ c (Proc.devRef .tc main_arg19) = m ((c : Thread nD τ).loc main_arg19) :=
  (W41_keep m ρ c main_arg19 (by decide)).trans (W40_arg19 m ρ c)
theorem W42_arg19 (c : Dev nD) : W42 m ρ c (Proc.devRef .tc main_arg19) = m ((c : Thread nD τ).loc main_arg19) :=
  (W42_keep m ρ c main_arg19 (by decide)).trans (W41_arg19 m ρ c)
theorem W43_arg19 (c : Dev nD) : W43 m ρ c (Proc.devRef .tc main_arg19) = m ((c : Thread nD τ).loc main_arg19) :=
  (W43_keep m ρ c main_arg19 (by decide)).trans (W42_arg19 m ρ c)
theorem W44_arg19 (c : Dev nD) : W44 m ρ c (Proc.devRef .tc main_arg19) = m ((c : Thread nD τ).loc main_arg19) :=
  (W44_of_ne m ρ c main_arg19 (by decide)).trans (W43_arg19 m ρ c)
theorem W45_arg19 (c : Dev nD) : W45 m ρ c (Proc.devRef .tc main_arg19) = m ((c : Thread nD τ).loc main_arg19) :=
  (W45_keep m ρ c main_arg19 (by decide)).trans (W44_arg19 m ρ c)
theorem W46_arg19 (c : Dev nD) : W46 m ρ c (Proc.devRef .tc main_arg19) = m ((c : Thread nD τ).loc main_arg19) :=
  (W46_of_ne m ρ c main_arg19 (by decide)).trans (W45_arg19 m ρ c)
theorem W47_arg19 (c : Dev nD) : W47 m ρ c (Proc.devRef .tc main_arg19) = m ((c : Thread nD τ).loc main_arg19) :=
  (W47_keep m ρ c main_arg19 (by decide)).trans (W46_arg19 m ρ c)
theorem W48_arg19 (c : Dev nD) : W48 m ρ c (Proc.devRef .tc main_arg19) = m ((c : Thread nD τ).loc main_arg19) :=
  (W48_of_ne m ρ c main_arg19 (by decide)).trans (W47_arg19 m ρ c)
theorem W49_arg19 (c : Dev nD) : W49 m ρ c (Proc.devRef .tc main_arg19) = m ((c : Thread nD τ).loc main_arg19) :=
  (W49_keep m ρ c main_arg19 (by decide)).trans (W48_arg19 m ρ c)
theorem W50_arg19 (c : Dev nD) : W50 m ρ c (Proc.devRef .tc main_arg19) = m ((c : Thread nD τ).loc main_arg19) :=
  (W50_of_ne m ρ c main_arg19 (by decide)).trans (W49_arg19 m ρ c)
theorem W51_arg19 (c : Dev nD) : W51 m ρ c (Proc.devRef .tc main_arg19) = m ((c : Thread nD τ).loc main_arg19) :=
  (W51_keep m ρ c main_arg19 (by decide)).trans (W50_arg19 m ρ c)
theorem W52_arg19 (c : Dev nD) : W52 m ρ c (Proc.devRef .tc main_arg19) = m ((c : Thread nD τ).loc main_arg19) :=
  (W52_keep m ρ c main_arg19 (by decide)).trans (W51_arg19 m ρ c)
theorem W53_arg19 (c : Dev nD) : W53 m ρ c (Proc.devRef .tc main_arg19) = m ((c : Thread nD τ).loc main_arg19) :=
  (W53_keep m ρ c main_arg19 (by decide)).trans (W52_arg19 m ρ c)
theorem W54_arg19 (c : Dev nD) : W54 m ρ c (Proc.devRef .tc main_arg19) = m ((c : Thread nD τ).loc main_arg19) :=
  (W54_keep m ρ c main_arg19 (by decide)).trans (W53_arg19 m ρ c)
theorem W55_arg19 (c : Dev nD) : W55 m ρ c (Proc.devRef .tc main_arg19) = m ((c : Thread nD τ).loc main_arg19) :=
  (W55_keep m ρ c main_arg19 (by decide)).trans (W54_arg19 m ρ c)
theorem W56_arg19 (c : Dev nD) : W56 m ρ c (Proc.devRef .tc main_arg19) = m ((c : Thread nD τ).loc main_arg19) :=
  (W56_of_ne m ρ c main_arg19 (by decide)).trans (W55_arg19 m ρ c)
theorem W57_arg19 (c : Dev nD) : W57 m ρ c (Proc.devRef .tc main_arg19) = m ((c : Thread nD τ).loc main_arg19) :=
  (W57_keep m ρ c main_arg19 (by decide)).trans (W56_arg19 m ρ c)
theorem W58_arg19 (c : Dev nD) : W58 m ρ c (Proc.devRef .tc main_arg19) = m ((c : Thread nD τ).loc main_arg19) :=
  (W58_keep m ρ c main_arg19 (by decide)).trans (W57_arg19 m ρ c)
theorem W59_arg19 (c : Dev nD) : W59 m ρ c (Proc.devRef .tc main_arg19) = m ((c : Thread nD τ).loc main_arg19) :=
  (W59_keep m ρ c main_arg19 (by decide)).trans (W58_arg19 m ρ c)
theorem W60_arg19 (c : Dev nD) : W60 m ρ c (Proc.devRef .tc main_arg19) = m ((c : Thread nD τ).loc main_arg19) :=
  (W60_keep m ρ c main_arg19 (by decide)).trans (W59_arg19 m ρ c)
theorem W61_arg19 (c : Dev nD) : W61 m ρ c (Proc.devRef .tc main_arg19) = m ((c : Thread nD τ).loc main_arg19) :=
  (W61_keep m ρ c main_arg19 (by decide)).trans (W60_arg19 m ρ c)
theorem W62_arg19 (c : Dev nD) : W62 m ρ c (Proc.devRef .tc main_arg19) = m ((c : Thread nD τ).loc main_arg19) :=
  (W62_of_ne m ρ c main_arg19 (by decide)).trans (W61_arg19 m ρ c)
theorem W63_arg19 (c : Dev nD) : W63 m ρ c (Proc.devRef .tc main_arg19) = m ((c : Thread nD τ).loc main_arg19) :=
  (W63_keep m ρ c main_arg19 (by decide)).trans (W62_arg19 m ρ c)
theorem W64_arg19 (c : Dev nD) : W64 m ρ c (Proc.devRef .tc main_arg19) = m ((c : Thread nD τ).loc main_arg19) :=
  (W64_keep m ρ c main_arg19 (by decide)).trans (W63_arg19 m ρ c)
theorem W65_arg19 (c : Dev nD) : W65 m ρ c (Proc.devRef .tc main_arg19) = m ((c : Thread nD τ).loc main_arg19) :=
  (W65_keep m ρ c main_arg19 (by decide)).trans (W64_arg19 m ρ c)
theorem W66_arg19 (c : Dev nD) : W66 m ρ c (Proc.devRef .tc main_arg19) = m ((c : Thread nD τ).loc main_arg19) :=
  (W66_keep m ρ c main_arg19 (by decide)).trans (W65_arg19 m ρ c)
theorem W67_arg19 (c : Dev nD) : W67 m ρ c (Proc.devRef .tc main_arg19) = m ((c : Thread nD τ).loc main_arg19) :=
  (W67_keep m ρ c main_arg19 (by decide)).trans (W66_arg19 m ρ c)
theorem W68_arg19 (c : Dev nD) : W68 m ρ c (Proc.devRef .tc main_arg19) = m ((c : Thread nD τ).loc main_arg19) :=
  (W68_of_ne m ρ c main_arg19 (by decide)).trans (W67_arg19 m ρ c)
theorem W69_arg19 (c : Dev nD) : W69 m ρ c (Proc.devRef .tc main_arg19) = m ((c : Thread nD τ).loc main_arg19) :=
  (W69_keep m ρ c main_arg19 (by decide)).trans (W68_arg19 m ρ c)
theorem W70_arg19 (c : Dev nD) : W70 m ρ c (Proc.devRef .tc main_arg19) = m ((c : Thread nD τ).loc main_arg19) :=
  (W70_keep m ρ c main_arg19 (by decide)).trans (W69_arg19 m ρ c)
theorem W71_arg19 (c : Dev nD) : W71 m ρ c (Proc.devRef .tc main_arg19) = m ((c : Thread nD τ).loc main_arg19) :=
  (W71_keep m ρ c main_arg19 (by decide)).trans (W70_arg19 m ρ c)
theorem W72_arg19 (c : Dev nD) : W72 m ρ c (Proc.devRef .tc main_arg19) = m ((c : Thread nD τ).loc main_arg19) :=
  (W72_keep m ρ c main_arg19 (by decide)).trans (W71_arg19 m ρ c)
theorem W73_arg19 (c : Dev nD) : W73 m ρ c (Proc.devRef .tc main_arg19) = m ((c : Thread nD τ).loc main_arg19) :=
  (W73_keep m ρ c main_arg19 (by decide)).trans (W72_arg19 m ρ c)
theorem W74_arg19 (c : Dev nD) : W74 m ρ c (Proc.devRef .tc main_arg19) = m ((c : Thread nD τ).loc main_arg19) :=
  (W74_of_ne m ρ c main_arg19 (by decide)).trans (W73_arg19 m ρ c)
theorem W75_arg19 (c : Dev nD) : W75 m ρ c (Proc.devRef .tc main_arg19) = m ((c : Thread nD τ).loc main_arg19) :=
  (W75_keep m ρ c main_arg19 (by decide)).trans (W74_arg19 m ρ c)
theorem W76_arg19 (c : Dev nD) : W76 m ρ c (Proc.devRef .tc main_arg19) = m ((c : Thread nD τ).loc main_arg19) :=
  (W76_keep m ρ c main_arg19 (by decide)).trans (W75_arg19 m ρ c)
theorem W77_arg19 (c : Dev nD) : W77 m ρ c (Proc.devRef .tc main_arg19) = m ((c : Thread nD τ).loc main_arg19) :=
  (W77_keep m ρ c main_arg19 (by decide)).trans (W76_arg19 m ρ c)
theorem W78_arg19 (c : Dev nD) : W78 m ρ c (Proc.devRef .tc main_arg19) = m ((c : Thread nD τ).loc main_arg19) :=
  (W78_keep m ρ c main_arg19 (by decide)).trans (W77_arg19 m ρ c)
theorem W79_arg19 (c : Dev nD) : W79 m ρ c (Proc.devRef .tc main_arg19) = m ((c : Thread nD τ).loc main_arg19) :=
  (W79_keep m ρ c main_arg19 (by decide)).trans (W78_arg19 m ρ c)
theorem W80_arg19 (c : Dev nD) : W80 m ρ c (Proc.devRef .tc main_arg19) = m ((c : Thread nD τ).loc main_arg19) :=
  (W80_of_ne m ρ c main_arg19 (by decide)).trans (W79_arg19 m ρ c)
theorem W81_arg19 (c : Dev nD) : W81 m ρ c (Proc.devRef .tc main_arg19) = m ((c : Thread nD τ).loc main_arg19) :=
  (W81_keep m ρ c main_arg19 (by decide)).trans (W80_arg19 m ρ c)
theorem W82_arg19 (c : Dev nD) : W82 m ρ c (Proc.devRef .tc main_arg19) = m ((c : Thread nD τ).loc main_arg19) :=
  (W82_keep m ρ c main_arg19 (by decide)).trans (W81_arg19 m ρ c)
theorem W83_arg19 (c : Dev nD) : W83 m ρ c (Proc.devRef .tc main_arg19) = m ((c : Thread nD τ).loc main_arg19) :=
  (W83_keep m ρ c main_arg19 (by decide)).trans (W82_arg19 m ρ c)
theorem W84_arg19 (c : Dev nD) : W84 m ρ c (Proc.devRef .tc main_arg19) = m ((c : Thread nD τ).loc main_arg19) :=
  (W84_keep m ρ c main_arg19 (by decide)).trans (W83_arg19 m ρ c)
theorem W85_arg19 (c : Dev nD) : W85 m ρ c (Proc.devRef .tc main_arg19) = m ((c : Thread nD τ).loc main_arg19) :=
  (W85_keep m ρ c main_arg19 (by decide)).trans (W84_arg19 m ρ c)
theorem W86_arg19 (c : Dev nD) : W86 m ρ c (Proc.devRef .tc main_arg19) = m ((c : Thread nD τ).loc main_arg19) :=
  (W86_of_ne m ρ c main_arg19 (by decide)).trans (W85_arg19 m ρ c)
theorem W87_arg19 (c : Dev nD) : W87 m ρ c (Proc.devRef .tc main_arg19) = m ((c : Thread nD τ).loc main_arg19) :=
  (W87_keep m ρ c main_arg19 (by decide)).trans (W86_arg19 m ρ c)
theorem W88_arg19 (c : Dev nD) : W88 m ρ c (Proc.devRef .tc main_arg19) = m ((c : Thread nD τ).loc main_arg19) :=
  (W88_of_ne m ρ c main_arg19 (by decide)).trans (W87_arg19 m ρ c)
theorem W89_arg19 (c : Dev nD) : W89 m ρ c (Proc.devRef .tc main_arg19) = m ((c : Thread nD τ).loc main_arg19) :=
  (W89_keep m ρ c main_arg19 (by decide)).trans (W88_arg19 m ρ c)
theorem W90_arg19 (c : Dev nD) : W90 m ρ c (Proc.devRef .tc main_arg19) = m ((c : Thread nD τ).loc main_arg19) :=
  (W90_of_ne m ρ c main_arg19 (by decide)).trans (W89_arg19 m ρ c)
theorem W0_arg20 (c : Dev nD) : W0 m ρ c (Proc.devRef .tc main_arg20) = m ((c : Thread nD τ).loc main_arg20) := rfl
theorem W1_arg20 (c : Dev nD) : W1 m ρ c (Proc.devRef .tc main_arg20) = m ((c : Thread nD τ).loc main_arg20) :=
  (W1_keep m ρ c main_arg20 (by decide)).trans (W0_arg20 m ρ c)
theorem W2_arg20 (c : Dev nD) : W2 m ρ c (Proc.devRef .tc main_arg20) = m ((c : Thread nD τ).loc main_arg20) :=
  (W2_of_ne m ρ c main_arg20 (by decide)).trans (W1_arg20 m ρ c)
theorem W3_arg20 (c : Dev nD) : W3 m ρ c (Proc.devRef .tc main_arg20) = m ((c : Thread nD τ).loc main_arg20) :=
  (W3_keep m ρ c main_arg20 (by decide)).trans (W2_arg20 m ρ c)
theorem W4_arg20 (c : Dev nD) : W4 m ρ c (Proc.devRef .tc main_arg20) = m ((c : Thread nD τ).loc main_arg20) :=
  (W4_of_ne m ρ c main_arg20 (by decide)).trans (W3_arg20 m ρ c)
theorem W5_arg20 (c : Dev nD) : W5 m ρ c (Proc.devRef .tc main_arg20) = m ((c : Thread nD τ).loc main_arg20) :=
  (W5_keep m ρ c main_arg20 (by decide)).trans (W4_arg20 m ρ c)
theorem W6_arg20 (c : Dev nD) : W6 m ρ c (Proc.devRef .tc main_arg20) = m ((c : Thread nD τ).loc main_arg20) :=
  (W6_of_ne m ρ c main_arg20 (by decide)).trans (W5_arg20 m ρ c)
theorem W7_arg20 (c : Dev nD) : W7 m ρ c (Proc.devRef .tc main_arg20) = m ((c : Thread nD τ).loc main_arg20) :=
  (W7_keep m ρ c main_arg20 (by decide)).trans (W6_arg20 m ρ c)
theorem W8_arg20 (c : Dev nD) : W8 m ρ c (Proc.devRef .tc main_arg20) = m ((c : Thread nD τ).loc main_arg20) :=
  (W8_of_ne m ρ c main_arg20 (by decide)).trans (W7_arg20 m ρ c)
theorem W9_arg20 (c : Dev nD) : W9 m ρ c (Proc.devRef .tc main_arg20) = m ((c : Thread nD τ).loc main_arg20) :=
  (W9_keep m ρ c main_arg20 (by decide)).trans (W8_arg20 m ρ c)
theorem W10_arg20 (c : Dev nD) : W10 m ρ c (Proc.devRef .tc main_arg20) = m ((c : Thread nD τ).loc main_arg20) :=
  (W10_keep m ρ c main_arg20 (by decide)).trans (W9_arg20 m ρ c)
theorem W11_arg20 (c : Dev nD) : W11 m ρ c (Proc.devRef .tc main_arg20) = m ((c : Thread nD τ).loc main_arg20) :=
  (W11_keep m ρ c main_arg20 (by decide)).trans (W10_arg20 m ρ c)
theorem W12_arg20 (c : Dev nD) : W12 m ρ c (Proc.devRef .tc main_arg20) = m ((c : Thread nD τ).loc main_arg20) :=
  (W12_keep m ρ c main_arg20 (by decide)).trans (W11_arg20 m ρ c)
theorem W13_arg20 (c : Dev nD) : W13 m ρ c (Proc.devRef .tc main_arg20) = m ((c : Thread nD τ).loc main_arg20) :=
  (W13_keep m ρ c main_arg20 (by decide)).trans (W12_arg20 m ρ c)
theorem W14_arg20 (c : Dev nD) : W14 m ρ c (Proc.devRef .tc main_arg20) = m ((c : Thread nD τ).loc main_arg20) :=
  (W14_of_ne m ρ c main_arg20 (by decide)).trans (W13_arg20 m ρ c)
theorem W15_arg20 (c : Dev nD) : W15 m ρ c (Proc.devRef .tc main_arg20) = m ((c : Thread nD τ).loc main_arg20) :=
  (W15_keep m ρ c main_arg20 (by decide)).trans (W14_arg20 m ρ c)
theorem W16_arg20 (c : Dev nD) : W16 m ρ c (Proc.devRef .tc main_arg20) = m ((c : Thread nD τ).loc main_arg20) :=
  (W16_keep m ρ c main_arg20 (by decide)).trans (W15_arg20 m ρ c)
theorem W17_arg20 (c : Dev nD) : W17 m ρ c (Proc.devRef .tc main_arg20) = m ((c : Thread nD τ).loc main_arg20) :=
  (W17_keep m ρ c main_arg20 (by decide)).trans (W16_arg20 m ρ c)
theorem W18_arg20 (c : Dev nD) : W18 m ρ c (Proc.devRef .tc main_arg20) = m ((c : Thread nD τ).loc main_arg20) :=
  (W18_keep m ρ c main_arg20 (by decide)).trans (W17_arg20 m ρ c)
theorem W19_arg20 (c : Dev nD) : W19 m ρ c (Proc.devRef .tc main_arg20) = m ((c : Thread nD τ).loc main_arg20) :=
  (W19_keep m ρ c main_arg20 (by decide)).trans (W18_arg20 m ρ c)
theorem W20_arg20 (c : Dev nD) : W20 m ρ c (Proc.devRef .tc main_arg20) = m ((c : Thread nD τ).loc main_arg20) :=
  (W20_of_ne m ρ c main_arg20 (by decide)).trans (W19_arg20 m ρ c)
theorem W21_arg20 (c : Dev nD) : W21 m ρ c (Proc.devRef .tc main_arg20) = m ((c : Thread nD τ).loc main_arg20) :=
  (W21_keep m ρ c main_arg20 (by decide)).trans (W20_arg20 m ρ c)
theorem W22_arg20 (c : Dev nD) : W22 m ρ c (Proc.devRef .tc main_arg20) = m ((c : Thread nD τ).loc main_arg20) :=
  (W22_keep m ρ c main_arg20 (by decide)).trans (W21_arg20 m ρ c)
theorem W23_arg20 (c : Dev nD) : W23 m ρ c (Proc.devRef .tc main_arg20) = m ((c : Thread nD τ).loc main_arg20) :=
  (W23_keep m ρ c main_arg20 (by decide)).trans (W22_arg20 m ρ c)
theorem W24_arg20 (c : Dev nD) : W24 m ρ c (Proc.devRef .tc main_arg20) = m ((c : Thread nD τ).loc main_arg20) :=
  (W24_keep m ρ c main_arg20 (by decide)).trans (W23_arg20 m ρ c)
theorem W25_arg20 (c : Dev nD) : W25 m ρ c (Proc.devRef .tc main_arg20) = m ((c : Thread nD τ).loc main_arg20) :=
  (W25_keep m ρ c main_arg20 (by decide)).trans (W24_arg20 m ρ c)
theorem W26_arg20 (c : Dev nD) : W26 m ρ c (Proc.devRef .tc main_arg20) = m ((c : Thread nD τ).loc main_arg20) :=
  (W26_of_ne m ρ c main_arg20 (by decide)).trans (W25_arg20 m ρ c)
theorem W27_arg20 (c : Dev nD) : W27 m ρ c (Proc.devRef .tc main_arg20) = m ((c : Thread nD τ).loc main_arg20) :=
  (W27_keep m ρ c main_arg20 (by decide)).trans (W26_arg20 m ρ c)
theorem W28_arg20 (c : Dev nD) : W28 m ρ c (Proc.devRef .tc main_arg20) = m ((c : Thread nD τ).loc main_arg20) :=
  (W28_keep m ρ c main_arg20 (by decide)).trans (W27_arg20 m ρ c)
theorem W29_arg20 (c : Dev nD) : W29 m ρ c (Proc.devRef .tc main_arg20) = m ((c : Thread nD τ).loc main_arg20) :=
  (W29_keep m ρ c main_arg20 (by decide)).trans (W28_arg20 m ρ c)
theorem W30_arg20 (c : Dev nD) : W30 m ρ c (Proc.devRef .tc main_arg20) = m ((c : Thread nD τ).loc main_arg20) :=
  (W30_keep m ρ c main_arg20 (by decide)).trans (W29_arg20 m ρ c)
theorem W31_arg20 (c : Dev nD) : W31 m ρ c (Proc.devRef .tc main_arg20) = m ((c : Thread nD τ).loc main_arg20) :=
  (W31_keep m ρ c main_arg20 (by decide)).trans (W30_arg20 m ρ c)
theorem W32_arg20 (c : Dev nD) : W32 m ρ c (Proc.devRef .tc main_arg20) = m ((c : Thread nD τ).loc main_arg20) :=
  (W32_of_ne m ρ c main_arg20 (by decide)).trans (W31_arg20 m ρ c)
theorem W33_arg20 (c : Dev nD) : W33 m ρ c (Proc.devRef .tc main_arg20) = m ((c : Thread nD τ).loc main_arg20) :=
  (W33_keep m ρ c main_arg20 (by decide)).trans (W32_arg20 m ρ c)
theorem W34_arg20 (c : Dev nD) : W34 m ρ c (Proc.devRef .tc main_arg20) = m ((c : Thread nD τ).loc main_arg20) :=
  (W34_keep m ρ c main_arg20 (by decide)).trans (W33_arg20 m ρ c)
theorem W35_arg20 (c : Dev nD) : W35 m ρ c (Proc.devRef .tc main_arg20) = m ((c : Thread nD τ).loc main_arg20) :=
  (W35_keep m ρ c main_arg20 (by decide)).trans (W34_arg20 m ρ c)
theorem W36_arg20 (c : Dev nD) : W36 m ρ c (Proc.devRef .tc main_arg20) = m ((c : Thread nD τ).loc main_arg20) :=
  (W36_keep m ρ c main_arg20 (by decide)).trans (W35_arg20 m ρ c)
theorem W37_arg20 (c : Dev nD) : W37 m ρ c (Proc.devRef .tc main_arg20) = m ((c : Thread nD τ).loc main_arg20) :=
  (W37_keep m ρ c main_arg20 (by decide)).trans (W36_arg20 m ρ c)
theorem W38_arg20 (c : Dev nD) : W38 m ρ c (Proc.devRef .tc main_arg20) = m ((c : Thread nD τ).loc main_arg20) :=
  (W38_of_ne m ρ c main_arg20 (by decide)).trans (W37_arg20 m ρ c)
theorem W39_arg20 (c : Dev nD) : W39 m ρ c (Proc.devRef .tc main_arg20) = m ((c : Thread nD τ).loc main_arg20) :=
  (W39_keep m ρ c main_arg20 (by decide)).trans (W38_arg20 m ρ c)
theorem W40_arg20 (c : Dev nD) : W40 m ρ c (Proc.devRef .tc main_arg20) = m ((c : Thread nD τ).loc main_arg20) :=
  (W40_keep m ρ c main_arg20 (by decide)).trans (W39_arg20 m ρ c)
theorem W41_arg20 (c : Dev nD) : W41 m ρ c (Proc.devRef .tc main_arg20) = m ((c : Thread nD τ).loc main_arg20) :=
  (W41_keep m ρ c main_arg20 (by decide)).trans (W40_arg20 m ρ c)
theorem W42_arg20 (c : Dev nD) : W42 m ρ c (Proc.devRef .tc main_arg20) = m ((c : Thread nD τ).loc main_arg20) :=
  (W42_keep m ρ c main_arg20 (by decide)).trans (W41_arg20 m ρ c)
theorem W43_arg20 (c : Dev nD) : W43 m ρ c (Proc.devRef .tc main_arg20) = m ((c : Thread nD τ).loc main_arg20) :=
  (W43_keep m ρ c main_arg20 (by decide)).trans (W42_arg20 m ρ c)
theorem W44_arg20 (c : Dev nD) : W44 m ρ c (Proc.devRef .tc main_arg20) = m ((c : Thread nD τ).loc main_arg20) :=
  (W44_of_ne m ρ c main_arg20 (by decide)).trans (W43_arg20 m ρ c)
theorem W45_arg20 (c : Dev nD) : W45 m ρ c (Proc.devRef .tc main_arg20) = m ((c : Thread nD τ).loc main_arg20) :=
  (W45_keep m ρ c main_arg20 (by decide)).trans (W44_arg20 m ρ c)
theorem W46_arg20 (c : Dev nD) : W46 m ρ c (Proc.devRef .tc main_arg20) = m ((c : Thread nD τ).loc main_arg20) :=
  (W46_of_ne m ρ c main_arg20 (by decide)).trans (W45_arg20 m ρ c)
theorem W47_arg20 (c : Dev nD) : W47 m ρ c (Proc.devRef .tc main_arg20) = m ((c : Thread nD τ).loc main_arg20) :=
  (W47_keep m ρ c main_arg20 (by decide)).trans (W46_arg20 m ρ c)
theorem W48_arg20 (c : Dev nD) : W48 m ρ c (Proc.devRef .tc main_arg20) = m ((c : Thread nD τ).loc main_arg20) :=
  (W48_of_ne m ρ c main_arg20 (by decide)).trans (W47_arg20 m ρ c)
theorem W49_arg20 (c : Dev nD) : W49 m ρ c (Proc.devRef .tc main_arg20) = m ((c : Thread nD τ).loc main_arg20) :=
  (W49_keep m ρ c main_arg20 (by decide)).trans (W48_arg20 m ρ c)
theorem W50_arg20 (c : Dev nD) : W50 m ρ c (Proc.devRef .tc main_arg20) = m ((c : Thread nD τ).loc main_arg20) :=
  (W50_of_ne m ρ c main_arg20 (by decide)).trans (W49_arg20 m ρ c)
theorem W51_arg20 (c : Dev nD) : W51 m ρ c (Proc.devRef .tc main_arg20) = m ((c : Thread nD τ).loc main_arg20) :=
  (W51_keep m ρ c main_arg20 (by decide)).trans (W50_arg20 m ρ c)
theorem W52_arg20 (c : Dev nD) : W52 m ρ c (Proc.devRef .tc main_arg20) = m ((c : Thread nD τ).loc main_arg20) :=
  (W52_keep m ρ c main_arg20 (by decide)).trans (W51_arg20 m ρ c)
theorem W53_arg20 (c : Dev nD) : W53 m ρ c (Proc.devRef .tc main_arg20) = m ((c : Thread nD τ).loc main_arg20) :=
  (W53_keep m ρ c main_arg20 (by decide)).trans (W52_arg20 m ρ c)
theorem W54_arg20 (c : Dev nD) : W54 m ρ c (Proc.devRef .tc main_arg20) = m ((c : Thread nD τ).loc main_arg20) :=
  (W54_keep m ρ c main_arg20 (by decide)).trans (W53_arg20 m ρ c)
theorem W55_arg20 (c : Dev nD) : W55 m ρ c (Proc.devRef .tc main_arg20) = m ((c : Thread nD τ).loc main_arg20) :=
  (W55_keep m ρ c main_arg20 (by decide)).trans (W54_arg20 m ρ c)
theorem W56_arg20 (c : Dev nD) : W56 m ρ c (Proc.devRef .tc main_arg20) = m ((c : Thread nD τ).loc main_arg20) :=
  (W56_of_ne m ρ c main_arg20 (by decide)).trans (W55_arg20 m ρ c)
theorem W57_arg20 (c : Dev nD) : W57 m ρ c (Proc.devRef .tc main_arg20) = m ((c : Thread nD τ).loc main_arg20) :=
  (W57_keep m ρ c main_arg20 (by decide)).trans (W56_arg20 m ρ c)
theorem W58_arg20 (c : Dev nD) : W58 m ρ c (Proc.devRef .tc main_arg20) = m ((c : Thread nD τ).loc main_arg20) :=
  (W58_keep m ρ c main_arg20 (by decide)).trans (W57_arg20 m ρ c)
theorem W59_arg20 (c : Dev nD) : W59 m ρ c (Proc.devRef .tc main_arg20) = m ((c : Thread nD τ).loc main_arg20) :=
  (W59_keep m ρ c main_arg20 (by decide)).trans (W58_arg20 m ρ c)
theorem W60_arg20 (c : Dev nD) : W60 m ρ c (Proc.devRef .tc main_arg20) = m ((c : Thread nD τ).loc main_arg20) :=
  (W60_keep m ρ c main_arg20 (by decide)).trans (W59_arg20 m ρ c)
theorem W61_arg20 (c : Dev nD) : W61 m ρ c (Proc.devRef .tc main_arg20) = m ((c : Thread nD τ).loc main_arg20) :=
  (W61_keep m ρ c main_arg20 (by decide)).trans (W60_arg20 m ρ c)
theorem W62_arg20 (c : Dev nD) : W62 m ρ c (Proc.devRef .tc main_arg20) = m ((c : Thread nD τ).loc main_arg20) :=
  (W62_of_ne m ρ c main_arg20 (by decide)).trans (W61_arg20 m ρ c)
theorem W63_arg20 (c : Dev nD) : W63 m ρ c (Proc.devRef .tc main_arg20) = m ((c : Thread nD τ).loc main_arg20) :=
  (W63_keep m ρ c main_arg20 (by decide)).trans (W62_arg20 m ρ c)
theorem W64_arg20 (c : Dev nD) : W64 m ρ c (Proc.devRef .tc main_arg20) = m ((c : Thread nD τ).loc main_arg20) :=
  (W64_keep m ρ c main_arg20 (by decide)).trans (W63_arg20 m ρ c)
theorem W65_arg20 (c : Dev nD) : W65 m ρ c (Proc.devRef .tc main_arg20) = m ((c : Thread nD τ).loc main_arg20) :=
  (W65_keep m ρ c main_arg20 (by decide)).trans (W64_arg20 m ρ c)
theorem W66_arg20 (c : Dev nD) : W66 m ρ c (Proc.devRef .tc main_arg20) = m ((c : Thread nD τ).loc main_arg20) :=
  (W66_keep m ρ c main_arg20 (by decide)).trans (W65_arg20 m ρ c)
theorem W67_arg20 (c : Dev nD) : W67 m ρ c (Proc.devRef .tc main_arg20) = m ((c : Thread nD τ).loc main_arg20) :=
  (W67_keep m ρ c main_arg20 (by decide)).trans (W66_arg20 m ρ c)
theorem W68_arg20 (c : Dev nD) : W68 m ρ c (Proc.devRef .tc main_arg20) = m ((c : Thread nD τ).loc main_arg20) :=
  (W68_of_ne m ρ c main_arg20 (by decide)).trans (W67_arg20 m ρ c)
theorem W69_arg20 (c : Dev nD) : W69 m ρ c (Proc.devRef .tc main_arg20) = m ((c : Thread nD τ).loc main_arg20) :=
  (W69_keep m ρ c main_arg20 (by decide)).trans (W68_arg20 m ρ c)
theorem W70_arg20 (c : Dev nD) : W70 m ρ c (Proc.devRef .tc main_arg20) = m ((c : Thread nD τ).loc main_arg20) :=
  (W70_keep m ρ c main_arg20 (by decide)).trans (W69_arg20 m ρ c)
theorem W71_arg20 (c : Dev nD) : W71 m ρ c (Proc.devRef .tc main_arg20) = m ((c : Thread nD τ).loc main_arg20) :=
  (W71_keep m ρ c main_arg20 (by decide)).trans (W70_arg20 m ρ c)
theorem W72_arg20 (c : Dev nD) : W72 m ρ c (Proc.devRef .tc main_arg20) = m ((c : Thread nD τ).loc main_arg20) :=
  (W72_keep m ρ c main_arg20 (by decide)).trans (W71_arg20 m ρ c)
theorem W73_arg20 (c : Dev nD) : W73 m ρ c (Proc.devRef .tc main_arg20) = m ((c : Thread nD τ).loc main_arg20) :=
  (W73_keep m ρ c main_arg20 (by decide)).trans (W72_arg20 m ρ c)
theorem W74_arg20 (c : Dev nD) : W74 m ρ c (Proc.devRef .tc main_arg20) = m ((c : Thread nD τ).loc main_arg20) :=
  (W74_of_ne m ρ c main_arg20 (by decide)).trans (W73_arg20 m ρ c)
theorem W75_arg20 (c : Dev nD) : W75 m ρ c (Proc.devRef .tc main_arg20) = m ((c : Thread nD τ).loc main_arg20) :=
  (W75_keep m ρ c main_arg20 (by decide)).trans (W74_arg20 m ρ c)
theorem W76_arg20 (c : Dev nD) : W76 m ρ c (Proc.devRef .tc main_arg20) = m ((c : Thread nD τ).loc main_arg20) :=
  (W76_keep m ρ c main_arg20 (by decide)).trans (W75_arg20 m ρ c)
theorem W77_arg20 (c : Dev nD) : W77 m ρ c (Proc.devRef .tc main_arg20) = m ((c : Thread nD τ).loc main_arg20) :=
  (W77_keep m ρ c main_arg20 (by decide)).trans (W76_arg20 m ρ c)
theorem W78_arg20 (c : Dev nD) : W78 m ρ c (Proc.devRef .tc main_arg20) = m ((c : Thread nD τ).loc main_arg20) :=
  (W78_keep m ρ c main_arg20 (by decide)).trans (W77_arg20 m ρ c)
theorem W79_arg20 (c : Dev nD) : W79 m ρ c (Proc.devRef .tc main_arg20) = m ((c : Thread nD τ).loc main_arg20) :=
  (W79_keep m ρ c main_arg20 (by decide)).trans (W78_arg20 m ρ c)
theorem W80_arg20 (c : Dev nD) : W80 m ρ c (Proc.devRef .tc main_arg20) = m ((c : Thread nD τ).loc main_arg20) :=
  (W80_of_ne m ρ c main_arg20 (by decide)).trans (W79_arg20 m ρ c)
theorem W81_arg20 (c : Dev nD) : W81 m ρ c (Proc.devRef .tc main_arg20) = m ((c : Thread nD τ).loc main_arg20) :=
  (W81_keep m ρ c main_arg20 (by decide)).trans (W80_arg20 m ρ c)
theorem W82_arg20 (c : Dev nD) : W82 m ρ c (Proc.devRef .tc main_arg20) = m ((c : Thread nD τ).loc main_arg20) :=
  (W82_keep m ρ c main_arg20 (by decide)).trans (W81_arg20 m ρ c)
theorem W83_arg20 (c : Dev nD) : W83 m ρ c (Proc.devRef .tc main_arg20) = m ((c : Thread nD τ).loc main_arg20) :=
  (W83_keep m ρ c main_arg20 (by decide)).trans (W82_arg20 m ρ c)
theorem W84_arg20 (c : Dev nD) : W84 m ρ c (Proc.devRef .tc main_arg20) = m ((c : Thread nD τ).loc main_arg20) :=
  (W84_keep m ρ c main_arg20 (by decide)).trans (W83_arg20 m ρ c)
theorem W85_arg20 (c : Dev nD) : W85 m ρ c (Proc.devRef .tc main_arg20) = m ((c : Thread nD τ).loc main_arg20) :=
  (W85_keep m ρ c main_arg20 (by decide)).trans (W84_arg20 m ρ c)
theorem W86_arg20 (c : Dev nD) : W86 m ρ c (Proc.devRef .tc main_arg20) = m ((c : Thread nD τ).loc main_arg20) :=
  (W86_of_ne m ρ c main_arg20 (by decide)).trans (W85_arg20 m ρ c)
theorem W87_arg20 (c : Dev nD) : W87 m ρ c (Proc.devRef .tc main_arg20) = m ((c : Thread nD τ).loc main_arg20) :=
  (W87_keep m ρ c main_arg20 (by decide)).trans (W86_arg20 m ρ c)
theorem W88_arg20 (c : Dev nD) : W88 m ρ c (Proc.devRef .tc main_arg20) = m ((c : Thread nD τ).loc main_arg20) :=
  (W88_of_ne m ρ c main_arg20 (by decide)).trans (W87_arg20 m ρ c)
theorem W89_arg20 (c : Dev nD) : W89 m ρ c (Proc.devRef .tc main_arg20) = m ((c : Thread nD τ).loc main_arg20) :=
  (W89_keep m ρ c main_arg20 (by decide)).trans (W88_arg20 m ρ c)
theorem W90_arg20 (c : Dev nD) : W90 m ρ c (Proc.devRef .tc main_arg20) = m ((c : Thread nD τ).loc main_arg20) :=
  (W90_of_ne m ρ c main_arg20 (by decide)).trans (W89_arg20 m ρ c)
theorem W0_arg21 (c : Dev nD) : W0 m ρ c (Proc.devRef .tc main_arg21) = m ((c : Thread nD τ).loc main_arg21) := rfl
theorem W1_arg21 (c : Dev nD) : W1 m ρ c (Proc.devRef .tc main_arg21) = m ((c : Thread nD τ).loc main_arg21) :=
  (W1_keep m ρ c main_arg21 (by decide)).trans (W0_arg21 m ρ c)
theorem W2_arg21 (c : Dev nD) : W2 m ρ c (Proc.devRef .tc main_arg21) = m ((c : Thread nD τ).loc main_arg21) :=
  (W2_of_ne m ρ c main_arg21 (by decide)).trans (W1_arg21 m ρ c)
theorem W3_arg21 (c : Dev nD) : W3 m ρ c (Proc.devRef .tc main_arg21) = m ((c : Thread nD τ).loc main_arg21) :=
  (W3_keep m ρ c main_arg21 (by decide)).trans (W2_arg21 m ρ c)
theorem W4_arg21 (c : Dev nD) : W4 m ρ c (Proc.devRef .tc main_arg21) = m ((c : Thread nD τ).loc main_arg21) :=
  (W4_of_ne m ρ c main_arg21 (by decide)).trans (W3_arg21 m ρ c)
theorem W5_arg21 (c : Dev nD) : W5 m ρ c (Proc.devRef .tc main_arg21) = m ((c : Thread nD τ).loc main_arg21) :=
  (W5_keep m ρ c main_arg21 (by decide)).trans (W4_arg21 m ρ c)
theorem W6_arg21 (c : Dev nD) : W6 m ρ c (Proc.devRef .tc main_arg21) = m ((c : Thread nD τ).loc main_arg21) :=
  (W6_of_ne m ρ c main_arg21 (by decide)).trans (W5_arg21 m ρ c)
theorem W7_arg21 (c : Dev nD) : W7 m ρ c (Proc.devRef .tc main_arg21) = m ((c : Thread nD τ).loc main_arg21) :=
  (W7_keep m ρ c main_arg21 (by decide)).trans (W6_arg21 m ρ c)
theorem W8_arg21 (c : Dev nD) : W8 m ρ c (Proc.devRef .tc main_arg21) = m ((c : Thread nD τ).loc main_arg21) :=
  (W8_of_ne m ρ c main_arg21 (by decide)).trans (W7_arg21 m ρ c)
theorem W9_arg21 (c : Dev nD) : W9 m ρ c (Proc.devRef .tc main_arg21) = m ((c : Thread nD τ).loc main_arg21) :=
  (W9_keep m ρ c main_arg21 (by decide)).trans (W8_arg21 m ρ c)
theorem W10_arg21 (c : Dev nD) : W10 m ρ c (Proc.devRef .tc main_arg21) = m ((c : Thread nD τ).loc main_arg21) :=
  (W10_keep m ρ c main_arg21 (by decide)).trans (W9_arg21 m ρ c)
theorem W11_arg21 (c : Dev nD) : W11 m ρ c (Proc.devRef .tc main_arg21) = m ((c : Thread nD τ).loc main_arg21) :=
  (W11_keep m ρ c main_arg21 (by decide)).trans (W10_arg21 m ρ c)
theorem W12_arg21 (c : Dev nD) : W12 m ρ c (Proc.devRef .tc main_arg21) = m ((c : Thread nD τ).loc main_arg21) :=
  (W12_keep m ρ c main_arg21 (by decide)).trans (W11_arg21 m ρ c)
theorem W13_arg21 (c : Dev nD) : W13 m ρ c (Proc.devRef .tc main_arg21) = m ((c : Thread nD τ).loc main_arg21) :=
  (W13_keep m ρ c main_arg21 (by decide)).trans (W12_arg21 m ρ c)
theorem W14_arg21 (c : Dev nD) : W14 m ρ c (Proc.devRef .tc main_arg21) = m ((c : Thread nD τ).loc main_arg21) :=
  (W14_of_ne m ρ c main_arg21 (by decide)).trans (W13_arg21 m ρ c)
theorem W15_arg21 (c : Dev nD) : W15 m ρ c (Proc.devRef .tc main_arg21) = m ((c : Thread nD τ).loc main_arg21) :=
  (W15_keep m ρ c main_arg21 (by decide)).trans (W14_arg21 m ρ c)
theorem W16_arg21 (c : Dev nD) : W16 m ρ c (Proc.devRef .tc main_arg21) = m ((c : Thread nD τ).loc main_arg21) :=
  (W16_keep m ρ c main_arg21 (by decide)).trans (W15_arg21 m ρ c)
theorem W17_arg21 (c : Dev nD) : W17 m ρ c (Proc.devRef .tc main_arg21) = m ((c : Thread nD τ).loc main_arg21) :=
  (W17_keep m ρ c main_arg21 (by decide)).trans (W16_arg21 m ρ c)
theorem W18_arg21 (c : Dev nD) : W18 m ρ c (Proc.devRef .tc main_arg21) = m ((c : Thread nD τ).loc main_arg21) :=
  (W18_keep m ρ c main_arg21 (by decide)).trans (W17_arg21 m ρ c)
theorem W19_arg21 (c : Dev nD) : W19 m ρ c (Proc.devRef .tc main_arg21) = m ((c : Thread nD τ).loc main_arg21) :=
  (W19_keep m ρ c main_arg21 (by decide)).trans (W18_arg21 m ρ c)
theorem W20_arg21 (c : Dev nD) : W20 m ρ c (Proc.devRef .tc main_arg21) = m ((c : Thread nD τ).loc main_arg21) :=
  (W20_of_ne m ρ c main_arg21 (by decide)).trans (W19_arg21 m ρ c)
theorem W21_arg21 (c : Dev nD) : W21 m ρ c (Proc.devRef .tc main_arg21) = m ((c : Thread nD τ).loc main_arg21) :=
  (W21_keep m ρ c main_arg21 (by decide)).trans (W20_arg21 m ρ c)
theorem W22_arg21 (c : Dev nD) : W22 m ρ c (Proc.devRef .tc main_arg21) = m ((c : Thread nD τ).loc main_arg21) :=
  (W22_keep m ρ c main_arg21 (by decide)).trans (W21_arg21 m ρ c)
theorem W23_arg21 (c : Dev nD) : W23 m ρ c (Proc.devRef .tc main_arg21) = m ((c : Thread nD τ).loc main_arg21) :=
  (W23_keep m ρ c main_arg21 (by decide)).trans (W22_arg21 m ρ c)
theorem W24_arg21 (c : Dev nD) : W24 m ρ c (Proc.devRef .tc main_arg21) = m ((c : Thread nD τ).loc main_arg21) :=
  (W24_keep m ρ c main_arg21 (by decide)).trans (W23_arg21 m ρ c)
theorem W25_arg21 (c : Dev nD) : W25 m ρ c (Proc.devRef .tc main_arg21) = m ((c : Thread nD τ).loc main_arg21) :=
  (W25_keep m ρ c main_arg21 (by decide)).trans (W24_arg21 m ρ c)
theorem W26_arg21 (c : Dev nD) : W26 m ρ c (Proc.devRef .tc main_arg21) = m ((c : Thread nD τ).loc main_arg21) :=
  (W26_of_ne m ρ c main_arg21 (by decide)).trans (W25_arg21 m ρ c)
theorem W27_arg21 (c : Dev nD) : W27 m ρ c (Proc.devRef .tc main_arg21) = m ((c : Thread nD τ).loc main_arg21) :=
  (W27_keep m ρ c main_arg21 (by decide)).trans (W26_arg21 m ρ c)
theorem W28_arg21 (c : Dev nD) : W28 m ρ c (Proc.devRef .tc main_arg21) = m ((c : Thread nD τ).loc main_arg21) :=
  (W28_keep m ρ c main_arg21 (by decide)).trans (W27_arg21 m ρ c)
theorem W29_arg21 (c : Dev nD) : W29 m ρ c (Proc.devRef .tc main_arg21) = m ((c : Thread nD τ).loc main_arg21) :=
  (W29_keep m ρ c main_arg21 (by decide)).trans (W28_arg21 m ρ c)
theorem W30_arg21 (c : Dev nD) : W30 m ρ c (Proc.devRef .tc main_arg21) = m ((c : Thread nD τ).loc main_arg21) :=
  (W30_keep m ρ c main_arg21 (by decide)).trans (W29_arg21 m ρ c)
theorem W31_arg21 (c : Dev nD) : W31 m ρ c (Proc.devRef .tc main_arg21) = m ((c : Thread nD τ).loc main_arg21) :=
  (W31_keep m ρ c main_arg21 (by decide)).trans (W30_arg21 m ρ c)
theorem W32_arg21 (c : Dev nD) : W32 m ρ c (Proc.devRef .tc main_arg21) = m ((c : Thread nD τ).loc main_arg21) :=
  (W32_of_ne m ρ c main_arg21 (by decide)).trans (W31_arg21 m ρ c)
theorem W33_arg21 (c : Dev nD) : W33 m ρ c (Proc.devRef .tc main_arg21) = m ((c : Thread nD τ).loc main_arg21) :=
  (W33_keep m ρ c main_arg21 (by decide)).trans (W32_arg21 m ρ c)
theorem W34_arg21 (c : Dev nD) : W34 m ρ c (Proc.devRef .tc main_arg21) = m ((c : Thread nD τ).loc main_arg21) :=
  (W34_keep m ρ c main_arg21 (by decide)).trans (W33_arg21 m ρ c)
theorem W35_arg21 (c : Dev nD) : W35 m ρ c (Proc.devRef .tc main_arg21) = m ((c : Thread nD τ).loc main_arg21) :=
  (W35_keep m ρ c main_arg21 (by decide)).trans (W34_arg21 m ρ c)
theorem W36_arg21 (c : Dev nD) : W36 m ρ c (Proc.devRef .tc main_arg21) = m ((c : Thread nD τ).loc main_arg21) :=
  (W36_keep m ρ c main_arg21 (by decide)).trans (W35_arg21 m ρ c)
theorem W37_arg21 (c : Dev nD) : W37 m ρ c (Proc.devRef .tc main_arg21) = m ((c : Thread nD τ).loc main_arg21) :=
  (W37_keep m ρ c main_arg21 (by decide)).trans (W36_arg21 m ρ c)
theorem W38_arg21 (c : Dev nD) : W38 m ρ c (Proc.devRef .tc main_arg21) = m ((c : Thread nD τ).loc main_arg21) :=
  (W38_of_ne m ρ c main_arg21 (by decide)).trans (W37_arg21 m ρ c)
theorem W39_arg21 (c : Dev nD) : W39 m ρ c (Proc.devRef .tc main_arg21) = m ((c : Thread nD τ).loc main_arg21) :=
  (W39_keep m ρ c main_arg21 (by decide)).trans (W38_arg21 m ρ c)
theorem W40_arg21 (c : Dev nD) : W40 m ρ c (Proc.devRef .tc main_arg21) = m ((c : Thread nD τ).loc main_arg21) :=
  (W40_keep m ρ c main_arg21 (by decide)).trans (W39_arg21 m ρ c)
theorem W41_arg21 (c : Dev nD) : W41 m ρ c (Proc.devRef .tc main_arg21) = m ((c : Thread nD τ).loc main_arg21) :=
  (W41_keep m ρ c main_arg21 (by decide)).trans (W40_arg21 m ρ c)
theorem W42_arg21 (c : Dev nD) : W42 m ρ c (Proc.devRef .tc main_arg21) = m ((c : Thread nD τ).loc main_arg21) :=
  (W42_keep m ρ c main_arg21 (by decide)).trans (W41_arg21 m ρ c)
theorem W43_arg21 (c : Dev nD) : W43 m ρ c (Proc.devRef .tc main_arg21) = m ((c : Thread nD τ).loc main_arg21) :=
  (W43_keep m ρ c main_arg21 (by decide)).trans (W42_arg21 m ρ c)
theorem W44_arg21 (c : Dev nD) : W44 m ρ c (Proc.devRef .tc main_arg21) = m ((c : Thread nD τ).loc main_arg21) :=
  (W44_of_ne m ρ c main_arg21 (by decide)).trans (W43_arg21 m ρ c)
theorem W45_arg21 (c : Dev nD) : W45 m ρ c (Proc.devRef .tc main_arg21) = m ((c : Thread nD τ).loc main_arg21) :=
  (W45_keep m ρ c main_arg21 (by decide)).trans (W44_arg21 m ρ c)
theorem W46_arg21 (c : Dev nD) : W46 m ρ c (Proc.devRef .tc main_arg21) = m ((c : Thread nD τ).loc main_arg21) :=
  (W46_of_ne m ρ c main_arg21 (by decide)).trans (W45_arg21 m ρ c)
theorem W47_arg21 (c : Dev nD) : W47 m ρ c (Proc.devRef .tc main_arg21) = m ((c : Thread nD τ).loc main_arg21) :=
  (W47_keep m ρ c main_arg21 (by decide)).trans (W46_arg21 m ρ c)
theorem W48_arg21 (c : Dev nD) : W48 m ρ c (Proc.devRef .tc main_arg21) = m ((c : Thread nD τ).loc main_arg21) :=
  (W48_of_ne m ρ c main_arg21 (by decide)).trans (W47_arg21 m ρ c)
theorem W49_arg21 (c : Dev nD) : W49 m ρ c (Proc.devRef .tc main_arg21) = m ((c : Thread nD τ).loc main_arg21) :=
  (W49_keep m ρ c main_arg21 (by decide)).trans (W48_arg21 m ρ c)
theorem W50_arg21 (c : Dev nD) : W50 m ρ c (Proc.devRef .tc main_arg21) = m ((c : Thread nD τ).loc main_arg21) :=
  (W50_of_ne m ρ c main_arg21 (by decide)).trans (W49_arg21 m ρ c)
theorem W51_arg21 (c : Dev nD) : W51 m ρ c (Proc.devRef .tc main_arg21) = m ((c : Thread nD τ).loc main_arg21) :=
  (W51_keep m ρ c main_arg21 (by decide)).trans (W50_arg21 m ρ c)
theorem W52_arg21 (c : Dev nD) : W52 m ρ c (Proc.devRef .tc main_arg21) = m ((c : Thread nD τ).loc main_arg21) :=
  (W52_keep m ρ c main_arg21 (by decide)).trans (W51_arg21 m ρ c)
theorem W53_arg21 (c : Dev nD) : W53 m ρ c (Proc.devRef .tc main_arg21) = m ((c : Thread nD τ).loc main_arg21) :=
  (W53_keep m ρ c main_arg21 (by decide)).trans (W52_arg21 m ρ c)
theorem W54_arg21 (c : Dev nD) : W54 m ρ c (Proc.devRef .tc main_arg21) = m ((c : Thread nD τ).loc main_arg21) :=
  (W54_keep m ρ c main_arg21 (by decide)).trans (W53_arg21 m ρ c)
theorem W55_arg21 (c : Dev nD) : W55 m ρ c (Proc.devRef .tc main_arg21) = m ((c : Thread nD τ).loc main_arg21) :=
  (W55_keep m ρ c main_arg21 (by decide)).trans (W54_arg21 m ρ c)
theorem W56_arg21 (c : Dev nD) : W56 m ρ c (Proc.devRef .tc main_arg21) = m ((c : Thread nD τ).loc main_arg21) :=
  (W56_of_ne m ρ c main_arg21 (by decide)).trans (W55_arg21 m ρ c)
theorem W57_arg21 (c : Dev nD) : W57 m ρ c (Proc.devRef .tc main_arg21) = m ((c : Thread nD τ).loc main_arg21) :=
  (W57_keep m ρ c main_arg21 (by decide)).trans (W56_arg21 m ρ c)
theorem W58_arg21 (c : Dev nD) : W58 m ρ c (Proc.devRef .tc main_arg21) = m ((c : Thread nD τ).loc main_arg21) :=
  (W58_keep m ρ c main_arg21 (by decide)).trans (W57_arg21 m ρ c)
theorem W59_arg21 (c : Dev nD) : W59 m ρ c (Proc.devRef .tc main_arg21) = m ((c : Thread nD τ).loc main_arg21) :=
  (W59_keep m ρ c main_arg21 (by decide)).trans (W58_arg21 m ρ c)
theorem W60_arg21 (c : Dev nD) : W60 m ρ c (Proc.devRef .tc main_arg21) = m ((c : Thread nD τ).loc main_arg21) :=
  (W60_keep m ρ c main_arg21 (by decide)).trans (W59_arg21 m ρ c)
theorem W61_arg21 (c : Dev nD) : W61 m ρ c (Proc.devRef .tc main_arg21) = m ((c : Thread nD τ).loc main_arg21) :=
  (W61_keep m ρ c main_arg21 (by decide)).trans (W60_arg21 m ρ c)
theorem W62_arg21 (c : Dev nD) : W62 m ρ c (Proc.devRef .tc main_arg21) = m ((c : Thread nD τ).loc main_arg21) :=
  (W62_of_ne m ρ c main_arg21 (by decide)).trans (W61_arg21 m ρ c)
theorem W63_arg21 (c : Dev nD) : W63 m ρ c (Proc.devRef .tc main_arg21) = m ((c : Thread nD τ).loc main_arg21) :=
  (W63_keep m ρ c main_arg21 (by decide)).trans (W62_arg21 m ρ c)
theorem W64_arg21 (c : Dev nD) : W64 m ρ c (Proc.devRef .tc main_arg21) = m ((c : Thread nD τ).loc main_arg21) :=
  (W64_keep m ρ c main_arg21 (by decide)).trans (W63_arg21 m ρ c)
theorem W65_arg21 (c : Dev nD) : W65 m ρ c (Proc.devRef .tc main_arg21) = m ((c : Thread nD τ).loc main_arg21) :=
  (W65_keep m ρ c main_arg21 (by decide)).trans (W64_arg21 m ρ c)
theorem W66_arg21 (c : Dev nD) : W66 m ρ c (Proc.devRef .tc main_arg21) = m ((c : Thread nD τ).loc main_arg21) :=
  (W66_keep m ρ c main_arg21 (by decide)).trans (W65_arg21 m ρ c)
theorem W67_arg21 (c : Dev nD) : W67 m ρ c (Proc.devRef .tc main_arg21) = m ((c : Thread nD τ).loc main_arg21) :=
  (W67_keep m ρ c main_arg21 (by decide)).trans (W66_arg21 m ρ c)
theorem W68_arg21 (c : Dev nD) : W68 m ρ c (Proc.devRef .tc main_arg21) = m ((c : Thread nD τ).loc main_arg21) :=
  (W68_of_ne m ρ c main_arg21 (by decide)).trans (W67_arg21 m ρ c)
theorem W69_arg21 (c : Dev nD) : W69 m ρ c (Proc.devRef .tc main_arg21) = m ((c : Thread nD τ).loc main_arg21) :=
  (W69_keep m ρ c main_arg21 (by decide)).trans (W68_arg21 m ρ c)
theorem W70_arg21 (c : Dev nD) : W70 m ρ c (Proc.devRef .tc main_arg21) = m ((c : Thread nD τ).loc main_arg21) :=
  (W70_keep m ρ c main_arg21 (by decide)).trans (W69_arg21 m ρ c)
theorem W71_arg21 (c : Dev nD) : W71 m ρ c (Proc.devRef .tc main_arg21) = m ((c : Thread nD τ).loc main_arg21) :=
  (W71_keep m ρ c main_arg21 (by decide)).trans (W70_arg21 m ρ c)
theorem W72_arg21 (c : Dev nD) : W72 m ρ c (Proc.devRef .tc main_arg21) = m ((c : Thread nD τ).loc main_arg21) :=
  (W72_keep m ρ c main_arg21 (by decide)).trans (W71_arg21 m ρ c)
theorem W73_arg21 (c : Dev nD) : W73 m ρ c (Proc.devRef .tc main_arg21) = m ((c : Thread nD τ).loc main_arg21) :=
  (W73_keep m ρ c main_arg21 (by decide)).trans (W72_arg21 m ρ c)
theorem W74_arg21 (c : Dev nD) : W74 m ρ c (Proc.devRef .tc main_arg21) = m ((c : Thread nD τ).loc main_arg21) :=
  (W74_of_ne m ρ c main_arg21 (by decide)).trans (W73_arg21 m ρ c)
theorem W75_arg21 (c : Dev nD) : W75 m ρ c (Proc.devRef .tc main_arg21) = m ((c : Thread nD τ).loc main_arg21) :=
  (W75_keep m ρ c main_arg21 (by decide)).trans (W74_arg21 m ρ c)
theorem W76_arg21 (c : Dev nD) : W76 m ρ c (Proc.devRef .tc main_arg21) = m ((c : Thread nD τ).loc main_arg21) :=
  (W76_keep m ρ c main_arg21 (by decide)).trans (W75_arg21 m ρ c)
theorem W77_arg21 (c : Dev nD) : W77 m ρ c (Proc.devRef .tc main_arg21) = m ((c : Thread nD τ).loc main_arg21) :=
  (W77_keep m ρ c main_arg21 (by decide)).trans (W76_arg21 m ρ c)
theorem W78_arg21 (c : Dev nD) : W78 m ρ c (Proc.devRef .tc main_arg21) = m ((c : Thread nD τ).loc main_arg21) :=
  (W78_keep m ρ c main_arg21 (by decide)).trans (W77_arg21 m ρ c)
theorem W79_arg21 (c : Dev nD) : W79 m ρ c (Proc.devRef .tc main_arg21) = m ((c : Thread nD τ).loc main_arg21) :=
  (W79_keep m ρ c main_arg21 (by decide)).trans (W78_arg21 m ρ c)
theorem W80_arg21 (c : Dev nD) : W80 m ρ c (Proc.devRef .tc main_arg21) = m ((c : Thread nD τ).loc main_arg21) :=
  (W80_of_ne m ρ c main_arg21 (by decide)).trans (W79_arg21 m ρ c)
theorem W81_arg21 (c : Dev nD) : W81 m ρ c (Proc.devRef .tc main_arg21) = m ((c : Thread nD τ).loc main_arg21) :=
  (W81_keep m ρ c main_arg21 (by decide)).trans (W80_arg21 m ρ c)
theorem W82_arg21 (c : Dev nD) : W82 m ρ c (Proc.devRef .tc main_arg21) = m ((c : Thread nD τ).loc main_arg21) :=
  (W82_keep m ρ c main_arg21 (by decide)).trans (W81_arg21 m ρ c)
theorem W83_arg21 (c : Dev nD) : W83 m ρ c (Proc.devRef .tc main_arg21) = m ((c : Thread nD τ).loc main_arg21) :=
  (W83_keep m ρ c main_arg21 (by decide)).trans (W82_arg21 m ρ c)
theorem W84_arg21 (c : Dev nD) : W84 m ρ c (Proc.devRef .tc main_arg21) = m ((c : Thread nD τ).loc main_arg21) :=
  (W84_keep m ρ c main_arg21 (by decide)).trans (W83_arg21 m ρ c)
theorem W85_arg21 (c : Dev nD) : W85 m ρ c (Proc.devRef .tc main_arg21) = m ((c : Thread nD τ).loc main_arg21) :=
  (W85_keep m ρ c main_arg21 (by decide)).trans (W84_arg21 m ρ c)
theorem W86_arg21 (c : Dev nD) : W86 m ρ c (Proc.devRef .tc main_arg21) = m ((c : Thread nD τ).loc main_arg21) :=
  (W86_of_ne m ρ c main_arg21 (by decide)).trans (W85_arg21 m ρ c)
theorem W87_arg21 (c : Dev nD) : W87 m ρ c (Proc.devRef .tc main_arg21) = m ((c : Thread nD τ).loc main_arg21) :=
  (W87_keep m ρ c main_arg21 (by decide)).trans (W86_arg21 m ρ c)
theorem W88_arg21 (c : Dev nD) : W88 m ρ c (Proc.devRef .tc main_arg21) = m ((c : Thread nD τ).loc main_arg21) :=
  (W88_of_ne m ρ c main_arg21 (by decide)).trans (W87_arg21 m ρ c)
theorem W89_arg21 (c : Dev nD) : W89 m ρ c (Proc.devRef .tc main_arg21) = m ((c : Thread nD τ).loc main_arg21) :=
  (W89_keep m ρ c main_arg21 (by decide)).trans (W88_arg21 m ρ c)
theorem W90_arg21 (c : Dev nD) : W90 m ρ c (Proc.devRef .tc main_arg21) = m ((c : Thread nD τ).loc main_arg21) :=
  (W90_of_ne m ρ c main_arg21 (by decide)).trans (W89_arg21 m ρ c)
theorem W0_arg22 (c : Dev nD) : W0 m ρ c (Proc.devRef .tc main_arg22) = m ((c : Thread nD τ).loc main_arg22) := rfl
theorem W1_arg22 (c : Dev nD) : W1 m ρ c (Proc.devRef .tc main_arg22) = m ((c : Thread nD τ).loc main_arg22) :=
  (W1_keep m ρ c main_arg22 (by decide)).trans (W0_arg22 m ρ c)
theorem W2_arg22 (c : Dev nD) : W2 m ρ c (Proc.devRef .tc main_arg22) = m ((c : Thread nD τ).loc main_arg22) :=
  (W2_of_ne m ρ c main_arg22 (by decide)).trans (W1_arg22 m ρ c)
theorem W3_arg22 (c : Dev nD) : W3 m ρ c (Proc.devRef .tc main_arg22) = m ((c : Thread nD τ).loc main_arg22) :=
  (W3_keep m ρ c main_arg22 (by decide)).trans (W2_arg22 m ρ c)
theorem W4_arg22 (c : Dev nD) : W4 m ρ c (Proc.devRef .tc main_arg22) = m ((c : Thread nD τ).loc main_arg22) :=
  (W4_of_ne m ρ c main_arg22 (by decide)).trans (W3_arg22 m ρ c)
theorem W5_arg22 (c : Dev nD) : W5 m ρ c (Proc.devRef .tc main_arg22) = m ((c : Thread nD τ).loc main_arg22) :=
  (W5_keep m ρ c main_arg22 (by decide)).trans (W4_arg22 m ρ c)
theorem W6_arg22 (c : Dev nD) : W6 m ρ c (Proc.devRef .tc main_arg22) = m ((c : Thread nD τ).loc main_arg22) :=
  (W6_of_ne m ρ c main_arg22 (by decide)).trans (W5_arg22 m ρ c)
theorem W7_arg22 (c : Dev nD) : W7 m ρ c (Proc.devRef .tc main_arg22) = m ((c : Thread nD τ).loc main_arg22) :=
  (W7_keep m ρ c main_arg22 (by decide)).trans (W6_arg22 m ρ c)
theorem W8_arg22 (c : Dev nD) : W8 m ρ c (Proc.devRef .tc main_arg22) = m ((c : Thread nD τ).loc main_arg22) :=
  (W8_of_ne m ρ c main_arg22 (by decide)).trans (W7_arg22 m ρ c)
theorem W9_arg22 (c : Dev nD) : W9 m ρ c (Proc.devRef .tc main_arg22) = m ((c : Thread nD τ).loc main_arg22) :=
  (W9_keep m ρ c main_arg22 (by decide)).trans (W8_arg22 m ρ c)
theorem W10_arg22 (c : Dev nD) : W10 m ρ c (Proc.devRef .tc main_arg22) = m ((c : Thread nD τ).loc main_arg22) :=
  (W10_keep m ρ c main_arg22 (by decide)).trans (W9_arg22 m ρ c)
theorem W11_arg22 (c : Dev nD) : W11 m ρ c (Proc.devRef .tc main_arg22) = m ((c : Thread nD τ).loc main_arg22) :=
  (W11_keep m ρ c main_arg22 (by decide)).trans (W10_arg22 m ρ c)
theorem W12_arg22 (c : Dev nD) : W12 m ρ c (Proc.devRef .tc main_arg22) = m ((c : Thread nD τ).loc main_arg22) :=
  (W12_keep m ρ c main_arg22 (by decide)).trans (W11_arg22 m ρ c)
theorem W13_arg22 (c : Dev nD) : W13 m ρ c (Proc.devRef .tc main_arg22) = m ((c : Thread nD τ).loc main_arg22) :=
  (W13_keep m ρ c main_arg22 (by decide)).trans (W12_arg22 m ρ c)
theorem W14_arg22 (c : Dev nD) : W14 m ρ c (Proc.devRef .tc main_arg22) = m ((c : Thread nD τ).loc main_arg22) :=
  (W14_of_ne m ρ c main_arg22 (by decide)).trans (W13_arg22 m ρ c)
theorem W15_arg22 (c : Dev nD) : W15 m ρ c (Proc.devRef .tc main_arg22) = m ((c : Thread nD τ).loc main_arg22) :=
  (W15_keep m ρ c main_arg22 (by decide)).trans (W14_arg22 m ρ c)
theorem W16_arg22 (c : Dev nD) : W16 m ρ c (Proc.devRef .tc main_arg22) = m ((c : Thread nD τ).loc main_arg22) :=
  (W16_keep m ρ c main_arg22 (by decide)).trans (W15_arg22 m ρ c)
theorem W17_arg22 (c : Dev nD) : W17 m ρ c (Proc.devRef .tc main_arg22) = m ((c : Thread nD τ).loc main_arg22) :=
  (W17_keep m ρ c main_arg22 (by decide)).trans (W16_arg22 m ρ c)
theorem W18_arg22 (c : Dev nD) : W18 m ρ c (Proc.devRef .tc main_arg22) = m ((c : Thread nD τ).loc main_arg22) :=
  (W18_keep m ρ c main_arg22 (by decide)).trans (W17_arg22 m ρ c)
theorem W19_arg22 (c : Dev nD) : W19 m ρ c (Proc.devRef .tc main_arg22) = m ((c : Thread nD τ).loc main_arg22) :=
  (W19_keep m ρ c main_arg22 (by decide)).trans (W18_arg22 m ρ c)
theorem W20_arg22 (c : Dev nD) : W20 m ρ c (Proc.devRef .tc main_arg22) = m ((c : Thread nD τ).loc main_arg22) :=
  (W20_of_ne m ρ c main_arg22 (by decide)).trans (W19_arg22 m ρ c)
theorem W21_arg22 (c : Dev nD) : W21 m ρ c (Proc.devRef .tc main_arg22) = m ((c : Thread nD τ).loc main_arg22) :=
  (W21_keep m ρ c main_arg22 (by decide)).trans (W20_arg22 m ρ c)
theorem W22_arg22 (c : Dev nD) : W22 m ρ c (Proc.devRef .tc main_arg22) = m ((c : Thread nD τ).loc main_arg22) :=
  (W22_keep m ρ c main_arg22 (by decide)).trans (W21_arg22 m ρ c)
theorem W23_arg22 (c : Dev nD) : W23 m ρ c (Proc.devRef .tc main_arg22) = m ((c : Thread nD τ).loc main_arg22) :=
  (W23_keep m ρ c main_arg22 (by decide)).trans (W22_arg22 m ρ c)
theorem W24_arg22 (c : Dev nD) : W24 m ρ c (Proc.devRef .tc main_arg22) = m ((c : Thread nD τ).loc main_arg22) :=
  (W24_keep m ρ c main_arg22 (by decide)).trans (W23_arg22 m ρ c)
theorem W25_arg22 (c : Dev nD) : W25 m ρ c (Proc.devRef .tc main_arg22) = m ((c : Thread nD τ).loc main_arg22) :=
  (W25_keep m ρ c main_arg22 (by decide)).trans (W24_arg22 m ρ c)
theorem W26_arg22 (c : Dev nD) : W26 m ρ c (Proc.devRef .tc main_arg22) = m ((c : Thread nD τ).loc main_arg22) :=
  (W26_of_ne m ρ c main_arg22 (by decide)).trans (W25_arg22 m ρ c)
theorem W27_arg22 (c : Dev nD) : W27 m ρ c (Proc.devRef .tc main_arg22) = m ((c : Thread nD τ).loc main_arg22) :=
  (W27_keep m ρ c main_arg22 (by decide)).trans (W26_arg22 m ρ c)
theorem W28_arg22 (c : Dev nD) : W28 m ρ c (Proc.devRef .tc main_arg22) = m ((c : Thread nD τ).loc main_arg22) :=
  (W28_keep m ρ c main_arg22 (by decide)).trans (W27_arg22 m ρ c)
theorem W29_arg22 (c : Dev nD) : W29 m ρ c (Proc.devRef .tc main_arg22) = m ((c : Thread nD τ).loc main_arg22) :=
  (W29_keep m ρ c main_arg22 (by decide)).trans (W28_arg22 m ρ c)
theorem W30_arg22 (c : Dev nD) : W30 m ρ c (Proc.devRef .tc main_arg22) = m ((c : Thread nD τ).loc main_arg22) :=
  (W30_keep m ρ c main_arg22 (by decide)).trans (W29_arg22 m ρ c)
theorem W31_arg22 (c : Dev nD) : W31 m ρ c (Proc.devRef .tc main_arg22) = m ((c : Thread nD τ).loc main_arg22) :=
  (W31_keep m ρ c main_arg22 (by decide)).trans (W30_arg22 m ρ c)
theorem W32_arg22 (c : Dev nD) : W32 m ρ c (Proc.devRef .tc main_arg22) = m ((c : Thread nD τ).loc main_arg22) :=
  (W32_of_ne m ρ c main_arg22 (by decide)).trans (W31_arg22 m ρ c)
theorem W33_arg22 (c : Dev nD) : W33 m ρ c (Proc.devRef .tc main_arg22) = m ((c : Thread nD τ).loc main_arg22) :=
  (W33_keep m ρ c main_arg22 (by decide)).trans (W32_arg22 m ρ c)
theorem W34_arg22 (c : Dev nD) : W34 m ρ c (Proc.devRef .tc main_arg22) = m ((c : Thread nD τ).loc main_arg22) :=
  (W34_keep m ρ c main_arg22 (by decide)).trans (W33_arg22 m ρ c)
theorem W35_arg22 (c : Dev nD) : W35 m ρ c (Proc.devRef .tc main_arg22) = m ((c : Thread nD τ).loc main_arg22) :=
  (W35_keep m ρ c main_arg22 (by decide)).trans (W34_arg22 m ρ c)
theorem W36_arg22 (c : Dev nD) : W36 m ρ c (Proc.devRef .tc main_arg22) = m ((c : Thread nD τ).loc main_arg22) :=
  (W36_keep m ρ c main_arg22 (by decide)).trans (W35_arg22 m ρ c)
theorem W37_arg22 (c : Dev nD) : W37 m ρ c (Proc.devRef .tc main_arg22) = m ((c : Thread nD τ).loc main_arg22) :=
  (W37_keep m ρ c main_arg22 (by decide)).trans (W36_arg22 m ρ c)
theorem W38_arg22 (c : Dev nD) : W38 m ρ c (Proc.devRef .tc main_arg22) = m ((c : Thread nD τ).loc main_arg22) :=
  (W38_of_ne m ρ c main_arg22 (by decide)).trans (W37_arg22 m ρ c)
theorem W39_arg22 (c : Dev nD) : W39 m ρ c (Proc.devRef .tc main_arg22) = m ((c : Thread nD τ).loc main_arg22) :=
  (W39_keep m ρ c main_arg22 (by decide)).trans (W38_arg22 m ρ c)
theorem W40_arg22 (c : Dev nD) : W40 m ρ c (Proc.devRef .tc main_arg22) = m ((c : Thread nD τ).loc main_arg22) :=
  (W40_keep m ρ c main_arg22 (by decide)).trans (W39_arg22 m ρ c)
theorem W41_arg22 (c : Dev nD) : W41 m ρ c (Proc.devRef .tc main_arg22) = m ((c : Thread nD τ).loc main_arg22) :=
  (W41_keep m ρ c main_arg22 (by decide)).trans (W40_arg22 m ρ c)
theorem W42_arg22 (c : Dev nD) : W42 m ρ c (Proc.devRef .tc main_arg22) = m ((c : Thread nD τ).loc main_arg22) :=
  (W42_keep m ρ c main_arg22 (by decide)).trans (W41_arg22 m ρ c)
theorem W43_arg22 (c : Dev nD) : W43 m ρ c (Proc.devRef .tc main_arg22) = m ((c : Thread nD τ).loc main_arg22) :=
  (W43_keep m ρ c main_arg22 (by decide)).trans (W42_arg22 m ρ c)
theorem W44_arg22 (c : Dev nD) : W44 m ρ c (Proc.devRef .tc main_arg22) = m ((c : Thread nD τ).loc main_arg22) :=
  (W44_of_ne m ρ c main_arg22 (by decide)).trans (W43_arg22 m ρ c)
theorem W45_arg22 (c : Dev nD) : W45 m ρ c (Proc.devRef .tc main_arg22) = m ((c : Thread nD τ).loc main_arg22) :=
  (W45_keep m ρ c main_arg22 (by decide)).trans (W44_arg22 m ρ c)
theorem W46_arg22 (c : Dev nD) : W46 m ρ c (Proc.devRef .tc main_arg22) = m ((c : Thread nD τ).loc main_arg22) :=
  (W46_of_ne m ρ c main_arg22 (by decide)).trans (W45_arg22 m ρ c)
theorem W47_arg22 (c : Dev nD) : W47 m ρ c (Proc.devRef .tc main_arg22) = m ((c : Thread nD τ).loc main_arg22) :=
  (W47_keep m ρ c main_arg22 (by decide)).trans (W46_arg22 m ρ c)
theorem W48_arg22 (c : Dev nD) : W48 m ρ c (Proc.devRef .tc main_arg22) = m ((c : Thread nD τ).loc main_arg22) :=
  (W48_of_ne m ρ c main_arg22 (by decide)).trans (W47_arg22 m ρ c)
theorem W49_arg22 (c : Dev nD) : W49 m ρ c (Proc.devRef .tc main_arg22) = m ((c : Thread nD τ).loc main_arg22) :=
  (W49_keep m ρ c main_arg22 (by decide)).trans (W48_arg22 m ρ c)
theorem W50_arg22 (c : Dev nD) : W50 m ρ c (Proc.devRef .tc main_arg22) = m ((c : Thread nD τ).loc main_arg22) :=
  (W50_of_ne m ρ c main_arg22 (by decide)).trans (W49_arg22 m ρ c)
theorem W51_arg22 (c : Dev nD) : W51 m ρ c (Proc.devRef .tc main_arg22) = m ((c : Thread nD τ).loc main_arg22) :=
  (W51_keep m ρ c main_arg22 (by decide)).trans (W50_arg22 m ρ c)
theorem W52_arg22 (c : Dev nD) : W52 m ρ c (Proc.devRef .tc main_arg22) = m ((c : Thread nD τ).loc main_arg22) :=
  (W52_keep m ρ c main_arg22 (by decide)).trans (W51_arg22 m ρ c)
theorem W53_arg22 (c : Dev nD) : W53 m ρ c (Proc.devRef .tc main_arg22) = m ((c : Thread nD τ).loc main_arg22) :=
  (W53_keep m ρ c main_arg22 (by decide)).trans (W52_arg22 m ρ c)
theorem W54_arg22 (c : Dev nD) : W54 m ρ c (Proc.devRef .tc main_arg22) = m ((c : Thread nD τ).loc main_arg22) :=
  (W54_keep m ρ c main_arg22 (by decide)).trans (W53_arg22 m ρ c)
theorem W55_arg22 (c : Dev nD) : W55 m ρ c (Proc.devRef .tc main_arg22) = m ((c : Thread nD τ).loc main_arg22) :=
  (W55_keep m ρ c main_arg22 (by decide)).trans (W54_arg22 m ρ c)
theorem W56_arg22 (c : Dev nD) : W56 m ρ c (Proc.devRef .tc main_arg22) = m ((c : Thread nD τ).loc main_arg22) :=
  (W56_of_ne m ρ c main_arg22 (by decide)).trans (W55_arg22 m ρ c)
theorem W57_arg22 (c : Dev nD) : W57 m ρ c (Proc.devRef .tc main_arg22) = m ((c : Thread nD τ).loc main_arg22) :=
  (W57_keep m ρ c main_arg22 (by decide)).trans (W56_arg22 m ρ c)
theorem W58_arg22 (c : Dev nD) : W58 m ρ c (Proc.devRef .tc main_arg22) = m ((c : Thread nD τ).loc main_arg22) :=
  (W58_keep m ρ c main_arg22 (by decide)).trans (W57_arg22 m ρ c)
theorem W59_arg22 (c : Dev nD) : W59 m ρ c (Proc.devRef .tc main_arg22) = m ((c : Thread nD τ).loc main_arg22) :=
  (W59_keep m ρ c main_arg22 (by decide)).trans (W58_arg22 m ρ c)
theorem W60_arg22 (c : Dev nD) : W60 m ρ c (Proc.devRef .tc main_arg22) = m ((c : Thread nD τ).loc main_arg22) :=
  (W60_keep m ρ c main_arg22 (by decide)).trans (W59_arg22 m ρ c)
theorem W61_arg22 (c : Dev nD) : W61 m ρ c (Proc.devRef .tc main_arg22) = m ((c : Thread nD τ).loc main_arg22) :=
  (W61_keep m ρ c main_arg22 (by decide)).trans (W60_arg22 m ρ c)
theorem W62_arg22 (c : Dev nD) : W62 m ρ c (Proc.devRef .tc main_arg22) = m ((c : Thread nD τ).loc main_arg22) :=
  (W62_of_ne m ρ c main_arg22 (by decide)).trans (W61_arg22 m ρ c)
theorem W63_arg22 (c : Dev nD) : W63 m ρ c (Proc.devRef .tc main_arg22) = m ((c : Thread nD τ).loc main_arg22) :=
  (W63_keep m ρ c main_arg22 (by decide)).trans (W62_arg22 m ρ c)
theorem W64_arg22 (c : Dev nD) : W64 m ρ c (Proc.devRef .tc main_arg22) = m ((c : Thread nD τ).loc main_arg22) :=
  (W64_keep m ρ c main_arg22 (by decide)).trans (W63_arg22 m ρ c)
theorem W65_arg22 (c : Dev nD) : W65 m ρ c (Proc.devRef .tc main_arg22) = m ((c : Thread nD τ).loc main_arg22) :=
  (W65_keep m ρ c main_arg22 (by decide)).trans (W64_arg22 m ρ c)
theorem W66_arg22 (c : Dev nD) : W66 m ρ c (Proc.devRef .tc main_arg22) = m ((c : Thread nD τ).loc main_arg22) :=
  (W66_keep m ρ c main_arg22 (by decide)).trans (W65_arg22 m ρ c)
theorem W67_arg22 (c : Dev nD) : W67 m ρ c (Proc.devRef .tc main_arg22) = m ((c : Thread nD τ).loc main_arg22) :=
  (W67_keep m ρ c main_arg22 (by decide)).trans (W66_arg22 m ρ c)
theorem W68_arg22 (c : Dev nD) : W68 m ρ c (Proc.devRef .tc main_arg22) = m ((c : Thread nD τ).loc main_arg22) :=
  (W68_of_ne m ρ c main_arg22 (by decide)).trans (W67_arg22 m ρ c)
theorem W69_arg22 (c : Dev nD) : W69 m ρ c (Proc.devRef .tc main_arg22) = m ((c : Thread nD τ).loc main_arg22) :=
  (W69_keep m ρ c main_arg22 (by decide)).trans (W68_arg22 m ρ c)
theorem W70_arg22 (c : Dev nD) : W70 m ρ c (Proc.devRef .tc main_arg22) = m ((c : Thread nD τ).loc main_arg22) :=
  (W70_keep m ρ c main_arg22 (by decide)).trans (W69_arg22 m ρ c)
theorem W71_arg22 (c : Dev nD) : W71 m ρ c (Proc.devRef .tc main_arg22) = m ((c : Thread nD τ).loc main_arg22) :=
  (W71_keep m ρ c main_arg22 (by decide)).trans (W70_arg22 m ρ c)
theorem W72_arg22 (c : Dev nD) : W72 m ρ c (Proc.devRef .tc main_arg22) = m ((c : Thread nD τ).loc main_arg22) :=
  (W72_keep m ρ c main_arg22 (by decide)).trans (W71_arg22 m ρ c)
theorem W73_arg22 (c : Dev nD) : W73 m ρ c (Proc.devRef .tc main_arg22) = m ((c : Thread nD τ).loc main_arg22) :=
  (W73_keep m ρ c main_arg22 (by decide)).trans (W72_arg22 m ρ c)
theorem W74_arg22 (c : Dev nD) : W74 m ρ c (Proc.devRef .tc main_arg22) = m ((c : Thread nD τ).loc main_arg22) :=
  (W74_of_ne m ρ c main_arg22 (by decide)).trans (W73_arg22 m ρ c)
theorem W75_arg22 (c : Dev nD) : W75 m ρ c (Proc.devRef .tc main_arg22) = m ((c : Thread nD τ).loc main_arg22) :=
  (W75_keep m ρ c main_arg22 (by decide)).trans (W74_arg22 m ρ c)
theorem W76_arg22 (c : Dev nD) : W76 m ρ c (Proc.devRef .tc main_arg22) = m ((c : Thread nD τ).loc main_arg22) :=
  (W76_keep m ρ c main_arg22 (by decide)).trans (W75_arg22 m ρ c)
theorem W77_arg22 (c : Dev nD) : W77 m ρ c (Proc.devRef .tc main_arg22) = m ((c : Thread nD τ).loc main_arg22) :=
  (W77_keep m ρ c main_arg22 (by decide)).trans (W76_arg22 m ρ c)
theorem W78_arg22 (c : Dev nD) : W78 m ρ c (Proc.devRef .tc main_arg22) = m ((c : Thread nD τ).loc main_arg22) :=
  (W78_keep m ρ c main_arg22 (by decide)).trans (W77_arg22 m ρ c)
theorem W79_arg22 (c : Dev nD) : W79 m ρ c (Proc.devRef .tc main_arg22) = m ((c : Thread nD τ).loc main_arg22) :=
  (W79_keep m ρ c main_arg22 (by decide)).trans (W78_arg22 m ρ c)
theorem W80_arg22 (c : Dev nD) : W80 m ρ c (Proc.devRef .tc main_arg22) = m ((c : Thread nD τ).loc main_arg22) :=
  (W80_of_ne m ρ c main_arg22 (by decide)).trans (W79_arg22 m ρ c)
theorem W81_arg22 (c : Dev nD) : W81 m ρ c (Proc.devRef .tc main_arg22) = m ((c : Thread nD τ).loc main_arg22) :=
  (W81_keep m ρ c main_arg22 (by decide)).trans (W80_arg22 m ρ c)
theorem W82_arg22 (c : Dev nD) : W82 m ρ c (Proc.devRef .tc main_arg22) = m ((c : Thread nD τ).loc main_arg22) :=
  (W82_keep m ρ c main_arg22 (by decide)).trans (W81_arg22 m ρ c)
theorem W83_arg22 (c : Dev nD) : W83 m ρ c (Proc.devRef .tc main_arg22) = m ((c : Thread nD τ).loc main_arg22) :=
  (W83_keep m ρ c main_arg22 (by decide)).trans (W82_arg22 m ρ c)
theorem W84_arg22 (c : Dev nD) : W84 m ρ c (Proc.devRef .tc main_arg22) = m ((c : Thread nD τ).loc main_arg22) :=
  (W84_keep m ρ c main_arg22 (by decide)).trans (W83_arg22 m ρ c)
theorem W85_arg22 (c : Dev nD) : W85 m ρ c (Proc.devRef .tc main_arg22) = m ((c : Thread nD τ).loc main_arg22) :=
  (W85_keep m ρ c main_arg22 (by decide)).trans (W84_arg22 m ρ c)
theorem W86_arg22 (c : Dev nD) : W86 m ρ c (Proc.devRef .tc main_arg22) = m ((c : Thread nD τ).loc main_arg22) :=
  (W86_of_ne m ρ c main_arg22 (by decide)).trans (W85_arg22 m ρ c)
theorem W87_arg22 (c : Dev nD) : W87 m ρ c (Proc.devRef .tc main_arg22) = m ((c : Thread nD τ).loc main_arg22) :=
  (W87_keep m ρ c main_arg22 (by decide)).trans (W86_arg22 m ρ c)
theorem W88_arg22 (c : Dev nD) : W88 m ρ c (Proc.devRef .tc main_arg22) = m ((c : Thread nD τ).loc main_arg22) :=
  (W88_of_ne m ρ c main_arg22 (by decide)).trans (W87_arg22 m ρ c)
theorem W89_arg22 (c : Dev nD) : W89 m ρ c (Proc.devRef .tc main_arg22) = m ((c : Thread nD τ).loc main_arg22) :=
  (W89_keep m ρ c main_arg22 (by decide)).trans (W88_arg22 m ρ c)
theorem W90_arg22 (c : Dev nD) : W90 m ρ c (Proc.devRef .tc main_arg22) = m ((c : Thread nD τ).loc main_arg22) :=
  (W90_of_ne m ρ c main_arg22 (by decide)).trans (W89_arg22 m ρ c)

end Cert.KernelIdeal.Hand

end
-- ==== Proof.KFold.Args.lean ====
/- Every argument array at every boundary of the fold holds its launch contents: the three parts together
   (`W<j>_arg<k>`, j = 0 .. 90, k = 0 .. 22). -/
import proofs.«147021_j7619271983570_1_alg».proof.Proof.KFold.Args0
import proofs.«147021_j7619271983570_1_alg».proof.Proof.KFold.Args1
import proofs.«147021_j7619271983570_1_alg».proof.Proof.KFold.Args2
-- ==== Proof.Ref.Base.lean ====
/- Facts about a straight line of host operations that every chunk of the reference's run uses:
   each builder writes exactly its result reference, so its written set lies in the image of any list of
   references that holds that reference; and the two side conditions of a run (touched buffers, no allocation)
   pass to a concatenation. -/
import Idealize.ShloMosaic.Lib.StableHlo.Run
import Idealize.ShloMosaic.Lib.Pipeline.Frame

namespace Cert.ReferenceIdeal.Hand

open Idealize.ShloMosaic Idealize.SL.Sem Idealize.ShloMosaic.StableHlo

variable {τ : Topo} {sig : RefSig} {Val : EltTy → Type}

/-- A single reference's device buffer lies in the image of a list that holds the reference. -/
theorem single_sub_writes {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

section Builders

variable (x a b c y : Ref sig .tc) {W : List (Ref sig .tc)}

/-- A constant writes its result only. -/
theorem nullary_writes_sub (v : y.ty.Contents Val) (hy) (h : y ∈ W) :
    (nullary (τ := τ) y v hy).writes ⊆ (W.map (Proc.devRef (τ := τ) .tc)).toFinset := single_sub_writes h
/-- A one-operand operation writes its result only. -/
theorem unary_writes_sub (f : x.ty.Contents Val → y.ty.Contents Val) (hx hy) (h : y ∈ W) :
    (unary (τ := τ) x y f hx hy).writes ⊆ (W.map (Proc.devRef (τ := τ) .tc)).toFinset := single_sub_writes h
/-- A two-operand operation writes its result only. -/
theorem binary_writes_sub (f : a.ty.Contents Val → b.ty.Contents Val → y.ty.Contents Val) (ha hb hy) (h : y ∈ W) :
    (binary (τ := τ) a b y f ha hb hy).writes ⊆ (W.map (Proc.devRef (τ := τ) .tc)).toFinset := single_sub_writes h
/-- A three-operand operation writes its result only. -/
theorem ternary_writes_sub (f : c.ty.Contents Val → a.ty.Contents Val → b.ty.Contents Val → y.ty.Contents Val)
    (hc ha hb hy) (h : y ∈ W) :
    (ternary (τ := τ) c a b y f hc ha hb hy).writes ⊆ (W.map (Proc.devRef (τ := τ) .tc)).toFinset := single_sub_writes h
/-- A reshape writes its result only. -/
theorem reshape_writes_sub (he hn hx hy) (h : y ∈ W) :
    (reshape (τ := τ) (Val := Val) x y he hn hx hy).writes ⊆ (W.map (Proc.devRef (τ := τ) .tc)).toFinset :=
  single_sub_writes h

end Builders

/-- No operation of a concatenation allocates, when none of either part does. -/
theorem fresh_append {l₁ l₂ : List (HloOp τ sig Val)} (h₁ : ∀ op ∈ l₁, op.fresh = ∅) (h₂ : ∀ op ∈ l₂, op.fresh = ∅) :
    ∀ op ∈ l₁ ++ l₂, op.fresh = ∅ := fun op h =>
  (List.mem_append.1 h).elim (h₁ op) (h₂ op)

/-- Every operation of a concatenation touches TensorCore references only, when those of either part do. -/
theorem sub_append {l₁ l₂ : List (HloOp τ sig Val)} (h₁ : l₁.Forall fun op => op.bufs ⊆ tcRefs τ sig)
    (h₂ : l₂.Forall fun op => op.bufs ⊆ tcRefs τ sig) : (l₁ ++ l₂).Forall fun op => op.bufs ⊆ tcRefs τ sig :=
  List.forall_append.2 ⟨h₁, h₂⟩

/-- A list cut in two and followed by a third is the list followed by the third. -/
theorem take_append_drop_append {α : Type*} (n : Nat) (l r : List α) : List.take n l ++ (List.drop n l ++ r) = l ++ r := by
  rw [← List.append_assoc, List.take_append_drop]

/-- If every reference of one list has table index above `k`, every reference of another above `k'`, and
    `k ≤ k'`, then every reference of the two lists together has index above `k`. -/
theorem idx_lt_append {W₁ W₂ : List (Ref sig .tc)} {k k' : Nat} (h₁ : ∀ y ∈ W₁, k < y.idx.val)
    (h₂ : ∀ y ∈ W₂, k' < y.idx.val) (hk : k ≤ k') : ∀ y ∈ W₁ ++ W₂, k < y.idx.val := fun y h =>
  (List.mem_append.1 h).elim (h₁ y) fun h' => Nat.lt_of_le_of_lt hk (h₂ y h')

end Cert.ReferenceIdeal.Hand
-- ==== Proof.Ref.Chunk_P0.lean ====
/- Operations 0 … 3 of the reference's @main (4 of 1191), as a list; each touches TensorCore references only, none allocates, and each writes one reference of the list `writes_P0`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 0 … 3 of @main, in program order. -/
abbrev ops_P0 : List (HloOp τ sig (Elt F)) :=
  [ binary main_arg0 main_arg3 main_v0 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S20000x128 ![0, 1] bcast_S1x128_S20000x128_0_1 : (⟨S1x128, .f32⟩ : BufTy).Contents (Elt F) → (⟨S20000x128, .f32⟩ : BufTy).Contents (Elt F)),
    binary main_v0 main_v2 main_v3 (addf : (⟨S20000x128, .f32⟩ : BufTy).Contents (Elt F) → (⟨S20000x128, .f32⟩ : BufTy).Contents (Elt F) → (⟨S20000x128, .f32⟩ : BufTy).Contents (Elt F)) ]

/-- Each touches TensorCore references only. -/
theorem ops_P0_sub : (ops_P0 : List (HloOp τ sig (Elt F))).Forall fun op => op.bufs ⊆ StableHlo.tcRefs τ sig :=
  ⟨binary_bufs_sub .., unary_bufs_sub .., unary_bufs_sub .., binary_bufs_sub ..⟩

/-- None allocates a buffer. -/
theorem ops_P0_fresh : ∀ op ∈ (ops_P0 : List (HloOp τ sig (Elt F))), op.fresh = ∅ :=
  List.forall_iff_forall_mem.1 (show (ops_P0 : List (HloOp τ sig (Elt F))).Forall (fun op => op.fresh = ∅) from ⟨rfl, rfl, rfl, rfl⟩)

/-- The references the operations write, in order. -/
abbrev writes_P0 : List (Ref sig .tc) :=
  [main_v0, main_v1, main_v2, main_v3]

/-- Each operation writes a reference of that list only. -/
theorem ops_P0_writes : (ops_P0 : List (HloOp τ sig (Elt F))).Forall fun op =>
    op.writes ⊆ (writes_P0.map (Proc.devRef (τ := τ) .tc)).toFinset :=
  ⟨binary_writes_sub (h := by decide) .., unary_writes_sub (h := by decide) .., unary_writes_sub (h := by decide) .., binary_writes_sub (h := by decide) ..⟩

end Cert.ReferenceIdeal.Hand

end
-- ==== Proof.Ref.Chunk_P1.lean ====
/- Operations 4 … 7 of the reference's @main (4 of 1191), as a list; each touches TensorCore references only, none allocates, and each writes one reference of the list `writes_P1`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 4 … 7 of @main, in program order. -/
abbrev ops_P1 : List (HloOp τ sig (Elt F)) :=
  [ binary main_arg1 main_arg5 main_v4 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    unary main_arg6 main_v5 (broadcastInDim S1x128 ![1] bcast_S128_S1x128_1 : (⟨S128, .f32⟩ : BufTy).Contents (Elt F) → (⟨S1x128, .f32⟩ : BufTy).Contents (Elt F)),
    unary main_v5 main_v6 (broadcastInDim S60000x128 ![0, 1] bcast_S1x128_S60000x128_0_1 : (⟨S1x128, .f32⟩ : BufTy).Contents (Elt F) → (⟨S60000x128, .f32⟩ : BufTy).Contents (Elt F)),
    binary main_v4 main_v6 main_v7 (addf : (⟨S60000x128, .f32⟩ : BufTy).Contents (Elt F) → (⟨S60000x128, .f32⟩ : BufTy).Contents (Elt F) → (⟨S60000x128, .f32⟩ : BufTy).Contents (Elt F)) ]

/-- Each touches TensorCore references only. -/
theorem ops_P1_sub : (ops_P1 : List (HloOp τ sig (Elt F))).Forall fun op => op.bufs ⊆ StableHlo.tcRefs τ sig :=
  ⟨binary_bufs_sub .., unary_bufs_sub .., unary_bufs_sub .., binary_bufs_sub ..⟩

/-- None allocates a buffer. -/
theorem ops_P1_fresh : ∀ op ∈ (ops_P1 : List (HloOp τ sig (Elt F))), op.fresh = ∅ :=
  List.forall_iff_forall_mem.1 (show (ops_P1 : List (HloOp τ sig (Elt F))).Forall (fun op => op.fresh = ∅) from ⟨rfl, rfl, rfl, rfl⟩)

/-- The references the operations write, in order. -/
abbrev writes_P1 : List (Ref sig .tc) :=
  [main_v4, main_v5, main_v6, main_v7]

/-- Each operation writes a reference of that list only. -/
theorem ops_P1_writes : (ops_P1 : List (HloOp τ sig (Elt F))).Forall fun op =>
    op.writes ⊆ (writes_P1.map (Proc.devRef (τ := τ) .tc)).toFinset :=
  ⟨binary_writes_sub (h := by decide) .., unary_writes_sub (h := by decide) .., unary_writes_sub (h := by decide) .., binary_writes_sub (h := by decide) ..⟩

end Cert.ReferenceIdeal.Hand

end
-- ==== Proof.Ref.Chunk_P2.lean ====
/- Operations 8 … 11 of the reference's @main (4 of 1191), as a list; each touches TensorCore references only, none allocates, and each writes one reference of the list `writes_P2`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 8 … 11 of @main, in program order. -/
abbrev ops_P2 : List (HloOp τ sig (Elt F)) :=
  [ binary main_arg2 main_arg7 main_v8 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg8 main_v9 (broadcastInDim S1x128 ![1] bcast_S128_S1x128_1 : (⟨S128, .f32⟩ : BufTy).Contents (Elt F) → (⟨S1x128, .f32⟩ : BufTy).Contents (Elt F)),
    unary main_v9 main_v10 (broadcastInDim S20000x128 ![0, 1] bcast_S1x128_S20000x128_0_1 : (⟨S1x128, .f32⟩ : BufTy).Contents (Elt F) → (⟨S20000x128, .f32⟩ : BufTy).Contents (Elt F)),
    binary main_v8 main_v10 main_v11 (addf : (⟨S20000x128, .f32⟩ : BufTy).Contents (Elt F) → (⟨S20000x128, .f32⟩ : BufTy).Contents (Elt F) → (⟨S20000x128, .f32⟩ : BufTy).Contents (Elt F)) ]

/-- Each touches TensorCore references only. -/
theorem ops_P2_sub : (ops_P2 : List (HloOp τ sig (Elt F))).Forall fun op => op.bufs ⊆ StableHlo.tcRefs τ sig :=
  ⟨binary_bufs_sub .., unary_bufs_sub .., unary_bufs_sub .., binary_bufs_sub ..⟩

/-- None allocates a buffer. -/
theorem ops_P2_fresh : ∀ op ∈ (ops_P2 : List (HloOp τ sig (Elt F))), op.fresh = ∅ :=
  List.forall_iff_forall_mem.1 (show (ops_P2 : List (HloOp τ sig (Elt F))).Forall (fun op => op.fresh = ∅) from ⟨rfl, rfl, rfl, rfl⟩)

/-- The references the operations write, in order. -/
abbrev writes_P2 : List (Ref sig .tc) :=
  [main_v8, main_v9, main_v10, main_v11]

/-- Each operation writes a reference of that list only. -/
theorem ops_P2_writes : (ops_P2 : List (HloOp τ sig (Elt F))).Forall fun op =>
    op.writes ⊆ (writes_P2.map (Proc.devRef (τ := τ) .tc)).toFinset :=
  ⟨binary_writes_sub (h := by decide) .., unary_writes_sub (h := by decide) .., unary_writes_sub (h := by decide) .., binary_writes_sub (h := by decide) ..⟩

end Cert.ReferenceIdeal.Hand

end
-- ==== Proof.Ref.Chunk_G3.lean ====
/- Operations 12 … 19 of the reference's @main (8 of 1191), as a list; each touches TensorCore references only, none allocates, and each writes one reference of the list `writes_G3`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 12 … 19 of @main, in program order. -/
abbrev ops_G3 : List (HloOp τ sig (Elt F)) :=
  [ nullary main_cst (constant S_ .f32 0x00000000#32),
    unary main_cst main_v12 (broadcastInDim S20000x128 ![] bcast_S_S20000x128 : (⟨S_, .f32⟩ : BufTy).Contents (Elt F) → (⟨S20000x128, .f32⟩ : BufTy).Contents (Elt F)),
    nullary main_cst_0 (constant S_ .f32 0x00000000#32),
    unary main_cst_0 main_v13 (broadcastInDim S60000x128 ![] bcast_S_S60000x128 : (⟨S_, .f32⟩ : BufTy).Contents (Elt F) → (⟨S60000x128, .f32⟩ : BufTy).Contents (Elt F)),
    nullary main_cst_1 (constant S_ .f32 0x00000000#32),
    unary main_cst_1 main_v14 (broadcastInDim S20000x128 ![] bcast_S_S20000x128 : (⟨S_, .f32⟩ : BufTy).Contents (Elt F) → (⟨S20000x128, .f32⟩ : BufTy).Contents (Elt F)),
    unary main_arg9 main_v15 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v15 main_v16 rfl shapeCasts_S1x128x128_S128x128 ]

/-- Each touches TensorCore references only. -/
theorem ops_G3_sub : (ops_G3 : List (HloOp τ sig (Elt F))).Forall fun op => op.bufs ⊆ StableHlo.tcRefs τ sig :=
  ⟨nullary_bufs_sub .., unary_bufs_sub .., nullary_bufs_sub .., unary_bufs_sub .., nullary_bufs_sub .., unary_bufs_sub .., unary_bufs_sub .., reshape_bufs_sub ..⟩

/-- None allocates a buffer. -/
theorem ops_G3_fresh : ∀ op ∈ (ops_G3 : List (HloOp τ sig (Elt F))), op.fresh = ∅ :=
  List.forall_iff_forall_mem.1 (show (ops_G3 : List (HloOp τ sig (Elt F))).Forall (fun op => op.fresh = ∅) from ⟨rfl, rfl, rfl, rfl, rfl, rfl, rfl, rfl⟩)

/-- The references the operations write, in order. -/
abbrev writes_G3 : List (Ref sig .tc) :=
  [main_cst, main_v12, main_cst_0, main_v13, main_cst_1, main_v14, main_v15, main_v16]

/-- Each operation writes a reference of that list only. -/
theorem ops_G3_writes : (ops_G3 : List (HloOp τ sig (Elt F))).Forall fun op =>
    op.writes ⊆ (writes_G3.map (Proc.devRef (τ := τ) .tc)).toFinset :=
  ⟨nullary_writes_sub (h := by decide) .., unary_writes_sub (h := by decide) .., nullary_writes_sub (h := by decide) .., unary_writes_sub (h := by decide) .., nullary_writes_sub (h := by decide) .., unary_writes_sub (h := by decide) .., unary_writes_sub (h := by decide) .., reshape_writes_sub (h := by decide) ..⟩

end Cert.ReferenceIdeal.Hand

end
-- ==== Proof.Ref.Chunk_G4a.lean ====
/- Operations 20 … 57 of the reference's @main (38 of 1191), as a list; each touches TensorCore references only, none allocates, and each writes one reference of the list `writes_G4a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 20 … 57 of @main, in program order. -/
abbrev ops_G4a : List (HloOp τ sig (Elt F)) :=
  [ unary main_arg10 main_v17 ((extractStridedSlice S1x128 ![0, 0] · slices_S6x128_S1x128_0_0) : (⟨S6x128, .f32⟩ : BufTy).Contents (Elt F) → (⟨S1x128, .f32⟩ : BufTy).Contents (Elt F)),
    reshape main_v17 main_v18 rfl shapeCasts_S1x128_S128,
    unary main_arg17 main_v19 ((extractStridedSlice S1x500000 ![0, 0] · slices_S2x500000_S1x500000_0_0) : (⟨S2x500000, .i32⟩ : BufTy).Contents (Elt F) → (⟨S1x500000, .i32⟩ : BufTy).Contents (Elt F)),
    reshape main_v19 main_v20 rfl shapeCasts_S1x500000_S500000,
    unary main_arg17 main_v21 ((extractStridedSlice S1x500000 ![1, 0] · slices_S2x500000_S1x500000_1_0) : (⟨S2x500000, .i32⟩ : BufTy).Contents (Elt F) → (⟨S1x500000, .i32⟩ : BufTy).Contents (Elt F)),
    reshape main_v21 main_v22 rfl shapeCasts_S1x500000_S500000,
    nullary main_cst_2 (constant S_ .f32 0x3F800000#32),
    unary main_cst_2 main_v23 (broadcastInDim S500000 ![] bcast_S_S500000 : (⟨S_, .f32⟩ : BufTy).Contents (Elt F) → (⟨S500000, .f32⟩ : BufTy).Contents (Elt F)),
    nullary main_cst_3 (constant S_ .f32 0x00000000#32),
    unary main_cst_3 main_v24 (broadcastInDim S20000 ![] bcast_S_S20000 : (⟨S_, .f32⟩ : BufTy).Contents (Elt F) → (⟨S20000, .f32⟩ : BufTy).Contents (Elt F)),
    unary main_v20 main_v25 (broadcastInDim S500000x1 ![0] bcast_S500000_S500000x1_0 : (⟨S500000, .i32⟩ : BufTy).Contents (Elt F) → (⟨S500000x1, .i32⟩ : BufTy).Contents (Elt F)),
    ternary main_v24 main_v25 main_v23 main_v26 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_4 (constant S_ .f32 0x00000000#32),
    unary main_cst_4 main_v27 (broadcastInDim S20000 ![] bcast_S_S20000 : (⟨S_, .f32⟩ : BufTy).Contents (Elt F) → (⟨S20000, .f32⟩ : BufTy).Contents (Elt F)),
    unary main_v22 main_v28 (broadcastInDim S500000x1 ![0] bcast_S500000_S500000x1_0 : (⟨S500000, .i32⟩ : BufTy).Contents (Elt F) → (⟨S500000x1, .i32⟩ : BufTy).Contents (Elt F)),
    ternary main_v27 main_v28 main_v23 main_v29 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_5 (constant S_ .f32 0x00000000#32),
    unary main_cst_5 main_v30 (broadcastInDim S20000 ![] bcast_S_S20000 : (⟨S_, .f32⟩ : BufTy).Contents (Elt F) → (⟨S20000, .f32⟩ : BufTy).Contents (Elt F)),
    binary main_v26 main_v30 main_v31 (cmpf .ogt : (⟨S20000, .f32⟩ : BufTy).Contents (Elt F) → (⟨S20000, .f32⟩ : BufTy).Contents (Elt F) → (⟨S20000, .i1⟩ : BufTy).Contents (Elt F)),
    nullary main_cst_6 (constant S_ .f32 0x3F800000#32),
    unary main_cst_6 main_v32 (broadcastInDim S20000 ![] bcast_S_S20000 : (⟨S_, .f32⟩ : BufTy).Contents (Elt F) → (⟨S20000, .f32⟩ : BufTy).Contents (Elt F)),
    binary main_v26 main_v32 main_v33 (maximumf : (⟨S20000, .f32⟩ : BufTy).Contents (Elt F) → (⟨S20000, .f32⟩ : BufTy).Contents (Elt F) → (⟨S20000, .f32⟩ : BufTy).Contents (Elt F)),
    unary main_v33 main_v34 (Host.rsqrt : (⟨S20000, .f32⟩ : BufTy).Contents (Elt F) → (⟨S20000, .f32⟩ : BufTy).Contents (Elt F)),
    nullary main_cst_7 (constant S_ .f32 0x00000000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S20000, .f32⟩) main_call0_v1) (broadcastInDim S20000 ![] bcast_S_S20000),
    TRef.ternary (TRef.of (T := ⟨S20000, .i1⟩) main_v31) (TRef.of (T := ⟨S20000, .f32⟩) main_v34) (TRef.of (T := ⟨S20000, .f32⟩) main_call0_v1) (TRef.of (T := ⟨S20000, .f32⟩) main_v35) select,
    nullary main_cst_8 (constant S_ .f32 0x00000000#32),
    unary main_cst_8 main_v36 (broadcastInDim S20000 ![] bcast_S_S20000 : (⟨S_, .f32⟩ : BufTy).Contents (Elt F) → (⟨S20000, .f32⟩ : BufTy).Contents (Elt F)),
    binary main_v29 main_v36 main_v37 (cmpf .ogt : (⟨S20000, .f32⟩ : BufTy).Contents (Elt F) → (⟨S20000, .f32⟩ : BufTy).Contents (Elt F) → (⟨S20000, .i1⟩ : BufTy).Contents (Elt F)),
    nullary main_cst_9 (constant S_ .f32 0x3F800000#32),
    unary main_cst_9 main_v38 (broadcastInDim S20000 ![] bcast_S_S20000 : (⟨S_, .f32⟩ : BufTy).Contents (Elt F) → (⟨S20000, .f32⟩ : BufTy).Contents (Elt F)),
    binary main_v29 main_v38 main_v39 (maximumf : (⟨S20000, .f32⟩ : BufTy).Contents (Elt F) → (⟨S20000, .f32⟩ : BufTy).Contents (Elt F) → (⟨S20000, .f32⟩ : BufTy).Contents (Elt F)),
    unary main_v39 main_v40 (Host.rsqrt : (⟨S20000, .f32⟩ : BufTy).Contents (Elt F) → (⟨S20000, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S20000, .f32⟩) main_call1_v1) (broadcastInDim S20000 ![] bcast_S_S20000),
    TRef.ternary (TRef.of (T := ⟨S20000, .i1⟩) main_v37) (TRef.of (T := ⟨S20000, .f32⟩) main_v40) (TRef.of (T := ⟨S20000, .f32⟩) main_call1_v1) (TRef.of (T := ⟨S20000, .f32⟩) main_v41) select ]

/-- Each touches TensorCore references only. -/
theorem ops_G4a_sub : (ops_G4a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G4a_fresh : ∀ op ∈ (ops_G4a : List (HloOp τ sig (Elt F))), op.fresh = ∅ :=
  List.forall_iff_forall_mem.1 (show (ops_G4a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G4a : List (Ref sig .tc) :=
  [main_v17, main_v18, main_v19, main_v20, main_v21, main_v22, main_cst_2, main_v23, main_cst_3, main_v24, main_v25, main_v26, main_cst_4, main_v27, main_v28, main_v29, main_cst_5, main_v30, main_v31, main_cst_6, main_v32, main_v33, main_v34, main_cst_7, main_call0_v0, main_call0_v1, main_v35, main_cst_8, main_v36, main_v37, main_cst_9, main_v38, main_v39, main_v40, main_cst_10, main_call1_v0, main_call1_v1, main_v41]

/-- Each operation writes a reference of that list only. -/
theorem ops_G4a_writes : (ops_G4a : List (HloOp τ sig (Elt F))).Forall fun op =>
    op.writes ⊆ (writes_G4a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D3.lean ====
/- Operations 58 … 58 of the reference's @main (1 of 1191), as a list; each touches TensorCore references only, none allocates, and each writes one reference of the list `writes_D3`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 58 … 58 of @main, in program order. -/
abbrev ops_D3 : List (HloOp τ sig (Elt F)) :=
  [ binary main_v3 main_v16 main_v42 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]

/-- Each touches TensorCore references only. -/
theorem ops_D3_sub : (ops_D3 : List (HloOp τ sig (Elt F))).Forall fun op => op.bufs ⊆ StableHlo.tcRefs τ sig :=
  binary_bufs_sub ..

/-- None allocates a buffer. -/
theorem ops_D3_fresh : ∀ op ∈ (ops_D3 : List (HloOp τ sig (Elt F))), op.fresh = ∅ :=
  List.forall_iff_forall_mem.1 (show (ops_D3 : List (HloOp τ sig (Elt F))).Forall (fun op => op.fresh = ∅) from rfl)

/-- The references the operations write, in order. -/
abbrev writes_D3 : List (Ref sig .tc) :=
  [main_v42]

/-- Each operation writes a reference of that list only. -/
theorem ops_D3_writes : (ops_D3 : List (HloOp τ sig (Elt F))).Forall fun op =>
    op.writes ⊆ (writes_D3.map (Proc.devRef (τ := τ) .tc)).toFinset :=
  binary_writes_sub (h := by decide) ..

end Cert.ReferenceIdeal.Hand

end
-- ==== Proof.Ref.Chunk_G4b.lean ====
/- Operations 59 … 99 of the reference's @main (41 of 1191), as a list; each touches TensorCore references only, none allocates, and each writes one reference of the list `writes_G4b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 59 … 99 of @main, in program order. -/
abbrev ops_G4b : List (HloOp τ sig (Elt F)) :=
  [ nullary main_c (constantI S_ 32 0#32),
    unary main_c main_v43 (broadcastInDim S500000 ![] bcast_S_S500000 : (⟨S_, .i32⟩ : BufTy).Contents (Elt F) → (⟨S500000, .i32⟩ : BufTy).Contents (Elt F)),
    binary main_v20 main_v43 main_v44 (cmpi .slt : (⟨S500000, .i32⟩ : BufTy).Contents (Elt F) → (⟨S500000, .i32⟩ : BufTy).Contents (Elt F) → (⟨S500000, .i1⟩ : BufTy).Contents (Elt F)),
    nullary main_c_11 (constantI S_ 32 20000#32),
    unary main_c_11 main_v45 (broadcastInDim S500000 ![] bcast_S_S500000 : (⟨S_, .i32⟩ : BufTy).Contents (Elt F) → (⟨S500000, .i32⟩ : BufTy).Contents (Elt F)),
    binary main_v20 main_v45 main_v46 (addi : (⟨S500000, .i32⟩ : BufTy).Contents (Elt F) → (⟨S500000, .i32⟩ : BufTy).Contents (Elt F) → (⟨S500000, .i32⟩ : BufTy).Contents (Elt F)),
    ternary main_v44 main_v46 main_v20 main_v47 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v47 main_v48 (broadcastInDim S500000x1 ![0] bcast_S500000_S500000x1_0 : (⟨S500000, .i32⟩ : BufTy).Contents (Elt F) → (⟨S500000x1, .i32⟩ : BufTy).Contents (Elt F)),
    binary main_v35 main_v48 main_v49 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_12 (constantI S_ 32 0#32),
    unary main_c_12 main_v50 (broadcastInDim S500000 ![] bcast_S_S500000 : (⟨S_, .i32⟩ : BufTy).Contents (Elt F) → (⟨S500000, .i32⟩ : BufTy).Contents (Elt F)),
    binary main_v22 main_v50 main_v51 (cmpi .slt : (⟨S500000, .i32⟩ : BufTy).Contents (Elt F) → (⟨S500000, .i32⟩ : BufTy).Contents (Elt F) → (⟨S500000, .i1⟩ : BufTy).Contents (Elt F)),
    nullary main_c_13 (constantI S_ 32 20000#32),
    unary main_c_13 main_v52 (broadcastInDim S500000 ![] bcast_S_S500000 : (⟨S_, .i32⟩ : BufTy).Contents (Elt F) → (⟨S500000, .i32⟩ : BufTy).Contents (Elt F)),
    binary main_v22 main_v52 main_v53 (addi : (⟨S500000, .i32⟩ : BufTy).Contents (Elt F) → (⟨S500000, .i32⟩ : BufTy).Contents (Elt F) → (⟨S500000, .i32⟩ : BufTy).Contents (Elt F)),
    ternary main_v51 main_v53 main_v22 main_v54 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v54 main_v55 (broadcastInDim S500000x1 ![0] bcast_S500000_S500000x1_0 : (⟨S500000, .i32⟩ : BufTy).Contents (Elt F) → (⟨S500000x1, .i32⟩ : BufTy).Contents (Elt F)),
    binary main_v41 main_v55 main_v56 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v49 main_v56 main_v57 (mulf : (⟨S500000, .f32⟩ : BufTy).Contents (Elt F) → (⟨S500000, .f32⟩ : BufTy).Contents (Elt F) → (⟨S500000, .f32⟩ : BufTy).Contents (Elt F)),
    nullary main_c_14 (constantI S_ 32 0#32),
    unary main_c_14 main_v58 (broadcastInDim S500000 ![] bcast_S_S500000 : (⟨S_, .i32⟩ : BufTy).Contents (Elt F) → (⟨S500000, .i32⟩ : BufTy).Contents (Elt F)),
    binary main_v20 main_v58 main_v59 (cmpi .slt : (⟨S500000, .i32⟩ : BufTy).Contents (Elt F) → (⟨S500000, .i32⟩ : BufTy).Contents (Elt F) → (⟨S500000, .i1⟩ : BufTy).Contents (Elt F)),
    nullary main_c_15 (constantI S_ 32 20000#32),
    unary main_c_15 main_v60 (broadcastInDim S500000 ![] bcast_S_S500000 : (⟨S_, .i32⟩ : BufTy).Contents (Elt F) → (⟨S500000, .i32⟩ : BufTy).Contents (Elt F)),
    binary main_v20 main_v60 main_v61 (addi : (⟨S500000, .i32⟩ : BufTy).Contents (Elt F) → (⟨S500000, .i32⟩ : BufTy).Contents (Elt F) → (⟨S500000, .i32⟩ : BufTy).Contents (Elt F)),
    ternary main_v59 main_v61 main_v20 main_v62 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v62 main_v63 (broadcastInDim S500000x1 ![0] bcast_S500000_S500000x1_0 : (⟨S500000, .i32⟩ : BufTy).Contents (Elt F) → (⟨S500000x1, .i32⟩ : BufTy).Contents (Elt F)),
    binary main_v42 main_v63 main_v64 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    unary main_v57 main_v65 (broadcastInDim S500000x1 ![0] bcast_S500000_S500000x1_0 : (⟨S500000, .f32⟩ : BufTy).Contents (Elt F) → (⟨S500000x1, .f32⟩ : BufTy).Contents (Elt F)),
    unary main_v65 main_v66 (broadcastInDim S500000x128 ![0, 1] bcast_S500000x1_S500000x128_0_1 : (⟨S500000x1, .f32⟩ : BufTy).Contents (Elt F) → (⟨S500000x128, .f32⟩ : BufTy).Contents (Elt F)),
    binary main_v64 main_v66 main_v67 (mulf : (⟨S500000x128, .f32⟩ : BufTy).Contents (Elt F) → (⟨S500000x128, .f32⟩ : BufTy).Contents (Elt F) → (⟨S500000x128, .f32⟩ : BufTy).Contents (Elt F)),
    nullary main_cst_16 (constant S_ .f32 0x00000000#32),
    unary main_cst_16 main_v68 (broadcastInDim S20000x128 ![] bcast_S_S20000x128 : (⟨S_, .f32⟩ : BufTy).Contents (Elt F) → (⟨S20000x128, .f32⟩ : BufTy).Contents (Elt F)),
    unary main_v22 main_v69 (broadcastInDim S500000x1 ![0] bcast_S500000_S500000x1_0 : (⟨S500000, .i32⟩ : BufTy).Contents (Elt F) → (⟨S500000x1, .i32⟩ : BufTy).Contents (Elt F)),
    ternary main_v68 main_v69 main_v67 main_v70 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    unary main_v18 main_v71 (broadcastInDim S1x128 ![1] bcast_S128_S1x128_1 : (⟨S128, .f32⟩ : BufTy).Contents (Elt F) → (⟨S1x128, .f32⟩ : BufTy).Contents (Elt F)),
    unary main_v71 main_v72 (broadcastInDim S20000x128 ![0, 1] bcast_S1x128_S20000x128_0_1 : (⟨S1x128, .f32⟩ : BufTy).Contents (Elt F) → (⟨S20000x128, .f32⟩ : BufTy).Contents (Elt F)),
    binary main_v70 main_v72 main_v73 (addf : (⟨S20000x128, .f32⟩ : BufTy).Contents (Elt F) → (⟨S20000x128, .f32⟩ : BufTy).Contents (Elt F) → (⟨S20000x128, .f32⟩ : BufTy).Contents (Elt F)),
    binary main_v14 main_v73 main_v74 (addf : (⟨S20000x128, .f32⟩ : BufTy).Contents (Elt F) → (⟨S20000x128, .f32⟩ : BufTy).Contents (Elt F) → (⟨S20000x128, .f32⟩ : BufTy).Contents (Elt F)),
    unary main_arg9 main_v75 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v75 main_v76 rfl shapeCasts_S1x128x128_S128x128 ]

/-- Each touches TensorCore references only. -/
theorem ops_G4b_sub : (ops_G4b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G4b_fresh : ∀ op ∈ (ops_G4b : List (HloOp τ sig (Elt F))), op.fresh = ∅ :=
  List.forall_iff_forall_mem.1 (show (ops_G4b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G4b : List (Ref sig .tc) :=
  [main_c, main_v43, main_v44, main_c_11, main_v45, main_v46, main_v47, main_v48, main_v49, main_c_12, main_v50, main_v51, main_c_13, main_v52, main_v53, main_v54, main_v55, main_v56, main_v57, main_c_14, main_v58, main_v59, main_c_15, main_v60, main_v61, main_v62, main_v63, main_v64, main_v65, main_v66, main_v67, main_cst_16, main_v68, main_v69, main_v70, main_v71, main_v72, main_v73, main_v74, main_v75, main_v76]

/-- Each operation writes a reference of that list only. -/
theorem ops_G4b_writes : (ops_G4b : List (HloOp τ sig (Elt F))).Forall fun op =>
    op.writes ⊆ (writes_G4b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G5a.lean ====
/- Operations 100 … 137 of the reference's @main (38 of 1191), as a list; each touches TensorCore references only, none allocates, and each writes one reference of the list `writes_G5a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 100 … 137 of @main, in program order. -/
abbrev ops_G5a : List (HloOp τ sig (Elt F)) :=
  [ unary main_arg10 main_v77 ((extractStridedSlice S1x128 ![1, 0] · slices_S6x128_S1x128_1_0) : (⟨S6x128, .f32⟩ : BufTy).Contents (Elt F) → (⟨S1x128, .f32⟩ : BufTy).Contents (Elt F)),
    reshape main_v77 main_v78 rfl shapeCasts_S1x128_S128,
    unary main_arg18 main_v79 ((extractStridedSlice S1x500000 ![0, 0] · slices_S2x500000_S1x500000_0_0) : (⟨S2x500000, .i32⟩ : BufTy).Contents (Elt F) → (⟨S1x500000, .i32⟩ : BufTy).Contents (Elt F)),
    reshape main_v79 main_v80 rfl shapeCasts_S1x500000_S500000,
    unary main_arg18 main_v81 ((extractStridedSlice S1x500000 ![1, 0] · slices_S2x500000_S1x500000_1_0) : (⟨S2x500000, .i32⟩ : BufTy).Contents (Elt F) → (⟨S1x500000, .i32⟩ : BufTy).Contents (Elt F)),
    reshape main_v81 main_v82 rfl shapeCasts_S1x500000_S500000,
    nullary main_cst_17 (constant S_ .f32 0x3F800000#32),
    unary main_cst_17 main_v83 (broadcastInDim S500000 ![] bcast_S_S500000 : (⟨S_, .f32⟩ : BufTy).Contents (Elt F) → (⟨S500000, .f32⟩ : BufTy).Contents (Elt F)),
    nullary main_cst_18 (constant S_ .f32 0x00000000#32),
    unary main_cst_18 main_v84 (broadcastInDim S20000 ![] bcast_S_S20000 : (⟨S_, .f32⟩ : BufTy).Contents (Elt F) → (⟨S20000, .f32⟩ : BufTy).Contents (Elt F)),
    unary main_v80 main_v85 (broadcastInDim S500000x1 ![0] bcast_S500000_S500000x1_0 : (⟨S500000, .i32⟩ : BufTy).Contents (Elt F) → (⟨S500000x1, .i32⟩ : BufTy).Contents (Elt F)),
    ternary main_v84 main_v85 main_v83 main_v86 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_19 (constant S_ .f32 0x00000000#32),
    unary main_cst_19 main_v87 (broadcastInDim S60000 ![] bcast_S_S60000 : (⟨S_, .f32⟩ : BufTy).Contents (Elt F) → (⟨S60000, .f32⟩ : BufTy).Contents (Elt F)),
    unary main_v82 main_v88 (broadcastInDim S500000x1 ![0] bcast_S500000_S500000x1_0 : (⟨S500000, .i32⟩ : BufTy).Contents (Elt F) → (⟨S500000x1, .i32⟩ : BufTy).Contents (Elt F)),
    ternary main_v87 main_v88 main_v83 main_v89 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_20 (constant S_ .f32 0x00000000#32),
    unary main_cst_20 main_v90 (broadcastInDim S20000 ![] bcast_S_S20000 : (⟨S_, .f32⟩ : BufTy).Contents (Elt F) → (⟨S20000, .f32⟩ : BufTy).Contents (Elt F)),
    binary main_v86 main_v90 main_v91 (cmpf .ogt : (⟨S20000, .f32⟩ : BufTy).Contents (Elt F) → (⟨S20000, .f32⟩ : BufTy).Contents (Elt F) → (⟨S20000, .i1⟩ : BufTy).Contents (Elt F)),
    nullary main_cst_21 (constant S_ .f32 0x3F800000#32),
    unary main_cst_21 main_v92 (broadcastInDim S20000 ![] bcast_S_S20000 : (⟨S_, .f32⟩ : BufTy).Contents (Elt F) → (⟨S20000, .f32⟩ : BufTy).Contents (Elt F)),
    binary main_v86 main_v92 main_v93 (maximumf : (⟨S20000, .f32⟩ : BufTy).Contents (Elt F) → (⟨S20000, .f32⟩ : BufTy).Contents (Elt F) → (⟨S20000, .f32⟩ : BufTy).Contents (Elt F)),
    unary main_v93 main_v94 (Host.rsqrt : (⟨S20000, .f32⟩ : BufTy).Contents (Elt F) → (⟨S20000, .f32⟩ : BufTy).Contents (Elt F)),
    nullary main_cst_22 (constant S_ .f32 0x00000000#32),
    TRef.unary (TRef.of (T := ⟨S_, .f32⟩) main_cst_22) (TRef.of (T := ⟨S_, .f32⟩) main_call2_v0) id,
    TRef.unary (TRef.of (T := ⟨S_, .f32⟩) main_call2_v0) (TRef.of (T := ⟨S20000, .f32⟩) main_call2_v1) (broadcastInDim S20000 ![] bcast_S_S20000),
    TRef.ternary (TRef.of (T := ⟨S20000, .i1⟩) main_v91) (TRef.of (T := ⟨S20000, .f32⟩) main_v94) (TRef.of (T := ⟨S20000, .f32⟩) main_call2_v1) (TRef.of (T := ⟨S20000, .f32⟩) main_v95) select,
    nullary main_cst_23 (constant S_ .f32 0x00000000#32),
    unary main_cst_23 main_v96 (broadcastInDim S60000 ![] bcast_S_S60000 : (⟨S_, .f32⟩ : BufTy).Contents (Elt F) → (⟨S60000, .f32⟩ : BufTy).Contents (Elt F)),
    binary main_v89 main_v96 main_v97 (cmpf .ogt : (⟨S60000, .f32⟩ : BufTy).Contents (Elt F) → (⟨S60000, .f32⟩ : BufTy).Contents (Elt F) → (⟨S60000, .i1⟩ : BufTy).Contents (Elt F)),
    nullary main_cst_24 (constant S_ .f32 0x3F800000#32),
    unary main_cst_24 main_v98 (broadcastInDim S60000 ![] bcast_S_S60000 : (⟨S_, .f32⟩ : BufTy).Contents (Elt F) → (⟨S60000, .f32⟩ : BufTy).Contents (Elt F)),
    binary main_v89 main_v98 main_v99 (maximumf : (⟨S60000, .f32⟩ : BufTy).Contents (Elt F) → (⟨S60000, .f32⟩ : BufTy).Contents (Elt F) → (⟨S60000, .f32⟩ : BufTy).Contents (Elt F)),
    unary main_v99 main_v100 (Host.rsqrt : (⟨S60000, .f32⟩ : BufTy).Contents (Elt F) → (⟨S60000, .f32⟩ : BufTy).Contents (Elt F)),
    nullary main_cst_25 (constant S_ .f32 0x00000000#32),
    TRef.unary (TRef.of (T := ⟨S_, .f32⟩) main_cst_25) (TRef.of (T := ⟨S_, .f32⟩) main_call3_v0) id,
    TRef.unary (TRef.of (T := ⟨S_, .f32⟩) main_call3_v0) (TRef.of (T := ⟨S60000, .f32⟩) main_call3_v1) (broadcastInDim S60000 ![] bcast_S_S60000),
    TRef.ternary (TRef.of (T := ⟨S60000, .i1⟩) main_v97) (TRef.of (T := ⟨S60000, .f32⟩) main_v100) (TRef.of (T := ⟨S60000, .f32⟩) main_call3_v1) (TRef.of (T := ⟨S60000, .f32⟩) main_v101) select ]

/-- Each touches TensorCore references only. -/
theorem ops_G5a_sub : (ops_G5a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G5a_fresh : ∀ op ∈ (ops_G5a : List (HloOp τ sig (Elt F))), op.fresh = ∅ :=
  List.forall_iff_forall_mem.1 (show (ops_G5a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G5a : List (Ref sig .tc) :=
  [main_v77, main_v78, main_v79, main_v80, main_v81, main_v82, main_cst_17, main_v83, main_cst_18, main_v84, main_v85, main_v86, main_cst_19, main_v87, main_v88, main_v89, main_cst_20, main_v90, main_v91, main_cst_21, main_v92, main_v93, main_v94, main_cst_22, main_call2_v0, main_call2_v1, main_v95, main_cst_23, main_v96, main_v97, main_cst_24, main_v98, main_v99, main_v100, main_cst_25, main_call3_v0, main_call3_v1, main_v101]

/-- Each operation writes a reference of that list only. -/
theorem ops_G5a_writes : (ops_G5a : List (HloOp τ sig (Elt F))).Forall fun op =>
    op.writes ⊆ (writes_G5a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D4.lean ====
/- Operations 138 … 138 of the reference's @main (1 of 1191), as a list; each touches TensorCore references only, none allocates, and each writes one reference of the list `writes_D4`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 138 … 138 of @main, in program order. -/
abbrev ops_D4 : List (HloOp τ sig (Elt F)) :=
  [ binary main_v3 main_v76 main_v102 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]

/-- Each touches TensorCore references only. -/
theorem ops_D4_sub : (ops_D4 : List (HloOp τ sig (Elt F))).Forall fun op => op.bufs ⊆ StableHlo.tcRefs τ sig :=
  binary_bufs_sub ..

/-- None allocates a buffer. -/
theorem ops_D4_fresh : ∀ op ∈ (ops_D4 : List (HloOp τ sig (Elt F))), op.fresh = ∅ :=
  List.forall_iff_forall_mem.1 (show (ops_D4 : List (HloOp τ sig (Elt F))).Forall (fun op => op.fresh = ∅) from rfl)

/-- The references the operations write, in order. -/
abbrev writes_D4 : List (Ref sig .tc) :=
  [main_v102]

/-- Each operation writes a reference of that list only. -/
theorem ops_D4_writes : (ops_D4 : List (HloOp τ sig (Elt F))).Forall fun op =>
    op.writes ⊆ (writes_D4.map (Proc.devRef (τ := τ) .tc)).toFinset :=
  binary_writes_sub (h := by decide) ..

end Cert.ReferenceIdeal.Hand

end
-- ==== Proof.Ref.Chunk_G5b.lean ====
/- Operations 139 … 179 of the reference's @main (41 of 1191), as a list; each touches TensorCore references only, none allocates, and each writes one reference of the list `writes_G5b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 139 … 179 of @main, in program order. -/
abbrev ops_G5b : List (HloOp τ sig (Elt F)) :=
  [ nullary main_c_26 (constantI S_ 32 0#32),
    unary main_c_26 main_v103 (broadcastInDim S500000 ![] bcast_S_S500000 : (⟨S_, .i32⟩ : BufTy).Contents (Elt F) → (⟨S500000, .i32⟩ : BufTy).Contents (Elt F)),
    binary main_v80 main_v103 main_v104 (cmpi .slt : (⟨S500000, .i32⟩ : BufTy).Contents (Elt F) → (⟨S500000, .i32⟩ : BufTy).Contents (Elt F) → (⟨S500000, .i1⟩ : BufTy).Contents (Elt F)),
    nullary main_c_27 (constantI S_ 32 20000#32),
    unary main_c_27 main_v105 (broadcastInDim S500000 ![] bcast_S_S500000 : (⟨S_, .i32⟩ : BufTy).Contents (Elt F) → (⟨S500000, .i32⟩ : BufTy).Contents (Elt F)),
    binary main_v80 main_v105 main_v106 (addi : (⟨S500000, .i32⟩ : BufTy).Contents (Elt F) → (⟨S500000, .i32⟩ : BufTy).Contents (Elt F) → (⟨S500000, .i32⟩ : BufTy).Contents (Elt F)),
    ternary main_v104 main_v106 main_v80 main_v107 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v107 main_v108 (broadcastInDim S500000x1 ![0] bcast_S500000_S500000x1_0 : (⟨S500000, .i32⟩ : BufTy).Contents (Elt F) → (⟨S500000x1, .i32⟩ : BufTy).Contents (Elt F)),
    binary main_v95 main_v108 main_v109 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_28 (constantI S_ 32 0#32),
    unary main_c_28 main_v110 (broadcastInDim S500000 ![] bcast_S_S500000 : (⟨S_, .i32⟩ : BufTy).Contents (Elt F) → (⟨S500000, .i32⟩ : BufTy).Contents (Elt F)),
    binary main_v82 main_v110 main_v111 (cmpi .slt : (⟨S500000, .i32⟩ : BufTy).Contents (Elt F) → (⟨S500000, .i32⟩ : BufTy).Contents (Elt F) → (⟨S500000, .i1⟩ : BufTy).Contents (Elt F)),
    nullary main_c_29 (constantI S_ 32 60000#32),
    unary main_c_29 main_v112 (broadcastInDim S500000 ![] bcast_S_S500000 : (⟨S_, .i32⟩ : BufTy).Contents (Elt F) → (⟨S500000, .i32⟩ : BufTy).Contents (Elt F)),
    binary main_v82 main_v112 main_v113 (addi : (⟨S500000, .i32⟩ : BufTy).Contents (Elt F) → (⟨S500000, .i32⟩ : BufTy).Contents (Elt F) → (⟨S500000, .i32⟩ : BufTy).Contents (Elt F)),
    ternary main_v111 main_v113 main_v82 main_v114 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v114 main_v115 (broadcastInDim S500000x1 ![0] bcast_S500000_S500000x1_0 : (⟨S500000, .i32⟩ : BufTy).Contents (Elt F) → (⟨S500000x1, .i32⟩ : BufTy).Contents (Elt F)),
    binary main_v101 main_v115 main_v116 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    binary main_v109 main_v116 main_v117 (mulf : (⟨S500000, .f32⟩ : BufTy).Contents (Elt F) → (⟨S500000, .f32⟩ : BufTy).Contents (Elt F) → (⟨S500000, .f32⟩ : BufTy).Contents (Elt F)),
    nullary main_c_30 (constantI S_ 32 0#32),
    unary main_c_30 main_v118 (broadcastInDim S500000 ![] bcast_S_S500000 : (⟨S_, .i32⟩ : BufTy).Contents (Elt F) → (⟨S500000, .i32⟩ : BufTy).Contents (Elt F)),
    binary main_v80 main_v118 main_v119 (cmpi .slt : (⟨S500000, .i32⟩ : BufTy).Contents (Elt F) → (⟨S500000, .i32⟩ : BufTy).Contents (Elt F) → (⟨S500000, .i1⟩ : BufTy).Contents (Elt F)),
    nullary main_c_31 (constantI S_ 32 20000#32),
    unary main_c_31 main_v120 (broadcastInDim S500000 ![] bcast_S_S500000 : (⟨S_, .i32⟩ : BufTy).Contents (Elt F) → (⟨S500000, .i32⟩ : BufTy).Contents (Elt F)),
    binary main_v80 main_v120 main_v121 (addi : (⟨S500000, .i32⟩ : BufTy).Contents (Elt F) → (⟨S500000, .i32⟩ : BufTy).Contents (Elt F) → (⟨S500000, .i32⟩ : BufTy).Contents (Elt F)),
    ternary main_v119 main_v121 main_v80 main_v122 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v122 main_v123 (broadcastInDim S500000x1 ![0] bcast_S500000_S500000x1_0 : (⟨S500000, .i32⟩ : BufTy).Contents (Elt F) → (⟨S500000x1, .i32⟩ : BufTy).Contents (Elt F)),
    binary main_v102 main_v123 main_v124 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    unary main_v117 main_v125 (broadcastInDim S500000x1 ![0] bcast_S500000_S500000x1_0 : (⟨S500000, .f32⟩ : BufTy).Contents (Elt F) → (⟨S500000x1, .f32⟩ : BufTy).Contents (Elt F)),
    unary main_v125 main_v126 (broadcastInDim S500000x128 ![0, 1] bcast_S500000x1_S500000x128_0_1 : (⟨S500000x1, .f32⟩ : BufTy).Contents (Elt F) → (⟨S500000x128, .f32⟩ : BufTy).Contents (Elt F)),
    binary main_v124 main_v126 main_v127 (mulf : (⟨S500000x128, .f32⟩ : BufTy).Contents (Elt F) → (⟨S500000x128, .f32⟩ : BufTy).Contents (Elt F) → (⟨S500000x128, .f32⟩ : BufTy).Contents (Elt F)),
    nullary main_cst_32 (constant S_ .f32 0x00000000#32),
    unary main_cst_32 main_v128 (broadcastInDim S60000x128 ![] bcast_S_S60000x128 : (⟨S_, .f32⟩ : BufTy).Contents (Elt F) → (⟨S60000x128, .f32⟩ : BufTy).Contents (Elt F)),
    unary main_v82 main_v129 (broadcastInDim S500000x1 ![0] bcast_S500000_S500000x1_0 : (⟨S500000, .i32⟩ : BufTy).Contents (Elt F) → (⟨S500000x1, .i32⟩ : BufTy).Contents (Elt F)),
    ternary main_v128 main_v129 main_v127 main_v130 ((fun x i u => Host.scatterAdd scatter_S60000x128_S500000x1_S500000x128_1_0_0_1 x i u) : (⟨S60000x128, .f32⟩ : BufTy).Contents (Elt F) → (⟨S500000x1, .i32⟩ : BufTy).Contents (Elt F) → (⟨S500000x128, .f32⟩ : BufTy).Contents (Elt F) → (⟨S60000x128, .f32⟩ : BufTy).Contents (Elt F)),
    unary main_v78 main_v131 (broadcastInDim S1x128 ![1] bcast_S128_S1x128_1 : (⟨S128, .f32⟩ : BufTy).Contents (Elt F) → (⟨S1x128, .f32⟩ : BufTy).Contents (Elt F)),
    unary main_v131 main_v132 (broadcastInDim S60000x128 ![0, 1] bcast_S1x128_S60000x128_0_1 : (⟨S1x128, .f32⟩ : BufTy).Contents (Elt F) → (⟨S60000x128, .f32⟩ : BufTy).Contents (Elt F)),
    binary main_v130 main_v132 main_v133 (addf : (⟨S60000x128, .f32⟩ : BufTy).Contents (Elt F) → (⟨S60000x128, .f32⟩ : BufTy).Contents (Elt F) → (⟨S60000x128, .f32⟩ : BufTy).Contents (Elt F)),
    binary main_v13 main_v133 main_v134 (addf : (⟨S60000x128, .f32⟩ : BufTy).Contents (Elt F) → (⟨S60000x128, .f32⟩ : BufTy).Contents (Elt F) → (⟨S60000x128, .f32⟩ : BufTy).Contents (Elt F)),
    unary main_arg9 main_v135 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v135 main_v136 rfl shapeCasts_S1x128x128_S128x128 ]

/-- Each touches TensorCore references only. -/
theorem ops_G5b_sub : (ops_G5b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G5b_fresh : ∀ op ∈ (ops_G5b : List (HloOp τ sig (Elt F))), op.fresh = ∅ :=
  List.forall_iff_forall_mem.1 (show (ops_G5b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G5b : List (Ref sig .tc) :=
  [main_c_26, main_v103, main_v104, main_c_27, main_v105, main_v106, main_v107, main_v108, main_v109, main_c_28, main_v110, main_v111, main_c_29, main_v112, main_v113, main_v114, main_v115, main_v116, main_v117, main_c_30, main_v118, main_v119, main_c_31, main_v120, main_v121, main_v122, main_v123, main_v124, main_v125, main_v126, main_v127, main_cst_32, main_v128, main_v129, main_v130, main_v131, main_v132, main_v133, main_v134, main_v135, main_v136]

/-- Each operation writes a reference of that list only. -/
theorem ops_G5b_writes : (ops_G5b : List (HloOp τ sig (Elt F))).Forall fun op =>
    op.writes ⊆ (writes_G5b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G6a.lean ====
/- Operations 180 … 217 of the reference's @main (38 of 1191), as a list; each touches TensorCore references only, none allocates, and each writes one reference of the list `writes_G6a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 180 … 217 of @main, in program order. -/
abbrev ops_G6a : List (HloOp τ sig (Elt F)) :=
  [ unary main_arg10 main_v137 ((extractStridedSlice S1x128 ![2, 0] · slices_S6x128_S1x128_2_0) : (⟨S6x128, .f32⟩ : BufTy).Contents (Elt F) → (⟨S1x128, .f32⟩ : BufTy).Contents (Elt F)),
    reshape main_v137 main_v138 rfl shapeCasts_S1x128_S128,
    unary main_arg19 main_v139 ((extractStridedSlice S1x500000 ![0, 0] · slices_S2x500000_S1x500000_0_0) : (⟨S2x500000, .i32⟩ : BufTy).Contents (Elt F) → (⟨S1x500000, .i32⟩ : BufTy).Contents (Elt F)),
    reshape main_v139 main_v140 rfl shapeCasts_S1x500000_S500000,
    unary main_arg19 main_v141 ((extractStridedSlice S1x500000 ![1, 0] · slices_S2x500000_S1x500000_1_0) : (⟨S2x500000, .i32⟩ : BufTy).Contents (Elt F) → (⟨S1x500000, .i32⟩ : BufTy).Contents (Elt F)),
    reshape main_v141 main_v142 rfl shapeCasts_S1x500000_S500000,
    nullary main_cst_33 (constant S_ .f32 0x3F800000#32),
    unary main_cst_33 main_v143 (broadcastInDim S500000 ![] bcast_S_S500000 : (⟨S_, .f32⟩ : BufTy).Contents (Elt F) → (⟨S500000, .f32⟩ : BufTy).Contents (Elt F)),
    nullary main_cst_34 (constant S_ .f32 0x00000000#32),
    unary main_cst_34 main_v144 (broadcastInDim S60000 ![] bcast_S_S60000 : (⟨S_, .f32⟩ : BufTy).Contents (Elt F) → (⟨S60000, .f32⟩ : BufTy).Contents (Elt F)),
    unary main_v140 main_v145 (broadcastInDim S500000x1 ![0] bcast_S500000_S500000x1_0 : (⟨S500000, .i32⟩ : BufTy).Contents (Elt F) → (⟨S500000x1, .i32⟩ : BufTy).Contents (Elt F)),
    ternary main_v144 main_v145 main_v143 main_v146 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_35 (constant S_ .f32 0x00000000#32),
    unary main_cst_35 main_v147 (broadcastInDim S20000 ![] bcast_S_S20000 : (⟨S_, .f32⟩ : BufTy).Contents (Elt F) → (⟨S20000, .f32⟩ : BufTy).Contents (Elt F)),
    unary main_v142 main_v148 (broadcastInDim S500000x1 ![0] bcast_S500000_S500000x1_0 : (⟨S500000, .i32⟩ : BufTy).Contents (Elt F) → (⟨S500000x1, .i32⟩ : BufTy).Contents (Elt F)),
    ternary main_v147 main_v148 main_v143 main_v149 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_36 (constant S_ .f32 0x00000000#32),
    unary main_cst_36 main_v150 (broadcastInDim S60000 ![] bcast_S_S60000 : (⟨S_, .f32⟩ : BufTy).Contents (Elt F) → (⟨S60000, .f32⟩ : BufTy).Contents (Elt F)),
    binary main_v146 main_v150 main_v151 (cmpf .ogt : (⟨S60000, .f32⟩ : BufTy).Contents (Elt F) → (⟨S60000, .f32⟩ : BufTy).Contents (Elt F) → (⟨S60000, .i1⟩ : BufTy).Contents (Elt F)),
    nullary main_cst_37 (constant S_ .f32 0x3F800000#32),
    unary main_cst_37 main_v152 (broadcastInDim S60000 ![] bcast_S_S60000 : (⟨S_, .f32⟩ : BufTy).Contents (Elt F) → (⟨S60000, .f32⟩ : BufTy).Contents (Elt F)),
    binary main_v146 main_v152 main_v153 (maximumf : (⟨S60000, .f32⟩ : BufTy).Contents (Elt F) → (⟨S60000, .f32⟩ : BufTy).Contents (Elt F) → (⟨S60000, .f32⟩ : BufTy).Contents (Elt F)),
    unary main_v153 main_v154 (Host.rsqrt : (⟨S60000, .f32⟩ : BufTy).Contents (Elt F) → (⟨S60000, .f32⟩ : BufTy).Contents (Elt F)),
    nullary main_cst_38 (constant S_ .f32 0x00000000#32),
    TRef.unary (TRef.of (T := ⟨S_, .f32⟩) main_cst_38) (TRef.of (T := ⟨S_, .f32⟩) main_call4_v0) id,
    TRef.unary (TRef.of (T := ⟨S_, .f32⟩) main_call4_v0) (TRef.of (T := ⟨S60000, .f32⟩) main_call4_v1) (broadcastInDim S60000 ![] bcast_S_S60000),
    TRef.ternary (TRef.of (T := ⟨S60000, .i1⟩) main_v151) (TRef.of (T := ⟨S60000, .f32⟩) main_v154) (TRef.of (T := ⟨S60000, .f32⟩) main_call4_v1) (TRef.of (T := ⟨S60000, .f32⟩) main_v155) select,
    nullary main_cst_39 (constant S_ .f32 0x00000000#32),
    unary main_cst_39 main_v156 (broadcastInDim S20000 ![] bcast_S_S20000 : (⟨S_, .f32⟩ : BufTy).Contents (Elt F) → (⟨S20000, .f32⟩ : BufTy).Contents (Elt F)),
    binary main_v149 main_v156 main_v157 (cmpf .ogt : (⟨S20000, .f32⟩ : BufTy).Contents (Elt F) → (⟨S20000, .f32⟩ : BufTy).Contents (Elt F) → (⟨S20000, .i1⟩ : BufTy).Contents (Elt F)),
    nullary main_cst_40 (constant S_ .f32 0x3F800000#32),
    unary main_cst_40 main_v158 (broadcastInDim S20000 ![] bcast_S_S20000 : (⟨S_, .f32⟩ : BufTy).Contents (Elt F) → (⟨S20000, .f32⟩ : BufTy).Contents (Elt F)),
    binary main_v149 main_v158 main_v159 (maximumf : (⟨S20000, .f32⟩ : BufTy).Contents (Elt F) → (⟨S20000, .f32⟩ : BufTy).Contents (Elt F) → (⟨S20000, .f32⟩ : BufTy).Contents (Elt F)),
    unary main_v159 main_v160 (Host.rsqrt : (⟨S20000, .f32⟩ : BufTy).Contents (Elt F) → (⟨S20000, .f32⟩ : BufTy).Contents (Elt F)),
    nullary main_cst_41 (constant S_ .f32 0x00000000#32),
    TRef.unary (TRef.of (T := ⟨S_, .f32⟩) main_cst_41) (TRef.of (T := ⟨S_, .f32⟩) main_call5_v0) id,
    TRef.unary (TRef.of (T := ⟨S_, .f32⟩) main_call5_v0) (TRef.of (T := ⟨S20000, .f32⟩) main_call5_v1) (broadcastInDim S20000 ![] bcast_S_S20000),
    TRef.ternary (TRef.of (T := ⟨S20000, .i1⟩) main_v157) (TRef.of (T := ⟨S20000, .f32⟩) main_v160) (TRef.of (T := ⟨S20000, .f32⟩) main_call5_v1) (TRef.of (T := ⟨S20000, .f32⟩) main_v161) select ]

/-- Each touches TensorCore references only. -/
theorem ops_G6a_sub : (ops_G6a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G6a_fresh : ∀ op ∈ (ops_G6a : List (HloOp τ sig (Elt F))), op.fresh = ∅ :=
  List.forall_iff_forall_mem.1 (show (ops_G6a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G6a : List (Ref sig .tc) :=
  [main_v137, main_v138, main_v139, main_v140, main_v141, main_v142, main_cst_33, main_v143, main_cst_34, main_v144, main_v145, main_v146, main_cst_35, main_v147, main_v148, main_v149, main_cst_36, main_v150, main_v151, main_cst_37, main_v152, main_v153, main_v154, main_cst_38, main_call4_v0, main_call4_v1, main_v155, main_cst_39, main_v156, main_v157, main_cst_40, main_v158, main_v159, main_v160, main_cst_41, main_call5_v0, main_call5_v1, main_v161]

/-- Each operation writes a reference of that list only. -/
theorem ops_G6a_writes : (ops_G6a : List (HloOp τ sig (Elt F))).Forall fun op =>
    op.writes ⊆ (writes_G6a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D5.lean ====
/- Operations 218 … 218 of the reference's @main (1 of 1191), as a list; each touches TensorCore references only, none allocates, and each writes one reference of the list `writes_D5`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 218 … 218 of @main, in program order. -/
abbrev ops_D5 : List (HloOp τ sig (Elt F)) :=
  [ binary main_v7 main_v136 main_v162 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)) ]

/-- Each touches TensorCore references only. -/
theorem ops_D5_sub : (ops_D5 : List (HloOp τ sig (Elt F))).Forall fun op => op.bufs ⊆ StableHlo.tcRefs τ sig :=
  binary_bufs_sub ..

/-- None allocates a buffer. -/
theorem ops_D5_fresh : ∀ op ∈ (ops_D5 : List (HloOp τ sig (Elt F))), op.fresh = ∅ :=
  List.forall_iff_forall_mem.1 (show (ops_D5 : List (HloOp τ sig (Elt F))).Forall (fun op => op.fresh = ∅) from rfl)

/-- The references the operations write, in order. -/
abbrev writes_D5 : List (Ref sig .tc) :=
  [main_v162]

/-- Each operation writes a reference of that list only. -/
theorem ops_D5_writes : (ops_D5 : List (HloOp τ sig (Elt F))).Forall fun op =>
    op.writes ⊆ (writes_D5.map (Proc.devRef (τ := τ) .tc)).toFinset :=
  binary_writes_sub (h := by decide) ..

end Cert.ReferenceIdeal.Hand

end
-- ==== Proof.Ref.Chunk_G6b.lean ====
/- Operations 219 … 259 of the reference's @main (41 of 1191), as a list; each touches TensorCore references only, none allocates, and each writes one reference of the list `writes_G6b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 219 … 259 of @main, in program order. -/
abbrev ops_G6b : List (HloOp τ sig (Elt F)) :=
  [ nullary main_c_42 (constantI S_ 32 0#32),
    unary main_c_42 main_v163 (broadcastInDim S500000 ![] bcast_S_S500000 : (⟨S_, .i32⟩ : BufTy).Contents (Elt F) → (⟨S500000, .i32⟩ : BufTy).Contents (Elt F)),
    binary main_v140 main_v163 main_v164 (cmpi .slt : (⟨S500000, .i32⟩ : BufTy).Contents (Elt F) → (⟨S500000, .i32⟩ : BufTy).Contents (Elt F) → (⟨S500000, .i1⟩ : BufTy).Contents (Elt F)),
    nullary main_c_43 (constantI S_ 32 60000#32),
    unary main_c_43 main_v165 (broadcastInDim S500000 ![] bcast_S_S500000 : (⟨S_, .i32⟩ : BufTy).Contents (Elt F) → (⟨S500000, .i32⟩ : BufTy).Contents (Elt F)),
    binary main_v140 main_v165 main_v166 (addi : (⟨S500000, .i32⟩ : BufTy).Contents (Elt F) → (⟨S500000, .i32⟩ : BufTy).Contents (Elt F) → (⟨S500000, .i32⟩ : BufTy).Contents (Elt F)),
    ternary main_v164 main_v166 main_v140 main_v167 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v167 main_v168 (broadcastInDim S500000x1 ![0] bcast_S500000_S500000x1_0 : (⟨S500000, .i32⟩ : BufTy).Contents (Elt F) → (⟨S500000x1, .i32⟩ : BufTy).Contents (Elt F)),
    binary main_v155 main_v168 main_v169 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    nullary main_c_44 (constantI S_ 32 0#32),
    unary main_c_44 main_v170 (broadcastInDim S500000 ![] bcast_S_S500000 : (⟨S_, .i32⟩ : BufTy).Contents (Elt F) → (⟨S500000, .i32⟩ : BufTy).Contents (Elt F)),
    binary main_v142 main_v170 main_v171 (cmpi .slt : (⟨S500000, .i32⟩ : BufTy).Contents (Elt F) → (⟨S500000, .i32⟩ : BufTy).Contents (Elt F) → (⟨S500000, .i1⟩ : BufTy).Contents (Elt F)),
    nullary main_c_45 (constantI S_ 32 20000#32),
    unary main_c_45 main_v172 (broadcastInDim S500000 ![] bcast_S_S500000 : (⟨S_, .i32⟩ : BufTy).Contents (Elt F) → (⟨S500000, .i32⟩ : BufTy).Contents (Elt F)),
    binary main_v142 main_v172 main_v173 (addi : (⟨S500000, .i32⟩ : BufTy).Contents (Elt F) → (⟨S500000, .i32⟩ : BufTy).Contents (Elt F) → (⟨S500000, .i32⟩ : BufTy).Contents (Elt F)),
    ternary main_v171 main_v173 main_v142 main_v174 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v174 main_v175 (broadcastInDim S500000x1 ![0] bcast_S500000_S500000x1_0 : (⟨S500000, .i32⟩ : BufTy).Contents (Elt F) → (⟨S500000x1, .i32⟩ : BufTy).Contents (Elt F)),
    binary main_v161 main_v175 main_v176 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v169 main_v176 main_v177 (mulf : (⟨S500000, .f32⟩ : BufTy).Contents (Elt F) → (⟨S500000, .f32⟩ : BufTy).Contents (Elt F) → (⟨S500000, .f32⟩ : BufTy).Contents (Elt F)),
    nullary main_c_46 (constantI S_ 32 0#32),
    unary main_c_46 main_v178 (broadcastInDim S500000 ![] bcast_S_S500000 : (⟨S_, .i32⟩ : BufTy).Contents (Elt F) → (⟨S500000, .i32⟩ : BufTy).Contents (Elt F)),
    binary main_v140 main_v178 main_v179 (cmpi .slt : (⟨S500000, .i32⟩ : BufTy).Contents (Elt F) → (⟨S500000, .i32⟩ : BufTy).Contents (Elt F) → (⟨S500000, .i1⟩ : BufTy).Contents (Elt F)),
    nullary main_c_47 (constantI S_ 32 60000#32),
    unary main_c_47 main_v180 (broadcastInDim S500000 ![] bcast_S_S500000 : (⟨S_, .i32⟩ : BufTy).Contents (Elt F) → (⟨S500000, .i32⟩ : BufTy).Contents (Elt F)),
    binary main_v140 main_v180 main_v181 (addi : (⟨S500000, .i32⟩ : BufTy).Contents (Elt F) → (⟨S500000, .i32⟩ : BufTy).Contents (Elt F) → (⟨S500000, .i32⟩ : BufTy).Contents (Elt F)),
    ternary main_v179 main_v181 main_v140 main_v182 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v182 main_v183 (broadcastInDim S500000x1 ![0] bcast_S500000_S500000x1_0 : (⟨S500000, .i32⟩ : BufTy).Contents (Elt F) → (⟨S500000x1, .i32⟩ : BufTy).Contents (Elt F)),
    binary main_v162 main_v183 main_v184 ((fun x i => Host.gather gather_S60000x128_S500000x1_S500000x128_1_0_n_n_0_1_1128 x i) : (⟨S60000x128, .f32⟩ : BufTy).Contents (Elt F) → (⟨S500000x1, .i32⟩ : BufTy).Contents (Elt F) → (⟨S500000x128, .f32⟩ : BufTy).Contents (Elt F)),
    unary main_v177 main_v185 (broadcastInDim S500000x1 ![0] bcast_S500000_S500000x1_0 : (⟨S500000, .f32⟩ : BufTy).Contents (Elt F) → (⟨S500000x1, .f32⟩ : BufTy).Contents (Elt F)),
    unary main_v185 main_v186 (broadcastInDim S500000x128 ![0, 1] bcast_S500000x1_S500000x128_0_1 : (⟨S500000x1, .f32⟩ : BufTy).Contents (Elt F) → (⟨S500000x128, .f32⟩ : BufTy).Contents (Elt F)),
    binary main_v184 main_v186 main_v187 (mulf : (⟨S500000x128, .f32⟩ : BufTy).Contents (Elt F) → (⟨S500000x128, .f32⟩ : BufTy).Contents (Elt F) → (⟨S500000x128, .f32⟩ : BufTy).Contents (Elt F)),
    nullary main_cst_48 (constant S_ .f32 0x00000000#32),
    unary main_cst_48 main_v188 (broadcastInDim S20000x128 ![] bcast_S_S20000x128 : (⟨S_, .f32⟩ : BufTy).Contents (Elt F) → (⟨S20000x128, .f32⟩ : BufTy).Contents (Elt F)),
    unary main_v142 main_v189 (broadcastInDim S500000x1 ![0] bcast_S500000_S500000x1_0 : (⟨S500000, .i32⟩ : BufTy).Contents (Elt F) → (⟨S500000x1, .i32⟩ : BufTy).Contents (Elt F)),
    ternary main_v188 main_v189 main_v187 main_v190 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    unary main_v138 main_v191 (broadcastInDim S1x128 ![1] bcast_S128_S1x128_1 : (⟨S128, .f32⟩ : BufTy).Contents (Elt F) → (⟨S1x128, .f32⟩ : BufTy).Contents (Elt F)),
    unary main_v191 main_v192 (broadcastInDim S20000x128 ![0, 1] bcast_S1x128_S20000x128_0_1 : (⟨S1x128, .f32⟩ : BufTy).Contents (Elt F) → (⟨S20000x128, .f32⟩ : BufTy).Contents (Elt F)),
    binary main_v190 main_v192 main_v193 (addf : (⟨S20000x128, .f32⟩ : BufTy).Contents (Elt F) → (⟨S20000x128, .f32⟩ : BufTy).Contents (Elt F) → (⟨S20000x128, .f32⟩ : BufTy).Contents (Elt F)),
    binary main_v74 main_v193 main_v194 (addf : (⟨S20000x128, .f32⟩ : BufTy).Contents (Elt F) → (⟨S20000x128, .f32⟩ : BufTy).Contents (Elt F) → (⟨S20000x128, .f32⟩ : BufTy).Contents (Elt F)),
    unary main_arg9 main_v195 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v195 main_v196 rfl shapeCasts_S1x128x128_S128x128 ]

/-- Each touches TensorCore references only. -/
theorem ops_G6b_sub : (ops_G6b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G6b_fresh : ∀ op ∈ (ops_G6b : List (HloOp τ sig (Elt F))), op.fresh = ∅ :=
  List.forall_iff_forall_mem.1 (show (ops_G6b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G6b : List (Ref sig .tc) :=
  [main_c_42, main_v163, main_v164, main_c_43, main_v165, main_v166, main_v167, main_v168, main_v169, main_c_44, main_v170, main_v171, main_c_45, main_v172, main_v173, main_v174, main_v175, main_v176, main_v177, main_c_46, main_v178, main_v179, main_c_47, main_v180, main_v181, main_v182, main_v183, main_v184, main_v185, main_v186, main_v187, main_cst_48, main_v188, main_v189, main_v190, main_v191, main_v192, main_v193, main_v194, main_v195, main_v196]

/-- Each operation writes a reference of that list only. -/
theorem ops_G6b_writes : (ops_G6b : List (HloOp τ sig (Elt F))).Forall fun op =>
    op.writes ⊆ (writes_G6b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G7a.lean ====
/- Operations 260 … 297 of the reference's @main (38 of 1191), as a list; each touches TensorCore references only, none allocates, and each writes one reference of the list `writes_G7a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 260 … 297 of @main, in program order. -/
abbrev ops_G7a : List (HloOp τ sig (Elt F)) :=
  [ unary main_arg10 main_v197 ((extractStridedSlice S1x128 ![3, 0] · slices_S6x128_S1x128_3_0) : (⟨S6x128, .f32⟩ : BufTy).Contents (Elt F) → (⟨S1x128, .f32⟩ : BufTy).Contents (Elt F)),
    reshape main_v197 main_v198 rfl shapeCasts_S1x128_S128,
    unary main_arg20 main_v199 ((extractStridedSlice S1x500000 ![0, 0] · slices_S2x500000_S1x500000_0_0) : (⟨S2x500000, .i32⟩ : BufTy).Contents (Elt F) → (⟨S1x500000, .i32⟩ : BufTy).Contents (Elt F)),
    reshape main_v199 main_v200 rfl shapeCasts_S1x500000_S500000,
    unary main_arg20 main_v201 ((extractStridedSlice S1x500000 ![1, 0] · slices_S2x500000_S1x500000_1_0) : (⟨S2x500000, .i32⟩ : BufTy).Contents (Elt F) → (⟨S1x500000, .i32⟩ : BufTy).Contents (Elt F)),
    reshape main_v201 main_v202 rfl shapeCasts_S1x500000_S500000,
    nullary main_cst_49 (constant S_ .f32 0x3F800000#32),
    unary main_cst_49 main_v203 (broadcastInDim S500000 ![] bcast_S_S500000 : (⟨S_, .f32⟩ : BufTy).Contents (Elt F) → (⟨S500000, .f32⟩ : BufTy).Contents (Elt F)),
    nullary main_cst_50 (constant S_ .f32 0x00000000#32),
    unary main_cst_50 main_v204 (broadcastInDim S20000 ![] bcast_S_S20000 : (⟨S_, .f32⟩ : BufTy).Contents (Elt F) → (⟨S20000, .f32⟩ : BufTy).Contents (Elt F)),
    unary main_v200 main_v205 (broadcastInDim S500000x1 ![0] bcast_S500000_S500000x1_0 : (⟨S500000, .i32⟩ : BufTy).Contents (Elt F) → (⟨S500000x1, .i32⟩ : BufTy).Contents (Elt F)),
    ternary main_v204 main_v205 main_v203 main_v206 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_51 (constant S_ .f32 0x00000000#32),
    unary main_cst_51 main_v207 (broadcastInDim S20000 ![] bcast_S_S20000 : (⟨S_, .f32⟩ : BufTy).Contents (Elt F) → (⟨S20000, .f32⟩ : BufTy).Contents (Elt F)),
    unary main_v202 main_v208 (broadcastInDim S500000x1 ![0] bcast_S500000_S500000x1_0 : (⟨S500000, .i32⟩ : BufTy).Contents (Elt F) → (⟨S500000x1, .i32⟩ : BufTy).Contents (Elt F)),
    ternary main_v207 main_v208 main_v203 main_v209 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_52 (constant S_ .f32 0x00000000#32),
    unary main_cst_52 main_v210 (broadcastInDim S20000 ![] bcast_S_S20000 : (⟨S_, .f32⟩ : BufTy).Contents (Elt F) → (⟨S20000, .f32⟩ : BufTy).Contents (Elt F)),
    binary main_v206 main_v210 main_v211 (cmpf .ogt : (⟨S20000, .f32⟩ : BufTy).Contents (Elt F) → (⟨S20000, .f32⟩ : BufTy).Contents (Elt F) → (⟨S20000, .i1⟩ : BufTy).Contents (Elt F)),
    nullary main_cst_53 (constant S_ .f32 0x3F800000#32),
    unary main_cst_53 main_v212 (broadcastInDim S20000 ![] bcast_S_S20000 : (⟨S_, .f32⟩ : BufTy).Contents (Elt F) → (⟨S20000, .f32⟩ : BufTy).Contents (Elt F)),
    binary main_v206 main_v212 main_v213 (maximumf : (⟨S20000, .f32⟩ : BufTy).Contents (Elt F) → (⟨S20000, .f32⟩ : BufTy).Contents (Elt F) → (⟨S20000, .f32⟩ : BufTy).Contents (Elt F)),
    unary main_v213 main_v214 (Host.rsqrt : (⟨S20000, .f32⟩ : BufTy).Contents (Elt F) → (⟨S20000, .f32⟩ : BufTy).Contents (Elt F)),
    nullary main_cst_54 (constant S_ .f32 0x00000000#32),
    TRef.unary (TRef.of (T := ⟨S_, .f32⟩) main_cst_54) (TRef.of (T := ⟨S_, .f32⟩) main_call6_v0) id,
    TRef.unary (TRef.of (T := ⟨S_, .f32⟩) main_call6_v0) (TRef.of (T := ⟨S20000, .f32⟩) main_call6_v1) (broadcastInDim S20000 ![] bcast_S_S20000),
    TRef.ternary (TRef.of (T := ⟨S20000, .i1⟩) main_v211) (TRef.of (T := ⟨S20000, .f32⟩) main_v214) (TRef.of (T := ⟨S20000, .f32⟩) main_call6_v1) (TRef.of (T := ⟨S20000, .f32⟩) main_v215) select,
    nullary main_cst_55 (constant S_ .f32 0x00000000#32),
    unary main_cst_55 main_v216 (broadcastInDim S20000 ![] bcast_S_S20000 : (⟨S_, .f32⟩ : BufTy).Contents (Elt F) → (⟨S20000, .f32⟩ : BufTy).Contents (Elt F)),
    binary main_v209 main_v216 main_v217 (cmpf .ogt : (⟨S20000, .f32⟩ : BufTy).Contents (Elt F) → (⟨S20000, .f32⟩ : BufTy).Contents (Elt F) → (⟨S20000, .i1⟩ : BufTy).Contents (Elt F)),
    nullary main_cst_56 (constant S_ .f32 0x3F800000#32),
    unary main_cst_56 main_v218 (broadcastInDim S20000 ![] bcast_S_S20000 : (⟨S_, .f32⟩ : BufTy).Contents (Elt F) → (⟨S20000, .f32⟩ : BufTy).Contents (Elt F)),
    binary main_v209 main_v218 main_v219 (maximumf : (⟨S20000, .f32⟩ : BufTy).Contents (Elt F) → (⟨S20000, .f32⟩ : BufTy).Contents (Elt F) → (⟨S20000, .f32⟩ : BufTy).Contents (Elt F)),
    unary main_v219 main_v220 (Host.rsqrt : (⟨S20000, .f32⟩ : BufTy).Contents (Elt F) → (⟨S20000, .f32⟩ : BufTy).Contents (Elt F)),
    nullary main_cst_57 (constant S_ .f32 0x00000000#32),
    TRef.unary (TRef.of (T := ⟨S_, .f32⟩) main_cst_57) (TRef.of (T := ⟨S_, .f32⟩) main_call7_v0) id,
    TRef.unary (TRef.of (T := ⟨S_, .f32⟩) main_call7_v0) (TRef.of (T := ⟨S20000, .f32⟩) main_call7_v1) (broadcastInDim S20000 ![] bcast_S_S20000),
    TRef.ternary (TRef.of (T := ⟨S20000, .i1⟩) main_v217) (TRef.of (T := ⟨S20000, .f32⟩) main_v220) (TRef.of (T := ⟨S20000, .f32⟩) main_call7_v1) (TRef.of (T := ⟨S20000, .f32⟩) main_v221) select ]

/-- Each touches TensorCore references only. -/
theorem ops_G7a_sub : (ops_G7a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G7a_fresh : ∀ op ∈ (ops_G7a : List (HloOp τ sig (Elt F))), op.fresh = ∅ :=
  List.forall_iff_forall_mem.1 (show (ops_G7a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G7a : List (Ref sig .tc) :=
  [main_v197, main_v198, main_v199, main_v200, main_v201, main_v202, main_cst_49, main_v203, main_cst_50, main_v204, main_v205, main_v206, main_cst_51, main_v207, main_v208, main_v209, main_cst_52, main_v210, main_v211, main_cst_53, main_v212, main_v213, main_v214, main_cst_54, main_call6_v0, main_call6_v1, main_v215, main_cst_55, main_v216, main_v217, main_cst_56, main_v218, main_v219, main_v220, main_cst_57, main_call7_v0, main_call7_v1, main_v221]

/-- Each operation writes a reference of that list only. -/
theorem ops_G7a_writes : (ops_G7a : List (HloOp τ sig (Elt F))).Forall fun op =>
    op.writes ⊆ (writes_G7a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D6.lean ====
/- Operations 298 … 298 of the reference's @main (1 of 1191), as a list; each touches TensorCore references only, none allocates, and each writes one reference of the list `writes_D6`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 298 … 298 of @main, in program order. -/
abbrev ops_D6 : List (HloOp τ sig (Elt F)) :=
  [ binary main_v11 main_v196 main_v222 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]

/-- Each touches TensorCore references only. -/
theorem ops_D6_sub : (ops_D6 : List (HloOp τ sig (Elt F))).Forall fun op => op.bufs ⊆ StableHlo.tcRefs τ sig :=
  binary_bufs_sub ..

/-- None allocates a buffer. -/
theorem ops_D6_fresh : ∀ op ∈ (ops_D6 : List (HloOp τ sig (Elt F))), op.fresh = ∅ :=
  List.forall_iff_forall_mem.1 (show (ops_D6 : List (HloOp τ sig (Elt F))).Forall (fun op => op.fresh = ∅) from rfl)

/-- The references the operations write, in order. -/
abbrev writes_D6 : List (Ref sig .tc) :=
  [main_v222]

/-- Each operation writes a reference of that list only. -/
theorem ops_D6_writes : (ops_D6 : List (HloOp τ sig (Elt F))).Forall fun op =>
    op.writes ⊆ (writes_D6.map (Proc.devRef (τ := τ) .tc)).toFinset :=
  binary_writes_sub (h := by decide) ..

end Cert.ReferenceIdeal.Hand

end
-- ==== Proof.Ref.Chunk_G7b.lean ====
/- Operations 299 … 339 of the reference's @main (41 of 1191), as a list; each touches TensorCore references only, none allocates, and each writes one reference of the list `writes_G7b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 299 … 339 of @main, in program order. -/
abbrev ops_G7b : List (HloOp τ sig (Elt F)) :=
  [ nullary main_c_58 (constantI S_ 32 0#32),
    unary main_c_58 main_v223 (broadcastInDim S500000 ![] bcast_S_S500000 : (⟨S_, .i32⟩ : BufTy).Contents (Elt F) → (⟨S500000, .i32⟩ : BufTy).Contents (Elt F)),
    binary main_v200 main_v223 main_v224 (cmpi .slt : (⟨S500000, .i32⟩ : BufTy).Contents (Elt F) → (⟨S500000, .i32⟩ : BufTy).Contents (Elt F) → (⟨S500000, .i1⟩ : BufTy).Contents (Elt F)),
    nullary main_c_59 (constantI S_ 32 20000#32),
    unary main_c_59 main_v225 (broadcastInDim S500000 ![] bcast_S_S500000 : (⟨S_, .i32⟩ : BufTy).Contents (Elt F) → (⟨S500000, .i32⟩ : BufTy).Contents (Elt F)),
    binary main_v200 main_v225 main_v226 (addi : (⟨S500000, .i32⟩ : BufTy).Contents (Elt F) → (⟨S500000, .i32⟩ : BufTy).Contents (Elt F) → (⟨S500000, .i32⟩ : BufTy).Contents (Elt F)),
    ternary main_v224 main_v226 main_v200 main_v227 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v227 main_v228 (broadcastInDim S500000x1 ![0] bcast_S500000_S500000x1_0 : (⟨S500000, .i32⟩ : BufTy).Contents (Elt F) → (⟨S500000x1, .i32⟩ : BufTy).Contents (Elt F)),
    binary main_v215 main_v228 main_v229 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_60 (constantI S_ 32 0#32),
    unary main_c_60 main_v230 (broadcastInDim S500000 ![] bcast_S_S500000 : (⟨S_, .i32⟩ : BufTy).Contents (Elt F) → (⟨S500000, .i32⟩ : BufTy).Contents (Elt F)),
    binary main_v202 main_v230 main_v231 (cmpi .slt : (⟨S500000, .i32⟩ : BufTy).Contents (Elt F) → (⟨S500000, .i32⟩ : BufTy).Contents (Elt F) → (⟨S500000, .i1⟩ : BufTy).Contents (Elt F)),
    nullary main_c_61 (constantI S_ 32 20000#32),
    unary main_c_61 main_v232 (broadcastInDim S500000 ![] bcast_S_S500000 : (⟨S_, .i32⟩ : BufTy).Contents (Elt F) → (⟨S500000, .i32⟩ : BufTy).Contents (Elt F)),
    binary main_v202 main_v232 main_v233 (addi : (⟨S500000, .i32⟩ : BufTy).Contents (Elt F) → (⟨S500000, .i32⟩ : BufTy).Contents (Elt F) → (⟨S500000, .i32⟩ : BufTy).Contents (Elt F)),
    ternary main_v231 main_v233 main_v202 main_v234 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v234 main_v235 (broadcastInDim S500000x1 ![0] bcast_S500000_S500000x1_0 : (⟨S500000, .i32⟩ : BufTy).Contents (Elt F) → (⟨S500000x1, .i32⟩ : BufTy).Contents (Elt F)),
    binary main_v221 main_v235 main_v236 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v229 main_v236 main_v237 (mulf : (⟨S500000, .f32⟩ : BufTy).Contents (Elt F) → (⟨S500000, .f32⟩ : BufTy).Contents (Elt F) → (⟨S500000, .f32⟩ : BufTy).Contents (Elt F)),
    nullary main_c_62 (constantI S_ 32 0#32),
    unary main_c_62 main_v238 (broadcastInDim S500000 ![] bcast_S_S500000 : (⟨S_, .i32⟩ : BufTy).Contents (Elt F) → (⟨S500000, .i32⟩ : BufTy).Contents (Elt F)),
    binary main_v200 main_v238 main_v239 (cmpi .slt : (⟨S500000, .i32⟩ : BufTy).Contents (Elt F) → (⟨S500000, .i32⟩ : BufTy).Contents (Elt F) → (⟨S500000, .i1⟩ : BufTy).Contents (Elt F)),
    nullary main_c_63 (constantI S_ 32 20000#32),
    unary main_c_63 main_v240 (broadcastInDim S500000 ![] bcast_S_S500000 : (⟨S_, .i32⟩ : BufTy).Contents (Elt F) → (⟨S500000, .i32⟩ : BufTy).Contents (Elt F)),
    binary main_v200 main_v240 main_v241 (addi : (⟨S500000, .i32⟩ : BufTy).Contents (Elt F) → (⟨S500000, .i32⟩ : BufTy).Contents (Elt F) → (⟨S500000, .i32⟩ : BufTy).Contents (Elt F)),
    ternary main_v239 main_v241 main_v200 main_v242 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v242 main_v243 (broadcastInDim S500000x1 ![0] bcast_S500000_S500000x1_0 : (⟨S500000, .i32⟩ : BufTy).Contents (Elt F) → (⟨S500000x1, .i32⟩ : BufTy).Contents (Elt F)),
    binary main_v222 main_v243 main_v244 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    unary main_v237 main_v245 (broadcastInDim S500000x1 ![0] bcast_S500000_S500000x1_0 : (⟨S500000, .f32⟩ : BufTy).Contents (Elt F) → (⟨S500000x1, .f32⟩ : BufTy).Contents (Elt F)),
    unary main_v245 main_v246 (broadcastInDim S500000x128 ![0, 1] bcast_S500000x1_S500000x128_0_1 : (⟨S500000x1, .f32⟩ : BufTy).Contents (Elt F) → (⟨S500000x128, .f32⟩ : BufTy).Contents (Elt F)),
    binary main_v244 main_v246 main_v247 (mulf : (⟨S500000x128, .f32⟩ : BufTy).Contents (Elt F) → (⟨S500000x128, .f32⟩ : BufTy).Contents (Elt F) → (⟨S500000x128, .f32⟩ : BufTy).Contents (Elt F)),
    nullary main_cst_64 (constant S_ .f32 0x00000000#32),
    unary main_cst_64 main_v248 (broadcastInDim S20000x128 ![] bcast_S_S20000x128 : (⟨S_, .f32⟩ : BufTy).Contents (Elt F) → (⟨S20000x128, .f32⟩ : BufTy).Contents (Elt F)),
    unary main_v202 main_v249 (broadcastInDim S500000x1 ![0] bcast_S500000_S500000x1_0 : (⟨S500000, .i32⟩ : BufTy).Contents (Elt F) → (⟨S500000x1, .i32⟩ : BufTy).Contents (Elt F)),
    ternary main_v248 main_v249 main_v247 main_v250 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    unary main_v198 main_v251 (broadcastInDim S1x128 ![1] bcast_S128_S1x128_1 : (⟨S128, .f32⟩ : BufTy).Contents (Elt F) → (⟨S1x128, .f32⟩ : BufTy).Contents (Elt F)),
    unary main_v251 main_v252 (broadcastInDim S20000x128 ![0, 1] bcast_S1x128_S20000x128_0_1 : (⟨S1x128, .f32⟩ : BufTy).Contents (Elt F) → (⟨S20000x128, .f32⟩ : BufTy).Contents (Elt F)),
    binary main_v250 main_v252 main_v253 (addf : (⟨S20000x128, .f32⟩ : BufTy).Contents (Elt F) → (⟨S20000x128, .f32⟩ : BufTy).Contents (Elt F) → (⟨S20000x128, .f32⟩ : BufTy).Contents (Elt F)),
    binary main_v12 main_v253 main_v254 (addf : (⟨S20000x128, .f32⟩ : BufTy).Contents (Elt F) → (⟨S20000x128, .f32⟩ : BufTy).Contents (Elt F) → (⟨S20000x128, .f32⟩ : BufTy).Contents (Elt F)),
    unary main_arg9 main_v255 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v255 main_v256 rfl shapeCasts_S1x128x128_S128x128 ]

/-- Each touches TensorCore references only. -/
theorem ops_G7b_sub : (ops_G7b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G7b_fresh : ∀ op ∈ (ops_G7b : List (HloOp τ sig (Elt F))), op.fresh = ∅ :=
  List.forall_iff_forall_mem.1 (show (ops_G7b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G7b : List (Ref sig .tc) :=
  [main_c_58, main_v223, main_v224, main_c_59, main_v225, main_v226, main_v227, main_v228, main_v229, main_c_60, main_v230, main_v231, main_c_61, main_v232, main_v233, main_v234, main_v235, main_v236, main_v237, main_c_62, main_v238, main_v239, main_c_63, main_v240, main_v241, main_v242, main_v243, main_v244, main_v245, main_v246, main_v247, main_cst_64, main_v248, main_v249, main_v250, main_v251, main_v252, main_v253, main_v254, main_v255, main_v256]

/-- Each operation writes a reference of that list only. -/
theorem ops_G7b_writes : (ops_G7b : List (HloOp τ sig (Elt F))).Forall fun op =>
    op.writes ⊆ (writes_G7b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G8a.lean ====
/- Operations 340 … 377 of the reference's @main (38 of 1191), as a list; each touches TensorCore references only, none allocates, and each writes one reference of the list `writes_G8a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 340 … 377 of @main, in program order. -/
abbrev ops_G8a : List (HloOp τ sig (Elt F)) :=
  [ unary main_arg10 main_v257 ((extractStridedSlice S1x128 ![4, 0] · slices_S6x128_S1x128_4_0) : (⟨S6x128, .f32⟩ : BufTy).Contents (Elt F) → (⟨S1x128, .f32⟩ : BufTy).Contents (Elt F)),
    reshape main_v257 main_v258 rfl shapeCasts_S1x128_S128,
    unary main_arg21 main_v259 ((extractStridedSlice S1x500000 ![0, 0] · slices_S2x500000_S1x500000_0_0) : (⟨S2x500000, .i32⟩ : BufTy).Contents (Elt F) → (⟨S1x500000, .i32⟩ : BufTy).Contents (Elt F)),
    reshape main_v259 main_v260 rfl shapeCasts_S1x500000_S500000,
    unary main_arg21 main_v261 ((extractStridedSlice S1x500000 ![1, 0] · slices_S2x500000_S1x500000_1_0) : (⟨S2x500000, .i32⟩ : BufTy).Contents (Elt F) → (⟨S1x500000, .i32⟩ : BufTy).Contents (Elt F)),
    reshape main_v261 main_v262 rfl shapeCasts_S1x500000_S500000,
    nullary main_cst_65 (constant S_ .f32 0x3F800000#32),
    unary main_cst_65 main_v263 (broadcastInDim S500000 ![] bcast_S_S500000 : (⟨S_, .f32⟩ : BufTy).Contents (Elt F) → (⟨S500000, .f32⟩ : BufTy).Contents (Elt F)),
    nullary main_cst_66 (constant S_ .f32 0x00000000#32),
    unary main_cst_66 main_v264 (broadcastInDim S60000 ![] bcast_S_S60000 : (⟨S_, .f32⟩ : BufTy).Contents (Elt F) → (⟨S60000, .f32⟩ : BufTy).Contents (Elt F)),
    unary main_v260 main_v265 (broadcastInDim S500000x1 ![0] bcast_S500000_S500000x1_0 : (⟨S500000, .i32⟩ : BufTy).Contents (Elt F) → (⟨S500000x1, .i32⟩ : BufTy).Contents (Elt F)),
    ternary main_v264 main_v265 main_v263 main_v266 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_67 (constant S_ .f32 0x00000000#32),
    unary main_cst_67 main_v267 (broadcastInDim S20000 ![] bcast_S_S20000 : (⟨S_, .f32⟩ : BufTy).Contents (Elt F) → (⟨S20000, .f32⟩ : BufTy).Contents (Elt F)),
    unary main_v262 main_v268 (broadcastInDim S500000x1 ![0] bcast_S500000_S500000x1_0 : (⟨S500000, .i32⟩ : BufTy).Contents (Elt F) → (⟨S500000x1, .i32⟩ : BufTy).Contents (Elt F)),
    ternary main_v267 main_v268 main_v263 main_v269 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_68 (constant S_ .f32 0x00000000#32),
    unary main_cst_68 main_v270 (broadcastInDim S60000 ![] bcast_S_S60000 : (⟨S_, .f32⟩ : BufTy).Contents (Elt F) → (⟨S60000, .f32⟩ : BufTy).Contents (Elt F)),
    binary main_v266 main_v270 main_v271 (cmpf .ogt : (⟨S60000, .f32⟩ : BufTy).Contents (Elt F) → (⟨S60000, .f32⟩ : BufTy).Contents (Elt F) → (⟨S60000, .i1⟩ : BufTy).Contents (Elt F)),
    nullary main_cst_69 (constant S_ .f32 0x3F800000#32),
    unary main_cst_69 main_v272 (broadcastInDim S60000 ![] bcast_S_S60000 : (⟨S_, .f32⟩ : BufTy).Contents (Elt F) → (⟨S60000, .f32⟩ : BufTy).Contents (Elt F)),
    binary main_v266 main_v272 main_v273 (maximumf : (⟨S60000, .f32⟩ : BufTy).Contents (Elt F) → (⟨S60000, .f32⟩ : BufTy).Contents (Elt F) → (⟨S60000, .f32⟩ : BufTy).Contents (Elt F)),
    unary main_v273 main_v274 (Host.rsqrt : (⟨S60000, .f32⟩ : BufTy).Contents (Elt F) → (⟨S60000, .f32⟩ : BufTy).Contents (Elt F)),
    nullary main_cst_70 (constant S_ .f32 0x00000000#32),
    TRef.unary (TRef.of (T := ⟨S_, .f32⟩) main_cst_70) (TRef.of (T := ⟨S_, .f32⟩) main_call8_v0) id,
    TRef.unary (TRef.of (T := ⟨S_, .f32⟩) main_call8_v0) (TRef.of (T := ⟨S60000, .f32⟩) main_call8_v1) (broadcastInDim S60000 ![] bcast_S_S60000),
    TRef.ternary (TRef.of (T := ⟨S60000, .i1⟩) main_v271) (TRef.of (T := ⟨S60000, .f32⟩) main_v274) (TRef.of (T := ⟨S60000, .f32⟩) main_call8_v1) (TRef.of (T := ⟨S60000, .f32⟩) main_v275) select,
    nullary main_cst_71 (constant S_ .f32 0x00000000#32),
    unary main_cst_71 main_v276 (broadcastInDim S20000 ![] bcast_S_S20000 : (⟨S_, .f32⟩ : BufTy).Contents (Elt F) → (⟨S20000, .f32⟩ : BufTy).Contents (Elt F)),
    binary main_v269 main_v276 main_v277 (cmpf .ogt : (⟨S20000, .f32⟩ : BufTy).Contents (Elt F) → (⟨S20000, .f32⟩ : BufTy).Contents (Elt F) → (⟨S20000, .i1⟩ : BufTy).Contents (Elt F)),
    nullary main_cst_72 (constant S_ .f32 0x3F800000#32),
    unary main_cst_72 main_v278 (broadcastInDim S20000 ![] bcast_S_S20000 : (⟨S_, .f32⟩ : BufTy).Contents (Elt F) → (⟨S20000, .f32⟩ : BufTy).Contents (Elt F)),
    binary main_v269 main_v278 main_v279 (maximumf : (⟨S20000, .f32⟩ : BufTy).Contents (Elt F) → (⟨S20000, .f32⟩ : BufTy).Contents (Elt F) → (⟨S20000, .f32⟩ : BufTy).Contents (Elt F)),
    unary main_v279 main_v280 (Host.rsqrt : (⟨S20000, .f32⟩ : BufTy).Contents (Elt F) → (⟨S20000, .f32⟩ : BufTy).Contents (Elt F)),
    nullary main_cst_73 (constant S_ .f32 0x00000000#32),
    TRef.unary (TRef.of (T := ⟨S_, .f32⟩) main_cst_73) (TRef.of (T := ⟨S_, .f32⟩) main_call9_v0) id,
    TRef.unary (TRef.of (T := ⟨S_, .f32⟩) main_call9_v0) (TRef.of (T := ⟨S20000, .f32⟩) main_call9_v1) (broadcastInDim S20000 ![] bcast_S_S20000),
    TRef.ternary (TRef.of (T := ⟨S20000, .i1⟩) main_v277) (TRef.of (T := ⟨S20000, .f32⟩) main_v280) (TRef.of (T := ⟨S20000, .f32⟩) main_call9_v1) (TRef.of (T := ⟨S20000, .f32⟩) main_v281) select ]

/-- Each touches TensorCore references only. -/
theorem ops_G8a_sub : (ops_G8a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G8a_fresh : ∀ op ∈ (ops_G8a : List (HloOp τ sig (Elt F))), op.fresh = ∅ :=
  List.forall_iff_forall_mem.1 (show (ops_G8a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G8a : List (Ref sig .tc) :=
  [main_v257, main_v258, main_v259, main_v260, main_v261, main_v262, main_cst_65, main_v263, main_cst_66, main_v264, main_v265, main_v266, main_cst_67, main_v267, main_v268, main_v269, main_cst_68, main_v270, main_v271, main_cst_69, main_v272, main_v273, main_v274, main_cst_70, main_call8_v0, main_call8_v1, main_v275, main_cst_71, main_v276, main_v277, main_cst_72, main_v278, main_v279, main_v280, main_cst_73, main_call9_v0, main_call9_v1, main_v281]

/-- Each operation writes a reference of that list only. -/
theorem ops_G8a_writes : (ops_G8a : List (HloOp τ sig (Elt F))).Forall fun op =>
    op.writes ⊆ (writes_G8a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D7.lean ====
/- Operations 378 … 378 of the reference's @main (1 of 1191), as a list; each touches TensorCore references only, none allocates, and each writes one reference of the list `writes_D7`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 378 … 378 of @main, in program order. -/
abbrev ops_D7 : List (HloOp τ sig (Elt F)) :=
  [ binary main_v7 main_v256 main_v282 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)) ]

/-- Each touches TensorCore references only. -/
theorem ops_D7_sub : (ops_D7 : List (HloOp τ sig (Elt F))).Forall fun op => op.bufs ⊆ StableHlo.tcRefs τ sig :=
  binary_bufs_sub ..

/-- None allocates a buffer. -/
theorem ops_D7_fresh : ∀ op ∈ (ops_D7 : List (HloOp τ sig (Elt F))), op.fresh = ∅ :=
  List.forall_iff_forall_mem.1 (show (ops_D7 : List (HloOp τ sig (Elt F))).Forall (fun op => op.fresh = ∅) from rfl)

/-- The references the operations write, in order. -/
abbrev writes_D7 : List (Ref sig .tc) :=
  [main_v282]

/-- Each operation writes a reference of that list only. -/
theorem ops_D7_writes : (ops_D7 : List (HloOp τ sig (Elt F))).Forall fun op =>
    op.writes ⊆ (writes_D7.map (Proc.devRef (τ := τ) .tc)).toFinset :=
  binary_writes_sub (h := by decide) ..

end Cert.ReferenceIdeal.Hand

end
-- ==== Proof.Ref.Chunk_G8b.lean ====
/- Operations 379 … 419 of the reference's @main (41 of 1191), as a list; each touches TensorCore references only, none allocates, and each writes one reference of the list `writes_G8b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 379 … 419 of @main, in program order. -/
abbrev ops_G8b : List (HloOp τ sig (Elt F)) :=
  [ nullary main_c_74 (constantI S_ 32 0#32),
    unary main_c_74 main_v283 (broadcastInDim S500000 ![] bcast_S_S500000 : (⟨S_, .i32⟩ : BufTy).Contents (Elt F) → (⟨S500000, .i32⟩ : BufTy).Contents (Elt F)),
    binary main_v260 main_v283 main_v284 (cmpi .slt : (⟨S500000, .i32⟩ : BufTy).Contents (Elt F) → (⟨S500000, .i32⟩ : BufTy).Contents (Elt F) → (⟨S500000, .i1⟩ : BufTy).Contents (Elt F)),
    nullary main_c_75 (constantI S_ 32 60000#32),
    unary main_c_75 main_v285 (broadcastInDim S500000 ![] bcast_S_S500000 : (⟨S_, .i32⟩ : BufTy).Contents (Elt F) → (⟨S500000, .i32⟩ : BufTy).Contents (Elt F)),
    binary main_v260 main_v285 main_v286 (addi : (⟨S500000, .i32⟩ : BufTy).Contents (Elt F) → (⟨S500000, .i32⟩ : BufTy).Contents (Elt F) → (⟨S500000, .i32⟩ : BufTy).Contents (Elt F)),
    ternary main_v284 main_v286 main_v260 main_v287 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v287 main_v288 (broadcastInDim S500000x1 ![0] bcast_S500000_S500000x1_0 : (⟨S500000, .i32⟩ : BufTy).Contents (Elt F) → (⟨S500000x1, .i32⟩ : BufTy).Contents (Elt F)),
    binary main_v275 main_v288 main_v289 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    nullary main_c_76 (constantI S_ 32 0#32),
    unary main_c_76 main_v290 (broadcastInDim S500000 ![] bcast_S_S500000 : (⟨S_, .i32⟩ : BufTy).Contents (Elt F) → (⟨S500000, .i32⟩ : BufTy).Contents (Elt F)),
    binary main_v262 main_v290 main_v291 (cmpi .slt : (⟨S500000, .i32⟩ : BufTy).Contents (Elt F) → (⟨S500000, .i32⟩ : BufTy).Contents (Elt F) → (⟨S500000, .i1⟩ : BufTy).Contents (Elt F)),
    nullary main_c_77 (constantI S_ 32 20000#32),
    unary main_c_77 main_v292 (broadcastInDim S500000 ![] bcast_S_S500000 : (⟨S_, .i32⟩ : BufTy).Contents (Elt F) → (⟨S500000, .i32⟩ : BufTy).Contents (Elt F)),
    binary main_v262 main_v292 main_v293 (addi : (⟨S500000, .i32⟩ : BufTy).Contents (Elt F) → (⟨S500000, .i32⟩ : BufTy).Contents (Elt F) → (⟨S500000, .i32⟩ : BufTy).Contents (Elt F)),
    ternary main_v291 main_v293 main_v262 main_v294 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v294 main_v295 (broadcastInDim S500000x1 ![0] bcast_S500000_S500000x1_0 : (⟨S500000, .i32⟩ : BufTy).Contents (Elt F) → (⟨S500000x1, .i32⟩ : BufTy).Contents (Elt F)),
    binary main_v281 main_v295 main_v296 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v289 main_v296 main_v297 (mulf : (⟨S500000, .f32⟩ : BufTy).Contents (Elt F) → (⟨S500000, .f32⟩ : BufTy).Contents (Elt F) → (⟨S500000, .f32⟩ : BufTy).Contents (Elt F)),
    nullary main_c_78 (constantI S_ 32 0#32),
    unary main_c_78 main_v298 (broadcastInDim S500000 ![] bcast_S_S500000 : (⟨S_, .i32⟩ : BufTy).Contents (Elt F) → (⟨S500000, .i32⟩ : BufTy).Contents (Elt F)),
    binary main_v260 main_v298 main_v299 (cmpi .slt : (⟨S500000, .i32⟩ : BufTy).Contents (Elt F) → (⟨S500000, .i32⟩ : BufTy).Contents (Elt F) → (⟨S500000, .i1⟩ : BufTy).Contents (Elt F)),
    nullary main_c_79 (constantI S_ 32 60000#32),
    unary main_c_79 main_v300 (broadcastInDim S500000 ![] bcast_S_S500000 : (⟨S_, .i32⟩ : BufTy).Contents (Elt F) → (⟨S500000, .i32⟩ : BufTy).Contents (Elt F)),
    binary main_v260 main_v300 main_v301 (addi : (⟨S500000, .i32⟩ : BufTy).Contents (Elt F) → (⟨S500000, .i32⟩ : BufTy).Contents (Elt F) → (⟨S500000, .i32⟩ : BufTy).Contents (Elt F)),
    ternary main_v299 main_v301 main_v260 main_v302 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v302 main_v303 (broadcastInDim S500000x1 ![0] bcast_S500000_S500000x1_0 : (⟨S500000, .i32⟩ : BufTy).Contents (Elt F) → (⟨S500000x1, .i32⟩ : BufTy).Contents (Elt F)),
    binary main_v282 main_v303 main_v304 ((fun x i => Host.gather gather_S60000x128_S500000x1_S500000x128_1_0_n_n_0_1_1128 x i) : (⟨S60000x128, .f32⟩ : BufTy).Contents (Elt F) → (⟨S500000x1, .i32⟩ : BufTy).Contents (Elt F) → (⟨S500000x128, .f32⟩ : BufTy).Contents (Elt F)),
    unary main_v297 main_v305 (broadcastInDim S500000x1 ![0] bcast_S500000_S500000x1_0 : (⟨S500000, .f32⟩ : BufTy).Contents (Elt F) → (⟨S500000x1, .f32⟩ : BufTy).Contents (Elt F)),
    unary main_v305 main_v306 (broadcastInDim S500000x128 ![0, 1] bcast_S500000x1_S500000x128_0_1 : (⟨S500000x1, .f32⟩ : BufTy).Contents (Elt F) → (⟨S500000x128, .f32⟩ : BufTy).Contents (Elt F)),
    binary main_v304 main_v306 main_v307 (mulf : (⟨S500000x128, .f32⟩ : BufTy).Contents (Elt F) → (⟨S500000x128, .f32⟩ : BufTy).Contents (Elt F) → (⟨S500000x128, .f32⟩ : BufTy).Contents (Elt F)),
    nullary main_cst_80 (constant S_ .f32 0x00000000#32),
    unary main_cst_80 main_v308 (broadcastInDim S20000x128 ![] bcast_S_S20000x128 : (⟨S_, .f32⟩ : BufTy).Contents (Elt F) → (⟨S20000x128, .f32⟩ : BufTy).Contents (Elt F)),
    unary main_v262 main_v309 (broadcastInDim S500000x1 ![0] bcast_S500000_S500000x1_0 : (⟨S500000, .i32⟩ : BufTy).Contents (Elt F) → (⟨S500000x1, .i32⟩ : BufTy).Contents (Elt F)),
    ternary main_v308 main_v309 main_v307 main_v310 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    unary main_v258 main_v311 (broadcastInDim S1x128 ![1] bcast_S128_S1x128_1 : (⟨S128, .f32⟩ : BufTy).Contents (Elt F) → (⟨S1x128, .f32⟩ : BufTy).Contents (Elt F)),
    unary main_v311 main_v312 (broadcastInDim S20000x128 ![0, 1] bcast_S1x128_S20000x128_0_1 : (⟨S1x128, .f32⟩ : BufTy).Contents (Elt F) → (⟨S20000x128, .f32⟩ : BufTy).Contents (Elt F)),
    binary main_v310 main_v312 main_v313 (addf : (⟨S20000x128, .f32⟩ : BufTy).Contents (Elt F) → (⟨S20000x128, .f32⟩ : BufTy).Contents (Elt F) → (⟨S20000x128, .f32⟩ : BufTy).Contents (Elt F)),
    binary main_v254 main_v313 main_v314 (addf : (⟨S20000x128, .f32⟩ : BufTy).Contents (Elt F) → (⟨S20000x128, .f32⟩ : BufTy).Contents (Elt F) → (⟨S20000x128, .f32⟩ : BufTy).Contents (Elt F)),
    unary main_arg9 main_v315 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v315 main_v316 rfl shapeCasts_S1x128x128_S128x128 ]

/-- Each touches TensorCore references only. -/
theorem ops_G8b_sub : (ops_G8b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G8b_fresh : ∀ op ∈ (ops_G8b : List (HloOp τ sig (Elt F))), op.fresh = ∅ :=
  List.forall_iff_forall_mem.1 (show (ops_G8b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G8b : List (Ref sig .tc) :=
  [main_c_74, main_v283, main_v284, main_c_75, main_v285, main_v286, main_v287, main_v288, main_v289, main_c_76, main_v290, main_v291, main_c_77, main_v292, main_v293, main_v294, main_v295, main_v296, main_v297, main_c_78, main_v298, main_v299, main_c_79, main_v300, main_v301, main_v302, main_v303, main_v304, main_v305, main_v306, main_v307, main_cst_80, main_v308, main_v309, main_v310, main_v311, main_v312, main_v313, main_v314, main_v315, main_v316]

/-- Each operation writes a reference of that list only. -/
theorem ops_G8b_writes : (ops_G8b : List (HloOp τ sig (Elt F))).Forall fun op =>
    op.writes ⊆ (writes_G8b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G9a.lean ====
/- Operations 420 … 457 of the reference's @main (38 of 1191), as a list; each touches TensorCore references only, none allocates, and each writes one reference of the list `writes_G9a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 420 … 457 of @main, in program order. -/
abbrev ops_G9a : List (HloOp τ sig (Elt F)) :=
  [ unary main_arg10 main_v317 ((extractStridedSlice S1x128 ![5, 0] · slices_S6x128_S1x128_5_0) : (⟨S6x128, .f32⟩ : BufTy).Contents (Elt F) → (⟨S1x128, .f32⟩ : BufTy).Contents (Elt F)),
    reshape main_v317 main_v318 rfl shapeCasts_S1x128_S128,
    unary main_arg22 main_v319 ((extractStridedSlice S1x500000 ![0, 0] · slices_S2x500000_S1x500000_0_0) : (⟨S2x500000, .i32⟩ : BufTy).Contents (Elt F) → (⟨S1x500000, .i32⟩ : BufTy).Contents (Elt F)),
    reshape main_v319 main_v320 rfl shapeCasts_S1x500000_S500000,
    unary main_arg22 main_v321 ((extractStridedSlice S1x500000 ![1, 0] · slices_S2x500000_S1x500000_1_0) : (⟨S2x500000, .i32⟩ : BufTy).Contents (Elt F) → (⟨S1x500000, .i32⟩ : BufTy).Contents (Elt F)),
    reshape main_v321 main_v322 rfl shapeCasts_S1x500000_S500000,
    nullary main_cst_81 (constant S_ .f32 0x3F800000#32),
    unary main_cst_81 main_v323 (broadcastInDim S500000 ![] bcast_S_S500000 : (⟨S_, .f32⟩ : BufTy).Contents (Elt F) → (⟨S500000, .f32⟩ : BufTy).Contents (Elt F)),
    nullary main_cst_82 (constant S_ .f32 0x00000000#32),
    unary main_cst_82 main_v324 (broadcastInDim S20000 ![] bcast_S_S20000 : (⟨S_, .f32⟩ : BufTy).Contents (Elt F) → (⟨S20000, .f32⟩ : BufTy).Contents (Elt F)),
    unary main_v320 main_v325 (broadcastInDim S500000x1 ![0] bcast_S500000_S500000x1_0 : (⟨S500000, .i32⟩ : BufTy).Contents (Elt F) → (⟨S500000x1, .i32⟩ : BufTy).Contents (Elt F)),
    ternary main_v324 main_v325 main_v323 main_v326 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_83 (constant S_ .f32 0x00000000#32),
    unary main_cst_83 main_v327 (broadcastInDim S60000 ![] bcast_S_S60000 : (⟨S_, .f32⟩ : BufTy).Contents (Elt F) → (⟨S60000, .f32⟩ : BufTy).Contents (Elt F)),
    unary main_v322 main_v328 (broadcastInDim S500000x1 ![0] bcast_S500000_S500000x1_0 : (⟨S500000, .i32⟩ : BufTy).Contents (Elt F) → (⟨S500000x1, .i32⟩ : BufTy).Contents (Elt F)),
    ternary main_v327 main_v328 main_v323 main_v329 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_84 (constant S_ .f32 0x00000000#32),
    unary main_cst_84 main_v330 (broadcastInDim S20000 ![] bcast_S_S20000 : (⟨S_, .f32⟩ : BufTy).Contents (Elt F) → (⟨S20000, .f32⟩ : BufTy).Contents (Elt F)),
    binary main_v326 main_v330 main_v331 (cmpf .ogt : (⟨S20000, .f32⟩ : BufTy).Contents (Elt F) → (⟨S20000, .f32⟩ : BufTy).Contents (Elt F) → (⟨S20000, .i1⟩ : BufTy).Contents (Elt F)),
    nullary main_cst_85 (constant S_ .f32 0x3F800000#32),
    unary main_cst_85 main_v332 (broadcastInDim S20000 ![] bcast_S_S20000 : (⟨S_, .f32⟩ : BufTy).Contents (Elt F) → (⟨S20000, .f32⟩ : BufTy).Contents (Elt F)),
    binary main_v326 main_v332 main_v333 (maximumf : (⟨S20000, .f32⟩ : BufTy).Contents (Elt F) → (⟨S20000, .f32⟩ : BufTy).Contents (Elt F) → (⟨S20000, .f32⟩ : BufTy).Contents (Elt F)),
    unary main_v333 main_v334 (Host.rsqrt : (⟨S20000, .f32⟩ : BufTy).Contents (Elt F) → (⟨S20000, .f32⟩ : BufTy).Contents (Elt F)),
    nullary main_cst_86 (constant S_ .f32 0x00000000#32),
    TRef.unary (TRef.of (T := ⟨S_, .f32⟩) main_cst_86) (TRef.of (T := ⟨S_, .f32⟩) main_call10_v0) id,
    TRef.unary (TRef.of (T := ⟨S_, .f32⟩) main_call10_v0) (TRef.of (T := ⟨S20000, .f32⟩) main_call10_v1) (broadcastInDim S20000 ![] bcast_S_S20000),
    TRef.ternary (TRef.of (T := ⟨S20000, .i1⟩) main_v331) (TRef.of (T := ⟨S20000, .f32⟩) main_v334) (TRef.of (T := ⟨S20000, .f32⟩) main_call10_v1) (TRef.of (T := ⟨S20000, .f32⟩) main_v335) select,
    nullary main_cst_87 (constant S_ .f32 0x00000000#32),
    unary main_cst_87 main_v336 (broadcastInDim S60000 ![] bcast_S_S60000 : (⟨S_, .f32⟩ : BufTy).Contents (Elt F) → (⟨S60000, .f32⟩ : BufTy).Contents (Elt F)),
    binary main_v329 main_v336 main_v337 (cmpf .ogt : (⟨S60000, .f32⟩ : BufTy).Contents (Elt F) → (⟨S60000, .f32⟩ : BufTy).Contents (Elt F) → (⟨S60000, .i1⟩ : BufTy).Contents (Elt F)),
    nullary main_cst_88 (constant S_ .f32 0x3F800000#32),
    unary main_cst_88 main_v338 (broadcastInDim S60000 ![] bcast_S_S60000 : (⟨S_, .f32⟩ : BufTy).Contents (Elt F) → (⟨S60000, .f32⟩ : BufTy).Contents (Elt F)),
    binary main_v329 main_v338 main_v339 (maximumf : (⟨S60000, .f32⟩ : BufTy).Contents (Elt F) → (⟨S60000, .f32⟩ : BufTy).Contents (Elt F) → (⟨S60000, .f32⟩ : BufTy).Contents (Elt F)),
    unary main_v339 main_v340 (Host.rsqrt : (⟨S60000, .f32⟩ : BufTy).Contents (Elt F) → (⟨S60000, .f32⟩ : BufTy).Contents (Elt F)),
    nullary main_cst_89 (constant S_ .f32 0x00000000#32),
    TRef.unary (TRef.of (T := ⟨S_, .f32⟩) main_cst_89) (TRef.of (T := ⟨S_, .f32⟩) main_call11_v0) id,
    TRef.unary (TRef.of (T := ⟨S_, .f32⟩) main_call11_v0) (TRef.of (T := ⟨S60000, .f32⟩) main_call11_v1) (broadcastInDim S60000 ![] bcast_S_S60000),
    TRef.ternary (TRef.of (T := ⟨S60000, .i1⟩) main_v337) (TRef.of (T := ⟨S60000, .f32⟩) main_v340) (TRef.of (T := ⟨S60000, .f32⟩) main_call11_v1) (TRef.of (T := ⟨S60000, .f32⟩) main_v341) select ]

/-- Each touches TensorCore references only. -/
theorem ops_G9a_sub : (ops_G9a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G9a_fresh : ∀ op ∈ (ops_G9a : List (HloOp τ sig (Elt F))), op.fresh = ∅ :=
  List.forall_iff_forall_mem.1 (show (ops_G9a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G9a : List (Ref sig .tc) :=
  [main_v317, main_v318, main_v319, main_v320, main_v321, main_v322, main_cst_81, main_v323, main_cst_82, main_v324, main_v325, main_v326, main_cst_83, main_v327, main_v328, main_v329, main_cst_84, main_v330, main_v331, main_cst_85, main_v332, main_v333, main_v334, main_cst_86, main_call10_v0, main_call10_v1, main_v335, main_cst_87, main_v336, main_v337, main_cst_88, main_v338, main_v339, main_v340, main_cst_89, main_call11_v0, main_call11_v1, main_v341]

/-- Each operation writes a reference of that list only. -/
theorem ops_G9a_writes : (ops_G9a : List (HloOp τ sig (Elt F))).Forall fun op =>
    op.writes ⊆ (writes_G9a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D8.lean ====
/- Operations 458 … 458 of the reference's @main (1 of 1191), as a list; each touches TensorCore references only, none allocates, and each writes one reference of the list `writes_D8`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 458 … 458 of @main, in program order. -/
abbrev ops_D8 : List (HloOp τ sig (Elt F)) :=
  [ binary main_v11 main_v316 main_v342 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) ]

/-- Each touches TensorCore references only. -/
theorem ops_D8_sub : (ops_D8 : List (HloOp τ sig (Elt F))).Forall fun op => op.bufs ⊆ StableHlo.tcRefs τ sig :=
  binary_bufs_sub ..

/-- None allocates a buffer. -/
theorem ops_D8_fresh : ∀ op ∈ (ops_D8 : List (HloOp τ sig (Elt F))), op.fresh = ∅ :=
  List.forall_iff_forall_mem.1 (show (ops_D8 : List (HloOp τ sig (Elt F))).Forall (fun op => op.fresh = ∅) from rfl)

/-- The references the operations write, in order. -/
abbrev writes_D8 : List (Ref sig .tc) :=
  [main_v342]

/-- Each operation writes a reference of that list only. -/
theorem ops_D8_writes : (ops_D8 : List (HloOp τ sig (Elt F))).Forall fun op =>
    op.writes ⊆ (writes_D8.map (Proc.devRef (τ := τ) .tc)).toFinset :=
  binary_writes_sub (h := by decide) ..

end Cert.ReferenceIdeal.Hand

end
-- ==== Proof.Ref.Chunk_G9b.lean ====
/- Operations 459 … 501 of the reference's @main (43 of 1191), as a list; each touches TensorCore references only, none allocates, and each writes one reference of the list `writes_G9b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 459 … 501 of @main, in program order. -/
abbrev ops_G9b : List (HloOp τ sig (Elt F)) :=
  [ nullary main_c_90 (constantI S_ 32 0#32),
    unary main_c_90 main_v343 (broadcastInDim S500000 ![] bcast_S_S500000 : (⟨S_, .i32⟩ : BufTy).Contents (Elt F) → (⟨S500000, .i32⟩ : BufTy).Contents (Elt F)),
    binary main_v320 main_v343 main_v344 (cmpi .slt : (⟨S500000, .i32⟩ : BufTy).Contents (Elt F) → (⟨S500000, .i32⟩ : BufTy).Contents (Elt F) → (⟨S500000, .i1⟩ : BufTy).Contents (Elt F)),
    nullary main_c_91 (constantI S_ 32 20000#32),
    unary main_c_91 main_v345 (broadcastInDim S500000 ![] bcast_S_S500000 : (⟨S_, .i32⟩ : BufTy).Contents (Elt F) → (⟨S500000, .i32⟩ : BufTy).Contents (Elt F)),
    binary main_v320 main_v345 main_v346 (addi : (⟨S500000, .i32⟩ : BufTy).Contents (Elt F) → (⟨S500000, .i32⟩ : BufTy).Contents (Elt F) → (⟨S500000, .i32⟩ : BufTy).Contents (Elt F)),
    ternary main_v344 main_v346 main_v320 main_v347 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v347 main_v348 (broadcastInDim S500000x1 ![0] bcast_S500000_S500000x1_0 : (⟨S500000, .i32⟩ : BufTy).Contents (Elt F) → (⟨S500000x1, .i32⟩ : BufTy).Contents (Elt F)),
    binary main_v335 main_v348 main_v349 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_92 (constantI S_ 32 0#32),
    unary main_c_92 main_v350 (broadcastInDim S500000 ![] bcast_S_S500000 : (⟨S_, .i32⟩ : BufTy).Contents (Elt F) → (⟨S500000, .i32⟩ : BufTy).Contents (Elt F)),
    binary main_v322 main_v350 main_v351 (cmpi .slt : (⟨S500000, .i32⟩ : BufTy).Contents (Elt F) → (⟨S500000, .i32⟩ : BufTy).Contents (Elt F) → (⟨S500000, .i1⟩ : BufTy).Contents (Elt F)),
    nullary main_c_93 (constantI S_ 32 60000#32),
    unary main_c_93 main_v352 (broadcastInDim S500000 ![] bcast_S_S500000 : (⟨S_, .i32⟩ : BufTy).Contents (Elt F) → (⟨S500000, .i32⟩ : BufTy).Contents (Elt F)),
    binary main_v322 main_v352 main_v353 (addi : (⟨S500000, .i32⟩ : BufTy).Contents (Elt F) → (⟨S500000, .i32⟩ : BufTy).Contents (Elt F) → (⟨S500000, .i32⟩ : BufTy).Contents (Elt F)),
    ternary main_v351 main_v353 main_v322 main_v354 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v354 main_v355 (broadcastInDim S500000x1 ![0] bcast_S500000_S500000x1_0 : (⟨S500000, .i32⟩ : BufTy).Contents (Elt F) → (⟨S500000x1, .i32⟩ : BufTy).Contents (Elt F)),
    binary main_v341 main_v355 main_v356 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    binary main_v349 main_v356 main_v357 (mulf : (⟨S500000, .f32⟩ : BufTy).Contents (Elt F) → (⟨S500000, .f32⟩ : BufTy).Contents (Elt F) → (⟨S500000, .f32⟩ : BufTy).Contents (Elt F)),
    nullary main_c_94 (constantI S_ 32 0#32),
    unary main_c_94 main_v358 (broadcastInDim S500000 ![] bcast_S_S500000 : (⟨S_, .i32⟩ : BufTy).Contents (Elt F) → (⟨S500000, .i32⟩ : BufTy).Contents (Elt F)),
    binary main_v320 main_v358 main_v359 (cmpi .slt : (⟨S500000, .i32⟩ : BufTy).Contents (Elt F) → (⟨S500000, .i32⟩ : BufTy).Contents (Elt F) → (⟨S500000, .i1⟩ : BufTy).Contents (Elt F)),
    nullary main_c_95 (constantI S_ 32 20000#32),
    unary main_c_95 main_v360 (broadcastInDim S500000 ![] bcast_S_S500000 : (⟨S_, .i32⟩ : BufTy).Contents (Elt F) → (⟨S500000, .i32⟩ : BufTy).Contents (Elt F)),
    binary main_v320 main_v360 main_v361 (addi : (⟨S500000, .i32⟩ : BufTy).Contents (Elt F) → (⟨S500000, .i32⟩ : BufTy).Contents (Elt F) → (⟨S500000, .i32⟩ : BufTy).Contents (Elt F)),
    ternary main_v359 main_v361 main_v320 main_v362 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v362 main_v363 (broadcastInDim S500000x1 ![0] bcast_S500000_S500000x1_0 : (⟨S500000, .i32⟩ : BufTy).Contents (Elt F) → (⟨S500000x1, .i32⟩ : BufTy).Contents (Elt F)),
    binary main_v342 main_v363 main_v364 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    unary main_v357 main_v365 (broadcastInDim S500000x1 ![0] bcast_S500000_S500000x1_0 : (⟨S500000, .f32⟩ : BufTy).Contents (Elt F) → (⟨S500000x1, .f32⟩ : BufTy).Contents (Elt F)),
    unary main_v365 main_v366 (broadcastInDim S500000x128 ![0, 1] bcast_S500000x1_S500000x128_0_1 : (⟨S500000x1, .f32⟩ : BufTy).Contents (Elt F) → (⟨S500000x128, .f32⟩ : BufTy).Contents (Elt F)),
    binary main_v364 main_v366 main_v367 (mulf : (⟨S500000x128, .f32⟩ : BufTy).Contents (Elt F) → (⟨S500000x128, .f32⟩ : BufTy).Contents (Elt F) → (⟨S500000x128, .f32⟩ : BufTy).Contents (Elt F)),
    nullary main_cst_96 (constant S_ .f32 0x00000000#32),
    unary main_cst_96 main_v368 (broadcastInDim S60000x128 ![] bcast_S_S60000x128 : (⟨S_, .f32⟩ : BufTy).Contents (Elt F) → (⟨S60000x128, .f32⟩ : BufTy).Contents (Elt F)),
    unary main_v322 main_v369 (broadcastInDim S500000x1 ![0] bcast_S500000_S500000x1_0 : (⟨S500000, .i32⟩ : BufTy).Contents (Elt F) → (⟨S500000x1, .i32⟩ : BufTy).Contents (Elt F)),
    ternary main_v368 main_v369 main_v367 main_v370 ((fun x i u => Host.scatterAdd scatter_S60000x128_S500000x1_S500000x128_1_0_0_1 x i u) : (⟨S60000x128, .f32⟩ : BufTy).Contents (Elt F) → (⟨S500000x1, .i32⟩ : BufTy).Contents (Elt F) → (⟨S500000x128, .f32⟩ : BufTy).Contents (Elt F) → (⟨S60000x128, .f32⟩ : BufTy).Contents (Elt F)),
    unary main_v318 main_v371 (broadcastInDim S1x128 ![1] bcast_S128_S1x128_1 : (⟨S128, .f32⟩ : BufTy).Contents (Elt F) → (⟨S1x128, .f32⟩ : BufTy).Contents (Elt F)),
    unary main_v371 main_v372 (broadcastInDim S60000x128 ![0, 1] bcast_S1x128_S60000x128_0_1 : (⟨S1x128, .f32⟩ : BufTy).Contents (Elt F) → (⟨S60000x128, .f32⟩ : BufTy).Contents (Elt F)),
    binary main_v370 main_v372 main_v373 (addf : (⟨S60000x128, .f32⟩ : BufTy).Contents (Elt F) → (⟨S60000x128, .f32⟩ : BufTy).Contents (Elt F) → (⟨S60000x128, .f32⟩ : BufTy).Contents (Elt F)),
    binary main_v134 main_v373 main_v374 (addf : (⟨S60000x128, .f32⟩ : BufTy).Contents (Elt F) → (⟨S60000x128, .f32⟩ : BufTy).Contents (Elt F) → (⟨S60000x128, .f32⟩ : BufTy).Contents (Elt F)),
    unary main_arg13 main_v375 ((extractStridedSlice S1x128 ![0, 0] · slices_S3x128_S1x128_0_0) : (⟨S3x128, .f32⟩ : BufTy).Contents (Elt F) → (⟨S1x128, .f32⟩ : BufTy).Contents (Elt F)),
    reshape main_v375 main_v376 rfl shapeCasts_S1x128_S128,
    unary main_arg14 main_v377 ((extractStridedSlice S1x128 ![0, 0] · slices_S3x128_S1x128_0_0) : (⟨S3x128, .f32⟩ : BufTy).Contents (Elt F) → (⟨S1x128, .f32⟩ : BufTy).Contents (Elt F)),
    reshape main_v377 main_v378 rfl shapeCasts_S1x128_S128 ]

/-- Each touches TensorCore references only. -/
theorem ops_G9b_sub : (ops_G9b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., reshape_bufs_sub ..⟩

/-- None allocates a buffer. -/
theorem ops_G9b_fresh : ∀ op ∈ (ops_G9b : List (HloOp τ sig (Elt F))), op.fresh = ∅ :=
  List.forall_iff_forall_mem.1 (show (ops_G9b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G9b : List (Ref sig .tc) :=
  [main_c_90, main_v343, main_v344, main_c_91, main_v345, main_v346, main_v347, main_v348, main_v349, main_c_92, main_v350, main_v351, main_c_93, main_v352, main_v353, main_v354, main_v355, main_v356, main_v357, main_c_94, main_v358, main_v359, main_c_95, main_v360, main_v361, main_v362, main_v363, main_v364, main_v365, main_v366, main_v367, main_cst_96, main_v368, main_v369, main_v370, main_v371, main_v372, main_v373, main_v374, main_v375, main_v376, main_v377, main_v378]

/-- Each operation writes a reference of that list only. -/
theorem ops_G9b_writes : (ops_G9b : List (HloOp τ sig (Elt F))).Forall fun op =>
    op.writes ⊆ (writes_G9b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) .., unary_writes_sub (h := by decide) .., reshape_writes_sub (h := by decide) ..⟩

end Cert.ReferenceIdeal.Hand

end
-- ==== Proof.Ref.Chunk_L9.lean ====
/- Operations 502 … 530 of the reference's @main (29 of 1191), as a list; each touches TensorCore references only, none allocates, and each writes one reference of the list `writes_L9`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 502 … 530 of @main, in program order. -/
abbrev ops_L9 : List (HloOp τ sig (Elt F)) :=
  [ nullary main_cst_97 (constant S_ .f32 0x00000000#32),
    binary main_v314 main_cst_97 main_v379 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v379 main_v380 (broadcastInDim S20000x1 ![0] bcast_S20000_S20000x1_0 : (⟨S20000, .f32⟩ : BufTy).Contents (Elt F) → (⟨S20000x1, .f32⟩ : BufTy).Contents (Elt F)),
    nullary main_cst_98 (constant S_ .f32 0x43000000#32),
    unary main_cst_98 main_v381 (broadcastInDim S20000x1 ![] bcast_S_S20000x1 : (⟨S_, .f32⟩ : BufTy).Contents (Elt F) → (⟨S20000x1, .f32⟩ : BufTy).Contents (Elt F)),
    binary main_v380 main_v381 main_v382 (Host.divf : (⟨S20000x1, .f32⟩ : BufTy).Contents (Elt F) → (⟨S20000x1, .f32⟩ : BufTy).Contents (Elt F) → (⟨S20000x1, .f32⟩ : BufTy).Contents (Elt F)),
    unary main_v382 main_v383 (broadcastInDim S20000x128 ![0, 1] bcast_S20000x1_S20000x128_0_1 : (⟨S20000x1, .f32⟩ : BufTy).Contents (Elt F) → (⟨S20000x128, .f32⟩ : BufTy).Contents (Elt F)),
    binary main_v314 main_v383 main_v384 (subf : (⟨S20000x128, .f32⟩ : BufTy).Contents (Elt F) → (⟨S20000x128, .f32⟩ : BufTy).Contents (Elt F) → (⟨S20000x128, .f32⟩ : BufTy).Contents (Elt F)),
    binary main_v384 main_v384 main_v385 (mulf : (⟨S20000x128, .f32⟩ : BufTy).Contents (Elt F) → (⟨S20000x128, .f32⟩ : BufTy).Contents (Elt F) → (⟨S20000x128, .f32⟩ : BufTy).Contents (Elt F)),
    nullary main_cst_99 (constant S_ .f32 0x00000000#32),
    binary main_v385 main_cst_99 main_v386 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v386 main_v387 (broadcastInDim S20000x1 ![0] bcast_S20000_S20000x1_0 : (⟨S20000, .f32⟩ : BufTy).Contents (Elt F) → (⟨S20000x1, .f32⟩ : BufTy).Contents (Elt F)),
    nullary main_cst_100 (constant S_ .f32 0x43000000#32),
    unary main_cst_100 main_v388 (broadcastInDim S20000x1 ![] bcast_S_S20000x1 : (⟨S_, .f32⟩ : BufTy).Contents (Elt F) → (⟨S20000x1, .f32⟩ : BufTy).Contents (Elt F)),
    binary main_v387 main_v388 main_v389 (Host.divf : (⟨S20000x1, .f32⟩ : BufTy).Contents (Elt F) → (⟨S20000x1, .f32⟩ : BufTy).Contents (Elt F) → (⟨S20000x1, .f32⟩ : BufTy).Contents (Elt F)),
    unary main_v382 main_v390 (broadcastInDim S20000x128 ![0, 1] bcast_S20000x1_S20000x128_0_1 : (⟨S20000x1, .f32⟩ : BufTy).Contents (Elt F) → (⟨S20000x128, .f32⟩ : BufTy).Contents (Elt F)),
    binary main_v314 main_v390 main_v391 (subf : (⟨S20000x128, .f32⟩ : BufTy).Contents (Elt F) → (⟨S20000x128, .f32⟩ : BufTy).Contents (Elt F) → (⟨S20000x128, .f32⟩ : BufTy).Contents (Elt F)),
    nullary main_cst_101 (constant S_ .f32 0x3727C5AC#32),
    unary main_cst_101 main_v392 (broadcastInDim S20000x1 ![] bcast_S_S20000x1 : (⟨S_, .f32⟩ : BufTy).Contents (Elt F) → (⟨S20000x1, .f32⟩ : BufTy).Contents (Elt F)),
    binary main_v389 main_v392 main_v393 (addf : (⟨S20000x1, .f32⟩ : BufTy).Contents (Elt F) → (⟨S20000x1, .f32⟩ : BufTy).Contents (Elt F) → (⟨S20000x1, .f32⟩ : BufTy).Contents (Elt F)),
    unary main_v393 main_v394 (Host.rsqrt : (⟨S20000x1, .f32⟩ : BufTy).Contents (Elt F) → (⟨S20000x1, .f32⟩ : BufTy).Contents (Elt F)),
    unary main_v394 main_v395 (broadcastInDim S20000x128 ![0, 1] bcast_S20000x1_S20000x128_0_1 : (⟨S20000x1, .f32⟩ : BufTy).Contents (Elt F) → (⟨S20000x128, .f32⟩ : BufTy).Contents (Elt F)),
    binary main_v391 main_v395 main_v396 (mulf : (⟨S20000x128, .f32⟩ : BufTy).Contents (Elt F) → (⟨S20000x128, .f32⟩ : BufTy).Contents (Elt F) → (⟨S20000x128, .f32⟩ : BufTy).Contents (Elt F)),
    unary main_v376 main_v397 (broadcastInDim S1x128 ![1] bcast_S128_S1x128_1 : (⟨S128, .f32⟩ : BufTy).Contents (Elt F) → (⟨S1x128, .f32⟩ : BufTy).Contents (Elt F)),
    unary main_v397 main_v398 (broadcastInDim S20000x128 ![0, 1] bcast_S1x128_S20000x128_0_1 : (⟨S1x128, .f32⟩ : BufTy).Contents (Elt F) → (⟨S20000x128, .f32⟩ : BufTy).Contents (Elt F)),
    binary main_v396 main_v398 main_v399 (mulf : (⟨S20000x128, .f32⟩ : BufTy).Contents (Elt F) → (⟨S20000x128, .f32⟩ : BufTy).Contents (Elt F) → (⟨S20000x128, .f32⟩ : BufTy).Contents (Elt F)),
    unary main_v378 main_v400 (broadcastInDim S1x128 ![1] bcast_S128_S1x128_1 : (⟨S128, .f32⟩ : BufTy).Contents (Elt F) → (⟨S1x128, .f32⟩ : BufTy).Contents (Elt F)),
    unary main_v400 main_v401 (broadcastInDim S20000x128 ![0, 1] bcast_S1x128_S20000x128_0_1 : (⟨S1x128, .f32⟩ : BufTy).Contents (Elt F) → (⟨S20000x128, .f32⟩ : BufTy).Contents (Elt F)),
    binary main_v399 main_v401 main_v402 (addf : (⟨S20000x128, .f32⟩ : BufTy).Contents (Elt F) → (⟨S20000x128, .f32⟩ : BufTy).Contents (Elt F) → (⟨S20000x128, .f32⟩ : BufTy).Contents (Elt F)) ]

/-- Each touches TensorCore references only. -/
theorem ops_L9_sub : (ops_L9 : List (HloOp τ sig (Elt F))).Forall fun op => op.bufs ⊆ StableHlo.tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- None allocates a buffer. -/
theorem ops_L9_fresh : ∀ op ∈ (ops_L9 : List (HloOp τ sig (Elt F))), op.fresh = ∅ :=
  List.forall_iff_forall_mem.1 (show (ops_L9 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_L9 : List (Ref sig .tc) :=
  [main_cst_97, main_v379, main_v380, main_cst_98, main_v381, main_v382, main_v383, main_v384, main_v385, main_cst_99, main_v386, main_v387, main_cst_100, main_v388, main_v389, main_v390, main_v391, main_cst_101, main_v392, main_v393, main_v394, main_v395, main_v396, main_v397, main_v398, main_v399, main_v400, main_v401, main_v402]

/-- Each operation writes a reference of that list only. -/
theorem ops_L9_writes : (ops_L9 : List (HloOp τ sig (Elt F))).Forall fun op =>
    op.writes ⊆ (writes_L9.map (Proc.devRef (τ := τ) .tc)).toFinset :=
  ⟨nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., binary_writes_sub (h := by decide) .., nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., nullary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) ..⟩

end Cert.ReferenceIdeal.Hand

end
-- ==== Proof.Ref.Chunk_H10.lean ====
/- Operations 531 … 534 of the reference's @main (4 of 1191), as a list; each touches TensorCore references only, none allocates, and each writes one reference of the list `writes_H10`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 531 … 534 of @main, in program order. -/
abbrev ops_H10 : List (HloOp τ sig (Elt F)) :=
  [ unary main_arg13 main_v403 ((extractStridedSlice S1x128 ![1, 0] · slices_S3x128_S1x128_1_0) : (⟨S3x128, .f32⟩ : BufTy).Contents (Elt F) → (⟨S1x128, .f32⟩ : BufTy).Contents (Elt F)),
    reshape main_v403 main_v404 rfl shapeCasts_S1x128_S128,
    unary main_arg14 main_v405 ((extractStridedSlice S1x128 ![1, 0] · slices_S3x128_S1x128_1_0) : (⟨S3x128, .f32⟩ : BufTy).Contents (Elt F) → (⟨S1x128, .f32⟩ : BufTy).Contents (Elt F)),
    reshape main_v405 main_v406 rfl shapeCasts_S1x128_S128 ]

/-- Each touches TensorCore references only. -/
theorem ops_H10_sub : (ops_H10 : List (HloOp τ sig (Elt F))).Forall fun op => op.bufs ⊆ StableHlo.tcRefs τ sig :=
  ⟨unary_bufs_sub .., reshape_bufs_sub .., unary_bufs_sub .., reshape_bufs_sub ..⟩

/-- None allocates a buffer. -/
theorem ops_H10_fresh : ∀ op ∈ (ops_H10 : List (HloOp τ sig (Elt F))), op.fresh = ∅ :=
  List.forall_iff_forall_mem.1 (show (ops_H10 : List (HloOp τ sig (Elt F))).Forall (fun op => op.fresh = ∅) from ⟨rfl, rfl, rfl, rfl⟩)

/-- The references the operations write, in order. -/
abbrev writes_H10 : List (Ref sig .tc) :=
  [main_v403, main_v404, main_v405, main_v406]

/-- Each operation writes a reference of that list only. -/
theorem ops_H10_writes : (ops_H10 : List (HloOp τ sig (Elt F))).Forall fun op =>
    op.writes ⊆ (writes_H10.map (Proc.devRef (τ := τ) .tc)).toFinset :=
  ⟨unary_writes_sub (h := by decide) .., reshape_writes_sub (h := by decide) .., unary_writes_sub (h := by decide) .., reshape_writes_sub (h := by decide) ..⟩

end Cert.ReferenceIdeal.Hand

end
-- ==== Proof.Ref.Chunk_L10.lean ====
/- Operations 535 … 563 of the reference's @main (29 of 1191), as a list; each touches TensorCore references only, none allocates, and each writes one reference of the list `writes_L10`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 535 … 563 of @main, in program order. -/
abbrev ops_L10 : List (HloOp τ sig (Elt F)) :=
  [ nullary main_cst_102 (constant S_ .f32 0x00000000#32),
    binary main_v374 main_cst_102 main_v407 ((fun x v => Host.reduceAdd x v reducesTo_S60000x128_S60000_d1 h_S_) : (⟨S60000x128, .f32⟩ : BufTy).Contents (Elt F) → (⟨S_, .f32⟩ : BufTy).Contents (Elt F) → (⟨S60000, .f32⟩ : BufTy).Contents (Elt F)),
    unary main_v407 main_v408 (broadcastInDim S60000x1 ![0] bcast_S60000_S60000x1_0 : (⟨S60000, .f32⟩ : BufTy).Contents (Elt F) → (⟨S60000x1, .f32⟩ : BufTy).Contents (Elt F)),
    nullary main_cst_103 (constant S_ .f32 0x43000000#32),
    unary main_cst_103 main_v409 (broadcastInDim S60000x1 ![] bcast_S_S60000x1 : (⟨S_, .f32⟩ : BufTy).Contents (Elt F) → (⟨S60000x1, .f32⟩ : BufTy).Contents (Elt F)),
    binary main_v408 main_v409 main_v410 (Host.divf : (⟨S60000x1, .f32⟩ : BufTy).Contents (Elt F) → (⟨S60000x1, .f32⟩ : BufTy).Contents (Elt F) → (⟨S60000x1, .f32⟩ : BufTy).Contents (Elt F)),
    unary main_v410 main_v411 (broadcastInDim S60000x128 ![0, 1] bcast_S60000x1_S60000x128_0_1 : (⟨S60000x1, .f32⟩ : BufTy).Contents (Elt F) → (⟨S60000x128, .f32⟩ : BufTy).Contents (Elt F)),
    binary main_v374 main_v411 main_v412 (subf : (⟨S60000x128, .f32⟩ : BufTy).Contents (Elt F) → (⟨S60000x128, .f32⟩ : BufTy).Contents (Elt F) → (⟨S60000x128, .f32⟩ : BufTy).Contents (Elt F)),
    binary main_v412 main_v412 main_v413 (mulf : (⟨S60000x128, .f32⟩ : BufTy).Contents (Elt F) → (⟨S60000x128, .f32⟩ : BufTy).Contents (Elt F) → (⟨S60000x128, .f32⟩ : BufTy).Contents (Elt F)),
    nullary main_cst_104 (constant S_ .f32 0x00000000#32),
    binary main_v413 main_cst_104 main_v414 ((fun x v => Host.reduceAdd x v reducesTo_S60000x128_S60000_d1 h_S_) : (⟨S60000x128, .f32⟩ : BufTy).Contents (Elt F) → (⟨S_, .f32⟩ : BufTy).Contents (Elt F) → (⟨S60000, .f32⟩ : BufTy).Contents (Elt F)),
    unary main_v414 main_v415 (broadcastInDim S60000x1 ![0] bcast_S60000_S60000x1_0 : (⟨S60000, .f32⟩ : BufTy).Contents (Elt F) → (⟨S60000x1, .f32⟩ : BufTy).Contents (Elt F)),
    nullary main_cst_105 (constant S_ .f32 0x43000000#32),
    unary main_cst_105 main_v416 (broadcastInDim S60000x1 ![] bcast_S_S60000x1 : (⟨S_, .f32⟩ : BufTy).Contents (Elt F) → (⟨S60000x1, .f32⟩ : BufTy).Contents (Elt F)),
    binary main_v415 main_v416 main_v417 (Host.divf : (⟨S60000x1, .f32⟩ : BufTy).Contents (Elt F) → (⟨S60000x1, .f32⟩ : BufTy).Contents (Elt F) → (⟨S60000x1, .f32⟩ : BufTy).Contents (Elt F)),
    unary main_v410 main_v418 (broadcastInDim S60000x128 ![0, 1] bcast_S60000x1_S60000x128_0_1 : (⟨S60000x1, .f32⟩ : BufTy).Contents (Elt F) → (⟨S60000x128, .f32⟩ : BufTy).Contents (Elt F)),
    binary main_v374 main_v418 main_v419 (subf : (⟨S60000x128, .f32⟩ : BufTy).Contents (Elt F) → (⟨S60000x128, .f32⟩ : BufTy).Contents (Elt F) → (⟨S60000x128, .f32⟩ : BufTy).Contents (Elt F)),
    nullary main_cst_106 (constant S_ .f32 0x3727C5AC#32),
    unary main_cst_106 main_v420 (broadcastInDim S60000x1 ![] bcast_S_S60000x1 : (⟨S_, .f32⟩ : BufTy).Contents (Elt F) → (⟨S60000x1, .f32⟩ : BufTy).Contents (Elt F)),
    binary main_v417 main_v420 main_v421 (addf : (⟨S60000x1, .f32⟩ : BufTy).Contents (Elt F) → (⟨S60000x1, .f32⟩ : BufTy).Contents (Elt F) → (⟨S60000x1, .f32⟩ : BufTy).Contents (Elt F)),
    unary main_v421 main_v422 (Host.rsqrt : (⟨S60000x1, .f32⟩ : BufTy).Contents (Elt F) → (⟨S60000x1, .f32⟩ : BufTy).Contents (Elt F)),
    unary main_v422 main_v423 (broadcastInDim S60000x128 ![0, 1] bcast_S60000x1_S60000x128_0_1 : (⟨S60000x1, .f32⟩ : BufTy).Contents (Elt F) → (⟨S60000x128, .f32⟩ : BufTy).Contents (Elt F)),
    binary main_v419 main_v423 main_v424 (mulf : (⟨S60000x128, .f32⟩ : BufTy).Contents (Elt F) → (⟨S60000x128, .f32⟩ : BufTy).Contents (Elt F) → (⟨S60000x128, .f32⟩ : BufTy).Contents (Elt F)),
    unary main_v404 main_v425 (broadcastInDim S1x128 ![1] bcast_S128_S1x128_1 : (⟨S128, .f32⟩ : BufTy).Contents (Elt F) → (⟨S1x128, .f32⟩ : BufTy).Contents (Elt F)),
    unary main_v425 main_v426 (broadcastInDim S60000x128 ![0, 1] bcast_S1x128_S60000x128_0_1 : (⟨S1x128, .f32⟩ : BufTy).Contents (Elt F) → (⟨S60000x128, .f32⟩ : BufTy).Contents (Elt F)),
    binary main_v424 main_v426 main_v427 (mulf : (⟨S60000x128, .f32⟩ : BufTy).Contents (Elt F) → (⟨S60000x128, .f32⟩ : BufTy).Contents (Elt F) → (⟨S60000x128, .f32⟩ : BufTy).Contents (Elt F)),
    unary main_v406 main_v428 (broadcastInDim S1x128 ![1] bcast_S128_S1x128_1 : (⟨S128, .f32⟩ : BufTy).Contents (Elt F) → (⟨S1x128, .f32⟩ : BufTy).Contents (Elt F)),
    unary main_v428 main_v429 (broadcastInDim S60000x128 ![0, 1] bcast_S1x128_S60000x128_0_1 : (⟨S1x128, .f32⟩ : BufTy).Contents (Elt F) → (⟨S60000x128, .f32⟩ : BufTy).Contents (Elt F)),
    binary main_v427 main_v429 main_v430 (addf : (⟨S60000x128, .f32⟩ : BufTy).Contents (Elt F) → (⟨S60000x128, .f32⟩ : BufTy).Contents (Elt F) → (⟨S60000x128, .f32⟩ : BufTy).Contents (Elt F)) ]

/-- Each touches TensorCore references only. -/
theorem ops_L10_sub : (ops_L10 : List (HloOp τ sig (Elt F))).Forall fun op => op.bufs ⊆ StableHlo.tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- None allocates a buffer. -/
theorem ops_L10_fresh : ∀ op ∈ (ops_L10 : List (HloOp τ sig (Elt F))), op.fresh = ∅ :=
  List.forall_iff_forall_mem.1 (show (ops_L10 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_L10 : List (Ref sig .tc) :=
  [main_cst_102, main_v407, main_v408, main_cst_103, main_v409, main_v410, main_v411, main_v412, main_v413, main_cst_104, main_v414, main_v415, main_cst_105, main_v416, main_v417, main_v418, main_v419, main_cst_106, main_v420, main_v421, main_v422, main_v423, main_v424, main_v425, main_v426, main_v427, main_v428, main_v429, main_v430]

/-- Each operation writes a reference of that list only. -/
theorem ops_L10_writes : (ops_L10 : List (HloOp τ sig (Elt F))).Forall fun op =>
    op.writes ⊆ (writes_L10.map (Proc.devRef (τ := τ) .tc)).toFinset :=
  ⟨nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., binary_writes_sub (h := by decide) .., nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., nullary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) ..⟩

end Cert.ReferenceIdeal.Hand

end
-- ==== Proof.Ref.Chunk_H11.lean ====
/- Operations 564 … 567 of the reference's @main (4 of 1191), as a list; each touches TensorCore references only, none allocates, and each writes one reference of the list `writes_H11`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 564 … 567 of @main, in program order. -/
abbrev ops_H11 : List (HloOp τ sig (Elt F)) :=
  [ unary main_arg13 main_v431 ((extractStridedSlice S1x128 ![2, 0] · slices_S3x128_S1x128_2_0) : (⟨S3x128, .f32⟩ : BufTy).Contents (Elt F) → (⟨S1x128, .f32⟩ : BufTy).Contents (Elt F)),
    reshape main_v431 main_v432 rfl shapeCasts_S1x128_S128,
    unary main_arg14 main_v433 ((extractStridedSlice S1x128 ![2, 0] · slices_S3x128_S1x128_2_0) : (⟨S3x128, .f32⟩ : BufTy).Contents (Elt F) → (⟨S1x128, .f32⟩ : BufTy).Contents (Elt F)),
    reshape main_v433 main_v434 rfl shapeCasts_S1x128_S128 ]

/-- Each touches TensorCore references only. -/
theorem ops_H11_sub : (ops_H11 : List (HloOp τ sig (Elt F))).Forall fun op => op.bufs ⊆ StableHlo.tcRefs τ sig :=
  ⟨unary_bufs_sub .., reshape_bufs_sub .., unary_bufs_sub .., reshape_bufs_sub ..⟩

/-- None allocates a buffer. -/
theorem ops_H11_fresh : ∀ op ∈ (ops_H11 : List (HloOp τ sig (Elt F))), op.fresh = ∅ :=
  List.forall_iff_forall_mem.1 (show (ops_H11 : List (HloOp τ sig (Elt F))).Forall (fun op => op.fresh = ∅) from ⟨rfl, rfl, rfl, rfl⟩)

/-- The references the operations write, in order. -/
abbrev writes_H11 : List (Ref sig .tc) :=
  [main_v431, main_v432, main_v433, main_v434]

/-- Each operation writes a reference of that list only. -/
theorem ops_H11_writes : (ops_H11 : List (HloOp τ sig (Elt F))).Forall fun op =>
    op.writes ⊆ (writes_H11.map (Proc.devRef (τ := τ) .tc)).toFinset :=
  ⟨unary_writes_sub (h := by decide) .., reshape_writes_sub (h := by decide) .., unary_writes_sub (h := by decide) .., reshape_writes_sub (h := by decide) ..⟩

end Cert.ReferenceIdeal.Hand

end
-- ==== Proof.Ref.Chunk_L11.lean ====
/- Operations 568 … 596 of the reference's @main (29 of 1191), as a list; each touches TensorCore references only, none allocates, and each writes one reference of the list `writes_L11`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 568 … 596 of @main, in program order. -/
abbrev ops_L11 : List (HloOp τ sig (Elt F)) :=
  [ nullary main_cst_107 (constant S_ .f32 0x00000000#32),
    binary main_v194 main_cst_107 main_v435 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v435 main_v436 (broadcastInDim S20000x1 ![0] bcast_S20000_S20000x1_0 : (⟨S20000, .f32⟩ : BufTy).Contents (Elt F) → (⟨S20000x1, .f32⟩ : BufTy).Contents (Elt F)),
    nullary main_cst_108 (constant S_ .f32 0x43000000#32),
    unary main_cst_108 main_v437 (broadcastInDim S20000x1 ![] bcast_S_S20000x1 : (⟨S_, .f32⟩ : BufTy).Contents (Elt F) → (⟨S20000x1, .f32⟩ : BufTy).Contents (Elt F)),
    binary main_v436 main_v437 main_v438 (Host.divf : (⟨S20000x1, .f32⟩ : BufTy).Contents (Elt F) → (⟨S20000x1, .f32⟩ : BufTy).Contents (Elt F) → (⟨S20000x1, .f32⟩ : BufTy).Contents (Elt F)),
    unary main_v438 main_v439 (broadcastInDim S20000x128 ![0, 1] bcast_S20000x1_S20000x128_0_1 : (⟨S20000x1, .f32⟩ : BufTy).Contents (Elt F) → (⟨S20000x128, .f32⟩ : BufTy).Contents (Elt F)),
    binary main_v194 main_v439 main_v440 (subf : (⟨S20000x128, .f32⟩ : BufTy).Contents (Elt F) → (⟨S20000x128, .f32⟩ : BufTy).Contents (Elt F) → (⟨S20000x128, .f32⟩ : BufTy).Contents (Elt F)),
    binary main_v440 main_v440 main_v441 (mulf : (⟨S20000x128, .f32⟩ : BufTy).Contents (Elt F) → (⟨S20000x128, .f32⟩ : BufTy).Contents (Elt F) → (⟨S20000x128, .f32⟩ : BufTy).Contents (Elt F)),
    nullary main_cst_109 (constant S_ .f32 0x00000000#32),
    binary main_v441 main_cst_109 main_v442 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v442 main_v443 (broadcastInDim S20000x1 ![0] bcast_S20000_S20000x1_0 : (⟨S20000, .f32⟩ : BufTy).Contents (Elt F) → (⟨S20000x1, .f32⟩ : BufTy).Contents (Elt F)),
    nullary main_cst_110 (constant S_ .f32 0x43000000#32),
    unary main_cst_110 main_v444 (broadcastInDim S20000x1 ![] bcast_S_S20000x1 : (⟨S_, .f32⟩ : BufTy).Contents (Elt F) → (⟨S20000x1, .f32⟩ : BufTy).Contents (Elt F)),
    binary main_v443 main_v444 main_v445 (Host.divf : (⟨S20000x1, .f32⟩ : BufTy).Contents (Elt F) → (⟨S20000x1, .f32⟩ : BufTy).Contents (Elt F) → (⟨S20000x1, .f32⟩ : BufTy).Contents (Elt F)),
    unary main_v438 main_v446 (broadcastInDim S20000x128 ![0, 1] bcast_S20000x1_S20000x128_0_1 : (⟨S20000x1, .f32⟩ : BufTy).Contents (Elt F) → (⟨S20000x128, .f32⟩ : BufTy).Contents (Elt F)),
    binary main_v194 main_v446 main_v447 (subf : (⟨S20000x128, .f32⟩ : BufTy).Contents (Elt F) → (⟨S20000x128, .f32⟩ : BufTy).Contents (Elt F) → (⟨S20000x128, .f32⟩ : BufTy).Contents (Elt F)),
    nullary main_cst_111 (constant S_ .f32 0x3727C5AC#32),
    unary main_cst_111 main_v448 (broadcastInDim S20000x1 ![] bcast_S_S20000x1 : (⟨S_, .f32⟩ : BufTy).Contents (Elt F) → (⟨S20000x1, .f32⟩ : BufTy).Contents (Elt F)),
    binary main_v445 main_v448 main_v449 (addf : (⟨S20000x1, .f32⟩ : BufTy).Contents (Elt F) → (⟨S20000x1, .f32⟩ : BufTy).Contents (Elt F) → (⟨S20000x1, .f32⟩ : BufTy).Contents (Elt F)),
    unary main_v449 main_v450 (Host.rsqrt : (⟨S20000x1, .f32⟩ : BufTy).Contents (Elt F) → (⟨S20000x1, .f32⟩ : BufTy).Contents (Elt F)),
    unary main_v450 main_v451 (broadcastInDim S20000x128 ![0, 1] bcast_S20000x1_S20000x128_0_1 : (⟨S20000x1, .f32⟩ : BufTy).Contents (Elt F) → (⟨S20000x128, .f32⟩ : BufTy).Contents (Elt F)),
    binary main_v447 main_v451 main_v452 (mulf : (⟨S20000x128, .f32⟩ : BufTy).Contents (Elt F) → (⟨S20000x128, .f32⟩ : BufTy).Contents (Elt F) → (⟨S20000x128, .f32⟩ : BufTy).Contents (Elt F)),
    unary main_v432 main_v453 (broadcastInDim S1x128 ![1] bcast_S128_S1x128_1 : (⟨S128, .f32⟩ : BufTy).Contents (Elt F) → (⟨S1x128, .f32⟩ : BufTy).Contents (Elt F)),
    unary main_v453 main_v454 (broadcastInDim S20000x128 ![0, 1] bcast_S1x128_S20000x128_0_1 : (⟨S1x128, .f32⟩ : BufTy).Contents (Elt F) → (⟨S20000x128, .f32⟩ : BufTy).Contents (Elt F)),
    binary main_v452 main_v454 main_v455 (mulf : (⟨S20000x128, .f32⟩ : BufTy).Contents (Elt F) → (⟨S20000x128, .f32⟩ : BufTy).Contents (Elt F) → (⟨S20000x128, .f32⟩ : BufTy).Contents (Elt F)),
    unary main_v434 main_v456 (broadcastInDim S1x128 ![1] bcast_S128_S1x128_1 : (⟨S128, .f32⟩ : BufTy).Contents (Elt F) → (⟨S1x128, .f32⟩ : BufTy).Contents (Elt F)),
    unary main_v456 main_v457 (broadcastInDim S20000x128 ![0, 1] bcast_S1x128_S20000x128_0_1 : (⟨S1x128, .f32⟩ : BufTy).Contents (Elt F) → (⟨S20000x128, .f32⟩ : BufTy).Contents (Elt F)),
    binary main_v455 main_v457 main_v458 (addf : (⟨S20000x128, .f32⟩ : BufTy).Contents (Elt F) → (⟨S20000x128, .f32⟩ : BufTy).Contents (Elt F) → (⟨S20000x128, .f32⟩ : BufTy).Contents (Elt F)) ]

/-- Each touches TensorCore references only. -/
theorem ops_L11_sub : (ops_L11 : List (HloOp τ sig (Elt F))).Forall fun op => op.bufs ⊆ StableHlo.tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- None allocates a buffer. -/
theorem ops_L11_fresh : ∀ op ∈ (ops_L11 : List (HloOp τ sig (Elt F))), op.fresh = ∅ :=
  List.forall_iff_forall_mem.1 (show (ops_L11 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_L11 : List (Ref sig .tc) :=
  [main_cst_107, main_v435, main_v436, main_cst_108, main_v437, main_v438, main_v439, main_v440, main_v441, main_cst_109, main_v442, main_v443, main_cst_110, main_v444, main_v445, main_v446, main_v447, main_cst_111, main_v448, main_v449, main_v450, main_v451, main_v452, main_v453, main_v454, main_v455, main_v456, main_v457, main_v458]

/-- Each operation writes a reference of that list only. -/
theorem ops_L11_writes : (ops_L11 : List (HloOp τ sig (Elt F))).Forall fun op =>
    op.writes ⊆ (writes_L11.map (Proc.devRef (τ := τ) .tc)).toFinset :=
  ⟨nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., binary_writes_sub (h := by decide) .., nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., nullary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) ..⟩

end Cert.ReferenceIdeal.Hand

end
-- ==== Proof.Ref.Chunk_RELU9.lean ====
/- Operations 597 … 599 of the reference's @main (3 of 1191), as a list; each touches TensorCore references only, none allocates, and each writes one reference of the list `writes_RELU9`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 597 … 599 of @main, in program order. -/
abbrev ops_RELU9 : List (HloOp τ sig (Elt F)) :=
  [ TRef.nullary (TRef.of (T := ⟨S_, .f32⟩) main_call12_cst) (constant S_ .f32 0x00000000#32),
    TRef.unary (TRef.of (T := ⟨S_, .f32⟩) main_call12_cst) (TRef.of (T := ⟨S20000x128, .f32⟩) main_call12_v0) (broadcastInDim S20000x128 ![] bcast_S_S20000x128),
    TRef.binary (TRef.of (T := ⟨S20000x128, .f32⟩) main_v402) (TRef.of (T := ⟨S20000x128, .f32⟩) main_call12_v0) (TRef.of (T := ⟨S20000x128, .f32⟩) main_v459) maximumf ]

/-- Each touches TensorCore references only. -/
theorem ops_RELU9_sub : (ops_RELU9 : List (HloOp τ sig (Elt F))).Forall fun op => op.bufs ⊆ StableHlo.tcRefs τ sig :=
  ⟨nullary_bufs_sub .., unary_bufs_sub .., binary_bufs_sub ..⟩

/-- None allocates a buffer. -/
theorem ops_RELU9_fresh : ∀ op ∈ (ops_RELU9 : List (HloOp τ sig (Elt F))), op.fresh = ∅ :=
  List.forall_iff_forall_mem.1 (show (ops_RELU9 : List (HloOp τ sig (Elt F))).Forall (fun op => op.fresh = ∅) from ⟨rfl, rfl, rfl⟩)

/-- The references the operations write, in order. -/
abbrev writes_RELU9 : List (Ref sig .tc) :=
  [main_call12_cst, main_call12_v0, main_v459]

/-- Each operation writes a reference of that list only. -/
theorem ops_RELU9_writes : (ops_RELU9 : List (HloOp τ sig (Elt F))).Forall fun op =>
    op.writes ⊆ (writes_RELU9.map (Proc.devRef (τ := τ) .tc)).toFinset :=
  ⟨nullary_writes_sub (h := by decide) .., unary_writes_sub (h := by decide) .., binary_writes_sub (h := by decide) ..⟩

end Cert.ReferenceIdeal.Hand

end
-- ==== Proof.Ref.Chunk_RELU10.lean ====
/- Operations 600 … 602 of the reference's @main (3 of 1191), as a list; each touches TensorCore references only, none allocates, and each writes one reference of the list `writes_RELU10`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 600 … 602 of @main, in program order. -/
abbrev ops_RELU10 : List (HloOp τ sig (Elt F)) :=
  [ TRef.nullary (TRef.of (T := ⟨S_, .f32⟩) main_call13_cst) (constant S_ .f32 0x00000000#32),
    TRef.unary (TRef.of (T := ⟨S_, .f32⟩) main_call13_cst) (TRef.of (T := ⟨S60000x128, .f32⟩) main_call13_v0) (broadcastInDim S60000x128 ![] bcast_S_S60000x128),
    TRef.binary (TRef.of (T := ⟨S60000x128, .f32⟩) main_v430) (TRef.of (T := ⟨S60000x128, .f32⟩) main_call13_v0) (TRef.of (T := ⟨S60000x128, .f32⟩) main_v460) maximumf ]

/-- Each touches TensorCore references only. -/
theorem ops_RELU10_sub : (ops_RELU10 : List (HloOp τ sig (Elt F))).Forall fun op => op.bufs ⊆ StableHlo.tcRefs τ sig :=
  ⟨nullary_bufs_sub .., unary_bufs_sub .., binary_bufs_sub ..⟩

/-- None allocates a buffer. -/
theorem ops_RELU10_fresh : ∀ op ∈ (ops_RELU10 : List (HloOp τ sig (Elt F))), op.fresh = ∅ :=
  List.forall_iff_forall_mem.1 (show (ops_RELU10 : List (HloOp τ sig (Elt F))).Forall (fun op => op.fresh = ∅) from ⟨rfl, rfl, rfl⟩)

/-- The references the operations write, in order. -/
abbrev writes_RELU10 : List (Ref sig .tc) :=
  [main_call13_cst, main_call13_v0, main_v460]

/-- Each operation writes a reference of that list only. -/
theorem ops_RELU10_writes : (ops_RELU10 : List (HloOp τ sig (Elt F))).Forall fun op =>
    op.writes ⊆ (writes_RELU10.map (Proc.devRef (τ := τ) .tc)).toFinset :=
  ⟨nullary_writes_sub (h := by decide) .., unary_writes_sub (h := by decide) .., binary_writes_sub (h := by decide) ..⟩

end Cert.ReferenceIdeal.Hand

end
-- ==== Proof.Ref.Chunk_RELU11.lean ====
/- Operations 603 … 605 of the reference's @main (3 of 1191), as a list; each touches TensorCore references only, none allocates, and each writes one reference of the list `writes_RELU11`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 603 … 605 of @main, in program order. -/
abbrev ops_RELU11 : List (HloOp τ sig (Elt F)) :=
  [ TRef.nullary (TRef.of (T := ⟨S_, .f32⟩) main_call14_cst) (constant S_ .f32 0x00000000#32),
    TRef.unary (TRef.of (T := ⟨S_, .f32⟩) main_call14_cst) (TRef.of (T := ⟨S20000x128, .f32⟩) main_call14_v0) (broadcastInDim S20000x128 ![] bcast_S_S20000x128),
    TRef.binary (TRef.of (T := ⟨S20000x128, .f32⟩) main_v458) (TRef.of (T := ⟨S20000x128, .f32⟩) main_call14_v0) (TRef.of (T := ⟨S20000x128, .f32⟩) main_v461) maximumf ]

/-- Each touches TensorCore references only. -/
theorem ops_RELU11_sub : (ops_RELU11 : List (HloOp τ sig (Elt F))).Forall fun op => op.bufs ⊆ StableHlo.tcRefs τ sig :=
  ⟨nullary_bufs_sub .., unary_bufs_sub .., binary_bufs_sub ..⟩

/-- None allocates a buffer. -/
theorem ops_RELU11_fresh : ∀ op ∈ (ops_RELU11 : List (HloOp τ sig (Elt F))), op.fresh = ∅ :=
  List.forall_iff_forall_mem.1 (show (ops_RELU11 : List (HloOp τ sig (Elt F))).Forall (fun op => op.fresh = ∅) from ⟨rfl, rfl, rfl⟩)

/-- The references the operations write, in order. -/
abbrev writes_RELU11 : List (Ref sig .tc) :=
  [main_call14_cst, main_call14_v0, main_v461]

/-- Each operation writes a reference of that list only. -/
theorem ops_RELU11_writes : (ops_RELU11 : List (HloOp τ sig (Elt F))).Forall fun op =>
    op.writes ⊆ (writes_RELU11.map (Proc.devRef (τ := τ) .tc)).toFinset :=
  ⟨nullary_writes_sub (h := by decide) .., unary_writes_sub (h := by decide) .., binary_writes_sub (h := by decide) ..⟩

end Cert.ReferenceIdeal.Hand

end
-- ==== Proof.Ref.Chunk_G12.lean ====
/- Operations 606 … 613 of the reference's @main (8 of 1191), as a list; each touches TensorCore references only, none allocates, and each writes one reference of the list `writes_G12`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 606 … 613 of @main, in program order. -/
abbrev ops_G12 : List (HloOp τ sig (Elt F)) :=
  [ nullary main_cst_112 (constant S_ .f32 0x00000000#32),
    unary main_cst_112 main_v462 (broadcastInDim S20000x64 ![] bcast_S_S20000x64 : (⟨S_, .f32⟩ : BufTy).Contents (Elt F) → (⟨S20000x64, .f32⟩ : BufTy).Contents (Elt F)),
    nullary main_cst_113 (constant S_ .f32 0x00000000#32),
    unary main_cst_113 main_v463 (broadcastInDim S60000x64 ![] bcast_S_S60000x64 : (⟨S_, .f32⟩ : BufTy).Contents (Elt F) → (⟨S60000x64, .f32⟩ : BufTy).Contents (Elt F)),
    nullary main_cst_114 (constant S_ .f32 0x00000000#32),
    unary main_cst_114 main_v464 (broadcastInDim S20000x64 ![] bcast_S_S20000x64 : (⟨S_, .f32⟩ : BufTy).Contents (Elt F) → (⟨S20000x64, .f32⟩ : BufTy).Contents (Elt F)),
    unary main_arg11 main_v465 ((extractStridedSlice S1x128x64 ![0, 0, 0] · slices_S6x128x64_S1x128x64_0_0_0) : (⟨S6x128x64, .f32⟩ : BufTy).Contents (Elt F) → (⟨S1x128x64, .f32⟩ : BufTy).Contents (Elt F)),
    reshape main_v465 main_v466 rfl shapeCasts_S1x128x64_S128x64 ]

/-- Each touches TensorCore references only. -/
theorem ops_G12_sub : (ops_G12 : List (HloOp τ sig (Elt F))).Forall fun op => op.bufs ⊆ StableHlo.tcRefs τ sig :=
  ⟨nullary_bufs_sub .., unary_bufs_sub .., nullary_bufs_sub .., unary_bufs_sub .., nullary_bufs_sub .., unary_bufs_sub .., unary_bufs_sub .., reshape_bufs_sub ..⟩

/-- None allocates a buffer. -/
theorem ops_G12_fresh : ∀ op ∈ (ops_G12 : List (HloOp τ sig (Elt F))), op.fresh = ∅ :=
  List.forall_iff_forall_mem.1 (show (ops_G12 : List (HloOp τ sig (Elt F))).Forall (fun op => op.fresh = ∅) from ⟨rfl, rfl, rfl, rfl, rfl, rfl, rfl, rfl⟩)

/-- The references the operations write, in order. -/
abbrev writes_G12 : List (Ref sig .tc) :=
  [main_cst_112, main_v462, main_cst_113, main_v463, main_cst_114, main_v464, main_v465, main_v466]

/-- Each operation writes a reference of that list only. -/
theorem ops_G12_writes : (ops_G12 : List (HloOp τ sig (Elt F))).Forall fun op =>
    op.writes ⊆ (writes_G12.map (Proc.devRef (τ := τ) .tc)).toFinset :=
  ⟨nullary_writes_sub (h := by decide) .., unary_writes_sub (h := by decide) .., nullary_writes_sub (h := by decide) .., unary_writes_sub (h := by decide) .., nullary_writes_sub (h := by decide) .., unary_writes_sub (h := by decide) .., unary_writes_sub (h := by decide) .., reshape_writes_sub (h := by decide) ..⟩

end Cert.ReferenceIdeal.Hand

end
-- ==== Proof.Ref.Chunk_G13a.lean ====
/- Operations 614 … 651 of the reference's @main (38 of 1191), as a list; each touches TensorCore references only, none allocates, and each writes one reference of the list `writes_G13a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 614 … 651 of @main, in program order. -/
abbrev ops_G13a : List (HloOp τ sig (Elt F)) :=
  [ unary main_arg12 main_v467 ((extractStridedSlice S1x64 ![0, 0] · slices_S6x64_S1x64_0_0) : (⟨S6x64, .f32⟩ : BufTy).Contents (Elt F) → (⟨S1x64, .f32⟩ : BufTy).Contents (Elt F)),
    reshape main_v467 main_v468 rfl shapeCasts_S1x64_S64,
    unary main_arg17 main_v469 ((extractStridedSlice S1x500000 ![0, 0] · slices_S2x500000_S1x500000_0_0) : (⟨S2x500000, .i32⟩ : BufTy).Contents (Elt F) → (⟨S1x500000, .i32⟩ : BufTy).Contents (Elt F)),
    reshape main_v469 main_v470 rfl shapeCasts_S1x500000_S500000,
    unary main_arg17 main_v471 ((extractStridedSlice S1x500000 ![1, 0] · slices_S2x500000_S1x500000_1_0) : (⟨S2x500000, .i32⟩ : BufTy).Contents (Elt F) → (⟨S1x500000, .i32⟩ : BufTy).Contents (Elt F)),
    reshape main_v471 main_v472 rfl shapeCasts_S1x500000_S500000,
    nullary main_cst_115 (constant S_ .f32 0x3F800000#32),
    unary main_cst_115 main_v473 (broadcastInDim S500000 ![] bcast_S_S500000 : (⟨S_, .f32⟩ : BufTy).Contents (Elt F) → (⟨S500000, .f32⟩ : BufTy).Contents (Elt F)),
    nullary main_cst_116 (constant S_ .f32 0x00000000#32),
    unary main_cst_116 main_v474 (broadcastInDim S20000 ![] bcast_S_S20000 : (⟨S_, .f32⟩ : BufTy).Contents (Elt F) → (⟨S20000, .f32⟩ : BufTy).Contents (Elt F)),
    unary main_v470 main_v475 (broadcastInDim S500000x1 ![0] bcast_S500000_S500000x1_0 : (⟨S500000, .i32⟩ : BufTy).Contents (Elt F) → (⟨S500000x1, .i32⟩ : BufTy).Contents (Elt F)),
    ternary main_v474 main_v475 main_v473 main_v476 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_117 (constant S_ .f32 0x00000000#32),
    unary main_cst_117 main_v477 (broadcastInDim S20000 ![] bcast_S_S20000 : (⟨S_, .f32⟩ : BufTy).Contents (Elt F) → (⟨S20000, .f32⟩ : BufTy).Contents (Elt F)),
    unary main_v472 main_v478 (broadcastInDim S500000x1 ![0] bcast_S500000_S500000x1_0 : (⟨S500000, .i32⟩ : BufTy).Contents (Elt F) → (⟨S500000x1, .i32⟩ : BufTy).Contents (Elt F)),
    ternary main_v477 main_v478 main_v473 main_v479 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_118 (constant S_ .f32 0x00000000#32),
    unary main_cst_118 main_v480 (broadcastInDim S20000 ![] bcast_S_S20000 : (⟨S_, .f32⟩ : BufTy).Contents (Elt F) → (⟨S20000, .f32⟩ : BufTy).Contents (Elt F)),
    binary main_v476 main_v480 main_v481 (cmpf .ogt : (⟨S20000, .f32⟩ : BufTy).Contents (Elt F) → (⟨S20000, .f32⟩ : BufTy).Contents (Elt F) → (⟨S20000, .i1⟩ : BufTy).Contents (Elt F)),
    nullary main_cst_119 (constant S_ .f32 0x3F800000#32),
    unary main_cst_119 main_v482 (broadcastInDim S20000 ![] bcast_S_S20000 : (⟨S_, .f32⟩ : BufTy).Contents (Elt F) → (⟨S20000, .f32⟩ : BufTy).Contents (Elt F)),
    binary main_v476 main_v482 main_v483 (maximumf : (⟨S20000, .f32⟩ : BufTy).Contents (Elt F) → (⟨S20000, .f32⟩ : BufTy).Contents (Elt F) → (⟨S20000, .f32⟩ : BufTy).Contents (Elt F)),
    unary main_v483 main_v484 (Host.rsqrt : (⟨S20000, .f32⟩ : BufTy).Contents (Elt F) → (⟨S20000, .f32⟩ : BufTy).Contents (Elt F)),
    nullary main_cst_120 (constant S_ .f32 0x00000000#32),
    TRef.unary (TRef.of (T := ⟨S_, .f32⟩) main_cst_120) (TRef.of (T := ⟨S_, .f32⟩) main_call15_v0) id,
    TRef.unary (TRef.of (T := ⟨S_, .f32⟩) main_call15_v0) (TRef.of (T := ⟨S20000, .f32⟩) main_call15_v1) (broadcastInDim S20000 ![] bcast_S_S20000),
    TRef.ternary (TRef.of (T := ⟨S20000, .i1⟩) main_v481) (TRef.of (T := ⟨S20000, .f32⟩) main_v484) (TRef.of (T := ⟨S20000, .f32⟩) main_call15_v1) (TRef.of (T := ⟨S20000, .f32⟩) main_v485) select,
    nullary main_cst_121 (constant S_ .f32 0x00000000#32),
    unary main_cst_121 main_v486 (broadcastInDim S20000 ![] bcast_S_S20000 : (⟨S_, .f32⟩ : BufTy).Contents (Elt F) → (⟨S20000, .f32⟩ : BufTy).Contents (Elt F)),
    binary main_v479 main_v486 main_v487 (cmpf .ogt : (⟨S20000, .f32⟩ : BufTy).Contents (Elt F) → (⟨S20000, .f32⟩ : BufTy).Contents (Elt F) → (⟨S20000, .i1⟩ : BufTy).Contents (Elt F)),
    nullary main_cst_122 (constant S_ .f32 0x3F800000#32),
    unary main_cst_122 main_v488 (broadcastInDim S20000 ![] bcast_S_S20000 : (⟨S_, .f32⟩ : BufTy).Contents (Elt F) → (⟨S20000, .f32⟩ : BufTy).Contents (Elt F)),
    binary main_v479 main_v488 main_v489 (maximumf : (⟨S20000, .f32⟩ : BufTy).Contents (Elt F) → (⟨S20000, .f32⟩ : BufTy).Contents (Elt F) → (⟨S20000, .f32⟩ : BufTy).Contents (Elt F)),
    unary main_v489 main_v490 (Host.rsqrt : (⟨S20000, .f32⟩ : BufTy).Contents (Elt F) → (⟨S20000, .f32⟩ : BufTy).Contents (Elt F)),
    nullary main_cst_123 (constant S_ .f32 0x00000000#32),
    TRef.unary (TRef.of (T := ⟨S_, .f32⟩) main_cst_123) (TRef.of (T := ⟨S_, .f32⟩) main_call16_v0) id,
    TRef.unary (TRef.of (T := ⟨S_, .f32⟩) main_call16_v0) (TRef.of (T := ⟨S20000, .f32⟩) main_call16_v1) (broadcastInDim S20000 ![] bcast_S_S20000),
    TRef.ternary (TRef.of (T := ⟨S20000, .i1⟩) main_v487) (TRef.of (T := ⟨S20000, .f32⟩) main_v490) (TRef.of (T := ⟨S20000, .f32⟩) main_call16_v1) (TRef.of (T := ⟨S20000, .f32⟩) main_v491) select ]

/-- Each touches TensorCore references only. -/
theorem ops_G13a_sub : (ops_G13a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G13a_fresh : ∀ op ∈ (ops_G13a : List (HloOp τ sig (Elt F))), op.fresh = ∅ :=
  List.forall_iff_forall_mem.1 (show (ops_G13a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G13a : List (Ref sig .tc) :=
  [main_v467, main_v468, main_v469, main_v470, main_v471, main_v472, main_cst_115, main_v473, main_cst_116, main_v474, main_v475, main_v476, main_cst_117, main_v477, main_v478, main_v479, main_cst_118, main_v480, main_v481, main_cst_119, main_v482, main_v483, main_v484, main_cst_120, main_call15_v0, main_call15_v1, main_v485, main_cst_121, main_v486, main_v487, main_cst_122, main_v488, main_v489, main_v490, main_cst_123, main_call16_v0, main_call16_v1, main_v491]

/-- Each operation writes a reference of that list only. -/
theorem ops_G13a_writes : (ops_G13a : List (HloOp τ sig (Elt F))).Forall fun op =>
    op.writes ⊆ (writes_G13a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D12.lean ====
/- Operations 652 … 652 of the reference's @main (1 of 1191), as a list; each touches TensorCore references only, none allocates, and each writes one reference of the list `writes_D12`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 652 … 652 of @main, in program order. -/
abbrev ops_D12 : List (HloOp τ sig (Elt F)) :=
  [ binary main_v459 main_v466 main_v492 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)) ]

/-- Each touches TensorCore references only. -/
theorem ops_D12_sub : (ops_D12 : List (HloOp τ sig (Elt F))).Forall fun op => op.bufs ⊆ StableHlo.tcRefs τ sig :=
  binary_bufs_sub ..

/-- None allocates a buffer. -/
theorem ops_D12_fresh : ∀ op ∈ (ops_D12 : List (HloOp τ sig (Elt F))), op.fresh = ∅ :=
  List.forall_iff_forall_mem.1 (show (ops_D12 : List (HloOp τ sig (Elt F))).Forall (fun op => op.fresh = ∅) from rfl)

/-- The references the operations write, in order. -/
abbrev writes_D12 : List (Ref sig .tc) :=
  [main_v492]

/-- Each operation writes a reference of that list only. -/
theorem ops_D12_writes : (ops_D12 : List (HloOp τ sig (Elt F))).Forall fun op =>
    op.writes ⊆ (writes_D12.map (Proc.devRef (τ := τ) .tc)).toFinset :=
  binary_writes_sub (h := by decide) ..

end Cert.ReferenceIdeal.Hand

end
-- ==== Proof.Ref.Chunk_G13b.lean ====
/- Operations 653 … 693 of the reference's @main (41 of 1191), as a list; each touches TensorCore references only, none allocates, and each writes one reference of the list `writes_G13b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 653 … 693 of @main, in program order. -/
abbrev ops_G13b : List (HloOp τ sig (Elt F)) :=
  [ nullary main_c_124 (constantI S_ 32 0#32),
    unary main_c_124 main_v493 (broadcastInDim S500000 ![] bcast_S_S500000 : (⟨S_, .i32⟩ : BufTy).Contents (Elt F) → (⟨S500000, .i32⟩ : BufTy).Contents (Elt F)),
    binary main_v470 main_v493 main_v494 (cmpi .slt : (⟨S500000, .i32⟩ : BufTy).Contents (Elt F) → (⟨S500000, .i32⟩ : BufTy).Contents (Elt F) → (⟨S500000, .i1⟩ : BufTy).Contents (Elt F)),
    nullary main_c_125 (constantI S_ 32 20000#32),
    unary main_c_125 main_v495 (broadcastInDim S500000 ![] bcast_S_S500000 : (⟨S_, .i32⟩ : BufTy).Contents (Elt F) → (⟨S500000, .i32⟩ : BufTy).Contents (Elt F)),
    binary main_v470 main_v495 main_v496 (addi : (⟨S500000, .i32⟩ : BufTy).Contents (Elt F) → (⟨S500000, .i32⟩ : BufTy).Contents (Elt F) → (⟨S500000, .i32⟩ : BufTy).Contents (Elt F)),
    ternary main_v494 main_v496 main_v470 main_v497 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v497 main_v498 (broadcastInDim S500000x1 ![0] bcast_S500000_S500000x1_0 : (⟨S500000, .i32⟩ : BufTy).Contents (Elt F) → (⟨S500000x1, .i32⟩ : BufTy).Contents (Elt F)),
    binary main_v485 main_v498 main_v499 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_126 (constantI S_ 32 0#32),
    unary main_c_126 main_v500 (broadcastInDim S500000 ![] bcast_S_S500000 : (⟨S_, .i32⟩ : BufTy).Contents (Elt F) → (⟨S500000, .i32⟩ : BufTy).Contents (Elt F)),
    binary main_v472 main_v500 main_v501 (cmpi .slt : (⟨S500000, .i32⟩ : BufTy).Contents (Elt F) → (⟨S500000, .i32⟩ : BufTy).Contents (Elt F) → (⟨S500000, .i1⟩ : BufTy).Contents (Elt F)),
    nullary main_c_127 (constantI S_ 32 20000#32),
    unary main_c_127 main_v502 (broadcastInDim S500000 ![] bcast_S_S500000 : (⟨S_, .i32⟩ : BufTy).Contents (Elt F) → (⟨S500000, .i32⟩ : BufTy).Contents (Elt F)),
    binary main_v472 main_v502 main_v503 (addi : (⟨S500000, .i32⟩ : BufTy).Contents (Elt F) → (⟨S500000, .i32⟩ : BufTy).Contents (Elt F) → (⟨S500000, .i32⟩ : BufTy).Contents (Elt F)),
    ternary main_v501 main_v503 main_v472 main_v504 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v504 main_v505 (broadcastInDim S500000x1 ![0] bcast_S500000_S500000x1_0 : (⟨S500000, .i32⟩ : BufTy).Contents (Elt F) → (⟨S500000x1, .i32⟩ : BufTy).Contents (Elt F)),
    binary main_v491 main_v505 main_v506 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v499 main_v506 main_v507 (mulf : (⟨S500000, .f32⟩ : BufTy).Contents (Elt F) → (⟨S500000, .f32⟩ : BufTy).Contents (Elt F) → (⟨S500000, .f32⟩ : BufTy).Contents (Elt F)),
    nullary main_c_128 (constantI S_ 32 0#32),
    unary main_c_128 main_v508 (broadcastInDim S500000 ![] bcast_S_S500000 : (⟨S_, .i32⟩ : BufTy).Contents (Elt F) → (⟨S500000, .i32⟩ : BufTy).Contents (Elt F)),
    binary main_v470 main_v508 main_v509 (cmpi .slt : (⟨S500000, .i32⟩ : BufTy).Contents (Elt F) → (⟨S500000, .i32⟩ : BufTy).Contents (Elt F) → (⟨S500000, .i1⟩ : BufTy).Contents (Elt F)),
    nullary main_c_129 (constantI S_ 32 20000#32),
    unary main_c_129 main_v510 (broadcastInDim S500000 ![] bcast_S_S500000 : (⟨S_, .i32⟩ : BufTy).Contents (Elt F) → (⟨S500000, .i32⟩ : BufTy).Contents (Elt F)),
    binary main_v470 main_v510 main_v511 (addi : (⟨S500000, .i32⟩ : BufTy).Contents (Elt F) → (⟨S500000, .i32⟩ : BufTy).Contents (Elt F) → (⟨S500000, .i32⟩ : BufTy).Contents (Elt F)),
    ternary main_v509 main_v511 main_v470 main_v512 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v512 main_v513 (broadcastInDim S500000x1 ![0] bcast_S500000_S500000x1_0 : (⟨S500000, .i32⟩ : BufTy).Contents (Elt F) → (⟨S500000x1, .i32⟩ : BufTy).Contents (Elt F)),
    binary main_v492 main_v513 main_v514 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    unary main_v507 main_v515 (broadcastInDim S500000x1 ![0] bcast_S500000_S500000x1_0 : (⟨S500000, .f32⟩ : BufTy).Contents (Elt F) → (⟨S500000x1, .f32⟩ : BufTy).Contents (Elt F)),
    unary main_v515 main_v516 (broadcastInDim S500000x64 ![0, 1] bcast_S500000x1_S500000x64_0_1 : (⟨S500000x1, .f32⟩ : BufTy).Contents (Elt F) → (⟨S500000x64, .f32⟩ : BufTy).Contents (Elt F)),
    binary main_v514 main_v516 main_v517 (mulf : (⟨S500000x64, .f32⟩ : BufTy).Contents (Elt F) → (⟨S500000x64, .f32⟩ : BufTy).Contents (Elt F) → (⟨S500000x64, .f32⟩ : BufTy).Contents (Elt F)),
    nullary main_cst_130 (constant S_ .f32 0x00000000#32),
    unary main_cst_130 main_v518 (broadcastInDim S20000x64 ![] bcast_S_S20000x64 : (⟨S_, .f32⟩ : BufTy).Contents (Elt F) → (⟨S20000x64, .f32⟩ : BufTy).Contents (Elt F)),
    unary main_v472 main_v519 (broadcastInDim S500000x1 ![0] bcast_S500000_S500000x1_0 : (⟨S500000, .i32⟩ : BufTy).Contents (Elt F) → (⟨S500000x1, .i32⟩ : BufTy).Contents (Elt F)),
    ternary main_v518 main_v519 main_v517 main_v520 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    unary main_v468 main_v521 (broadcastInDim S1x64 ![1] bcast_S64_S1x64_1 : (⟨S64, .f32⟩ : BufTy).Contents (Elt F) → (⟨S1x64, .f32⟩ : BufTy).Contents (Elt F)),
    unary main_v521 main_v522 (broadcastInDim S20000x64 ![0, 1] bcast_S1x64_S20000x64_0_1 : (⟨S1x64, .f32⟩ : BufTy).Contents (Elt F) → (⟨S20000x64, .f32⟩ : BufTy).Contents (Elt F)),
    binary main_v520 main_v522 main_v523 (addf : (⟨S20000x64, .f32⟩ : BufTy).Contents (Elt F) → (⟨S20000x64, .f32⟩ : BufTy).Contents (Elt F) → (⟨S20000x64, .f32⟩ : BufTy).Contents (Elt F)),
    binary main_v464 main_v523 main_v524 (addf : (⟨S20000x64, .f32⟩ : BufTy).Contents (Elt F) → (⟨S20000x64, .f32⟩ : BufTy).Contents (Elt F) → (⟨S20000x64, .f32⟩ : BufTy).Contents (Elt F)),
    unary main_arg11 main_v525 ((extractStridedSlice S1x128x64 ![1, 0, 0] · slices_S6x128x64_S1x128x64_1_0_0) : (⟨S6x128x64, .f32⟩ : BufTy).Contents (Elt F) → (⟨S1x128x64, .f32⟩ : BufTy).Contents (Elt F)),
    reshape main_v525 main_v526 rfl shapeCasts_S1x128x64_S128x64 ]

/-- Each touches TensorCore references only. -/
theorem ops_G13b_sub : (ops_G13b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G13b_fresh : ∀ op ∈ (ops_G13b : List (HloOp τ sig (Elt F))), op.fresh = ∅ :=
  List.forall_iff_forall_mem.1 (show (ops_G13b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G13b : List (Ref sig .tc) :=
  [main_c_124, main_v493, main_v494, main_c_125, main_v495, main_v496, main_v497, main_v498, main_v499, main_c_126, main_v500, main_v501, main_c_127, main_v502, main_v503, main_v504, main_v505, main_v506, main_v507, main_c_128, main_v508, main_v509, main_c_129, main_v510, main_v511, main_v512, main_v513, main_v514, main_v515, main_v516, main_v517, main_cst_130, main_v518, main_v519, main_v520, main_v521, main_v522, main_v523, main_v524, main_v525, main_v526]

/-- Each operation writes a reference of that list only. -/
theorem ops_G13b_writes : (ops_G13b : List (HloOp τ sig (Elt F))).Forall fun op =>
    op.writes ⊆ (writes_G13b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G14a.lean ====
/- Operations 694 … 731 of the reference's @main (38 of 1191), as a list; each touches TensorCore references only, none allocates, and each writes one reference of the list `writes_G14a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 694 … 731 of @main, in program order. -/
abbrev ops_G14a : List (HloOp τ sig (Elt F)) :=
  [ unary main_arg12 main_v527 ((extractStridedSlice S1x64 ![1, 0] · slices_S6x64_S1x64_1_0) : (⟨S6x64, .f32⟩ : BufTy).Contents (Elt F) → (⟨S1x64, .f32⟩ : BufTy).Contents (Elt F)),
    reshape main_v527 main_v528 rfl shapeCasts_S1x64_S64,
    unary main_arg18 main_v529 ((extractStridedSlice S1x500000 ![0, 0] · slices_S2x500000_S1x500000_0_0) : (⟨S2x500000, .i32⟩ : BufTy).Contents (Elt F) → (⟨S1x500000, .i32⟩ : BufTy).Contents (Elt F)),
    reshape main_v529 main_v530 rfl shapeCasts_S1x500000_S500000,
    unary main_arg18 main_v531 ((extractStridedSlice S1x500000 ![1, 0] · slices_S2x500000_S1x500000_1_0) : (⟨S2x500000, .i32⟩ : BufTy).Contents (Elt F) → (⟨S1x500000, .i32⟩ : BufTy).Contents (Elt F)),
    reshape main_v531 main_v532 rfl shapeCasts_S1x500000_S500000,
    nullary main_cst_131 (constant S_ .f32 0x3F800000#32),
    unary main_cst_131 main_v533 (broadcastInDim S500000 ![] bcast_S_S500000 : (⟨S_, .f32⟩ : BufTy).Contents (Elt F) → (⟨S500000, .f32⟩ : BufTy).Contents (Elt F)),
    nullary main_cst_132 (constant S_ .f32 0x00000000#32),
    unary main_cst_132 main_v534 (broadcastInDim S20000 ![] bcast_S_S20000 : (⟨S_, .f32⟩ : BufTy).Contents (Elt F) → (⟨S20000, .f32⟩ : BufTy).Contents (Elt F)),
    unary main_v530 main_v535 (broadcastInDim S500000x1 ![0] bcast_S500000_S500000x1_0 : (⟨S500000, .i32⟩ : BufTy).Contents (Elt F) → (⟨S500000x1, .i32⟩ : BufTy).Contents (Elt F)),
    ternary main_v534 main_v535 main_v533 main_v536 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_133 (constant S_ .f32 0x00000000#32),
    unary main_cst_133 main_v537 (broadcastInDim S60000 ![] bcast_S_S60000 : (⟨S_, .f32⟩ : BufTy).Contents (Elt F) → (⟨S60000, .f32⟩ : BufTy).Contents (Elt F)),
    unary main_v532 main_v538 (broadcastInDim S500000x1 ![0] bcast_S500000_S500000x1_0 : (⟨S500000, .i32⟩ : BufTy).Contents (Elt F) → (⟨S500000x1, .i32⟩ : BufTy).Contents (Elt F)),
    ternary main_v537 main_v538 main_v533 main_v539 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_134 (constant S_ .f32 0x00000000#32),
    unary main_cst_134 main_v540 (broadcastInDim S20000 ![] bcast_S_S20000 : (⟨S_, .f32⟩ : BufTy).Contents (Elt F) → (⟨S20000, .f32⟩ : BufTy).Contents (Elt F)),
    binary main_v536 main_v540 main_v541 (cmpf .ogt : (⟨S20000, .f32⟩ : BufTy).Contents (Elt F) → (⟨S20000, .f32⟩ : BufTy).Contents (Elt F) → (⟨S20000, .i1⟩ : BufTy).Contents (Elt F)),
    nullary main_cst_135 (constant S_ .f32 0x3F800000#32),
    unary main_cst_135 main_v542 (broadcastInDim S20000 ![] bcast_S_S20000 : (⟨S_, .f32⟩ : BufTy).Contents (Elt F) → (⟨S20000, .f32⟩ : BufTy).Contents (Elt F)),
    binary main_v536 main_v542 main_v543 (maximumf : (⟨S20000, .f32⟩ : BufTy).Contents (Elt F) → (⟨S20000, .f32⟩ : BufTy).Contents (Elt F) → (⟨S20000, .f32⟩ : BufTy).Contents (Elt F)),
    unary main_v543 main_v544 (Host.rsqrt : (⟨S20000, .f32⟩ : BufTy).Contents (Elt F) → (⟨S20000, .f32⟩ : BufTy).Contents (Elt F)),
    nullary main_cst_136 (constant S_ .f32 0x00000000#32),
    TRef.unary (TRef.of (T := ⟨S_, .f32⟩) main_cst_136) (TRef.of (T := ⟨S_, .f32⟩) main_call17_v0) id,
    TRef.unary (TRef.of (T := ⟨S_, .f32⟩) main_call17_v0) (TRef.of (T := ⟨S20000, .f32⟩) main_call17_v1) (broadcastInDim S20000 ![] bcast_S_S20000),
    TRef.ternary (TRef.of (T := ⟨S20000, .i1⟩) main_v541) (TRef.of (T := ⟨S20000, .f32⟩) main_v544) (TRef.of (T := ⟨S20000, .f32⟩) main_call17_v1) (TRef.of (T := ⟨S20000, .f32⟩) main_v545) select,
    nullary main_cst_137 (constant S_ .f32 0x00000000#32),
    unary main_cst_137 main_v546 (broadcastInDim S60000 ![] bcast_S_S60000 : (⟨S_, .f32⟩ : BufTy).Contents (Elt F) → (⟨S60000, .f32⟩ : BufTy).Contents (Elt F)),
    binary main_v539 main_v546 main_v547 (cmpf .ogt : (⟨S60000, .f32⟩ : BufTy).Contents (Elt F) → (⟨S60000, .f32⟩ : BufTy).Contents (Elt F) → (⟨S60000, .i1⟩ : BufTy).Contents (Elt F)),
    nullary main_cst_138 (constant S_ .f32 0x3F800000#32),
    unary main_cst_138 main_v548 (broadcastInDim S60000 ![] bcast_S_S60000 : (⟨S_, .f32⟩ : BufTy).Contents (Elt F) → (⟨S60000, .f32⟩ : BufTy).Contents (Elt F)),
    binary main_v539 main_v548 main_v549 (maximumf : (⟨S60000, .f32⟩ : BufTy).Contents (Elt F) → (⟨S60000, .f32⟩ : BufTy).Contents (Elt F) → (⟨S60000, .f32⟩ : BufTy).Contents (Elt F)),
    unary main_v549 main_v550 (Host.rsqrt : (⟨S60000, .f32⟩ : BufTy).Contents (Elt F) → (⟨S60000, .f32⟩ : BufTy).Contents (Elt F)),
    nullary main_cst_139 (constant S_ .f32 0x00000000#32),
    TRef.unary (TRef.of (T := ⟨S_, .f32⟩) main_cst_139) (TRef.of (T := ⟨S_, .f32⟩) main_call18_v0) id,
    TRef.unary (TRef.of (T := ⟨S_, .f32⟩) main_call18_v0) (TRef.of (T := ⟨S60000, .f32⟩) main_call18_v1) (broadcastInDim S60000 ![] bcast_S_S60000),
    TRef.ternary (TRef.of (T := ⟨S60000, .i1⟩) main_v547) (TRef.of (T := ⟨S60000, .f32⟩) main_v550) (TRef.of (T := ⟨S60000, .f32⟩) main_call18_v1) (TRef.of (T := ⟨S60000, .f32⟩) main_v551) select ]

/-- Each touches TensorCore references only. -/
theorem ops_G14a_sub : (ops_G14a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G14a_fresh : ∀ op ∈ (ops_G14a : List (HloOp τ sig (Elt F))), op.fresh = ∅ :=
  List.forall_iff_forall_mem.1 (show (ops_G14a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G14a : List (Ref sig .tc) :=
  [main_v527, main_v528, main_v529, main_v530, main_v531, main_v532, main_cst_131, main_v533, main_cst_132, main_v534, main_v535, main_v536, main_cst_133, main_v537, main_v538, main_v539, main_cst_134, main_v540, main_v541, main_cst_135, main_v542, main_v543, main_v544, main_cst_136, main_call17_v0, main_call17_v1, main_v545, main_cst_137, main_v546, main_v547, main_cst_138, main_v548, main_v549, main_v550, main_cst_139, main_call18_v0, main_call18_v1, main_v551]

/-- Each operation writes a reference of that list only. -/
theorem ops_G14a_writes : (ops_G14a : List (HloOp τ sig (Elt F))).Forall fun op =>
    op.writes ⊆ (writes_G14a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D13.lean ====
/- Operations 732 … 732 of the reference's @main (1 of 1191), as a list; each touches TensorCore references only, none allocates, and each writes one reference of the list `writes_D13`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 732 … 732 of @main, in program order. -/
abbrev ops_D13 : List (HloOp τ sig (Elt F)) :=
  [ binary main_v459 main_v526 main_v552 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)) ]

/-- Each touches TensorCore references only. -/
theorem ops_D13_sub : (ops_D13 : List (HloOp τ sig (Elt F))).Forall fun op => op.bufs ⊆ StableHlo.tcRefs τ sig :=
  binary_bufs_sub ..

/-- None allocates a buffer. -/
theorem ops_D13_fresh : ∀ op ∈ (ops_D13 : List (HloOp τ sig (Elt F))), op.fresh = ∅ :=
  List.forall_iff_forall_mem.1 (show (ops_D13 : List (HloOp τ sig (Elt F))).Forall (fun op => op.fresh = ∅) from rfl)

/-- The references the operations write, in order. -/
abbrev writes_D13 : List (Ref sig .tc) :=
  [main_v552]

/-- Each operation writes a reference of that list only. -/
theorem ops_D13_writes : (ops_D13 : List (HloOp τ sig (Elt F))).Forall fun op =>
    op.writes ⊆ (writes_D13.map (Proc.devRef (τ := τ) .tc)).toFinset :=
  binary_writes_sub (h := by decide) ..

end Cert.ReferenceIdeal.Hand

end
-- ==== Proof.Ref.Chunk_G14b.lean ====
/- Operations 733 … 773 of the reference's @main (41 of 1191), as a list; each touches TensorCore references only, none allocates, and each writes one reference of the list `writes_G14b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 733 … 773 of @main, in program order. -/
abbrev ops_G14b : List (HloOp τ sig (Elt F)) :=
  [ nullary main_c_140 (constantI S_ 32 0#32),
    unary main_c_140 main_v553 (broadcastInDim S500000 ![] bcast_S_S500000 : (⟨S_, .i32⟩ : BufTy).Contents (Elt F) → (⟨S500000, .i32⟩ : BufTy).Contents (Elt F)),
    binary main_v530 main_v553 main_v554 (cmpi .slt : (⟨S500000, .i32⟩ : BufTy).Contents (Elt F) → (⟨S500000, .i32⟩ : BufTy).Contents (Elt F) → (⟨S500000, .i1⟩ : BufTy).Contents (Elt F)),
    nullary main_c_141 (constantI S_ 32 20000#32),
    unary main_c_141 main_v555 (broadcastInDim S500000 ![] bcast_S_S500000 : (⟨S_, .i32⟩ : BufTy).Contents (Elt F) → (⟨S500000, .i32⟩ : BufTy).Contents (Elt F)),
    binary main_v530 main_v555 main_v556 (addi : (⟨S500000, .i32⟩ : BufTy).Contents (Elt F) → (⟨S500000, .i32⟩ : BufTy).Contents (Elt F) → (⟨S500000, .i32⟩ : BufTy).Contents (Elt F)),
    ternary main_v554 main_v556 main_v530 main_v557 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v557 main_v558 (broadcastInDim S500000x1 ![0] bcast_S500000_S500000x1_0 : (⟨S500000, .i32⟩ : BufTy).Contents (Elt F) → (⟨S500000x1, .i32⟩ : BufTy).Contents (Elt F)),
    binary main_v545 main_v558 main_v559 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_142 (constantI S_ 32 0#32),
    unary main_c_142 main_v560 (broadcastInDim S500000 ![] bcast_S_S500000 : (⟨S_, .i32⟩ : BufTy).Contents (Elt F) → (⟨S500000, .i32⟩ : BufTy).Contents (Elt F)),
    binary main_v532 main_v560 main_v561 (cmpi .slt : (⟨S500000, .i32⟩ : BufTy).Contents (Elt F) → (⟨S500000, .i32⟩ : BufTy).Contents (Elt F) → (⟨S500000, .i1⟩ : BufTy).Contents (Elt F)),
    nullary main_c_143 (constantI S_ 32 60000#32),
    unary main_c_143 main_v562 (broadcastInDim S500000 ![] bcast_S_S500000 : (⟨S_, .i32⟩ : BufTy).Contents (Elt F) → (⟨S500000, .i32⟩ : BufTy).Contents (Elt F)),
    binary main_v532 main_v562 main_v563 (addi : (⟨S500000, .i32⟩ : BufTy).Contents (Elt F) → (⟨S500000, .i32⟩ : BufTy).Contents (Elt F) → (⟨S500000, .i32⟩ : BufTy).Contents (Elt F)),
    ternary main_v561 main_v563 main_v532 main_v564 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v564 main_v565 (broadcastInDim S500000x1 ![0] bcast_S500000_S500000x1_0 : (⟨S500000, .i32⟩ : BufTy).Contents (Elt F) → (⟨S500000x1, .i32⟩ : BufTy).Contents (Elt F)),
    binary main_v551 main_v565 main_v566 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    binary main_v559 main_v566 main_v567 (mulf : (⟨S500000, .f32⟩ : BufTy).Contents (Elt F) → (⟨S500000, .f32⟩ : BufTy).Contents (Elt F) → (⟨S500000, .f32⟩ : BufTy).Contents (Elt F)),
    nullary main_c_144 (constantI S_ 32 0#32),
    unary main_c_144 main_v568 (broadcastInDim S500000 ![] bcast_S_S500000 : (⟨S_, .i32⟩ : BufTy).Contents (Elt F) → (⟨S500000, .i32⟩ : BufTy).Contents (Elt F)),
    binary main_v530 main_v568 main_v569 (cmpi .slt : (⟨S500000, .i32⟩ : BufTy).Contents (Elt F) → (⟨S500000, .i32⟩ : BufTy).Contents (Elt F) → (⟨S500000, .i1⟩ : BufTy).Contents (Elt F)),
    nullary main_c_145 (constantI S_ 32 20000#32),
    unary main_c_145 main_v570 (broadcastInDim S500000 ![] bcast_S_S500000 : (⟨S_, .i32⟩ : BufTy).Contents (Elt F) → (⟨S500000, .i32⟩ : BufTy).Contents (Elt F)),
    binary main_v530 main_v570 main_v571 (addi : (⟨S500000, .i32⟩ : BufTy).Contents (Elt F) → (⟨S500000, .i32⟩ : BufTy).Contents (Elt F) → (⟨S500000, .i32⟩ : BufTy).Contents (Elt F)),
    ternary main_v569 main_v571 main_v530 main_v572 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v572 main_v573 (broadcastInDim S500000x1 ![0] bcast_S500000_S500000x1_0 : (⟨S500000, .i32⟩ : BufTy).Contents (Elt F) → (⟨S500000x1, .i32⟩ : BufTy).Contents (Elt F)),
    binary main_v552 main_v573 main_v574 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    unary main_v567 main_v575 (broadcastInDim S500000x1 ![0] bcast_S500000_S500000x1_0 : (⟨S500000, .f32⟩ : BufTy).Contents (Elt F) → (⟨S500000x1, .f32⟩ : BufTy).Contents (Elt F)),
    unary main_v575 main_v576 (broadcastInDim S500000x64 ![0, 1] bcast_S500000x1_S500000x64_0_1 : (⟨S500000x1, .f32⟩ : BufTy).Contents (Elt F) → (⟨S500000x64, .f32⟩ : BufTy).Contents (Elt F)),
    binary main_v574 main_v576 main_v577 (mulf : (⟨S500000x64, .f32⟩ : BufTy).Contents (Elt F) → (⟨S500000x64, .f32⟩ : BufTy).Contents (Elt F) → (⟨S500000x64, .f32⟩ : BufTy).Contents (Elt F)),
    nullary main_cst_146 (constant S_ .f32 0x00000000#32),
    unary main_cst_146 main_v578 (broadcastInDim S60000x64 ![] bcast_S_S60000x64 : (⟨S_, .f32⟩ : BufTy).Contents (Elt F) → (⟨S60000x64, .f32⟩ : BufTy).Contents (Elt F)),
    unary main_v532 main_v579 (broadcastInDim S500000x1 ![0] bcast_S500000_S500000x1_0 : (⟨S500000, .i32⟩ : BufTy).Contents (Elt F) → (⟨S500000x1, .i32⟩ : BufTy).Contents (Elt F)),
    ternary main_v578 main_v579 main_v577 main_v580 ((fun x i u => Host.scatterAdd scatter_S60000x64_S500000x1_S500000x64_1_0_0_1 x i u) : (⟨S60000x64, .f32⟩ : BufTy).Contents (Elt F) → (⟨S500000x1, .i32⟩ : BufTy).Contents (Elt F) → (⟨S500000x64, .f32⟩ : BufTy).Contents (Elt F) → (⟨S60000x64, .f32⟩ : BufTy).Contents (Elt F)),
    unary main_v528 main_v581 (broadcastInDim S1x64 ![1] bcast_S64_S1x64_1 : (⟨S64, .f32⟩ : BufTy).Contents (Elt F) → (⟨S1x64, .f32⟩ : BufTy).Contents (Elt F)),
    unary main_v581 main_v582 (broadcastInDim S60000x64 ![0, 1] bcast_S1x64_S60000x64_0_1 : (⟨S1x64, .f32⟩ : BufTy).Contents (Elt F) → (⟨S60000x64, .f32⟩ : BufTy).Contents (Elt F)),
    binary main_v580 main_v582 main_v583 (addf : (⟨S60000x64, .f32⟩ : BufTy).Contents (Elt F) → (⟨S60000x64, .f32⟩ : BufTy).Contents (Elt F) → (⟨S60000x64, .f32⟩ : BufTy).Contents (Elt F)),
    binary main_v463 main_v583 main_v584 (addf : (⟨S60000x64, .f32⟩ : BufTy).Contents (Elt F) → (⟨S60000x64, .f32⟩ : BufTy).Contents (Elt F) → (⟨S60000x64, .f32⟩ : BufTy).Contents (Elt F)),
    unary main_arg11 main_v585 ((extractStridedSlice S1x128x64 ![2, 0, 0] · slices_S6x128x64_S1x128x64_2_0_0) : (⟨S6x128x64, .f32⟩ : BufTy).Contents (Elt F) → (⟨S1x128x64, .f32⟩ : BufTy).Contents (Elt F)),
    reshape main_v585 main_v586 rfl shapeCasts_S1x128x64_S128x64 ]

/-- Each touches TensorCore references only. -/
theorem ops_G14b_sub : (ops_G14b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G14b_fresh : ∀ op ∈ (ops_G14b : List (HloOp τ sig (Elt F))), op.fresh = ∅ :=
  List.forall_iff_forall_mem.1 (show (ops_G14b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G14b : List (Ref sig .tc) :=
  [main_c_140, main_v553, main_v554, main_c_141, main_v555, main_v556, main_v557, main_v558, main_v559, main_c_142, main_v560, main_v561, main_c_143, main_v562, main_v563, main_v564, main_v565, main_v566, main_v567, main_c_144, main_v568, main_v569, main_c_145, main_v570, main_v571, main_v572, main_v573, main_v574, main_v575, main_v576, main_v577, main_cst_146, main_v578, main_v579, main_v580, main_v581, main_v582, main_v583, main_v584, main_v585, main_v586]

/-- Each operation writes a reference of that list only. -/
theorem ops_G14b_writes : (ops_G14b : List (HloOp τ sig (Elt F))).Forall fun op =>
    op.writes ⊆ (writes_G14b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G15a.lean ====
/- Operations 774 … 811 of the reference's @main (38 of 1191), as a list; each touches TensorCore references only, none allocates, and each writes one reference of the list `writes_G15a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 774 … 811 of @main, in program order. -/
abbrev ops_G15a : List (HloOp τ sig (Elt F)) :=
  [ unary main_arg12 main_v587 ((extractStridedSlice S1x64 ![2, 0] · slices_S6x64_S1x64_2_0) : (⟨S6x64, .f32⟩ : BufTy).Contents (Elt F) → (⟨S1x64, .f32⟩ : BufTy).Contents (Elt F)),
    reshape main_v587 main_v588 rfl shapeCasts_S1x64_S64,
    unary main_arg19 main_v589 ((extractStridedSlice S1x500000 ![0, 0] · slices_S2x500000_S1x500000_0_0) : (⟨S2x500000, .i32⟩ : BufTy).Contents (Elt F) → (⟨S1x500000, .i32⟩ : BufTy).Contents (Elt F)),
    reshape main_v589 main_v590 rfl shapeCasts_S1x500000_S500000,
    unary main_arg19 main_v591 ((extractStridedSlice S1x500000 ![1, 0] · slices_S2x500000_S1x500000_1_0) : (⟨S2x500000, .i32⟩ : BufTy).Contents (Elt F) → (⟨S1x500000, .i32⟩ : BufTy).Contents (Elt F)),
    reshape main_v591 main_v592 rfl shapeCasts_S1x500000_S500000,
    nullary main_cst_147 (constant S_ .f32 0x3F800000#32),
    unary main_cst_147 main_v593 (broadcastInDim S500000 ![] bcast_S_S500000 : (⟨S_, .f32⟩ : BufTy).Contents (Elt F) → (⟨S500000, .f32⟩ : BufTy).Contents (Elt F)),
    nullary main_cst_148 (constant S_ .f32 0x00000000#32),
    unary main_cst_148 main_v594 (broadcastInDim S60000 ![] bcast_S_S60000 : (⟨S_, .f32⟩ : BufTy).Contents (Elt F) → (⟨S60000, .f32⟩ : BufTy).Contents (Elt F)),
    unary main_v590 main_v595 (broadcastInDim S500000x1 ![0] bcast_S500000_S500000x1_0 : (⟨S500000, .i32⟩ : BufTy).Contents (Elt F) → (⟨S500000x1, .i32⟩ : BufTy).Contents (Elt F)),
    ternary main_v594 main_v595 main_v593 main_v596 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_149 (constant S_ .f32 0x00000000#32),
    unary main_cst_149 main_v597 (broadcastInDim S20000 ![] bcast_S_S20000 : (⟨S_, .f32⟩ : BufTy).Contents (Elt F) → (⟨S20000, .f32⟩ : BufTy).Contents (Elt F)),
    unary main_v592 main_v598 (broadcastInDim S500000x1 ![0] bcast_S500000_S500000x1_0 : (⟨S500000, .i32⟩ : BufTy).Contents (Elt F) → (⟨S500000x1, .i32⟩ : BufTy).Contents (Elt F)),
    ternary main_v597 main_v598 main_v593 main_v599 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_150 (constant S_ .f32 0x00000000#32),
    unary main_cst_150 main_v600 (broadcastInDim S60000 ![] bcast_S_S60000 : (⟨S_, .f32⟩ : BufTy).Contents (Elt F) → (⟨S60000, .f32⟩ : BufTy).Contents (Elt F)),
    binary main_v596 main_v600 main_v601 (cmpf .ogt : (⟨S60000, .f32⟩ : BufTy).Contents (Elt F) → (⟨S60000, .f32⟩ : BufTy).Contents (Elt F) → (⟨S60000, .i1⟩ : BufTy).Contents (Elt F)),
    nullary main_cst_151 (constant S_ .f32 0x3F800000#32),
    unary main_cst_151 main_v602 (broadcastInDim S60000 ![] bcast_S_S60000 : (⟨S_, .f32⟩ : BufTy).Contents (Elt F) → (⟨S60000, .f32⟩ : BufTy).Contents (Elt F)),
    binary main_v596 main_v602 main_v603 (maximumf : (⟨S60000, .f32⟩ : BufTy).Contents (Elt F) → (⟨S60000, .f32⟩ : BufTy).Contents (Elt F) → (⟨S60000, .f32⟩ : BufTy).Contents (Elt F)),
    unary main_v603 main_v604 (Host.rsqrt : (⟨S60000, .f32⟩ : BufTy).Contents (Elt F) → (⟨S60000, .f32⟩ : BufTy).Contents (Elt F)),
    nullary main_cst_152 (constant S_ .f32 0x00000000#32),
    TRef.unary (TRef.of (T := ⟨S_, .f32⟩) main_cst_152) (TRef.of (T := ⟨S_, .f32⟩) main_call19_v0) id,
    TRef.unary (TRef.of (T := ⟨S_, .f32⟩) main_call19_v0) (TRef.of (T := ⟨S60000, .f32⟩) main_call19_v1) (broadcastInDim S60000 ![] bcast_S_S60000),
    TRef.ternary (TRef.of (T := ⟨S60000, .i1⟩) main_v601) (TRef.of (T := ⟨S60000, .f32⟩) main_v604) (TRef.of (T := ⟨S60000, .f32⟩) main_call19_v1) (TRef.of (T := ⟨S60000, .f32⟩) main_v605) select,
    nullary main_cst_153 (constant S_ .f32 0x00000000#32),
    unary main_cst_153 main_v606 (broadcastInDim S20000 ![] bcast_S_S20000 : (⟨S_, .f32⟩ : BufTy).Contents (Elt F) → (⟨S20000, .f32⟩ : BufTy).Contents (Elt F)),
    binary main_v599 main_v606 main_v607 (cmpf .ogt : (⟨S20000, .f32⟩ : BufTy).Contents (Elt F) → (⟨S20000, .f32⟩ : BufTy).Contents (Elt F) → (⟨S20000, .i1⟩ : BufTy).Contents (Elt F)),
    nullary main_cst_154 (constant S_ .f32 0x3F800000#32),
    unary main_cst_154 main_v608 (broadcastInDim S20000 ![] bcast_S_S20000 : (⟨S_, .f32⟩ : BufTy).Contents (Elt F) → (⟨S20000, .f32⟩ : BufTy).Contents (Elt F)),
    binary main_v599 main_v608 main_v609 (maximumf : (⟨S20000, .f32⟩ : BufTy).Contents (Elt F) → (⟨S20000, .f32⟩ : BufTy).Contents (Elt F) → (⟨S20000, .f32⟩ : BufTy).Contents (Elt F)),
    unary main_v609 main_v610 (Host.rsqrt : (⟨S20000, .f32⟩ : BufTy).Contents (Elt F) → (⟨S20000, .f32⟩ : BufTy).Contents (Elt F)),
    nullary main_cst_155 (constant S_ .f32 0x00000000#32),
    TRef.unary (TRef.of (T := ⟨S_, .f32⟩) main_cst_155) (TRef.of (T := ⟨S_, .f32⟩) main_call20_v0) id,
    TRef.unary (TRef.of (T := ⟨S_, .f32⟩) main_call20_v0) (TRef.of (T := ⟨S20000, .f32⟩) main_call20_v1) (broadcastInDim S20000 ![] bcast_S_S20000),
    TRef.ternary (TRef.of (T := ⟨S20000, .i1⟩) main_v607) (TRef.of (T := ⟨S20000, .f32⟩) main_v610) (TRef.of (T := ⟨S20000, .f32⟩) main_call20_v1) (TRef.of (T := ⟨S20000, .f32⟩) main_v611) select ]

/-- Each touches TensorCore references only. -/
theorem ops_G15a_sub : (ops_G15a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G15a_fresh : ∀ op ∈ (ops_G15a : List (HloOp τ sig (Elt F))), op.fresh = ∅ :=
  List.forall_iff_forall_mem.1 (show (ops_G15a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G15a : List (Ref sig .tc) :=
  [main_v587, main_v588, main_v589, main_v590, main_v591, main_v592, main_cst_147, main_v593, main_cst_148, main_v594, main_v595, main_v596, main_cst_149, main_v597, main_v598, main_v599, main_cst_150, main_v600, main_v601, main_cst_151, main_v602, main_v603, main_v604, main_cst_152, main_call19_v0, main_call19_v1, main_v605, main_cst_153, main_v606, main_v607, main_cst_154, main_v608, main_v609, main_v610, main_cst_155, main_call20_v0, main_call20_v1, main_v611]

/-- Each operation writes a reference of that list only. -/
theorem ops_G15a_writes : (ops_G15a : List (HloOp τ sig (Elt F))).Forall fun op =>
    op.writes ⊆ (writes_G15a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D14.lean ====
/- Operations 812 … 812 of the reference's @main (1 of 1191), as a list; each touches TensorCore references only, none allocates, and each writes one reference of the list `writes_D14`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 812 … 812 of @main, in program order. -/
abbrev ops_D14 : List (HloOp τ sig (Elt F)) :=
  [ binary main_v460 main_v586 main_v612 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)) ]

/-- Each touches TensorCore references only. -/
theorem ops_D14_sub : (ops_D14 : List (HloOp τ sig (Elt F))).Forall fun op => op.bufs ⊆ StableHlo.tcRefs τ sig :=
  binary_bufs_sub ..

/-- None allocates a buffer. -/
theorem ops_D14_fresh : ∀ op ∈ (ops_D14 : List (HloOp τ sig (Elt F))), op.fresh = ∅ :=
  List.forall_iff_forall_mem.1 (show (ops_D14 : List (HloOp τ sig (Elt F))).Forall (fun op => op.fresh = ∅) from rfl)

/-- The references the operations write, in order. -/
abbrev writes_D14 : List (Ref sig .tc) :=
  [main_v612]

/-- Each operation writes a reference of that list only. -/
theorem ops_D14_writes : (ops_D14 : List (HloOp τ sig (Elt F))).Forall fun op =>
    op.writes ⊆ (writes_D14.map (Proc.devRef (τ := τ) .tc)).toFinset :=
  binary_writes_sub (h := by decide) ..

end Cert.ReferenceIdeal.Hand

end
-- ==== Proof.Ref.Chunk_G15b.lean ====
/- Operations 813 … 853 of the reference's @main (41 of 1191), as a list; each touches TensorCore references only, none allocates, and each writes one reference of the list `writes_G15b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 813 … 853 of @main, in program order. -/
abbrev ops_G15b : List (HloOp τ sig (Elt F)) :=
  [ nullary main_c_156 (constantI S_ 32 0#32),
    unary main_c_156 main_v613 (broadcastInDim S500000 ![] bcast_S_S500000 : (⟨S_, .i32⟩ : BufTy).Contents (Elt F) → (⟨S500000, .i32⟩ : BufTy).Contents (Elt F)),
    binary main_v590 main_v613 main_v614 (cmpi .slt : (⟨S500000, .i32⟩ : BufTy).Contents (Elt F) → (⟨S500000, .i32⟩ : BufTy).Contents (Elt F) → (⟨S500000, .i1⟩ : BufTy).Contents (Elt F)),
    nullary main_c_157 (constantI S_ 32 60000#32),
    unary main_c_157 main_v615 (broadcastInDim S500000 ![] bcast_S_S500000 : (⟨S_, .i32⟩ : BufTy).Contents (Elt F) → (⟨S500000, .i32⟩ : BufTy).Contents (Elt F)),
    binary main_v590 main_v615 main_v616 (addi : (⟨S500000, .i32⟩ : BufTy).Contents (Elt F) → (⟨S500000, .i32⟩ : BufTy).Contents (Elt F) → (⟨S500000, .i32⟩ : BufTy).Contents (Elt F)),
    ternary main_v614 main_v616 main_v590 main_v617 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v617 main_v618 (broadcastInDim S500000x1 ![0] bcast_S500000_S500000x1_0 : (⟨S500000, .i32⟩ : BufTy).Contents (Elt F) → (⟨S500000x1, .i32⟩ : BufTy).Contents (Elt F)),
    binary main_v605 main_v618 main_v619 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    nullary main_c_158 (constantI S_ 32 0#32),
    unary main_c_158 main_v620 (broadcastInDim S500000 ![] bcast_S_S500000 : (⟨S_, .i32⟩ : BufTy).Contents (Elt F) → (⟨S500000, .i32⟩ : BufTy).Contents (Elt F)),
    binary main_v592 main_v620 main_v621 (cmpi .slt : (⟨S500000, .i32⟩ : BufTy).Contents (Elt F) → (⟨S500000, .i32⟩ : BufTy).Contents (Elt F) → (⟨S500000, .i1⟩ : BufTy).Contents (Elt F)),
    nullary main_c_159 (constantI S_ 32 20000#32),
    unary main_c_159 main_v622 (broadcastInDim S500000 ![] bcast_S_S500000 : (⟨S_, .i32⟩ : BufTy).Contents (Elt F) → (⟨S500000, .i32⟩ : BufTy).Contents (Elt F)),
    binary main_v592 main_v622 main_v623 (addi : (⟨S500000, .i32⟩ : BufTy).Contents (Elt F) → (⟨S500000, .i32⟩ : BufTy).Contents (Elt F) → (⟨S500000, .i32⟩ : BufTy).Contents (Elt F)),
    ternary main_v621 main_v623 main_v592 main_v624 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v624 main_v625 (broadcastInDim S500000x1 ![0] bcast_S500000_S500000x1_0 : (⟨S500000, .i32⟩ : BufTy).Contents (Elt F) → (⟨S500000x1, .i32⟩ : BufTy).Contents (Elt F)),
    binary main_v611 main_v625 main_v626 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v619 main_v626 main_v627 (mulf : (⟨S500000, .f32⟩ : BufTy).Contents (Elt F) → (⟨S500000, .f32⟩ : BufTy).Contents (Elt F) → (⟨S500000, .f32⟩ : BufTy).Contents (Elt F)),
    nullary main_c_160 (constantI S_ 32 0#32),
    unary main_c_160 main_v628 (broadcastInDim S500000 ![] bcast_S_S500000 : (⟨S_, .i32⟩ : BufTy).Contents (Elt F) → (⟨S500000, .i32⟩ : BufTy).Contents (Elt F)),
    binary main_v590 main_v628 main_v629 (cmpi .slt : (⟨S500000, .i32⟩ : BufTy).Contents (Elt F) → (⟨S500000, .i32⟩ : BufTy).Contents (Elt F) → (⟨S500000, .i1⟩ : BufTy).Contents (Elt F)),
    nullary main_c_161 (constantI S_ 32 60000#32),
    unary main_c_161 main_v630 (broadcastInDim S500000 ![] bcast_S_S500000 : (⟨S_, .i32⟩ : BufTy).Contents (Elt F) → (⟨S500000, .i32⟩ : BufTy).Contents (Elt F)),
    binary main_v590 main_v630 main_v631 (addi : (⟨S500000, .i32⟩ : BufTy).Contents (Elt F) → (⟨S500000, .i32⟩ : BufTy).Contents (Elt F) → (⟨S500000, .i32⟩ : BufTy).Contents (Elt F)),
    ternary main_v629 main_v631 main_v590 main_v632 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v632 main_v633 (broadcastInDim S500000x1 ![0] bcast_S500000_S500000x1_0 : (⟨S500000, .i32⟩ : BufTy).Contents (Elt F) → (⟨S500000x1, .i32⟩ : BufTy).Contents (Elt F)),
    binary main_v612 main_v633 main_v634 ((fun x i => Host.gather gather_S60000x64_S500000x1_S500000x64_1_0_n_n_0_1_164 x i) : (⟨S60000x64, .f32⟩ : BufTy).Contents (Elt F) → (⟨S500000x1, .i32⟩ : BufTy).Contents (Elt F) → (⟨S500000x64, .f32⟩ : BufTy).Contents (Elt F)),
    unary main_v627 main_v635 (broadcastInDim S500000x1 ![0] bcast_S500000_S500000x1_0 : (⟨S500000, .f32⟩ : BufTy).Contents (Elt F) → (⟨S500000x1, .f32⟩ : BufTy).Contents (Elt F)),
    unary main_v635 main_v636 (broadcastInDim S500000x64 ![0, 1] bcast_S500000x1_S500000x64_0_1 : (⟨S500000x1, .f32⟩ : BufTy).Contents (Elt F) → (⟨S500000x64, .f32⟩ : BufTy).Contents (Elt F)),
    binary main_v634 main_v636 main_v637 (mulf : (⟨S500000x64, .f32⟩ : BufTy).Contents (Elt F) → (⟨S500000x64, .f32⟩ : BufTy).Contents (Elt F) → (⟨S500000x64, .f32⟩ : BufTy).Contents (Elt F)),
    nullary main_cst_162 (constant S_ .f32 0x00000000#32),
    unary main_cst_162 main_v638 (broadcastInDim S20000x64 ![] bcast_S_S20000x64 : (⟨S_, .f32⟩ : BufTy).Contents (Elt F) → (⟨S20000x64, .f32⟩ : BufTy).Contents (Elt F)),
    unary main_v592 main_v639 (broadcastInDim S500000x1 ![0] bcast_S500000_S500000x1_0 : (⟨S500000, .i32⟩ : BufTy).Contents (Elt F) → (⟨S500000x1, .i32⟩ : BufTy).Contents (Elt F)),
    ternary main_v638 main_v639 main_v637 main_v640 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    unary main_v588 main_v641 (broadcastInDim S1x64 ![1] bcast_S64_S1x64_1 : (⟨S64, .f32⟩ : BufTy).Contents (Elt F) → (⟨S1x64, .f32⟩ : BufTy).Contents (Elt F)),
    unary main_v641 main_v642 (broadcastInDim S20000x64 ![0, 1] bcast_S1x64_S20000x64_0_1 : (⟨S1x64, .f32⟩ : BufTy).Contents (Elt F) → (⟨S20000x64, .f32⟩ : BufTy).Contents (Elt F)),
    binary main_v640 main_v642 main_v643 (addf : (⟨S20000x64, .f32⟩ : BufTy).Contents (Elt F) → (⟨S20000x64, .f32⟩ : BufTy).Contents (Elt F) → (⟨S20000x64, .f32⟩ : BufTy).Contents (Elt F)),
    binary main_v524 main_v643 main_v644 (addf : (⟨S20000x64, .f32⟩ : BufTy).Contents (Elt F) → (⟨S20000x64, .f32⟩ : BufTy).Contents (Elt F) → (⟨S20000x64, .f32⟩ : BufTy).Contents (Elt F)),
    unary main_arg11 main_v645 ((extractStridedSlice S1x128x64 ![3, 0, 0] · slices_S6x128x64_S1x128x64_3_0_0) : (⟨S6x128x64, .f32⟩ : BufTy).Contents (Elt F) → (⟨S1x128x64, .f32⟩ : BufTy).Contents (Elt F)),
    reshape main_v645 main_v646 rfl shapeCasts_S1x128x64_S128x64 ]

/-- Each touches TensorCore references only. -/
theorem ops_G15b_sub : (ops_G15b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G15b_fresh : ∀ op ∈ (ops_G15b : List (HloOp τ sig (Elt F))), op.fresh = ∅ :=
  List.forall_iff_forall_mem.1 (show (ops_G15b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G15b : List (Ref sig .tc) :=
  [main_c_156, main_v613, main_v614, main_c_157, main_v615, main_v616, main_v617, main_v618, main_v619, main_c_158, main_v620, main_v621, main_c_159, main_v622, main_v623, main_v624, main_v625, main_v626, main_v627, main_c_160, main_v628, main_v629, main_c_161, main_v630, main_v631, main_v632, main_v633, main_v634, main_v635, main_v636, main_v637, main_cst_162, main_v638, main_v639, main_v640, main_v641, main_v642, main_v643, main_v644, main_v645, main_v646]

/-- Each operation writes a reference of that list only. -/
theorem ops_G15b_writes : (ops_G15b : List (HloOp τ sig (Elt F))).Forall fun op =>
    op.writes ⊆ (writes_G15b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G16a.lean ====
/- Operations 854 … 891 of the reference's @main (38 of 1191), as a list; each touches TensorCore references only, none allocates, and each writes one reference of the list `writes_G16a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 854 … 891 of @main, in program order. -/
abbrev ops_G16a : List (HloOp τ sig (Elt F)) :=
  [ unary main_arg12 main_v647 ((extractStridedSlice S1x64 ![3, 0] · slices_S6x64_S1x64_3_0) : (⟨S6x64, .f32⟩ : BufTy).Contents (Elt F) → (⟨S1x64, .f32⟩ : BufTy).Contents (Elt F)),
    reshape main_v647 main_v648 rfl shapeCasts_S1x64_S64,
    unary main_arg20 main_v649 ((extractStridedSlice S1x500000 ![0, 0] · slices_S2x500000_S1x500000_0_0) : (⟨S2x500000, .i32⟩ : BufTy).Contents (Elt F) → (⟨S1x500000, .i32⟩ : BufTy).Contents (Elt F)),
    reshape main_v649 main_v650 rfl shapeCasts_S1x500000_S500000,
    unary main_arg20 main_v651 ((extractStridedSlice S1x500000 ![1, 0] · slices_S2x500000_S1x500000_1_0) : (⟨S2x500000, .i32⟩ : BufTy).Contents (Elt F) → (⟨S1x500000, .i32⟩ : BufTy).Contents (Elt F)),
    reshape main_v651 main_v652 rfl shapeCasts_S1x500000_S500000,
    nullary main_cst_163 (constant S_ .f32 0x3F800000#32),
    unary main_cst_163 main_v653 (broadcastInDim S500000 ![] bcast_S_S500000 : (⟨S_, .f32⟩ : BufTy).Contents (Elt F) → (⟨S500000, .f32⟩ : BufTy).Contents (Elt F)),
    nullary main_cst_164 (constant S_ .f32 0x00000000#32),
    unary main_cst_164 main_v654 (broadcastInDim S20000 ![] bcast_S_S20000 : (⟨S_, .f32⟩ : BufTy).Contents (Elt F) → (⟨S20000, .f32⟩ : BufTy).Contents (Elt F)),
    unary main_v650 main_v655 (broadcastInDim S500000x1 ![0] bcast_S500000_S500000x1_0 : (⟨S500000, .i32⟩ : BufTy).Contents (Elt F) → (⟨S500000x1, .i32⟩ : BufTy).Contents (Elt F)),
    ternary main_v654 main_v655 main_v653 main_v656 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_165 (constant S_ .f32 0x00000000#32),
    unary main_cst_165 main_v657 (broadcastInDim S20000 ![] bcast_S_S20000 : (⟨S_, .f32⟩ : BufTy).Contents (Elt F) → (⟨S20000, .f32⟩ : BufTy).Contents (Elt F)),
    unary main_v652 main_v658 (broadcastInDim S500000x1 ![0] bcast_S500000_S500000x1_0 : (⟨S500000, .i32⟩ : BufTy).Contents (Elt F) → (⟨S500000x1, .i32⟩ : BufTy).Contents (Elt F)),
    ternary main_v657 main_v658 main_v653 main_v659 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_166 (constant S_ .f32 0x00000000#32),
    unary main_cst_166 main_v660 (broadcastInDim S20000 ![] bcast_S_S20000 : (⟨S_, .f32⟩ : BufTy).Contents (Elt F) → (⟨S20000, .f32⟩ : BufTy).Contents (Elt F)),
    binary main_v656 main_v660 main_v661 (cmpf .ogt : (⟨S20000, .f32⟩ : BufTy).Contents (Elt F) → (⟨S20000, .f32⟩ : BufTy).Contents (Elt F) → (⟨S20000, .i1⟩ : BufTy).Contents (Elt F)),
    nullary main_cst_167 (constant S_ .f32 0x3F800000#32),
    unary main_cst_167 main_v662 (broadcastInDim S20000 ![] bcast_S_S20000 : (⟨S_, .f32⟩ : BufTy).Contents (Elt F) → (⟨S20000, .f32⟩ : BufTy).Contents (Elt F)),
    binary main_v656 main_v662 main_v663 (maximumf : (⟨S20000, .f32⟩ : BufTy).Contents (Elt F) → (⟨S20000, .f32⟩ : BufTy).Contents (Elt F) → (⟨S20000, .f32⟩ : BufTy).Contents (Elt F)),
    unary main_v663 main_v664 (Host.rsqrt : (⟨S20000, .f32⟩ : BufTy).Contents (Elt F) → (⟨S20000, .f32⟩ : BufTy).Contents (Elt F)),
    nullary main_cst_168 (constant S_ .f32 0x00000000#32),
    TRef.unary (TRef.of (T := ⟨S_, .f32⟩) main_cst_168) (TRef.of (T := ⟨S_, .f32⟩) main_call21_v0) id,
    TRef.unary (TRef.of (T := ⟨S_, .f32⟩) main_call21_v0) (TRef.of (T := ⟨S20000, .f32⟩) main_call21_v1) (broadcastInDim S20000 ![] bcast_S_S20000),
    TRef.ternary (TRef.of (T := ⟨S20000, .i1⟩) main_v661) (TRef.of (T := ⟨S20000, .f32⟩) main_v664) (TRef.of (T := ⟨S20000, .f32⟩) main_call21_v1) (TRef.of (T := ⟨S20000, .f32⟩) main_v665) select,
    nullary main_cst_169 (constant S_ .f32 0x00000000#32),
    unary main_cst_169 main_v666 (broadcastInDim S20000 ![] bcast_S_S20000 : (⟨S_, .f32⟩ : BufTy).Contents (Elt F) → (⟨S20000, .f32⟩ : BufTy).Contents (Elt F)),
    binary main_v659 main_v666 main_v667 (cmpf .ogt : (⟨S20000, .f32⟩ : BufTy).Contents (Elt F) → (⟨S20000, .f32⟩ : BufTy).Contents (Elt F) → (⟨S20000, .i1⟩ : BufTy).Contents (Elt F)),
    nullary main_cst_170 (constant S_ .f32 0x3F800000#32),
    unary main_cst_170 main_v668 (broadcastInDim S20000 ![] bcast_S_S20000 : (⟨S_, .f32⟩ : BufTy).Contents (Elt F) → (⟨S20000, .f32⟩ : BufTy).Contents (Elt F)),
    binary main_v659 main_v668 main_v669 (maximumf : (⟨S20000, .f32⟩ : BufTy).Contents (Elt F) → (⟨S20000, .f32⟩ : BufTy).Contents (Elt F) → (⟨S20000, .f32⟩ : BufTy).Contents (Elt F)),
    unary main_v669 main_v670 (Host.rsqrt : (⟨S20000, .f32⟩ : BufTy).Contents (Elt F) → (⟨S20000, .f32⟩ : BufTy).Contents (Elt F)),
    nullary main_cst_171 (constant S_ .f32 0x00000000#32),
    TRef.unary (TRef.of (T := ⟨S_, .f32⟩) main_cst_171) (TRef.of (T := ⟨S_, .f32⟩) main_call22_v0) id,
    TRef.unary (TRef.of (T := ⟨S_, .f32⟩) main_call22_v0) (TRef.of (T := ⟨S20000, .f32⟩) main_call22_v1) (broadcastInDim S20000 ![] bcast_S_S20000),
    TRef.ternary (TRef.of (T := ⟨S20000, .i1⟩) main_v667) (TRef.of (T := ⟨S20000, .f32⟩) main_v670) (TRef.of (T := ⟨S20000, .f32⟩) main_call22_v1) (TRef.of (T := ⟨S20000, .f32⟩) main_v671) select ]

/-- Each touches TensorCore references only. -/
theorem ops_G16a_sub : (ops_G16a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G16a_fresh : ∀ op ∈ (ops_G16a : List (HloOp τ sig (Elt F))), op.fresh = ∅ :=
  List.forall_iff_forall_mem.1 (show (ops_G16a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G16a : List (Ref sig .tc) :=
  [main_v647, main_v648, main_v649, main_v650, main_v651, main_v652, main_cst_163, main_v653, main_cst_164, main_v654, main_v655, main_v656, main_cst_165, main_v657, main_v658, main_v659, main_cst_166, main_v660, main_v661, main_cst_167, main_v662, main_v663, main_v664, main_cst_168, main_call21_v0, main_call21_v1, main_v665, main_cst_169, main_v666, main_v667, main_cst_170, main_v668, main_v669, main_v670, main_cst_171, main_call22_v0, main_call22_v1, main_v671]

/-- Each operation writes a reference of that list only. -/
theorem ops_G16a_writes : (ops_G16a : List (HloOp τ sig (Elt F))).Forall fun op =>
    op.writes ⊆ (writes_G16a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D15.lean ====
/- Operations 892 … 892 of the reference's @main (1 of 1191), as a list; each touches TensorCore references only, none allocates, and each writes one reference of the list `writes_D15`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 892 … 892 of @main, in program order. -/
abbrev ops_D15 : List (HloOp τ sig (Elt F)) :=
  [ binary main_v461 main_v646 main_v672 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)) ]

/-- Each touches TensorCore references only. -/
theorem ops_D15_sub : (ops_D15 : List (HloOp τ sig (Elt F))).Forall fun op => op.bufs ⊆ StableHlo.tcRefs τ sig :=
  binary_bufs_sub ..

/-- None allocates a buffer. -/
theorem ops_D15_fresh : ∀ op ∈ (ops_D15 : List (HloOp τ sig (Elt F))), op.fresh = ∅ :=
  List.forall_iff_forall_mem.1 (show (ops_D15 : List (HloOp τ sig (Elt F))).Forall (fun op => op.fresh = ∅) from rfl)

/-- The references the operations write, in order. -/
abbrev writes_D15 : List (Ref sig .tc) :=
  [main_v672]

/-- Each operation writes a reference of that list only. -/
theorem ops_D15_writes : (ops_D15 : List (HloOp τ sig (Elt F))).Forall fun op =>
    op.writes ⊆ (writes_D15.map (Proc.devRef (τ := τ) .tc)).toFinset :=
  binary_writes_sub (h := by decide) ..

end Cert.ReferenceIdeal.Hand

end
-- ==== Proof.Ref.Chunk_G16b.lean ====
/- Operations 893 … 933 of the reference's @main (41 of 1191), as a list; each touches TensorCore references only, none allocates, and each writes one reference of the list `writes_G16b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 893 … 933 of @main, in program order. -/
abbrev ops_G16b : List (HloOp τ sig (Elt F)) :=
  [ nullary main_c_172 (constantI S_ 32 0#32),
    unary main_c_172 main_v673 (broadcastInDim S500000 ![] bcast_S_S500000 : (⟨S_, .i32⟩ : BufTy).Contents (Elt F) → (⟨S500000, .i32⟩ : BufTy).Contents (Elt F)),
    binary main_v650 main_v673 main_v674 (cmpi .slt : (⟨S500000, .i32⟩ : BufTy).Contents (Elt F) → (⟨S500000, .i32⟩ : BufTy).Contents (Elt F) → (⟨S500000, .i1⟩ : BufTy).Contents (Elt F)),
    nullary main_c_173 (constantI S_ 32 20000#32),
    unary main_c_173 main_v675 (broadcastInDim S500000 ![] bcast_S_S500000 : (⟨S_, .i32⟩ : BufTy).Contents (Elt F) → (⟨S500000, .i32⟩ : BufTy).Contents (Elt F)),
    binary main_v650 main_v675 main_v676 (addi : (⟨S500000, .i32⟩ : BufTy).Contents (Elt F) → (⟨S500000, .i32⟩ : BufTy).Contents (Elt F) → (⟨S500000, .i32⟩ : BufTy).Contents (Elt F)),
    ternary main_v674 main_v676 main_v650 main_v677 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v677 main_v678 (broadcastInDim S500000x1 ![0] bcast_S500000_S500000x1_0 : (⟨S500000, .i32⟩ : BufTy).Contents (Elt F) → (⟨S500000x1, .i32⟩ : BufTy).Contents (Elt F)),
    binary main_v665 main_v678 main_v679 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_174 (constantI S_ 32 0#32),
    unary main_c_174 main_v680 (broadcastInDim S500000 ![] bcast_S_S500000 : (⟨S_, .i32⟩ : BufTy).Contents (Elt F) → (⟨S500000, .i32⟩ : BufTy).Contents (Elt F)),
    binary main_v652 main_v680 main_v681 (cmpi .slt : (⟨S500000, .i32⟩ : BufTy).Contents (Elt F) → (⟨S500000, .i32⟩ : BufTy).Contents (Elt F) → (⟨S500000, .i1⟩ : BufTy).Contents (Elt F)),
    nullary main_c_175 (constantI S_ 32 20000#32),
    unary main_c_175 main_v682 (broadcastInDim S500000 ![] bcast_S_S500000 : (⟨S_, .i32⟩ : BufTy).Contents (Elt F) → (⟨S500000, .i32⟩ : BufTy).Contents (Elt F)),
    binary main_v652 main_v682 main_v683 (addi : (⟨S500000, .i32⟩ : BufTy).Contents (Elt F) → (⟨S500000, .i32⟩ : BufTy).Contents (Elt F) → (⟨S500000, .i32⟩ : BufTy).Contents (Elt F)),
    ternary main_v681 main_v683 main_v652 main_v684 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v684 main_v685 (broadcastInDim S500000x1 ![0] bcast_S500000_S500000x1_0 : (⟨S500000, .i32⟩ : BufTy).Contents (Elt F) → (⟨S500000x1, .i32⟩ : BufTy).Contents (Elt F)),
    binary main_v671 main_v685 main_v686 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v679 main_v686 main_v687 (mulf : (⟨S500000, .f32⟩ : BufTy).Contents (Elt F) → (⟨S500000, .f32⟩ : BufTy).Contents (Elt F) → (⟨S500000, .f32⟩ : BufTy).Contents (Elt F)),
    nullary main_c_176 (constantI S_ 32 0#32),
    unary main_c_176 main_v688 (broadcastInDim S500000 ![] bcast_S_S500000 : (⟨S_, .i32⟩ : BufTy).Contents (Elt F) → (⟨S500000, .i32⟩ : BufTy).Contents (Elt F)),
    binary main_v650 main_v688 main_v689 (cmpi .slt : (⟨S500000, .i32⟩ : BufTy).Contents (Elt F) → (⟨S500000, .i32⟩ : BufTy).Contents (Elt F) → (⟨S500000, .i1⟩ : BufTy).Contents (Elt F)),
    nullary main_c_177 (constantI S_ 32 20000#32),
    unary main_c_177 main_v690 (broadcastInDim S500000 ![] bcast_S_S500000 : (⟨S_, .i32⟩ : BufTy).Contents (Elt F) → (⟨S500000, .i32⟩ : BufTy).Contents (Elt F)),
    binary main_v650 main_v690 main_v691 (addi : (⟨S500000, .i32⟩ : BufTy).Contents (Elt F) → (⟨S500000, .i32⟩ : BufTy).Contents (Elt F) → (⟨S500000, .i32⟩ : BufTy).Contents (Elt F)),
    ternary main_v689 main_v691 main_v650 main_v692 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v692 main_v693 (broadcastInDim S500000x1 ![0] bcast_S500000_S500000x1_0 : (⟨S500000, .i32⟩ : BufTy).Contents (Elt F) → (⟨S500000x1, .i32⟩ : BufTy).Contents (Elt F)),
    binary main_v672 main_v693 main_v694 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    unary main_v687 main_v695 (broadcastInDim S500000x1 ![0] bcast_S500000_S500000x1_0 : (⟨S500000, .f32⟩ : BufTy).Contents (Elt F) → (⟨S500000x1, .f32⟩ : BufTy).Contents (Elt F)),
    unary main_v695 main_v696 (broadcastInDim S500000x64 ![0, 1] bcast_S500000x1_S500000x64_0_1 : (⟨S500000x1, .f32⟩ : BufTy).Contents (Elt F) → (⟨S500000x64, .f32⟩ : BufTy).Contents (Elt F)),
    binary main_v694 main_v696 main_v697 (mulf : (⟨S500000x64, .f32⟩ : BufTy).Contents (Elt F) → (⟨S500000x64, .f32⟩ : BufTy).Contents (Elt F) → (⟨S500000x64, .f32⟩ : BufTy).Contents (Elt F)),
    nullary main_cst_178 (constant S_ .f32 0x00000000#32),
    unary main_cst_178 main_v698 (broadcastInDim S20000x64 ![] bcast_S_S20000x64 : (⟨S_, .f32⟩ : BufTy).Contents (Elt F) → (⟨S20000x64, .f32⟩ : BufTy).Contents (Elt F)),
    unary main_v652 main_v699 (broadcastInDim S500000x1 ![0] bcast_S500000_S500000x1_0 : (⟨S500000, .i32⟩ : BufTy).Contents (Elt F) → (⟨S500000x1, .i32⟩ : BufTy).Contents (Elt F)),
    ternary main_v698 main_v699 main_v697 main_v700 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    unary main_v648 main_v701 (broadcastInDim S1x64 ![1] bcast_S64_S1x64_1 : (⟨S64, .f32⟩ : BufTy).Contents (Elt F) → (⟨S1x64, .f32⟩ : BufTy).Contents (Elt F)),
    unary main_v701 main_v702 (broadcastInDim S20000x64 ![0, 1] bcast_S1x64_S20000x64_0_1 : (⟨S1x64, .f32⟩ : BufTy).Contents (Elt F) → (⟨S20000x64, .f32⟩ : BufTy).Contents (Elt F)),
    binary main_v700 main_v702 main_v703 (addf : (⟨S20000x64, .f32⟩ : BufTy).Contents (Elt F) → (⟨S20000x64, .f32⟩ : BufTy).Contents (Elt F) → (⟨S20000x64, .f32⟩ : BufTy).Contents (Elt F)),
    binary main_v462 main_v703 main_v704 (addf : (⟨S20000x64, .f32⟩ : BufTy).Contents (Elt F) → (⟨S20000x64, .f32⟩ : BufTy).Contents (Elt F) → (⟨S20000x64, .f32⟩ : BufTy).Contents (Elt F)),
    unary main_arg11 main_v705 ((extractStridedSlice S1x128x64 ![4, 0, 0] · slices_S6x128x64_S1x128x64_4_0_0) : (⟨S6x128x64, .f32⟩ : BufTy).Contents (Elt F) → (⟨S1x128x64, .f32⟩ : BufTy).Contents (Elt F)),
    reshape main_v705 main_v706 rfl shapeCasts_S1x128x64_S128x64 ]

/-- Each touches TensorCore references only. -/
theorem ops_G16b_sub : (ops_G16b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G16b_fresh : ∀ op ∈ (ops_G16b : List (HloOp τ sig (Elt F))), op.fresh = ∅ :=
  List.forall_iff_forall_mem.1 (show (ops_G16b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G16b : List (Ref sig .tc) :=
  [main_c_172, main_v673, main_v674, main_c_173, main_v675, main_v676, main_v677, main_v678, main_v679, main_c_174, main_v680, main_v681, main_c_175, main_v682, main_v683, main_v684, main_v685, main_v686, main_v687, main_c_176, main_v688, main_v689, main_c_177, main_v690, main_v691, main_v692, main_v693, main_v694, main_v695, main_v696, main_v697, main_cst_178, main_v698, main_v699, main_v700, main_v701, main_v702, main_v703, main_v704, main_v705, main_v706]

/-- Each operation writes a reference of that list only. -/
theorem ops_G16b_writes : (ops_G16b : List (HloOp τ sig (Elt F))).Forall fun op =>
    op.writes ⊆ (writes_G16b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G17a.lean ====
/- Operations 934 … 971 of the reference's @main (38 of 1191), as a list; each touches TensorCore references only, none allocates, and each writes one reference of the list `writes_G17a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 934 … 971 of @main, in program order. -/
abbrev ops_G17a : List (HloOp τ sig (Elt F)) :=
  [ unary main_arg12 main_v707 ((extractStridedSlice S1x64 ![4, 0] · slices_S6x64_S1x64_4_0) : (⟨S6x64, .f32⟩ : BufTy).Contents (Elt F) → (⟨S1x64, .f32⟩ : BufTy).Contents (Elt F)),
    reshape main_v707 main_v708 rfl shapeCasts_S1x64_S64,
    unary main_arg21 main_v709 ((extractStridedSlice S1x500000 ![0, 0] · slices_S2x500000_S1x500000_0_0) : (⟨S2x500000, .i32⟩ : BufTy).Contents (Elt F) → (⟨S1x500000, .i32⟩ : BufTy).Contents (Elt F)),
    reshape main_v709 main_v710 rfl shapeCasts_S1x500000_S500000,
    unary main_arg21 main_v711 ((extractStridedSlice S1x500000 ![1, 0] · slices_S2x500000_S1x500000_1_0) : (⟨S2x500000, .i32⟩ : BufTy).Contents (Elt F) → (⟨S1x500000, .i32⟩ : BufTy).Contents (Elt F)),
    reshape main_v711 main_v712 rfl shapeCasts_S1x500000_S500000,
    nullary main_cst_179 (constant S_ .f32 0x3F800000#32),
    unary main_cst_179 main_v713 (broadcastInDim S500000 ![] bcast_S_S500000 : (⟨S_, .f32⟩ : BufTy).Contents (Elt F) → (⟨S500000, .f32⟩ : BufTy).Contents (Elt F)),
    nullary main_cst_180 (constant S_ .f32 0x00000000#32),
    unary main_cst_180 main_v714 (broadcastInDim S60000 ![] bcast_S_S60000 : (⟨S_, .f32⟩ : BufTy).Contents (Elt F) → (⟨S60000, .f32⟩ : BufTy).Contents (Elt F)),
    unary main_v710 main_v715 (broadcastInDim S500000x1 ![0] bcast_S500000_S500000x1_0 : (⟨S500000, .i32⟩ : BufTy).Contents (Elt F) → (⟨S500000x1, .i32⟩ : BufTy).Contents (Elt F)),
    ternary main_v714 main_v715 main_v713 main_v716 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_181 (constant S_ .f32 0x00000000#32),
    unary main_cst_181 main_v717 (broadcastInDim S20000 ![] bcast_S_S20000 : (⟨S_, .f32⟩ : BufTy).Contents (Elt F) → (⟨S20000, .f32⟩ : BufTy).Contents (Elt F)),
    unary main_v712 main_v718 (broadcastInDim S500000x1 ![0] bcast_S500000_S500000x1_0 : (⟨S500000, .i32⟩ : BufTy).Contents (Elt F) → (⟨S500000x1, .i32⟩ : BufTy).Contents (Elt F)),
    ternary main_v717 main_v718 main_v713 main_v719 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_182 (constant S_ .f32 0x00000000#32),
    unary main_cst_182 main_v720 (broadcastInDim S60000 ![] bcast_S_S60000 : (⟨S_, .f32⟩ : BufTy).Contents (Elt F) → (⟨S60000, .f32⟩ : BufTy).Contents (Elt F)),
    binary main_v716 main_v720 main_v721 (cmpf .ogt : (⟨S60000, .f32⟩ : BufTy).Contents (Elt F) → (⟨S60000, .f32⟩ : BufTy).Contents (Elt F) → (⟨S60000, .i1⟩ : BufTy).Contents (Elt F)),
    nullary main_cst_183 (constant S_ .f32 0x3F800000#32),
    unary main_cst_183 main_v722 (broadcastInDim S60000 ![] bcast_S_S60000 : (⟨S_, .f32⟩ : BufTy).Contents (Elt F) → (⟨S60000, .f32⟩ : BufTy).Contents (Elt F)),
    binary main_v716 main_v722 main_v723 (maximumf : (⟨S60000, .f32⟩ : BufTy).Contents (Elt F) → (⟨S60000, .f32⟩ : BufTy).Contents (Elt F) → (⟨S60000, .f32⟩ : BufTy).Contents (Elt F)),
    unary main_v723 main_v724 (Host.rsqrt : (⟨S60000, .f32⟩ : BufTy).Contents (Elt F) → (⟨S60000, .f32⟩ : BufTy).Contents (Elt F)),
    nullary main_cst_184 (constant S_ .f32 0x00000000#32),
    TRef.unary (TRef.of (T := ⟨S_, .f32⟩) main_cst_184) (TRef.of (T := ⟨S_, .f32⟩) main_call23_v0) id,
    TRef.unary (TRef.of (T := ⟨S_, .f32⟩) main_call23_v0) (TRef.of (T := ⟨S60000, .f32⟩) main_call23_v1) (broadcastInDim S60000 ![] bcast_S_S60000),
    TRef.ternary (TRef.of (T := ⟨S60000, .i1⟩) main_v721) (TRef.of (T := ⟨S60000, .f32⟩) main_v724) (TRef.of (T := ⟨S60000, .f32⟩) main_call23_v1) (TRef.of (T := ⟨S60000, .f32⟩) main_v725) select,
    nullary main_cst_185 (constant S_ .f32 0x00000000#32),
    unary main_cst_185 main_v726 (broadcastInDim S20000 ![] bcast_S_S20000 : (⟨S_, .f32⟩ : BufTy).Contents (Elt F) → (⟨S20000, .f32⟩ : BufTy).Contents (Elt F)),
    binary main_v719 main_v726 main_v727 (cmpf .ogt : (⟨S20000, .f32⟩ : BufTy).Contents (Elt F) → (⟨S20000, .f32⟩ : BufTy).Contents (Elt F) → (⟨S20000, .i1⟩ : BufTy).Contents (Elt F)),
    nullary main_cst_186 (constant S_ .f32 0x3F800000#32),
    unary main_cst_186 main_v728 (broadcastInDim S20000 ![] bcast_S_S20000 : (⟨S_, .f32⟩ : BufTy).Contents (Elt F) → (⟨S20000, .f32⟩ : BufTy).Contents (Elt F)),
    binary main_v719 main_v728 main_v729 (maximumf : (⟨S20000, .f32⟩ : BufTy).Contents (Elt F) → (⟨S20000, .f32⟩ : BufTy).Contents (Elt F) → (⟨S20000, .f32⟩ : BufTy).Contents (Elt F)),
    unary main_v729 main_v730 (Host.rsqrt : (⟨S20000, .f32⟩ : BufTy).Contents (Elt F) → (⟨S20000, .f32⟩ : BufTy).Contents (Elt F)),
    nullary main_cst_187 (constant S_ .f32 0x00000000#32),
    TRef.unary (TRef.of (T := ⟨S_, .f32⟩) main_cst_187) (TRef.of (T := ⟨S_, .f32⟩) main_call24_v0) id,
    TRef.unary (TRef.of (T := ⟨S_, .f32⟩) main_call24_v0) (TRef.of (T := ⟨S20000, .f32⟩) main_call24_v1) (broadcastInDim S20000 ![] bcast_S_S20000),
    TRef.ternary (TRef.of (T := ⟨S20000, .i1⟩) main_v727) (TRef.of (T := ⟨S20000, .f32⟩) main_v730) (TRef.of (T := ⟨S20000, .f32⟩) main_call24_v1) (TRef.of (T := ⟨S20000, .f32⟩) main_v731) select ]

/-- Each touches TensorCore references only. -/
theorem ops_G17a_sub : (ops_G17a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G17a_fresh : ∀ op ∈ (ops_G17a : List (HloOp τ sig (Elt F))), op.fresh = ∅ :=
  List.forall_iff_forall_mem.1 (show (ops_G17a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G17a : List (Ref sig .tc) :=
  [main_v707, main_v708, main_v709, main_v710, main_v711, main_v712, main_cst_179, main_v713, main_cst_180, main_v714, main_v715, main_v716, main_cst_181, main_v717, main_v718, main_v719, main_cst_182, main_v720, main_v721, main_cst_183, main_v722, main_v723, main_v724, main_cst_184, main_call23_v0, main_call23_v1, main_v725, main_cst_185, main_v726, main_v727, main_cst_186, main_v728, main_v729, main_v730, main_cst_187, main_call24_v0, main_call24_v1, main_v731]

/-- Each operation writes a reference of that list only. -/
theorem ops_G17a_writes : (ops_G17a : List (HloOp τ sig (Elt F))).Forall fun op =>
    op.writes ⊆ (writes_G17a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D16.lean ====
/- Operations 972 … 972 of the reference's @main (1 of 1191), as a list; each touches TensorCore references only, none allocates, and each writes one reference of the list `writes_D16`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 972 … 972 of @main, in program order. -/
abbrev ops_D16 : List (HloOp τ sig (Elt F)) :=
  [ binary main_v460 main_v706 main_v732 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)) ]

/-- Each touches TensorCore references only. -/
theorem ops_D16_sub : (ops_D16 : List (HloOp τ sig (Elt F))).Forall fun op => op.bufs ⊆ StableHlo.tcRefs τ sig :=
  binary_bufs_sub ..

/-- None allocates a buffer. -/
theorem ops_D16_fresh : ∀ op ∈ (ops_D16 : List (HloOp τ sig (Elt F))), op.fresh = ∅ :=
  List.forall_iff_forall_mem.1 (show (ops_D16 : List (HloOp τ sig (Elt F))).Forall (fun op => op.fresh = ∅) from rfl)

/-- The references the operations write, in order. -/
abbrev writes_D16 : List (Ref sig .tc) :=
  [main_v732]

/-- Each operation writes a reference of that list only. -/
theorem ops_D16_writes : (ops_D16 : List (HloOp τ sig (Elt F))).Forall fun op =>
    op.writes ⊆ (writes_D16.map (Proc.devRef (τ := τ) .tc)).toFinset :=
  binary_writes_sub (h := by decide) ..

end Cert.ReferenceIdeal.Hand

end
-- ==== Proof.Ref.Chunk_G17b.lean ====
/- Operations 973 … 1013 of the reference's @main (41 of 1191), as a list; each touches TensorCore references only, none allocates, and each writes one reference of the list `writes_G17b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 973 … 1013 of @main, in program order. -/
abbrev ops_G17b : List (HloOp τ sig (Elt F)) :=
  [ nullary main_c_188 (constantI S_ 32 0#32),
    unary main_c_188 main_v733 (broadcastInDim S500000 ![] bcast_S_S500000 : (⟨S_, .i32⟩ : BufTy).Contents (Elt F) → (⟨S500000, .i32⟩ : BufTy).Contents (Elt F)),
    binary main_v710 main_v733 main_v734 (cmpi .slt : (⟨S500000, .i32⟩ : BufTy).Contents (Elt F) → (⟨S500000, .i32⟩ : BufTy).Contents (Elt F) → (⟨S500000, .i1⟩ : BufTy).Contents (Elt F)),
    nullary main_c_189 (constantI S_ 32 60000#32),
    unary main_c_189 main_v735 (broadcastInDim S500000 ![] bcast_S_S500000 : (⟨S_, .i32⟩ : BufTy).Contents (Elt F) → (⟨S500000, .i32⟩ : BufTy).Contents (Elt F)),
    binary main_v710 main_v735 main_v736 (addi : (⟨S500000, .i32⟩ : BufTy).Contents (Elt F) → (⟨S500000, .i32⟩ : BufTy).Contents (Elt F) → (⟨S500000, .i32⟩ : BufTy).Contents (Elt F)),
    ternary main_v734 main_v736 main_v710 main_v737 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v737 main_v738 (broadcastInDim S500000x1 ![0] bcast_S500000_S500000x1_0 : (⟨S500000, .i32⟩ : BufTy).Contents (Elt F) → (⟨S500000x1, .i32⟩ : BufTy).Contents (Elt F)),
    binary main_v725 main_v738 main_v739 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    nullary main_c_190 (constantI S_ 32 0#32),
    unary main_c_190 main_v740 (broadcastInDim S500000 ![] bcast_S_S500000 : (⟨S_, .i32⟩ : BufTy).Contents (Elt F) → (⟨S500000, .i32⟩ : BufTy).Contents (Elt F)),
    binary main_v712 main_v740 main_v741 (cmpi .slt : (⟨S500000, .i32⟩ : BufTy).Contents (Elt F) → (⟨S500000, .i32⟩ : BufTy).Contents (Elt F) → (⟨S500000, .i1⟩ : BufTy).Contents (Elt F)),
    nullary main_c_191 (constantI S_ 32 20000#32),
    unary main_c_191 main_v742 (broadcastInDim S500000 ![] bcast_S_S500000 : (⟨S_, .i32⟩ : BufTy).Contents (Elt F) → (⟨S500000, .i32⟩ : BufTy).Contents (Elt F)),
    binary main_v712 main_v742 main_v743 (addi : (⟨S500000, .i32⟩ : BufTy).Contents (Elt F) → (⟨S500000, .i32⟩ : BufTy).Contents (Elt F) → (⟨S500000, .i32⟩ : BufTy).Contents (Elt F)),
    ternary main_v741 main_v743 main_v712 main_v744 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v744 main_v745 (broadcastInDim S500000x1 ![0] bcast_S500000_S500000x1_0 : (⟨S500000, .i32⟩ : BufTy).Contents (Elt F) → (⟨S500000x1, .i32⟩ : BufTy).Contents (Elt F)),
    binary main_v731 main_v745 main_v746 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v739 main_v746 main_v747 (mulf : (⟨S500000, .f32⟩ : BufTy).Contents (Elt F) → (⟨S500000, .f32⟩ : BufTy).Contents (Elt F) → (⟨S500000, .f32⟩ : BufTy).Contents (Elt F)),
    nullary main_c_192 (constantI S_ 32 0#32),
    unary main_c_192 main_v748 (broadcastInDim S500000 ![] bcast_S_S500000 : (⟨S_, .i32⟩ : BufTy).Contents (Elt F) → (⟨S500000, .i32⟩ : BufTy).Contents (Elt F)),
    binary main_v710 main_v748 main_v749 (cmpi .slt : (⟨S500000, .i32⟩ : BufTy).Contents (Elt F) → (⟨S500000, .i32⟩ : BufTy).Contents (Elt F) → (⟨S500000, .i1⟩ : BufTy).Contents (Elt F)),
    nullary main_c_193 (constantI S_ 32 60000#32),
    unary main_c_193 main_v750 (broadcastInDim S500000 ![] bcast_S_S500000 : (⟨S_, .i32⟩ : BufTy).Contents (Elt F) → (⟨S500000, .i32⟩ : BufTy).Contents (Elt F)),
    binary main_v710 main_v750 main_v751 (addi : (⟨S500000, .i32⟩ : BufTy).Contents (Elt F) → (⟨S500000, .i32⟩ : BufTy).Contents (Elt F) → (⟨S500000, .i32⟩ : BufTy).Contents (Elt F)),
    ternary main_v749 main_v751 main_v710 main_v752 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v752 main_v753 (broadcastInDim S500000x1 ![0] bcast_S500000_S500000x1_0 : (⟨S500000, .i32⟩ : BufTy).Contents (Elt F) → (⟨S500000x1, .i32⟩ : BufTy).Contents (Elt F)),
    binary main_v732 main_v753 main_v754 ((fun x i => Host.gather gather_S60000x64_S500000x1_S500000x64_1_0_n_n_0_1_164 x i) : (⟨S60000x64, .f32⟩ : BufTy).Contents (Elt F) → (⟨S500000x1, .i32⟩ : BufTy).Contents (Elt F) → (⟨S500000x64, .f32⟩ : BufTy).Contents (Elt F)),
    unary main_v747 main_v755 (broadcastInDim S500000x1 ![0] bcast_S500000_S500000x1_0 : (⟨S500000, .f32⟩ : BufTy).Contents (Elt F) → (⟨S500000x1, .f32⟩ : BufTy).Contents (Elt F)),
    unary main_v755 main_v756 (broadcastInDim S500000x64 ![0, 1] bcast_S500000x1_S500000x64_0_1 : (⟨S500000x1, .f32⟩ : BufTy).Contents (Elt F) → (⟨S500000x64, .f32⟩ : BufTy).Contents (Elt F)),
    binary main_v754 main_v756 main_v757 (mulf : (⟨S500000x64, .f32⟩ : BufTy).Contents (Elt F) → (⟨S500000x64, .f32⟩ : BufTy).Contents (Elt F) → (⟨S500000x64, .f32⟩ : BufTy).Contents (Elt F)),
    nullary main_cst_194 (constant S_ .f32 0x00000000#32),
    unary main_cst_194 main_v758 (broadcastInDim S20000x64 ![] bcast_S_S20000x64 : (⟨S_, .f32⟩ : BufTy).Contents (Elt F) → (⟨S20000x64, .f32⟩ : BufTy).Contents (Elt F)),
    unary main_v712 main_v759 (broadcastInDim S500000x1 ![0] bcast_S500000_S500000x1_0 : (⟨S500000, .i32⟩ : BufTy).Contents (Elt F) → (⟨S500000x1, .i32⟩ : BufTy).Contents (Elt F)),
    ternary main_v758 main_v759 main_v757 main_v760 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    unary main_v708 main_v761 (broadcastInDim S1x64 ![1] bcast_S64_S1x64_1 : (⟨S64, .f32⟩ : BufTy).Contents (Elt F) → (⟨S1x64, .f32⟩ : BufTy).Contents (Elt F)),
    unary main_v761 main_v762 (broadcastInDim S20000x64 ![0, 1] bcast_S1x64_S20000x64_0_1 : (⟨S1x64, .f32⟩ : BufTy).Contents (Elt F) → (⟨S20000x64, .f32⟩ : BufTy).Contents (Elt F)),
    binary main_v760 main_v762 main_v763 (addf : (⟨S20000x64, .f32⟩ : BufTy).Contents (Elt F) → (⟨S20000x64, .f32⟩ : BufTy).Contents (Elt F) → (⟨S20000x64, .f32⟩ : BufTy).Contents (Elt F)),
    binary main_v704 main_v763 main_v764 (addf : (⟨S20000x64, .f32⟩ : BufTy).Contents (Elt F) → (⟨S20000x64, .f32⟩ : BufTy).Contents (Elt F) → (⟨S20000x64, .f32⟩ : BufTy).Contents (Elt F)),
    unary main_arg11 main_v765 ((extractStridedSlice S1x128x64 ![5, 0, 0] · slices_S6x128x64_S1x128x64_5_0_0) : (⟨S6x128x64, .f32⟩ : BufTy).Contents (Elt F) → (⟨S1x128x64, .f32⟩ : BufTy).Contents (Elt F)),
    reshape main_v765 main_v766 rfl shapeCasts_S1x128x64_S128x64 ]

/-- Each touches TensorCore references only. -/
theorem ops_G17b_sub : (ops_G17b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub ..⟩

/-- None allocates a buffer. -/
theorem ops_G17b_fresh : ∀ op ∈ (ops_G17b : List (HloOp τ sig (Elt F))), op.fresh = ∅ :=
  List.forall_iff_forall_mem.1 (show (ops_G17b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G17b : List (Ref sig .tc) :=
  [main_c_188, main_v733, main_v734, main_c_189, main_v735, main_v736, main_v737, main_v738, main_v739, main_c_190, main_v740, main_v741, main_c_191, main_v742, main_v743, main_v744, main_v745, main_v746, main_v747, main_c_192, main_v748, main_v749, main_c_193, main_v750, main_v751, main_v752, main_v753, main_v754, main_v755, main_v756, main_v757, main_cst_194, main_v758, main_v759, main_v760, main_v761, main_v762, main_v763, main_v764, main_v765, main_v766]

/-- Each operation writes a reference of that list only. -/
theorem ops_G17b_writes : (ops_G17b : List (HloOp τ sig (Elt F))).Forall fun op =>
    op.writes ⊆ (writes_G17b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) ..⟩

end Cert.ReferenceIdeal.Hand

end
-- ==== Proof.Ref.Chunk_G18a.lean ====
/- Operations 1014 … 1051 of the reference's @main (38 of 1191), as a list; each touches TensorCore references only, none allocates, and each writes one reference of the list `writes_G18a`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1014 … 1051 of @main, in program order. -/
abbrev ops_G18a : List (HloOp τ sig (Elt F)) :=
  [ unary main_arg12 main_v767 ((extractStridedSlice S1x64 ![5, 0] · slices_S6x64_S1x64_5_0) : (⟨S6x64, .f32⟩ : BufTy).Contents (Elt F) → (⟨S1x64, .f32⟩ : BufTy).Contents (Elt F)),
    reshape main_v767 main_v768 rfl shapeCasts_S1x64_S64,
    unary main_arg22 main_v769 ((extractStridedSlice S1x500000 ![0, 0] · slices_S2x500000_S1x500000_0_0) : (⟨S2x500000, .i32⟩ : BufTy).Contents (Elt F) → (⟨S1x500000, .i32⟩ : BufTy).Contents (Elt F)),
    reshape main_v769 main_v770 rfl shapeCasts_S1x500000_S500000,
    unary main_arg22 main_v771 ((extractStridedSlice S1x500000 ![1, 0] · slices_S2x500000_S1x500000_1_0) : (⟨S2x500000, .i32⟩ : BufTy).Contents (Elt F) → (⟨S1x500000, .i32⟩ : BufTy).Contents (Elt F)),
    reshape main_v771 main_v772 rfl shapeCasts_S1x500000_S500000,
    nullary main_cst_195 (constant S_ .f32 0x3F800000#32),
    unary main_cst_195 main_v773 (broadcastInDim S500000 ![] bcast_S_S500000 : (⟨S_, .f32⟩ : BufTy).Contents (Elt F) → (⟨S500000, .f32⟩ : BufTy).Contents (Elt F)),
    nullary main_cst_196 (constant S_ .f32 0x00000000#32),
    unary main_cst_196 main_v774 (broadcastInDim S20000 ![] bcast_S_S20000 : (⟨S_, .f32⟩ : BufTy).Contents (Elt F) → (⟨S20000, .f32⟩ : BufTy).Contents (Elt F)),
    unary main_v770 main_v775 (broadcastInDim S500000x1 ![0] bcast_S500000_S500000x1_0 : (⟨S500000, .i32⟩ : BufTy).Contents (Elt F) → (⟨S500000x1, .i32⟩ : BufTy).Contents (Elt F)),
    ternary main_v774 main_v775 main_v773 main_v776 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_197 (constant S_ .f32 0x00000000#32),
    unary main_cst_197 main_v777 (broadcastInDim S60000 ![] bcast_S_S60000 : (⟨S_, .f32⟩ : BufTy).Contents (Elt F) → (⟨S60000, .f32⟩ : BufTy).Contents (Elt F)),
    unary main_v772 main_v778 (broadcastInDim S500000x1 ![0] bcast_S500000_S500000x1_0 : (⟨S500000, .i32⟩ : BufTy).Contents (Elt F) → (⟨S500000x1, .i32⟩ : BufTy).Contents (Elt F)),
    ternary main_v777 main_v778 main_v773 main_v779 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_198 (constant S_ .f32 0x00000000#32),
    unary main_cst_198 main_v780 (broadcastInDim S20000 ![] bcast_S_S20000 : (⟨S_, .f32⟩ : BufTy).Contents (Elt F) → (⟨S20000, .f32⟩ : BufTy).Contents (Elt F)),
    binary main_v776 main_v780 main_v781 (cmpf .ogt : (⟨S20000, .f32⟩ : BufTy).Contents (Elt F) → (⟨S20000, .f32⟩ : BufTy).Contents (Elt F) → (⟨S20000, .i1⟩ : BufTy).Contents (Elt F)),
    nullary main_cst_199 (constant S_ .f32 0x3F800000#32),
    unary main_cst_199 main_v782 (broadcastInDim S20000 ![] bcast_S_S20000 : (⟨S_, .f32⟩ : BufTy).Contents (Elt F) → (⟨S20000, .f32⟩ : BufTy).Contents (Elt F)),
    binary main_v776 main_v782 main_v783 (maximumf : (⟨S20000, .f32⟩ : BufTy).Contents (Elt F) → (⟨S20000, .f32⟩ : BufTy).Contents (Elt F) → (⟨S20000, .f32⟩ : BufTy).Contents (Elt F)),
    unary main_v783 main_v784 (Host.rsqrt : (⟨S20000, .f32⟩ : BufTy).Contents (Elt F) → (⟨S20000, .f32⟩ : BufTy).Contents (Elt F)),
    nullary main_cst_200 (constant S_ .f32 0x00000000#32),
    TRef.unary (TRef.of (T := ⟨S_, .f32⟩) main_cst_200) (TRef.of (T := ⟨S_, .f32⟩) main_call25_v0) id,
    TRef.unary (TRef.of (T := ⟨S_, .f32⟩) main_call25_v0) (TRef.of (T := ⟨S20000, .f32⟩) main_call25_v1) (broadcastInDim S20000 ![] bcast_S_S20000),
    TRef.ternary (TRef.of (T := ⟨S20000, .i1⟩) main_v781) (TRef.of (T := ⟨S20000, .f32⟩) main_v784) (TRef.of (T := ⟨S20000, .f32⟩) main_call25_v1) (TRef.of (T := ⟨S20000, .f32⟩) main_v785) select,
    nullary main_cst_201 (constant S_ .f32 0x00000000#32),
    unary main_cst_201 main_v786 (broadcastInDim S60000 ![] bcast_S_S60000 : (⟨S_, .f32⟩ : BufTy).Contents (Elt F) → (⟨S60000, .f32⟩ : BufTy).Contents (Elt F)),
    binary main_v779 main_v786 main_v787 (cmpf .ogt : (⟨S60000, .f32⟩ : BufTy).Contents (Elt F) → (⟨S60000, .f32⟩ : BufTy).Contents (Elt F) → (⟨S60000, .i1⟩ : BufTy).Contents (Elt F)),
    nullary main_cst_202 (constant S_ .f32 0x3F800000#32),
    unary main_cst_202 main_v788 (broadcastInDim S60000 ![] bcast_S_S60000 : (⟨S_, .f32⟩ : BufTy).Contents (Elt F) → (⟨S60000, .f32⟩ : BufTy).Contents (Elt F)),
    binary main_v779 main_v788 main_v789 (maximumf : (⟨S60000, .f32⟩ : BufTy).Contents (Elt F) → (⟨S60000, .f32⟩ : BufTy).Contents (Elt F) → (⟨S60000, .f32⟩ : BufTy).Contents (Elt F)),
    unary main_v789 main_v790 (Host.rsqrt : (⟨S60000, .f32⟩ : BufTy).Contents (Elt F) → (⟨S60000, .f32⟩ : BufTy).Contents (Elt F)),
    nullary main_cst_203 (constant S_ .f32 0x00000000#32),
    TRef.unary (TRef.of (T := ⟨S_, .f32⟩) main_cst_203) (TRef.of (T := ⟨S_, .f32⟩) main_call26_v0) id,
    TRef.unary (TRef.of (T := ⟨S_, .f32⟩) main_call26_v0) (TRef.of (T := ⟨S60000, .f32⟩) main_call26_v1) (broadcastInDim S60000 ![] bcast_S_S60000),
    TRef.ternary (TRef.of (T := ⟨S60000, .i1⟩) main_v787) (TRef.of (T := ⟨S60000, .f32⟩) main_v790) (TRef.of (T := ⟨S60000, .f32⟩) main_call26_v1) (TRef.of (T := ⟨S60000, .f32⟩) main_v791) select ]

/-- Each touches TensorCore references only. -/
theorem ops_G18a_sub : (ops_G18a : List (HloOp τ sig (Elt F))).Forall fun op => op.bufs ⊆ StableHlo.tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem ops_G18a_fresh : ∀ op ∈ (ops_G18a : List (HloOp τ sig (Elt F))), op.fresh = ∅ :=
  List.forall_iff_forall_mem.1 (show (ops_G18a : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G18a : List (Ref sig .tc) :=
  [main_v767, main_v768, main_v769, main_v770, main_v771, main_v772, main_cst_195, main_v773, main_cst_196, main_v774, main_v775, main_v776, main_cst_197, main_v777, main_v778, main_v779, main_cst_198, main_v780, main_v781, main_cst_199, main_v782, main_v783, main_v784, main_cst_200, main_call25_v0, main_call25_v1, main_v785, main_cst_201, main_v786, main_v787, main_cst_202, main_v788, main_v789, main_v790, main_cst_203, main_call26_v0, main_call26_v1, main_v791]

/-- Each operation writes a reference of that list only. -/
theorem ops_G18a_writes : (ops_G18a : List (HloOp τ sig (Elt F))).Forall fun op =>
    op.writes ⊆ (writes_G18a.map (Proc.devRef (τ := τ) .tc)).toFinset :=
  ⟨unary_writes_sub (h := by decide) .., reshape_writes_sub (h := by decide) .., unary_writes_sub (h := by decide) .., reshape_writes_sub (h := by decide) .., unary_writes_sub (h := by decide) .., reshape_writes_sub (h := by decide) .., nullary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) .., nullary_writes_sub (h := by decide) .., unary_writes_sub (h := by decide) .., binary_writes_sub (h := by decide) .., nullary_writes_sub (h := by decide) .., unary_writes_sub (h := by decide) .., binary_writes_sub (h := by decide) .., unary_writes_sub (h := by decide) .., nullary_writes_sub (h := by decide) .., unary_writes_sub (h := by decide) .., unary_writes_sub (h := by decide) .., ternary_writes_sub (h := by decide) ..⟩

end Cert.ReferenceIdeal.Hand

end
-- ==== Proof.Ref.Chunk_D17.lean ====
/- Operations 1052 … 1052 of the reference's @main (1 of 1191), as a list; each touches TensorCore references only, none allocates, and each writes one reference of the list `writes_D17`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1052 … 1052 of @main, in program order. -/
abbrev ops_D17 : List (HloOp τ sig (Elt F)) :=
  [ binary main_v461 main_v766 main_v792 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)) ]

/-- Each touches TensorCore references only. -/
theorem ops_D17_sub : (ops_D17 : List (HloOp τ sig (Elt F))).Forall fun op => op.bufs ⊆ StableHlo.tcRefs τ sig :=
  binary_bufs_sub ..

/-- None allocates a buffer. -/
theorem ops_D17_fresh : ∀ op ∈ (ops_D17 : List (HloOp τ sig (Elt F))), op.fresh = ∅ :=
  List.forall_iff_forall_mem.1 (show (ops_D17 : List (HloOp τ sig (Elt F))).Forall (fun op => op.fresh = ∅) from rfl)

/-- The references the operations write, in order. -/
abbrev writes_D17 : List (Ref sig .tc) :=
  [main_v792]

/-- Each operation writes a reference of that list only. -/
theorem ops_D17_writes : (ops_D17 : List (HloOp τ sig (Elt F))).Forall fun op =>
    op.writes ⊆ (writes_D17.map (Proc.devRef (τ := τ) .tc)).toFinset :=
  binary_writes_sub (h := by decide) ..

end Cert.ReferenceIdeal.Hand

end
-- ==== Proof.Ref.Chunk_G18b.lean ====
/- Operations 1053 … 1095 of the reference's @main (43 of 1191), as a list; each touches TensorCore references only, none allocates, and each writes one reference of the list `writes_G18b`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1053 … 1095 of @main, in program order. -/
abbrev ops_G18b : List (HloOp τ sig (Elt F)) :=
  [ nullary main_c_204 (constantI S_ 32 0#32),
    unary main_c_204 main_v793 (broadcastInDim S500000 ![] bcast_S_S500000 : (⟨S_, .i32⟩ : BufTy).Contents (Elt F) → (⟨S500000, .i32⟩ : BufTy).Contents (Elt F)),
    binary main_v770 main_v793 main_v794 (cmpi .slt : (⟨S500000, .i32⟩ : BufTy).Contents (Elt F) → (⟨S500000, .i32⟩ : BufTy).Contents (Elt F) → (⟨S500000, .i1⟩ : BufTy).Contents (Elt F)),
    nullary main_c_205 (constantI S_ 32 20000#32),
    unary main_c_205 main_v795 (broadcastInDim S500000 ![] bcast_S_S500000 : (⟨S_, .i32⟩ : BufTy).Contents (Elt F) → (⟨S500000, .i32⟩ : BufTy).Contents (Elt F)),
    binary main_v770 main_v795 main_v796 (addi : (⟨S500000, .i32⟩ : BufTy).Contents (Elt F) → (⟨S500000, .i32⟩ : BufTy).Contents (Elt F) → (⟨S500000, .i32⟩ : BufTy).Contents (Elt F)),
    ternary main_v794 main_v796 main_v770 main_v797 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v797 main_v798 (broadcastInDim S500000x1 ![0] bcast_S500000_S500000x1_0 : (⟨S500000, .i32⟩ : BufTy).Contents (Elt F) → (⟨S500000x1, .i32⟩ : BufTy).Contents (Elt F)),
    binary main_v785 main_v798 main_v799 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_206 (constantI S_ 32 0#32),
    unary main_c_206 main_v800 (broadcastInDim S500000 ![] bcast_S_S500000 : (⟨S_, .i32⟩ : BufTy).Contents (Elt F) → (⟨S500000, .i32⟩ : BufTy).Contents (Elt F)),
    binary main_v772 main_v800 main_v801 (cmpi .slt : (⟨S500000, .i32⟩ : BufTy).Contents (Elt F) → (⟨S500000, .i32⟩ : BufTy).Contents (Elt F) → (⟨S500000, .i1⟩ : BufTy).Contents (Elt F)),
    nullary main_c_207 (constantI S_ 32 60000#32),
    unary main_c_207 main_v802 (broadcastInDim S500000 ![] bcast_S_S500000 : (⟨S_, .i32⟩ : BufTy).Contents (Elt F) → (⟨S500000, .i32⟩ : BufTy).Contents (Elt F)),
    binary main_v772 main_v802 main_v803 (addi : (⟨S500000, .i32⟩ : BufTy).Contents (Elt F) → (⟨S500000, .i32⟩ : BufTy).Contents (Elt F) → (⟨S500000, .i32⟩ : BufTy).Contents (Elt F)),
    ternary main_v801 main_v803 main_v772 main_v804 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v804 main_v805 (broadcastInDim S500000x1 ![0] bcast_S500000_S500000x1_0 : (⟨S500000, .i32⟩ : BufTy).Contents (Elt F) → (⟨S500000x1, .i32⟩ : BufTy).Contents (Elt F)),
    binary main_v791 main_v805 main_v806 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    binary main_v799 main_v806 main_v807 (mulf : (⟨S500000, .f32⟩ : BufTy).Contents (Elt F) → (⟨S500000, .f32⟩ : BufTy).Contents (Elt F) → (⟨S500000, .f32⟩ : BufTy).Contents (Elt F)),
    nullary main_c_208 (constantI S_ 32 0#32),
    unary main_c_208 main_v808 (broadcastInDim S500000 ![] bcast_S_S500000 : (⟨S_, .i32⟩ : BufTy).Contents (Elt F) → (⟨S500000, .i32⟩ : BufTy).Contents (Elt F)),
    binary main_v770 main_v808 main_v809 (cmpi .slt : (⟨S500000, .i32⟩ : BufTy).Contents (Elt F) → (⟨S500000, .i32⟩ : BufTy).Contents (Elt F) → (⟨S500000, .i1⟩ : BufTy).Contents (Elt F)),
    nullary main_c_209 (constantI S_ 32 20000#32),
    unary main_c_209 main_v810 (broadcastInDim S500000 ![] bcast_S_S500000 : (⟨S_, .i32⟩ : BufTy).Contents (Elt F) → (⟨S500000, .i32⟩ : BufTy).Contents (Elt F)),
    binary main_v770 main_v810 main_v811 (addi : (⟨S500000, .i32⟩ : BufTy).Contents (Elt F) → (⟨S500000, .i32⟩ : BufTy).Contents (Elt F) → (⟨S500000, .i32⟩ : BufTy).Contents (Elt F)),
    ternary main_v809 main_v811 main_v770 main_v812 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v812 main_v813 (broadcastInDim S500000x1 ![0] bcast_S500000_S500000x1_0 : (⟨S500000, .i32⟩ : BufTy).Contents (Elt F) → (⟨S500000x1, .i32⟩ : BufTy).Contents (Elt F)),
    binary main_v792 main_v813 main_v814 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    unary main_v807 main_v815 (broadcastInDim S500000x1 ![0] bcast_S500000_S500000x1_0 : (⟨S500000, .f32⟩ : BufTy).Contents (Elt F) → (⟨S500000x1, .f32⟩ : BufTy).Contents (Elt F)),
    unary main_v815 main_v816 (broadcastInDim S500000x64 ![0, 1] bcast_S500000x1_S500000x64_0_1 : (⟨S500000x1, .f32⟩ : BufTy).Contents (Elt F) → (⟨S500000x64, .f32⟩ : BufTy).Contents (Elt F)),
    binary main_v814 main_v816 main_v817 (mulf : (⟨S500000x64, .f32⟩ : BufTy).Contents (Elt F) → (⟨S500000x64, .f32⟩ : BufTy).Contents (Elt F) → (⟨S500000x64, .f32⟩ : BufTy).Contents (Elt F)),
    nullary main_cst_210 (constant S_ .f32 0x00000000#32),
    unary main_cst_210 main_v818 (broadcastInDim S60000x64 ![] bcast_S_S60000x64 : (⟨S_, .f32⟩ : BufTy).Contents (Elt F) → (⟨S60000x64, .f32⟩ : BufTy).Contents (Elt F)),
    unary main_v772 main_v819 (broadcastInDim S500000x1 ![0] bcast_S500000_S500000x1_0 : (⟨S500000, .i32⟩ : BufTy).Contents (Elt F) → (⟨S500000x1, .i32⟩ : BufTy).Contents (Elt F)),
    ternary main_v818 main_v819 main_v817 main_v820 ((fun x i u => Host.scatterAdd scatter_S60000x64_S500000x1_S500000x64_1_0_0_1 x i u) : (⟨S60000x64, .f32⟩ : BufTy).Contents (Elt F) → (⟨S500000x1, .i32⟩ : BufTy).Contents (Elt F) → (⟨S500000x64, .f32⟩ : BufTy).Contents (Elt F) → (⟨S60000x64, .f32⟩ : BufTy).Contents (Elt F)),
    unary main_v768 main_v821 (broadcastInDim S1x64 ![1] bcast_S64_S1x64_1 : (⟨S64, .f32⟩ : BufTy).Contents (Elt F) → (⟨S1x64, .f32⟩ : BufTy).Contents (Elt F)),
    unary main_v821 main_v822 (broadcastInDim S60000x64 ![0, 1] bcast_S1x64_S60000x64_0_1 : (⟨S1x64, .f32⟩ : BufTy).Contents (Elt F) → (⟨S60000x64, .f32⟩ : BufTy).Contents (Elt F)),
    binary main_v820 main_v822 main_v823 (addf : (⟨S60000x64, .f32⟩ : BufTy).Contents (Elt F) → (⟨S60000x64, .f32⟩ : BufTy).Contents (Elt F) → (⟨S60000x64, .f32⟩ : BufTy).Contents (Elt F)),
    binary main_v584 main_v823 main_v824 (addf : (⟨S60000x64, .f32⟩ : BufTy).Contents (Elt F) → (⟨S60000x64, .f32⟩ : BufTy).Contents (Elt F) → (⟨S60000x64, .f32⟩ : BufTy).Contents (Elt F)),
    unary main_arg15 main_v825 ((extractStridedSlice S1x64 ![0, 0] · slices_S3x64_S1x64_0_0) : (⟨S3x64, .f32⟩ : BufTy).Contents (Elt F) → (⟨S1x64, .f32⟩ : BufTy).Contents (Elt F)),
    reshape main_v825 main_v826 rfl shapeCasts_S1x64_S64,
    unary main_arg16 main_v827 ((extractStridedSlice S1x64 ![0, 0] · slices_S3x64_S1x64_0_0) : (⟨S3x64, .f32⟩ : BufTy).Contents (Elt F) → (⟨S1x64, .f32⟩ : BufTy).Contents (Elt F)),
    reshape main_v827 main_v828 rfl shapeCasts_S1x64_S64 ]

/-- Each touches TensorCore references only. -/
theorem ops_G18b_sub : (ops_G18b : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., reshape_bufs_sub ..⟩

/-- None allocates a buffer. -/
theorem ops_G18b_fresh : ∀ op ∈ (ops_G18b : List (HloOp τ sig (Elt F))), op.fresh = ∅ :=
  List.forall_iff_forall_mem.1 (show (ops_G18b : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_G18b : List (Ref sig .tc) :=
  [main_c_204, main_v793, main_v794, main_c_205, main_v795, main_v796, main_v797, main_v798, main_v799, main_c_206, main_v800, main_v801, main_c_207, main_v802, main_v803, main_v804, main_v805, main_v806, main_v807, main_c_208, main_v808, main_v809, main_c_209, main_v810, main_v811, main_v812, main_v813, main_v814, main_v815, main_v816, main_v817, main_cst_210, main_v818, main_v819, main_v820, main_v821, main_v822, main_v823, main_v824, main_v825, main_v826, main_v827, main_v828]

/-- Each operation writes a reference of that list only. -/
theorem ops_G18b_writes : (ops_G18b : List (HloOp τ sig (Elt F))).Forall fun op =>
    op.writes ⊆ (writes_G18b.map (Proc.devRef (τ := τ) .tc)).toFinset :=
  ⟨nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., binary_writes_sub (h := by decide) .., nullary_writes_sub (h := by decide) .., unary_writes_sub (h := by decide) .., binary_writes_sub (h := by decide) .., nullary_writes_sub (h := by decide) .., unary_writes_sub (h := by decide) .., binary_writes_sub (h := by decide) .., ternary_writes_sub (h := by decide) .., unary_writes_sub (h := by decide) .., binary_writes_sub (h := by decide) .., unary_writes_sub (h := by decide) .., unary_writes_sub (h := by decide) .., binary_writes_sub (h := by decide) .., nullary_writes_sub (h := by decide) .., unary_writes_sub (h := by decide) .., unary_writes_sub (h := by decide) .., ternary_writes_sub (h := by decide) .., unary_writes_sub (h := by decide) .., unary_writes_sub (h := by decide) .., binary_writes_sub (h := by decide) .., binary_writes_sub (h := by decide) .., unary_writes_sub (h := by decide) .., reshape_writes_sub (h := by decide) .., unary_writes_sub (h := by decide) .., reshape_writes_sub (h := by decide) ..⟩

end Cert.ReferenceIdeal.Hand

end
-- ==== Proof.Ref.Chunk_L18.lean ====
/- Operations 1096 … 1124 of the reference's @main (29 of 1191), as a list; each touches TensorCore references only, none allocates, and each writes one reference of the list `writes_L18`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1096 … 1124 of @main, in program order. -/
abbrev ops_L18 : List (HloOp τ sig (Elt F)) :=
  [ nullary main_cst_211 (constant S_ .f32 0x00000000#32),
    binary main_v764 main_cst_211 main_v829 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v829 main_v830 (broadcastInDim S20000x1 ![0] bcast_S20000_S20000x1_0 : (⟨S20000, .f32⟩ : BufTy).Contents (Elt F) → (⟨S20000x1, .f32⟩ : BufTy).Contents (Elt F)),
    nullary main_cst_212 (constant S_ .f32 0x42800000#32),
    unary main_cst_212 main_v831 (broadcastInDim S20000x1 ![] bcast_S_S20000x1 : (⟨S_, .f32⟩ : BufTy).Contents (Elt F) → (⟨S20000x1, .f32⟩ : BufTy).Contents (Elt F)),
    binary main_v830 main_v831 main_v832 (Host.divf : (⟨S20000x1, .f32⟩ : BufTy).Contents (Elt F) → (⟨S20000x1, .f32⟩ : BufTy).Contents (Elt F) → (⟨S20000x1, .f32⟩ : BufTy).Contents (Elt F)),
    unary main_v832 main_v833 (broadcastInDim S20000x64 ![0, 1] bcast_S20000x1_S20000x64_0_1 : (⟨S20000x1, .f32⟩ : BufTy).Contents (Elt F) → (⟨S20000x64, .f32⟩ : BufTy).Contents (Elt F)),
    binary main_v764 main_v833 main_v834 (subf : (⟨S20000x64, .f32⟩ : BufTy).Contents (Elt F) → (⟨S20000x64, .f32⟩ : BufTy).Contents (Elt F) → (⟨S20000x64, .f32⟩ : BufTy).Contents (Elt F)),
    binary main_v834 main_v834 main_v835 (mulf : (⟨S20000x64, .f32⟩ : BufTy).Contents (Elt F) → (⟨S20000x64, .f32⟩ : BufTy).Contents (Elt F) → (⟨S20000x64, .f32⟩ : BufTy).Contents (Elt F)),
    nullary main_cst_213 (constant S_ .f32 0x00000000#32),
    binary main_v835 main_cst_213 main_v836 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v836 main_v837 (broadcastInDim S20000x1 ![0] bcast_S20000_S20000x1_0 : (⟨S20000, .f32⟩ : BufTy).Contents (Elt F) → (⟨S20000x1, .f32⟩ : BufTy).Contents (Elt F)),
    nullary main_cst_214 (constant S_ .f32 0x42800000#32),
    unary main_cst_214 main_v838 (broadcastInDim S20000x1 ![] bcast_S_S20000x1 : (⟨S_, .f32⟩ : BufTy).Contents (Elt F) → (⟨S20000x1, .f32⟩ : BufTy).Contents (Elt F)),
    binary main_v837 main_v838 main_v839 (Host.divf : (⟨S20000x1, .f32⟩ : BufTy).Contents (Elt F) → (⟨S20000x1, .f32⟩ : BufTy).Contents (Elt F) → (⟨S20000x1, .f32⟩ : BufTy).Contents (Elt F)),
    unary main_v832 main_v840 (broadcastInDim S20000x64 ![0, 1] bcast_S20000x1_S20000x64_0_1 : (⟨S20000x1, .f32⟩ : BufTy).Contents (Elt F) → (⟨S20000x64, .f32⟩ : BufTy).Contents (Elt F)),
    binary main_v764 main_v840 main_v841 (subf : (⟨S20000x64, .f32⟩ : BufTy).Contents (Elt F) → (⟨S20000x64, .f32⟩ : BufTy).Contents (Elt F) → (⟨S20000x64, .f32⟩ : BufTy).Contents (Elt F)),
    nullary main_cst_215 (constant S_ .f32 0x3727C5AC#32),
    unary main_cst_215 main_v842 (broadcastInDim S20000x1 ![] bcast_S_S20000x1 : (⟨S_, .f32⟩ : BufTy).Contents (Elt F) → (⟨S20000x1, .f32⟩ : BufTy).Contents (Elt F)),
    binary main_v839 main_v842 main_v843 (addf : (⟨S20000x1, .f32⟩ : BufTy).Contents (Elt F) → (⟨S20000x1, .f32⟩ : BufTy).Contents (Elt F) → (⟨S20000x1, .f32⟩ : BufTy).Contents (Elt F)),
    unary main_v843 main_v844 (Host.rsqrt : (⟨S20000x1, .f32⟩ : BufTy).Contents (Elt F) → (⟨S20000x1, .f32⟩ : BufTy).Contents (Elt F)),
    unary main_v844 main_v845 (broadcastInDim S20000x64 ![0, 1] bcast_S20000x1_S20000x64_0_1 : (⟨S20000x1, .f32⟩ : BufTy).Contents (Elt F) → (⟨S20000x64, .f32⟩ : BufTy).Contents (Elt F)),
    binary main_v841 main_v845 main_v846 (mulf : (⟨S20000x64, .f32⟩ : BufTy).Contents (Elt F) → (⟨S20000x64, .f32⟩ : BufTy).Contents (Elt F) → (⟨S20000x64, .f32⟩ : BufTy).Contents (Elt F)),
    unary main_v826 main_v847 (broadcastInDim S1x64 ![1] bcast_S64_S1x64_1 : (⟨S64, .f32⟩ : BufTy).Contents (Elt F) → (⟨S1x64, .f32⟩ : BufTy).Contents (Elt F)),
    unary main_v847 main_v848 (broadcastInDim S20000x64 ![0, 1] bcast_S1x64_S20000x64_0_1 : (⟨S1x64, .f32⟩ : BufTy).Contents (Elt F) → (⟨S20000x64, .f32⟩ : BufTy).Contents (Elt F)),
    binary main_v846 main_v848 main_v849 (mulf : (⟨S20000x64, .f32⟩ : BufTy).Contents (Elt F) → (⟨S20000x64, .f32⟩ : BufTy).Contents (Elt F) → (⟨S20000x64, .f32⟩ : BufTy).Contents (Elt F)),
    unary main_v828 main_v850 (broadcastInDim S1x64 ![1] bcast_S64_S1x64_1 : (⟨S64, .f32⟩ : BufTy).Contents (Elt F) → (⟨S1x64, .f32⟩ : BufTy).Contents (Elt F)),
    unary main_v850 main_v851 (broadcastInDim S20000x64 ![0, 1] bcast_S1x64_S20000x64_0_1 : (⟨S1x64, .f32⟩ : BufTy).Contents (Elt F) → (⟨S20000x64, .f32⟩ : BufTy).Contents (Elt F)),
    binary main_v849 main_v851 main_v852 (addf : (⟨S20000x64, .f32⟩ : BufTy).Contents (Elt F) → (⟨S20000x64, .f32⟩ : BufTy).Contents (Elt F) → (⟨S20000x64, .f32⟩ : BufTy).Contents (Elt F)) ]

/-- Each touches TensorCore references only. -/
theorem ops_L18_sub : (ops_L18 : List (HloOp τ sig (Elt F))).Forall fun op => op.bufs ⊆ StableHlo.tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- None allocates a buffer. -/
theorem ops_L18_fresh : ∀ op ∈ (ops_L18 : List (HloOp τ sig (Elt F))), op.fresh = ∅ :=
  List.forall_iff_forall_mem.1 (show (ops_L18 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_L18 : List (Ref sig .tc) :=
  [main_cst_211, main_v829, main_v830, main_cst_212, main_v831, main_v832, main_v833, main_v834, main_v835, main_cst_213, main_v836, main_v837, main_cst_214, main_v838, main_v839, main_v840, main_v841, main_cst_215, main_v842, main_v843, main_v844, main_v845, main_v846, main_v847, main_v848, main_v849, main_v850, main_v851, main_v852]

/-- Each operation writes a reference of that list only. -/
theorem ops_L18_writes : (ops_L18 : List (HloOp τ sig (Elt F))).Forall fun op =>
    op.writes ⊆ (writes_L18.map (Proc.devRef (τ := τ) .tc)).toFinset :=
  ⟨nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., binary_writes_sub (h := by decide) .., nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., nullary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) ..⟩

end Cert.ReferenceIdeal.Hand

end
-- ==== Proof.Ref.Chunk_H19.lean ====
/- Operations 1125 … 1128 of the reference's @main (4 of 1191), as a list; each touches TensorCore references only, none allocates, and each writes one reference of the list `writes_H19`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1125 … 1128 of @main, in program order. -/
abbrev ops_H19 : List (HloOp τ sig (Elt F)) :=
  [ unary main_arg15 main_v853 ((extractStridedSlice S1x64 ![1, 0] · slices_S3x64_S1x64_1_0) : (⟨S3x64, .f32⟩ : BufTy).Contents (Elt F) → (⟨S1x64, .f32⟩ : BufTy).Contents (Elt F)),
    reshape main_v853 main_v854 rfl shapeCasts_S1x64_S64,
    unary main_arg16 main_v855 ((extractStridedSlice S1x64 ![1, 0] · slices_S3x64_S1x64_1_0) : (⟨S3x64, .f32⟩ : BufTy).Contents (Elt F) → (⟨S1x64, .f32⟩ : BufTy).Contents (Elt F)),
    reshape main_v855 main_v856 rfl shapeCasts_S1x64_S64 ]

/-- Each touches TensorCore references only. -/
theorem ops_H19_sub : (ops_H19 : List (HloOp τ sig (Elt F))).Forall fun op => op.bufs ⊆ StableHlo.tcRefs τ sig :=
  ⟨unary_bufs_sub .., reshape_bufs_sub .., unary_bufs_sub .., reshape_bufs_sub ..⟩

/-- None allocates a buffer. -/
theorem ops_H19_fresh : ∀ op ∈ (ops_H19 : List (HloOp τ sig (Elt F))), op.fresh = ∅ :=
  List.forall_iff_forall_mem.1 (show (ops_H19 : List (HloOp τ sig (Elt F))).Forall (fun op => op.fresh = ∅) from ⟨rfl, rfl, rfl, rfl⟩)

/-- The references the operations write, in order. -/
abbrev writes_H19 : List (Ref sig .tc) :=
  [main_v853, main_v854, main_v855, main_v856]

/-- Each operation writes a reference of that list only. -/
theorem ops_H19_writes : (ops_H19 : List (HloOp τ sig (Elt F))).Forall fun op =>
    op.writes ⊆ (writes_H19.map (Proc.devRef (τ := τ) .tc)).toFinset :=
  ⟨unary_writes_sub (h := by decide) .., reshape_writes_sub (h := by decide) .., unary_writes_sub (h := by decide) .., reshape_writes_sub (h := by decide) ..⟩

end Cert.ReferenceIdeal.Hand

end
-- ==== Proof.Ref.Chunk_L19.lean ====
/- Operations 1129 … 1157 of the reference's @main (29 of 1191), as a list; each touches TensorCore references only, none allocates, and each writes one reference of the list `writes_L19`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1129 … 1157 of @main, in program order. -/
abbrev ops_L19 : List (HloOp τ sig (Elt F)) :=
  [ nullary main_cst_216 (constant S_ .f32 0x00000000#32),
    binary main_v824 main_cst_216 main_v857 ((fun x v => Host.reduceAdd x v reducesTo_S60000x64_S60000_d1 h_S_) : (⟨S60000x64, .f32⟩ : BufTy).Contents (Elt F) → (⟨S_, .f32⟩ : BufTy).Contents (Elt F) → (⟨S60000, .f32⟩ : BufTy).Contents (Elt F)),
    unary main_v857 main_v858 (broadcastInDim S60000x1 ![0] bcast_S60000_S60000x1_0 : (⟨S60000, .f32⟩ : BufTy).Contents (Elt F) → (⟨S60000x1, .f32⟩ : BufTy).Contents (Elt F)),
    nullary main_cst_217 (constant S_ .f32 0x42800000#32),
    unary main_cst_217 main_v859 (broadcastInDim S60000x1 ![] bcast_S_S60000x1 : (⟨S_, .f32⟩ : BufTy).Contents (Elt F) → (⟨S60000x1, .f32⟩ : BufTy).Contents (Elt F)),
    binary main_v858 main_v859 main_v860 (Host.divf : (⟨S60000x1, .f32⟩ : BufTy).Contents (Elt F) → (⟨S60000x1, .f32⟩ : BufTy).Contents (Elt F) → (⟨S60000x1, .f32⟩ : BufTy).Contents (Elt F)),
    unary main_v860 main_v861 (broadcastInDim S60000x64 ![0, 1] bcast_S60000x1_S60000x64_0_1 : (⟨S60000x1, .f32⟩ : BufTy).Contents (Elt F) → (⟨S60000x64, .f32⟩ : BufTy).Contents (Elt F)),
    binary main_v824 main_v861 main_v862 (subf : (⟨S60000x64, .f32⟩ : BufTy).Contents (Elt F) → (⟨S60000x64, .f32⟩ : BufTy).Contents (Elt F) → (⟨S60000x64, .f32⟩ : BufTy).Contents (Elt F)),
    binary main_v862 main_v862 main_v863 (mulf : (⟨S60000x64, .f32⟩ : BufTy).Contents (Elt F) → (⟨S60000x64, .f32⟩ : BufTy).Contents (Elt F) → (⟨S60000x64, .f32⟩ : BufTy).Contents (Elt F)),
    nullary main_cst_218 (constant S_ .f32 0x00000000#32),
    binary main_v863 main_cst_218 main_v864 ((fun x v => Host.reduceAdd x v reducesTo_S60000x64_S60000_d1 h_S_) : (⟨S60000x64, .f32⟩ : BufTy).Contents (Elt F) → (⟨S_, .f32⟩ : BufTy).Contents (Elt F) → (⟨S60000, .f32⟩ : BufTy).Contents (Elt F)),
    unary main_v864 main_v865 (broadcastInDim S60000x1 ![0] bcast_S60000_S60000x1_0 : (⟨S60000, .f32⟩ : BufTy).Contents (Elt F) → (⟨S60000x1, .f32⟩ : BufTy).Contents (Elt F)),
    nullary main_cst_219 (constant S_ .f32 0x42800000#32),
    unary main_cst_219 main_v866 (broadcastInDim S60000x1 ![] bcast_S_S60000x1 : (⟨S_, .f32⟩ : BufTy).Contents (Elt F) → (⟨S60000x1, .f32⟩ : BufTy).Contents (Elt F)),
    binary main_v865 main_v866 main_v867 (Host.divf : (⟨S60000x1, .f32⟩ : BufTy).Contents (Elt F) → (⟨S60000x1, .f32⟩ : BufTy).Contents (Elt F) → (⟨S60000x1, .f32⟩ : BufTy).Contents (Elt F)),
    unary main_v860 main_v868 (broadcastInDim S60000x64 ![0, 1] bcast_S60000x1_S60000x64_0_1 : (⟨S60000x1, .f32⟩ : BufTy).Contents (Elt F) → (⟨S60000x64, .f32⟩ : BufTy).Contents (Elt F)),
    binary main_v824 main_v868 main_v869 (subf : (⟨S60000x64, .f32⟩ : BufTy).Contents (Elt F) → (⟨S60000x64, .f32⟩ : BufTy).Contents (Elt F) → (⟨S60000x64, .f32⟩ : BufTy).Contents (Elt F)),
    nullary main_cst_220 (constant S_ .f32 0x3727C5AC#32),
    unary main_cst_220 main_v870 (broadcastInDim S60000x1 ![] bcast_S_S60000x1 : (⟨S_, .f32⟩ : BufTy).Contents (Elt F) → (⟨S60000x1, .f32⟩ : BufTy).Contents (Elt F)),
    binary main_v867 main_v870 main_v871 (addf : (⟨S60000x1, .f32⟩ : BufTy).Contents (Elt F) → (⟨S60000x1, .f32⟩ : BufTy).Contents (Elt F) → (⟨S60000x1, .f32⟩ : BufTy).Contents (Elt F)),
    unary main_v871 main_v872 (Host.rsqrt : (⟨S60000x1, .f32⟩ : BufTy).Contents (Elt F) → (⟨S60000x1, .f32⟩ : BufTy).Contents (Elt F)),
    unary main_v872 main_v873 (broadcastInDim S60000x64 ![0, 1] bcast_S60000x1_S60000x64_0_1 : (⟨S60000x1, .f32⟩ : BufTy).Contents (Elt F) → (⟨S60000x64, .f32⟩ : BufTy).Contents (Elt F)),
    binary main_v869 main_v873 main_v874 (mulf : (⟨S60000x64, .f32⟩ : BufTy).Contents (Elt F) → (⟨S60000x64, .f32⟩ : BufTy).Contents (Elt F) → (⟨S60000x64, .f32⟩ : BufTy).Contents (Elt F)),
    unary main_v854 main_v875 (broadcastInDim S1x64 ![1] bcast_S64_S1x64_1 : (⟨S64, .f32⟩ : BufTy).Contents (Elt F) → (⟨S1x64, .f32⟩ : BufTy).Contents (Elt F)),
    unary main_v875 main_v876 (broadcastInDim S60000x64 ![0, 1] bcast_S1x64_S60000x64_0_1 : (⟨S1x64, .f32⟩ : BufTy).Contents (Elt F) → (⟨S60000x64, .f32⟩ : BufTy).Contents (Elt F)),
    binary main_v874 main_v876 main_v877 (mulf : (⟨S60000x64, .f32⟩ : BufTy).Contents (Elt F) → (⟨S60000x64, .f32⟩ : BufTy).Contents (Elt F) → (⟨S60000x64, .f32⟩ : BufTy).Contents (Elt F)),
    unary main_v856 main_v878 (broadcastInDim S1x64 ![1] bcast_S64_S1x64_1 : (⟨S64, .f32⟩ : BufTy).Contents (Elt F) → (⟨S1x64, .f32⟩ : BufTy).Contents (Elt F)),
    unary main_v878 main_v879 (broadcastInDim S60000x64 ![0, 1] bcast_S1x64_S60000x64_0_1 : (⟨S1x64, .f32⟩ : BufTy).Contents (Elt F) → (⟨S60000x64, .f32⟩ : BufTy).Contents (Elt F)),
    binary main_v877 main_v879 main_v880 (addf : (⟨S60000x64, .f32⟩ : BufTy).Contents (Elt F) → (⟨S60000x64, .f32⟩ : BufTy).Contents (Elt F) → (⟨S60000x64, .f32⟩ : BufTy).Contents (Elt F)) ]

/-- Each touches TensorCore references only. -/
theorem ops_L19_sub : (ops_L19 : List (HloOp τ sig (Elt F))).Forall fun op => op.bufs ⊆ StableHlo.tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- None allocates a buffer. -/
theorem ops_L19_fresh : ∀ op ∈ (ops_L19 : List (HloOp τ sig (Elt F))), op.fresh = ∅ :=
  List.forall_iff_forall_mem.1 (show (ops_L19 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_L19 : List (Ref sig .tc) :=
  [main_cst_216, main_v857, main_v858, main_cst_217, main_v859, main_v860, main_v861, main_v862, main_v863, main_cst_218, main_v864, main_v865, main_cst_219, main_v866, main_v867, main_v868, main_v869, main_cst_220, main_v870, main_v871, main_v872, main_v873, main_v874, main_v875, main_v876, main_v877, main_v878, main_v879, main_v880]

/-- Each operation writes a reference of that list only. -/
theorem ops_L19_writes : (ops_L19 : List (HloOp τ sig (Elt F))).Forall fun op =>
    op.writes ⊆ (writes_L19.map (Proc.devRef (τ := τ) .tc)).toFinset :=
  ⟨nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., binary_writes_sub (h := by decide) .., nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., nullary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) ..⟩

end Cert.ReferenceIdeal.Hand

end
-- ==== Proof.Ref.Chunk_H20.lean ====
/- Operations 1158 … 1161 of the reference's @main (4 of 1191), as a list; each touches TensorCore references only, none allocates, and each writes one reference of the list `writes_H20`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1158 … 1161 of @main, in program order. -/
abbrev ops_H20 : List (HloOp τ sig (Elt F)) :=
  [ unary main_arg15 main_v881 ((extractStridedSlice S1x64 ![2, 0] · slices_S3x64_S1x64_2_0) : (⟨S3x64, .f32⟩ : BufTy).Contents (Elt F) → (⟨S1x64, .f32⟩ : BufTy).Contents (Elt F)),
    reshape main_v881 main_v882 rfl shapeCasts_S1x64_S64,
    unary main_arg16 main_v883 ((extractStridedSlice S1x64 ![2, 0] · slices_S3x64_S1x64_2_0) : (⟨S3x64, .f32⟩ : BufTy).Contents (Elt F) → (⟨S1x64, .f32⟩ : BufTy).Contents (Elt F)),
    reshape main_v883 main_v884 rfl shapeCasts_S1x64_S64 ]

/-- Each touches TensorCore references only. -/
theorem ops_H20_sub : (ops_H20 : List (HloOp τ sig (Elt F))).Forall fun op => op.bufs ⊆ StableHlo.tcRefs τ sig :=
  ⟨unary_bufs_sub .., reshape_bufs_sub .., unary_bufs_sub .., reshape_bufs_sub ..⟩

/-- None allocates a buffer. -/
theorem ops_H20_fresh : ∀ op ∈ (ops_H20 : List (HloOp τ sig (Elt F))), op.fresh = ∅ :=
  List.forall_iff_forall_mem.1 (show (ops_H20 : List (HloOp τ sig (Elt F))).Forall (fun op => op.fresh = ∅) from ⟨rfl, rfl, rfl, rfl⟩)

/-- The references the operations write, in order. -/
abbrev writes_H20 : List (Ref sig .tc) :=
  [main_v881, main_v882, main_v883, main_v884]

/-- Each operation writes a reference of that list only. -/
theorem ops_H20_writes : (ops_H20 : List (HloOp τ sig (Elt F))).Forall fun op =>
    op.writes ⊆ (writes_H20.map (Proc.devRef (τ := τ) .tc)).toFinset :=
  ⟨unary_writes_sub (h := by decide) .., reshape_writes_sub (h := by decide) .., unary_writes_sub (h := by decide) .., reshape_writes_sub (h := by decide) ..⟩

end Cert.ReferenceIdeal.Hand

end
-- ==== Proof.Ref.Chunk_L20.lean ====
/- Operations 1162 … 1190 of the reference's @main (29 of 1191), as a list; each touches TensorCore references only, none allocates, and each writes one reference of the list `writes_L20`. -/
import proofs.«147021_j7619271983570_1_alg».proof.Proof.Gen.ReferenceIdeal
import proofs.«147021_j7619271983570_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1162 … 1190 of @main, in program order. -/
abbrev ops_L20 : List (HloOp τ sig (Elt F)) :=
  [ nullary main_cst_221 (constant S_ .f32 0x00000000#32),
    binary main_v644 main_cst_221 main_v885 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v885 main_v886 (broadcastInDim S20000x1 ![0] bcast_S20000_S20000x1_0 : (⟨S20000, .f32⟩ : BufTy).Contents (Elt F) → (⟨S20000x1, .f32⟩ : BufTy).Contents (Elt F)),
    nullary main_cst_222 (constant S_ .f32 0x42800000#32),
    unary main_cst_222 main_v887 (broadcastInDim S20000x1 ![] bcast_S_S20000x1 : (⟨S_, .f32⟩ : BufTy).Contents (Elt F) → (⟨S20000x1, .f32⟩ : BufTy).Contents (Elt F)),
    binary main_v886 main_v887 main_v888 (Host.divf : (⟨S20000x1, .f32⟩ : BufTy).Contents (Elt F) → (⟨S20000x1, .f32⟩ : BufTy).Contents (Elt F) → (⟨S20000x1, .f32⟩ : BufTy).Contents (Elt F)),
    unary main_v888 main_v889 (broadcastInDim S20000x64 ![0, 1] bcast_S20000x1_S20000x64_0_1 : (⟨S20000x1, .f32⟩ : BufTy).Contents (Elt F) → (⟨S20000x64, .f32⟩ : BufTy).Contents (Elt F)),
    binary main_v644 main_v889 main_v890 (subf : (⟨S20000x64, .f32⟩ : BufTy).Contents (Elt F) → (⟨S20000x64, .f32⟩ : BufTy).Contents (Elt F) → (⟨S20000x64, .f32⟩ : BufTy).Contents (Elt F)),
    binary main_v890 main_v890 main_v891 (mulf : (⟨S20000x64, .f32⟩ : BufTy).Contents (Elt F) → (⟨S20000x64, .f32⟩ : BufTy).Contents (Elt F) → (⟨S20000x64, .f32⟩ : BufTy).Contents (Elt F)),
    nullary main_cst_223 (constant S_ .f32 0x00000000#32),
    binary main_v891 main_cst_223 main_v892 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v892 main_v893 (broadcastInDim S20000x1 ![0] bcast_S20000_S20000x1_0 : (⟨S20000, .f32⟩ : BufTy).Contents (Elt F) → (⟨S20000x1, .f32⟩ : BufTy).Contents (Elt F)),
    nullary main_cst_224 (constant S_ .f32 0x42800000#32),
    unary main_cst_224 main_v894 (broadcastInDim S20000x1 ![] bcast_S_S20000x1 : (⟨S_, .f32⟩ : BufTy).Contents (Elt F) → (⟨S20000x1, .f32⟩ : BufTy).Contents (Elt F)),
    binary main_v893 main_v894 main_v895 (Host.divf : (⟨S20000x1, .f32⟩ : BufTy).Contents (Elt F) → (⟨S20000x1, .f32⟩ : BufTy).Contents (Elt F) → (⟨S20000x1, .f32⟩ : BufTy).Contents (Elt F)),
    unary main_v888 main_v896 (broadcastInDim S20000x64 ![0, 1] bcast_S20000x1_S20000x64_0_1 : (⟨S20000x1, .f32⟩ : BufTy).Contents (Elt F) → (⟨S20000x64, .f32⟩ : BufTy).Contents (Elt F)),
    binary main_v644 main_v896 main_v897 (subf : (⟨S20000x64, .f32⟩ : BufTy).Contents (Elt F) → (⟨S20000x64, .f32⟩ : BufTy).Contents (Elt F) → (⟨S20000x64, .f32⟩ : BufTy).Contents (Elt F)),
    nullary main_cst_225 (constant S_ .f32 0x3727C5AC#32),
    unary main_cst_225 main_v898 (broadcastInDim S20000x1 ![] bcast_S_S20000x1 : (⟨S_, .f32⟩ : BufTy).Contents (Elt F) → (⟨S20000x1, .f32⟩ : BufTy).Contents (Elt F)),
    binary main_v895 main_v898 main_v899 (addf : (⟨S20000x1, .f32⟩ : BufTy).Contents (Elt F) → (⟨S20000x1, .f32⟩ : BufTy).Contents (Elt F) → (⟨S20000x1, .f32⟩ : BufTy).Contents (Elt F)),
    unary main_v899 main_v900 (Host.rsqrt : (⟨S20000x1, .f32⟩ : BufTy).Contents (Elt F) → (⟨S20000x1, .f32⟩ : BufTy).Contents (Elt F)),
    unary main_v900 main_v901 (broadcastInDim S20000x64 ![0, 1] bcast_S20000x1_S20000x64_0_1 : (⟨S20000x1, .f32⟩ : BufTy).Contents (Elt F) → (⟨S20000x64, .f32⟩ : BufTy).Contents (Elt F)),
    binary main_v897 main_v901 main_v902 (mulf : (⟨S20000x64, .f32⟩ : BufTy).Contents (Elt F) → (⟨S20000x64, .f32⟩ : BufTy).Contents (Elt F) → (⟨S20000x64, .f32⟩ : BufTy).Contents (Elt F)),
    unary main_v882 main_v903 (broadcastInDim S1x64 ![1] bcast_S64_S1x64_1 : (⟨S64, .f32⟩ : BufTy).Contents (Elt F) → (⟨S1x64, .f32⟩ : BufTy).Contents (Elt F)),
    unary main_v903 main_v904 (broadcastInDim S20000x64 ![0, 1] bcast_S1x64_S20000x64_0_1 : (⟨S1x64, .f32⟩ : BufTy).Contents (Elt F) → (⟨S20000x64, .f32⟩ : BufTy).Contents (Elt F)),
    binary main_v902 main_v904 main_v905 (mulf : (⟨S20000x64, .f32⟩ : BufTy).Contents (Elt F) → (⟨S20000x64, .f32⟩ : BufTy).Contents (Elt F) → (⟨S20000x64, .f32⟩ : BufTy).Contents (Elt F)),
    unary main_v884 main_v906 (broadcastInDim S1x64 ![1] bcast_S64_S1x64_1 : (⟨S64, .f32⟩ : BufTy).Contents (Elt F) → (⟨S1x64, .f32⟩ : BufTy).Contents (Elt F)),
    unary main_v906 main_v907 (broadcastInDim S20000x64 ![0, 1] bcast_S1x64_S20000x64_0_1 : (⟨S1x64, .f32⟩ : BufTy).Contents (Elt F) → (⟨S20000x64, .f32⟩ : BufTy).Contents (Elt F)),
    binary main_v905 main_v907 main_v908 (addf : (⟨S20000x64, .f32⟩ : BufTy).Contents (Elt F) → (⟨S20000x64, .f32⟩ : BufTy).Contents (Elt F) → (⟨S20000x64, .f32⟩ : BufTy).Contents (Elt F)) ]

/-- Each touches TensorCore references only. -/
theorem ops_L20_sub : (ops_L20 : List (HloOp τ sig (Elt F))).Forall fun op => op.bufs ⊆ StableHlo.tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- None allocates a buffer. -/
theorem ops_L20_fresh : ∀ op ∈ (ops_L20 : List (HloOp τ sig (Elt F))), op.fresh = ∅ :=
  List.forall_iff_forall_mem.1 (show (ops_L20 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl⟩)

/-- The references the operations write, in order. -/
abbrev writes_L20 : List (Ref sig .tc) :=
  [main_cst_221, main_v885, main_v886, main_cst_222, main_v887, main_v888, main_v889, main_v890, main_v891, main_cst_223, main_v892, main_v893, main_cst_224, main_v894, main_v895, main_v896, main_v897, main_cst_225, main_v898, main_v899, main_v900, main_v901, main_v902, main_v903, main_v904, main_v905, main_v906, main_v907, main_v908]

/-- Each operation writes a reference of that list only. -/
theorem ops_L20_writes : (ops_L20 : List (HloOp τ sig (Elt F))).Forall fun op =>
    op.writes ⊆ (writes_L20.map (Proc.devRef (τ := τ) .tc)).toFinset :=
  ⟨nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., binary_writes_sub (h := by decide) .., nullary_writes_sub (h := by decide) .., binary_writes_sub (h := by decide) .., unary_writes_sub (h := by decide) .., nullary_writes_sub (h := by decide) .., unary_writes_sub (h := by decide) .., binary_writes_sub (h := by decide) .., unary_writes_sub (h := by decide) .., binary_writes_sub (h := by decide) .., nullary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) .., unary_writes_sub (h := by decide) .., unary_writes_sub (h := by decide) .., binary_writes_sub (h := by decide) ..⟩

end Cert.ReferenceIdeal.Hand

end
-- ==== Proof.Ref.Fold.lean ====
/- The device's buffer contents after each chunk of the reference's run, from the launch contents; a chunk keeps every reference it does not write, and so does the rest of the run after it. -/
import proofs.«147021_j7619271983570_1_alg».proof.Proof.Ref.Chunk_P0
import proofs.«147021_j7619271983570_1_alg».proof.Proof.Ref.Chunk_P1
import proofs.«147021_j7619271983570_1_alg».proof.Proof.Ref.Chunk_P2
import proofs.«147021_j7619271983570_1_alg».proof.Proof.Ref.Chunk_G3
import proofs.«147021_j7619271983570_1_alg».proof.Proof.Ref.Chunk_G4a
import proofs.«147021_j7619271983570_1_alg».proof.Proof.Ref.Chunk_D3
import proofs.«147021_j7619271983570_1_alg».proof.Proof.Ref.Chunk_G4b
import proofs.«147021_j7619271983570_1_alg».proof.Proof.Ref.Chunk_G5a
import proofs.«147021_j7619271983570_1_alg».proof.Proof.Ref.Chunk_D4
import proofs.«147021_j7619271983570_1_alg».proof.Proof.Ref.Chunk_G5b
import proofs.«147021_j7619271983570_1_alg».proof.Proof.Ref.Chunk_G6a
import proofs.«147021_j7619271983570_1_alg».proof.Proof.Ref.Chunk_D5
import proofs.«147021_j7619271983570_1_alg».proof.Proof.Ref.Chunk_G6b
import proofs.«147021_j7619271983570_1_alg».proof.Proof.Ref.Chunk_G7a
import proofs.«147021_j7619271983570_1_alg».proof.Proof.Ref.Chunk_D6
import proofs.«147021_j7619271983570_1_alg».proof.Proof.Ref.Chunk_G7b
import proofs.«147021_j7619271983570_1_alg».proof.Proof.Ref.Chunk_G8a
import proofs.«147021_j7619271983570_1_alg».proof.Proof.Ref.Chunk_D7
import proofs.«147021_j7619271983570_1_alg».proof.Proof.Ref.Chunk_G8b
import proofs.«147021_j7619271983570_1_alg».proof.Proof.Ref.Chunk_G9a
import proofs.«147021_j7619271983570_1_alg».proof.Proof.Ref.Chunk_D8
import proofs.«147021_j7619271983570_1_alg».proof.Proof.Ref.Chunk_G9b
import proofs.«147021_j7619271983570_1_alg».proof.Proof.Ref.Chunk_L9
import proofs.«147021_j7619271983570_1_alg».proof.Proof.Ref.Chunk_H10
import proofs.«147021_j7619271983570_1_alg».proof.Proof.Ref.Chunk_L10
import proofs.«147021_j7619271983570_1_alg».proof.Proof.Ref.Chunk_H11
import proofs.«147021_j7619271983570_1_alg».proof.Proof.Ref.Chunk_L11
import proofs.«147021_j7619271983570_1_alg».proof.Proof.Ref.Chunk_RELU9
import proofs.«147021_j7619271983570_1_alg».proof.Proof.Ref.Chunk_RELU10
import proofs.«147021_j7619271983570_1_alg».proof.Proof.Ref.Chunk_RELU11
import proofs.«147021_j7619271983570_1_alg».proof.Proof.Ref.Chunk_G12
import proofs.«147021_j7619271983570_1_alg».proof.Proof.Ref.Chunk_G13a
import proofs.«147021_j7619271983570_1_alg».proof.Proof.Ref.Chunk_D12
import proofs.«147021_j7619271983570_1_alg».proof.Proof.Ref.Chunk_G13b
import proofs.«147021_j7619271983570_1_alg».proof.Proof.Ref.Chunk_G14a
import proofs.«147021_j7619271983570_1_alg».proof.Proof.Ref.Chunk_D13
import proofs.«147021_j7619271983570_1_alg».proof.Proof.Ref.Chunk_G14b
import proofs.«147021_j7619271983570_1_alg».proof.Proof.Ref.Chunk_G15a
import proofs.«147021_j7619271983570_1_alg».proof.Proof.Ref.Chunk_D14
import proofs.«147021_j7619271983570_1_alg».proof.Proof.Ref.Chunk_G15b
import proofs.«147021_j7619271983570_1_alg».proof.Proof.Ref.Chunk_G16a
import proofs.«147021_j7619271983570_1_alg».proof.Proof.Ref.Chunk_D15
import proofs.«147021_j7619271983570_1_alg».proof.Proof.Ref.Chunk_G16b
import proofs.«147021_j7619271983570_1_alg».proof.Proof.Ref.Chunk_G17a
import proofs.«147021_j7619271983570_1_alg».proof.Proof.Ref.Chunk_D16
import proofs.«147021_j7619271983570_1_alg».proof.Proof.Ref.Chunk_G17b
import proofs.«147021_j7619271983570_1_alg».proof.Proof.Ref.Chunk_G18a
import proofs.«147021_j7619271983570_1_alg».proof.Proof.Ref.Chunk_D17
import proofs.«147021_j7619271983570_1_alg».proof.Proof.Ref.Chunk_G18b
import proofs.«147021_j7619271983570_1_alg».proof.Proof.Ref.Chunk_L18
import proofs.«147021_j7619271983570_1_alg».proof.Proof.Ref.Chunk_H19
import proofs.«147021_j7619271983570_1_alg».proof.Proof.Ref.Chunk_L19
import proofs.«147021_j7619271983570_1_alg».proof.Proof.Ref.Chunk_H20
import proofs.«147021_j7619271983570_1_alg».proof.Proof.Ref.Chunk_L20
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers at launch. -/
abbrev B0 (m : (ℓ : Loc nD τ sig) → Buf (Elt F) ℓ) (c : Dev nD) : Valuation τ sig (Elt F) := launchContents m c

/-- The buffers after chunk P0. -/
abbrev B_P0 (m : (ℓ : Loc nD τ sig) → Buf (Elt F) ℓ) (c : Dev nD) : Valuation τ sig (Elt F) := StableHlo.after ops_P0 (B0 m c)
/-- The buffers after chunk P1. -/
abbrev B_P1 (m : (ℓ : Loc nD τ sig) → Buf (Elt F) ℓ) (c : Dev nD) : Valuation τ sig (Elt F) := StableHlo.after ops_P1 (B_P0 m c)
/-- The buffers after chunk P2. -/
abbrev B_P2 (m : (ℓ : Loc nD τ sig) → Buf (Elt F) ℓ) (c : Dev nD) : Valuation τ sig (Elt F) := StableHlo.after ops_P2 (B_P1 m c)
/-- The buffers after chunk G3. -/
abbrev B_G3 (m : (ℓ : Loc nD τ sig) → Buf (Elt F) ℓ) (c : Dev nD) : Valuation τ sig (Elt F) := StableHlo.after ops_G3 (B_P2 m c)
/-- The buffers after chunk G4a. -/
abbrev B_G4a (m : (ℓ : Loc nD τ sig) → Buf (Elt F) ℓ) (c : Dev nD) : Valuation τ sig (Elt F) := StableHlo.after ops_G4a (B_G3 m c)
/-- The buffers after chunk D3. -/
abbrev B_D3 (m : (ℓ : Loc nD τ sig) → Buf (Elt F) ℓ) (c : Dev nD) : Valuation τ sig (Elt F) := StableHlo.after ops_D3 (B_G4a m c)
/-- The buffers after chunk G4b. -/
abbrev B_G4b (m : (ℓ : Loc nD τ sig) → Buf (Elt F) ℓ) (c : Dev nD) : Valuation τ sig (Elt F) := StableHlo.after ops_G4b (B_D3 m c)
/-- The buffers after chunk G5a. -/
abbrev B_G5a (m : (ℓ : Loc nD τ sig) → Buf (Elt F) ℓ) (c : Dev nD) : Valuation τ sig (Elt F) := StableHlo.after ops_G5a (B_G4b m c)
/-- The buffers after chunk D4. -/
abbrev B_D4 (m : (ℓ : Loc nD τ sig) → Buf (Elt F) ℓ) (c : Dev nD) : Valuation τ sig (Elt F) := StableHlo.after ops_D4 (B_G5a m c)
/-- The buffers after chunk G5b. -/
abbrev B_G5b (m : (ℓ : Loc nD τ sig) → Buf (Elt F) ℓ) (c : Dev nD) : Valuation τ sig (Elt F) := StableHlo.after ops_G5b (B_D4 m c)
/-- The buffers after chunk G6a. -/
abbrev B_G6a (m : (ℓ : Loc nD τ sig) → Buf (Elt F) ℓ) (c : Dev nD) : Valuation τ sig (Elt F) := StableHlo.after ops_G6a (B_G5b m c)
/-- The buffers after chunk D5. -/
abbrev B_D5 (m : (ℓ : Loc nD τ sig) → Buf (Elt F) ℓ) (c : Dev nD) : Valuation τ sig (Elt F) := StableHlo.after ops_D5 (B_G6a m c)
/-- The buffers after chunk G6b. -/
abbrev B_G6b (m : (ℓ : Loc nD τ sig) → Buf (Elt F) ℓ) (c : Dev nD) : Valuation τ sig (Elt F) := StableHlo.after ops_G6b (B_D5 m c)
/-- The buffers after chunk G7a. -/
abbrev B_G7a (m : (ℓ : Loc nD τ sig) → Buf (Elt F) ℓ) (c : Dev nD) : Valuation τ sig (Elt F) := StableHlo.after ops_G7a (B_G6b m c)
/-- The buffers after chunk D6. -/
abbrev B_D6 (m : (ℓ : Loc nD τ sig) → Buf (Elt F) ℓ) (c : Dev nD) : Valuation τ sig (Elt F) := StableHlo.after ops_D6 (B_G7a m c)
/-- The buffers after chunk G7b. -/
abbrev B_G7b (m : (ℓ : Loc nD τ sig) → Buf (Elt F) ℓ) (c : Dev nD) : Valuation τ sig (Elt F) := StableHlo.after ops_G7b (B_D6 m c)
/-- The buffers after chunk G8a. -/
abbrev B_G8a (m : (ℓ : Loc nD τ sig) → Buf (Elt F) ℓ) (c : Dev nD) : Valuation τ sig (Elt F) := StableHlo.after ops_G8a (B_G7b m c)
/-- The buffers after chunk D7. -/
abbrev B_D7 (m : (ℓ : Loc nD τ sig) → Buf (Elt F) ℓ) (c : Dev nD) : Valuation τ sig (Elt F) := StableHlo.after ops_D7 (B_G8a m c)
/-- The buffers after chunk G8b. -/
abbrev B_G8b (m : (ℓ : Loc nD τ sig) → Buf (Elt F) ℓ) (c : Dev nD) : Valuation τ sig (Elt F) := StableHlo.after ops_G8b (B_D7 m c)
/-- The buffers after chunk G9a. -/
abbrev B_G9a (m : (ℓ : Loc nD τ sig) → Buf (Elt F) ℓ) (c : Dev nD) : Valuation τ sig (Elt F) := StableHlo.after ops_G9a (B_G8b m c)
/-- The buffers after chunk D8. -/
abbrev B_D8 (m : (ℓ : Loc nD τ sig) → Buf (Elt F) ℓ) (c : Dev nD) : Valuation τ sig (Elt F) := StableHlo.after ops_D8 (B_G9a m c)
/-- The buffers after chunk G9b. -/
abbrev B_G9b (m : (ℓ : Loc nD τ sig) → Buf (Elt F) ℓ) (c : Dev nD) : Valuation τ sig (Elt F) := StableHlo.after ops_G9b (B_D8 m c)
/-- The buffers after chunk L9. -/
abbrev B_L9 (m : (ℓ : Loc nD τ sig) → Buf (Elt F) ℓ) (c : Dev nD) : Valuation τ sig (Elt F) := StableHlo.after ops_L9 (B_G9b m c)
/-- The buffers after chunk H10. -/
abbrev B_H10 (m : (ℓ : Loc nD τ sig) → Buf (Elt F) ℓ) (c : Dev nD) : Valuation τ sig (Elt F) := StableHlo.after ops_H10 (B_L9 m c)
/-- The buffers after chunk L10. -/
abbrev B_L10 (m : (ℓ : Loc nD τ sig) → Buf (Elt F) ℓ) (c : Dev nD) : Valuation τ sig (Elt F) := StableHlo.after ops_L10 (B_H10 m c)
/-- The buffers after chunk H11. -/
abbrev B_H11 (m : (ℓ : Loc nD τ sig) → Buf (Elt F) ℓ) (c : Dev nD) : Valuation τ sig (Elt F) := StableHlo.after ops_H11 (B_L10 m c)
/-- The buffers after chunk L11. -/
abbrev B_L11 (m : (ℓ : Loc nD τ sig) → Buf (Elt F) ℓ) (c : Dev nD) : Valuation τ sig (Elt F) := StableHlo.after ops_L11 (B_H11 m c)
/-- The buffers after chunk RELU9. -/
abbrev B_RELU9 (m : (ℓ : Loc nD τ sig) → Buf (Elt F) ℓ) (c : Dev nD) : Valuation τ sig (Elt F) := StableHlo.after ops_RELU9 (B_L11 m c)
/-- The buffers after chunk RELU10. -/
abbrev B_RELU10 (m : (ℓ : Loc nD τ sig) → Buf (Elt F) ℓ) (c : Dev nD) : Valuation τ sig (Elt F) := StableHlo.after ops_RELU10 (B_RELU9 m c)
/-- The buffers after chunk RELU11. -/
abbrev B_RELU11 (m : (ℓ : Loc nD τ sig) → Buf (Elt F) ℓ) (c : Dev nD) : Valuation τ sig (Elt F) := StableHlo.after ops_RELU11 (B_RELU10 m c)
/-- The buffers after chunk G12. -/
abbrev B_G12 (m : (ℓ : Loc nD τ sig) → Buf (Elt F) ℓ) (c : Dev nD) : Valuation τ sig (Elt F) := StableHlo.after ops_G12 (B_RELU11 m c)
/-- The buffers after chunk G13a. -/
abbrev B_G13a (m : (ℓ : Loc nD τ sig) → Buf (Elt F) ℓ) (c : Dev nD) : Valuation τ sig (Elt F) := StableHlo.after ops_G13a (B_G12 m c)
/-- The buffers after chunk D12. -/
abbrev B_D12 (m : (ℓ : Loc nD τ sig) → Buf (Elt F) ℓ) (c : Dev nD) : Valuation τ sig (Elt F) := StableHlo.after ops_D12 (B_G13a m c)
/-- The buffers after chunk G13b. -/
abbrev B_G13b (m : (ℓ : Loc nD τ sig) → Buf (Elt F) ℓ) (c : Dev nD) : Valuation τ sig (Elt F) := StableHlo.after ops_G13b (B_D12 m c)
/-- The buffers after chunk G14a. -/
abbrev B_G14a (m : (ℓ : Loc nD τ sig) → Buf (Elt F) ℓ) (c : Dev nD) : Valuation τ sig (Elt F) := StableHlo.after ops_G14a (B_G13b m c)
/-- The buffers after chunk D13. -/
abbrev B_D13 (m : (ℓ : Loc nD τ sig) → Buf (Elt F) ℓ) (c : Dev nD) : Valuation τ sig (Elt F) := StableHlo.after ops_D13 (B_G14a m c)
/-- The buffers after chunk G14b. -/
abbrev B_G14b (m : (ℓ : Loc nD τ sig) → Buf (Elt F) ℓ) (c : Dev nD) : Valuation τ sig (Elt F) := StableHlo.after ops_G14b (B_D13 m c)
/-- The buffers after chunk G15a. -/
abbrev B_G15a (m : (ℓ : Loc nD τ sig) → Buf (Elt F) ℓ) (c : Dev nD) : Valuation τ sig (Elt F) := StableHlo.after ops_G15a (B_G14b m c)
/-- The buffers after chunk D14. -/
abbrev B_D14 (m : (ℓ : Loc nD τ sig) → Buf (Elt F) ℓ) (c : Dev nD) : Valuation τ sig (Elt F) := StableHlo.after ops_D14 (B_G15a m c)
/-- The buffers after chunk G15b. -/
abbrev B_G15b (m : (ℓ : Loc nD τ sig) → Buf (Elt F) ℓ) (c : Dev nD) : Valuation τ sig (Elt F) := StableHlo.after ops_G15b (B_D14 m c)
/-- The buffers after chunk G16a. -/
abbrev B_G16a (m : (ℓ : Loc nD τ sig) → Buf (Elt F) ℓ) (c : Dev nD) : Valuation τ sig (Elt F) := StableHlo.after ops_G16a (B_G15b m c)
/-- The buffers after chunk D15. -/
abbrev B_D15 (m : (ℓ : Loc nD τ sig) → Buf (Elt F) ℓ) (c : Dev nD) : Valuation τ sig (Elt F) := StableHlo.after ops_D15 (B_G16a m c)
/-- The buffers after chunk G16b. -/
abbrev B_G16b (m : (ℓ : Loc nD τ sig) → Buf (Elt F) ℓ) (c : Dev nD) : Valuation τ sig (Elt F) := StableHlo.after ops_G16b (B_D15 m c)
/-- The buffers after chunk G17a. -/
abbrev B_G17a (m : (ℓ : Loc nD τ sig) → Buf (Elt F) ℓ) (c : Dev nD) : Valuation τ sig (Elt F) := StableHlo.after ops_G17a (B_G16b m c)
/-- The buffers after chunk D16. -/
abbrev B_D16 (m : (ℓ : Loc nD τ sig) → Buf (Elt F) ℓ) (c : Dev nD) : Valuation τ sig (Elt F) := StableHlo.after ops_D16 (B_G17a m c)
/-- The buffers after chunk G17b. -/
abbrev B_G17b (m : (ℓ : Loc nD τ sig) → Buf (Elt F) ℓ) (c : Dev nD) : Valuation τ sig (Elt F) := StableHlo.after ops_G17b (B_D16 m c)
/-- The buffers after chunk G18a. -/
abbrev B_G18a (m : (ℓ : Loc nD τ sig) → Buf (Elt F) ℓ) (c : Dev nD) : Valuation τ sig (Elt F) := StableHlo.after ops_G18a (B_G17b m c)
/-- The buffers after chunk D17. -/
abbrev B_D17 (m : (ℓ : Loc nD τ sig) → Buf (Elt F) ℓ) (c : Dev nD) : Valuation τ sig (Elt F) := StableHlo.after ops_D17 (B_G18a m c)
/-- The buffers after chunk G18b. -/
abbrev B_G18b (m : (ℓ : Loc nD τ sig) → Buf (Elt F) ℓ) (c : Dev nD) : Valuation τ sig (Elt F) := StableHlo.after ops_G18b (B_D17 m c)
/-- The buffers after chunk L18. -/
abbrev B_L18 (m : (ℓ : Loc nD τ sig) → Buf (Elt F) ℓ) (c : Dev nD) : Valuation τ sig (Elt F) := StableHlo.after ops_L18 (B_G18b m c)
/-- The buffers after chunk H19. -/
abbrev B_H19 (m : (ℓ : Loc nD τ sig) → Buf (Elt F) ℓ) (c : Dev nD) : Valuation τ sig (Elt F) := StableHlo.after ops_H19 (B_L18 m c)
/-- The buffers after chunk L19. -/
abbrev B_L19 (m : (ℓ : Loc nD τ sig) → Buf (Elt F) ℓ) (c : Dev nD) : Valuation τ sig (Elt F) := StableHlo.after ops_L19 (B_H19 m c)
/-- The buffers after chunk H20. -/
abbrev B_H20 (m : (ℓ : Loc nD τ sig) → Buf (Elt F) ℓ) (c : Dev nD) : Valuation τ sig (Elt F) := StableHlo.after ops_H20 (B_L19 m c)
/-- The buffers after chunk L20. -/
abbrev B_L20 (m : (ℓ : Loc nD τ sig) → Buf (Elt F) ℓ) (c : Dev nD) : Valuation τ sig (Elt F) := StableHlo.after ops_L20 (B_H20 m c)

/-- The buffers after the whole run. -/
abbrev BF (m : (ℓ : Loc nD τ sig) → Buf (Elt F) ℓ) (c : Dev nD) : Valuation τ sig (Elt F) := B_L20 m c

/-- Chunk P0 keeps a reference it does not write. -/
theorem keep_P0 (m : (ℓ : Loc nD τ sig) → Buf (Elt F) ℓ) (c : Dev nD) (r : Ref sig .tc) (h : r ∉ writes_P0) :
    B_P0 m c (Proc.devRef .tc r) = B0 m c (Proc.devRef .tc r) :=
  StableHlo.after_of_writes_sub ops_P0 (B0 m c) ops_P0_writes h
/-- Chunk P1 keeps a reference it does not write. -/
theorem keep_P1 (m : (ℓ : Loc nD τ sig) → Buf (Elt F) ℓ) (c : Dev nD) (r : Ref sig .tc) (h : r ∉ writes_P1) :
    B_P1 m c (Proc.devRef .tc r) = B_P0 m c (Proc.devRef .tc r) :=
  StableHlo.after_of_writes_sub ops_P1 (B_P0 m c) ops_P1_writes h
/-- Chunk P2 keeps a reference it does not write. -/
theorem keep_P2 (m : (ℓ : Loc nD τ sig) → Buf (Elt F) ℓ) (c : Dev nD) (r : Ref sig .tc) (h : r ∉ writes_P2) :
    B_P2 m c (Proc.devRef .tc r) = B_P1 m c (Proc.devRef .tc r) :=
  StableHlo.after_of_writes_sub ops_P2 (B_P1 m c) ops_P2_writes h
/-- Chunk G3 keeps a reference it does not write. -/
theorem keep_G3 (m : (ℓ : Loc nD τ sig) → Buf (Elt F) ℓ) (c : Dev nD) (r : Ref sig .tc) (h : r ∉ writes_G3) :
    B_G3 m c (Proc.devRef .tc r) = B_P2 m c (Proc.devRef .tc r) :=
  StableHlo.after_of_writes_sub ops_G3 (B_P2 m c) ops_G3_writes h
/-- Chunk G4a keeps a reference it does not write. -/
theorem keep_G4a (m : (ℓ : Loc nD τ sig) → Buf (Elt F) ℓ) (c : Dev nD) (r : Ref sig .tc) (h : r ∉ writes_G4a) :
    B_G4a m c (Proc.devRef .tc r) = B_G3 m c (Proc.devRef .tc r) :=
  StableHlo.after_of_writes_sub ops_G4a (B_G3 m c) ops_G4a_writes h
/-- Chunk D3 keeps a reference it does not write. -/
theorem keep_D3 (m : (ℓ : Loc nD τ sig) → Buf (Elt F) ℓ) (c : Dev nD) (r : Ref sig .tc) (h : r ∉ writes_D3) :
    B_D3 m c (Proc.devRef .tc r) = B_G4a m c (Proc.devRef .tc r) :=
  StableHlo.after_of_writes_sub ops_D3 (B_G4a m c) ops_D3_writes h
/-- Chunk G4b keeps a reference it does not write. -/
theorem keep_G4b (m : (ℓ : Loc nD τ sig) → Buf (Elt F) ℓ) (c : Dev nD) (r : Ref sig .tc) (h : r ∉ writes_G4b) :
    B_G4b m c (Proc.devRef .tc r) = B_D3 m c (Proc.devRef .tc r) :=
  StableHlo.after_of_writes_sub ops_G4b (B_D3 m c) ops_G4b_writes h
/-- Chunk G5a keeps a reference it does not write. -/
theorem keep_G5a (m : (ℓ : Loc nD τ sig) → Buf (Elt F) ℓ) (c : Dev nD) (r : Ref sig .tc) (h : r ∉ writes_G5a) :
    B_G5a m c (Proc.devRef .tc r) = B_G4b m c (Proc.devRef .tc r) :=
  StableHlo.after_of_writes_sub ops_G5a (B_G4b m c) ops_G5a_writes h
/-- Chunk D4 keeps a reference it does not write. -/
theorem keep_D4 (m : (ℓ : Loc nD τ sig) → Buf (Elt F) ℓ) (c : Dev nD) (r : Ref sig .tc) (h : r ∉ writes_D4) :
    B_D4 m c (Proc.devRef .tc r) = B_G5a m c (Proc.devRef .tc r) :=
  StableHlo.after_of_writes_sub ops_D4 (B_G5a m c) ops_D4_writes h
/-- Chunk G5b keeps a reference it does not write. -/
theorem keep_G5b (m : (ℓ : Loc nD τ sig) → Buf (Elt F) ℓ) (c : Dev nD) (r : Ref sig .tc) (h : r ∉ writes_G5b) :
    B_G5b m c (Proc.devRef .tc r) = B_D4 m c (Proc.devRef .tc r) :=
  StableHlo.after_of_writes_sub ops_G5b (B_D4 m c) ops_G5b_writes h
/-- Chunk G6a keeps a reference it does not write. -/
theorem keep_G6a (m : (ℓ : Loc nD τ sig) → Buf (Elt F) ℓ) (c : Dev nD) (r : Ref sig .tc) (h : r ∉ writes_G6a) :
    B_G6a m c (Proc.devRef .tc r) = B_G5b m c (Proc.devRef .tc r) :=
  StableHlo.after_of_writes_sub ops_G6a (B_G5b m c) ops_G6a_writes h
/-- Chunk D5 keeps a reference it does not write. -/
theorem keep_D5 (m : (ℓ : Loc nD τ sig) → Buf (Elt F) ℓ) (c : Dev nD) (r : Ref sig .tc) (h : r ∉ writes_D5) :
    B_D5 m c (Proc.devRef .tc r) = B_G6a m c (Proc.devRef .tc r) :=
  StableHlo.after_of_writes_sub ops_D5 (B_G6a m c) ops_D5_writes h
/-- Chunk G6b keeps a reference it does not write. -/
theorem keep_G6b (m : (ℓ : Loc nD τ sig) → Buf (Elt F) ℓ) (c : Dev nD) (r : Ref sig .tc) (h : r ∉ writes_G6b) :
    B_G6b m c (Proc.devRef .tc r) = B_D5 m c (Proc.devRef .tc r) :=
  StableHlo.after_of_writes_sub ops_G6b (B_D5 m c) ops_G6b_writes h
/-- Chunk G7a keeps a reference it does not write. -/
theorem keep_G7a (m : (ℓ : Loc nD τ sig) → Buf (Elt F) ℓ) (c : Dev nD) (r : Ref sig .tc) (h : r ∉ writes_G7a) :
    B_G7a m c (Proc.devRef .tc r) = B_G6b m c (Proc.devRef .tc r) :=
  StableHlo.after_of_writes_sub ops_G7a (B_G6b m c) ops_G7a_writes h
/-- Chunk D6 keeps a reference it does not write. -/
theorem keep_D6 (m : (ℓ : Loc nD τ sig) → Buf (Elt F) ℓ) (c : Dev nD) (r : Ref sig .tc) (h : r ∉ writes_D6) :
    B_D6 m c (Proc.devRef .tc r) = B_G7a m c (Proc.devRef .tc r) :=
  StableHlo.after_of_writes_sub ops_D6 (B_G7a m c) ops_D6_writes h
/-- Chunk G7b keeps a reference it does not write. -/
theorem keep_G7b (m : (ℓ : Loc nD τ sig) → Buf (Elt F) ℓ) (c : Dev nD) (r : Ref sig .tc) (h : r ∉ writes_G7b) :
    B_G7b m c (Proc.devRef .tc r) = B_D6 m c (Proc.devRef .tc r) :=
  StableHlo.after_of_writes_sub ops_G7b (B_D6 m c) ops_G7b_writes h
/-- Chunk G8a keeps a reference it does not write. -/
theorem keep_G8a (m : (ℓ : Loc nD τ sig) → Buf (Elt F) ℓ) (c : Dev nD) (r : Ref sig .tc) (h : r ∉ writes_G8a) :
    B_G8a m c (Proc.devRef .tc r) = B_G7b m c (Proc.devRef .tc r) :=
  StableHlo.after_of_writes_sub ops_G8a (B_G7b m c) ops_G8a_writes h
/-- Chunk D7 keeps a reference it does not write. -/
theorem keep_D7 (m : (ℓ : Loc nD τ sig) → Buf (Elt F) ℓ) (c : Dev nD) (r : Ref sig .tc) (h : r ∉ writes_D7) :
    B_D7 m c (Proc.devRef .tc r) = B_G8a m c (Proc.devRef .tc r) :=
  StableHlo.after_of_writes_sub ops_D7 (B_G8a m c) ops_D7_writes h
/-- Chunk G8b keeps a reference it does not write. -/
theorem keep_G8b (m : (ℓ : Loc nD τ sig) → Buf (Elt F) ℓ) (c : Dev nD) (r : Ref sig .tc) (h : r ∉ writes_G8b) :
    B_G8b m c (Proc.devRef .tc r) = B_D7 m c (Proc.devRef .tc r) :=
  StableHlo.after_of_writes_sub ops_G8b (B_D7 m c) ops_G8b_writes h
/-- Chunk G9a keeps a reference it does not write. -/
theorem keep_G9a (m : (ℓ : Loc nD τ sig) → Buf (Elt F) ℓ) (c : Dev nD) (r : Ref sig .tc) (h : r ∉ writes_G9a) :
    B_G9a m c (Proc.devRef .tc r) = B_G8b m c (Proc.devRef .tc r) :=
  StableHlo.after_of_writes_sub ops_G9a (B_G8b m c) ops_G9a_writes h
/-- Chunk D8 keeps a reference it does not write. -/
theorem keep_D8 (m : (ℓ : Loc nD τ sig) → Buf (Elt F) ℓ) (c : Dev nD) (r : Ref sig .tc) (h : r ∉ writes_D8) :
    B_D8 m c (Proc.devRef .tc r) = B_G9a m c (Proc.devRef .tc r) :=
  StableHlo.after_of_writes_sub ops_D8 (B_G9a m c) ops_D8_writes h
/-- Chunk G9b keeps a reference it does not write. -/
theorem keep_G9b (m : (ℓ : Loc nD τ sig) → Buf (Elt F) ℓ) (c : Dev nD) (r : Ref sig .tc) (h : r ∉ writes_G9b) :
    B_G9b m c (Proc.devRef .tc r) = B_D8 m c (Proc.devRef .tc r) :=
  StableHlo.after_of_writes_sub ops_G9b (B_D8 m c) ops_G9b_writes h
/-- Chunk L9 keeps a reference it does not write. -/
theorem keep_L9 (m : (ℓ : Loc nD τ sig) → Buf (Elt F) ℓ) (c : Dev nD) (r : Ref sig .tc) (h : r ∉ writes_L9) :
    B_L9 m c (Proc.devRef .tc r) = B_G9b m c (Proc.devRef .tc r) :=
  StableHlo.after_of_writes_sub ops_L9 (B_G9b m c) ops_L9_writes h
/-- Chunk H10 keeps a reference it does not write. -/
theorem keep_H10 (m : (ℓ : Loc nD τ sig) → Buf (Elt F) ℓ) (c : Dev nD) (r : Ref sig .tc) (h : r ∉ writes_H10) :
    B_H10 m c (Proc.devRef .tc r) = B_L9 m c (Proc.devRef .tc r) :=
  StableHlo.after_of_writes_sub ops_H10 (B_L9 m c) ops_H10_writes h
/-- Chunk L10 keeps a reference it does not write. -/
theorem keep_L10 (m : (ℓ : Loc nD τ sig) → Buf (Elt F) ℓ) (c : Dev nD) (r : Ref sig .tc) (h : r ∉ writes_L10) :
    B_L10 m c (Proc.devRef .tc r) = B_H10 m c (Proc.devRef .tc r) :=
  StableHlo.after_of_writes_sub ops_L10 (B_H10 m c) ops_L10_writes h
/-- Chunk H11 keeps a reference it does not write. -/
theorem keep_H11 (m : (ℓ : Loc nD τ sig) → Buf (Elt F) ℓ) (c : Dev nD) (r : Ref sig .tc) (h : r ∉ writes_H11) :
    B_H11 m c (Proc.devRef .tc r) = B_L10 m c (Proc.devRef .tc r) :=
  StableHlo.after_of_writes_sub ops_H11 (B_L10 m c) ops_H11_writes h
/-- Chunk L11 keeps a reference it does not write. -/
theorem keep_L11 (m : (ℓ : Loc nD τ sig) → Buf (Elt F) ℓ) (c : Dev nD) (r : Ref sig .tc) (h : r ∉ writes_L11) :
    B_L11 m c (Proc.devRef .tc r) = B_H11 m c (Proc.devRef .tc r) :=
  StableHlo.after_of_writes_sub ops_L11 (B_H11 m c) ops_L11_writes h
/-- Chunk RELU9 keeps a reference it does not write. -/
theorem keep_RELU9 (m : (ℓ : Loc nD τ sig) → Buf (Elt F) ℓ) (c : Dev nD) (r : Ref sig .tc) (h : r ∉ writes_RELU9) :
    B_RELU9 m c (Proc.devRef .tc r) = B_L11 m c (Proc.devRef .tc r) :=
  StableHlo.after_of_writes_sub ops_RELU9 (B_L11 m c) ops_RELU9_writes h
/-- Chunk RELU10 keeps a reference it does not write. -/
theorem keep_RELU10 (m : (ℓ : Loc nD τ sig) → Buf (Elt F) ℓ) (c : Dev nD) (r : Ref sig .tc) (h : r ∉ writes_RELU10) :
    B_RELU10 m c (Proc.devRef .tc r) = B_RELU9 m c (Proc.devRef .tc r) :=
  StableHlo.after_of_writes_sub ops_RELU10 (B_RELU9 m c) ops_RELU10_writes h
/-- Chunk RELU11 keeps a reference it does not write. -/
theorem keep_RELU11 (m : (ℓ : Loc nD τ sig) → Buf (Elt F) ℓ) (c : Dev nD) (r : Ref sig .tc) (h : r ∉ writes_RELU11) :
    B_RELU11 m c (Proc.devRef .tc r) = B_RELU10 m c (Proc.devRef .tc r) :=
  StableHlo.after_of_writes_sub ops_RELU11 (B_RELU10 m c) ops_RELU11_writes h
/-- Chunk G12 keeps a reference it does not write. -/
theorem keep_G12 (m : (ℓ : Loc nD τ sig) → Buf (Elt F) ℓ) (c : Dev nD) (r : Ref sig .tc) (h : r ∉ writes_G12) :
    B_G12 m c (Proc.devRef .tc r) = B_RELU11 m c (Proc.devRef .tc r) :=
  StableHlo.after_of_writes_sub ops_G12 (B_RELU11 m c) ops_G12_writes h
/-- Chunk G13a keeps a reference it does not write. -/
theorem keep_G13a (m : (ℓ : Loc nD τ sig) → Buf (Elt F) ℓ) (c : Dev nD) (r : Ref sig .tc) (h : r ∉ writes_G13a) :
    B_G13a m c (Proc.devRef .tc r) = B_G12 m c (Proc.devRef .tc r) :=
  StableHlo.after_of_writes_sub ops_G13a (B_G12 m c) ops_G13a_writes h
/-- Chunk D12 keeps a reference it does not write. -/
theorem keep_D12 (m : (ℓ : Loc nD τ sig) → Buf (Elt F) ℓ) (c : Dev nD) (r : Ref sig .tc) (h : r ∉ writes_D12) :
    B_D12 m c (Proc.devRef .tc r) = B_G13a m c (Proc.devRef .tc r) :=
  StableHlo.after_of_writes_sub ops_D12 (B_G13a m c) ops_D12_writes h
/-- Chunk G13b keeps a reference it does not write. -/
theorem keep_G13b (m : (ℓ : Loc nD τ sig) → Buf (Elt F) ℓ) (c : Dev nD) (r : Ref sig .tc) (h : r ∉ writes_G13b) :
    B_G13b m c (Proc.devRef .tc r) = B_D12 m c (Proc.devRef .tc r) :=
  StableHlo.after_of_writes_sub ops_G13b (B_D12 m c) ops_G13b_writes h
/-- Chunk G14a keeps a reference it does not write. -/
theorem keep_G14a (m : (ℓ : Loc nD τ sig) → Buf (Elt F) ℓ) (c : Dev nD) (r : Ref sig .tc) (h : r ∉ writes_G14a) :
    B_G14a m c (Proc.devRef .tc r) = B_G13b m c (Proc.devRef .tc r) :=
  StableHlo.after_of_writes_sub ops_G14a (B_G13b m c) ops_G14a_writes h
/-- Chunk D13 keeps a reference it does not write. -/
theorem keep_D13 (m : (ℓ : Loc nD τ sig) → Buf (Elt F) ℓ) (c : Dev nD) (r : Ref sig .tc) (h : r ∉ writes_D13) :
    B_D13 m c (Proc.devRef .tc r) = B_G14a m c (Proc.devRef .tc r) :=
  StableHlo.after_of_writes_sub ops_D13 (B_G14a m c) ops_D13_writes h
/-- Chunk G14b keeps a reference it does not write. -/
theorem keep_G14b (m : (ℓ : Loc nD τ sig) → Buf (Elt F) ℓ) (c : Dev nD) (r : Ref sig .tc) (h : r ∉ writes_G14b) :
    B_G14b m c (Proc.devRef .tc r) = B_D13 m c (Proc.devRef .tc r) :=
  StableHlo.after_of_writes_sub ops_G14b (B_D13 m c) ops_G14b_writes h
/-- Chunk G15a keeps a reference it does not write. -/
theorem keep_G15a (m : (ℓ : Loc nD τ sig) → Buf (Elt F) ℓ) (c : Dev nD) (r : Ref sig .tc) (h : r ∉ writes_G15a) :
    B_G15a m c (Proc.devRef .tc r) = B_G14b m c (Proc.devRef .tc r) :=
  StableHlo.after_of_writes_sub ops_G15a (B_G14b m c) ops_G15a_writes h
/-- Chunk D14 keeps a reference it does not write. -/
theorem keep_D14 (m : (ℓ : Loc nD τ sig) → Buf (Elt F) ℓ) (c : Dev nD) (r : Ref sig .tc) (h : r ∉ writes_D14) :
    B_D14 m c (Proc.devRef .tc r) = B_G15a m c (Proc.devRef .tc r) :=
  StableHlo.after_of_writes_sub ops_D14 (B_G15a m c) ops_D14_writes h
/-- Chunk G15b keeps a reference it does not write. -/
theorem keep_G15b (m : (ℓ : Loc nD τ sig) → Buf (Elt F) ℓ) (c : Dev nD) (r : Ref sig .tc) (h : r ∉ writes_G15b) :
    B_G15b m c (Proc.devRef .tc r) = B_D14 m c (Proc.devRef .tc r) :=
  StableHlo.after_of_writes_sub ops_G15b (B_D14 m c) ops_G15b_writes h
/-- Chunk G16a keeps a reference it does not write. -/
theorem keep_G16a (m : (ℓ : Loc nD τ sig) → Buf (Elt F) ℓ) (c : Dev nD) (r : Ref sig .tc) (h : r ∉ writes_G16a) :
    B_G16a m c (Proc.devRef .tc r) = B_G15b m c (Proc.devRef .tc r) :=
  StableHlo.after_of_writes_sub ops_G16a (B_G15b m c) ops_G16a_writes h
/-- Chunk D15 keeps a reference it does not write. -/
theorem keep_D15 (m : (ℓ : Loc nD τ sig) → Buf (Elt F) ℓ) (c : Dev nD) (r : Ref sig .tc) (h : r ∉ writes_D15) :
    B_D15 m c (Proc.devRef .tc r) = B_G16a m c (Proc.devRef .tc r) :=
  StableHlo.after_of_writes_sub ops_D15 (B_G16a m c) ops_D15_writes h
/-- Chunk G16b keeps a reference it does not write. -/
theorem keep_G16b (m : (ℓ : Loc nD τ sig) → Buf (Elt F) ℓ) (c : Dev nD) (r : Ref sig .tc) (h : r ∉ writes_G16b) :
    B_G16b m c (Proc.devRef .tc r) = B_D15 m c (Proc.devRef .tc r) :=
  StableHlo.after_of_writes_sub ops_G16b (B_D15 m c) ops_G16b_writes h
/-- Chunk G17a keeps a reference it does not write. -/
theorem keep_G17a (m : (ℓ : Loc nD τ sig) → Buf (Elt F) ℓ) (c : Dev nD) (r : Ref sig .tc) (h : r ∉ writes_G17a) :
    B_G17a m c (Proc.devRef .tc r) = B_G16b m c (Proc.devRef .tc r) :=
  StableHlo.after_of_writes_sub ops_G17a (B_G16b m c) ops_G17a_writes h
/-- Chunk D16 keeps a reference it does not write. -/
theorem keep_D16 (m : (ℓ : Loc nD τ sig) → Buf (Elt F) ℓ) (c : Dev nD) (r : Ref sig .tc) (h : r ∉ writes_D16) :
    B_D16 m c (Proc.devRef .tc r) = B_G17a m c (Proc.devRef .tc r) :=
  StableHlo.after_of_writes_sub ops_D16 (B_G17a m c) ops_D16_writes h
/-- Chunk G17b keeps a reference it does not write. -/
theorem keep_G17b (m : (ℓ : Loc nD τ sig) → Buf (Elt F) ℓ) (c : Dev nD) (r : Ref sig .tc) (h : r ∉ writes_G17b) :
    B_G17b m c (Proc.devRef .tc r) = B_D16 m c (Proc.devRef .tc r) :=
  StableHlo.after_of_writes_sub ops_G17b (B_D16 m c) ops_G17b_writes h
/-- Chunk G18a keeps a reference it does not write. -/
theorem keep_G18a (m : (ℓ : Loc nD τ sig) → Buf (Elt F) ℓ) (c : Dev nD) (r : Ref sig .tc) (h : r ∉ writes_G18a) :
    B_G18a m c (Proc.devRef .tc r) = B_G17b m c (Proc.devRef .tc r) :=
  StableHlo.after_of_writes_sub ops_G18a (B_G17b m c) ops_G18a_writes h
/-- Chunk D17 keeps a reference it does not write. -/
theorem keep_D17 (m : (ℓ : Loc nD τ sig) → Buf (Elt F) ℓ) (c : Dev nD) (r : Ref sig .tc) (h : r ∉ writes_D17) :
    B_D17 m c (Proc.devRef .tc r) = B_G18a m c (Proc.devRef .tc r) :=
  StableHlo.after_of_writes_sub ops_D17 (B_G18a m c) ops_D17_writes h
/-- Chunk G18b keeps a reference it does not write. -/
theorem keep_G18b (m : (ℓ : Loc nD τ sig) → Buf (Elt F) ℓ) (c : Dev nD) (r : Ref sig .tc) (h : r ∉ writes_G18b) :
    B_G18b m c (Proc.devRef .tc r) = B_D17 m c (Proc.devRef .tc r) :=
  StableHlo.after_of_writes_sub ops_G18b (B_D17 m c) ops_G18b_writes h
/-- Chunk L18 keeps a reference it does not write. -/
theorem keep_L18 (m : (ℓ : Loc nD τ sig) → Buf (Elt F) ℓ) (c : Dev nD) (r : Ref sig .tc) (h : r ∉ writes_L18) :
    B_L18 m c (Proc.devRef .tc r) = B_G18b m c (Proc.devRef .tc r) :=
  StableHlo.after_of_writes_sub ops_L18 (B_G18b m c) ops_L18_writes h
/-- Chunk H19 keeps a reference it does not write. -/
theorem keep_H19 (m : (ℓ : Loc nD τ sig) → Buf (Elt F) ℓ) (c : Dev nD) (r : Ref sig .tc) (h : r ∉ writes_H19) :
    B_H19 m c (Proc.devRef .tc r) = B_L18 m c (Proc.devRef .tc r) :=
  StableHlo.after_of_writes_sub ops_H19 (B_L18 m c) ops_H19_writes h
/-- Chunk L19 keeps a reference it does not write. -/
theorem keep_L19 (m : (ℓ : Loc nD τ sig) → Buf (Elt F) ℓ) (c : Dev nD) (r : Ref sig .tc) (h : r ∉ writes_L19) :
    B_L19 m c (Proc.devRef .tc r) = B_H19 m c (Proc.devRef .tc r) :=
  StableHlo.after_of_writes_sub ops_L19 (B_H19 m c) ops_L19_writes h
/-- Chunk H20 keeps a reference it does not write. -/
theorem keep_H20 (m : (ℓ : Loc nD τ sig) → Buf (Elt F) ℓ) (c : Dev nD) (r : Ref sig .tc) (h : r ∉ writes_H20) :
    B_H20 m c (Proc.devRef .tc r) = B_L19 m c (Proc.devRef .tc r) :=
  StableHlo.after_of_writes_sub ops_H20 (B_L19 m c) ops_H20_writes h
/-- Chunk L20 keeps a reference it does not write. -/
theorem keep_L20 (m : (ℓ : Loc nD τ sig) → Buf (Elt F) ℓ) (c : Dev nD) (r : Ref sig .tc) (h : r ∉ writes_L20) :
    B_L20 m c (Proc.devRef .tc r) = B_H20 m c (Proc.devRef .tc r) :=
  StableHlo.after_of_writes_sub ops_L20 (B_H20 m c) ops_L20_writes h

/-- The references written after chunk L20: none. -/
abbrev writesAfter_L20 : List (Ref sig .tc) := []
/-- The references written after chunk H20. -/
abbrev writesAfter_H20 : List (Ref sig .tc) := writes_L20 ++ writesAfter_L20
/-- The references written after chunk L19. -/
abbrev writesAfter_L19 : List (Ref sig .tc) := writes_H20 ++ writesAfter_H20
/-- The references written after chunk H19. -/
abbrev writesAfter_H19 : List (Ref sig .tc) := writes_L19 ++ writesAfter_L19
/-- The references written after chunk L18. -/
abbrev writesAfter_L18 : List (Ref sig .tc) := writes_H19 ++ writesAfter_H19
/-- The references written after chunk G18b. -/
abbrev writesAfter_G18b : List (Ref sig .tc) := writes_L18 ++ writesAfter_L18
/-- The references written after chunk D17. -/
abbrev writesAfter_D17 : List (Ref sig .tc) := writes_G18b ++ writesAfter_G18b
/-- The references written after chunk G18a. -/
abbrev writesAfter_G18a : List (Ref sig .tc) := writes_D17 ++ writesAfter_D17
/-- The references written after chunk G17b. -/
abbrev writesAfter_G17b : List (Ref sig .tc) := writes_G18a ++ writesAfter_G18a
/-- The references written after chunk D16. -/
abbrev writesAfter_D16 : List (Ref sig .tc) := writes_G17b ++ writesAfter_G17b
/-- The references written after chunk G17a. -/
abbrev writesAfter_G17a : List (Ref sig .tc) := writes_D16 ++ writesAfter_D16
/-- The references written after chunk G16b. -/
abbrev writesAfter_G16b : List (Ref sig .tc) := writes_G17a ++ writesAfter_G17a
/-- The references written after chunk D15. -/
abbrev writesAfter_D15 : List (Ref sig .tc) := writes_G16b ++ writesAfter_G16b
/-- The references written after chunk G16a. -/
abbrev writesAfter_G16a : List (Ref sig .tc) := writes_D15 ++ writesAfter_D15
/-- The references written after chunk G15b. -/
abbrev writesAfter_G15b : List (Ref sig .tc) := writes_G16a ++ writesAfter_G16a
/-- The references written after chunk D14. -/
abbrev writesAfter_D14 : List (Ref sig .tc) := writes_G15b ++ writesAfter_G15b
/-- The references written after chunk G15a. -/
abbrev writesAfter_G15a : List (Ref sig .tc) := writes_D14 ++ writesAfter_D14
/-- The references written after chunk G14b. -/
abbrev writesAfter_G14b : List (Ref sig .tc) := writes_G15a ++ writesAfter_G15a
/-- The references written after chunk D13. -/
abbrev writesAfter_D13 : List (Ref sig .tc) := writes_G14b ++ writesAfter_G14b
/-- The references written after chunk G14a. -/
abbrev writesAfter_G14a : List (Ref sig .tc) := writes_D13 ++ writesAfter_D13
/-- The references written after chunk G13b. -/
abbrev writesAfter_G13b : List (Ref sig .tc) := writes_G14a ++ writesAfter_G14a
/-- The references written after chunk D12. -/
abbrev writesAfter_D12 : List (Ref sig .tc) := writes_G13b ++ writesAfter_G13b
/-- The references written after chunk G13a. -/
abbrev writesAfter_G13a : List (Ref sig .tc) := writes_D12 ++ writesAfter_D12
/-- The references written after chunk G12. -/
abbrev writesAfter_G12 : List (Ref sig .tc) := writes_G13a ++ writesAfter_G13a
/-- The references written after chunk RELU11. -/
abbrev writesAfter_RELU11 : List (Ref sig .tc) := writes_G12 ++ writesAfter_G12
/-- The references written after chunk RELU10. -/
abbrev writesAfter_RELU10 : List (Ref sig .tc) := writes_RELU11 ++ writesAfter_RELU11
/-- The references written after chunk RELU9. -/
abbrev writesAfter_RELU9 : List (Ref sig .tc) := writes_RELU10 ++ writesAfter_RELU10
/-- The references written after chunk L11. -/
abbrev writesAfter_L11 : List (Ref sig .tc) := writes_RELU9 ++ writesAfter_RELU9
/-- The references written after chunk H11. -/
abbrev writesAfter_H11 : List (Ref sig .tc) := writes_L11 ++ writesAfter_L11
/-- The references written after chunk L10. -/
abbrev writesAfter_L10 : List (Ref sig .tc) := writes_H11 ++ writesAfter_H11
/-- The references written after chunk H10. -/
abbrev writesAfter_H10 : List (Ref sig .tc) := writes_L10 ++ writesAfter_L10
/-- The references written after chunk L9. -/
abbrev writesAfter_L9 : List (Ref sig .tc) := writes_H10 ++ writesAfter_H10
/-- The references written after chunk G9b. -/
abbrev writesAfter_G9b : List (Ref sig .tc) := writes_L9 ++ writesAfter_L9
/-- The references written after chunk D8. -/
abbrev writesAfter_D8 : List (Ref sig .tc) := writes_G9b ++ writesAfter_G9b
/-- The references written after chunk G9a. -/
abbrev writesAfter_G9a : List (Ref sig .tc) := writes_D8 ++ writesAfter_D8
/-- The references written after chunk G8b. -/
abbrev writesAfter_G8b : List (Ref sig .tc) := writes_G9a ++ writesAfter_G9a
/-- The references written after chunk D7. -/
abbrev writesAfter_D7 : List (Ref sig .tc) := writes_G8b ++ writesAfter_G8b
/-- The references written after chunk G8a. -/
abbrev writesAfter_G8a : List (Ref sig .tc) := writes_D7 ++ writesAfter_D7
/-- The references written after chunk G7b. -/
abbrev writesAfter_G7b : List (Ref sig .tc) := writes_G8a ++ writesAfter_G8a
/-- The references written after chunk D6. -/
abbrev writesAfter_D6 : List (Ref sig .tc) := writes_G7b ++ writesAfter_G7b
/-- The references written after chunk G7a. -/
abbrev writesAfter_G7a : List (Ref sig .tc) := writes_D6 ++ writesAfter_D6
/-- The references written after chunk G6b. -/
abbrev writesAfter_G6b : List (Ref sig .tc) := writes_G7a ++ writesAfter_G7a
/-- The references written after chunk D5. -/
abbrev writesAfter_D5 : List (Ref sig .tc) := writes_G6b ++ writesAfter_G6b
/-- The references written after chunk G6a. -/
abbrev writesAfter_G6a : List (Ref sig .tc) := writes_D5 ++ writesAfter_D5
/-- The references written after chunk G5b. -/
abbrev writesAfter_G5b : List (Ref sig .tc) := writes_G6a ++ writesAfter_G6a
/-- The references written after chunk D4. -/
abbrev writesAfter_D4 : List (Ref sig .tc) := writes_G5b ++ writesAfter_G5b
/-- The references written after chunk G5a. -/
abbrev writesAfter_G5a : List (Ref sig .tc) := writes_D4 ++ writesAfter_D4
/-- The references written after chunk G4b. -/
abbrev writesAfter_G4b : List (Ref sig .tc) := writes_G5a ++ writesAfter_G5a
/-- The references written after chunk D3. -/
abbrev writesAfter_D3 : List (Ref sig .tc) := writes_G4b ++ writesAfter_G4b
/-- The references written after chunk G4a. -/
abbrev writesAfter_G4a : List (Ref sig .tc) := writes_D3 ++ writesAfter_D3
/-- The references written after chunk G3. -/
abbrev writesAfter_G3 : List (Ref sig .tc) := writes_G4a ++ writesAfter_G4a
/-- The references written after chunk P2. -/
abbrev writesAfter_P2 : List (Ref sig .tc) := writes_G3 ++ writesAfter_G3
/-- The references written after chunk P1. -/
abbrev writesAfter_P1 : List (Ref sig .tc) := writes_P2 ++ writesAfter_P2
/-- The references written after chunk P0. -/
abbrev writesAfter_P0 : List (Ref sig .tc) := writes_P1 ++ writesAfter_P1
/-- The references written by the whole run. -/
abbrev writesAfter_B0 : List (Ref sig .tc) := writes_P0 ++ writesAfter_P0

/-- After chunk L20 nothing runs. -/
theorem final_L20 (m : (ℓ : Loc nD τ sig) → Buf (Elt F) ℓ) (c : Dev nD) (r : Ref sig .tc) (_h : r ∉ writesAfter_L20) :
    BF m c (Proc.devRef .tc r) = B_L20 m c (Proc.devRef .tc r) := rfl
/-- The rest of the run after chunk H20 keeps a reference it does not write. -/
theorem final_H20 (m : (ℓ : Loc nD τ sig) → Buf (Elt F) ℓ) (c : Dev nD) (r : Ref sig .tc) (h : r ∉ writesAfter_H20) :
    BF m c (Proc.devRef .tc r) = B_H20 m c (Proc.devRef .tc r) :=
  (final_L20 m c r fun h' => h (List.mem_append_right _ h')).trans
    (keep_L20 m c r fun h' => h (List.mem_append_left _ h'))
/-- The rest of the run after chunk L19 keeps a reference it does not write. -/
theorem final_L19 (m : (ℓ : Loc nD τ sig) → Buf (Elt F) ℓ) (c : Dev nD) (r : Ref sig .tc) (h : r ∉ writesAfter_L19) :
    BF m c (Proc.devRef .tc r) = B_L19 m c (Proc.devRef .tc r) :=
  (final_H20 m c r fun h' => h (List.mem_append_right _ h')).trans
    (keep_H20 m c r fun h' => h (List.mem_append_left _ h'))
/-- The rest of the run after chunk H19 keeps a reference it does not write. -/
theorem final_H19 (m : (ℓ : Loc nD τ sig) → Buf (Elt F) ℓ) (c : Dev nD) (r : Ref sig .tc) (h : r ∉ writesAfter_H19) :
    BF m c (Proc.devRef .tc r) = B_H19 m c (Proc.devRef .tc r) :=
  (final_L19 m c r fun h' => h (List.mem_append_right _ h')).trans
    (keep_L19 m c r fun h' => h (List.mem_append_left _ h'))
/-- The rest of the run after chunk L18 keeps a reference it does not write. -/
theorem final_L18 (m : (ℓ : Loc nD τ sig) → Buf (Elt F) ℓ) (c : Dev nD) (r : Ref sig .tc) (h : r ∉ writesAfter_L18) :
    BF m c (Proc.devRef .tc r) = B_L18 m c (Proc.devRef .tc r) :=
  (final_H19 m c r fun h' => h (List.mem_append_right _ h')).trans
    (keep_H19 m c r fun h' => h (List.mem_append_left _ h'))
/-- The rest of the run after chunk G18b keeps a reference it does not write. -/
theorem final_G18b (m : (ℓ : Loc nD τ sig) → Buf (Elt F) ℓ) (c : Dev nD) (r : Ref sig .tc) (h : r ∉ writesAfter_G18b) :
    BF m c (Proc.devRef .tc r) = B_G18b m c (Proc.devRef .tc r) :=
  (final_L18 m c r fun h' => h (List.mem_append_right _ h')).trans
    (keep_L18 m c r fun h' => h (List.mem_append_left _ h'))
/-- The rest of the run after chunk D17 keeps a reference it does not write. -/
theorem final_D17 (m : (ℓ : Loc nD τ sig) → Buf (Elt F) ℓ) (c : Dev nD) (r : Ref sig .tc) (h : r ∉ writesAfter_D17) :
    BF m c (Proc.devRef .tc r) = B_D17 m c (Proc.devRef .tc r) :=
  (final_G18b m c r fun h' => h (List.mem_append_right _ h')).trans
    (keep_G18b m c r fun h' => h (List.mem_append_left _ h'))
/-- The rest of the run after chunk G18a keeps a reference it does not write. -/
theorem final_G18a (m : (ℓ : Loc nD τ sig) → Buf (Elt F) ℓ) (c : Dev nD) (r : Ref sig .tc) (h : r ∉ writesAfter_G18a) :
    BF m c (Proc.devRef .tc r) = B_G18a m c (Proc.devRef .tc r) :=
  (final_D17 m c r fun h' => h (List.mem_append_right _ h')).trans
    (keep_D17 m c r fun h' => h (List.mem_append_left _ h'))
/-- The rest of the run after chunk G17b keeps a reference it does not write. -/
theorem final_G17b (m : (ℓ : Loc nD τ sig) → Buf (Elt F) ℓ) (c : Dev nD) (r : Ref sig .tc) (h : r ∉ writesAfter_G17b) :
    BF m c (Proc.devRef .tc r) = B_G17b m c (Proc.devRef .tc r) :=
  (final_G18a m c r fun h' => h (List.mem_append_right _ h')).trans
    (keep_G18a m c r fun h' => h (List.mem_append_left _ h'))
/-- The rest of the run after chunk D16 keeps a reference it does not write. -/
theorem final_D16 (m : (ℓ : Loc nD τ sig) → Buf (Elt F) ℓ) (c : Dev nD) (r : Ref sig .tc) (h : r ∉ writesAfter_D16) :
    BF m c (Proc.devRef .tc r) = B_D16 m c (Proc.devRef .tc r) :=
  (final_G17b m c r fun h' => h (List.mem_append_right _ h')).trans
    (keep_G17b m c r fun h' => h (List.mem_append_left _ h'))
/-- The rest of the run after chunk G17a keeps a reference it does not write. -/
theorem final_G17a (m : (ℓ : Loc nD τ sig) → Buf (Elt F) ℓ) (c : Dev nD) (r : Ref sig .tc) (h : r ∉ writesAfter_G17a) :
    BF m c (Proc.devRef .tc r) = B_G17a m c (Proc.devRef .tc r) :=
  (final_D16 m c r fun h' => h (List.mem_append_right _ h')).trans
    (keep_D16 m c r fun h' => h (List.mem_append_left _ h'))
/-- The rest of the run after chunk G16b keeps a reference it does not write. -/
theorem final_G16b (m : (ℓ : Loc nD τ sig) → Buf (Elt F) ℓ) (c : Dev nD) (r : Ref sig .tc) (h : r ∉ writesAfter_G16b) :
    BF m c (Proc.devRef .tc r) = B_G16b m c (Proc.devRef .tc r) :=
  (final_G17a m c r fun h' => h (List.mem_append_right _ h')).trans
    (keep_G17a m c r fun h' => h (List.mem_append_left _ h'))
/-- The rest of the run after chunk D15 keeps a reference it does not write. -/
theorem final_D15 (m : (ℓ : Loc nD τ sig) → Buf (Elt F) ℓ) (c : Dev nD) (r : Ref sig .tc) (h : r ∉ writesAfter_D15) :
    BF m c (Proc.devRef .tc r) = B_D15 m c (Proc.devRef .tc r) :=
  (final_G16b m c r fun h' => h (List.mem_append_right _ h')).trans
    (keep_G16b m c r fun h' => h (List.mem_append_left _ h'))
/-- The rest of the run after chunk G16a keeps a reference it does not write. -/
theorem final_G16a (m : (ℓ : Loc nD τ sig) → Buf (Elt F) ℓ) (c : Dev nD) (r : Ref sig .tc) (h : r ∉ writesAfter_G16a) :
    BF m c (Proc.devRef .tc r) = B_G16a m c (Proc.devRef .tc r) :=
  (final_D15 m c r fun h' => h (List.mem_append_right _ h')).trans
    (keep_D15 m c r fun h' => h (List.mem_append_left _ h'))
/-- The rest of the run after chunk G15b keeps a reference it does not write. -/
theorem final_G15b (m : (ℓ : Loc nD τ sig) → Buf (Elt F) ℓ) (c : Dev nD) (r : Ref sig .tc) (h : r ∉ writesAfter_G15b) :
    BF m c (Proc.devRef .tc r) = B_G15b m c (Proc.devRef .tc r) :=
  (final_G16a m c r fun h' => h (List.mem_append_right _ h')).trans
    (keep_G16a m c r fun h' => h (List.mem_append_left _ h'))
/-- The rest of the run after chunk D14 keeps a reference it does not write. -/
theorem final_D14 (m : (ℓ : Loc nD τ sig) → Buf (Elt F) ℓ) (c : Dev nD) (r : Ref sig .tc) (h : r ∉ writesAfter_D14) :
    BF m c (Proc.devRef .tc r) = B_D14 m c (Proc.devRef .tc r) :=
  (final_G15b m c r fun h' => h (List.mem_append_right _ h')).trans
    (keep_G15b m c r fun h' => h (List.mem_append_left _ h'))
/-- The rest of the run after chunk G15a keeps a reference it does not write. -/
theorem final_G15a (m : (ℓ : Loc nD τ sig) → Buf (Elt F) ℓ) (c : Dev nD) (r : Ref sig .tc) (h : r ∉ writesAfter_G15a) :
    BF m c (Proc.devRef .tc r) = B_G15a m c (Proc.devRef .tc r) :=
  (final_D14 m c r fun h' => h (List.mem_append_right _ h')).trans
    (keep_D14 m c r fun h' => h (List.mem_append_left _ h'))
/-- The rest of the run after chunk G14b keeps a reference it does not write. -/
theorem final_G14b (m : (ℓ : Loc nD τ sig) → Buf (Elt F) ℓ) (c : Dev nD) (r : Ref sig .tc) (h : r ∉ writesAfter_G14b) :
    BF m c (Proc.devRef .tc r) = B_G14b m c (Proc.devRef .tc r) :=
  (final_G15a m c r fun h' => h (List.mem_append_right _ h')).trans
    (keep_G15a m c r fun h' => h (List.mem_append_left _ h'))
/-- The rest of the run after chunk D13 keeps a reference it does not write. -/
theorem final_D13 (m : (ℓ : Loc nD τ sig) → Buf (Elt F) ℓ) (c : Dev nD) (r : Ref sig .tc) (h : r ∉ writesAfter_D13) :
    BF m c (Proc.devRef .tc r) = B_D13 m c (Proc.devRef .tc r) :=
  (final_G14b m c r fun h' => h (List.mem_append_right _ h')).trans
    (keep_G14b m c r fun h' => h (List.mem_append_left _ h'))
/-- The rest of the run after chunk G14a keeps a reference it does not write. -/
theorem final_G14a (m : (ℓ : Loc nD τ sig) → Buf (Elt F) ℓ) (c : Dev nD) (r : Ref sig .tc) (h : r ∉ writesAfter_G14a) :
    BF m c (Proc.devRef .tc r) = B_G14a m c (Proc.devRef .tc r) :=
  (final_D13 m c r fun h' => h (List.mem_append_right _ h')).trans
    (keep_D13 m c r fun h' => h (List.mem_append_left _ h'))
/-- The rest of the run after chunk G13b keeps a reference it does not write. -/
theorem final_G13b (m : (ℓ : Loc nD τ sig) → Buf (Elt F) ℓ) (c : Dev nD) (r : Ref sig .tc) (h : r ∉ writesAfter_G13b) :
    BF m c (Proc.devRef .tc r) = B_G13b m c (Proc.devRef .tc r) :=
  (final_G14a m c r fun h' => h (List.mem_append_right _ h')).trans
    (keep_G14a m c r fun h' => h (List.mem_append_left _ h'))
/-- The rest of the run after chunk D12 keeps a reference it does not write. -/
theorem final_D12 (m : (ℓ : Loc nD τ sig) → Buf (Elt F) ℓ) (c : Dev nD) (r : Ref sig .tc) (h : r ∉ writesAfter_D12) :
    BF m c (Proc.devRef .tc r) = B_D12 m c (Proc.devRef .tc r) :=
  (final_G13b m c r fun h' => h (List.mem_append_right _ h')).trans
    (keep_G13b m c r fun h' => h (List.mem_append_left _ h'))
/-- The rest of the run after chunk G13a keeps a reference it does not write. -/
theorem final_G13a (m : (ℓ : Loc nD τ sig) → Buf (Elt F) ℓ) (c : Dev nD) (r : Ref sig .tc) (h : r ∉ writesAfter_G13a) :
    BF m c (Proc.devRef .tc r) = B_G13a m c (Proc.devRef .tc r) :=
  (final_D12 m c r fun h' => h (List.mem_append_right _ h')).trans
    (keep_D12 m c r fun h' => h (List.mem_append_left _ h'))
/-- The rest of the run after chunk G12 keeps a reference it does not write. -/
theorem final_G12 (m : (ℓ : Loc nD τ sig) → Buf (Elt F) ℓ) (c : Dev nD) (r : Ref sig .tc) (h : r ∉ writesAfter_G12) :
    BF m c (Proc.devRef .tc r) = B_G12 m c (Proc.devRef .tc r) :=
  (final_G13a m c r fun h' => h (List.mem_append_right _ h')).trans
    (keep_G13a m c r fun h' => h (List.mem_append_left _ h'))
/-- The rest of the run after chunk RELU11 keeps a reference it does not write. -/
theorem final_RELU11 (m : (ℓ : Loc nD τ sig) → Buf (Elt F) ℓ) (c : Dev nD) (r : Ref sig .tc) (h : r ∉ writesAfter_RELU11) :
    BF m c (Proc.devRef .tc r) = B_RELU11 m c (Proc.devRef .tc r) :=
  (final_G12 m c r fun h' => h (List.mem_append_right _ h')).trans
    (keep_G12 m c r fun h' => h (List.mem_append_left _ h'))
/-- The rest of the run after chunk RELU10 keeps a reference it does not write. -/
theorem final_RELU10 (m : (ℓ : Loc nD τ sig) → Buf (Elt F) ℓ) (c : Dev nD) (r : Ref sig .tc) (h : r ∉ writesAfter_RELU10) :
    BF m c (Proc.devRef .tc r) = B_RELU10 m c (Proc.devRef .tc r) :=
  (final_RELU11 m c r fun h' => h (List.mem_append_right _ h')).trans
    (keep_RELU11 m c r fun h' => h (List.mem_append_left _ h'))
/-- The rest of the run after chunk RELU9 keeps a reference it does not write. -/
theorem final_RELU9 (m : (ℓ : Loc nD τ sig) → Buf (Elt F) ℓ) (c : Dev nD) (r : Ref sig .tc) (h : r ∉ writesAfter_RELU9) :
    BF m c (Proc.devRef .tc r) = B_RELU9 m c (Proc.devRef .tc r) :=
  (final_RELU10 m c r fun h' => h (List.mem_append_right _ h')).trans
    (keep_RELU10 m c r fun h' => h (List.mem_append_left _ h'))
/-- The rest of the run after chunk L11 keeps a reference it does not write. -/
theorem final_L11 (m : (ℓ : Loc nD τ sig) → Buf (Elt F) ℓ) (c : Dev nD) (r : Ref sig .tc) (h : r ∉ writesAfter_L11) :
    BF m c (Proc.devRef .tc r) = B_L11 m c (Proc.devRef .tc r) :=
  (final_RELU9 m c r fun h' => h (List.mem_append_right _ h')).trans
    (keep_RELU9 m c r fun h' => h (List.mem_append_left _ h'))
/-- The rest of the run after chunk H11 keeps a reference it does not write. -/
theorem final_H11 (m : (ℓ : Loc nD τ sig) → Buf (Elt F) ℓ) (c : Dev nD) (r : Ref sig .tc) (h : r ∉ writesAfter_H11) :
    BF m c (Proc.devRef .tc r) = B_H11 m c (Proc.devRef .tc r) :=
  (final_L11 m c r fun h' => h (List.mem_append_right _ h')).trans
    (keep_L11 m c r fun h' => h (List.mem_append_left _ h'))
/-- The rest of the run after chunk L10 keeps a reference it does not write. -/
theorem final_L10 (m : (ℓ : Loc nD τ sig) → Buf (Elt F) ℓ) (c : Dev nD) (r : Ref sig .tc) (h : r ∉ writesAfter_L10) :
    BF m c (Proc.devRef .tc r) = B_L10 m c (Proc.devRef .tc r) :=
  (final_H11 m c r fun h' => h (List.mem_append_right _ h')).trans
    (keep_H11 m c r fun h' => h (List.mem_append_left _ h'))
/-- The rest of the run after chunk H10 keeps a reference it does not write. -/
theorem final_H10 (m : (ℓ : Loc nD τ sig) → Buf (Elt F) ℓ) (c : Dev nD) (r : Ref sig .tc) (h : r ∉ writesAfter_H10) :
    BF m c (Proc.devRef .tc r) = B_H10 m c (Proc.devRef .tc r) :=
  (final_L10 m c r fun h' => h (List.mem_append_right _ h')).trans
    (keep_L10 m c r fun h' => h (List.mem_append_left _ h'))
/-- The rest of the run after chunk L9 keeps a reference it does not write. -/
theorem final_L9 (m : (ℓ : Loc nD τ sig) → Buf (Elt F) ℓ) (c : Dev nD) (r : Ref sig .tc) (h : r ∉ writesAfter_L9) :
    BF m c (Proc.devRef .tc r) = B_L9 m c (Proc.devRef .tc r) :=
  (final_H10 m c r fun h' => h (List.mem_append_right _ h')).trans
    (keep_H10 m c r fun h' => h (List.mem_append_left _ h'))
/-- The rest of the run after chunk G9b keeps a reference it does not write. -/
theorem final_G9b (m : (ℓ : Loc nD τ sig) → Buf (Elt F) ℓ) (c : Dev nD) (r : Ref sig .tc) (h : r ∉ writesAfter_G9b) :
    BF m c (Proc.devRef .tc r) = B_G9b m c (Proc.devRef .tc r) :=
  (final_L9 m c r fun h' => h (List.mem_append_right _ h')).trans
    (keep_L9 m c r fun h' => h (List.mem_append_left _ h'))
/-- The rest of the run after chunk D8 keeps a reference it does not write. -/
theorem final_D8 (m : (ℓ : Loc nD τ sig) → Buf (Elt F) ℓ) (c : Dev nD) (r : Ref sig .tc) (h : r ∉ writesAfter_D8) :
    BF m c (Proc.devRef .tc r) = B_D8 m c (Proc.devRef .tc r) :=
  (final_G9b m c r fun h' => h (List.mem_append_right _ h')).trans
    (keep_G9b m c r fun h' => h (List.mem_append_left _ h'))
/-- The rest of the run after chunk G9a keeps a reference it does not write. -/
theorem final_G9a (m : (ℓ : Loc nD τ sig) → Buf (Elt F) ℓ) (c : Dev nD) (r : Ref sig .tc) (h : r ∉ writesAfter_G9a) :
    BF m c (Proc.devRef .tc r) = B_G9a m c (Proc.devRef .tc r) :=
  (final_D8 m c r fun h' => h (List.mem_append_right _ h')).trans
    (keep_D8 m c r fun h' => h (List.mem_append_left _ h'))
/-- The rest of the run after chunk G8b keeps a reference it does not write. -/
theorem final_G8b (m : (ℓ : Loc nD τ sig) → Buf (Elt F) ℓ) (c : Dev nD) (r : Ref sig .tc) (h : r ∉ writesAfter_G8b) :
    BF m c (Proc.devRef .tc r) = B_G8b m c (Proc.devRef .tc r) :=
  (final_G9a m c r fun h' => h (List.mem_append_right _ h')).trans
    (keep_G9a m c r fun h' => h (List.mem_append_left _ h'))
/-- The rest of the run after chunk D7 keeps a reference it does not write. -/
theorem final_D7 (m : (ℓ : Loc nD τ sig) → Buf (Elt F) ℓ) (c : Dev nD) (r : Ref sig .tc) (h : r ∉ writesAfter_D7) :
    BF m c (Proc.devRef .tc r) = B_D7 m c (Proc.devRef .tc r) :=
  (final_G8b m c r fun h' => h (List.mem_append_right _ h')).trans
    (keep_G8b m c r fun h' => h (List.mem_append_left _ h'))
/-- The rest of the run after chunk G8a keeps a reference it does not write. -/
theorem final_G8a (m : (ℓ : Loc nD τ sig) → Buf (Elt F) ℓ) (c : Dev nD) (r : Ref sig .tc) (h : r ∉ writesAfter_G8a) :
    BF m c (Proc.devRef .tc r) = B_G8a m c (Proc.devRef .tc r) :=
  (final_D7 m c r fun h' => h (List.mem_append_right _ h')).trans
    (keep_D7 m c r fun h' => h (List.mem_append_left _ h'))
/-- The rest of the run after chunk G7b keeps a reference it does not write. -/
theorem final_G7b (m : (ℓ : Loc nD τ sig) → Buf (Elt F) ℓ) (c : Dev nD) (r : Ref sig .tc) (h : r ∉ writesAfter_G7b) :
    BF m c (Proc.devRef .tc r) = B_G7b m c (Proc.devRef .tc r) :=
  (final_G8a m c r fun h' => h (List.mem_append_right _ h')).trans
    (keep_G8a m c r fun h' => h (List.mem_append_left _ h'))
/-- The rest of the run after chunk D6 keeps a reference it does not write. -/
theorem final_D6 (m : (ℓ : Loc nD τ sig) → Buf (Elt F) ℓ) (c : Dev nD) (r : Ref sig .tc) (h : r ∉ writesAfter_D6) :
    BF m c (Proc.devRef .tc r) = B_D6 m c (Proc.devRef .tc r) :=
  (final_G7b m c r fun h' => h (List.mem_append_right _ h')).trans
    (keep_G7b m c r fun h' => h (List.mem_append_left _ h'))
/-- The rest of the run after chunk G7a keeps a reference it does not write. -/
theorem final_G7a (m : (ℓ : Loc nD τ sig) → Buf (Elt F) ℓ) (c : Dev nD) (r : Ref sig .tc) (h : r ∉ writesAfter_G7a) :
    BF m c (Proc.devRef .tc r) = B_G7a m c (Proc.devRef .tc r) :=
  (final_D6 m c r fun h' => h (List.mem_append_right _ h')).trans
    (keep_D6 m c r fun h' => h (List.mem_append_left _ h'))
/-- The rest of the run after chunk G6b keeps a reference it does not write. -/
theorem final_G6b (m : (ℓ : Loc nD τ sig) → Buf (Elt F) ℓ) (c : Dev nD) (r : Ref sig .tc) (h : r ∉ writesAfter_G6b) :
    BF m c (Proc.devRef .tc r) = B_G6b m c (Proc.devRef .tc r) :=
  (final_G7a m c r fun h' => h (List.mem_append_right _ h')).trans
    (keep_G7a m c r fun h' => h (List.mem_append_left _ h'))
/-- The rest of the run after chunk D5 keeps a reference it does not write. -/
theorem final_D5 (m : (ℓ : Loc nD τ sig) → Buf (Elt F) ℓ) (c : Dev nD) (r : Ref sig .tc) (h : r ∉ writesAfter_D5) :
    BF m c (Proc.devRef .tc r) = B_D5 m c (Proc.devRef .tc r) :=
  (final_G6b m c r fun h' => h (List.mem_append_right _ h')).trans
    (keep_G6b m c r fun h' => h (List.mem_append_left _ h'))
/-- The rest of the run after chunk G6a keeps a reference it does not write. -/
theorem final_G6a (m : (ℓ : Loc nD τ sig) → Buf (Elt F) ℓ) (c : Dev nD) (r : Ref sig .tc) (h : r ∉ writesAfter_G6a) :
    BF m c (Proc.devRef .tc r) = B_G6a m c (Proc.devRef .tc r) :=
  (final_D5 m c r fun h' => h (List.mem_append_right _ h')).trans
    (keep_D5 m c r fun h' => h (List.mem_append_left _ h'))
/-- The rest of the run after chunk G5b keeps a reference it does not write. -/
theorem final_G5b (m : (ℓ : Loc nD τ sig) → Buf (Elt F) ℓ) (c : Dev nD) (r : Ref sig .tc) (h : r ∉ writesAfter_G5b) :
    BF m c (Proc.devRef .tc r) = B_G5b m c (Proc.devRef .tc r) :=
  (final_G6a m c r fun h' => h (List.mem_append_right _ h')).trans
    (keep_G6a m c r fun h' => h (List.mem_append_left _ h'))
/-- The rest of the run after chunk D4 keeps a reference it does not write. -/
theorem final_D4 (m : (ℓ : Loc nD τ sig) → Buf (Elt F) ℓ) (c : Dev nD) (r : Ref sig .tc) (h : r ∉ writesAfter_D4) :
    BF m c (Proc.devRef .tc r) = B_D4 m c (Proc.devRef .tc r) :=
  (final_G5b m c r fun h' => h (List.mem_append_right _ h')).trans
    (keep_G5b m c r fun h' => h (List.mem_append_left _ h'))
/-- The rest of the run after chunk G5a keeps a reference it does not write. -/
theorem final_G5a (m : (ℓ : Loc nD τ sig) → Buf (Elt F) ℓ) (c : Dev nD) (r : Ref sig .tc) (h : r ∉ writesAfter_G5a) :
    BF m c (Proc.devRef .tc r) = B_G5a m c (Proc.devRef .tc r) :=
  (final_D4 m c r fun h' => h (List.mem_append_right _ h')).trans
    (keep_D4 m c r fun h' => h (List.mem_append_left _ h'))
/-- The rest of the run after chunk G4b keeps a reference it does not write. -/
theorem final_G4b (m : (ℓ : Loc nD τ sig) → Buf (Elt F) ℓ) (c : Dev nD) (r : Ref sig .tc) (h : r ∉ writesAfter_G4b) :
    BF m c (Proc.devRef .tc r) = B_G4b m c (Proc.devRef .tc r) :=
  (final_G5a m c r fun h' => h (List.mem_append_right _ h')).trans
    (keep_G5a m c r fun h' => h (List.mem_append_left _ h'))
/-- The rest of the run after chunk D3 keeps a reference it does not write. -/
theorem final_D3 (m : (ℓ : Loc nD τ sig) → Buf (Elt F) ℓ) (c : Dev nD) (r : Ref sig .tc) (h : r ∉ writesAfter_D3) :
    BF m c (Proc.devRef .tc r) = B_D3 m c (Proc.devRef .tc r) :=
  (final_G4b m c r fun h' => h (List.mem_append_right _ h')).trans
    (keep_G4b m c r fun h' => h (List.mem_append_left _ h'))
/-- The rest of the run after chunk G4a keeps a reference it does not write. -/
theorem final_G4a (m : (ℓ : Loc nD τ sig) → Buf (Elt F) ℓ) (c : Dev nD) (r : Ref sig .tc) (h : r ∉ writesAfter_G4a) :
    BF m c (Proc.devRef .tc r) = B_G4a m c (Proc.devRef .tc r) :=
  (final_D3 m c r fun h' => h (List.mem_append_right _ h')).trans
    (keep_D3 m c r fun h' => h (List.mem_append_left _ h'))
/-- The rest of the run after chunk G3 keeps a reference it does not write. -/
theorem final_G3 (m : (ℓ : Loc nD τ sig) → Buf (Elt F) ℓ) (c : Dev nD) (r : Ref sig .tc) (h : r ∉ writesAfter_G3) :
    BF m c (Proc.devRef .tc r) = B_G3 m c (Proc.devRef .tc r) :=
  (final_G4a m c r fun h' => h (List.mem_append_right _ h')).trans
    (keep_G4a m c r fun h' => h (List.mem_append_left _ h'))
/-- The rest of the run after chunk P2 keeps a reference it does not write. -/
theorem final_P2 (m : (ℓ : Loc nD τ sig) → Buf (Elt F) ℓ) (c : Dev nD) (r : Ref sig .tc) (h : r ∉ writesAfter_P2) :
    BF m c (Proc.devRef .tc r) = B_P2 m c (Proc.devRef .tc r) :=
  (final_G3 m c r fun h' => h (List.mem_append_right _ h')).trans
    (keep_G3 m c r fun h' => h (List.mem_append_left _ h'))
/-- The rest of the run after chunk P1 keeps a reference it does not write. -/
theorem final_P1 (m : (ℓ : Loc nD τ sig) → Buf (Elt F) ℓ) (c : Dev nD) (r : Ref sig .tc) (h : r ∉ writesAfter_P1) :
    BF m c (Proc.devRef .tc r) = B_P1 m c (Proc.devRef .tc r) :=
  (final_P2 m c r fun h' => h (List.mem_append_right _ h')).trans
    (keep_P2 m c r fun h' => h (List.mem_append_left _ h'))
/-- The rest of the run after chunk P0 keeps a reference it does not write. -/
theorem final_P0 (m : (ℓ : Loc nD τ sig) → Buf (Elt F) ℓ) (c : Dev nD) (r : Ref sig .tc) (h : r ∉ writesAfter_P0) :
    BF m c (Proc.devRef .tc r) = B_P0 m c (Proc.devRef .tc r) :=
  (final_P1 m c r fun h' => h (List.mem_append_right _ h')).trans
    (keep_P1 m c r fun h' => h (List.mem_append_left _ h'))
/-- The rest of the run after the launch keeps a reference it does not write. -/
theorem final_B0 (m : (ℓ : Loc nD τ sig) → Buf (Elt F) ℓ) (c : Dev nD) (r : Ref sig .tc) (h : r ∉ writesAfter_B0) :
    BF m c (Proc.devRef .tc r) = B0 m c (Proc.devRef .tc r) :=
  (final_P0 m c r fun h' => h (List.mem_append_right _ h')).trans
    (keep_P0 m c r fun h' => h (List.mem_append_left _ h'))

end Cert.ReferenceIdeal.Hand

end
-- ==== Proof.Ref.Stable.lean ====
/- Operation i of the reference's @main writes the reference of table index 23 + i, so the references written after a chunk all have a larger index than those written up to it: a reference whose index is at most the chunk's last is not written again, and the end of the run holds what the chunk left there. -/
import proofs.«147021_j7619271983570_1_alg».proof.Proof.Ref.Fold

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A property that holds of every member of a list, read off the list's Boolean test (the test runs over the
    list's members only, not over all references). -/
theorem forall_mem_of_all {α : Type} {l : List α} {p : α → Prop} [DecidablePred p]
    (h : l.all (fun x => decide (p x)) = true) : ∀ x ∈ l, p x :=
  fun x hx => of_decide_eq_true (List.all_eq_true.1 h x hx)

theorem after_L20_lt : ∀ y ∈ writesAfter_L20, 1213 < y.idx.val := fun _ h => absurd h List.not_mem_nil
theorem after_H20_lt : ∀ y ∈ writesAfter_H20, 1184 < y.idx.val :=
  idx_lt_append (W₁ := writes_L20) (forall_mem_of_all (by decide)) after_L20_lt (by decide)
theorem after_L19_lt : ∀ y ∈ writesAfter_L19, 1180 < y.idx.val :=
  idx_lt_append (W₁ := writes_H20) (forall_mem_of_all (by decide)) after_H20_lt (by decide)
theorem after_H19_lt : ∀ y ∈ writesAfter_H19, 1151 < y.idx.val :=
  idx_lt_append (W₁ := writes_L19) (forall_mem_of_all (by decide)) after_L19_lt (by decide)
theorem after_L18_lt : ∀ y ∈ writesAfter_L18, 1147 < y.idx.val :=
  idx_lt_append (W₁ := writes_H19) (forall_mem_of_all (by decide)) after_H19_lt (by decide)
theorem after_G18b_lt : ∀ y ∈ writesAfter_G18b, 1118 < y.idx.val :=
  idx_lt_append (W₁ := writes_L18) (forall_mem_of_all (by decide)) after_L18_lt (by decide)
theorem after_D17_lt : ∀ y ∈ writesAfter_D17, 1075 < y.idx.val :=
  idx_lt_append (W₁ := writes_G18b) (forall_mem_of_all (by decide)) after_G18b_lt (by decide)
theorem after_G18a_lt : ∀ y ∈ writesAfter_G18a, 1074 < y.idx.val :=
  idx_lt_append (W₁ := writes_D17) (forall_mem_of_all (by decide)) after_D17_lt (by decide)
theorem after_G17b_lt : ∀ y ∈ writesAfter_G17b, 1036 < y.idx.val :=
  idx_lt_append (W₁ := writes_G18a) (forall_mem_of_all (by decide)) after_G18a_lt (by decide)
theorem after_D16_lt : ∀ y ∈ writesAfter_D16, 995 < y.idx.val :=
  idx_lt_append (W₁ := writes_G17b) (forall_mem_of_all (by decide)) after_G17b_lt (by decide)
theorem after_G17a_lt : ∀ y ∈ writesAfter_G17a, 994 < y.idx.val :=
  idx_lt_append (W₁ := writes_D16) (forall_mem_of_all (by decide)) after_D16_lt (by decide)
theorem after_G16b_lt : ∀ y ∈ writesAfter_G16b, 956 < y.idx.val :=
  idx_lt_append (W₁ := writes_G17a) (forall_mem_of_all (by decide)) after_G17a_lt (by decide)
theorem after_D15_lt : ∀ y ∈ writesAfter_D15, 915 < y.idx.val :=
  idx_lt_append (W₁ := writes_G16b) (forall_mem_of_all (by decide)) after_G16b_lt (by decide)
theorem after_G16a_lt : ∀ y ∈ writesAfter_G16a, 914 < y.idx.val :=
  idx_lt_append (W₁ := writes_D15) (forall_mem_of_all (by decide)) after_D15_lt (by decide)
theorem after_G15b_lt : ∀ y ∈ writesAfter_G15b, 876 < y.idx.val :=
  idx_lt_append (W₁ := writes_G16a) (forall_mem_of_all (by decide)) after_G16a_lt (by decide)
theorem after_D14_lt : ∀ y ∈ writesAfter_D14, 835 < y.idx.val :=
  idx_lt_append (W₁ := writes_G15b) (forall_mem_of_all (by decide)) after_G15b_lt (by decide)
theorem after_G15a_lt : ∀ y ∈ writesAfter_G15a, 834 < y.idx.val :=
  idx_lt_append (W₁ := writes_D14) (forall_mem_of_all (by decide)) after_D14_lt (by decide)
theorem after_G14b_lt : ∀ y ∈ writesAfter_G14b, 796 < y.idx.val :=
  idx_lt_append (W₁ := writes_G15a) (forall_mem_of_all (by decide)) after_G15a_lt (by decide)
theorem after_D13_lt : ∀ y ∈ writesAfter_D13, 755 < y.idx.val :=
  idx_lt_append (W₁ := writes_G14b) (forall_mem_of_all (by decide)) after_G14b_lt (by decide)
theorem after_G14a_lt : ∀ y ∈ writesAfter_G14a, 754 < y.idx.val :=
  idx_lt_append (W₁ := writes_D13) (forall_mem_of_all (by decide)) after_D13_lt (by decide)
theorem after_G13b_lt : ∀ y ∈ writesAfter_G13b, 716 < y.idx.val :=
  idx_lt_append (W₁ := writes_G14a) (forall_mem_of_all (by decide)) after_G14a_lt (by decide)
theorem after_D12_lt : ∀ y ∈ writesAfter_D12, 675 < y.idx.val :=
  idx_lt_append (W₁ := writes_G13b) (forall_mem_of_all (by decide)) after_G13b_lt (by decide)
theorem after_G13a_lt : ∀ y ∈ writesAfter_G13a, 674 < y.idx.val :=
  idx_lt_append (W₁ := writes_D12) (forall_mem_of_all (by decide)) after_D12_lt (by decide)
theorem after_G12_lt : ∀ y ∈ writesAfter_G12, 636 < y.idx.val :=
  idx_lt_append (W₁ := writes_G13a) (forall_mem_of_all (by decide)) after_G13a_lt (by decide)
theorem after_RELU11_lt : ∀ y ∈ writesAfter_RELU11, 628 < y.idx.val :=
  idx_lt_append (W₁ := writes_G12) (forall_mem_of_all (by decide)) after_G12_lt (by decide)
theorem after_RELU10_lt : ∀ y ∈ writesAfter_RELU10, 625 < y.idx.val :=
  idx_lt_append (W₁ := writes_RELU11) (forall_mem_of_all (by decide)) after_RELU11_lt (by decide)
theorem after_RELU9_lt : ∀ y ∈ writesAfter_RELU9, 622 < y.idx.val :=
  idx_lt_append (W₁ := writes_RELU10) (forall_mem_of_all (by decide)) after_RELU10_lt (by decide)
theorem after_L11_lt : ∀ y ∈ writesAfter_L11, 619 < y.idx.val :=
  idx_lt_append (W₁ := writes_RELU9) (forall_mem_of_all (by decide)) after_RELU9_lt (by decide)
theorem after_H11_lt : ∀ y ∈ writesAfter_H11, 590 < y.idx.val :=
  idx_lt_append (W₁ := writes_L11) (forall_mem_of_all (by decide)) after_L11_lt (by decide)
theorem after_L10_lt : ∀ y ∈ writesAfter_L10, 586 < y.idx.val :=
  idx_lt_append (W₁ := writes_H11) (forall_mem_of_all (by decide)) after_H11_lt (by decide)
theorem after_H10_lt : ∀ y ∈ writesAfter_H10, 557 < y.idx.val :=
  idx_lt_append (W₁ := writes_L10) (forall_mem_of_all (by decide)) after_L10_lt (by decide)
theorem after_L9_lt : ∀ y ∈ writesAfter_L9, 553 < y.idx.val :=
  idx_lt_append (W₁ := writes_H10) (forall_mem_of_all (by decide)) after_H10_lt (by decide)
theorem after_G9b_lt : ∀ y ∈ writesAfter_G9b, 524 < y.idx.val :=
  idx_lt_append (W₁ := writes_L9) (forall_mem_of_all (by decide)) after_L9_lt (by decide)
theorem after_D8_lt : ∀ y ∈ writesAfter_D8, 481 < y.idx.val :=
  idx_lt_append (W₁ := writes_G9b) (forall_mem_of_all (by decide)) after_G9b_lt (by decide)
theorem after_G9a_lt : ∀ y ∈ writesAfter_G9a, 480 < y.idx.val :=
  idx_lt_append (W₁ := writes_D8) (forall_mem_of_all (by decide)) after_D8_lt (by decide)
theorem after_G8b_lt : ∀ y ∈ writesAfter_G8b, 442 < y.idx.val :=
  idx_lt_append (W₁ := writes_G9a) (forall_mem_of_all (by decide)) after_G9a_lt (by decide)
theorem after_D7_lt : ∀ y ∈ writesAfter_D7, 401 < y.idx.val :=
  idx_lt_append (W₁ := writes_G8b) (forall_mem_of_all (by decide)) after_G8b_lt (by decide)
theorem after_G8a_lt : ∀ y ∈ writesAfter_G8a, 400 < y.idx.val :=
  idx_lt_append (W₁ := writes_D7) (forall_mem_of_all (by decide)) after_D7_lt (by decide)
theorem after_G7b_lt : ∀ y ∈ writesAfter_G7b, 362 < y.idx.val :=
  idx_lt_append (W₁ := writes_G8a) (forall_mem_of_all (by decide)) after_G8a_lt (by decide)
theorem after_D6_lt : ∀ y ∈ writesAfter_D6, 321 < y.idx.val :=
  idx_lt_append (W₁ := writes_G7b) (forall_mem_of_all (by decide)) after_G7b_lt (by decide)
theorem after_G7a_lt : ∀ y ∈ writesAfter_G7a, 320 < y.idx.val :=
  idx_lt_append (W₁ := writes_D6) (forall_mem_of_all (by decide)) after_D6_lt (by decide)
theorem after_G6b_lt : ∀ y ∈ writesAfter_G6b, 282 < y.idx.val :=
  idx_lt_append (W₁ := writes_G7a) (forall_mem_of_all (by decide)) after_G7a_lt (by decide)
theorem after_D5_lt : ∀ y ∈ writesAfter_D5, 241 < y.idx.val :=
  idx_lt_append (W₁ := writes_G6b) (forall_mem_of_all (by decide)) after_G6b_lt (by decide)
theorem after_G6a_lt : ∀ y ∈ writesAfter_G6a, 240 < y.idx.val :=
  idx_lt_append (W₁ := writes_D5) (forall_mem_of_all (by decide)) after_D5_lt (by decide)
theorem after_G5b_lt : ∀ y ∈ writesAfter_G5b, 202 < y.idx.val :=
  idx_lt_append (W₁ := writes_G6a) (forall_mem_of_all (by decide)) after_G6a_lt (by decide)
theorem after_D4_lt : ∀ y ∈ writesAfter_D4, 161 < y.idx.val :=
  idx_lt_append (W₁ := writes_G5b) (forall_mem_of_all (by decide)) after_G5b_lt (by decide)
theorem after_G5a_lt : ∀ y ∈ writesAfter_G5a, 160 < y.idx.val :=
  idx_lt_append (W₁ := writes_D4) (forall_mem_of_all (by decide)) after_D4_lt (by decide)
theorem after_G4b_lt : ∀ y ∈ writesAfter_G4b, 122 < y.idx.val :=
  idx_lt_append (W₁ := writes_G5a) (forall_mem_of_all (by decide)) after_G5a_lt (by decide)
theorem after_D3_lt : ∀ y ∈ writesAfter_D3, 81 < y.idx.val :=
  idx_lt_append (W₁ := writes_G4b) (forall_mem_of_all (by decide)) after_G4b_lt (by decide)
theorem after_G4a_lt : ∀ y ∈ writesAfter_G4a, 80 < y.idx.val :=
  idx_lt_append (W₁ := writes_D3) (forall_mem_of_all (by decide)) after_D3_lt (by decide)
theorem after_G3_lt : ∀ y ∈ writesAfter_G3, 42 < y.idx.val :=
  idx_lt_append (W₁ := writes_G4a) (forall_mem_of_all (by decide)) after_G4a_lt (by decide)
theorem after_P2_lt : ∀ y ∈ writesAfter_P2, 34 < y.idx.val :=
  idx_lt_append (W₁ := writes_G3) (forall_mem_of_all (by decide)) after_G3_lt (by decide)
theorem after_P1_lt : ∀ y ∈ writesAfter_P1, 30 < y.idx.val :=
  idx_lt_append (W₁ := writes_P2) (forall_mem_of_all (by decide)) after_P2_lt (by decide)
theorem after_P0_lt : ∀ y ∈ writesAfter_P0, 26 < y.idx.val :=
  idx_lt_append (W₁ := writes_P1) (forall_mem_of_all (by decide)) after_P1_lt (by decide)
theorem after_B0_lt : ∀ y ∈ writesAfter_B0, 22 < y.idx.val :=
  idx_lt_append (W₁ := writes_P0) (forall_mem_of_all (by decide)) after_P0_lt (by decide)

/-- A reference of table index at most 22 holds at the end of the run what it held after the launch. -/
theorem stable_B0 (m : (ℓ : Loc nD τ sig) → Buf (Elt F) ℓ) (c : Dev nD) (r : Ref sig .tc) (h : r.idx.val ≤ 22) :
    BF m c (Proc.devRef .tc r) = B0 m c (Proc.devRef .tc r) :=
  final_B0 m c r fun hm => absurd (Nat.lt_of_lt_of_le (after_B0_lt r hm) h) (Nat.lt_irrefl _)
/-- A reference of table index at most 26 holds at the end of the run what it held after chunk P0. -/
theorem stable_P0 (m : (ℓ : Loc nD τ sig) → Buf (Elt F) ℓ) (c : Dev nD) (r : Ref sig .tc) (h : r.idx.val ≤ 26) :
    BF m c (Proc.devRef .tc r) = B_P0 m c (Proc.devRef .tc r) :=
  final_P0 m c r fun hm => absurd (Nat.lt_of_lt_of_le (after_P0_lt r hm) h) (Nat.lt_irrefl _)
/-- A reference of table index at most 30 holds at the end of the run what it held after chunk P1. -/
theorem stable_P1 (m : (ℓ : Loc nD τ sig) → Buf (Elt F) ℓ) (c : Dev nD) (r : Ref sig .tc) (h : r.idx.val ≤ 30) :
    BF m c (Proc.devRef .tc r) = B_P1 m c (Proc.devRef .tc r) :=
  final_P1 m c r fun hm => absurd (Nat.lt_of_lt_of_le (after_P1_lt r hm) h) (Nat.lt_irrefl _)
/-- A reference of table index at most 34 holds at the end of the run what it held after chunk P2. -/
theorem stable_P2 (m : (ℓ : Loc nD τ sig) → Buf (Elt F) ℓ) (c : Dev nD) (r : Ref sig .tc) (h : r.idx.val ≤ 34) :
    BF m c (Proc.devRef .tc r) = B_P2 m c (Proc.devRef .tc r) :=
  final_P2 m c r fun hm => absurd (Nat.lt_of_lt_of_le (after_P2_lt r hm) h) (Nat.lt_irrefl _)
/-- A reference of table index at most 42 holds at the end of the run what it held after chunk G3. -/
theorem stable_G3 (m : (ℓ : Loc nD τ sig) → Buf (Elt F) ℓ) (c : Dev nD) (r : Ref sig .tc) (h : r.idx.val ≤ 42) :
    BF m c (Proc.devRef .tc r) = B_G3 m c (Proc.devRef .tc r) :=
  final_G3 m c r fun hm => absurd (Nat.lt_of_lt_of_le (after_G3_lt r hm) h) (Nat.lt_irrefl _)
/-- A reference of table index at most 80 holds at the end of the run what it held after chunk G4a. -/
theorem stable_G4a (m : (ℓ : Loc nD τ sig) → Buf (Elt F) ℓ) (c : Dev nD) (r : Ref sig .tc) (h : r.idx.val ≤ 80) :
    BF m c (Proc.devRef .tc r) = B_G4a m c (Proc.devRef .tc r) :=
  final_G4a m c r fun hm => absurd (Nat.lt_of_lt_of_le (after_G4a_lt r hm) h) (Nat.lt_irrefl _)
/-- A reference of table index at most 81 holds at the end of the run what it held after chunk D3. -/
theorem stable_D3 (m : (ℓ : Loc nD τ sig) → Buf (Elt F) ℓ) (c : Dev nD) (r : Ref sig .tc) (h : r.idx.val ≤ 81) :
    BF m c (Proc.devRef .tc r) = B_D3 m c (Proc.devRef .tc r) :=
  final_D3 m c r fun hm => absurd (Nat.lt_of_lt_of_le (after_D3_lt r hm) h) (Nat.lt_irrefl _)
/-- A reference of table index at most 122 holds at the end of the run what it held after chunk G4b. -/
theorem stable_G4b (m : (ℓ : Loc nD τ sig) → Buf (Elt F) ℓ) (c : Dev nD) (r : Ref sig .tc) (h : r.idx.val ≤ 122) :
    BF m c (Proc.devRef .tc r) = B_G4b m c (Proc.devRef .tc r) :=
  final_G4b m c r fun hm => absurd (Nat.lt_of_lt_of_le (after_G4b_lt r hm) h) (Nat.lt_irrefl _)
/-- A reference of table index at most 160 holds at the end of the run what it held after chunk G5a. -/
theorem stable_G5a (m : (ℓ : Loc nD τ sig) → Buf (Elt F) ℓ) (c : Dev nD) (r : Ref sig .tc) (h : r.idx.val ≤ 160) :
    BF m c (Proc.devRef .tc r) = B_G5a m c (Proc.devRef .tc r) :=
  final_G5a m c r fun hm => absurd (Nat.lt_of_lt_of_le (after_G5a_lt r hm) h) (Nat.lt_irrefl _)
/-- A reference of table index at most 161 holds at the end of the run what it held after chunk D4. -/
theorem stable_D4 (m : (ℓ : Loc nD τ sig) → Buf (Elt F) ℓ) (c : Dev nD) (r : Ref sig .tc) (h : r.idx.val ≤ 161) :
    BF m c (Proc.devRef .tc r) = B_D4 m c (Proc.devRef .tc r) :=
  final_D4 m c r fun hm => absurd (Nat.lt_of_lt_of_le (after_D4_lt r hm) h) (Nat.lt_irrefl _)
/-- A reference of table index at most 202 holds at the end of the run what it held after chunk G5b. -/
theorem stable_G5b (m : (ℓ : Loc nD τ sig) → Buf (Elt F) ℓ) (c : Dev nD) (r : Ref sig .tc) (h : r.idx.val ≤ 202) :
    BF m c (Proc.devRef .tc r) = B_G5b m c (Proc.devRef .tc r) :=
  final_G5b m c r fun hm => absurd (Nat.lt_of_lt_of_le (after_G5b_lt r hm) h) (Nat.lt_irrefl _)
/-- A reference of table index at most 240 holds at the end of the run what it held after chunk G6a. -/
theorem stable_G6a (m : (ℓ : Loc nD τ sig) → Buf (Elt F) ℓ) (c : Dev nD) (r : Ref sig .tc) (h : r.idx.val ≤ 240) :
    BF m c (Proc.devRef .tc r) = B_G6a m c (Proc.devRef .tc r) :=
  final_G6a m c r fun hm => absurd (Nat.lt_of_lt_of_le (after_G6a_lt r hm) h) (Nat.lt_irrefl _)
/-- A reference of table index at most 241 holds at the end of the run what it held after chunk D5. -/
theorem stable_D5 (m : (ℓ : Loc nD τ sig) → Buf (Elt F) ℓ) (c : Dev nD) (r : Ref sig .tc) (h : r.idx.val ≤ 241) :
    BF m c (Proc.devRef .tc r) = B_D5 m c (Proc.devRef .tc r) :=
  final_D5 m c r fun hm => absurd (Nat.lt_of_lt_of_le (after_D5_lt r hm) h) (Nat.lt_irrefl _)
/-- A reference of table index at most 282 holds at the end of the run what it held after chunk G6b. -/
theorem stable_G6b (m : (ℓ : Loc nD τ sig) → Buf (Elt F) ℓ) (c : Dev nD) (r : Ref sig .tc) (h : r.idx.val ≤ 282) :
    BF m c (Proc.devRef .tc r) = B_G6b m c (Proc.devRef .tc r) :=
  final_G6b m c r fun hm => absurd (Nat.lt_of_lt_of_le (after_G6b_lt r hm) h) (Nat.lt_irrefl _)
/-- A reference of table index at most 320 holds at the end of the run what it held after chunk G7a. -/
theorem stable_G7a (m : (ℓ : Loc nD τ sig) → Buf (Elt F) ℓ) (c : Dev nD) (r : Ref sig .tc) (h : r.idx.val ≤ 320) :
    BF m c (Proc.devRef .tc r) = B_G7a m c (Proc.devRef .tc r) :=
  final_G7a m c r fun hm => absurd (Nat.lt_of_lt_of_le (after_G7a_lt r hm) h) (Nat.lt_irrefl _)
/-- A reference of table index at most 321 holds at the end of the run what it held after chunk D6. -/
theorem stable_D6 (m : (ℓ : Loc nD τ sig) → Buf (Elt F) ℓ) (c : Dev nD) (r : Ref sig .tc) (h : r.idx.val ≤ 321) :
    BF m c (Proc.devRef .tc r) = B_D6 m c (Proc.devRef .tc r) :=
  final_D6 m c r fun hm => absurd (Nat.lt_of_lt_of_le (after_D6_lt r hm) h) (Nat.lt_irrefl _)
/-- A reference of table index at most 362 holds at the end of the run what it held after chunk G7b. -/
theorem stable_G7b (m : (ℓ : Loc nD τ sig) → Buf (Elt F) ℓ) (c : Dev nD) (r : Ref sig .tc) (h : r.idx.val ≤ 362) :
    BF m c (Proc.devRef .tc r) = B_G7b m c (Proc.devRef .tc r) :=
  final_G7b m c r fun hm => absurd (Nat.lt_of_lt_of_le (after_G7b_lt r hm) h) (Nat.lt_irrefl _)
/-- A reference of table index at most 400 holds at the end of the run what it held after chunk G8a. -/
theorem stable_G8a (m : (ℓ : Loc nD τ sig) → Buf (Elt F) ℓ) (c : Dev nD) (r : Ref sig .tc) (h : r.idx.val ≤ 400) :
    BF m c (Proc.devRef .tc r) = B_G8a m c (Proc.devRef .tc r) :=
  final_G8a m c r fun hm => absurd (Nat.lt_of_lt_of_le (after_G8a_lt r hm) h) (Nat.lt_irrefl _)
/-- A reference of table index at most 401 holds at the end of the run what it held after chunk D7. -/
theorem stable_D7 (m : (ℓ : Loc nD τ sig) → Buf (Elt F) ℓ) (c : Dev nD) (r : Ref sig .tc) (h : r.idx.val ≤ 401) :
    BF m c (Proc.devRef .tc r) = B_D7 m c (Proc.devRef .tc r) :=
  final_D7 m c r fun hm => absurd (Nat.lt_of_lt_of_le (after_D7_lt r hm) h) (Nat.lt_irrefl _)
/-- A reference of table index at most 442 holds at the end of the run what it held after chunk G8b. -/
theorem stable_G8b (m : (ℓ : Loc nD τ sig) → Buf (Elt F) ℓ) (c : Dev nD) (r : Ref sig .tc) (h : r.idx.val ≤ 442) :
    BF m c (Proc.devRef .tc r) = B_G8b m c (Proc.devRef .tc r) :=
  final_G8b m c r fun hm => absurd (Nat.lt_of_lt_of_le (after_G8b_lt r hm) h) (Nat.lt_irrefl _)
/-- A reference of table index at most 480 holds at the end of the run what it held after chunk G9a. -/
theorem stable_G9a (m : (ℓ : Loc nD τ sig) → Buf (Elt F) ℓ) (c : Dev nD) (r : Ref sig .tc) (h : r.idx.val ≤ 480) :
    BF m c (Proc.devRef .tc r) = B_G9a m c (Proc.devRef .tc r) :=
  final_G9a m c r fun hm => absurd (Nat.lt_of_lt_of_le (after_G9a_lt r hm) h) (Nat.lt_irrefl _)
/-- A reference of table index at most 481 holds at the end of the run what it held after chunk D8. -/
theorem stable_D8 (m : (ℓ : Loc nD τ sig) → Buf (Elt F) ℓ) (c : Dev nD) (r : Ref sig .tc) (h : r.idx.val ≤ 481) :
    BF m c (Proc.devRef .tc r) = B_D8 m c (Proc.devRef .tc r) :=
  final_D8 m c r fun hm => absurd (Nat.lt_of_lt_of_le (after_D8_lt r hm) h) (Nat.lt_irrefl _)
/-- A reference of table index at most 524 holds at the end of the run what it held after chunk G9b. -/
theorem stable_G9b (m : (ℓ : Loc nD τ sig) → Buf (Elt F) ℓ) (c : Dev nD) (r : Ref sig .tc) (h : r.idx.val ≤ 524) :
    BF m c (Proc.devRef .tc r) = B_G9b m c (Proc.devRef .tc r) :=
  final_G9b m c r fun hm => absurd (Nat.lt_of_lt_of_le (after_G9b_lt r hm) h) (Nat.lt_irrefl _)
/-- A reference of table index at most 553 holds at the end of the run what it held after chunk L9. -/
theorem stable_L9 (m : (ℓ : Loc nD τ sig) → Buf (Elt F) ℓ) (c : Dev nD) (r : Ref sig .tc) (h : r.idx.val ≤ 553) :
    BF m c (Proc.devRef .tc r) = B_L9 m c (Proc.devRef .tc r) :=
  final_L9 m c r fun hm => absurd (Nat.lt_of_lt_of_le (after_L9_lt r hm) h) (Nat.lt_irrefl _)
/-- A reference of table index at most 557 holds at the end of the run what it held after chunk H10. -/
theorem stable_H10 (m : (ℓ : Loc nD τ sig) → Buf (Elt F) ℓ) (c : Dev nD) (r : Ref sig .tc) (h : r.idx.val ≤ 557) :
    BF m c (Proc.devRef .tc r) = B_H10 m c (Proc.devRef .tc r) :=
  final_H10 m c r fun hm => absurd (Nat.lt_of_lt_of_le (after_H10_lt r hm) h) (Nat.lt_irrefl _)
/-- A reference of table index at most 586 holds at the end of the run what it held after chunk L10. -/
theorem stable_L10 (m : (ℓ : Loc nD τ sig) → Buf (Elt F) ℓ) (c : Dev nD) (r : Ref sig .tc) (h : r.idx.val ≤ 586) :
    BF m c (Proc.devRef .tc r) = B_L10 m c (Proc.devRef .tc r) :=
  final_L10 m c r fun hm => absurd (Nat.lt_of_lt_of_le (after_L10_lt r hm) h) (Nat.lt_irrefl _)
/-- A reference of table index at most 590 holds at the end of the run what it held after chunk H11. -/
theorem stable_H11 (m : (ℓ : Loc nD τ sig) → Buf (Elt F) ℓ) (c : Dev nD) (r : Ref sig .tc) (h : r.idx.val ≤ 590) :
    BF m c (Proc.devRef .tc r) = B_H11 m c (Proc.devRef .tc r) :=
  final_H11 m c r fun hm => absurd (Nat.lt_of_lt_of_le (after_H11_lt r hm) h) (Nat.lt_irrefl _)
/-- A reference of table index at most 619 holds at the end of the run what it held after chunk L11. -/
theorem stable_L11 (m : (ℓ : Loc nD τ sig) → Buf (Elt F) ℓ) (c : Dev nD) (r : Ref sig .tc) (h : r.idx.val ≤ 619) :
    BF m c (Proc.devRef .tc r) = B_L11 m c (Proc.devRef .tc r) :=
  final_L11 m c r fun hm => absurd (Nat.lt_of_lt_of_le (after_L11_lt r hm) h) (Nat.lt_irrefl _)
/-- A reference of table index at most 622 holds at the end of the run what it held after chunk RELU9. -/
theorem stable_RELU9 (m : (ℓ : Loc nD τ sig) → Buf (Elt F) ℓ) (c : Dev nD) (r : Ref sig .tc) (h : r.idx.val ≤ 622) :
    BF m c (Proc.devRef .tc r) = B_RELU9 m c (Proc.devRef .tc r) :=
  final_RELU9 m c r fun hm => absurd (Nat.lt_of_lt_of_le (after_RELU9_lt r hm) h) (Nat.lt_irrefl _)
/-- A reference of table index at most 625 holds at the end of the run what it held after chunk RELU10. -/
theorem stable_RELU10 (m : (ℓ : Loc nD τ sig) → Buf (Elt F) ℓ) (c : Dev nD) (r : Ref sig .tc) (h : r.idx.val ≤ 625) :
    BF m c (Proc.devRef .tc r) = B_RELU10 m c (Proc.devRef .tc r) :=
  final_RELU10 m c r fun hm => absurd (Nat.lt_of_lt_of_le (after_RELU10_lt r hm) h) (Nat.lt_irrefl _)
/-- A reference of table index at most 628 holds at the end of the run what it held after chunk RELU11. -/
theorem stable_RELU11 (m : (ℓ : Loc nD τ sig) → Buf (Elt F) ℓ) (c : Dev nD) (r : Ref sig .tc) (h : r.idx.val ≤ 628) :
    BF m c (Proc.devRef .tc r) = B_RELU11 m c (Proc.devRef .tc r) :=
  final_RELU11 m c r fun hm => absurd (Nat.lt_of_lt_of_le (after_RELU11_lt r hm) h) (Nat.lt_irrefl _)
/-- A reference of table index at most 636 holds at the end of the run what it held after chunk G12. -/
theorem stable_G12 (m : (ℓ : Loc nD τ sig) → Buf (Elt F) ℓ) (c : Dev nD) (r : Ref sig .tc) (h : r.idx.val ≤ 636) :
    BF m c (Proc.devRef .tc r) = B_G12 m c (Proc.devRef .tc r) :=
  final_G12 m c r fun hm => absurd (Nat.lt_of_lt_of_le (after_G12_lt r hm) h) (Nat.lt_irrefl _)
/-- A reference of table index at most 674 holds at the end of the run what it held after chunk G13a. -/
theorem stable_G13a (m : (ℓ : Loc nD τ sig) → Buf (Elt F) ℓ) (c : Dev nD) (r : Ref sig .tc) (h : r.idx.val ≤ 674) :
    BF m c (Proc.devRef .tc r) = B_G13a m c (Proc.devRef .tc r) :=
  final_G13a m c r fun hm => absurd (Nat.lt_of_lt_of_le (after_G13a_lt r hm) h) (Nat.lt_irrefl _)
/-- A reference of table index at most 675 holds at the end of the run what it held after chunk D12. -/
theorem stable_D12 (m : (ℓ : Loc nD τ sig) → Buf (Elt F) ℓ) (c : Dev nD) (r : Ref sig .tc) (h : r.idx.val ≤ 675) :
    BF m c (Proc.devRef .tc r) = B_D12 m c (Proc.devRef .tc r) :=
  final_D12 m c r fun hm => absurd (Nat.lt_of_lt_of_le (after_D12_lt r hm) h) (Nat.lt_irrefl _)
/-- A reference of table index at most 716 holds at the end of the run what it held after chunk G13b. -/
theorem stable_G13b (m : (ℓ : Loc nD τ sig) → Buf (Elt F) ℓ) (c : Dev nD) (r : Ref sig .tc) (h : r.idx.val ≤ 716) :
    BF m c (Proc.devRef .tc r) = B_G13b m c (Proc.devRef .tc r) :=
  final_G13b m c r fun hm => absurd (Nat.lt_of_lt_of_le (after_G13b_lt r hm) h) (Nat.lt_irrefl _)
/-- A reference of table index at most 754 holds at the end of the run what it held after chunk G14a. -/
theorem stable_G14a (m : (ℓ : Loc nD τ sig) → Buf (Elt F) ℓ) (c : Dev nD) (r : Ref sig .tc) (h : r.idx.val ≤ 754) :
    BF m c (Proc.devRef .tc r) = B_G14a m c (Proc.devRef .tc r) :=
  final_G14a m c r fun hm => absurd (Nat.lt_of_lt_of_le (after_G14a_lt r hm) h) (Nat.lt_irrefl _)
/-- A reference of table index at most 755 holds at the end of the run what it held after chunk D13. -/
theorem stable_D13 (m : (ℓ : Loc nD τ sig) → Buf (Elt F) ℓ) (c : Dev nD) (r : Ref sig .tc) (h : r.idx.val ≤ 755) :
    BF m c (Proc.devRef .tc r) = B_D13 m c (Proc.devRef .tc r) :=
  final_D13 m c r fun hm => absurd (Nat.lt_of_lt_of_le (after_D13_lt r hm) h) (Nat.lt_irrefl _)
/-- A reference of table index at most 796 holds at the end of the run what it held after chunk G14b. -/
theorem stable_G14b (m : (ℓ : Loc nD τ sig) → Buf (Elt F) ℓ) (c : Dev nD) (r : Ref sig .tc) (h : r.idx.val ≤ 796) :
    BF m c (Proc.devRef .tc r) = B_G14b m c (Proc.devRef .tc r) :=
  final_G14b m c r fun hm => absurd (Nat.lt_of_lt_of_le (after_G14b_lt r hm) h) (Nat.lt_irrefl _)
/-- A reference of table index at most 834 holds at the end of the run what it held after chunk G15a. -/
theorem stable_G15a (m : (ℓ : Loc nD τ sig) → Buf (Elt F) ℓ) (c : Dev nD) (r : Ref sig .tc) (h : r.idx.val ≤ 834) :
    BF m c (Proc.devRef .tc r) = B_G15a m c (Proc.devRef .tc r) :=
  final_G15a m c r fun hm => absurd (Nat.lt_of_lt_of_le (after_G15a_lt r hm) h) (Nat.lt_irrefl _)
/-- A reference of table index at most 835 holds at the end of the run what it held after chunk D14. -/
theorem stable_D14 (m : (ℓ : Loc nD τ sig) → Buf (Elt F) ℓ) (c : Dev nD) (r : Ref sig .tc) (h : r.idx.val ≤ 835) :
    BF m c (Proc.devRef .tc r) = B_D14 m c (Proc.devRef .tc r) :=
  final_D14 m c r fun hm => absurd (Nat.lt_of_lt_of_le (after_D14_lt r hm) h) (Nat.lt_irrefl _)
/-- A reference of table index at most 876 holds at the end of the run what it held after chunk G15b. -/
theorem stable_G15b (m : (ℓ : Loc nD τ sig) → Buf (Elt F) ℓ) (c : Dev nD) (r : Ref sig .tc) (h : r.idx.val ≤ 876) :
    BF m c (Proc.devRef .tc r) = B_G15b m c (Proc.devRef .tc r) :=
  final_G15b m c r fun hm => absurd (Nat.lt_of_lt_of_le (after_G15b_lt r hm) h) (Nat.lt_irrefl _)
/-- A reference of table index at most 914 holds at the end of the run what it held after chunk G16a. -/
theorem stable_G16a (m : (ℓ : Loc nD τ sig) → Buf (Elt F) ℓ) (c : Dev nD) (r : Ref sig .tc) (h : r.idx.val ≤ 914) :
    BF m c (Proc.devRef .tc r) = B_G16a m c (Proc.devRef .tc r) :=
  final_G16a m c r fun hm => absurd (Nat.lt_of_lt_of_le (after_G16a_lt r hm) h) (Nat.lt_irrefl _)
/-- A reference of table index at most 915 holds at the end of the run what it held after chunk D15. -/
theorem stable_D15 (m : (ℓ : Loc nD τ sig) → Buf (Elt F) ℓ) (c : Dev nD) (r : Ref sig .tc) (h : r.idx.val ≤ 915) :
    BF m c (Proc.devRef .tc r) = B_D15 m c (Proc.devRef .tc r) :=
  final_D15 m c r fun hm => absurd (Nat.lt_of_lt_of_le (after_D15_lt r hm) h) (Nat.lt_irrefl _)
/-- A reference of table index at most 956 holds at the end of the run what it held after chunk G16b. -/
theorem stable_G16b (m : (ℓ : Loc nD τ sig) → Buf (Elt F) ℓ) (c : Dev nD) (r : Ref sig .tc) (h : r.idx.val ≤ 956) :
    BF m c (Proc.devRef .tc r) = B_G16b m c (Proc.devRef .tc r) :=
  final_G16b m c r fun hm => absurd (Nat.lt_of_lt_of_le (after_G16b_lt r hm) h) (Nat.lt_irrefl _)
/-- A reference of table index at most 994 holds at the end of the run what it held after chunk G17a. -/
theorem stable_G17a (m : (ℓ : Loc nD τ sig) → Buf (Elt F) ℓ) (c : Dev nD) (r : Ref sig .tc) (h : r.idx.val ≤ 994) :
    BF m c (Proc.devRef .tc r) = B_G17a m c (Proc.devRef .tc r) :=
  final_G17a m c r fun hm => absurd (Nat.lt_of_lt_of_le (after_G17a_lt r hm) h) (Nat.lt_irrefl _)
/-- A reference of table index at most 995 holds at the end of the run what it held after chunk D16. -/
theorem stable_D16 (m : (ℓ : Loc nD τ sig) → Buf (Elt F) ℓ) (c : Dev nD) (r : Ref sig .tc) (h : r.idx.val ≤ 995) :
    BF m c (Proc.devRef .tc r) = B_D16 m c (Proc.devRef .tc r) :=
  final_D16 m c r fun hm => absurd (Nat.lt_of_lt_of_le (after_D16_lt r hm) h) (Nat.lt_irrefl _)
/-- A reference of table index at most 1036 holds at the end of the run what it held after chunk G17b. -/
theorem stable_G17b (m : (ℓ : Loc nD τ sig) → Buf (Elt F) ℓ) (c : Dev nD) (r : Ref sig .tc) (h : r.idx.val ≤ 1036) :
    BF m c (Proc.devRef .tc r) = B_G17b m c (Proc.devRef .tc r) :=
  final_G17b m c r fun hm => absurd (Nat.lt_of_lt_of_le (after_G17b_lt r hm) h) (Nat.lt_irrefl _)
/-- A reference of table index at most 1074 holds at the end of the run what it held after chunk G18a. -/
theorem stable_G18a (m : (ℓ : Loc nD τ sig) → Buf (Elt F) ℓ) (c : Dev nD) (r : Ref sig .tc) (h : r.idx.val ≤ 1074) :
    BF m c (Proc.devRef .tc r) = B_G18a m c (Proc.devRef .tc r) :=
  final_G18a m c r fun hm => absurd (Nat.lt_of_lt_of_le (after_G18a_lt r hm) h) (Nat.lt_irrefl _)
/-- A reference of table index at most 1075 holds at the end of the run what it held after chunk D17. -/
theorem stable_D17 (m : (ℓ : Loc nD τ sig) → Buf (Elt F) ℓ) (c : Dev nD) (r : Ref sig .tc) (h : r.idx.val ≤ 1075) :
    BF m c (Proc.devRef .tc r) = B_D17 m c (Proc.devRef .tc r) :=
  final_D17 m c r fun hm => absurd (Nat.lt_of_lt_of_le (after_D17_lt r hm) h) (Nat.lt_irrefl _)
/-- A reference of table index at most 1118 holds at the end of the run what it held after chunk G18b. -/
theorem stable_G18b (m : (ℓ : Loc nD τ sig) → Buf (Elt F) ℓ) (c : Dev nD) (r : Ref sig .tc) (h : r.idx.val ≤ 1118) :
    BF m c (Proc.devRef .tc r) = B_G18b m c (Proc.devRef .tc r) :=
  final_G18b m c r fun hm => absurd (Nat.lt_of_lt_of_le (after_G18b_lt r hm) h) (Nat.lt_irrefl _)
/-- A reference of table index at most 1147 holds at the end of the run what it held after chunk L18. -/
theorem stable_L18 (m : (ℓ : Loc nD τ sig) → Buf (Elt F) ℓ) (c : Dev nD) (r : Ref sig .tc) (h : r.idx.val ≤ 1147) :
    BF m c (Proc.devRef .tc r) = B_L18 m c (Proc.devRef .tc r) :=
  final_L18 m c r fun hm => absurd (Nat.lt_of_lt_of_le (after_L18_lt r hm) h) (Nat.lt_irrefl _)
/-- A reference of table index at most 1151 holds at the end of the run what it held after chunk H19. -/
theorem stable_H19 (m : (ℓ : Loc nD τ sig) → Buf (Elt F) ℓ) (c : Dev nD) (r : Ref sig .tc) (h : r.idx.val ≤ 1151) :
    BF m c (Proc.devRef .tc r) = B_H19 m c (Proc.devRef .tc r) :=
  final_H19 m c r fun hm => absurd (Nat.lt_of_lt_of_le (after_H19_lt r hm) h) (Nat.lt_irrefl _)
/-- A reference of table index at most 1180 holds at the end of the run what it held after chunk L19. -/
theorem stable_L19 (m : (ℓ : Loc nD τ sig) → Buf (Elt F) ℓ) (c : Dev nD) (r : Ref sig .tc) (h : r.idx.val ≤ 1180) :
    BF m c (Proc.devRef .tc r) = B_L19 m c (Proc.devRef .tc r) :=
  final_L19 m c r fun hm => absurd (Nat.lt_of_lt_of_le (after_L19_lt r hm) h) (Nat.lt_irrefl _)
/-- A reference of table index at most 1184 holds at the end of the run what it held after chunk H20. -/
theorem stable_H20 (m : (ℓ : Loc nD τ sig) → Buf (Elt F) ℓ) (c : Dev nD) (r : Ref sig .tc) (h : r.idx.val ≤ 1184) :
    BF m c (Proc.devRef .tc r) = B_H20 m c (Proc.devRef .tc r) :=
  final_H20 m c r fun hm => absurd (Nat.lt_of_lt_of_le (after_H20_lt r hm) h) (Nat.lt_irrefl _)
/-- A reference of table index at most 1213 holds at the end of the run what it held after chunk L20. -/
theorem stable_L20 (m : (ℓ : Loc nD τ sig) → Buf (Elt F) ℓ) (c : Dev nD) (r : Ref sig .tc) (h : r.idx.val ≤ 1213) :
    BF m c (Proc.devRef .tc r) = B_L20 m c (Proc.devRef .tc r) :=
  final_L20 m c r fun hm => absurd (Nat.lt_of_lt_of_le (after_L20_lt r hm) h) (Nat.lt_irrefl _)

end Cert.ReferenceIdeal.Hand

end
-- ==== Proof.Ref.Win_0.lean ====
/- Window 0 of the reference's @main is the straight line of its operations 0 … 63. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 0 … 63 of @main (window 0), in program order. -/
abbrev wops_0 : List (HloOp τ sig (Elt F)) :=
  [ binary main_arg0 main_arg3 main_v0 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S20000x128 ![0, 1] bcast_S1x128_S20000x128_0_1 : (⟨S1x128, .f32⟩ : BufTy).Contents (Elt F) → (⟨S20000x128, .f32⟩ : BufTy).Contents (Elt F)),
    binary main_v0 main_v2 main_v3 (addf : (⟨S20000x128, .f32⟩ : BufTy).Contents (Elt F) → (⟨S20000x128, .f32⟩ : BufTy).Contents (Elt F) → (⟨S20000x128, .f32⟩ : BufTy).Contents (Elt F)),
    binary main_arg1 main_arg5 main_v4 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    unary main_arg6 main_v5 (broadcastInDim S1x128 ![1] bcast_S128_S1x128_1 : (⟨S128, .f32⟩ : BufTy).Contents (Elt F) → (⟨S1x128, .f32⟩ : BufTy).Contents (Elt F)),
    unary main_v5 main_v6 (broadcastInDim S60000x128 ![0, 1] bcast_S1x128_S60000x128_0_1 : (⟨S1x128, .f32⟩ : BufTy).Contents (Elt F) → (⟨S60000x128, .f32⟩ : BufTy).Contents (Elt F)),
    binary main_v4 main_v6 main_v7 (addf : (⟨S60000x128, .f32⟩ : BufTy).Contents (Elt F) → (⟨S60000x128, .f32⟩ : BufTy).Contents (Elt F) → (⟨S60000x128, .f32⟩ : BufTy).Contents (Elt F)),
    binary main_arg2 main_arg7 main_v8 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg8 main_v9 (broadcastInDim S1x128 ![1] bcast_S128_S1x128_1 : (⟨S128, .f32⟩ : BufTy).Contents (Elt F) → (⟨S1x128, .f32⟩ : BufTy).Contents (Elt F)),
    unary main_v9 main_v10 (broadcastInDim S20000x128 ![0, 1] bcast_S1x128_S20000x128_0_1 : (⟨S1x128, .f32⟩ : BufTy).Contents (Elt F) → (⟨S20000x128, .f32⟩ : BufTy).Contents (Elt F)),
    binary main_v8 main_v10 main_v11 (addf : (⟨S20000x128, .f32⟩ : BufTy).Contents (Elt F) → (⟨S20000x128, .f32⟩ : BufTy).Contents (Elt F) → (⟨S20000x128, .f32⟩ : BufTy).Contents (Elt F)),
    nullary main_cst (constant S_ .f32 0x00000000#32),
    unary main_cst main_v12 (broadcastInDim S20000x128 ![] bcast_S_S20000x128 : (⟨S_, .f32⟩ : BufTy).Contents (Elt F) → (⟨S20000x128, .f32⟩ : BufTy).Contents (Elt F)),
    nullary main_cst_0 (constant S_ .f32 0x00000000#32),
    unary main_cst_0 main_v13 (broadcastInDim S60000x128 ![] bcast_S_S60000x128 : (⟨S_, .f32⟩ : BufTy).Contents (Elt F) → (⟨S60000x128, .f32⟩ : BufTy).Contents (Elt F)),
    nullary main_cst_1 (constant S_ .f32 0x00000000#32),
    unary main_cst_1 main_v14 (broadcastInDim S20000x128 ![] bcast_S_S20000x128 : (⟨S_, .f32⟩ : BufTy).Contents (Elt F) → (⟨S20000x128, .f32⟩ : BufTy).Contents (Elt F)),
    unary main_arg9 main_v15 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v15 main_v16 rfl shapeCasts_S1x128x128_S128x128,
    unary main_arg10 main_v17 ((extractStridedSlice S1x128 ![0, 0] · slices_S6x128_S1x128_0_0) : (⟨S6x128, .f32⟩ : BufTy).Contents (Elt F) → (⟨S1x128, .f32⟩ : BufTy).Contents (Elt F)),
    reshape main_v17 main_v18 rfl shapeCasts_S1x128_S128,
    unary main_arg17 main_v19 ((extractStridedSlice S1x500000 ![0, 0] · slices_S2x500000_S1x500000_0_0) : (⟨S2x500000, .i32⟩ : BufTy).Contents (Elt F) → (⟨S1x500000, .i32⟩ : BufTy).Contents (Elt F)),
    reshape main_v19 main_v20 rfl shapeCasts_S1x500000_S500000,
    unary main_arg17 main_v21 ((extractStridedSlice S1x500000 ![1, 0] · slices_S2x500000_S1x500000_1_0) : (⟨S2x500000, .i32⟩ : BufTy).Contents (Elt F) → (⟨S1x500000, .i32⟩ : BufTy).Contents (Elt F)),
    reshape main_v21 main_v22 rfl shapeCasts_S1x500000_S500000,
    nullary main_cst_2 (constant S_ .f32 0x3F800000#32),
    unary main_cst_2 main_v23 (broadcastInDim S500000 ![] bcast_S_S500000 : (⟨S_, .f32⟩ : BufTy).Contents (Elt F) → (⟨S500000, .f32⟩ : BufTy).Contents (Elt F)),
    nullary main_cst_3 (constant S_ .f32 0x00000000#32),
    unary main_cst_3 main_v24 (broadcastInDim S20000 ![] bcast_S_S20000 : (⟨S_, .f32⟩ : BufTy).Contents (Elt F) → (⟨S20000, .f32⟩ : BufTy).Contents (Elt F)),
    unary main_v20 main_v25 (broadcastInDim S500000x1 ![0] bcast_S500000_S500000x1_0 : (⟨S500000, .i32⟩ : BufTy).Contents (Elt F) → (⟨S500000x1, .i32⟩ : BufTy).Contents (Elt F)),
    ternary main_v24 main_v25 main_v23 main_v26 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_4 (constant S_ .f32 0x00000000#32),
    unary main_cst_4 main_v27 (broadcastInDim S20000 ![] bcast_S_S20000 : (⟨S_, .f32⟩ : BufTy).Contents (Elt F) → (⟨S20000, .f32⟩ : BufTy).Contents (Elt F)),
    unary main_v22 main_v28 (broadcastInDim S500000x1 ![0] bcast_S500000_S500000x1_0 : (⟨S500000, .i32⟩ : BufTy).Contents (Elt F) → (⟨S500000x1, .i32⟩ : BufTy).Contents (Elt F)),
    ternary main_v27 main_v28 main_v23 main_v29 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_5 (constant S_ .f32 0x00000000#32),
    unary main_cst_5 main_v30 (broadcastInDim S20000 ![] bcast_S_S20000 : (⟨S_, .f32⟩ : BufTy).Contents (Elt F) → (⟨S20000, .f32⟩ : BufTy).Contents (Elt F)),
    binary main_v26 main_v30 main_v31 (cmpf .ogt : (⟨S20000, .f32⟩ : BufTy).Contents (Elt F) → (⟨S20000, .f32⟩ : BufTy).Contents (Elt F) → (⟨S20000, .i1⟩ : BufTy).Contents (Elt F)),
    nullary main_cst_6 (constant S_ .f32 0x3F800000#32),
    unary main_cst_6 main_v32 (broadcastInDim S20000 ![] bcast_S_S20000 : (⟨S_, .f32⟩ : BufTy).Contents (Elt F) → (⟨S20000, .f32⟩ : BufTy).Contents (Elt F)),
    binary main_v26 main_v32 main_v33 (maximumf : (⟨S20000, .f32⟩ : BufTy).Contents (Elt F) → (⟨S20000, .f32⟩ : BufTy).Contents (Elt F) → (⟨S20000, .f32⟩ : BufTy).Contents (Elt F)),
    unary main_v33 main_v34 (Host.rsqrt : (⟨S20000, .f32⟩ : BufTy).Contents (Elt F) → (⟨S20000, .f32⟩ : BufTy).Contents (Elt F)),
    nullary main_cst_7 (constant S_ .f32 0x00000000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S20000, .f32⟩) main_call0_v1) (broadcastInDim S20000 ![] bcast_S_S20000),
    TRef.ternary (TRef.of (T := ⟨S20000, .i1⟩) main_v31) (TRef.of (T := ⟨S20000, .f32⟩) main_v34) (TRef.of (T := ⟨S20000, .f32⟩) main_call0_v1) (TRef.of (T := ⟨S20000, .f32⟩) main_v35) select,
    nullary main_cst_8 (constant S_ .f32 0x00000000#32),
    unary main_cst_8 main_v36 (broadcastInDim S20000 ![] bcast_S_S20000 : (⟨S_, .f32⟩ : BufTy).Contents (Elt F) → (⟨S20000, .f32⟩ : BufTy).Contents (Elt F)),
    binary main_v29 main_v36 main_v37 (cmpf .ogt : (⟨S20000, .f32⟩ : BufTy).Contents (Elt F) → (⟨S20000, .f32⟩ : BufTy).Contents (Elt F) → (⟨S20000, .i1⟩ : BufTy).Contents (Elt F)),
    nullary main_cst_9 (constant S_ .f32 0x3F800000#32),
    unary main_cst_9 main_v38 (broadcastInDim S20000 ![] bcast_S_S20000 : (⟨S_, .f32⟩ : BufTy).Contents (Elt F) → (⟨S20000, .f32⟩ : BufTy).Contents (Elt F)),
    binary main_v29 main_v38 main_v39 (maximumf : (⟨S20000, .f32⟩ : BufTy).Contents (Elt F) → (⟨S20000, .f32⟩ : BufTy).Contents (Elt F) → (⟨S20000, .f32⟩ : BufTy).Contents (Elt F)),
    unary main_v39 main_v40 (Host.rsqrt : (⟨S20000, .f32⟩ : BufTy).Contents (Elt F) → (⟨S20000, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S20000, .f32⟩) main_call1_v1) (broadcastInDim S20000 ![] bcast_S_S20000),
    TRef.ternary (TRef.of (T := ⟨S20000, .i1⟩) main_v37) (TRef.of (T := ⟨S20000, .f32⟩) main_v40) (TRef.of (T := ⟨S20000, .f32⟩) main_call1_v1) (TRef.of (T := ⟨S20000, .f32⟩) main_v41) select,
    binary main_v3 main_v16 main_v42 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c (constantI S_ 32 0#32),
    unary main_c main_v43 (broadcastInDim S500000 ![] bcast_S_S500000 : (⟨S_, .i32⟩ : BufTy).Contents (Elt F) → (⟨S500000, .i32⟩ : BufTy).Contents (Elt F)),
    binary main_v20 main_v43 main_v44 (cmpi .slt : (⟨S500000, .i32⟩ : BufTy).Contents (Elt F) → (⟨S500000, .i32⟩ : BufTy).Contents (Elt F) → (⟨S500000, .i1⟩ : BufTy).Contents (Elt F)),
    nullary main_c_11 (constantI S_ 32 20000#32),
    unary main_c_11 main_v45 (broadcastInDim S500000 ![] bcast_S_S500000 : (⟨S_, .i32⟩ : BufTy).Contents (Elt F) → (⟨S500000, .i32⟩ : BufTy).Contents (Elt F)) ]

set_option maxRecDepth 8192 in
set_option maxHeartbeats 4000000 in
/-- The window is the line of its operations (a call unfolds to its callee's operations). -/
theorem main_part0_eq (c : Dev nD) : main_part0 (F := F) c = seq wops_0 := rfl

end Cert.ReferenceIdeal.Hand

end
-- ==== Proof.Ref.Win_1.lean ====
/- Window 1 of the reference's @main is the straight line of its operations 64 … 123. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 64 … 123 of @main (window 1), in program order. -/
abbrev wops_1 : List (HloOp τ sig (Elt F)) :=
  [ binary main_v20 main_v45 main_v46 (addi : (⟨S500000, .i32⟩ : BufTy).Contents (Elt F) → (⟨S500000, .i32⟩ : BufTy).Contents (Elt F) → (⟨S500000, .i32⟩ : BufTy).Contents (Elt F)),
    ternary main_v44 main_v46 main_v20 main_v47 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v47 main_v48 (broadcastInDim S500000x1 ![0] bcast_S500000_S500000x1_0 : (⟨S500000, .i32⟩ : BufTy).Contents (Elt F) → (⟨S500000x1, .i32⟩ : BufTy).Contents (Elt F)),
    binary main_v35 main_v48 main_v49 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_12 (constantI S_ 32 0#32),
    unary main_c_12 main_v50 (broadcastInDim S500000 ![] bcast_S_S500000 : (⟨S_, .i32⟩ : BufTy).Contents (Elt F) → (⟨S500000, .i32⟩ : BufTy).Contents (Elt F)),
    binary main_v22 main_v50 main_v51 (cmpi .slt : (⟨S500000, .i32⟩ : BufTy).Contents (Elt F) → (⟨S500000, .i32⟩ : BufTy).Contents (Elt F) → (⟨S500000, .i1⟩ : BufTy).Contents (Elt F)),
    nullary main_c_13 (constantI S_ 32 20000#32),
    unary main_c_13 main_v52 (broadcastInDim S500000 ![] bcast_S_S500000 : (⟨S_, .i32⟩ : BufTy).Contents (Elt F) → (⟨S500000, .i32⟩ : BufTy).Contents (Elt F)),
    binary main_v22 main_v52 main_v53 (addi : (⟨S500000, .i32⟩ : BufTy).Contents (Elt F) → (⟨S500000, .i32⟩ : BufTy).Contents (Elt F) → (⟨S500000, .i32⟩ : BufTy).Contents (Elt F)),
    ternary main_v51 main_v53 main_v22 main_v54 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v54 main_v55 (broadcastInDim S500000x1 ![0] bcast_S500000_S500000x1_0 : (⟨S500000, .i32⟩ : BufTy).Contents (Elt F) → (⟨S500000x1, .i32⟩ : BufTy).Contents (Elt F)),
    binary main_v41 main_v55 main_v56 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v49 main_v56 main_v57 (mulf : (⟨S500000, .f32⟩ : BufTy).Contents (Elt F) → (⟨S500000, .f32⟩ : BufTy).Contents (Elt F) → (⟨S500000, .f32⟩ : BufTy).Contents (Elt F)),
    nullary main_c_14 (constantI S_ 32 0#32),
    unary main_c_14 main_v58 (broadcastInDim S500000 ![] bcast_S_S500000 : (⟨S_, .i32⟩ : BufTy).Contents (Elt F) → (⟨S500000, .i32⟩ : BufTy).Contents (Elt F)),
    binary main_v20 main_v58 main_v59 (cmpi .slt : (⟨S500000, .i32⟩ : BufTy).Contents (Elt F) → (⟨S500000, .i32⟩ : BufTy).Contents (Elt F) → (⟨S500000, .i1⟩ : BufTy).Contents (Elt F)),
    nullary main_c_15 (constantI S_ 32 20000#32),
    unary main_c_15 main_v60 (broadcastInDim S500000 ![] bcast_S_S500000 : (⟨S_, .i32⟩ : BufTy).Contents (Elt F) → (⟨S500000, .i32⟩ : BufTy).Contents (Elt F)),
    binary main_v20 main_v60 main_v61 (addi : (⟨S500000, .i32⟩ : BufTy).Contents (Elt F) → (⟨S500000, .i32⟩ : BufTy).Contents (Elt F) → (⟨S500000, .i32⟩ : BufTy).Contents (Elt F)),
    ternary main_v59 main_v61 main_v20 main_v62 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v62 main_v63 (broadcastInDim S500000x1 ![0] bcast_S500000_S500000x1_0 : (⟨S500000, .i32⟩ : BufTy).Contents (Elt F) → (⟨S500000x1, .i32⟩ : BufTy).Contents (Elt F)),
    binary main_v42 main_v63 main_v64 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    unary main_v57 main_v65 (broadcastInDim S500000x1 ![0] bcast_S500000_S500000x1_0 : (⟨S500000, .f32⟩ : BufTy).Contents (Elt F) → (⟨S500000x1, .f32⟩ : BufTy).Contents (Elt F)),
    unary main_v65 main_v66 (broadcastInDim S500000x128 ![0, 1] bcast_S500000x1_S500000x128_0_1 : (⟨S500000x1, .f32⟩ : BufTy).Contents (Elt F) → (⟨S500000x128, .f32⟩ : BufTy).Contents (Elt F)),
    binary main_v64 main_v66 main_v67 (mulf : (⟨S500000x128, .f32⟩ : BufTy).Contents (Elt F) → (⟨S500000x128, .f32⟩ : BufTy).Contents (Elt F) → (⟨S500000x128, .f32⟩ : BufTy).Contents (Elt F)),
    nullary main_cst_16 (constant S_ .f32 0x00000000#32),
    unary main_cst_16 main_v68 (broadcastInDim S20000x128 ![] bcast_S_S20000x128 : (⟨S_, .f32⟩ : BufTy).Contents (Elt F) → (⟨S20000x128, .f32⟩ : BufTy).Contents (Elt F)),
    unary main_v22 main_v69 (broadcastInDim S500000x1 ![0] bcast_S500000_S500000x1_0 : (⟨S500000, .i32⟩ : BufTy).Contents (Elt F) → (⟨S500000x1, .i32⟩ : BufTy).Contents (Elt F)),
    ternary main_v68 main_v69 main_v67 main_v70 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    unary main_v18 main_v71 (broadcastInDim S1x128 ![1] bcast_S128_S1x128_1 : (⟨S128, .f32⟩ : BufTy).Contents (Elt F) → (⟨S1x128, .f32⟩ : BufTy).Contents (Elt F)),
    unary main_v71 main_v72 (broadcastInDim S20000x128 ![0, 1] bcast_S1x128_S20000x128_0_1 : (⟨S1x128, .f32⟩ : BufTy).Contents (Elt F) → (⟨S20000x128, .f32⟩ : BufTy).Contents (Elt F)),
    binary main_v70 main_v72 main_v73 (addf : (⟨S20000x128, .f32⟩ : BufTy).Contents (Elt F) → (⟨S20000x128, .f32⟩ : BufTy).Contents (Elt F) → (⟨S20000x128, .f32⟩ : BufTy).Contents (Elt F)),
    binary main_v14 main_v73 main_v74 (addf : (⟨S20000x128, .f32⟩ : BufTy).Contents (Elt F) → (⟨S20000x128, .f32⟩ : BufTy).Contents (Elt F) → (⟨S20000x128, .f32⟩ : BufTy).Contents (Elt F)),
    unary main_arg9 main_v75 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v75 main_v76 rfl shapeCasts_S1x128x128_S128x128,
    unary main_arg10 main_v77 ((extractStridedSlice S1x128 ![1, 0] · slices_S6x128_S1x128_1_0) : (⟨S6x128, .f32⟩ : BufTy).Contents (Elt F) → (⟨S1x128, .f32⟩ : BufTy).Contents (Elt F)),
    reshape main_v77 main_v78 rfl shapeCasts_S1x128_S128,
    unary main_arg18 main_v79 ((extractStridedSlice S1x500000 ![0, 0] · slices_S2x500000_S1x500000_0_0) : (⟨S2x500000, .i32⟩ : BufTy).Contents (Elt F) → (⟨S1x500000, .i32⟩ : BufTy).Contents (Elt F)),
    reshape main_v79 main_v80 rfl shapeCasts_S1x500000_S500000,
    unary main_arg18 main_v81 ((extractStridedSlice S1x500000 ![1, 0] · slices_S2x500000_S1x500000_1_0) : (⟨S2x500000, .i32⟩ : BufTy).Contents (Elt F) → (⟨S1x500000, .i32⟩ : BufTy).Contents (Elt F)),
    reshape main_v81 main_v82 rfl shapeCasts_S1x500000_S500000,
    nullary main_cst_17 (constant S_ .f32 0x3F800000#32),
    unary main_cst_17 main_v83 (broadcastInDim S500000 ![] bcast_S_S500000 : (⟨S_, .f32⟩ : BufTy).Contents (Elt F) → (⟨S500000, .f32⟩ : BufTy).Contents (Elt F)),
    nullary main_cst_18 (constant S_ .f32 0x00000000#32),
    unary main_cst_18 main_v84 (broadcastInDim S20000 ![] bcast_S_S20000 : (⟨S_, .f32⟩ : BufTy).Contents (Elt F) → (⟨S20000, .f32⟩ : BufTy).Contents (Elt F)),
    unary main_v80 main_v85 (broadcastInDim S500000x1 ![0] bcast_S500000_S500000x1_0 : (⟨S500000, .i32⟩ : BufTy).Contents (Elt F) → (⟨S500000x1, .i32⟩ : BufTy).Contents (Elt F)),
    ternary main_v84 main_v85 main_v83 main_v86 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_19 (constant S_ .f32 0x00000000#32),
    unary main_cst_19 main_v87 (broadcastInDim S60000 ![] bcast_S_S60000 : (⟨S_, .f32⟩ : BufTy).Contents (Elt F) → (⟨S60000, .f32⟩ : BufTy).Contents (Elt F)),
    unary main_v82 main_v88 (broadcastInDim S500000x1 ![0] bcast_S500000_S500000x1_0 : (⟨S500000, .i32⟩ : BufTy).Contents (Elt F) → (⟨S500000x1, .i32⟩ : BufTy).Contents (Elt F)),
    ternary main_v87 main_v88 main_v83 main_v89 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_20 (constant S_ .f32 0x00000000#32),
    unary main_cst_20 main_v90 (broadcastInDim S20000 ![] bcast_S_S20000 : (⟨S_, .f32⟩ : BufTy).Contents (Elt F) → (⟨S20000, .f32⟩ : BufTy).Contents (Elt F)),
    binary main_v86 main_v90 main_v91 (cmpf .ogt : (⟨S20000, .f32⟩ : BufTy).Contents (Elt F) → (⟨S20000, .f32⟩ : BufTy).Contents (Elt F) → (⟨S20000, .i1⟩ : BufTy).Contents (Elt F)),
    nullary main_cst_21 (constant S_ .f32 0x3F800000#32),
    unary main_cst_21 main_v92 (broadcastInDim S20000 ![] bcast_S_S20000 : (⟨S_, .f32⟩ : BufTy).Contents (Elt F) → (⟨S20000, .f32⟩ : BufTy).Contents (Elt F)),
    binary main_v86 main_v92 main_v93 (maximumf : (⟨S20000, .f32⟩ : BufTy).Contents (Elt F) → (⟨S20000, .f32⟩ : BufTy).Contents (Elt F) → (⟨S20000, .f32⟩ : BufTy).Contents (Elt F)),
    unary main_v93 main_v94 (Host.rsqrt : (⟨S20000, .f32⟩ : BufTy).Contents (Elt F) → (⟨S20000, .f32⟩ : BufTy).Contents (Elt F)),
    nullary main_cst_22 (constant S_ .f32 0x00000000#32) ]

set_option maxRecDepth 8192 in
set_option maxHeartbeats 4000000 in
/-- The window is the line of its operations (a call unfolds to its callee's operations). -/
theorem main_part1_eq (c : Dev nD) : main_part1 (F := F) c = seq wops_1 := rfl

end Cert.ReferenceIdeal.Hand

end
-- ==== Proof.Ref.Win_2.lean ====
/- Window 2 of the reference's @main is the straight line of its operations 124 … 187. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 124 … 187 of @main (window 2), in program order. -/
abbrev wops_2 : List (HloOp τ sig (Elt F)) :=
  [ TRef.unary (TRef.of (T := ⟨S_, .f32⟩) main_cst_22) (TRef.of (T := ⟨S_, .f32⟩) main_call2_v0) id,
    TRef.unary (TRef.of (T := ⟨S_, .f32⟩) main_call2_v0) (TRef.of (T := ⟨S20000, .f32⟩) main_call2_v1) (broadcastInDim S20000 ![] bcast_S_S20000),
    TRef.ternary (TRef.of (T := ⟨S20000, .i1⟩) main_v91) (TRef.of (T := ⟨S20000, .f32⟩) main_v94) (TRef.of (T := ⟨S20000, .f32⟩) main_call2_v1) (TRef.of (T := ⟨S20000, .f32⟩) main_v95) select,
    nullary main_cst_23 (constant S_ .f32 0x00000000#32),
    unary main_cst_23 main_v96 (broadcastInDim S60000 ![] bcast_S_S60000 : (⟨S_, .f32⟩ : BufTy).Contents (Elt F) → (⟨S60000, .f32⟩ : BufTy).Contents (Elt F)),
    binary main_v89 main_v96 main_v97 (cmpf .ogt : (⟨S60000, .f32⟩ : BufTy).Contents (Elt F) → (⟨S60000, .f32⟩ : BufTy).Contents (Elt F) → (⟨S60000, .i1⟩ : BufTy).Contents (Elt F)),
    nullary main_cst_24 (constant S_ .f32 0x3F800000#32),
    unary main_cst_24 main_v98 (broadcastInDim S60000 ![] bcast_S_S60000 : (⟨S_, .f32⟩ : BufTy).Contents (Elt F) → (⟨S60000, .f32⟩ : BufTy).Contents (Elt F)),
    binary main_v89 main_v98 main_v99 (maximumf : (⟨S60000, .f32⟩ : BufTy).Contents (Elt F) → (⟨S60000, .f32⟩ : BufTy).Contents (Elt F) → (⟨S60000, .f32⟩ : BufTy).Contents (Elt F)),
    unary main_v99 main_v100 (Host.rsqrt : (⟨S60000, .f32⟩ : BufTy).Contents (Elt F) → (⟨S60000, .f32⟩ : BufTy).Contents (Elt F)),
    nullary main_cst_25 (constant S_ .f32 0x00000000#32),
    TRef.unary (TRef.of (T := ⟨S_, .f32⟩) main_cst_25) (TRef.of (T := ⟨S_, .f32⟩) main_call3_v0) id,
    TRef.unary (TRef.of (T := ⟨S_, .f32⟩) main_call3_v0) (TRef.of (T := ⟨S60000, .f32⟩) main_call3_v1) (broadcastInDim S60000 ![] bcast_S_S60000),
    TRef.ternary (TRef.of (T := ⟨S60000, .i1⟩) main_v97) (TRef.of (T := ⟨S60000, .f32⟩) main_v100) (TRef.of (T := ⟨S60000, .f32⟩) main_call3_v1) (TRef.of (T := ⟨S60000, .f32⟩) main_v101) select,
    binary main_v3 main_v76 main_v102 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c_26 (constantI S_ 32 0#32),
    unary main_c_26 main_v103 (broadcastInDim S500000 ![] bcast_S_S500000 : (⟨S_, .i32⟩ : BufTy).Contents (Elt F) → (⟨S500000, .i32⟩ : BufTy).Contents (Elt F)),
    binary main_v80 main_v103 main_v104 (cmpi .slt : (⟨S500000, .i32⟩ : BufTy).Contents (Elt F) → (⟨S500000, .i32⟩ : BufTy).Contents (Elt F) → (⟨S500000, .i1⟩ : BufTy).Contents (Elt F)),
    nullary main_c_27 (constantI S_ 32 20000#32),
    unary main_c_27 main_v105 (broadcastInDim S500000 ![] bcast_S_S500000 : (⟨S_, .i32⟩ : BufTy).Contents (Elt F) → (⟨S500000, .i32⟩ : BufTy).Contents (Elt F)),
    binary main_v80 main_v105 main_v106 (addi : (⟨S500000, .i32⟩ : BufTy).Contents (Elt F) → (⟨S500000, .i32⟩ : BufTy).Contents (Elt F) → (⟨S500000, .i32⟩ : BufTy).Contents (Elt F)),
    ternary main_v104 main_v106 main_v80 main_v107 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v107 main_v108 (broadcastInDim S500000x1 ![0] bcast_S500000_S500000x1_0 : (⟨S500000, .i32⟩ : BufTy).Contents (Elt F) → (⟨S500000x1, .i32⟩ : BufTy).Contents (Elt F)),
    binary main_v95 main_v108 main_v109 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_28 (constantI S_ 32 0#32),
    unary main_c_28 main_v110 (broadcastInDim S500000 ![] bcast_S_S500000 : (⟨S_, .i32⟩ : BufTy).Contents (Elt F) → (⟨S500000, .i32⟩ : BufTy).Contents (Elt F)),
    binary main_v82 main_v110 main_v111 (cmpi .slt : (⟨S500000, .i32⟩ : BufTy).Contents (Elt F) → (⟨S500000, .i32⟩ : BufTy).Contents (Elt F) → (⟨S500000, .i1⟩ : BufTy).Contents (Elt F)),
    nullary main_c_29 (constantI S_ 32 60000#32),
    unary main_c_29 main_v112 (broadcastInDim S500000 ![] bcast_S_S500000 : (⟨S_, .i32⟩ : BufTy).Contents (Elt F) → (⟨S500000, .i32⟩ : BufTy).Contents (Elt F)),
    binary main_v82 main_v112 main_v113 (addi : (⟨S500000, .i32⟩ : BufTy).Contents (Elt F) → (⟨S500000, .i32⟩ : BufTy).Contents (Elt F) → (⟨S500000, .i32⟩ : BufTy).Contents (Elt F)),
    ternary main_v111 main_v113 main_v82 main_v114 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v114 main_v115 (broadcastInDim S500000x1 ![0] bcast_S500000_S500000x1_0 : (⟨S500000, .i32⟩ : BufTy).Contents (Elt F) → (⟨S500000x1, .i32⟩ : BufTy).Contents (Elt F)),
    binary main_v101 main_v115 main_v116 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    binary main_v109 main_v116 main_v117 (mulf : (⟨S500000, .f32⟩ : BufTy).Contents (Elt F) → (⟨S500000, .f32⟩ : BufTy).Contents (Elt F) → (⟨S500000, .f32⟩ : BufTy).Contents (Elt F)),
    nullary main_c_30 (constantI S_ 32 0#32),
    unary main_c_30 main_v118 (broadcastInDim S500000 ![] bcast_S_S500000 : (⟨S_, .i32⟩ : BufTy).Contents (Elt F) → (⟨S500000, .i32⟩ : BufTy).Contents (Elt F)),
    binary main_v80 main_v118 main_v119 (cmpi .slt : (⟨S500000, .i32⟩ : BufTy).Contents (Elt F) → (⟨S500000, .i32⟩ : BufTy).Contents (Elt F) → (⟨S500000, .i1⟩ : BufTy).Contents (Elt F)),
    nullary main_c_31 (constantI S_ 32 20000#32),
    unary main_c_31 main_v120 (broadcastInDim S500000 ![] bcast_S_S500000 : (⟨S_, .i32⟩ : BufTy).Contents (Elt F) → (⟨S500000, .i32⟩ : BufTy).Contents (Elt F)),
    binary main_v80 main_v120 main_v121 (addi : (⟨S500000, .i32⟩ : BufTy).Contents (Elt F) → (⟨S500000, .i32⟩ : BufTy).Contents (Elt F) → (⟨S500000, .i32⟩ : BufTy).Contents (Elt F)),
    ternary main_v119 main_v121 main_v80 main_v122 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v122 main_v123 (broadcastInDim S500000x1 ![0] bcast_S500000_S500000x1_0 : (⟨S500000, .i32⟩ : BufTy).Contents (Elt F) → (⟨S500000x1, .i32⟩ : BufTy).Contents (Elt F)),
    binary main_v102 main_v123 main_v124 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    unary main_v117 main_v125 (broadcastInDim S500000x1 ![0] bcast_S500000_S500000x1_0 : (⟨S500000, .f32⟩ : BufTy).Contents (Elt F) → (⟨S500000x1, .f32⟩ : BufTy).Contents (Elt F)),
    unary main_v125 main_v126 (broadcastInDim S500000x128 ![0, 1] bcast_S500000x1_S500000x128_0_1 : (⟨S500000x1, .f32⟩ : BufTy).Contents (Elt F) → (⟨S500000x128, .f32⟩ : BufTy).Contents (Elt F)),
    binary main_v124 main_v126 main_v127 (mulf : (⟨S500000x128, .f32⟩ : BufTy).Contents (Elt F) → (⟨S500000x128, .f32⟩ : BufTy).Contents (Elt F) → (⟨S500000x128, .f32⟩ : BufTy).Contents (Elt F)),
    nullary main_cst_32 (constant S_ .f32 0x00000000#32),
    unary main_cst_32 main_v128 (broadcastInDim S60000x128 ![] bcast_S_S60000x128 : (⟨S_, .f32⟩ : BufTy).Contents (Elt F) → (⟨S60000x128, .f32⟩ : BufTy).Contents (Elt F)),
    unary main_v82 main_v129 (broadcastInDim S500000x1 ![0] bcast_S500000_S500000x1_0 : (⟨S500000, .i32⟩ : BufTy).Contents (Elt F) → (⟨S500000x1, .i32⟩ : BufTy).Contents (Elt F)),
    ternary main_v128 main_v129 main_v127 main_v130 ((fun x i u => Host.scatterAdd scatter_S60000x128_S500000x1_S500000x128_1_0_0_1 x i u) : (⟨S60000x128, .f32⟩ : BufTy).Contents (Elt F) → (⟨S500000x1, .i32⟩ : BufTy).Contents (Elt F) → (⟨S500000x128, .f32⟩ : BufTy).Contents (Elt F) → (⟨S60000x128, .f32⟩ : BufTy).Contents (Elt F)),
    unary main_v78 main_v131 (broadcastInDim S1x128 ![1] bcast_S128_S1x128_1 : (⟨S128, .f32⟩ : BufTy).Contents (Elt F) → (⟨S1x128, .f32⟩ : BufTy).Contents (Elt F)),
    unary main_v131 main_v132 (broadcastInDim S60000x128 ![0, 1] bcast_S1x128_S60000x128_0_1 : (⟨S1x128, .f32⟩ : BufTy).Contents (Elt F) → (⟨S60000x128, .f32⟩ : BufTy).Contents (Elt F)),
    binary main_v130 main_v132 main_v133 (addf : (⟨S60000x128, .f32⟩ : BufTy).Contents (Elt F) → (⟨S60000x128, .f32⟩ : BufTy).Contents (Elt F) → (⟨S60000x128, .f32⟩ : BufTy).Contents (Elt F)),
    binary main_v13 main_v133 main_v134 (addf : (⟨S60000x128, .f32⟩ : BufTy).Contents (Elt F) → (⟨S60000x128, .f32⟩ : BufTy).Contents (Elt F) → (⟨S60000x128, .f32⟩ : BufTy).Contents (Elt F)),
    unary main_arg9 main_v135 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v135 main_v136 rfl shapeCasts_S1x128x128_S128x128,
    unary main_arg10 main_v137 ((extractStridedSlice S1x128 ![2, 0] · slices_S6x128_S1x128_2_0) : (⟨S6x128, .f32⟩ : BufTy).Contents (Elt F) → (⟨S1x128, .f32⟩ : BufTy).Contents (Elt F)),
    reshape main_v137 main_v138 rfl shapeCasts_S1x128_S128,
    unary main_arg19 main_v139 ((extractStridedSlice S1x500000 ![0, 0] · slices_S2x500000_S1x500000_0_0) : (⟨S2x500000, .i32⟩ : BufTy).Contents (Elt F) → (⟨S1x500000, .i32⟩ : BufTy).Contents (Elt F)),
    reshape main_v139 main_v140 rfl shapeCasts_S1x500000_S500000,
    unary main_arg19 main_v141 ((extractStridedSlice S1x500000 ![1, 0] · slices_S2x500000_S1x500000_1_0) : (⟨S2x500000, .i32⟩ : BufTy).Contents (Elt F) → (⟨S1x500000, .i32⟩ : BufTy).Contents (Elt F)),
    reshape main_v141 main_v142 rfl shapeCasts_S1x500000_S500000,
    nullary main_cst_33 (constant S_ .f32 0x3F800000#32),
    unary main_cst_33 main_v143 (broadcastInDim S500000 ![] bcast_S_S500000 : (⟨S_, .f32⟩ : BufTy).Contents (Elt F) → (⟨S500000, .f32⟩ : BufTy).Contents (Elt F)) ]

set_option maxRecDepth 8192 in
set_option maxHeartbeats 4000000 in
/-- The window is the line of its operations (a call unfolds to its callee's operations). -/
theorem main_part2_eq (c : Dev nD) : main_part2 (F := F) c = seq wops_2 := rfl

end Cert.ReferenceIdeal.Hand

end
-- ==== Proof.Ref.Win_3.lean ====
/- Window 3 of the reference's @main is the straight line of its operations 188 … 251. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 188 … 251 of @main (window 3), in program order. -/
abbrev wops_3 : List (HloOp τ sig (Elt F)) :=
  [ nullary main_cst_34 (constant S_ .f32 0x00000000#32),
    unary main_cst_34 main_v144 (broadcastInDim S60000 ![] bcast_S_S60000 : (⟨S_, .f32⟩ : BufTy).Contents (Elt F) → (⟨S60000, .f32⟩ : BufTy).Contents (Elt F)),
    unary main_v140 main_v145 (broadcastInDim S500000x1 ![0] bcast_S500000_S500000x1_0 : (⟨S500000, .i32⟩ : BufTy).Contents (Elt F) → (⟨S500000x1, .i32⟩ : BufTy).Contents (Elt F)),
    ternary main_v144 main_v145 main_v143 main_v146 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_35 (constant S_ .f32 0x00000000#32),
    unary main_cst_35 main_v147 (broadcastInDim S20000 ![] bcast_S_S20000 : (⟨S_, .f32⟩ : BufTy).Contents (Elt F) → (⟨S20000, .f32⟩ : BufTy).Contents (Elt F)),
    unary main_v142 main_v148 (broadcastInDim S500000x1 ![0] bcast_S500000_S500000x1_0 : (⟨S500000, .i32⟩ : BufTy).Contents (Elt F) → (⟨S500000x1, .i32⟩ : BufTy).Contents (Elt F)),
    ternary main_v147 main_v148 main_v143 main_v149 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_36 (constant S_ .f32 0x00000000#32),
    unary main_cst_36 main_v150 (broadcastInDim S60000 ![] bcast_S_S60000 : (⟨S_, .f32⟩ : BufTy).Contents (Elt F) → (⟨S60000, .f32⟩ : BufTy).Contents (Elt F)),
    binary main_v146 main_v150 main_v151 (cmpf .ogt : (⟨S60000, .f32⟩ : BufTy).Contents (Elt F) → (⟨S60000, .f32⟩ : BufTy).Contents (Elt F) → (⟨S60000, .i1⟩ : BufTy).Contents (Elt F)),
    nullary main_cst_37 (constant S_ .f32 0x3F800000#32),
    unary main_cst_37 main_v152 (broadcastInDim S60000 ![] bcast_S_S60000 : (⟨S_, .f32⟩ : BufTy).Contents (Elt F) → (⟨S60000, .f32⟩ : BufTy).Contents (Elt F)),
    binary main_v146 main_v152 main_v153 (maximumf : (⟨S60000, .f32⟩ : BufTy).Contents (Elt F) → (⟨S60000, .f32⟩ : BufTy).Contents (Elt F) → (⟨S60000, .f32⟩ : BufTy).Contents (Elt F)),
    unary main_v153 main_v154 (Host.rsqrt : (⟨S60000, .f32⟩ : BufTy).Contents (Elt F) → (⟨S60000, .f32⟩ : BufTy).Contents (Elt F)),
    nullary main_cst_38 (constant S_ .f32 0x00000000#32),
    TRef.unary (TRef.of (T := ⟨S_, .f32⟩) main_cst_38) (TRef.of (T := ⟨S_, .f32⟩) main_call4_v0) id,
    TRef.unary (TRef.of (T := ⟨S_, .f32⟩) main_call4_v0) (TRef.of (T := ⟨S60000, .f32⟩) main_call4_v1) (broadcastInDim S60000 ![] bcast_S_S60000),
    TRef.ternary (TRef.of (T := ⟨S60000, .i1⟩) main_v151) (TRef.of (T := ⟨S60000, .f32⟩) main_v154) (TRef.of (T := ⟨S60000, .f32⟩) main_call4_v1) (TRef.of (T := ⟨S60000, .f32⟩) main_v155) select,
    nullary main_cst_39 (constant S_ .f32 0x00000000#32),
    unary main_cst_39 main_v156 (broadcastInDim S20000 ![] bcast_S_S20000 : (⟨S_, .f32⟩ : BufTy).Contents (Elt F) → (⟨S20000, .f32⟩ : BufTy).Contents (Elt F)),
    binary main_v149 main_v156 main_v157 (cmpf .ogt : (⟨S20000, .f32⟩ : BufTy).Contents (Elt F) → (⟨S20000, .f32⟩ : BufTy).Contents (Elt F) → (⟨S20000, .i1⟩ : BufTy).Contents (Elt F)),
    nullary main_cst_40 (constant S_ .f32 0x3F800000#32),
    unary main_cst_40 main_v158 (broadcastInDim S20000 ![] bcast_S_S20000 : (⟨S_, .f32⟩ : BufTy).Contents (Elt F) → (⟨S20000, .f32⟩ : BufTy).Contents (Elt F)),
    binary main_v149 main_v158 main_v159 (maximumf : (⟨S20000, .f32⟩ : BufTy).Contents (Elt F) → (⟨S20000, .f32⟩ : BufTy).Contents (Elt F) → (⟨S20000, .f32⟩ : BufTy).Contents (Elt F)),
    unary main_v159 main_v160 (Host.rsqrt : (⟨S20000, .f32⟩ : BufTy).Contents (Elt F) → (⟨S20000, .f32⟩ : BufTy).Contents (Elt F)),
    nullary main_cst_41 (constant S_ .f32 0x00000000#32),
    TRef.unary (TRef.of (T := ⟨S_, .f32⟩) main_cst_41) (TRef.of (T := ⟨S_, .f32⟩) main_call5_v0) id,
    TRef.unary (TRef.of (T := ⟨S_, .f32⟩) main_call5_v0) (TRef.of (T := ⟨S20000, .f32⟩) main_call5_v1) (broadcastInDim S20000 ![] bcast_S_S20000),
    TRef.ternary (TRef.of (T := ⟨S20000, .i1⟩) main_v157) (TRef.of (T := ⟨S20000, .f32⟩) main_v160) (TRef.of (T := ⟨S20000, .f32⟩) main_call5_v1) (TRef.of (T := ⟨S20000, .f32⟩) main_v161) select,
    binary main_v7 main_v136 main_v162 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    nullary main_c_42 (constantI S_ 32 0#32),
    unary main_c_42 main_v163 (broadcastInDim S500000 ![] bcast_S_S500000 : (⟨S_, .i32⟩ : BufTy).Contents (Elt F) → (⟨S500000, .i32⟩ : BufTy).Contents (Elt F)),
    binary main_v140 main_v163 main_v164 (cmpi .slt : (⟨S500000, .i32⟩ : BufTy).Contents (Elt F) → (⟨S500000, .i32⟩ : BufTy).Contents (Elt F) → (⟨S500000, .i1⟩ : BufTy).Contents (Elt F)),
    nullary main_c_43 (constantI S_ 32 60000#32),
    unary main_c_43 main_v165 (broadcastInDim S500000 ![] bcast_S_S500000 : (⟨S_, .i32⟩ : BufTy).Contents (Elt F) → (⟨S500000, .i32⟩ : BufTy).Contents (Elt F)),
    binary main_v140 main_v165 main_v166 (addi : (⟨S500000, .i32⟩ : BufTy).Contents (Elt F) → (⟨S500000, .i32⟩ : BufTy).Contents (Elt F) → (⟨S500000, .i32⟩ : BufTy).Contents (Elt F)),
    ternary main_v164 main_v166 main_v140 main_v167 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v167 main_v168 (broadcastInDim S500000x1 ![0] bcast_S500000_S500000x1_0 : (⟨S500000, .i32⟩ : BufTy).Contents (Elt F) → (⟨S500000x1, .i32⟩ : BufTy).Contents (Elt F)),
    binary main_v155 main_v168 main_v169 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    nullary main_c_44 (constantI S_ 32 0#32),
    unary main_c_44 main_v170 (broadcastInDim S500000 ![] bcast_S_S500000 : (⟨S_, .i32⟩ : BufTy).Contents (Elt F) → (⟨S500000, .i32⟩ : BufTy).Contents (Elt F)),
    binary main_v142 main_v170 main_v171 (cmpi .slt : (⟨S500000, .i32⟩ : BufTy).Contents (Elt F) → (⟨S500000, .i32⟩ : BufTy).Contents (Elt F) → (⟨S500000, .i1⟩ : BufTy).Contents (Elt F)),
    nullary main_c_45 (constantI S_ 32 20000#32),
    unary main_c_45 main_v172 (broadcastInDim S500000 ![] bcast_S_S500000 : (⟨S_, .i32⟩ : BufTy).Contents (Elt F) → (⟨S500000, .i32⟩ : BufTy).Contents (Elt F)),
    binary main_v142 main_v172 main_v173 (addi : (⟨S500000, .i32⟩ : BufTy).Contents (Elt F) → (⟨S500000, .i32⟩ : BufTy).Contents (Elt F) → (⟨S500000, .i32⟩ : BufTy).Contents (Elt F)),
    ternary main_v171 main_v173 main_v142 main_v174 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v174 main_v175 (broadcastInDim S500000x1 ![0] bcast_S500000_S500000x1_0 : (⟨S500000, .i32⟩ : BufTy).Contents (Elt F) → (⟨S500000x1, .i32⟩ : BufTy).Contents (Elt F)),
    binary main_v161 main_v175 main_v176 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v169 main_v176 main_v177 (mulf : (⟨S500000, .f32⟩ : BufTy).Contents (Elt F) → (⟨S500000, .f32⟩ : BufTy).Contents (Elt F) → (⟨S500000, .f32⟩ : BufTy).Contents (Elt F)),
    nullary main_c_46 (constantI S_ 32 0#32),
    unary main_c_46 main_v178 (broadcastInDim S500000 ![] bcast_S_S500000 : (⟨S_, .i32⟩ : BufTy).Contents (Elt F) → (⟨S500000, .i32⟩ : BufTy).Contents (Elt F)),
    binary main_v140 main_v178 main_v179 (cmpi .slt : (⟨S500000, .i32⟩ : BufTy).Contents (Elt F) → (⟨S500000, .i32⟩ : BufTy).Contents (Elt F) → (⟨S500000, .i1⟩ : BufTy).Contents (Elt F)),
    nullary main_c_47 (constantI S_ 32 60000#32),
    unary main_c_47 main_v180 (broadcastInDim S500000 ![] bcast_S_S500000 : (⟨S_, .i32⟩ : BufTy).Contents (Elt F) → (⟨S500000, .i32⟩ : BufTy).Contents (Elt F)),
    binary main_v140 main_v180 main_v181 (addi : (⟨S500000, .i32⟩ : BufTy).Contents (Elt F) → (⟨S500000, .i32⟩ : BufTy).Contents (Elt F) → (⟨S500000, .i32⟩ : BufTy).Contents (Elt F)),
    ternary main_v179 main_v181 main_v140 main_v182 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v182 main_v183 (broadcastInDim S500000x1 ![0] bcast_S500000_S500000x1_0 : (⟨S500000, .i32⟩ : BufTy).Contents (Elt F) → (⟨S500000x1, .i32⟩ : BufTy).Contents (Elt F)),
    binary main_v162 main_v183 main_v184 ((fun x i => Host.gather gather_S60000x128_S500000x1_S500000x128_1_0_n_n_0_1_1128 x i) : (⟨S60000x128, .f32⟩ : BufTy).Contents (Elt F) → (⟨S500000x1, .i32⟩ : BufTy).Contents (Elt F) → (⟨S500000x128, .f32⟩ : BufTy).Contents (Elt F)),
    unary main_v177 main_v185 (broadcastInDim S500000x1 ![0] bcast_S500000_S500000x1_0 : (⟨S500000, .f32⟩ : BufTy).Contents (Elt F) → (⟨S500000x1, .f32⟩ : BufTy).Contents (Elt F)),
    unary main_v185 main_v186 (broadcastInDim S500000x128 ![0, 1] bcast_S500000x1_S500000x128_0_1 : (⟨S500000x1, .f32⟩ : BufTy).Contents (Elt F) → (⟨S500000x128, .f32⟩ : BufTy).Contents (Elt F)),
    binary main_v184 main_v186 main_v187 (mulf : (⟨S500000x128, .f32⟩ : BufTy).Contents (Elt F) → (⟨S500000x128, .f32⟩ : BufTy).Contents (Elt F) → (⟨S500000x128, .f32⟩ : BufTy).Contents (Elt F)),
    nullary main_cst_48 (constant S_ .f32 0x00000000#32),
    unary main_cst_48 main_v188 (broadcastInDim S20000x128 ![] bcast_S_S20000x128 : (⟨S_, .f32⟩ : BufTy).Contents (Elt F) → (⟨S20000x128, .f32⟩ : BufTy).Contents (Elt F)) ]

set_option maxRecDepth 8192 in
set_option maxHeartbeats 4000000 in
/-- The window is the line of its operations (a call unfolds to its callee's operations). -/
theorem main_part3_eq (c : Dev nD) : main_part3 (F := F) c = seq wops_3 := rfl

end Cert.ReferenceIdeal.Hand

end
-- ==== Proof.Ref.Win_4.lean ====
/- Window 4 of the reference's @main is the straight line of its operations 252 … 315. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 252 … 315 of @main (window 4), in program order. -/
abbrev wops_4 : List (HloOp τ sig (Elt F)) :=
  [ unary main_v142 main_v189 (broadcastInDim S500000x1 ![0] bcast_S500000_S500000x1_0 : (⟨S500000, .i32⟩ : BufTy).Contents (Elt F) → (⟨S500000x1, .i32⟩ : BufTy).Contents (Elt F)),
    ternary main_v188 main_v189 main_v187 main_v190 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    unary main_v138 main_v191 (broadcastInDim S1x128 ![1] bcast_S128_S1x128_1 : (⟨S128, .f32⟩ : BufTy).Contents (Elt F) → (⟨S1x128, .f32⟩ : BufTy).Contents (Elt F)),
    unary main_v191 main_v192 (broadcastInDim S20000x128 ![0, 1] bcast_S1x128_S20000x128_0_1 : (⟨S1x128, .f32⟩ : BufTy).Contents (Elt F) → (⟨S20000x128, .f32⟩ : BufTy).Contents (Elt F)),
    binary main_v190 main_v192 main_v193 (addf : (⟨S20000x128, .f32⟩ : BufTy).Contents (Elt F) → (⟨S20000x128, .f32⟩ : BufTy).Contents (Elt F) → (⟨S20000x128, .f32⟩ : BufTy).Contents (Elt F)),
    binary main_v74 main_v193 main_v194 (addf : (⟨S20000x128, .f32⟩ : BufTy).Contents (Elt F) → (⟨S20000x128, .f32⟩ : BufTy).Contents (Elt F) → (⟨S20000x128, .f32⟩ : BufTy).Contents (Elt F)),
    unary main_arg9 main_v195 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v195 main_v196 rfl shapeCasts_S1x128x128_S128x128,
    unary main_arg10 main_v197 ((extractStridedSlice S1x128 ![3, 0] · slices_S6x128_S1x128_3_0) : (⟨S6x128, .f32⟩ : BufTy).Contents (Elt F) → (⟨S1x128, .f32⟩ : BufTy).Contents (Elt F)),
    reshape main_v197 main_v198 rfl shapeCasts_S1x128_S128,
    unary main_arg20 main_v199 ((extractStridedSlice S1x500000 ![0, 0] · slices_S2x500000_S1x500000_0_0) : (⟨S2x500000, .i32⟩ : BufTy).Contents (Elt F) → (⟨S1x500000, .i32⟩ : BufTy).Contents (Elt F)),
    reshape main_v199 main_v200 rfl shapeCasts_S1x500000_S500000,
    unary main_arg20 main_v201 ((extractStridedSlice S1x500000 ![1, 0] · slices_S2x500000_S1x500000_1_0) : (⟨S2x500000, .i32⟩ : BufTy).Contents (Elt F) → (⟨S1x500000, .i32⟩ : BufTy).Contents (Elt F)),
    reshape main_v201 main_v202 rfl shapeCasts_S1x500000_S500000,
    nullary main_cst_49 (constant S_ .f32 0x3F800000#32),
    unary main_cst_49 main_v203 (broadcastInDim S500000 ![] bcast_S_S500000 : (⟨S_, .f32⟩ : BufTy).Contents (Elt F) → (⟨S500000, .f32⟩ : BufTy).Contents (Elt F)),
    nullary main_cst_50 (constant S_ .f32 0x00000000#32),
    unary main_cst_50 main_v204 (broadcastInDim S20000 ![] bcast_S_S20000 : (⟨S_, .f32⟩ : BufTy).Contents (Elt F) → (⟨S20000, .f32⟩ : BufTy).Contents (Elt F)),
    unary main_v200 main_v205 (broadcastInDim S500000x1 ![0] bcast_S500000_S500000x1_0 : (⟨S500000, .i32⟩ : BufTy).Contents (Elt F) → (⟨S500000x1, .i32⟩ : BufTy).Contents (Elt F)),
    ternary main_v204 main_v205 main_v203 main_v206 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_51 (constant S_ .f32 0x00000000#32),
    unary main_cst_51 main_v207 (broadcastInDim S20000 ![] bcast_S_S20000 : (⟨S_, .f32⟩ : BufTy).Contents (Elt F) → (⟨S20000, .f32⟩ : BufTy).Contents (Elt F)),
    unary main_v202 main_v208 (broadcastInDim S500000x1 ![0] bcast_S500000_S500000x1_0 : (⟨S500000, .i32⟩ : BufTy).Contents (Elt F) → (⟨S500000x1, .i32⟩ : BufTy).Contents (Elt F)),
    ternary main_v207 main_v208 main_v203 main_v209 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_52 (constant S_ .f32 0x00000000#32),
    unary main_cst_52 main_v210 (broadcastInDim S20000 ![] bcast_S_S20000 : (⟨S_, .f32⟩ : BufTy).Contents (Elt F) → (⟨S20000, .f32⟩ : BufTy).Contents (Elt F)),
    binary main_v206 main_v210 main_v211 (cmpf .ogt : (⟨S20000, .f32⟩ : BufTy).Contents (Elt F) → (⟨S20000, .f32⟩ : BufTy).Contents (Elt F) → (⟨S20000, .i1⟩ : BufTy).Contents (Elt F)),
    nullary main_cst_53 (constant S_ .f32 0x3F800000#32),
    unary main_cst_53 main_v212 (broadcastInDim S20000 ![] bcast_S_S20000 : (⟨S_, .f32⟩ : BufTy).Contents (Elt F) → (⟨S20000, .f32⟩ : BufTy).Contents (Elt F)),
    binary main_v206 main_v212 main_v213 (maximumf : (⟨S20000, .f32⟩ : BufTy).Contents (Elt F) → (⟨S20000, .f32⟩ : BufTy).Contents (Elt F) → (⟨S20000, .f32⟩ : BufTy).Contents (Elt F)),
    unary main_v213 main_v214 (Host.rsqrt : (⟨S20000, .f32⟩ : BufTy).Contents (Elt F) → (⟨S20000, .f32⟩ : BufTy).Contents (Elt F)),
    nullary main_cst_54 (constant S_ .f32 0x00000000#32),
    TRef.unary (TRef.of (T := ⟨S_, .f32⟩) main_cst_54) (TRef.of (T := ⟨S_, .f32⟩) main_call6_v0) id,
    TRef.unary (TRef.of (T := ⟨S_, .f32⟩) main_call6_v0) (TRef.of (T := ⟨S20000, .f32⟩) main_call6_v1) (broadcastInDim S20000 ![] bcast_S_S20000),
    TRef.ternary (TRef.of (T := ⟨S20000, .i1⟩) main_v211) (TRef.of (T := ⟨S20000, .f32⟩) main_v214) (TRef.of (T := ⟨S20000, .f32⟩) main_call6_v1) (TRef.of (T := ⟨S20000, .f32⟩) main_v215) select,
    nullary main_cst_55 (constant S_ .f32 0x00000000#32),
    unary main_cst_55 main_v216 (broadcastInDim S20000 ![] bcast_S_S20000 : (⟨S_, .f32⟩ : BufTy).Contents (Elt F) → (⟨S20000, .f32⟩ : BufTy).Contents (Elt F)),
    binary main_v209 main_v216 main_v217 (cmpf .ogt : (⟨S20000, .f32⟩ : BufTy).Contents (Elt F) → (⟨S20000, .f32⟩ : BufTy).Contents (Elt F) → (⟨S20000, .i1⟩ : BufTy).Contents (Elt F)),
    nullary main_cst_56 (constant S_ .f32 0x3F800000#32),
    unary main_cst_56 main_v218 (broadcastInDim S20000 ![] bcast_S_S20000 : (⟨S_, .f32⟩ : BufTy).Contents (Elt F) → (⟨S20000, .f32⟩ : BufTy).Contents (Elt F)),
    binary main_v209 main_v218 main_v219 (maximumf : (⟨S20000, .f32⟩ : BufTy).Contents (Elt F) → (⟨S20000, .f32⟩ : BufTy).Contents (Elt F) → (⟨S20000, .f32⟩ : BufTy).Contents (Elt F)),
    unary main_v219 main_v220 (Host.rsqrt : (⟨S20000, .f32⟩ : BufTy).Contents (Elt F) → (⟨S20000, .f32⟩ : BufTy).Contents (Elt F)),
    nullary main_cst_57 (constant S_ .f32 0x00000000#32),
    TRef.unary (TRef.of (T := ⟨S_, .f32⟩) main_cst_57) (TRef.of (T := ⟨S_, .f32⟩) main_call7_v0) id,
    TRef.unary (TRef.of (T := ⟨S_, .f32⟩) main_call7_v0) (TRef.of (T := ⟨S20000, .f32⟩) main_call7_v1) (broadcastInDim S20000 ![] bcast_S_S20000),
    TRef.ternary (TRef.of (T := ⟨S20000, .i1⟩) main_v217) (TRef.of (T := ⟨S20000, .f32⟩) main_v220) (TRef.of (T := ⟨S20000, .f32⟩) main_call7_v1) (TRef.of (T := ⟨S20000, .f32⟩) main_v221) select,
    binary main_v11 main_v196 main_v222 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c_58 (constantI S_ 32 0#32),
    unary main_c_58 main_v223 (broadcastInDim S500000 ![] bcast_S_S500000 : (⟨S_, .i32⟩ : BufTy).Contents (Elt F) → (⟨S500000, .i32⟩ : BufTy).Contents (Elt F)),
    binary main_v200 main_v223 main_v224 (cmpi .slt : (⟨S500000, .i32⟩ : BufTy).Contents (Elt F) → (⟨S500000, .i32⟩ : BufTy).Contents (Elt F) → (⟨S500000, .i1⟩ : BufTy).Contents (Elt F)),
    nullary main_c_59 (constantI S_ 32 20000#32),
    unary main_c_59 main_v225 (broadcastInDim S500000 ![] bcast_S_S500000 : (⟨S_, .i32⟩ : BufTy).Contents (Elt F) → (⟨S500000, .i32⟩ : BufTy).Contents (Elt F)),
    binary main_v200 main_v225 main_v226 (addi : (⟨S500000, .i32⟩ : BufTy).Contents (Elt F) → (⟨S500000, .i32⟩ : BufTy).Contents (Elt F) → (⟨S500000, .i32⟩ : BufTy).Contents (Elt F)),
    ternary main_v224 main_v226 main_v200 main_v227 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v227 main_v228 (broadcastInDim S500000x1 ![0] bcast_S500000_S500000x1_0 : (⟨S500000, .i32⟩ : BufTy).Contents (Elt F) → (⟨S500000x1, .i32⟩ : BufTy).Contents (Elt F)),
    binary main_v215 main_v228 main_v229 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_60 (constantI S_ 32 0#32),
    unary main_c_60 main_v230 (broadcastInDim S500000 ![] bcast_S_S500000 : (⟨S_, .i32⟩ : BufTy).Contents (Elt F) → (⟨S500000, .i32⟩ : BufTy).Contents (Elt F)),
    binary main_v202 main_v230 main_v231 (cmpi .slt : (⟨S500000, .i32⟩ : BufTy).Contents (Elt F) → (⟨S500000, .i32⟩ : BufTy).Contents (Elt F) → (⟨S500000, .i1⟩ : BufTy).Contents (Elt F)),
    nullary main_c_61 (constantI S_ 32 20000#32),
    unary main_c_61 main_v232 (broadcastInDim S500000 ![] bcast_S_S500000 : (⟨S_, .i32⟩ : BufTy).Contents (Elt F) → (⟨S500000, .i32⟩ : BufTy).Contents (Elt F)),
    binary main_v202 main_v232 main_v233 (addi : (⟨S500000, .i32⟩ : BufTy).Contents (Elt F) → (⟨S500000, .i32⟩ : BufTy).Contents (Elt F) → (⟨S500000, .i32⟩ : BufTy).Contents (Elt F)),
    ternary main_v231 main_v233 main_v202 main_v234 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v234 main_v235 (broadcastInDim S500000x1 ![0] bcast_S500000_S500000x1_0 : (⟨S500000, .i32⟩ : BufTy).Contents (Elt F) → (⟨S500000x1, .i32⟩ : BufTy).Contents (Elt F)) ]

set_option maxRecDepth 8192 in
set_option maxHeartbeats 4000000 in
/-- The window is the line of its operations (a call unfolds to its callee's operations). -/
theorem main_part4_eq (c : Dev nD) : main_part4 (F := F) c = seq wops_4 := rfl

end Cert.ReferenceIdeal.Hand

end
-- ==== Proof.Ref.Win_5.lean ====
/- Window 5 of the reference's @main is the straight line of its operations 316 … 379. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 316 … 379 of @main (window 5), in program order. -/
abbrev wops_5 : List (HloOp τ sig (Elt F)) :=
  [ binary main_v221 main_v235 main_v236 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v229 main_v236 main_v237 (mulf : (⟨S500000, .f32⟩ : BufTy).Contents (Elt F) → (⟨S500000, .f32⟩ : BufTy).Contents (Elt F) → (⟨S500000, .f32⟩ : BufTy).Contents (Elt F)),
    nullary main_c_62 (constantI S_ 32 0#32),
    unary main_c_62 main_v238 (broadcastInDim S500000 ![] bcast_S_S500000 : (⟨S_, .i32⟩ : BufTy).Contents (Elt F) → (⟨S500000, .i32⟩ : BufTy).Contents (Elt F)),
    binary main_v200 main_v238 main_v239 (cmpi .slt : (⟨S500000, .i32⟩ : BufTy).Contents (Elt F) → (⟨S500000, .i32⟩ : BufTy).Contents (Elt F) → (⟨S500000, .i1⟩ : BufTy).Contents (Elt F)),
    nullary main_c_63 (constantI S_ 32 20000#32),
    unary main_c_63 main_v240 (broadcastInDim S500000 ![] bcast_S_S500000 : (⟨S_, .i32⟩ : BufTy).Contents (Elt F) → (⟨S500000, .i32⟩ : BufTy).Contents (Elt F)),
    binary main_v200 main_v240 main_v241 (addi : (⟨S500000, .i32⟩ : BufTy).Contents (Elt F) → (⟨S500000, .i32⟩ : BufTy).Contents (Elt F) → (⟨S500000, .i32⟩ : BufTy).Contents (Elt F)),
    ternary main_v239 main_v241 main_v200 main_v242 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v242 main_v243 (broadcastInDim S500000x1 ![0] bcast_S500000_S500000x1_0 : (⟨S500000, .i32⟩ : BufTy).Contents (Elt F) → (⟨S500000x1, .i32⟩ : BufTy).Contents (Elt F)),
    binary main_v222 main_v243 main_v244 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    unary main_v237 main_v245 (broadcastInDim S500000x1 ![0] bcast_S500000_S500000x1_0 : (⟨S500000, .f32⟩ : BufTy).Contents (Elt F) → (⟨S500000x1, .f32⟩ : BufTy).Contents (Elt F)),
    unary main_v245 main_v246 (broadcastInDim S500000x128 ![0, 1] bcast_S500000x1_S500000x128_0_1 : (⟨S500000x1, .f32⟩ : BufTy).Contents (Elt F) → (⟨S500000x128, .f32⟩ : BufTy).Contents (Elt F)),
    binary main_v244 main_v246 main_v247 (mulf : (⟨S500000x128, .f32⟩ : BufTy).Contents (Elt F) → (⟨S500000x128, .f32⟩ : BufTy).Contents (Elt F) → (⟨S500000x128, .f32⟩ : BufTy).Contents (Elt F)),
    nullary main_cst_64 (constant S_ .f32 0x00000000#32),
    unary main_cst_64 main_v248 (broadcastInDim S20000x128 ![] bcast_S_S20000x128 : (⟨S_, .f32⟩ : BufTy).Contents (Elt F) → (⟨S20000x128, .f32⟩ : BufTy).Contents (Elt F)),
    unary main_v202 main_v249 (broadcastInDim S500000x1 ![0] bcast_S500000_S500000x1_0 : (⟨S500000, .i32⟩ : BufTy).Contents (Elt F) → (⟨S500000x1, .i32⟩ : BufTy).Contents (Elt F)),
    ternary main_v248 main_v249 main_v247 main_v250 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    unary main_v198 main_v251 (broadcastInDim S1x128 ![1] bcast_S128_S1x128_1 : (⟨S128, .f32⟩ : BufTy).Contents (Elt F) → (⟨S1x128, .f32⟩ : BufTy).Contents (Elt F)),
    unary main_v251 main_v252 (broadcastInDim S20000x128 ![0, 1] bcast_S1x128_S20000x128_0_1 : (⟨S1x128, .f32⟩ : BufTy).Contents (Elt F) → (⟨S20000x128, .f32⟩ : BufTy).Contents (Elt F)),
    binary main_v250 main_v252 main_v253 (addf : (⟨S20000x128, .f32⟩ : BufTy).Contents (Elt F) → (⟨S20000x128, .f32⟩ : BufTy).Contents (Elt F) → (⟨S20000x128, .f32⟩ : BufTy).Contents (Elt F)),
    binary main_v12 main_v253 main_v254 (addf : (⟨S20000x128, .f32⟩ : BufTy).Contents (Elt F) → (⟨S20000x128, .f32⟩ : BufTy).Contents (Elt F) → (⟨S20000x128, .f32⟩ : BufTy).Contents (Elt F)),
    unary main_arg9 main_v255 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v255 main_v256 rfl shapeCasts_S1x128x128_S128x128,
    unary main_arg10 main_v257 ((extractStridedSlice S1x128 ![4, 0] · slices_S6x128_S1x128_4_0) : (⟨S6x128, .f32⟩ : BufTy).Contents (Elt F) → (⟨S1x128, .f32⟩ : BufTy).Contents (Elt F)),
    reshape main_v257 main_v258 rfl shapeCasts_S1x128_S128,
    unary main_arg21 main_v259 ((extractStridedSlice S1x500000 ![0, 0] · slices_S2x500000_S1x500000_0_0) : (⟨S2x500000, .i32⟩ : BufTy).Contents (Elt F) → (⟨S1x500000, .i32⟩ : BufTy).Contents (Elt F)),
    reshape main_v259 main_v260 rfl shapeCasts_S1x500000_S500000,
    unary main_arg21 main_v261 ((extractStridedSlice S1x500000 ![1, 0] · slices_S2x500000_S1x500000_1_0) : (⟨S2x500000, .i32⟩ : BufTy).Contents (Elt F) → (⟨S1x500000, .i32⟩ : BufTy).Contents (Elt F)),
    reshape main_v261 main_v262 rfl shapeCasts_S1x500000_S500000,
    nullary main_cst_65 (constant S_ .f32 0x3F800000#32),
    unary main_cst_65 main_v263 (broadcastInDim S500000 ![] bcast_S_S500000 : (⟨S_, .f32⟩ : BufTy).Contents (Elt F) → (⟨S500000, .f32⟩ : BufTy).Contents (Elt F)),
    nullary main_cst_66 (constant S_ .f32 0x00000000#32),
    unary main_cst_66 main_v264 (broadcastInDim S60000 ![] bcast_S_S60000 : (⟨S_, .f32⟩ : BufTy).Contents (Elt F) → (⟨S60000, .f32⟩ : BufTy).Contents (Elt F)),
    unary main_v260 main_v265 (broadcastInDim S500000x1 ![0] bcast_S500000_S500000x1_0 : (⟨S500000, .i32⟩ : BufTy).Contents (Elt F) → (⟨S500000x1, .i32⟩ : BufTy).Contents (Elt F)),
    ternary main_v264 main_v265 main_v263 main_v266 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_67 (constant S_ .f32 0x00000000#32),
    unary main_cst_67 main_v267 (broadcastInDim S20000 ![] bcast_S_S20000 : (⟨S_, .f32⟩ : BufTy).Contents (Elt F) → (⟨S20000, .f32⟩ : BufTy).Contents (Elt F)),
    unary main_v262 main_v268 (broadcastInDim S500000x1 ![0] bcast_S500000_S500000x1_0 : (⟨S500000, .i32⟩ : BufTy).Contents (Elt F) → (⟨S500000x1, .i32⟩ : BufTy).Contents (Elt F)),
    ternary main_v267 main_v268 main_v263 main_v269 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_68 (constant S_ .f32 0x00000000#32),
    unary main_cst_68 main_v270 (broadcastInDim S60000 ![] bcast_S_S60000 : (⟨S_, .f32⟩ : BufTy).Contents (Elt F) → (⟨S60000, .f32⟩ : BufTy).Contents (Elt F)),
    binary main_v266 main_v270 main_v271 (cmpf .ogt : (⟨S60000, .f32⟩ : BufTy).Contents (Elt F) → (⟨S60000, .f32⟩ : BufTy).Contents (Elt F) → (⟨S60000, .i1⟩ : BufTy).Contents (Elt F)),
    nullary main_cst_69 (constant S_ .f32 0x3F800000#32),
    unary main_cst_69 main_v272 (broadcastInDim S60000 ![] bcast_S_S60000 : (⟨S_, .f32⟩ : BufTy).Contents (Elt F) → (⟨S60000, .f32⟩ : BufTy).Contents (Elt F)),
    binary main_v266 main_v272 main_v273 (maximumf : (⟨S60000, .f32⟩ : BufTy).Contents (Elt F) → (⟨S60000, .f32⟩ : BufTy).Contents (Elt F) → (⟨S60000, .f32⟩ : BufTy).Contents (Elt F)),
    unary main_v273 main_v274 (Host.rsqrt : (⟨S60000, .f32⟩ : BufTy).Contents (Elt F) → (⟨S60000, .f32⟩ : BufTy).Contents (Elt F)),
    nullary main_cst_70 (constant S_ .f32 0x00000000#32),
    TRef.unary (TRef.of (T := ⟨S_, .f32⟩) main_cst_70) (TRef.of (T := ⟨S_, .f32⟩) main_call8_v0) id,
    TRef.unary (TRef.of (T := ⟨S_, .f32⟩) main_call8_v0) (TRef.of (T := ⟨S60000, .f32⟩) main_call8_v1) (broadcastInDim S60000 ![] bcast_S_S60000),
    TRef.ternary (TRef.of (T := ⟨S60000, .i1⟩) main_v271) (TRef.of (T := ⟨S60000, .f32⟩) main_v274) (TRef.of (T := ⟨S60000, .f32⟩) main_call8_v1) (TRef.of (T := ⟨S60000, .f32⟩) main_v275) select,
    nullary main_cst_71 (constant S_ .f32 0x00000000#32),
    unary main_cst_71 main_v276 (broadcastInDim S20000 ![] bcast_S_S20000 : (⟨S_, .f32⟩ : BufTy).Contents (Elt F) → (⟨S20000, .f32⟩ : BufTy).Contents (Elt F)),
    binary main_v269 main_v276 main_v277 (cmpf .ogt : (⟨S20000, .f32⟩ : BufTy).Contents (Elt F) → (⟨S20000, .f32⟩ : BufTy).Contents (Elt F) → (⟨S20000, .i1⟩ : BufTy).Contents (Elt F)),
    nullary main_cst_72 (constant S_ .f32 0x3F800000#32),
    unary main_cst_72 main_v278 (broadcastInDim S20000 ![] bcast_S_S20000 : (⟨S_, .f32⟩ : BufTy).Contents (Elt F) → (⟨S20000, .f32⟩ : BufTy).Contents (Elt F)),
    binary main_v269 main_v278 main_v279 (maximumf : (⟨S20000, .f32⟩ : BufTy).Contents (Elt F) → (⟨S20000, .f32⟩ : BufTy).Contents (Elt F) → (⟨S20000, .f32⟩ : BufTy).Contents (Elt F)),
    unary main_v279 main_v280 (Host.rsqrt : (⟨S20000, .f32⟩ : BufTy).Contents (Elt F) → (⟨S20000, .f32⟩ : BufTy).Contents (Elt F)),
    nullary main_cst_73 (constant S_ .f32 0x00000000#32),
    TRef.unary (TRef.of (T := ⟨S_, .f32⟩) main_cst_73) (TRef.of (T := ⟨S_, .f32⟩) main_call9_v0) id,
    TRef.unary (TRef.of (T := ⟨S_, .f32⟩) main_call9_v0) (TRef.of (T := ⟨S20000, .f32⟩) main_call9_v1) (broadcastInDim S20000 ![] bcast_S_S20000),
    TRef.ternary (TRef.of (T := ⟨S20000, .i1⟩) main_v277) (TRef.of (T := ⟨S20000, .f32⟩) main_v280) (TRef.of (T := ⟨S20000, .f32⟩) main_call9_v1) (TRef.of (T := ⟨S20000, .f32⟩) main_v281) select,
    binary main_v7 main_v256 main_v282 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    nullary main_c_74 (constantI S_ 32 0#32) ]

set_option maxRecDepth 8192 in
set_option maxHeartbeats 4000000 in
/-- The window is the line of its operations (a call unfolds to its callee's operations). -/
theorem main_part5_eq (c : Dev nD) : main_part5 (F := F) c = seq wops_5 := rfl

end Cert.ReferenceIdeal.Hand

end
-- ==== Proof.Ref.Win_6.lean ====
/- Window 6 of the reference's @main is the straight line of its operations 380 … 439. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 380 … 439 of @main (window 6), in program order. -/
abbrev wops_6 : List (HloOp τ sig (Elt F)) :=
  [ unary main_c_74 main_v283 (broadcastInDim S500000 ![] bcast_S_S500000 : (⟨S_, .i32⟩ : BufTy).Contents (Elt F) → (⟨S500000, .i32⟩ : BufTy).Contents (Elt F)),
    binary main_v260 main_v283 main_v284 (cmpi .slt : (⟨S500000, .i32⟩ : BufTy).Contents (Elt F) → (⟨S500000, .i32⟩ : BufTy).Contents (Elt F) → (⟨S500000, .i1⟩ : BufTy).Contents (Elt F)),
    nullary main_c_75 (constantI S_ 32 60000#32),
    unary main_c_75 main_v285 (broadcastInDim S500000 ![] bcast_S_S500000 : (⟨S_, .i32⟩ : BufTy).Contents (Elt F) → (⟨S500000, .i32⟩ : BufTy).Contents (Elt F)),
    binary main_v260 main_v285 main_v286 (addi : (⟨S500000, .i32⟩ : BufTy).Contents (Elt F) → (⟨S500000, .i32⟩ : BufTy).Contents (Elt F) → (⟨S500000, .i32⟩ : BufTy).Contents (Elt F)),
    ternary main_v284 main_v286 main_v260 main_v287 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v287 main_v288 (broadcastInDim S500000x1 ![0] bcast_S500000_S500000x1_0 : (⟨S500000, .i32⟩ : BufTy).Contents (Elt F) → (⟨S500000x1, .i32⟩ : BufTy).Contents (Elt F)),
    binary main_v275 main_v288 main_v289 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    nullary main_c_76 (constantI S_ 32 0#32),
    unary main_c_76 main_v290 (broadcastInDim S500000 ![] bcast_S_S500000 : (⟨S_, .i32⟩ : BufTy).Contents (Elt F) → (⟨S500000, .i32⟩ : BufTy).Contents (Elt F)),
    binary main_v262 main_v290 main_v291 (cmpi .slt : (⟨S500000, .i32⟩ : BufTy).Contents (Elt F) → (⟨S500000, .i32⟩ : BufTy).Contents (Elt F) → (⟨S500000, .i1⟩ : BufTy).Contents (Elt F)),
    nullary main_c_77 (constantI S_ 32 20000#32),
    unary main_c_77 main_v292 (broadcastInDim S500000 ![] bcast_S_S500000 : (⟨S_, .i32⟩ : BufTy).Contents (Elt F) → (⟨S500000, .i32⟩ : BufTy).Contents (Elt F)),
    binary main_v262 main_v292 main_v293 (addi : (⟨S500000, .i32⟩ : BufTy).Contents (Elt F) → (⟨S500000, .i32⟩ : BufTy).Contents (Elt F) → (⟨S500000, .i32⟩ : BufTy).Contents (Elt F)),
    ternary main_v291 main_v293 main_v262 main_v294 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v294 main_v295 (broadcastInDim S500000x1 ![0] bcast_S500000_S500000x1_0 : (⟨S500000, .i32⟩ : BufTy).Contents (Elt F) → (⟨S500000x1, .i32⟩ : BufTy).Contents (Elt F)),
    binary main_v281 main_v295 main_v296 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v289 main_v296 main_v297 (mulf : (⟨S500000, .f32⟩ : BufTy).Contents (Elt F) → (⟨S500000, .f32⟩ : BufTy).Contents (Elt F) → (⟨S500000, .f32⟩ : BufTy).Contents (Elt F)),
    nullary main_c_78 (constantI S_ 32 0#32),
    unary main_c_78 main_v298 (broadcastInDim S500000 ![] bcast_S_S500000 : (⟨S_, .i32⟩ : BufTy).Contents (Elt F) → (⟨S500000, .i32⟩ : BufTy).Contents (Elt F)),
    binary main_v260 main_v298 main_v299 (cmpi .slt : (⟨S500000, .i32⟩ : BufTy).Contents (Elt F) → (⟨S500000, .i32⟩ : BufTy).Contents (Elt F) → (⟨S500000, .i1⟩ : BufTy).Contents (Elt F)),
    nullary main_c_79 (constantI S_ 32 60000#32),
    unary main_c_79 main_v300 (broadcastInDim S500000 ![] bcast_S_S500000 : (⟨S_, .i32⟩ : BufTy).Contents (Elt F) → (⟨S500000, .i32⟩ : BufTy).Contents (Elt F)),
    binary main_v260 main_v300 main_v301 (addi : (⟨S500000, .i32⟩ : BufTy).Contents (Elt F) → (⟨S500000, .i32⟩ : BufTy).Contents (Elt F) → (⟨S500000, .i32⟩ : BufTy).Contents (Elt F)),
    ternary main_v299 main_v301 main_v260 main_v302 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v302 main_v303 (broadcastInDim S500000x1 ![0] bcast_S500000_S500000x1_0 : (⟨S500000, .i32⟩ : BufTy).Contents (Elt F) → (⟨S500000x1, .i32⟩ : BufTy).Contents (Elt F)),
    binary main_v282 main_v303 main_v304 ((fun x i => Host.gather gather_S60000x128_S500000x1_S500000x128_1_0_n_n_0_1_1128 x i) : (⟨S60000x128, .f32⟩ : BufTy).Contents (Elt F) → (⟨S500000x1, .i32⟩ : BufTy).Contents (Elt F) → (⟨S500000x128, .f32⟩ : BufTy).Contents (Elt F)),
    unary main_v297 main_v305 (broadcastInDim S500000x1 ![0] bcast_S500000_S500000x1_0 : (⟨S500000, .f32⟩ : BufTy).Contents (Elt F) → (⟨S500000x1, .f32⟩ : BufTy).Contents (Elt F)),
    unary main_v305 main_v306 (broadcastInDim S500000x128 ![0, 1] bcast_S500000x1_S500000x128_0_1 : (⟨S500000x1, .f32⟩ : BufTy).Contents (Elt F) → (⟨S500000x128, .f32⟩ : BufTy).Contents (Elt F)),
    binary main_v304 main_v306 main_v307 (mulf : (⟨S500000x128, .f32⟩ : BufTy).Contents (Elt F) → (⟨S500000x128, .f32⟩ : BufTy).Contents (Elt F) → (⟨S500000x128, .f32⟩ : BufTy).Contents (Elt F)),
    nullary main_cst_80 (constant S_ .f32 0x00000000#32),
    unary main_cst_80 main_v308 (broadcastInDim S20000x128 ![] bcast_S_S20000x128 : (⟨S_, .f32⟩ : BufTy).Contents (Elt F) → (⟨S20000x128, .f32⟩ : BufTy).Contents (Elt F)),
    unary main_v262 main_v309 (broadcastInDim S500000x1 ![0] bcast_S500000_S500000x1_0 : (⟨S500000, .i32⟩ : BufTy).Contents (Elt F) → (⟨S500000x1, .i32⟩ : BufTy).Contents (Elt F)),
    ternary main_v308 main_v309 main_v307 main_v310 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    unary main_v258 main_v311 (broadcastInDim S1x128 ![1] bcast_S128_S1x128_1 : (⟨S128, .f32⟩ : BufTy).Contents (Elt F) → (⟨S1x128, .f32⟩ : BufTy).Contents (Elt F)),
    unary main_v311 main_v312 (broadcastInDim S20000x128 ![0, 1] bcast_S1x128_S20000x128_0_1 : (⟨S1x128, .f32⟩ : BufTy).Contents (Elt F) → (⟨S20000x128, .f32⟩ : BufTy).Contents (Elt F)),
    binary main_v310 main_v312 main_v313 (addf : (⟨S20000x128, .f32⟩ : BufTy).Contents (Elt F) → (⟨S20000x128, .f32⟩ : BufTy).Contents (Elt F) → (⟨S20000x128, .f32⟩ : BufTy).Contents (Elt F)),
    binary main_v254 main_v313 main_v314 (addf : (⟨S20000x128, .f32⟩ : BufTy).Contents (Elt F) → (⟨S20000x128, .f32⟩ : BufTy).Contents (Elt F) → (⟨S20000x128, .f32⟩ : BufTy).Contents (Elt F)),
    unary main_arg9 main_v315 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v315 main_v316 rfl shapeCasts_S1x128x128_S128x128,
    unary main_arg10 main_v317 ((extractStridedSlice S1x128 ![5, 0] · slices_S6x128_S1x128_5_0) : (⟨S6x128, .f32⟩ : BufTy).Contents (Elt F) → (⟨S1x128, .f32⟩ : BufTy).Contents (Elt F)),
    reshape main_v317 main_v318 rfl shapeCasts_S1x128_S128,
    unary main_arg22 main_v319 ((extractStridedSlice S1x500000 ![0, 0] · slices_S2x500000_S1x500000_0_0) : (⟨S2x500000, .i32⟩ : BufTy).Contents (Elt F) → (⟨S1x500000, .i32⟩ : BufTy).Contents (Elt F)),
    reshape main_v319 main_v320 rfl shapeCasts_S1x500000_S500000,
    unary main_arg22 main_v321 ((extractStridedSlice S1x500000 ![1, 0] · slices_S2x500000_S1x500000_1_0) : (⟨S2x500000, .i32⟩ : BufTy).Contents (Elt F) → (⟨S1x500000, .i32⟩ : BufTy).Contents (Elt F)),
    reshape main_v321 main_v322 rfl shapeCasts_S1x500000_S500000,
    nullary main_cst_81 (constant S_ .f32 0x3F800000#32),
    unary main_cst_81 main_v323 (broadcastInDim S500000 ![] bcast_S_S500000 : (⟨S_, .f32⟩ : BufTy).Contents (Elt F) → (⟨S500000, .f32⟩ : BufTy).Contents (Elt F)),
    nullary main_cst_82 (constant S_ .f32 0x00000000#32),
    unary main_cst_82 main_v324 (broadcastInDim S20000 ![] bcast_S_S20000 : (⟨S_, .f32⟩ : BufTy).Contents (Elt F) → (⟨S20000, .f32⟩ : BufTy).Contents (Elt F)),
    unary main_v320 main_v325 (broadcastInDim S500000x1 ![0] bcast_S500000_S500000x1_0 : (⟨S500000, .i32⟩ : BufTy).Contents (Elt F) → (⟨S500000x1, .i32⟩ : BufTy).Contents (Elt F)),
    ternary main_v324 main_v325 main_v323 main_v326 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_83 (constant S_ .f32 0x00000000#32),
    unary main_cst_83 main_v327 (broadcastInDim S60000 ![] bcast_S_S60000 : (⟨S_, .f32⟩ : BufTy).Contents (Elt F) → (⟨S60000, .f32⟩ : BufTy).Contents (Elt F)),
    unary main_v322 main_v328 (broadcastInDim S500000x1 ![0] bcast_S500000_S500000x1_0 : (⟨S500000, .i32⟩ : BufTy).Contents (Elt F) → (⟨S500000x1, .i32⟩ : BufTy).Contents (Elt F)),
    ternary main_v327 main_v328 main_v323 main_v329 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_84 (constant S_ .f32 0x00000000#32),
    unary main_cst_84 main_v330 (broadcastInDim S20000 ![] bcast_S_S20000 : (⟨S_, .f32⟩ : BufTy).Contents (Elt F) → (⟨S20000, .f32⟩ : BufTy).Contents (Elt F)),
    binary main_v326 main_v330 main_v331 (cmpf .ogt : (⟨S20000, .f32⟩ : BufTy).Contents (Elt F) → (⟨S20000, .f32⟩ : BufTy).Contents (Elt F) → (⟨S20000, .i1⟩ : BufTy).Contents (Elt F)),
    nullary main_cst_85 (constant S_ .f32 0x3F800000#32) ]

set_option maxRecDepth 8192 in
set_option maxHeartbeats 4000000 in
/-- The window is the line of its operations (a call unfolds to its callee's operations). -/
theorem main_part6_eq (c : Dev nD) : main_part6 (F := F) c = seq wops_6 := rfl

end Cert.ReferenceIdeal.Hand

end
-- ==== Proof.Ref.Win_7.lean ====
/- Window 7 of the reference's @main is the straight line of its operations 440 … 503. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 440 … 503 of @main (window 7), in program order. -/
abbrev wops_7 : List (HloOp τ sig (Elt F)) :=
  [ unary main_cst_85 main_v332 (broadcastInDim S20000 ![] bcast_S_S20000 : (⟨S_, .f32⟩ : BufTy).Contents (Elt F) → (⟨S20000, .f32⟩ : BufTy).Contents (Elt F)),
    binary main_v326 main_v332 main_v333 (maximumf : (⟨S20000, .f32⟩ : BufTy).Contents (Elt F) → (⟨S20000, .f32⟩ : BufTy).Contents (Elt F) → (⟨S20000, .f32⟩ : BufTy).Contents (Elt F)),
    unary main_v333 main_v334 (Host.rsqrt : (⟨S20000, .f32⟩ : BufTy).Contents (Elt F) → (⟨S20000, .f32⟩ : BufTy).Contents (Elt F)),
    nullary main_cst_86 (constant S_ .f32 0x00000000#32),
    TRef.unary (TRef.of (T := ⟨S_, .f32⟩) main_cst_86) (TRef.of (T := ⟨S_, .f32⟩) main_call10_v0) id,
    TRef.unary (TRef.of (T := ⟨S_, .f32⟩) main_call10_v0) (TRef.of (T := ⟨S20000, .f32⟩) main_call10_v1) (broadcastInDim S20000 ![] bcast_S_S20000),
    TRef.ternary (TRef.of (T := ⟨S20000, .i1⟩) main_v331) (TRef.of (T := ⟨S20000, .f32⟩) main_v334) (TRef.of (T := ⟨S20000, .f32⟩) main_call10_v1) (TRef.of (T := ⟨S20000, .f32⟩) main_v335) select,
    nullary main_cst_87 (constant S_ .f32 0x00000000#32),
    unary main_cst_87 main_v336 (broadcastInDim S60000 ![] bcast_S_S60000 : (⟨S_, .f32⟩ : BufTy).Contents (Elt F) → (⟨S60000, .f32⟩ : BufTy).Contents (Elt F)),
    binary main_v329 main_v336 main_v337 (cmpf .ogt : (⟨S60000, .f32⟩ : BufTy).Contents (Elt F) → (⟨S60000, .f32⟩ : BufTy).Contents (Elt F) → (⟨S60000, .i1⟩ : BufTy).Contents (Elt F)),
    nullary main_cst_88 (constant S_ .f32 0x3F800000#32),
    unary main_cst_88 main_v338 (broadcastInDim S60000 ![] bcast_S_S60000 : (⟨S_, .f32⟩ : BufTy).Contents (Elt F) → (⟨S60000, .f32⟩ : BufTy).Contents (Elt F)),
    binary main_v329 main_v338 main_v339 (maximumf : (⟨S60000, .f32⟩ : BufTy).Contents (Elt F) → (⟨S60000, .f32⟩ : BufTy).Contents (Elt F) → (⟨S60000, .f32⟩ : BufTy).Contents (Elt F)),
    unary main_v339 main_v340 (Host.rsqrt : (⟨S60000, .f32⟩ : BufTy).Contents (Elt F) → (⟨S60000, .f32⟩ : BufTy).Contents (Elt F)),
    nullary main_cst_89 (constant S_ .f32 0x00000000#32),
    TRef.unary (TRef.of (T := ⟨S_, .f32⟩) main_cst_89) (TRef.of (T := ⟨S_, .f32⟩) main_call11_v0) id,
    TRef.unary (TRef.of (T := ⟨S_, .f32⟩) main_call11_v0) (TRef.of (T := ⟨S60000, .f32⟩) main_call11_v1) (broadcastInDim S60000 ![] bcast_S_S60000),
    TRef.ternary (TRef.of (T := ⟨S60000, .i1⟩) main_v337) (TRef.of (T := ⟨S60000, .f32⟩) main_v340) (TRef.of (T := ⟨S60000, .f32⟩) main_call11_v1) (TRef.of (T := ⟨S60000, .f32⟩) main_v341) select,
    binary main_v11 main_v316 main_v342 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_c_90 (constantI S_ 32 0#32),
    unary main_c_90 main_v343 (broadcastInDim S500000 ![] bcast_S_S500000 : (⟨S_, .i32⟩ : BufTy).Contents (Elt F) → (⟨S500000, .i32⟩ : BufTy).Contents (Elt F)),
    binary main_v320 main_v343 main_v344 (cmpi .slt : (⟨S500000, .i32⟩ : BufTy).Contents (Elt F) → (⟨S500000, .i32⟩ : BufTy).Contents (Elt F) → (⟨S500000, .i1⟩ : BufTy).Contents (Elt F)),
    nullary main_c_91 (constantI S_ 32 20000#32),
    unary main_c_91 main_v345 (broadcastInDim S500000 ![] bcast_S_S500000 : (⟨S_, .i32⟩ : BufTy).Contents (Elt F) → (⟨S500000, .i32⟩ : BufTy).Contents (Elt F)),
    binary main_v320 main_v345 main_v346 (addi : (⟨S500000, .i32⟩ : BufTy).Contents (Elt F) → (⟨S500000, .i32⟩ : BufTy).Contents (Elt F) → (⟨S500000, .i32⟩ : BufTy).Contents (Elt F)),
    ternary main_v344 main_v346 main_v320 main_v347 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v347 main_v348 (broadcastInDim S500000x1 ![0] bcast_S500000_S500000x1_0 : (⟨S500000, .i32⟩ : BufTy).Contents (Elt F) → (⟨S500000x1, .i32⟩ : BufTy).Contents (Elt F)),
    binary main_v335 main_v348 main_v349 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_92 (constantI S_ 32 0#32),
    unary main_c_92 main_v350 (broadcastInDim S500000 ![] bcast_S_S500000 : (⟨S_, .i32⟩ : BufTy).Contents (Elt F) → (⟨S500000, .i32⟩ : BufTy).Contents (Elt F)),
    binary main_v322 main_v350 main_v351 (cmpi .slt : (⟨S500000, .i32⟩ : BufTy).Contents (Elt F) → (⟨S500000, .i32⟩ : BufTy).Contents (Elt F) → (⟨S500000, .i1⟩ : BufTy).Contents (Elt F)),
    nullary main_c_93 (constantI S_ 32 60000#32),
    unary main_c_93 main_v352 (broadcastInDim S500000 ![] bcast_S_S500000 : (⟨S_, .i32⟩ : BufTy).Contents (Elt F) → (⟨S500000, .i32⟩ : BufTy).Contents (Elt F)),
    binary main_v322 main_v352 main_v353 (addi : (⟨S500000, .i32⟩ : BufTy).Contents (Elt F) → (⟨S500000, .i32⟩ : BufTy).Contents (Elt F) → (⟨S500000, .i32⟩ : BufTy).Contents (Elt F)),
    ternary main_v351 main_v353 main_v322 main_v354 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v354 main_v355 (broadcastInDim S500000x1 ![0] bcast_S500000_S500000x1_0 : (⟨S500000, .i32⟩ : BufTy).Contents (Elt F) → (⟨S500000x1, .i32⟩ : BufTy).Contents (Elt F)),
    binary main_v341 main_v355 main_v356 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    binary main_v349 main_v356 main_v357 (mulf : (⟨S500000, .f32⟩ : BufTy).Contents (Elt F) → (⟨S500000, .f32⟩ : BufTy).Contents (Elt F) → (⟨S500000, .f32⟩ : BufTy).Contents (Elt F)),
    nullary main_c_94 (constantI S_ 32 0#32),
    unary main_c_94 main_v358 (broadcastInDim S500000 ![] bcast_S_S500000 : (⟨S_, .i32⟩ : BufTy).Contents (Elt F) → (⟨S500000, .i32⟩ : BufTy).Contents (Elt F)),
    binary main_v320 main_v358 main_v359 (cmpi .slt : (⟨S500000, .i32⟩ : BufTy).Contents (Elt F) → (⟨S500000, .i32⟩ : BufTy).Contents (Elt F) → (⟨S500000, .i1⟩ : BufTy).Contents (Elt F)),
    nullary main_c_95 (constantI S_ 32 20000#32),
    unary main_c_95 main_v360 (broadcastInDim S500000 ![] bcast_S_S500000 : (⟨S_, .i32⟩ : BufTy).Contents (Elt F) → (⟨S500000, .i32⟩ : BufTy).Contents (Elt F)),
    binary main_v320 main_v360 main_v361 (addi : (⟨S500000, .i32⟩ : BufTy).Contents (Elt F) → (⟨S500000, .i32⟩ : BufTy).Contents (Elt F) → (⟨S500000, .i32⟩ : BufTy).Contents (Elt F)),
    ternary main_v359 main_v361 main_v320 main_v362 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v362 main_v363 (broadcastInDim S500000x1 ![0] bcast_S500000_S500000x1_0 : (⟨S500000, .i32⟩ : BufTy).Contents (Elt F) → (⟨S500000x1, .i32⟩ : BufTy).Contents (Elt F)),
    binary main_v342 main_v363 main_v364 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    unary main_v357 main_v365 (broadcastInDim S500000x1 ![0] bcast_S500000_S500000x1_0 : (⟨S500000, .f32⟩ : BufTy).Contents (Elt F) → (⟨S500000x1, .f32⟩ : BufTy).Contents (Elt F)),
    unary main_v365 main_v366 (broadcastInDim S500000x128 ![0, 1] bcast_S500000x1_S500000x128_0_1 : (⟨S500000x1, .f32⟩ : BufTy).Contents (Elt F) → (⟨S500000x128, .f32⟩ : BufTy).Contents (Elt F)),
    binary main_v364 main_v366 main_v367 (mulf : (⟨S500000x128, .f32⟩ : BufTy).Contents (Elt F) → (⟨S500000x128, .f32⟩ : BufTy).Contents (Elt F) → (⟨S500000x128, .f32⟩ : BufTy).Contents (Elt F)),
    nullary main_cst_96 (constant S_ .f32 0x00000000#32),
    unary main_cst_96 main_v368 (broadcastInDim S60000x128 ![] bcast_S_S60000x128 : (⟨S_, .f32⟩ : BufTy).Contents (Elt F) → (⟨S60000x128, .f32⟩ : BufTy).Contents (Elt F)),
    unary main_v322 main_v369 (broadcastInDim S500000x1 ![0] bcast_S500000_S500000x1_0 : (⟨S500000, .i32⟩ : BufTy).Contents (Elt F) → (⟨S500000x1, .i32⟩ : BufTy).Contents (Elt F)),
    ternary main_v368 main_v369 main_v367 main_v370 ((fun x i u => Host.scatterAdd scatter_S60000x128_S500000x1_S500000x128_1_0_0_1 x i u) : (⟨S60000x128, .f32⟩ : BufTy).Contents (Elt F) → (⟨S500000x1, .i32⟩ : BufTy).Contents (Elt F) → (⟨S500000x128, .f32⟩ : BufTy).Contents (Elt F) → (⟨S60000x128, .f32⟩ : BufTy).Contents (Elt F)),
    unary main_v318 main_v371 (broadcastInDim S1x128 ![1] bcast_S128_S1x128_1 : (⟨S128, .f32⟩ : BufTy).Contents (Elt F) → (⟨S1x128, .f32⟩ : BufTy).Contents (Elt F)),
    unary main_v371 main_v372 (broadcastInDim S60000x128 ![0, 1] bcast_S1x128_S60000x128_0_1 : (⟨S1x128, .f32⟩ : BufTy).Contents (Elt F) → (⟨S60000x128, .f32⟩ : BufTy).Contents (Elt F)),
    binary main_v370 main_v372 main_v373 (addf : (⟨S60000x128, .f32⟩ : BufTy).Contents (Elt F) → (⟨S60000x128, .f32⟩ : BufTy).Contents (Elt F) → (⟨S60000x128, .f32⟩ : BufTy).Contents (Elt F)),
    binary main_v134 main_v373 main_v374 (addf : (⟨S60000x128, .f32⟩ : BufTy).Contents (Elt F) → (⟨S60000x128, .f32⟩ : BufTy).Contents (Elt F) → (⟨S60000x128, .f32⟩ : BufTy).Contents (Elt F)),
    unary main_arg13 main_v375 ((extractStridedSlice S1x128 ![0, 0] · slices_S3x128_S1x128_0_0) : (⟨S3x128, .f32⟩ : BufTy).Contents (Elt F) → (⟨S1x128, .f32⟩ : BufTy).Contents (Elt F)),
    reshape main_v375 main_v376 rfl shapeCasts_S1x128_S128,
    unary main_arg14 main_v377 ((extractStridedSlice S1x128 ![0, 0] · slices_S3x128_S1x128_0_0) : (⟨S3x128, .f32⟩ : BufTy).Contents (Elt F) → (⟨S1x128, .f32⟩ : BufTy).Contents (Elt F)),
    reshape main_v377 main_v378 rfl shapeCasts_S1x128_S128,
    nullary main_cst_97 (constant S_ .f32 0x00000000#32),
    binary main_v314 main_cst_97 main_v379 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)) ]

set_option maxRecDepth 8192 in
set_option maxHeartbeats 4000000 in
/-- The window is the line of its operations (a call unfolds to its callee's operations). -/
theorem main_part7_eq (c : Dev nD) : main_part7 (F := F) c = seq wops_7 := rfl

end Cert.ReferenceIdeal.Hand

end
-- ==== Proof.Ref.Win_8.lean ====
/- Window 8 of the reference's @main is the straight line of its operations 504 … 563. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 504 … 563 of @main (window 8), in program order. -/
abbrev wops_8 : List (HloOp τ sig (Elt F)) :=
  [ unary main_v379 main_v380 (broadcastInDim S20000x1 ![0] bcast_S20000_S20000x1_0 : (⟨S20000, .f32⟩ : BufTy).Contents (Elt F) → (⟨S20000x1, .f32⟩ : BufTy).Contents (Elt F)),
    nullary main_cst_98 (constant S_ .f32 0x43000000#32),
    unary main_cst_98 main_v381 (broadcastInDim S20000x1 ![] bcast_S_S20000x1 : (⟨S_, .f32⟩ : BufTy).Contents (Elt F) → (⟨S20000x1, .f32⟩ : BufTy).Contents (Elt F)),
    binary main_v380 main_v381 main_v382 (Host.divf : (⟨S20000x1, .f32⟩ : BufTy).Contents (Elt F) → (⟨S20000x1, .f32⟩ : BufTy).Contents (Elt F) → (⟨S20000x1, .f32⟩ : BufTy).Contents (Elt F)),
    unary main_v382 main_v383 (broadcastInDim S20000x128 ![0, 1] bcast_S20000x1_S20000x128_0_1 : (⟨S20000x1, .f32⟩ : BufTy).Contents (Elt F) → (⟨S20000x128, .f32⟩ : BufTy).Contents (Elt F)),
    binary main_v314 main_v383 main_v384 (subf : (⟨S20000x128, .f32⟩ : BufTy).Contents (Elt F) → (⟨S20000x128, .f32⟩ : BufTy).Contents (Elt F) → (⟨S20000x128, .f32⟩ : BufTy).Contents (Elt F)),
    binary main_v384 main_v384 main_v385 (mulf : (⟨S20000x128, .f32⟩ : BufTy).Contents (Elt F) → (⟨S20000x128, .f32⟩ : BufTy).Contents (Elt F) → (⟨S20000x128, .f32⟩ : BufTy).Contents (Elt F)),
    nullary main_cst_99 (constant S_ .f32 0x00000000#32),
    binary main_v385 main_cst_99 main_v386 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v386 main_v387 (broadcastInDim S20000x1 ![0] bcast_S20000_S20000x1_0 : (⟨S20000, .f32⟩ : BufTy).Contents (Elt F) → (⟨S20000x1, .f32⟩ : BufTy).Contents (Elt F)),
    nullary main_cst_100 (constant S_ .f32 0x43000000#32),
    unary main_cst_100 main_v388 (broadcastInDim S20000x1 ![] bcast_S_S20000x1 : (⟨S_, .f32⟩ : BufTy).Contents (Elt F) → (⟨S20000x1, .f32⟩ : BufTy).Contents (Elt F)),
    binary main_v387 main_v388 main_v389 (Host.divf : (⟨S20000x1, .f32⟩ : BufTy).Contents (Elt F) → (⟨S20000x1, .f32⟩ : BufTy).Contents (Elt F) → (⟨S20000x1, .f32⟩ : BufTy).Contents (Elt F)),
    unary main_v382 main_v390 (broadcastInDim S20000x128 ![0, 1] bcast_S20000x1_S20000x128_0_1 : (⟨S20000x1, .f32⟩ : BufTy).Contents (Elt F) → (⟨S20000x128, .f32⟩ : BufTy).Contents (Elt F)),
    binary main_v314 main_v390 main_v391 (subf : (⟨S20000x128, .f32⟩ : BufTy).Contents (Elt F) → (⟨S20000x128, .f32⟩ : BufTy).Contents (Elt F) → (⟨S20000x128, .f32⟩ : BufTy).Contents (Elt F)),
    nullary main_cst_101 (constant S_ .f32 0x3727C5AC#32),
    unary main_cst_101 main_v392 (broadcastInDim S20000x1 ![] bcast_S_S20000x1 : (⟨S_, .f32⟩ : BufTy).Contents (Elt F) → (⟨S20000x1, .f32⟩ : BufTy).Contents (Elt F)),
    binary main_v389 main_v392 main_v393 (addf : (⟨S20000x1, .f32⟩ : BufTy).Contents (Elt F) → (⟨S20000x1, .f32⟩ : BufTy).Contents (Elt F) → (⟨S20000x1, .f32⟩ : BufTy).Contents (Elt F)),
    unary main_v393 main_v394 (Host.rsqrt : (⟨S20000x1, .f32⟩ : BufTy).Contents (Elt F) → (⟨S20000x1, .f32⟩ : BufTy).Contents (Elt F)),
    unary main_v394 main_v395 (broadcastInDim S20000x128 ![0, 1] bcast_S20000x1_S20000x128_0_1 : (⟨S20000x1, .f32⟩ : BufTy).Contents (Elt F) → (⟨S20000x128, .f32⟩ : BufTy).Contents (Elt F)),
    binary main_v391 main_v395 main_v396 (mulf : (⟨S20000x128, .f32⟩ : BufTy).Contents (Elt F) → (⟨S20000x128, .f32⟩ : BufTy).Contents (Elt F) → (⟨S20000x128, .f32⟩ : BufTy).Contents (Elt F)),
    unary main_v376 main_v397 (broadcastInDim S1x128 ![1] bcast_S128_S1x128_1 : (⟨S128, .f32⟩ : BufTy).Contents (Elt F) → (⟨S1x128, .f32⟩ : BufTy).Contents (Elt F)),
    unary main_v397 main_v398 (broadcastInDim S20000x128 ![0, 1] bcast_S1x128_S20000x128_0_1 : (⟨S1x128, .f32⟩ : BufTy).Contents (Elt F) → (⟨S20000x128, .f32⟩ : BufTy).Contents (Elt F)),
    binary main_v396 main_v398 main_v399 (mulf : (⟨S20000x128, .f32⟩ : BufTy).Contents (Elt F) → (⟨S20000x128, .f32⟩ : BufTy).Contents (Elt F) → (⟨S20000x128, .f32⟩ : BufTy).Contents (Elt F)),
    unary main_v378 main_v400 (broadcastInDim S1x128 ![1] bcast_S128_S1x128_1 : (⟨S128, .f32⟩ : BufTy).Contents (Elt F) → (⟨S1x128, .f32⟩ : BufTy).Contents (Elt F)),
    unary main_v400 main_v401 (broadcastInDim S20000x128 ![0, 1] bcast_S1x128_S20000x128_0_1 : (⟨S1x128, .f32⟩ : BufTy).Contents (Elt F) → (⟨S20000x128, .f32⟩ : BufTy).Contents (Elt F)),
    binary main_v399 main_v401 main_v402 (addf : (⟨S20000x128, .f32⟩ : BufTy).Contents (Elt F) → (⟨S20000x128, .f32⟩ : BufTy).Contents (Elt F) → (⟨S20000x128, .f32⟩ : BufTy).Contents (Elt F)),
    unary main_arg13 main_v403 ((extractStridedSlice S1x128 ![1, 0] · slices_S3x128_S1x128_1_0) : (⟨S3x128, .f32⟩ : BufTy).Contents (Elt F) → (⟨S1x128, .f32⟩ : BufTy).Contents (Elt F)),
    reshape main_v403 main_v404 rfl shapeCasts_S1x128_S128,
    unary main_arg14 main_v405 ((extractStridedSlice S1x128 ![1, 0] · slices_S3x128_S1x128_1_0) : (⟨S3x128, .f32⟩ : BufTy).Contents (Elt F) → (⟨S1x128, .f32⟩ : BufTy).Contents (Elt F)),
    reshape main_v405 main_v406 rfl shapeCasts_S1x128_S128,
    nullary main_cst_102 (constant S_ .f32 0x00000000#32),
    binary main_v374 main_cst_102 main_v407 ((fun x v => Host.reduceAdd x v reducesTo_S60000x128_S60000_d1 h_S_) : (⟨S60000x128, .f32⟩ : BufTy).Contents (Elt F) → (⟨S_, .f32⟩ : BufTy).Contents (Elt F) → (⟨S60000, .f32⟩ : BufTy).Contents (Elt F)),
    unary main_v407 main_v408 (broadcastInDim S60000x1 ![0] bcast_S60000_S60000x1_0 : (⟨S60000, .f32⟩ : BufTy).Contents (Elt F) → (⟨S60000x1, .f32⟩ : BufTy).Contents (Elt F)),
    nullary main_cst_103 (constant S_ .f32 0x43000000#32),
    unary main_cst_103 main_v409 (broadcastInDim S60000x1 ![] bcast_S_S60000x1 : (⟨S_, .f32⟩ : BufTy).Contents (Elt F) → (⟨S60000x1, .f32⟩ : BufTy).Contents (Elt F)),
    binary main_v408 main_v409 main_v410 (Host.divf : (⟨S60000x1, .f32⟩ : BufTy).Contents (Elt F) → (⟨S60000x1, .f32⟩ : BufTy).Contents (Elt F) → (⟨S60000x1, .f32⟩ : BufTy).Contents (Elt F)),
    unary main_v410 main_v411 (broadcastInDim S60000x128 ![0, 1] bcast_S60000x1_S60000x128_0_1 : (⟨S60000x1, .f32⟩ : BufTy).Contents (Elt F) → (⟨S60000x128, .f32⟩ : BufTy).Contents (Elt F)),
    binary main_v374 main_v411 main_v412 (subf : (⟨S60000x128, .f32⟩ : BufTy).Contents (Elt F) → (⟨S60000x128, .f32⟩ : BufTy).Contents (Elt F) → (⟨S60000x128, .f32⟩ : BufTy).Contents (Elt F)),
    binary main_v412 main_v412 main_v413 (mulf : (⟨S60000x128, .f32⟩ : BufTy).Contents (Elt F) → (⟨S60000x128, .f32⟩ : BufTy).Contents (Elt F) → (⟨S60000x128, .f32⟩ : BufTy).Contents (Elt F)),
    nullary main_cst_104 (constant S_ .f32 0x00000000#32),
    binary main_v413 main_cst_104 main_v414 ((fun x v => Host.reduceAdd x v reducesTo_S60000x128_S60000_d1 h_S_) : (⟨S60000x128, .f32⟩ : BufTy).Contents (Elt F) → (⟨S_, .f32⟩ : BufTy).Contents (Elt F) → (⟨S60000, .f32⟩ : BufTy).Contents (Elt F)),
    unary main_v414 main_v415 (broadcastInDim S60000x1 ![0] bcast_S60000_S60000x1_0 : (⟨S60000, .f32⟩ : BufTy).Contents (Elt F) → (⟨S60000x1, .f32⟩ : BufTy).Contents (Elt F)),
    nullary main_cst_105 (constant S_ .f32 0x43000000#32),
    unary main_cst_105 main_v416 (broadcastInDim S60000x1 ![] bcast_S_S60000x1 : (⟨S_, .f32⟩ : BufTy).Contents (Elt F) → (⟨S60000x1, .f32⟩ : BufTy).Contents (Elt F)),
    binary main_v415 main_v416 main_v417 (Host.divf : (⟨S60000x1, .f32⟩ : BufTy).Contents (Elt F) → (⟨S60000x1, .f32⟩ : BufTy).Contents (Elt F) → (⟨S60000x1, .f32⟩ : BufTy).Contents (Elt F)),
    unary main_v410 main_v418 (broadcastInDim S60000x128 ![0, 1] bcast_S60000x1_S60000x128_0_1 : (⟨S60000x1, .f32⟩ : BufTy).Contents (Elt F) → (⟨S60000x128, .f32⟩ : BufTy).Contents (Elt F)),
    binary main_v374 main_v418 main_v419 (subf : (⟨S60000x128, .f32⟩ : BufTy).Contents (Elt F) → (⟨S60000x128, .f32⟩ : BufTy).Contents (Elt F) → (⟨S60000x128, .f32⟩ : BufTy).Contents (Elt F)),
    nullary main_cst_106 (constant S_ .f32 0x3727C5AC#32),
    unary main_cst_106 main_v420 (broadcastInDim S60000x1 ![] bcast_S_S60000x1 : (⟨S_, .f32⟩ : BufTy).Contents (Elt F) → (⟨S60000x1, .f32⟩ : BufTy).Contents (Elt F)),
    binary main_v417 main_v420 main_v421 (addf : (⟨S60000x1, .f32⟩ : BufTy).Contents (Elt F) → (⟨S60000x1, .f32⟩ : BufTy).Contents (Elt F) → (⟨S60000x1, .f32⟩ : BufTy).Contents (Elt F)),
    unary main_v421 main_v422 (Host.rsqrt : (⟨S60000x1, .f32⟩ : BufTy).Contents (Elt F) → (⟨S60000x1, .f32⟩ : BufTy).Contents (Elt F)),
    unary main_v422 main_v423 (broadcastInDim S60000x128 ![0, 1] bcast_S60000x1_S60000x128_0_1 : (⟨S60000x1, .f32⟩ : BufTy).Contents (Elt F) → (⟨S60000x128, .f32⟩ : BufTy).Contents (Elt F)),
    binary main_v419 main_v423 main_v424 (mulf : (⟨S60000x128, .f32⟩ : BufTy).Contents (Elt F) → (⟨S60000x128, .f32⟩ : BufTy).Contents (Elt F) → (⟨S60000x128, .f32⟩ : BufTy).Contents (Elt F)),
    unary main_v404 main_v425 (broadcastInDim S1x128 ![1] bcast_S128_S1x128_1 : (⟨S128, .f32⟩ : BufTy).Contents (Elt F) → (⟨S1x128, .f32⟩ : BufTy).Contents (Elt F)),
    unary main_v425 main_v426 (broadcastInDim S60000x128 ![0, 1] bcast_S1x128_S60000x128_0_1 : (⟨S1x128, .f32⟩ : BufTy).Contents (Elt F) → (⟨S60000x128, .f32⟩ : BufTy).Contents (Elt F)),
    binary main_v424 main_v426 main_v427 (mulf : (⟨S60000x128, .f32⟩ : BufTy).Contents (Elt F) → (⟨S60000x128, .f32⟩ : BufTy).Contents (Elt F) → (⟨S60000x128, .f32⟩ : BufTy).Contents (Elt F)),
    unary main_v406 main_v428 (broadcastInDim S1x128 ![1] bcast_S128_S1x128_1 : (⟨S128, .f32⟩ : BufTy).Contents (Elt F) → (⟨S1x128, .f32⟩ : BufTy).Contents (Elt F)),
    unary main_v428 main_v429 (broadcastInDim S60000x128 ![0, 1] bcast_S1x128_S60000x128_0_1 : (⟨S1x128, .f32⟩ : BufTy).Contents (Elt F) → (⟨S60000x128, .f32⟩ : BufTy).Contents (Elt F)),
    binary main_v427 main_v429 main_v430 (addf : (⟨S60000x128, .f32⟩ : BufTy).Contents (Elt F) → (⟨S60000x128, .f32⟩ : BufTy).Contents (Elt F) → (⟨S60000x128, .f32⟩ : BufTy).Contents (Elt F)) ]

set_option maxRecDepth 8192 in
set_option maxHeartbeats 4000000 in
/-- The window is the line of its operations (a call unfolds to its callee's operations). -/
theorem main_part8_eq (c : Dev nD) : main_part8 (F := F) c = seq wops_8 := rfl

end Cert.ReferenceIdeal.Hand

end
-- ==== Proof.Ref.Win_9.lean ====
/- Window 9 of the reference's @main is the straight line of its operations 564 … 629. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 564 … 629 of @main (window 9), in program order. -/
abbrev wops_9 : List (HloOp τ sig (Elt F)) :=
  [ unary main_arg13 main_v431 ((extractStridedSlice S1x128 ![2, 0] · slices_S3x128_S1x128_2_0) : (⟨S3x128, .f32⟩ : BufTy).Contents (Elt F) → (⟨S1x128, .f32⟩ : BufTy).Contents (Elt F)),
    reshape main_v431 main_v432 rfl shapeCasts_S1x128_S128,
    unary main_arg14 main_v433 ((extractStridedSlice S1x128 ![2, 0] · slices_S3x128_S1x128_2_0) : (⟨S3x128, .f32⟩ : BufTy).Contents (Elt F) → (⟨S1x128, .f32⟩ : BufTy).Contents (Elt F)),
    reshape main_v433 main_v434 rfl shapeCasts_S1x128_S128,
    nullary main_cst_107 (constant S_ .f32 0x00000000#32),
    binary main_v194 main_cst_107 main_v435 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v435 main_v436 (broadcastInDim S20000x1 ![0] bcast_S20000_S20000x1_0 : (⟨S20000, .f32⟩ : BufTy).Contents (Elt F) → (⟨S20000x1, .f32⟩ : BufTy).Contents (Elt F)),
    nullary main_cst_108 (constant S_ .f32 0x43000000#32),
    unary main_cst_108 main_v437 (broadcastInDim S20000x1 ![] bcast_S_S20000x1 : (⟨S_, .f32⟩ : BufTy).Contents (Elt F) → (⟨S20000x1, .f32⟩ : BufTy).Contents (Elt F)),
    binary main_v436 main_v437 main_v438 (Host.divf : (⟨S20000x1, .f32⟩ : BufTy).Contents (Elt F) → (⟨S20000x1, .f32⟩ : BufTy).Contents (Elt F) → (⟨S20000x1, .f32⟩ : BufTy).Contents (Elt F)),
    unary main_v438 main_v439 (broadcastInDim S20000x128 ![0, 1] bcast_S20000x1_S20000x128_0_1 : (⟨S20000x1, .f32⟩ : BufTy).Contents (Elt F) → (⟨S20000x128, .f32⟩ : BufTy).Contents (Elt F)),
    binary main_v194 main_v439 main_v440 (subf : (⟨S20000x128, .f32⟩ : BufTy).Contents (Elt F) → (⟨S20000x128, .f32⟩ : BufTy).Contents (Elt F) → (⟨S20000x128, .f32⟩ : BufTy).Contents (Elt F)),
    binary main_v440 main_v440 main_v441 (mulf : (⟨S20000x128, .f32⟩ : BufTy).Contents (Elt F) → (⟨S20000x128, .f32⟩ : BufTy).Contents (Elt F) → (⟨S20000x128, .f32⟩ : BufTy).Contents (Elt F)),
    nullary main_cst_109 (constant S_ .f32 0x00000000#32),
    binary main_v441 main_cst_109 main_v442 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v442 main_v443 (broadcastInDim S20000x1 ![0] bcast_S20000_S20000x1_0 : (⟨S20000, .f32⟩ : BufTy).Contents (Elt F) → (⟨S20000x1, .f32⟩ : BufTy).Contents (Elt F)),
    nullary main_cst_110 (constant S_ .f32 0x43000000#32),
    unary main_cst_110 main_v444 (broadcastInDim S20000x1 ![] bcast_S_S20000x1 : (⟨S_, .f32⟩ : BufTy).Contents (Elt F) → (⟨S20000x1, .f32⟩ : BufTy).Contents (Elt F)),
    binary main_v443 main_v444 main_v445 (Host.divf : (⟨S20000x1, .f32⟩ : BufTy).Contents (Elt F) → (⟨S20000x1, .f32⟩ : BufTy).Contents (Elt F) → (⟨S20000x1, .f32⟩ : BufTy).Contents (Elt F)),
    unary main_v438 main_v446 (broadcastInDim S20000x128 ![0, 1] bcast_S20000x1_S20000x128_0_1 : (⟨S20000x1, .f32⟩ : BufTy).Contents (Elt F) → (⟨S20000x128, .f32⟩ : BufTy).Contents (Elt F)),
    binary main_v194 main_v446 main_v447 (subf : (⟨S20000x128, .f32⟩ : BufTy).Contents (Elt F) → (⟨S20000x128, .f32⟩ : BufTy).Contents (Elt F) → (⟨S20000x128, .f32⟩ : BufTy).Contents (Elt F)),
    nullary main_cst_111 (constant S_ .f32 0x3727C5AC#32),
    unary main_cst_111 main_v448 (broadcastInDim S20000x1 ![] bcast_S_S20000x1 : (⟨S_, .f32⟩ : BufTy).Contents (Elt F) → (⟨S20000x1, .f32⟩ : BufTy).Contents (Elt F)),
    binary main_v445 main_v448 main_v449 (addf : (⟨S20000x1, .f32⟩ : BufTy).Contents (Elt F) → (⟨S20000x1, .f32⟩ : BufTy).Contents (Elt F) → (⟨S20000x1, .f32⟩ : BufTy).Contents (Elt F)),
    unary main_v449 main_v450 (Host.rsqrt : (⟨S20000x1, .f32⟩ : BufTy).Contents (Elt F) → (⟨S20000x1, .f32⟩ : BufTy).Contents (Elt F)),
    unary main_v450 main_v451 (broadcastInDim S20000x128 ![0, 1] bcast_S20000x1_S20000x128_0_1 : (⟨S20000x1, .f32⟩ : BufTy).Contents (Elt F) → (⟨S20000x128, .f32⟩ : BufTy).Contents (Elt F)),
    binary main_v447 main_v451 main_v452 (mulf : (⟨S20000x128, .f32⟩ : BufTy).Contents (Elt F) → (⟨S20000x128, .f32⟩ : BufTy).Contents (Elt F) → (⟨S20000x128, .f32⟩ : BufTy).Contents (Elt F)),
    unary main_v432 main_v453 (broadcastInDim S1x128 ![1] bcast_S128_S1x128_1 : (⟨S128, .f32⟩ : BufTy).Contents (Elt F) → (⟨S1x128, .f32⟩ : BufTy).Contents (Elt F)),
    unary main_v453 main_v454 (broadcastInDim S20000x128 ![0, 1] bcast_S1x128_S20000x128_0_1 : (⟨S1x128, .f32⟩ : BufTy).Contents (Elt F) → (⟨S20000x128, .f32⟩ : BufTy).Contents (Elt F)),
    binary main_v452 main_v454 main_v455 (mulf : (⟨S20000x128, .f32⟩ : BufTy).Contents (Elt F) → (⟨S20000x128, .f32⟩ : BufTy).Contents (Elt F) → (⟨S20000x128, .f32⟩ : BufTy).Contents (Elt F)),
    unary main_v434 main_v456 (broadcastInDim S1x128 ![1] bcast_S128_S1x128_1 : (⟨S128, .f32⟩ : BufTy).Contents (Elt F) → (⟨S1x128, .f32⟩ : BufTy).Contents (Elt F)),
    unary main_v456 main_v457 (broadcastInDim S20000x128 ![0, 1] bcast_S1x128_S20000x128_0_1 : (⟨S1x128, .f32⟩ : BufTy).Contents (Elt F) → (⟨S20000x128, .f32⟩ : BufTy).Contents (Elt F)),
    binary main_v455 main_v457 main_v458 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S20000x128, .f32⟩) main_call12_v0) (broadcastInDim S20000x128 ![] bcast_S_S20000x128),
    TRef.binary (TRef.of (T := ⟨S20000x128, .f32⟩) main_v402) (TRef.of (T := ⟨S20000x128, .f32⟩) main_call12_v0) (TRef.of (T := ⟨S20000x128, .f32⟩) main_v459) maximumf,
    TRef.nullary (TRef.of (T := ⟨S_, .f32⟩) main_call13_cst) (constant S_ .f32 0x00000000#32),
    TRef.unary (TRef.of (T := ⟨S_, .f32⟩) main_call13_cst) (TRef.of (T := ⟨S60000x128, .f32⟩) main_call13_v0) (broadcastInDim S60000x128 ![] bcast_S_S60000x128),
    TRef.binary (TRef.of (T := ⟨S60000x128, .f32⟩) main_v430) (TRef.of (T := ⟨S60000x128, .f32⟩) main_call13_v0) (TRef.of (T := ⟨S60000x128, .f32⟩) main_v460) maximumf,
    TRef.nullary (TRef.of (T := ⟨S_, .f32⟩) main_call14_cst) (constant S_ .f32 0x00000000#32),
    TRef.unary (TRef.of (T := ⟨S_, .f32⟩) main_call14_cst) (TRef.of (T := ⟨S20000x128, .f32⟩) main_call14_v0) (broadcastInDim S20000x128 ![] bcast_S_S20000x128),
    TRef.binary (TRef.of (T := ⟨S20000x128, .f32⟩) main_v458) (TRef.of (T := ⟨S20000x128, .f32⟩) main_call14_v0) (TRef.of (T := ⟨S20000x128, .f32⟩) main_v461) maximumf,
    nullary main_cst_112 (constant S_ .f32 0x00000000#32),
    unary main_cst_112 main_v462 (broadcastInDim S20000x64 ![] bcast_S_S20000x64 : (⟨S_, .f32⟩ : BufTy).Contents (Elt F) → (⟨S20000x64, .f32⟩ : BufTy).Contents (Elt F)),
    nullary main_cst_113 (constant S_ .f32 0x00000000#32),
    unary main_cst_113 main_v463 (broadcastInDim S60000x64 ![] bcast_S_S60000x64 : (⟨S_, .f32⟩ : BufTy).Contents (Elt F) → (⟨S60000x64, .f32⟩ : BufTy).Contents (Elt F)),
    nullary main_cst_114 (constant S_ .f32 0x00000000#32),
    unary main_cst_114 main_v464 (broadcastInDim S20000x64 ![] bcast_S_S20000x64 : (⟨S_, .f32⟩ : BufTy).Contents (Elt F) → (⟨S20000x64, .f32⟩ : BufTy).Contents (Elt F)),
    unary main_arg11 main_v465 ((extractStridedSlice S1x128x64 ![0, 0, 0] · slices_S6x128x64_S1x128x64_0_0_0) : (⟨S6x128x64, .f32⟩ : BufTy).Contents (Elt F) → (⟨S1x128x64, .f32⟩ : BufTy).Contents (Elt F)),
    reshape main_v465 main_v466 rfl shapeCasts_S1x128x64_S128x64,
    unary main_arg12 main_v467 ((extractStridedSlice S1x64 ![0, 0] · slices_S6x64_S1x64_0_0) : (⟨S6x64, .f32⟩ : BufTy).Contents (Elt F) → (⟨S1x64, .f32⟩ : BufTy).Contents (Elt F)),
    reshape main_v467 main_v468 rfl shapeCasts_S1x64_S64,
    unary main_arg17 main_v469 ((extractStridedSlice S1x500000 ![0, 0] · slices_S2x500000_S1x500000_0_0) : (⟨S2x500000, .i32⟩ : BufTy).Contents (Elt F) → (⟨S1x500000, .i32⟩ : BufTy).Contents (Elt F)),
    reshape main_v469 main_v470 rfl shapeCasts_S1x500000_S500000,
    unary main_arg17 main_v471 ((extractStridedSlice S1x500000 ![1, 0] · slices_S2x500000_S1x500000_1_0) : (⟨S2x500000, .i32⟩ : BufTy).Contents (Elt F) → (⟨S1x500000, .i32⟩ : BufTy).Contents (Elt F)),
    reshape main_v471 main_v472 rfl shapeCasts_S1x500000_S500000,
    nullary main_cst_115 (constant S_ .f32 0x3F800000#32),
    unary main_cst_115 main_v473 (broadcastInDim S500000 ![] bcast_S_S500000 : (⟨S_, .f32⟩ : BufTy).Contents (Elt F) → (⟨S500000, .f32⟩ : BufTy).Contents (Elt F)),
    nullary main_cst_116 (constant S_ .f32 0x00000000#32),
    unary main_cst_116 main_v474 (broadcastInDim S20000 ![] bcast_S_S20000 : (⟨S_, .f32⟩ : BufTy).Contents (Elt F) → (⟨S20000, .f32⟩ : BufTy).Contents (Elt F)),
    unary main_v470 main_v475 (broadcastInDim S500000x1 ![0] bcast_S500000_S500000x1_0 : (⟨S500000, .i32⟩ : BufTy).Contents (Elt F) → (⟨S500000x1, .i32⟩ : BufTy).Contents (Elt F)),
    ternary main_v474 main_v475 main_v473 main_v476 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_117 (constant S_ .f32 0x00000000#32),
    unary main_cst_117 main_v477 (broadcastInDim S20000 ![] bcast_S_S20000 : (⟨S_, .f32⟩ : BufTy).Contents (Elt F) → (⟨S20000, .f32⟩ : BufTy).Contents (Elt F)),
    unary main_v472 main_v478 (broadcastInDim S500000x1 ![0] bcast_S500000_S500000x1_0 : (⟨S500000, .i32⟩ : BufTy).Contents (Elt F) → (⟨S500000x1, .i32⟩ : BufTy).Contents (Elt F)),
    ternary main_v477 main_v478 main_v473 main_v479 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)) ]

set_option maxRecDepth 8192 in
set_option maxHeartbeats 4000000 in
/-- The window is the line of its operations (a call unfolds to its callee's operations). -/
theorem main_part9_eq (c : Dev nD) : main_part9 (F := F) c = seq wops_9 := rfl

end Cert.ReferenceIdeal.Hand

end
-- ==== Proof.Ref.Win_10.lean ====
/- Window 10 of the reference's @main is the straight line of its operations 630 … 693. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 630 … 693 of @main (window 10), in program order. -/
abbrev wops_10 : List (HloOp τ sig (Elt F)) :=
  [ nullary main_cst_118 (constant S_ .f32 0x00000000#32),
    unary main_cst_118 main_v480 (broadcastInDim S20000 ![] bcast_S_S20000 : (⟨S_, .f32⟩ : BufTy).Contents (Elt F) → (⟨S20000, .f32⟩ : BufTy).Contents (Elt F)),
    binary main_v476 main_v480 main_v481 (cmpf .ogt : (⟨S20000, .f32⟩ : BufTy).Contents (Elt F) → (⟨S20000, .f32⟩ : BufTy).Contents (Elt F) → (⟨S20000, .i1⟩ : BufTy).Contents (Elt F)),
    nullary main_cst_119 (constant S_ .f32 0x3F800000#32),
    unary main_cst_119 main_v482 (broadcastInDim S20000 ![] bcast_S_S20000 : (⟨S_, .f32⟩ : BufTy).Contents (Elt F) → (⟨S20000, .f32⟩ : BufTy).Contents (Elt F)),
    binary main_v476 main_v482 main_v483 (maximumf : (⟨S20000, .f32⟩ : BufTy).Contents (Elt F) → (⟨S20000, .f32⟩ : BufTy).Contents (Elt F) → (⟨S20000, .f32⟩ : BufTy).Contents (Elt F)),
    unary main_v483 main_v484 (Host.rsqrt : (⟨S20000, .f32⟩ : BufTy).Contents (Elt F) → (⟨S20000, .f32⟩ : BufTy).Contents (Elt F)),
    nullary main_cst_120 (constant S_ .f32 0x00000000#32),
    TRef.unary (TRef.of (T := ⟨S_, .f32⟩) main_cst_120) (TRef.of (T := ⟨S_, .f32⟩) main_call15_v0) id,
    TRef.unary (TRef.of (T := ⟨S_, .f32⟩) main_call15_v0) (TRef.of (T := ⟨S20000, .f32⟩) main_call15_v1) (broadcastInDim S20000 ![] bcast_S_S20000),
    TRef.ternary (TRef.of (T := ⟨S20000, .i1⟩) main_v481) (TRef.of (T := ⟨S20000, .f32⟩) main_v484) (TRef.of (T := ⟨S20000, .f32⟩) main_call15_v1) (TRef.of (T := ⟨S20000, .f32⟩) main_v485) select,
    nullary main_cst_121 (constant S_ .f32 0x00000000#32),
    unary main_cst_121 main_v486 (broadcastInDim S20000 ![] bcast_S_S20000 : (⟨S_, .f32⟩ : BufTy).Contents (Elt F) → (⟨S20000, .f32⟩ : BufTy).Contents (Elt F)),
    binary main_v479 main_v486 main_v487 (cmpf .ogt : (⟨S20000, .f32⟩ : BufTy).Contents (Elt F) → (⟨S20000, .f32⟩ : BufTy).Contents (Elt F) → (⟨S20000, .i1⟩ : BufTy).Contents (Elt F)),
    nullary main_cst_122 (constant S_ .f32 0x3F800000#32),
    unary main_cst_122 main_v488 (broadcastInDim S20000 ![] bcast_S_S20000 : (⟨S_, .f32⟩ : BufTy).Contents (Elt F) → (⟨S20000, .f32⟩ : BufTy).Contents (Elt F)),
    binary main_v479 main_v488 main_v489 (maximumf : (⟨S20000, .f32⟩ : BufTy).Contents (Elt F) → (⟨S20000, .f32⟩ : BufTy).Contents (Elt F) → (⟨S20000, .f32⟩ : BufTy).Contents (Elt F)),
    unary main_v489 main_v490 (Host.rsqrt : (⟨S20000, .f32⟩ : BufTy).Contents (Elt F) → (⟨S20000, .f32⟩ : BufTy).Contents (Elt F)),
    nullary main_cst_123 (constant S_ .f32 0x00000000#32),
    TRef.unary (TRef.of (T := ⟨S_, .f32⟩) main_cst_123) (TRef.of (T := ⟨S_, .f32⟩) main_call16_v0) id,
    TRef.unary (TRef.of (T := ⟨S_, .f32⟩) main_call16_v0) (TRef.of (T := ⟨S20000, .f32⟩) main_call16_v1) (broadcastInDim S20000 ![] bcast_S_S20000),
    TRef.ternary (TRef.of (T := ⟨S20000, .i1⟩) main_v487) (TRef.of (T := ⟨S20000, .f32⟩) main_v490) (TRef.of (T := ⟨S20000, .f32⟩) main_call16_v1) (TRef.of (T := ⟨S20000, .f32⟩) main_v491) select,
    binary main_v459 main_v466 main_v492 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)),
    nullary main_c_124 (constantI S_ 32 0#32),
    unary main_c_124 main_v493 (broadcastInDim S500000 ![] bcast_S_S500000 : (⟨S_, .i32⟩ : BufTy).Contents (Elt F) → (⟨S500000, .i32⟩ : BufTy).Contents (Elt F)),
    binary main_v470 main_v493 main_v494 (cmpi .slt : (⟨S500000, .i32⟩ : BufTy).Contents (Elt F) → (⟨S500000, .i32⟩ : BufTy).Contents (Elt F) → (⟨S500000, .i1⟩ : BufTy).Contents (Elt F)),
    nullary main_c_125 (constantI S_ 32 20000#32),
    unary main_c_125 main_v495 (broadcastInDim S500000 ![] bcast_S_S500000 : (⟨S_, .i32⟩ : BufTy).Contents (Elt F) → (⟨S500000, .i32⟩ : BufTy).Contents (Elt F)),
    binary main_v470 main_v495 main_v496 (addi : (⟨S500000, .i32⟩ : BufTy).Contents (Elt F) → (⟨S500000, .i32⟩ : BufTy).Contents (Elt F) → (⟨S500000, .i32⟩ : BufTy).Contents (Elt F)),
    ternary main_v494 main_v496 main_v470 main_v497 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v497 main_v498 (broadcastInDim S500000x1 ![0] bcast_S500000_S500000x1_0 : (⟨S500000, .i32⟩ : BufTy).Contents (Elt F) → (⟨S500000x1, .i32⟩ : BufTy).Contents (Elt F)),
    binary main_v485 main_v498 main_v499 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_126 (constantI S_ 32 0#32),
    unary main_c_126 main_v500 (broadcastInDim S500000 ![] bcast_S_S500000 : (⟨S_, .i32⟩ : BufTy).Contents (Elt F) → (⟨S500000, .i32⟩ : BufTy).Contents (Elt F)),
    binary main_v472 main_v500 main_v501 (cmpi .slt : (⟨S500000, .i32⟩ : BufTy).Contents (Elt F) → (⟨S500000, .i32⟩ : BufTy).Contents (Elt F) → (⟨S500000, .i1⟩ : BufTy).Contents (Elt F)),
    nullary main_c_127 (constantI S_ 32 20000#32),
    unary main_c_127 main_v502 (broadcastInDim S500000 ![] bcast_S_S500000 : (⟨S_, .i32⟩ : BufTy).Contents (Elt F) → (⟨S500000, .i32⟩ : BufTy).Contents (Elt F)),
    binary main_v472 main_v502 main_v503 (addi : (⟨S500000, .i32⟩ : BufTy).Contents (Elt F) → (⟨S500000, .i32⟩ : BufTy).Contents (Elt F) → (⟨S500000, .i32⟩ : BufTy).Contents (Elt F)),
    ternary main_v501 main_v503 main_v472 main_v504 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v504 main_v505 (broadcastInDim S500000x1 ![0] bcast_S500000_S500000x1_0 : (⟨S500000, .i32⟩ : BufTy).Contents (Elt F) → (⟨S500000x1, .i32⟩ : BufTy).Contents (Elt F)),
    binary main_v491 main_v505 main_v506 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v499 main_v506 main_v507 (mulf : (⟨S500000, .f32⟩ : BufTy).Contents (Elt F) → (⟨S500000, .f32⟩ : BufTy).Contents (Elt F) → (⟨S500000, .f32⟩ : BufTy).Contents (Elt F)),
    nullary main_c_128 (constantI S_ 32 0#32),
    unary main_c_128 main_v508 (broadcastInDim S500000 ![] bcast_S_S500000 : (⟨S_, .i32⟩ : BufTy).Contents (Elt F) → (⟨S500000, .i32⟩ : BufTy).Contents (Elt F)),
    binary main_v470 main_v508 main_v509 (cmpi .slt : (⟨S500000, .i32⟩ : BufTy).Contents (Elt F) → (⟨S500000, .i32⟩ : BufTy).Contents (Elt F) → (⟨S500000, .i1⟩ : BufTy).Contents (Elt F)),
    nullary main_c_129 (constantI S_ 32 20000#32),
    unary main_c_129 main_v510 (broadcastInDim S500000 ![] bcast_S_S500000 : (⟨S_, .i32⟩ : BufTy).Contents (Elt F) → (⟨S500000, .i32⟩ : BufTy).Contents (Elt F)),
    binary main_v470 main_v510 main_v511 (addi : (⟨S500000, .i32⟩ : BufTy).Contents (Elt F) → (⟨S500000, .i32⟩ : BufTy).Contents (Elt F) → (⟨S500000, .i32⟩ : BufTy).Contents (Elt F)),
    ternary main_v509 main_v511 main_v470 main_v512 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v512 main_v513 (broadcastInDim S500000x1 ![0] bcast_S500000_S500000x1_0 : (⟨S500000, .i32⟩ : BufTy).Contents (Elt F) → (⟨S500000x1, .i32⟩ : BufTy).Contents (Elt F)),
    binary main_v492 main_v513 main_v514 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    unary main_v507 main_v515 (broadcastInDim S500000x1 ![0] bcast_S500000_S500000x1_0 : (⟨S500000, .f32⟩ : BufTy).Contents (Elt F) → (⟨S500000x1, .f32⟩ : BufTy).Contents (Elt F)),
    unary main_v515 main_v516 (broadcastInDim S500000x64 ![0, 1] bcast_S500000x1_S500000x64_0_1 : (⟨S500000x1, .f32⟩ : BufTy).Contents (Elt F) → (⟨S500000x64, .f32⟩ : BufTy).Contents (Elt F)),
    binary main_v514 main_v516 main_v517 (mulf : (⟨S500000x64, .f32⟩ : BufTy).Contents (Elt F) → (⟨S500000x64, .f32⟩ : BufTy).Contents (Elt F) → (⟨S500000x64, .f32⟩ : BufTy).Contents (Elt F)),
    nullary main_cst_130 (constant S_ .f32 0x00000000#32),
    unary main_cst_130 main_v518 (broadcastInDim S20000x64 ![] bcast_S_S20000x64 : (⟨S_, .f32⟩ : BufTy).Contents (Elt F) → (⟨S20000x64, .f32⟩ : BufTy).Contents (Elt F)),
    unary main_v472 main_v519 (broadcastInDim S500000x1 ![0] bcast_S500000_S500000x1_0 : (⟨S500000, .i32⟩ : BufTy).Contents (Elt F) → (⟨S500000x1, .i32⟩ : BufTy).Contents (Elt F)),
    ternary main_v518 main_v519 main_v517 main_v520 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    unary main_v468 main_v521 (broadcastInDim S1x64 ![1] bcast_S64_S1x64_1 : (⟨S64, .f32⟩ : BufTy).Contents (Elt F) → (⟨S1x64, .f32⟩ : BufTy).Contents (Elt F)),
    unary main_v521 main_v522 (broadcastInDim S20000x64 ![0, 1] bcast_S1x64_S20000x64_0_1 : (⟨S1x64, .f32⟩ : BufTy).Contents (Elt F) → (⟨S20000x64, .f32⟩ : BufTy).Contents (Elt F)),
    binary main_v520 main_v522 main_v523 (addf : (⟨S20000x64, .f32⟩ : BufTy).Contents (Elt F) → (⟨S20000x64, .f32⟩ : BufTy).Contents (Elt F) → (⟨S20000x64, .f32⟩ : BufTy).Contents (Elt F)),
    binary main_v464 main_v523 main_v524 (addf : (⟨S20000x64, .f32⟩ : BufTy).Contents (Elt F) → (⟨S20000x64, .f32⟩ : BufTy).Contents (Elt F) → (⟨S20000x64, .f32⟩ : BufTy).Contents (Elt F)),
    unary main_arg11 main_v525 ((extractStridedSlice S1x128x64 ![1, 0, 0] · slices_S6x128x64_S1x128x64_1_0_0) : (⟨S6x128x64, .f32⟩ : BufTy).Contents (Elt F) → (⟨S1x128x64, .f32⟩ : BufTy).Contents (Elt F)),
    reshape main_v525 main_v526 rfl shapeCasts_S1x128x64_S128x64 ]

set_option maxRecDepth 8192 in
set_option maxHeartbeats 4000000 in
/-- The window is the line of its operations (a call unfolds to its callee's operations). -/
theorem main_part10_eq (c : Dev nD) : main_part10 (F := F) c = seq wops_10 := rfl

end Cert.ReferenceIdeal.Hand

end
-- ==== Proof.Ref.Win_11.lean ====
/- Window 11 of the reference's @main is the straight line of its operations 694 … 757. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 694 … 757 of @main (window 11), in program order. -/
abbrev wops_11 : List (HloOp τ sig (Elt F)) :=
  [ unary main_arg12 main_v527 ((extractStridedSlice S1x64 ![1, 0] · slices_S6x64_S1x64_1_0) : (⟨S6x64, .f32⟩ : BufTy).Contents (Elt F) → (⟨S1x64, .f32⟩ : BufTy).Contents (Elt F)),
    reshape main_v527 main_v528 rfl shapeCasts_S1x64_S64,
    unary main_arg18 main_v529 ((extractStridedSlice S1x500000 ![0, 0] · slices_S2x500000_S1x500000_0_0) : (⟨S2x500000, .i32⟩ : BufTy).Contents (Elt F) → (⟨S1x500000, .i32⟩ : BufTy).Contents (Elt F)),
    reshape main_v529 main_v530 rfl shapeCasts_S1x500000_S500000,
    unary main_arg18 main_v531 ((extractStridedSlice S1x500000 ![1, 0] · slices_S2x500000_S1x500000_1_0) : (⟨S2x500000, .i32⟩ : BufTy).Contents (Elt F) → (⟨S1x500000, .i32⟩ : BufTy).Contents (Elt F)),
    reshape main_v531 main_v532 rfl shapeCasts_S1x500000_S500000,
    nullary main_cst_131 (constant S_ .f32 0x3F800000#32),
    unary main_cst_131 main_v533 (broadcastInDim S500000 ![] bcast_S_S500000 : (⟨S_, .f32⟩ : BufTy).Contents (Elt F) → (⟨S500000, .f32⟩ : BufTy).Contents (Elt F)),
    nullary main_cst_132 (constant S_ .f32 0x00000000#32),
    unary main_cst_132 main_v534 (broadcastInDim S20000 ![] bcast_S_S20000 : (⟨S_, .f32⟩ : BufTy).Contents (Elt F) → (⟨S20000, .f32⟩ : BufTy).Contents (Elt F)),
    unary main_v530 main_v535 (broadcastInDim S500000x1 ![0] bcast_S500000_S500000x1_0 : (⟨S500000, .i32⟩ : BufTy).Contents (Elt F) → (⟨S500000x1, .i32⟩ : BufTy).Contents (Elt F)),
    ternary main_v534 main_v535 main_v533 main_v536 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_133 (constant S_ .f32 0x00000000#32),
    unary main_cst_133 main_v537 (broadcastInDim S60000 ![] bcast_S_S60000 : (⟨S_, .f32⟩ : BufTy).Contents (Elt F) → (⟨S60000, .f32⟩ : BufTy).Contents (Elt F)),
    unary main_v532 main_v538 (broadcastInDim S500000x1 ![0] bcast_S500000_S500000x1_0 : (⟨S500000, .i32⟩ : BufTy).Contents (Elt F) → (⟨S500000x1, .i32⟩ : BufTy).Contents (Elt F)),
    ternary main_v537 main_v538 main_v533 main_v539 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_134 (constant S_ .f32 0x00000000#32),
    unary main_cst_134 main_v540 (broadcastInDim S20000 ![] bcast_S_S20000 : (⟨S_, .f32⟩ : BufTy).Contents (Elt F) → (⟨S20000, .f32⟩ : BufTy).Contents (Elt F)),
    binary main_v536 main_v540 main_v541 (cmpf .ogt : (⟨S20000, .f32⟩ : BufTy).Contents (Elt F) → (⟨S20000, .f32⟩ : BufTy).Contents (Elt F) → (⟨S20000, .i1⟩ : BufTy).Contents (Elt F)),
    nullary main_cst_135 (constant S_ .f32 0x3F800000#32),
    unary main_cst_135 main_v542 (broadcastInDim S20000 ![] bcast_S_S20000 : (⟨S_, .f32⟩ : BufTy).Contents (Elt F) → (⟨S20000, .f32⟩ : BufTy).Contents (Elt F)),
    binary main_v536 main_v542 main_v543 (maximumf : (⟨S20000, .f32⟩ : BufTy).Contents (Elt F) → (⟨S20000, .f32⟩ : BufTy).Contents (Elt F) → (⟨S20000, .f32⟩ : BufTy).Contents (Elt F)),
    unary main_v543 main_v544 (Host.rsqrt : (⟨S20000, .f32⟩ : BufTy).Contents (Elt F) → (⟨S20000, .f32⟩ : BufTy).Contents (Elt F)),
    nullary main_cst_136 (constant S_ .f32 0x00000000#32),
    TRef.unary (TRef.of (T := ⟨S_, .f32⟩) main_cst_136) (TRef.of (T := ⟨S_, .f32⟩) main_call17_v0) id,
    TRef.unary (TRef.of (T := ⟨S_, .f32⟩) main_call17_v0) (TRef.of (T := ⟨S20000, .f32⟩) main_call17_v1) (broadcastInDim S20000 ![] bcast_S_S20000),
    TRef.ternary (TRef.of (T := ⟨S20000, .i1⟩) main_v541) (TRef.of (T := ⟨S20000, .f32⟩) main_v544) (TRef.of (T := ⟨S20000, .f32⟩) main_call17_v1) (TRef.of (T := ⟨S20000, .f32⟩) main_v545) select,
    nullary main_cst_137 (constant S_ .f32 0x00000000#32),
    unary main_cst_137 main_v546 (broadcastInDim S60000 ![] bcast_S_S60000 : (⟨S_, .f32⟩ : BufTy).Contents (Elt F) → (⟨S60000, .f32⟩ : BufTy).Contents (Elt F)),
    binary main_v539 main_v546 main_v547 (cmpf .ogt : (⟨S60000, .f32⟩ : BufTy).Contents (Elt F) → (⟨S60000, .f32⟩ : BufTy).Contents (Elt F) → (⟨S60000, .i1⟩ : BufTy).Contents (Elt F)),
    nullary main_cst_138 (constant S_ .f32 0x3F800000#32),
    unary main_cst_138 main_v548 (broadcastInDim S60000 ![] bcast_S_S60000 : (⟨S_, .f32⟩ : BufTy).Contents (Elt F) → (⟨S60000, .f32⟩ : BufTy).Contents (Elt F)),
    binary main_v539 main_v548 main_v549 (maximumf : (⟨S60000, .f32⟩ : BufTy).Contents (Elt F) → (⟨S60000, .f32⟩ : BufTy).Contents (Elt F) → (⟨S60000, .f32⟩ : BufTy).Contents (Elt F)),
    unary main_v549 main_v550 (Host.rsqrt : (⟨S60000, .f32⟩ : BufTy).Contents (Elt F) → (⟨S60000, .f32⟩ : BufTy).Contents (Elt F)),
    nullary main_cst_139 (constant S_ .f32 0x00000000#32),
    TRef.unary (TRef.of (T := ⟨S_, .f32⟩) main_cst_139) (TRef.of (T := ⟨S_, .f32⟩) main_call18_v0) id,
    TRef.unary (TRef.of (T := ⟨S_, .f32⟩) main_call18_v0) (TRef.of (T := ⟨S60000, .f32⟩) main_call18_v1) (broadcastInDim S60000 ![] bcast_S_S60000),
    TRef.ternary (TRef.of (T := ⟨S60000, .i1⟩) main_v547) (TRef.of (T := ⟨S60000, .f32⟩) main_v550) (TRef.of (T := ⟨S60000, .f32⟩) main_call18_v1) (TRef.of (T := ⟨S60000, .f32⟩) main_v551) select,
    binary main_v459 main_v526 main_v552 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)),
    nullary main_c_140 (constantI S_ 32 0#32),
    unary main_c_140 main_v553 (broadcastInDim S500000 ![] bcast_S_S500000 : (⟨S_, .i32⟩ : BufTy).Contents (Elt F) → (⟨S500000, .i32⟩ : BufTy).Contents (Elt F)),
    binary main_v530 main_v553 main_v554 (cmpi .slt : (⟨S500000, .i32⟩ : BufTy).Contents (Elt F) → (⟨S500000, .i32⟩ : BufTy).Contents (Elt F) → (⟨S500000, .i1⟩ : BufTy).Contents (Elt F)),
    nullary main_c_141 (constantI S_ 32 20000#32),
    unary main_c_141 main_v555 (broadcastInDim S500000 ![] bcast_S_S500000 : (⟨S_, .i32⟩ : BufTy).Contents (Elt F) → (⟨S500000, .i32⟩ : BufTy).Contents (Elt F)),
    binary main_v530 main_v555 main_v556 (addi : (⟨S500000, .i32⟩ : BufTy).Contents (Elt F) → (⟨S500000, .i32⟩ : BufTy).Contents (Elt F) → (⟨S500000, .i32⟩ : BufTy).Contents (Elt F)),
    ternary main_v554 main_v556 main_v530 main_v557 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v557 main_v558 (broadcastInDim S500000x1 ![0] bcast_S500000_S500000x1_0 : (⟨S500000, .i32⟩ : BufTy).Contents (Elt F) → (⟨S500000x1, .i32⟩ : BufTy).Contents (Elt F)),
    binary main_v545 main_v558 main_v559 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_142 (constantI S_ 32 0#32),
    unary main_c_142 main_v560 (broadcastInDim S500000 ![] bcast_S_S500000 : (⟨S_, .i32⟩ : BufTy).Contents (Elt F) → (⟨S500000, .i32⟩ : BufTy).Contents (Elt F)),
    binary main_v532 main_v560 main_v561 (cmpi .slt : (⟨S500000, .i32⟩ : BufTy).Contents (Elt F) → (⟨S500000, .i32⟩ : BufTy).Contents (Elt F) → (⟨S500000, .i1⟩ : BufTy).Contents (Elt F)),
    nullary main_c_143 (constantI S_ 32 60000#32),
    unary main_c_143 main_v562 (broadcastInDim S500000 ![] bcast_S_S500000 : (⟨S_, .i32⟩ : BufTy).Contents (Elt F) → (⟨S500000, .i32⟩ : BufTy).Contents (Elt F)),
    binary main_v532 main_v562 main_v563 (addi : (⟨S500000, .i32⟩ : BufTy).Contents (Elt F) → (⟨S500000, .i32⟩ : BufTy).Contents (Elt F) → (⟨S500000, .i32⟩ : BufTy).Contents (Elt F)),
    ternary main_v561 main_v563 main_v532 main_v564 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v564 main_v565 (broadcastInDim S500000x1 ![0] bcast_S500000_S500000x1_0 : (⟨S500000, .i32⟩ : BufTy).Contents (Elt F) → (⟨S500000x1, .i32⟩ : BufTy).Contents (Elt F)),
    binary main_v551 main_v565 main_v566 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    binary main_v559 main_v566 main_v567 (mulf : (⟨S500000, .f32⟩ : BufTy).Contents (Elt F) → (⟨S500000, .f32⟩ : BufTy).Contents (Elt F) → (⟨S500000, .f32⟩ : BufTy).Contents (Elt F)),
    nullary main_c_144 (constantI S_ 32 0#32),
    unary main_c_144 main_v568 (broadcastInDim S500000 ![] bcast_S_S500000 : (⟨S_, .i32⟩ : BufTy).Contents (Elt F) → (⟨S500000, .i32⟩ : BufTy).Contents (Elt F)),
    binary main_v530 main_v568 main_v569 (cmpi .slt : (⟨S500000, .i32⟩ : BufTy).Contents (Elt F) → (⟨S500000, .i32⟩ : BufTy).Contents (Elt F) → (⟨S500000, .i1⟩ : BufTy).Contents (Elt F)),
    nullary main_c_145 (constantI S_ 32 20000#32),
    unary main_c_145 main_v570 (broadcastInDim S500000 ![] bcast_S_S500000 : (⟨S_, .i32⟩ : BufTy).Contents (Elt F) → (⟨S500000, .i32⟩ : BufTy).Contents (Elt F)),
    binary main_v530 main_v570 main_v571 (addi : (⟨S500000, .i32⟩ : BufTy).Contents (Elt F) → (⟨S500000, .i32⟩ : BufTy).Contents (Elt F) → (⟨S500000, .i32⟩ : BufTy).Contents (Elt F)) ]

set_option maxRecDepth 8192 in
set_option maxHeartbeats 4000000 in
/-- The window is the line of its operations (a call unfolds to its callee's operations). -/
theorem main_part11_eq (c : Dev nD) : main_part11 (F := F) c = seq wops_11 := rfl

end Cert.ReferenceIdeal.Hand

end
-- ==== Proof.Ref.Win_12.lean ====
/- Window 12 of the reference's @main is the straight line of its operations 758 … 821. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 758 … 821 of @main (window 12), in program order. -/
abbrev wops_12 : List (HloOp τ sig (Elt F)) :=
  [ ternary main_v569 main_v571 main_v530 main_v572 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v572 main_v573 (broadcastInDim S500000x1 ![0] bcast_S500000_S500000x1_0 : (⟨S500000, .i32⟩ : BufTy).Contents (Elt F) → (⟨S500000x1, .i32⟩ : BufTy).Contents (Elt F)),
    binary main_v552 main_v573 main_v574 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    unary main_v567 main_v575 (broadcastInDim S500000x1 ![0] bcast_S500000_S500000x1_0 : (⟨S500000, .f32⟩ : BufTy).Contents (Elt F) → (⟨S500000x1, .f32⟩ : BufTy).Contents (Elt F)),
    unary main_v575 main_v576 (broadcastInDim S500000x64 ![0, 1] bcast_S500000x1_S500000x64_0_1 : (⟨S500000x1, .f32⟩ : BufTy).Contents (Elt F) → (⟨S500000x64, .f32⟩ : BufTy).Contents (Elt F)),
    binary main_v574 main_v576 main_v577 (mulf : (⟨S500000x64, .f32⟩ : BufTy).Contents (Elt F) → (⟨S500000x64, .f32⟩ : BufTy).Contents (Elt F) → (⟨S500000x64, .f32⟩ : BufTy).Contents (Elt F)),
    nullary main_cst_146 (constant S_ .f32 0x00000000#32),
    unary main_cst_146 main_v578 (broadcastInDim S60000x64 ![] bcast_S_S60000x64 : (⟨S_, .f32⟩ : BufTy).Contents (Elt F) → (⟨S60000x64, .f32⟩ : BufTy).Contents (Elt F)),
    unary main_v532 main_v579 (broadcastInDim S500000x1 ![0] bcast_S500000_S500000x1_0 : (⟨S500000, .i32⟩ : BufTy).Contents (Elt F) → (⟨S500000x1, .i32⟩ : BufTy).Contents (Elt F)),
    ternary main_v578 main_v579 main_v577 main_v580 ((fun x i u => Host.scatterAdd scatter_S60000x64_S500000x1_S500000x64_1_0_0_1 x i u) : (⟨S60000x64, .f32⟩ : BufTy).Contents (Elt F) → (⟨S500000x1, .i32⟩ : BufTy).Contents (Elt F) → (⟨S500000x64, .f32⟩ : BufTy).Contents (Elt F) → (⟨S60000x64, .f32⟩ : BufTy).Contents (Elt F)),
    unary main_v528 main_v581 (broadcastInDim S1x64 ![1] bcast_S64_S1x64_1 : (⟨S64, .f32⟩ : BufTy).Contents (Elt F) → (⟨S1x64, .f32⟩ : BufTy).Contents (Elt F)),
    unary main_v581 main_v582 (broadcastInDim S60000x64 ![0, 1] bcast_S1x64_S60000x64_0_1 : (⟨S1x64, .f32⟩ : BufTy).Contents (Elt F) → (⟨S60000x64, .f32⟩ : BufTy).Contents (Elt F)),
    binary main_v580 main_v582 main_v583 (addf : (⟨S60000x64, .f32⟩ : BufTy).Contents (Elt F) → (⟨S60000x64, .f32⟩ : BufTy).Contents (Elt F) → (⟨S60000x64, .f32⟩ : BufTy).Contents (Elt F)),
    binary main_v463 main_v583 main_v584 (addf : (⟨S60000x64, .f32⟩ : BufTy).Contents (Elt F) → (⟨S60000x64, .f32⟩ : BufTy).Contents (Elt F) → (⟨S60000x64, .f32⟩ : BufTy).Contents (Elt F)),
    unary main_arg11 main_v585 ((extractStridedSlice S1x128x64 ![2, 0, 0] · slices_S6x128x64_S1x128x64_2_0_0) : (⟨S6x128x64, .f32⟩ : BufTy).Contents (Elt F) → (⟨S1x128x64, .f32⟩ : BufTy).Contents (Elt F)),
    reshape main_v585 main_v586 rfl shapeCasts_S1x128x64_S128x64,
    unary main_arg12 main_v587 ((extractStridedSlice S1x64 ![2, 0] · slices_S6x64_S1x64_2_0) : (⟨S6x64, .f32⟩ : BufTy).Contents (Elt F) → (⟨S1x64, .f32⟩ : BufTy).Contents (Elt F)),
    reshape main_v587 main_v588 rfl shapeCasts_S1x64_S64,
    unary main_arg19 main_v589 ((extractStridedSlice S1x500000 ![0, 0] · slices_S2x500000_S1x500000_0_0) : (⟨S2x500000, .i32⟩ : BufTy).Contents (Elt F) → (⟨S1x500000, .i32⟩ : BufTy).Contents (Elt F)),
    reshape main_v589 main_v590 rfl shapeCasts_S1x500000_S500000,
    unary main_arg19 main_v591 ((extractStridedSlice S1x500000 ![1, 0] · slices_S2x500000_S1x500000_1_0) : (⟨S2x500000, .i32⟩ : BufTy).Contents (Elt F) → (⟨S1x500000, .i32⟩ : BufTy).Contents (Elt F)),
    reshape main_v591 main_v592 rfl shapeCasts_S1x500000_S500000,
    nullary main_cst_147 (constant S_ .f32 0x3F800000#32),
    unary main_cst_147 main_v593 (broadcastInDim S500000 ![] bcast_S_S500000 : (⟨S_, .f32⟩ : BufTy).Contents (Elt F) → (⟨S500000, .f32⟩ : BufTy).Contents (Elt F)),
    nullary main_cst_148 (constant S_ .f32 0x00000000#32),
    unary main_cst_148 main_v594 (broadcastInDim S60000 ![] bcast_S_S60000 : (⟨S_, .f32⟩ : BufTy).Contents (Elt F) → (⟨S60000, .f32⟩ : BufTy).Contents (Elt F)),
    unary main_v590 main_v595 (broadcastInDim S500000x1 ![0] bcast_S500000_S500000x1_0 : (⟨S500000, .i32⟩ : BufTy).Contents (Elt F) → (⟨S500000x1, .i32⟩ : BufTy).Contents (Elt F)),
    ternary main_v594 main_v595 main_v593 main_v596 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_149 (constant S_ .f32 0x00000000#32),
    unary main_cst_149 main_v597 (broadcastInDim S20000 ![] bcast_S_S20000 : (⟨S_, .f32⟩ : BufTy).Contents (Elt F) → (⟨S20000, .f32⟩ : BufTy).Contents (Elt F)),
    unary main_v592 main_v598 (broadcastInDim S500000x1 ![0] bcast_S500000_S500000x1_0 : (⟨S500000, .i32⟩ : BufTy).Contents (Elt F) → (⟨S500000x1, .i32⟩ : BufTy).Contents (Elt F)),
    ternary main_v597 main_v598 main_v593 main_v599 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_150 (constant S_ .f32 0x00000000#32),
    unary main_cst_150 main_v600 (broadcastInDim S60000 ![] bcast_S_S60000 : (⟨S_, .f32⟩ : BufTy).Contents (Elt F) → (⟨S60000, .f32⟩ : BufTy).Contents (Elt F)),
    binary main_v596 main_v600 main_v601 (cmpf .ogt : (⟨S60000, .f32⟩ : BufTy).Contents (Elt F) → (⟨S60000, .f32⟩ : BufTy).Contents (Elt F) → (⟨S60000, .i1⟩ : BufTy).Contents (Elt F)),
    nullary main_cst_151 (constant S_ .f32 0x3F800000#32),
    unary main_cst_151 main_v602 (broadcastInDim S60000 ![] bcast_S_S60000 : (⟨S_, .f32⟩ : BufTy).Contents (Elt F) → (⟨S60000, .f32⟩ : BufTy).Contents (Elt F)),
    binary main_v596 main_v602 main_v603 (maximumf : (⟨S60000, .f32⟩ : BufTy).Contents (Elt F) → (⟨S60000, .f32⟩ : BufTy).Contents (Elt F) → (⟨S60000, .f32⟩ : BufTy).Contents (Elt F)),
    unary main_v603 main_v604 (Host.rsqrt : (⟨S60000, .f32⟩ : BufTy).Contents (Elt F) → (⟨S60000, .f32⟩ : BufTy).Contents (Elt F)),
    nullary main_cst_152 (constant S_ .f32 0x00000000#32),
    TRef.unary (TRef.of (T := ⟨S_, .f32⟩) main_cst_152) (TRef.of (T := ⟨S_, .f32⟩) main_call19_v0) id,
    TRef.unary (TRef.of (T := ⟨S_, .f32⟩) main_call19_v0) (TRef.of (T := ⟨S60000, .f32⟩) main_call19_v1) (broadcastInDim S60000 ![] bcast_S_S60000),
    TRef.ternary (TRef.of (T := ⟨S60000, .i1⟩) main_v601) (TRef.of (T := ⟨S60000, .f32⟩) main_v604) (TRef.of (T := ⟨S60000, .f32⟩) main_call19_v1) (TRef.of (T := ⟨S60000, .f32⟩) main_v605) select,
    nullary main_cst_153 (constant S_ .f32 0x00000000#32),
    unary main_cst_153 main_v606 (broadcastInDim S20000 ![] bcast_S_S20000 : (⟨S_, .f32⟩ : BufTy).Contents (Elt F) → (⟨S20000, .f32⟩ : BufTy).Contents (Elt F)),
    binary main_v599 main_v606 main_v607 (cmpf .ogt : (⟨S20000, .f32⟩ : BufTy).Contents (Elt F) → (⟨S20000, .f32⟩ : BufTy).Contents (Elt F) → (⟨S20000, .i1⟩ : BufTy).Contents (Elt F)),
    nullary main_cst_154 (constant S_ .f32 0x3F800000#32),
    unary main_cst_154 main_v608 (broadcastInDim S20000 ![] bcast_S_S20000 : (⟨S_, .f32⟩ : BufTy).Contents (Elt F) → (⟨S20000, .f32⟩ : BufTy).Contents (Elt F)),
    binary main_v599 main_v608 main_v609 (maximumf : (⟨S20000, .f32⟩ : BufTy).Contents (Elt F) → (⟨S20000, .f32⟩ : BufTy).Contents (Elt F) → (⟨S20000, .f32⟩ : BufTy).Contents (Elt F)),
    unary main_v609 main_v610 (Host.rsqrt : (⟨S20000, .f32⟩ : BufTy).Contents (Elt F) → (⟨S20000, .f32⟩ : BufTy).Contents (Elt F)),
    nullary main_cst_155 (constant S_ .f32 0x00000000#32),
    TRef.unary (TRef.of (T := ⟨S_, .f32⟩) main_cst_155) (TRef.of (T := ⟨S_, .f32⟩) main_call20_v0) id,
    TRef.unary (TRef.of (T := ⟨S_, .f32⟩) main_call20_v0) (TRef.of (T := ⟨S20000, .f32⟩) main_call20_v1) (broadcastInDim S20000 ![] bcast_S_S20000),
    TRef.ternary (TRef.of (T := ⟨S20000, .i1⟩) main_v607) (TRef.of (T := ⟨S20000, .f32⟩) main_v610) (TRef.of (T := ⟨S20000, .f32⟩) main_call20_v1) (TRef.of (T := ⟨S20000, .f32⟩) main_v611) select,
    binary main_v460 main_v586 main_v612 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    nullary main_c_156 (constantI S_ 32 0#32),
    unary main_c_156 main_v613 (broadcastInDim S500000 ![] bcast_S_S500000 : (⟨S_, .i32⟩ : BufTy).Contents (Elt F) → (⟨S500000, .i32⟩ : BufTy).Contents (Elt F)),
    binary main_v590 main_v613 main_v614 (cmpi .slt : (⟨S500000, .i32⟩ : BufTy).Contents (Elt F) → (⟨S500000, .i32⟩ : BufTy).Contents (Elt F) → (⟨S500000, .i1⟩ : BufTy).Contents (Elt F)),
    nullary main_c_157 (constantI S_ 32 60000#32),
    unary main_c_157 main_v615 (broadcastInDim S500000 ![] bcast_S_S500000 : (⟨S_, .i32⟩ : BufTy).Contents (Elt F) → (⟨S500000, .i32⟩ : BufTy).Contents (Elt F)),
    binary main_v590 main_v615 main_v616 (addi : (⟨S500000, .i32⟩ : BufTy).Contents (Elt F) → (⟨S500000, .i32⟩ : BufTy).Contents (Elt F) → (⟨S500000, .i32⟩ : BufTy).Contents (Elt F)),
    ternary main_v614 main_v616 main_v590 main_v617 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v617 main_v618 (broadcastInDim S500000x1 ![0] bcast_S500000_S500000x1_0 : (⟨S500000, .i32⟩ : BufTy).Contents (Elt F) → (⟨S500000x1, .i32⟩ : BufTy).Contents (Elt F)),
    binary main_v605 main_v618 main_v619 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)) ]

set_option maxRecDepth 8192 in
set_option maxHeartbeats 4000000 in
/-- The window is the line of its operations (a call unfolds to its callee's operations). -/
theorem main_part12_eq (c : Dev nD) : main_part12 (F := F) c = seq wops_12 := rfl

end Cert.ReferenceIdeal.Hand

end
-- ==== Proof.Ref.Win_13.lean ====
/- Window 13 of the reference's @main is the straight line of its operations 822 … 883. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 822 … 883 of @main (window 13), in program order. -/
abbrev wops_13 : List (HloOp τ sig (Elt F)) :=
  [ nullary main_c_158 (constantI S_ 32 0#32),
    unary main_c_158 main_v620 (broadcastInDim S500000 ![] bcast_S_S500000 : (⟨S_, .i32⟩ : BufTy).Contents (Elt F) → (⟨S500000, .i32⟩ : BufTy).Contents (Elt F)),
    binary main_v592 main_v620 main_v621 (cmpi .slt : (⟨S500000, .i32⟩ : BufTy).Contents (Elt F) → (⟨S500000, .i32⟩ : BufTy).Contents (Elt F) → (⟨S500000, .i1⟩ : BufTy).Contents (Elt F)),
    nullary main_c_159 (constantI S_ 32 20000#32),
    unary main_c_159 main_v622 (broadcastInDim S500000 ![] bcast_S_S500000 : (⟨S_, .i32⟩ : BufTy).Contents (Elt F) → (⟨S500000, .i32⟩ : BufTy).Contents (Elt F)),
    binary main_v592 main_v622 main_v623 (addi : (⟨S500000, .i32⟩ : BufTy).Contents (Elt F) → (⟨S500000, .i32⟩ : BufTy).Contents (Elt F) → (⟨S500000, .i32⟩ : BufTy).Contents (Elt F)),
    ternary main_v621 main_v623 main_v592 main_v624 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v624 main_v625 (broadcastInDim S500000x1 ![0] bcast_S500000_S500000x1_0 : (⟨S500000, .i32⟩ : BufTy).Contents (Elt F) → (⟨S500000x1, .i32⟩ : BufTy).Contents (Elt F)),
    binary main_v611 main_v625 main_v626 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v619 main_v626 main_v627 (mulf : (⟨S500000, .f32⟩ : BufTy).Contents (Elt F) → (⟨S500000, .f32⟩ : BufTy).Contents (Elt F) → (⟨S500000, .f32⟩ : BufTy).Contents (Elt F)),
    nullary main_c_160 (constantI S_ 32 0#32),
    unary main_c_160 main_v628 (broadcastInDim S500000 ![] bcast_S_S500000 : (⟨S_, .i32⟩ : BufTy).Contents (Elt F) → (⟨S500000, .i32⟩ : BufTy).Contents (Elt F)),
    binary main_v590 main_v628 main_v629 (cmpi .slt : (⟨S500000, .i32⟩ : BufTy).Contents (Elt F) → (⟨S500000, .i32⟩ : BufTy).Contents (Elt F) → (⟨S500000, .i1⟩ : BufTy).Contents (Elt F)),
    nullary main_c_161 (constantI S_ 32 60000#32),
    unary main_c_161 main_v630 (broadcastInDim S500000 ![] bcast_S_S500000 : (⟨S_, .i32⟩ : BufTy).Contents (Elt F) → (⟨S500000, .i32⟩ : BufTy).Contents (Elt F)),
    binary main_v590 main_v630 main_v631 (addi : (⟨S500000, .i32⟩ : BufTy).Contents (Elt F) → (⟨S500000, .i32⟩ : BufTy).Contents (Elt F) → (⟨S500000, .i32⟩ : BufTy).Contents (Elt F)),
    ternary main_v629 main_v631 main_v590 main_v632 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v632 main_v633 (broadcastInDim S500000x1 ![0] bcast_S500000_S500000x1_0 : (⟨S500000, .i32⟩ : BufTy).Contents (Elt F) → (⟨S500000x1, .i32⟩ : BufTy).Contents (Elt F)),
    binary main_v612 main_v633 main_v634 ((fun x i => Host.gather gather_S60000x64_S500000x1_S500000x64_1_0_n_n_0_1_164 x i) : (⟨S60000x64, .f32⟩ : BufTy).Contents (Elt F) → (⟨S500000x1, .i32⟩ : BufTy).Contents (Elt F) → (⟨S500000x64, .f32⟩ : BufTy).Contents (Elt F)),
    unary main_v627 main_v635 (broadcastInDim S500000x1 ![0] bcast_S500000_S500000x1_0 : (⟨S500000, .f32⟩ : BufTy).Contents (Elt F) → (⟨S500000x1, .f32⟩ : BufTy).Contents (Elt F)),
    unary main_v635 main_v636 (broadcastInDim S500000x64 ![0, 1] bcast_S500000x1_S500000x64_0_1 : (⟨S500000x1, .f32⟩ : BufTy).Contents (Elt F) → (⟨S500000x64, .f32⟩ : BufTy).Contents (Elt F)),
    binary main_v634 main_v636 main_v637 (mulf : (⟨S500000x64, .f32⟩ : BufTy).Contents (Elt F) → (⟨S500000x64, .f32⟩ : BufTy).Contents (Elt F) → (⟨S500000x64, .f32⟩ : BufTy).Contents (Elt F)),
    nullary main_cst_162 (constant S_ .f32 0x00000000#32),
    unary main_cst_162 main_v638 (broadcastInDim S20000x64 ![] bcast_S_S20000x64 : (⟨S_, .f32⟩ : BufTy).Contents (Elt F) → (⟨S20000x64, .f32⟩ : BufTy).Contents (Elt F)),
    unary main_v592 main_v639 (broadcastInDim S500000x1 ![0] bcast_S500000_S500000x1_0 : (⟨S500000, .i32⟩ : BufTy).Contents (Elt F) → (⟨S500000x1, .i32⟩ : BufTy).Contents (Elt F)),
    ternary main_v638 main_v639 main_v637 main_v640 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    unary main_v588 main_v641 (broadcastInDim S1x64 ![1] bcast_S64_S1x64_1 : (⟨S64, .f32⟩ : BufTy).Contents (Elt F) → (⟨S1x64, .f32⟩ : BufTy).Contents (Elt F)),
    unary main_v641 main_v642 (broadcastInDim S20000x64 ![0, 1] bcast_S1x64_S20000x64_0_1 : (⟨S1x64, .f32⟩ : BufTy).Contents (Elt F) → (⟨S20000x64, .f32⟩ : BufTy).Contents (Elt F)),
    binary main_v640 main_v642 main_v643 (addf : (⟨S20000x64, .f32⟩ : BufTy).Contents (Elt F) → (⟨S20000x64, .f32⟩ : BufTy).Contents (Elt F) → (⟨S20000x64, .f32⟩ : BufTy).Contents (Elt F)),
    binary main_v524 main_v643 main_v644 (addf : (⟨S20000x64, .f32⟩ : BufTy).Contents (Elt F) → (⟨S20000x64, .f32⟩ : BufTy).Contents (Elt F) → (⟨S20000x64, .f32⟩ : BufTy).Contents (Elt F)),
    unary main_arg11 main_v645 ((extractStridedSlice S1x128x64 ![3, 0, 0] · slices_S6x128x64_S1x128x64_3_0_0) : (⟨S6x128x64, .f32⟩ : BufTy).Contents (Elt F) → (⟨S1x128x64, .f32⟩ : BufTy).Contents (Elt F)),
    reshape main_v645 main_v646 rfl shapeCasts_S1x128x64_S128x64,
    unary main_arg12 main_v647 ((extractStridedSlice S1x64 ![3, 0] · slices_S6x64_S1x64_3_0) : (⟨S6x64, .f32⟩ : BufTy).Contents (Elt F) → (⟨S1x64, .f32⟩ : BufTy).Contents (Elt F)),
    reshape main_v647 main_v648 rfl shapeCasts_S1x64_S64,
    unary main_arg20 main_v649 ((extractStridedSlice S1x500000 ![0, 0] · slices_S2x500000_S1x500000_0_0) : (⟨S2x500000, .i32⟩ : BufTy).Contents (Elt F) → (⟨S1x500000, .i32⟩ : BufTy).Contents (Elt F)),
    reshape main_v649 main_v650 rfl shapeCasts_S1x500000_S500000,
    unary main_arg20 main_v651 ((extractStridedSlice S1x500000 ![1, 0] · slices_S2x500000_S1x500000_1_0) : (⟨S2x500000, .i32⟩ : BufTy).Contents (Elt F) → (⟨S1x500000, .i32⟩ : BufTy).Contents (Elt F)),
    reshape main_v651 main_v652 rfl shapeCasts_S1x500000_S500000,
    nullary main_cst_163 (constant S_ .f32 0x3F800000#32),
    unary main_cst_163 main_v653 (broadcastInDim S500000 ![] bcast_S_S500000 : (⟨S_, .f32⟩ : BufTy).Contents (Elt F) → (⟨S500000, .f32⟩ : BufTy).Contents (Elt F)),
    nullary main_cst_164 (constant S_ .f32 0x00000000#32),
    unary main_cst_164 main_v654 (broadcastInDim S20000 ![] bcast_S_S20000 : (⟨S_, .f32⟩ : BufTy).Contents (Elt F) → (⟨S20000, .f32⟩ : BufTy).Contents (Elt F)),
    unary main_v650 main_v655 (broadcastInDim S500000x1 ![0] bcast_S500000_S500000x1_0 : (⟨S500000, .i32⟩ : BufTy).Contents (Elt F) → (⟨S500000x1, .i32⟩ : BufTy).Contents (Elt F)),
    ternary main_v654 main_v655 main_v653 main_v656 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_165 (constant S_ .f32 0x00000000#32),
    unary main_cst_165 main_v657 (broadcastInDim S20000 ![] bcast_S_S20000 : (⟨S_, .f32⟩ : BufTy).Contents (Elt F) → (⟨S20000, .f32⟩ : BufTy).Contents (Elt F)),
    unary main_v652 main_v658 (broadcastInDim S500000x1 ![0] bcast_S500000_S500000x1_0 : (⟨S500000, .i32⟩ : BufTy).Contents (Elt F) → (⟨S500000x1, .i32⟩ : BufTy).Contents (Elt F)),
    ternary main_v657 main_v658 main_v653 main_v659 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_166 (constant S_ .f32 0x00000000#32),
    unary main_cst_166 main_v660 (broadcastInDim S20000 ![] bcast_S_S20000 : (⟨S_, .f32⟩ : BufTy).Contents (Elt F) → (⟨S20000, .f32⟩ : BufTy).Contents (Elt F)),
    binary main_v656 main_v660 main_v661 (cmpf .ogt : (⟨S20000, .f32⟩ : BufTy).Contents (Elt F) → (⟨S20000, .f32⟩ : BufTy).Contents (Elt F) → (⟨S20000, .i1⟩ : BufTy).Contents (Elt F)),
    nullary main_cst_167 (constant S_ .f32 0x3F800000#32),
    unary main_cst_167 main_v662 (broadcastInDim S20000 ![] bcast_S_S20000 : (⟨S_, .f32⟩ : BufTy).Contents (Elt F) → (⟨S20000, .f32⟩ : BufTy).Contents (Elt F)),
    binary main_v656 main_v662 main_v663 (maximumf : (⟨S20000, .f32⟩ : BufTy).Contents (Elt F) → (⟨S20000, .f32⟩ : BufTy).Contents (Elt F) → (⟨S20000, .f32⟩ : BufTy).Contents (Elt F)),
    unary main_v663 main_v664 (Host.rsqrt : (⟨S20000, .f32⟩ : BufTy).Contents (Elt F) → (⟨S20000, .f32⟩ : BufTy).Contents (Elt F)),
    nullary main_cst_168 (constant S_ .f32 0x00000000#32),
    TRef.unary (TRef.of (T := ⟨S_, .f32⟩) main_cst_168) (TRef.of (T := ⟨S_, .f32⟩) main_call21_v0) id,
    TRef.unary (TRef.of (T := ⟨S_, .f32⟩) main_call21_v0) (TRef.of (T := ⟨S20000, .f32⟩) main_call21_v1) (broadcastInDim S20000 ![] bcast_S_S20000),
    TRef.ternary (TRef.of (T := ⟨S20000, .i1⟩) main_v661) (TRef.of (T := ⟨S20000, .f32⟩) main_v664) (TRef.of (T := ⟨S20000, .f32⟩) main_call21_v1) (TRef.of (T := ⟨S20000, .f32⟩) main_v665) select,
    nullary main_cst_169 (constant S_ .f32 0x00000000#32),
    unary main_cst_169 main_v666 (broadcastInDim S20000 ![] bcast_S_S20000 : (⟨S_, .f32⟩ : BufTy).Contents (Elt F) → (⟨S20000, .f32⟩ : BufTy).Contents (Elt F)),
    binary main_v659 main_v666 main_v667 (cmpf .ogt : (⟨S20000, .f32⟩ : BufTy).Contents (Elt F) → (⟨S20000, .f32⟩ : BufTy).Contents (Elt F) → (⟨S20000, .i1⟩ : BufTy).Contents (Elt F)) ]

set_option maxRecDepth 8192 in
set_option maxHeartbeats 4000000 in
/-- The window is the line of its operations (a call unfolds to its callee's operations). -/
theorem main_part13_eq (c : Dev nD) : main_part13 (F := F) c = seq wops_13 := rfl

end Cert.ReferenceIdeal.Hand

end
-- ==== Proof.Ref.Win_14.lean ====
/- Window 14 of the reference's @main is the straight line of its operations 884 … 945. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 884 … 945 of @main (window 14), in program order. -/
abbrev wops_14 : List (HloOp τ sig (Elt F)) :=
  [ nullary main_cst_170 (constant S_ .f32 0x3F800000#32),
    unary main_cst_170 main_v668 (broadcastInDim S20000 ![] bcast_S_S20000 : (⟨S_, .f32⟩ : BufTy).Contents (Elt F) → (⟨S20000, .f32⟩ : BufTy).Contents (Elt F)),
    binary main_v659 main_v668 main_v669 (maximumf : (⟨S20000, .f32⟩ : BufTy).Contents (Elt F) → (⟨S20000, .f32⟩ : BufTy).Contents (Elt F) → (⟨S20000, .f32⟩ : BufTy).Contents (Elt F)),
    unary main_v669 main_v670 (Host.rsqrt : (⟨S20000, .f32⟩ : BufTy).Contents (Elt F) → (⟨S20000, .f32⟩ : BufTy).Contents (Elt F)),
    nullary main_cst_171 (constant S_ .f32 0x00000000#32),
    TRef.unary (TRef.of (T := ⟨S_, .f32⟩) main_cst_171) (TRef.of (T := ⟨S_, .f32⟩) main_call22_v0) id,
    TRef.unary (TRef.of (T := ⟨S_, .f32⟩) main_call22_v0) (TRef.of (T := ⟨S20000, .f32⟩) main_call22_v1) (broadcastInDim S20000 ![] bcast_S_S20000),
    TRef.ternary (TRef.of (T := ⟨S20000, .i1⟩) main_v667) (TRef.of (T := ⟨S20000, .f32⟩) main_v670) (TRef.of (T := ⟨S20000, .f32⟩) main_call22_v1) (TRef.of (T := ⟨S20000, .f32⟩) main_v671) select,
    binary main_v461 main_v646 main_v672 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)),
    nullary main_c_172 (constantI S_ 32 0#32),
    unary main_c_172 main_v673 (broadcastInDim S500000 ![] bcast_S_S500000 : (⟨S_, .i32⟩ : BufTy).Contents (Elt F) → (⟨S500000, .i32⟩ : BufTy).Contents (Elt F)),
    binary main_v650 main_v673 main_v674 (cmpi .slt : (⟨S500000, .i32⟩ : BufTy).Contents (Elt F) → (⟨S500000, .i32⟩ : BufTy).Contents (Elt F) → (⟨S500000, .i1⟩ : BufTy).Contents (Elt F)),
    nullary main_c_173 (constantI S_ 32 20000#32),
    unary main_c_173 main_v675 (broadcastInDim S500000 ![] bcast_S_S500000 : (⟨S_, .i32⟩ : BufTy).Contents (Elt F) → (⟨S500000, .i32⟩ : BufTy).Contents (Elt F)),
    binary main_v650 main_v675 main_v676 (addi : (⟨S500000, .i32⟩ : BufTy).Contents (Elt F) → (⟨S500000, .i32⟩ : BufTy).Contents (Elt F) → (⟨S500000, .i32⟩ : BufTy).Contents (Elt F)),
    ternary main_v674 main_v676 main_v650 main_v677 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v677 main_v678 (broadcastInDim S500000x1 ![0] bcast_S500000_S500000x1_0 : (⟨S500000, .i32⟩ : BufTy).Contents (Elt F) → (⟨S500000x1, .i32⟩ : BufTy).Contents (Elt F)),
    binary main_v665 main_v678 main_v679 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_174 (constantI S_ 32 0#32),
    unary main_c_174 main_v680 (broadcastInDim S500000 ![] bcast_S_S500000 : (⟨S_, .i32⟩ : BufTy).Contents (Elt F) → (⟨S500000, .i32⟩ : BufTy).Contents (Elt F)),
    binary main_v652 main_v680 main_v681 (cmpi .slt : (⟨S500000, .i32⟩ : BufTy).Contents (Elt F) → (⟨S500000, .i32⟩ : BufTy).Contents (Elt F) → (⟨S500000, .i1⟩ : BufTy).Contents (Elt F)),
    nullary main_c_175 (constantI S_ 32 20000#32),
    unary main_c_175 main_v682 (broadcastInDim S500000 ![] bcast_S_S500000 : (⟨S_, .i32⟩ : BufTy).Contents (Elt F) → (⟨S500000, .i32⟩ : BufTy).Contents (Elt F)),
    binary main_v652 main_v682 main_v683 (addi : (⟨S500000, .i32⟩ : BufTy).Contents (Elt F) → (⟨S500000, .i32⟩ : BufTy).Contents (Elt F) → (⟨S500000, .i32⟩ : BufTy).Contents (Elt F)),
    ternary main_v681 main_v683 main_v652 main_v684 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v684 main_v685 (broadcastInDim S500000x1 ![0] bcast_S500000_S500000x1_0 : (⟨S500000, .i32⟩ : BufTy).Contents (Elt F) → (⟨S500000x1, .i32⟩ : BufTy).Contents (Elt F)),
    binary main_v671 main_v685 main_v686 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v679 main_v686 main_v687 (mulf : (⟨S500000, .f32⟩ : BufTy).Contents (Elt F) → (⟨S500000, .f32⟩ : BufTy).Contents (Elt F) → (⟨S500000, .f32⟩ : BufTy).Contents (Elt F)),
    nullary main_c_176 (constantI S_ 32 0#32),
    unary main_c_176 main_v688 (broadcastInDim S500000 ![] bcast_S_S500000 : (⟨S_, .i32⟩ : BufTy).Contents (Elt F) → (⟨S500000, .i32⟩ : BufTy).Contents (Elt F)),
    binary main_v650 main_v688 main_v689 (cmpi .slt : (⟨S500000, .i32⟩ : BufTy).Contents (Elt F) → (⟨S500000, .i32⟩ : BufTy).Contents (Elt F) → (⟨S500000, .i1⟩ : BufTy).Contents (Elt F)),
    nullary main_c_177 (constantI S_ 32 20000#32),
    unary main_c_177 main_v690 (broadcastInDim S500000 ![] bcast_S_S500000 : (⟨S_, .i32⟩ : BufTy).Contents (Elt F) → (⟨S500000, .i32⟩ : BufTy).Contents (Elt F)),
    binary main_v650 main_v690 main_v691 (addi : (⟨S500000, .i32⟩ : BufTy).Contents (Elt F) → (⟨S500000, .i32⟩ : BufTy).Contents (Elt F) → (⟨S500000, .i32⟩ : BufTy).Contents (Elt F)),
    ternary main_v689 main_v691 main_v650 main_v692 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v692 main_v693 (broadcastInDim S500000x1 ![0] bcast_S500000_S500000x1_0 : (⟨S500000, .i32⟩ : BufTy).Contents (Elt F) → (⟨S500000x1, .i32⟩ : BufTy).Contents (Elt F)),
    binary main_v672 main_v693 main_v694 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    unary main_v687 main_v695 (broadcastInDim S500000x1 ![0] bcast_S500000_S500000x1_0 : (⟨S500000, .f32⟩ : BufTy).Contents (Elt F) → (⟨S500000x1, .f32⟩ : BufTy).Contents (Elt F)),
    unary main_v695 main_v696 (broadcastInDim S500000x64 ![0, 1] bcast_S500000x1_S500000x64_0_1 : (⟨S500000x1, .f32⟩ : BufTy).Contents (Elt F) → (⟨S500000x64, .f32⟩ : BufTy).Contents (Elt F)),
    binary main_v694 main_v696 main_v697 (mulf : (⟨S500000x64, .f32⟩ : BufTy).Contents (Elt F) → (⟨S500000x64, .f32⟩ : BufTy).Contents (Elt F) → (⟨S500000x64, .f32⟩ : BufTy).Contents (Elt F)),
    nullary main_cst_178 (constant S_ .f32 0x00000000#32),
    unary main_cst_178 main_v698 (broadcastInDim S20000x64 ![] bcast_S_S20000x64 : (⟨S_, .f32⟩ : BufTy).Contents (Elt F) → (⟨S20000x64, .f32⟩ : BufTy).Contents (Elt F)),
    unary main_v652 main_v699 (broadcastInDim S500000x1 ![0] bcast_S500000_S500000x1_0 : (⟨S500000, .i32⟩ : BufTy).Contents (Elt F) → (⟨S500000x1, .i32⟩ : BufTy).Contents (Elt F)),
    ternary main_v698 main_v699 main_v697 main_v700 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    unary main_v648 main_v701 (broadcastInDim S1x64 ![1] bcast_S64_S1x64_1 : (⟨S64, .f32⟩ : BufTy).Contents (Elt F) → (⟨S1x64, .f32⟩ : BufTy).Contents (Elt F)),
    unary main_v701 main_v702 (broadcastInDim S20000x64 ![0, 1] bcast_S1x64_S20000x64_0_1 : (⟨S1x64, .f32⟩ : BufTy).Contents (Elt F) → (⟨S20000x64, .f32⟩ : BufTy).Contents (Elt F)),
    binary main_v700 main_v702 main_v703 (addf : (⟨S20000x64, .f32⟩ : BufTy).Contents (Elt F) → (⟨S20000x64, .f32⟩ : BufTy).Contents (Elt F) → (⟨S20000x64, .f32⟩ : BufTy).Contents (Elt F)),
    binary main_v462 main_v703 main_v704 (addf : (⟨S20000x64, .f32⟩ : BufTy).Contents (Elt F) → (⟨S20000x64, .f32⟩ : BufTy).Contents (Elt F) → (⟨S20000x64, .f32⟩ : BufTy).Contents (Elt F)),
    unary main_arg11 main_v705 ((extractStridedSlice S1x128x64 ![4, 0, 0] · slices_S6x128x64_S1x128x64_4_0_0) : (⟨S6x128x64, .f32⟩ : BufTy).Contents (Elt F) → (⟨S1x128x64, .f32⟩ : BufTy).Contents (Elt F)),
    reshape main_v705 main_v706 rfl shapeCasts_S1x128x64_S128x64,
    unary main_arg12 main_v707 ((extractStridedSlice S1x64 ![4, 0] · slices_S6x64_S1x64_4_0) : (⟨S6x64, .f32⟩ : BufTy).Contents (Elt F) → (⟨S1x64, .f32⟩ : BufTy).Contents (Elt F)),
    reshape main_v707 main_v708 rfl shapeCasts_S1x64_S64,
    unary main_arg21 main_v709 ((extractStridedSlice S1x500000 ![0, 0] · slices_S2x500000_S1x500000_0_0) : (⟨S2x500000, .i32⟩ : BufTy).Contents (Elt F) → (⟨S1x500000, .i32⟩ : BufTy).Contents (Elt F)),
    reshape main_v709 main_v710 rfl shapeCasts_S1x500000_S500000,
    unary main_arg21 main_v711 ((extractStridedSlice S1x500000 ![1, 0] · slices_S2x500000_S1x500000_1_0) : (⟨S2x500000, .i32⟩ : BufTy).Contents (Elt F) → (⟨S1x500000, .i32⟩ : BufTy).Contents (Elt F)),
    reshape main_v711 main_v712 rfl shapeCasts_S1x500000_S500000,
    nullary main_cst_179 (constant S_ .f32 0x3F800000#32),
    unary main_cst_179 main_v713 (broadcastInDim S500000 ![] bcast_S_S500000 : (⟨S_, .f32⟩ : BufTy).Contents (Elt F) → (⟨S500000, .f32⟩ : BufTy).Contents (Elt F)),
    nullary main_cst_180 (constant S_ .f32 0x00000000#32),
    unary main_cst_180 main_v714 (broadcastInDim S60000 ![] bcast_S_S60000 : (⟨S_, .f32⟩ : BufTy).Contents (Elt F) → (⟨S60000, .f32⟩ : BufTy).Contents (Elt F)),
    unary main_v710 main_v715 (broadcastInDim S500000x1 ![0] bcast_S500000_S500000x1_0 : (⟨S500000, .i32⟩ : BufTy).Contents (Elt F) → (⟨S500000x1, .i32⟩ : BufTy).Contents (Elt F)),
    ternary main_v714 main_v715 main_v713 main_v716 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)) ]

set_option maxRecDepth 8192 in
set_option maxHeartbeats 4000000 in
/-- The window is the line of its operations (a call unfolds to its callee's operations). -/
theorem main_part14_eq (c : Dev nD) : main_part14 (F := F) c = seq wops_14 := rfl

end Cert.ReferenceIdeal.Hand

end
-- ==== Proof.Ref.Win_15.lean ====
/- Window 15 of the reference's @main is the straight line of its operations 946 … 1009. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 946 … 1009 of @main (window 15), in program order. -/
abbrev wops_15 : List (HloOp τ sig (Elt F)) :=
  [ nullary main_cst_181 (constant S_ .f32 0x00000000#32),
    unary main_cst_181 main_v717 (broadcastInDim S20000 ![] bcast_S_S20000 : (⟨S_, .f32⟩ : BufTy).Contents (Elt F) → (⟨S20000, .f32⟩ : BufTy).Contents (Elt F)),
    unary main_v712 main_v718 (broadcastInDim S500000x1 ![0] bcast_S500000_S500000x1_0 : (⟨S500000, .i32⟩ : BufTy).Contents (Elt F) → (⟨S500000x1, .i32⟩ : BufTy).Contents (Elt F)),
    ternary main_v717 main_v718 main_v713 main_v719 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_182 (constant S_ .f32 0x00000000#32),
    unary main_cst_182 main_v720 (broadcastInDim S60000 ![] bcast_S_S60000 : (⟨S_, .f32⟩ : BufTy).Contents (Elt F) → (⟨S60000, .f32⟩ : BufTy).Contents (Elt F)),
    binary main_v716 main_v720 main_v721 (cmpf .ogt : (⟨S60000, .f32⟩ : BufTy).Contents (Elt F) → (⟨S60000, .f32⟩ : BufTy).Contents (Elt F) → (⟨S60000, .i1⟩ : BufTy).Contents (Elt F)),
    nullary main_cst_183 (constant S_ .f32 0x3F800000#32),
    unary main_cst_183 main_v722 (broadcastInDim S60000 ![] bcast_S_S60000 : (⟨S_, .f32⟩ : BufTy).Contents (Elt F) → (⟨S60000, .f32⟩ : BufTy).Contents (Elt F)),
    binary main_v716 main_v722 main_v723 (maximumf : (⟨S60000, .f32⟩ : BufTy).Contents (Elt F) → (⟨S60000, .f32⟩ : BufTy).Contents (Elt F) → (⟨S60000, .f32⟩ : BufTy).Contents (Elt F)),
    unary main_v723 main_v724 (Host.rsqrt : (⟨S60000, .f32⟩ : BufTy).Contents (Elt F) → (⟨S60000, .f32⟩ : BufTy).Contents (Elt F)),
    nullary main_cst_184 (constant S_ .f32 0x00000000#32),
    TRef.unary (TRef.of (T := ⟨S_, .f32⟩) main_cst_184) (TRef.of (T := ⟨S_, .f32⟩) main_call23_v0) id,
    TRef.unary (TRef.of (T := ⟨S_, .f32⟩) main_call23_v0) (TRef.of (T := ⟨S60000, .f32⟩) main_call23_v1) (broadcastInDim S60000 ![] bcast_S_S60000),
    TRef.ternary (TRef.of (T := ⟨S60000, .i1⟩) main_v721) (TRef.of (T := ⟨S60000, .f32⟩) main_v724) (TRef.of (T := ⟨S60000, .f32⟩) main_call23_v1) (TRef.of (T := ⟨S60000, .f32⟩) main_v725) select,
    nullary main_cst_185 (constant S_ .f32 0x00000000#32),
    unary main_cst_185 main_v726 (broadcastInDim S20000 ![] bcast_S_S20000 : (⟨S_, .f32⟩ : BufTy).Contents (Elt F) → (⟨S20000, .f32⟩ : BufTy).Contents (Elt F)),
    binary main_v719 main_v726 main_v727 (cmpf .ogt : (⟨S20000, .f32⟩ : BufTy).Contents (Elt F) → (⟨S20000, .f32⟩ : BufTy).Contents (Elt F) → (⟨S20000, .i1⟩ : BufTy).Contents (Elt F)),
    nullary main_cst_186 (constant S_ .f32 0x3F800000#32),
    unary main_cst_186 main_v728 (broadcastInDim S20000 ![] bcast_S_S20000 : (⟨S_, .f32⟩ : BufTy).Contents (Elt F) → (⟨S20000, .f32⟩ : BufTy).Contents (Elt F)),
    binary main_v719 main_v728 main_v729 (maximumf : (⟨S20000, .f32⟩ : BufTy).Contents (Elt F) → (⟨S20000, .f32⟩ : BufTy).Contents (Elt F) → (⟨S20000, .f32⟩ : BufTy).Contents (Elt F)),
    unary main_v729 main_v730 (Host.rsqrt : (⟨S20000, .f32⟩ : BufTy).Contents (Elt F) → (⟨S20000, .f32⟩ : BufTy).Contents (Elt F)),
    nullary main_cst_187 (constant S_ .f32 0x00000000#32),
    TRef.unary (TRef.of (T := ⟨S_, .f32⟩) main_cst_187) (TRef.of (T := ⟨S_, .f32⟩) main_call24_v0) id,
    TRef.unary (TRef.of (T := ⟨S_, .f32⟩) main_call24_v0) (TRef.of (T := ⟨S20000, .f32⟩) main_call24_v1) (broadcastInDim S20000 ![] bcast_S_S20000),
    TRef.ternary (TRef.of (T := ⟨S20000, .i1⟩) main_v727) (TRef.of (T := ⟨S20000, .f32⟩) main_v730) (TRef.of (T := ⟨S20000, .f32⟩) main_call24_v1) (TRef.of (T := ⟨S20000, .f32⟩) main_v731) select,
    binary main_v460 main_v706 main_v732 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    nullary main_c_188 (constantI S_ 32 0#32),
    unary main_c_188 main_v733 (broadcastInDim S500000 ![] bcast_S_S500000 : (⟨S_, .i32⟩ : BufTy).Contents (Elt F) → (⟨S500000, .i32⟩ : BufTy).Contents (Elt F)),
    binary main_v710 main_v733 main_v734 (cmpi .slt : (⟨S500000, .i32⟩ : BufTy).Contents (Elt F) → (⟨S500000, .i32⟩ : BufTy).Contents (Elt F) → (⟨S500000, .i1⟩ : BufTy).Contents (Elt F)),
    nullary main_c_189 (constantI S_ 32 60000#32),
    unary main_c_189 main_v735 (broadcastInDim S500000 ![] bcast_S_S500000 : (⟨S_, .i32⟩ : BufTy).Contents (Elt F) → (⟨S500000, .i32⟩ : BufTy).Contents (Elt F)),
    binary main_v710 main_v735 main_v736 (addi : (⟨S500000, .i32⟩ : BufTy).Contents (Elt F) → (⟨S500000, .i32⟩ : BufTy).Contents (Elt F) → (⟨S500000, .i32⟩ : BufTy).Contents (Elt F)),
    ternary main_v734 main_v736 main_v710 main_v737 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v737 main_v738 (broadcastInDim S500000x1 ![0] bcast_S500000_S500000x1_0 : (⟨S500000, .i32⟩ : BufTy).Contents (Elt F) → (⟨S500000x1, .i32⟩ : BufTy).Contents (Elt F)),
    binary main_v725 main_v738 main_v739 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    nullary main_c_190 (constantI S_ 32 0#32),
    unary main_c_190 main_v740 (broadcastInDim S500000 ![] bcast_S_S500000 : (⟨S_, .i32⟩ : BufTy).Contents (Elt F) → (⟨S500000, .i32⟩ : BufTy).Contents (Elt F)),
    binary main_v712 main_v740 main_v741 (cmpi .slt : (⟨S500000, .i32⟩ : BufTy).Contents (Elt F) → (⟨S500000, .i32⟩ : BufTy).Contents (Elt F) → (⟨S500000, .i1⟩ : BufTy).Contents (Elt F)),
    nullary main_c_191 (constantI S_ 32 20000#32),
    unary main_c_191 main_v742 (broadcastInDim S500000 ![] bcast_S_S500000 : (⟨S_, .i32⟩ : BufTy).Contents (Elt F) → (⟨S500000, .i32⟩ : BufTy).Contents (Elt F)),
    binary main_v712 main_v742 main_v743 (addi : (⟨S500000, .i32⟩ : BufTy).Contents (Elt F) → (⟨S500000, .i32⟩ : BufTy).Contents (Elt F) → (⟨S500000, .i32⟩ : BufTy).Contents (Elt F)),
    ternary main_v741 main_v743 main_v712 main_v744 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v744 main_v745 (broadcastInDim S500000x1 ![0] bcast_S500000_S500000x1_0 : (⟨S500000, .i32⟩ : BufTy).Contents (Elt F) → (⟨S500000x1, .i32⟩ : BufTy).Contents (Elt F)),
    binary main_v731 main_v745 main_v746 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    binary main_v739 main_v746 main_v747 (mulf : (⟨S500000, .f32⟩ : BufTy).Contents (Elt F) → (⟨S500000, .f32⟩ : BufTy).Contents (Elt F) → (⟨S500000, .f32⟩ : BufTy).Contents (Elt F)),
    nullary main_c_192 (constantI S_ 32 0#32),
    unary main_c_192 main_v748 (broadcastInDim S500000 ![] bcast_S_S500000 : (⟨S_, .i32⟩ : BufTy).Contents (Elt F) → (⟨S500000, .i32⟩ : BufTy).Contents (Elt F)),
    binary main_v710 main_v748 main_v749 (cmpi .slt : (⟨S500000, .i32⟩ : BufTy).Contents (Elt F) → (⟨S500000, .i32⟩ : BufTy).Contents (Elt F) → (⟨S500000, .i1⟩ : BufTy).Contents (Elt F)),
    nullary main_c_193 (constantI S_ 32 60000#32),
    unary main_c_193 main_v750 (broadcastInDim S500000 ![] bcast_S_S500000 : (⟨S_, .i32⟩ : BufTy).Contents (Elt F) → (⟨S500000, .i32⟩ : BufTy).Contents (Elt F)),
    binary main_v710 main_v750 main_v751 (addi : (⟨S500000, .i32⟩ : BufTy).Contents (Elt F) → (⟨S500000, .i32⟩ : BufTy).Contents (Elt F) → (⟨S500000, .i32⟩ : BufTy).Contents (Elt F)),
    ternary main_v749 main_v751 main_v710 main_v752 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v752 main_v753 (broadcastInDim S500000x1 ![0] bcast_S500000_S500000x1_0 : (⟨S500000, .i32⟩ : BufTy).Contents (Elt F) → (⟨S500000x1, .i32⟩ : BufTy).Contents (Elt F)),
    binary main_v732 main_v753 main_v754 ((fun x i => Host.gather gather_S60000x64_S500000x1_S500000x64_1_0_n_n_0_1_164 x i) : (⟨S60000x64, .f32⟩ : BufTy).Contents (Elt F) → (⟨S500000x1, .i32⟩ : BufTy).Contents (Elt F) → (⟨S500000x64, .f32⟩ : BufTy).Contents (Elt F)),
    unary main_v747 main_v755 (broadcastInDim S500000x1 ![0] bcast_S500000_S500000x1_0 : (⟨S500000, .f32⟩ : BufTy).Contents (Elt F) → (⟨S500000x1, .f32⟩ : BufTy).Contents (Elt F)),
    unary main_v755 main_v756 (broadcastInDim S500000x64 ![0, 1] bcast_S500000x1_S500000x64_0_1 : (⟨S500000x1, .f32⟩ : BufTy).Contents (Elt F) → (⟨S500000x64, .f32⟩ : BufTy).Contents (Elt F)),
    binary main_v754 main_v756 main_v757 (mulf : (⟨S500000x64, .f32⟩ : BufTy).Contents (Elt F) → (⟨S500000x64, .f32⟩ : BufTy).Contents (Elt F) → (⟨S500000x64, .f32⟩ : BufTy).Contents (Elt F)),
    nullary main_cst_194 (constant S_ .f32 0x00000000#32),
    unary main_cst_194 main_v758 (broadcastInDim S20000x64 ![] bcast_S_S20000x64 : (⟨S_, .f32⟩ : BufTy).Contents (Elt F) → (⟨S20000x64, .f32⟩ : BufTy).Contents (Elt F)),
    unary main_v712 main_v759 (broadcastInDim S500000x1 ![0] bcast_S500000_S500000x1_0 : (⟨S500000, .i32⟩ : BufTy).Contents (Elt F) → (⟨S500000x1, .i32⟩ : BufTy).Contents (Elt F)),
    ternary main_v758 main_v759 main_v757 main_v760 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    unary main_v708 main_v761 (broadcastInDim S1x64 ![1] bcast_S64_S1x64_1 : (⟨S64, .f32⟩ : BufTy).Contents (Elt F) → (⟨S1x64, .f32⟩ : BufTy).Contents (Elt F)),
    unary main_v761 main_v762 (broadcastInDim S20000x64 ![0, 1] bcast_S1x64_S20000x64_0_1 : (⟨S1x64, .f32⟩ : BufTy).Contents (Elt F) → (⟨S20000x64, .f32⟩ : BufTy).Contents (Elt F)) ]

set_option maxRecDepth 8192 in
set_option maxHeartbeats 4000000 in
/-- The window is the line of its operations (a call unfolds to its callee's operations). -/
theorem main_part15_eq (c : Dev nD) : main_part15 (F := F) c = seq wops_15 := rfl

end Cert.ReferenceIdeal.Hand

end
-- ==== Proof.Ref.Win_16.lean ====
/- Window 16 of the reference's @main is the straight line of its operations 1010 … 1073. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1010 … 1073 of @main (window 16), in program order. -/
abbrev wops_16 : List (HloOp τ sig (Elt F)) :=
  [ binary main_v760 main_v762 main_v763 (addf : (⟨S20000x64, .f32⟩ : BufTy).Contents (Elt F) → (⟨S20000x64, .f32⟩ : BufTy).Contents (Elt F) → (⟨S20000x64, .f32⟩ : BufTy).Contents (Elt F)),
    binary main_v704 main_v763 main_v764 (addf : (⟨S20000x64, .f32⟩ : BufTy).Contents (Elt F) → (⟨S20000x64, .f32⟩ : BufTy).Contents (Elt F) → (⟨S20000x64, .f32⟩ : BufTy).Contents (Elt F)),
    unary main_arg11 main_v765 ((extractStridedSlice S1x128x64 ![5, 0, 0] · slices_S6x128x64_S1x128x64_5_0_0) : (⟨S6x128x64, .f32⟩ : BufTy).Contents (Elt F) → (⟨S1x128x64, .f32⟩ : BufTy).Contents (Elt F)),
    reshape main_v765 main_v766 rfl shapeCasts_S1x128x64_S128x64,
    unary main_arg12 main_v767 ((extractStridedSlice S1x64 ![5, 0] · slices_S6x64_S1x64_5_0) : (⟨S6x64, .f32⟩ : BufTy).Contents (Elt F) → (⟨S1x64, .f32⟩ : BufTy).Contents (Elt F)),
    reshape main_v767 main_v768 rfl shapeCasts_S1x64_S64,
    unary main_arg22 main_v769 ((extractStridedSlice S1x500000 ![0, 0] · slices_S2x500000_S1x500000_0_0) : (⟨S2x500000, .i32⟩ : BufTy).Contents (Elt F) → (⟨S1x500000, .i32⟩ : BufTy).Contents (Elt F)),
    reshape main_v769 main_v770 rfl shapeCasts_S1x500000_S500000,
    unary main_arg22 main_v771 ((extractStridedSlice S1x500000 ![1, 0] · slices_S2x500000_S1x500000_1_0) : (⟨S2x500000, .i32⟩ : BufTy).Contents (Elt F) → (⟨S1x500000, .i32⟩ : BufTy).Contents (Elt F)),
    reshape main_v771 main_v772 rfl shapeCasts_S1x500000_S500000,
    nullary main_cst_195 (constant S_ .f32 0x3F800000#32),
    unary main_cst_195 main_v773 (broadcastInDim S500000 ![] bcast_S_S500000 : (⟨S_, .f32⟩ : BufTy).Contents (Elt F) → (⟨S500000, .f32⟩ : BufTy).Contents (Elt F)),
    nullary main_cst_196 (constant S_ .f32 0x00000000#32),
    unary main_cst_196 main_v774 (broadcastInDim S20000 ![] bcast_S_S20000 : (⟨S_, .f32⟩ : BufTy).Contents (Elt F) → (⟨S20000, .f32⟩ : BufTy).Contents (Elt F)),
    unary main_v770 main_v775 (broadcastInDim S500000x1 ![0] bcast_S500000_S500000x1_0 : (⟨S500000, .i32⟩ : BufTy).Contents (Elt F) → (⟨S500000x1, .i32⟩ : BufTy).Contents (Elt F)),
    ternary main_v774 main_v775 main_v773 main_v776 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_197 (constant S_ .f32 0x00000000#32),
    unary main_cst_197 main_v777 (broadcastInDim S60000 ![] bcast_S_S60000 : (⟨S_, .f32⟩ : BufTy).Contents (Elt F) → (⟨S60000, .f32⟩ : BufTy).Contents (Elt F)),
    unary main_v772 main_v778 (broadcastInDim S500000x1 ![0] bcast_S500000_S500000x1_0 : (⟨S500000, .i32⟩ : BufTy).Contents (Elt F) → (⟨S500000x1, .i32⟩ : BufTy).Contents (Elt F)),
    ternary main_v777 main_v778 main_v773 main_v779 ((fun x i u => Host.scatterAdd scatter_S60000_S500000x1_S500000_n_0_0_1 x i u) : (⟨S60000, .f32⟩ : BufTy).Contents (Elt F) → (⟨S500000x1, .i32⟩ : BufTy).Contents (Elt F) → (⟨S500000, .f32⟩ : BufTy).Contents (Elt F) → (⟨S60000, .f32⟩ : BufTy).Contents (Elt F)),
    nullary main_cst_198 (constant S_ .f32 0x00000000#32),
    unary main_cst_198 main_v780 (broadcastInDim S20000 ![] bcast_S_S20000 : (⟨S_, .f32⟩ : BufTy).Contents (Elt F) → (⟨S20000, .f32⟩ : BufTy).Contents (Elt F)),
    binary main_v776 main_v780 main_v781 (cmpf .ogt : (⟨S20000, .f32⟩ : BufTy).Contents (Elt F) → (⟨S20000, .f32⟩ : BufTy).Contents (Elt F) → (⟨S20000, .i1⟩ : BufTy).Contents (Elt F)),
    nullary main_cst_199 (constant S_ .f32 0x3F800000#32),
    unary main_cst_199 main_v782 (broadcastInDim S20000 ![] bcast_S_S20000 : (⟨S_, .f32⟩ : BufTy).Contents (Elt F) → (⟨S20000, .f32⟩ : BufTy).Contents (Elt F)),
    binary main_v776 main_v782 main_v783 (maximumf : (⟨S20000, .f32⟩ : BufTy).Contents (Elt F) → (⟨S20000, .f32⟩ : BufTy).Contents (Elt F) → (⟨S20000, .f32⟩ : BufTy).Contents (Elt F)),
    unary main_v783 main_v784 (Host.rsqrt : (⟨S20000, .f32⟩ : BufTy).Contents (Elt F) → (⟨S20000, .f32⟩ : BufTy).Contents (Elt F)),
    nullary main_cst_200 (constant S_ .f32 0x00000000#32),
    TRef.unary (TRef.of (T := ⟨S_, .f32⟩) main_cst_200) (TRef.of (T := ⟨S_, .f32⟩) main_call25_v0) id,
    TRef.unary (TRef.of (T := ⟨S_, .f32⟩) main_call25_v0) (TRef.of (T := ⟨S20000, .f32⟩) main_call25_v1) (broadcastInDim S20000 ![] bcast_S_S20000),
    TRef.ternary (TRef.of (T := ⟨S20000, .i1⟩) main_v781) (TRef.of (T := ⟨S20000, .f32⟩) main_v784) (TRef.of (T := ⟨S20000, .f32⟩) main_call25_v1) (TRef.of (T := ⟨S20000, .f32⟩) main_v785) select,
    nullary main_cst_201 (constant S_ .f32 0x00000000#32),
    unary main_cst_201 main_v786 (broadcastInDim S60000 ![] bcast_S_S60000 : (⟨S_, .f32⟩ : BufTy).Contents (Elt F) → (⟨S60000, .f32⟩ : BufTy).Contents (Elt F)),
    binary main_v779 main_v786 main_v787 (cmpf .ogt : (⟨S60000, .f32⟩ : BufTy).Contents (Elt F) → (⟨S60000, .f32⟩ : BufTy).Contents (Elt F) → (⟨S60000, .i1⟩ : BufTy).Contents (Elt F)),
    nullary main_cst_202 (constant S_ .f32 0x3F800000#32),
    unary main_cst_202 main_v788 (broadcastInDim S60000 ![] bcast_S_S60000 : (⟨S_, .f32⟩ : BufTy).Contents (Elt F) → (⟨S60000, .f32⟩ : BufTy).Contents (Elt F)),
    binary main_v779 main_v788 main_v789 (maximumf : (⟨S60000, .f32⟩ : BufTy).Contents (Elt F) → (⟨S60000, .f32⟩ : BufTy).Contents (Elt F) → (⟨S60000, .f32⟩ : BufTy).Contents (Elt F)),
    unary main_v789 main_v790 (Host.rsqrt : (⟨S60000, .f32⟩ : BufTy).Contents (Elt F) → (⟨S60000, .f32⟩ : BufTy).Contents (Elt F)),
    nullary main_cst_203 (constant S_ .f32 0x00000000#32),
    TRef.unary (TRef.of (T := ⟨S_, .f32⟩) main_cst_203) (TRef.of (T := ⟨S_, .f32⟩) main_call26_v0) id,
    TRef.unary (TRef.of (T := ⟨S_, .f32⟩) main_call26_v0) (TRef.of (T := ⟨S60000, .f32⟩) main_call26_v1) (broadcastInDim S60000 ![] bcast_S_S60000),
    TRef.ternary (TRef.of (T := ⟨S60000, .i1⟩) main_v787) (TRef.of (T := ⟨S60000, .f32⟩) main_v790) (TRef.of (T := ⟨S60000, .f32⟩) main_call26_v1) (TRef.of (T := ⟨S60000, .f32⟩) main_v791) select,
    binary main_v461 main_v766 main_v792 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)),
    nullary main_c_204 (constantI S_ 32 0#32),
    unary main_c_204 main_v793 (broadcastInDim S500000 ![] bcast_S_S500000 : (⟨S_, .i32⟩ : BufTy).Contents (Elt F) → (⟨S500000, .i32⟩ : BufTy).Contents (Elt F)),
    binary main_v770 main_v793 main_v794 (cmpi .slt : (⟨S500000, .i32⟩ : BufTy).Contents (Elt F) → (⟨S500000, .i32⟩ : BufTy).Contents (Elt F) → (⟨S500000, .i1⟩ : BufTy).Contents (Elt F)),
    nullary main_c_205 (constantI S_ 32 20000#32),
    unary main_c_205 main_v795 (broadcastInDim S500000 ![] bcast_S_S500000 : (⟨S_, .i32⟩ : BufTy).Contents (Elt F) → (⟨S500000, .i32⟩ : BufTy).Contents (Elt F)),
    binary main_v770 main_v795 main_v796 (addi : (⟨S500000, .i32⟩ : BufTy).Contents (Elt F) → (⟨S500000, .i32⟩ : BufTy).Contents (Elt F) → (⟨S500000, .i32⟩ : BufTy).Contents (Elt F)),
    ternary main_v794 main_v796 main_v770 main_v797 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v797 main_v798 (broadcastInDim S500000x1 ![0] bcast_S500000_S500000x1_0 : (⟨S500000, .i32⟩ : BufTy).Contents (Elt F) → (⟨S500000x1, .i32⟩ : BufTy).Contents (Elt F)),
    binary main_v785 main_v798 main_v799 ((fun x i => Host.gather gather_S20000_S500000x1_S500000_n_0_n_n_0_1_1 x i) : (⟨S20000, .f32⟩ : BufTy).Contents (Elt F) → (⟨S500000x1, .i32⟩ : BufTy).Contents (Elt F) → (⟨S500000, .f32⟩ : BufTy).Contents (Elt F)),
    nullary main_c_206 (constantI S_ 32 0#32),
    unary main_c_206 main_v800 (broadcastInDim S500000 ![] bcast_S_S500000 : (⟨S_, .i32⟩ : BufTy).Contents (Elt F) → (⟨S500000, .i32⟩ : BufTy).Contents (Elt F)),
    binary main_v772 main_v800 main_v801 (cmpi .slt : (⟨S500000, .i32⟩ : BufTy).Contents (Elt F) → (⟨S500000, .i32⟩ : BufTy).Contents (Elt F) → (⟨S500000, .i1⟩ : BufTy).Contents (Elt F)),
    nullary main_c_207 (constantI S_ 32 60000#32),
    unary main_c_207 main_v802 (broadcastInDim S500000 ![] bcast_S_S500000 : (⟨S_, .i32⟩ : BufTy).Contents (Elt F) → (⟨S500000, .i32⟩ : BufTy).Contents (Elt F)),
    binary main_v772 main_v802 main_v803 (addi : (⟨S500000, .i32⟩ : BufTy).Contents (Elt F) → (⟨S500000, .i32⟩ : BufTy).Contents (Elt F) → (⟨S500000, .i32⟩ : BufTy).Contents (Elt F)),
    ternary main_v801 main_v803 main_v772 main_v804 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v804 main_v805 (broadcastInDim S500000x1 ![0] bcast_S500000_S500000x1_0 : (⟨S500000, .i32⟩ : BufTy).Contents (Elt F) → (⟨S500000x1, .i32⟩ : BufTy).Contents (Elt F)),
    binary main_v791 main_v805 main_v806 ((fun x i => Host.gather gather_S60000_S500000x1_S500000_n_0_n_n_0_1_1 x i) : (⟨S60000, .f32⟩ : BufTy).Contents (Elt F) → (⟨S500000x1, .i32⟩ : BufTy).Contents (Elt F) → (⟨S500000, .f32⟩ : BufTy).Contents (Elt F)),
    binary main_v799 main_v806 main_v807 (mulf : (⟨S500000, .f32⟩ : BufTy).Contents (Elt F) → (⟨S500000, .f32⟩ : BufTy).Contents (Elt F) → (⟨S500000, .f32⟩ : BufTy).Contents (Elt F)),
    nullary main_c_208 (constantI S_ 32 0#32),
    unary main_c_208 main_v808 (broadcastInDim S500000 ![] bcast_S_S500000 : (⟨S_, .i32⟩ : BufTy).Contents (Elt F) → (⟨S500000, .i32⟩ : BufTy).Contents (Elt F)) ]

set_option maxRecDepth 8192 in
set_option maxHeartbeats 4000000 in
/-- The window is the line of its operations (a call unfolds to its callee's operations). -/
theorem main_part16_eq (c : Dev nD) : main_part16 (F := F) c = seq wops_16 := rfl

end Cert.ReferenceIdeal.Hand

end
-- ==== Proof.Ref.Win_17.lean ====
/- Window 17 of the reference's @main is the straight line of its operations 1074 … 1133. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1074 … 1133 of @main (window 17), in program order. -/
abbrev wops_17 : List (HloOp τ sig (Elt F)) :=
  [ binary main_v770 main_v808 main_v809 (cmpi .slt : (⟨S500000, .i32⟩ : BufTy).Contents (Elt F) → (⟨S500000, .i32⟩ : BufTy).Contents (Elt F) → (⟨S500000, .i1⟩ : BufTy).Contents (Elt F)),
    nullary main_c_209 (constantI S_ 32 20000#32),
    unary main_c_209 main_v810 (broadcastInDim S500000 ![] bcast_S_S500000 : (⟨S_, .i32⟩ : BufTy).Contents (Elt F) → (⟨S500000, .i32⟩ : BufTy).Contents (Elt F)),
    binary main_v770 main_v810 main_v811 (addi : (⟨S500000, .i32⟩ : BufTy).Contents (Elt F) → (⟨S500000, .i32⟩ : BufTy).Contents (Elt F) → (⟨S500000, .i32⟩ : BufTy).Contents (Elt F)),
    ternary main_v809 main_v811 main_v770 main_v812 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v812 main_v813 (broadcastInDim S500000x1 ![0] bcast_S500000_S500000x1_0 : (⟨S500000, .i32⟩ : BufTy).Contents (Elt F) → (⟨S500000x1, .i32⟩ : BufTy).Contents (Elt F)),
    binary main_v792 main_v813 main_v814 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    unary main_v807 main_v815 (broadcastInDim S500000x1 ![0] bcast_S500000_S500000x1_0 : (⟨S500000, .f32⟩ : BufTy).Contents (Elt F) → (⟨S500000x1, .f32⟩ : BufTy).Contents (Elt F)),
    unary main_v815 main_v816 (broadcastInDim S500000x64 ![0, 1] bcast_S500000x1_S500000x64_0_1 : (⟨S500000x1, .f32⟩ : BufTy).Contents (Elt F) → (⟨S500000x64, .f32⟩ : BufTy).Contents (Elt F)),
    binary main_v814 main_v816 main_v817 (mulf : (⟨S500000x64, .f32⟩ : BufTy).Contents (Elt F) → (⟨S500000x64, .f32⟩ : BufTy).Contents (Elt F) → (⟨S500000x64, .f32⟩ : BufTy).Contents (Elt F)),
    nullary main_cst_210 (constant S_ .f32 0x00000000#32),
    unary main_cst_210 main_v818 (broadcastInDim S60000x64 ![] bcast_S_S60000x64 : (⟨S_, .f32⟩ : BufTy).Contents (Elt F) → (⟨S60000x64, .f32⟩ : BufTy).Contents (Elt F)),
    unary main_v772 main_v819 (broadcastInDim S500000x1 ![0] bcast_S500000_S500000x1_0 : (⟨S500000, .i32⟩ : BufTy).Contents (Elt F) → (⟨S500000x1, .i32⟩ : BufTy).Contents (Elt F)),
    ternary main_v818 main_v819 main_v817 main_v820 ((fun x i u => Host.scatterAdd scatter_S60000x64_S500000x1_S500000x64_1_0_0_1 x i u) : (⟨S60000x64, .f32⟩ : BufTy).Contents (Elt F) → (⟨S500000x1, .i32⟩ : BufTy).Contents (Elt F) → (⟨S500000x64, .f32⟩ : BufTy).Contents (Elt F) → (⟨S60000x64, .f32⟩ : BufTy).Contents (Elt F)),
    unary main_v768 main_v821 (broadcastInDim S1x64 ![1] bcast_S64_S1x64_1 : (⟨S64, .f32⟩ : BufTy).Contents (Elt F) → (⟨S1x64, .f32⟩ : BufTy).Contents (Elt F)),
    unary main_v821 main_v822 (broadcastInDim S60000x64 ![0, 1] bcast_S1x64_S60000x64_0_1 : (⟨S1x64, .f32⟩ : BufTy).Contents (Elt F) → (⟨S60000x64, .f32⟩ : BufTy).Contents (Elt F)),
    binary main_v820 main_v822 main_v823 (addf : (⟨S60000x64, .f32⟩ : BufTy).Contents (Elt F) → (⟨S60000x64, .f32⟩ : BufTy).Contents (Elt F) → (⟨S60000x64, .f32⟩ : BufTy).Contents (Elt F)),
    binary main_v584 main_v823 main_v824 (addf : (⟨S60000x64, .f32⟩ : BufTy).Contents (Elt F) → (⟨S60000x64, .f32⟩ : BufTy).Contents (Elt F) → (⟨S60000x64, .f32⟩ : BufTy).Contents (Elt F)),
    unary main_arg15 main_v825 ((extractStridedSlice S1x64 ![0, 0] · slices_S3x64_S1x64_0_0) : (⟨S3x64, .f32⟩ : BufTy).Contents (Elt F) → (⟨S1x64, .f32⟩ : BufTy).Contents (Elt F)),
    reshape main_v825 main_v826 rfl shapeCasts_S1x64_S64,
    unary main_arg16 main_v827 ((extractStridedSlice S1x64 ![0, 0] · slices_S3x64_S1x64_0_0) : (⟨S3x64, .f32⟩ : BufTy).Contents (Elt F) → (⟨S1x64, .f32⟩ : BufTy).Contents (Elt F)),
    reshape main_v827 main_v828 rfl shapeCasts_S1x64_S64,
    nullary main_cst_211 (constant S_ .f32 0x00000000#32),
    binary main_v764 main_cst_211 main_v829 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v829 main_v830 (broadcastInDim S20000x1 ![0] bcast_S20000_S20000x1_0 : (⟨S20000, .f32⟩ : BufTy).Contents (Elt F) → (⟨S20000x1, .f32⟩ : BufTy).Contents (Elt F)),
    nullary main_cst_212 (constant S_ .f32 0x42800000#32),
    unary main_cst_212 main_v831 (broadcastInDim S20000x1 ![] bcast_S_S20000x1 : (⟨S_, .f32⟩ : BufTy).Contents (Elt F) → (⟨S20000x1, .f32⟩ : BufTy).Contents (Elt F)),
    binary main_v830 main_v831 main_v832 (Host.divf : (⟨S20000x1, .f32⟩ : BufTy).Contents (Elt F) → (⟨S20000x1, .f32⟩ : BufTy).Contents (Elt F) → (⟨S20000x1, .f32⟩ : BufTy).Contents (Elt F)),
    unary main_v832 main_v833 (broadcastInDim S20000x64 ![0, 1] bcast_S20000x1_S20000x64_0_1 : (⟨S20000x1, .f32⟩ : BufTy).Contents (Elt F) → (⟨S20000x64, .f32⟩ : BufTy).Contents (Elt F)),
    binary main_v764 main_v833 main_v834 (subf : (⟨S20000x64, .f32⟩ : BufTy).Contents (Elt F) → (⟨S20000x64, .f32⟩ : BufTy).Contents (Elt F) → (⟨S20000x64, .f32⟩ : BufTy).Contents (Elt F)),
    binary main_v834 main_v834 main_v835 (mulf : (⟨S20000x64, .f32⟩ : BufTy).Contents (Elt F) → (⟨S20000x64, .f32⟩ : BufTy).Contents (Elt F) → (⟨S20000x64, .f32⟩ : BufTy).Contents (Elt F)),
    nullary main_cst_213 (constant S_ .f32 0x00000000#32),
    binary main_v835 main_cst_213 main_v836 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v836 main_v837 (broadcastInDim S20000x1 ![0] bcast_S20000_S20000x1_0 : (⟨S20000, .f32⟩ : BufTy).Contents (Elt F) → (⟨S20000x1, .f32⟩ : BufTy).Contents (Elt F)),
    nullary main_cst_214 (constant S_ .f32 0x42800000#32),
    unary main_cst_214 main_v838 (broadcastInDim S20000x1 ![] bcast_S_S20000x1 : (⟨S_, .f32⟩ : BufTy).Contents (Elt F) → (⟨S20000x1, .f32⟩ : BufTy).Contents (Elt F)),
    binary main_v837 main_v838 main_v839 (Host.divf : (⟨S20000x1, .f32⟩ : BufTy).Contents (Elt F) → (⟨S20000x1, .f32⟩ : BufTy).Contents (Elt F) → (⟨S20000x1, .f32⟩ : BufTy).Contents (Elt F)),
    unary main_v832 main_v840 (broadcastInDim S20000x64 ![0, 1] bcast_S20000x1_S20000x64_0_1 : (⟨S20000x1, .f32⟩ : BufTy).Contents (Elt F) → (⟨S20000x64, .f32⟩ : BufTy).Contents (Elt F)),
    binary main_v764 main_v840 main_v841 (subf : (⟨S20000x64, .f32⟩ : BufTy).Contents (Elt F) → (⟨S20000x64, .f32⟩ : BufTy).Contents (Elt F) → (⟨S20000x64, .f32⟩ : BufTy).Contents (Elt F)),
    nullary main_cst_215 (constant S_ .f32 0x3727C5AC#32),
    unary main_cst_215 main_v842 (broadcastInDim S20000x1 ![] bcast_S_S20000x1 : (⟨S_, .f32⟩ : BufTy).Contents (Elt F) → (⟨S20000x1, .f32⟩ : BufTy).Contents (Elt F)),
    binary main_v839 main_v842 main_v843 (addf : (⟨S20000x1, .f32⟩ : BufTy).Contents (Elt F) → (⟨S20000x1, .f32⟩ : BufTy).Contents (Elt F) → (⟨S20000x1, .f32⟩ : BufTy).Contents (Elt F)),
    unary main_v843 main_v844 (Host.rsqrt : (⟨S20000x1, .f32⟩ : BufTy).Contents (Elt F) → (⟨S20000x1, .f32⟩ : BufTy).Contents (Elt F)),
    unary main_v844 main_v845 (broadcastInDim S20000x64 ![0, 1] bcast_S20000x1_S20000x64_0_1 : (⟨S20000x1, .f32⟩ : BufTy).Contents (Elt F) → (⟨S20000x64, .f32⟩ : BufTy).Contents (Elt F)),
    binary main_v841 main_v845 main_v846 (mulf : (⟨S20000x64, .f32⟩ : BufTy).Contents (Elt F) → (⟨S20000x64, .f32⟩ : BufTy).Contents (Elt F) → (⟨S20000x64, .f32⟩ : BufTy).Contents (Elt F)),
    unary main_v826 main_v847 (broadcastInDim S1x64 ![1] bcast_S64_S1x64_1 : (⟨S64, .f32⟩ : BufTy).Contents (Elt F) → (⟨S1x64, .f32⟩ : BufTy).Contents (Elt F)),
    unary main_v847 main_v848 (broadcastInDim S20000x64 ![0, 1] bcast_S1x64_S20000x64_0_1 : (⟨S1x64, .f32⟩ : BufTy).Contents (Elt F) → (⟨S20000x64, .f32⟩ : BufTy).Contents (Elt F)),
    binary main_v846 main_v848 main_v849 (mulf : (⟨S20000x64, .f32⟩ : BufTy).Contents (Elt F) → (⟨S20000x64, .f32⟩ : BufTy).Contents (Elt F) → (⟨S20000x64, .f32⟩ : BufTy).Contents (Elt F)),
    unary main_v828 main_v850 (broadcastInDim S1x64 ![1] bcast_S64_S1x64_1 : (⟨S64, .f32⟩ : BufTy).Contents (Elt F) → (⟨S1x64, .f32⟩ : BufTy).Contents (Elt F)),
    unary main_v850 main_v851 (broadcastInDim S20000x64 ![0, 1] bcast_S1x64_S20000x64_0_1 : (⟨S1x64, .f32⟩ : BufTy).Contents (Elt F) → (⟨S20000x64, .f32⟩ : BufTy).Contents (Elt F)),
    binary main_v849 main_v851 main_v852 (addf : (⟨S20000x64, .f32⟩ : BufTy).Contents (Elt F) → (⟨S20000x64, .f32⟩ : BufTy).Contents (Elt F) → (⟨S20000x64, .f32⟩ : BufTy).Contents (Elt F)),
    unary main_arg15 main_v853 ((extractStridedSlice S1x64 ![1, 0] · slices_S3x64_S1x64_1_0) : (⟨S3x64, .f32⟩ : BufTy).Contents (Elt F) → (⟨S1x64, .f32⟩ : BufTy).Contents (Elt F)),
    reshape main_v853 main_v854 rfl shapeCasts_S1x64_S64,
    unary main_arg16 main_v855 ((extractStridedSlice S1x64 ![1, 0] · slices_S3x64_S1x64_1_0) : (⟨S3x64, .f32⟩ : BufTy).Contents (Elt F) → (⟨S1x64, .f32⟩ : BufTy).Contents (Elt F)),
    reshape main_v855 main_v856 rfl shapeCasts_S1x64_S64,
    nullary main_cst_216 (constant S_ .f32 0x00000000#32),
    binary main_v824 main_cst_216 main_v857 ((fun x v => Host.reduceAdd x v reducesTo_S60000x64_S60000_d1 h_S_) : (⟨S60000x64, .f32⟩ : BufTy).Contents (Elt F) → (⟨S_, .f32⟩ : BufTy).Contents (Elt F) → (⟨S60000, .f32⟩ : BufTy).Contents (Elt F)),
    unary main_v857 main_v858 (broadcastInDim S60000x1 ![0] bcast_S60000_S60000x1_0 : (⟨S60000, .f32⟩ : BufTy).Contents (Elt F) → (⟨S60000x1, .f32⟩ : BufTy).Contents (Elt F)),
    nullary main_cst_217 (constant S_ .f32 0x42800000#32),
    unary main_cst_217 main_v859 (broadcastInDim S60000x1 ![] bcast_S_S60000x1 : (⟨S_, .f32⟩ : BufTy).Contents (Elt F) → (⟨S60000x1, .f32⟩ : BufTy).Contents (Elt F)) ]

set_option maxRecDepth 8192 in
set_option maxHeartbeats 4000000 in
/-- The window is the line of its operations (a call unfolds to its callee's operations). -/
theorem main_part17_eq (c : Dev nD) : main_part17 (F := F) c = seq wops_17 := rfl

end Cert.ReferenceIdeal.Hand

end
-- ==== Proof.Ref.Win_18.lean ====
/- Window 18 of the reference's @main is the straight line of its operations 1134 … 1190. -/
import proofs.«147021_j7619271983570_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1134 … 1190 of @main (window 18), in program order. -/
abbrev wops_18 : List (HloOp τ sig (Elt F)) :=
  [ binary main_v858 main_v859 main_v860 (Host.divf : (⟨S60000x1, .f32⟩ : BufTy).Contents (Elt F) → (⟨S60000x1, .f32⟩ : BufTy).Contents (Elt F) → (⟨S60000x1, .f32⟩ : BufTy).Contents (Elt F)),
    unary main_v860 main_v861 (broadcastInDim S60000x64 ![0, 1] bcast_S60000x1_S60000x64_0_1 : (⟨S60000x1, .f32⟩ : BufTy).Contents (Elt F) → (⟨S60000x64, .f32⟩ : BufTy).Contents (Elt F)),
    binary main_v824 main_v861 main_v862 (subf : (⟨S60000x64, .f32⟩ : BufTy).Contents (Elt F) → (⟨S60000x64, .f32⟩ : BufTy).Contents (Elt F) → (⟨S60000x64, .f32⟩ : BufTy).Contents (Elt F)),
    binary main_v862 main_v862 main_v863 (mulf : (⟨S60000x64, .f32⟩ : BufTy).Contents (Elt F) → (⟨S60000x64, .f32⟩ : BufTy).Contents (Elt F) → (⟨S60000x64, .f32⟩ : BufTy).Contents (Elt F)),
    nullary main_cst_218 (constant S_ .f32 0x00000000#32),
    binary main_v863 main_cst_218 main_v864 ((fun x v => Host.reduceAdd x v reducesTo_S60000x64_S60000_d1 h_S_) : (⟨S60000x64, .f32⟩ : BufTy).Contents (Elt F) → (⟨S_, .f32⟩ : BufTy).Contents (Elt F) → (⟨S60000, .f32⟩ : BufTy).Contents (Elt F)),
    unary main_v864 main_v865 (broadcastInDim S60000x1 ![0] bcast_S60000_S60000x1_0 : (⟨S60000, .f32⟩ : BufTy).Contents (Elt F) → (⟨S60000x1, .f32⟩ : BufTy).Contents (Elt F)),
    nullary main_cst_219 (constant S_ .f32 0x42800000#32),
    unary main_cst_219 main_v866 (broadcastInDim S60000x1 ![] bcast_S_S60000x1 : (⟨S_, .f32⟩ : BufTy).Contents (Elt F) → (⟨S60000x1, .f32⟩ : BufTy).Contents (Elt F)),
    binary main_v865 main_v866 main_v867 (Host.divf : (⟨S60000x1, .f32⟩ : BufTy).Contents (Elt F) → (⟨S60000x1, .f32⟩ : BufTy).Contents (Elt F) → (⟨S60000x1, .f32⟩ : BufTy).Contents (Elt F)),
    unary main_v860 main_v868 (broadcastInDim S60000x64 ![0, 1] bcast_S60000x1_S60000x64_0_1 : (⟨S60000x1, .f32⟩ : BufTy).Contents (Elt F) → (⟨S60000x64, .f32⟩ : BufTy).Contents (Elt F)),
    binary main_v824 main_v868 main_v869 (subf : (⟨S60000x64, .f32⟩ : BufTy).Contents (Elt F) → (⟨S60000x64, .f32⟩ : BufTy).Contents (Elt F) → (⟨S60000x64, .f32⟩ : BufTy).Contents (Elt F)),
    nullary main_cst_220 (constant S_ .f32 0x3727C5AC#32),
    unary main_cst_220 main_v870 (broadcastInDim S60000x1 ![] bcast_S_S60000x1 : (⟨S_, .f32⟩ : BufTy).Contents (Elt F) → (⟨S60000x1, .f32⟩ : BufTy).Contents (Elt F)),
    binary main_v867 main_v870 main_v871 (addf : (⟨S60000x1, .f32⟩ : BufTy).Contents (Elt F) → (⟨S60000x1, .f32⟩ : BufTy).Contents (Elt F) → (⟨S60000x1, .f32⟩ : BufTy).Contents (Elt F)),
    unary main_v871 main_v872 (Host.rsqrt : (⟨S60000x1, .f32⟩ : BufTy).Contents (Elt F) → (⟨S60000x1, .f32⟩ : BufTy).Contents (Elt F)),
    unary main_v872 main_v873 (broadcastInDim S60000x64 ![0, 1] bcast_S60000x1_S60000x64_0_1 : (⟨S60000x1, .f32⟩ : BufTy).Contents (Elt F) → (⟨S60000x64, .f32⟩ : BufTy).Contents (Elt F)),
    binary main_v869 main_v873 main_v874 (mulf : (⟨S60000x64, .f32⟩ : BufTy).Contents (Elt F) → (⟨S60000x64, .f32⟩ : BufTy).Contents (Elt F) → (⟨S60000x64, .f32⟩ : BufTy).Contents (Elt F)),
    unary main_v854 main_v875 (broadcastInDim S1x64 ![1] bcast_S64_S1x64_1 : (⟨S64, .f32⟩ : BufTy).Contents (Elt F) → (⟨S1x64, .f32⟩ : BufTy).Contents (Elt F)),
    unary main_v875 main_v876 (broadcastInDim S60000x64 ![0, 1] bcast_S1x64_S60000x64_0_1 : (⟨S1x64, .f32⟩ : BufTy).Contents (Elt F) → (⟨S60000x64, .f32⟩ : BufTy).Contents (Elt F)),
    binary main_v874 main_v876 main_v877 (mulf : (⟨S60000x64, .f32⟩ : BufTy).Contents (Elt F) → (⟨S60000x64, .f32⟩ : BufTy).Contents (Elt F) → (⟨S60000x64, .f32⟩ : BufTy).Contents (Elt F)),
    unary main_v856 main_v878 (broadcastInDim S1x64 ![1] bcast_S64_S1x64_1 : (⟨S64, .f32⟩ : BufTy).Contents (Elt F) → (⟨S1x64, .f32⟩ : BufTy).Contents (Elt F)),
    unary main_v878 main_v879 (broadcastInDim S60000x64 ![0, 1] bcast_S1x64_S60000x64_0_1 : (⟨S1x64, .f32⟩ : BufTy).Contents (Elt F) → (⟨S60000x64, .f32⟩ : BufTy).Contents (Elt F)),
    binary main_v877 main_v879 main_v880 (addf : (⟨S60000x64, .f32⟩ : BufTy).Contents (Elt F) → (⟨S60000x64, .f32⟩ : BufTy).Contents (Elt F) → (⟨S60000x64, .f32⟩ : BufTy).Contents (Elt F)),
    unary main_arg15 main_v881 ((extractStridedSlice S1x64 ![2, 0] · slices_S3x64_S1x64_2_0) : (⟨S3x64, .f32⟩ : BufTy).Contents (Elt F) → (⟨S1x64, .f32⟩ : BufTy).Contents (Elt F)),
    reshape main_v881 main_v882 rfl shapeCasts_S1x64_S64,
    unary main_arg16 main_v883 ((extractStridedSlice S1x64 ![2, 0] · slices_S3x64_S1x64_2_0) : (⟨S3x64, .f32⟩ : BufTy).Contents (Elt F) → (⟨S1x64, .f32⟩ : BufTy).Contents (Elt F)),
    reshape main_v883 main_v884 rfl shapeCasts_S1x64_S64,
    nullary main_cst_221 (constant S_ .f32 0x00000000#32),
    binary main_v644 main_cst_221 main_v885 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v885 main_v886 (broadcastInDim S20000x1 ![0] bcast_S20000_S20000x1_0 : (⟨S20000, .f32⟩ : BufTy).Contents (Elt F) → (⟨S20000x1, .f32⟩ : BufTy).Contents (Elt F)),
    nullary main_cst_222 (constant S_ .f32 0x42800000#32),
    unary main_cst_222 main_v887 (broadcastInDim S20000x1 ![] bcast_S_S20000x1 : (⟨S_, .f32⟩ : BufTy).Contents (Elt F) → (⟨S20000x1, .f32⟩ : BufTy).Contents (Elt F)),
    binary main_v886 main_v887 main_v888 (Host.divf : (⟨S20000x1, .f32⟩ : BufTy).Contents (Elt F) → (⟨S20000x1, .f32⟩ : BufTy).Contents (Elt F) → (⟨S20000x1, .f32⟩ : BufTy).Contents (Elt F)),
    unary main_v888 main_v889 (broadcastInDim S20000x64 ![0, 1] bcast_S20000x1_S20000x64_0_1 : (⟨S20000x1, .f32⟩ : BufTy).Contents (Elt F) → (⟨S20000x64, .f32⟩ : BufTy).Contents (Elt F)),
    binary main_v644 main_v889 main_v890 (subf : (⟨S20000x64, .f32⟩ : BufTy).Contents (Elt F) → (⟨S20000x64, .f32⟩ : BufTy).Contents (Elt F) → (⟨S20000x64, .f32⟩ : BufTy).Contents (Elt F)),
    binary main_v890 main_v890 main_v891 (mulf : (⟨S20000x64, .f32⟩ : BufTy).Contents (Elt F) → (⟨S20000x64, .f32⟩ : BufTy).Contents (Elt F) → (⟨S20000x64, .f32⟩ : BufTy).Contents (Elt F)),
    nullary main_cst_223 (constant S_ .f32 0x00000000#32),
    binary main_v891 main_cst_223 main_v892 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v892 main_v893 (broadcastInDim S20000x1 ![0] bcast_S20000_S20000x1_0 : (⟨S20000, .f32⟩ : BufTy).Contents (Elt F) → (⟨S20000x1, .f32⟩ : BufTy).Contents (Elt F)),
    nullary main_cst_224 (constant S_ .f32 0x42800000#32),
    unary main_cst_224 main_v894 (broadcastInDim S20000x1 ![] bcast_S_S20000x1 : (⟨S_, .f32⟩ : BufTy).Contents (Elt F) → (⟨S20000x1, .f32⟩ : BufTy).Contents (Elt F)),
    binary main_v893 main_v894 main_v895 (Host.divf : (⟨S20000x1, .f32⟩ : BufTy).Contents (Elt F) → (⟨S20000x1, .f32⟩ : BufTy).Contents (Elt F) → (⟨S20000x1, .f32⟩ : BufTy).Contents (Elt F)),
    unary main_v888 main_v896 (broadcastInDim S20000x64 ![0, 1] bcast_S20000x1_S20000x64_0_1 : (⟨S20000x1, .f32⟩ : BufTy).Contents (Elt F) → (⟨S20000x64, .f32⟩ : BufTy).Contents (Elt F)),
    binary main_v644 main_v896 main_v897 (subf : (⟨S20000x64, .f32⟩ : BufTy).Contents (Elt F) → (⟨S20000x64, .f32⟩ : BufTy).Contents (Elt F) → (⟨S20000x64, .f32⟩ : BufTy).Contents (Elt F)),
    nullary main_cst_225 (constant S_ .f32 0x3727C5AC#32),
    unary main_cst_225 main_v898 (broadcastInDim S20000x1 ![] bcast_S_S20000x1 : (⟨S_, .f32⟩ : BufTy).Contents (Elt F) → (⟨S20000x1, .f32⟩ : BufTy).Contents (Elt F)),
    binary main_v895 main_v898 main_v899 (addf : (⟨S20000x1, .f32⟩ : BufTy).Contents (Elt F) → (⟨S20000x1, .f32⟩ : BufTy).Contents (Elt F) → (⟨S20000x1, .f32⟩ : BufTy).Contents (Elt F)),
    unary main_v899 main_v900 (Host.rsqrt : (⟨S20000x1, .f32⟩ : BufTy).Contents (Elt F) → (⟨S20000x1, .f32⟩ : BufTy).Contents (Elt F)),
    unary main_v900 main_v901 (broadcastInDim S20000x64 ![0, 1] bcast_S20000x1_S20000x64_0_1 : (⟨S20000x1, .f32⟩ : BufTy).Contents (Elt F) → (⟨S20000x64, .f32⟩ : BufTy).Contents (Elt F)),
    binary main_v897 main_v901 main_v902 (mulf : (⟨S20000x64, .f32⟩ : BufTy).Contents (Elt F) → (⟨S20000x64, .f32⟩ : BufTy).Contents (Elt F) → (⟨S20000x64, .f32⟩ : BufTy).Contents (Elt F)),
    unary main_v882 main_v903 (broadcastInDim S1x64 ![1] bcast_S64_S1x64_1 : (⟨S64, .f32⟩ : BufTy).Contents (Elt F) → (⟨S1x64, .f32⟩ : BufTy).Contents (Elt F)),
    unary main_v903 main_v904 (broadcastInDim S20000x64 ![0, 1] bcast_S1x64_S20000x64_0_1 : (⟨S1x64, .f32⟩ : BufTy).Contents (Elt F) → (⟨S20000x64, .f32⟩ : BufTy).Contents (Elt F)),
    binary main_v902 main_v904 main_v905 (mulf : (⟨S20000x64, .f32⟩ : BufTy).Contents (Elt F) → (⟨S20000x64, .f32⟩ : BufTy).Contents (Elt F) → (⟨S20000x64, .f32⟩ : BufTy).Contents (Elt F)),
    unary main_v884 main_v906 (broadcastInDim S1x64 ![1] bcast_S64_S1x64_1 : (⟨S64, .f32⟩ : BufTy).Contents (Elt F) → (⟨S1x64, .f32⟩ : BufTy).Contents (Elt F)),
    unary main_v906 main_v907 (broadcastInDim S20000x64 ![0, 1] bcast_S1x64_S20000x64_0_1 : (⟨S1x64, .f32⟩ : BufTy).Contents (Elt F) → (⟨S20000x64, .f32⟩ : BufTy).Contents (Elt F)),
    binary main_v905 main_v907 main_v908 (addf : (⟨S20000x64, .f32⟩ : BufTy).Contents (Elt F) → (⟨S20000x64, .f32⟩ : BufTy).Contents (Elt F) → (⟨S20000x64, .f32⟩ : BufTy).Contents (Elt F)) ]

set_option maxRecDepth 8192 in
set_option maxHeartbeats 4000000 in
/-- The window is the line of its operations (a call unfolds to its callee's operations). -/
theorem main_part18_eq (c : Dev nD) : main_part18 (F := F) c = seq wops_18 := rfl

end Cert.ReferenceIdeal.Hand

end
-- ==== Proof.Ref.Run.lean ====
/- The reference's @main is the straight line of the chunks' operations in order; every weakly fair execution terminates with each buffer at the fold of the chunks over the launch contents, so the three results hold `BF` and the arguments, which no operation writes, what they held. -/
import proofs.«147021_j7619271983570_1_alg».proof.Proof.Ref.Stable
import proofs.«147021_j7619271983570_1_alg».proof.Proof.Ref.Win_0
import proofs.«147021_j7619271983570_1_alg».proof.Proof.Ref.Win_1
import proofs.«147021_j7619271983570_1_alg».proof.Proof.Ref.Win_2
import proofs.«147021_j7619271983570_1_alg».proof.Proof.Ref.Win_3
import proofs.«147021_j7619271983570_1_alg».proof.Proof.Ref.Win_4
import proofs.«147021_j7619271983570_1_alg».proof.Proof.Ref.Win_5
import proofs.«147021_j7619271983570_1_alg».proof.Proof.Ref.Win_6
import proofs.«147021_j7619271983570_1_alg».proof.Proof.Ref.Win_7
import proofs.«147021_j7619271983570_1_alg».proof.Proof.Ref.Win_8
import proofs.«147021_j7619271983570_1_alg».proof.Proof.Ref.Win_9
import proofs.«147021_j7619271983570_1_alg».proof.Proof.Ref.Win_10
import proofs.«147021_j7619271983570_1_alg».proof.Proof.Ref.Win_11
import proofs.«147021_j7619271983570_1_alg».proof.Proof.Ref.Win_12
import proofs.«147021_j7619271983570_1_alg».proof.Proof.Ref.Win_13
import proofs.«147021_j7619271983570_1_alg».proof.Proof.Ref.Win_14
import proofs.«147021_j7619271983570_1_alg».proof.Proof.Ref.Win_15
import proofs.«147021_j7619271983570_1_alg».proof.Proof.Ref.Win_16
import proofs.«147021_j7619271983570_1_alg».proof.Proof.Ref.Win_17
import proofs.«147021_j7619271983570_1_alg».proof.Proof.Ref.Win_18

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations from chunk L20 on. -/
abbrev from_L20 : List (HloOp τ sig (Elt F)) := ops_L20
/-- The operations from chunk H20 on. -/
abbrev from_H20 : List (HloOp τ sig (Elt F)) := ops_H20 ++ from_L20
/-- The operations from chunk L19 on. -/
abbrev from_L19 : List (HloOp τ sig (Elt F)) := ops_L19 ++ from_H20
/-- The operations from chunk H19 on. -/
abbrev from_H19 : List (HloOp τ sig (Elt F)) := ops_H19 ++ from_L19
/-- The operations from chunk L18 on. -/
abbrev from_L18 : List (HloOp τ sig (Elt F)) := ops_L18 ++ from_H19
/-- The operations from chunk G18b on. -/
abbrev from_G18b : List (HloOp τ sig (Elt F)) := ops_G18b ++ from_L18
/-- The operations from chunk D17 on. -/
abbrev from_D17 : List (HloOp τ sig (Elt F)) := ops_D17 ++ from_G18b
/-- The operations from chunk G18a on. -/
abbrev from_G18a : List (HloOp τ sig (Elt F)) := ops_G18a ++ from_D17
/-- The operations from chunk G17b on. -/
abbrev from_G17b : List (HloOp τ sig (Elt F)) := ops_G17b ++ from_G18a
/-- The operations from chunk D16 on. -/
abbrev from_D16 : List (HloOp τ sig (Elt F)) := ops_D16 ++ from_G17b
/-- The operations from chunk G17a on. -/
abbrev from_G17a : List (HloOp τ sig (Elt F)) := ops_G17a ++ from_D16
/-- The operations from chunk G16b on. -/
abbrev from_G16b : List (HloOp τ sig (Elt F)) := ops_G16b ++ from_G17a
/-- The operations from chunk D15 on. -/
abbrev from_D15 : List (HloOp τ sig (Elt F)) := ops_D15 ++ from_G16b
/-- The operations from chunk G16a on. -/
abbrev from_G16a : List (HloOp τ sig (Elt F)) := ops_G16a ++ from_D15
/-- The operations from chunk G15b on. -/
abbrev from_G15b : List (HloOp τ sig (Elt F)) := ops_G15b ++ from_G16a
/-- The operations from chunk D14 on. -/
abbrev from_D14 : List (HloOp τ sig (Elt F)) := ops_D14 ++ from_G15b
/-- The operations from chunk G15a on. -/
abbrev from_G15a : List (HloOp τ sig (Elt F)) := ops_G15a ++ from_D14
/-- The operations from chunk G14b on. -/
abbrev from_G14b : List (HloOp τ sig (Elt F)) := ops_G14b ++ from_G15a
/-- The operations from chunk D13 on. -/
abbrev from_D13 : List (HloOp τ sig (Elt F)) := ops_D13 ++ from_G14b
/-- The operations from chunk G14a on. -/
abbrev from_G14a : List (HloOp τ sig (Elt F)) := ops_G14a ++ from_D13
/-- The operations from chunk G13b on. -/
abbrev from_G13b : List (HloOp τ sig (Elt F)) := ops_G13b ++ from_G14a
/-- The operations from chunk D12 on. -/
abbrev from_D12 : List (HloOp τ sig (Elt F)) := ops_D12 ++ from_G13b
/-- The operations from chunk G13a on. -/
abbrev from_G13a : List (HloOp τ sig (Elt F)) := ops_G13a ++ from_D12
/-- The operations from chunk G12 on. -/
abbrev from_G12 : List (HloOp τ sig (Elt F)) := ops_G12 ++ from_G13a
/-- The operations from chunk RELU11 on. -/
abbrev from_RELU11 : List (HloOp τ sig (Elt F)) := ops_RELU11 ++ from_G12
/-- The operations from chunk RELU10 on. -/
abbrev from_RELU10 : List (HloOp τ sig (Elt F)) := ops_RELU10 ++ from_RELU11
/-- The operations from chunk RELU9 on. -/
abbrev from_RELU9 : List (HloOp τ sig (Elt F)) := ops_RELU9 ++ from_RELU10
/-- The operations from chunk L11 on. -/
abbrev from_L11 : List (HloOp τ sig (Elt F)) := ops_L11 ++ from_RELU9
/-- The operations from chunk H11 on. -/
abbrev from_H11 : List (HloOp τ sig (Elt F)) := ops_H11 ++ from_L11
/-- The operations from chunk L10 on. -/
abbrev from_L10 : List (HloOp τ sig (Elt F)) := ops_L10 ++ from_H11
/-- The operations from chunk H10 on. -/
abbrev from_H10 : List (HloOp τ sig (Elt F)) := ops_H10 ++ from_L10
/-- The operations from chunk L9 on. -/
abbrev from_L9 : List (HloOp τ sig (Elt F)) := ops_L9 ++ from_H10
/-- The operations from chunk G9b on. -/
abbrev from_G9b : List (HloOp τ sig (Elt F)) := ops_G9b ++ from_L9
/-- The operations from chunk D8 on. -/
abbrev from_D8 : List (HloOp τ sig (Elt F)) := ops_D8 ++ from_G9b
/-- The operations from chunk G9a on. -/
abbrev from_G9a : List (HloOp τ sig (Elt F)) := ops_G9a ++ from_D8
/-- The operations from chunk G8b on. -/
abbrev from_G8b : List (HloOp τ sig (Elt F)) := ops_G8b ++ from_G9a
/-- The operations from chunk D7 on. -/
abbrev from_D7 : List (HloOp τ sig (Elt F)) := ops_D7 ++ from_G8b
/-- The operations from chunk G8a on. -/
abbrev from_G8a : List (HloOp τ sig (Elt F)) := ops_G8a ++ from_D7
/-- The operations from chunk G7b on. -/
abbrev from_G7b : List (HloOp τ sig (Elt F)) := ops_G7b ++ from_G8a
/-- The operations from chunk D6 on. -/
abbrev from_D6 : List (HloOp τ sig (Elt F)) := ops_D6 ++ from_G7b
/-- The operations from chunk G7a on. -/
abbrev from_G7a : List (HloOp τ sig (Elt F)) := ops_G7a ++ from_D6
/-- The operations from chunk G6b on. -/
abbrev from_G6b : List (HloOp τ sig (Elt F)) := ops_G6b ++ from_G7a
/-- The operations from chunk D5 on. -/
abbrev from_D5 : List (HloOp τ sig (Elt F)) := ops_D5 ++ from_G6b
/-- The operations from chunk G6a on. -/
abbrev from_G6a : List (HloOp τ sig (Elt F)) := ops_G6a ++ from_D5
/-- The operations from chunk G5b on. -/
abbrev from_G5b : List (HloOp τ sig (Elt F)) := ops_G5b ++ from_G6a
/-- The operations from chunk D4 on. -/
abbrev from_D4 : List (HloOp τ sig (Elt F)) := ops_D4 ++ from_G5b
/-- The operations from chunk G5a on. -/
abbrev from_G5a : List (HloOp τ sig (Elt F)) := ops_G5a ++ from_D4
/-- The operations from chunk G4b on. -/
abbrev from_G4b : List (HloOp τ sig (Elt F)) := ops_G4b ++ from_G5a
/-- The operations from chunk D3 on. -/
abbrev from_D3 : List (HloOp τ sig (Elt F)) := ops_D3 ++ from_G4b
/-- The operations from chunk G4a on. -/
abbrev from_G4a : List (HloOp τ sig (Elt F)) := ops_G4a ++ from_D3
/-- The operations from chunk G3 on. -/
abbrev from_G3 : List (HloOp τ sig (Elt F)) := ops_G3 ++ from_G4a
/-- The operations from chunk P2 on. -/
abbrev from_P2 : List (HloOp τ sig (Elt F)) := ops_P2 ++ from_G3
/-- The operations from chunk P1 on. -/
abbrev from_P1 : List (HloOp τ sig (Elt F)) := ops_P1 ++ from_P2
/-- The operations from chunk P0 on. -/
abbrev from_P0 : List (HloOp τ sig (Elt F)) := ops_P0 ++ from_P1

/-- All 1191 operations of @main: the chunks in order. -/
abbrev allOps : List (HloOp τ sig (Elt F)) := from_P0

theorem from_L20_sub : (from_L20 : List (HloOp τ sig (Elt F))).Forall fun op => op.bufs ⊆ StableHlo.tcRefs τ sig := ops_L20_sub
theorem from_L20_fresh : ∀ op ∈ (from_L20 : List (HloOp τ sig (Elt F))), op.fresh = ∅ := ops_L20_fresh
theorem after_from_L20 (V : Valuation τ sig (Elt F)) : StableHlo.after from_L20 V = StableHlo.after ops_L20 V := rfl
theorem from_H20_sub : (from_H20 : List (HloOp τ sig (Elt F))).Forall fun op => op.bufs ⊆ StableHlo.tcRefs τ sig := sub_append ops_H20_sub from_L20_sub
theorem from_H20_fresh : ∀ op ∈ (from_H20 : List (HloOp τ sig (Elt F))), op.fresh = ∅ := fresh_append ops_H20_fresh from_L20_fresh
theorem after_from_H20 (V : Valuation τ sig (Elt F)) : StableHlo.after from_H20 V = StableHlo.after from_L20 (StableHlo.after ops_H20 V) := StableHlo.after_append _ _ _
theorem from_L19_sub : (from_L19 : List (HloOp τ sig (Elt F))).Forall fun op => op.bufs ⊆ StableHlo.tcRefs τ sig := sub_append ops_L19_sub from_H20_sub
theorem from_L19_fresh : ∀ op ∈ (from_L19 : List (HloOp τ sig (Elt F))), op.fresh = ∅ := fresh_append ops_L19_fresh from_H20_fresh
theorem after_from_L19 (V : Valuation τ sig (Elt F)) : StableHlo.after from_L19 V = StableHlo.after from_H20 (StableHlo.after ops_L19 V) := StableHlo.after_append _ _ _
theorem from_H19_sub : (from_H19 : List (HloOp τ sig (Elt F))).Forall fun op => op.bufs ⊆ StableHlo.tcRefs τ sig := sub_append ops_H19_sub from_L19_sub
theorem from_H19_fresh : ∀ op ∈ (from_H19 : List (HloOp τ sig (Elt F))), op.fresh = ∅ := fresh_append ops_H19_fresh from_L19_fresh
theorem after_from_H19 (V : Valuation τ sig (Elt F)) : StableHlo.after from_H19 V = StableHlo.after from_L19 (StableHlo.after ops_H19 V) := StableHlo.after_append _ _ _
theorem from_L18_sub : (from_L18 : List (HloOp τ sig (Elt F))).Forall fun op => op.bufs ⊆ StableHlo.tcRefs τ sig := sub_append ops_L18_sub from_H19_sub
theorem from_L18_fresh : ∀ op ∈ (from_L18 : List (HloOp τ sig (Elt F))), op.fresh = ∅ := fresh_append ops_L18_fresh from_H19_fresh
theorem after_from_L18 (V : Valuation τ sig (Elt F)) : StableHlo.after from_L18 V = StableHlo.after from_H19 (StableHlo.after ops_L18 V) := StableHlo.after_append _ _ _
theorem from_G18b_sub : (from_G18b : List (HloOp τ sig (Elt F))).Forall fun op => op.bufs ⊆ StableHlo.tcRefs τ sig := sub_append ops_G18b_sub from_L18_sub
theorem from_G18b_fresh : ∀ op ∈ (from_G18b : List (HloOp τ sig (Elt F))), op.fresh = ∅ := fresh_append ops_G18b_fresh from_L18_fresh
theorem after_from_G18b (V : Valuation τ sig (Elt F)) : StableHlo.after from_G18b V = StableHlo.after from_L18 (StableHlo.after ops_G18b V) := StableHlo.after_append _ _ _
theorem from_D17_sub : (from_D17 : List (HloOp τ sig (Elt F))).Forall fun op => op.bufs ⊆ StableHlo.tcRefs τ sig := sub_append ops_D17_sub from_G18b_sub
theorem from_D17_fresh : ∀ op ∈ (from_D17 : List (HloOp τ sig (Elt F))), op.fresh = ∅ := fresh_append ops_D17_fresh from_G18b_fresh
theorem after_from_D17 (V : Valuation τ sig (Elt F)) : StableHlo.after from_D17 V = StableHlo.after from_G18b (StableHlo.after ops_D17 V) := StableHlo.after_append _ _ _
theorem from_G18a_sub : (from_G18a : List (HloOp τ sig (Elt F))).Forall fun op => op.bufs ⊆ StableHlo.tcRefs τ sig := sub_append ops_G18a_sub from_D17_sub
theorem from_G18a_fresh : ∀ op ∈ (from_G18a : List (HloOp τ sig (Elt F))), op.fresh = ∅ := fresh_append ops_G18a_fresh from_D17_fresh
theorem after_from_G18a (V : Valuation τ sig (Elt F)) : StableHlo.after from_G18a V = StableHlo.after from_D17 (StableHlo.after ops_G18a V) := StableHlo.after_append _ _ _
theorem from_G17b_sub : (from_G17b : List (HloOp τ sig (Elt F))).Forall fun op => op.bufs ⊆ StableHlo.tcRefs τ sig := sub_append ops_G17b_sub from_G18a_sub
theorem from_G17b_fresh : ∀ op ∈ (from_G17b : List (HloOp τ sig (Elt F))), op.fresh = ∅ := fresh_append ops_G17b_fresh from_G18a_fresh
theorem after_from_G17b (V : Valuation τ sig (Elt F)) : StableHlo.after from_G17b V = StableHlo.after from_G18a (StableHlo.after ops_G17b V) := StableHlo.after_append _ _ _
theorem from_D16_sub : (from_D16 : List (HloOp τ sig (Elt F))).Forall fun op => op.bufs ⊆ StableHlo.tcRefs τ sig := sub_append ops_D16_sub from_G17b_sub
theorem from_D16_fresh : ∀ op ∈ (from_D16 : List (HloOp τ sig (Elt F))), op.fresh = ∅ := fresh_append ops_D16_fresh from_G17b_fresh
theorem after_from_D16 (V : Valuation τ sig (Elt F)) : StableHlo.after from_D16 V = StableHlo.after from_G17b (StableHlo.after ops_D16 V) := StableHlo.after_append _ _ _
theorem from_G17a_sub : (from_G17a : List (HloOp τ sig (Elt F))).Forall fun op => op.bufs ⊆ StableHlo.tcRefs τ sig := sub_append ops_G17a_sub from_D16_sub
theorem from_G17a_fresh : ∀ op ∈ (from_G17a : List (HloOp τ sig (Elt F))), op.fresh = ∅ := fresh_append ops_G17a_fresh from_D16_fresh
theorem after_from_G17a (V : Valuation τ sig (Elt F)) : StableHlo.after from_G17a V = StableHlo.after from_D16 (StableHlo.after ops_G17a V) := StableHlo.after_append _ _ _
theorem from_G16b_sub : (from_G16b : List (HloOp τ sig (Elt F))).Forall fun op => op.bufs ⊆ StableHlo.tcRefs τ sig := sub_append ops_G16b_sub from_G17a_sub
theorem from_G16b_fresh : ∀ op ∈ (from_G16b : List (HloOp τ sig (Elt F))), op.fresh = ∅ := fresh_append ops_G16b_fresh from_G17a_fresh
theorem after_from_G16b (V : Valuation τ sig (Elt F)) : StableHlo.after from_G16b V = StableHlo.after from_G17a (StableHlo.after ops_G16b V) := StableHlo.after_append _ _ _
theorem from_D15_sub : (from_D15 : List (HloOp τ sig (Elt F))).Forall fun op => op.bufs ⊆ StableHlo.tcRefs τ sig := sub_append ops_D15_sub from_G16b_sub
theorem from_D15_fresh : ∀ op ∈ (from_D15 : List (HloOp τ sig (Elt F))), op.fresh = ∅ := fresh_append ops_D15_fresh from_G16b_fresh
theorem after_from_D15 (V : Valuation τ sig (Elt F)) : StableHlo.after from_D15 V = StableHlo.after from_G16b (StableHlo.after ops_D15 V) := StableHlo.after_append _ _ _
theorem from_G16a_sub : (from_G16a : List (HloOp τ sig (Elt F))).Forall fun op => op.bufs ⊆ StableHlo.tcRefs τ sig := sub_append ops_G16a_sub from_D15_sub
theorem from_G16a_fresh : ∀ op ∈ (from_G16a : List (HloOp τ sig (Elt F))), op.fresh = ∅ := fresh_append ops_G16a_fresh from_D15_fresh
theorem after_from_G16a (V : Valuation τ sig (Elt F)) : StableHlo.after from_G16a V = StableHlo.after from_D15 (StableHlo.after ops_G16a V) := StableHlo.after_append _ _ _
theorem from_G15b_sub : (from_G15b : List (HloOp τ sig (Elt F))).Forall fun op => op.bufs ⊆ StableHlo.tcRefs τ sig := sub_append ops_G15b_sub from_G16a_sub
theorem from_G15b_fresh : ∀ op ∈ (from_G15b : List (HloOp τ sig (Elt F))), op.fresh = ∅ := fresh_append ops_G15b_fresh from_G16a_fresh
theorem after_from_G15b (V : Valuation τ sig (Elt F)) : StableHlo.after from_G15b V = StableHlo.after from_G16a (StableHlo.after ops_G15b V) := StableHlo.after_append _ _ _
theorem from_D14_sub : (from_D14 : List (HloOp τ sig (Elt F))).Forall fun op => op.bufs ⊆ StableHlo.tcRefs τ sig := sub_append ops_D14_sub from_G15b_sub
theorem from_D14_fresh : ∀ op ∈ (from_D14 : List (HloOp τ sig (Elt F))), op.fresh = ∅ := fresh_append ops_D14_fresh from_G15b_fresh
theorem after_from_D14 (V : Valuation τ sig (Elt F)) : StableHlo.after from_D14 V = StableHlo.after from_G15b (StableHlo.after ops_D14 V) := StableHlo.after_append _ _ _
theorem from_G15a_sub : (from_G15a : List (HloOp τ sig (Elt F))).Forall fun op => op.bufs ⊆ StableHlo.tcRefs τ sig := sub_append ops_G15a_sub from_D14_sub
theorem from_G15a_fresh : ∀ op ∈ (from_G15a : List (HloOp τ sig (Elt F))), op.fresh = ∅ := fresh_append ops_G15a_fresh from_D14_fresh
theorem after_from_G15a (V : Valuation τ sig (Elt F)) : StableHlo.after from_G15a V = StableHlo.after from_D14 (StableHlo.after ops_G15a V) := StableHlo.after_append _ _ _
theorem from_G14b_sub : (from_G14b : List (HloOp τ sig (Elt F))).Forall fun op => op.bufs ⊆ StableHlo.tcRefs τ sig := sub_append ops_G14b_sub from_G15a_sub
theorem from_G14b_fresh : ∀ op ∈ (from_G14b : List (HloOp τ sig (Elt F))), op.fresh = ∅ := fresh_append ops_G14b_fresh from_G15a_fresh
theorem after_from_G14b (V : Valuation τ sig (Elt F)) : StableHlo.after from_G14b V = StableHlo.after from_G15a (StableHlo.after ops_G14b V) := StableHlo.after_append _ _ _
theorem from_D13_sub : (from_D13 : List (HloOp τ sig (Elt F))).Forall fun op => op.bufs ⊆ StableHlo.tcRefs τ sig := sub_append ops_D13_sub from_G14b_sub
theorem from_D13_fresh : ∀ op ∈ (from_D13 : List (HloOp τ sig (Elt F))), op.fresh = ∅ := fresh_append ops_D13_fresh from_G14b_fresh
theorem after_from_D13 (V : Valuation τ sig (Elt F)) : StableHlo.after from_D13 V = StableHlo.after from_G14b (StableHlo.after ops_D13 V) := StableHlo.after_append _ _ _
theorem from_G14a_sub : (from_G14a : List (HloOp τ sig (Elt F))).Forall fun op => op.bufs ⊆ StableHlo.tcRefs τ sig := sub_append ops_G14a_sub from_D13_sub
theorem from_G14a_fresh : ∀ op ∈ (from_G14a : List (HloOp τ sig (Elt F))), op.fresh = ∅ := fresh_append ops_G14a_fresh from_D13_fresh
theorem after_from_G14a (V : Valuation τ sig (Elt F)) : StableHlo.after from_G14a V = StableHlo.after from_D13 (StableHlo.after ops_G14a V) := StableHlo.after_append _ _ _
theorem from_G13b_sub : (from_G13b : List (HloOp τ sig (Elt F))).Forall fun op => op.bufs ⊆ StableHlo.tcRefs τ sig := sub_append ops_G13b_sub from_G14a_sub
theorem from_G13b_fresh : ∀ op ∈ (from_G13b : List (HloOp τ sig (Elt F))), op.fresh = ∅ := fresh_append ops_G13b_fresh from_G14a_fresh
theorem after_from_G13b (V : Valuation τ sig (Elt F)) : StableHlo.after from_G13b V = StableHlo.after from_G14a (StableHlo.after ops_G13b V) := StableHlo.after_append _ _ _
theorem from_D12_sub : (from_D12 : List (HloOp τ sig (Elt F))).Forall fun op => op.bufs ⊆ StableHlo.tcRefs τ sig := sub_append ops_D12_sub from_G13b_sub
theorem from_D12_fresh : ∀ op ∈ (from_D12 : List (HloOp τ sig (Elt F))), op.fresh = ∅ := fresh_append ops_D12_fresh from_G13b_fresh
theorem after_from_D12 (V : Valuation τ sig (Elt F)) : StableHlo.after from_D12 V = StableHlo.after from_G13b (StableHlo.after ops_D12 V) := StableHlo.after_append _ _ _
theorem from_G13a_sub : (from_G13a : List (HloOp τ sig (Elt F))).Forall fun op => op.bufs ⊆ StableHlo.tcRefs τ sig := sub_append ops_G13a_sub from_D12_sub
theorem from_G13a_fresh : ∀ op ∈ (from_G13a : List (HloOp τ sig (Elt F))), op.fresh = ∅ := fresh_append ops_G13a_fresh from_D12_fresh
theorem after_from_G13a (V : Valuation τ sig (Elt F)) : StableHlo.after from_G13a V = StableHlo.after from_D12 (StableHlo.after ops_G13a V) := StableHlo.after_append _ _ _
theorem from_G12_sub : (from_G12 : List (HloOp τ sig (Elt F))).Forall fun op => op.bufs ⊆ StableHlo.tcRefs τ sig := sub_append ops_G12_sub from_G13a_sub
theorem from_G12_fresh : ∀ op ∈ (from_G12 : List (HloOp τ sig (Elt F))), op.fresh = ∅ := fresh_append ops_G12_fresh from_G13a_fresh
theorem after_from_G12 (V : Valuation τ sig (Elt F)) : StableHlo.after from_G12 V = StableHlo.after from_G13a (StableHlo.after ops_G12 V) := StableHlo.after_append _ _ _
theorem from_RELU11_sub : (from_RELU11 : List (HloOp τ sig (Elt F))).Forall fun op => op.bufs ⊆ StableHlo.tcRefs τ sig := sub_append ops_RELU11_sub from_G12_sub
theorem from_RELU11_fresh : ∀ op ∈ (from_RELU11 : List (HloOp τ sig (Elt F))), op.fresh = ∅ := fresh_append ops_RELU11_fresh from_G12_fresh
theorem after_from_RELU11 (V : Valuation τ sig (Elt F)) : StableHlo.after from_RELU11 V = StableHlo.after from_G12 (StableHlo.after ops_RELU11 V) := StableHlo.after_append _ _ _
theorem from_RELU10_sub : (from_RELU10 : List (HloOp τ sig (Elt F))).Forall fun op => op.bufs ⊆ StableHlo.tcRefs τ sig := sub_append ops_RELU10_sub from_RELU11_sub
theorem from_RELU10_fresh : ∀ op ∈ (from_RELU10 : List (HloOp τ sig (Elt F))), op.fresh = ∅ := fresh_append ops_RELU10_fresh from_RELU11_fresh
theorem after_from_RELU10 (V : Valuation τ sig (Elt F)) : StableHlo.after from_RELU10 V = StableHlo.after from_RELU11 (StableHlo.after ops_RELU10 V) := StableHlo.after_append _ _ _
theorem from_RELU9_sub : (from_RELU9 : List (HloOp τ sig (Elt F))).Forall fun op => op.bufs ⊆ StableHlo.tcRefs τ sig := sub_append ops_RELU9_sub from_RELU10_sub
theorem from_RELU9_fresh : ∀ op ∈ (from_RELU9 : List (HloOp τ sig (Elt F))), op.fresh = ∅ := fresh_append ops_RELU9_fresh from_RELU10_fresh
theorem after_from_RELU9 (V : Valuation τ sig (Elt F)) : StableHlo.after from_RELU9 V = StableHlo.after from_RELU10 (StableHlo.after ops_RELU9 V) := StableHlo.after_append _ _ _
theorem from_L11_sub : (from_L11 : List (HloOp τ sig (Elt F))).Forall fun op => op.bufs ⊆ StableHlo.tcRefs τ sig := sub_append ops_L11_sub from_RELU9_sub
theorem from_L11_fresh : ∀ op ∈ (from_L11 : List (HloOp τ sig (Elt F))), op.fresh = ∅ := fresh_append ops_L11_fresh from_RELU9_fresh
theorem after_from_L11 (V : Valuation τ sig (Elt F)) : StableHlo.after from_L11 V = StableHlo.after from_RELU9 (StableHlo.after ops_L11 V) := StableHlo.after_append _ _ _
theorem from_H11_sub : (from_H11 : List (HloOp τ sig (Elt F))).Forall fun op => op.bufs ⊆ StableHlo.tcRefs τ sig := sub_append ops_H11_sub from_L11_sub
theorem from_H11_fresh : ∀ op ∈ (from_H11 : List (HloOp τ sig (Elt F))), op.fresh = ∅ := fresh_append ops_H11_fresh from_L11_fresh
theorem after_from_H11 (V : Valuation τ sig (Elt F)) : StableHlo.after from_H11 V = StableHlo.after from_L11 (StableHlo.after ops_H11 V) := StableHlo.after_append _ _ _
theorem from_L10_sub : (from_L10 : List (HloOp τ sig (Elt F))).Forall fun op => op.bufs ⊆ StableHlo.tcRefs τ sig := sub_append ops_L10_sub from_H11_sub
theorem from_L10_fresh : ∀ op ∈ (from_L10 : List (HloOp τ sig (Elt F))), op.fresh = ∅ := fresh_append ops_L10_fresh from_H11_fresh
theorem after_from_L10 (V : Valuation τ sig (Elt F)) : StableHlo.after from_L10 V = StableHlo.after from_H11 (StableHlo.after ops_L10 V) := StableHlo.after_append _ _ _
theorem from_H10_sub : (from_H10 : List (HloOp τ sig (Elt F))).Forall fun op => op.bufs ⊆ StableHlo.tcRefs τ sig := sub_append ops_H10_sub from_L10_sub
theorem from_H10_fresh : ∀ op ∈ (from_H10 : List (HloOp τ sig (Elt F))), op.fresh = ∅ := fresh_append ops_H10_fresh from_L10_fresh
theorem after_from_H10 (V : Valuation τ sig (Elt F)) : StableHlo.after from_H10 V = StableHlo.after from_L10 (StableHlo.after ops_H10 V) := StableHlo.after_append _ _ _
theorem from_L9_sub : (from_L9 : List (HloOp τ sig (Elt F))).Forall fun op => op.bufs ⊆ StableHlo.tcRefs τ sig := sub_append ops_L9_sub from_H10_sub
theorem from_L9_fresh : ∀ op ∈ (from_L9 : List (HloOp τ sig (Elt F))), op.fresh = ∅ := fresh_append ops_L9_fresh from_H10_fresh
theorem after_from_L9 (V : Valuation τ sig (Elt F)) : StableHlo.after from_L9 V = StableHlo.after from_H10 (StableHlo.after ops_L9 V) := StableHlo.after_append _ _ _
theorem from_G9b_sub : (from_G9b : List (HloOp τ sig (Elt F))).Forall fun op => op.bufs ⊆ StableHlo.tcRefs τ sig := sub_append ops_G9b_sub from_L9_sub
theorem from_G9b_fresh : ∀ op ∈ (from_G9b : List (HloOp τ sig (Elt F))), op.fresh = ∅ := fresh_append ops_G9b_fresh from_L9_fresh
theorem after_from_G9b (V : Valuation τ sig (Elt F)) : StableHlo.after from_G9b V = StableHlo.after from_L9 (StableHlo.after ops_G9b V) := StableHlo.after_append _ _ _
theorem from_D8_sub : (from_D8 : List (HloOp τ sig (Elt F))).Forall fun op => op.bufs ⊆ StableHlo.tcRefs τ sig := sub_append ops_D8_sub from_G9b_sub
theorem from_D8_fresh : ∀ op ∈ (from_D8 : List (HloOp τ sig (Elt F))), op.fresh = ∅ := fresh_append ops_D8_fresh from_G9b_fresh
theorem after_from_D8 (V : Valuation τ sig (Elt F)) : StableHlo.after from_D8 V = StableHlo.after from_G9b (StableHlo.after ops_D8 V) := StableHlo.after_append _ _ _
theorem from_G9a_sub : (from_G9a : List (HloOp τ sig (Elt F))).Forall fun op => op.bufs ⊆ StableHlo.tcRefs τ sig := sub_append ops_G9a_sub from_D8_sub
theorem from_G9a_fresh : ∀ op ∈ (from_G9a : List (HloOp τ sig (Elt F))), op.fresh = ∅ := fresh_append ops_G9a_fresh from_D8_fresh
theorem after_from_G9a (V : Valuation τ sig (Elt F)) : StableHlo.after from_G9a V = StableHlo.after from_D8 (StableHlo.after ops_G9a V) := StableHlo.after_append _ _ _
theorem from_G8b_sub : (from_G8b : List (HloOp τ sig (Elt F))).Forall fun op => op.bufs ⊆ StableHlo.tcRefs τ sig := sub_append ops_G8b_sub from_G9a_sub
theorem from_G8b_fresh : ∀ op ∈ (from_G8b : List (HloOp τ sig (Elt F))), op.fresh = ∅ := fresh_append ops_G8b_fresh from_G9a_fresh
theorem after_from_G8b (V : Valuation τ sig (Elt F)) : StableHlo.after from_G8b V = StableHlo.after from_G9a (StableHlo.after ops_G8b V) := StableHlo.after_append _ _ _
theorem from_D7_sub : (from_D7 : List (HloOp τ sig (Elt F))).Forall fun op => op.bufs ⊆ StableHlo.tcRefs τ sig := sub_append ops_D7_sub from_G8b_sub
theorem from_D7_fresh : ∀ op ∈ (from_D7 : List (HloOp τ sig (Elt F))), op.fresh = ∅ := fresh_append ops_D7_fresh from_G8b_fresh
theorem after_from_D7 (V : Valuation τ sig (Elt F)) : StableHlo.after from_D7 V = StableHlo.after from_G8b (StableHlo.after ops_D7 V) := StableHlo.after_append _ _ _
theorem from_G8a_sub : (from_G8a : List (HloOp τ sig (Elt F))).Forall fun op => op.bufs ⊆ StableHlo.tcRefs τ sig := sub_append ops_G8a_sub from_D7_sub
theorem from_G8a_fresh : ∀ op ∈ (from_G8a : List (HloOp τ sig (Elt F))), op.fresh = ∅ := fresh_append ops_G8a_fresh from_D7_fresh
theorem after_from_G8a (V : Valuation τ sig (Elt F)) : StableHlo.after from_G8a V = StableHlo.after from_D7 (StableHlo.after ops_G8a V) := StableHlo.after_append _ _ _
theorem from_G7b_sub : (from_G7b : List (HloOp τ sig (Elt F))).Forall fun op => op.bufs ⊆ StableHlo.tcRefs τ sig := sub_append ops_G7b_sub from_G8a_sub
theorem from_G7b_fresh : ∀ op ∈ (from_G7b : List (HloOp τ sig (Elt F))), op.fresh = ∅ := fresh_append ops_G7b_fresh from_G8a_fresh
theorem after_from_G7b (V : Valuation τ sig (Elt F)) : StableHlo.after from_G7b V = StableHlo.after from_G8a (StableHlo.after ops_G7b V) := StableHlo.after_append _ _ _
theorem from_D6_sub : (from_D6 : List (HloOp τ sig (Elt F))).Forall fun op => op.bufs ⊆ StableHlo.tcRefs τ sig := sub_append ops_D6_sub from_G7b_sub
theorem from_D6_fresh : ∀ op ∈ (from_D6 : List (HloOp τ sig (Elt F))), op.fresh = ∅ := fresh_append ops_D6_fresh from_G7b_fresh
theorem after_from_D6 (V : Valuation τ sig (Elt F)) : StableHlo.after from_D6 V = StableHlo.after from_G7b (StableHlo.after ops_D6 V) := StableHlo.after_append _ _ _
theorem from_G7a_sub : (from_G7a : List (HloOp τ sig (Elt F))).Forall fun op => op.bufs ⊆ StableHlo.tcRefs τ sig := sub_append ops_G7a_sub from_D6_sub
theorem from_G7a_fresh : ∀ op ∈ (from_G7a : List (HloOp τ sig (Elt F))), op.fresh = ∅ := fresh_append ops_G7a_fresh from_D6_fresh
theorem after_from_G7a (V : Valuation τ sig (Elt F)) : StableHlo.after from_G7a V = StableHlo.after from_D6 (StableHlo.after ops_G7a V) := StableHlo.after_append _ _ _
theorem from_G6b_sub : (from_G6b : List (HloOp τ sig (Elt F))).Forall fun op => op.bufs ⊆ StableHlo.tcRefs τ sig := sub_append ops_G6b_sub from_G7a_sub
theorem from_G6b_fresh : ∀ op ∈ (from_G6b : List (HloOp τ sig (Elt F))), op.fresh = ∅ := fresh_append ops_G6b_fresh from_G7a_fresh
theorem after_from_G6b (V : Valuation τ sig (Elt F)) : StableHlo.after from_G6b V = StableHlo.after from_G7a (StableHlo.after ops_G6b V) := StableHlo.after_append _ _ _
theorem from_D5_sub : (from_D5 : List (HloOp τ sig (Elt F))).Forall fun op => op.bufs ⊆ StableHlo.tcRefs τ sig := sub_append ops_D5_sub from_G6b_sub
theorem from_D5_fresh : ∀ op ∈ (from_D5 : List (HloOp τ sig (Elt F))), op.fresh = ∅ := fresh_append ops_D5_fresh from_G6b_fresh
theorem after_from_D5 (V : Valuation τ sig (Elt F)) : StableHlo.after from_D5 V = StableHlo.after from_G6b (StableHlo.after ops_D5 V) := StableHlo.after_append _ _ _
theorem from_G6a_sub : (from_G6a : List (HloOp τ sig (Elt F))).Forall fun op => op.bufs ⊆ StableHlo.tcRefs τ sig := sub_append ops_G6a_sub from_D5_sub
theorem from_G6a_fresh : ∀ op ∈ (from_G6a : List (HloOp τ sig (Elt F))), op.fresh = ∅ := fresh_append ops_G6a_fresh from_D5_fresh
theorem after_from_G6a (V : Valuation τ sig (Elt F)) : StableHlo.after from_G6a V = StableHlo.after from_D5 (StableHlo.after ops_G6a V) := StableHlo.after_append _ _ _
theorem from_G5b_sub : (from_G5b : List (HloOp τ sig (Elt F))).Forall fun op => op.bufs ⊆ StableHlo.tcRefs τ sig := sub_append ops_G5b_sub from_G6a_sub
theorem from_G5b_fresh : ∀ op ∈ (from_G5b : List (HloOp τ sig (Elt F))), op.fresh = ∅ := fresh_append ops_G5b_fresh from_G6a_fresh
theorem after_from_G5b (V : Valuation τ sig (Elt F)) : StableHlo.after from_G5b V = StableHlo.after from_G6a (StableHlo.after ops_G5b V) := StableHlo.after_append _ _ _
theorem from_D4_sub : (from_D4 : List (HloOp τ sig (Elt F))).Forall fun op => op.bufs ⊆ StableHlo.tcRefs τ sig := sub_append ops_D4_sub from_G5b_sub
theorem from_D4_fresh : ∀ op ∈ (from_D4 : List (HloOp τ sig (Elt F))), op.fresh = ∅ := fresh_append ops_D4_fresh from_G5b_fresh
theorem after_from_D4 (V : Valuation τ sig (Elt F)) : StableHlo.after from_D4 V = StableHlo.after from_G5b (StableHlo.after ops_D4 V) := StableHlo.after_append _ _ _
theorem from_G5a_sub : (from_G5a : List (HloOp τ sig (Elt F))).Forall fun op => op.bufs ⊆ StableHlo.tcRefs τ sig := sub_append ops_G5a_sub from_D4_sub
theorem from_G5a_fresh : ∀ op ∈ (from_G5a : List (HloOp τ sig (Elt F))), op.fresh = ∅ := fresh_append ops_G5a_fresh from_D4_fresh
theorem after_from_G5a (V : Valuation τ sig (Elt F)) : StableHlo.after from_G5a V = StableHlo.after from_D4 (StableHlo.after ops_G5a V) := StableHlo.after_append _ _ _
theorem from_G4b_sub : (from_G4b : List (HloOp τ sig (Elt F))).Forall fun op => op.bufs ⊆ StableHlo.tcRefs τ sig := sub_append ops_G4b_sub from_G5a_sub
theorem from_G4b_fresh : ∀ op ∈ (from_G4b : List (HloOp τ sig (Elt F))), op.fresh = ∅ := fresh_append ops_G4b_fresh from_G5a_fresh
theorem after_from_G4b (V : Valuation τ sig (Elt F)) : StableHlo.after from_G4b V = StableHlo.after from_G5a (StableHlo.after ops_G4b V) := StableHlo.after_append _ _ _
theorem from_D3_sub : (from_D3 : List (HloOp τ sig (Elt F))).Forall fun op => op.bufs ⊆ StableHlo.tcRefs τ sig := sub_append ops_D3_sub from_G4b_sub
theorem from_D3_fresh : ∀ op ∈ (from_D3 : List (HloOp τ sig (Elt F))), op.fresh = ∅ := fresh_append ops_D3_fresh from_G4b_fresh
theorem after_from_D3 (V : Valuation τ sig (Elt F)) : StableHlo.after from_D3 V = StableHlo.after from_G4b (StableHlo.after ops_D3 V) := StableHlo.after_append _ _ _
theorem from_G4a_sub : (from_G4a : List (HloOp τ sig (Elt F))).Forall fun op => op.bufs ⊆ StableHlo.tcRefs τ sig := sub_append ops_G4a_sub from_D3_sub
theorem from_G4a_fresh : ∀ op ∈ (from_G4a : List (HloOp τ sig (Elt F))), op.fresh = ∅ := fresh_append ops_G4a_fresh from_D3_fresh
theorem after_from_G4a (V : Valuation τ sig (Elt F)) : StableHlo.after from_G4a V = StableHlo.after from_D3 (StableHlo.after ops_G4a V) := StableHlo.after_append _ _ _
theorem from_G3_sub : (from_G3 : List (HloOp τ sig (Elt F))).Forall fun op => op.bufs ⊆ StableHlo.tcRefs τ sig := sub_append ops_G3_sub from_G4a_sub
theorem from_G3_fresh : ∀ op ∈ (from_G3 : List (HloOp τ sig (Elt F))), op.fresh = ∅ := fresh_append ops_G3_fresh from_G4a_fresh
theorem after_from_G3 (V : Valuation τ sig (Elt F)) : StableHlo.after from_G3 V = StableHlo.after from_G4a (StableHlo.after ops_G3 V) := StableHlo.after_append _ _ _
theorem from_P2_sub : (from_P2 : List (HloOp τ sig (Elt F))).Forall fun op => op.bufs ⊆ StableHlo.tcRefs τ sig := sub_append ops_P2_sub from_G3_sub
theorem from_P2_fresh : ∀ op ∈ (from_P2 : List (HloOp τ sig (Elt F))), op.fresh = ∅ := fresh_append ops_P2_fresh from_G3_fresh
theorem after_from_P2 (V : Valuation τ sig (Elt F)) : StableHlo.after from_P2 V = StableHlo.after from_G3 (StableHlo.after ops_P2 V) := StableHlo.after_append _ _ _
theorem from_P1_sub : (from_P1 : List (HloOp τ sig (Elt F))).Forall fun op => op.bufs ⊆ StableHlo.tcRefs τ sig := sub_append ops_P1_sub from_P2_sub
theorem from_P1_fresh : ∀ op ∈ (from_P1 : List (HloOp τ sig (Elt F))), op.fresh = ∅ := fresh_append ops_P1_fresh from_P2_fresh
theorem after_from_P1 (V : Valuation τ sig (Elt F)) : StableHlo.after from_P1 V = StableHlo.after from_P2 (StableHlo.after ops_P1 V) := StableHlo.after_append _ _ _
theorem from_P0_sub : (from_P0 : List (HloOp τ sig (Elt F))).Forall fun op => op.bufs ⊆ StableHlo.tcRefs τ sig := sub_append ops_P0_sub from_P1_sub
theorem from_P0_fresh : ∀ op ∈ (from_P0 : List (HloOp τ sig (Elt F))), op.fresh = ∅ := fresh_append ops_P0_fresh from_P1_fresh
theorem after_from_P0 (V : Valuation τ sig (Elt F)) : StableHlo.after from_P0 V = StableHlo.after from_P1 (StableHlo.after ops_P0 V) := StableHlo.after_append _ _ _

/-- The fold of all operations over the launch contents is the fold chunk by chunk. -/
theorem after_allOps (m : (ℓ : Loc nD τ sig) → Buf (Elt F) ℓ) (c : Dev nD) : StableHlo.after allOps (launchContents m c) = BF m c := by
  rw [after_from_P0, after_from_P1, after_from_P2, after_from_G3, after_from_G4a, after_from_D3, after_from_G4b, after_from_G5a, after_from_D4, after_from_G5b, after_from_G6a, after_from_D5, after_from_G6b, after_from_G7a, after_from_D6, after_from_G7b, after_from_G8a, after_from_D7, after_from_G8b, after_from_G9a, after_from_D8, after_from_G9b, after_from_L9, after_from_H10, after_from_L10, after_from_H11, after_from_L11, after_from_RELU9, after_from_RELU10, after_from_RELU11, after_from_G12, after_from_G13a, after_from_D12, after_from_G13b, after_from_G14a, after_from_D13, after_from_G14b, after_from_G15a, after_from_D14, after_from_G15b, after_from_G16a, after_from_D15, after_from_G16b, after_from_G17a, after_from_D16, after_from_G17b, after_from_G18a, after_from_D17, after_from_G18b, after_from_L18, after_from_H19, after_from_L19, after_from_H20, after_from_L20]

set_option maxRecDepth 16384 in
set_option maxHeartbeats 4000000 in
/-- The windows' operations in order are the chunks' operations in order: the same list cut twice. -/
theorem wops_eq : (wops_0 ++ (wops_1 ++ (wops_2 ++ (wops_3 ++ (wops_4 ++ (wops_5 ++ (wops_6 ++ (wops_7 ++ (wops_8 ++ (wops_9 ++ (wops_10 ++ (wops_11 ++ (wops_12 ++ (wops_13 ++ (wops_14 ++ (wops_15 ++ (wops_16 ++ (wops_17 ++ (wops_18)))))))))))))))))) : List (HloOp τ sig (Elt F))) = allOps := rfl

set_option maxRecDepth 8192 in
set_option maxHeartbeats 4000000 in
/-- @main is the straight line of its windows' operations. -/
theorem main_eq_wops (c : Dev nD) : main (F := F) c = seq (wops_0 ++ (wops_1 ++ (wops_2 ++ (wops_3 ++ (wops_4 ++ (wops_5 ++ (wops_6 ++ (wops_7 ++ (wops_8 ++ (wops_9 ++ (wops_10 ++ (wops_11 ++ (wops_12 ++ (wops_13 ++ (wops_14 ++ (wops_15 ++ (wops_16 ++ (wops_17 ++ (wops_18))))))))))))))))))) := by
  simp only [seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c, ← main_part18_eq c]
  rfl
/-- @main is the straight line of all its operations. -/
theorem main_eq (c : Dev nD) : main (F := F) c = seq allOps := (main_eq_wops c).trans (congrArg seq wops_eq)
theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
set_option maxHeartbeats 4000000 in
/-- On every device, for any float values, from any memory with zero counters: every weakly fair execution of
    @main terminates with each result at the fold of the operations over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v852) = BF m c (Proc.devRef .tc main_v852)
      ∧ r.2.mem ((c.tc : Thread nD τ).loc main_v880) = BF m c (Proc.devRef .tc main_v880)
      ∧ r.2.mem ((c.tc : Thread nD τ).loc main_v908) = BF m c (Proc.devRef .tc main_v908)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v852).trans (congrFun (after_allOps m c) _),
      (h c main_v880).trans (congrFun (after_allOps m c) _),
      (h c main_v908).trans (congrFun (after_allOps m c) _),
      (h c main_arg0).trans ((congrFun (after_allOps m c) _).trans (stable_B0 m c main_arg0 (by decide))),
      (h c main_arg1).trans ((congrFun (after_allOps m c) _).trans (stable_B0 m c main_arg1 (by decide))),
      (h c main_arg2).trans ((congrFun (after_allOps m c) _).trans (stable_B0 m c main_arg2 (by decide))),
      (h c main_arg3).trans ((congrFun (after_allOps m c) _).trans (stable_B0 m c main_arg3 (by decide))),
      (h c main_arg4).trans ((congrFun (after_allOps m c) _).trans (stable_B0 m c main_arg4 (by decide))),
      (h c main_arg5).trans ((congrFun (after_allOps m c) _).trans (stable_B0 m c main_arg5 (by decide))),
      (h c main_arg6).trans ((congrFun (after_allOps m c) _).trans (stable_B0 m c main_arg6 (by decide))),
      (h c main_arg7).trans ((congrFun (after_allOps m c) _).trans (stable_B0 m c main_arg7 (by decide))),
      (h c main_arg8).trans ((congrFun (after_allOps m c) _).trans (stable_B0 m c main_arg8 (by decide))),
      (h c main_arg9).trans ((congrFun (after_allOps m c) _).trans (stable_B0 m c main_arg9 (by decide))),
      (h c main_arg10).trans ((congrFun (after_allOps m c) _).trans (stable_B0 m c main_arg10 (by decide))),
      (h c main_arg11).trans ((congrFun (after_allOps m c) _).trans (stable_B0 m c main_arg11 (by decide))),
      (h c main_arg12).trans ((congrFun (after_allOps m c) _).trans (stable_B0 m c main_arg12 (by decide))),
      (h c main_arg13).trans ((congrFun (after_allOps m c) _).trans (stable_B0 m c main_arg13 (by decide))),
      (h c main_arg14).trans ((congrFun (after_allOps m c) _).trans (stable_B0 m c main_arg14 (by decide))),
      (h c main_arg15).trans ((congrFun (after_allOps m c) _).trans (stable_B0 m c main_arg15 (by decide))),
      (h c main_arg16).trans ((congrFun (after_allOps m c) _).trans (stable_B0 m c main_arg16 (by decide))),
      (h c main_arg17).trans ((congrFun (after_allOps m c) _).trans (stable_B0 m c main_arg17 (by decide))),
      (h c main_arg18).trans ((congrFun (after_allOps m c) _).trans (stable_B0 m c main_arg18 (by decide))),
      (h c main_arg19).trans ((congrFun (after_allOps m c) _).trans (stable_B0 m c main_arg19 (by decide))),
      (h c main_arg20).trans ((congrFun (after_allOps m c) _).trans (stable_B0 m c main_arg20 (by decide))),
      (h c main_arg21).trans ((congrFun (after_allOps m c) _).trans (stable_B0 m c main_arg21 (by decide))),
      (h c main_arg22).trans ((congrFun (after_allOps m c) _).trans (stable_B0 m c main_arg22 (by decide)))⟩)
    (run_seq scopedRefs_eq scopedSems_eq defs main (fun _ => allOps) main_eq (fun _ => from_P0_sub) m ρ (fun _ => from_P0_fresh))

end Cert.ReferenceIdeal.Hand

end
-- ==== Proof.Host.Grp0.lean ====
import proofs.«147021_j7619271983570_1_alg».proof.Proof.Gen.KernelIdeal.Launch
import proofs.«147021_j7619271983570_1_alg».proof.ReferenceIdeal
import Idealize.ShloMosaic.Lib.StableHlo.Run

/-! Host operations of the kernel program against the reference program's: the bias of input projection 0, laid out as one row.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g0_v0 {F : FTy → Type} [FloatOps F]
    (Wp : Valuation Cert.KernelIdeal.τ Cert.KernelIdeal.sig (Elt F)) (Bp : Valuation Cert.ReferenceIdeal.τ Cert.ReferenceIdeal.sig (Elt F))
    (h_arg4 : (Wp (Proc.devRef .tc Cert.KernelIdeal.main_arg4) : (⟨Cert.KernelIdeal.S128, .f32⟩ : BufTy).Contents (Elt F)) = Bp (Proc.devRef .tc Cert.ReferenceIdeal.main_arg4)) :
    ((StableHlo.after (Cert.KernelIdeal.Gen.hostOps0 (F := F)) Wp) (Proc.devRef .tc Cert.KernelIdeal.main_v0) : (⟨Cert.KernelIdeal.S1x128, .f32⟩ : BufTy).Contents (Elt F))
      = ((shapeCast _ (Bp (Proc.devRef .tc Cert.ReferenceIdeal.main_arg4)) Cert.KernelIdeal.Facts₀.shapeCasts_S128_S1x128) : (⟨Cert.KernelIdeal.S1x128, .f32⟩ : BufTy).Contents (Elt F)) := by
  simp only [Cert.KernelIdeal.Gen.hostOps0]
  after_results_simp
  try simp only [h_arg4]
  try (first | rfl | (simp only [StableHlo.TRef.ofBuf, StableHlo.TRef.toBuf, cast_eq]; rfl))

end Cert.Bisim

end
-- ==== Proof.Host.Grp1.lean ====
import proofs.«147021_j7619271983570_1_alg».proof.Proof.Gen.KernelIdeal.Launch
import proofs.«147021_j7619271983570_1_alg».proof.ReferenceIdeal
import Idealize.ShloMosaic.Lib.StableHlo.Run

/-! Host operations of the kernel program against the reference program's: the bias of input projection 1, laid out as one row.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g1_v2 {F : FTy → Type} [FloatOps F]
    (Wp : Valuation Cert.KernelIdeal.τ Cert.KernelIdeal.sig (Elt F)) (Bp : Valuation Cert.ReferenceIdeal.τ Cert.ReferenceIdeal.sig (Elt F))
    (h_arg6 : (Wp (Proc.devRef .tc Cert.KernelIdeal.main_arg6) : (⟨Cert.KernelIdeal.S128, .f32⟩ : BufTy).Contents (Elt F)) = Bp (Proc.devRef .tc Cert.ReferenceIdeal.main_arg6)) :
    ((StableHlo.after (Cert.KernelIdeal.Gen.hostOps1 (F := F)) Wp) (Proc.devRef .tc Cert.KernelIdeal.main_v2) : (⟨Cert.KernelIdeal.S1x128, .f32⟩ : BufTy).Contents (Elt F))
      = ((shapeCast _ (Bp (Proc.devRef .tc Cert.ReferenceIdeal.main_arg6)) Cert.KernelIdeal.Facts₀.shapeCasts_S128_S1x128) : (⟨Cert.KernelIdeal.S1x128, .f32⟩ : BufTy).Contents (Elt F)) := by
  simp only [Cert.KernelIdeal.Gen.hostOps1]
  after_results_simp
  try simp only [h_arg6]
  try (first | rfl | (simp only [StableHlo.TRef.ofBuf, StableHlo.TRef.toBuf, cast_eq]; rfl))

end Cert.Bisim

end
-- ==== Proof.Host.Grp2.lean ====
import proofs.«147021_j7619271983570_1_alg».proof.Proof.Gen.KernelIdeal.Launch
import proofs.«147021_j7619271983570_1_alg».proof.ReferenceIdeal
import Idealize.ShloMosaic.Lib.StableHlo.Run

/-! Host operations of the kernel program against the reference program's: the bias of input projection 2, laid out as one row.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g2_v4 {F : FTy → Type} [FloatOps F]
    (Wp : Valuation Cert.KernelIdeal.τ Cert.KernelIdeal.sig (Elt F)) (Bp : Valuation Cert.ReferenceIdeal.τ Cert.ReferenceIdeal.sig (Elt F))
    (h_arg8 : (Wp (Proc.devRef .tc Cert.KernelIdeal.main_arg8) : (⟨Cert.KernelIdeal.S128, .f32⟩ : BufTy).Contents (Elt F)) = Bp (Proc.devRef .tc Cert.ReferenceIdeal.main_arg8)) :
    ((StableHlo.after (Cert.KernelIdeal.Gen.hostOps2 (F := F)) Wp) (Proc.devRef .tc Cert.KernelIdeal.main_v4) : (⟨Cert.KernelIdeal.S1x128, .f32⟩ : BufTy).Contents (Elt F))
      = ((shapeCast _ (Bp (Proc.devRef .tc Cert.ReferenceIdeal.main_arg8)) Cert.KernelIdeal.Facts₀.shapeCasts_S128_S1x128) : (⟨Cert.KernelIdeal.S1x128, .f32⟩ : BufTy).Contents (Elt F)) := by
  simp only [Cert.KernelIdeal.Gen.hostOps2]
  after_results_simp
  try simp only [h_arg8]
  try (first | rfl | (simp only [StableHlo.TRef.ofBuf, StableHlo.TRef.toBuf, cast_eq]; rfl))

end Cert.Bisim

end
-- ==== Proof.Host.Grp3.lean ====
import proofs.«147021_j7619271983570_1_alg».proof.Proof.Gen.KernelIdeal.Launch
import proofs.«147021_j7619271983570_1_alg».proof.Proof.Ref.Chunk_G3
import Idealize.ShloMosaic.Lib.StableHlo.Run

/-! Host operations of the kernel program against the reference program's: layer 1: the three zero accumulators, relation 0's weight slice and its zero bias row.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g3_v6 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps3 (F := F)) Wp) (Proc.devRef .tc Cert.KernelIdeal.main_v6) : (⟨Cert.KernelIdeal.S20000x128, .f32⟩ : BufTy).Contents (Elt F))
      = ((StableHlo.after (Cert.ReferenceIdeal.Hand.ops_G3 (F := F)) Bp) (Proc.devRef .tc Cert.ReferenceIdeal.main_v12) : (⟨Cert.KernelIdeal.S20000x128, .f32⟩ : BufTy).Contents (Elt F)) := by
  simp only [Cert.KernelIdeal.Gen.hostOps3, Cert.ReferenceIdeal.Hand.ops_G3]
  after_results_simp
  skip
  try (first | rfl | (simp only [StableHlo.TRef.ofBuf, StableHlo.TRef.toBuf, cast_eq]; rfl))

set_option maxHeartbeats 4000000 in
theorem g3_v7 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps3 (F := F)) Wp) (Proc.devRef .tc Cert.KernelIdeal.main_v7) : (⟨Cert.KernelIdeal.S60000x128, .f32⟩ : BufTy).Contents (Elt F))
      = ((StableHlo.after (Cert.ReferenceIdeal.Hand.ops_G3 (F := F)) Bp) (Proc.devRef .tc Cert.ReferenceIdeal.main_v13) : (⟨Cert.KernelIdeal.S60000x128, .f32⟩ : BufTy).Contents (Elt F)) := by
  simp only [Cert.KernelIdeal.Gen.hostOps3, Cert.ReferenceIdeal.Hand.ops_G3]
  after_results_simp
  skip
  try (first | rfl | (simp only [StableHlo.TRef.ofBuf, StableHlo.TRef.toBuf, cast_eq]; rfl))

set_option maxHeartbeats 4000000 in
theorem g3_v8 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps3 (F := F)) Wp) (Proc.devRef .tc Cert.KernelIdeal.main_v8) : (⟨Cert.KernelIdeal.S20000x128, .f32⟩ : BufTy).Contents (Elt F))
      = ((StableHlo.after (Cert.ReferenceIdeal.Hand.ops_G3 (F := F)) Bp) (Proc.devRef .tc Cert.ReferenceIdeal.main_v14) : (⟨Cert.KernelIdeal.S20000x128, .f32⟩ : BufTy).Contents (Elt F)) := by
  simp only [Cert.KernelIdeal.Gen.hostOps3, Cert.ReferenceIdeal.Hand.ops_G3]
  after_results_simp
  skip
  try (first | rfl | (simp only [StableHlo.TRef.ofBuf, StableHlo.TRef.toBuf, cast_eq]; rfl))

set_option maxHeartbeats 4000000 in
theorem g3_v11 {F : FTy → Type} [FloatOps F]
    (Wp : Valuation Cert.KernelIdeal.τ Cert.KernelIdeal.sig (Elt F)) (Bp : Valuation Cert.ReferenceIdeal.τ Cert.ReferenceIdeal.sig (Elt F))
    (h_arg9 : (Wp (Proc.devRef .tc Cert.KernelIdeal.main_arg9) : (⟨Cert.KernelIdeal.S6x128x128, .f32⟩ : BufTy).Contents (Elt F)) = Bp (Proc.devRef .tc Cert.ReferenceIdeal.main_arg9)) :
    ((StableHlo.after (Cert.KernelIdeal.Gen.hostOps3 (F := F)) Wp) (Proc.devRef .tc Cert.KernelIdeal.main_v11) : (⟨Cert.KernelIdeal.S128x128, .f32⟩ : BufTy).Contents (Elt F))
      = ((StableHlo.after (Cert.ReferenceIdeal.Hand.ops_G3 (F := F)) Bp) (Proc.devRef .tc Cert.ReferenceIdeal.main_v16) : (⟨Cert.KernelIdeal.S128x128, .f32⟩ : BufTy).Contents (Elt F)) := by
  simp only [Cert.KernelIdeal.Gen.hostOps3, Cert.ReferenceIdeal.Hand.ops_G3]
  after_results_simp
  try simp only [h_arg9]
  try (first | rfl | (simp only [StableHlo.TRef.ofBuf, StableHlo.TRef.toBuf, cast_eq]; rfl))

set_option maxHeartbeats 4000000 in
theorem g3_v12 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps3 (F := F)) Wp) (Proc.devRef .tc Cert.KernelIdeal.main_v12) : (⟨Cert.KernelIdeal.S1x128, .f32⟩ : BufTy).Contents (Elt F))
      = ((shapeCast _ (broadcastInDim Cert.KernelIdeal.S128 ![] Cert.KernelIdeal.Facts₀.bcast_S_S128 (constant (F := F) Cert.KernelIdeal.S_ .f32 0x00000000#32)) Cert.KernelIdeal.Facts₀.shapeCasts_S128_S1x128) : (⟨Cert.KernelIdeal.S1x128, .f32⟩ : BufTy).Contents (Elt F)) := by
  simp only [Cert.KernelIdeal.Gen.hostOps3, Cert.ReferenceIdeal.Hand.ops_G3]
  after_results_simp
  skip
  try (first | rfl | (simp only [StableHlo.TRef.ofBuf, StableHlo.TRef.toBuf, cast_eq]; rfl))

end Cert.Bisim

end
-- ==== Proof.Host.Grp4.lean ====
import proofs.«147021_j7619271983570_1_alg».proof.Proof.Gen.KernelIdeal.Launch
import proofs.«147021_j7619271983570_1_alg».proof.Proof.Ref.Chunk_G4a
import proofs.«147021_j7619271983570_1_alg».proof.Proof.Ref.Chunk_D3
import proofs.«147021_j7619271983570_1_alg».proof.Proof.Ref.Chunk_G4b
import Idealize.ShloMosaic.Lib.StableHlo.Run

/-! Host operations of the kernel program against the reference program's: layer 1, relation 0: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g4_v70 {F : FTy → Type} [FloatOps F]
    (Wp : Valuation Cert.KernelIdeal.τ Cert.KernelIdeal.sig (Elt F)) (Bp : Valuation Cert.ReferenceIdeal.τ Cert.ReferenceIdeal.sig (Elt F))
    (h_v8 : (Wp (Proc.devRef .tc Cert.KernelIdeal.main_v8) : (⟨Cert.KernelIdeal.S20000x128, .f32⟩ : BufTy).Contents (Elt F)) = Bp (Proc.devRef .tc Cert.ReferenceIdeal.main_v14))
    (h_v13 : (Wp (Proc.devRef .tc Cert.KernelIdeal.main_v13) : (⟨Cert.KernelIdeal.S20000x128, .f32⟩ : BufTy).Contents (Elt F)) = (Host.dotGeneral (F := F) Cert.ReferenceIdeal.dot_S20000x128_S128x128_S20000x128_1_0_0_1_n_n none (Bp (Proc.devRef .tc Cert.ReferenceIdeal.main_v3)) (Bp (Proc.devRef .tc Cert.ReferenceIdeal.main_v16))))
    (h_arg17 : (Wp (Proc.devRef .tc Cert.KernelIdeal.main_arg17) : (⟨Cert.KernelIdeal.S2x500000, .i32⟩ : BufTy).Contents (Elt F)) = Bp (Proc.devRef .tc Cert.ReferenceIdeal.main_arg17))
    (h_arg10 : (Wp (Proc.devRef .tc Cert.KernelIdeal.main_arg10) : (⟨Cert.KernelIdeal.S6x128, .f32⟩ : BufTy).Contents (Elt F)) = Bp (Proc.devRef .tc Cert.ReferenceIdeal.main_arg10)) :
    ((StableHlo.after (Cert.KernelIdeal.Gen.hostOps4_4 (F := F)) (StableHlo.after (Cert.KernelIdeal.Gen.hostOps4_3 (F := F)) (StableHlo.after (Cert.KernelIdeal.Gen.hostOps4_2 (F := F)) (StableHlo.after (Cert.KernelIdeal.Gen.hostOps4_1 (F := F)) (StableHlo.after (Cert.KernelIdeal.Gen.hostOps4 (F := F)) Wp))))) (Proc.devRef .tc Cert.KernelIdeal.main_v70) : (⟨Cert.KernelIdeal.S20000x128, .f32⟩ : BufTy).Contents (Elt F))
      = ((StableHlo.after (Cert.ReferenceIdeal.Hand.ops_G4b (F := F)) (StableHlo.after (Cert.ReferenceIdeal.Hand.ops_D3 (F := F)) (StableHlo.after (Cert.ReferenceIdeal.Hand.ops_G4a (F := F)) Bp))) (Proc.devRef .tc Cert.ReferenceIdeal.main_v74) : (⟨Cert.KernelIdeal.S20000x128, .f32⟩ : BufTy).Contents (Elt F)) := by
  simp only [Cert.KernelIdeal.Gen.hostOps4, Cert.KernelIdeal.Gen.hostOps4_1, Cert.KernelIdeal.Gen.hostOps4_2, Cert.KernelIdeal.Gen.hostOps4_3, Cert.KernelIdeal.Gen.hostOps4_4, Cert.ReferenceIdeal.Hand.ops_G4a, Cert.ReferenceIdeal.Hand.ops_D3, Cert.ReferenceIdeal.Hand.ops_G4b]
  after_results_simp
  try simp only [h_v8, h_v13, h_arg17, h_arg10]
  try (first | rfl | (simp only [StableHlo.TRef.ofBuf, StableHlo.TRef.toBuf, cast_eq]; rfl))

set_option maxHeartbeats 4000000 in
theorem g4_v73 {F : FTy → Type} [FloatOps F]
    (Wp : Valuation Cert.KernelIdeal.τ Cert.KernelIdeal.sig (Elt F)) (Bp : Valuation Cert.ReferenceIdeal.τ Cert.ReferenceIdeal.sig (Elt F))
    (h_arg9 : (Wp (Proc.devRef .tc Cert.KernelIdeal.main_arg9) : (⟨Cert.KernelIdeal.S6x128x128, .f32⟩ : BufTy).Contents (Elt F)) = Bp (Proc.devRef .tc Cert.ReferenceIdeal.main_arg9)) :
    ((StableHlo.after (Cert.KernelIdeal.Gen.hostOps4_4 (F := F)) (StableHlo.after (Cert.KernelIdeal.Gen.hostOps4_3 (F := F)) (StableHlo.after (Cert.KernelIdeal.Gen.hostOps4_2 (F := F)) (StableHlo.after (Cert.KernelIdeal.Gen.hostOps4_1 (F := F)) (StableHlo.after (Cert.KernelIdeal.Gen.hostOps4 (F := F)) Wp))))) (Proc.devRef .tc Cert.KernelIdeal.main_v73) : (⟨Cert.KernelIdeal.S128x128, .f32⟩ : BufTy).Contents (Elt F))
      = ((StableHlo.after (Cert.ReferenceIdeal.Hand.ops_G4b (F := F)) (StableHlo.after (Cert.ReferenceIdeal.Hand.ops_D3 (F := F)) (StableHlo.after (Cert.ReferenceIdeal.Hand.ops_G4a (F := F)) Bp))) (Proc.devRef .tc Cert.ReferenceIdeal.main_v76) : (⟨Cert.KernelIdeal.S128x128, .f32⟩ : BufTy).Contents (Elt F)) := by
  simp only [Cert.KernelIdeal.Gen.hostOps4, Cert.KernelIdeal.Gen.hostOps4_1, Cert.KernelIdeal.Gen.hostOps4_2, Cert.KernelIdeal.Gen.hostOps4_3, Cert.KernelIdeal.Gen.hostOps4_4, Cert.ReferenceIdeal.Hand.ops_G4a, Cert.ReferenceIdeal.Hand.ops_D3, Cert.ReferenceIdeal.Hand.ops_G4b]
  after_results_simp
  try simp only [h_arg9]
  try (first | rfl | (simp only [StableHlo.TRef.ofBuf, StableHlo.TRef.toBuf, cast_eq]; rfl))

set_option maxHeartbeats 4000000 in
theorem g4_v74 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps4_4 (F := F)) (StableHlo.after (Cert.KernelIdeal.Gen.hostOps4_3 (F := F)) (StableHlo.after (Cert.KernelIdeal.Gen.hostOps4_2 (F := F)) (StableHlo.after (Cert.KernelIdeal.Gen.hostOps4_1 (F := F)) (StableHlo.after (Cert.KernelIdeal.Gen.hostOps4 (F := F)) Wp))))) (Proc.devRef .tc Cert.KernelIdeal.main_v74) : (⟨Cert.KernelIdeal.S1x128, .f32⟩ : BufTy).Contents (Elt F))
      = ((shapeCast _ (broadcastInDim Cert.KernelIdeal.S128 ![] Cert.KernelIdeal.Facts₀.bcast_S_S128 (constant (F := F) Cert.KernelIdeal.S_ .f32 0x00000000#32)) Cert.KernelIdeal.Facts₀.shapeCasts_S128_S1x128) : (⟨Cert.KernelIdeal.S1x128, .f32⟩ : BufTy).Contents (Elt F)) := by
  simp only [Cert.KernelIdeal.Gen.hostOps4, Cert.KernelIdeal.Gen.hostOps4_1, Cert.KernelIdeal.Gen.hostOps4_2, Cert.KernelIdeal.Gen.hostOps4_3, Cert.KernelIdeal.Gen.hostOps4_4, Cert.ReferenceIdeal.Hand.ops_G4a, Cert.ReferenceIdeal.Hand.ops_D3, Cert.ReferenceIdeal.Hand.ops_G4b]
  after_results_simp
  skip
  try (first | rfl | (simp only [StableHlo.TRef.ofBuf, StableHlo.TRef.toBuf, cast_eq]; rfl))

end Cert.Bisim

end
-- ==== Proof.Host.Grp5.lean ====
import proofs.«147021_j7619271983570_1_alg».proof.Proof.Gen.KernelIdeal.Launch
import proofs.«147021_j7619271983570_1_alg».proof.Proof.Ref.Chunk_G5a
import proofs.«147021_j7619271983570_1_alg».proof.Proof.Ref.Chunk_D4
import proofs.«147021_j7619271983570_1_alg».proof.Proof.Ref.Chunk_G5b
import Idealize.ShloMosaic.Lib.StableHlo.Run

/-! Host operations of the kernel program against the reference program's: layer 1, relation 1: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g5_v132 {F : FTy → Type} [FloatOps F]
    (Wp : Valuation Cert.KernelIdeal.τ Cert.KernelIdeal.sig (Elt F)) (Bp : Valuation Cert.ReferenceIdeal.τ Cert.ReferenceIdeal.sig (Elt F))
    (h_v7 : (Wp (Proc.devRef .tc Cert.KernelIdeal.main_v7) : (⟨Cert.KernelIdeal.S60000x128, .f32⟩ : BufTy).Contents (Elt F)) = Bp (Proc.devRef .tc Cert.ReferenceIdeal.main_v13))
    (h_v75 : (Wp (Proc.devRef .tc Cert.KernelIdeal.main_v75) : (⟨Cert.KernelIdeal.S20000x128, .f32⟩ : BufTy).Contents (Elt F)) = (Host.dotGeneral (F := F) Cert.ReferenceIdeal.dot_S20000x128_S128x128_S20000x128_1_0_0_1_n_n none (Bp (Proc.devRef .tc Cert.ReferenceIdeal.main_v3)) (Bp (Proc.devRef .tc Cert.ReferenceIdeal.main_v76))))
    (h_arg18 : (Wp (Proc.devRef .tc Cert.KernelIdeal.main_arg18) : (⟨Cert.KernelIdeal.S2x500000, .i32⟩ : BufTy).Contents (Elt F)) = Bp (Proc.devRef .tc Cert.ReferenceIdeal.main_arg18))
    (h_arg10 : (Wp (Proc.devRef .tc Cert.KernelIdeal.main_arg10) : (⟨Cert.KernelIdeal.S6x128, .f32⟩ : BufTy).Contents (Elt F)) = Bp (Proc.devRef .tc Cert.ReferenceIdeal.main_arg10)) :
    ((StableHlo.after (Cert.KernelIdeal.Gen.hostOps5_4 (F := F)) (StableHlo.after (Cert.KernelIdeal.Gen.hostOps5_3 (F := F)) (StableHlo.after (Cert.KernelIdeal.Gen.hostOps5_2 (F := F)) (StableHlo.after (Cert.KernelIdeal.Gen.hostOps5_1 (F := F)) (StableHlo.after (Cert.KernelIdeal.Gen.hostOps5 (F := F)) Wp))))) (Proc.devRef .tc Cert.KernelIdeal.main_v132) : (⟨Cert.KernelIdeal.S60000x128, .f32⟩ : BufTy).Contents (Elt F))
      = ((StableHlo.after (Cert.ReferenceIdeal.Hand.ops_G5b (F := F)) (StableHlo.after (Cert.ReferenceIdeal.Hand.ops_D4 (F := F)) (StableHlo.after (Cert.ReferenceIdeal.Hand.ops_G5a (F := F)) Bp))) (Proc.devRef .tc Cert.ReferenceIdeal.main_v134) : (⟨Cert.KernelIdeal.S60000x128, .f32⟩ : BufTy).Contents (Elt F)) := by
  simp only [Cert.KernelIdeal.Gen.hostOps5, Cert.KernelIdeal.Gen.hostOps5_1, Cert.KernelIdeal.Gen.hostOps5_2, Cert.KernelIdeal.Gen.hostOps5_3, Cert.KernelIdeal.Gen.hostOps5_4, Cert.ReferenceIdeal.Hand.ops_G5a, Cert.ReferenceIdeal.Hand.ops_D4, Cert.ReferenceIdeal.Hand.ops_G5b]
  after_results_simp
  try simp only [h_v7, h_v75, h_arg18, h_arg10]
  try (first | rfl | (simp only [StableHlo.TRef.ofBuf, StableHlo.TRef.toBuf, cast_eq]; rfl))

set_option maxHeartbeats 4000000 in
theorem g5_v135 {F : FTy → Type} [FloatOps F]
    (Wp : Valuation Cert.KernelIdeal.τ Cert.KernelIdeal.sig (Elt F)) (Bp : Valuation Cert.ReferenceIdeal.τ Cert.ReferenceIdeal.sig (Elt F))
    (h_arg9 : (Wp (Proc.devRef .tc Cert.KernelIdeal.main_arg9) : (⟨Cert.KernelIdeal.S6x128x128, .f32⟩ : BufTy).Contents (Elt F)) = Bp (Proc.devRef .tc Cert.ReferenceIdeal.main_arg9)) :
    ((StableHlo.after (Cert.KernelIdeal.Gen.hostOps5_4 (F := F)) (StableHlo.after (Cert.KernelIdeal.Gen.hostOps5_3 (F := F)) (StableHlo.after (Cert.KernelIdeal.Gen.hostOps5_2 (F := F)) (StableHlo.after (Cert.KernelIdeal.Gen.hostOps5_1 (F := F)) (StableHlo.after (Cert.KernelIdeal.Gen.hostOps5 (F := F)) Wp))))) (Proc.devRef .tc Cert.KernelIdeal.main_v135) : (⟨Cert.KernelIdeal.S128x128, .f32⟩ : BufTy).Contents (Elt F))
      = ((StableHlo.after (Cert.ReferenceIdeal.Hand.ops_G5b (F := F)) (StableHlo.after (Cert.ReferenceIdeal.Hand.ops_D4 (F := F)) (StableHlo.after (Cert.ReferenceIdeal.Hand.ops_G5a (F := F)) Bp))) (Proc.devRef .tc Cert.ReferenceIdeal.main_v136) : (⟨Cert.KernelIdeal.S128x128, .f32⟩ : BufTy).Contents (Elt F)) := by
  simp only [Cert.KernelIdeal.Gen.hostOps5, Cert.KernelIdeal.Gen.hostOps5_1, Cert.KernelIdeal.Gen.hostOps5_2, Cert.KernelIdeal.Gen.hostOps5_3, Cert.KernelIdeal.Gen.hostOps5_4, Cert.ReferenceIdeal.Hand.ops_G5a, Cert.ReferenceIdeal.Hand.ops_D4, Cert.ReferenceIdeal.Hand.ops_G5b]
  after_results_simp
  try simp only [h_arg9]
  try (first | rfl | (simp only [StableHlo.TRef.ofBuf, StableHlo.TRef.toBuf, cast_eq]; rfl))

set_option maxHeartbeats 4000000 in
theorem g5_v136 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps5_4 (F := F)) (StableHlo.after (Cert.KernelIdeal.Gen.hostOps5_3 (F := F)) (StableHlo.after (Cert.KernelIdeal.Gen.hostOps5_2 (F := F)) (StableHlo.after (Cert.KernelIdeal.Gen.hostOps5_1 (F := F)) (StableHlo.after (Cert.KernelIdeal.Gen.hostOps5 (F := F)) Wp))))) (Proc.devRef .tc Cert.KernelIdeal.main_v136) : (⟨Cert.KernelIdeal.S1x128, .f32⟩ : BufTy).Contents (Elt F))
      = ((shapeCast _ (broadcastInDim Cert.KernelIdeal.S128 ![] Cert.KernelIdeal.Facts₀.bcast_S_S128 (constant (F := F) Cert.KernelIdeal.S_ .f32 0x00000000#32)) Cert.KernelIdeal.Facts₀.shapeCasts_S128_S1x128) : (⟨Cert.KernelIdeal.S1x128, .f32⟩ : BufTy).Contents (Elt F)) := by
  simp only [Cert.KernelIdeal.Gen.hostOps5, Cert.KernelIdeal.Gen.hostOps5_1, Cert.KernelIdeal.Gen.hostOps5_2, Cert.KernelIdeal.Gen.hostOps5_3, Cert.KernelIdeal.Gen.hostOps5_4, Cert.ReferenceIdeal.Hand.ops_G5a, Cert.ReferenceIdeal.Hand.ops_D4, Cert.ReferenceIdeal.Hand.ops_G5b]
  after_results_simp
  skip
  try (first | rfl | (simp only [StableHlo.TRef.ofBuf, StableHlo.TRef.toBuf, cast_eq]; rfl))

end Cert.Bisim

end
-- ==== Proof.Host.Grp6.lean ====
import proofs.«147021_j7619271983570_1_alg».proof.Proof.Gen.KernelIdeal.Launch
import proofs.«147021_j7619271983570_1_alg».proof.Proof.Ref.Chunk_G6a
import proofs.«147021_j7619271983570_1_alg».proof.Proof.Ref.Chunk_D5
import proofs.«147021_j7619271983570_1_alg».proof.Proof.Ref.Chunk_G6b
import Idealize.ShloMosaic.Lib.StableHlo.Run

/-! Host operations of the kernel program against the reference program's: layer 1, relation 2: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g6_v194 {F : FTy → Type} [FloatOps F]
    (Wp : Valuation Cert.KernelIdeal.τ Cert.KernelIdeal.sig (Elt F)) (Bp : Valuation Cert.ReferenceIdeal.τ Cert.ReferenceIdeal.sig (Elt F))
    (h_v70 : (Wp (Proc.devRef .tc Cert.KernelIdeal.main_v70) : (⟨Cert.KernelIdeal.S20000x128, .f32⟩ : BufTy).Contents (Elt F)) = Bp (Proc.devRef .tc Cert.ReferenceIdeal.main_v74))
    (h_v137 : (Wp (Proc.devRef .tc Cert.KernelIdeal.main_v137) : (⟨Cert.KernelIdeal.S60000x128, .f32⟩ : BufTy).Contents (Elt F)) = (Host.dotGeneral (F := F) Cert.ReferenceIdeal.dot_S60000x128_S128x128_S60000x128_1_0_0_1_n_n none (Bp (Proc.devRef .tc Cert.ReferenceIdeal.main_v7)) (Bp (Proc.devRef .tc Cert.ReferenceIdeal.main_v136))))
    (h_arg19 : (Wp (Proc.devRef .tc Cert.KernelIdeal.main_arg19) : (⟨Cert.KernelIdeal.S2x500000, .i32⟩ : BufTy).Contents (Elt F)) = Bp (Proc.devRef .tc Cert.ReferenceIdeal.main_arg19))
    (h_arg10 : (Wp (Proc.devRef .tc Cert.KernelIdeal.main_arg10) : (⟨Cert.KernelIdeal.S6x128, .f32⟩ : BufTy).Contents (Elt F)) = Bp (Proc.devRef .tc Cert.ReferenceIdeal.main_arg10)) :
    ((StableHlo.after (Cert.KernelIdeal.Gen.hostOps6_4 (F := F)) (StableHlo.after (Cert.KernelIdeal.Gen.hostOps6_3 (F := F)) (StableHlo.after (Cert.KernelIdeal.Gen.hostOps6_2 (F := F)) (StableHlo.after (Cert.KernelIdeal.Gen.hostOps6_1 (F := F)) (StableHlo.after (Cert.KernelIdeal.Gen.hostOps6 (F := F)) Wp))))) (Proc.devRef .tc Cert.KernelIdeal.main_v194) : (⟨Cert.KernelIdeal.S20000x128, .f32⟩ : BufTy).Contents (Elt F))
      = ((StableHlo.after (Cert.ReferenceIdeal.Hand.ops_G6b (F := F)) (StableHlo.after (Cert.ReferenceIdeal.Hand.ops_D5 (F := F)) (StableHlo.after (Cert.ReferenceIdeal.Hand.ops_G6a (F := F)) Bp))) (Proc.devRef .tc Cert.ReferenceIdeal.main_v194) : (⟨Cert.KernelIdeal.S20000x128, .f32⟩ : BufTy).Contents (Elt F)) := by
  simp only [Cert.KernelIdeal.Gen.hostOps6, Cert.KernelIdeal.Gen.hostOps6_1, Cert.KernelIdeal.Gen.hostOps6_2, Cert.KernelIdeal.Gen.hostOps6_3, Cert.KernelIdeal.Gen.hostOps6_4, Cert.ReferenceIdeal.Hand.ops_G6a, Cert.ReferenceIdeal.Hand.ops_D5, Cert.ReferenceIdeal.Hand.ops_G6b]
  after_results_simp
  try simp only [h_v70, h_v137, h_arg19, h_arg10]
  try (first | rfl | (simp only [StableHlo.TRef.ofBuf, StableHlo.TRef.toBuf, cast_eq]; rfl))

set_option maxHeartbeats 4000000 in
theorem g6_v197 {F : FTy → Type} [FloatOps F]
    (Wp : Valuation Cert.KernelIdeal.τ Cert.KernelIdeal.sig (Elt F)) (Bp : Valuation Cert.ReferenceIdeal.τ Cert.ReferenceIdeal.sig (Elt F))
    (h_arg9 : (Wp (Proc.devRef .tc Cert.KernelIdeal.main_arg9) : (⟨Cert.KernelIdeal.S6x128x128, .f32⟩ : BufTy).Contents (Elt F)) = Bp (Proc.devRef .tc Cert.ReferenceIdeal.main_arg9)) :
    ((StableHlo.after (Cert.KernelIdeal.Gen.hostOps6_4 (F := F)) (StableHlo.after (Cert.KernelIdeal.Gen.hostOps6_3 (F := F)) (StableHlo.after (Cert.KernelIdeal.Gen.hostOps6_2 (F := F)) (StableHlo.after (Cert.KernelIdeal.Gen.hostOps6_1 (F := F)) (StableHlo.after (Cert.KernelIdeal.Gen.hostOps6 (F := F)) Wp))))) (Proc.devRef .tc Cert.KernelIdeal.main_v197) : (⟨Cert.KernelIdeal.S128x128, .f32⟩ : BufTy).Contents (Elt F))
      = ((StableHlo.after (Cert.ReferenceIdeal.Hand.ops_G6b (F := F)) (StableHlo.after (Cert.ReferenceIdeal.Hand.ops_D5 (F := F)) (StableHlo.after (Cert.ReferenceIdeal.Hand.ops_G6a (F := F)) Bp))) (Proc.devRef .tc Cert.ReferenceIdeal.main_v196) : (⟨Cert.KernelIdeal.S128x128, .f32⟩ : BufTy).Contents (Elt F)) := by
  simp only [Cert.KernelIdeal.Gen.hostOps6, Cert.KernelIdeal.Gen.hostOps6_1, Cert.KernelIdeal.Gen.hostOps6_2, Cert.KernelIdeal.Gen.hostOps6_3, Cert.KernelIdeal.Gen.hostOps6_4, Cert.ReferenceIdeal.Hand.ops_G6a, Cert.ReferenceIdeal.Hand.ops_D5, Cert.ReferenceIdeal.Hand.ops_G6b]
  after_results_simp
  try simp only [h_arg9]
  try (first | rfl | (simp only [StableHlo.TRef.ofBuf, StableHlo.TRef.toBuf, cast_eq]; rfl))

set_option maxHeartbeats 4000000 in
theorem g6_v198 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps6_4 (F := F)) (StableHlo.after (Cert.KernelIdeal.Gen.hostOps6_3 (F := F)) (StableHlo.after (Cert.KernelIdeal.Gen.hostOps6_2 (F := F)) (StableHlo.after (Cert.KernelIdeal.Gen.hostOps6_1 (F := F)) (StableHlo.after (Cert.KernelIdeal.Gen.hostOps6 (F := F)) Wp))))) (Proc.devRef .tc Cert.KernelIdeal.main_v198) : (⟨Cert.KernelIdeal.S1x128, .f32⟩ : BufTy).Contents (Elt F))
      = ((shapeCast _ (broadcastInDim Cert.KernelIdeal.S128 ![] Cert.KernelIdeal.Facts₀.bcast_S_S128 (constant (F := F) Cert.KernelIdeal.S_ .f32 0x00000000#32)) Cert.KernelIdeal.Facts₀.shapeCasts_S128_S1x128) : (⟨Cert.KernelIdeal.S1x128, .f32⟩ : BufTy).Contents (Elt F)) := by
  simp only [Cert.KernelIdeal.Gen.hostOps6, Cert.KernelIdeal.Gen.hostOps6_1, Cert.KernelIdeal.Gen.hostOps6_2, Cert.KernelIdeal.Gen.hostOps6_3, Cert.KernelIdeal.Gen.hostOps6_4, Cert.ReferenceIdeal.Hand.ops_G6a, Cert.ReferenceIdeal.Hand.ops_D5, Cert.ReferenceIdeal.Hand.ops_G6b]
  after_results_simp
  skip
  try (first | rfl | (simp only [StableHlo.TRef.ofBuf, StableHlo.TRef.toBuf, cast_eq]; rfl))

end Cert.Bisim

end
-- ==== Proof.Host.Grp7.lean ====
import proofs.«147021_j7619271983570_1_alg».proof.Proof.Gen.KernelIdeal.Launch
import proofs.«147021_j7619271983570_1_alg».proof.Proof.Ref.Chunk_G7a
import proofs.«147021_j7619271983570_1_alg».proof.Proof.Ref.Chunk_D6
import proofs.«147021_j7619271983570_1_alg».proof.Proof.Ref.Chunk_G7b
import Idealize.ShloMosaic.Lib.StableHlo.Run

/-! Host operations of the kernel program against the reference program's: layer 1, relation 3: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g7_v256 {F : FTy → Type} [FloatOps F]
    (Wp : Valuation Cert.KernelIdeal.τ Cert.KernelIdeal.sig (Elt F)) (Bp : Valuation Cert.ReferenceIdeal.τ Cert.ReferenceIdeal.sig (Elt F))
    (h_v6 : (Wp (Proc.devRef .tc Cert.KernelIdeal.main_v6) : (⟨Cert.KernelIdeal.S20000x128, .f32⟩ : BufTy).Contents (Elt F)) = Bp (Proc.devRef .tc Cert.ReferenceIdeal.main_v12))
    (h_v199 : (Wp (Proc.devRef .tc Cert.KernelIdeal.main_v199) : (⟨Cert.KernelIdeal.S20000x128, .f32⟩ : BufTy).Contents (Elt F)) = (Host.dotGeneral (F := F) Cert.ReferenceIdeal.dot_S20000x128_S128x128_S20000x128_1_0_0_1_n_n none (Bp (Proc.devRef .tc Cert.ReferenceIdeal.main_v11)) (Bp (Proc.devRef .tc Cert.ReferenceIdeal.main_v196))))
    (h_arg20 : (Wp (Proc.devRef .tc Cert.KernelIdeal.main_arg20) : (⟨Cert.KernelIdeal.S2x500000, .i32⟩ : BufTy).Contents (Elt F)) = Bp (Proc.devRef .tc Cert.ReferenceIdeal.main_arg20))
    (h_arg10 : (Wp (Proc.devRef .tc Cert.KernelIdeal.main_arg10) : (⟨Cert.KernelIdeal.S6x128, .f32⟩ : BufTy).Contents (Elt F)) = Bp (Proc.devRef .tc Cert.ReferenceIdeal.main_arg10)) :
    ((StableHlo.after (Cert.KernelIdeal.Gen.hostOps7_4 (F := F)) (StableHlo.after (Cert.KernelIdeal.Gen.hostOps7_3 (F := F)) (StableHlo.after (Cert.KernelIdeal.Gen.hostOps7_2 (F := F)) (StableHlo.after (Cert.KernelIdeal.Gen.hostOps7_1 (F := F)) (StableHlo.after (Cert.KernelIdeal.Gen.hostOps7 (F := F)) Wp))))) (Proc.devRef .tc Cert.KernelIdeal.main_v256) : (⟨Cert.KernelIdeal.S20000x128, .f32⟩ : BufTy).Contents (Elt F))
      = ((StableHlo.after (Cert.ReferenceIdeal.Hand.ops_G7b (F := F)) (StableHlo.after (Cert.ReferenceIdeal.Hand.ops_D6 (F := F)) (StableHlo.after (Cert.ReferenceIdeal.Hand.ops_G7a (F := F)) Bp))) (Proc.devRef .tc Cert.ReferenceIdeal.main_v254) : (⟨Cert.KernelIdeal.S20000x128, .f32⟩ : BufTy).Contents (Elt F)) := by
  simp only [Cert.KernelIdeal.Gen.hostOps7, Cert.KernelIdeal.Gen.hostOps7_1, Cert.KernelIdeal.Gen.hostOps7_2, Cert.KernelIdeal.Gen.hostOps7_3, Cert.KernelIdeal.Gen.hostOps7_4, Cert.ReferenceIdeal.Hand.ops_G7a, Cert.ReferenceIdeal.Hand.ops_D6, Cert.ReferenceIdeal.Hand.ops_G7b]
  after_results_simp
  try simp only [h_v6, h_v199, h_arg20, h_arg10]
  try (first | rfl | (simp only [StableHlo.TRef.ofBuf, StableHlo.TRef.toBuf, cast_eq]; rfl))

set_option maxHeartbeats 4000000 in
theorem g7_v259 {F : FTy → Type} [FloatOps F]
    (Wp : Valuation Cert.KernelIdeal.τ Cert.KernelIdeal.sig (Elt F)) (Bp : Valuation Cert.ReferenceIdeal.τ Cert.ReferenceIdeal.sig (Elt F))
    (h_arg9 : (Wp (Proc.devRef .tc Cert.KernelIdeal.main_arg9) : (⟨Cert.KernelIdeal.S6x128x128, .f32⟩ : BufTy).Contents (Elt F)) = Bp (Proc.devRef .tc Cert.ReferenceIdeal.main_arg9)) :
    ((StableHlo.after (Cert.KernelIdeal.Gen.hostOps7_4 (F := F)) (StableHlo.after (Cert.KernelIdeal.Gen.hostOps7_3 (F := F)) (StableHlo.after (Cert.KernelIdeal.Gen.hostOps7_2 (F := F)) (StableHlo.after (Cert.KernelIdeal.Gen.hostOps7_1 (F := F)) (StableHlo.after (Cert.KernelIdeal.Gen.hostOps7 (F := F)) Wp))))) (Proc.devRef .tc Cert.KernelIdeal.main_v259) : (⟨Cert.KernelIdeal.S128x128, .f32⟩ : BufTy).Contents (Elt F))
      = ((StableHlo.after (Cert.ReferenceIdeal.Hand.ops_G7b (F := F)) (StableHlo.after (Cert.ReferenceIdeal.Hand.ops_D6 (F := F)) (StableHlo.after (Cert.ReferenceIdeal.Hand.ops_G7a (F := F)) Bp))) (Proc.devRef .tc Cert.ReferenceIdeal.main_v256) : (⟨Cert.KernelIdeal.S128x128, .f32⟩ : BufTy).Contents (Elt F)) := by
  simp only [Cert.KernelIdeal.Gen.hostOps7, Cert.KernelIdeal.Gen.hostOps7_1, Cert.KernelIdeal.Gen.hostOps7_2, Cert.KernelIdeal.Gen.hostOps7_3, Cert.KernelIdeal.Gen.hostOps7_4, Cert.ReferenceIdeal.Hand.ops_G7a, Cert.ReferenceIdeal.Hand.ops_D6, Cert.ReferenceIdeal.Hand.ops_G7b]
  after_results_simp
  try simp only [h_arg9]
  try (first | rfl | (simp only [StableHlo.TRef.ofBuf, StableHlo.TRef.toBuf, cast_eq]; rfl))

set_option maxHeartbeats 4000000 in
theorem g7_v260 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps7_4 (F := F)) (StableHlo.after (Cert.KernelIdeal.Gen.hostOps7_3 (F := F)) (StableHlo.after (Cert.KernelIdeal.Gen.hostOps7_2 (F := F)) (StableHlo.after (Cert.KernelIdeal.Gen.hostOps7_1 (F := F)) (StableHlo.after (Cert.KernelIdeal.Gen.hostOps7 (F := F)) Wp))))) (Proc.devRef .tc Cert.KernelIdeal.main_v260) : (⟨Cert.KernelIdeal.S1x128, .f32⟩ : BufTy).Contents (Elt F))
      = ((shapeCast _ (broadcastInDim Cert.KernelIdeal.S128 ![] Cert.KernelIdeal.Facts₀.bcast_S_S128 (constant (F := F) Cert.KernelIdeal.S_ .f32 0x00000000#32)) Cert.KernelIdeal.Facts₀.shapeCasts_S128_S1x128) : (⟨Cert.KernelIdeal.S1x128, .f32⟩ : BufTy).Contents (Elt F)) := by
  simp only [Cert.KernelIdeal.Gen.hostOps7, Cert.KernelIdeal.Gen.hostOps7_1, Cert.KernelIdeal.Gen.hostOps7_2, Cert.KernelIdeal.Gen.hostOps7_3, Cert.KernelIdeal.Gen.hostOps7_4, Cert.ReferenceIdeal.Hand.ops_G7a, Cert.ReferenceIdeal.Hand.ops_D6, Cert.ReferenceIdeal.Hand.ops_G7b]
  after_results_simp
  skip
  try (first | rfl | (simp only [StableHlo.TRef.ofBuf, StableHlo.TRef.toBuf, cast_eq]; rfl))

end Cert.Bisim

end
-- ==== Proof.Host.Grp8.lean ====
import proofs.«147021_j7619271983570_1_alg».proof.Proof.Gen.KernelIdeal.Launch
import proofs.«147021_j7619271983570_1_alg».proof.Proof.Ref.Chunk_G8a
import proofs.«147021_j7619271983570_1_alg».proof.Proof.Ref.Chunk_D7
import proofs.«147021_j7619271983570_1_alg».proof.Proof.Ref.Chunk_G8b
import Idealize.ShloMosaic.Lib.StableHlo.Run

/-! Host operations of the kernel program against the reference program's: layer 1, relation 4: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g8_v318 {F : FTy → Type} [FloatOps F]
    (Wp : Valuation Cert.KernelIdeal.τ Cert.KernelIdeal.sig (Elt F)) (Bp : Valuation Cert.ReferenceIdeal.τ Cert.ReferenceIdeal.sig (Elt F))
    (h_v256 : (Wp (Proc.devRef .tc Cert.KernelIdeal.main_v256) : (⟨Cert.KernelIdeal.S20000x128, .f32⟩ : BufTy).Contents (Elt F)) = Bp (Proc.devRef .tc Cert.ReferenceIdeal.main_v254))
    (h_v261 : (Wp (Proc.devRef .tc Cert.KernelIdeal.main_v261) : (⟨Cert.KernelIdeal.S60000x128, .f32⟩ : BufTy).Contents (Elt F)) = (Host.dotGeneral (F := F) Cert.ReferenceIdeal.dot_S60000x128_S128x128_S60000x128_1_0_0_1_n_n none (Bp (Proc.devRef .tc Cert.ReferenceIdeal.main_v7)) (Bp (Proc.devRef .tc Cert.ReferenceIdeal.main_v256))))
    (h_arg21 : (Wp (Proc.devRef .tc Cert.KernelIdeal.main_arg21) : (⟨Cert.KernelIdeal.S2x500000, .i32⟩ : BufTy).Contents (Elt F)) = Bp (Proc.devRef .tc Cert.ReferenceIdeal.main_arg21))
    (h_arg10 : (Wp (Proc.devRef .tc Cert.KernelIdeal.main_arg10) : (⟨Cert.KernelIdeal.S6x128, .f32⟩ : BufTy).Contents (Elt F)) = Bp (Proc.devRef .tc Cert.ReferenceIdeal.main_arg10)) :
    ((StableHlo.after (Cert.KernelIdeal.Gen.hostOps8_4 (F := F)) (StableHlo.after (Cert.KernelIdeal.Gen.hostOps8_3 (F := F)) (StableHlo.after (Cert.KernelIdeal.Gen.hostOps8_2 (F := F)) (StableHlo.after (Cert.KernelIdeal.Gen.hostOps8_1 (F := F)) (StableHlo.after (Cert.KernelIdeal.Gen.hostOps8 (F := F)) Wp))))) (Proc.devRef .tc Cert.KernelIdeal.main_v318) : (⟨Cert.KernelIdeal.S20000x128, .f32⟩ : BufTy).Contents (Elt F))
      = ((StableHlo.after (Cert.ReferenceIdeal.Hand.ops_G8b (F := F)) (StableHlo.after (Cert.ReferenceIdeal.Hand.ops_D7 (F := F)) (StableHlo.after (Cert.ReferenceIdeal.Hand.ops_G8a (F := F)) Bp))) (Proc.devRef .tc Cert.ReferenceIdeal.main_v314) : (⟨Cert.KernelIdeal.S20000x128, .f32⟩ : BufTy).Contents (Elt F)) := by
  simp only [Cert.KernelIdeal.Gen.hostOps8, Cert.KernelIdeal.Gen.hostOps8_1, Cert.KernelIdeal.Gen.hostOps8_2, Cert.KernelIdeal.Gen.hostOps8_3, Cert.KernelIdeal.Gen.hostOps8_4, Cert.ReferenceIdeal.Hand.ops_G8a, Cert.ReferenceIdeal.Hand.ops_D7, Cert.ReferenceIdeal.Hand.ops_G8b]
  after_results_simp
  try simp only [h_v256, h_v261, h_arg21, h_arg10]
  try (first | rfl | (simp only [StableHlo.TRef.ofBuf, StableHlo.TRef.toBuf, cast_eq]; rfl))

set_option maxHeartbeats 4000000 in
theorem g8_v321 {F : FTy → Type} [FloatOps F]
    (Wp : Valuation Cert.KernelIdeal.τ Cert.KernelIdeal.sig (Elt F)) (Bp : Valuation Cert.ReferenceIdeal.τ Cert.ReferenceIdeal.sig (Elt F))
    (h_arg9 : (Wp (Proc.devRef .tc Cert.KernelIdeal.main_arg9) : (⟨Cert.KernelIdeal.S6x128x128, .f32⟩ : BufTy).Contents (Elt F)) = Bp (Proc.devRef .tc Cert.ReferenceIdeal.main_arg9)) :
    ((StableHlo.after (Cert.KernelIdeal.Gen.hostOps8_4 (F := F)) (StableHlo.after (Cert.KernelIdeal.Gen.hostOps8_3 (F := F)) (StableHlo.after (Cert.KernelIdeal.Gen.hostOps8_2 (F := F)) (StableHlo.after (Cert.KernelIdeal.Gen.hostOps8_1 (F := F)) (StableHlo.after (Cert.KernelIdeal.Gen.hostOps8 (F := F)) Wp))))) (Proc.devRef .tc Cert.KernelIdeal.main_v321) : (⟨Cert.KernelIdeal.S128x128, .f32⟩ : BufTy).Contents (Elt F))
      = ((StableHlo.after (Cert.ReferenceIdeal.Hand.ops_G8b (F := F)) (StableHlo.after (Cert.ReferenceIdeal.Hand.ops_D7 (F := F)) (StableHlo.after (Cert.ReferenceIdeal.Hand.ops_G8a (F := F)) Bp))) (Proc.devRef .tc Cert.ReferenceIdeal.main_v316) : (⟨Cert.KernelIdeal.S128x128, .f32⟩ : BufTy).Contents (Elt F)) := by
  simp only [Cert.KernelIdeal.Gen.hostOps8, Cert.KernelIdeal.Gen.hostOps8_1, Cert.KernelIdeal.Gen.hostOps8_2, Cert.KernelIdeal.Gen.hostOps8_3, Cert.KernelIdeal.Gen.hostOps8_4, Cert.ReferenceIdeal.Hand.ops_G8a, Cert.ReferenceIdeal.Hand.ops_D7, Cert.ReferenceIdeal.Hand.ops_G8b]
  after_results_simp
  try simp only [h_arg9]
  try (first | rfl | (simp only [StableHlo.TRef.ofBuf, StableHlo.TRef.toBuf, cast_eq]; rfl))

set_option maxHeartbeats 4000000 in
theorem g8_v322 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps8_4 (F := F)) (StableHlo.after (Cert.KernelIdeal.Gen.hostOps8_3 (F := F)) (StableHlo.after (Cert.KernelIdeal.Gen.hostOps8_2 (F := F)) (StableHlo.after (Cert.KernelIdeal.Gen.hostOps8_1 (F := F)) (StableHlo.after (Cert.KernelIdeal.Gen.hostOps8 (F := F)) Wp))))) (Proc.devRef .tc Cert.KernelIdeal.main_v322) : (⟨Cert.KernelIdeal.S1x128, .f32⟩ : BufTy).Contents (Elt F))
      = ((shapeCast _ (broadcastInDim Cert.KernelIdeal.S128 ![] Cert.KernelIdeal.Facts₀.bcast_S_S128 (constant (F := F) Cert.KernelIdeal.S_ .f32 0x00000000#32)) Cert.KernelIdeal.Facts₀.shapeCasts_S128_S1x128) : (⟨Cert.KernelIdeal.S1x128, .f32⟩ : BufTy).Contents (Elt F)) := by
  simp only [Cert.KernelIdeal.Gen.hostOps8, Cert.KernelIdeal.Gen.hostOps8_1, Cert.KernelIdeal.Gen.hostOps8_2, Cert.KernelIdeal.Gen.hostOps8_3, Cert.KernelIdeal.Gen.hostOps8_4, Cert.ReferenceIdeal.Hand.ops_G8a, Cert.ReferenceIdeal.Hand.ops_D7, Cert.ReferenceIdeal.Hand.ops_G8b]
  after_results_simp
  skip
  try (first | rfl | (simp only [StableHlo.TRef.ofBuf, StableHlo.TRef.toBuf, cast_eq]; rfl))

end Cert.Bisim

end
-- ==== Proof.Host.Grp9.lean ====
import proofs.«147021_j7619271983570_1_alg».proof.Proof.Gen.KernelIdeal.Launch
import proofs.«147021_j7619271983570_1_alg».proof.Proof.Ref.Chunk_G9a
import proofs.«147021_j7619271983570_1_alg».proof.Proof.Ref.Chunk_D8
import proofs.«147021_j7619271983570_1_alg».proof.Proof.Ref.Chunk_G9b
import Idealize.ShloMosaic.Lib.StableHlo.Run

/-! Host operations of the kernel program against the reference program's: layer 1, relation 5: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g9_v380 {F : FTy → Type} [FloatOps F]
    (Wp : Valuation Cert.KernelIdeal.τ Cert.KernelIdeal.sig (Elt F)) (Bp : Valuation Cert.ReferenceIdeal.τ Cert.ReferenceIdeal.sig (Elt F))
    (h_v132 : (Wp (Proc.devRef .tc Cert.KernelIdeal.main_v132) : (⟨Cert.KernelIdeal.S60000x128, .f32⟩ : BufTy).Contents (Elt F)) = Bp (Proc.devRef .tc Cert.ReferenceIdeal.main_v134))
    (h_v323 : (Wp (Proc.devRef .tc Cert.KernelIdeal.main_v323) : (⟨Cert.KernelIdeal.S20000x128, .f32⟩ : BufTy).Contents (Elt F)) = (Host.dotGeneral (F := F) Cert.ReferenceIdeal.dot_S20000x128_S128x128_S20000x128_1_0_0_1_n_n none (Bp (Proc.devRef .tc Cert.ReferenceIdeal.main_v11)) (Bp (Proc.devRef .tc Cert.ReferenceIdeal.main_v316))))
    (h_arg22 : (Wp (Proc.devRef .tc Cert.KernelIdeal.main_arg22) : (⟨Cert.KernelIdeal.S2x500000, .i32⟩ : BufTy).Contents (Elt F)) = Bp (Proc.devRef .tc Cert.ReferenceIdeal.main_arg22))
    (h_arg10 : (Wp (Proc.devRef .tc Cert.KernelIdeal.main_arg10) : (⟨Cert.KernelIdeal.S6x128, .f32⟩ : BufTy).Contents (Elt F)) = Bp (Proc.devRef .tc Cert.ReferenceIdeal.main_arg10)) :
    ((StableHlo.after (Cert.KernelIdeal.Gen.hostOps9_4 (F := F)) (StableHlo.after (Cert.KernelIdeal.Gen.hostOps9_3 (F := F)) (StableHlo.after (Cert.KernelIdeal.Gen.hostOps9_2 (F := F)) (StableHlo.after (Cert.KernelIdeal.Gen.hostOps9_1 (F := F)) (StableHlo.after (Cert.KernelIdeal.Gen.hostOps9 (F := F)) Wp))))) (Proc.devRef .tc Cert.KernelIdeal.main_v380) : (⟨Cert.KernelIdeal.S60000x128, .f32⟩ : BufTy).Contents (Elt F))
      = ((StableHlo.after (Cert.ReferenceIdeal.Hand.ops_G9b (F := F)) (StableHlo.after (Cert.ReferenceIdeal.Hand.ops_D8 (F := F)) (StableHlo.after (Cert.ReferenceIdeal.Hand.ops_G9a (F := F)) Bp))) (Proc.devRef .tc Cert.ReferenceIdeal.main_v374) : (⟨Cert.KernelIdeal.S60000x128, .f32⟩ : BufTy).Contents (Elt F)) := by
  simp only [Cert.KernelIdeal.Gen.hostOps9, Cert.KernelIdeal.Gen.hostOps9_1, Cert.KernelIdeal.Gen.hostOps9_2, Cert.KernelIdeal.Gen.hostOps9_3, Cert.KernelIdeal.Gen.hostOps9_4, Cert.ReferenceIdeal.Hand.ops_G9a, Cert.ReferenceIdeal.Hand.ops_D8, Cert.ReferenceIdeal.Hand.ops_G9b]
  after_results_simp
  try simp only [h_v132, h_v323, h_arg22, h_arg10]
  try (first | rfl | (simp only [StableHlo.TRef.ofBuf, StableHlo.TRef.toBuf, cast_eq]; rfl))

set_option maxHeartbeats 4000000 in
theorem g9_v385 {F : FTy → Type} [FloatOps F]
    (Wp : Valuation Cert.KernelIdeal.τ Cert.KernelIdeal.sig (Elt F)) (Bp : Valuation Cert.ReferenceIdeal.τ Cert.ReferenceIdeal.sig (Elt F))
    (h_arg13 : (Wp (Proc.devRef .tc Cert.KernelIdeal.main_arg13) : (⟨Cert.KernelIdeal.S3x128, .f32⟩ : BufTy).Contents (Elt F)) = Bp (Proc.devRef .tc Cert.ReferenceIdeal.main_arg13)) :
    ((StableHlo.after (Cert.KernelIdeal.Gen.hostOps9_4 (F := F)) (StableHlo.after (Cert.KernelIdeal.Gen.hostOps9_3 (F := F)) (StableHlo.after (Cert.KernelIdeal.Gen.hostOps9_2 (F := F)) (StableHlo.after (Cert.KernelIdeal.Gen.hostOps9_1 (F := F)) (StableHlo.after (Cert.KernelIdeal.Gen.hostOps9 (F := F)) Wp))))) (Proc.devRef .tc Cert.KernelIdeal.main_v385) : (⟨Cert.KernelIdeal.S1x128, .f32⟩ : BufTy).Contents (Elt F))
      = ((shapeCast _ ((StableHlo.after (Cert.ReferenceIdeal.Hand.ops_G9b (F := F)) (StableHlo.after (Cert.ReferenceIdeal.Hand.ops_D8 (F := F)) (StableHlo.after (Cert.ReferenceIdeal.Hand.ops_G9a (F := F)) Bp))) (Proc.devRef .tc Cert.ReferenceIdeal.main_v376)) Cert.KernelIdeal.Facts₀.shapeCasts_S128_S1x128) : (⟨Cert.KernelIdeal.S1x128, .f32⟩ : BufTy).Contents (Elt F)) := by
  simp only [Cert.KernelIdeal.Gen.hostOps9, Cert.KernelIdeal.Gen.hostOps9_1, Cert.KernelIdeal.Gen.hostOps9_2, Cert.KernelIdeal.Gen.hostOps9_3, Cert.KernelIdeal.Gen.hostOps9_4, Cert.ReferenceIdeal.Hand.ops_G9a, Cert.ReferenceIdeal.Hand.ops_D8, Cert.ReferenceIdeal.Hand.ops_G9b]
  after_results_simp
  try simp only [h_arg13]
  try (first | rfl | (simp only [StableHlo.TRef.ofBuf, StableHlo.TRef.toBuf, cast_eq]; rfl))

set_option maxHeartbeats 4000000 in
theorem g9_v386 {F : FTy → Type} [FloatOps F]
    (Wp : Valuation Cert.KernelIdeal.τ Cert.KernelIdeal.sig (Elt F)) (Bp : Valuation Cert.ReferenceIdeal.τ Cert.ReferenceIdeal.sig (Elt F))
    (h_arg14 : (Wp (Proc.devRef .tc Cert.KernelIdeal.main_arg14) : (⟨Cert.KernelIdeal.S3x128, .f32⟩ : BufTy).Contents (Elt F)) = Bp (Proc.devRef .tc Cert.ReferenceIdeal.main_arg14)) :
    ((StableHlo.after (Cert.KernelIdeal.Gen.hostOps9_4 (F := F)) (StableHlo.after (Cert.KernelIdeal.Gen.hostOps9_3 (F := F)) (StableHlo.after (Cert.KernelIdeal.Gen.hostOps9_2 (F := F)) (StableHlo.after (Cert.KernelIdeal.Gen.hostOps9_1 (F := F)) (StableHlo.after (Cert.KernelIdeal.Gen.hostOps9 (F := F)) Wp))))) (Proc.devRef .tc Cert.KernelIdeal.main_v386) : (⟨Cert.KernelIdeal.S1x128, .f32⟩ : BufTy).Contents (Elt F))
      = ((shapeCast _ ((StableHlo.after (Cert.ReferenceIdeal.Hand.ops_G9b (F := F)) (StableHlo.after (Cert.ReferenceIdeal.Hand.ops_D8 (F := F)) (StableHlo.after (Cert.ReferenceIdeal.Hand.ops_G9a (F := F)) Bp))) (Proc.devRef .tc Cert.ReferenceIdeal.main_v378)) Cert.KernelIdeal.Facts₀.shapeCasts_S128_S1x128) : (⟨Cert.KernelIdeal.S1x128, .f32⟩ : BufTy).Contents (Elt F)) := by
  simp only [Cert.KernelIdeal.Gen.hostOps9, Cert.KernelIdeal.Gen.hostOps9_1, Cert.KernelIdeal.Gen.hostOps9_2, Cert.KernelIdeal.Gen.hostOps9_3, Cert.KernelIdeal.Gen.hostOps9_4, Cert.ReferenceIdeal.Hand.ops_G9a, Cert.ReferenceIdeal.Hand.ops_D8, Cert.ReferenceIdeal.Hand.ops_G9b]
  after_results_simp
  try simp only [h_arg14]
  try (first | rfl | (simp only [StableHlo.TRef.ofBuf, StableHlo.TRef.toBuf, cast_eq]; rfl))

end Cert.Bisim

end
-- ==== Proof.Host.Grp10.lean ====
import proofs.«147021_j7619271983570_1_alg».proof.Proof.Gen.KernelIdeal.Launch
import proofs.«147021_j7619271983570_1_alg».proof.Proof.Ref.Chunk_H10
import Idealize.ShloMosaic.Lib.StableHlo.Run

/-! Host operations of the kernel program against the reference program's: the LayerNorm scale and shift rows of the next node type.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g10_v392 {F : FTy → Type} [FloatOps F]
    (Wp : Valuation Cert.KernelIdeal.τ Cert.KernelIdeal.sig (Elt F)) (Bp : Valuation Cert.ReferenceIdeal.τ Cert.ReferenceIdeal.sig (Elt F))
    (h_arg13 : (Wp (Proc.devRef .tc Cert.KernelIdeal.main_arg13) : (⟨Cert.KernelIdeal.S3x128, .f32⟩ : BufTy).Contents (Elt F)) = Bp (Proc.devRef .tc Cert.ReferenceIdeal.main_arg13)) :
    ((StableHlo.after (Cert.KernelIdeal.Gen.hostOps10 (F := F)) Wp) (Proc.devRef .tc Cert.KernelIdeal.main_v392) : (⟨Cert.KernelIdeal.S1x128, .f32⟩ : BufTy).Contents (Elt F))
      = ((shapeCast _ ((StableHlo.after (Cert.ReferenceIdeal.Hand.ops_H10 (F := F)) Bp) (Proc.devRef .tc Cert.ReferenceIdeal.main_v404)) Cert.KernelIdeal.Facts₀.shapeCasts_S128_S1x128) : (⟨Cert.KernelIdeal.S1x128, .f32⟩ : BufTy).Contents (Elt F)) := by
  simp only [Cert.KernelIdeal.Gen.hostOps10, Cert.ReferenceIdeal.Hand.ops_H10]
  after_results_simp
  try simp only [h_arg13]
  try (first | rfl | (simp only [StableHlo.TRef.ofBuf, StableHlo.TRef.toBuf, cast_eq]; rfl))

set_option maxHeartbeats 4000000 in
theorem g10_v393 {F : FTy → Type} [FloatOps F]
    (Wp : Valuation Cert.KernelIdeal.τ Cert.KernelIdeal.sig (Elt F)) (Bp : Valuation Cert.ReferenceIdeal.τ Cert.ReferenceIdeal.sig (Elt F))
    (h_arg14 : (Wp (Proc.devRef .tc Cert.KernelIdeal.main_arg14) : (⟨Cert.KernelIdeal.S3x128, .f32⟩ : BufTy).Contents (Elt F)) = Bp (Proc.devRef .tc Cert.ReferenceIdeal.main_arg14)) :
    ((StableHlo.after (Cert.KernelIdeal.Gen.hostOps10 (F := F)) Wp) (Proc.devRef .tc Cert.KernelIdeal.main_v393) : (⟨Cert.KernelIdeal.S1x128, .f32⟩ : BufTy).Contents (Elt F))
      = ((shapeCast _ ((StableHlo.after (Cert.ReferenceIdeal.Hand.ops_H10 (F := F)) Bp) (Proc.devRef .tc Cert.ReferenceIdeal.main_v406)) Cert.KernelIdeal.Facts₀.shapeCasts_S128_S1x128) : (⟨Cert.KernelIdeal.S1x128, .f32⟩ : BufTy).Contents (Elt F)) := by
  simp only [Cert.KernelIdeal.Gen.hostOps10, Cert.ReferenceIdeal.Hand.ops_H10]
  after_results_simp
  try simp only [h_arg14]
  try (first | rfl | (simp only [StableHlo.TRef.ofBuf, StableHlo.TRef.toBuf, cast_eq]; rfl))

end Cert.Bisim

end
-- ==== Proof.Host.Grp11.lean ====
import proofs.«147021_j7619271983570_1_alg».proof.Proof.Gen.KernelIdeal.Launch
import proofs.«147021_j7619271983570_1_alg».proof.Proof.Ref.Chunk_H11
import Idealize.ShloMosaic.Lib.StableHlo.Run

/-! Host operations of the kernel program against the reference program's: the LayerNorm scale and shift rows of the next node type.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g11_v399 {F : FTy → Type} [FloatOps F]
    (Wp : Valuation Cert.KernelIdeal.τ Cert.KernelIdeal.sig (Elt F)) (Bp : Valuation Cert.ReferenceIdeal.τ Cert.ReferenceIdeal.sig (Elt F))
    (h_arg13 : (Wp (Proc.devRef .tc Cert.KernelIdeal.main_arg13) : (⟨Cert.KernelIdeal.S3x128, .f32⟩ : BufTy).Contents (Elt F)) = Bp (Proc.devRef .tc Cert.ReferenceIdeal.main_arg13)) :
    ((StableHlo.after (Cert.KernelIdeal.Gen.hostOps11 (F := F)) Wp) (Proc.devRef .tc Cert.KernelIdeal.main_v399) : (⟨Cert.KernelIdeal.S1x128, .f32⟩ : BufTy).Contents (Elt F))
      = ((shapeCast _ ((StableHlo.after (Cert.ReferenceIdeal.Hand.ops_H11 (F := F)) Bp) (Proc.devRef .tc Cert.ReferenceIdeal.main_v432)) Cert.KernelIdeal.Facts₀.shapeCasts_S128_S1x128) : (⟨Cert.KernelIdeal.S1x128, .f32⟩ : BufTy).Contents (Elt F)) := by
  simp only [Cert.KernelIdeal.Gen.hostOps11, Cert.ReferenceIdeal.Hand.ops_H11]
  after_results_simp
  try simp only [h_arg13]
  try (first | rfl | (simp only [StableHlo.TRef.ofBuf, StableHlo.TRef.toBuf, cast_eq]; rfl))

set_option maxHeartbeats 4000000 in
theorem g11_v400 {F : FTy → Type} [FloatOps F]
    (Wp : Valuation Cert.KernelIdeal.τ Cert.KernelIdeal.sig (Elt F)) (Bp : Valuation Cert.ReferenceIdeal.τ Cert.ReferenceIdeal.sig (Elt F))
    (h_arg14 : (Wp (Proc.devRef .tc Cert.KernelIdeal.main_arg14) : (⟨Cert.KernelIdeal.S3x128, .f32⟩ : BufTy).Contents (Elt F)) = Bp (Proc.devRef .tc Cert.ReferenceIdeal.main_arg14)) :
    ((StableHlo.after (Cert.KernelIdeal.Gen.hostOps11 (F := F)) Wp) (Proc.devRef .tc Cert.KernelIdeal.main_v400) : (⟨Cert.KernelIdeal.S1x128, .f32⟩ : BufTy).Contents (Elt F))
      = ((shapeCast _ ((StableHlo.after (Cert.ReferenceIdeal.Hand.ops_H11 (F := F)) Bp) (Proc.devRef .tc Cert.ReferenceIdeal.main_v434)) Cert.KernelIdeal.Facts₀.shapeCasts_S128_S1x128) : (⟨Cert.KernelIdeal.S1x128, .f32⟩ : BufTy).Contents (Elt F)) := by
  simp only [Cert.KernelIdeal.Gen.hostOps11, Cert.ReferenceIdeal.Hand.ops_H11]
  after_results_simp
  try simp only [h_arg14]
  try (first | rfl | (simp only [StableHlo.TRef.ofBuf, StableHlo.TRef.toBuf, cast_eq]; rfl))

end Cert.Bisim

end
-- ==== Proof.Host.RefReg.lean ====
import proofs.«147021_j7619271983570_1_alg».proof.Proof.Ref.Chunk_P0
import proofs.«147021_j7619271983570_1_alg».proof.Proof.Ref.Chunk_P1
import proofs.«147021_j7619271983570_1_alg».proof.Proof.Ref.Chunk_P2
import proofs.«147021_j7619271983570_1_alg».proof.Proof.Ref.Chunk_L9
import proofs.«147021_j7619271983570_1_alg».proof.Proof.Ref.Chunk_H10
import proofs.«147021_j7619271983570_1_alg».proof.Proof.Ref.Chunk_L10
import proofs.«147021_j7619271983570_1_alg».proof.Proof.Ref.Chunk_H11
import proofs.«147021_j7619271983570_1_alg».proof.Proof.Ref.Chunk_L11
import proofs.«147021_j7619271983570_1_alg».proof.Proof.Ref.Chunk_RELU9
import proofs.«147021_j7619271983570_1_alg».proof.Proof.Ref.Chunk_RELU10
import proofs.«147021_j7619271983570_1_alg».proof.Proof.Ref.Chunk_RELU11
import proofs.«147021_j7619271983570_1_alg».proof.Proof.Ref.Chunk_L18
import proofs.«147021_j7619271983570_1_alg».proof.Proof.Ref.Chunk_L19
import proofs.«147021_j7619271983570_1_alg».proof.Proof.Ref.Chunk_L20
import Idealize.ShloMosaic.Lib.StableHlo.Run

/-! The reference program's counterparts of the pallas regions that stand alone in its operation list: the three
    input projections (a matrix product, the bias broadcast over the rows, their sum) and the six LayerNorms
    (row mean, centred rows, row variance, inverse square root, scale and shift; after layer 1 the maximum with
    zero). Each lemma reads the fold of those operations at the result buffer as one term of the contents the
    operations start from. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
/-- The reference operations that play pallas region 0's role, read as one term of the contents they start from. -/
theorem ref_region0 {F : FTy → Type} [FloatOps F] (Bp : Valuation Cert.ReferenceIdeal.τ Cert.ReferenceIdeal.sig (Elt F)) :
    ((StableHlo.after (Cert.ReferenceIdeal.Hand.ops_P0 (F := F)) Bp) (Proc.devRef .tc Cert.ReferenceIdeal.main_v3) : (⟨Cert.ReferenceIdeal.S20000x128, .f32⟩ : BufTy).Contents (Elt F))
      = (addf (Host.dotGeneral (F := F) Cert.ReferenceIdeal.dot_S20000x128_S128x128_S20000x128_1_0_0_1_n_n none (Bp (Proc.devRef .tc Cert.ReferenceIdeal.main_arg0)) (Bp (Proc.devRef .tc Cert.ReferenceIdeal.main_arg3))) (broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 (Bp (Proc.devRef .tc Cert.ReferenceIdeal.main_arg4))))) := by
  simp only [Cert.ReferenceIdeal.Hand.ops_P0]
  after_results_simp
  try (first | rfl | (simp only [StableHlo.TRef.ofBuf, StableHlo.TRef.toBuf, cast_eq]; rfl))

set_option maxHeartbeats 4000000 in
/-- The reference operations that play pallas region 1's role, read as one term of the contents they start from. -/
theorem ref_region1 {F : FTy → Type} [FloatOps F] (Bp : Valuation Cert.ReferenceIdeal.τ Cert.ReferenceIdeal.sig (Elt F)) :
    ((StableHlo.after (Cert.ReferenceIdeal.Hand.ops_P1 (F := F)) Bp) (Proc.devRef .tc Cert.ReferenceIdeal.main_v7) : (⟨Cert.ReferenceIdeal.S60000x128, .f32⟩ : BufTy).Contents (Elt F))
      = (addf (Host.dotGeneral (F := F) Cert.ReferenceIdeal.dot_S60000x128_S128x128_S60000x128_1_0_0_1_n_n none (Bp (Proc.devRef .tc Cert.ReferenceIdeal.main_arg1)) (Bp (Proc.devRef .tc Cert.ReferenceIdeal.main_arg5))) (broadcastInDim Cert.ReferenceIdeal.S60000x128 ![0, 1] Cert.ReferenceIdeal.Facts₀.bcast_S1x128_S60000x128_0_1 (broadcastInDim Cert.ReferenceIdeal.S1x128 ![1] Cert.ReferenceIdeal.Facts₀.bcast_S128_S1x128_1 (Bp (Proc.devRef .tc Cert.ReferenceIdeal.main_arg6))))) := by
  simp only [Cert.ReferenceIdeal.Hand.ops_P1]
  after_results_simp
  try (first | rfl | (simp only [StableHlo.TRef.ofBuf, StableHlo.TRef.toBuf, cast_eq]; rfl))

set_option maxHeartbeats 4000000 in
/-- The reference operations that play pallas region 2's role, read as one term of the contents they start from. -/
theorem ref_region2 {F : FTy → Type} [FloatOps F] (Bp : Valuation Cert.ReferenceIdeal.τ Cert.ReferenceIdeal.sig (Elt F)) :
    ((StableHlo.after (Cert.ReferenceIdeal.Hand.ops_P2 (F := F)) Bp) (Proc.devRef .tc Cert.ReferenceIdeal.main_v11) : (⟨Cert.ReferenceIdeal.S20000x128, .f32⟩ : BufTy).Contents (Elt F))
      = (addf (Host.dotGeneral (F := F) Cert.ReferenceIdeal.dot_S20000x128_S128x128_S20000x128_1_0_0_1_n_n none (Bp (Proc.devRef .tc Cert.ReferenceIdeal.main_arg2)) (Bp (Proc.devRef .tc Cert.ReferenceIdeal.main_arg7))) (broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 (Bp (Proc.devRef .tc Cert.ReferenceIdeal.main_arg8))))) := by
  simp only [Cert.ReferenceIdeal.Hand.ops_P2]
  after_results_simp
  try (first | rfl | (simp only [StableHlo.TRef.ofBuf, StableHlo.TRef.toBuf, cast_eq]; rfl))

set_option maxHeartbeats 4000000 in
/-- The reference operations that play pallas region 9's role, read as one term of the contents they start from. -/
theorem ref_region9 {F : FTy → Type} [FloatOps F] (Bp : Valuation Cert.ReferenceIdeal.τ Cert.ReferenceIdeal.sig (Elt F)) :
    ((StableHlo.after (Cert.ReferenceIdeal.Hand.ops_RELU9 (F := F)) (StableHlo.after (Cert.ReferenceIdeal.Hand.ops_L11 (F := F)) (StableHlo.after (Cert.ReferenceIdeal.Hand.ops_H11 (F := F)) (StableHlo.after (Cert.ReferenceIdeal.Hand.ops_L10 (F := F)) (StableHlo.after (Cert.ReferenceIdeal.Hand.ops_H10 (F := F)) (StableHlo.after (Cert.ReferenceIdeal.Hand.ops_L9 (F := F)) Bp)))))) (Proc.devRef .tc Cert.ReferenceIdeal.main_v459) : (⟨Cert.ReferenceIdeal.S20000x128, .f32⟩ : BufTy).Contents (Elt F))
      = (maximumf (addf (mulf (mulf (subf (Bp (Proc.devRef .tc Cert.ReferenceIdeal.main_v314)) (broadcastInDim Cert.ReferenceIdeal.S20000x128 ![0, 1] Cert.ReferenceIdeal.Facts₀.bcast_S20000x1_S20000x128_0_1 (Host.divf (broadcastInDim Cert.ReferenceIdeal.S20000x1 ![0] Cert.ReferenceIdeal.Facts₀.bcast_S20000_S20000x1_0 (Host.reduceAdd (Bp (Proc.devRef .tc Cert.ReferenceIdeal.main_v314)) (constant (F := F) Cert.ReferenceIdeal.S_ .f32 0x00000000#32) Cert.ReferenceIdeal.Facts₀.reducesTo_S20000x128_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x43000000#32))))) (broadcastInDim Cert.ReferenceIdeal.S20000x128 ![0, 1] Cert.ReferenceIdeal.Facts₀.bcast_S20000x1_S20000x128_0_1 (Host.rsqrt (addf (Host.divf (broadcastInDim Cert.ReferenceIdeal.S20000x1 ![0] Cert.ReferenceIdeal.Facts₀.bcast_S20000_S20000x1_0 (Host.reduceAdd (mulf (subf (Bp (Proc.devRef .tc Cert.ReferenceIdeal.main_v314)) (broadcastInDim Cert.ReferenceIdeal.S20000x128 ![0, 1] Cert.ReferenceIdeal.Facts₀.bcast_S20000x1_S20000x128_0_1 (Host.divf (broadcastInDim Cert.ReferenceIdeal.S20000x1 ![0] Cert.ReferenceIdeal.Facts₀.bcast_S20000_S20000x1_0 (Host.reduceAdd (Bp (Proc.devRef .tc Cert.ReferenceIdeal.main_v314)) (constant (F := F) Cert.ReferenceIdeal.S_ .f32 0x00000000#32) Cert.ReferenceIdeal.Facts₀.reducesTo_S20000x128_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x43000000#32))))) (subf (Bp (Proc.devRef .tc Cert.ReferenceIdeal.main_v314)) (broadcastInDim Cert.ReferenceIdeal.S20000x128 ![0, 1] Cert.ReferenceIdeal.Facts₀.bcast_S20000x1_S20000x128_0_1 (Host.divf (broadcastInDim Cert.ReferenceIdeal.S20000x1 ![0] Cert.ReferenceIdeal.Facts₀.bcast_S20000_S20000x1_0 (Host.reduceAdd (Bp (Proc.devRef .tc Cert.ReferenceIdeal.main_v314)) (constant (F := F) Cert.ReferenceIdeal.S_ .f32 0x00000000#32) Cert.ReferenceIdeal.Facts₀.reducesTo_S20000x128_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x43000000#32)))))) (constant (F := F) Cert.ReferenceIdeal.S_ .f32 0x00000000#32) Cert.ReferenceIdeal.Facts₀.reducesTo_S20000x128_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x43000000#32))) (broadcastInDim Cert.ReferenceIdeal.S20000x1 ![] Cert.ReferenceIdeal.Facts₀.bcast_S_S20000x1 (constant (F := F) Cert.ReferenceIdeal.S_ .f32 0x3727C5AC#32)))))) (broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 (Bp (Proc.devRef .tc Cert.ReferenceIdeal.main_v376))))) (broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 (Bp (Proc.devRef .tc Cert.ReferenceIdeal.main_v378))))) ((broadcastInDim Cert.ReferenceIdeal.S20000x128 ![] Cert.ReferenceIdeal.Facts₀.bcast_S_S20000x128) (constant (F := F) Cert.ReferenceIdeal.S_ .f32 0x00000000#32))) := by
  simp only [Cert.ReferenceIdeal.Hand.ops_L9, Cert.ReferenceIdeal.Hand.ops_H10, Cert.ReferenceIdeal.Hand.ops_L10, Cert.ReferenceIdeal.Hand.ops_H11, Cert.ReferenceIdeal.Hand.ops_L11, Cert.ReferenceIdeal.Hand.ops_RELU9]
  after_results_simp
  try (first | rfl | (simp only [StableHlo.TRef.ofBuf, StableHlo.TRef.toBuf, cast_eq]; rfl))

set_option maxHeartbeats 4000000 in
/-- The reference operations that play pallas region 10's role, read as one term of the contents they start from. -/
theorem ref_region10 {F : FTy → Type} [FloatOps F] (Bp : Valuation Cert.ReferenceIdeal.τ Cert.ReferenceIdeal.sig (Elt F)) :
    ((StableHlo.after (Cert.ReferenceIdeal.Hand.ops_RELU10 (F := F)) (StableHlo.after (Cert.ReferenceIdeal.Hand.ops_RELU9 (F := F)) (StableHlo.after (Cert.ReferenceIdeal.Hand.ops_L11 (F := F)) (StableHlo.after (Cert.ReferenceIdeal.Hand.ops_H11 (F := F)) (StableHlo.after (Cert.ReferenceIdeal.Hand.ops_L10 (F := F)) Bp))))) (Proc.devRef .tc Cert.ReferenceIdeal.main_v460) : (⟨Cert.ReferenceIdeal.S60000x128, .f32⟩ : BufTy).Contents (Elt F))
      = (maximumf (addf (mulf (mulf (subf (Bp (Proc.devRef .tc Cert.ReferenceIdeal.main_v374)) (broadcastInDim Cert.ReferenceIdeal.S60000x128 ![0, 1] Cert.ReferenceIdeal.Facts₀.bcast_S60000x1_S60000x128_0_1 (Host.divf (broadcastInDim Cert.ReferenceIdeal.S60000x1 ![0] Cert.ReferenceIdeal.Facts₀.bcast_S60000_S60000x1_0 (Host.reduceAdd (Bp (Proc.devRef .tc Cert.ReferenceIdeal.main_v374)) (constant (F := F) Cert.ReferenceIdeal.S_ .f32 0x00000000#32) Cert.ReferenceIdeal.Facts₀.reducesTo_S60000x128_S60000_d1 Cert.ReferenceIdeal.Facts₀.h_S_)) (broadcastInDim Cert.ReferenceIdeal.S60000x1 ![] Cert.ReferenceIdeal.Facts₀.bcast_S_S60000x1 (constant (F := F) Cert.ReferenceIdeal.S_ .f32 0x43000000#32))))) (broadcastInDim Cert.ReferenceIdeal.S60000x128 ![0, 1] Cert.ReferenceIdeal.Facts₀.bcast_S60000x1_S60000x128_0_1 (Host.rsqrt (addf (Host.divf (broadcastInDim Cert.ReferenceIdeal.S60000x1 ![0] Cert.ReferenceIdeal.Facts₀.bcast_S60000_S60000x1_0 (Host.reduceAdd (mulf (subf (Bp (Proc.devRef .tc Cert.ReferenceIdeal.main_v374)) (broadcastInDim Cert.ReferenceIdeal.S60000x128 ![0, 1] Cert.ReferenceIdeal.Facts₀.bcast_S60000x1_S60000x128_0_1 (Host.divf (broadcastInDim Cert.ReferenceIdeal.S60000x1 ![0] Cert.ReferenceIdeal.Facts₀.bcast_S60000_S60000x1_0 (Host.reduceAdd (Bp (Proc.devRef .tc Cert.ReferenceIdeal.main_v374)) (constant (F := F) Cert.ReferenceIdeal.S_ .f32 0x00000000#32) Cert.ReferenceIdeal.Facts₀.reducesTo_S60000x128_S60000_d1 Cert.ReferenceIdeal.Facts₀.h_S_)) (broadcastInDim Cert.ReferenceIdeal.S60000x1 ![] Cert.ReferenceIdeal.Facts₀.bcast_S_S60000x1 (constant (F := F) Cert.ReferenceIdeal.S_ .f32 0x43000000#32))))) (subf (Bp (Proc.devRef .tc Cert.ReferenceIdeal.main_v374)) (broadcastInDim Cert.ReferenceIdeal.S60000x128 ![0, 1] Cert.ReferenceIdeal.Facts₀.bcast_S60000x1_S60000x128_0_1 (Host.divf (broadcastInDim Cert.ReferenceIdeal.S60000x1 ![0] Cert.ReferenceIdeal.Facts₀.bcast_S60000_S60000x1_0 (Host.reduceAdd (Bp (Proc.devRef .tc Cert.ReferenceIdeal.main_v374)) (constant (F := F) Cert.ReferenceIdeal.S_ .f32 0x00000000#32) Cert.ReferenceIdeal.Facts₀.reducesTo_S60000x128_S60000_d1 Cert.ReferenceIdeal.Facts₀.h_S_)) (broadcastInDim Cert.ReferenceIdeal.S60000x1 ![] Cert.ReferenceIdeal.Facts₀.bcast_S_S60000x1 (constant (F := F) Cert.ReferenceIdeal.S_ .f32 0x43000000#32)))))) (constant (F := F) Cert.ReferenceIdeal.S_ .f32 0x00000000#32) Cert.ReferenceIdeal.Facts₀.reducesTo_S60000x128_S60000_d1 Cert.ReferenceIdeal.Facts₀.h_S_)) (broadcastInDim Cert.ReferenceIdeal.S60000x1 ![] Cert.ReferenceIdeal.Facts₀.bcast_S_S60000x1 (constant (F := F) Cert.ReferenceIdeal.S_ .f32 0x43000000#32))) (broadcastInDim Cert.ReferenceIdeal.S60000x1 ![] Cert.ReferenceIdeal.Facts₀.bcast_S_S60000x1 (constant (F := F) Cert.ReferenceIdeal.S_ .f32 0x3727C5AC#32)))))) (broadcastInDim Cert.ReferenceIdeal.S60000x128 ![0, 1] Cert.ReferenceIdeal.Facts₀.bcast_S1x128_S60000x128_0_1 (broadcastInDim Cert.ReferenceIdeal.S1x128 ![1] Cert.ReferenceIdeal.Facts₀.bcast_S128_S1x128_1 (Bp (Proc.devRef .tc Cert.ReferenceIdeal.main_v404))))) (broadcastInDim Cert.ReferenceIdeal.S60000x128 ![0, 1] Cert.ReferenceIdeal.Facts₀.bcast_S1x128_S60000x128_0_1 (broadcastInDim Cert.ReferenceIdeal.S1x128 ![1] Cert.ReferenceIdeal.Facts₀.bcast_S128_S1x128_1 (Bp (Proc.devRef .tc Cert.ReferenceIdeal.main_v406))))) ((broadcastInDim Cert.ReferenceIdeal.S60000x128 ![] Cert.ReferenceIdeal.Facts₀.bcast_S_S60000x128) (constant (F := F) Cert.ReferenceIdeal.S_ .f32 0x00000000#32))) := by
  simp only [Cert.ReferenceIdeal.Hand.ops_L10, Cert.ReferenceIdeal.Hand.ops_H11, Cert.ReferenceIdeal.Hand.ops_L11, Cert.ReferenceIdeal.Hand.ops_RELU9, Cert.ReferenceIdeal.Hand.ops_RELU10]
  after_results_simp
  try (first | rfl | (simp only [StableHlo.TRef.ofBuf, StableHlo.TRef.toBuf, cast_eq]; rfl))

set_option maxHeartbeats 4000000 in
/-- The reference operations that play pallas region 11's role, read as one term of the contents they start from. -/
theorem ref_region11 {F : FTy → Type} [FloatOps F] (Bp : Valuation Cert.ReferenceIdeal.τ Cert.ReferenceIdeal.sig (Elt F)) :
    ((StableHlo.after (Cert.ReferenceIdeal.Hand.ops_RELU11 (F := F)) (StableHlo.after (Cert.ReferenceIdeal.Hand.ops_RELU10 (F := F)) (StableHlo.after (Cert.ReferenceIdeal.Hand.ops_RELU9 (F := F)) (StableHlo.after (Cert.ReferenceIdeal.Hand.ops_L11 (F := F)) Bp)))) (Proc.devRef .tc Cert.ReferenceIdeal.main_v461) : (⟨Cert.ReferenceIdeal.S20000x128, .f32⟩ : BufTy).Contents (Elt F))
      = (maximumf (addf (mulf (mulf (subf (Bp (Proc.devRef .tc Cert.ReferenceIdeal.main_v194)) (broadcastInDim Cert.ReferenceIdeal.S20000x128 ![0, 1] Cert.ReferenceIdeal.Facts₀.bcast_S20000x1_S20000x128_0_1 (Host.divf (broadcastInDim Cert.ReferenceIdeal.S20000x1 ![0] Cert.ReferenceIdeal.Facts₀.bcast_S20000_S20000x1_0 (Host.reduceAdd (Bp (Proc.devRef .tc Cert.ReferenceIdeal.main_v194)) (constant (F := F) Cert.ReferenceIdeal.S_ .f32 0x00000000#32) Cert.ReferenceIdeal.Facts₀.reducesTo_S20000x128_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x43000000#32))))) (broadcastInDim Cert.ReferenceIdeal.S20000x128 ![0, 1] Cert.ReferenceIdeal.Facts₀.bcast_S20000x1_S20000x128_0_1 (Host.rsqrt (addf (Host.divf (broadcastInDim Cert.ReferenceIdeal.S20000x1 ![0] Cert.ReferenceIdeal.Facts₀.bcast_S20000_S20000x1_0 (Host.reduceAdd (mulf (subf (Bp (Proc.devRef .tc Cert.ReferenceIdeal.main_v194)) (broadcastInDim Cert.ReferenceIdeal.S20000x128 ![0, 1] Cert.ReferenceIdeal.Facts₀.bcast_S20000x1_S20000x128_0_1 (Host.divf (broadcastInDim Cert.ReferenceIdeal.S20000x1 ![0] Cert.ReferenceIdeal.Facts₀.bcast_S20000_S20000x1_0 (Host.reduceAdd (Bp (Proc.devRef .tc Cert.ReferenceIdeal.main_v194)) (constant (F := F) Cert.ReferenceIdeal.S_ .f32 0x00000000#32) Cert.ReferenceIdeal.Facts₀.reducesTo_S20000x128_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x43000000#32))))) (subf (Bp (Proc.devRef .tc Cert.ReferenceIdeal.main_v194)) (broadcastInDim Cert.ReferenceIdeal.S20000x128 ![0, 1] Cert.ReferenceIdeal.Facts₀.bcast_S20000x1_S20000x128_0_1 (Host.divf (broadcastInDim Cert.ReferenceIdeal.S20000x1 ![0] Cert.ReferenceIdeal.Facts₀.bcast_S20000_S20000x1_0 (Host.reduceAdd (Bp (Proc.devRef .tc Cert.ReferenceIdeal.main_v194)) (constant (F := F) Cert.ReferenceIdeal.S_ .f32 0x00000000#32) Cert.ReferenceIdeal.Facts₀.reducesTo_S20000x128_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x43000000#32)))))) (constant (F := F) Cert.ReferenceIdeal.S_ .f32 0x00000000#32) Cert.ReferenceIdeal.Facts₀.reducesTo_S20000x128_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x43000000#32))) (broadcastInDim Cert.ReferenceIdeal.S20000x1 ![] Cert.ReferenceIdeal.Facts₀.bcast_S_S20000x1 (constant (F := F) Cert.ReferenceIdeal.S_ .f32 0x3727C5AC#32)))))) (broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 (Bp (Proc.devRef .tc Cert.ReferenceIdeal.main_v432))))) (broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 (Bp (Proc.devRef .tc Cert.ReferenceIdeal.main_v434))))) ((broadcastInDim Cert.ReferenceIdeal.S20000x128 ![] Cert.ReferenceIdeal.Facts₀.bcast_S_S20000x128) (constant (F := F) Cert.ReferenceIdeal.S_ .f32 0x00000000#32))) := by
  simp only [Cert.ReferenceIdeal.Hand.ops_L11, Cert.ReferenceIdeal.Hand.ops_RELU9, Cert.ReferenceIdeal.Hand.ops_RELU10, Cert.ReferenceIdeal.Hand.ops_RELU11]
  after_results_simp
  try (first | rfl | (simp only [StableHlo.TRef.ofBuf, StableHlo.TRef.toBuf, cast_eq]; rfl))

set_option maxHeartbeats 4000000 in
/-- The reference operations that play pallas region 18's role, read as one term of the contents they start from. -/
theorem ref_region18 {F : FTy → Type} [FloatOps F] (Bp : Valuation Cert.ReferenceIdeal.τ Cert.ReferenceIdeal.sig (Elt F)) :
    ((StableHlo.after (Cert.ReferenceIdeal.Hand.ops_L18 (F := F)) Bp) (Proc.devRef .tc Cert.ReferenceIdeal.main_v852) : (⟨Cert.ReferenceIdeal.S20000x64, .f32⟩ : BufTy).Contents (Elt F))
      = (addf (mulf (mulf (subf (Bp (Proc.devRef .tc Cert.ReferenceIdeal.main_v764)) (broadcastInDim Cert.ReferenceIdeal.S20000x64 ![0, 1] Cert.ReferenceIdeal.Facts₀.bcast_S20000x1_S20000x64_0_1 (Host.divf (broadcastInDim Cert.ReferenceIdeal.S20000x1 ![0] Cert.ReferenceIdeal.Facts₀.bcast_S20000_S20000x1_0 (Host.reduceAdd (Bp (Proc.devRef .tc Cert.ReferenceIdeal.main_v764)) (constant (F := F) Cert.ReferenceIdeal.S_ .f32 0x00000000#32) Cert.ReferenceIdeal.Facts₀.reducesTo_S20000x64_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x42800000#32))))) (broadcastInDim Cert.ReferenceIdeal.S20000x64 ![0, 1] Cert.ReferenceIdeal.Facts₀.bcast_S20000x1_S20000x64_0_1 (Host.rsqrt (addf (Host.divf (broadcastInDim Cert.ReferenceIdeal.S20000x1 ![0] Cert.ReferenceIdeal.Facts₀.bcast_S20000_S20000x1_0 (Host.reduceAdd (mulf (subf (Bp (Proc.devRef .tc Cert.ReferenceIdeal.main_v764)) (broadcastInDim Cert.ReferenceIdeal.S20000x64 ![0, 1] Cert.ReferenceIdeal.Facts₀.bcast_S20000x1_S20000x64_0_1 (Host.divf (broadcastInDim Cert.ReferenceIdeal.S20000x1 ![0] Cert.ReferenceIdeal.Facts₀.bcast_S20000_S20000x1_0 (Host.reduceAdd (Bp (Proc.devRef .tc Cert.ReferenceIdeal.main_v764)) (constant (F := F) Cert.ReferenceIdeal.S_ .f32 0x00000000#32) Cert.ReferenceIdeal.Facts₀.reducesTo_S20000x64_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x42800000#32))))) (subf (Bp (Proc.devRef .tc Cert.ReferenceIdeal.main_v764)) (broadcastInDim Cert.ReferenceIdeal.S20000x64 ![0, 1] Cert.ReferenceIdeal.Facts₀.bcast_S20000x1_S20000x64_0_1 (Host.divf (broadcastInDim Cert.ReferenceIdeal.S20000x1 ![0] Cert.ReferenceIdeal.Facts₀.bcast_S20000_S20000x1_0 (Host.reduceAdd (Bp (Proc.devRef .tc Cert.ReferenceIdeal.main_v764)) (constant (F := F) Cert.ReferenceIdeal.S_ .f32 0x00000000#32) Cert.ReferenceIdeal.Facts₀.reducesTo_S20000x64_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x42800000#32)))))) (constant (F := F) Cert.ReferenceIdeal.S_ .f32 0x00000000#32) Cert.ReferenceIdeal.Facts₀.reducesTo_S20000x64_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x42800000#32))) (broadcastInDim Cert.ReferenceIdeal.S20000x1 ![] Cert.ReferenceIdeal.Facts₀.bcast_S_S20000x1 (constant (F := F) Cert.ReferenceIdeal.S_ .f32 0x3727C5AC#32)))))) (broadcastInDim Cert.ReferenceIdeal.S20000x64 ![0, 1] Cert.ReferenceIdeal.Facts₀.bcast_S1x64_S20000x64_0_1 (broadcastInDim Cert.ReferenceIdeal.S1x64 ![1] Cert.ReferenceIdeal.Facts₀.bcast_S64_S1x64_1 (Bp (Proc.devRef .tc Cert.ReferenceIdeal.main_v826))))) (broadcastInDim Cert.ReferenceIdeal.S20000x64 ![0, 1] Cert.ReferenceIdeal.Facts₀.bcast_S1x64_S20000x64_0_1 (broadcastInDim Cert.ReferenceIdeal.S1x64 ![1] Cert.ReferenceIdeal.Facts₀.bcast_S64_S1x64_1 (Bp (Proc.devRef .tc Cert.ReferenceIdeal.main_v828))))) := by
  simp only [Cert.ReferenceIdeal.Hand.ops_L18]
  after_results_simp
  try (first | rfl | (simp only [StableHlo.TRef.ofBuf, StableHlo.TRef.toBuf, cast_eq]; rfl))

set_option maxHeartbeats 4000000 in
/-- The reference operations that play pallas region 19's role, read as one term of the contents they start from. -/
theorem ref_region19 {F : FTy → Type} [FloatOps F] (Bp : Valuation Cert.ReferenceIdeal.τ Cert.ReferenceIdeal.sig (Elt F)) :
    ((StableHlo.after (Cert.ReferenceIdeal.Hand.ops_L19 (F := F)) Bp) (Proc.devRef .tc Cert.ReferenceIdeal.main_v880) : (⟨Cert.ReferenceIdeal.S60000x64, .f32⟩ : BufTy).Contents (Elt F))
      = (addf (mulf (mulf (subf (Bp (Proc.devRef .tc Cert.ReferenceIdeal.main_v824)) (broadcastInDim Cert.ReferenceIdeal.S60000x64 ![0, 1] Cert.ReferenceIdeal.Facts₀.bcast_S60000x1_S60000x64_0_1 (Host.divf (broadcastInDim Cert.ReferenceIdeal.S60000x1 ![0] Cert.ReferenceIdeal.Facts₀.bcast_S60000_S60000x1_0 (Host.reduceAdd (Bp (Proc.devRef .tc Cert.ReferenceIdeal.main_v824)) (constant (F := F) Cert.ReferenceIdeal.S_ .f32 0x00000000#32) Cert.ReferenceIdeal.Facts₀.reducesTo_S60000x64_S60000_d1 Cert.ReferenceIdeal.Facts₀.h_S_)) (broadcastInDim Cert.ReferenceIdeal.S60000x1 ![] Cert.ReferenceIdeal.Facts₀.bcast_S_S60000x1 (constant (F := F) Cert.ReferenceIdeal.S_ .f32 0x42800000#32))))) (broadcastInDim Cert.ReferenceIdeal.S60000x64 ![0, 1] Cert.ReferenceIdeal.Facts₀.bcast_S60000x1_S60000x64_0_1 (Host.rsqrt (addf (Host.divf (broadcastInDim Cert.ReferenceIdeal.S60000x1 ![0] Cert.ReferenceIdeal.Facts₀.bcast_S60000_S60000x1_0 (Host.reduceAdd (mulf (subf (Bp (Proc.devRef .tc Cert.ReferenceIdeal.main_v824)) (broadcastInDim Cert.ReferenceIdeal.S60000x64 ![0, 1] Cert.ReferenceIdeal.Facts₀.bcast_S60000x1_S60000x64_0_1 (Host.divf (broadcastInDim Cert.ReferenceIdeal.S60000x1 ![0] Cert.ReferenceIdeal.Facts₀.bcast_S60000_S60000x1_0 (Host.reduceAdd (Bp (Proc.devRef .tc Cert.ReferenceIdeal.main_v824)) (constant (F := F) Cert.ReferenceIdeal.S_ .f32 0x00000000#32) Cert.ReferenceIdeal.Facts₀.reducesTo_S60000x64_S60000_d1 Cert.ReferenceIdeal.Facts₀.h_S_)) (broadcastInDim Cert.ReferenceIdeal.S60000x1 ![] Cert.ReferenceIdeal.Facts₀.bcast_S_S60000x1 (constant (F := F) Cert.ReferenceIdeal.S_ .f32 0x42800000#32))))) (subf (Bp (Proc.devRef .tc Cert.ReferenceIdeal.main_v824)) (broadcastInDim Cert.ReferenceIdeal.S60000x64 ![0, 1] Cert.ReferenceIdeal.Facts₀.bcast_S60000x1_S60000x64_0_1 (Host.divf (broadcastInDim Cert.ReferenceIdeal.S60000x1 ![0] Cert.ReferenceIdeal.Facts₀.bcast_S60000_S60000x1_0 (Host.reduceAdd (Bp (Proc.devRef .tc Cert.ReferenceIdeal.main_v824)) (constant (F := F) Cert.ReferenceIdeal.S_ .f32 0x00000000#32) Cert.ReferenceIdeal.Facts₀.reducesTo_S60000x64_S60000_d1 Cert.ReferenceIdeal.Facts₀.h_S_)) (broadcastInDim Cert.ReferenceIdeal.S60000x1 ![] Cert.ReferenceIdeal.Facts₀.bcast_S_S60000x1 (constant (F := F) Cert.ReferenceIdeal.S_ .f32 0x42800000#32)))))) (constant (F := F) Cert.ReferenceIdeal.S_ .f32 0x00000000#32) Cert.ReferenceIdeal.Facts₀.reducesTo_S60000x64_S60000_d1 Cert.ReferenceIdeal.Facts₀.h_S_)) (broadcastInDim Cert.ReferenceIdeal.S60000x1 ![] Cert.ReferenceIdeal.Facts₀.bcast_S_S60000x1 (constant (F := F) Cert.ReferenceIdeal.S_ .f32 0x42800000#32))) (broadcastInDim Cert.ReferenceIdeal.S60000x1 ![] Cert.ReferenceIdeal.Facts₀.bcast_S_S60000x1 (constant (F := F) Cert.ReferenceIdeal.S_ .f32 0x3727C5AC#32)))))) (broadcastInDim Cert.ReferenceIdeal.S60000x64 ![0, 1] Cert.ReferenceIdeal.Facts₀.bcast_S1x64_S60000x64_0_1 (broadcastInDim Cert.ReferenceIdeal.S1x64 ![1] Cert.ReferenceIdeal.Facts₀.bcast_S64_S1x64_1 (Bp (Proc.devRef .tc Cert.ReferenceIdeal.main_v854))))) (broadcastInDim Cert.ReferenceIdeal.S60000x64 ![0, 1] Cert.ReferenceIdeal.Facts₀.bcast_S1x64_S60000x64_0_1 (broadcastInDim Cert.ReferenceIdeal.S1x64 ![1] Cert.ReferenceIdeal.Facts₀.bcast_S64_S1x64_1 (Bp (Proc.devRef .tc Cert.ReferenceIdeal.main_v856))))) := by
  simp only [Cert.ReferenceIdeal.Hand.ops_L19]
  after_results_simp
  try (first | rfl | (simp only [StableHlo.TRef.ofBuf, StableHlo.TRef.toBuf, cast_eq]; rfl))

set_option maxHeartbeats 4000000 in
/-- The reference operations that play pallas region 20's role, read as one term of the contents they start from. -/
theorem ref_region20 {F : FTy → Type} [FloatOps F] (Bp : Valuation Cert.ReferenceIdeal.τ Cert.ReferenceIdeal.sig (Elt F)) :
    ((StableHlo.after (Cert.ReferenceIdeal.Hand.ops_L20 (F := F)) Bp) (Proc.devRef .tc Cert.ReferenceIdeal.main_v908) : (⟨Cert.ReferenceIdeal.S20000x64, .f32⟩ : BufTy).Contents (Elt F))
      = (addf (mulf (mulf (subf (Bp (Proc.devRef .tc Cert.ReferenceIdeal.main_v644)) (broadcastInDim Cert.ReferenceIdeal.S20000x64 ![0, 1] Cert.ReferenceIdeal.Facts₀.bcast_S20000x1_S20000x64_0_1 (Host.divf (broadcastInDim Cert.ReferenceIdeal.S20000x1 ![0] Cert.ReferenceIdeal.Facts₀.bcast_S20000_S20000x1_0 (Host.reduceAdd (Bp (Proc.devRef .tc Cert.ReferenceIdeal.main_v644)) (constant (F := F) Cert.ReferenceIdeal.S_ .f32 0x00000000#32) Cert.ReferenceIdeal.Facts₀.reducesTo_S20000x64_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x42800000#32))))) (broadcastInDim Cert.ReferenceIdeal.S20000x64 ![0, 1] Cert.ReferenceIdeal.Facts₀.bcast_S20000x1_S20000x64_0_1 (Host.rsqrt (addf (Host.divf (broadcastInDim Cert.ReferenceIdeal.S20000x1 ![0] Cert.ReferenceIdeal.Facts₀.bcast_S20000_S20000x1_0 (Host.reduceAdd (mulf (subf (Bp (Proc.devRef .tc Cert.ReferenceIdeal.main_v644)) (broadcastInDim Cert.ReferenceIdeal.S20000x64 ![0, 1] Cert.ReferenceIdeal.Facts₀.bcast_S20000x1_S20000x64_0_1 (Host.divf (broadcastInDim Cert.ReferenceIdeal.S20000x1 ![0] Cert.ReferenceIdeal.Facts₀.bcast_S20000_S20000x1_0 (Host.reduceAdd (Bp (Proc.devRef .tc Cert.ReferenceIdeal.main_v644)) (constant (F := F) Cert.ReferenceIdeal.S_ .f32 0x00000000#32) Cert.ReferenceIdeal.Facts₀.reducesTo_S20000x64_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x42800000#32))))) (subf (Bp (Proc.devRef .tc Cert.ReferenceIdeal.main_v644)) (broadcastInDim Cert.ReferenceIdeal.S20000x64 ![0, 1] Cert.ReferenceIdeal.Facts₀.bcast_S20000x1_S20000x64_0_1 (Host.divf (broadcastInDim Cert.ReferenceIdeal.S20000x1 ![0] Cert.ReferenceIdeal.Facts₀.bcast_S20000_S20000x1_0 (Host.reduceAdd (Bp (Proc.devRef .tc Cert.ReferenceIdeal.main_v644)) (constant (F := F) Cert.ReferenceIdeal.S_ .f32 0x00000000#32) Cert.ReferenceIdeal.Facts₀.reducesTo_S20000x64_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x42800000#32)))))) (constant (F := F) Cert.ReferenceIdeal.S_ .f32 0x00000000#32) Cert.ReferenceIdeal.Facts₀.reducesTo_S20000x64_S20000_d1 Cert.ReferenceIdeal.Facts₀.h_S_)) (broadcastInDim Cert.ReferenceIdeal.S20000x1 ![] Cert.ReferenceIdeal.Facts₀.bcast_S_S20000x1 (constant (F := F) Cert.ReferenceIdeal.S_ .f32 0x42800000#32))) (broadcastInDim Cert.ReferenceIdeal.S20000x1 ![] Cert.ReferenceIdeal.Facts₀.bcast_S_S20000x1 (constant (F := F) Cert.ReferenceIdeal.S_ .f32 0x3727C5AC#32)))))) (broadcastInDim Cert.ReferenceIdeal.S20000x64 ![0, 1] Cert.ReferenceIdeal.Facts₀.bcast_S1x64_S20000x64_0_1 (broadcastInDim Cert.ReferenceIdeal.S1x64 ![1] Cert.ReferenceIdeal.Facts₀.bcast_S64_S1x64_1 (Bp (Proc.devRef .tc Cert.ReferenceIdeal.main_v882))))) (broadcastInDim Cert.ReferenceIdeal.S20000x64 ![0, 1] Cert.ReferenceIdeal.Facts₀.bcast_S1x64_S20000x64_0_1 (broadcastInDim Cert.ReferenceIdeal.S1x64 ![1] Cert.ReferenceIdeal.Facts₀.bcast_S64_S1x64_1 (Bp (Proc.devRef .tc Cert.ReferenceIdeal.main_v884))))) := by
  simp only [Cert.ReferenceIdeal.Hand.ops_L20]
  after_results_simp
  try (first | rfl | (simp only [StableHlo.TRef.ofBuf, StableHlo.TRef.toBuf, cast_eq]; rfl))

end Cert.Bisim

end
-- ==== Proof.KFold.Carry.lean ====
/- Value buffers along the fold: a buffer written at one boundary (by a host stretch, or as a region's output) and by
   nothing after it holds, at every later boundary, what it held there. One step per boundary. -/
import proofs.«147021_j7619271983570_1_alg».proof.Proof.KFold.Keep

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem carry_main_v1_3 (c : Dev nD) : W3 m ρ c (Proc.devRef .tc main_v1) = W2 m ρ c (Proc.devRef .tc main_v1) :=
  W3_keep m ρ c main_v1 (by decide)
theorem carry_main_v1_4 (c : Dev nD) : W4 m ρ c (Proc.devRef .tc main_v1) = W2 m ρ c (Proc.devRef .tc main_v1) :=
  (W4_of_ne m ρ c main_v1 (by decide)).trans (carry_main_v1_3 m ρ c)
theorem carry_main_v1_5 (c : Dev nD) : W5 m ρ c (Proc.devRef .tc main_v1) = W2 m ρ c (Proc.devRef .tc main_v1) :=
  (W5_keep m ρ c main_v1 (by decide)).trans (carry_main_v1_4 m ρ c)
theorem carry_main_v1_6 (c : Dev nD) : W6 m ρ c (Proc.devRef .tc main_v1) = W2 m ρ c (Proc.devRef .tc main_v1) :=
  (W6_of_ne m ρ c main_v1 (by decide)).trans (carry_main_v1_5 m ρ c)
theorem carry_main_v1_7 (c : Dev nD) : W7 m ρ c (Proc.devRef .tc main_v1) = W2 m ρ c (Proc.devRef .tc main_v1) :=
  (W7_keep m ρ c main_v1 (by decide)).trans (carry_main_v1_6 m ρ c)
theorem carry_main_v1_8 (c : Dev nD) : W8 m ρ c (Proc.devRef .tc main_v1) = W2 m ρ c (Proc.devRef .tc main_v1) :=
  (W8_in0 m ρ c).trans (carry_main_v1_7 m ρ c)
theorem carry_main_v1_9 (c : Dev nD) : W9 m ρ c (Proc.devRef .tc main_v1) = W2 m ρ c (Proc.devRef .tc main_v1) :=
  (W9_keep m ρ c main_v1 (by decide)).trans (carry_main_v1_8 m ρ c)
theorem carry_main_v1_10 (c : Dev nD) : W10 m ρ c (Proc.devRef .tc main_v1) = W2 m ρ c (Proc.devRef .tc main_v1) :=
  (W10_keep m ρ c main_v1 (by decide)).trans (carry_main_v1_9 m ρ c)
theorem carry_main_v1_11 (c : Dev nD) : W11 m ρ c (Proc.devRef .tc main_v1) = W2 m ρ c (Proc.devRef .tc main_v1) :=
  (W11_keep m ρ c main_v1 (by decide)).trans (carry_main_v1_10 m ρ c)
theorem carry_main_v1_12 (c : Dev nD) : W12 m ρ c (Proc.devRef .tc main_v1) = W2 m ρ c (Proc.devRef .tc main_v1) :=
  (W12_keep m ρ c main_v1 (by decide)).trans (carry_main_v1_11 m ρ c)
theorem carry_main_v1_13 (c : Dev nD) : W13 m ρ c (Proc.devRef .tc main_v1) = W2 m ρ c (Proc.devRef .tc main_v1) :=
  (W13_keep m ρ c main_v1 (by decide)).trans (carry_main_v1_12 m ρ c)
theorem carry_main_v8_8 (c : Dev nD) : W8 m ρ c (Proc.devRef .tc main_v8) = W7 m ρ c (Proc.devRef .tc main_v8) :=
  W8_of_ne m ρ c main_v8 (by decide)
theorem carry_main_v7_8 (c : Dev nD) : W8 m ρ c (Proc.devRef .tc main_v7) = W7 m ρ c (Proc.devRef .tc main_v7) :=
  W8_of_ne m ρ c main_v7 (by decide)
theorem carry_main_v7_9 (c : Dev nD) : W9 m ρ c (Proc.devRef .tc main_v7) = W7 m ρ c (Proc.devRef .tc main_v7) :=
  (W9_keep m ρ c main_v7 (by decide)).trans (carry_main_v7_8 m ρ c)
theorem carry_main_v7_10 (c : Dev nD) : W10 m ρ c (Proc.devRef .tc main_v7) = W7 m ρ c (Proc.devRef .tc main_v7) :=
  (W10_keep m ρ c main_v7 (by decide)).trans (carry_main_v7_9 m ρ c)
theorem carry_main_v7_11 (c : Dev nD) : W11 m ρ c (Proc.devRef .tc main_v7) = W7 m ρ c (Proc.devRef .tc main_v7) :=
  (W11_keep m ρ c main_v7 (by decide)).trans (carry_main_v7_10 m ρ c)
theorem carry_main_v7_12 (c : Dev nD) : W12 m ρ c (Proc.devRef .tc main_v7) = W7 m ρ c (Proc.devRef .tc main_v7) :=
  (W12_keep m ρ c main_v7 (by decide)).trans (carry_main_v7_11 m ρ c)
theorem carry_main_v7_13 (c : Dev nD) : W13 m ρ c (Proc.devRef .tc main_v7) = W7 m ρ c (Proc.devRef .tc main_v7) :=
  (W13_keep m ρ c main_v7 (by decide)).trans (carry_main_v7_12 m ρ c)
theorem carry_main_v7_14 (c : Dev nD) : W14 m ρ c (Proc.devRef .tc main_v7) = W7 m ρ c (Proc.devRef .tc main_v7) :=
  (W14_of_ne m ρ c main_v7 (by decide)).trans (carry_main_v7_13 m ρ c)
theorem carry_main_v3_5 (c : Dev nD) : W5 m ρ c (Proc.devRef .tc main_v3) = W4 m ρ c (Proc.devRef .tc main_v3) :=
  W5_keep m ρ c main_v3 (by decide)
theorem carry_main_v3_6 (c : Dev nD) : W6 m ρ c (Proc.devRef .tc main_v3) = W4 m ρ c (Proc.devRef .tc main_v3) :=
  (W6_of_ne m ρ c main_v3 (by decide)).trans (carry_main_v3_5 m ρ c)
theorem carry_main_v3_7 (c : Dev nD) : W7 m ρ c (Proc.devRef .tc main_v3) = W4 m ρ c (Proc.devRef .tc main_v3) :=
  (W7_keep m ρ c main_v3 (by decide)).trans (carry_main_v3_6 m ρ c)
theorem carry_main_v3_8 (c : Dev nD) : W8 m ρ c (Proc.devRef .tc main_v3) = W4 m ρ c (Proc.devRef .tc main_v3) :=
  (W8_of_ne m ρ c main_v3 (by decide)).trans (carry_main_v3_7 m ρ c)
theorem carry_main_v3_9 (c : Dev nD) : W9 m ρ c (Proc.devRef .tc main_v3) = W4 m ρ c (Proc.devRef .tc main_v3) :=
  (W9_keep m ρ c main_v3 (by decide)).trans (carry_main_v3_8 m ρ c)
theorem carry_main_v3_10 (c : Dev nD) : W10 m ρ c (Proc.devRef .tc main_v3) = W4 m ρ c (Proc.devRef .tc main_v3) :=
  (W10_keep m ρ c main_v3 (by decide)).trans (carry_main_v3_9 m ρ c)
theorem carry_main_v3_11 (c : Dev nD) : W11 m ρ c (Proc.devRef .tc main_v3) = W4 m ρ c (Proc.devRef .tc main_v3) :=
  (W11_keep m ρ c main_v3 (by decide)).trans (carry_main_v3_10 m ρ c)
theorem carry_main_v3_12 (c : Dev nD) : W12 m ρ c (Proc.devRef .tc main_v3) = W4 m ρ c (Proc.devRef .tc main_v3) :=
  (W12_keep m ρ c main_v3 (by decide)).trans (carry_main_v3_11 m ρ c)
theorem carry_main_v3_13 (c : Dev nD) : W13 m ρ c (Proc.devRef .tc main_v3) = W4 m ρ c (Proc.devRef .tc main_v3) :=
  (W13_keep m ρ c main_v3 (by decide)).trans (carry_main_v3_12 m ρ c)
theorem carry_main_v3_14 (c : Dev nD) : W14 m ρ c (Proc.devRef .tc main_v3) = W4 m ρ c (Proc.devRef .tc main_v3) :=
  (W14_of_ne m ρ c main_v3 (by decide)).trans (carry_main_v3_13 m ρ c)
theorem carry_main_v3_15 (c : Dev nD) : W15 m ρ c (Proc.devRef .tc main_v3) = W4 m ρ c (Proc.devRef .tc main_v3) :=
  (W15_keep m ρ c main_v3 (by decide)).trans (carry_main_v3_14 m ρ c)
theorem carry_main_v3_16 (c : Dev nD) : W16 m ρ c (Proc.devRef .tc main_v3) = W4 m ρ c (Proc.devRef .tc main_v3) :=
  (W16_keep m ρ c main_v3 (by decide)).trans (carry_main_v3_15 m ρ c)
theorem carry_main_v3_17 (c : Dev nD) : W17 m ρ c (Proc.devRef .tc main_v3) = W4 m ρ c (Proc.devRef .tc main_v3) :=
  (W17_keep m ρ c main_v3 (by decide)).trans (carry_main_v3_16 m ρ c)
theorem carry_main_v3_18 (c : Dev nD) : W18 m ρ c (Proc.devRef .tc main_v3) = W4 m ρ c (Proc.devRef .tc main_v3) :=
  (W18_keep m ρ c main_v3 (by decide)).trans (carry_main_v3_17 m ρ c)
theorem carry_main_v3_19 (c : Dev nD) : W19 m ρ c (Proc.devRef .tc main_v3) = W4 m ρ c (Proc.devRef .tc main_v3) :=
  (W19_keep m ρ c main_v3 (by decide)).trans (carry_main_v3_18 m ρ c)
theorem carry_main_v3_20 (c : Dev nD) : W20 m ρ c (Proc.devRef .tc main_v3) = W4 m ρ c (Proc.devRef .tc main_v3) :=
  (W20_in0 m ρ c).trans (carry_main_v3_19 m ρ c)
theorem carry_main_v3_21 (c : Dev nD) : W21 m ρ c (Proc.devRef .tc main_v3) = W4 m ρ c (Proc.devRef .tc main_v3) :=
  (W21_keep m ρ c main_v3 (by decide)).trans (carry_main_v3_20 m ρ c)
theorem carry_main_v3_22 (c : Dev nD) : W22 m ρ c (Proc.devRef .tc main_v3) = W4 m ρ c (Proc.devRef .tc main_v3) :=
  (W22_keep m ρ c main_v3 (by decide)).trans (carry_main_v3_21 m ρ c)
theorem carry_main_v3_23 (c : Dev nD) : W23 m ρ c (Proc.devRef .tc main_v3) = W4 m ρ c (Proc.devRef .tc main_v3) :=
  (W23_keep m ρ c main_v3 (by decide)).trans (carry_main_v3_22 m ρ c)
theorem carry_main_v3_24 (c : Dev nD) : W24 m ρ c (Proc.devRef .tc main_v3) = W4 m ρ c (Proc.devRef .tc main_v3) :=
  (W24_keep m ρ c main_v3 (by decide)).trans (carry_main_v3_23 m ρ c)
theorem carry_main_v3_25 (c : Dev nD) : W25 m ρ c (Proc.devRef .tc main_v3) = W4 m ρ c (Proc.devRef .tc main_v3) :=
  (W25_keep m ρ c main_v3 (by decide)).trans (carry_main_v3_24 m ρ c)
theorem carry_main_v3_26 (c : Dev nD) : W26 m ρ c (Proc.devRef .tc main_v3) = W4 m ρ c (Proc.devRef .tc main_v3) :=
  (W26_of_ne m ρ c main_v3 (by decide)).trans (carry_main_v3_25 m ρ c)
theorem carry_main_v3_27 (c : Dev nD) : W27 m ρ c (Proc.devRef .tc main_v3) = W4 m ρ c (Proc.devRef .tc main_v3) :=
  (W27_keep m ρ c main_v3 (by decide)).trans (carry_main_v3_26 m ρ c)
theorem carry_main_v3_28 (c : Dev nD) : W28 m ρ c (Proc.devRef .tc main_v3) = W4 m ρ c (Proc.devRef .tc main_v3) :=
  (W28_keep m ρ c main_v3 (by decide)).trans (carry_main_v3_27 m ρ c)
theorem carry_main_v3_29 (c : Dev nD) : W29 m ρ c (Proc.devRef .tc main_v3) = W4 m ρ c (Proc.devRef .tc main_v3) :=
  (W29_keep m ρ c main_v3 (by decide)).trans (carry_main_v3_28 m ρ c)
theorem carry_main_v3_30 (c : Dev nD) : W30 m ρ c (Proc.devRef .tc main_v3) = W4 m ρ c (Proc.devRef .tc main_v3) :=
  (W30_keep m ρ c main_v3 (by decide)).trans (carry_main_v3_29 m ρ c)
theorem carry_main_v3_31 (c : Dev nD) : W31 m ρ c (Proc.devRef .tc main_v3) = W4 m ρ c (Proc.devRef .tc main_v3) :=
  (W31_keep m ρ c main_v3 (by decide)).trans (carry_main_v3_30 m ρ c)
theorem carry_main_v70_14 (c : Dev nD) : W14 m ρ c (Proc.devRef .tc main_v70) = W13 m ρ c (Proc.devRef .tc main_v70) :=
  W14_of_ne m ρ c main_v70 (by decide)
theorem carry_main_v70_15 (c : Dev nD) : W15 m ρ c (Proc.devRef .tc main_v70) = W13 m ρ c (Proc.devRef .tc main_v70) :=
  (W15_keep m ρ c main_v70 (by decide)).trans (carry_main_v70_14 m ρ c)
theorem carry_main_v70_16 (c : Dev nD) : W16 m ρ c (Proc.devRef .tc main_v70) = W13 m ρ c (Proc.devRef .tc main_v70) :=
  (W16_keep m ρ c main_v70 (by decide)).trans (carry_main_v70_15 m ρ c)
theorem carry_main_v70_17 (c : Dev nD) : W17 m ρ c (Proc.devRef .tc main_v70) = W13 m ρ c (Proc.devRef .tc main_v70) :=
  (W17_keep m ρ c main_v70 (by decide)).trans (carry_main_v70_16 m ρ c)
theorem carry_main_v70_18 (c : Dev nD) : W18 m ρ c (Proc.devRef .tc main_v70) = W13 m ρ c (Proc.devRef .tc main_v70) :=
  (W18_keep m ρ c main_v70 (by decide)).trans (carry_main_v70_17 m ρ c)
theorem carry_main_v70_19 (c : Dev nD) : W19 m ρ c (Proc.devRef .tc main_v70) = W13 m ρ c (Proc.devRef .tc main_v70) :=
  (W19_keep m ρ c main_v70 (by decide)).trans (carry_main_v70_18 m ρ c)
theorem carry_main_v70_20 (c : Dev nD) : W20 m ρ c (Proc.devRef .tc main_v70) = W13 m ρ c (Proc.devRef .tc main_v70) :=
  (W20_of_ne m ρ c main_v70 (by decide)).trans (carry_main_v70_19 m ρ c)
theorem carry_main_v5_7 (c : Dev nD) : W7 m ρ c (Proc.devRef .tc main_v5) = W6 m ρ c (Proc.devRef .tc main_v5) :=
  W7_keep m ρ c main_v5 (by decide)
theorem carry_main_v5_8 (c : Dev nD) : W8 m ρ c (Proc.devRef .tc main_v5) = W6 m ρ c (Proc.devRef .tc main_v5) :=
  (W8_of_ne m ρ c main_v5 (by decide)).trans (carry_main_v5_7 m ρ c)
theorem carry_main_v5_9 (c : Dev nD) : W9 m ρ c (Proc.devRef .tc main_v5) = W6 m ρ c (Proc.devRef .tc main_v5) :=
  (W9_keep m ρ c main_v5 (by decide)).trans (carry_main_v5_8 m ρ c)
theorem carry_main_v5_10 (c : Dev nD) : W10 m ρ c (Proc.devRef .tc main_v5) = W6 m ρ c (Proc.devRef .tc main_v5) :=
  (W10_keep m ρ c main_v5 (by decide)).trans (carry_main_v5_9 m ρ c)
theorem carry_main_v5_11 (c : Dev nD) : W11 m ρ c (Proc.devRef .tc main_v5) = W6 m ρ c (Proc.devRef .tc main_v5) :=
  (W11_keep m ρ c main_v5 (by decide)).trans (carry_main_v5_10 m ρ c)
theorem carry_main_v5_12 (c : Dev nD) : W12 m ρ c (Proc.devRef .tc main_v5) = W6 m ρ c (Proc.devRef .tc main_v5) :=
  (W12_keep m ρ c main_v5 (by decide)).trans (carry_main_v5_11 m ρ c)
theorem carry_main_v5_13 (c : Dev nD) : W13 m ρ c (Proc.devRef .tc main_v5) = W6 m ρ c (Proc.devRef .tc main_v5) :=
  (W13_keep m ρ c main_v5 (by decide)).trans (carry_main_v5_12 m ρ c)
theorem carry_main_v5_14 (c : Dev nD) : W14 m ρ c (Proc.devRef .tc main_v5) = W6 m ρ c (Proc.devRef .tc main_v5) :=
  (W14_of_ne m ρ c main_v5 (by decide)).trans (carry_main_v5_13 m ρ c)
theorem carry_main_v5_15 (c : Dev nD) : W15 m ρ c (Proc.devRef .tc main_v5) = W6 m ρ c (Proc.devRef .tc main_v5) :=
  (W15_keep m ρ c main_v5 (by decide)).trans (carry_main_v5_14 m ρ c)
theorem carry_main_v5_16 (c : Dev nD) : W16 m ρ c (Proc.devRef .tc main_v5) = W6 m ρ c (Proc.devRef .tc main_v5) :=
  (W16_keep m ρ c main_v5 (by decide)).trans (carry_main_v5_15 m ρ c)
theorem carry_main_v5_17 (c : Dev nD) : W17 m ρ c (Proc.devRef .tc main_v5) = W6 m ρ c (Proc.devRef .tc main_v5) :=
  (W17_keep m ρ c main_v5 (by decide)).trans (carry_main_v5_16 m ρ c)
theorem carry_main_v5_18 (c : Dev nD) : W18 m ρ c (Proc.devRef .tc main_v5) = W6 m ρ c (Proc.devRef .tc main_v5) :=
  (W18_keep m ρ c main_v5 (by decide)).trans (carry_main_v5_17 m ρ c)
theorem carry_main_v5_19 (c : Dev nD) : W19 m ρ c (Proc.devRef .tc main_v5) = W6 m ρ c (Proc.devRef .tc main_v5) :=
  (W19_keep m ρ c main_v5 (by decide)).trans (carry_main_v5_18 m ρ c)
theorem carry_main_v5_20 (c : Dev nD) : W20 m ρ c (Proc.devRef .tc main_v5) = W6 m ρ c (Proc.devRef .tc main_v5) :=
  (W20_of_ne m ρ c main_v5 (by decide)).trans (carry_main_v5_19 m ρ c)
theorem carry_main_v5_21 (c : Dev nD) : W21 m ρ c (Proc.devRef .tc main_v5) = W6 m ρ c (Proc.devRef .tc main_v5) :=
  (W21_keep m ρ c main_v5 (by decide)).trans (carry_main_v5_20 m ρ c)
theorem carry_main_v5_22 (c : Dev nD) : W22 m ρ c (Proc.devRef .tc main_v5) = W6 m ρ c (Proc.devRef .tc main_v5) :=
  (W22_keep m ρ c main_v5 (by decide)).trans (carry_main_v5_21 m ρ c)
theorem carry_main_v5_23 (c : Dev nD) : W23 m ρ c (Proc.devRef .tc main_v5) = W6 m ρ c (Proc.devRef .tc main_v5) :=
  (W23_keep m ρ c main_v5 (by decide)).trans (carry_main_v5_22 m ρ c)
theorem carry_main_v5_24 (c : Dev nD) : W24 m ρ c (Proc.devRef .tc main_v5) = W6 m ρ c (Proc.devRef .tc main_v5) :=
  (W24_keep m ρ c main_v5 (by decide)).trans (carry_main_v5_23 m ρ c)
theorem carry_main_v5_25 (c : Dev nD) : W25 m ρ c (Proc.devRef .tc main_v5) = W6 m ρ c (Proc.devRef .tc main_v5) :=
  (W25_keep m ρ c main_v5 (by decide)).trans (carry_main_v5_24 m ρ c)
theorem carry_main_v5_26 (c : Dev nD) : W26 m ρ c (Proc.devRef .tc main_v5) = W6 m ρ c (Proc.devRef .tc main_v5) :=
  (W26_in0 m ρ c).trans (carry_main_v5_25 m ρ c)
theorem carry_main_v5_27 (c : Dev nD) : W27 m ρ c (Proc.devRef .tc main_v5) = W6 m ρ c (Proc.devRef .tc main_v5) :=
  (W27_keep m ρ c main_v5 (by decide)).trans (carry_main_v5_26 m ρ c)
theorem carry_main_v5_28 (c : Dev nD) : W28 m ρ c (Proc.devRef .tc main_v5) = W6 m ρ c (Proc.devRef .tc main_v5) :=
  (W28_keep m ρ c main_v5 (by decide)).trans (carry_main_v5_27 m ρ c)
theorem carry_main_v5_29 (c : Dev nD) : W29 m ρ c (Proc.devRef .tc main_v5) = W6 m ρ c (Proc.devRef .tc main_v5) :=
  (W29_keep m ρ c main_v5 (by decide)).trans (carry_main_v5_28 m ρ c)
theorem carry_main_v5_30 (c : Dev nD) : W30 m ρ c (Proc.devRef .tc main_v5) = W6 m ρ c (Proc.devRef .tc main_v5) :=
  (W30_keep m ρ c main_v5 (by decide)).trans (carry_main_v5_29 m ρ c)
theorem carry_main_v5_31 (c : Dev nD) : W31 m ρ c (Proc.devRef .tc main_v5) = W6 m ρ c (Proc.devRef .tc main_v5) :=
  (W31_keep m ρ c main_v5 (by decide)).trans (carry_main_v5_30 m ρ c)
theorem carry_main_v5_32 (c : Dev nD) : W32 m ρ c (Proc.devRef .tc main_v5) = W6 m ρ c (Proc.devRef .tc main_v5) :=
  (W32_of_ne m ρ c main_v5 (by decide)).trans (carry_main_v5_31 m ρ c)
theorem carry_main_v5_33 (c : Dev nD) : W33 m ρ c (Proc.devRef .tc main_v5) = W6 m ρ c (Proc.devRef .tc main_v5) :=
  (W33_keep m ρ c main_v5 (by decide)).trans (carry_main_v5_32 m ρ c)
theorem carry_main_v5_34 (c : Dev nD) : W34 m ρ c (Proc.devRef .tc main_v5) = W6 m ρ c (Proc.devRef .tc main_v5) :=
  (W34_keep m ρ c main_v5 (by decide)).trans (carry_main_v5_33 m ρ c)
theorem carry_main_v5_35 (c : Dev nD) : W35 m ρ c (Proc.devRef .tc main_v5) = W6 m ρ c (Proc.devRef .tc main_v5) :=
  (W35_keep m ρ c main_v5 (by decide)).trans (carry_main_v5_34 m ρ c)
theorem carry_main_v5_36 (c : Dev nD) : W36 m ρ c (Proc.devRef .tc main_v5) = W6 m ρ c (Proc.devRef .tc main_v5) :=
  (W36_keep m ρ c main_v5 (by decide)).trans (carry_main_v5_35 m ρ c)
theorem carry_main_v5_37 (c : Dev nD) : W37 m ρ c (Proc.devRef .tc main_v5) = W6 m ρ c (Proc.devRef .tc main_v5) :=
  (W37_keep m ρ c main_v5 (by decide)).trans (carry_main_v5_36 m ρ c)
theorem carry_main_v6_8 (c : Dev nD) : W8 m ρ c (Proc.devRef .tc main_v6) = W7 m ρ c (Proc.devRef .tc main_v6) :=
  W8_of_ne m ρ c main_v6 (by decide)
theorem carry_main_v6_9 (c : Dev nD) : W9 m ρ c (Proc.devRef .tc main_v6) = W7 m ρ c (Proc.devRef .tc main_v6) :=
  (W9_keep m ρ c main_v6 (by decide)).trans (carry_main_v6_8 m ρ c)
theorem carry_main_v6_10 (c : Dev nD) : W10 m ρ c (Proc.devRef .tc main_v6) = W7 m ρ c (Proc.devRef .tc main_v6) :=
  (W10_keep m ρ c main_v6 (by decide)).trans (carry_main_v6_9 m ρ c)
theorem carry_main_v6_11 (c : Dev nD) : W11 m ρ c (Proc.devRef .tc main_v6) = W7 m ρ c (Proc.devRef .tc main_v6) :=
  (W11_keep m ρ c main_v6 (by decide)).trans (carry_main_v6_10 m ρ c)
theorem carry_main_v6_12 (c : Dev nD) : W12 m ρ c (Proc.devRef .tc main_v6) = W7 m ρ c (Proc.devRef .tc main_v6) :=
  (W12_keep m ρ c main_v6 (by decide)).trans (carry_main_v6_11 m ρ c)
theorem carry_main_v6_13 (c : Dev nD) : W13 m ρ c (Proc.devRef .tc main_v6) = W7 m ρ c (Proc.devRef .tc main_v6) :=
  (W13_keep m ρ c main_v6 (by decide)).trans (carry_main_v6_12 m ρ c)
theorem carry_main_v6_14 (c : Dev nD) : W14 m ρ c (Proc.devRef .tc main_v6) = W7 m ρ c (Proc.devRef .tc main_v6) :=
  (W14_of_ne m ρ c main_v6 (by decide)).trans (carry_main_v6_13 m ρ c)
theorem carry_main_v6_15 (c : Dev nD) : W15 m ρ c (Proc.devRef .tc main_v6) = W7 m ρ c (Proc.devRef .tc main_v6) :=
  (W15_keep m ρ c main_v6 (by decide)).trans (carry_main_v6_14 m ρ c)
theorem carry_main_v6_16 (c : Dev nD) : W16 m ρ c (Proc.devRef .tc main_v6) = W7 m ρ c (Proc.devRef .tc main_v6) :=
  (W16_keep m ρ c main_v6 (by decide)).trans (carry_main_v6_15 m ρ c)
theorem carry_main_v6_17 (c : Dev nD) : W17 m ρ c (Proc.devRef .tc main_v6) = W7 m ρ c (Proc.devRef .tc main_v6) :=
  (W17_keep m ρ c main_v6 (by decide)).trans (carry_main_v6_16 m ρ c)
theorem carry_main_v6_18 (c : Dev nD) : W18 m ρ c (Proc.devRef .tc main_v6) = W7 m ρ c (Proc.devRef .tc main_v6) :=
  (W18_keep m ρ c main_v6 (by decide)).trans (carry_main_v6_17 m ρ c)
theorem carry_main_v6_19 (c : Dev nD) : W19 m ρ c (Proc.devRef .tc main_v6) = W7 m ρ c (Proc.devRef .tc main_v6) :=
  (W19_keep m ρ c main_v6 (by decide)).trans (carry_main_v6_18 m ρ c)
theorem carry_main_v6_20 (c : Dev nD) : W20 m ρ c (Proc.devRef .tc main_v6) = W7 m ρ c (Proc.devRef .tc main_v6) :=
  (W20_of_ne m ρ c main_v6 (by decide)).trans (carry_main_v6_19 m ρ c)
theorem carry_main_v6_21 (c : Dev nD) : W21 m ρ c (Proc.devRef .tc main_v6) = W7 m ρ c (Proc.devRef .tc main_v6) :=
  (W21_keep m ρ c main_v6 (by decide)).trans (carry_main_v6_20 m ρ c)
theorem carry_main_v6_22 (c : Dev nD) : W22 m ρ c (Proc.devRef .tc main_v6) = W7 m ρ c (Proc.devRef .tc main_v6) :=
  (W22_keep m ρ c main_v6 (by decide)).trans (carry_main_v6_21 m ρ c)
theorem carry_main_v6_23 (c : Dev nD) : W23 m ρ c (Proc.devRef .tc main_v6) = W7 m ρ c (Proc.devRef .tc main_v6) :=
  (W23_keep m ρ c main_v6 (by decide)).trans (carry_main_v6_22 m ρ c)
theorem carry_main_v6_24 (c : Dev nD) : W24 m ρ c (Proc.devRef .tc main_v6) = W7 m ρ c (Proc.devRef .tc main_v6) :=
  (W24_keep m ρ c main_v6 (by decide)).trans (carry_main_v6_23 m ρ c)
theorem carry_main_v6_25 (c : Dev nD) : W25 m ρ c (Proc.devRef .tc main_v6) = W7 m ρ c (Proc.devRef .tc main_v6) :=
  (W25_keep m ρ c main_v6 (by decide)).trans (carry_main_v6_24 m ρ c)
theorem carry_main_v6_26 (c : Dev nD) : W26 m ρ c (Proc.devRef .tc main_v6) = W7 m ρ c (Proc.devRef .tc main_v6) :=
  (W26_of_ne m ρ c main_v6 (by decide)).trans (carry_main_v6_25 m ρ c)
theorem carry_main_v256_32 (c : Dev nD) : W32 m ρ c (Proc.devRef .tc main_v256) = W31 m ρ c (Proc.devRef .tc main_v256) :=
  W32_of_ne m ρ c main_v256 (by decide)
theorem carry_main_v132_20 (c : Dev nD) : W20 m ρ c (Proc.devRef .tc main_v132) = W19 m ρ c (Proc.devRef .tc main_v132) :=
  W20_of_ne m ρ c main_v132 (by decide)
theorem carry_main_v132_21 (c : Dev nD) : W21 m ρ c (Proc.devRef .tc main_v132) = W19 m ρ c (Proc.devRef .tc main_v132) :=
  (W21_keep m ρ c main_v132 (by decide)).trans (carry_main_v132_20 m ρ c)
theorem carry_main_v132_22 (c : Dev nD) : W22 m ρ c (Proc.devRef .tc main_v132) = W19 m ρ c (Proc.devRef .tc main_v132) :=
  (W22_keep m ρ c main_v132 (by decide)).trans (carry_main_v132_21 m ρ c)
theorem carry_main_v132_23 (c : Dev nD) : W23 m ρ c (Proc.devRef .tc main_v132) = W19 m ρ c (Proc.devRef .tc main_v132) :=
  (W23_keep m ρ c main_v132 (by decide)).trans (carry_main_v132_22 m ρ c)
theorem carry_main_v132_24 (c : Dev nD) : W24 m ρ c (Proc.devRef .tc main_v132) = W19 m ρ c (Proc.devRef .tc main_v132) :=
  (W24_keep m ρ c main_v132 (by decide)).trans (carry_main_v132_23 m ρ c)
theorem carry_main_v132_25 (c : Dev nD) : W25 m ρ c (Proc.devRef .tc main_v132) = W19 m ρ c (Proc.devRef .tc main_v132) :=
  (W25_keep m ρ c main_v132 (by decide)).trans (carry_main_v132_24 m ρ c)
theorem carry_main_v132_26 (c : Dev nD) : W26 m ρ c (Proc.devRef .tc main_v132) = W19 m ρ c (Proc.devRef .tc main_v132) :=
  (W26_of_ne m ρ c main_v132 (by decide)).trans (carry_main_v132_25 m ρ c)
theorem carry_main_v132_27 (c : Dev nD) : W27 m ρ c (Proc.devRef .tc main_v132) = W19 m ρ c (Proc.devRef .tc main_v132) :=
  (W27_keep m ρ c main_v132 (by decide)).trans (carry_main_v132_26 m ρ c)
theorem carry_main_v132_28 (c : Dev nD) : W28 m ρ c (Proc.devRef .tc main_v132) = W19 m ρ c (Proc.devRef .tc main_v132) :=
  (W28_keep m ρ c main_v132 (by decide)).trans (carry_main_v132_27 m ρ c)
theorem carry_main_v132_29 (c : Dev nD) : W29 m ρ c (Proc.devRef .tc main_v132) = W19 m ρ c (Proc.devRef .tc main_v132) :=
  (W29_keep m ρ c main_v132 (by decide)).trans (carry_main_v132_28 m ρ c)
theorem carry_main_v132_30 (c : Dev nD) : W30 m ρ c (Proc.devRef .tc main_v132) = W19 m ρ c (Proc.devRef .tc main_v132) :=
  (W30_keep m ρ c main_v132 (by decide)).trans (carry_main_v132_29 m ρ c)
theorem carry_main_v132_31 (c : Dev nD) : W31 m ρ c (Proc.devRef .tc main_v132) = W19 m ρ c (Proc.devRef .tc main_v132) :=
  (W31_keep m ρ c main_v132 (by decide)).trans (carry_main_v132_30 m ρ c)
theorem carry_main_v132_32 (c : Dev nD) : W32 m ρ c (Proc.devRef .tc main_v132) = W19 m ρ c (Proc.devRef .tc main_v132) :=
  (W32_of_ne m ρ c main_v132 (by decide)).trans (carry_main_v132_31 m ρ c)
theorem carry_main_v132_33 (c : Dev nD) : W33 m ρ c (Proc.devRef .tc main_v132) = W19 m ρ c (Proc.devRef .tc main_v132) :=
  (W33_keep m ρ c main_v132 (by decide)).trans (carry_main_v132_32 m ρ c)
theorem carry_main_v132_34 (c : Dev nD) : W34 m ρ c (Proc.devRef .tc main_v132) = W19 m ρ c (Proc.devRef .tc main_v132) :=
  (W34_keep m ρ c main_v132 (by decide)).trans (carry_main_v132_33 m ρ c)
theorem carry_main_v132_35 (c : Dev nD) : W35 m ρ c (Proc.devRef .tc main_v132) = W19 m ρ c (Proc.devRef .tc main_v132) :=
  (W35_keep m ρ c main_v132 (by decide)).trans (carry_main_v132_34 m ρ c)
theorem carry_main_v132_36 (c : Dev nD) : W36 m ρ c (Proc.devRef .tc main_v132) = W19 m ρ c (Proc.devRef .tc main_v132) :=
  (W36_keep m ρ c main_v132 (by decide)).trans (carry_main_v132_35 m ρ c)
theorem carry_main_v132_37 (c : Dev nD) : W37 m ρ c (Proc.devRef .tc main_v132) = W19 m ρ c (Proc.devRef .tc main_v132) :=
  (W37_keep m ρ c main_v132 (by decide)).trans (carry_main_v132_36 m ρ c)
theorem carry_main_v132_38 (c : Dev nD) : W38 m ρ c (Proc.devRef .tc main_v132) = W19 m ρ c (Proc.devRef .tc main_v132) :=
  (W38_of_ne m ρ c main_v132 (by decide)).trans (carry_main_v132_37 m ρ c)
theorem carry_main_v318_38 (c : Dev nD) : W38 m ρ c (Proc.devRef .tc main_v318) = W37 m ρ c (Proc.devRef .tc main_v318) :=
  W38_of_ne m ρ c main_v318 (by decide)
theorem carry_main_v318_39 (c : Dev nD) : W39 m ρ c (Proc.devRef .tc main_v318) = W37 m ρ c (Proc.devRef .tc main_v318) :=
  (W39_keep m ρ c main_v318 (by decide)).trans (carry_main_v318_38 m ρ c)
theorem carry_main_v318_40 (c : Dev nD) : W40 m ρ c (Proc.devRef .tc main_v318) = W37 m ρ c (Proc.devRef .tc main_v318) :=
  (W40_keep m ρ c main_v318 (by decide)).trans (carry_main_v318_39 m ρ c)
theorem carry_main_v318_41 (c : Dev nD) : W41 m ρ c (Proc.devRef .tc main_v318) = W37 m ρ c (Proc.devRef .tc main_v318) :=
  (W41_keep m ρ c main_v318 (by decide)).trans (carry_main_v318_40 m ρ c)
theorem carry_main_v318_42 (c : Dev nD) : W42 m ρ c (Proc.devRef .tc main_v318) = W37 m ρ c (Proc.devRef .tc main_v318) :=
  (W42_keep m ρ c main_v318 (by decide)).trans (carry_main_v318_41 m ρ c)
theorem carry_main_v318_43 (c : Dev nD) : W43 m ρ c (Proc.devRef .tc main_v318) = W37 m ρ c (Proc.devRef .tc main_v318) :=
  (W43_keep m ρ c main_v318 (by decide)).trans (carry_main_v318_42 m ρ c)
theorem carry_main_v380_44 (c : Dev nD) : W44 m ρ c (Proc.devRef .tc main_v380) = W43 m ρ c (Proc.devRef .tc main_v380) :=
  W44_of_ne m ρ c main_v380 (by decide)
theorem carry_main_v380_45 (c : Dev nD) : W45 m ρ c (Proc.devRef .tc main_v380) = W43 m ρ c (Proc.devRef .tc main_v380) :=
  (W45_keep m ρ c main_v380 (by decide)).trans (carry_main_v380_44 m ρ c)
theorem carry_main_v194_26 (c : Dev nD) : W26 m ρ c (Proc.devRef .tc main_v194) = W25 m ρ c (Proc.devRef .tc main_v194) :=
  W26_of_ne m ρ c main_v194 (by decide)
theorem carry_main_v194_27 (c : Dev nD) : W27 m ρ c (Proc.devRef .tc main_v194) = W25 m ρ c (Proc.devRef .tc main_v194) :=
  (W27_keep m ρ c main_v194 (by decide)).trans (carry_main_v194_26 m ρ c)
theorem carry_main_v194_28 (c : Dev nD) : W28 m ρ c (Proc.devRef .tc main_v194) = W25 m ρ c (Proc.devRef .tc main_v194) :=
  (W28_keep m ρ c main_v194 (by decide)).trans (carry_main_v194_27 m ρ c)
theorem carry_main_v194_29 (c : Dev nD) : W29 m ρ c (Proc.devRef .tc main_v194) = W25 m ρ c (Proc.devRef .tc main_v194) :=
  (W29_keep m ρ c main_v194 (by decide)).trans (carry_main_v194_28 m ρ c)
theorem carry_main_v194_30 (c : Dev nD) : W30 m ρ c (Proc.devRef .tc main_v194) = W25 m ρ c (Proc.devRef .tc main_v194) :=
  (W30_keep m ρ c main_v194 (by decide)).trans (carry_main_v194_29 m ρ c)
theorem carry_main_v194_31 (c : Dev nD) : W31 m ρ c (Proc.devRef .tc main_v194) = W25 m ρ c (Proc.devRef .tc main_v194) :=
  (W31_keep m ρ c main_v194 (by decide)).trans (carry_main_v194_30 m ρ c)
theorem carry_main_v194_32 (c : Dev nD) : W32 m ρ c (Proc.devRef .tc main_v194) = W25 m ρ c (Proc.devRef .tc main_v194) :=
  (W32_of_ne m ρ c main_v194 (by decide)).trans (carry_main_v194_31 m ρ c)
theorem carry_main_v194_33 (c : Dev nD) : W33 m ρ c (Proc.devRef .tc main_v194) = W25 m ρ c (Proc.devRef .tc main_v194) :=
  (W33_keep m ρ c main_v194 (by decide)).trans (carry_main_v194_32 m ρ c)
theorem carry_main_v194_34 (c : Dev nD) : W34 m ρ c (Proc.devRef .tc main_v194) = W25 m ρ c (Proc.devRef .tc main_v194) :=
  (W34_keep m ρ c main_v194 (by decide)).trans (carry_main_v194_33 m ρ c)
theorem carry_main_v194_35 (c : Dev nD) : W35 m ρ c (Proc.devRef .tc main_v194) = W25 m ρ c (Proc.devRef .tc main_v194) :=
  (W35_keep m ρ c main_v194 (by decide)).trans (carry_main_v194_34 m ρ c)
theorem carry_main_v194_36 (c : Dev nD) : W36 m ρ c (Proc.devRef .tc main_v194) = W25 m ρ c (Proc.devRef .tc main_v194) :=
  (W36_keep m ρ c main_v194 (by decide)).trans (carry_main_v194_35 m ρ c)
theorem carry_main_v194_37 (c : Dev nD) : W37 m ρ c (Proc.devRef .tc main_v194) = W25 m ρ c (Proc.devRef .tc main_v194) :=
  (W37_keep m ρ c main_v194 (by decide)).trans (carry_main_v194_36 m ρ c)
theorem carry_main_v194_38 (c : Dev nD) : W38 m ρ c (Proc.devRef .tc main_v194) = W25 m ρ c (Proc.devRef .tc main_v194) :=
  (W38_of_ne m ρ c main_v194 (by decide)).trans (carry_main_v194_37 m ρ c)
theorem carry_main_v194_39 (c : Dev nD) : W39 m ρ c (Proc.devRef .tc main_v194) = W25 m ρ c (Proc.devRef .tc main_v194) :=
  (W39_keep m ρ c main_v194 (by decide)).trans (carry_main_v194_38 m ρ c)
theorem carry_main_v194_40 (c : Dev nD) : W40 m ρ c (Proc.devRef .tc main_v194) = W25 m ρ c (Proc.devRef .tc main_v194) :=
  (W40_keep m ρ c main_v194 (by decide)).trans (carry_main_v194_39 m ρ c)
theorem carry_main_v194_41 (c : Dev nD) : W41 m ρ c (Proc.devRef .tc main_v194) = W25 m ρ c (Proc.devRef .tc main_v194) :=
  (W41_keep m ρ c main_v194 (by decide)).trans (carry_main_v194_40 m ρ c)
theorem carry_main_v194_42 (c : Dev nD) : W42 m ρ c (Proc.devRef .tc main_v194) = W25 m ρ c (Proc.devRef .tc main_v194) :=
  (W42_keep m ρ c main_v194 (by decide)).trans (carry_main_v194_41 m ρ c)
theorem carry_main_v194_43 (c : Dev nD) : W43 m ρ c (Proc.devRef .tc main_v194) = W25 m ρ c (Proc.devRef .tc main_v194) :=
  (W43_keep m ρ c main_v194 (by decide)).trans (carry_main_v194_42 m ρ c)
theorem carry_main_v194_44 (c : Dev nD) : W44 m ρ c (Proc.devRef .tc main_v194) = W25 m ρ c (Proc.devRef .tc main_v194) :=
  (W44_of_ne m ρ c main_v194 (by decide)).trans (carry_main_v194_43 m ρ c)
theorem carry_main_v194_45 (c : Dev nD) : W45 m ρ c (Proc.devRef .tc main_v194) = W25 m ρ c (Proc.devRef .tc main_v194) :=
  (W45_keep m ρ c main_v194 (by decide)).trans (carry_main_v194_44 m ρ c)
theorem carry_main_v194_46 (c : Dev nD) : W46 m ρ c (Proc.devRef .tc main_v194) = W25 m ρ c (Proc.devRef .tc main_v194) :=
  (W46_of_ne m ρ c main_v194 (by decide)).trans (carry_main_v194_45 m ρ c)
theorem carry_main_v194_47 (c : Dev nD) : W47 m ρ c (Proc.devRef .tc main_v194) = W25 m ρ c (Proc.devRef .tc main_v194) :=
  (W47_keep m ρ c main_v194 (by decide)).trans (carry_main_v194_46 m ρ c)
theorem carry_main_v387_45 (c : Dev nD) : W45 m ρ c (Proc.devRef .tc main_v387) = W44 m ρ c (Proc.devRef .tc main_v387) :=
  W45_keep m ρ c main_v387 (by decide)
theorem carry_main_v387_46 (c : Dev nD) : W46 m ρ c (Proc.devRef .tc main_v387) = W44 m ρ c (Proc.devRef .tc main_v387) :=
  (W46_of_ne m ρ c main_v387 (by decide)).trans (carry_main_v387_45 m ρ c)
theorem carry_main_v387_47 (c : Dev nD) : W47 m ρ c (Proc.devRef .tc main_v387) = W44 m ρ c (Proc.devRef .tc main_v387) :=
  (W47_keep m ρ c main_v387 (by decide)).trans (carry_main_v387_46 m ρ c)
theorem carry_main_v387_48 (c : Dev nD) : W48 m ρ c (Proc.devRef .tc main_v387) = W44 m ρ c (Proc.devRef .tc main_v387) :=
  (W48_of_ne m ρ c main_v387 (by decide)).trans (carry_main_v387_47 m ρ c)
theorem carry_main_v387_49 (c : Dev nD) : W49 m ρ c (Proc.devRef .tc main_v387) = W44 m ρ c (Proc.devRef .tc main_v387) :=
  (W49_keep m ρ c main_v387 (by decide)).trans (carry_main_v387_48 m ρ c)
theorem carry_main_v387_50 (c : Dev nD) : W50 m ρ c (Proc.devRef .tc main_v387) = W44 m ρ c (Proc.devRef .tc main_v387) :=
  (W50_in0 m ρ c).trans (carry_main_v387_49 m ρ c)
theorem carry_main_v387_51 (c : Dev nD) : W51 m ρ c (Proc.devRef .tc main_v387) = W44 m ρ c (Proc.devRef .tc main_v387) :=
  (W51_keep m ρ c main_v387 (by decide)).trans (carry_main_v387_50 m ρ c)
theorem carry_main_v387_52 (c : Dev nD) : W52 m ρ c (Proc.devRef .tc main_v387) = W44 m ρ c (Proc.devRef .tc main_v387) :=
  (W52_keep m ρ c main_v387 (by decide)).trans (carry_main_v387_51 m ρ c)
theorem carry_main_v387_53 (c : Dev nD) : W53 m ρ c (Proc.devRef .tc main_v387) = W44 m ρ c (Proc.devRef .tc main_v387) :=
  (W53_keep m ρ c main_v387 (by decide)).trans (carry_main_v387_52 m ρ c)
theorem carry_main_v387_54 (c : Dev nD) : W54 m ρ c (Proc.devRef .tc main_v387) = W44 m ρ c (Proc.devRef .tc main_v387) :=
  (W54_keep m ρ c main_v387 (by decide)).trans (carry_main_v387_53 m ρ c)
theorem carry_main_v387_55 (c : Dev nD) : W55 m ρ c (Proc.devRef .tc main_v387) = W44 m ρ c (Proc.devRef .tc main_v387) :=
  (W55_keep m ρ c main_v387 (by decide)).trans (carry_main_v387_54 m ρ c)
theorem carry_main_v404_50 (c : Dev nD) : W50 m ρ c (Proc.devRef .tc main_v404) = W49 m ρ c (Proc.devRef .tc main_v404) :=
  W50_of_ne m ρ c main_v404 (by decide)
theorem carry_main_v403_50 (c : Dev nD) : W50 m ρ c (Proc.devRef .tc main_v403) = W49 m ρ c (Proc.devRef .tc main_v403) :=
  W50_of_ne m ρ c main_v403 (by decide)
theorem carry_main_v403_51 (c : Dev nD) : W51 m ρ c (Proc.devRef .tc main_v403) = W49 m ρ c (Proc.devRef .tc main_v403) :=
  (W51_keep m ρ c main_v403 (by decide)).trans (carry_main_v403_50 m ρ c)
theorem carry_main_v403_52 (c : Dev nD) : W52 m ρ c (Proc.devRef .tc main_v403) = W49 m ρ c (Proc.devRef .tc main_v403) :=
  (W52_keep m ρ c main_v403 (by decide)).trans (carry_main_v403_51 m ρ c)
theorem carry_main_v403_53 (c : Dev nD) : W53 m ρ c (Proc.devRef .tc main_v403) = W49 m ρ c (Proc.devRef .tc main_v403) :=
  (W53_keep m ρ c main_v403 (by decide)).trans (carry_main_v403_52 m ρ c)
theorem carry_main_v403_54 (c : Dev nD) : W54 m ρ c (Proc.devRef .tc main_v403) = W49 m ρ c (Proc.devRef .tc main_v403) :=
  (W54_keep m ρ c main_v403 (by decide)).trans (carry_main_v403_53 m ρ c)
theorem carry_main_v403_55 (c : Dev nD) : W55 m ρ c (Proc.devRef .tc main_v403) = W49 m ρ c (Proc.devRef .tc main_v403) :=
  (W55_keep m ρ c main_v403 (by decide)).trans (carry_main_v403_54 m ρ c)
theorem carry_main_v403_56 (c : Dev nD) : W56 m ρ c (Proc.devRef .tc main_v403) = W49 m ρ c (Proc.devRef .tc main_v403) :=
  (W56_of_ne m ρ c main_v403 (by decide)).trans (carry_main_v403_55 m ρ c)
theorem carry_main_v394_47 (c : Dev nD) : W47 m ρ c (Proc.devRef .tc main_v394) = W46 m ρ c (Proc.devRef .tc main_v394) :=
  W47_keep m ρ c main_v394 (by decide)
theorem carry_main_v394_48 (c : Dev nD) : W48 m ρ c (Proc.devRef .tc main_v394) = W46 m ρ c (Proc.devRef .tc main_v394) :=
  (W48_of_ne m ρ c main_v394 (by decide)).trans (carry_main_v394_47 m ρ c)
theorem carry_main_v394_49 (c : Dev nD) : W49 m ρ c (Proc.devRef .tc main_v394) = W46 m ρ c (Proc.devRef .tc main_v394) :=
  (W49_keep m ρ c main_v394 (by decide)).trans (carry_main_v394_48 m ρ c)
theorem carry_main_v394_50 (c : Dev nD) : W50 m ρ c (Proc.devRef .tc main_v394) = W46 m ρ c (Proc.devRef .tc main_v394) :=
  (W50_of_ne m ρ c main_v394 (by decide)).trans (carry_main_v394_49 m ρ c)
theorem carry_main_v394_51 (c : Dev nD) : W51 m ρ c (Proc.devRef .tc main_v394) = W46 m ρ c (Proc.devRef .tc main_v394) :=
  (W51_keep m ρ c main_v394 (by decide)).trans (carry_main_v394_50 m ρ c)
theorem carry_main_v394_52 (c : Dev nD) : W52 m ρ c (Proc.devRef .tc main_v394) = W46 m ρ c (Proc.devRef .tc main_v394) :=
  (W52_keep m ρ c main_v394 (by decide)).trans (carry_main_v394_51 m ρ c)
theorem carry_main_v394_53 (c : Dev nD) : W53 m ρ c (Proc.devRef .tc main_v394) = W46 m ρ c (Proc.devRef .tc main_v394) :=
  (W53_keep m ρ c main_v394 (by decide)).trans (carry_main_v394_52 m ρ c)
theorem carry_main_v394_54 (c : Dev nD) : W54 m ρ c (Proc.devRef .tc main_v394) = W46 m ρ c (Proc.devRef .tc main_v394) :=
  (W54_keep m ρ c main_v394 (by decide)).trans (carry_main_v394_53 m ρ c)
theorem carry_main_v394_55 (c : Dev nD) : W55 m ρ c (Proc.devRef .tc main_v394) = W46 m ρ c (Proc.devRef .tc main_v394) :=
  (W55_keep m ρ c main_v394 (by decide)).trans (carry_main_v394_54 m ρ c)
theorem carry_main_v394_56 (c : Dev nD) : W56 m ρ c (Proc.devRef .tc main_v394) = W46 m ρ c (Proc.devRef .tc main_v394) :=
  (W56_of_ne m ρ c main_v394 (by decide)).trans (carry_main_v394_55 m ρ c)
theorem carry_main_v394_57 (c : Dev nD) : W57 m ρ c (Proc.devRef .tc main_v394) = W46 m ρ c (Proc.devRef .tc main_v394) :=
  (W57_keep m ρ c main_v394 (by decide)).trans (carry_main_v394_56 m ρ c)
theorem carry_main_v394_58 (c : Dev nD) : W58 m ρ c (Proc.devRef .tc main_v394) = W46 m ρ c (Proc.devRef .tc main_v394) :=
  (W58_keep m ρ c main_v394 (by decide)).trans (carry_main_v394_57 m ρ c)
theorem carry_main_v394_59 (c : Dev nD) : W59 m ρ c (Proc.devRef .tc main_v394) = W46 m ρ c (Proc.devRef .tc main_v394) :=
  (W59_keep m ρ c main_v394 (by decide)).trans (carry_main_v394_58 m ρ c)
theorem carry_main_v394_60 (c : Dev nD) : W60 m ρ c (Proc.devRef .tc main_v394) = W46 m ρ c (Proc.devRef .tc main_v394) :=
  (W60_keep m ρ c main_v394 (by decide)).trans (carry_main_v394_59 m ρ c)
theorem carry_main_v394_61 (c : Dev nD) : W61 m ρ c (Proc.devRef .tc main_v394) = W46 m ρ c (Proc.devRef .tc main_v394) :=
  (W61_keep m ρ c main_v394 (by decide)).trans (carry_main_v394_60 m ρ c)
theorem carry_main_v394_62 (c : Dev nD) : W62 m ρ c (Proc.devRef .tc main_v394) = W46 m ρ c (Proc.devRef .tc main_v394) :=
  (W62_in0 m ρ c).trans (carry_main_v394_61 m ρ c)
theorem carry_main_v394_63 (c : Dev nD) : W63 m ρ c (Proc.devRef .tc main_v394) = W46 m ρ c (Proc.devRef .tc main_v394) :=
  (W63_keep m ρ c main_v394 (by decide)).trans (carry_main_v394_62 m ρ c)
theorem carry_main_v394_64 (c : Dev nD) : W64 m ρ c (Proc.devRef .tc main_v394) = W46 m ρ c (Proc.devRef .tc main_v394) :=
  (W64_keep m ρ c main_v394 (by decide)).trans (carry_main_v394_63 m ρ c)
theorem carry_main_v394_65 (c : Dev nD) : W65 m ρ c (Proc.devRef .tc main_v394) = W46 m ρ c (Proc.devRef .tc main_v394) :=
  (W65_keep m ρ c main_v394 (by decide)).trans (carry_main_v394_64 m ρ c)
theorem carry_main_v394_66 (c : Dev nD) : W66 m ρ c (Proc.devRef .tc main_v394) = W46 m ρ c (Proc.devRef .tc main_v394) :=
  (W66_keep m ρ c main_v394 (by decide)).trans (carry_main_v394_65 m ρ c)
theorem carry_main_v394_67 (c : Dev nD) : W67 m ρ c (Proc.devRef .tc main_v394) = W46 m ρ c (Proc.devRef .tc main_v394) :=
  (W67_keep m ρ c main_v394 (by decide)).trans (carry_main_v394_66 m ρ c)
theorem carry_main_v394_68 (c : Dev nD) : W68 m ρ c (Proc.devRef .tc main_v394) = W46 m ρ c (Proc.devRef .tc main_v394) :=
  (W68_of_ne m ρ c main_v394 (by decide)).trans (carry_main_v394_67 m ρ c)
theorem carry_main_v394_69 (c : Dev nD) : W69 m ρ c (Proc.devRef .tc main_v394) = W46 m ρ c (Proc.devRef .tc main_v394) :=
  (W69_keep m ρ c main_v394 (by decide)).trans (carry_main_v394_68 m ρ c)
theorem carry_main_v394_70 (c : Dev nD) : W70 m ρ c (Proc.devRef .tc main_v394) = W46 m ρ c (Proc.devRef .tc main_v394) :=
  (W70_keep m ρ c main_v394 (by decide)).trans (carry_main_v394_69 m ρ c)
theorem carry_main_v394_71 (c : Dev nD) : W71 m ρ c (Proc.devRef .tc main_v394) = W46 m ρ c (Proc.devRef .tc main_v394) :=
  (W71_keep m ρ c main_v394 (by decide)).trans (carry_main_v394_70 m ρ c)
theorem carry_main_v394_72 (c : Dev nD) : W72 m ρ c (Proc.devRef .tc main_v394) = W46 m ρ c (Proc.devRef .tc main_v394) :=
  (W72_keep m ρ c main_v394 (by decide)).trans (carry_main_v394_71 m ρ c)
theorem carry_main_v394_73 (c : Dev nD) : W73 m ρ c (Proc.devRef .tc main_v394) = W46 m ρ c (Proc.devRef .tc main_v394) :=
  (W73_keep m ρ c main_v394 (by decide)).trans (carry_main_v394_72 m ρ c)
theorem carry_main_v466_56 (c : Dev nD) : W56 m ρ c (Proc.devRef .tc main_v466) = W55 m ρ c (Proc.devRef .tc main_v466) :=
  W56_of_ne m ρ c main_v466 (by decide)
theorem carry_main_v466_57 (c : Dev nD) : W57 m ρ c (Proc.devRef .tc main_v466) = W55 m ρ c (Proc.devRef .tc main_v466) :=
  (W57_keep m ρ c main_v466 (by decide)).trans (carry_main_v466_56 m ρ c)
theorem carry_main_v466_58 (c : Dev nD) : W58 m ρ c (Proc.devRef .tc main_v466) = W55 m ρ c (Proc.devRef .tc main_v466) :=
  (W58_keep m ρ c main_v466 (by decide)).trans (carry_main_v466_57 m ρ c)
theorem carry_main_v466_59 (c : Dev nD) : W59 m ρ c (Proc.devRef .tc main_v466) = W55 m ρ c (Proc.devRef .tc main_v466) :=
  (W59_keep m ρ c main_v466 (by decide)).trans (carry_main_v466_58 m ρ c)
theorem carry_main_v466_60 (c : Dev nD) : W60 m ρ c (Proc.devRef .tc main_v466) = W55 m ρ c (Proc.devRef .tc main_v466) :=
  (W60_keep m ρ c main_v466 (by decide)).trans (carry_main_v466_59 m ρ c)
theorem carry_main_v466_61 (c : Dev nD) : W61 m ρ c (Proc.devRef .tc main_v466) = W55 m ρ c (Proc.devRef .tc main_v466) :=
  (W61_keep m ρ c main_v466 (by decide)).trans (carry_main_v466_60 m ρ c)
theorem carry_main_v466_62 (c : Dev nD) : W62 m ρ c (Proc.devRef .tc main_v466) = W55 m ρ c (Proc.devRef .tc main_v466) :=
  (W62_of_ne m ρ c main_v466 (by decide)).trans (carry_main_v466_61 m ρ c)
theorem carry_main_v401_49 (c : Dev nD) : W49 m ρ c (Proc.devRef .tc main_v401) = W48 m ρ c (Proc.devRef .tc main_v401) :=
  W49_keep m ρ c main_v401 (by decide)
theorem carry_main_v401_50 (c : Dev nD) : W50 m ρ c (Proc.devRef .tc main_v401) = W48 m ρ c (Proc.devRef .tc main_v401) :=
  (W50_of_ne m ρ c main_v401 (by decide)).trans (carry_main_v401_49 m ρ c)
theorem carry_main_v401_51 (c : Dev nD) : W51 m ρ c (Proc.devRef .tc main_v401) = W48 m ρ c (Proc.devRef .tc main_v401) :=
  (W51_keep m ρ c main_v401 (by decide)).trans (carry_main_v401_50 m ρ c)
theorem carry_main_v401_52 (c : Dev nD) : W52 m ρ c (Proc.devRef .tc main_v401) = W48 m ρ c (Proc.devRef .tc main_v401) :=
  (W52_keep m ρ c main_v401 (by decide)).trans (carry_main_v401_51 m ρ c)
theorem carry_main_v401_53 (c : Dev nD) : W53 m ρ c (Proc.devRef .tc main_v401) = W48 m ρ c (Proc.devRef .tc main_v401) :=
  (W53_keep m ρ c main_v401 (by decide)).trans (carry_main_v401_52 m ρ c)
theorem carry_main_v401_54 (c : Dev nD) : W54 m ρ c (Proc.devRef .tc main_v401) = W48 m ρ c (Proc.devRef .tc main_v401) :=
  (W54_keep m ρ c main_v401 (by decide)).trans (carry_main_v401_53 m ρ c)
theorem carry_main_v401_55 (c : Dev nD) : W55 m ρ c (Proc.devRef .tc main_v401) = W48 m ρ c (Proc.devRef .tc main_v401) :=
  (W55_keep m ρ c main_v401 (by decide)).trans (carry_main_v401_54 m ρ c)
theorem carry_main_v401_56 (c : Dev nD) : W56 m ρ c (Proc.devRef .tc main_v401) = W48 m ρ c (Proc.devRef .tc main_v401) :=
  (W56_of_ne m ρ c main_v401 (by decide)).trans (carry_main_v401_55 m ρ c)
theorem carry_main_v401_57 (c : Dev nD) : W57 m ρ c (Proc.devRef .tc main_v401) = W48 m ρ c (Proc.devRef .tc main_v401) :=
  (W57_keep m ρ c main_v401 (by decide)).trans (carry_main_v401_56 m ρ c)
theorem carry_main_v401_58 (c : Dev nD) : W58 m ρ c (Proc.devRef .tc main_v401) = W48 m ρ c (Proc.devRef .tc main_v401) :=
  (W58_keep m ρ c main_v401 (by decide)).trans (carry_main_v401_57 m ρ c)
theorem carry_main_v401_59 (c : Dev nD) : W59 m ρ c (Proc.devRef .tc main_v401) = W48 m ρ c (Proc.devRef .tc main_v401) :=
  (W59_keep m ρ c main_v401 (by decide)).trans (carry_main_v401_58 m ρ c)
theorem carry_main_v401_60 (c : Dev nD) : W60 m ρ c (Proc.devRef .tc main_v401) = W48 m ρ c (Proc.devRef .tc main_v401) :=
  (W60_keep m ρ c main_v401 (by decide)).trans (carry_main_v401_59 m ρ c)
theorem carry_main_v401_61 (c : Dev nD) : W61 m ρ c (Proc.devRef .tc main_v401) = W48 m ρ c (Proc.devRef .tc main_v401) :=
  (W61_keep m ρ c main_v401 (by decide)).trans (carry_main_v401_60 m ρ c)
theorem carry_main_v401_62 (c : Dev nD) : W62 m ρ c (Proc.devRef .tc main_v401) = W48 m ρ c (Proc.devRef .tc main_v401) :=
  (W62_of_ne m ρ c main_v401 (by decide)).trans (carry_main_v401_61 m ρ c)
theorem carry_main_v401_63 (c : Dev nD) : W63 m ρ c (Proc.devRef .tc main_v401) = W48 m ρ c (Proc.devRef .tc main_v401) :=
  (W63_keep m ρ c main_v401 (by decide)).trans (carry_main_v401_62 m ρ c)
theorem carry_main_v401_64 (c : Dev nD) : W64 m ρ c (Proc.devRef .tc main_v401) = W48 m ρ c (Proc.devRef .tc main_v401) :=
  (W64_keep m ρ c main_v401 (by decide)).trans (carry_main_v401_63 m ρ c)
theorem carry_main_v401_65 (c : Dev nD) : W65 m ρ c (Proc.devRef .tc main_v401) = W48 m ρ c (Proc.devRef .tc main_v401) :=
  (W65_keep m ρ c main_v401 (by decide)).trans (carry_main_v401_64 m ρ c)
theorem carry_main_v401_66 (c : Dev nD) : W66 m ρ c (Proc.devRef .tc main_v401) = W48 m ρ c (Proc.devRef .tc main_v401) :=
  (W66_keep m ρ c main_v401 (by decide)).trans (carry_main_v401_65 m ρ c)
theorem carry_main_v401_67 (c : Dev nD) : W67 m ρ c (Proc.devRef .tc main_v401) = W48 m ρ c (Proc.devRef .tc main_v401) :=
  (W67_keep m ρ c main_v401 (by decide)).trans (carry_main_v401_66 m ρ c)
theorem carry_main_v401_68 (c : Dev nD) : W68 m ρ c (Proc.devRef .tc main_v401) = W48 m ρ c (Proc.devRef .tc main_v401) :=
  (W68_in0 m ρ c).trans (carry_main_v401_67 m ρ c)
theorem carry_main_v401_69 (c : Dev nD) : W69 m ρ c (Proc.devRef .tc main_v401) = W48 m ρ c (Proc.devRef .tc main_v401) :=
  (W69_keep m ρ c main_v401 (by decide)).trans (carry_main_v401_68 m ρ c)
theorem carry_main_v401_70 (c : Dev nD) : W70 m ρ c (Proc.devRef .tc main_v401) = W48 m ρ c (Proc.devRef .tc main_v401) :=
  (W70_keep m ρ c main_v401 (by decide)).trans (carry_main_v401_69 m ρ c)
theorem carry_main_v401_71 (c : Dev nD) : W71 m ρ c (Proc.devRef .tc main_v401) = W48 m ρ c (Proc.devRef .tc main_v401) :=
  (W71_keep m ρ c main_v401 (by decide)).trans (carry_main_v401_70 m ρ c)
theorem carry_main_v401_72 (c : Dev nD) : W72 m ρ c (Proc.devRef .tc main_v401) = W48 m ρ c (Proc.devRef .tc main_v401) :=
  (W72_keep m ρ c main_v401 (by decide)).trans (carry_main_v401_71 m ρ c)
theorem carry_main_v401_73 (c : Dev nD) : W73 m ρ c (Proc.devRef .tc main_v401) = W48 m ρ c (Proc.devRef .tc main_v401) :=
  (W73_keep m ρ c main_v401 (by decide)).trans (carry_main_v401_72 m ρ c)
theorem carry_main_v401_74 (c : Dev nD) : W74 m ρ c (Proc.devRef .tc main_v401) = W48 m ρ c (Proc.devRef .tc main_v401) :=
  (W74_of_ne m ρ c main_v401 (by decide)).trans (carry_main_v401_73 m ρ c)
theorem carry_main_v401_75 (c : Dev nD) : W75 m ρ c (Proc.devRef .tc main_v401) = W48 m ρ c (Proc.devRef .tc main_v401) :=
  (W75_keep m ρ c main_v401 (by decide)).trans (carry_main_v401_74 m ρ c)
theorem carry_main_v401_76 (c : Dev nD) : W76 m ρ c (Proc.devRef .tc main_v401) = W48 m ρ c (Proc.devRef .tc main_v401) :=
  (W76_keep m ρ c main_v401 (by decide)).trans (carry_main_v401_75 m ρ c)
theorem carry_main_v401_77 (c : Dev nD) : W77 m ρ c (Proc.devRef .tc main_v401) = W48 m ρ c (Proc.devRef .tc main_v401) :=
  (W77_keep m ρ c main_v401 (by decide)).trans (carry_main_v401_76 m ρ c)
theorem carry_main_v401_78 (c : Dev nD) : W78 m ρ c (Proc.devRef .tc main_v401) = W48 m ρ c (Proc.devRef .tc main_v401) :=
  (W78_keep m ρ c main_v401 (by decide)).trans (carry_main_v401_77 m ρ c)
theorem carry_main_v401_79 (c : Dev nD) : W79 m ρ c (Proc.devRef .tc main_v401) = W48 m ρ c (Proc.devRef .tc main_v401) :=
  (W79_keep m ρ c main_v401 (by decide)).trans (carry_main_v401_78 m ρ c)
theorem carry_main_v402_50 (c : Dev nD) : W50 m ρ c (Proc.devRef .tc main_v402) = W49 m ρ c (Proc.devRef .tc main_v402) :=
  W50_of_ne m ρ c main_v402 (by decide)
theorem carry_main_v402_51 (c : Dev nD) : W51 m ρ c (Proc.devRef .tc main_v402) = W49 m ρ c (Proc.devRef .tc main_v402) :=
  (W51_keep m ρ c main_v402 (by decide)).trans (carry_main_v402_50 m ρ c)
theorem carry_main_v402_52 (c : Dev nD) : W52 m ρ c (Proc.devRef .tc main_v402) = W49 m ρ c (Proc.devRef .tc main_v402) :=
  (W52_keep m ρ c main_v402 (by decide)).trans (carry_main_v402_51 m ρ c)
theorem carry_main_v402_53 (c : Dev nD) : W53 m ρ c (Proc.devRef .tc main_v402) = W49 m ρ c (Proc.devRef .tc main_v402) :=
  (W53_keep m ρ c main_v402 (by decide)).trans (carry_main_v402_52 m ρ c)
theorem carry_main_v402_54 (c : Dev nD) : W54 m ρ c (Proc.devRef .tc main_v402) = W49 m ρ c (Proc.devRef .tc main_v402) :=
  (W54_keep m ρ c main_v402 (by decide)).trans (carry_main_v402_53 m ρ c)
theorem carry_main_v402_55 (c : Dev nD) : W55 m ρ c (Proc.devRef .tc main_v402) = W49 m ρ c (Proc.devRef .tc main_v402) :=
  (W55_keep m ρ c main_v402 (by decide)).trans (carry_main_v402_54 m ρ c)
theorem carry_main_v402_56 (c : Dev nD) : W56 m ρ c (Proc.devRef .tc main_v402) = W49 m ρ c (Proc.devRef .tc main_v402) :=
  (W56_of_ne m ρ c main_v402 (by decide)).trans (carry_main_v402_55 m ρ c)
theorem carry_main_v402_57 (c : Dev nD) : W57 m ρ c (Proc.devRef .tc main_v402) = W49 m ρ c (Proc.devRef .tc main_v402) :=
  (W57_keep m ρ c main_v402 (by decide)).trans (carry_main_v402_56 m ρ c)
theorem carry_main_v402_58 (c : Dev nD) : W58 m ρ c (Proc.devRef .tc main_v402) = W49 m ρ c (Proc.devRef .tc main_v402) :=
  (W58_keep m ρ c main_v402 (by decide)).trans (carry_main_v402_57 m ρ c)
theorem carry_main_v402_59 (c : Dev nD) : W59 m ρ c (Proc.devRef .tc main_v402) = W49 m ρ c (Proc.devRef .tc main_v402) :=
  (W59_keep m ρ c main_v402 (by decide)).trans (carry_main_v402_58 m ρ c)
theorem carry_main_v402_60 (c : Dev nD) : W60 m ρ c (Proc.devRef .tc main_v402) = W49 m ρ c (Proc.devRef .tc main_v402) :=
  (W60_keep m ρ c main_v402 (by decide)).trans (carry_main_v402_59 m ρ c)
theorem carry_main_v402_61 (c : Dev nD) : W61 m ρ c (Proc.devRef .tc main_v402) = W49 m ρ c (Proc.devRef .tc main_v402) :=
  (W61_keep m ρ c main_v402 (by decide)).trans (carry_main_v402_60 m ρ c)
theorem carry_main_v402_62 (c : Dev nD) : W62 m ρ c (Proc.devRef .tc main_v402) = W49 m ρ c (Proc.devRef .tc main_v402) :=
  (W62_of_ne m ρ c main_v402 (by decide)).trans (carry_main_v402_61 m ρ c)
theorem carry_main_v402_63 (c : Dev nD) : W63 m ρ c (Proc.devRef .tc main_v402) = W49 m ρ c (Proc.devRef .tc main_v402) :=
  (W63_keep m ρ c main_v402 (by decide)).trans (carry_main_v402_62 m ρ c)
theorem carry_main_v402_64 (c : Dev nD) : W64 m ρ c (Proc.devRef .tc main_v402) = W49 m ρ c (Proc.devRef .tc main_v402) :=
  (W64_keep m ρ c main_v402 (by decide)).trans (carry_main_v402_63 m ρ c)
theorem carry_main_v402_65 (c : Dev nD) : W65 m ρ c (Proc.devRef .tc main_v402) = W49 m ρ c (Proc.devRef .tc main_v402) :=
  (W65_keep m ρ c main_v402 (by decide)).trans (carry_main_v402_64 m ρ c)
theorem carry_main_v402_66 (c : Dev nD) : W66 m ρ c (Proc.devRef .tc main_v402) = W49 m ρ c (Proc.devRef .tc main_v402) :=
  (W66_keep m ρ c main_v402 (by decide)).trans (carry_main_v402_65 m ρ c)
theorem carry_main_v402_67 (c : Dev nD) : W67 m ρ c (Proc.devRef .tc main_v402) = W49 m ρ c (Proc.devRef .tc main_v402) :=
  (W67_keep m ρ c main_v402 (by decide)).trans (carry_main_v402_66 m ρ c)
theorem carry_main_v402_68 (c : Dev nD) : W68 m ρ c (Proc.devRef .tc main_v402) = W49 m ρ c (Proc.devRef .tc main_v402) :=
  (W68_of_ne m ρ c main_v402 (by decide)).trans (carry_main_v402_67 m ρ c)
theorem carry_main_v652_74 (c : Dev nD) : W74 m ρ c (Proc.devRef .tc main_v652) = W73 m ρ c (Proc.devRef .tc main_v652) :=
  W74_of_ne m ρ c main_v652 (by decide)
theorem carry_main_v528_62 (c : Dev nD) : W62 m ρ c (Proc.devRef .tc main_v528) = W61 m ρ c (Proc.devRef .tc main_v528) :=
  W62_of_ne m ρ c main_v528 (by decide)
theorem carry_main_v528_63 (c : Dev nD) : W63 m ρ c (Proc.devRef .tc main_v528) = W61 m ρ c (Proc.devRef .tc main_v528) :=
  (W63_keep m ρ c main_v528 (by decide)).trans (carry_main_v528_62 m ρ c)
theorem carry_main_v528_64 (c : Dev nD) : W64 m ρ c (Proc.devRef .tc main_v528) = W61 m ρ c (Proc.devRef .tc main_v528) :=
  (W64_keep m ρ c main_v528 (by decide)).trans (carry_main_v528_63 m ρ c)
theorem carry_main_v528_65 (c : Dev nD) : W65 m ρ c (Proc.devRef .tc main_v528) = W61 m ρ c (Proc.devRef .tc main_v528) :=
  (W65_keep m ρ c main_v528 (by decide)).trans (carry_main_v528_64 m ρ c)
theorem carry_main_v528_66 (c : Dev nD) : W66 m ρ c (Proc.devRef .tc main_v528) = W61 m ρ c (Proc.devRef .tc main_v528) :=
  (W66_keep m ρ c main_v528 (by decide)).trans (carry_main_v528_65 m ρ c)
theorem carry_main_v528_67 (c : Dev nD) : W67 m ρ c (Proc.devRef .tc main_v528) = W61 m ρ c (Proc.devRef .tc main_v528) :=
  (W67_keep m ρ c main_v528 (by decide)).trans (carry_main_v528_66 m ρ c)
theorem carry_main_v528_68 (c : Dev nD) : W68 m ρ c (Proc.devRef .tc main_v528) = W61 m ρ c (Proc.devRef .tc main_v528) :=
  (W68_of_ne m ρ c main_v528 (by decide)).trans (carry_main_v528_67 m ρ c)
theorem carry_main_v528_69 (c : Dev nD) : W69 m ρ c (Proc.devRef .tc main_v528) = W61 m ρ c (Proc.devRef .tc main_v528) :=
  (W69_keep m ρ c main_v528 (by decide)).trans (carry_main_v528_68 m ρ c)
theorem carry_main_v528_70 (c : Dev nD) : W70 m ρ c (Proc.devRef .tc main_v528) = W61 m ρ c (Proc.devRef .tc main_v528) :=
  (W70_keep m ρ c main_v528 (by decide)).trans (carry_main_v528_69 m ρ c)
theorem carry_main_v528_71 (c : Dev nD) : W71 m ρ c (Proc.devRef .tc main_v528) = W61 m ρ c (Proc.devRef .tc main_v528) :=
  (W71_keep m ρ c main_v528 (by decide)).trans (carry_main_v528_70 m ρ c)
theorem carry_main_v528_72 (c : Dev nD) : W72 m ρ c (Proc.devRef .tc main_v528) = W61 m ρ c (Proc.devRef .tc main_v528) :=
  (W72_keep m ρ c main_v528 (by decide)).trans (carry_main_v528_71 m ρ c)
theorem carry_main_v528_73 (c : Dev nD) : W73 m ρ c (Proc.devRef .tc main_v528) = W61 m ρ c (Proc.devRef .tc main_v528) :=
  (W73_keep m ρ c main_v528 (by decide)).trans (carry_main_v528_72 m ρ c)
theorem carry_main_v528_74 (c : Dev nD) : W74 m ρ c (Proc.devRef .tc main_v528) = W61 m ρ c (Proc.devRef .tc main_v528) :=
  (W74_of_ne m ρ c main_v528 (by decide)).trans (carry_main_v528_73 m ρ c)
theorem carry_main_v528_75 (c : Dev nD) : W75 m ρ c (Proc.devRef .tc main_v528) = W61 m ρ c (Proc.devRef .tc main_v528) :=
  (W75_keep m ρ c main_v528 (by decide)).trans (carry_main_v528_74 m ρ c)
theorem carry_main_v528_76 (c : Dev nD) : W76 m ρ c (Proc.devRef .tc main_v528) = W61 m ρ c (Proc.devRef .tc main_v528) :=
  (W76_keep m ρ c main_v528 (by decide)).trans (carry_main_v528_75 m ρ c)
theorem carry_main_v528_77 (c : Dev nD) : W77 m ρ c (Proc.devRef .tc main_v528) = W61 m ρ c (Proc.devRef .tc main_v528) :=
  (W77_keep m ρ c main_v528 (by decide)).trans (carry_main_v528_76 m ρ c)
theorem carry_main_v528_78 (c : Dev nD) : W78 m ρ c (Proc.devRef .tc main_v528) = W61 m ρ c (Proc.devRef .tc main_v528) :=
  (W78_keep m ρ c main_v528 (by decide)).trans (carry_main_v528_77 m ρ c)
theorem carry_main_v528_79 (c : Dev nD) : W79 m ρ c (Proc.devRef .tc main_v528) = W61 m ρ c (Proc.devRef .tc main_v528) :=
  (W79_keep m ρ c main_v528 (by decide)).trans (carry_main_v528_78 m ρ c)
theorem carry_main_v528_80 (c : Dev nD) : W80 m ρ c (Proc.devRef .tc main_v528) = W61 m ρ c (Proc.devRef .tc main_v528) :=
  (W80_of_ne m ρ c main_v528 (by decide)).trans (carry_main_v528_79 m ρ c)
theorem carry_main_v714_80 (c : Dev nD) : W80 m ρ c (Proc.devRef .tc main_v714) = W79 m ρ c (Proc.devRef .tc main_v714) :=
  W80_of_ne m ρ c main_v714 (by decide)
theorem carry_main_v714_81 (c : Dev nD) : W81 m ρ c (Proc.devRef .tc main_v714) = W79 m ρ c (Proc.devRef .tc main_v714) :=
  (W81_keep m ρ c main_v714 (by decide)).trans (carry_main_v714_80 m ρ c)
theorem carry_main_v714_82 (c : Dev nD) : W82 m ρ c (Proc.devRef .tc main_v714) = W79 m ρ c (Proc.devRef .tc main_v714) :=
  (W82_keep m ρ c main_v714 (by decide)).trans (carry_main_v714_81 m ρ c)
theorem carry_main_v714_83 (c : Dev nD) : W83 m ρ c (Proc.devRef .tc main_v714) = W79 m ρ c (Proc.devRef .tc main_v714) :=
  (W83_keep m ρ c main_v714 (by decide)).trans (carry_main_v714_82 m ρ c)
theorem carry_main_v714_84 (c : Dev nD) : W84 m ρ c (Proc.devRef .tc main_v714) = W79 m ρ c (Proc.devRef .tc main_v714) :=
  (W84_keep m ρ c main_v714 (by decide)).trans (carry_main_v714_83 m ρ c)
theorem carry_main_v714_85 (c : Dev nD) : W85 m ρ c (Proc.devRef .tc main_v714) = W79 m ρ c (Proc.devRef .tc main_v714) :=
  (W85_keep m ρ c main_v714 (by decide)).trans (carry_main_v714_84 m ρ c)
theorem carry_main_v776_86 (c : Dev nD) : W86 m ρ c (Proc.devRef .tc main_v776) = W85 m ρ c (Proc.devRef .tc main_v776) :=
  W86_of_ne m ρ c main_v776 (by decide)
theorem carry_main_v776_87 (c : Dev nD) : W87 m ρ c (Proc.devRef .tc main_v776) = W85 m ρ c (Proc.devRef .tc main_v776) :=
  (W87_keep m ρ c main_v776 (by decide)).trans (carry_main_v776_86 m ρ c)
theorem carry_main_v590_68 (c : Dev nD) : W68 m ρ c (Proc.devRef .tc main_v590) = W67 m ρ c (Proc.devRef .tc main_v590) :=
  W68_of_ne m ρ c main_v590 (by decide)
theorem carry_main_v590_69 (c : Dev nD) : W69 m ρ c (Proc.devRef .tc main_v590) = W67 m ρ c (Proc.devRef .tc main_v590) :=
  (W69_keep m ρ c main_v590 (by decide)).trans (carry_main_v590_68 m ρ c)
theorem carry_main_v590_70 (c : Dev nD) : W70 m ρ c (Proc.devRef .tc main_v590) = W67 m ρ c (Proc.devRef .tc main_v590) :=
  (W70_keep m ρ c main_v590 (by decide)).trans (carry_main_v590_69 m ρ c)
theorem carry_main_v590_71 (c : Dev nD) : W71 m ρ c (Proc.devRef .tc main_v590) = W67 m ρ c (Proc.devRef .tc main_v590) :=
  (W71_keep m ρ c main_v590 (by decide)).trans (carry_main_v590_70 m ρ c)
theorem carry_main_v590_72 (c : Dev nD) : W72 m ρ c (Proc.devRef .tc main_v590) = W67 m ρ c (Proc.devRef .tc main_v590) :=
  (W72_keep m ρ c main_v590 (by decide)).trans (carry_main_v590_71 m ρ c)
theorem carry_main_v590_73 (c : Dev nD) : W73 m ρ c (Proc.devRef .tc main_v590) = W67 m ρ c (Proc.devRef .tc main_v590) :=
  (W73_keep m ρ c main_v590 (by decide)).trans (carry_main_v590_72 m ρ c)
theorem carry_main_v590_74 (c : Dev nD) : W74 m ρ c (Proc.devRef .tc main_v590) = W67 m ρ c (Proc.devRef .tc main_v590) :=
  (W74_of_ne m ρ c main_v590 (by decide)).trans (carry_main_v590_73 m ρ c)
theorem carry_main_v590_75 (c : Dev nD) : W75 m ρ c (Proc.devRef .tc main_v590) = W67 m ρ c (Proc.devRef .tc main_v590) :=
  (W75_keep m ρ c main_v590 (by decide)).trans (carry_main_v590_74 m ρ c)
theorem carry_main_v590_76 (c : Dev nD) : W76 m ρ c (Proc.devRef .tc main_v590) = W67 m ρ c (Proc.devRef .tc main_v590) :=
  (W76_keep m ρ c main_v590 (by decide)).trans (carry_main_v590_75 m ρ c)
theorem carry_main_v590_77 (c : Dev nD) : W77 m ρ c (Proc.devRef .tc main_v590) = W67 m ρ c (Proc.devRef .tc main_v590) :=
  (W77_keep m ρ c main_v590 (by decide)).trans (carry_main_v590_76 m ρ c)
theorem carry_main_v590_78 (c : Dev nD) : W78 m ρ c (Proc.devRef .tc main_v590) = W67 m ρ c (Proc.devRef .tc main_v590) :=
  (W78_keep m ρ c main_v590 (by decide)).trans (carry_main_v590_77 m ρ c)
theorem carry_main_v590_79 (c : Dev nD) : W79 m ρ c (Proc.devRef .tc main_v590) = W67 m ρ c (Proc.devRef .tc main_v590) :=
  (W79_keep m ρ c main_v590 (by decide)).trans (carry_main_v590_78 m ρ c)
theorem carry_main_v590_80 (c : Dev nD) : W80 m ρ c (Proc.devRef .tc main_v590) = W67 m ρ c (Proc.devRef .tc main_v590) :=
  (W80_of_ne m ρ c main_v590 (by decide)).trans (carry_main_v590_79 m ρ c)
theorem carry_main_v590_81 (c : Dev nD) : W81 m ρ c (Proc.devRef .tc main_v590) = W67 m ρ c (Proc.devRef .tc main_v590) :=
  (W81_keep m ρ c main_v590 (by decide)).trans (carry_main_v590_80 m ρ c)
theorem carry_main_v590_82 (c : Dev nD) : W82 m ρ c (Proc.devRef .tc main_v590) = W67 m ρ c (Proc.devRef .tc main_v590) :=
  (W82_keep m ρ c main_v590 (by decide)).trans (carry_main_v590_81 m ρ c)
theorem carry_main_v590_83 (c : Dev nD) : W83 m ρ c (Proc.devRef .tc main_v590) = W67 m ρ c (Proc.devRef .tc main_v590) :=
  (W83_keep m ρ c main_v590 (by decide)).trans (carry_main_v590_82 m ρ c)
theorem carry_main_v590_84 (c : Dev nD) : W84 m ρ c (Proc.devRef .tc main_v590) = W67 m ρ c (Proc.devRef .tc main_v590) :=
  (W84_keep m ρ c main_v590 (by decide)).trans (carry_main_v590_83 m ρ c)
theorem carry_main_v590_85 (c : Dev nD) : W85 m ρ c (Proc.devRef .tc main_v590) = W67 m ρ c (Proc.devRef .tc main_v590) :=
  (W85_keep m ρ c main_v590 (by decide)).trans (carry_main_v590_84 m ρ c)
theorem carry_main_v590_86 (c : Dev nD) : W86 m ρ c (Proc.devRef .tc main_v590) = W67 m ρ c (Proc.devRef .tc main_v590) :=
  (W86_of_ne m ρ c main_v590 (by decide)).trans (carry_main_v590_85 m ρ c)
theorem carry_main_v590_87 (c : Dev nD) : W87 m ρ c (Proc.devRef .tc main_v590) = W67 m ρ c (Proc.devRef .tc main_v590) :=
  (W87_keep m ρ c main_v590 (by decide)).trans (carry_main_v590_86 m ρ c)
theorem carry_main_v590_88 (c : Dev nD) : W88 m ρ c (Proc.devRef .tc main_v590) = W67 m ρ c (Proc.devRef .tc main_v590) :=
  (W88_of_ne m ρ c main_v590 (by decide)).trans (carry_main_v590_87 m ρ c)
theorem carry_main_v590_89 (c : Dev nD) : W89 m ρ c (Proc.devRef .tc main_v590) = W67 m ρ c (Proc.devRef .tc main_v590) :=
  (W89_keep m ρ c main_v590 (by decide)).trans (carry_main_v590_88 m ρ c)
theorem carry_main_v783_87 (c : Dev nD) : W87 m ρ c (Proc.devRef .tc main_v783) = W86 m ρ c (Proc.devRef .tc main_v783) :=
  W87_keep m ρ c main_v783 (by decide)
theorem carry_main_v783_88 (c : Dev nD) : W88 m ρ c (Proc.devRef .tc main_v783) = W86 m ρ c (Proc.devRef .tc main_v783) :=
  (W88_of_ne m ρ c main_v783 (by decide)).trans (carry_main_v783_87 m ρ c)
theorem carry_main_v783_89 (c : Dev nD) : W89 m ρ c (Proc.devRef .tc main_v783) = W86 m ρ c (Proc.devRef .tc main_v783) :=
  (W89_keep m ρ c main_v783 (by decide)).trans (carry_main_v783_88 m ρ c)
theorem carry_main_v783_90 (c : Dev nD) : W90 m ρ c (Proc.devRef .tc main_v783) = W86 m ρ c (Proc.devRef .tc main_v783) :=
  (W90_of_ne m ρ c main_v783 (by decide)).trans (carry_main_v783_89 m ρ c)
theorem carry_main_v790_89 (c : Dev nD) : W89 m ρ c (Proc.devRef .tc main_v790) = W88 m ρ c (Proc.devRef .tc main_v790) :=
  W89_keep m ρ c main_v790 (by decide)
theorem carry_main_v790_90 (c : Dev nD) : W90 m ρ c (Proc.devRef .tc main_v790) = W88 m ρ c (Proc.devRef .tc main_v790) :=
  (W90_of_ne m ρ c main_v790 (by decide)).trans (carry_main_v790_89 m ρ c)

end Cert.KernelIdeal.Hand

end
-- ==== Proof.KFold.Out.lean ====
/- At a region's exit its output array holds what the pipeline's write-backs leave: the fold of the output window's
   blocks over all the grid's points. -/
import proofs.«147021_j7619271983570_1_alg».proof.Proof.FrameKI_A

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- Region 0's output `main_v1` at the region's exit. -/
theorem W2_out (c : Dev nD) : W2 m ρ c (Proc.devRef .tc main_v1) = (dat0 (V1 m ρ) c).arrAt 3 cfg0.N :=
  W2_arr m ρ c 3
/-- Region 1's output `main_v3` at the region's exit. -/
theorem W4_out (c : Dev nD) : W4 m ρ c (Proc.devRef .tc main_v3) = (dat1 (V3 m ρ) c).arrAt 3 cfg1.N :=
  W4_arr m ρ c 3
/-- Region 2's output `main_v5` at the region's exit. -/
theorem W6_out (c : Dev nD) : W6 m ρ c (Proc.devRef .tc main_v5) = (dat2 (V5 m ρ) c).arrAt 3 cfg2.N :=
  W6_arr m ρ c 3
/-- Region 3's output `main_v13` at the region's exit. -/
theorem W8_out (c : Dev nD) : W8 m ρ c (Proc.devRef .tc main_v13) = (dat3 (V7 m ρ) c).arrAt 3 cfg3.N :=
  W8_arr m ρ c 3
/-- Region 4's output `main_v75` at the region's exit. -/
theorem W14_out (c : Dev nD) : W14 m ρ c (Proc.devRef .tc main_v75) = (dat4 (V13 m ρ) c).arrAt 3 cfg4.N :=
  W14_arr m ρ c 3
/-- Region 5's output `main_v137` at the region's exit. -/
theorem W20_out (c : Dev nD) : W20 m ρ c (Proc.devRef .tc main_v137) = (dat5 (V19 m ρ) c).arrAt 3 cfg5.N :=
  W20_arr m ρ c 3
/-- Region 6's output `main_v199` at the region's exit. -/
theorem W26_out (c : Dev nD) : W26 m ρ c (Proc.devRef .tc main_v199) = (dat6 (V25 m ρ) c).arrAt 3 cfg6.N :=
  W26_arr m ρ c 3
/-- Region 7's output `main_v261` at the region's exit. -/
theorem W32_out (c : Dev nD) : W32 m ρ c (Proc.devRef .tc main_v261) = (dat7 (V31 m ρ) c).arrAt 3 cfg7.N :=
  W32_arr m ρ c 3
/-- Region 8's output `main_v323` at the region's exit. -/
theorem W38_out (c : Dev nD) : W38 m ρ c (Proc.devRef .tc main_v323) = (dat8 (V37 m ρ) c).arrAt 3 cfg8.N :=
  W38_arr m ρ c 3
/-- Region 9's output `main_v387` at the region's exit. -/
theorem W44_out (c : Dev nD) : W44 m ρ c (Proc.devRef .tc main_v387) = (dat9 (V43 m ρ) c).arrAt 3 cfg9.N :=
  W44_arr m ρ c 3
/-- Region 10's output `main_v394` at the region's exit. -/
theorem W46_out (c : Dev nD) : W46 m ρ c (Proc.devRef .tc main_v394) = (dat10 (V45 m ρ) c).arrAt 3 cfg10.N :=
  W46_arr m ρ c 3
/-- Region 11's output `main_v401` at the region's exit. -/
theorem W48_out (c : Dev nD) : W48 m ρ c (Proc.devRef .tc main_v401) = (dat11 (V47 m ρ) c).arrAt 3 cfg11.N :=
  W48_arr m ρ c 3
/-- Region 12's output `main_v409` at the region's exit. -/
theorem W50_out (c : Dev nD) : W50 m ρ c (Proc.devRef .tc main_v409) = (dat12 (V49 m ρ) c).arrAt 3 cfg12.N :=
  W50_arr m ρ c 3
/-- Region 13's output `main_v471` at the region's exit. -/
theorem W56_out (c : Dev nD) : W56 m ρ c (Proc.devRef .tc main_v471) = (dat13 (V55 m ρ) c).arrAt 3 cfg13.N :=
  W56_arr m ρ c 3
/-- Region 14's output `main_v533` at the region's exit. -/
theorem W62_out (c : Dev nD) : W62 m ρ c (Proc.devRef .tc main_v533) = (dat14 (V61 m ρ) c).arrAt 3 cfg14.N :=
  W62_arr m ρ c 3
/-- Region 15's output `main_v595` at the region's exit. -/
theorem W68_out (c : Dev nD) : W68 m ρ c (Proc.devRef .tc main_v595) = (dat15 (V67 m ρ) c).arrAt 3 cfg15.N :=
  W68_arr m ρ c 3
/-- Region 16's output `main_v657` at the region's exit. -/
theorem W74_out (c : Dev nD) : W74 m ρ c (Proc.devRef .tc main_v657) = (dat16 (V73 m ρ) c).arrAt 3 cfg16.N :=
  W74_arr m ρ c 3
/-- Region 17's output `main_v719` at the region's exit. -/
theorem W80_out (c : Dev nD) : W80 m ρ c (Proc.devRef .tc main_v719) = (dat17 (V79 m ρ) c).arrAt 3 cfg17.N :=
  W80_arr m ρ c 3
/-- Region 18's output `main_v783` at the region's exit. -/
theorem W86_out (c : Dev nD) : W86 m ρ c (Proc.devRef .tc main_v783) = (dat18 (V85 m ρ) c).arrAt 3 cfg18.N :=
  W86_arr m ρ c 3
/-- Region 19's output `main_v790` at the region's exit. -/
theorem W88_out (c : Dev nD) : W88 m ρ c (Proc.devRef .tc main_v790) = (dat19 (V87 m ρ) c).arrAt 3 cfg19.N :=
  W88_arr m ρ c 3
/-- Region 20's output `main_v797` at the region's exit. -/
theorem W90_out (c : Dev nD) : W90 m ρ c (Proc.devRef .tc main_v797) = (dat20 (V89 m ρ) c).arrAt 3 cfg20.N :=
  W90_arr m ρ c 3

end Cert.KernelIdeal.Hand

end
-- ==== Proof.Lin.Pay.lean ====
/- The payload of a linear region read at ONE element of its block.
   The three spellings of the body (input projections; relation products into 128 columns; relation
   products into 64 columns) compute, at row p and column q of a 4000-row block,
       (sum over k < 128 of x[p,k] * w[k,q]) + b[0,q]
   at the ideal values: the casts to the narrow format are the identity there, the matrix product into
   the zero accumulator is the plain sum over the contraction index, the casts of a shape to itself are
   the identity and the broadcast of the one bias row reads that row at column q. -/
import proofs.«147021_j7619271983570_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Hand

open Cert.KernelIdeal Cert.KernelIdeal.Gen

/-! ## The block product into 128 columns: operand indices axis by axis -/

theorem lhs_blk128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_blk128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_blk128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_blk128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into the zero accumulator, at row `p` and column `q`: the sum over the 128
    contraction positions of row `p` of the left operand against column `q` of the right one. -/
theorem matmul_blk128_apply (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_blk128_0 _ _
    | ⟨1, _⟩ => exact (lhs_blk128_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_blk128_0 _ _).trans hk
    | ⟨1, _⟩ => exact rhs_blk128_1 _ _)
  rw [el, er]

/-! ## The block product into 64 columns -/

theorem lhs_blk64_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_blk64_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_blk64_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_blk64_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The same product into 64 columns. -/
theorem matmul_blk64_apply (x : FVec Ideal S4000x128 .bf16) (w : FVec Ideal S128x64 .bf16) (p : Fin 4000) (q : Fin 64) :
    matmul dot_S4000x128_S128x64_S4000x64_1_0_0_1_n_n none x w (constant (F := Ideal) S4000x64 .f32 0x00000000#32) (ix2 p q)
      = ∑ k : Fin 128, x (ix2 p k) * w (ix2 k q) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs_blk64_0 _ _
    | ⟨1, _⟩ => exact (lhs_blk64_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhs_blk64_0 _ _).trans hk
    | ⟨1, _⟩ => exact rhs_blk64_1 _ _)
  rw [el, er]

/-! ## The bias row broadcast over the block's rows -/

/-- The one bias row broadcast to 4000 rows of 128 columns reads that row at the column. -/
theorem bias_blk128_apply (b : FVec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The same for 64 columns. -/
theorem bias_blk64_apply (b : FVec Ideal S1x64 .f32) (p : Fin 4000) (q : Fin 64) :
    broadcastTo S4000x64 b broadcasts_S1x64_S4000x64 (ix2 p q) = b (ix2 (0 : Fin 1) q) :=
  broadcastTo_apply b broadcasts_S1x64_S4000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])

/-! ## The three spellings of the payload at an element -/

/-- An input projection's payload (no cast of a shape to itself on the operands). -/
theorem k0_pay1_apply (x : Vec Ideal S4000x128 .f32) (w : Vec Ideal S128x128 .f32) (b : Vec Ideal S1x128 .f32) (p : Fin 4000) (q : Fin 128) :
    k0_pay1 (F := Ideal) x w b (ix2 p q) = (∑ k : Fin 128, x (ix2 p k) * w (ix2 k q)) + b (ix2 (0 : Fin 1) q) := by
  unfold k0_pay1
  rw [addf_apply, matmul_blk128_apply, shapeCast_self, bias_blk128_apply]
  rfl

/-- A relation product's payload into 128 columns (each operand first cast to its own shape). -/
theorem k3_pay1_apply (x : Vec Ideal S4000x128 .f32) (w : Vec Ideal S128x128 .f32) (b : Vec Ideal S1x128 .f32) (p : Fin 4000) (q : Fin 128) :
    k3_pay1 (F := Ideal) x w b (ix2 p q) = (∑ k : Fin 128, x (ix2 p k) * w (ix2 k q)) + b (ix2 (0 : Fin 1) q) := by
  unfold k3_pay1
  rw [addf_apply, matmul_blk128_apply, shapeCast_self, shapeCast_self, shapeCast_self, bias_blk128_apply]
  rfl

/-- A relation product's payload into 64 columns. -/
theorem k12_pay1_apply (x : Vec Ideal S4000x128 .f32) (w : Vec Ideal S128x64 .f32) (b : Vec Ideal S1x64 .f32) (p : Fin 4000) (q : Fin 64) :
    k12_pay1 (F := Ideal) x w b (ix2 p q) = (∑ k : Fin 128, x (ix2 p k) * w (ix2 k q)) + b (ix2 (0 : Fin 1) q) := by
  unfold k12_pay1
  rw [addf_apply, matmul_blk64_apply, shapeCast_self, shapeCast_self, shapeCast_self, bias_blk64_apply]
  rfl

/-! ## The zero bias of a relation product, and the zero offsets of a whole-buffer access -/

/-- The offsets of an access to a whole rank-2 buffer are zero on both axes. -/
theorem zeros2 : (![0, 0] : Fin 2 → Nat) = fun _ => 0 := funext fun a => by fin_cases a <;> rfl

/-- The bias a relation product is given — the zero scalar broadcast to 128 entries and read as one row —
    is zero at every entry. -/
theorem zero_bias128_apply (j : S1x128.Idx) :
    shapeCast S1x128 (broadcastInDim S128 ![] bcast_S_S128 (constant (F := Ideal) S_ .f32 0x00000000#32)) shapeCasts_S128_S1x128 j = (0 : EReal) :=
  Ideal.ofBits_zero_f32

/-- The same with 64 entries. -/
theorem zero_bias64_apply (j : S1x64.Idx) :
    shapeCast S1x64 (broadcastInDim S64 ![] bcast_S_S64 (constant (F := Ideal) S_ .f32 0x00000000#32)) shapeCasts_S64_S1x64 j = (0 : EReal) :=
  Ideal.ofBits_zero_f32

/-! ## A bias vector read as one row -/

/-- A vector of 128 entries read as a one-row array: entry (0, q) of the row is entry q of the vector. -/
theorem row128_apply {α : Type} (Bs : S128.Idx → α) (z : Fin 1) (q : Fin 128) :
    shapeCast S1x128 Bs shapeCasts_S128_S1x128 (ix2 z q) = Bs (ix1 q) :=
  shapeCast_apply Bs shapeCasts_S128_S1x128 (ix2 z q) (ix1 q) (by
    rw [Shape.rowMajor_val_one, Shape.rowMajor_val_two]
    show q.val = z.val * 128 + q.val
    have := z.isLt; omega)

end Cert.KernelIdeal.Hand

end
-- ==== Proof.Lin.Host.lean ====
/- The reference's operations that play a linear region's role, read at ONE element of the array:
   the host product of N rows of 128 against 128 × D weights at row i and column j is the sum over
   k < 128 of X[i,k] * W[k,j] (four sizes: N = 20000 or 60000, D = 128 or 64), and the bias vector
   broadcast first to one row and then to N rows reads the vector at column j. -/
import proofs.«147021_j7619271983570_1_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Hand

open Cert.ReferenceIdeal

/-! ## The product of 20000 rows of 128 against 128 × 128 weights -/

theorem lhs_h20000x128_0 (i : S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 0).val = (i 0).val := by
  unfold DotDims.lhsIdx
  rw [dif_neg (show ¬(0 : Fin S20000x128.rank) ∈ Cert.ReferenceIdeal.dot_S20000x128_S128x128_S20000x128_1_0_0_1_n_n.lhsBatch by decide), dif_pos (show (0 : Fin S20000x128.rank) ∈ Cert.ReferenceIdeal.dot_S20000x128_S128x128_S20000x128_1_0_0_1_n_n.lhsNonContracting by decide)]
  rfl
theorem lhs_h20000x128_1 (i : S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 1).val = (q ⟨0, by decide⟩).val :=
  Cert.ReferenceIdeal.dot_S20000x128_S128x128_S20000x128_1_0_0_1_n_n.lhsIdx_val_of_single rfl i q
theorem rhs_h20000x128_0 (i : S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 0).val = (q ⟨0, by decide⟩).val :=
  Cert.ReferenceIdeal.dot_S20000x128_S128x128_S20000x128_1_0_0_1_n_n.rhsIdx_val_of_single rfl i q
theorem rhs_h20000x128_1 (i : S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 1).val = (i 1).val := by
  unfold DotDims.rhsIdx
  rw [dif_neg (show ¬(1 : Fin S128x128.rank) ∈ Cert.ReferenceIdeal.dot_S20000x128_S128x128_S20000x128_1_0_0_1_n_n.rhsBatch by decide), dif_pos (show (1 : Fin S128x128.rank) ∈ Cert.ReferenceIdeal.dot_S20000x128_S128x128_S20000x128_1_0_0_1_n_n.rhsNonContracting by decide)]
  rfl

/-- The host product at row `i` and column `j`: the sum over the 128 contraction positions. -/
theorem dot_h20000x128_apply (X : FVec Ideal S20000x128 .f32) (W : FVec Ideal S128x128 .f32) (i : Fin 20000) (j : Fin 128) :
    Host.dotGeneral (F := Ideal) Cert.ReferenceIdeal.dot_S20000x128_S128x128_S20000x128_1_0_0_1_n_n none X W (ix2 i j)
      = ∑ k : Fin 128, X (ix2 i k) * W (ix2 k j) := by
  simp only [Host.dotGeneral]
  rw [Ideal.dotGeneral_apply, ← Equiv.sum_comp (contrEquiv1 Cert.ReferenceIdeal.dot_S20000x128_S128x128_S20000x128_1_0_0_1_n_n 128 rfl rfl).symm]
  refine Finset.sum_congr rfl fun k _ => ?_
  have hk := contrEquiv1_symm_val Cert.ReferenceIdeal.dot_S20000x128_S128x128_S20000x128_1_0_0_1_n_n 128 rfl rfl k
  have el : Cert.ReferenceIdeal.dot_S20000x128_S128x128_S20000x128_1_0_0_1_n_n.lhsIdx (ix2 i j) ((contrEquiv1 Cert.ReferenceIdeal.dot_S20000x128_S128x128_S20000x128_1_0_0_1_n_n 128 rfl rfl).symm k) = ix2 i k := funext fun a => Fin.ext (by
    match a with
    | ⟨0, _⟩ => exact lhs_h20000x128_0 _ _
    | ⟨1, _⟩ => exact (lhs_h20000x128_1 _ _).trans hk)
  have er : Cert.ReferenceIdeal.dot_S20000x128_S128x128_S20000x128_1_0_0_1_n_n.rhsIdx (ix2 i j) ((contrEquiv1 Cert.ReferenceIdeal.dot_S20000x128_S128x128_S20000x128_1_0_0_1_n_n 128 rfl rfl).symm k) = ix2 k j := funext fun a => Fin.ext (by
    match a with
    | ⟨0, _⟩ => exact (rhs_h20000x128_0 _ _).trans hk
    | ⟨1, _⟩ => exact rhs_h20000x128_1 _ _)
  rw [el, er]

/-! ## The product of 60000 rows of 128 against 128 × 128 weights -/

theorem lhs_h60000x128_0 (i : S60000x128.Idx) (q : Cert.ReferenceIdeal.dot_S60000x128_S128x128_S60000x128_1_0_0_1_n_n.contr.Idx) :
    (Cert.ReferenceIdeal.dot_S60000x128_S128x128_S60000x128_1_0_0_1_n_n.lhsIdx i q 0).val = (i 0).val := by
  unfold DotDims.lhsIdx
  rw [dif_neg (show ¬(0 : Fin S60000x128.rank) ∈ Cert.ReferenceIdeal.dot_S60000x128_S128x128_S60000x128_1_0_0_1_n_n.lhsBatch by decide), dif_pos (show (0 : Fin S60000x128.rank) ∈ Cert.ReferenceIdeal.dot_S60000x128_S128x128_S60000x128_1_0_0_1_n_n.lhsNonContracting by decide)]
  rfl
theorem lhs_h60000x128_1 (i : S60000x128.Idx) (q : Cert.ReferenceIdeal.dot_S60000x128_S128x128_S60000x128_1_0_0_1_n_n.contr.Idx) :
    (Cert.ReferenceIdeal.dot_S60000x128_S128x128_S60000x128_1_0_0_1_n_n.lhsIdx i q 1).val = (q ⟨0, by decide⟩).val :=
  Cert.ReferenceIdeal.dot_S60000x128_S128x128_S60000x128_1_0_0_1_n_n.lhsIdx_val_of_single rfl i q
theorem rhs_h60000x128_0 (i : S60000x128.Idx) (q : Cert.ReferenceIdeal.dot_S60000x128_S128x128_S60000x128_1_0_0_1_n_n.contr.Idx) :
    (Cert.ReferenceIdeal.dot_S60000x128_S128x128_S60000x128_1_0_0_1_n_n.rhsIdx i q 0).val = (q ⟨0, by decide⟩).val :=
  Cert.ReferenceIdeal.dot_S60000x128_S128x128_S60000x128_1_0_0_1_n_n.rhsIdx_val_of_single rfl i q
theorem rhs_h60000x128_1 (i : S60000x128.Idx) (q : Cert.ReferenceIdeal.dot_S60000x128_S128x128_S60000x128_1_0_0_1_n_n.contr.Idx) :
    (Cert.ReferenceIdeal.dot_S60000x128_S128x128_S60000x128_1_0_0_1_n_n.rhsIdx i q 1).val = (i 1).val := by
  unfold DotDims.rhsIdx
  rw [dif_neg (show ¬(1 : Fin S128x128.rank) ∈ Cert.ReferenceIdeal.dot_S60000x128_S128x128_S60000x128_1_0_0_1_n_n.rhsBatch by decide), dif_pos (show (1 : Fin S128x128.rank) ∈ Cert.ReferenceIdeal.dot_S60000x128_S128x128_S60000x128_1_0_0_1_n_n.rhsNonContracting by decide)]
  rfl

/-- The host product at row `i` and column `j`: the sum over the 128 contraction positions. -/
theorem dot_h60000x128_apply (X : FVec Ideal S60000x128 .f32) (W : FVec Ideal S128x128 .f32) (i : Fin 60000) (j : Fin 128) :
    Host.dotGeneral (F := Ideal) Cert.ReferenceIdeal.dot_S60000x128_S128x128_S60000x128_1_0_0_1_n_n none X W (ix2 i j)
      = ∑ k : Fin 128, X (ix2 i k) * W (ix2 k j) := by
  simp only [Host.dotGeneral]
  rw [Ideal.dotGeneral_apply, ← Equiv.sum_comp (contrEquiv1 Cert.ReferenceIdeal.dot_S60000x128_S128x128_S60000x128_1_0_0_1_n_n 128 rfl rfl).symm]
  refine Finset.sum_congr rfl fun k _ => ?_
  have hk := contrEquiv1_symm_val Cert.ReferenceIdeal.dot_S60000x128_S128x128_S60000x128_1_0_0_1_n_n 128 rfl rfl k
  have el : Cert.ReferenceIdeal.dot_S60000x128_S128x128_S60000x128_1_0_0_1_n_n.lhsIdx (ix2 i j) ((contrEquiv1 Cert.ReferenceIdeal.dot_S60000x128_S128x128_S60000x128_1_0_0_1_n_n 128 rfl rfl).symm k) = ix2 i k := funext fun a => Fin.ext (by
    match a with
    | ⟨0, _⟩ => exact lhs_h60000x128_0 _ _
    | ⟨1, _⟩ => exact (lhs_h60000x128_1 _ _).trans hk)
  have er : Cert.ReferenceIdeal.dot_S60000x128_S128x128_S60000x128_1_0_0_1_n_n.rhsIdx (ix2 i j) ((contrEquiv1 Cert.ReferenceIdeal.dot_S60000x128_S128x128_S60000x128_1_0_0_1_n_n 128 rfl rfl).symm k) = ix2 k j := funext fun a => Fin.ext (by
    match a with
    | ⟨0, _⟩ => exact (rhs_h60000x128_0 _ _).trans hk
    | ⟨1, _⟩ => exact rhs_h60000x128_1 _ _)
  rw [el, er]

/-! ## The product of 20000 rows of 128 against 128 × 64 weights -/

theorem lhs_h20000x64_0 (i : S20000x64.Idx) (q : Cert.ReferenceIdeal.dot_S20000x128_S128x64_S20000x64_1_0_0_1_n_n.contr.Idx) :
    (Cert.ReferenceIdeal.dot_S20000x128_S128x64_S20000x64_1_0_0_1_n_n.lhsIdx i q 0).val = (i 0).val := by
  unfold DotDims.lhsIdx
  rw [dif_neg (show ¬(0 : Fin S20000x128.rank) ∈ Cert.ReferenceIdeal.dot_S20000x128_S128x64_S20000x64_1_0_0_1_n_n.lhsBatch by decide), dif_pos (show (0 : Fin S20000x128.rank) ∈ Cert.ReferenceIdeal.dot_S20000x128_S128x64_S20000x64_1_0_0_1_n_n.lhsNonContracting by decide)]
  rfl
theorem lhs_h20000x64_1 (i : S20000x64.Idx) (q : Cert.ReferenceIdeal.dot_S20000x128_S128x64_S20000x64_1_0_0_1_n_n.contr.Idx) :
    (Cert.ReferenceIdeal.dot_S20000x128_S128x64_S20000x64_1_0_0_1_n_n.lhsIdx i q 1).val = (q ⟨0, by decide⟩).val :=
  Cert.ReferenceIdeal.dot_S20000x128_S128x64_S20000x64_1_0_0_1_n_n.lhsIdx_val_of_single rfl i q
theorem rhs_h20000x64_0 (i : S20000x64.Idx) (q : Cert.ReferenceIdeal.dot_S20000x128_S128x64_S20000x64_1_0_0_1_n_n.contr.Idx) :
    (Cert.ReferenceIdeal.dot_S20000x128_S128x64_S20000x64_1_0_0_1_n_n.rhsIdx i q 0).val = (q ⟨0, by decide⟩).val :=
  Cert.ReferenceIdeal.dot_S20000x128_S128x64_S20000x64_1_0_0_1_n_n.rhsIdx_val_of_single rfl i q
theorem rhs_h20000x64_1 (i : S20000x64.Idx) (q : Cert.ReferenceIdeal.dot_S20000x128_S128x64_S20000x64_1_0_0_1_n_n.contr.Idx) :
    (Cert.ReferenceIdeal.dot_S20000x128_S128x64_S20000x64_1_0_0_1_n_n.rhsIdx i q 1).val = (i 1).val := by
  unfold DotDims.rhsIdx
  rw [dif_neg (show ¬(1 : Fin S128x64.rank) ∈ Cert.ReferenceIdeal.dot_S20000x128_S128x64_S20000x64_1_0_0_1_n_n.rhsBatch by decide), dif_pos (show (1 : Fin S128x64.rank) ∈ Cert.ReferenceIdeal.dot_S20000x128_S128x64_S20000x64_1_0_0_1_n_n.rhsNonContracting by decide)]
  rfl

/-- The host product at row `i` and column `j`: the sum over the 128 contraction positions. -/
theorem dot_h20000x64_apply (X : FVec Ideal S20000x128 .f32) (W : FVec Ideal S128x64 .f32) (i : Fin 20000) (j : Fin 64) :
    Host.dotGeneral (F := Ideal) Cert.ReferenceIdeal.dot_S20000x128_S128x64_S20000x64_1_0_0_1_n_n none X W (ix2 i j)
      = ∑ k : Fin 128, X (ix2 i k) * W (ix2 k j) := by
  simp only [Host.dotGeneral]
  rw [Ideal.dotGeneral_apply, ← Equiv.sum_comp (contrEquiv1 Cert.ReferenceIdeal.dot_S20000x128_S128x64_S20000x64_1_0_0_1_n_n 128 rfl rfl).symm]
  refine Finset.sum_congr rfl fun k _ => ?_
  have hk := contrEquiv1_symm_val Cert.ReferenceIdeal.dot_S20000x128_S128x64_S20000x64_1_0_0_1_n_n 128 rfl rfl k
  have el : Cert.ReferenceIdeal.dot_S20000x128_S128x64_S20000x64_1_0_0_1_n_n.lhsIdx (ix2 i j) ((contrEquiv1 Cert.ReferenceIdeal.dot_S20000x128_S128x64_S20000x64_1_0_0_1_n_n 128 rfl rfl).symm k) = ix2 i k := funext fun a => Fin.ext (by
    match a with
    | ⟨0, _⟩ => exact lhs_h20000x64_0 _ _
    | ⟨1, _⟩ => exact (lhs_h20000x64_1 _ _).trans hk)
  have er : Cert.ReferenceIdeal.dot_S20000x128_S128x64_S20000x64_1_0_0_1_n_n.rhsIdx (ix2 i j) ((contrEquiv1 Cert.ReferenceIdeal.dot_S20000x128_S128x64_S20000x64_1_0_0_1_n_n 128 rfl rfl).symm k) = ix2 k j := funext fun a => Fin.ext (by
    match a with
    | ⟨0, _⟩ => exact (rhs_h20000x64_0 _ _).trans hk
    | ⟨1, _⟩ => exact rhs_h20000x64_1 _ _)
  rw [el, er]

/-! ## The product of 60000 rows of 128 against 128 × 64 weights -/

theorem lhs_h60000x64_0 (i : S60000x64.Idx) (q : Cert.ReferenceIdeal.dot_S60000x128_S128x64_S60000x64_1_0_0_1_n_n.contr.Idx) :
    (Cert.ReferenceIdeal.dot_S60000x128_S128x64_S60000x64_1_0_0_1_n_n.lhsIdx i q 0).val = (i 0).val := by
  unfold DotDims.lhsIdx
  rw [dif_neg (show ¬(0 : Fin S60000x128.rank) ∈ Cert.ReferenceIdeal.dot_S60000x128_S128x64_S60000x64_1_0_0_1_n_n.lhsBatch by decide), dif_pos (show (0 : Fin S60000x128.rank) ∈ Cert.ReferenceIdeal.dot_S60000x128_S128x64_S60000x64_1_0_0_1_n_n.lhsNonContracting by decide)]
  rfl
theorem lhs_h60000x64_1 (i : S60000x64.Idx) (q : Cert.ReferenceIdeal.dot_S60000x128_S128x64_S60000x64_1_0_0_1_n_n.contr.Idx) :
    (Cert.ReferenceIdeal.dot_S60000x128_S128x64_S60000x64_1_0_0_1_n_n.lhsIdx i q 1).val = (q ⟨0, by decide⟩).val :=
  Cert.ReferenceIdeal.dot_S60000x128_S128x64_S60000x64_1_0_0_1_n_n.lhsIdx_val_of_single rfl i q
theorem rhs_h60000x64_0 (i : S60000x64.Idx) (q : Cert.ReferenceIdeal.dot_S60000x128_S128x64_S60000x64_1_0_0_1_n_n.contr.Idx) :
    (Cert.ReferenceIdeal.dot_S60000x128_S128x64_S60000x64_1_0_0_1_n_n.rhsIdx i q 0).val = (q ⟨0, by decide⟩).val :=
  Cert.ReferenceIdeal.dot_S60000x128_S128x64_S60000x64_1_0_0_1_n_n.rhsIdx_val_of_single rfl i q
theorem rhs_h60000x64_1 (i : S60000x64.Idx) (q : Cert.ReferenceIdeal.dot_S60000x128_S128x64_S60000x64_1_0_0_1_n_n.contr.Idx) :
    (Cert.ReferenceIdeal.dot_S60000x128_S128x64_S60000x64_1_0_0_1_n_n.rhsIdx i q 1).val = (i 1).val := by
  unfold DotDims.rhsIdx
  rw [dif_neg (show ¬(1 : Fin S128x64.rank) ∈ Cert.ReferenceIdeal.dot_S60000x128_S128x64_S60000x64_1_0_0_1_n_n.rhsBatch by decide), dif_pos (show (1 : Fin S128x64.rank) ∈ Cert.ReferenceIdeal.dot_S60000x128_S128x64_S60000x64_1_0_0_1_n_n.rhsNonContracting by decide)]
  rfl

/-- The host product at row `i` and column `j`: the sum over the 128 contraction positions. -/
theorem dot_h60000x64_apply (X : FVec Ideal S60000x128 .f32) (W : FVec Ideal S128x64 .f32) (i : Fin 60000) (j : Fin 64) :
    Host.dotGeneral (F := Ideal) Cert.ReferenceIdeal.dot_S60000x128_S128x64_S60000x64_1_0_0_1_n_n none X W (ix2 i j)
      = ∑ k : Fin 128, X (ix2 i k) * W (ix2 k j) := by
  simp only [Host.dotGeneral]
  rw [Ideal.dotGeneral_apply, ← Equiv.sum_comp (contrEquiv1 Cert.ReferenceIdeal.dot_S60000x128_S128x64_S60000x64_1_0_0_1_n_n 128 rfl rfl).symm]
  refine Finset.sum_congr rfl fun k _ => ?_
  have hk := contrEquiv1_symm_val Cert.ReferenceIdeal.dot_S60000x128_S128x64_S60000x64_1_0_0_1_n_n 128 rfl rfl k
  have el : Cert.ReferenceIdeal.dot_S60000x128_S128x64_S60000x64_1_0_0_1_n_n.lhsIdx (ix2 i j) ((contrEquiv1 Cert.ReferenceIdeal.dot_S60000x128_S128x64_S60000x64_1_0_0_1_n_n 128 rfl rfl).symm k) = ix2 i k := funext fun a => Fin.ext (by
    match a with
    | ⟨0, _⟩ => exact lhs_h60000x64_0 _ _
    | ⟨1, _⟩ => exact (lhs_h60000x64_1 _ _).trans hk)
  have er : Cert.ReferenceIdeal.dot_S60000x128_S128x64_S60000x64_1_0_0_1_n_n.rhsIdx (ix2 i j) ((contrEquiv1 Cert.ReferenceIdeal.dot_S60000x128_S128x64_S60000x64_1_0_0_1_n_n 128 rfl rfl).symm k) = ix2 k j := funext fun a => Fin.ext (by
    match a with
    | ⟨0, _⟩ => exact (rhs_h60000x64_0 _ _).trans hk
    | ⟨1, _⟩ => exact rhs_h60000x64_1 _ _)
  rw [el, er]

/-! ## The bias of an input projection -/

/-- The bias vector broadcast to one row and then to 20000 rows reads the vector at the column. -/
theorem bias_20000_apply {F : FTy → Type} [FloatOps F] (Bs : (⟨S128, .f32⟩ : BufTy).Contents (Elt F)) (i : Fin 20000) (j : Fin 128) :
    broadcastInDim S20000x128 ![0, 1] Cert.ReferenceIdeal.Gen.bcast_S1x128_S20000x128_0_1 (broadcastInDim S1x128 ![1] Cert.ReferenceIdeal.Gen.bcast_S128_S1x128_1 Bs) (ix2 i j) = Bs (ix1 j) := by
  refine (broadcastInDim_apply _ Cert.ReferenceIdeal.Gen.bcast_S1x128_S20000x128_0_1 _ (ix2 i j) (ix2 (0 : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])).trans ?_
  exact broadcastInDim_apply _ Cert.ReferenceIdeal.Gen.bcast_S128_S1x128_1 Bs (ix2 (0 : Fin 1) j) (ix1 j) (fun a => match a with
    | ⟨0, _⟩ => by show j.val = if (128 : Nat) = 1 then 0 else j.val; rw [if_neg (by decide)])

/-- The bias vector broadcast to one row and then to 60000 rows reads the vector at the column. -/
theorem bias_60000_apply {F : FTy → Type} [FloatOps F] (Bs : (⟨S128, .f32⟩ : BufTy).Contents (Elt F)) (i : Fin 60000) (j : Fin 128) :
    broadcastInDim S60000x128 ![0, 1] Cert.ReferenceIdeal.Gen.bcast_S1x128_S60000x128_0_1 (broadcastInDim S1x128 ![1] Cert.ReferenceIdeal.Gen.bcast_S128_S1x128_1 Bs) (ix2 i j) = Bs (ix1 j) := by
  refine (broadcastInDim_apply _ Cert.ReferenceIdeal.Gen.bcast_S1x128_S60000x128_0_1 _ (ix2 i j) (ix2 (0 : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])).trans ?_
  exact broadcastInDim_apply _ Cert.ReferenceIdeal.Gen.bcast_S128_S1x128_1 Bs (ix2 (0 : Fin 1) j) (ix1 j) (fun a => match a with
    | ⟨0, _⟩ => by show j.val = if (128 : Nat) = 1 then 0 else j.val; rw [if_neg (by decide)])

end Cert.KernelIdeal.Hand

end
-- ==== Proof.Lin.Blk0.lean ====
/- Region 0 (a linear region: 20000 rows of 128 into 128 columns, 5 grid points of 4000 rows): where
   each window's block sits in its array. At point t the row window and the result window are rows
   4000 t … 4000 t + 3999, the weight and bias windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 5 points. -/
theorem pts0 : grid0.N = 5 := by decide

/-- A grid point is below 5. -/
theorem lt0 (t : Fin cfg0.N) : t.val < 5 := by
  have h : t.val < grid0.N := t.isLt
  rw [pts0] at h
  exact h

/-- Element (p, k) of the row block at point t is the array's element (4000 t + p, k). -/
theorem blk0_0_read (A : (⟨S20000x128, .f32⟩ : BufTy).Contents (Elt Ideal)) (t : Fin cfg0.N) (p : Fin 4000) (k : Fin 128)
    (r : Fin 20000) (hr : r.val = 4000 * t.val + p.val) :
    ((cfg0.win 0).blk t).view.read (Elt Ideal) A (ix2 p k) = A (ix2 r k) := by
  obtain ⟨e0, e1, -⟩ := idx0 t
  rw [View.read_apply]
  show A (((cfg0.win 0).blk t).view.emb (ix2 p k)) = A (ix2 r k)
  refine congrArg A (funext fun a => Fin.ext ?_)
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- The weight block at any point is the whole weight array. -/
theorem blk0_1_read (A : (⟨S128x128, .f32⟩ : BufTy).Contents (Elt Ideal)) (t : Fin cfg0.N) (k : Fin 128) (q : Fin 128) :
    ((cfg0.win 1).blk t).view.read (Elt Ideal) A (ix2 k q) = A (ix2 k q) := by
  obtain ⟨-, -, e0, e1, -⟩ := idx0 t
  rw [View.read_apply]
  show A (((cfg0.win 1).blk t).view.emb (ix2 k q)) = A (ix2 k q)
  refine congrArg A (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias block at any point is the whole one-row bias array. -/
theorem blk0_2_read (A : (⟨S1x128, .f32⟩ : BufTy).Contents (Elt Ideal)) (t : Fin cfg0.N) (z : Fin 1) (q : Fin 128) :
    ((cfg0.win 2).blk t).view.read (Elt Ideal) A (ix2 z q) = A (ix2 z q) := by
  obtain ⟨-, -, -, -, e0, e1, -⟩ := idx0 t
  rw [View.read_apply]
  show A (((cfg0.win 2).blk t).view.emb (ix2 z q)) = A (ix2 z q)
  refine congrArg A (funext fun a => Fin.ext ?_)
  match a with
  | ⟨0, _⟩ => show win0_2.index t (0 : Fin 2) * 1 + 1 * z.val = z.val; rw [e0]; omega
  | ⟨1, _⟩ => show win0_2.index t (1 : Fin 2) * 128 + 1 * q.val = q.val; rw [e1]; omega

/-- Element (p, q) of the result block at point t sits at (4000 t + p, q) of the result array. -/
theorem blk0_3_emb (t : Fin cfg0.N) (p : Fin 4000) (q : Fin 128) (r : Fin 20000) (hr : r.val = 4000 * t.val + p.val) :
    ((cfg0.win 3).blk t).view.emb (ix2 p q) = (ix2 r q : S20000x128.Idx) := by
  obtain ⟨-, -, -, -, -, -, e0, e1⟩ := idx0 t
  refine funext fun a => Fin.ext ?_
  match a with
  | ⟨0, _⟩ => show win0_3.index t (0 : Fin 2) * 4000 + 1 * p.val = r.val; rw [e0, hr]; omega
  | ⟨1, _⟩ => show win0_3.index t (1 : Fin 2) * 128 + 1 * q.val = q.val; rw [e1]; omega

/-- An element of the result array is in point t's block iff each coordinate is in the block's range. -/
theorem mem_blk0 (t : Fin cfg0.N) (i : S20000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v1).slice (win0_3.rect t)).set ↔ _
  rw [View.set_slice_whole, Rect.mem_set_unit]
  exact Iff.rfl

/-- The result blocks tile the result array: row i lies in the block of point i / 4000, which is written back. -/
theorem cover0 (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  have hN : grid0.N = 5 := pts0
  let t : Fin cfg0.N := ⟨(i 0).val / 4000, by show (i 0).val / 4000 < grid0.N; rw [hN]; omega⟩
  have ht : t.val = (i 0).val / 4000 := rfl
  obtain ⟨-, -, -, -, -, -, e0, e1⟩ := idx0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; rw [e0, ht]; omega
  | ⟨1, _⟩ => show win0_3.index t (1 : Fin 2) * 128 ≤ (i 1).val ∧ (i 1).val < win0_3.index t (1 : Fin 2) * 128 + 128; rw [e1]; omega

end Cert.KernelIdeal.Hand

end
-- ==== Proof.Lin.Reg0.lean ====
/- Region 0 (an input projection: 20000 rows of 128 against 128 × 128 weights plus a bias vector, 5
   grid points of 4000 rows): what the region leaves in its result array. Point t writes back rows
   4000 t … 4000 t + 3999: the payload at (p, q) is the sum over k of the row block's (p, k) times the
   weights' (k, q), plus the bias row's entry q; the row block's (p, k) is the array's (4000 t + p, k),
   and the bias row is the bias vector read as one row. That is the host product at (4000 t + p, q) plus
   the bias vector broadcast over the rows. The 5 blocks tile the array, so the array ends holding the
   host product plus the broadcast bias. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk0

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q), plus entry q of the bias vector (X and W name the two
    arrays as the region found them). -/
theorem flushed_0 (c : Dev nD) (Bs : (⟨S128, .f32⟩ : BufTy).Contents (Elt Ideal))
    (hb : V c (Pipeline.arrRef spec0 2) = shapeCast _ Bs shapeCasts_S128_S1x128)
    (X : FVec Ideal S20000x128 .f32) (W : FVec Ideal S128x128 .f32)
    (hX : V c (Pipeline.arrRef spec0 0) = X) (hW : V c (Pipeline.arrRef spec0 1) = W)
    (G : FVec Ideal S20000x128 .f32)
    (hG : ∀ (r : Fin 20000) (q : Fin 128), G (ix2 r q) = (∑ k : Fin 128, X (ix2 r k) * W (ix2 k q)) + Bs (ix1 q))
    (t : Fin cfg0.N) :
    (dat0 (F := Ideal) V c).flushed 3 t = ((cfg0.win 3).blk t).view.read (Elt Ideal) G := by
  show (cfg0.win 3).cut (grid0.coords t) ((dat0 (F := Ideal) V c).after 3 t) = _
  rw [after0_3]
  unfold out0_3
  rw [View.canon_unit_zero zeros2]
  simp only [View.ld_unit_zero (S := S4000x128) zeros2, View.ld_unit_zero (S := S128x128) zeros2, View.ld_unit_zero (S := S1x128) zeros2]
  funext j
  obtain ⟨p, q, rfl⟩ : ∃ (p : Fin 4000) (q : Fin 128), j = ix2 p q := ⟨j 0, j 1, eq_ix2 j⟩
  have hr : 4000 * t.val + p.val < 20000 := by have := lt0 t; omega
  rw [View.read_apply]
  show k0_pay1 (F := Ideal) (iblk0 V c 0 t) (iblk0 V c 1 t) (iblk0 V c 2 t) (ix2 p q) = G (((cfg0.win 3).blk t).view.emb (ix2 p q))
  rw [blk0_3_emb t p q ⟨_, hr⟩ rfl, hG]
  refine (k0_pay1_apply _ _ _ p q).trans ?_
  refine congrArg₂ (· + ·) ?_ ?_
  · exact Finset.sum_congr rfl fun k _ => congrArg₂ (· * ·) ((blk0_0_read _ t p k ⟨_, hr⟩ rfl).trans (congrFun hX _)) ((blk0_1_read _ t k q).trans (congrFun hW _))
  · exact (blk0_2_read (V c (Pipeline.arrRef spec0 2)) t 0 q).trans ((congrFun hb _).trans (row128_apply Bs 0 q))

/-- The result array after the region: the host product of the row array and the weight array as the
    region found them, plus the bias vector broadcast over the rows. -/
theorem lin_0 (c : Dev nD) (Bs : (⟨S128, .f32⟩ : BufTy).Contents (Elt Ideal))
    (hb : V c (Pipeline.arrRef spec0 2) = shapeCast _ Bs shapeCasts_S128_S1x128) :
    (dat0 (F := Ideal) V c).arrAt 3 cfg0.N
      = addf (Host.dotGeneral (F := Ideal) (φ₁ := .f32) (φ₂ := .f32) Cert.ReferenceIdeal.dot_S20000x128_S128x128_S20000x128_1_0_0_1_n_n none (V c (Pipeline.arrRef spec0 0)) (V c (Pipeline.arrRef spec0 1)))
          (broadcastInDim S20000x128 ![0, 1] Cert.ReferenceIdeal.Facts₀.bcast_S1x128_S20000x128_0_1 (broadcastInDim S1x128 ![1] Cert.ReferenceIdeal.Facts₀.bcast_S128_S1x128_1 Bs)) :=
  (dat0 (F := Ideal) V c).arrAt_eq_of_cover 3 _ (fun t _ => flushed_0 V c Bs hb _ _ rfl rfl _
    (fun r q => (addf_apply _ _ _).trans (congrArg₂ (· + ·) (dot_h20000x128_apply _ _ r q) (bias_20000_apply Bs r q))) t) cover0

end Cert.KernelIdeal.Hand

end
-- ==== Proof.Lin.Blk1.lean ====
/- Region 1 (a linear region: 60000 rows of 128 into 128 columns, 15 grid points of 4000 rows): where
   each window's block sits in its array. At point t the row window and the result window are rows
   4000 t … 4000 t + 3999, the weight and bias windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The grid has 15 points. -/
theorem pts1 : grid1.N = 15 := by decide

/-- A grid point is below 15. -/
theorem lt1 (t : Fin cfg1.N) : t.val < 15 := by
  have h : t.val < grid1.N := t.isLt
  rw [pts1] at h
  exact h

/-- Element (p, k) of the row block at point t is the array's element (4000 t + p, k). -/
theorem blk1_0_read (A : (⟨S60000x128, .f32⟩ : BufTy).Contents (Elt Ideal)) (t : Fin cfg1.N) (p : Fin 4000) (k : Fin 128)
    (r : Fin 60000) (hr : r.val = 4000 * t.val + p.val) :
    ((cfg1.win 0).blk t).view.read (Elt Ideal) A (ix2 p k) = A (ix2 r k) := by
  obtain ⟨e0, e1, -⟩ := idx1 t
  rw [View.read_apply]
  show A (((cfg1.win 0).blk t).view.emb (ix2 p k)) = A (ix2 r k)
  refine congrArg A (funext fun a => Fin.ext ?_)
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- The weight block at any point is the whole weight array. -/
theorem blk1_1_read (A : (⟨S128x128, .f32⟩ : BufTy).Contents (Elt Ideal)) (t : Fin cfg1.N) (k : Fin 128) (q : Fin 128) :
    ((cfg1.win 1).blk t).view.read (Elt Ideal) A (ix2 k q) = A (ix2 k q) := by
  obtain ⟨-, -, e0, e1, -⟩ := idx1 t
  rw [View.read_apply]
  show A (((cfg1.win 1).blk t).view.emb (ix2 k q)) = A (ix2 k q)
  refine congrArg A (funext fun a => Fin.ext ?_)
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The bias block at any point is the whole one-row bias array. -/
theorem blk1_2_read (A : (⟨S1x128, .f32⟩ : BufTy).Contents (Elt Ideal)) (t : Fin cfg1.N) (z : Fin 1) (q : Fin 128) :
    ((cfg1.win 2).blk t).view.read (Elt Ideal) A (ix2 z q) = A (ix2 z q) := by
  obtain ⟨-, -, -, -, e0, e1, -⟩ := idx1 t
  rw [View.read_apply]
  show A (((cfg1.win 2).blk t).view.emb (ix2 z q)) = A (ix2 z q)
  refine congrArg A (funext fun a => Fin.ext ?_)
  match a with
  | ⟨0, _⟩ => show win1_2.index t (0 : Fin 2) * 1 + 1 * z.val = z.val; rw [e0]; omega
  | ⟨1, _⟩ => show win1_2.index t (1 : Fin 2) * 128 + 1 * q.val = q.val; rw [e1]; omega

/-- Element (p, q) of the result block at point t sits at (4000 t + p, q) of the result array. -/
theorem blk1_3_emb (t : Fin cfg1.N) (p : Fin 4000) (q : Fin 128) (r : Fin 60000) (hr : r.val = 4000 * t.val + p.val) :
    ((cfg1.win 3).blk t).view.emb (ix2 p q) = (ix2 r q : S60000x128.Idx) := by
  obtain ⟨-, -, -, -, -, -, e0, e1⟩ := idx1 t
  refine funext fun a => Fin.ext ?_
  match a with
  | ⟨0, _⟩ => show win1_3.index t (0 : Fin 2) * 4000 + 1 * p.val = r.val; rw [e0, hr]; omega
  | ⟨1, _⟩ => show win1_3.index t (1 : Fin 2) * 128 + 1 * q.val = q.val; rw [e1]; omega

/-- An element of the result array is in point t's block iff each coordinate is in the block's range. -/
theorem mem_blk1 (t : Fin cfg1.N) (i : S60000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v3).slice (win1_3.rect t)).set ↔ _
  rw [View.set_slice_whole, Rect.mem_set_unit]
  exact Iff.rfl

/-- The result blocks tile the result array: row i lies in the block of point i / 4000, which is written back. -/
theorem cover1 (i : S60000x128.Idx) :
    ∃ t : Fin cfg1.N, (cfg1.win 3).flush t = true ∧ i ∈ ((cfg1.win 3).blk t).view.set := by
  have hi0 : (i 0).val < 60000 := (i 0).isLt
  have hi1 : (i 1).val < 128 := (i 1).isLt
  have hN : grid1.N = 15 := pts1
  let t : Fin cfg1.N := ⟨(i 0).val / 4000, by show (i 0).val / 4000 < grid1.N; rw [hN]; omega⟩
  have ht : t.val = (i 0).val / 4000 := rfl
  obtain ⟨-, -, -, -, -, -, e0, e1⟩ := idx1 t
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; rw [e0, ht]; omega
  | ⟨1, _⟩ => show win1_3.index t (1 : Fin 2) * 128 ≤ (i 1).val ∧ (i 1).val < win1_3.index t (1 : Fin 2) * 128 + 128; rw [e1]; omega

end Cert.KernelIdeal.Hand

end
-- ==== Proof.Lin.Reg1.lean ====
/- Region 1 (an input projection: 60000 rows of 128 against 128 × 128 weights plus a bias vector, 15
   grid points of 4000 rows): what the region leaves in its result array. Point t writes back rows
   4000 t … 4000 t + 3999: the payload at (p, q) is the sum over k of the row block's (p, k) times the
   weights' (k, q), plus the bias row's entry q; the row block's (p, k) is the array's (4000 t + p, k),
   and the bias row is the bias vector read as one row. That is the host product at (4000 t + p, q) plus
   the bias vector broadcast over the rows. The 15 blocks tile the array, so the array ends holding the
   host product plus the broadcast bias. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk1

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q), plus entry q of the bias vector (X and W name the two
    arrays as the region found them). -/
theorem flushed_1 (c : Dev nD) (Bs : (⟨S128, .f32⟩ : BufTy).Contents (Elt Ideal))
    (hb : V c (Pipeline.arrRef spec1 2) = shapeCast _ Bs shapeCasts_S128_S1x128)
    (X : FVec Ideal S60000x128 .f32) (W : FVec Ideal S128x128 .f32)
    (hX : V c (Pipeline.arrRef spec1 0) = X) (hW : V c (Pipeline.arrRef spec1 1) = W)
    (G : FVec Ideal S60000x128 .f32)
    (hG : ∀ (r : Fin 60000) (q : Fin 128), G (ix2 r q) = (∑ k : Fin 128, X (ix2 r k) * W (ix2 k q)) + Bs (ix1 q))
    (t : Fin cfg1.N) :
    (dat1 (F := Ideal) V c).flushed 3 t = ((cfg1.win 3).blk t).view.read (Elt Ideal) G := by
  show (cfg1.win 3).cut (grid1.coords t) ((dat1 (F := Ideal) V c).after 3 t) = _
  rw [after1_3]
  unfold out1_3
  rw [View.canon_unit_zero zeros2]
  simp only [View.ld_unit_zero (S := S4000x128) zeros2, View.ld_unit_zero (S := S128x128) zeros2, View.ld_unit_zero (S := S1x128) zeros2]
  funext j
  obtain ⟨p, q, rfl⟩ : ∃ (p : Fin 4000) (q : Fin 128), j = ix2 p q := ⟨j 0, j 1, eq_ix2 j⟩
  have hr : 4000 * t.val + p.val < 60000 := by have := lt1 t; omega
  rw [View.read_apply]
  show k0_pay1 (F := Ideal) (iblk1 V c 0 t) (iblk1 V c 1 t) (iblk1 V c 2 t) (ix2 p q) = G (((cfg1.win 3).blk t).view.emb (ix2 p q))
  rw [blk1_3_emb t p q ⟨_, hr⟩ rfl, hG]
  refine (k0_pay1_apply _ _ _ p q).trans ?_
  refine congrArg₂ (· + ·) ?_ ?_
  · exact Finset.sum_congr rfl fun k _ => congrArg₂ (· * ·) ((blk1_0_read _ t p k ⟨_, hr⟩ rfl).trans (congrFun hX _)) ((blk1_1_read _ t k q).trans (congrFun hW _))
  · exact (blk1_2_read (V c (Pipeline.arrRef spec1 2)) t 0 q).trans ((congrFun hb _).trans (row128_apply Bs 0 q))

/-- The result array after the region: the host product of the row array and the weight array as the
    region found them, plus the bias vector broadcast over the rows. -/
theorem lin_1 (c : Dev nD) (Bs : (⟨S128, .f32⟩ : BufTy).Contents (Elt Ideal))
    (hb : V c (Pipeline.arrRef spec1 2) = shapeCast _ Bs shapeCasts_S128_S1x128) :
    (dat1 (F := Ideal) V c).arrAt 3 cfg1.N
      = addf (Host.dotGeneral (F := Ideal) (φ₁ := .f32) (φ₂ := .f32) Cert.ReferenceIdeal.dot_S60000x128_S128x128_S60000x128_1_0_0_1_n_n none (V c (Pipeline.arrRef spec1 0)) (V c (Pipeline.arrRef spec1 1)))
          (broadcastInDim S60000x128 ![0, 1] Cert.ReferenceIdeal.Facts₀.bcast_S1x128_S60000x128_0_1 (broadcastInDim S1x128 ![1] Cert.ReferenceIdeal.Facts₀.bcast_S128_S1x128_1 Bs)) :=
  (dat1 (F := Ideal) V c).arrAt_eq_of_cover 3 _ (fun t _ => flushed_1 V c Bs hb _ _ rfl rfl _
    (fun r q => (addf_apply _ _ _).trans (congrArg₂ (· + ·) (dot_h60000x128_apply _ _ r q) (bias_60000_apply Bs r q))) t) cover1

end Cert.KernelIdeal.Hand

end
-- ==== Proof.Lin.Blk2.lean ====
/- Region 2 (a linear region: 20000 rows of 128 into 128 columns, 5 grid points of 4000 rows): where
   each window's block sits in its array. At point t the row window and the result window are rows
   4000 t … 4000 t + 3999, the weight and bias windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The grid has 5 points. -/
theorem pts2 : grid2.N = 5 := by decide

/-- A grid point is below 5. -/
theorem lt2 (t : Fin cfg2.N) : t.val < 5 := by
  have h : t.val < grid2.N := t.isLt
  rw [pts2] at h
  exact h

/-- Element (p, k) of the row block at point t is the array's element (4000 t + p, k). -/
theorem blk2_0_read (A : (⟨S20000x128, .f32⟩ : BufTy).Contents (Elt Ideal)) (t : Fin cfg2.N) (p : Fin 4000) (k : Fin 128)
    (r : Fin 20000) (hr : r.val = 4000 * t.val + p.val) :
    ((cfg2.win 0).blk t).view.read (Elt Ideal) A (ix2 p k) = A (ix2 r k) := by
  obtain ⟨e0, e1, -⟩ := idx2 t
  rw [View.read_apply]
  show A (((cfg2.win 0).blk t).view.emb (ix2 p k)) = A (ix2 r k)
  refine congrArg A (funext fun a => Fin.ext ?_)
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

/-- The weight block at any point is the whole weight array. -/
theorem blk2_1_read (A : (⟨S128x128, .f32⟩ : BufTy).Contents (Elt Ideal)) (t : Fin cfg2.N) (k : Fin 128) (q : Fin 128) :
    ((cfg2.win 1).blk t).view.read (Elt Ideal) A (ix2 k q) = A (ix2 k q) := by
  obtain ⟨-, -, e0, e1, -⟩ := idx2 t
  rw [View.read_apply]
  show A (((cfg2.win 1).blk t).view.emb (ix2 k q)) = A (ix2 k q)
  refine congrArg A (funext fun a => Fin.ext ?_)
  match a with
  | ⟨0, _⟩ => show win2_1.index t (0 : Fin 2) * 128 + 1 * k.val = k.val; rw [e0]; omega
  | ⟨1, _⟩ => show win2_1.index t (1 : Fin 2) * 128 + 1 * q.val = q.val; rw [e1]; omega

/-- The bias block at any point is the whole one-row bias array. -/
theorem blk2_2_read (A : (⟨S1x128, .f32⟩ : BufTy).Contents (Elt Ideal)) (t : Fin cfg2.N) (z : Fin 1) (q : Fin 128) :
    ((cfg2.win 2).blk t).view.read (Elt Ideal) A (ix2 z q) = A (ix2 z q) := by
  obtain ⟨-, -, -, -, e0, e1, -⟩ := idx2 t
  rw [View.read_apply]
  show A (((cfg2.win 2).blk t).view.emb (ix2 z q)) = A (ix2 z q)
  refine congrArg A (funext fun a => Fin.ext ?_)
  match a with
  | ⟨0, _⟩ => show win2_2.index t (0 : Fin 2) * 1 + 1 * z.val = z.val; rw [e0]; omega
  | ⟨1, _⟩ => show win2_2.index t (1 : Fin 2) * 128 + 1 * q.val = q.val; rw [e1]; omega

/-- Element (p, q) of the result block at point t sits at (4000 t + p, q) of the result array. -/
theorem blk2_3_emb (t : Fin cfg2.N) (p : Fin 4000) (q : Fin 128) (r : Fin 20000) (hr : r.val = 4000 * t.val + p.val) :
    ((cfg2.win 3).blk t).view.emb (ix2 p q) = (ix2 r q : S20000x128.Idx) := by
  obtain ⟨-, -, -, -, -, -, e0, e1⟩ := idx2 t
  refine funext fun a => Fin.ext ?_
  match a with
  | ⟨0, _⟩ => show win2_3.index t (0 : Fin 2) * 4000 + 1 * p.val = r.val; rw [e0, hr]; omega
  | ⟨1, _⟩ => show win2_3.index t (1 : Fin 2) * 128 + 1 * q.val = q.val; rw [e1]; omega

/-- An element of the result array is in point t's block iff each coordinate is in the block's range. -/
theorem mem_blk2 (t : Fin cfg2.N) (i : S20000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v5).slice (win2_3.rect t)).set ↔ _
  rw [View.set_slice_whole, Rect.mem_set_unit]
  exact Iff.rfl

/-- The result blocks tile the result array: row i lies in the block of point i / 4000, which is written back. -/
theorem cover2 (i : S20000x128.Idx) :
    ∃ t : Fin cfg2.N, (cfg2.win 3).flush t = true ∧ i ∈ ((cfg2.win 3).blk t).view.set := by
  have hi0 : (i 0).val < 20000 := (i 0).isLt
  have hi1 : (i 1).val < 128 := (i 1).isLt
  have hN : grid2.N = 5 := pts2
  let t : Fin cfg2.N := ⟨(i 0).val / 4000, by show (i 0).val / 4000 < grid2.N; rw [hN]; omega⟩
  have ht : t.val = (i 0).val / 4000 := rfl
  obtain ⟨-, -, -, -, -, -, e0, e1⟩ := idx2 t
  refine ⟨t, flush2_3 t, ?_⟩
  rw [mem_blk2]
  intro a
  match a with
  | ⟨0, _⟩ => show win2_3.index t (0 : Fin 2) * 4000 ≤ (i 0).val ∧ (i 0).val < win2_3.index t (0 : Fin 2) * 4000 + 4000; rw [e0, ht]; omega
  | ⟨1, _⟩ => show win2_3.index t (1 : Fin 2) * 128 ≤ (i 1).val ∧ (i 1).val < win2_3.index t (1 : Fin 2) * 128 + 128; rw [e1]; omega

end Cert.KernelIdeal.Hand

end
-- ==== Proof.Lin.Reg2.lean ====
/- Region 2 (an input projection: 20000 rows of 128 against 128 × 128 weights plus a bias vector, 5
   grid points of 4000 rows): what the region leaves in its result array. Point t writes back rows
   4000 t … 4000 t + 3999: the payload at (p, q) is the sum over k of the row block's (p, k) times the
   weights' (k, q), plus the bias row's entry q; the row block's (p, k) is the array's (4000 t + p, k),
   and the bias row is the bias vector read as one row. That is the host product at (4000 t + p, q) plus
   the bias vector broadcast over the rows. The 5 blocks tile the array, so the array ends holding the
   host product plus the broadcast bias. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk2

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q), plus entry q of the bias vector (X and W name the two
    arrays as the region found them). -/
theorem flushed_2 (c : Dev nD) (Bs : (⟨S128, .f32⟩ : BufTy).Contents (Elt Ideal))
    (hb : V c (Pipeline.arrRef spec2 2) = shapeCast _ Bs shapeCasts_S128_S1x128)
    (X : FVec Ideal S20000x128 .f32) (W : FVec Ideal S128x128 .f32)
    (hX : V c (Pipeline.arrRef spec2 0) = X) (hW : V c (Pipeline.arrRef spec2 1) = W)
    (G : FVec Ideal S20000x128 .f32)
    (hG : ∀ (r : Fin 20000) (q : Fin 128), G (ix2 r q) = (∑ k : Fin 128, X (ix2 r k) * W (ix2 k q)) + Bs (ix1 q))
    (t : Fin cfg2.N) :
    (dat2 (F := Ideal) V c).flushed 3 t = ((cfg2.win 3).blk t).view.read (Elt Ideal) G := by
  show (cfg2.win 3).cut (grid2.coords t) ((dat2 (F := Ideal) V c).after 3 t) = _
  rw [after2_3]
  unfold out2_3
  rw [View.canon_unit_zero zeros2]
  simp only [View.ld_unit_zero (S := S4000x128) zeros2, View.ld_unit_zero (S := S128x128) zeros2, View.ld_unit_zero (S := S1x128) zeros2]
  funext j
  obtain ⟨p, q, rfl⟩ : ∃ (p : Fin 4000) (q : Fin 128), j = ix2 p q := ⟨j 0, j 1, eq_ix2 j⟩
  have hr : 4000 * t.val + p.val < 20000 := by have := lt2 t; omega
  rw [View.read_apply]
  show k0_pay1 (F := Ideal) (iblk2 V c 0 t) (iblk2 V c 1 t) (iblk2 V c 2 t) (ix2 p q) = G (((cfg2.win 3).blk t).view.emb (ix2 p q))
  rw [blk2_3_emb t p q ⟨_, hr⟩ rfl, hG]
  refine (k0_pay1_apply _ _ _ p q).trans ?_
  refine congrArg₂ (· + ·) ?_ ?_
  · exact Finset.sum_congr rfl fun k _ => congrArg₂ (· * ·) ((blk2_0_read _ t p k ⟨_, hr⟩ rfl).trans (congrFun hX _)) ((blk2_1_read _ t k q).trans (congrFun hW _))
  · exact (blk2_2_read (V c (Pipeline.arrRef spec2 2)) t 0 q).trans ((congrFun hb _).trans (row128_apply Bs 0 q))

/-- The result array after the region: the host product of the row array and the weight array as the
    region found them, plus the bias vector broadcast over the rows. -/
theorem lin_2 (c : Dev nD) (Bs : (⟨S128, .f32⟩ : BufTy).Contents (Elt Ideal))
    (hb : V c (Pipeline.arrRef spec2 2) = shapeCast _ Bs shapeCasts_S128_S1x128) :
    (dat2 (F := Ideal) V c).arrAt 3 cfg2.N
      = addf (Host.dotGeneral (F := Ideal) (φ₁ := .f32) (φ₂ := .f32) Cert.ReferenceIdeal.dot_S20000x128_S128x128_S20000x128_1_0_0_1_n_n none (V c (Pipeline.arrRef spec2 0)) (V c (Pipeline.arrRef spec2 1)))
          (broadcastInDim S20000x128 ![0, 1] Cert.ReferenceIdeal.Facts₀.bcast_S1x128_S20000x128_0_1 (broadcastInDim S1x128 ![1] Cert.ReferenceIdeal.Facts₀.bcast_S128_S1x128_1 Bs)) :=
  (dat2 (F := Ideal) V c).arrAt_eq_of_cover 3 _ (fun t _ => flushed_2 V c Bs hb _ _ rfl rfl _
    (fun r q => (addf_apply _ _ _).trans (congrArg₂ (· + ·) (dot_h20000x128_apply _ _ r q) (bias_20000_apply Bs r q))) t) cover2

end Cert.KernelIdeal.Hand

end
-- ==== Proof.Lin.Blk3.lean ====
/- Region 3 (a linear region: 20000 rows of 128 into 128 columns, 5 grid points of 4000 rows): where
   each window's block sits in its array. At point t the row window and the result window are rows
   4000 t … 4000 t + 3999, the weight and bias windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The grid has 5 points. -/
theorem pts3 : grid3.N = 5 := by decide

/-- A grid point is below 5. -/
theorem lt3 (t : Fin cfg3.N) : t.val < 5 := by
  have h : t.val < grid3.N := t.isLt
  rw [pts3] at h
  exact h

/-- Element (p, k) of the row block at point t is the array's element (4000 t + p, k). -/
theorem blk3_0_read (A : (⟨S20000x128, .f32⟩ : BufTy).Contents (Elt Ideal)) (t : Fin cfg3.N) (p : Fin 4000) (k : Fin 128)
    (r : Fin 20000) (hr : r.val = 4000 * t.val + p.val) :
    ((cfg3.win 0).blk t).view.read (Elt Ideal) A (ix2 p k) = A (ix2 r k) := by
  obtain ⟨e0, e1, -⟩ := idx3 t
  rw [View.read_apply]
  show A (((cfg3.win 0).blk t).view.emb (ix2 p k)) = A (ix2 r k)
  refine congrArg A (funext fun a => Fin.ext ?_)
  match a with
  | ⟨0, _⟩ => show win3_0.index t (0 : Fin 2) * 4000 + 1 * p.val = r.val; rw [e0, hr]; omega
  | ⟨1, _⟩ => show win3_0.index t (1 : Fin 2) * 128 + 1 * k.val = k.val; rw [e1]; omega

/-- The weight block at any point is the whole weight array. -/
theorem blk3_1_read (A : (⟨S128x128, .f32⟩ : BufTy).Contents (Elt Ideal)) (t : Fin cfg3.N) (k : Fin 128) (q : Fin 128) :
    ((cfg3.win 1).blk t).view.read (Elt Ideal) A (ix2 k q) = A (ix2 k q) := by
  obtain ⟨-, -, e0, e1, -⟩ := idx3 t
  rw [View.read_apply]
  show A (((cfg3.win 1).blk t).view.emb (ix2 k q)) = A (ix2 k q)
  refine congrArg A (funext fun a => Fin.ext ?_)
  match a with
  | ⟨0, _⟩ => show win3_1.index t (0 : Fin 2) * 128 + 1 * k.val = k.val; rw [e0]; omega
  | ⟨1, _⟩ => show win3_1.index t (1 : Fin 2) * 128 + 1 * q.val = q.val; rw [e1]; omega

/-- The bias block at any point is the whole one-row bias array. -/
theorem blk3_2_read (A : (⟨S1x128, .f32⟩ : BufTy).Contents (Elt Ideal)) (t : Fin cfg3.N) (z : Fin 1) (q : Fin 128) :
    ((cfg3.win 2).blk t).view.read (Elt Ideal) A (ix2 z q) = A (ix2 z q) := by
  obtain ⟨-, -, -, -, e0, e1, -⟩ := idx3 t
  rw [View.read_apply]
  show A (((cfg3.win 2).blk t).view.emb (ix2 z q)) = A (ix2 z q)
  refine congrArg A (funext fun a => Fin.ext ?_)
  match a with
  | ⟨0, _⟩ => show win3_2.index t (0 : Fin 2) * 1 + 1 * z.val = z.val; rw [e0]; omega
  | ⟨1, _⟩ => show win3_2.index t (1 : Fin 2) * 128 + 1 * q.val = q.val; rw [e1]; omega

/-- Element (p, q) of the result block at point t sits at (4000 t + p, q) of the result array. -/
theorem blk3_3_emb (t : Fin cfg3.N) (p : Fin 4000) (q : Fin 128) (r : Fin 20000) (hr : r.val = 4000 * t.val + p.val) :
    ((cfg3.win 3).blk t).view.emb (ix2 p q) = (ix2 r q : S20000x128.Idx) := by
  obtain ⟨-, -, -, -, -, -, e0, e1⟩ := idx3 t
  refine funext fun a => Fin.ext ?_
  match a with
  | ⟨0, _⟩ => show win3_3.index t (0 : Fin 2) * 4000 + 1 * p.val = r.val; rw [e0, hr]; omega
  | ⟨1, _⟩ => show win3_3.index t (1 : Fin 2) * 128 + 1 * q.val = q.val; rw [e1]; omega

/-- An element of the result array is in point t's block iff each coordinate is in the block's range. -/
theorem mem_blk3 (t : Fin cfg3.N) (i : S20000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v13).slice (win3_3.rect t)).set ↔ _
  rw [View.set_slice_whole, Rect.mem_set_unit]
  exact Iff.rfl

/-- The result blocks tile the result array: row i lies in the block of point i / 4000, which is written back. -/
theorem cover3 (i : S20000x128.Idx) :
    ∃ t : Fin cfg3.N, (cfg3.win 3).flush t = true ∧ i ∈ ((cfg3.win 3).blk t).view.set := by
  have hi0 : (i 0).val < 20000 := (i 0).isLt
  have hi1 : (i 1).val < 128 := (i 1).isLt
  have hN : grid3.N = 5 := pts3
  let t : Fin cfg3.N := ⟨(i 0).val / 4000, by show (i 0).val / 4000 < grid3.N; rw [hN]; omega⟩
  have ht : t.val = (i 0).val / 4000 := rfl
  obtain ⟨-, -, -, -, -, -, e0, e1⟩ := idx3 t
  refine ⟨t, flush3_3 t, ?_⟩
  rw [mem_blk3]
  intro a
  match a with
  | ⟨0, _⟩ => show win3_3.index t (0 : Fin 2) * 4000 ≤ (i 0).val ∧ (i 0).val < win3_3.index t (0 : Fin 2) * 4000 + 4000; rw [e0, ht]; omega
  | ⟨1, _⟩ => show win3_3.index t (1 : Fin 2) * 128 ≤ (i 1).val ∧ (i 1).val < win3_3.index t (1 : Fin 2) * 128 + 128; rw [e1]; omega

end Cert.KernelIdeal.Hand

end
-- ==== Proof.Lin.Reg3.lean ====
/- Region 3 (a relation product: 20000 rows of 128 against 128 × 128 weights, zero bias, 5 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 5 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk3

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_3 (c : Dev nD)
    (hb : V c (Pipeline.arrRef spec3 2) = shapeCast _ (broadcastInDim S128 ![] bcast_S_S128 (constant (F := Ideal) S_ .f32 0x00000000#32)) shapeCasts_S128_S1x128)
    (X : FVec Ideal S20000x128 .f32) (W : FVec Ideal S128x128 .f32)
    (hX : V c (Pipeline.arrRef spec3 0) = X) (hW : V c (Pipeline.arrRef spec3 1) = W)
    (G : FVec Ideal S20000x128 .f32)
    (hG : ∀ (r : Fin 20000) (q : Fin 128), G (ix2 r q) = ∑ k : Fin 128, X (ix2 r k) * W (ix2 k q))
    (t : Fin cfg3.N) :
    (dat3 (F := Ideal) V c).flushed 3 t = ((cfg3.win 3).blk t).view.read (Elt Ideal) G := by
  show (cfg3.win 3).cut (grid3.coords t) ((dat3 (F := Ideal) V c).after 3 t) = _
  rw [after3_3]
  unfold out3_3
  rw [View.canon_unit_zero zeros2]
  simp only [View.ld_unit_zero (S := S4000x128) zeros2, View.ld_unit_zero (S := S128x128) zeros2, View.ld_unit_zero (S := S1x128) zeros2]
  funext j
  obtain ⟨p, q, rfl⟩ : ∃ (p : Fin 4000) (q : Fin 128), j = ix2 p q := ⟨j 0, j 1, eq_ix2 j⟩
  have hr : 4000 * t.val + p.val < 20000 := by have := lt3 t; omega
  rw [View.read_apply]
  show k3_pay1 (F := Ideal) (iblk3 V c 0 t) (iblk3 V c 1 t) (iblk3 V c 2 t) (ix2 p q) = G (((cfg3.win 3).blk t).view.emb (ix2 p q))
  rw [blk3_3_emb t p q ⟨_, hr⟩ rfl, hG]
  refine (k3_pay1_apply _ _ _ p q).trans ?_
  have h2 : (iblk3 V c 2 t : Vec Ideal S1x128 .f32) (ix2 (0 : Fin 1) q) = (0 : EReal) :=
    (blk3_2_read (V c (Pipeline.arrRef spec3 2)) t 0 q).trans ((congrFun hb _).trans (zero_bias128_apply _))
  rw [h2, add_zero]
  exact Finset.sum_congr rfl fun k _ => congrArg₂ (· * ·) ((blk3_0_read _ t p k ⟨_, hr⟩ rfl).trans (congrFun hX _)) ((blk3_1_read _ t k q).trans (congrFun hW _))

/-- The result array after the region: the host product of the row array and the weight array as the
    region found them. -/
theorem lin_3 (c : Dev nD)
    (hb : V c (Pipeline.arrRef spec3 2) = shapeCast _ (broadcastInDim S128 ![] bcast_S_S128 (constant (F := Ideal) S_ .f32 0x00000000#32)) shapeCasts_S128_S1x128) :
    (dat3 (F := Ideal) V c).arrAt 3 cfg3.N
      = Host.dotGeneral (F := Ideal) (φ₁ := .f32) (φ₂ := .f32) Cert.ReferenceIdeal.dot_S20000x128_S128x128_S20000x128_1_0_0_1_n_n none (V c (Pipeline.arrRef spec3 0)) (V c (Pipeline.arrRef spec3 1)) :=
  (dat3 (F := Ideal) V c).arrAt_eq_of_cover 3 _ (fun t _ => flushed_3 V c hb _ _ rfl rfl _ (fun r q => dot_h20000x128_apply _ _ r q) t) cover3

end Cert.KernelIdeal.Hand

end
-- ==== Proof.Lin.Blk4.lean ====
/- Region 4 (a linear region: 20000 rows of 128 into 128 columns, 5 grid points of 4000 rows): where
   each window's block sits in its array. At point t the row window and the result window are rows
   4000 t … 4000 t + 3999, the weight and bias windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The grid has 5 points. -/
theorem pts4 : grid4.N = 5 := by decide

/-- A grid point is below 5. -/
theorem lt4 (t : Fin cfg4.N) : t.val < 5 := by
  have h : t.val < grid4.N := t.isLt
  rw [pts4] at h
  exact h

/-- Element (p, k) of the row block at point t is the array's element (4000 t + p, k). -/
theorem blk4_0_read (A : (⟨S20000x128, .f32⟩ : BufTy).Contents (Elt Ideal)) (t : Fin cfg4.N) (p : Fin 4000) (k : Fin 128)
    (r : Fin 20000) (hr : r.val = 4000 * t.val + p.val) :
    ((cfg4.win 0).blk t).view.read (Elt Ideal) A (ix2 p k) = A (ix2 r k) := by
  obtain ⟨e0, e1, -⟩ := idx4 t
  rw [View.read_apply]
  show A (((cfg4.win 0).blk t).view.emb (ix2 p k)) = A (ix2 r k)
  refine congrArg A (funext fun a => Fin.ext ?_)
  match a with
  | ⟨0, _⟩ => show win4_0.index t (0 : Fin 2) * 4000 + 1 * p.val = r.val; rw [e0, hr]; omega
  | ⟨1, _⟩ => show win4_0.index t (1 : Fin 2) * 128 + 1 * k.val = k.val; rw [e1]; omega

/-- The weight block at any point is the whole weight array. -/
theorem blk4_1_read (A : (⟨S128x128, .f32⟩ : BufTy).Contents (Elt Ideal)) (t : Fin cfg4.N) (k : Fin 128) (q : Fin 128) :
    ((cfg4.win 1).blk t).view.read (Elt Ideal) A (ix2 k q) = A (ix2 k q) := by
  obtain ⟨-, -, e0, e1, -⟩ := idx4 t
  rw [View.read_apply]
  show A (((cfg4.win 1).blk t).view.emb (ix2 k q)) = A (ix2 k q)
  refine congrArg A (funext fun a => Fin.ext ?_)
  match a with
  | ⟨0, _⟩ => show win4_1.index t (0 : Fin 2) * 128 + 1 * k.val = k.val; rw [e0]; omega
  | ⟨1, _⟩ => show win4_1.index t (1 : Fin 2) * 128 + 1 * q.val = q.val; rw [e1]; omega

/-- The bias block at any point is the whole one-row bias array. -/
theorem blk4_2_read (A : (⟨S1x128, .f32⟩ : BufTy).Contents (Elt Ideal)) (t : Fin cfg4.N) (z : Fin 1) (q : Fin 128) :
    ((cfg4.win 2).blk t).view.read (Elt Ideal) A (ix2 z q) = A (ix2 z q) := by
  obtain ⟨-, -, -, -, e0, e1, -⟩ := idx4 t
  rw [View.read_apply]
  show A (((cfg4.win 2).blk t).view.emb (ix2 z q)) = A (ix2 z q)
  refine congrArg A (funext fun a => Fin.ext ?_)
  match a with
  | ⟨0, _⟩ => show win4_2.index t (0 : Fin 2) * 1 + 1 * z.val = z.val; rw [e0]; omega
  | ⟨1, _⟩ => show win4_2.index t (1 : Fin 2) * 128 + 1 * q.val = q.val; rw [e1]; omega

/-- Element (p, q) of the result block at point t sits at (4000 t + p, q) of the result array. -/
theorem blk4_3_emb (t : Fin cfg4.N) (p : Fin 4000) (q : Fin 128) (r : Fin 20000) (hr : r.val = 4000 * t.val + p.val) :
    ((cfg4.win 3).blk t).view.emb (ix2 p q) = (ix2 r q : S20000x128.Idx) := by
  obtain ⟨-, -, -, -, -, -, e0, e1⟩ := idx4 t
  refine funext fun a => Fin.ext ?_
  match a with
  | ⟨0, _⟩ => show win4_3.index t (0 : Fin 2) * 4000 + 1 * p.val = r.val; rw [e0, hr]; omega
  | ⟨1, _⟩ => show win4_3.index t (1 : Fin 2) * 128 + 1 * q.val = q.val; rw [e1]; omega

/-- An element of the result array is in point t's block iff each coordinate is in the block's range. -/
theorem mem_blk4 (t : Fin cfg4.N) (i : S20000x128.Idx) :
    i ∈ ((cfg4.win 3).blk t).view.set ↔ ∀ a : Fin 2, win4_3.index t a * S4000x128.size a ≤ (i a).val ∧ (i a).val < win4_3.index t a * S4000x128.size a + S4000x128.size a := by
  show i ∈ ((View.whole main_v75).slice (win4_3.rect t)).set ↔ _
  rw [View.set_slice_whole, Rect.mem_set_unit]
  exact Iff.rfl

/-- The result blocks tile the result array: row i lies in the block of point i / 4000, which is written back. -/
theorem cover4 (i : S20000x128.Idx) :
    ∃ t : Fin cfg4.N, (cfg4.win 3).flush t = true ∧ i ∈ ((cfg4.win 3).blk t).view.set := by
  have hi0 : (i 0).val < 20000 := (i 0).isLt
  have hi1 : (i 1).val < 128 := (i 1).isLt
  have hN : grid4.N = 5 := pts4
  let t : Fin cfg4.N := ⟨(i 0).val / 4000, by show (i 0).val / 4000 < grid4.N; rw [hN]; omega⟩
  have ht : t.val = (i 0).val / 4000 := rfl
  obtain ⟨-, -, -, -, -, -, e0, e1⟩ := idx4 t
  refine ⟨t, flush4_3 t, ?_⟩
  rw [mem_blk4]
  intro a
  match a with
  | ⟨0, _⟩ => show win4_3.index t (0 : Fin 2) * 4000 ≤ (i 0).val ∧ (i 0).val < win4_3.index t (0 : Fin 2) * 4000 + 4000; rw [e0, ht]; omega
  | ⟨1, _⟩ => show win4_3.index t (1 : Fin 2) * 128 ≤ (i 1).val ∧ (i 1).val < win4_3.index t (1 : Fin 2) * 128 + 128; rw [e1]; omega

end Cert.KernelIdeal.Hand

end
-- ==== Proof.Lin.Reg4.lean ====
/- Region 4 (a relation product: 20000 rows of 128 against 128 × 128 weights, zero bias, 5 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 5 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk4

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_4 (c : Dev nD)
    (hb : V c (Pipeline.arrRef spec4 2) = shapeCast _ (broadcastInDim S128 ![] bcast_S_S128 (constant (F := Ideal) S_ .f32 0x00000000#32)) shapeCasts_S128_S1x128)
    (X : FVec Ideal S20000x128 .f32) (W : FVec Ideal S128x128 .f32)
    (hX : V c (Pipeline.arrRef spec4 0) = X) (hW : V c (Pipeline.arrRef spec4 1) = W)
    (G : FVec Ideal S20000x128 .f32)
    (hG : ∀ (r : Fin 20000) (q : Fin 128), G (ix2 r q) = ∑ k : Fin 128, X (ix2 r k) * W (ix2 k q))
    (t : Fin cfg4.N) :
    (dat4 (F := Ideal) V c).flushed 3 t = ((cfg4.win 3).blk t).view.read (Elt Ideal) G := by
  show (cfg4.win 3).cut (grid4.coords t) ((dat4 (F := Ideal) V c).after 3 t) = _
  rw [after4_3]
  unfold out4_3
  rw [View.canon_unit_zero zeros2]
  simp only [View.ld_unit_zero (S := S4000x128) zeros2, View.ld_unit_zero (S := S128x128) zeros2, View.ld_unit_zero (S := S1x128) zeros2]
  funext j
  obtain ⟨p, q, rfl⟩ : ∃ (p : Fin 4000) (q : Fin 128), j = ix2 p q := ⟨j 0, j 1, eq_ix2 j⟩
  have hr : 4000 * t.val + p.val < 20000 := by have := lt4 t; omega
  rw [View.read_apply]
  show k3_pay1 (F := Ideal) (iblk4 V c 0 t) (iblk4 V c 1 t) (iblk4 V c 2 t) (ix2 p q) = G (((cfg4.win 3).blk t).view.emb (ix2 p q))
  rw [blk4_3_emb t p q ⟨_, hr⟩ rfl, hG]
  refine (k3_pay1_apply _ _ _ p q).trans ?_
  have h2 : (iblk4 V c 2 t : Vec Ideal S1x128 .f32) (ix2 (0 : Fin 1) q) = (0 : EReal) :=
    (blk4_2_read (V c (Pipeline.arrRef spec4 2)) t 0 q).trans ((congrFun hb _).trans (zero_bias128_apply _))
  rw [h2, add_zero]
  exact Finset.sum_congr rfl fun k _ => congrArg₂ (· * ·) ((blk4_0_read _ t p k ⟨_, hr⟩ rfl).trans (congrFun hX _)) ((blk4_1_read _ t k q).trans (congrFun hW _))

/-- The result array after the region: the host product of the row array and the weight array as the
    region found them. -/
theorem lin_4 (c : Dev nD)
    (hb : V c (Pipeline.arrRef spec4 2) = shapeCast _ (broadcastInDim S128 ![] bcast_S_S128 (constant (F := Ideal) S_ .f32 0x00000000#32)) shapeCasts_S128_S1x128) :
    (dat4 (F := Ideal) V c).arrAt 3 cfg4.N
      = Host.dotGeneral (F := Ideal) (φ₁ := .f32) (φ₂ := .f32) Cert.ReferenceIdeal.dot_S20000x128_S128x128_S20000x128_1_0_0_1_n_n none (V c (Pipeline.arrRef spec4 0)) (V c (Pipeline.arrRef spec4 1)) :=
  (dat4 (F := Ideal) V c).arrAt_eq_of_cover 3 _ (fun t _ => flushed_4 V c hb _ _ rfl rfl _ (fun r q => dot_h20000x128_apply _ _ r q) t) cover4

end Cert.KernelIdeal.Hand

end
-- ==== Proof.Lin.Blk5.lean ====
/- Region 5 (a linear region: 60000 rows of 128 into 128 columns, 15 grid points of 4000 rows): where
   each window's block sits in its array. At point t the row window and the result window are rows
   4000 t … 4000 t + 3999, the weight and bias windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The grid has 15 points. -/
theorem pts5 : grid5.N = 15 := by decide

/-- A grid point is below 15. -/
theorem lt5 (t : Fin cfg5.N) : t.val < 15 := by
  have h : t.val < grid5.N := t.isLt
  rw [pts5] at h
  exact h

/-- Element (p, k) of the row block at point t is the array's element (4000 t + p, k). -/
theorem blk5_0_read (A : (⟨S60000x128, .f32⟩ : BufTy).Contents (Elt Ideal)) (t : Fin cfg5.N) (p : Fin 4000) (k : Fin 128)
    (r : Fin 60000) (hr : r.val = 4000 * t.val + p.val) :
    ((cfg5.win 0).blk t).view.read (Elt Ideal) A (ix2 p k) = A (ix2 r k) := by
  obtain ⟨e0, e1, -⟩ := idx5 t
  rw [View.read_apply]
  show A (((cfg5.win 0).blk t).view.emb (ix2 p k)) = A (ix2 r k)
  refine congrArg A (funext fun a => Fin.ext ?_)
  match a with
  | ⟨0, _⟩ => show win5_0.index t (0 : Fin 2) * 4000 + 1 * p.val = r.val; rw [e0, hr]; omega
  | ⟨1, _⟩ => show win5_0.index t (1 : Fin 2) * 128 + 1 * k.val = k.val; rw [e1]; omega

/-- The weight block at any point is the whole weight array. -/
theorem blk5_1_read (A : (⟨S128x128, .f32⟩ : BufTy).Contents (Elt Ideal)) (t : Fin cfg5.N) (k : Fin 128) (q : Fin 128) :
    ((cfg5.win 1).blk t).view.read (Elt Ideal) A (ix2 k q) = A (ix2 k q) := by
  obtain ⟨-, -, e0, e1, -⟩ := idx5 t
  rw [View.read_apply]
  show A (((cfg5.win 1).blk t).view.emb (ix2 k q)) = A (ix2 k q)
  refine congrArg A (funext fun a => Fin.ext ?_)
  match a with
  | ⟨0, _⟩ => show win5_1.index t (0 : Fin 2) * 128 + 1 * k.val = k.val; rw [e0]; omega
  | ⟨1, _⟩ => show win5_1.index t (1 : Fin 2) * 128 + 1 * q.val = q.val; rw [e1]; omega

/-- The bias block at any point is the whole one-row bias array. -/
theorem blk5_2_read (A : (⟨S1x128, .f32⟩ : BufTy).Contents (Elt Ideal)) (t : Fin cfg5.N) (z : Fin 1) (q : Fin 128) :
    ((cfg5.win 2).blk t).view.read (Elt Ideal) A (ix2 z q) = A (ix2 z q) := by
  obtain ⟨-, -, -, -, e0, e1, -⟩ := idx5 t
  rw [View.read_apply]
  show A (((cfg5.win 2).blk t).view.emb (ix2 z q)) = A (ix2 z q)
  refine congrArg A (funext fun a => Fin.ext ?_)
  match a with
  | ⟨0, _⟩ => show win5_2.index t (0 : Fin 2) * 1 + 1 * z.val = z.val; rw [e0]; omega
  | ⟨1, _⟩ => show win5_2.index t (1 : Fin 2) * 128 + 1 * q.val = q.val; rw [e1]; omega

/-- Element (p, q) of the result block at point t sits at (4000 t + p, q) of the result array. -/
theorem blk5_3_emb (t : Fin cfg5.N) (p : Fin 4000) (q : Fin 128) (r : Fin 60000) (hr : r.val = 4000 * t.val + p.val) :
    ((cfg5.win 3).blk t).view.emb (ix2 p q) = (ix2 r q : S60000x128.Idx) := by
  obtain ⟨-, -, -, -, -, -, e0, e1⟩ := idx5 t
  refine funext fun a => Fin.ext ?_
  match a with
  | ⟨0, _⟩ => show win5_3.index t (0 : Fin 2) * 4000 + 1 * p.val = r.val; rw [e0, hr]; omega
  | ⟨1, _⟩ => show win5_3.index t (1 : Fin 2) * 128 + 1 * q.val = q.val; rw [e1]; omega

/-- An element of the result array is in point t's block iff each coordinate is in the block's range. -/
theorem mem_blk5 (t : Fin cfg5.N) (i : S60000x128.Idx) :
    i ∈ ((cfg5.win 3).blk t).view.set ↔ ∀ a : Fin 2, win5_3.index t a * S4000x128.size a ≤ (i a).val ∧ (i a).val < win5_3.index t a * S4000x128.size a + S4000x128.size a := by
  show i ∈ ((View.whole main_v137).slice (win5_3.rect t)).set ↔ _
  rw [View.set_slice_whole, Rect.mem_set_unit]
  exact Iff.rfl

/-- The result blocks tile the result array: row i lies in the block of point i / 4000, which is written back. -/
theorem cover5 (i : S60000x128.Idx) :
    ∃ t : Fin cfg5.N, (cfg5.win 3).flush t = true ∧ i ∈ ((cfg5.win 3).blk t).view.set := by
  have hi0 : (i 0).val < 60000 := (i 0).isLt
  have hi1 : (i 1).val < 128 := (i 1).isLt
  have hN : grid5.N = 15 := pts5
  let t : Fin cfg5.N := ⟨(i 0).val / 4000, by show (i 0).val / 4000 < grid5.N; rw [hN]; omega⟩
  have ht : t.val = (i 0).val / 4000 := rfl
  obtain ⟨-, -, -, -, -, -, e0, e1⟩ := idx5 t
  refine ⟨t, flush5_3 t, ?_⟩
  rw [mem_blk5]
  intro a
  match a with
  | ⟨0, _⟩ => show win5_3.index t (0 : Fin 2) * 4000 ≤ (i 0).val ∧ (i 0).val < win5_3.index t (0 : Fin 2) * 4000 + 4000; rw [e0, ht]; omega
  | ⟨1, _⟩ => show win5_3.index t (1 : Fin 2) * 128 ≤ (i 1).val ∧ (i 1).val < win5_3.index t (1 : Fin 2) * 128 + 128; rw [e1]; omega

end Cert.KernelIdeal.Hand

end
-- ==== Proof.Lin.Reg5.lean ====
/- Region 5 (a relation product: 60000 rows of 128 against 128 × 128 weights, zero bias, 15 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 15 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk5

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_5 (c : Dev nD)
    (hb : V c (Pipeline.arrRef spec5 2) = shapeCast _ (broadcastInDim S128 ![] bcast_S_S128 (constant (F := Ideal) S_ .f32 0x00000000#32)) shapeCasts_S128_S1x128)
    (X : FVec Ideal S60000x128 .f32) (W : FVec Ideal S128x128 .f32)
    (hX : V c (Pipeline.arrRef spec5 0) = X) (hW : V c (Pipeline.arrRef spec5 1) = W)
    (G : FVec Ideal S60000x128 .f32)
    (hG : ∀ (r : Fin 60000) (q : Fin 128), G (ix2 r q) = ∑ k : Fin 128, X (ix2 r k) * W (ix2 k q))
    (t : Fin cfg5.N) :
    (dat5 (F := Ideal) V c).flushed 3 t = ((cfg5.win 3).blk t).view.read (Elt Ideal) G := by
  show (cfg5.win 3).cut (grid5.coords t) ((dat5 (F := Ideal) V c).after 3 t) = _
  rw [after5_3]
  unfold out5_3
  rw [View.canon_unit_zero zeros2]
  simp only [View.ld_unit_zero (S := S4000x128) zeros2, View.ld_unit_zero (S := S128x128) zeros2, View.ld_unit_zero (S := S1x128) zeros2]
  funext j
  obtain ⟨p, q, rfl⟩ : ∃ (p : Fin 4000) (q : Fin 128), j = ix2 p q := ⟨j 0, j 1, eq_ix2 j⟩
  have hr : 4000 * t.val + p.val < 60000 := by have := lt5 t; omega
  rw [View.read_apply]
  show k3_pay1 (F := Ideal) (iblk5 V c 0 t) (iblk5 V c 1 t) (iblk5 V c 2 t) (ix2 p q) = G (((cfg5.win 3).blk t).view.emb (ix2 p q))
  rw [blk5_3_emb t p q ⟨_, hr⟩ rfl, hG]
  refine (k3_pay1_apply _ _ _ p q).trans ?_
  have h2 : (iblk5 V c 2 t : Vec Ideal S1x128 .f32) (ix2 (0 : Fin 1) q) = (0 : EReal) :=
    (blk5_2_read (V c (Pipeline.arrRef spec5 2)) t 0 q).trans ((congrFun hb _).trans (zero_bias128_apply _))
  rw [h2, add_zero]
  exact Finset.sum_congr rfl fun k _ => congrArg₂ (· * ·) ((blk5_0_read _ t p k ⟨_, hr⟩ rfl).trans (congrFun hX _)) ((blk5_1_read _ t k q).trans (congrFun hW _))

/-- The result array after the region: the host product of the row array and the weight array as the
    region found them. -/
theorem lin_5 (c : Dev nD)
    (hb : V c (Pipeline.arrRef spec5 2) = shapeCast _ (broadcastInDim S128 ![] bcast_S_S128 (constant (F := Ideal) S_ .f32 0x00000000#32)) shapeCasts_S128_S1x128) :
    (dat5 (F := Ideal) V c).arrAt 3 cfg5.N
      = Host.dotGeneral (F := Ideal) (φ₁ := .f32) (φ₂ := .f32) Cert.ReferenceIdeal.dot_S60000x128_S128x128_S60000x128_1_0_0_1_n_n none (V c (Pipeline.arrRef spec5 0)) (V c (Pipeline.arrRef spec5 1)) :=
  (dat5 (F := Ideal) V c).arrAt_eq_of_cover 3 _ (fun t _ => flushed_5 V c hb _ _ rfl rfl _ (fun r q => dot_h60000x128_apply _ _ r q) t) cover5

end Cert.KernelIdeal.Hand

end
-- ==== Proof.Lin.Blk6.lean ====
/- Region 6 (a linear region: 20000 rows of 128 into 128 columns, 5 grid points of 4000 rows): where
   each window's block sits in its array. At point t the row window and the result window are rows
   4000 t … 4000 t + 3999, the weight and bias windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The grid has 5 points. -/
theorem pts6 : grid6.N = 5 := by decide

/-- A grid point is below 5. -/
theorem lt6 (t : Fin cfg6.N) : t.val < 5 := by
  have h : t.val < grid6.N := t.isLt
  rw [pts6] at h
  exact h

/-- Element (p, k) of the row block at point t is the array's element (4000 t + p, k). -/
theorem blk6_0_read (A : (⟨S20000x128, .f32⟩ : BufTy).Contents (Elt Ideal)) (t : Fin cfg6.N) (p : Fin 4000) (k : Fin 128)
    (r : Fin 20000) (hr : r.val = 4000 * t.val + p.val) :
    ((cfg6.win 0).blk t).view.read (Elt Ideal) A (ix2 p k) = A (ix2 r k) := by
  obtain ⟨e0, e1, -⟩ := idx6 t
  rw [View.read_apply]
  show A (((cfg6.win 0).blk t).view.emb (ix2 p k)) = A (ix2 r k)
  refine congrArg A (funext fun a => Fin.ext ?_)
  match a with
  | ⟨0, _⟩ => show win6_0.index t (0 : Fin 2) * 4000 + 1 * p.val = r.val; rw [e0, hr]; omega
  | ⟨1, _⟩ => show win6_0.index t (1 : Fin 2) * 128 + 1 * k.val = k.val; rw [e1]; omega

/-- The weight block at any point is the whole weight array. -/
theorem blk6_1_read (A : (⟨S128x128, .f32⟩ : BufTy).Contents (Elt Ideal)) (t : Fin cfg6.N) (k : Fin 128) (q : Fin 128) :
    ((cfg6.win 1).blk t).view.read (Elt Ideal) A (ix2 k q) = A (ix2 k q) := by
  obtain ⟨-, -, e0, e1, -⟩ := idx6 t
  rw [View.read_apply]
  show A (((cfg6.win 1).blk t).view.emb (ix2 k q)) = A (ix2 k q)
  refine congrArg A (funext fun a => Fin.ext ?_)
  match a with
  | ⟨0, _⟩ => show win6_1.index t (0 : Fin 2) * 128 + 1 * k.val = k.val; rw [e0]; omega
  | ⟨1, _⟩ => show win6_1.index t (1 : Fin 2) * 128 + 1 * q.val = q.val; rw [e1]; omega

/-- The bias block at any point is the whole one-row bias array. -/
theorem blk6_2_read (A : (⟨S1x128, .f32⟩ : BufTy).Contents (Elt Ideal)) (t : Fin cfg6.N) (z : Fin 1) (q : Fin 128) :
    ((cfg6.win 2).blk t).view.read (Elt Ideal) A (ix2 z q) = A (ix2 z q) := by
  obtain ⟨-, -, -, -, e0, e1, -⟩ := idx6 t
  rw [View.read_apply]
  show A (((cfg6.win 2).blk t).view.emb (ix2 z q)) = A (ix2 z q)
  refine congrArg A (funext fun a => Fin.ext ?_)
  match a with
  | ⟨0, _⟩ => show win6_2.index t (0 : Fin 2) * 1 + 1 * z.val = z.val; rw [e0]; omega
  | ⟨1, _⟩ => show win6_2.index t (1 : Fin 2) * 128 + 1 * q.val = q.val; rw [e1]; omega

/-- Element (p, q) of the result block at point t sits at (4000 t + p, q) of the result array. -/
theorem blk6_3_emb (t : Fin cfg6.N) (p : Fin 4000) (q : Fin 128) (r : Fin 20000) (hr : r.val = 4000 * t.val + p.val) :
    ((cfg6.win 3).blk t).view.emb (ix2 p q) = (ix2 r q : S20000x128.Idx) := by
  obtain ⟨-, -, -, -, -, -, e0, e1⟩ := idx6 t
  refine funext fun a => Fin.ext ?_
  match a with
  | ⟨0, _⟩ => show win6_3.index t (0 : Fin 2) * 4000 + 1 * p.val = r.val; rw [e0, hr]; omega
  | ⟨1, _⟩ => show win6_3.index t (1 : Fin 2) * 128 + 1 * q.val = q.val; rw [e1]; omega

/-- An element of the result array is in point t's block iff each coordinate is in the block's range. -/
theorem mem_blk6 (t : Fin cfg6.N) (i : S20000x128.Idx) :
    i ∈ ((cfg6.win 3).blk t).view.set ↔ ∀ a : Fin 2, win6_3.index t a * S4000x128.size a ≤ (i a).val ∧ (i a).val < win6_3.index t a * S4000x128.size a + S4000x128.size a := by
  show i ∈ ((View.whole main_v199).slice (win6_3.rect t)).set ↔ _
  rw [View.set_slice_whole, Rect.mem_set_unit]
  exact Iff.rfl

/-- The result blocks tile the result array: row i lies in the block of point i / 4000, which is written back. -/
theorem cover6 (i : S20000x128.Idx) :
    ∃ t : Fin cfg6.N, (cfg6.win 3).flush t = true ∧ i ∈ ((cfg6.win 3).blk t).view.set := by
  have hi0 : (i 0).val < 20000 := (i 0).isLt
  have hi1 : (i 1).val < 128 := (i 1).isLt
  have hN : grid6.N = 5 := pts6
  let t : Fin cfg6.N := ⟨(i 0).val / 4000, by show (i 0).val / 4000 < grid6.N; rw [hN]; omega⟩
  have ht : t.val = (i 0).val / 4000 := rfl
  obtain ⟨-, -, -, -, -, -, e0, e1⟩ := idx6 t
  refine ⟨t, flush6_3 t, ?_⟩
  rw [mem_blk6]
  intro a
  match a with
  | ⟨0, _⟩ => show win6_3.index t (0 : Fin 2) * 4000 ≤ (i 0).val ∧ (i 0).val < win6_3.index t (0 : Fin 2) * 4000 + 4000; rw [e0, ht]; omega
  | ⟨1, _⟩ => show win6_3.index t (1 : Fin 2) * 128 ≤ (i 1).val ∧ (i 1).val < win6_3.index t (1 : Fin 2) * 128 + 128; rw [e1]; omega

end Cert.KernelIdeal.Hand

end
-- ==== Proof.Lin.Reg6.lean ====
/- Region 6 (a relation product: 20000 rows of 128 against 128 × 128 weights, zero bias, 5 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 5 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk6

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_6 (c : Dev nD)
    (hb : V c (Pipeline.arrRef spec6 2) = shapeCast _ (broadcastInDim S128 ![] bcast_S_S128 (constant (F := Ideal) S_ .f32 0x00000000#32)) shapeCasts_S128_S1x128)
    (X : FVec Ideal S20000x128 .f32) (W : FVec Ideal S128x128 .f32)
    (hX : V c (Pipeline.arrRef spec6 0) = X) (hW : V c (Pipeline.arrRef spec6 1) = W)
    (G : FVec Ideal S20000x128 .f32)
    (hG : ∀ (r : Fin 20000) (q : Fin 128), G (ix2 r q) = ∑ k : Fin 128, X (ix2 r k) * W (ix2 k q))
    (t : Fin cfg6.N) :
    (dat6 (F := Ideal) V c).flushed 3 t = ((cfg6.win 3).blk t).view.read (Elt Ideal) G := by
  show (cfg6.win 3).cut (grid6.coords t) ((dat6 (F := Ideal) V c).after 3 t) = _
  rw [after6_3]
  unfold out6_3
  rw [View.canon_unit_zero zeros2]
  simp only [View.ld_unit_zero (S := S4000x128) zeros2, View.ld_unit_zero (S := S128x128) zeros2, View.ld_unit_zero (S := S1x128) zeros2]
  funext j
  obtain ⟨p, q, rfl⟩ : ∃ (p : Fin 4000) (q : Fin 128), j = ix2 p q := ⟨j 0, j 1, eq_ix2 j⟩
  have hr : 4000 * t.val + p.val < 20000 := by have := lt6 t; omega
  rw [View.read_apply]
  show k3_pay1 (F := Ideal) (iblk6 V c 0 t) (iblk6 V c 1 t) (iblk6 V c 2 t) (ix2 p q) = G (((cfg6.win 3).blk t).view.emb (ix2 p q))
  rw [blk6_3_emb t p q ⟨_, hr⟩ rfl, hG]
  refine (k3_pay1_apply _ _ _ p q).trans ?_
  have h2 : (iblk6 V c 2 t : Vec Ideal S1x128 .f32) (ix2 (0 : Fin 1) q) = (0 : EReal) :=
    (blk6_2_read (V c (Pipeline.arrRef spec6 2)) t 0 q).trans ((congrFun hb _).trans (zero_bias128_apply _))
  rw [h2, add_zero]
  exact Finset.sum_congr rfl fun k _ => congrArg₂ (· * ·) ((blk6_0_read _ t p k ⟨_, hr⟩ rfl).trans (congrFun hX _)) ((blk6_1_read _ t k q).trans (congrFun hW _))

/-- The result array after the region: the host product of the row array and the weight array as the
    region found them. -/
theorem lin_6 (c : Dev nD)
    (hb : V c (Pipeline.arrRef spec6 2) = shapeCast _ (broadcastInDim S128 ![] bcast_S_S128 (constant (F := Ideal) S_ .f32 0x00000000#32)) shapeCasts_S128_S1x128) :
    (dat6 (F := Ideal) V c).arrAt 3 cfg6.N
      = Host.dotGeneral (F := Ideal) (φ₁ := .f32) (φ₂ := .f32) Cert.ReferenceIdeal.dot_S20000x128_S128x128_S20000x128_1_0_0_1_n_n none (V c (Pipeline.arrRef spec6 0)) (V c (Pipeline.arrRef spec6 1)) :=
  (dat6 (F := Ideal) V c).arrAt_eq_of_cover 3 _ (fun t _ => flushed_6 V c hb _ _ rfl rfl _ (fun r q => dot_h20000x128_apply _ _ r q) t) cover6

end Cert.KernelIdeal.Hand

end
-- ==== Proof.Lin.Blk7.lean ====
/- Region 7 (a linear region: 60000 rows of 128 into 128 columns, 15 grid points of 4000 rows): where
   each window's block sits in its array. At point t the row window and the result window are rows
   4000 t … 4000 t + 3999, the weight and bias windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The grid has 15 points. -/
theorem pts7 : grid7.N = 15 := by decide

/-- A grid point is below 15. -/
theorem lt7 (t : Fin cfg7.N) : t.val < 15 := by
  have h : t.val < grid7.N := t.isLt
  rw [pts7] at h
  exact h

/-- Element (p, k) of the row block at point t is the array's element (4000 t + p, k). -/
theorem blk7_0_read (A : (⟨S60000x128, .f32⟩ : BufTy).Contents (Elt Ideal)) (t : Fin cfg7.N) (p : Fin 4000) (k : Fin 128)
    (r : Fin 60000) (hr : r.val = 4000 * t.val + p.val) :
    ((cfg7.win 0).blk t).view.read (Elt Ideal) A (ix2 p k) = A (ix2 r k) := by
  obtain ⟨e0, e1, -⟩ := idx7 t
  rw [View.read_apply]
  show A (((cfg7.win 0).blk t).view.emb (ix2 p k)) = A (ix2 r k)
  refine congrArg A (funext fun a => Fin.ext ?_)
  match a with
  | ⟨0, _⟩ => show win7_0.index t (0 : Fin 2) * 4000 + 1 * p.val = r.val; rw [e0, hr]; omega
  | ⟨1, _⟩ => show win7_0.index t (1 : Fin 2) * 128 + 1 * k.val = k.val; rw [e1]; omega

/-- The weight block at any point is the whole weight array. -/
theorem blk7_1_read (A : (⟨S128x128, .f32⟩ : BufTy).Contents (Elt Ideal)) (t : Fin cfg7.N) (k : Fin 128) (q : Fin 128) :
    ((cfg7.win 1).blk t).view.read (Elt Ideal) A (ix2 k q) = A (ix2 k q) := by
  obtain ⟨-, -, e0, e1, -⟩ := idx7 t
  rw [View.read_apply]
  show A (((cfg7.win 1).blk t).view.emb (ix2 k q)) = A (ix2 k q)
  refine congrArg A (funext fun a => Fin.ext ?_)
  match a with
  | ⟨0, _⟩ => show win7_1.index t (0 : Fin 2) * 128 + 1 * k.val = k.val; rw [e0]; omega
  | ⟨1, _⟩ => show win7_1.index t (1 : Fin 2) * 128 + 1 * q.val = q.val; rw [e1]; omega

/-- The bias block at any point is the whole one-row bias array. -/
theorem blk7_2_read (A : (⟨S1x128, .f32⟩ : BufTy).Contents (Elt Ideal)) (t : Fin cfg7.N) (z : Fin 1) (q : Fin 128) :
    ((cfg7.win 2).blk t).view.read (Elt Ideal) A (ix2 z q) = A (ix2 z q) := by
  obtain ⟨-, -, -, -, e0, e1, -⟩ := idx7 t
  rw [View.read_apply]
  show A (((cfg7.win 2).blk t).view.emb (ix2 z q)) = A (ix2 z q)
  refine congrArg A (funext fun a => Fin.ext ?_)
  match a with
  | ⟨0, _⟩ => show win7_2.index t (0 : Fin 2) * 1 + 1 * z.val = z.val; rw [e0]; omega
  | ⟨1, _⟩ => show win7_2.index t (1 : Fin 2) * 128 + 1 * q.val = q.val; rw [e1]; omega

/-- Element (p, q) of the result block at point t sits at (4000 t + p, q) of the result array. -/
theorem blk7_3_emb (t : Fin cfg7.N) (p : Fin 4000) (q : Fin 128) (r : Fin 60000) (hr : r.val = 4000 * t.val + p.val) :
    ((cfg7.win 3).blk t).view.emb (ix2 p q) = (ix2 r q : S60000x128.Idx) := by
  obtain ⟨-, -, -, -, -, -, e0, e1⟩ := idx7 t
  refine funext fun a => Fin.ext ?_
  match a with
  | ⟨0, _⟩ => show win7_3.index t (0 : Fin 2) * 4000 + 1 * p.val = r.val; rw [e0, hr]; omega
  | ⟨1, _⟩ => show win7_3.index t (1 : Fin 2) * 128 + 1 * q.val = q.val; rw [e1]; omega

/-- An element of the result array is in point t's block iff each coordinate is in the block's range. -/
theorem mem_blk7 (t : Fin cfg7.N) (i : S60000x128.Idx) :
    i ∈ ((cfg7.win 3).blk t).view.set ↔ ∀ a : Fin 2, win7_3.index t a * S4000x128.size a ≤ (i a).val ∧ (i a).val < win7_3.index t a * S4000x128.size a + S4000x128.size a := by
  show i ∈ ((View.whole main_v261).slice (win7_3.rect t)).set ↔ _
  rw [View.set_slice_whole, Rect.mem_set_unit]
  exact Iff.rfl

/-- The result blocks tile the result array: row i lies in the block of point i / 4000, which is written back. -/
theorem cover7 (i : S60000x128.Idx) :
    ∃ t : Fin cfg7.N, (cfg7.win 3).flush t = true ∧ i ∈ ((cfg7.win 3).blk t).view.set := by
  have hi0 : (i 0).val < 60000 := (i 0).isLt
  have hi1 : (i 1).val < 128 := (i 1).isLt
  have hN : grid7.N = 15 := pts7
  let t : Fin cfg7.N := ⟨(i 0).val / 4000, by show (i 0).val / 4000 < grid7.N; rw [hN]; omega⟩
  have ht : t.val = (i 0).val / 4000 := rfl
  obtain ⟨-, -, -, -, -, -, e0, e1⟩ := idx7 t
  refine ⟨t, flush7_3 t, ?_⟩
  rw [mem_blk7]
  intro a
  match a with
  | ⟨0, _⟩ => show win7_3.index t (0 : Fin 2) * 4000 ≤ (i 0).val ∧ (i 0).val < win7_3.index t (0 : Fin 2) * 4000 + 4000; rw [e0, ht]; omega
  | ⟨1, _⟩ => show win7_3.index t (1 : Fin 2) * 128 ≤ (i 1).val ∧ (i 1).val < win7_3.index t (1 : Fin 2) * 128 + 128; rw [e1]; omega

end Cert.KernelIdeal.Hand

end
-- ==== Proof.Lin.Reg7.lean ====
/- Region 7 (a relation product: 60000 rows of 128 against 128 × 128 weights, zero bias, 15 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 15 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk7

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_7 (c : Dev nD)
    (hb : V c (Pipeline.arrRef spec7 2) = shapeCast _ (broadcastInDim S128 ![] bcast_S_S128 (constant (F := Ideal) S_ .f32 0x00000000#32)) shapeCasts_S128_S1x128)
    (X : FVec Ideal S60000x128 .f32) (W : FVec Ideal S128x128 .f32)
    (hX : V c (Pipeline.arrRef spec7 0) = X) (hW : V c (Pipeline.arrRef spec7 1) = W)
    (G : FVec Ideal S60000x128 .f32)
    (hG : ∀ (r : Fin 60000) (q : Fin 128), G (ix2 r q) = ∑ k : Fin 128, X (ix2 r k) * W (ix2 k q))
    (t : Fin cfg7.N) :
    (dat7 (F := Ideal) V c).flushed 3 t = ((cfg7.win 3).blk t).view.read (Elt Ideal) G := by
  show (cfg7.win 3).cut (grid7.coords t) ((dat7 (F := Ideal) V c).after 3 t) = _
  rw [after7_3]
  unfold out7_3
  rw [View.canon_unit_zero zeros2]
  simp only [View.ld_unit_zero (S := S4000x128) zeros2, View.ld_unit_zero (S := S128x128) zeros2, View.ld_unit_zero (S := S1x128) zeros2]
  funext j
  obtain ⟨p, q, rfl⟩ : ∃ (p : Fin 4000) (q : Fin 128), j = ix2 p q := ⟨j 0, j 1, eq_ix2 j⟩
  have hr : 4000 * t.val + p.val < 60000 := by have := lt7 t; omega
  rw [View.read_apply]
  show k3_pay1 (F := Ideal) (iblk7 V c 0 t) (iblk7 V c 1 t) (iblk7 V c 2 t) (ix2 p q) = G (((cfg7.win 3).blk t).view.emb (ix2 p q))
  rw [blk7_3_emb t p q ⟨_, hr⟩ rfl, hG]
  refine (k3_pay1_apply _ _ _ p q).trans ?_
  have h2 : (iblk7 V c 2 t : Vec Ideal S1x128 .f32) (ix2 (0 : Fin 1) q) = (0 : EReal) :=
    (blk7_2_read (V c (Pipeline.arrRef spec7 2)) t 0 q).trans ((congrFun hb _).trans (zero_bias128_apply _))
  rw [h2, add_zero]
  exact Finset.sum_congr rfl fun k _ => congrArg₂ (· * ·) ((blk7_0_read _ t p k ⟨_, hr⟩ rfl).trans (congrFun hX _)) ((blk7_1_read _ t k q).trans (congrFun hW _))

/-- The result array after the region: the host product of the row array and the weight array as the
    region found them. -/
theorem lin_7 (c : Dev nD)
    (hb : V c (Pipeline.arrRef spec7 2) = shapeCast _ (broadcastInDim S128 ![] bcast_S_S128 (constant (F := Ideal) S_ .f32 0x00000000#32)) shapeCasts_S128_S1x128) :
    (dat7 (F := Ideal) V c).arrAt 3 cfg7.N
      = Host.dotGeneral (F := Ideal) (φ₁ := .f32) (φ₂ := .f32) Cert.ReferenceIdeal.dot_S60000x128_S128x128_S60000x128_1_0_0_1_n_n none (V c (Pipeline.arrRef spec7 0)) (V c (Pipeline.arrRef spec7 1)) :=
  (dat7 (F := Ideal) V c).arrAt_eq_of_cover 3 _ (fun t _ => flushed_7 V c hb _ _ rfl rfl _ (fun r q => dot_h60000x128_apply _ _ r q) t) cover7

end Cert.KernelIdeal.Hand

end
-- ==== Proof.Lin.Blk8.lean ====
/- Region 8 (a linear region: 20000 rows of 128 into 128 columns, 5 grid points of 4000 rows): where
   each window's block sits in its array. At point t the row window and the result window are rows
   4000 t … 4000 t + 3999, the weight and bias windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The grid has 5 points. -/
theorem pts8 : grid8.N = 5 := by decide

/-- A grid point is below 5. -/
theorem lt8 (t : Fin cfg8.N) : t.val < 5 := by
  have h : t.val < grid8.N := t.isLt
  rw [pts8] at h
  exact h

/-- Element (p, k) of the row block at point t is the array's element (4000 t + p, k). -/
theorem blk8_0_read (A : (⟨S20000x128, .f32⟩ : BufTy).Contents (Elt Ideal)) (t : Fin cfg8.N) (p : Fin 4000) (k : Fin 128)
    (r : Fin 20000) (hr : r.val = 4000 * t.val + p.val) :
    ((cfg8.win 0).blk t).view.read (Elt Ideal) A (ix2 p k) = A (ix2 r k) := by
  obtain ⟨e0, e1, -⟩ := idx8 t
  rw [View.read_apply]
  show A (((cfg8.win 0).blk t).view.emb (ix2 p k)) = A (ix2 r k)
  refine congrArg A (funext fun a => Fin.ext ?_)
  match a with
  | ⟨0, _⟩ => show win8_0.index t (0 : Fin 2) * 4000 + 1 * p.val = r.val; rw [e0, hr]; omega
  | ⟨1, _⟩ => show win8_0.index t (1 : Fin 2) * 128 + 1 * k.val = k.val; rw [e1]; omega

/-- The weight block at any point is the whole weight array. -/
theorem blk8_1_read (A : (⟨S128x128, .f32⟩ : BufTy).Contents (Elt Ideal)) (t : Fin cfg8.N) (k : Fin 128) (q : Fin 128) :
    ((cfg8.win 1).blk t).view.read (Elt Ideal) A (ix2 k q) = A (ix2 k q) := by
  obtain ⟨-, -, e0, e1, -⟩ := idx8 t
  rw [View.read_apply]
  show A (((cfg8.win 1).blk t).view.emb (ix2 k q)) = A (ix2 k q)
  refine congrArg A (funext fun a => Fin.ext ?_)
  match a with
  | ⟨0, _⟩ => show win8_1.index t (0 : Fin 2) * 128 + 1 * k.val = k.val; rw [e0]; omega
  | ⟨1, _⟩ => show win8_1.index t (1 : Fin 2) * 128 + 1 * q.val = q.val; rw [e1]; omega

/-- The bias block at any point is the whole one-row bias array. -/
theorem blk8_2_read (A : (⟨S1x128, .f32⟩ : BufTy).Contents (Elt Ideal)) (t : Fin cfg8.N) (z : Fin 1) (q : Fin 128) :
    ((cfg8.win 2).blk t).view.read (Elt Ideal) A (ix2 z q) = A (ix2 z q) := by
  obtain ⟨-, -, -, -, e0, e1, -⟩ := idx8 t
  rw [View.read_apply]
  show A (((cfg8.win 2).blk t).view.emb (ix2 z q)) = A (ix2 z q)
  refine congrArg A (funext fun a => Fin.ext ?_)
  match a with
  | ⟨0, _⟩ => show win8_2.index t (0 : Fin 2) * 1 + 1 * z.val = z.val; rw [e0]; omega
  | ⟨1, _⟩ => show win8_2.index t (1 : Fin 2) * 128 + 1 * q.val = q.val; rw [e1]; omega

/-- Element (p, q) of the result block at point t sits at (4000 t + p, q) of the result array. -/
theorem blk8_3_emb (t : Fin cfg8.N) (p : Fin 4000) (q : Fin 128) (r : Fin 20000) (hr : r.val = 4000 * t.val + p.val) :
    ((cfg8.win 3).blk t).view.emb (ix2 p q) = (ix2 r q : S20000x128.Idx) := by
  obtain ⟨-, -, -, -, -, -, e0, e1⟩ := idx8 t
  refine funext fun a => Fin.ext ?_
  match a with
  | ⟨0, _⟩ => show win8_3.index t (0 : Fin 2) * 4000 + 1 * p.val = r.val; rw [e0, hr]; omega
  | ⟨1, _⟩ => show win8_3.index t (1 : Fin 2) * 128 + 1 * q.val = q.val; rw [e1]; omega

/-- An element of the result array is in point t's block iff each coordinate is in the block's range. -/
theorem mem_blk8 (t : Fin cfg8.N) (i : S20000x128.Idx) :
    i ∈ ((cfg8.win 3).blk t).view.set ↔ ∀ a : Fin 2, win8_3.index t a * S4000x128.size a ≤ (i a).val ∧ (i a).val < win8_3.index t a * S4000x128.size a + S4000x128.size a := by
  show i ∈ ((View.whole main_v323).slice (win8_3.rect t)).set ↔ _
  rw [View.set_slice_whole, Rect.mem_set_unit]
  exact Iff.rfl

/-- The result blocks tile the result array: row i lies in the block of point i / 4000, which is written back. -/
theorem cover8 (i : S20000x128.Idx) :
    ∃ t : Fin cfg8.N, (cfg8.win 3).flush t = true ∧ i ∈ ((cfg8.win 3).blk t).view.set := by
  have hi0 : (i 0).val < 20000 := (i 0).isLt
  have hi1 : (i 1).val < 128 := (i 1).isLt
  have hN : grid8.N = 5 := pts8
  let t : Fin cfg8.N := ⟨(i 0).val / 4000, by show (i 0).val / 4000 < grid8.N; rw [hN]; omega⟩
  have ht : t.val = (i 0).val / 4000 := rfl
  obtain ⟨-, -, -, -, -, -, e0, e1⟩ := idx8 t
  refine ⟨t, flush8_3 t, ?_⟩
  rw [mem_blk8]
  intro a
  match a with
  | ⟨0, _⟩ => show win8_3.index t (0 : Fin 2) * 4000 ≤ (i 0).val ∧ (i 0).val < win8_3.index t (0 : Fin 2) * 4000 + 4000; rw [e0, ht]; omega
  | ⟨1, _⟩ => show win8_3.index t (1 : Fin 2) * 128 ≤ (i 1).val ∧ (i 1).val < win8_3.index t (1 : Fin 2) * 128 + 128; rw [e1]; omega

end Cert.KernelIdeal.Hand

end
-- ==== Proof.Lin.Reg8.lean ====
/- Region 8 (a relation product: 20000 rows of 128 against 128 × 128 weights, zero bias, 5 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 5 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk8

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_8 (c : Dev nD)
    (hb : V c (Pipeline.arrRef spec8 2) = shapeCast _ (broadcastInDim S128 ![] bcast_S_S128 (constant (F := Ideal) S_ .f32 0x00000000#32)) shapeCasts_S128_S1x128)
    (X : FVec Ideal S20000x128 .f32) (W : FVec Ideal S128x128 .f32)
    (hX : V c (Pipeline.arrRef spec8 0) = X) (hW : V c (Pipeline.arrRef spec8 1) = W)
    (G : FVec Ideal S20000x128 .f32)
    (hG : ∀ (r : Fin 20000) (q : Fin 128), G (ix2 r q) = ∑ k : Fin 128, X (ix2 r k) * W (ix2 k q))
    (t : Fin cfg8.N) :
    (dat8 (F := Ideal) V c).flushed 3 t = ((cfg8.win 3).blk t).view.read (Elt Ideal) G := by
  show (cfg8.win 3).cut (grid8.coords t) ((dat8 (F := Ideal) V c).after 3 t) = _
  rw [after8_3]
  unfold out8_3
  rw [View.canon_unit_zero zeros2]
  simp only [View.ld_unit_zero (S := S4000x128) zeros2, View.ld_unit_zero (S := S128x128) zeros2, View.ld_unit_zero (S := S1x128) zeros2]
  funext j
  obtain ⟨p, q, rfl⟩ : ∃ (p : Fin 4000) (q : Fin 128), j = ix2 p q := ⟨j 0, j 1, eq_ix2 j⟩
  have hr : 4000 * t.val + p.val < 20000 := by have := lt8 t; omega
  rw [View.read_apply]
  show k3_pay1 (F := Ideal) (iblk8 V c 0 t) (iblk8 V c 1 t) (iblk8 V c 2 t) (ix2 p q) = G (((cfg8.win 3).blk t).view.emb (ix2 p q))
  rw [blk8_3_emb t p q ⟨_, hr⟩ rfl, hG]
  refine (k3_pay1_apply _ _ _ p q).trans ?_
  have h2 : (iblk8 V c 2 t : Vec Ideal S1x128 .f32) (ix2 (0 : Fin 1) q) = (0 : EReal) :=
    (blk8_2_read (V c (Pipeline.arrRef spec8 2)) t 0 q).trans ((congrFun hb _).trans (zero_bias128_apply _))
  rw [h2, add_zero]
  exact Finset.sum_congr rfl fun k _ => congrArg₂ (· * ·) ((blk8_0_read _ t p k ⟨_, hr⟩ rfl).trans (congrFun hX _)) ((blk8_1_read _ t k q).trans (congrFun hW _))

/-- The result array after the region: the host product of the row array and the weight array as the
    region found them. -/
theorem lin_8 (c : Dev nD)
    (hb : V c (Pipeline.arrRef spec8 2) = shapeCast _ (broadcastInDim S128 ![] bcast_S_S128 (constant (F := Ideal) S_ .f32 0x00000000#32)) shapeCasts_S128_S1x128) :
    (dat8 (F := Ideal) V c).arrAt 3 cfg8.N
      = Host.dotGeneral (F := Ideal) (φ₁ := .f32) (φ₂ := .f32) Cert.ReferenceIdeal.dot_S20000x128_S128x128_S20000x128_1_0_0_1_n_n none (V c (Pipeline.arrRef spec8 0)) (V c (Pipeline.arrRef spec8 1)) :=
  (dat8 (F := Ideal) V c).arrAt_eq_of_cover 3 _ (fun t _ => flushed_8 V c hb _ _ rfl rfl _ (fun r q => dot_h20000x128_apply _ _ r q) t) cover8

end Cert.KernelIdeal.Hand

end
-- ==== Proof.Ln.Spec.lean ====
/-
  LayerNorm of one row, element by element, on the extended reals; and the two spellings of it — a kernel
  body's (a lane sum by a multi-reduction, a keepdims cast, broadcasts of vectors) and a host reference's
  (a host reduce from a zero initial value, broadcasts in dimensions) — each read at an index (i, j) as that
  one expression of row i. Stated over any number of rows N and any width D, with the float patterns of the
  width and of the epsilon as parameters, so that every LayerNorm region of the program is an instance.

  At the ideal values every float operation is exact, so no algebraic law is used but 0 + x = x (the host's
  sum starts from an initial value, which is the pattern of zero; the kernel's accumulator, the neutral zero,
  is dropped by the reading of a multi-reduction).
-/
import Idealize.ShloMosaic.Lib.KernelVsHost
import Idealize.ShloMosaic.Lib.ValueLayout
import Idealize.ShloMosaic.Lib.IdealHost

noncomputable section

namespace Cert.KernelIdeal.Hand.Ln

open Idealize.ShloMosaic Idealize.ShloMosaic.ValueIdx

/-- The zero offsets of a rank-2 access, however spelt. -/
theorem hz : (![0, 0] : Fin 2 → Nat) = fun _ => 0 := funext fun a => by fin_cases a <;> rfl

/-! ## The expression -/

/-- The mean of a row: its sum over the width, divided by the width's float pattern. -/
def mean {D : ℕ} (dW : BitVec 32) (x : Fin D → EReal) : EReal :=
  Ideal.div (∑ k : Fin D, x k) (Ideal.ofBits .f32 dW)

/-- The (biased) variance of a row: the mean of the squared deviations from the mean. -/
def var {D : ℕ} (dW : BitVec 32) (x : Fin D → EReal) : EReal :=
  Ideal.div (∑ k : Fin D, (x k - mean dW x) * (x k - mean dW x)) (Ideal.ofBits .f32 dW)

/-- LayerNorm of the row x at lane q with scale g and bias b:
    (x q − mean) · rsqrt (var + eps) · g + b. -/
def elem {D : ℕ} (dW eW : BitVec 32) (x : Fin D → EReal) (g b : EReal) (q : Fin D) : EReal :=
  (x q - mean dW x) * Ideal.rsqrt (var dW x + Ideal.ofBits .f32 eW) * g + b

/-! ## Layout operations of a keepdims reduction, read at an index -/

section Layout
variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array broadcast along axis 0 of [a, 1] reads, at (i, u), the operand at i. -/
theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An [a, 1] column broadcast along axes (0, 1) of [a, b] reads, at (p, c), the column at (p, 0). -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A [b] array broadcast along axis 1 of [1, b] reads, at (u, c), the operand at c. -/
theorem broadcastInDim_b_1b_apply {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

end Layout

/-! ## The reciprocal square root at an index -/

/-- A kernel's reciprocal square root at an index is the ideal one of the element. -/
theorem rsqrt_apply {s : Shape} {φ : FTy} (a : FVec Ideal s φ) (i : s.Idx) : rsqrt a i = Ideal.rsqrt (a i) := rfl

/-- The host's reciprocal square root at an index is the same function of the element. -/
theorem hostRsqrt_apply {s : Shape} {φ : FTy} (a : FVec Ideal s φ) (i : s.Idx) :
    Host.rsqrt a i = Ideal.rsqrt (a i) := rfl

/-! ## The two sums over the lanes of a row -/

/-- The index a reduction over axis 1 of [n, d] inserts the lane k into, at row i, is (i, k). -/
theorem lift_row {n d : ℕ} (h : (⟨2, ![n, d]⟩ : Shape).Reduces [1] ⟨1, ![n]⟩) (i : Fin n) (k : Fin d) :
    h.lift (ix1 i) k = ix2 i k := by
  funext c
  apply Fin.ext
  match c with
  | ⟨0, _⟩ => rfl
  | ⟨1, _⟩ => rfl

/-- A kernel's sum over the lanes, at row i: the sum over the width of the row's elements. -/
theorem multiReduction_row {n d : ℕ} (src : FVec Ideal ⟨2, ![n, d]⟩ .f32) (acc : BitVec 32)
    (h : (⟨2, ![n, d]⟩ : Shape).Reduces [1] ⟨1, ![n]⟩) (hφ : FKind.Formats .f32)
    (hacc : acc = FKind.add.neutral .f32 hφ) (i : Fin n) :
    multiReduction .add [1] ⟨1, ![n]⟩ src acc h hφ hacc (ix1 i) = ∑ k : Fin d, src (ix2 i k) := by
  refine (Ideal.multiReduction_add_single src acc h hφ hacc (ix1 i)).trans ?_
  show ∑ k : Fin d, src (h.lift (ix1 i) k) = _
  exact Finset.sum_congr rfl fun k _ => congrArg src (lift_row h i k)

/-- The host's sum over the lanes from an initial value that is the pattern of zero, at row i: the same sum. -/
theorem hostReduceAdd_row {n d : ℕ} {u : Shape} (x : FVec Ideal ⟨2, ![n, d]⟩ .f32)
    (h' : (⟨2, ![n, d]⟩ : Shape).ReducesTo [1] ⟨1, ![n]⟩) (hu : 0 < u.numel) (i : Fin n) :
    Host.reduceAdd x (constant (F := Ideal) u .f32 0x00000000#32) h' hu (ix1 i) = ∑ k : Fin d, x (ix2 i k) := by
  have h : (⟨2, ![n, d]⟩ : Shape).Reduces [1] ⟨1, ![n]⟩ := ⟨h'.1, Nat.one_pos, h'.2⟩
  show Ideal.hostReduceAdd h' x (Ideal.ofBits .f32 0x00000000#32) (ix1 i) = _
  rw [Ideal.hostReduceAdd_single h' h, Ideal.ofBits_zero_f32, zero_add]
  show ∑ k : Fin d, x (h.lift (ix1 i) k) = _
  exact Finset.sum_congr rfl fun k _ => congrArg x (lift_row h i k)

/-! ## The kernel body's spelling -/

section Body
variable {N D : ℕ} (dW eW : BitVec 32)
    (hcs : (⟨2, ![N, D]⟩ : Shape).ShapeCasts ⟨2, ![N, D]⟩)
    (hr : (⟨2, ![N, D]⟩ : Shape).Reduces [1] ⟨1, ![N]⟩) (hφ : FKind.Formats .f32)
    (hacc : (0x00000000#32 : BitVec 32) = FKind.add.neutral .f32 hφ)
    (hk : (⟨1, ![N]⟩ : Shape).ShapeCasts ⟨2, ![N, 1]⟩)
    (hb : (⟨2, ![N, 1]⟩ : Shape).Broadcasts ⟨2, ![N, D]⟩)
    (hc1 : (⟨2, ![1, D]⟩ : Shape).ShapeCasts ⟨2, ![1, D]⟩)
    (hb1 : (⟨2, ![1, D]⟩ : Shape).Broadcasts ⟨2, ![N, D]⟩)
    (v0 : FVec Ideal ⟨2, ![N, D]⟩ .f32) (v18 v22 : FVec Ideal ⟨2, ![1, D]⟩ .f32)

/-- The kernel body's centred block: the rows less their means — operation for operation the printed payload's
    first seven values, over any extents, with the side conditions as arguments. -/
def bodyCentred : FVec Ideal ⟨2, ![N, D]⟩ .f32 :=
  have v1 : FVec Ideal ⟨2, ![N, D]⟩ .f32 := shapeCast ⟨2, ![N, D]⟩ v0 hcs
  have v2 : FVec Ideal ⟨1, ![N]⟩ .f32 := multiReduction .add [1] ⟨1, ![N]⟩ v1 0x00000000#32 hr hφ hacc
  have v3 : FVec Ideal ⟨2, ![N, 1]⟩ .f32 := shapeCast ⟨2, ![N, 1]⟩ v2 hk
  have cst_1 : Ideal .f32 := Scalar.ofBits .f32 dW
  have v4 : FVec Ideal ⟨2, ![N, 1]⟩ .f32 := broadcast ⟨2, ![N, 1]⟩ cst_1
  have v5 : FVec Ideal ⟨2, ![N, 1]⟩ .f32 := divf v3 v4
  have v6 : FVec Ideal ⟨2, ![N, D]⟩ .f32 := broadcastTo ⟨2, ![N, D]⟩ v5 hb
  subf v1 v6

/-- At (p, q) it is the element less its row's mean. -/
theorem bodyCentred_apply (p : Fin N) (q : Fin D) :
    bodyCentred dW hcs hr hφ hacc hk hb v0 (ix2 p q) = v0 (ix2 p q) - mean dW (fun k => v0 (ix2 p k)) := by
  unfold bodyCentred
  dsimp only
  rw [shapeCast_self v0 hcs, subf_apply, broadcastTo_a1_ab_apply, divf_apply, shapeCast_a_a1_apply,
    multiReduction_row]
  rfl

/-- The kernel body's LayerNorm of a block of N rows of width D, before any activation: operation for
    operation the printed payload, over any extents, with the side conditions as arguments. -/
def body : FVec Ideal ⟨2, ![N, D]⟩ .f32 :=
  have v7 : FVec Ideal ⟨2, ![N, D]⟩ .f32 := bodyCentred dW hcs hr hφ hacc hk hb v0
  have v8 : FVec Ideal ⟨2, ![N, D]⟩ .f32 := mulf v7 v7
  have v9 : FVec Ideal ⟨1, ![N]⟩ .f32 := multiReduction .add [1] ⟨1, ![N]⟩ v8 0x00000000#32 hr hφ hacc
  have v10 : FVec Ideal ⟨2, ![N, 1]⟩ .f32 := shapeCast ⟨2, ![N, 1]⟩ v9 hk
  have cst_3 : Ideal .f32 := Scalar.ofBits .f32 dW
  have v11 : FVec Ideal ⟨2, ![N, 1]⟩ .f32 := broadcast ⟨2, ![N, 1]⟩ cst_3
  have v12 : FVec Ideal ⟨2, ![N, 1]⟩ .f32 := divf v10 v11
  have cst_4 : Ideal .f32 := Scalar.ofBits .f32 eW
  have v13 : FVec Ideal ⟨2, ![N, 1]⟩ .f32 := broadcast ⟨2, ![N, 1]⟩ cst_4
  have v14 : FVec Ideal ⟨2, ![N, 1]⟩ .f32 := addf v12 v13
  have v15 : FVec Ideal ⟨2, ![N, 1]⟩ .f32 := rsqrt v14
  have v16 : FVec Ideal ⟨2, ![N, D]⟩ .f32 := broadcastTo ⟨2, ![N, D]⟩ v15 hb
  have v17 : FVec Ideal ⟨2, ![N, D]⟩ .f32 := mulf v7 v16
  have v19 : FVec Ideal ⟨2, ![1, D]⟩ .f32 := shapeCast ⟨2, ![1, D]⟩ v18 hc1
  have v20 : FVec Ideal ⟨2, ![N, D]⟩ .f32 := broadcastTo ⟨2, ![N, D]⟩ v19 hb1
  have v21 : FVec Ideal ⟨2, ![N, D]⟩ .f32 := mulf v17 v20
  have v23 : FVec Ideal ⟨2, ![1, D]⟩ .f32 := shapeCast ⟨2, ![1, D]⟩ v22 hc1
  have v24 : FVec Ideal ⟨2, ![N, D]⟩ .f32 := broadcastTo ⟨2, ![N, D]⟩ v23 hb1
  have v25 : FVec Ideal ⟨2, ![N, D]⟩ .f32 := addf v21 v24
  v25

/-- THE KERNEL BODY AT AN INDEX: at (p, q) of the block it is LayerNorm of row p at lane q, with the
    scale and the bias read from their one-row blocks at lane q. -/
theorem body_apply (p : Fin N) (q : Fin D) :
    body dW eW hcs hr hφ hacc hk hb hc1 hb1 v0 v18 v22 (ix2 p q)
      = elem dW eW (fun k => v0 (ix2 p k)) (v18 (ix2 (0 : Fin 1) q)) (v22 (ix2 (0 : Fin 1) q)) q := by
  unfold body
  dsimp only
  rw [shapeCast_self v18 hc1, shapeCast_self v22 hc1]
  rw [addf_apply, mulf_apply, mulf_apply, broadcastTo_1b_ab_apply, broadcastTo_1b_ab_apply,
    broadcastTo_a1_ab_apply, bodyCentred_apply, rsqrt_apply, addf_apply, divf_apply, shapeCast_a_a1_apply,
    multiReduction_row, broadcast_apply, broadcast_apply]
  simp only [mulf_apply, bodyCentred_apply]
  rfl

end Body

/-! ## The host reference's spelling -/

section Ref
variable {N D : ℕ} (dW eW : BitVec 32)
    (hred : (⟨2, ![N, D]⟩ : Shape).ReducesTo [1] ⟨1, ![N]⟩) (hu : 0 < (⟨0, ![]⟩ : Shape).numel)
    (b0 : (⟨1, ![N]⟩ : Shape).BroadcastsInDim ⟨2, ![N, 1]⟩ ![0])
    (bs : (⟨0, ![]⟩ : Shape).BroadcastsInDim ⟨2, ![N, 1]⟩ ![])
    (b1 : (⟨2, ![N, 1]⟩ : Shape).BroadcastsInDim ⟨2, ![N, D]⟩ ![0, 1])
    (bg1 : (⟨1, ![D]⟩ : Shape).BroadcastsInDim ⟨2, ![1, D]⟩ ![1])
    (bg : (⟨2, ![1, D]⟩ : Shape).BroadcastsInDim ⟨2, ![N, D]⟩ ![0, 1])
    (X : FVec Ideal ⟨2, ![N, D]⟩ .f32) (G Bs : FVec Ideal ⟨1, ![D]⟩ .f32)

/-- The reference's column of means: the host sum over the lanes, kept as a column, over the width. -/
def refMean : FVec Ideal ⟨2, ![N, 1]⟩ .f32 :=
  Host.divf (broadcastInDim ⟨2, ![N, 1]⟩ ![0] b0
      (Host.reduceAdd X (constant (F := Ideal) ⟨0, ![]⟩ .f32 0x00000000#32) hred hu))
    (broadcastInDim ⟨2, ![N, 1]⟩ ![] bs (constant (F := Ideal) ⟨0, ![]⟩ .f32 dW))

/-- At row i it is the mean of that row. -/
theorem refMean_apply (i : Fin N) (u : Fin 1) :
    refMean dW hred hu b0 bs X (ix2 i u) = mean dW (fun k => X (ix2 i k)) := by
  unfold refMean
  rw [hostDivf_apply, broadcastInDim_a_a1_apply, hostReduceAdd_row, broadcastInDim_scalar_apply]
  rfl

/-- The reference's centred array: the rows less their means. -/
def refCentred : FVec Ideal ⟨2, ![N, D]⟩ .f32 :=
  subf X (broadcastInDim ⟨2, ![N, D]⟩ ![0, 1] b1 (refMean dW hred hu b0 bs X))

/-- At (i, j) it is the element less its row's mean. -/
theorem refCentred_apply (i : Fin N) (j : Fin D) :
    refCentred dW hred hu b0 bs b1 X (ix2 i j) = X (ix2 i j) - mean dW (fun k => X (ix2 i k)) := by
  unfold refCentred
  rw [subf_apply, broadcastInDim_a1_ab_apply, refMean_apply]

/-- The reference's LayerNorm chain, before any activation: operation for operation the reference program's
    own, over any extents, with the side conditions as arguments. -/
def ref : FVec Ideal ⟨2, ![N, D]⟩ .f32 :=
  addf
    (mulf
      (mulf (refCentred dW hred hu b0 bs b1 X)
        (broadcastInDim ⟨2, ![N, D]⟩ ![0, 1] b1
          (Host.rsqrt
            (addf
              (Host.divf
                (broadcastInDim ⟨2, ![N, 1]⟩ ![0] b0
                  (Host.reduceAdd
                    (mulf (refCentred dW hred hu b0 bs b1 X) (refCentred dW hred hu b0 bs b1 X))
                    (constant (F := Ideal) ⟨0, ![]⟩ .f32 0x00000000#32) hred hu))
                (broadcastInDim ⟨2, ![N, 1]⟩ ![] bs (constant (F := Ideal) ⟨0, ![]⟩ .f32 dW)))
              (broadcastInDim ⟨2, ![N, 1]⟩ ![] bs (constant (F := Ideal) ⟨0, ![]⟩ .f32 eW))))))
      (broadcastInDim ⟨2, ![N, D]⟩ ![0, 1] bg (broadcastInDim ⟨2, ![1, D]⟩ ![1] bg1 G)))
    (broadcastInDim ⟨2, ![N, D]⟩ ![0, 1] bg (broadcastInDim ⟨2, ![1, D]⟩ ![1] bg1 Bs))

/-- THE REFERENCE'S CHAIN AT AN INDEX: at (i, j) it is LayerNorm of row i at lane j, with the scale and the
    bias at lane j. -/
theorem ref_apply (i : Fin N) (j : Fin D) :
    ref dW eW hred hu b0 bs b1 bg1 bg X G Bs (ix2 i j)
      = elem dW eW (fun k => X (ix2 i k)) (G (ix1 j)) (Bs (ix1 j)) j := by
  unfold ref
  rw [addf_apply, mulf_apply, mulf_apply, refCentred_apply,
    broadcastInDim_oneRow_apply, broadcastInDim_b_1b_apply, broadcastInDim_oneRow_apply, broadcastInDim_b_1b_apply,
    broadcastInDim_a1_ab_apply]
  rw [hostRsqrt_apply, addf_apply, hostDivf_apply, broadcastInDim_a_a1_apply, hostReduceAdd_row,
    broadcastInDim_scalar_apply, broadcastInDim_scalar_apply]
  simp only [mulf_apply, refCentred_apply]
  rfl

end Ref

end Cert.KernelIdeal.Hand.Ln

end
-- ==== Proof.Ln.Pay.lean ====
/-
  The LayerNorm kernel bodies' payloads read at an index of their block. Each printed payload is the generic
  body of Ln/Spec.lean at its extents and float patterns (width 128 with pattern 0x43000000 = 128.0, followed by
  a maximum against zero, in regions 9, 10, 11; width 64 with pattern 0x42800000 = 64.0 and no maximum in
  regions 18, 19, 20; epsilon 0x3727C5AC throughout), by unfolding; so at (p, q) it is LayerNorm of row p of
  the rows block at lane q, with the scale and the bias read from their one-row blocks at lane q.
-/
import proofs.«147021_j7619271983570_1_alg».proof.Proof.Gen.KernelIdeal.Skeleton
import proofs.«147021_j7619271983570_1_alg».proof.Proof.Ln.Spec

noncomputable section

namespace Cert.KernelIdeal.Hand

open Cert.KernelIdeal Cert.KernelIdeal.Gen Idealize.ShloMosaic Idealize.ShloMosaic.ValueIdx

/-! ## Width 128, then a maximum against zero -/

/-- Region 9's payload is the generic body at 4000 × 128, then the maximum against the zero splat. -/
theorem k9_pay1_eq (v0 : Vec Ideal S4000x128 .f32) (v18 v22 : Vec Ideal S1x128 .f32) :
    k9_pay1 (F := Ideal) v0 v18 v22
      = maximumf (Ln.body 0x43000000#32 0x3727C5AC#32 shapeCasts_S4000x128_S4000x128 reduces_S4000x128_S4000
          (.inl rfl) rfl shapeCasts_S4000_S4000x1 broadcasts_S4000x1_S4000x128 shapeCasts_S1x128_S1x128
          broadcasts_S1x128_S4000x128 v0 v18 v22)
        (broadcast S4000x128 (Scalar.ofBits (F := Ideal) .f32 0x00000000#32)) := rfl

/-- Regions 10 and 11 print the same payload. -/
theorem k10_pay1_eq (v0 : Vec Ideal S4000x128 .f32) (v18 v22 : Vec Ideal S1x128 .f32) :
    k10_pay1 (F := Ideal) v0 v18 v22 = k9_pay1 (F := Ideal) v0 v18 v22 := rfl
theorem k11_pay1_eq (v0 : Vec Ideal S4000x128 .f32) (v18 v22 : Vec Ideal S1x128 .f32) :
    k11_pay1 (F := Ideal) v0 v18 v22 = k9_pay1 (F := Ideal) v0 v18 v22 := rfl

/-- REGION 9's PAYLOAD AT (p, q): the maximum of LayerNorm of row p at lane q and zero. -/
theorem k9_pay1_apply (v0 : Vec Ideal S4000x128 .f32) (v18 v22 : Vec Ideal S1x128 .f32) (p : Fin 4000) (q : Fin 128) :
    k9_pay1 (F := Ideal) v0 v18 v22 (ix2 p q)
      = max (Ln.elem 0x43000000#32 0x3727C5AC#32 (fun k => v0 (ix2 p k)) (v18 (ix2 (0 : Fin 1) q))
          (v22 (ix2 (0 : Fin 1) q)) q) (Ideal.ofBits .f32 0x00000000#32) := by
  rw [k9_pay1_eq, maximumf_apply]
  exact congrArg (fun x => max x (Ideal.ofBits .f32 0x00000000#32))
    (Ln.body_apply 0x43000000#32 0x3727C5AC#32 shapeCasts_S4000x128_S4000x128 reduces_S4000x128_S4000 (.inl rfl) rfl
      shapeCasts_S4000_S4000x1 broadcasts_S4000x1_S4000x128 shapeCasts_S1x128_S1x128 broadcasts_S1x128_S4000x128
      v0 v18 v22 p q)

theorem k10_pay1_apply (v0 : Vec Ideal S4000x128 .f32) (v18 v22 : Vec Ideal S1x128 .f32) (p : Fin 4000) (q : Fin 128) :
    k10_pay1 (F := Ideal) v0 v18 v22 (ix2 p q)
      = max (Ln.elem 0x43000000#32 0x3727C5AC#32 (fun k => v0 (ix2 p k)) (v18 (ix2 (0 : Fin 1) q))
          (v22 (ix2 (0 : Fin 1) q)) q) (Ideal.ofBits .f32 0x00000000#32) :=
  (congrFun (k10_pay1_eq v0 v18 v22) _).trans (k9_pay1_apply v0 v18 v22 p q)

theorem k11_pay1_apply (v0 : Vec Ideal S4000x128 .f32) (v18 v22 : Vec Ideal S1x128 .f32) (p : Fin 4000) (q : Fin 128) :
    k11_pay1 (F := Ideal) v0 v18 v22 (ix2 p q)
      = max (Ln.elem 0x43000000#32 0x3727C5AC#32 (fun k => v0 (ix2 p k)) (v18 (ix2 (0 : Fin 1) q))
          (v22 (ix2 (0 : Fin 1) q)) q) (Ideal.ofBits .f32 0x00000000#32) :=
  (congrFun (k11_pay1_eq v0 v18 v22) _).trans (k9_pay1_apply v0 v18 v22 p q)

/-! ## Width 64, no maximum -/

/-- Region 18's payload is the generic body at 4000 × 64. -/
theorem k18_pay1_eq (v0 : Vec Ideal S4000x64 .f32) (v18 v22 : Vec Ideal S1x64 .f32) :
    k18_pay1 (F := Ideal) v0 v18 v22
      = Ln.body 0x42800000#32 0x3727C5AC#32 shapeCasts_S4000x64_S4000x64 reduces_S4000x64_S4000
          (.inl rfl) rfl shapeCasts_S4000_S4000x1 broadcasts_S4000x1_S4000x64 shapeCasts_S1x64_S1x64
          broadcasts_S1x64_S4000x64 v0 v18 v22 := rfl

/-- Regions 19 and 20 print the same payload. -/
theorem k19_pay1_eq (v0 : Vec Ideal S4000x64 .f32) (v18 v22 : Vec Ideal S1x64 .f32) :
    k19_pay1 (F := Ideal) v0 v18 v22 = k18_pay1 (F := Ideal) v0 v18 v22 := rfl
theorem k20_pay1_eq (v0 : Vec Ideal S4000x64 .f32) (v18 v22 : Vec Ideal S1x64 .f32) :
    k20_pay1 (F := Ideal) v0 v18 v22 = k18_pay1 (F := Ideal) v0 v18 v22 := rfl

/-- REGION 18's PAYLOAD AT (p, q): LayerNorm of row p at lane q. -/
theorem k18_pay1_apply (v0 : Vec Ideal S4000x64 .f32) (v18 v22 : Vec Ideal S1x64 .f32) (p : Fin 4000) (q : Fin 64) :
    k18_pay1 (F := Ideal) v0 v18 v22 (ix2 p q)
      = Ln.elem 0x42800000#32 0x3727C5AC#32 (fun k => v0 (ix2 p k)) (v18 (ix2 (0 : Fin 1) q))
          (v22 (ix2 (0 : Fin 1) q)) q := by
  rw [k18_pay1_eq]
  exact Ln.body_apply 0x42800000#32 0x3727C5AC#32 shapeCasts_S4000x64_S4000x64 reduces_S4000x64_S4000 (.inl rfl) rfl
    shapeCasts_S4000_S4000x1 broadcasts_S4000x1_S4000x64 shapeCasts_S1x64_S1x64 broadcasts_S1x64_S4000x64
    v0 v18 v22 p q

theorem k19_pay1_apply (v0 : Vec Ideal S4000x64 .f32) (v18 v22 : Vec Ideal S1x64 .f32) (p : Fin 4000) (q : Fin 64) :
    k19_pay1 (F := Ideal) v0 v18 v22 (ix2 p q)
      = Ln.elem 0x42800000#32 0x3727C5AC#32 (fun k => v0 (ix2 p k)) (v18 (ix2 (0 : Fin 1) q))
          (v22 (ix2 (0 : Fin 1) q)) q :=
  (congrFun (k19_pay1_eq v0 v18 v22) _).trans (k18_pay1_apply v0 v18 v22 p q)

theorem k20_pay1_apply (v0 : Vec Ideal S4000x64 .f32) (v18 v22 : Vec Ideal S1x64 .f32) (p : Fin 4000) (q : Fin 64) :
    k20_pay1 (F := Ideal) v0 v18 v22 (ix2 p q)
      = Ln.elem 0x42800000#32 0x3727C5AC#32 (fun k => v0 (ix2 p k)) (v18 (ix2 (0 : Fin 1) q))
          (v22 (ix2 (0 : Fin 1) q)) q :=
  (congrFun (k20_pay1_eq v0 v18 v22) _).trans (k18_pay1_apply v0 v18 v22 p q)

end Cert.KernelIdeal.Hand

end
-- ==== Proof.Ln.Host.lean ====
/-
  The reference program's LayerNorm chains, each composed into one term of its three atoms (the rows, the scale,
  the bias), and read at an index: the term is the generic chain of Ln/Spec.lean at its extents and float
  patterns, by unfolding, so at (i, j) it is LayerNorm of row i at lane j (then, after the first layer, the
  maximum against zero). Four shapes occur: 20000 and 60000 rows, width 128 with the ReLU (first layer) and
  width 64 without (second layer).
-/
import proofs.«147021_j7619271983570_1_alg».proof.Proof.Gen.ReferenceIdeal
import proofs.«147021_j7619271983570_1_alg».proof.Proof.Ln.Spec

noncomputable section

namespace Cert.KernelIdeal.Hand

open Idealize.ShloMosaic Idealize.ShloMosaic.ValueIdx

/-- The reference's LayerNorm of a 20000 × 128 array followed by its ReLU (a maximum against the broadcast zero):
    the reference program's own operations composed into one term of the rows X, the scale G and the bias Bs. -/
abbrev refLnRelu_20000x128 (X : FVec Ideal Cert.ReferenceIdeal.S20000x128 .f32) (G Bs : FVec Ideal Cert.ReferenceIdeal.S128 .f32) : FVec Ideal Cert.ReferenceIdeal.S20000x128 .f32 :=
  (maximumf (F := Ideal) (addf (F := Ideal) (mulf (F := Ideal) (mulf (F := Ideal) (subf (F := Ideal) X (broadcastInDim Cert.ReferenceIdeal.S20000x128 ![0, 1] Cert.ReferenceIdeal.Gen.bcast_S20000x1_S20000x128_0_1 (Host.divf (F := Ideal) (broadcastInDim Cert.ReferenceIdeal.S20000x1 ![0] Cert.ReferenceIdeal.Gen.bcast_S20000_S20000x1_0 (Host.reduceAdd (F := Ideal) X (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32))))) (broadcastInDim Cert.ReferenceIdeal.S20000x128 ![0, 1] Cert.ReferenceIdeal.Gen.bcast_S20000x1_S20000x128_0_1 (Host.rsqrt (F := Ideal) (addf (F := Ideal) (Host.divf (F := Ideal) (broadcastInDim Cert.ReferenceIdeal.S20000x1 ![0] Cert.ReferenceIdeal.Gen.bcast_S20000_S20000x1_0 (Host.reduceAdd (F := Ideal) (mulf (F := Ideal) (subf (F := Ideal) X (broadcastInDim Cert.ReferenceIdeal.S20000x128 ![0, 1] Cert.ReferenceIdeal.Gen.bcast_S20000x1_S20000x128_0_1 (Host.divf (F := Ideal) (broadcastInDim Cert.ReferenceIdeal.S20000x1 ![0] Cert.ReferenceIdeal.Gen.bcast_S20000_S20000x1_0 (Host.reduceAdd (F := Ideal) X (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32))))) (subf (F := Ideal) X (broadcastInDim Cert.ReferenceIdeal.S20000x128 ![0, 1] Cert.ReferenceIdeal.Gen.bcast_S20000x1_S20000x128_0_1 (Host.divf (F := Ideal) (broadcastInDim Cert.ReferenceIdeal.S20000x1 ![0] Cert.ReferenceIdeal.Gen.bcast_S20000_S20000x1_0 (Host.reduceAdd (F := Ideal) X (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32)))))) (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32))) (broadcastInDim Cert.ReferenceIdeal.S20000x1 ![] Cert.ReferenceIdeal.Gen.bcast_S_S20000x1 (constant (F := Ideal) Cert.ReferenceIdeal.S_ .f32 0x3727C5AC#32)))))) (broadcastInDim Cert.ReferenceIdeal.S20000x128 ![0, 1] Cert.ReferenceIdeal.Gen.bcast_S1x128_S20000x128_0_1 (broadcastInDim Cert.ReferenceIdeal.S1x128 ![1] Cert.ReferenceIdeal.Gen.bcast_S128_S1x128_1 G))) (broadcastInDim Cert.ReferenceIdeal.S20000x128 ![0, 1] Cert.ReferenceIdeal.Gen.bcast_S1x128_S20000x128_0_1 (broadcastInDim Cert.ReferenceIdeal.S1x128 ![1] Cert.ReferenceIdeal.Gen.bcast_S128_S1x128_1 Bs))) ((broadcastInDim Cert.ReferenceIdeal.S20000x128 ![] Cert.ReferenceIdeal.Gen.bcast_S_S20000x128) (constant (F := Ideal) Cert.ReferenceIdeal.S_ .f32 0x00000000#32)))

/-- At (i, j) it is the maximum of LayerNorm of row i at lane j and zero. -/
theorem refLnRelu_20000x128_apply (X : FVec Ideal Cert.ReferenceIdeal.S20000x128 .f32) (G Bs : FVec Ideal Cert.ReferenceIdeal.S128 .f32) (i : Fin 20000) (j : Fin 128) :
    refLnRelu_20000x128 X G Bs (ix2 i j)
      = max (Ln.elem 0x43000000#32 0x3727C5AC#32 (fun k => X (ix2 i k)) (G (ix1 j)) (Bs (ix1 j)) j)
          (Ideal.ofBits .f32 0x00000000#32) := by
  show maximumf (Ln.ref 0x43000000#32 0x3727C5AC#32 Cert.ReferenceIdeal.Gen.reducesTo_S20000x128_S20000_d1 Cert.ReferenceIdeal.Gen.h_S_
        Cert.ReferenceIdeal.Gen.bcast_S20000_S20000x1_0 Cert.ReferenceIdeal.Gen.bcast_S_S20000x1 Cert.ReferenceIdeal.Gen.bcast_S20000x1_S20000x128_0_1
        Cert.ReferenceIdeal.Gen.bcast_S128_S1x128_1 Cert.ReferenceIdeal.Gen.bcast_S1x128_S20000x128_0_1 X G Bs) _ (ix2 i j) = _
  rw [maximumf_apply, Ln.ref_apply, broadcastInDim_scalar_apply]
  rfl

/-- The reference's LayerNorm of a 60000 × 128 array followed by its ReLU (a maximum against the broadcast zero):
    the reference program's own operations composed into one term of the rows X, the scale G and the bias Bs. -/
abbrev refLnRelu_60000x128 (X : FVec Ideal Cert.ReferenceIdeal.S60000x128 .f32) (G Bs : FVec Ideal Cert.ReferenceIdeal.S128 .f32) : FVec Ideal Cert.ReferenceIdeal.S60000x128 .f32 :=
  (maximumf (F := Ideal) (addf (F := Ideal) (mulf (F := Ideal) (mulf (F := Ideal) (subf (F := Ideal) X (broadcastInDim Cert.ReferenceIdeal.S60000x128 ![0, 1] Cert.ReferenceIdeal.Gen.bcast_S60000x1_S60000x128_0_1 (Host.divf (F := Ideal) (broadcastInDim Cert.ReferenceIdeal.S60000x1 ![0] Cert.ReferenceIdeal.Gen.bcast_S60000_S60000x1_0 (Host.reduceAdd (F := Ideal) X (constant (F := Ideal) Cert.ReferenceIdeal.S_ .f32 0x00000000#32) Cert.ReferenceIdeal.Gen.reducesTo_S60000x128_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x43000000#32))))) (broadcastInDim Cert.ReferenceIdeal.S60000x128 ![0, 1] Cert.ReferenceIdeal.Gen.bcast_S60000x1_S60000x128_0_1 (Host.rsqrt (F := Ideal) (addf (F := Ideal) (Host.divf (F := Ideal) (broadcastInDim Cert.ReferenceIdeal.S60000x1 ![0] Cert.ReferenceIdeal.Gen.bcast_S60000_S60000x1_0 (Host.reduceAdd (F := Ideal) (mulf (F := Ideal) (subf (F := Ideal) X (broadcastInDim Cert.ReferenceIdeal.S60000x128 ![0, 1] Cert.ReferenceIdeal.Gen.bcast_S60000x1_S60000x128_0_1 (Host.divf (F := Ideal) (broadcastInDim Cert.ReferenceIdeal.S60000x1 ![0] Cert.ReferenceIdeal.Gen.bcast_S60000_S60000x1_0 (Host.reduceAdd (F := Ideal) X (constant (F := Ideal) Cert.ReferenceIdeal.S_ .f32 0x00000000#32) Cert.ReferenceIdeal.Gen.reducesTo_S60000x128_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x43000000#32))))) (subf (F := Ideal) X (broadcastInDim Cert.ReferenceIdeal.S60000x128 ![0, 1] Cert.ReferenceIdeal.Gen.bcast_S60000x1_S60000x128_0_1 (Host.divf (F := Ideal) (broadcastInDim Cert.ReferenceIdeal.S60000x1 ![0] Cert.ReferenceIdeal.Gen.bcast_S60000_S60000x1_0 (Host.reduceAdd (F := Ideal) X (constant (F := Ideal) Cert.ReferenceIdeal.S_ .f32 0x00000000#32) Cert.ReferenceIdeal.Gen.reducesTo_S60000x128_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x43000000#32)))))) (constant (F := Ideal) Cert.ReferenceIdeal.S_ .f32 0x00000000#32) Cert.ReferenceIdeal.Gen.reducesTo_S60000x128_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x43000000#32))) (broadcastInDim Cert.ReferenceIdeal.S60000x1 ![] Cert.ReferenceIdeal.Gen.bcast_S_S60000x1 (constant (F := Ideal) Cert.ReferenceIdeal.S_ .f32 0x3727C5AC#32)))))) (broadcastInDim Cert.ReferenceIdeal.S60000x128 ![0, 1] Cert.ReferenceIdeal.Gen.bcast_S1x128_S60000x128_0_1 (broadcastInDim Cert.ReferenceIdeal.S1x128 ![1] Cert.ReferenceIdeal.Gen.bcast_S128_S1x128_1 G))) (broadcastInDim Cert.ReferenceIdeal.S60000x128 ![0, 1] Cert.ReferenceIdeal.Gen.bcast_S1x128_S60000x128_0_1 (broadcastInDim Cert.ReferenceIdeal.S1x128 ![1] Cert.ReferenceIdeal.Gen.bcast_S128_S1x128_1 Bs))) ((broadcastInDim Cert.ReferenceIdeal.S60000x128 ![] Cert.ReferenceIdeal.Gen.bcast_S_S60000x128) (constant (F := Ideal) Cert.ReferenceIdeal.S_ .f32 0x00000000#32)))

/-- At (i, j) it is the maximum of LayerNorm of row i at lane j and zero. -/
theorem refLnRelu_60000x128_apply (X : FVec Ideal Cert.ReferenceIdeal.S60000x128 .f32) (G Bs : FVec Ideal Cert.ReferenceIdeal.S128 .f32) (i : Fin 60000) (j : Fin 128) :
    refLnRelu_60000x128 X G Bs (ix2 i j)
      = max (Ln.elem 0x43000000#32 0x3727C5AC#32 (fun k => X (ix2 i k)) (G (ix1 j)) (Bs (ix1 j)) j)
          (Ideal.ofBits .f32 0x00000000#32) := by
  show maximumf (Ln.ref 0x43000000#32 0x3727C5AC#32 Cert.ReferenceIdeal.Gen.reducesTo_S60000x128_S60000_d1 Cert.ReferenceIdeal.Gen.h_S_
        Cert.ReferenceIdeal.Gen.bcast_S60000_S60000x1_0 Cert.ReferenceIdeal.Gen.bcast_S_S60000x1 Cert.ReferenceIdeal.Gen.bcast_S60000x1_S60000x128_0_1
        Cert.ReferenceIdeal.Gen.bcast_S128_S1x128_1 Cert.ReferenceIdeal.Gen.bcast_S1x128_S60000x128_0_1 X G Bs) _ (ix2 i j) = _
  rw [maximumf_apply, Ln.ref_apply, broadcastInDim_scalar_apply]
  rfl

/-- The reference's LayerNorm of a 20000 × 64 array: the reference program's own operations composed into one
    term of the rows X, the scale G and the bias Bs. -/
abbrev refLn_20000x64 (X : FVec Ideal Cert.ReferenceIdeal.S20000x64 .f32) (G Bs : FVec Ideal Cert.ReferenceIdeal.S64 .f32) : FVec Ideal Cert.ReferenceIdeal.S20000x64 .f32 :=
  (addf (F := Ideal) (mulf (F := Ideal) (mulf (F := Ideal) (subf (F := Ideal) X (broadcastInDim Cert.ReferenceIdeal.S20000x64 ![0, 1] Cert.ReferenceIdeal.Gen.bcast_S20000x1_S20000x64_0_1 (Host.divf (F := Ideal) (broadcastInDim Cert.ReferenceIdeal.S20000x1 ![0] Cert.ReferenceIdeal.Gen.bcast_S20000_S20000x1_0 (Host.reduceAdd (F := Ideal) X (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32))))) (broadcastInDim Cert.ReferenceIdeal.S20000x64 ![0, 1] Cert.ReferenceIdeal.Gen.bcast_S20000x1_S20000x64_0_1 (Host.rsqrt (F := Ideal) (addf (F := Ideal) (Host.divf (F := Ideal) (broadcastInDim Cert.ReferenceIdeal.S20000x1 ![0] Cert.ReferenceIdeal.Gen.bcast_S20000_S20000x1_0 (Host.reduceAdd (F := Ideal) (mulf (F := Ideal) (subf (F := Ideal) X (broadcastInDim Cert.ReferenceIdeal.S20000x64 ![0, 1] Cert.ReferenceIdeal.Gen.bcast_S20000x1_S20000x64_0_1 (Host.divf (F := Ideal) (broadcastInDim Cert.ReferenceIdeal.S20000x1 ![0] Cert.ReferenceIdeal.Gen.bcast_S20000_S20000x1_0 (Host.reduceAdd (F := Ideal) X (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32))))) (subf (F := Ideal) X (broadcastInDim Cert.ReferenceIdeal.S20000x64 ![0, 1] Cert.ReferenceIdeal.Gen.bcast_S20000x1_S20000x64_0_1 (Host.divf (F := Ideal) (broadcastInDim Cert.ReferenceIdeal.S20000x1 ![0] Cert.ReferenceIdeal.Gen.bcast_S20000_S20000x1_0 (Host.reduceAdd (F := Ideal) X (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32)))))) (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32))) (broadcastInDim Cert.ReferenceIdeal.S20000x1 ![] Cert.ReferenceIdeal.Gen.bcast_S_S20000x1 (constant (F := Ideal) Cert.ReferenceIdeal.S_ .f32 0x3727C5AC#32)))))) (broadcastInDim Cert.ReferenceIdeal.S20000x64 ![0, 1] Cert.ReferenceIdeal.Gen.bcast_S1x64_S20000x64_0_1 (broadcastInDim Cert.ReferenceIdeal.S1x64 ![1] Cert.ReferenceIdeal.Gen.bcast_S64_S1x64_1 G))) (broadcastInDim Cert.ReferenceIdeal.S20000x64 ![0, 1] Cert.ReferenceIdeal.Gen.bcast_S1x64_S20000x64_0_1 (broadcastInDim Cert.ReferenceIdeal.S1x64 ![1] Cert.ReferenceIdeal.Gen.bcast_S64_S1x64_1 Bs)))

/-- At (i, j) it is LayerNorm of row i at lane j. -/
theorem refLn_20000x64_apply (X : FVec Ideal Cert.ReferenceIdeal.S20000x64 .f32) (G Bs : FVec Ideal Cert.ReferenceIdeal.S64 .f32) (i : Fin 20000) (j : Fin 64) :
    refLn_20000x64 X G Bs (ix2 i j)
      = Ln.elem 0x42800000#32 0x3727C5AC#32 (fun k => X (ix2 i k)) (G (ix1 j)) (Bs (ix1 j)) j := by
  show (Ln.ref 0x42800000#32 0x3727C5AC#32 Cert.ReferenceIdeal.Gen.reducesTo_S20000x64_S20000_d1 Cert.ReferenceIdeal.Gen.h_S_
        Cert.ReferenceIdeal.Gen.bcast_S20000_S20000x1_0 Cert.ReferenceIdeal.Gen.bcast_S_S20000x1 Cert.ReferenceIdeal.Gen.bcast_S20000x1_S20000x64_0_1
        Cert.ReferenceIdeal.Gen.bcast_S64_S1x64_1 Cert.ReferenceIdeal.Gen.bcast_S1x64_S20000x64_0_1 X G Bs) (ix2 i j) = _
  rw [Ln.ref_apply]

/-- The reference's LayerNorm of a 60000 × 64 array: the reference program's own operations composed into one
    term of the rows X, the scale G and the bias Bs. -/
abbrev refLn_60000x64 (X : FVec Ideal Cert.ReferenceIdeal.S60000x64 .f32) (G Bs : FVec Ideal Cert.ReferenceIdeal.S64 .f32) : FVec Ideal Cert.ReferenceIdeal.S60000x64 .f32 :=
  (addf (F := Ideal) (mulf (F := Ideal) (mulf (F := Ideal) (subf (F := Ideal) X (broadcastInDim Cert.ReferenceIdeal.S60000x64 ![0, 1] Cert.ReferenceIdeal.Gen.bcast_S60000x1_S60000x64_0_1 (Host.divf (F := Ideal) (broadcastInDim Cert.ReferenceIdeal.S60000x1 ![0] Cert.ReferenceIdeal.Gen.bcast_S60000_S60000x1_0 (Host.reduceAdd (F := Ideal) X (constant (F := Ideal) Cert.ReferenceIdeal.S_ .f32 0x00000000#32) Cert.ReferenceIdeal.Gen.reducesTo_S60000x64_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x42800000#32))))) (broadcastInDim Cert.ReferenceIdeal.S60000x64 ![0, 1] Cert.ReferenceIdeal.Gen.bcast_S60000x1_S60000x64_0_1 (Host.rsqrt (F := Ideal) (addf (F := Ideal) (Host.divf (F := Ideal) (broadcastInDim Cert.ReferenceIdeal.S60000x1 ![0] Cert.ReferenceIdeal.Gen.bcast_S60000_S60000x1_0 (Host.reduceAdd (F := Ideal) (mulf (F := Ideal) (subf (F := Ideal) X (broadcastInDim Cert.ReferenceIdeal.S60000x64 ![0, 1] Cert.ReferenceIdeal.Gen.bcast_S60000x1_S60000x64_0_1 (Host.divf (F := Ideal) (broadcastInDim Cert.ReferenceIdeal.S60000x1 ![0] Cert.ReferenceIdeal.Gen.bcast_S60000_S60000x1_0 (Host.reduceAdd (F := Ideal) X (constant (F := Ideal) Cert.ReferenceIdeal.S_ .f32 0x00000000#32) Cert.ReferenceIdeal.Gen.reducesTo_S60000x64_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x42800000#32))))) (subf (F := Ideal) X (broadcastInDim Cert.ReferenceIdeal.S60000x64 ![0, 1] Cert.ReferenceIdeal.Gen.bcast_S60000x1_S60000x64_0_1 (Host.divf (F := Ideal) (broadcastInDim Cert.ReferenceIdeal.S60000x1 ![0] Cert.ReferenceIdeal.Gen.bcast_S60000_S60000x1_0 (Host.reduceAdd (F := Ideal) X (constant (F := Ideal) Cert.ReferenceIdeal.S_ .f32 0x00000000#32) Cert.ReferenceIdeal.Gen.reducesTo_S60000x64_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x42800000#32)))))) (constant (F := Ideal) Cert.ReferenceIdeal.S_ .f32 0x00000000#32) Cert.ReferenceIdeal.Gen.reducesTo_S60000x64_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x42800000#32))) (broadcastInDim Cert.ReferenceIdeal.S60000x1 ![] Cert.ReferenceIdeal.Gen.bcast_S_S60000x1 (constant (F := Ideal) Cert.ReferenceIdeal.S_ .f32 0x3727C5AC#32)))))) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 G))) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 Bs)))

/-- At (i, j) it is LayerNorm of row i at lane j. -/
theorem refLn_60000x64_apply (X : FVec Ideal Cert.ReferenceIdeal.S60000x64 .f32) (G Bs : FVec Ideal Cert.ReferenceIdeal.S64 .f32) (i : Fin 60000) (j : Fin 64) :
    refLn_60000x64 X G Bs (ix2 i j)
      = Ln.elem 0x42800000#32 0x3727C5AC#32 (fun k => X (ix2 i k)) (G (ix1 j)) (Bs (ix1 j)) j := by
  show (Ln.ref 0x42800000#32 0x3727C5AC#32 Cert.ReferenceIdeal.Gen.reducesTo_S60000x64_S60000_d1 Cert.ReferenceIdeal.Gen.h_S_
        Cert.ReferenceIdeal.Gen.bcast_S60000_S60000x1_0 Cert.ReferenceIdeal.Gen.bcast_S_S60000x1 Cert.ReferenceIdeal.Gen.bcast_S60000x1_S60000x64_0_1
        Cert.ReferenceIdeal.Gen.bcast_S64_S1x64_1 Cert.ReferenceIdeal.Gen.bcast_S1x64_S60000x64_0_1 X G Bs) (ix2 i j) = _
  rw [Ln.ref_apply]

end Cert.KernelIdeal.Hand

end
-- ==== Proof.Ln.Reg9.lean ====
/-
  REGION 9 (LayerNorm then a maximum against zero, of a 20000 × 128 array in 5 blocks of 4000 rows): the region's
  output array after its last write-back is the reference's LayerNorm-ReLU term of the region's rows array, scale
  and bias.

  Grid point t stages rows 4000 t … 4000 t + 3999 of the rows array (all 128 lanes), the whole one-row scale and
  bias arrays, and writes back the same rows of the output. The body's payload at (p, q) of the block is the
  maximum of LayerNorm of row p at lane q and zero (Ln/Pay.lean); the reference's term at (4000 t + p, q) is the
  same expression of the same row (Ln/Host.lean), the block's row p being the array's row 4000 t + p and the
  scale's and bias's one-row arrays being the casts of the vectors G and Bs. So point t writes back block t of the
  reference's term, and the blocks tile the array.
-/
import proofs.«147021_j7619271983570_1_alg».proof.Proof.FrameKI_A
import proofs.«147021_j7619271983570_1_alg».proof.Proof.Ln.Pay
import proofs.«147021_j7619271983570_1_alg».proof.Proof.Ln.Host
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

namespace Reg9

/-- The printed index maps, decided over the grid: the rows window and the output window sit at block (t, 0),
    the scale's and the bias's windows at block (0, 0). -/
theorem idx : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Row p of block t is row 4000 t + p of the array. -/
abbrev row (t : Fin cfg9.N) (p : Fin 4000) : Fin 20000 :=
  ⟨t.val * 4000 + p.val, by have hN : cfg9.N = 5 := N_9; have := t.isLt; have := p.isLt; omega⟩

section
variable (V : (c : Dev nD) → (b : Ref sig .tc) → Buf (Elt Ideal) ((c : Thread nD τ).loc b)) (c : Dev nD)

/-- A lane of row p of the rows block at point t is that lane of row 4000 t + p of the rows array. -/
theorem rows_apply (t : Fin cfg9.N) (p : Fin 4000) (k : Fin 128) :
    iblk9 V c 0 t (ix2 p k) = V c (Pipeline.arrRef spec9 0) (ix2 (row t p) k) := by
  obtain ⟨e0, e1, -⟩ := idx t
  show V c (Pipeline.arrRef spec9 0) (((cfg9.win 0).blk t).view.emb (ix2 p k)) = _
  refine congrArg (V c (Pipeline.arrRef spec9 0)) (funext fun a => Fin.ext ?_)
  match a with
  | ⟨0, _⟩ => show win9_0.index t (0 : Fin 2) * 4000 + 1 * p.val = t.val * 4000 + p.val; rw [e0]; omega
  | ⟨1, _⟩ => show win9_0.index t (1 : Fin 2) * 128 + 1 * k.val = k.val; rw [e1]; omega

/-- The scale's block at any point is the whole one-row scale array. -/
theorem scale_apply (t : Fin cfg9.N) (q : Fin 128) :
    iblk9 V c 1 t (ix2 (0 : Fin 1) q) = V c (Pipeline.arrRef spec9 1) (ix2 (0 : Fin 1) q) := by
  obtain ⟨-, -, e0, e1, -⟩ := idx t
  show V c (Pipeline.arrRef spec9 1) (((cfg9.win 1).blk t).view.emb (ix2 (0 : Fin 1) q)) = _
  refine congrArg (V c (Pipeline.arrRef spec9 1)) (funext fun a => Fin.ext ?_)
  match a with
  | ⟨0, _⟩ => show win9_1.index t (0 : Fin 2) * 1 + 1 * (0 : Fin 1).val = (0 : Fin 1).val; rw [e0]; simp
  | ⟨1, _⟩ => show win9_1.index t (1 : Fin 2) * 128 + 1 * q.val = q.val; rw [e1]; omega

/-- The bias's block at any point is the whole one-row bias array. -/
theorem bias_apply (t : Fin cfg9.N) (q : Fin 128) :
    iblk9 V c 2 t (ix2 (0 : Fin 1) q) = V c (Pipeline.arrRef spec9 2) (ix2 (0 : Fin 1) q) := by
  obtain ⟨-, -, -, -, e0, e1, -⟩ := idx t
  show V c (Pipeline.arrRef spec9 2) (((cfg9.win 2).blk t).view.emb (ix2 (0 : Fin 1) q)) = _
  refine congrArg (V c (Pipeline.arrRef spec9 2)) (funext fun a => Fin.ext ?_)
  match a with
  | ⟨0, _⟩ => show win9_2.index t (0 : Fin 2) * 1 + 1 * (0 : Fin 1).val = (0 : Fin 1).val; rw [e0]; simp
  | ⟨1, _⟩ => show win9_2.index t (1 : Fin 2) * 128 + 1 * q.val = q.val; rw [e1]; omega

/-- WHAT POINT t WRITES BACK is block t of the reference's term of the rows array, the scale and the bias. -/
theorem flushed (G Bs : (⟨S128, .f32⟩ : BufTy).Contents (Elt Ideal))
    (hg : V c (Pipeline.arrRef spec9 1) = shapeCast _ G shapeCasts_S128_S1x128)
    (hb : V c (Pipeline.arrRef spec9 2) = shapeCast _ Bs shapeCasts_S128_S1x128) (t : Fin cfg9.N) :
    (dat9 (F := Ideal) V c).flushed 3 t
      = ((cfg9.win 3).blk t).view.read (Elt Ideal)
          (refLnRelu_20000x128 (V c (Pipeline.arrRef spec9 0)) G Bs) := by
  show (cfg9.win 3).cut (grid9.coords t) ((dat9 V c).after 3 t) = _
  rw [after9_3]
  unfold out9_3
  rw [View.canon_unit_zero Ln.hz]
  simp only [View.ld_unit_zero (S := S4000x128) Ln.hz, View.ld_unit_zero (S := S1x128) Ln.hz]
  funext j
  obtain ⟨p, q, rfl⟩ : ∃ (p : Fin 4000) (q : Fin 128), j = ix2 p q := ⟨j 0, j 1, eq_ix2 j⟩
  obtain ⟨-, -, -, -, -, -, e0, e1⟩ := idx t
  have hemb : ((cfg9.win 3).blk t).view.emb (ix2 p q) = ix2 (row t p) q := by
    funext a
    apply Fin.ext
    match a with
    | ⟨0, _⟩ => show win9_3.index t (0 : Fin 2) * 4000 + 1 * p.val = t.val * 4000 + p.val; rw [e0]; omega
    | ⟨1, _⟩ => show win9_3.index t (1 : Fin 2) * 128 + 1 * q.val = q.val; rw [e1]; omega
  show k9_pay1 (iblk9 V c 0 t) (iblk9 V c 1 t) (iblk9 V c 2 t) (ix2 p q)
    = refLnRelu_20000x128 (V c (Pipeline.arrRef spec9 0)) G Bs (((cfg9.win 3).blk t).view.emb (ix2 p q))
  rw [hemb]
  refine (k9_pay1_apply (iblk9 V c 0 t) (iblk9 V c 1 t) (iblk9 V c 2 t) p q).trans ?_
  refine ((refLnRelu_20000x128_apply (V c (Pipeline.arrRef spec9 0)) G Bs (row t p) q).trans ?_).symm
  have h0 : (fun k : Fin 128 => V c (Pipeline.arrRef spec9 0) (ix2 (row t p) k))
      = fun k : Fin 128 => iblk9 V c 0 t (ix2 p k) := funext fun k => (rows_apply V c t p k).symm
  have h1 : G (ix1 q) = iblk9 V c 1 t (ix2 (0 : Fin 1) q) :=
    ((scale_apply V c t q).trans ((congrFun hg _).trans (shapeCast_a_1a_apply G _ (0 : Fin 1) q))).symm
  have h2 : Bs (ix1 q) = iblk9 V c 2 t (ix2 (0 : Fin 1) q) :=
    ((bias_apply V c t q).trans ((congrFun hb _).trans (shapeCast_a_1a_apply Bs _ (0 : Fin 1) q))).symm
  rw [h0, h1, h2]

end

/-- An index of the output array is in point t's block iff each coordinate is in the block's range on its axis. -/
theorem mem_blk (t : Fin cfg9.N) (i : S20000x128.Idx) :
    i ∈ ((cfg9.win 3).blk t).view.set ↔ ∀ a : Fin 2, win9_3.index t a * S4000x128.size a ≤ (i a).val
      ∧ (i a).val < win9_3.index t a * S4000x128.size a + S4000x128.size a := by
  show i ∈ ((View.whole main_v387).slice (win9_3.rect t)).set ↔ _
  rw [View.set_slice_whole, Rect.mem_set_unit]
  exact Iff.rfl

/-- THE COVER: row r of the array is in the block of point r / 4000, which writes it back. -/
theorem cover (i : S20000x128.Idx) :
    ∃ t : Fin cfg9.N, (cfg9.win 3).flush t = true ∧ i ∈ ((cfg9.win 3).blk t).view.set := by
  have hN : cfg9.N = 5 := N_9
  have hi0 : (i 0).val < 20000 := (i 0).isLt
  have hi1 : (i 1).val < 128 := (i 1).isLt
  have ht : (i 0).val / 4000 < cfg9.N := by rw [hN]; omega
  obtain ⟨-, -, -, -, -, -, e0, e1⟩ := idx ⟨(i 0).val / 4000, ht⟩
  refine ⟨⟨(i 0).val / 4000, ht⟩, flush9_3 _, ?_⟩
  rw [mem_blk]
  intro a
  match a with
  | ⟨0, _⟩ =>
    show win9_3.index ⟨(i 0).val / 4000, ht⟩ (0 : Fin 2) * 4000 ≤ (i 0).val
      ∧ (i 0).val < win9_3.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win9_3.index ⟨(i 0).val / 4000, ht⟩ (1 : Fin 2) * 128 ≤ (i 1).val
      ∧ (i 1).val < win9_3.index ⟨(i 0).val / 4000, ht⟩ (1 : Fin 2) * 128 + 128
    rw [e1]
    omega

end Reg9

/-- REGION 9's OUTPUT ARRAY after the region: the reference's LayerNorm-ReLU term of the region's rows array as
    it finds it, of the scale G and of the bias Bs whose one-row casts the region finds in its other two arrays. -/
theorem ln_9 (V : (c : Dev nD) → (b : Ref sig .tc) → Buf (Elt Ideal) ((c : Thread nD τ).loc b)) (c : Dev nD)
    (G Bs : (⟨S128, .f32⟩ : BufTy).Contents (Elt Ideal))
    (hg : V c (Pipeline.arrRef spec9 1) = shapeCast _ G shapeCasts_S128_S1x128)
    (hb : V c (Pipeline.arrRef spec9 2) = shapeCast _ Bs shapeCasts_S128_S1x128) :
    (dat9 (F := Ideal) V c).arrAt 3 cfg9.N =
      (maximumf (F := Ideal) (addf (F := Ideal) (mulf (F := Ideal) (mulf (F := Ideal) (subf (F := Ideal) (s := Cert.ReferenceIdeal.S20000x128) (φ := .f32) (V c (Pipeline.arrRef spec9 0)) (broadcastInDim Cert.ReferenceIdeal.S20000x128 ![0, 1] Cert.ReferenceIdeal.Gen.bcast_S20000x1_S20000x128_0_1 (Host.divf (F := Ideal) (broadcastInDim Cert.ReferenceIdeal.S20000x1 ![0] Cert.ReferenceIdeal.Gen.bcast_S20000_S20000x1_0 (Host.reduceAdd (F := Ideal) (s := Cert.ReferenceIdeal.S20000x128) (φ := .f32) (V c (Pipeline.arrRef spec9 0)) (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32))))) (broadcastInDim Cert.ReferenceIdeal.S20000x128 ![0, 1] Cert.ReferenceIdeal.Gen.bcast_S20000x1_S20000x128_0_1 (Host.rsqrt (F := Ideal) (addf (F := Ideal) (Host.divf (F := Ideal) (broadcastInDim Cert.ReferenceIdeal.S20000x1 ![0] Cert.ReferenceIdeal.Gen.bcast_S20000_S20000x1_0 (Host.reduceAdd (F := Ideal) (mulf (F := Ideal) (subf (F := Ideal) (s := Cert.ReferenceIdeal.S20000x128) (φ := .f32) (V c (Pipeline.arrRef spec9 0)) (broadcastInDim Cert.ReferenceIdeal.S20000x128 ![0, 1] Cert.ReferenceIdeal.Gen.bcast_S20000x1_S20000x128_0_1 (Host.divf (F := Ideal) (broadcastInDim Cert.ReferenceIdeal.S20000x1 ![0] Cert.ReferenceIdeal.Gen.bcast_S20000_S20000x1_0 (Host.reduceAdd (F := Ideal) (s := Cert.ReferenceIdeal.S20000x128) (φ := .f32) (V c (Pipeline.arrRef spec9 0)) (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32))))) (subf (F := Ideal) (s := Cert.ReferenceIdeal.S20000x128) (φ := .f32) (V c (Pipeline.arrRef spec9 0)) (broadcastInDim Cert.ReferenceIdeal.S20000x128 ![0, 1] Cert.ReferenceIdeal.Gen.bcast_S20000x1_S20000x128_0_1 (Host.divf (F := Ideal) (broadcastInDim Cert.ReferenceIdeal.S20000x1 ![0] Cert.ReferenceIdeal.Gen.bcast_S20000_S20000x1_0 (Host.reduceAdd (F := Ideal) (s := Cert.ReferenceIdeal.S20000x128) (φ := .f32) (V c (Pipeline.arrRef spec9 0)) (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32)))))) (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32))) (broadcastInDim Cert.ReferenceIdeal.S20000x1 ![] Cert.ReferenceIdeal.Gen.bcast_S_S20000x1 (constant (F := Ideal) Cert.ReferenceIdeal.S_ .f32 0x3727C5AC#32)))))) (broadcastInDim Cert.ReferenceIdeal.S20000x128 ![0, 1] Cert.ReferenceIdeal.Gen.bcast_S1x128_S20000x128_0_1 (broadcastInDim Cert.ReferenceIdeal.S1x128 ![1] Cert.ReferenceIdeal.Gen.bcast_S128_S1x128_1 G))) (broadcastInDim Cert.ReferenceIdeal.S20000x128 ![0, 1] Cert.ReferenceIdeal.Gen.bcast_S1x128_S20000x128_0_1 (broadcastInDim Cert.ReferenceIdeal.S1x128 ![1] Cert.ReferenceIdeal.Gen.bcast_S128_S1x128_1 Bs))) ((broadcastInDim Cert.ReferenceIdeal.S20000x128 ![] Cert.ReferenceIdeal.Gen.bcast_S_S20000x128) (constant (F := Ideal) Cert.ReferenceIdeal.S_ .f32 0x00000000#32))) :=
  (dat9 V c).arrAt_eq_of_cover 3 (refLnRelu_20000x128 (V c (Pipeline.arrRef spec9 0)) G Bs)
    (fun t _ => Reg9.flushed V c G Bs hg hb t) (fun i => Reg9.cover i)

end Cert.KernelIdeal.Hand

end
-- ==== Proof.Ln.Reg10.lean ====
/-
  REGION 10 (LayerNorm then a maximum against zero, of a 60000 × 128 array in 15 blocks of 4000 rows): the region's
  output array after its last write-back is the reference's LayerNorm-ReLU term of the region's rows array, scale
  and bias.

  Grid point t stages rows 4000 t … 4000 t + 3999 of the rows array (all 128 lanes), the whole one-row scale and
  bias arrays, and writes back the same rows of the output. The body's payload at (p, q) of the block is the
  maximum of LayerNorm of row p at lane q and zero (Ln/Pay.lean); the reference's term at (4000 t + p, q) is the
  same expression of the same row (Ln/Host.lean), the block's row p being the array's row 4000 t + p and the
  scale's and bias's one-row arrays being the casts of the vectors G and Bs. So point t writes back block t of the
  reference's term, and the blocks tile the array.
-/
import proofs.«147021_j7619271983570_1_alg».proof.Proof.FrameKI_A
import proofs.«147021_j7619271983570_1_alg».proof.Proof.Ln.Pay
import proofs.«147021_j7619271983570_1_alg».proof.Proof.Ln.Host
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

namespace Reg10

/-- The printed index maps, decided over the grid: the rows window and the output window sit at block (t, 0),
    the scale's and the bias's windows at block (0, 0). -/
theorem idx : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Row p of block t is row 4000 t + p of the array. -/
abbrev row (t : Fin cfg10.N) (p : Fin 4000) : Fin 60000 :=
  ⟨t.val * 4000 + p.val, by have hN : cfg10.N = 15 := N_10; have := t.isLt; have := p.isLt; omega⟩

section
variable (V : (c : Dev nD) → (b : Ref sig .tc) → Buf (Elt Ideal) ((c : Thread nD τ).loc b)) (c : Dev nD)

/-- A lane of row p of the rows block at point t is that lane of row 4000 t + p of the rows array. -/
theorem rows_apply (t : Fin cfg10.N) (p : Fin 4000) (k : Fin 128) :
    iblk10 V c 0 t (ix2 p k) = V c (Pipeline.arrRef spec10 0) (ix2 (row t p) k) := by
  obtain ⟨e0, e1, -⟩ := idx t
  show V c (Pipeline.arrRef spec10 0) (((cfg10.win 0).blk t).view.emb (ix2 p k)) = _
  refine congrArg (V c (Pipeline.arrRef spec10 0)) (funext fun a => Fin.ext ?_)
  match a with
  | ⟨0, _⟩ => show win10_0.index t (0 : Fin 2) * 4000 + 1 * p.val = t.val * 4000 + p.val; rw [e0]; omega
  | ⟨1, _⟩ => show win10_0.index t (1 : Fin 2) * 128 + 1 * k.val = k.val; rw [e1]; omega

/-- The scale's block at any point is the whole one-row scale array. -/
theorem scale_apply (t : Fin cfg10.N) (q : Fin 128) :
    iblk10 V c 1 t (ix2 (0 : Fin 1) q) = V c (Pipeline.arrRef spec10 1) (ix2 (0 : Fin 1) q) := by
  obtain ⟨-, -, e0, e1, -⟩ := idx t
  show V c (Pipeline.arrRef spec10 1) (((cfg10.win 1).blk t).view.emb (ix2 (0 : Fin 1) q)) = _
  refine congrArg (V c (Pipeline.arrRef spec10 1)) (funext fun a => Fin.ext ?_)
  match a with
  | ⟨0, _⟩ => show win10_1.index t (0 : Fin 2) * 1 + 1 * (0 : Fin 1).val = (0 : Fin 1).val; rw [e0]; simp
  | ⟨1, _⟩ => show win10_1.index t (1 : Fin 2) * 128 + 1 * q.val = q.val; rw [e1]; omega

/-- The bias's block at any point is the whole one-row bias array. -/
theorem bias_apply (t : Fin cfg10.N) (q : Fin 128) :
    iblk10 V c 2 t (ix2 (0 : Fin 1) q) = V c (Pipeline.arrRef spec10 2) (ix2 (0 : Fin 1) q) := by
  obtain ⟨-, -, -, -, e0, e1, -⟩ := idx t
  show V c (Pipeline.arrRef spec10 2) (((cfg10.win 2).blk t).view.emb (ix2 (0 : Fin 1) q)) = _
  refine congrArg (V c (Pipeline.arrRef spec10 2)) (funext fun a => Fin.ext ?_)
  match a with
  | ⟨0, _⟩ => show win10_2.index t (0 : Fin 2) * 1 + 1 * (0 : Fin 1).val = (0 : Fin 1).val; rw [e0]; simp
  | ⟨1, _⟩ => show win10_2.index t (1 : Fin 2) * 128 + 1 * q.val = q.val; rw [e1]; omega

/-- WHAT POINT t WRITES BACK is block t of the reference's term of the rows array, the scale and the bias. -/
theorem flushed (G Bs : (⟨S128, .f32⟩ : BufTy).Contents (Elt Ideal))
    (hg : V c (Pipeline.arrRef spec10 1) = shapeCast _ G shapeCasts_S128_S1x128)
    (hb : V c (Pipeline.arrRef spec10 2) = shapeCast _ Bs shapeCasts_S128_S1x128) (t : Fin cfg10.N) :
    (dat10 (F := Ideal) V c).flushed 3 t
      = ((cfg10.win 3).blk t).view.read (Elt Ideal)
          (refLnRelu_60000x128 (V c (Pipeline.arrRef spec10 0)) G Bs) := by
  show (cfg10.win 3).cut (grid10.coords t) ((dat10 V c).after 3 t) = _
  rw [after10_3]
  unfold out10_3
  rw [View.canon_unit_zero Ln.hz]
  simp only [View.ld_unit_zero (S := S4000x128) Ln.hz, View.ld_unit_zero (S := S1x128) Ln.hz]
  funext j
  obtain ⟨p, q, rfl⟩ : ∃ (p : Fin 4000) (q : Fin 128), j = ix2 p q := ⟨j 0, j 1, eq_ix2 j⟩
  obtain ⟨-, -, -, -, -, -, e0, e1⟩ := idx t
  have hemb : ((cfg10.win 3).blk t).view.emb (ix2 p q) = ix2 (row t p) q := by
    funext a
    apply Fin.ext
    match a with
    | ⟨0, _⟩ => show win10_3.index t (0 : Fin 2) * 4000 + 1 * p.val = t.val * 4000 + p.val; rw [e0]; omega
    | ⟨1, _⟩ => show win10_3.index t (1 : Fin 2) * 128 + 1 * q.val = q.val; rw [e1]; omega
  show k10_pay1 (iblk10 V c 0 t) (iblk10 V c 1 t) (iblk10 V c 2 t) (ix2 p q)
    = refLnRelu_60000x128 (V c (Pipeline.arrRef spec10 0)) G Bs (((cfg10.win 3).blk t).view.emb (ix2 p q))
  rw [hemb]
  refine (k10_pay1_apply (iblk10 V c 0 t) (iblk10 V c 1 t) (iblk10 V c 2 t) p q).trans ?_
  refine ((refLnRelu_60000x128_apply (V c (Pipeline.arrRef spec10 0)) G Bs (row t p) q).trans ?_).symm
  have h0 : (fun k : Fin 128 => V c (Pipeline.arrRef spec10 0) (ix2 (row t p) k))
      = fun k : Fin 128 => iblk10 V c 0 t (ix2 p k) := funext fun k => (rows_apply V c t p k).symm
  have h1 : G (ix1 q) = iblk10 V c 1 t (ix2 (0 : Fin 1) q) :=
    ((scale_apply V c t q).trans ((congrFun hg _).trans (shapeCast_a_1a_apply G _ (0 : Fin 1) q))).symm
  have h2 : Bs (ix1 q) = iblk10 V c 2 t (ix2 (0 : Fin 1) q) :=
    ((bias_apply V c t q).trans ((congrFun hb _).trans (shapeCast_a_1a_apply Bs _ (0 : Fin 1) q))).symm
  rw [h0, h1, h2]

end

/-- An index of the output array is in point t's block iff each coordinate is in the block's range on its axis. -/
theorem mem_blk (t : Fin cfg10.N) (i : S60000x128.Idx) :
    i ∈ ((cfg10.win 3).blk t).view.set ↔ ∀ a : Fin 2, win10_3.index t a * S4000x128.size a ≤ (i a).val
      ∧ (i a).val < win10_3.index t a * S4000x128.size a + S4000x128.size a := by
  show i ∈ ((View.whole main_v394).slice (win10_3.rect t)).set ↔ _
  rw [View.set_slice_whole, Rect.mem_set_unit]
  exact Iff.rfl

/-- THE COVER: row r of the array is in the block of point r / 4000, which writes it back. -/
theorem cover (i : S60000x128.Idx) :
    ∃ t : Fin cfg10.N, (cfg10.win 3).flush t = true ∧ i ∈ ((cfg10.win 3).blk t).view.set := by
  have hN : cfg10.N = 15 := N_10
  have hi0 : (i 0).val < 60000 := (i 0).isLt
  have hi1 : (i 1).val < 128 := (i 1).isLt
  have ht : (i 0).val / 4000 < cfg10.N := by rw [hN]; omega
  obtain ⟨-, -, -, -, -, -, e0, e1⟩ := idx ⟨(i 0).val / 4000, ht⟩
  refine ⟨⟨(i 0).val / 4000, ht⟩, flush10_3 _, ?_⟩
  rw [mem_blk]
  intro a
  match a with
  | ⟨0, _⟩ =>
    show win10_3.index ⟨(i 0).val / 4000, ht⟩ (0 : Fin 2) * 4000 ≤ (i 0).val
      ∧ (i 0).val < win10_3.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win10_3.index ⟨(i 0).val / 4000, ht⟩ (1 : Fin 2) * 128 ≤ (i 1).val
      ∧ (i 1).val < win10_3.index ⟨(i 0).val / 4000, ht⟩ (1 : Fin 2) * 128 + 128
    rw [e1]
    omega

end Reg10

/-- REGION 10's OUTPUT ARRAY after the region: the reference's LayerNorm-ReLU term of the region's rows array as
    it finds it, of the scale G and of the bias Bs whose one-row casts the region finds in its other two arrays. -/
theorem ln_10 (V : (c : Dev nD) → (b : Ref sig .tc) → Buf (Elt Ideal) ((c : Thread nD τ).loc b)) (c : Dev nD)
    (G Bs : (⟨S128, .f32⟩ : BufTy).Contents (Elt Ideal))
    (hg : V c (Pipeline.arrRef spec10 1) = shapeCast _ G shapeCasts_S128_S1x128)
    (hb : V c (Pipeline.arrRef spec10 2) = shapeCast _ Bs shapeCasts_S128_S1x128) :
    (dat10 (F := Ideal) V c).arrAt 3 cfg10.N =
      (maximumf (F := Ideal) (addf (F := Ideal) (mulf (F := Ideal) (mulf (F := Ideal) (subf (F := Ideal) (s := Cert.ReferenceIdeal.S60000x128) (φ := .f32) (V c (Pipeline.arrRef spec10 0)) (broadcastInDim Cert.ReferenceIdeal.S60000x128 ![0, 1] Cert.ReferenceIdeal.Gen.bcast_S60000x1_S60000x128_0_1 (Host.divf (F := Ideal) (broadcastInDim Cert.ReferenceIdeal.S60000x1 ![0] Cert.ReferenceIdeal.Gen.bcast_S60000_S60000x1_0 (Host.reduceAdd (F := Ideal) (s := Cert.ReferenceIdeal.S60000x128) (φ := .f32) (V c (Pipeline.arrRef spec10 0)) (constant (F := Ideal) Cert.ReferenceIdeal.S_ .f32 0x00000000#32) Cert.ReferenceIdeal.Gen.reducesTo_S60000x128_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x43000000#32))))) (broadcastInDim Cert.ReferenceIdeal.S60000x128 ![0, 1] Cert.ReferenceIdeal.Gen.bcast_S60000x1_S60000x128_0_1 (Host.rsqrt (F := Ideal) (addf (F := Ideal) (Host.divf (F := Ideal) (broadcastInDim Cert.ReferenceIdeal.S60000x1 ![0] Cert.ReferenceIdeal.Gen.bcast_S60000_S60000x1_0 (Host.reduceAdd (F := Ideal) (mulf (F := Ideal) (subf (F := Ideal) (s := Cert.ReferenceIdeal.S60000x128) (φ := .f32) (V c (Pipeline.arrRef spec10 0)) (broadcastInDim Cert.ReferenceIdeal.S60000x128 ![0, 1] Cert.ReferenceIdeal.Gen.bcast_S60000x1_S60000x128_0_1 (Host.divf (F := Ideal) (broadcastInDim Cert.ReferenceIdeal.S60000x1 ![0] Cert.ReferenceIdeal.Gen.bcast_S60000_S60000x1_0 (Host.reduceAdd (F := Ideal) (s := Cert.ReferenceIdeal.S60000x128) (φ := .f32) (V c (Pipeline.arrRef spec10 0)) (constant (F := Ideal) Cert.ReferenceIdeal.S_ .f32 0x00000000#32) Cert.ReferenceIdeal.Gen.reducesTo_S60000x128_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x43000000#32))))) (subf (F := Ideal) (s := Cert.ReferenceIdeal.S60000x128) (φ := .f32) (V c (Pipeline.arrRef spec10 0)) (broadcastInDim Cert.ReferenceIdeal.S60000x128 ![0, 1] Cert.ReferenceIdeal.Gen.bcast_S60000x1_S60000x128_0_1 (Host.divf (F := Ideal) (broadcastInDim Cert.ReferenceIdeal.S60000x1 ![0] Cert.ReferenceIdeal.Gen.bcast_S60000_S60000x1_0 (Host.reduceAdd (F := Ideal) (s := Cert.ReferenceIdeal.S60000x128) (φ := .f32) (V c (Pipeline.arrRef spec10 0)) (constant (F := Ideal) Cert.ReferenceIdeal.S_ .f32 0x00000000#32) Cert.ReferenceIdeal.Gen.reducesTo_S60000x128_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x43000000#32)))))) (constant (F := Ideal) Cert.ReferenceIdeal.S_ .f32 0x00000000#32) Cert.ReferenceIdeal.Gen.reducesTo_S60000x128_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x43000000#32))) (broadcastInDim Cert.ReferenceIdeal.S60000x1 ![] Cert.ReferenceIdeal.Gen.bcast_S_S60000x1 (constant (F := Ideal) Cert.ReferenceIdeal.S_ .f32 0x3727C5AC#32)))))) (broadcastInDim Cert.ReferenceIdeal.S60000x128 ![0, 1] Cert.ReferenceIdeal.Gen.bcast_S1x128_S60000x128_0_1 (broadcastInDim Cert.ReferenceIdeal.S1x128 ![1] Cert.ReferenceIdeal.Gen.bcast_S128_S1x128_1 G))) (broadcastInDim Cert.ReferenceIdeal.S60000x128 ![0, 1] Cert.ReferenceIdeal.Gen.bcast_S1x128_S60000x128_0_1 (broadcastInDim Cert.ReferenceIdeal.S1x128 ![1] Cert.ReferenceIdeal.Gen.bcast_S128_S1x128_1 Bs))) ((broadcastInDim Cert.ReferenceIdeal.S60000x128 ![] Cert.ReferenceIdeal.Gen.bcast_S_S60000x128) (constant (F := Ideal) Cert.ReferenceIdeal.S_ .f32 0x00000000#32))) :=
  (dat10 V c).arrAt_eq_of_cover 3 (refLnRelu_60000x128 (V c (Pipeline.arrRef spec10 0)) G Bs)
    (fun t _ => Reg10.flushed V c G Bs hg hb t) (fun i => Reg10.cover i)

end Cert.KernelIdeal.Hand

end
-- ==== Proof.Ln.Reg11.lean ====
/-
  REGION 11 (LayerNorm then a maximum against zero, of a 20000 × 128 array in 5 blocks of 4000 rows): the region's
  output array after its last write-back is the reference's LayerNorm-ReLU term of the region's rows array, scale
  and bias.

  Grid point t stages rows 4000 t … 4000 t + 3999 of the rows array (all 128 lanes), the whole one-row scale and
  bias arrays, and writes back the same rows of the output. The body's payload at (p, q) of the block is the
  maximum of LayerNorm of row p at lane q and zero (Ln/Pay.lean); the reference's term at (4000 t + p, q) is the
  same expression of the same row (Ln/Host.lean), the block's row p being the array's row 4000 t + p and the
  scale's and bias's one-row arrays being the casts of the vectors G and Bs. So point t writes back block t of the
  reference's term, and the blocks tile the array.
-/
import proofs.«147021_j7619271983570_1_alg».proof.Proof.FrameKI_A
import proofs.«147021_j7619271983570_1_alg».proof.Proof.Ln.Pay
import proofs.«147021_j7619271983570_1_alg».proof.Proof.Ln.Host
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

namespace Reg11

/-- The printed index maps, decided over the grid: the rows window and the output window sit at block (t, 0),
    the scale's and the bias's windows at block (0, 0). -/
theorem idx : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- Row p of block t is row 4000 t + p of the array. -/
abbrev row (t : Fin cfg11.N) (p : Fin 4000) : Fin 20000 :=
  ⟨t.val * 4000 + p.val, by have hN : cfg11.N = 5 := N_11; have := t.isLt; have := p.isLt; omega⟩

section
variable (V : (c : Dev nD) → (b : Ref sig .tc) → Buf (Elt Ideal) ((c : Thread nD τ).loc b)) (c : Dev nD)

/-- A lane of row p of the rows block at point t is that lane of row 4000 t + p of the rows array. -/
theorem rows_apply (t : Fin cfg11.N) (p : Fin 4000) (k : Fin 128) :
    iblk11 V c 0 t (ix2 p k) = V c (Pipeline.arrRef spec11 0) (ix2 (row t p) k) := by
  obtain ⟨e0, e1, -⟩ := idx t
  show V c (Pipeline.arrRef spec11 0) (((cfg11.win 0).blk t).view.emb (ix2 p k)) = _
  refine congrArg (V c (Pipeline.arrRef spec11 0)) (funext fun a => Fin.ext ?_)
  match a with
  | ⟨0, _⟩ => show win11_0.index t (0 : Fin 2) * 4000 + 1 * p.val = t.val * 4000 + p.val; rw [e0]; omega
  | ⟨1, _⟩ => show win11_0.index t (1 : Fin 2) * 128 + 1 * k.val = k.val; rw [e1]; omega

/-- The scale's block at any point is the whole one-row scale array. -/
theorem scale_apply (t : Fin cfg11.N) (q : Fin 128) :
    iblk11 V c 1 t (ix2 (0 : Fin 1) q) = V c (Pipeline.arrRef spec11 1) (ix2 (0 : Fin 1) q) := by
  obtain ⟨-, -, e0, e1, -⟩ := idx t
  show V c (Pipeline.arrRef spec11 1) (((cfg11.win 1).blk t).view.emb (ix2 (0 : Fin 1) q)) = _
  refine congrArg (V c (Pipeline.arrRef spec11 1)) (funext fun a => Fin.ext ?_)
  match a with
  | ⟨0, _⟩ => show win11_1.index t (0 : Fin 2) * 1 + 1 * (0 : Fin 1).val = (0 : Fin 1).val; rw [e0]; simp
  | ⟨1, _⟩ => show win11_1.index t (1 : Fin 2) * 128 + 1 * q.val = q.val; rw [e1]; omega

/-- The bias's block at any point is the whole one-row bias array. -/
theorem bias_apply (t : Fin cfg11.N) (q : Fin 128) :
    iblk11 V c 2 t (ix2 (0 : Fin 1) q) = V c (Pipeline.arrRef spec11 2) (ix2 (0 : Fin 1) q) := by
  obtain ⟨-, -, -, -, e0, e1, -⟩ := idx t
  show V c (Pipeline.arrRef spec11 2) (((cfg11.win 2).blk t).view.emb (ix2 (0 : Fin 1) q)) = _
  refine congrArg (V c (Pipeline.arrRef spec11 2)) (funext fun a => Fin.ext ?_)
  match a with
  | ⟨0, _⟩ => show win11_2.index t (0 : Fin 2) * 1 + 1 * (0 : Fin 1).val = (0 : Fin 1).val; rw [e0]; simp
  | ⟨1, _⟩ => show win11_2.index t (1 : Fin 2) * 128 + 1 * q.val = q.val; rw [e1]; omega

/-- WHAT POINT t WRITES BACK is block t of the reference's term of the rows array, the scale and the bias. -/
theorem flushed (G Bs : (⟨S128, .f32⟩ : BufTy).Contents (Elt Ideal))
    (hg : V c (Pipeline.arrRef spec11 1) = shapeCast _ G shapeCasts_S128_S1x128)
    (hb : V c (Pipeline.arrRef spec11 2) = shapeCast _ Bs shapeCasts_S128_S1x128) (t : Fin cfg11.N) :
    (dat11 (F := Ideal) V c).flushed 3 t
      = ((cfg11.win 3).blk t).view.read (Elt Ideal)
          (refLnRelu_20000x128 (V c (Pipeline.arrRef spec11 0)) G Bs) := by
  show (cfg11.win 3).cut (grid11.coords t) ((dat11 V c).after 3 t) = _
  rw [after11_3]
  unfold out11_3
  rw [View.canon_unit_zero Ln.hz]
  simp only [View.ld_unit_zero (S := S4000x128) Ln.hz, View.ld_unit_zero (S := S1x128) Ln.hz]
  funext j
  obtain ⟨p, q, rfl⟩ : ∃ (p : Fin 4000) (q : Fin 128), j = ix2 p q := ⟨j 0, j 1, eq_ix2 j⟩
  obtain ⟨-, -, -, -, -, -, e0, e1⟩ := idx t
  have hemb : ((cfg11.win 3).blk t).view.emb (ix2 p q) = ix2 (row t p) q := by
    funext a
    apply Fin.ext
    match a with
    | ⟨0, _⟩ => show win11_3.index t (0 : Fin 2) * 4000 + 1 * p.val = t.val * 4000 + p.val; rw [e0]; omega
    | ⟨1, _⟩ => show win11_3.index t (1 : Fin 2) * 128 + 1 * q.val = q.val; rw [e1]; omega
  show k11_pay1 (iblk11 V c 0 t) (iblk11 V c 1 t) (iblk11 V c 2 t) (ix2 p q)
    = refLnRelu_20000x128 (V c (Pipeline.arrRef spec11 0)) G Bs (((cfg11.win 3).blk t).view.emb (ix2 p q))
  rw [hemb]
  refine (k11_pay1_apply (iblk11 V c 0 t) (iblk11 V c 1 t) (iblk11 V c 2 t) p q).trans ?_
  refine ((refLnRelu_20000x128_apply (V c (Pipeline.arrRef spec11 0)) G Bs (row t p) q).trans ?_).symm
  have h0 : (fun k : Fin 128 => V c (Pipeline.arrRef spec11 0) (ix2 (row t p) k))
      = fun k : Fin 128 => iblk11 V c 0 t (ix2 p k) := funext fun k => (rows_apply V c t p k).symm
  have h1 : G (ix1 q) = iblk11 V c 1 t (ix2 (0 : Fin 1) q) :=
    ((scale_apply V c t q).trans ((congrFun hg _).trans (shapeCast_a_1a_apply G _ (0 : Fin 1) q))).symm
  have h2 : Bs (ix1 q) = iblk11 V c 2 t (ix2 (0 : Fin 1) q) :=
    ((bias_apply V c t q).trans ((congrFun hb _).trans (shapeCast_a_1a_apply Bs _ (0 : Fin 1) q))).symm
  rw [h0, h1, h2]

end

/-- An index of the output array is in point t's block iff each coordinate is in the block's range on its axis. -/
theorem mem_blk (t : Fin cfg11.N) (i : S20000x128.Idx) :
    i ∈ ((cfg11.win 3).blk t).view.set ↔ ∀ a : Fin 2, win11_3.index t a * S4000x128.size a ≤ (i a).val
      ∧ (i a).val < win11_3.index t a * S4000x128.size a + S4000x128.size a := by
  show i ∈ ((View.whole main_v401).slice (win11_3.rect t)).set ↔ _
  rw [View.set_slice_whole, Rect.mem_set_unit]
  exact Iff.rfl

/-- THE COVER: row r of the array is in the block of point r / 4000, which writes it back. -/
theorem cover (i : S20000x128.Idx) :
    ∃ t : Fin cfg11.N, (cfg11.win 3).flush t = true ∧ i ∈ ((cfg11.win 3).blk t).view.set := by
  have hN : cfg11.N = 5 := N_11
  have hi0 : (i 0).val < 20000 := (i 0).isLt
  have hi1 : (i 1).val < 128 := (i 1).isLt
  have ht : (i 0).val / 4000 < cfg11.N := by rw [hN]; omega
  obtain ⟨-, -, -, -, -, -, e0, e1⟩ := idx ⟨(i 0).val / 4000, ht⟩
  refine ⟨⟨(i 0).val / 4000, ht⟩, flush11_3 _, ?_⟩
  rw [mem_blk]
  intro a
  match a with
  | ⟨0, _⟩ =>
    show win11_3.index ⟨(i 0).val / 4000, ht⟩ (0 : Fin 2) * 4000 ≤ (i 0).val
      ∧ (i 0).val < win11_3.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win11_3.index ⟨(i 0).val / 4000, ht⟩ (1 : Fin 2) * 128 ≤ (i 1).val
      ∧ (i 1).val < win11_3.index ⟨(i 0).val / 4000, ht⟩ (1 : Fin 2) * 128 + 128
    rw [e1]
    omega

end Reg11

/-- REGION 11's OUTPUT ARRAY after the region: the reference's LayerNorm-ReLU term of the region's rows array as
    it finds it, of the scale G and of the bias Bs whose one-row casts the region finds in its other two arrays. -/
theorem ln_11 (V : (c : Dev nD) → (b : Ref sig .tc) → Buf (Elt Ideal) ((c : Thread nD τ).loc b)) (c : Dev nD)
    (G Bs : (⟨S128, .f32⟩ : BufTy).Contents (Elt Ideal))
    (hg : V c (Pipeline.arrRef spec11 1) = shapeCast _ G shapeCasts_S128_S1x128)
    (hb : V c (Pipeline.arrRef spec11 2) = shapeCast _ Bs shapeCasts_S128_S1x128) :
    (dat11 (F := Ideal) V c).arrAt 3 cfg11.N =
      (maximumf (F := Ideal) (addf (F := Ideal) (mulf (F := Ideal) (mulf (F := Ideal) (subf (F := Ideal) (s := Cert.ReferenceIdeal.S20000x128) (φ := .f32) (V c (Pipeline.arrRef spec11 0)) (broadcastInDim Cert.ReferenceIdeal.S20000x128 ![0, 1] Cert.ReferenceIdeal.Gen.bcast_S20000x1_S20000x128_0_1 (Host.divf (F := Ideal) (broadcastInDim Cert.ReferenceIdeal.S20000x1 ![0] Cert.ReferenceIdeal.Gen.bcast_S20000_S20000x1_0 (Host.reduceAdd (F := Ideal) (s := Cert.ReferenceIdeal.S20000x128) (φ := .f32) (V c (Pipeline.arrRef spec11 0)) (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32))))) (broadcastInDim Cert.ReferenceIdeal.S20000x128 ![0, 1] Cert.ReferenceIdeal.Gen.bcast_S20000x1_S20000x128_0_1 (Host.rsqrt (F := Ideal) (addf (F := Ideal) (Host.divf (F := Ideal) (broadcastInDim Cert.ReferenceIdeal.S20000x1 ![0] Cert.ReferenceIdeal.Gen.bcast_S20000_S20000x1_0 (Host.reduceAdd (F := Ideal) (mulf (F := Ideal) (subf (F := Ideal) (s := Cert.ReferenceIdeal.S20000x128) (φ := .f32) (V c (Pipeline.arrRef spec11 0)) (broadcastInDim Cert.ReferenceIdeal.S20000x128 ![0, 1] Cert.ReferenceIdeal.Gen.bcast_S20000x1_S20000x128_0_1 (Host.divf (F := Ideal) (broadcastInDim Cert.ReferenceIdeal.S20000x1 ![0] Cert.ReferenceIdeal.Gen.bcast_S20000_S20000x1_0 (Host.reduceAdd (F := Ideal) (s := Cert.ReferenceIdeal.S20000x128) (φ := .f32) (V c (Pipeline.arrRef spec11 0)) (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32))))) (subf (F := Ideal) (s := Cert.ReferenceIdeal.S20000x128) (φ := .f32) (V c (Pipeline.arrRef spec11 0)) (broadcastInDim Cert.ReferenceIdeal.S20000x128 ![0, 1] Cert.ReferenceIdeal.Gen.bcast_S20000x1_S20000x128_0_1 (Host.divf (F := Ideal) (broadcastInDim Cert.ReferenceIdeal.S20000x1 ![0] Cert.ReferenceIdeal.Gen.bcast_S20000_S20000x1_0 (Host.reduceAdd (F := Ideal) (s := Cert.ReferenceIdeal.S20000x128) (φ := .f32) (V c (Pipeline.arrRef spec11 0)) (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32)))))) (constant (F := Ideal) Cert.ReferenceIdeal.S_ .f32 0x00000000#32) Cert.ReferenceIdeal.Gen.reducesTo_S20000x128_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x43000000#32))) (broadcastInDim Cert.ReferenceIdeal.S20000x1 ![] Cert.ReferenceIdeal.Gen.bcast_S_S20000x1 (constant (F := Ideal) Cert.ReferenceIdeal.S_ .f32 0x3727C5AC#32)))))) (broadcastInDim Cert.ReferenceIdeal.S20000x128 ![0, 1] Cert.ReferenceIdeal.Gen.bcast_S1x128_S20000x128_0_1 (broadcastInDim Cert.ReferenceIdeal.S1x128 ![1] Cert.ReferenceIdeal.Gen.bcast_S128_S1x128_1 G))) (broadcastInDim Cert.ReferenceIdeal.S20000x128 ![0, 1] Cert.ReferenceIdeal.Gen.bcast_S1x128_S20000x128_0_1 (broadcastInDim Cert.ReferenceIdeal.S1x128 ![1] Cert.ReferenceIdeal.Gen.bcast_S128_S1x128_1 Bs))) ((broadcastInDim Cert.ReferenceIdeal.S20000x128 ![] Cert.ReferenceIdeal.Gen.bcast_S_S20000x128) (constant (F := Ideal) Cert.ReferenceIdeal.S_ .f32 0x00000000#32))) :=
  (dat11 V c).arrAt_eq_of_cover 3 (refLnRelu_20000x128 (V c (Pipeline.arrRef spec11 0)) G Bs)
    (fun t _ => Reg11.flushed V c G Bs hg hb t) (fun i => Reg11.cover i)

end Cert.KernelIdeal.Hand

end
-- ==== Proof.Host.Grp12.lean ====
import proofs.«147021_j7619271983570_1_alg».proof.Proof.Gen.KernelIdeal.Launch
import proofs.«147021_j7619271983570_1_alg».proof.Proof.Ref.Chunk_G12
import Idealize.ShloMosaic.Lib.StableHlo.Run

/-! Host operations of the kernel program against the reference program's: layer 2: the three zero accumulators, relation 0's weight slice and its zero bias row.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g12_v402 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps12 (F := F)) Wp) (Proc.devRef .tc Cert.KernelIdeal.main_v402) : (⟨Cert.KernelIdeal.S20000x64, .f32⟩ : BufTy).Contents (Elt F))
      = ((StableHlo.after (Cert.ReferenceIdeal.Hand.ops_G12 (F := F)) Bp) (Proc.devRef .tc Cert.ReferenceIdeal.main_v462) : (⟨Cert.KernelIdeal.S20000x64, .f32⟩ : BufTy).Contents (Elt F)) := by
  simp only [Cert.KernelIdeal.Gen.hostOps12, Cert.ReferenceIdeal.Hand.ops_G12]
  after_results_simp
  skip
  try (first | rfl | (simp only [StableHlo.TRef.ofBuf, StableHlo.TRef.toBuf, cast_eq]; rfl))

set_option maxHeartbeats 4000000 in
theorem g12_v403 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps12 (F := F)) Wp) (Proc.devRef .tc Cert.KernelIdeal.main_v403) : (⟨Cert.KernelIdeal.S60000x64, .f32⟩ : BufTy).Contents (Elt F))
      = ((StableHlo.after (Cert.ReferenceIdeal.Hand.ops_G12 (F := F)) Bp) (Proc.devRef .tc Cert.ReferenceIdeal.main_v463) : (⟨Cert.KernelIdeal.S60000x64, .f32⟩ : BufTy).Contents (Elt F)) := by
  simp only [Cert.KernelIdeal.Gen.hostOps12, Cert.ReferenceIdeal.Hand.ops_G12]
  after_results_simp
  skip
  try (first | rfl | (simp only [StableHlo.TRef.ofBuf, StableHlo.TRef.toBuf, cast_eq]; rfl))

set_option maxHeartbeats 4000000 in
theorem g12_v404 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps12 (F := F)) Wp) (Proc.devRef .tc Cert.KernelIdeal.main_v404) : (⟨Cert.KernelIdeal.S20000x64, .f32⟩ : BufTy).Contents (Elt F))
      = ((StableHlo.after (Cert.ReferenceIdeal.Hand.ops_G12 (F := F)) Bp) (Proc.devRef .tc Cert.ReferenceIdeal.main_v464) : (⟨Cert.KernelIdeal.S20000x64, .f32⟩ : BufTy).Contents (Elt F)) := by
  simp only [Cert.KernelIdeal.Gen.hostOps12, Cert.ReferenceIdeal.Hand.ops_G12]
  after_results_simp
  skip
  try (first | rfl | (simp only [StableHlo.TRef.ofBuf, StableHlo.TRef.toBuf, cast_eq]; rfl))

set_option maxHeartbeats 4000000 in
theorem g12_v407 {F : FTy → Type} [FloatOps F]
    (Wp : Valuation Cert.KernelIdeal.τ Cert.KernelIdeal.sig (Elt F)) (Bp : Valuation Cert.ReferenceIdeal.τ Cert.ReferenceIdeal.sig (Elt F))
    (h_arg11 : (Wp (Proc.devRef .tc Cert.KernelIdeal.main_arg11) : (⟨Cert.KernelIdeal.S6x128x64, .f32⟩ : BufTy).Contents (Elt F)) = Bp (Proc.devRef .tc Cert.ReferenceIdeal.main_arg11)) :
    ((StableHlo.after (Cert.KernelIdeal.Gen.hostOps12 (F := F)) Wp) (Proc.devRef .tc Cert.KernelIdeal.main_v407) : (⟨Cert.KernelIdeal.S128x64, .f32⟩ : BufTy).Contents (Elt F))
      = ((StableHlo.after (Cert.ReferenceIdeal.Hand.ops_G12 (F := F)) Bp) (Proc.devRef .tc Cert.ReferenceIdeal.main_v466) : (⟨Cert.KernelIdeal.S128x64, .f32⟩ : BufTy).Contents (Elt F)) := by
  simp only [Cert.KernelIdeal.Gen.hostOps12, Cert.ReferenceIdeal.Hand.ops_G12]
  after_results_simp
  try simp only [h_arg11]
  try (first | rfl | (simp only [StableHlo.TRef.ofBuf, StableHlo.TRef.toBuf, cast_eq]; rfl))

set_option maxHeartbeats 4000000 in
theorem g12_v408 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps12 (F := F)) Wp) (Proc.devRef .tc Cert.KernelIdeal.main_v408) : (⟨Cert.KernelIdeal.S1x64, .f32⟩ : BufTy).Contents (Elt F))
      = ((shapeCast _ (broadcastInDim Cert.KernelIdeal.S64 ![] Cert.KernelIdeal.Facts₀.bcast_S_S64 (constant (F := F) Cert.KernelIdeal.S_ .f32 0x00000000#32)) Cert.KernelIdeal.Facts₀.shapeCasts_S64_S1x64) : (⟨Cert.KernelIdeal.S1x64, .f32⟩ : BufTy).Contents (Elt F)) := by
  simp only [Cert.KernelIdeal.Gen.hostOps12, Cert.ReferenceIdeal.Hand.ops_G12]
  after_results_simp
  skip
  try (first | rfl | (simp only [StableHlo.TRef.ofBuf, StableHlo.TRef.toBuf, cast_eq]; rfl))

end Cert.Bisim

end
-- ==== Proof.Host.Grp13.lean ====
import proofs.«147021_j7619271983570_1_alg».proof.Proof.Gen.KernelIdeal.Launch
import proofs.«147021_j7619271983570_1_alg».proof.Proof.Ref.Chunk_G13a
import proofs.«147021_j7619271983570_1_alg».proof.Proof.Ref.Chunk_D12
import proofs.«147021_j7619271983570_1_alg».proof.Proof.Ref.Chunk_G13b
import Idealize.ShloMosaic.Lib.StableHlo.Run

/-! Host operations of the kernel program against the reference program's: layer 2, relation 0: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g13_v466 {F : FTy → Type} [FloatOps F]
    (Wp : Valuation Cert.KernelIdeal.τ Cert.KernelIdeal.sig (Elt F)) (Bp : Valuation Cert.ReferenceIdeal.τ Cert.ReferenceIdeal.sig (Elt F))
    (h_v404 : (Wp (Proc.devRef .tc Cert.KernelIdeal.main_v404) : (⟨Cert.KernelIdeal.S20000x64, .f32⟩ : BufTy).Contents (Elt F)) = Bp (Proc.devRef .tc Cert.ReferenceIdeal.main_v464))
    (h_v409 : (Wp (Proc.devRef .tc Cert.KernelIdeal.main_v409) : (⟨Cert.KernelIdeal.S20000x64, .f32⟩ : BufTy).Contents (Elt F)) = (Host.dotGeneral (F := F) Cert.ReferenceIdeal.dot_S20000x128_S128x64_S20000x64_1_0_0_1_n_n none (Bp (Proc.devRef .tc Cert.ReferenceIdeal.main_v459)) (Bp (Proc.devRef .tc Cert.ReferenceIdeal.main_v466))))
    (h_arg17 : (Wp (Proc.devRef .tc Cert.KernelIdeal.main_arg17) : (⟨Cert.KernelIdeal.S2x500000, .i32⟩ : BufTy).Contents (Elt F)) = Bp (Proc.devRef .tc Cert.ReferenceIdeal.main_arg17))
    (h_arg12 : (Wp (Proc.devRef .tc Cert.KernelIdeal.main_arg12) : (⟨Cert.KernelIdeal.S6x64, .f32⟩ : BufTy).Contents (Elt F)) = Bp (Proc.devRef .tc Cert.ReferenceIdeal.main_arg12)) :
    ((StableHlo.after (Cert.KernelIdeal.Gen.hostOps13_4 (F := F)) (StableHlo.after (Cert.KernelIdeal.Gen.hostOps13_3 (F := F)) (StableHlo.after (Cert.KernelIdeal.Gen.hostOps13_2 (F := F)) (StableHlo.after (Cert.KernelIdeal.Gen.hostOps13_1 (F := F)) (StableHlo.after (Cert.KernelIdeal.Gen.hostOps13 (F := F)) Wp))))) (Proc.devRef .tc Cert.KernelIdeal.main_v466) : (⟨Cert.KernelIdeal.S20000x64, .f32⟩ : BufTy).Contents (Elt F))
      = ((StableHlo.after (Cert.ReferenceIdeal.Hand.ops_G13b (F := F)) (StableHlo.after (Cert.ReferenceIdeal.Hand.ops_D12 (F := F)) (StableHlo.after (Cert.ReferenceIdeal.Hand.ops_G13a (F := F)) Bp))) (Proc.devRef .tc Cert.ReferenceIdeal.main_v524) : (⟨Cert.KernelIdeal.S20000x64, .f32⟩ : BufTy).Contents (Elt F)) := by
  simp only [Cert.KernelIdeal.Gen.hostOps13, Cert.KernelIdeal.Gen.hostOps13_1, Cert.KernelIdeal.Gen.hostOps13_2, Cert.KernelIdeal.Gen.hostOps13_3, Cert.KernelIdeal.Gen.hostOps13_4, Cert.ReferenceIdeal.Hand.ops_G13a, Cert.ReferenceIdeal.Hand.ops_D12, Cert.ReferenceIdeal.Hand.ops_G13b]
  after_results_simp
  try simp only [h_v404, h_v409, h_arg17, h_arg12]
  try (first | rfl | (simp only [StableHlo.TRef.ofBuf, StableHlo.TRef.toBuf, cast_eq]; rfl))

set_option maxHeartbeats 4000000 in
theorem g13_v469 {F : FTy → Type} [FloatOps F]
    (Wp : Valuation Cert.KernelIdeal.τ Cert.KernelIdeal.sig (Elt F)) (Bp : Valuation Cert.ReferenceIdeal.τ Cert.ReferenceIdeal.sig (Elt F))
    (h_arg11 : (Wp (Proc.devRef .tc Cert.KernelIdeal.main_arg11) : (⟨Cert.KernelIdeal.S6x128x64, .f32⟩ : BufTy).Contents (Elt F)) = Bp (Proc.devRef .tc Cert.ReferenceIdeal.main_arg11)) :
    ((StableHlo.after (Cert.KernelIdeal.Gen.hostOps13_4 (F := F)) (StableHlo.after (Cert.KernelIdeal.Gen.hostOps13_3 (F := F)) (StableHlo.after (Cert.KernelIdeal.Gen.hostOps13_2 (F := F)) (StableHlo.after (Cert.KernelIdeal.Gen.hostOps13_1 (F := F)) (StableHlo.after (Cert.KernelIdeal.Gen.hostOps13 (F := F)) Wp))))) (Proc.devRef .tc Cert.KernelIdeal.main_v469) : (⟨Cert.KernelIdeal.S128x64, .f32⟩ : BufTy).Contents (Elt F))
      = ((StableHlo.after (Cert.ReferenceIdeal.Hand.ops_G13b (F := F)) (StableHlo.after (Cert.ReferenceIdeal.Hand.ops_D12 (F := F)) (StableHlo.after (Cert.ReferenceIdeal.Hand.ops_G13a (F := F)) Bp))) (Proc.devRef .tc Cert.ReferenceIdeal.main_v526) : (⟨Cert.KernelIdeal.S128x64, .f32⟩ : BufTy).Contents (Elt F)) := by
  simp only [Cert.KernelIdeal.Gen.hostOps13, Cert.KernelIdeal.Gen.hostOps13_1, Cert.KernelIdeal.Gen.hostOps13_2, Cert.KernelIdeal.Gen.hostOps13_3, Cert.KernelIdeal.Gen.hostOps13_4, Cert.ReferenceIdeal.Hand.ops_G13a, Cert.ReferenceIdeal.Hand.ops_D12, Cert.ReferenceIdeal.Hand.ops_G13b]
  after_results_simp
  try simp only [h_arg11]
  try (first | rfl | (simp only [StableHlo.TRef.ofBuf, StableHlo.TRef.toBuf, cast_eq]; rfl))

set_option maxHeartbeats 4000000 in
theorem g13_v470 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps13_4 (F := F)) (StableHlo.after (Cert.KernelIdeal.Gen.hostOps13_3 (F := F)) (StableHlo.after (Cert.KernelIdeal.Gen.hostOps13_2 (F := F)) (StableHlo.after (Cert.KernelIdeal.Gen.hostOps13_1 (F := F)) (StableHlo.after (Cert.KernelIdeal.Gen.hostOps13 (F := F)) Wp))))) (Proc.devRef .tc Cert.KernelIdeal.main_v470) : (⟨Cert.KernelIdeal.S1x64, .f32⟩ : BufTy).Contents (Elt F))
      = ((shapeCast _ (broadcastInDim Cert.KernelIdeal.S64 ![] Cert.KernelIdeal.Facts₀.bcast_S_S64 (constant (F := F) Cert.KernelIdeal.S_ .f32 0x00000000#32)) Cert.KernelIdeal.Facts₀.shapeCasts_S64_S1x64) : (⟨Cert.KernelIdeal.S1x64, .f32⟩ : BufTy).Contents (Elt F)) := by
  simp only [Cert.KernelIdeal.Gen.hostOps13, Cert.KernelIdeal.Gen.hostOps13_1, Cert.KernelIdeal.Gen.hostOps13_2, Cert.KernelIdeal.Gen.hostOps13_3, Cert.KernelIdeal.Gen.hostOps13_4, Cert.ReferenceIdeal.Hand.ops_G13a, Cert.ReferenceIdeal.Hand.ops_D12, Cert.ReferenceIdeal.Hand.ops_G13b]
  after_results_simp
  skip
  try (first | rfl | (simp only [StableHlo.TRef.ofBuf, StableHlo.TRef.toBuf, cast_eq]; rfl))

end Cert.Bisim

end
-- ==== Proof.Host.Grp14.lean ====
import proofs.«147021_j7619271983570_1_alg».proof.Proof.Gen.KernelIdeal.Launch
import proofs.«147021_j7619271983570_1_alg».proof.Proof.Ref.Chunk_G14a
import proofs.«147021_j7619271983570_1_alg».proof.Proof.Ref.Chunk_D13
import proofs.«147021_j7619271983570_1_alg».proof.Proof.Ref.Chunk_G14b
import Idealize.ShloMosaic.Lib.StableHlo.Run

/-! Host operations of the kernel program against the reference program's: layer 2, relation 1: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g14_v528 {F : FTy → Type} [FloatOps F]
    (Wp : Valuation Cert.KernelIdeal.τ Cert.KernelIdeal.sig (Elt F)) (Bp : Valuation Cert.ReferenceIdeal.τ Cert.ReferenceIdeal.sig (Elt F))
    (h_v403 : (Wp (Proc.devRef .tc Cert.KernelIdeal.main_v403) : (⟨Cert.KernelIdeal.S60000x64, .f32⟩ : BufTy).Contents (Elt F)) = Bp (Proc.devRef .tc Cert.ReferenceIdeal.main_v463))
    (h_v471 : (Wp (Proc.devRef .tc Cert.KernelIdeal.main_v471) : (⟨Cert.KernelIdeal.S20000x64, .f32⟩ : BufTy).Contents (Elt F)) = (Host.dotGeneral (F := F) Cert.ReferenceIdeal.dot_S20000x128_S128x64_S20000x64_1_0_0_1_n_n none (Bp (Proc.devRef .tc Cert.ReferenceIdeal.main_v459)) (Bp (Proc.devRef .tc Cert.ReferenceIdeal.main_v526))))
    (h_arg18 : (Wp (Proc.devRef .tc Cert.KernelIdeal.main_arg18) : (⟨Cert.KernelIdeal.S2x500000, .i32⟩ : BufTy).Contents (Elt F)) = Bp (Proc.devRef .tc Cert.ReferenceIdeal.main_arg18))
    (h_arg12 : (Wp (Proc.devRef .tc Cert.KernelIdeal.main_arg12) : (⟨Cert.KernelIdeal.S6x64, .f32⟩ : BufTy).Contents (Elt F)) = Bp (Proc.devRef .tc Cert.ReferenceIdeal.main_arg12)) :
    ((StableHlo.after (Cert.KernelIdeal.Gen.hostOps14_4 (F := F)) (StableHlo.after (Cert.KernelIdeal.Gen.hostOps14_3 (F := F)) (StableHlo.after (Cert.KernelIdeal.Gen.hostOps14_2 (F := F)) (StableHlo.after (Cert.KernelIdeal.Gen.hostOps14_1 (F := F)) (StableHlo.after (Cert.KernelIdeal.Gen.hostOps14 (F := F)) Wp))))) (Proc.devRef .tc Cert.KernelIdeal.main_v528) : (⟨Cert.KernelIdeal.S60000x64, .f32⟩ : BufTy).Contents (Elt F))
      = ((StableHlo.after (Cert.ReferenceIdeal.Hand.ops_G14b (F := F)) (StableHlo.after (Cert.ReferenceIdeal.Hand.ops_D13 (F := F)) (StableHlo.after (Cert.ReferenceIdeal.Hand.ops_G14a (F := F)) Bp))) (Proc.devRef .tc Cert.ReferenceIdeal.main_v584) : (⟨Cert.KernelIdeal.S60000x64, .f32⟩ : BufTy).Contents (Elt F)) := by
  simp only [Cert.KernelIdeal.Gen.hostOps14, Cert.KernelIdeal.Gen.hostOps14_1, Cert.KernelIdeal.Gen.hostOps14_2, Cert.KernelIdeal.Gen.hostOps14_3, Cert.KernelIdeal.Gen.hostOps14_4, Cert.ReferenceIdeal.Hand.ops_G14a, Cert.ReferenceIdeal.Hand.ops_D13, Cert.ReferenceIdeal.Hand.ops_G14b]
  after_results_simp
  try simp only [h_v403, h_v471, h_arg18, h_arg12]
  try (first | rfl | (simp only [StableHlo.TRef.ofBuf, StableHlo.TRef.toBuf, cast_eq]; rfl))

set_option maxHeartbeats 4000000 in
theorem g14_v531 {F : FTy → Type} [FloatOps F]
    (Wp : Valuation Cert.KernelIdeal.τ Cert.KernelIdeal.sig (Elt F)) (Bp : Valuation Cert.ReferenceIdeal.τ Cert.ReferenceIdeal.sig (Elt F))
    (h_arg11 : (Wp (Proc.devRef .tc Cert.KernelIdeal.main_arg11) : (⟨Cert.KernelIdeal.S6x128x64, .f32⟩ : BufTy).Contents (Elt F)) = Bp (Proc.devRef .tc Cert.ReferenceIdeal.main_arg11)) :
    ((StableHlo.after (Cert.KernelIdeal.Gen.hostOps14_4 (F := F)) (StableHlo.after (Cert.KernelIdeal.Gen.hostOps14_3 (F := F)) (StableHlo.after (Cert.KernelIdeal.Gen.hostOps14_2 (F := F)) (StableHlo.after (Cert.KernelIdeal.Gen.hostOps14_1 (F := F)) (StableHlo.after (Cert.KernelIdeal.Gen.hostOps14 (F := F)) Wp))))) (Proc.devRef .tc Cert.KernelIdeal.main_v531) : (⟨Cert.KernelIdeal.S128x64, .f32⟩ : BufTy).Contents (Elt F))
      = ((StableHlo.after (Cert.ReferenceIdeal.Hand.ops_G14b (F := F)) (StableHlo.after (Cert.ReferenceIdeal.Hand.ops_D13 (F := F)) (StableHlo.after (Cert.ReferenceIdeal.Hand.ops_G14a (F := F)) Bp))) (Proc.devRef .tc Cert.ReferenceIdeal.main_v586) : (⟨Cert.KernelIdeal.S128x64, .f32⟩ : BufTy).Contents (Elt F)) := by
  simp only [Cert.KernelIdeal.Gen.hostOps14, Cert.KernelIdeal.Gen.hostOps14_1, Cert.KernelIdeal.Gen.hostOps14_2, Cert.KernelIdeal.Gen.hostOps14_3, Cert.KernelIdeal.Gen.hostOps14_4, Cert.ReferenceIdeal.Hand.ops_G14a, Cert.ReferenceIdeal.Hand.ops_D13, Cert.ReferenceIdeal.Hand.ops_G14b]
  after_results_simp
  try simp only [h_arg11]
  try (first | rfl | (simp only [StableHlo.TRef.ofBuf, StableHlo.TRef.toBuf, cast_eq]; rfl))

set_option maxHeartbeats 4000000 in
theorem g14_v532 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps14_4 (F := F)) (StableHlo.after (Cert.KernelIdeal.Gen.hostOps14_3 (F := F)) (StableHlo.after (Cert.KernelIdeal.Gen.hostOps14_2 (F := F)) (StableHlo.after (Cert.KernelIdeal.Gen.hostOps14_1 (F := F)) (StableHlo.after (Cert.KernelIdeal.Gen.hostOps14 (F := F)) Wp))))) (Proc.devRef .tc Cert.KernelIdeal.main_v532) : (⟨Cert.KernelIdeal.S1x64, .f32⟩ : BufTy).Contents (Elt F))
      = ((shapeCast _ (broadcastInDim Cert.KernelIdeal.S64 ![] Cert.KernelIdeal.Facts₀.bcast_S_S64 (constant (F := F) Cert.KernelIdeal.S_ .f32 0x00000000#32)) Cert.KernelIdeal.Facts₀.shapeCasts_S64_S1x64) : (⟨Cert.KernelIdeal.S1x64, .f32⟩ : BufTy).Contents (Elt F)) := by
  simp only [Cert.KernelIdeal.Gen.hostOps14, Cert.KernelIdeal.Gen.hostOps14_1, Cert.KernelIdeal.Gen.hostOps14_2, Cert.KernelIdeal.Gen.hostOps14_3, Cert.KernelIdeal.Gen.hostOps14_4, Cert.ReferenceIdeal.Hand.ops_G14a, Cert.ReferenceIdeal.Hand.ops_D13, Cert.ReferenceIdeal.Hand.ops_G14b]
  after_results_simp
  skip
  try (first | rfl | (simp only [StableHlo.TRef.ofBuf, StableHlo.TRef.toBuf, cast_eq]; rfl))

end Cert.Bisim

end
-- ==== Proof.Host.Grp15.lean ====
import proofs.«147021_j7619271983570_1_alg».proof.Proof.Gen.KernelIdeal.Launch
import proofs.«147021_j7619271983570_1_alg».proof.Proof.Ref.Chunk_G15a
import proofs.«147021_j7619271983570_1_alg».proof.Proof.Ref.Chunk_D14
import proofs.«147021_j7619271983570_1_alg».proof.Proof.Ref.Chunk_G15b
import Idealize.ShloMosaic.Lib.StableHlo.Run

/-! Host operations of the kernel program against the reference program's: layer 2, relation 2: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g15_v590 {F : FTy → Type} [FloatOps F]
    (Wp : Valuation Cert.KernelIdeal.τ Cert.KernelIdeal.sig (Elt F)) (Bp : Valuation Cert.ReferenceIdeal.τ Cert.ReferenceIdeal.sig (Elt F))
    (h_v466 : (Wp (Proc.devRef .tc Cert.KernelIdeal.main_v466) : (⟨Cert.KernelIdeal.S20000x64, .f32⟩ : BufTy).Contents (Elt F)) = Bp (Proc.devRef .tc Cert.ReferenceIdeal.main_v524))
    (h_v533 : (Wp (Proc.devRef .tc Cert.KernelIdeal.main_v533) : (⟨Cert.KernelIdeal.S60000x64, .f32⟩ : BufTy).Contents (Elt F)) = (Host.dotGeneral (F := F) Cert.ReferenceIdeal.dot_S60000x128_S128x64_S60000x64_1_0_0_1_n_n none (Bp (Proc.devRef .tc Cert.ReferenceIdeal.main_v460)) (Bp (Proc.devRef .tc Cert.ReferenceIdeal.main_v586))))
    (h_arg19 : (Wp (Proc.devRef .tc Cert.KernelIdeal.main_arg19) : (⟨Cert.KernelIdeal.S2x500000, .i32⟩ : BufTy).Contents (Elt F)) = Bp (Proc.devRef .tc Cert.ReferenceIdeal.main_arg19))
    (h_arg12 : (Wp (Proc.devRef .tc Cert.KernelIdeal.main_arg12) : (⟨Cert.KernelIdeal.S6x64, .f32⟩ : BufTy).Contents (Elt F)) = Bp (Proc.devRef .tc Cert.ReferenceIdeal.main_arg12)) :
    ((StableHlo.after (Cert.KernelIdeal.Gen.hostOps15_4 (F := F)) (StableHlo.after (Cert.KernelIdeal.Gen.hostOps15_3 (F := F)) (StableHlo.after (Cert.KernelIdeal.Gen.hostOps15_2 (F := F)) (StableHlo.after (Cert.KernelIdeal.Gen.hostOps15_1 (F := F)) (StableHlo.after (Cert.KernelIdeal.Gen.hostOps15 (F := F)) Wp))))) (Proc.devRef .tc Cert.KernelIdeal.main_v590) : (⟨Cert.KernelIdeal.S20000x64, .f32⟩ : BufTy).Contents (Elt F))
      = ((StableHlo.after (Cert.ReferenceIdeal.Hand.ops_G15b (F := F)) (StableHlo.after (Cert.ReferenceIdeal.Hand.ops_D14 (F := F)) (StableHlo.after (Cert.ReferenceIdeal.Hand.ops_G15a (F := F)) Bp))) (Proc.devRef .tc Cert.ReferenceIdeal.main_v644) : (⟨Cert.KernelIdeal.S20000x64, .f32⟩ : BufTy).Contents (Elt F)) := by
  simp only [Cert.KernelIdeal.Gen.hostOps15, Cert.KernelIdeal.Gen.hostOps15_1, Cert.KernelIdeal.Gen.hostOps15_2, Cert.KernelIdeal.Gen.hostOps15_3, Cert.KernelIdeal.Gen.hostOps15_4, Cert.ReferenceIdeal.Hand.ops_G15a, Cert.ReferenceIdeal.Hand.ops_D14, Cert.ReferenceIdeal.Hand.ops_G15b]
  after_results_simp
  try simp only [h_v466, h_v533, h_arg19, h_arg12]
  try (first | rfl | (simp only [StableHlo.TRef.ofBuf, StableHlo.TRef.toBuf, cast_eq]; rfl))

set_option maxHeartbeats 4000000 in
theorem g15_v593 {F : FTy → Type} [FloatOps F]
    (Wp : Valuation Cert.KernelIdeal.τ Cert.KernelIdeal.sig (Elt F)) (Bp : Valuation Cert.ReferenceIdeal.τ Cert.ReferenceIdeal.sig (Elt F))
    (h_arg11 : (Wp (Proc.devRef .tc Cert.KernelIdeal.main_arg11) : (⟨Cert.KernelIdeal.S6x128x64, .f32⟩ : BufTy).Contents (Elt F)) = Bp (Proc.devRef .tc Cert.ReferenceIdeal.main_arg11)) :
    ((StableHlo.after (Cert.KernelIdeal.Gen.hostOps15_4 (F := F)) (StableHlo.after (Cert.KernelIdeal.Gen.hostOps15_3 (F := F)) (StableHlo.after (Cert.KernelIdeal.Gen.hostOps15_2 (F := F)) (StableHlo.after (Cert.KernelIdeal.Gen.hostOps15_1 (F := F)) (StableHlo.after (Cert.KernelIdeal.Gen.hostOps15 (F := F)) Wp))))) (Proc.devRef .tc Cert.KernelIdeal.main_v593) : (⟨Cert.KernelIdeal.S128x64, .f32⟩ : BufTy).Contents (Elt F))
      = ((StableHlo.after (Cert.ReferenceIdeal.Hand.ops_G15b (F := F)) (StableHlo.after (Cert.ReferenceIdeal.Hand.ops_D14 (F := F)) (StableHlo.after (Cert.ReferenceIdeal.Hand.ops_G15a (F := F)) Bp))) (Proc.devRef .tc Cert.ReferenceIdeal.main_v646) : (⟨Cert.KernelIdeal.S128x64, .f32⟩ : BufTy).Contents (Elt F)) := by
  simp only [Cert.KernelIdeal.Gen.hostOps15, Cert.KernelIdeal.Gen.hostOps15_1, Cert.KernelIdeal.Gen.hostOps15_2, Cert.KernelIdeal.Gen.hostOps15_3, Cert.KernelIdeal.Gen.hostOps15_4, Cert.ReferenceIdeal.Hand.ops_G15a, Cert.ReferenceIdeal.Hand.ops_D14, Cert.ReferenceIdeal.Hand.ops_G15b]
  after_results_simp
  try simp only [h_arg11]
  try (first | rfl | (simp only [StableHlo.TRef.ofBuf, StableHlo.TRef.toBuf, cast_eq]; rfl))

set_option maxHeartbeats 4000000 in
theorem g15_v594 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps15_4 (F := F)) (StableHlo.after (Cert.KernelIdeal.Gen.hostOps15_3 (F := F)) (StableHlo.after (Cert.KernelIdeal.Gen.hostOps15_2 (F := F)) (StableHlo.after (Cert.KernelIdeal.Gen.hostOps15_1 (F := F)) (StableHlo.after (Cert.KernelIdeal.Gen.hostOps15 (F := F)) Wp))))) (Proc.devRef .tc Cert.KernelIdeal.main_v594) : (⟨Cert.KernelIdeal.S1x64, .f32⟩ : BufTy).Contents (Elt F))
      = ((shapeCast _ (broadcastInDim Cert.KernelIdeal.S64 ![] Cert.KernelIdeal.Facts₀.bcast_S_S64 (constant (F := F) Cert.KernelIdeal.S_ .f32 0x00000000#32)) Cert.KernelIdeal.Facts₀.shapeCasts_S64_S1x64) : (⟨Cert.KernelIdeal.S1x64, .f32⟩ : BufTy).Contents (Elt F)) := by
  simp only [Cert.KernelIdeal.Gen.hostOps15, Cert.KernelIdeal.Gen.hostOps15_1, Cert.KernelIdeal.Gen.hostOps15_2, Cert.KernelIdeal.Gen.hostOps15_3, Cert.KernelIdeal.Gen.hostOps15_4, Cert.ReferenceIdeal.Hand.ops_G15a, Cert.ReferenceIdeal.Hand.ops_D14, Cert.ReferenceIdeal.Hand.ops_G15b]
  after_results_simp
  skip
  try (first | rfl | (simp only [StableHlo.TRef.ofBuf, StableHlo.TRef.toBuf, cast_eq]; rfl))

end Cert.Bisim

end
-- ==== Proof.Host.Grp16.lean ====
import proofs.«147021_j7619271983570_1_alg».proof.Proof.Gen.KernelIdeal.Launch
import proofs.«147021_j7619271983570_1_alg».proof.Proof.Ref.Chunk_G16a
import proofs.«147021_j7619271983570_1_alg».proof.Proof.Ref.Chunk_D15
import proofs.«147021_j7619271983570_1_alg».proof.Proof.Ref.Chunk_G16b
import Idealize.ShloMosaic.Lib.StableHlo.Run

/-! Host operations of the kernel program against the reference program's: layer 2, relation 3: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g16_v652 {F : FTy → Type} [FloatOps F]
    (Wp : Valuation Cert.KernelIdeal.τ Cert.KernelIdeal.sig (Elt F)) (Bp : Valuation Cert.ReferenceIdeal.τ Cert.ReferenceIdeal.sig (Elt F))
    (h_v402 : (Wp (Proc.devRef .tc Cert.KernelIdeal.main_v402) : (⟨Cert.KernelIdeal.S20000x64, .f32⟩ : BufTy).Contents (Elt F)) = Bp (Proc.devRef .tc Cert.ReferenceIdeal.main_v462))
    (h_v595 : (Wp (Proc.devRef .tc Cert.KernelIdeal.main_v595) : (⟨Cert.KernelIdeal.S20000x64, .f32⟩ : BufTy).Contents (Elt F)) = (Host.dotGeneral (F := F) Cert.ReferenceIdeal.dot_S20000x128_S128x64_S20000x64_1_0_0_1_n_n none (Bp (Proc.devRef .tc Cert.ReferenceIdeal.main_v461)) (Bp (Proc.devRef .tc Cert.ReferenceIdeal.main_v646))))
    (h_arg20 : (Wp (Proc.devRef .tc Cert.KernelIdeal.main_arg20) : (⟨Cert.KernelIdeal.S2x500000, .i32⟩ : BufTy).Contents (Elt F)) = Bp (Proc.devRef .tc Cert.ReferenceIdeal.main_arg20))
    (h_arg12 : (Wp (Proc.devRef .tc Cert.KernelIdeal.main_arg12) : (⟨Cert.KernelIdeal.S6x64, .f32⟩ : BufTy).Contents (Elt F)) = Bp (Proc.devRef .tc Cert.ReferenceIdeal.main_arg12)) :
    ((StableHlo.after (Cert.KernelIdeal.Gen.hostOps16_4 (F := F)) (StableHlo.after (Cert.KernelIdeal.Gen.hostOps16_3 (F := F)) (StableHlo.after (Cert.KernelIdeal.Gen.hostOps16_2 (F := F)) (StableHlo.after (Cert.KernelIdeal.Gen.hostOps16_1 (F := F)) (StableHlo.after (Cert.KernelIdeal.Gen.hostOps16 (F := F)) Wp))))) (Proc.devRef .tc Cert.KernelIdeal.main_v652) : (⟨Cert.KernelIdeal.S20000x64, .f32⟩ : BufTy).Contents (Elt F))
      = ((StableHlo.after (Cert.ReferenceIdeal.Hand.ops_G16b (F := F)) (StableHlo.after (Cert.ReferenceIdeal.Hand.ops_D15 (F := F)) (StableHlo.after (Cert.ReferenceIdeal.Hand.ops_G16a (F := F)) Bp))) (Proc.devRef .tc Cert.ReferenceIdeal.main_v704) : (⟨Cert.KernelIdeal.S20000x64, .f32⟩ : BufTy).Contents (Elt F)) := by
  simp only [Cert.KernelIdeal.Gen.hostOps16, Cert.KernelIdeal.Gen.hostOps16_1, Cert.KernelIdeal.Gen.hostOps16_2, Cert.KernelIdeal.Gen.hostOps16_3, Cert.KernelIdeal.Gen.hostOps16_4, Cert.ReferenceIdeal.Hand.ops_G16a, Cert.ReferenceIdeal.Hand.ops_D15, Cert.ReferenceIdeal.Hand.ops_G16b]
  after_results_simp
  try simp only [h_v402, h_v595, h_arg20, h_arg12]
  try (first | rfl | (simp only [StableHlo.TRef.ofBuf, StableHlo.TRef.toBuf, cast_eq]; rfl))

set_option maxHeartbeats 4000000 in
theorem g16_v655 {F : FTy → Type} [FloatOps F]
    (Wp : Valuation Cert.KernelIdeal.τ Cert.KernelIdeal.sig (Elt F)) (Bp : Valuation Cert.ReferenceIdeal.τ Cert.ReferenceIdeal.sig (Elt F))
    (h_arg11 : (Wp (Proc.devRef .tc Cert.KernelIdeal.main_arg11) : (⟨Cert.KernelIdeal.S6x128x64, .f32⟩ : BufTy).Contents (Elt F)) = Bp (Proc.devRef .tc Cert.ReferenceIdeal.main_arg11)) :
    ((StableHlo.after (Cert.KernelIdeal.Gen.hostOps16_4 (F := F)) (StableHlo.after (Cert.KernelIdeal.Gen.hostOps16_3 (F := F)) (StableHlo.after (Cert.KernelIdeal.Gen.hostOps16_2 (F := F)) (StableHlo.after (Cert.KernelIdeal.Gen.hostOps16_1 (F := F)) (StableHlo.after (Cert.KernelIdeal.Gen.hostOps16 (F := F)) Wp))))) (Proc.devRef .tc Cert.KernelIdeal.main_v655) : (⟨Cert.KernelIdeal.S128x64, .f32⟩ : BufTy).Contents (Elt F))
      = ((StableHlo.after (Cert.ReferenceIdeal.Hand.ops_G16b (F := F)) (StableHlo.after (Cert.ReferenceIdeal.Hand.ops_D15 (F := F)) (StableHlo.after (Cert.ReferenceIdeal.Hand.ops_G16a (F := F)) Bp))) (Proc.devRef .tc Cert.ReferenceIdeal.main_v706) : (⟨Cert.KernelIdeal.S128x64, .f32⟩ : BufTy).Contents (Elt F)) := by
  simp only [Cert.KernelIdeal.Gen.hostOps16, Cert.KernelIdeal.Gen.hostOps16_1, Cert.KernelIdeal.Gen.hostOps16_2, Cert.KernelIdeal.Gen.hostOps16_3, Cert.KernelIdeal.Gen.hostOps16_4, Cert.ReferenceIdeal.Hand.ops_G16a, Cert.ReferenceIdeal.Hand.ops_D15, Cert.ReferenceIdeal.Hand.ops_G16b]
  after_results_simp
  try simp only [h_arg11]
  try (first | rfl | (simp only [StableHlo.TRef.ofBuf, StableHlo.TRef.toBuf, cast_eq]; rfl))

set_option maxHeartbeats 4000000 in
theorem g16_v656 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps16_4 (F := F)) (StableHlo.after (Cert.KernelIdeal.Gen.hostOps16_3 (F := F)) (StableHlo.after (Cert.KernelIdeal.Gen.hostOps16_2 (F := F)) (StableHlo.after (Cert.KernelIdeal.Gen.hostOps16_1 (F := F)) (StableHlo.after (Cert.KernelIdeal.Gen.hostOps16 (F := F)) Wp))))) (Proc.devRef .tc Cert.KernelIdeal.main_v656) : (⟨Cert.KernelIdeal.S1x64, .f32⟩ : BufTy).Contents (Elt F))
      = ((shapeCast _ (broadcastInDim Cert.KernelIdeal.S64 ![] Cert.KernelIdeal.Facts₀.bcast_S_S64 (constant (F := F) Cert.KernelIdeal.S_ .f32 0x00000000#32)) Cert.KernelIdeal.Facts₀.shapeCasts_S64_S1x64) : (⟨Cert.KernelIdeal.S1x64, .f32⟩ : BufTy).Contents (Elt F)) := by
  simp only [Cert.KernelIdeal.Gen.hostOps16, Cert.KernelIdeal.Gen.hostOps16_1, Cert.KernelIdeal.Gen.hostOps16_2, Cert.KernelIdeal.Gen.hostOps16_3, Cert.KernelIdeal.Gen.hostOps16_4, Cert.ReferenceIdeal.Hand.ops_G16a, Cert.ReferenceIdeal.Hand.ops_D15, Cert.ReferenceIdeal.Hand.ops_G16b]
  after_results_simp
  skip
  try (first | rfl | (simp only [StableHlo.TRef.ofBuf, StableHlo.TRef.toBuf, cast_eq]; rfl))

end Cert.Bisim

end
-- ==== Proof.Host.Grp17.lean ====
import proofs.«147021_j7619271983570_1_alg».proof.Proof.Gen.KernelIdeal.Launch
import proofs.«147021_j7619271983570_1_alg».proof.Proof.Ref.Chunk_G17a
import proofs.«147021_j7619271983570_1_alg».proof.Proof.Ref.Chunk_D16
import proofs.«147021_j7619271983570_1_alg».proof.Proof.Ref.Chunk_G17b
import Idealize.ShloMosaic.Lib.StableHlo.Run

/-! Host operations of the kernel program against the reference program's: layer 2, relation 4: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g17_v714 {F : FTy → Type} [FloatOps F]
    (Wp : Valuation Cert.KernelIdeal.τ Cert.KernelIdeal.sig (Elt F)) (Bp : Valuation Cert.ReferenceIdeal.τ Cert.ReferenceIdeal.sig (Elt F))
    (h_v652 : (Wp (Proc.devRef .tc Cert.KernelIdeal.main_v652) : (⟨Cert.KernelIdeal.S20000x64, .f32⟩ : BufTy).Contents (Elt F)) = Bp (Proc.devRef .tc Cert.ReferenceIdeal.main_v704))
    (h_v657 : (Wp (Proc.devRef .tc Cert.KernelIdeal.main_v657) : (⟨Cert.KernelIdeal.S60000x64, .f32⟩ : BufTy).Contents (Elt F)) = (Host.dotGeneral (F := F) Cert.ReferenceIdeal.dot_S60000x128_S128x64_S60000x64_1_0_0_1_n_n none (Bp (Proc.devRef .tc Cert.ReferenceIdeal.main_v460)) (Bp (Proc.devRef .tc Cert.ReferenceIdeal.main_v706))))
    (h_arg21 : (Wp (Proc.devRef .tc Cert.KernelIdeal.main_arg21) : (⟨Cert.KernelIdeal.S2x500000, .i32⟩ : BufTy).Contents (Elt F)) = Bp (Proc.devRef .tc Cert.ReferenceIdeal.main_arg21))
    (h_arg12 : (Wp (Proc.devRef .tc Cert.KernelIdeal.main_arg12) : (⟨Cert.KernelIdeal.S6x64, .f32⟩ : BufTy).Contents (Elt F)) = Bp (Proc.devRef .tc Cert.ReferenceIdeal.main_arg12)) :
    ((StableHlo.after (Cert.KernelIdeal.Gen.hostOps17_4 (F := F)) (StableHlo.after (Cert.KernelIdeal.Gen.hostOps17_3 (F := F)) (StableHlo.after (Cert.KernelIdeal.Gen.hostOps17_2 (F := F)) (StableHlo.after (Cert.KernelIdeal.Gen.hostOps17_1 (F := F)) (StableHlo.after (Cert.KernelIdeal.Gen.hostOps17 (F := F)) Wp))))) (Proc.devRef .tc Cert.KernelIdeal.main_v714) : (⟨Cert.KernelIdeal.S20000x64, .f32⟩ : BufTy).Contents (Elt F))
      = ((StableHlo.after (Cert.ReferenceIdeal.Hand.ops_G17b (F := F)) (StableHlo.after (Cert.ReferenceIdeal.Hand.ops_D16 (F := F)) (StableHlo.after (Cert.ReferenceIdeal.Hand.ops_G17a (F := F)) Bp))) (Proc.devRef .tc Cert.ReferenceIdeal.main_v764) : (⟨Cert.KernelIdeal.S20000x64, .f32⟩ : BufTy).Contents (Elt F)) := by
  simp only [Cert.KernelIdeal.Gen.hostOps17, Cert.KernelIdeal.Gen.hostOps17_1, Cert.KernelIdeal.Gen.hostOps17_2, Cert.KernelIdeal.Gen.hostOps17_3, Cert.KernelIdeal.Gen.hostOps17_4, Cert.ReferenceIdeal.Hand.ops_G17a, Cert.ReferenceIdeal.Hand.ops_D16, Cert.ReferenceIdeal.Hand.ops_G17b]
  after_results_simp
  try simp only [h_v652, h_v657, h_arg21, h_arg12]
  try (first | rfl | (simp only [StableHlo.TRef.ofBuf, StableHlo.TRef.toBuf, cast_eq]; rfl))

set_option maxHeartbeats 4000000 in
theorem g17_v717 {F : FTy → Type} [FloatOps F]
    (Wp : Valuation Cert.KernelIdeal.τ Cert.KernelIdeal.sig (Elt F)) (Bp : Valuation Cert.ReferenceIdeal.τ Cert.ReferenceIdeal.sig (Elt F))
    (h_arg11 : (Wp (Proc.devRef .tc Cert.KernelIdeal.main_arg11) : (⟨Cert.KernelIdeal.S6x128x64, .f32⟩ : BufTy).Contents (Elt F)) = Bp (Proc.devRef .tc Cert.ReferenceIdeal.main_arg11)) :
    ((StableHlo.after (Cert.KernelIdeal.Gen.hostOps17_4 (F := F)) (StableHlo.after (Cert.KernelIdeal.Gen.hostOps17_3 (F := F)) (StableHlo.after (Cert.KernelIdeal.Gen.hostOps17_2 (F := F)) (StableHlo.after (Cert.KernelIdeal.Gen.hostOps17_1 (F := F)) (StableHlo.after (Cert.KernelIdeal.Gen.hostOps17 (F := F)) Wp))))) (Proc.devRef .tc Cert.KernelIdeal.main_v717) : (⟨Cert.KernelIdeal.S128x64, .f32⟩ : BufTy).Contents (Elt F))
      = ((StableHlo.after (Cert.ReferenceIdeal.Hand.ops_G17b (F := F)) (StableHlo.after (Cert.ReferenceIdeal.Hand.ops_D16 (F := F)) (StableHlo.after (Cert.ReferenceIdeal.Hand.ops_G17a (F := F)) Bp))) (Proc.devRef .tc Cert.ReferenceIdeal.main_v766) : (⟨Cert.KernelIdeal.S128x64, .f32⟩ : BufTy).Contents (Elt F)) := by
  simp only [Cert.KernelIdeal.Gen.hostOps17, Cert.KernelIdeal.Gen.hostOps17_1, Cert.KernelIdeal.Gen.hostOps17_2, Cert.KernelIdeal.Gen.hostOps17_3, Cert.KernelIdeal.Gen.hostOps17_4, Cert.ReferenceIdeal.Hand.ops_G17a, Cert.ReferenceIdeal.Hand.ops_D16, Cert.ReferenceIdeal.Hand.ops_G17b]
  after_results_simp
  try simp only [h_arg11]
  try (first | rfl | (simp only [StableHlo.TRef.ofBuf, StableHlo.TRef.toBuf, cast_eq]; rfl))

set_option maxHeartbeats 4000000 in
theorem g17_v718 {F : FTy → Type} [FloatOps F]
    (Wp : Valuation Cert.KernelIdeal.τ Cert.KernelIdeal.sig (Elt F)) (Bp : Valuation Cert.ReferenceIdeal.τ Cert.ReferenceIdeal.sig (Elt F))
     :
    ((StableHlo.after (Cert.KernelIdeal.Gen.hostOps17_4 (F := F)) (StableHlo.after (Cert.KernelIdeal.Gen.hostOps17_3 (F := F)) (StableHlo.after (Cert.KernelIdeal.Gen.hostOps17_2 (F := F)) (StableHlo.after (Cert.KernelIdeal.Gen.hostOps17_1 (F := F)) (StableHlo.after (Cert.KernelIdeal.Gen.hostOps17 (F := F)) Wp))))) (Proc.devRef .tc Cert.KernelIdeal.main_v718) : (⟨Cert.KernelIdeal.S1x64, .f32⟩ : BufTy).Contents (Elt F))
      = ((shapeCast _ (broadcastInDim Cert.KernelIdeal.S64 ![] Cert.KernelIdeal.Facts₀.bcast_S_S64 (constant (F := F) Cert.KernelIdeal.S_ .f32 0x00000000#32)) Cert.KernelIdeal.Facts₀.shapeCasts_S64_S1x64) : (⟨Cert.KernelIdeal.S1x64, .f32⟩ : BufTy).Contents (Elt F)) := by
  simp only [Cert.KernelIdeal.Gen.hostOps17, Cert.KernelIdeal.Gen.hostOps17_1, Cert.KernelIdeal.Gen.hostOps17_2, Cert.KernelIdeal.Gen.hostOps17_3, Cert.KernelIdeal.Gen.hostOps17_4, Cert.ReferenceIdeal.Hand.ops_G17a, Cert.ReferenceIdeal.Hand.ops_D16, Cert.ReferenceIdeal.Hand.ops_G17b]
  after_results_simp
  skip
  try (first | rfl | (simp only [StableHlo.TRef.ofBuf, StableHlo.TRef.toBuf, cast_eq]; rfl))

end Cert.Bisim

end
-- ==== Proof.Host.Grp18.lean ====
import proofs.«147021_j7619271983570_1_alg».proof.Proof.Gen.KernelIdeal.Launch
import proofs.«147021_j7619271983570_1_alg».proof.Proof.Ref.Chunk_G18a
import proofs.«147021_j7619271983570_1_alg».proof.Proof.Ref.Chunk_D17
import proofs.«147021_j7619271983570_1_alg».proof.Proof.Ref.Chunk_G18b
import Idealize.ShloMosaic.Lib.StableHlo.Run

/-! Host operations of the kernel program against the reference program's: layer 2, relation 5: degrees, the two inverse square roots, the edge norm, the gathered and scaled messages, their scatter-sum, the bias and the running sum; then the next region's parameters.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g18_v776 {F : FTy → Type} [FloatOps F]
    (Wp : Valuation Cert.KernelIdeal.τ Cert.KernelIdeal.sig (Elt F)) (Bp : Valuation Cert.ReferenceIdeal.τ Cert.ReferenceIdeal.sig (Elt F))
    (h_v528 : (Wp (Proc.devRef .tc Cert.KernelIdeal.main_v528) : (⟨Cert.KernelIdeal.S60000x64, .f32⟩ : BufTy).Contents (Elt F)) = Bp (Proc.devRef .tc Cert.ReferenceIdeal.main_v584))
    (h_v719 : (Wp (Proc.devRef .tc Cert.KernelIdeal.main_v719) : (⟨Cert.KernelIdeal.S20000x64, .f32⟩ : BufTy).Contents (Elt F)) = (Host.dotGeneral (F := F) Cert.ReferenceIdeal.dot_S20000x128_S128x64_S20000x64_1_0_0_1_n_n none (Bp (Proc.devRef .tc Cert.ReferenceIdeal.main_v461)) (Bp (Proc.devRef .tc Cert.ReferenceIdeal.main_v766))))
    (h_arg22 : (Wp (Proc.devRef .tc Cert.KernelIdeal.main_arg22) : (⟨Cert.KernelIdeal.S2x500000, .i32⟩ : BufTy).Contents (Elt F)) = Bp (Proc.devRef .tc Cert.ReferenceIdeal.main_arg22))
    (h_arg12 : (Wp (Proc.devRef .tc Cert.KernelIdeal.main_arg12) : (⟨Cert.KernelIdeal.S6x64, .f32⟩ : BufTy).Contents (Elt F)) = Bp (Proc.devRef .tc Cert.ReferenceIdeal.main_arg12)) :
    ((StableHlo.after (Cert.KernelIdeal.Gen.hostOps18_4 (F := F)) (StableHlo.after (Cert.KernelIdeal.Gen.hostOps18_3 (F := F)) (StableHlo.after (Cert.KernelIdeal.Gen.hostOps18_2 (F := F)) (StableHlo.after (Cert.KernelIdeal.Gen.hostOps18_1 (F := F)) (StableHlo.after (Cert.KernelIdeal.Gen.hostOps18 (F := F)) Wp))))) (Proc.devRef .tc Cert.KernelIdeal.main_v776) : (⟨Cert.KernelIdeal.S60000x64, .f32⟩ : BufTy).Contents (Elt F))
      = ((StableHlo.after (Cert.ReferenceIdeal.Hand.ops_G18b (F := F)) (StableHlo.after (Cert.ReferenceIdeal.Hand.ops_D17 (F := F)) (StableHlo.after (Cert.ReferenceIdeal.Hand.ops_G18a (F := F)) Bp))) (Proc.devRef .tc Cert.ReferenceIdeal.main_v824) : (⟨Cert.KernelIdeal.S60000x64, .f32⟩ : BufTy).Contents (Elt F)) := by
  simp only [Cert.KernelIdeal.Gen.hostOps18, Cert.KernelIdeal.Gen.hostOps18_1, Cert.KernelIdeal.Gen.hostOps18_2, Cert.KernelIdeal.Gen.hostOps18_3, Cert.KernelIdeal.Gen.hostOps18_4, Cert.ReferenceIdeal.Hand.ops_G18a, Cert.ReferenceIdeal.Hand.ops_D17, Cert.ReferenceIdeal.Hand.ops_G18b]
  after_results_simp
  try simp only [h_v528, h_v719, h_arg22, h_arg12]
  try (first | rfl | (simp only [StableHlo.TRef.ofBuf, StableHlo.TRef.toBuf, cast_eq]; rfl))

set_option maxHeartbeats 4000000 in
theorem g18_v781 {F : FTy → Type} [FloatOps F]
    (Wp : Valuation Cert.KernelIdeal.τ Cert.KernelIdeal.sig (Elt F)) (Bp : Valuation Cert.ReferenceIdeal.τ Cert.ReferenceIdeal.sig (Elt F))
    (h_arg15 : (Wp (Proc.devRef .tc Cert.KernelIdeal.main_arg15) : (⟨Cert.KernelIdeal.S3x64, .f32⟩ : BufTy).Contents (Elt F)) = Bp (Proc.devRef .tc Cert.ReferenceIdeal.main_arg15)) :
    ((StableHlo.after (Cert.KernelIdeal.Gen.hostOps18_4 (F := F)) (StableHlo.after (Cert.KernelIdeal.Gen.hostOps18_3 (F := F)) (StableHlo.after (Cert.KernelIdeal.Gen.hostOps18_2 (F := F)) (StableHlo.after (Cert.KernelIdeal.Gen.hostOps18_1 (F := F)) (StableHlo.after (Cert.KernelIdeal.Gen.hostOps18 (F := F)) Wp))))) (Proc.devRef .tc Cert.KernelIdeal.main_v781) : (⟨Cert.KernelIdeal.S1x64, .f32⟩ : BufTy).Contents (Elt F))
      = ((shapeCast _ ((StableHlo.after (Cert.ReferenceIdeal.Hand.ops_G18b (F := F)) (StableHlo.after (Cert.ReferenceIdeal.Hand.ops_D17 (F := F)) (StableHlo.after (Cert.ReferenceIdeal.Hand.ops_G18a (F := F)) Bp))) (Proc.devRef .tc Cert.ReferenceIdeal.main_v826)) Cert.KernelIdeal.Facts₀.shapeCasts_S64_S1x64) : (⟨Cert.KernelIdeal.S1x64, .f32⟩ : BufTy).Contents (Elt F)) := by
  simp only [Cert.KernelIdeal.Gen.hostOps18, Cert.KernelIdeal.Gen.hostOps18_1, Cert.KernelIdeal.Gen.hostOps18_2, Cert.KernelIdeal.Gen.hostOps18_3, Cert.KernelIdeal.Gen.hostOps18_4, Cert.ReferenceIdeal.Hand.ops_G18a, Cert.ReferenceIdeal.Hand.ops_D17, Cert.ReferenceIdeal.Hand.ops_G18b]
  after_results_simp
  try simp only [h_arg15]
  try (first | rfl | (simp only [StableHlo.TRef.ofBuf, StableHlo.TRef.toBuf, cast_eq]; rfl))

set_option maxHeartbeats 4000000 in
theorem g18_v782 {F : FTy → Type} [FloatOps F]
    (Wp : Valuation Cert.KernelIdeal.τ Cert.KernelIdeal.sig (Elt F)) (Bp : Valuation Cert.ReferenceIdeal.τ Cert.ReferenceIdeal.sig (Elt F))
    (h_arg16 : (Wp (Proc.devRef .tc Cert.KernelIdeal.main_arg16) : (⟨Cert.KernelIdeal.S3x64, .f32⟩ : BufTy).Contents (Elt F)) = Bp (Proc.devRef .tc Cert.ReferenceIdeal.main_arg16)) :
    ((StableHlo.after (Cert.KernelIdeal.Gen.hostOps18_4 (F := F)) (StableHlo.after (Cert.KernelIdeal.Gen.hostOps18_3 (F := F)) (StableHlo.after (Cert.KernelIdeal.Gen.hostOps18_2 (F := F)) (StableHlo.after (Cert.KernelIdeal.Gen.hostOps18_1 (F := F)) (StableHlo.after (Cert.KernelIdeal.Gen.hostOps18 (F := F)) Wp))))) (Proc.devRef .tc Cert.KernelIdeal.main_v782) : (⟨Cert.KernelIdeal.S1x64, .f32⟩ : BufTy).Contents (Elt F))
      = ((shapeCast _ ((StableHlo.after (Cert.ReferenceIdeal.Hand.ops_G18b (F := F)) (StableHlo.after (Cert.ReferenceIdeal.Hand.ops_D17 (F := F)) (StableHlo.after (Cert.ReferenceIdeal.Hand.ops_G18a (F := F)) Bp))) (Proc.devRef .tc Cert.ReferenceIdeal.main_v828)) Cert.KernelIdeal.Facts₀.shapeCasts_S64_S1x64) : (⟨Cert.KernelIdeal.S1x64, .f32⟩ : BufTy).Contents (Elt F)) := by
  simp only [Cert.KernelIdeal.Gen.hostOps18, Cert.KernelIdeal.Gen.hostOps18_1, Cert.KernelIdeal.Gen.hostOps18_2, Cert.KernelIdeal.Gen.hostOps18_3, Cert.KernelIdeal.Gen.hostOps18_4, Cert.ReferenceIdeal.Hand.ops_G18a, Cert.ReferenceIdeal.Hand.ops_D17, Cert.ReferenceIdeal.Hand.ops_G18b]
  after_results_simp
  try simp only [h_arg16]
  try (first | rfl | (simp only [StableHlo.TRef.ofBuf, StableHlo.TRef.toBuf, cast_eq]; rfl))

end Cert.Bisim

end
-- ==== Proof.Host.Grp19.lean ====
import proofs.«147021_j7619271983570_1_alg».proof.Proof.Gen.KernelIdeal.Launch
import proofs.«147021_j7619271983570_1_alg».proof.Proof.Ref.Chunk_H19
import Idealize.ShloMosaic.Lib.StableHlo.Run

/-! Host operations of the kernel program against the reference program's: the LayerNorm scale and shift rows of the next node type.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g19_v788 {F : FTy → Type} [FloatOps F]
    (Wp : Valuation Cert.KernelIdeal.τ Cert.KernelIdeal.sig (Elt F)) (Bp : Valuation Cert.ReferenceIdeal.τ Cert.ReferenceIdeal.sig (Elt F))
    (h_arg15 : (Wp (Proc.devRef .tc Cert.KernelIdeal.main_arg15) : (⟨Cert.KernelIdeal.S3x64, .f32⟩ : BufTy).Contents (Elt F)) = Bp (Proc.devRef .tc Cert.ReferenceIdeal.main_arg15)) :
    ((StableHlo.after (Cert.KernelIdeal.Gen.hostOps19 (F := F)) Wp) (Proc.devRef .tc Cert.KernelIdeal.main_v788) : (⟨Cert.KernelIdeal.S1x64, .f32⟩ : BufTy).Contents (Elt F))
      = ((shapeCast _ ((StableHlo.after (Cert.ReferenceIdeal.Hand.ops_H19 (F := F)) Bp) (Proc.devRef .tc Cert.ReferenceIdeal.main_v854)) Cert.KernelIdeal.Facts₀.shapeCasts_S64_S1x64) : (⟨Cert.KernelIdeal.S1x64, .f32⟩ : BufTy).Contents (Elt F)) := by
  simp only [Cert.KernelIdeal.Gen.hostOps19, Cert.ReferenceIdeal.Hand.ops_H19]
  after_results_simp
  try simp only [h_arg15]
  try (first | rfl | (simp only [StableHlo.TRef.ofBuf, StableHlo.TRef.toBuf, cast_eq]; rfl))

set_option maxHeartbeats 4000000 in
theorem g19_v789 {F : FTy → Type} [FloatOps F]
    (Wp : Valuation Cert.KernelIdeal.τ Cert.KernelIdeal.sig (Elt F)) (Bp : Valuation Cert.ReferenceIdeal.τ Cert.ReferenceIdeal.sig (Elt F))
    (h_arg16 : (Wp (Proc.devRef .tc Cert.KernelIdeal.main_arg16) : (⟨Cert.KernelIdeal.S3x64, .f32⟩ : BufTy).Contents (Elt F)) = Bp (Proc.devRef .tc Cert.ReferenceIdeal.main_arg16)) :
    ((StableHlo.after (Cert.KernelIdeal.Gen.hostOps19 (F := F)) Wp) (Proc.devRef .tc Cert.KernelIdeal.main_v789) : (⟨Cert.KernelIdeal.S1x64, .f32⟩ : BufTy).Contents (Elt F))
      = ((shapeCast _ ((StableHlo.after (Cert.ReferenceIdeal.Hand.ops_H19 (F := F)) Bp) (Proc.devRef .tc Cert.ReferenceIdeal.main_v856)) Cert.KernelIdeal.Facts₀.shapeCasts_S64_S1x64) : (⟨Cert.KernelIdeal.S1x64, .f32⟩ : BufTy).Contents (Elt F)) := by
  simp only [Cert.KernelIdeal.Gen.hostOps19, Cert.ReferenceIdeal.Hand.ops_H19]
  after_results_simp
  try simp only [h_arg16]
  try (first | rfl | (simp only [StableHlo.TRef.ofBuf, StableHlo.TRef.toBuf, cast_eq]; rfl))

end Cert.Bisim

end
-- ==== Proof.Host.Grp20.lean ====
import proofs.«147021_j7619271983570_1_alg».proof.Proof.Gen.KernelIdeal.Launch
import proofs.«147021_j7619271983570_1_alg».proof.Proof.Ref.Chunk_H20
import Idealize.ShloMosaic.Lib.StableHlo.Run

/-! Host operations of the kernel program against the reference program's: the LayerNorm scale and shift rows of the next node type.
    Both programs apply the same operations, in the same order, to operands that agree; so the buffers they
    leave agree. Each lemma takes the contents both programs start from as parameters, with the agreement of
    the buffers read as hypotheses, and concludes the agreement of one buffer written. A buffer that only
    feeds a pallas region (a bias or a LayerNorm row laid out as one row) is stated in closed form. -/

set_option pp.maxSteps 5000
set_option pp.deepTerms false

noncomputable section

namespace Cert.Bisim

open Idealize.ShloMosaic Idealize.ShloMosaic.TcCoe Idealize.SL.Sem Idealize.ShloMosaic.StableHlo

set_option maxHeartbeats 4000000 in
theorem g20_v795 {F : FTy → Type} [FloatOps F]
    (Wp : Valuation Cert.KernelIdeal.τ Cert.KernelIdeal.sig (Elt F)) (Bp : Valuation Cert.ReferenceIdeal.τ Cert.ReferenceIdeal.sig (Elt F))
    (h_arg15 : (Wp (Proc.devRef .tc Cert.KernelIdeal.main_arg15) : (⟨Cert.KernelIdeal.S3x64, .f32⟩ : BufTy).Contents (Elt F)) = Bp (Proc.devRef .tc Cert.ReferenceIdeal.main_arg15)) :
    ((StableHlo.after (Cert.KernelIdeal.Gen.hostOps20 (F := F)) Wp) (Proc.devRef .tc Cert.KernelIdeal.main_v795) : (⟨Cert.KernelIdeal.S1x64, .f32⟩ : BufTy).Contents (Elt F))
      = ((shapeCast _ ((StableHlo.after (Cert.ReferenceIdeal.Hand.ops_H20 (F := F)) Bp) (Proc.devRef .tc Cert.ReferenceIdeal.main_v882)) Cert.KernelIdeal.Facts₀.shapeCasts_S64_S1x64) : (⟨Cert.KernelIdeal.S1x64, .f32⟩ : BufTy).Contents (Elt F)) := by
  simp only [Cert.KernelIdeal.Gen.hostOps20, Cert.ReferenceIdeal.Hand.ops_H20]
  after_results_simp
  try simp only [h_arg15]
  try (first | rfl | (simp only [StableHlo.TRef.ofBuf, StableHlo.TRef.toBuf, cast_eq]; rfl))

set_option maxHeartbeats 4000000 in
theorem g20_v796 {F : FTy → Type} [FloatOps F]
    (Wp : Valuation Cert.KernelIdeal.τ Cert.KernelIdeal.sig (Elt F)) (Bp : Valuation Cert.ReferenceIdeal.τ Cert.ReferenceIdeal.sig (Elt F))
    (h_arg16 : (Wp (Proc.devRef .tc Cert.KernelIdeal.main_arg16) : (⟨Cert.KernelIdeal.S3x64, .f32⟩ : BufTy).Contents (Elt F)) = Bp (Proc.devRef .tc Cert.ReferenceIdeal.main_arg16)) :
    ((StableHlo.after (Cert.KernelIdeal.Gen.hostOps20 (F := F)) Wp) (Proc.devRef .tc Cert.KernelIdeal.main_v796) : (⟨Cert.KernelIdeal.S1x64, .f32⟩ : BufTy).Contents (Elt F))
      = ((shapeCast _ ((StableHlo.after (Cert.ReferenceIdeal.Hand.ops_H20 (F := F)) Bp) (Proc.devRef .tc Cert.ReferenceIdeal.main_v884)) Cert.KernelIdeal.Facts₀.shapeCasts_S64_S1x64) : (⟨Cert.KernelIdeal.S1x64, .f32⟩ : BufTy).Contents (Elt F)) := by
  simp only [Cert.KernelIdeal.Gen.hostOps20, Cert.ReferenceIdeal.Hand.ops_H20]
  after_results_simp
  try simp only [h_arg16]
  try (first | rfl | (simp only [StableHlo.TRef.ofBuf, StableHlo.TRef.toBuf, cast_eq]; rfl))

end Cert.Bisim

end
-- ==== Proof.Lin.Blk12.lean ====
/- Region 12 (a linear region: 20000 rows of 128 into 64 columns, 5 grid points of 4000 rows): where
   each window's block sits in its array. At point t the row window and the result window are rows
   4000 t … 4000 t + 3999, the weight (128 × 64) and bias (1 × 64) windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- The grid has 5 points. -/
theorem pts12 : grid12.N = 5 := by decide

/-- A grid point is below 5. -/
theorem lt12 (t : Fin cfg12.N) : t.val < 5 := by
  have h : t.val < grid12.N := t.isLt
  rw [pts12] at h
  exact h

/-- Element (p, k) of the row block at point t is the array's element (4000 t + p, k). -/
theorem blk12_0_read (A : (⟨S20000x128, .f32⟩ : BufTy).Contents (Elt Ideal)) (t : Fin cfg12.N) (p : Fin 4000) (k : Fin 128)
    (r : Fin 20000) (hr : r.val = 4000 * t.val + p.val) :
    ((cfg12.win 0).blk t).view.read (Elt Ideal) A (ix2 p k) = A (ix2 r k) := by
  obtain ⟨e0, e1, -⟩ := idx12 t
  rw [View.read_apply]
  show A (((cfg12.win 0).blk t).view.emb (ix2 p k)) = A (ix2 r k)
  refine congrArg A (funext fun a => Fin.ext ?_)
  match a with
  | ⟨0, _⟩ => show win12_0.index t (0 : Fin 2) * 4000 + 1 * p.val = r.val; rw [e0, hr]; omega
  | ⟨1, _⟩ => show win12_0.index t (1 : Fin 2) * 128 + 1 * k.val = k.val; rw [e1]; omega

/-- The weight block at any point is the whole weight array. -/
theorem blk12_1_read (A : (⟨S128x64, .f32⟩ : BufTy).Contents (Elt Ideal)) (t : Fin cfg12.N) (k : Fin 128) (q : Fin 64) :
    ((cfg12.win 1).blk t).view.read (Elt Ideal) A (ix2 k q) = A (ix2 k q) := by
  obtain ⟨-, -, e0, e1, -⟩ := idx12 t
  rw [View.read_apply]
  show A (((cfg12.win 1).blk t).view.emb (ix2 k q)) = A (ix2 k q)
  refine congrArg A (funext fun a => Fin.ext ?_)
  match a with
  | ⟨0, _⟩ => show win12_1.index t (0 : Fin 2) * 128 + 1 * k.val = k.val; rw [e0]; omega
  | ⟨1, _⟩ => show win12_1.index t (1 : Fin 2) * 64 + 1 * q.val = q.val; rw [e1]; omega

/-- The bias block at any point is the whole one-row bias array. -/
theorem blk12_2_read (A : (⟨S1x64, .f32⟩ : BufTy).Contents (Elt Ideal)) (t : Fin cfg12.N) (z : Fin 1) (q : Fin 64) :
    ((cfg12.win 2).blk t).view.read (Elt Ideal) A (ix2 z q) = A (ix2 z q) := by
  obtain ⟨-, -, -, -, e0, e1, -⟩ := idx12 t
  rw [View.read_apply]
  show A (((cfg12.win 2).blk t).view.emb (ix2 z q)) = A (ix2 z q)
  refine congrArg A (funext fun a => Fin.ext ?_)
  match a with
  | ⟨0, _⟩ => show win12_2.index t (0 : Fin 2) * 1 + 1 * z.val = z.val; rw [e0]; omega
  | ⟨1, _⟩ => show win12_2.index t (1 : Fin 2) * 64 + 1 * q.val = q.val; rw [e1]; omega

/-- Element (p, q) of the result block at point t sits at (4000 t + p, q) of the result array. -/
theorem blk12_3_emb (t : Fin cfg12.N) (p : Fin 4000) (q : Fin 64) (r : Fin 20000) (hr : r.val = 4000 * t.val + p.val) :
    ((cfg12.win 3).blk t).view.emb (ix2 p q) = (ix2 r q : S20000x64.Idx) := by
  obtain ⟨-, -, -, -, -, -, e0, e1⟩ := idx12 t
  refine funext fun a => Fin.ext ?_
  match a with
  | ⟨0, _⟩ => show win12_3.index t (0 : Fin 2) * 4000 + 1 * p.val = r.val; rw [e0, hr]; omega
  | ⟨1, _⟩ => show win12_3.index t (1 : Fin 2) * 64 + 1 * q.val = q.val; rw [e1]; omega

/-- An element of the result array is in point t's block iff each coordinate is in the block's range. -/
theorem mem_blk12 (t : Fin cfg12.N) (i : S20000x64.Idx) :
    i ∈ ((cfg12.win 3).blk t).view.set ↔ ∀ a : Fin 2, win12_3.index t a * S4000x64.size a ≤ (i a).val ∧ (i a).val < win12_3.index t a * S4000x64.size a + S4000x64.size a := by
  show i ∈ ((View.whole main_v409).slice (win12_3.rect t)).set ↔ _
  rw [View.set_slice_whole, Rect.mem_set_unit]
  exact Iff.rfl

/-- The result blocks tile the result array: row i lies in the block of point i / 4000, which is written back. -/
theorem cover12 (i : S20000x64.Idx) :
    ∃ t : Fin cfg12.N, (cfg12.win 3).flush t = true ∧ i ∈ ((cfg12.win 3).blk t).view.set := by
  have hi0 : (i 0).val < 20000 := (i 0).isLt
  have hi1 : (i 1).val < 64 := (i 1).isLt
  have hN : grid12.N = 5 := pts12
  let t : Fin cfg12.N := ⟨(i 0).val / 4000, by show (i 0).val / 4000 < grid12.N; rw [hN]; omega⟩
  have ht : t.val = (i 0).val / 4000 := rfl
  obtain ⟨-, -, -, -, -, -, e0, e1⟩ := idx12 t
  refine ⟨t, flush12_3 t, ?_⟩
  rw [mem_blk12]
  intro a
  match a with
  | ⟨0, _⟩ => show win12_3.index t (0 : Fin 2) * 4000 ≤ (i 0).val ∧ (i 0).val < win12_3.index t (0 : Fin 2) * 4000 + 4000; rw [e0, ht]; omega
  | ⟨1, _⟩ => show win12_3.index t (1 : Fin 2) * 64 ≤ (i 1).val ∧ (i 1).val < win12_3.index t (1 : Fin 2) * 64 + 64; rw [e1]; omega

end Cert.KernelIdeal.Hand

end
-- ==== Proof.Lin.Reg12.lean ====
/- Region 12 (a relation product: 20000 rows of 128 against 128 × 64 weights, zero bias, 5 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 5 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk12

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_12 (c : Dev nD)
    (hb : V c (Pipeline.arrRef spec12 2) = shapeCast _ (broadcastInDim S64 ![] bcast_S_S64 (constant (F := Ideal) S_ .f32 0x00000000#32)) shapeCasts_S64_S1x64)
    (X : FVec Ideal S20000x128 .f32) (W : FVec Ideal S128x64 .f32)
    (hX : V c (Pipeline.arrRef spec12 0) = X) (hW : V c (Pipeline.arrRef spec12 1) = W)
    (G : FVec Ideal S20000x64 .f32)
    (hG : ∀ (r : Fin 20000) (q : Fin 64), G (ix2 r q) = ∑ k : Fin 128, X (ix2 r k) * W (ix2 k q))
    (t : Fin cfg12.N) :
    (dat12 (F := Ideal) V c).flushed 3 t = ((cfg12.win 3).blk t).view.read (Elt Ideal) G := by
  show (cfg12.win 3).cut (grid12.coords t) ((dat12 (F := Ideal) V c).after 3 t) = _
  rw [after12_3]
  unfold out12_3
  rw [View.canon_unit_zero zeros2]
  simp only [View.ld_unit_zero (S := S4000x128) zeros2, View.ld_unit_zero (S := S128x64) zeros2, View.ld_unit_zero (S := S1x64) zeros2]
  funext j
  obtain ⟨p, q, rfl⟩ : ∃ (p : Fin 4000) (q : Fin 64), j = ix2 p q := ⟨j 0, j 1, eq_ix2 j⟩
  have hr : 4000 * t.val + p.val < 20000 := by have := lt12 t; omega
  rw [View.read_apply]
  show k12_pay1 (F := Ideal) (iblk12 V c 0 t) (iblk12 V c 1 t) (iblk12 V c 2 t) (ix2 p q) = G (((cfg12.win 3).blk t).view.emb (ix2 p q))
  rw [blk12_3_emb t p q ⟨_, hr⟩ rfl, hG]
  refine (k12_pay1_apply _ _ _ p q).trans ?_
  have h2 : (iblk12 V c 2 t : Vec Ideal S1x64 .f32) (ix2 (0 : Fin 1) q) = (0 : EReal) :=
    (blk12_2_read (V c (Pipeline.arrRef spec12 2)) t 0 q).trans ((congrFun hb _).trans (zero_bias64_apply _))
  rw [h2, add_zero]
  exact Finset.sum_congr rfl fun k _ => congrArg₂ (· * ·) ((blk12_0_read _ t p k ⟨_, hr⟩ rfl).trans (congrFun hX _)) ((blk12_1_read _ t k q).trans (congrFun hW _))

/-- The result array after the region: the host product of the row array and the weight array as the
    region found them. -/
theorem lin_12 (c : Dev nD)
    (hb : V c (Pipeline.arrRef spec12 2) = shapeCast _ (broadcastInDim S64 ![] bcast_S_S64 (constant (F := Ideal) S_ .f32 0x00000000#32)) shapeCasts_S64_S1x64) :
    (dat12 (F := Ideal) V c).arrAt 3 cfg12.N
      = Host.dotGeneral (F := Ideal) (φ₁ := .f32) (φ₂ := .f32) Cert.ReferenceIdeal.dot_S20000x128_S128x64_S20000x64_1_0_0_1_n_n none (V c (Pipeline.arrRef spec12 0)) (V c (Pipeline.arrRef spec12 1)) :=
  (dat12 (F := Ideal) V c).arrAt_eq_of_cover 3 _ (fun t _ => flushed_12 V c hb _ _ rfl rfl _ (fun r q => dot_h20000x64_apply _ _ r q) t) cover12

end Cert.KernelIdeal.Hand

end
-- ==== Proof.Lin.Blk13.lean ====
/- Region 13 (a linear region: 20000 rows of 128 into 64 columns, 5 grid points of 4000 rows): where
   each window's block sits in its array. At point t the row window and the result window are rows
   4000 t … 4000 t + 3999, the weight (128 × 64) and bias (1 × 64) windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- The grid has 5 points. -/
theorem pts13 : grid13.N = 5 := by decide

/-- A grid point is below 5. -/
theorem lt13 (t : Fin cfg13.N) : t.val < 5 := by
  have h : t.val < grid13.N := t.isLt
  rw [pts13] at h
  exact h

/-- Element (p, k) of the row block at point t is the array's element (4000 t + p, k). -/
theorem blk13_0_read (A : (⟨S20000x128, .f32⟩ : BufTy).Contents (Elt Ideal)) (t : Fin cfg13.N) (p : Fin 4000) (k : Fin 128)
    (r : Fin 20000) (hr : r.val = 4000 * t.val + p.val) :
    ((cfg13.win 0).blk t).view.read (Elt Ideal) A (ix2 p k) = A (ix2 r k) := by
  obtain ⟨e0, e1, -⟩ := idx13 t
  rw [View.read_apply]
  show A (((cfg13.win 0).blk t).view.emb (ix2 p k)) = A (ix2 r k)
  refine congrArg A (funext fun a => Fin.ext ?_)
  match a with
  | ⟨0, _⟩ => show win13_0.index t (0 : Fin 2) * 4000 + 1 * p.val = r.val; rw [e0, hr]; omega
  | ⟨1, _⟩ => show win13_0.index t (1 : Fin 2) * 128 + 1 * k.val = k.val; rw [e1]; omega

/-- The weight block at any point is the whole weight array. -/
theorem blk13_1_read (A : (⟨S128x64, .f32⟩ : BufTy).Contents (Elt Ideal)) (t : Fin cfg13.N) (k : Fin 128) (q : Fin 64) :
    ((cfg13.win 1).blk t).view.read (Elt Ideal) A (ix2 k q) = A (ix2 k q) := by
  obtain ⟨-, -, e0, e1, -⟩ := idx13 t
  rw [View.read_apply]
  show A (((cfg13.win 1).blk t).view.emb (ix2 k q)) = A (ix2 k q)
  refine congrArg A (funext fun a => Fin.ext ?_)
  match a with
  | ⟨0, _⟩ => show win13_1.index t (0 : Fin 2) * 128 + 1 * k.val = k.val; rw [e0]; omega
  | ⟨1, _⟩ => show win13_1.index t (1 : Fin 2) * 64 + 1 * q.val = q.val; rw [e1]; omega

/-- The bias block at any point is the whole one-row bias array. -/
theorem blk13_2_read (A : (⟨S1x64, .f32⟩ : BufTy).Contents (Elt Ideal)) (t : Fin cfg13.N) (z : Fin 1) (q : Fin 64) :
    ((cfg13.win 2).blk t).view.read (Elt Ideal) A (ix2 z q) = A (ix2 z q) := by
  obtain ⟨-, -, -, -, e0, e1, -⟩ := idx13 t
  rw [View.read_apply]
  show A (((cfg13.win 2).blk t).view.emb (ix2 z q)) = A (ix2 z q)
  refine congrArg A (funext fun a => Fin.ext ?_)
  match a with
  | ⟨0, _⟩ => show win13_2.index t (0 : Fin 2) * 1 + 1 * z.val = z.val; rw [e0]; omega
  | ⟨1, _⟩ => show win13_2.index t (1 : Fin 2) * 64 + 1 * q.val = q.val; rw [e1]; omega

/-- Element (p, q) of the result block at point t sits at (4000 t + p, q) of the result array. -/
theorem blk13_3_emb (t : Fin cfg13.N) (p : Fin 4000) (q : Fin 64) (r : Fin 20000) (hr : r.val = 4000 * t.val + p.val) :
    ((cfg13.win 3).blk t).view.emb (ix2 p q) = (ix2 r q : S20000x64.Idx) := by
  obtain ⟨-, -, -, -, -, -, e0, e1⟩ := idx13 t
  refine funext fun a => Fin.ext ?_
  match a with
  | ⟨0, _⟩ => show win13_3.index t (0 : Fin 2) * 4000 + 1 * p.val = r.val; rw [e0, hr]; omega
  | ⟨1, _⟩ => show win13_3.index t (1 : Fin 2) * 64 + 1 * q.val = q.val; rw [e1]; omega

/-- An element of the result array is in point t's block iff each coordinate is in the block's range. -/
theorem mem_blk13 (t : Fin cfg13.N) (i : S20000x64.Idx) :
    i ∈ ((cfg13.win 3).blk t).view.set ↔ ∀ a : Fin 2, win13_3.index t a * S4000x64.size a ≤ (i a).val ∧ (i a).val < win13_3.index t a * S4000x64.size a + S4000x64.size a := by
  show i ∈ ((View.whole main_v471).slice (win13_3.rect t)).set ↔ _
  rw [View.set_slice_whole, Rect.mem_set_unit]
  exact Iff.rfl

/-- The result blocks tile the result array: row i lies in the block of point i / 4000, which is written back. -/
theorem cover13 (i : S20000x64.Idx) :
    ∃ t : Fin cfg13.N, (cfg13.win 3).flush t = true ∧ i ∈ ((cfg13.win 3).blk t).view.set := by
  have hi0 : (i 0).val < 20000 := (i 0).isLt
  have hi1 : (i 1).val < 64 := (i 1).isLt
  have hN : grid13.N = 5 := pts13
  let t : Fin cfg13.N := ⟨(i 0).val / 4000, by show (i 0).val / 4000 < grid13.N; rw [hN]; omega⟩
  have ht : t.val = (i 0).val / 4000 := rfl
  obtain ⟨-, -, -, -, -, -, e0, e1⟩ := idx13 t
  refine ⟨t, flush13_3 t, ?_⟩
  rw [mem_blk13]
  intro a
  match a with
  | ⟨0, _⟩ => show win13_3.index t (0 : Fin 2) * 4000 ≤ (i 0).val ∧ (i 0).val < win13_3.index t (0 : Fin 2) * 4000 + 4000; rw [e0, ht]; omega
  | ⟨1, _⟩ => show win13_3.index t (1 : Fin 2) * 64 ≤ (i 1).val ∧ (i 1).val < win13_3.index t (1 : Fin 2) * 64 + 64; rw [e1]; omega

end Cert.KernelIdeal.Hand

end
-- ==== Proof.Lin.Reg13.lean ====
/- Region 13 (a relation product: 20000 rows of 128 against 128 × 64 weights, zero bias, 5 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 5 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk13

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_13 (c : Dev nD)
    (hb : V c (Pipeline.arrRef spec13 2) = shapeCast _ (broadcastInDim S64 ![] bcast_S_S64 (constant (F := Ideal) S_ .f32 0x00000000#32)) shapeCasts_S64_S1x64)
    (X : FVec Ideal S20000x128 .f32) (W : FVec Ideal S128x64 .f32)
    (hX : V c (Pipeline.arrRef spec13 0) = X) (hW : V c (Pipeline.arrRef spec13 1) = W)
    (G : FVec Ideal S20000x64 .f32)
    (hG : ∀ (r : Fin 20000) (q : Fin 64), G (ix2 r q) = ∑ k : Fin 128, X (ix2 r k) * W (ix2 k q))
    (t : Fin cfg13.N) :
    (dat13 (F := Ideal) V c).flushed 3 t = ((cfg13.win 3).blk t).view.read (Elt Ideal) G := by
  show (cfg13.win 3).cut (grid13.coords t) ((dat13 (F := Ideal) V c).after 3 t) = _
  rw [after13_3]
  unfold out13_3
  rw [View.canon_unit_zero zeros2]
  simp only [View.ld_unit_zero (S := S4000x128) zeros2, View.ld_unit_zero (S := S128x64) zeros2, View.ld_unit_zero (S := S1x64) zeros2]
  funext j
  obtain ⟨p, q, rfl⟩ : ∃ (p : Fin 4000) (q : Fin 64), j = ix2 p q := ⟨j 0, j 1, eq_ix2 j⟩
  have hr : 4000 * t.val + p.val < 20000 := by have := lt13 t; omega
  rw [View.read_apply]
  show k12_pay1 (F := Ideal) (iblk13 V c 0 t) (iblk13 V c 1 t) (iblk13 V c 2 t) (ix2 p q) = G (((cfg13.win 3).blk t).view.emb (ix2 p q))
  rw [blk13_3_emb t p q ⟨_, hr⟩ rfl, hG]
  refine (k12_pay1_apply _ _ _ p q).trans ?_
  have h2 : (iblk13 V c 2 t : Vec Ideal S1x64 .f32) (ix2 (0 : Fin 1) q) = (0 : EReal) :=
    (blk13_2_read (V c (Pipeline.arrRef spec13 2)) t 0 q).trans ((congrFun hb _).trans (zero_bias64_apply _))
  rw [h2, add_zero]
  exact Finset.sum_congr rfl fun k _ => congrArg₂ (· * ·) ((blk13_0_read _ t p k ⟨_, hr⟩ rfl).trans (congrFun hX _)) ((blk13_1_read _ t k q).trans (congrFun hW _))

/-- The result array after the region: the host product of the row array and the weight array as the
    region found them. -/
theorem lin_13 (c : Dev nD)
    (hb : V c (Pipeline.arrRef spec13 2) = shapeCast _ (broadcastInDim S64 ![] bcast_S_S64 (constant (F := Ideal) S_ .f32 0x00000000#32)) shapeCasts_S64_S1x64) :
    (dat13 (F := Ideal) V c).arrAt 3 cfg13.N
      = Host.dotGeneral (F := Ideal) (φ₁ := .f32) (φ₂ := .f32) Cert.ReferenceIdeal.dot_S20000x128_S128x64_S20000x64_1_0_0_1_n_n none (V c (Pipeline.arrRef spec13 0)) (V c (Pipeline.arrRef spec13 1)) :=
  (dat13 (F := Ideal) V c).arrAt_eq_of_cover 3 _ (fun t _ => flushed_13 V c hb _ _ rfl rfl _ (fun r q => dot_h20000x64_apply _ _ r q) t) cover13

end Cert.KernelIdeal.Hand

end
-- ==== Proof.Lin.Blk14.lean ====
/- Region 14 (a linear region: 60000 rows of 128 into 64 columns, 15 grid points of 4000 rows): where
   each window's block sits in its array. At point t the row window and the result window are rows
   4000 t … 4000 t + 3999, the weight (128 × 64) and bias (1 × 64) windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- The grid has 15 points. -/
theorem pts14 : grid14.N = 15 := by decide

/-- A grid point is below 15. -/
theorem lt14 (t : Fin cfg14.N) : t.val < 15 := by
  have h : t.val < grid14.N := t.isLt
  rw [pts14] at h
  exact h

/-- Element (p, k) of the row block at point t is the array's element (4000 t + p, k). -/
theorem blk14_0_read (A : (⟨S60000x128, .f32⟩ : BufTy).Contents (Elt Ideal)) (t : Fin cfg14.N) (p : Fin 4000) (k : Fin 128)
    (r : Fin 60000) (hr : r.val = 4000 * t.val + p.val) :
    ((cfg14.win 0).blk t).view.read (Elt Ideal) A (ix2 p k) = A (ix2 r k) := by
  obtain ⟨e0, e1, -⟩ := idx14 t
  rw [View.read_apply]
  show A (((cfg14.win 0).blk t).view.emb (ix2 p k)) = A (ix2 r k)
  refine congrArg A (funext fun a => Fin.ext ?_)
  match a with
  | ⟨0, _⟩ => show win14_0.index t (0 : Fin 2) * 4000 + 1 * p.val = r.val; rw [e0, hr]; omega
  | ⟨1, _⟩ => show win14_0.index t (1 : Fin 2) * 128 + 1 * k.val = k.val; rw [e1]; omega

/-- The weight block at any point is the whole weight array. -/
theorem blk14_1_read (A : (⟨S128x64, .f32⟩ : BufTy).Contents (Elt Ideal)) (t : Fin cfg14.N) (k : Fin 128) (q : Fin 64) :
    ((cfg14.win 1).blk t).view.read (Elt Ideal) A (ix2 k q) = A (ix2 k q) := by
  obtain ⟨-, -, e0, e1, -⟩ := idx14 t
  rw [View.read_apply]
  show A (((cfg14.win 1).blk t).view.emb (ix2 k q)) = A (ix2 k q)
  refine congrArg A (funext fun a => Fin.ext ?_)
  match a with
  | ⟨0, _⟩ => show win14_1.index t (0 : Fin 2) * 128 + 1 * k.val = k.val; rw [e0]; omega
  | ⟨1, _⟩ => show win14_1.index t (1 : Fin 2) * 64 + 1 * q.val = q.val; rw [e1]; omega

/-- The bias block at any point is the whole one-row bias array. -/
theorem blk14_2_read (A : (⟨S1x64, .f32⟩ : BufTy).Contents (Elt Ideal)) (t : Fin cfg14.N) (z : Fin 1) (q : Fin 64) :
    ((cfg14.win 2).blk t).view.read (Elt Ideal) A (ix2 z q) = A (ix2 z q) := by
  obtain ⟨-, -, -, -, e0, e1, -⟩ := idx14 t
  rw [View.read_apply]
  show A (((cfg14.win 2).blk t).view.emb (ix2 z q)) = A (ix2 z q)
  refine congrArg A (funext fun a => Fin.ext ?_)
  match a with
  | ⟨0, _⟩ => show win14_2.index t (0 : Fin 2) * 1 + 1 * z.val = z.val; rw [e0]; omega
  | ⟨1, _⟩ => show win14_2.index t (1 : Fin 2) * 64 + 1 * q.val = q.val; rw [e1]; omega

/-- Element (p, q) of the result block at point t sits at (4000 t + p, q) of the result array. -/
theorem blk14_3_emb (t : Fin cfg14.N) (p : Fin 4000) (q : Fin 64) (r : Fin 60000) (hr : r.val = 4000 * t.val + p.val) :
    ((cfg14.win 3).blk t).view.emb (ix2 p q) = (ix2 r q : S60000x64.Idx) := by
  obtain ⟨-, -, -, -, -, -, e0, e1⟩ := idx14 t
  refine funext fun a => Fin.ext ?_
  match a with
  | ⟨0, _⟩ => show win14_3.index t (0 : Fin 2) * 4000 + 1 * p.val = r.val; rw [e0, hr]; omega
  | ⟨1, _⟩ => show win14_3.index t (1 : Fin 2) * 64 + 1 * q.val = q.val; rw [e1]; omega

/-- An element of the result array is in point t's block iff each coordinate is in the block's range. -/
theorem mem_blk14 (t : Fin cfg14.N) (i : S60000x64.Idx) :
    i ∈ ((cfg14.win 3).blk t).view.set ↔ ∀ a : Fin 2, win14_3.index t a * S4000x64.size a ≤ (i a).val ∧ (i a).val < win14_3.index t a * S4000x64.size a + S4000x64.size a := by
  show i ∈ ((View.whole main_v533).slice (win14_3.rect t)).set ↔ _
  rw [View.set_slice_whole, Rect.mem_set_unit]
  exact Iff.rfl

/-- The result blocks tile the result array: row i lies in the block of point i / 4000, which is written back. -/
theorem cover14 (i : S60000x64.Idx) :
    ∃ t : Fin cfg14.N, (cfg14.win 3).flush t = true ∧ i ∈ ((cfg14.win 3).blk t).view.set := by
  have hi0 : (i 0).val < 60000 := (i 0).isLt
  have hi1 : (i 1).val < 64 := (i 1).isLt
  have hN : grid14.N = 15 := pts14
  let t : Fin cfg14.N := ⟨(i 0).val / 4000, by show (i 0).val / 4000 < grid14.N; rw [hN]; omega⟩
  have ht : t.val = (i 0).val / 4000 := rfl
  obtain ⟨-, -, -, -, -, -, e0, e1⟩ := idx14 t
  refine ⟨t, flush14_3 t, ?_⟩
  rw [mem_blk14]
  intro a
  match a with
  | ⟨0, _⟩ => show win14_3.index t (0 : Fin 2) * 4000 ≤ (i 0).val ∧ (i 0).val < win14_3.index t (0 : Fin 2) * 4000 + 4000; rw [e0, ht]; omega
  | ⟨1, _⟩ => show win14_3.index t (1 : Fin 2) * 64 ≤ (i 1).val ∧ (i 1).val < win14_3.index t (1 : Fin 2) * 64 + 64; rw [e1]; omega

end Cert.KernelIdeal.Hand

end
-- ==== Proof.Lin.Reg14.lean ====
/- Region 14 (a relation product: 60000 rows of 128 against 128 × 64 weights, zero bias, 15 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 15 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk14

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_14 (c : Dev nD)
    (hb : V c (Pipeline.arrRef spec14 2) = shapeCast _ (broadcastInDim S64 ![] bcast_S_S64 (constant (F := Ideal) S_ .f32 0x00000000#32)) shapeCasts_S64_S1x64)
    (X : FVec Ideal S60000x128 .f32) (W : FVec Ideal S128x64 .f32)
    (hX : V c (Pipeline.arrRef spec14 0) = X) (hW : V c (Pipeline.arrRef spec14 1) = W)
    (G : FVec Ideal S60000x64 .f32)
    (hG : ∀ (r : Fin 60000) (q : Fin 64), G (ix2 r q) = ∑ k : Fin 128, X (ix2 r k) * W (ix2 k q))
    (t : Fin cfg14.N) :
    (dat14 (F := Ideal) V c).flushed 3 t = ((cfg14.win 3).blk t).view.read (Elt Ideal) G := by
  show (cfg14.win 3).cut (grid14.coords t) ((dat14 (F := Ideal) V c).after 3 t) = _
  rw [after14_3]
  unfold out14_3
  rw [View.canon_unit_zero zeros2]
  simp only [View.ld_unit_zero (S := S4000x128) zeros2, View.ld_unit_zero (S := S128x64) zeros2, View.ld_unit_zero (S := S1x64) zeros2]
  funext j
  obtain ⟨p, q, rfl⟩ : ∃ (p : Fin 4000) (q : Fin 64), j = ix2 p q := ⟨j 0, j 1, eq_ix2 j⟩
  have hr : 4000 * t.val + p.val < 60000 := by have := lt14 t; omega
  rw [View.read_apply]
  show k12_pay1 (F := Ideal) (iblk14 V c 0 t) (iblk14 V c 1 t) (iblk14 V c 2 t) (ix2 p q) = G (((cfg14.win 3).blk t).view.emb (ix2 p q))
  rw [blk14_3_emb t p q ⟨_, hr⟩ rfl, hG]
  refine (k12_pay1_apply _ _ _ p q).trans ?_
  have h2 : (iblk14 V c 2 t : Vec Ideal S1x64 .f32) (ix2 (0 : Fin 1) q) = (0 : EReal) :=
    (blk14_2_read (V c (Pipeline.arrRef spec14 2)) t 0 q).trans ((congrFun hb _).trans (zero_bias64_apply _))
  rw [h2, add_zero]
  exact Finset.sum_congr rfl fun k _ => congrArg₂ (· * ·) ((blk14_0_read _ t p k ⟨_, hr⟩ rfl).trans (congrFun hX _)) ((blk14_1_read _ t k q).trans (congrFun hW _))

/-- The result array after the region: the host product of the row array and the weight array as the
    region found them. -/
theorem lin_14 (c : Dev nD)
    (hb : V c (Pipeline.arrRef spec14 2) = shapeCast _ (broadcastInDim S64 ![] bcast_S_S64 (constant (F := Ideal) S_ .f32 0x00000000#32)) shapeCasts_S64_S1x64) :
    (dat14 (F := Ideal) V c).arrAt 3 cfg14.N
      = Host.dotGeneral (F := Ideal) (φ₁ := .f32) (φ₂ := .f32) Cert.ReferenceIdeal.dot_S60000x128_S128x64_S60000x64_1_0_0_1_n_n none (V c (Pipeline.arrRef spec14 0)) (V c (Pipeline.arrRef spec14 1)) :=
  (dat14 (F := Ideal) V c).arrAt_eq_of_cover 3 _ (fun t _ => flushed_14 V c hb _ _ rfl rfl _ (fun r q => dot_h60000x64_apply _ _ r q) t) cover14

end Cert.KernelIdeal.Hand

end
-- ==== Proof.Lin.Blk15.lean ====
/- Region 15 (a linear region: 20000 rows of 128 into 64 columns, 5 grid points of 4000 rows): where
   each window's block sits in its array. At point t the row window and the result window are rows
   4000 t … 4000 t + 3999, the weight (128 × 64) and bias (1 × 64) windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

/-- The grid has 5 points. -/
theorem pts15 : grid15.N = 5 := by decide

/-- A grid point is below 5. -/
theorem lt15 (t : Fin cfg15.N) : t.val < 5 := by
  have h : t.val < grid15.N := t.isLt
  rw [pts15] at h
  exact h

/-- Element (p, k) of the row block at point t is the array's element (4000 t + p, k). -/
theorem blk15_0_read (A : (⟨S20000x128, .f32⟩ : BufTy).Contents (Elt Ideal)) (t : Fin cfg15.N) (p : Fin 4000) (k : Fin 128)
    (r : Fin 20000) (hr : r.val = 4000 * t.val + p.val) :
    ((cfg15.win 0).blk t).view.read (Elt Ideal) A (ix2 p k) = A (ix2 r k) := by
  obtain ⟨e0, e1, -⟩ := idx15 t
  rw [View.read_apply]
  show A (((cfg15.win 0).blk t).view.emb (ix2 p k)) = A (ix2 r k)
  refine congrArg A (funext fun a => Fin.ext ?_)
  match a with
  | ⟨0, _⟩ => show win15_0.index t (0 : Fin 2) * 4000 + 1 * p.val = r.val; rw [e0, hr]; omega
  | ⟨1, _⟩ => show win15_0.index t (1 : Fin 2) * 128 + 1 * k.val = k.val; rw [e1]; omega

/-- The weight block at any point is the whole weight array. -/
theorem blk15_1_read (A : (⟨S128x64, .f32⟩ : BufTy).Contents (Elt Ideal)) (t : Fin cfg15.N) (k : Fin 128) (q : Fin 64) :
    ((cfg15.win 1).blk t).view.read (Elt Ideal) A (ix2 k q) = A (ix2 k q) := by
  obtain ⟨-, -, e0, e1, -⟩ := idx15 t
  rw [View.read_apply]
  show A (((cfg15.win 1).blk t).view.emb (ix2 k q)) = A (ix2 k q)
  refine congrArg A (funext fun a => Fin.ext ?_)
  match a with
  | ⟨0, _⟩ => show win15_1.index t (0 : Fin 2) * 128 + 1 * k.val = k.val; rw [e0]; omega
  | ⟨1, _⟩ => show win15_1.index t (1 : Fin 2) * 64 + 1 * q.val = q.val; rw [e1]; omega

/-- The bias block at any point is the whole one-row bias array. -/
theorem blk15_2_read (A : (⟨S1x64, .f32⟩ : BufTy).Contents (Elt Ideal)) (t : Fin cfg15.N) (z : Fin 1) (q : Fin 64) :
    ((cfg15.win 2).blk t).view.read (Elt Ideal) A (ix2 z q) = A (ix2 z q) := by
  obtain ⟨-, -, -, -, e0, e1, -⟩ := idx15 t
  rw [View.read_apply]
  show A (((cfg15.win 2).blk t).view.emb (ix2 z q)) = A (ix2 z q)
  refine congrArg A (funext fun a => Fin.ext ?_)
  match a with
  | ⟨0, _⟩ => show win15_2.index t (0 : Fin 2) * 1 + 1 * z.val = z.val; rw [e0]; omega
  | ⟨1, _⟩ => show win15_2.index t (1 : Fin 2) * 64 + 1 * q.val = q.val; rw [e1]; omega

/-- Element (p, q) of the result block at point t sits at (4000 t + p, q) of the result array. -/
theorem blk15_3_emb (t : Fin cfg15.N) (p : Fin 4000) (q : Fin 64) (r : Fin 20000) (hr : r.val = 4000 * t.val + p.val) :
    ((cfg15.win 3).blk t).view.emb (ix2 p q) = (ix2 r q : S20000x64.Idx) := by
  obtain ⟨-, -, -, -, -, -, e0, e1⟩ := idx15 t
  refine funext fun a => Fin.ext ?_
  match a with
  | ⟨0, _⟩ => show win15_3.index t (0 : Fin 2) * 4000 + 1 * p.val = r.val; rw [e0, hr]; omega
  | ⟨1, _⟩ => show win15_3.index t (1 : Fin 2) * 64 + 1 * q.val = q.val; rw [e1]; omega

/-- An element of the result array is in point t's block iff each coordinate is in the block's range. -/
theorem mem_blk15 (t : Fin cfg15.N) (i : S20000x64.Idx) :
    i ∈ ((cfg15.win 3).blk t).view.set ↔ ∀ a : Fin 2, win15_3.index t a * S4000x64.size a ≤ (i a).val ∧ (i a).val < win15_3.index t a * S4000x64.size a + S4000x64.size a := by
  show i ∈ ((View.whole main_v595).slice (win15_3.rect t)).set ↔ _
  rw [View.set_slice_whole, Rect.mem_set_unit]
  exact Iff.rfl

/-- The result blocks tile the result array: row i lies in the block of point i / 4000, which is written back. -/
theorem cover15 (i : S20000x64.Idx) :
    ∃ t : Fin cfg15.N, (cfg15.win 3).flush t = true ∧ i ∈ ((cfg15.win 3).blk t).view.set := by
  have hi0 : (i 0).val < 20000 := (i 0).isLt
  have hi1 : (i 1).val < 64 := (i 1).isLt
  have hN : grid15.N = 5 := pts15
  let t : Fin cfg15.N := ⟨(i 0).val / 4000, by show (i 0).val / 4000 < grid15.N; rw [hN]; omega⟩
  have ht : t.val = (i 0).val / 4000 := rfl
  obtain ⟨-, -, -, -, -, -, e0, e1⟩ := idx15 t
  refine ⟨t, flush15_3 t, ?_⟩
  rw [mem_blk15]
  intro a
  match a with
  | ⟨0, _⟩ => show win15_3.index t (0 : Fin 2) * 4000 ≤ (i 0).val ∧ (i 0).val < win15_3.index t (0 : Fin 2) * 4000 + 4000; rw [e0, ht]; omega
  | ⟨1, _⟩ => show win15_3.index t (1 : Fin 2) * 64 ≤ (i 1).val ∧ (i 1).val < win15_3.index t (1 : Fin 2) * 64 + 64; rw [e1]; omega

end Cert.KernelIdeal.Hand

end
-- ==== Proof.Lin.Reg15.lean ====
/- Region 15 (a relation product: 20000 rows of 128 against 128 × 64 weights, zero bias, 5 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 5 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk15

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_15 (c : Dev nD)
    (hb : V c (Pipeline.arrRef spec15 2) = shapeCast _ (broadcastInDim S64 ![] bcast_S_S64 (constant (F := Ideal) S_ .f32 0x00000000#32)) shapeCasts_S64_S1x64)
    (X : FVec Ideal S20000x128 .f32) (W : FVec Ideal S128x64 .f32)
    (hX : V c (Pipeline.arrRef spec15 0) = X) (hW : V c (Pipeline.arrRef spec15 1) = W)
    (G : FVec Ideal S20000x64 .f32)
    (hG : ∀ (r : Fin 20000) (q : Fin 64), G (ix2 r q) = ∑ k : Fin 128, X (ix2 r k) * W (ix2 k q))
    (t : Fin cfg15.N) :
    (dat15 (F := Ideal) V c).flushed 3 t = ((cfg15.win 3).blk t).view.read (Elt Ideal) G := by
  show (cfg15.win 3).cut (grid15.coords t) ((dat15 (F := Ideal) V c).after 3 t) = _
  rw [after15_3]
  unfold out15_3
  rw [View.canon_unit_zero zeros2]
  simp only [View.ld_unit_zero (S := S4000x128) zeros2, View.ld_unit_zero (S := S128x64) zeros2, View.ld_unit_zero (S := S1x64) zeros2]
  funext j
  obtain ⟨p, q, rfl⟩ : ∃ (p : Fin 4000) (q : Fin 64), j = ix2 p q := ⟨j 0, j 1, eq_ix2 j⟩
  have hr : 4000 * t.val + p.val < 20000 := by have := lt15 t; omega
  rw [View.read_apply]
  show k12_pay1 (F := Ideal) (iblk15 V c 0 t) (iblk15 V c 1 t) (iblk15 V c 2 t) (ix2 p q) = G (((cfg15.win 3).blk t).view.emb (ix2 p q))
  rw [blk15_3_emb t p q ⟨_, hr⟩ rfl, hG]
  refine (k12_pay1_apply _ _ _ p q).trans ?_
  have h2 : (iblk15 V c 2 t : Vec Ideal S1x64 .f32) (ix2 (0 : Fin 1) q) = (0 : EReal) :=
    (blk15_2_read (V c (Pipeline.arrRef spec15 2)) t 0 q).trans ((congrFun hb _).trans (zero_bias64_apply _))
  rw [h2, add_zero]
  exact Finset.sum_congr rfl fun k _ => congrArg₂ (· * ·) ((blk15_0_read _ t p k ⟨_, hr⟩ rfl).trans (congrFun hX _)) ((blk15_1_read _ t k q).trans (congrFun hW _))

/-- The result array after the region: the host product of the row array and the weight array as the
    region found them. -/
theorem lin_15 (c : Dev nD)
    (hb : V c (Pipeline.arrRef spec15 2) = shapeCast _ (broadcastInDim S64 ![] bcast_S_S64 (constant (F := Ideal) S_ .f32 0x00000000#32)) shapeCasts_S64_S1x64) :
    (dat15 (F := Ideal) V c).arrAt 3 cfg15.N
      = Host.dotGeneral (F := Ideal) (φ₁ := .f32) (φ₂ := .f32) Cert.ReferenceIdeal.dot_S20000x128_S128x64_S20000x64_1_0_0_1_n_n none (V c (Pipeline.arrRef spec15 0)) (V c (Pipeline.arrRef spec15 1)) :=
  (dat15 (F := Ideal) V c).arrAt_eq_of_cover 3 _ (fun t _ => flushed_15 V c hb _ _ rfl rfl _ (fun r q => dot_h20000x64_apply _ _ r q) t) cover15

end Cert.KernelIdeal.Hand

end
-- ==== Proof.Lin.Blk16.lean ====
/- Region 16 (a linear region: 60000 rows of 128 into 64 columns, 15 grid points of 4000 rows): where
   each window's block sits in its array. At point t the row window and the result window are rows
   4000 t … 4000 t + 3999, the weight (128 × 64) and bias (1 × 64) windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx16 : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

/-- The grid has 15 points. -/
theorem pts16 : grid16.N = 15 := by decide

/-- A grid point is below 15. -/
theorem lt16 (t : Fin cfg16.N) : t.val < 15 := by
  have h : t.val < grid16.N := t.isLt
  rw [pts16] at h
  exact h

/-- Element (p, k) of the row block at point t is the array's element (4000 t + p, k). -/
theorem blk16_0_read (A : (⟨S60000x128, .f32⟩ : BufTy).Contents (Elt Ideal)) (t : Fin cfg16.N) (p : Fin 4000) (k : Fin 128)
    (r : Fin 60000) (hr : r.val = 4000 * t.val + p.val) :
    ((cfg16.win 0).blk t).view.read (Elt Ideal) A (ix2 p k) = A (ix2 r k) := by
  obtain ⟨e0, e1, -⟩ := idx16 t
  rw [View.read_apply]
  show A (((cfg16.win 0).blk t).view.emb (ix2 p k)) = A (ix2 r k)
  refine congrArg A (funext fun a => Fin.ext ?_)
  match a with
  | ⟨0, _⟩ => show win16_0.index t (0 : Fin 2) * 4000 + 1 * p.val = r.val; rw [e0, hr]; omega
  | ⟨1, _⟩ => show win16_0.index t (1 : Fin 2) * 128 + 1 * k.val = k.val; rw [e1]; omega

/-- The weight block at any point is the whole weight array. -/
theorem blk16_1_read (A : (⟨S128x64, .f32⟩ : BufTy).Contents (Elt Ideal)) (t : Fin cfg16.N) (k : Fin 128) (q : Fin 64) :
    ((cfg16.win 1).blk t).view.read (Elt Ideal) A (ix2 k q) = A (ix2 k q) := by
  obtain ⟨-, -, e0, e1, -⟩ := idx16 t
  rw [View.read_apply]
  show A (((cfg16.win 1).blk t).view.emb (ix2 k q)) = A (ix2 k q)
  refine congrArg A (funext fun a => Fin.ext ?_)
  match a with
  | ⟨0, _⟩ => show win16_1.index t (0 : Fin 2) * 128 + 1 * k.val = k.val; rw [e0]; omega
  | ⟨1, _⟩ => show win16_1.index t (1 : Fin 2) * 64 + 1 * q.val = q.val; rw [e1]; omega

/-- The bias block at any point is the whole one-row bias array. -/
theorem blk16_2_read (A : (⟨S1x64, .f32⟩ : BufTy).Contents (Elt Ideal)) (t : Fin cfg16.N) (z : Fin 1) (q : Fin 64) :
    ((cfg16.win 2).blk t).view.read (Elt Ideal) A (ix2 z q) = A (ix2 z q) := by
  obtain ⟨-, -, -, -, e0, e1, -⟩ := idx16 t
  rw [View.read_apply]
  show A (((cfg16.win 2).blk t).view.emb (ix2 z q)) = A (ix2 z q)
  refine congrArg A (funext fun a => Fin.ext ?_)
  match a with
  | ⟨0, _⟩ => show win16_2.index t (0 : Fin 2) * 1 + 1 * z.val = z.val; rw [e0]; omega
  | ⟨1, _⟩ => show win16_2.index t (1 : Fin 2) * 64 + 1 * q.val = q.val; rw [e1]; omega

/-- Element (p, q) of the result block at point t sits at (4000 t + p, q) of the result array. -/
theorem blk16_3_emb (t : Fin cfg16.N) (p : Fin 4000) (q : Fin 64) (r : Fin 60000) (hr : r.val = 4000 * t.val + p.val) :
    ((cfg16.win 3).blk t).view.emb (ix2 p q) = (ix2 r q : S60000x64.Idx) := by
  obtain ⟨-, -, -, -, -, -, e0, e1⟩ := idx16 t
  refine funext fun a => Fin.ext ?_
  match a with
  | ⟨0, _⟩ => show win16_3.index t (0 : Fin 2) * 4000 + 1 * p.val = r.val; rw [e0, hr]; omega
  | ⟨1, _⟩ => show win16_3.index t (1 : Fin 2) * 64 + 1 * q.val = q.val; rw [e1]; omega

/-- An element of the result array is in point t's block iff each coordinate is in the block's range. -/
theorem mem_blk16 (t : Fin cfg16.N) (i : S60000x64.Idx) :
    i ∈ ((cfg16.win 3).blk t).view.set ↔ ∀ a : Fin 2, win16_3.index t a * S4000x64.size a ≤ (i a).val ∧ (i a).val < win16_3.index t a * S4000x64.size a + S4000x64.size a := by
  show i ∈ ((View.whole main_v657).slice (win16_3.rect t)).set ↔ _
  rw [View.set_slice_whole, Rect.mem_set_unit]
  exact Iff.rfl

/-- The result blocks tile the result array: row i lies in the block of point i / 4000, which is written back. -/
theorem cover16 (i : S60000x64.Idx) :
    ∃ t : Fin cfg16.N, (cfg16.win 3).flush t = true ∧ i ∈ ((cfg16.win 3).blk t).view.set := by
  have hi0 : (i 0).val < 60000 := (i 0).isLt
  have hi1 : (i 1).val < 64 := (i 1).isLt
  have hN : grid16.N = 15 := pts16
  let t : Fin cfg16.N := ⟨(i 0).val / 4000, by show (i 0).val / 4000 < grid16.N; rw [hN]; omega⟩
  have ht : t.val = (i 0).val / 4000 := rfl
  obtain ⟨-, -, -, -, -, -, e0, e1⟩ := idx16 t
  refine ⟨t, flush16_3 t, ?_⟩
  rw [mem_blk16]
  intro a
  match a with
  | ⟨0, _⟩ => show win16_3.index t (0 : Fin 2) * 4000 ≤ (i 0).val ∧ (i 0).val < win16_3.index t (0 : Fin 2) * 4000 + 4000; rw [e0, ht]; omega
  | ⟨1, _⟩ => show win16_3.index t (1 : Fin 2) * 64 ≤ (i 1).val ∧ (i 1).val < win16_3.index t (1 : Fin 2) * 64 + 64; rw [e1]; omega

end Cert.KernelIdeal.Hand

end
-- ==== Proof.Lin.Reg16.lean ====
/- Region 16 (a relation product: 60000 rows of 128 against 128 × 64 weights, zero bias, 15 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 15 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk16

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_16 (c : Dev nD)
    (hb : V c (Pipeline.arrRef spec16 2) = shapeCast _ (broadcastInDim S64 ![] bcast_S_S64 (constant (F := Ideal) S_ .f32 0x00000000#32)) shapeCasts_S64_S1x64)
    (X : FVec Ideal S60000x128 .f32) (W : FVec Ideal S128x64 .f32)
    (hX : V c (Pipeline.arrRef spec16 0) = X) (hW : V c (Pipeline.arrRef spec16 1) = W)
    (G : FVec Ideal S60000x64 .f32)
    (hG : ∀ (r : Fin 60000) (q : Fin 64), G (ix2 r q) = ∑ k : Fin 128, X (ix2 r k) * W (ix2 k q))
    (t : Fin cfg16.N) :
    (dat16 (F := Ideal) V c).flushed 3 t = ((cfg16.win 3).blk t).view.read (Elt Ideal) G := by
  show (cfg16.win 3).cut (grid16.coords t) ((dat16 (F := Ideal) V c).after 3 t) = _
  rw [after16_3]
  unfold out16_3
  rw [View.canon_unit_zero zeros2]
  simp only [View.ld_unit_zero (S := S4000x128) zeros2, View.ld_unit_zero (S := S128x64) zeros2, View.ld_unit_zero (S := S1x64) zeros2]
  funext j
  obtain ⟨p, q, rfl⟩ : ∃ (p : Fin 4000) (q : Fin 64), j = ix2 p q := ⟨j 0, j 1, eq_ix2 j⟩
  have hr : 4000 * t.val + p.val < 60000 := by have := lt16 t; omega
  rw [View.read_apply]
  show k12_pay1 (F := Ideal) (iblk16 V c 0 t) (iblk16 V c 1 t) (iblk16 V c 2 t) (ix2 p q) = G (((cfg16.win 3).blk t).view.emb (ix2 p q))
  rw [blk16_3_emb t p q ⟨_, hr⟩ rfl, hG]
  refine (k12_pay1_apply _ _ _ p q).trans ?_
  have h2 : (iblk16 V c 2 t : Vec Ideal S1x64 .f32) (ix2 (0 : Fin 1) q) = (0 : EReal) :=
    (blk16_2_read (V c (Pipeline.arrRef spec16 2)) t 0 q).trans ((congrFun hb _).trans (zero_bias64_apply _))
  rw [h2, add_zero]
  exact Finset.sum_congr rfl fun k _ => congrArg₂ (· * ·) ((blk16_0_read _ t p k ⟨_, hr⟩ rfl).trans (congrFun hX _)) ((blk16_1_read _ t k q).trans (congrFun hW _))

/-- The result array after the region: the host product of the row array and the weight array as the
    region found them. -/
theorem lin_16 (c : Dev nD)
    (hb : V c (Pipeline.arrRef spec16 2) = shapeCast _ (broadcastInDim S64 ![] bcast_S_S64 (constant (F := Ideal) S_ .f32 0x00000000#32)) shapeCasts_S64_S1x64) :
    (dat16 (F := Ideal) V c).arrAt 3 cfg16.N
      = Host.dotGeneral (F := Ideal) (φ₁ := .f32) (φ₂ := .f32) Cert.ReferenceIdeal.dot_S60000x128_S128x64_S60000x64_1_0_0_1_n_n none (V c (Pipeline.arrRef spec16 0)) (V c (Pipeline.arrRef spec16 1)) :=
  (dat16 (F := Ideal) V c).arrAt_eq_of_cover 3 _ (fun t _ => flushed_16 V c hb _ _ rfl rfl _ (fun r q => dot_h60000x64_apply _ _ r q) t) cover16

end Cert.KernelIdeal.Hand

end
-- ==== Proof.Lin.Blk17.lean ====
/- Region 17 (a linear region: 20000 rows of 128 into 64 columns, 5 grid points of 4000 rows): where
   each window's block sits in its array. At point t the row window and the result window are rows
   4000 t … 4000 t + 3999, the weight (128 × 64) and bias (1 × 64) windows are their whole arrays; so an element (p, k) of
   the row block is the array's element (4000 t + p, k), and every element of the result array lies in
   the block of point (row / 4000). -/
import proofs.«147021_j7619271983570_1_alg».proof.Proof.Gen.KernelIdeal.Points
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Hand

open Cert.KernelIdeal Cert.KernelIdeal.Gen

/-- The block indices of the four windows at every grid point: the row and result windows move with the
    point along the rows, the weight and bias windows stay at block (0, 0). -/
theorem idx17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

/-- The grid has 5 points. -/
theorem pts17 : grid17.N = 5 := by decide

/-- A grid point is below 5. -/
theorem lt17 (t : Fin cfg17.N) : t.val < 5 := by
  have h : t.val < grid17.N := t.isLt
  rw [pts17] at h
  exact h

/-- Element (p, k) of the row block at point t is the array's element (4000 t + p, k). -/
theorem blk17_0_read (A : (⟨S20000x128, .f32⟩ : BufTy).Contents (Elt Ideal)) (t : Fin cfg17.N) (p : Fin 4000) (k : Fin 128)
    (r : Fin 20000) (hr : r.val = 4000 * t.val + p.val) :
    ((cfg17.win 0).blk t).view.read (Elt Ideal) A (ix2 p k) = A (ix2 r k) := by
  obtain ⟨e0, e1, -⟩ := idx17 t
  rw [View.read_apply]
  show A (((cfg17.win 0).blk t).view.emb (ix2 p k)) = A (ix2 r k)
  refine congrArg A (funext fun a => Fin.ext ?_)
  match a with
  | ⟨0, _⟩ => show win17_0.index t (0 : Fin 2) * 4000 + 1 * p.val = r.val; rw [e0, hr]; omega
  | ⟨1, _⟩ => show win17_0.index t (1 : Fin 2) * 128 + 1 * k.val = k.val; rw [e1]; omega

/-- The weight block at any point is the whole weight array. -/
theorem blk17_1_read (A : (⟨S128x64, .f32⟩ : BufTy).Contents (Elt Ideal)) (t : Fin cfg17.N) (k : Fin 128) (q : Fin 64) :
    ((cfg17.win 1).blk t).view.read (Elt Ideal) A (ix2 k q) = A (ix2 k q) := by
  obtain ⟨-, -, e0, e1, -⟩ := idx17 t
  rw [View.read_apply]
  show A (((cfg17.win 1).blk t).view.emb (ix2 k q)) = A (ix2 k q)
  refine congrArg A (funext fun a => Fin.ext ?_)
  match a with
  | ⟨0, _⟩ => show win17_1.index t (0 : Fin 2) * 128 + 1 * k.val = k.val; rw [e0]; omega
  | ⟨1, _⟩ => show win17_1.index t (1 : Fin 2) * 64 + 1 * q.val = q.val; rw [e1]; omega

/-- The bias block at any point is the whole one-row bias array. -/
theorem blk17_2_read (A : (⟨S1x64, .f32⟩ : BufTy).Contents (Elt Ideal)) (t : Fin cfg17.N) (z : Fin 1) (q : Fin 64) :
    ((cfg17.win 2).blk t).view.read (Elt Ideal) A (ix2 z q) = A (ix2 z q) := by
  obtain ⟨-, -, -, -, e0, e1, -⟩ := idx17 t
  rw [View.read_apply]
  show A (((cfg17.win 2).blk t).view.emb (ix2 z q)) = A (ix2 z q)
  refine congrArg A (funext fun a => Fin.ext ?_)
  match a with
  | ⟨0, _⟩ => show win17_2.index t (0 : Fin 2) * 1 + 1 * z.val = z.val; rw [e0]; omega
  | ⟨1, _⟩ => show win17_2.index t (1 : Fin 2) * 64 + 1 * q.val = q.val; rw [e1]; omega

/-- Element (p, q) of the result block at point t sits at (4000 t + p, q) of the result array. -/
theorem blk17_3_emb (t : Fin cfg17.N) (p : Fin 4000) (q : Fin 64) (r : Fin 20000) (hr : r.val = 4000 * t.val + p.val) :
    ((cfg17.win 3).blk t).view.emb (ix2 p q) = (ix2 r q : S20000x64.Idx) := by
  obtain ⟨-, -, -, -, -, -, e0, e1⟩ := idx17 t
  refine funext fun a => Fin.ext ?_
  match a with
  | ⟨0, _⟩ => show win17_3.index t (0 : Fin 2) * 4000 + 1 * p.val = r.val; rw [e0, hr]; omega
  | ⟨1, _⟩ => show win17_3.index t (1 : Fin 2) * 64 + 1 * q.val = q.val; rw [e1]; omega

/-- An element of the result array is in point t's block iff each coordinate is in the block's range. -/
theorem mem_blk17 (t : Fin cfg17.N) (i : S20000x64.Idx) :
    i ∈ ((cfg17.win 3).blk t).view.set ↔ ∀ a : Fin 2, win17_3.index t a * S4000x64.size a ≤ (i a).val ∧ (i a).val < win17_3.index t a * S4000x64.size a + S4000x64.size a := by
  show i ∈ ((View.whole main_v719).slice (win17_3.rect t)).set ↔ _
  rw [View.set_slice_whole, Rect.mem_set_unit]
  exact Iff.rfl

/-- The result blocks tile the result array: row i lies in the block of point i / 4000, which is written back. -/
theorem cover17 (i : S20000x64.Idx) :
    ∃ t : Fin cfg17.N, (cfg17.win 3).flush t = true ∧ i ∈ ((cfg17.win 3).blk t).view.set := by
  have hi0 : (i 0).val < 20000 := (i 0).isLt
  have hi1 : (i 1).val < 64 := (i 1).isLt
  have hN : grid17.N = 5 := pts17
  let t : Fin cfg17.N := ⟨(i 0).val / 4000, by show (i 0).val / 4000 < grid17.N; rw [hN]; omega⟩
  have ht : t.val = (i 0).val / 4000 := rfl
  obtain ⟨-, -, -, -, -, -, e0, e1⟩ := idx17 t
  refine ⟨t, flush17_3 t, ?_⟩
  rw [mem_blk17]
  intro a
  match a with
  | ⟨0, _⟩ => show win17_3.index t (0 : Fin 2) * 4000 ≤ (i 0).val ∧ (i 0).val < win17_3.index t (0 : Fin 2) * 4000 + 4000; rw [e0, ht]; omega
  | ⟨1, _⟩ => show win17_3.index t (1 : Fin 2) * 64 ≤ (i 1).val ∧ (i 1).val < win17_3.index t (1 : Fin 2) * 64 + 64; rw [e1]; omega

end Cert.KernelIdeal.Hand

end
-- ==== Proof.Lin.Reg17.lean ====
/- Region 17 (a relation product: 20000 rows of 128 against 128 × 64 weights, zero bias, 5 grid
   points of 4000 rows): what the region leaves in its result array. Point t writes back rows
   4000 t … 4000 t + 3999 of the product: the payload at (p, q) is the sum over k of the row block's
   (p, k) times the weights' (k, q), plus a bias that is zero, and the row block's (p, k) is the array's
   (4000 t + p, k); that is the host product at (4000 t + p, q). The 5 blocks tile the array, so the
   array ends holding the host product of the two arrays the region found. -/
import proofs.«147021_j7619271983570_1_alg».proof.Proof.FrameKI_A
import proofs.«147021_j7619271983570_1_alg».proof.Proof.Lin.Pay
import proofs.«147021_j7619271983570_1_alg».proof.Proof.Lin.Host
import proofs.«147021_j7619271983570_1_alg».proof.Proof.Lin.Blk17

noncomputable section

open Idealize.ShloMosaic Idealize.ShloMosaic.TcCoe Idealize.ShloMosaic.ValueIdx Idealize.SL.Sem
open scoped BigOperators

namespace Cert.KernelIdeal.Hand

open Cert.KernelIdeal Cert.KernelIdeal.Gen

variable (V : (c : Dev nD) → (b : Ref sig .tc) → Buf (Elt Ideal) ((c : Thread nD τ).loc b))

/-- What point t writes back is block t of ANY array G whose entry (r, q) is the sum over k of the row
    array's (r, k) times the weight array's (k, q) (X and W name the two arrays as the region found them). -/
theorem flushed_17 (c : Dev nD)
    (hb : V c (Pipeline.arrRef spec17 2) = shapeCast _ (broadcastInDim S64 ![] bcast_S_S64 (constant (F := Ideal) S_ .f32 0x00000000#32)) shapeCasts_S64_S1x64)
    (X : FVec Ideal S20000x128 .f32) (W : FVec Ideal S128x64 .f32)
    (hX : V c (Pipeline.arrRef spec17 0) = X) (hW : V c (Pipeline.arrRef spec17 1) = W)
    (G : FVec Ideal S20000x64 .f32)
    (hG : ∀ (r : Fin 20000) (q : Fin 64), G (ix2 r q) = ∑ k : Fin 128, X (ix2 r k) * W (ix2 k q))
    (t : Fin cfg17.N) :
    (dat17 (F := Ideal) V c).flushed 3 t = ((cfg17.win 3).blk t).view.read (Elt Ideal) G := by
  show (cfg17.win 3).cut (grid17.coords t) ((dat17 (F := Ideal) V c).after 3 t) = _
  rw [after17_3]
  unfold out17_3
  rw [View.canon_unit_zero zeros2]
  simp only [View.ld_unit_zero (S := S4000x128) zeros2, View.ld_unit_zero (S := S128x64) zeros2, View.ld_unit_zero (S := S1x64) zeros2]
  funext j
  obtain ⟨p, q, rfl⟩ : ∃ (p : Fin 4000) (q : Fin 64), j = ix2 p q := ⟨j 0, j 1, eq_ix2 j⟩
  have hr : 4000 * t.val + p.val < 20000 := by have := lt17 t; omega
  rw [View.read_apply]
  show k12_pay1 (F := Ideal) (iblk17 V c 0 t) (iblk17 V c 1 t) (iblk17 V c 2 t) (ix2 p q) = G (((cfg17.win 3).blk t).view.emb (ix2 p q))
  rw [blk17_3_emb t p q ⟨_, hr⟩ rfl, hG]
  refine (k12_pay1_apply _ _ _ p q).trans ?_
  have h2 : (iblk17 V c 2 t : Vec Ideal S1x64 .f32) (ix2 (0 : Fin 1) q) = (0 : EReal) :=
    (blk17_2_read (V c (Pipeline.arrRef spec17 2)) t 0 q).trans ((congrFun hb _).trans (zero_bias64_apply _))
  rw [h2, add_zero]
  exact Finset.sum_congr rfl fun k _ => congrArg₂ (· * ·) ((blk17_0_read _ t p k ⟨_, hr⟩ rfl).trans (congrFun hX _)) ((blk17_1_read _ t k q).trans (congrFun hW _))

/-- The result array after the region: the host product of the row array and the weight array as the
    region found them. -/
theorem lin_17 (c : Dev nD)
    (hb : V c (Pipeline.arrRef spec17 2) = shapeCast _ (broadcastInDim S64 ![] bcast_S_S64 (constant (F := Ideal) S_ .f32 0x00000000#32)) shapeCasts_S64_S1x64) :
    (dat17 (F := Ideal) V c).arrAt 3 cfg17.N
      = Host.dotGeneral (F := Ideal) (φ₁ := .f32) (φ₂ := .f32) Cert.ReferenceIdeal.dot_S20000x128_S128x64_S20000x64_1_0_0_1_n_n none (V c (Pipeline.arrRef spec17 0)) (V c (Pipeline.arrRef spec17 1)) :=
  (dat17 (F := Ideal) V c).arrAt_eq_of_cover 3 _ (fun t _ => flushed_17 V c hb _ _ rfl rfl _ (fun r q => dot_h20000x64_apply _ _ r q) t) cover17

end Cert.KernelIdeal.Hand

end
-- ==== Proof.Ln.Reg18.lean ====
/-
  REGION 18 (LayerNorm of a 20000 × 64 array in 5 blocks of 4000 rows): the region's
  output array after its last write-back is the reference's LayerNorm term of the region's rows array, scale
  and bias.

  Grid point t stages rows 4000 t … 4000 t + 3999 of the rows array (all 64 lanes), the whole one-row scale and
  bias arrays, and writes back the same rows of the output. The body's payload at (p, q) of the block is LayerNorm
  of row p at lane q (Ln/Pay.lean); the reference's term at (4000 t + p, q) is the
  same expression of the same row (Ln/Host.lean), the block's row p being the array's row 4000 t + p and the
  scale's and bias's one-row arrays being the casts of the vectors G and Bs. So point t writes back block t of the
  reference's term, and the blocks tile the array.
-/
import proofs.«147021_j7619271983570_1_alg».proof.Proof.FrameKI_A
import proofs.«147021_j7619271983570_1_alg».proof.Proof.Ln.Pay
import proofs.«147021_j7619271983570_1_alg».proof.Proof.Ln.Host
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

namespace Reg18

/-- The printed index maps, decided over the grid: the rows window and the output window sit at block (t, 0),
    the scale's and the bias's windows at block (0, 0). -/
theorem idx : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = t.val ∧ win18_3.index t (1 : Fin 2) = 0 :=
  (by decide +kernel : ∀ t : Fin grid18.N, _)

/-- Row p of block t is row 4000 t + p of the array. -/
abbrev row (t : Fin cfg18.N) (p : Fin 4000) : Fin 20000 :=
  ⟨t.val * 4000 + p.val, by have hN : cfg18.N = 5 := N_18; have := t.isLt; have := p.isLt; omega⟩

section
variable (V : (c : Dev nD) → (b : Ref sig .tc) → Buf (Elt Ideal) ((c : Thread nD τ).loc b)) (c : Dev nD)

/-- A lane of row p of the rows block at point t is that lane of row 4000 t + p of the rows array. -/
theorem rows_apply (t : Fin cfg18.N) (p : Fin 4000) (k : Fin 64) :
    iblk18 V c 0 t (ix2 p k) = V c (Pipeline.arrRef spec18 0) (ix2 (row t p) k) := by
  obtain ⟨e0, e1, -⟩ := idx t
  show V c (Pipeline.arrRef spec18 0) (((cfg18.win 0).blk t).view.emb (ix2 p k)) = _
  refine congrArg (V c (Pipeline.arrRef spec18 0)) (funext fun a => Fin.ext ?_)
  match a with
  | ⟨0, _⟩ => show win18_0.index t (0 : Fin 2) * 4000 + 1 * p.val = t.val * 4000 + p.val; rw [e0]; omega
  | ⟨1, _⟩ => show win18_0.index t (1 : Fin 2) * 64 + 1 * k.val = k.val; rw [e1]; omega

/-- The scale's block at any point is the whole one-row scale array. -/
theorem scale_apply (t : Fin cfg18.N) (q : Fin 64) :
    iblk18 V c 1 t (ix2 (0 : Fin 1) q) = V c (Pipeline.arrRef spec18 1) (ix2 (0 : Fin 1) q) := by
  obtain ⟨-, -, e0, e1, -⟩ := idx t
  show V c (Pipeline.arrRef spec18 1) (((cfg18.win 1).blk t).view.emb (ix2 (0 : Fin 1) q)) = _
  refine congrArg (V c (Pipeline.arrRef spec18 1)) (funext fun a => Fin.ext ?_)
  match a with
  | ⟨0, _⟩ => show win18_1.index t (0 : Fin 2) * 1 + 1 * (0 : Fin 1).val = (0 : Fin 1).val; rw [e0]; simp
  | ⟨1, _⟩ => show win18_1.index t (1 : Fin 2) * 64 + 1 * q.val = q.val; rw [e1]; omega

/-- The bias's block at any point is the whole one-row bias array. -/
theorem bias_apply (t : Fin cfg18.N) (q : Fin 64) :
    iblk18 V c 2 t (ix2 (0 : Fin 1) q) = V c (Pipeline.arrRef spec18 2) (ix2 (0 : Fin 1) q) := by
  obtain ⟨-, -, -, -, e0, e1, -⟩ := idx t
  show V c (Pipeline.arrRef spec18 2) (((cfg18.win 2).blk t).view.emb (ix2 (0 : Fin 1) q)) = _
  refine congrArg (V c (Pipeline.arrRef spec18 2)) (funext fun a => Fin.ext ?_)
  match a with
  | ⟨0, _⟩ => show win18_2.index t (0 : Fin 2) * 1 + 1 * (0 : Fin 1).val = (0 : Fin 1).val; rw [e0]; simp
  | ⟨1, _⟩ => show win18_2.index t (1 : Fin 2) * 64 + 1 * q.val = q.val; rw [e1]; omega

/-- WHAT POINT t WRITES BACK is block t of the reference's term of the rows array, the scale and the bias. -/
theorem flushed (G Bs : (⟨S64, .f32⟩ : BufTy).Contents (Elt Ideal))
    (hg : V c (Pipeline.arrRef spec18 1) = shapeCast _ G shapeCasts_S64_S1x64)
    (hb : V c (Pipeline.arrRef spec18 2) = shapeCast _ Bs shapeCasts_S64_S1x64) (t : Fin cfg18.N) :
    (dat18 (F := Ideal) V c).flushed 3 t
      = ((cfg18.win 3).blk t).view.read (Elt Ideal)
          (refLn_20000x64 (V c (Pipeline.arrRef spec18 0)) G Bs) := by
  show (cfg18.win 3).cut (grid18.coords t) ((dat18 V c).after 3 t) = _
  rw [after18_3]
  unfold out18_3
  rw [View.canon_unit_zero Ln.hz]
  simp only [View.ld_unit_zero (S := S4000x64) Ln.hz, View.ld_unit_zero (S := S1x64) Ln.hz]
  funext j
  obtain ⟨p, q, rfl⟩ : ∃ (p : Fin 4000) (q : Fin 64), j = ix2 p q := ⟨j 0, j 1, eq_ix2 j⟩
  obtain ⟨-, -, -, -, -, -, e0, e1⟩ := idx t
  have hemb : ((cfg18.win 3).blk t).view.emb (ix2 p q) = ix2 (row t p) q := by
    funext a
    apply Fin.ext
    match a with
    | ⟨0, _⟩ => show win18_3.index t (0 : Fin 2) * 4000 + 1 * p.val = t.val * 4000 + p.val; rw [e0]; omega
    | ⟨1, _⟩ => show win18_3.index t (1 : Fin 2) * 64 + 1 * q.val = q.val; rw [e1]; omega
  show k18_pay1 (iblk18 V c 0 t) (iblk18 V c 1 t) (iblk18 V c 2 t) (ix2 p q)
    = refLn_20000x64 (V c (Pipeline.arrRef spec18 0)) G Bs (((cfg18.win 3).blk t).view.emb (ix2 p q))
  rw [hemb]
  refine (k18_pay1_apply (iblk18 V c 0 t) (iblk18 V c 1 t) (iblk18 V c 2 t) p q).trans ?_
  refine ((refLn_20000x64_apply (V c (Pipeline.arrRef spec18 0)) G Bs (row t p) q).trans ?_).symm
  have h0 : (fun k : Fin 64 => V c (Pipeline.arrRef spec18 0) (ix2 (row t p) k))
      = fun k : Fin 64 => iblk18 V c 0 t (ix2 p k) := funext fun k => (rows_apply V c t p k).symm
  have h1 : G (ix1 q) = iblk18 V c 1 t (ix2 (0 : Fin 1) q) :=
    ((scale_apply V c t q).trans ((congrFun hg _).trans (shapeCast_a_1a_apply G _ (0 : Fin 1) q))).symm
  have h2 : Bs (ix1 q) = iblk18 V c 2 t (ix2 (0 : Fin 1) q) :=
    ((bias_apply V c t q).trans ((congrFun hb _).trans (shapeCast_a_1a_apply Bs _ (0 : Fin 1) q))).symm
  rw [h0, h1, h2]

end

/-- An index of the output array is in point t's block iff each coordinate is in the block's range on its axis. -/
theorem mem_blk (t : Fin cfg18.N) (i : S20000x64.Idx) :
    i ∈ ((cfg18.win 3).blk t).view.set ↔ ∀ a : Fin 2, win18_3.index t a * S4000x64.size a ≤ (i a).val
      ∧ (i a).val < win18_3.index t a * S4000x64.size a + S4000x64.size a := by
  show i ∈ ((View.whole main_v783).slice (win18_3.rect t)).set ↔ _
  rw [View.set_slice_whole, Rect.mem_set_unit]
  exact Iff.rfl

/-- THE COVER: row r of the array is in the block of point r / 4000, which writes it back. -/
theorem cover (i : S20000x64.Idx) :
    ∃ t : Fin cfg18.N, (cfg18.win 3).flush t = true ∧ i ∈ ((cfg18.win 3).blk t).view.set := by
  have hN : cfg18.N = 5 := N_18
  have hi0 : (i 0).val < 20000 := (i 0).isLt
  have hi1 : (i 1).val < 64 := (i 1).isLt
  have ht : (i 0).val / 4000 < cfg18.N := by rw [hN]; omega
  obtain ⟨-, -, -, -, -, -, e0, e1⟩ := idx ⟨(i 0).val / 4000, ht⟩
  refine ⟨⟨(i 0).val / 4000, ht⟩, flush18_3 _, ?_⟩
  rw [mem_blk]
  intro a
  match a with
  | ⟨0, _⟩ =>
    show win18_3.index ⟨(i 0).val / 4000, ht⟩ (0 : Fin 2) * 4000 ≤ (i 0).val
      ∧ (i 0).val < win18_3.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win18_3.index ⟨(i 0).val / 4000, ht⟩ (1 : Fin 2) * 64 ≤ (i 1).val
      ∧ (i 1).val < win18_3.index ⟨(i 0).val / 4000, ht⟩ (1 : Fin 2) * 64 + 64
    rw [e1]
    omega

end Reg18

/-- REGION 18's OUTPUT ARRAY after the region: the reference's LayerNorm term of the region's rows array as
    it finds it, of the scale G and of the bias Bs whose one-row casts the region finds in its other two arrays. -/
theorem ln_18 (V : (c : Dev nD) → (b : Ref sig .tc) → Buf (Elt Ideal) ((c : Thread nD τ).loc b)) (c : Dev nD)
    (G Bs : (⟨S64, .f32⟩ : BufTy).Contents (Elt Ideal))
    (hg : V c (Pipeline.arrRef spec18 1) = shapeCast _ G shapeCasts_S64_S1x64)
    (hb : V c (Pipeline.arrRef spec18 2) = shapeCast _ Bs shapeCasts_S64_S1x64) :
    (dat18 (F := Ideal) V c).arrAt 3 cfg18.N =
      (addf (F := Ideal) (mulf (F := Ideal) (mulf (F := Ideal) (subf (F := Ideal) (s := Cert.ReferenceIdeal.S20000x64) (φ := .f32) (V c (Pipeline.arrRef spec18 0)) (broadcastInDim Cert.ReferenceIdeal.S20000x64 ![0, 1] Cert.ReferenceIdeal.Gen.bcast_S20000x1_S20000x64_0_1 (Host.divf (F := Ideal) (broadcastInDim Cert.ReferenceIdeal.S20000x1 ![0] Cert.ReferenceIdeal.Gen.bcast_S20000_S20000x1_0 (Host.reduceAdd (F := Ideal) (s := Cert.ReferenceIdeal.S20000x64) (φ := .f32) (V c (Pipeline.arrRef spec18 0)) (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32))))) (broadcastInDim Cert.ReferenceIdeal.S20000x64 ![0, 1] Cert.ReferenceIdeal.Gen.bcast_S20000x1_S20000x64_0_1 (Host.rsqrt (F := Ideal) (addf (F := Ideal) (Host.divf (F := Ideal) (broadcastInDim Cert.ReferenceIdeal.S20000x1 ![0] Cert.ReferenceIdeal.Gen.bcast_S20000_S20000x1_0 (Host.reduceAdd (F := Ideal) (mulf (F := Ideal) (subf (F := Ideal) (s := Cert.ReferenceIdeal.S20000x64) (φ := .f32) (V c (Pipeline.arrRef spec18 0)) (broadcastInDim Cert.ReferenceIdeal.S20000x64 ![0, 1] Cert.ReferenceIdeal.Gen.bcast_S20000x1_S20000x64_0_1 (Host.divf (F := Ideal) (broadcastInDim Cert.ReferenceIdeal.S20000x1 ![0] Cert.ReferenceIdeal.Gen.bcast_S20000_S20000x1_0 (Host.reduceAdd (F := Ideal) (s := Cert.ReferenceIdeal.S20000x64) (φ := .f32) (V c (Pipeline.arrRef spec18 0)) (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32))))) (subf (F := Ideal) (s := Cert.ReferenceIdeal.S20000x64) (φ := .f32) (V c (Pipeline.arrRef spec18 0)) (broadcastInDim Cert.ReferenceIdeal.S20000x64 ![0, 1] Cert.ReferenceIdeal.Gen.bcast_S20000x1_S20000x64_0_1 (Host.divf (F := Ideal) (broadcastInDim Cert.ReferenceIdeal.S20000x1 ![0] Cert.ReferenceIdeal.Gen.bcast_S20000_S20000x1_0 (Host.reduceAdd (F := Ideal) (s := Cert.ReferenceIdeal.S20000x64) (φ := .f32) (V c (Pipeline.arrRef spec18 0)) (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32)))))) (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32))) (broadcastInDim Cert.ReferenceIdeal.S20000x1 ![] Cert.ReferenceIdeal.Gen.bcast_S_S20000x1 (constant (F := Ideal) Cert.ReferenceIdeal.S_ .f32 0x3727C5AC#32)))))) (broadcastInDim Cert.ReferenceIdeal.S20000x64 ![0, 1] Cert.ReferenceIdeal.Gen.bcast_S1x64_S20000x64_0_1 (broadcastInDim Cert.ReferenceIdeal.S1x64 ![1] Cert.ReferenceIdeal.Gen.bcast_S64_S1x64_1 G))) (broadcastInDim Cert.ReferenceIdeal.S20000x64 ![0, 1] Cert.ReferenceIdeal.Gen.bcast_S1x64_S20000x64_0_1 (broadcastInDim Cert.ReferenceIdeal.S1x64 ![1] Cert.ReferenceIdeal.Gen.bcast_S64_S1x64_1 Bs))) :=
  (dat18 V c).arrAt_eq_of_cover 3 (refLn_20000x64 (V c (Pipeline.arrRef spec18 0)) G Bs)
    (fun t _ => Reg18.flushed V c G Bs hg hb t) (fun i => Reg18.cover i)

end Cert.KernelIdeal.Hand

end
-- ==== Proof.Ln.Reg19.lean ====
/-
  REGION 19 (LayerNorm of a 60000 × 64 array in 15 blocks of 4000 rows): the region's
  output array after its last write-back is the reference's LayerNorm term of the region's rows array, scale
  and bias.

  Grid point t stages rows 4000 t … 4000 t + 3999 of the rows array (all 64 lanes), the whole one-row scale and
  bias arrays, and writes back the same rows of the output. The body's payload at (p, q) of the block is LayerNorm
  of row p at lane q (Ln/Pay.lean); the reference's term at (4000 t + p, q) is the
  same expression of the same row (Ln/Host.lean), the block's row p being the array's row 4000 t + p and the
  scale's and bias's one-row arrays being the casts of the vectors G and Bs. So point t writes back block t of the
  reference's term, and the blocks tile the array.
-/
import proofs.«147021_j7619271983570_1_alg».proof.Proof.FrameKI_A
import proofs.«147021_j7619271983570_1_alg».proof.Proof.Ln.Pay
import proofs.«147021_j7619271983570_1_alg».proof.Proof.Ln.Host
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

namespace Reg19

/-- The printed index maps, decided over the grid: the rows window and the output window sit at block (t, 0),
    the scale's and the bias's windows at block (0, 0). -/
theorem idx : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = t.val ∧ win19_3.index t (1 : Fin 2) = 0 :=
  (by decide +kernel : ∀ t : Fin grid19.N, _)

/-- Row p of block t is row 4000 t + p of the array. -/
abbrev row (t : Fin cfg19.N) (p : Fin 4000) : Fin 60000 :=
  ⟨t.val * 4000 + p.val, by have hN : cfg19.N = 15 := N_19; have := t.isLt; have := p.isLt; omega⟩

section
variable (V : (c : Dev nD) → (b : Ref sig .tc) → Buf (Elt Ideal) ((c : Thread nD τ).loc b)) (c : Dev nD)

/-- A lane of row p of the rows block at point t is that lane of row 4000 t + p of the rows array. -/
theorem rows_apply (t : Fin cfg19.N) (p : Fin 4000) (k : Fin 64) :
    iblk19 V c 0 t (ix2 p k) = V c (Pipeline.arrRef spec19 0) (ix2 (row t p) k) := by
  obtain ⟨e0, e1, -⟩ := idx t
  show V c (Pipeline.arrRef spec19 0) (((cfg19.win 0).blk t).view.emb (ix2 p k)) = _
  refine congrArg (V c (Pipeline.arrRef spec19 0)) (funext fun a => Fin.ext ?_)
  match a with
  | ⟨0, _⟩ => show win19_0.index t (0 : Fin 2) * 4000 + 1 * p.val = t.val * 4000 + p.val; rw [e0]; omega
  | ⟨1, _⟩ => show win19_0.index t (1 : Fin 2) * 64 + 1 * k.val = k.val; rw [e1]; omega

/-- The scale's block at any point is the whole one-row scale array. -/
theorem scale_apply (t : Fin cfg19.N) (q : Fin 64) :
    iblk19 V c 1 t (ix2 (0 : Fin 1) q) = V c (Pipeline.arrRef spec19 1) (ix2 (0 : Fin 1) q) := by
  obtain ⟨-, -, e0, e1, -⟩ := idx t
  show V c (Pipeline.arrRef spec19 1) (((cfg19.win 1).blk t).view.emb (ix2 (0 : Fin 1) q)) = _
  refine congrArg (V c (Pipeline.arrRef spec19 1)) (funext fun a => Fin.ext ?_)
  match a with
  | ⟨0, _⟩ => show win19_1.index t (0 : Fin 2) * 1 + 1 * (0 : Fin 1).val = (0 : Fin 1).val; rw [e0]; simp
  | ⟨1, _⟩ => show win19_1.index t (1 : Fin 2) * 64 + 1 * q.val = q.val; rw [e1]; omega

/-- The bias's block at any point is the whole one-row bias array. -/
theorem bias_apply (t : Fin cfg19.N) (q : Fin 64) :
    iblk19 V c 2 t (ix2 (0 : Fin 1) q) = V c (Pipeline.arrRef spec19 2) (ix2 (0 : Fin 1) q) := by
  obtain ⟨-, -, -, -, e0, e1, -⟩ := idx t
  show V c (Pipeline.arrRef spec19 2) (((cfg19.win 2).blk t).view.emb (ix2 (0 : Fin 1) q)) = _
  refine congrArg (V c (Pipeline.arrRef spec19 2)) (funext fun a => Fin.ext ?_)
  match a with
  | ⟨0, _⟩ => show win19_2.index t (0 : Fin 2) * 1 + 1 * (0 : Fin 1).val = (0 : Fin 1).val; rw [e0]; simp
  | ⟨1, _⟩ => show win19_2.index t (1 : Fin 2) * 64 + 1 * q.val = q.val; rw [e1]; omega

/-- WHAT POINT t WRITES BACK is block t of the reference's term of the rows array, the scale and the bias. -/
theorem flushed (G Bs : (⟨S64, .f32⟩ : BufTy).Contents (Elt Ideal))
    (hg : V c (Pipeline.arrRef spec19 1) = shapeCast _ G shapeCasts_S64_S1x64)
    (hb : V c (Pipeline.arrRef spec19 2) = shapeCast _ Bs shapeCasts_S64_S1x64) (t : Fin cfg19.N) :
    (dat19 (F := Ideal) V c).flushed 3 t
      = ((cfg19.win 3).blk t).view.read (Elt Ideal)
          (refLn_60000x64 (V c (Pipeline.arrRef spec19 0)) G Bs) := by
  show (cfg19.win 3).cut (grid19.coords t) ((dat19 V c).after 3 t) = _
  rw [after19_3]
  unfold out19_3
  rw [View.canon_unit_zero Ln.hz]
  simp only [View.ld_unit_zero (S := S4000x64) Ln.hz, View.ld_unit_zero (S := S1x64) Ln.hz]
  funext j
  obtain ⟨p, q, rfl⟩ : ∃ (p : Fin 4000) (q : Fin 64), j = ix2 p q := ⟨j 0, j 1, eq_ix2 j⟩
  obtain ⟨-, -, -, -, -, -, e0, e1⟩ := idx t
  have hemb : ((cfg19.win 3).blk t).view.emb (ix2 p q) = ix2 (row t p) q := by
    funext a
    apply Fin.ext
    match a with
    | ⟨0, _⟩ => show win19_3.index t (0 : Fin 2) * 4000 + 1 * p.val = t.val * 4000 + p.val; rw [e0]; omega
    | ⟨1, _⟩ => show win19_3.index t (1 : Fin 2) * 64 + 1 * q.val = q.val; rw [e1]; omega
  show k19_pay1 (iblk19 V c 0 t) (iblk19 V c 1 t) (iblk19 V c 2 t) (ix2 p q)
    = refLn_60000x64 (V c (Pipeline.arrRef spec19 0)) G Bs (((cfg19.win 3).blk t).view.emb (ix2 p q))
  rw [hemb]
  refine (k19_pay1_apply (iblk19 V c 0 t) (iblk19 V c 1 t) (iblk19 V c 2 t) p q).trans ?_
  refine ((refLn_60000x64_apply (V c (Pipeline.arrRef spec19 0)) G Bs (row t p) q).trans ?_).symm
  have h0 : (fun k : Fin 64 => V c (Pipeline.arrRef spec19 0) (ix2 (row t p) k))
      = fun k : Fin 64 => iblk19 V c 0 t (ix2 p k) := funext fun k => (rows_apply V c t p k).symm
  have h1 : G (ix1 q) = iblk19 V c 1 t (ix2 (0 : Fin 1) q) :=
    ((scale_apply V c t q).trans ((congrFun hg _).trans (shapeCast_a_1a_apply G _ (0 : Fin 1) q))).symm
  have h2 : Bs (ix1 q) = iblk19 V c 2 t (ix2 (0 : Fin 1) q) :=
    ((bias_apply V c t q).trans ((congrFun hb _).trans (shapeCast_a_1a_apply Bs _ (0 : Fin 1) q))).symm
  rw [h0, h1, h2]

end

/-- An index of the output array is in point t's block iff each coordinate is in the block's range on its axis. -/
theorem mem_blk (t : Fin cfg19.N) (i : S60000x64.Idx) :
    i ∈ ((cfg19.win 3).blk t).view.set ↔ ∀ a : Fin 2, win19_3.index t a * S4000x64.size a ≤ (i a).val
      ∧ (i a).val < win19_3.index t a * S4000x64.size a + S4000x64.size a := by
  show i ∈ ((View.whole main_v790).slice (win19_3.rect t)).set ↔ _
  rw [View.set_slice_whole, Rect.mem_set_unit]
  exact Iff.rfl

/-- THE COVER: row r of the array is in the block of point r / 4000, which writes it back. -/
theorem cover (i : S60000x64.Idx) :
    ∃ t : Fin cfg19.N, (cfg19.win 3).flush t = true ∧ i ∈ ((cfg19.win 3).blk t).view.set := by
  have hN : cfg19.N = 15 := N_19
  have hi0 : (i 0).val < 60000 := (i 0).isLt
  have hi1 : (i 1).val < 64 := (i 1).isLt
  have ht : (i 0).val / 4000 < cfg19.N := by rw [hN]; omega
  obtain ⟨-, -, -, -, -, -, e0, e1⟩ := idx ⟨(i 0).val / 4000, ht⟩
  refine ⟨⟨(i 0).val / 4000, ht⟩, flush19_3 _, ?_⟩
  rw [mem_blk]
  intro a
  match a with
  | ⟨0, _⟩ =>
    show win19_3.index ⟨(i 0).val / 4000, ht⟩ (0 : Fin 2) * 4000 ≤ (i 0).val
      ∧ (i 0).val < win19_3.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win19_3.index ⟨(i 0).val / 4000, ht⟩ (1 : Fin 2) * 64 ≤ (i 1).val
      ∧ (i 1).val < win19_3.index ⟨(i 0).val / 4000, ht⟩ (1 : Fin 2) * 64 + 64
    rw [e1]
    omega

end Reg19

/-- REGION 19's OUTPUT ARRAY after the region: the reference's LayerNorm term of the region's rows array as
    it finds it, of the scale G and of the bias Bs whose one-row casts the region finds in its other two arrays. -/
theorem ln_19 (V : (c : Dev nD) → (b : Ref sig .tc) → Buf (Elt Ideal) ((c : Thread nD τ).loc b)) (c : Dev nD)
    (G Bs : (⟨S64, .f32⟩ : BufTy).Contents (Elt Ideal))
    (hg : V c (Pipeline.arrRef spec19 1) = shapeCast _ G shapeCasts_S64_S1x64)
    (hb : V c (Pipeline.arrRef spec19 2) = shapeCast _ Bs shapeCasts_S64_S1x64) :
    (dat19 (F := Ideal) V c).arrAt 3 cfg19.N =
      (addf (F := Ideal) (mulf (F := Ideal) (mulf (F := Ideal) (subf (F := Ideal) (s := Cert.ReferenceIdeal.S60000x64) (φ := .f32) (V c (Pipeline.arrRef spec19 0)) (broadcastInDim Cert.ReferenceIdeal.S60000x64 ![0, 1] Cert.ReferenceIdeal.Gen.bcast_S60000x1_S60000x64_0_1 (Host.divf (F := Ideal) (broadcastInDim Cert.ReferenceIdeal.S60000x1 ![0] Cert.ReferenceIdeal.Gen.bcast_S60000_S60000x1_0 (Host.reduceAdd (F := Ideal) (s := Cert.ReferenceIdeal.S60000x64) (φ := .f32) (V c (Pipeline.arrRef spec19 0)) (constant (F := Ideal) Cert.ReferenceIdeal.S_ .f32 0x00000000#32) Cert.ReferenceIdeal.Gen.reducesTo_S60000x64_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x42800000#32))))) (broadcastInDim Cert.ReferenceIdeal.S60000x64 ![0, 1] Cert.ReferenceIdeal.Gen.bcast_S60000x1_S60000x64_0_1 (Host.rsqrt (F := Ideal) (addf (F := Ideal) (Host.divf (F := Ideal) (broadcastInDim Cert.ReferenceIdeal.S60000x1 ![0] Cert.ReferenceIdeal.Gen.bcast_S60000_S60000x1_0 (Host.reduceAdd (F := Ideal) (mulf (F := Ideal) (subf (F := Ideal) (s := Cert.ReferenceIdeal.S60000x64) (φ := .f32) (V c (Pipeline.arrRef spec19 0)) (broadcastInDim Cert.ReferenceIdeal.S60000x64 ![0, 1] Cert.ReferenceIdeal.Gen.bcast_S60000x1_S60000x64_0_1 (Host.divf (F := Ideal) (broadcastInDim Cert.ReferenceIdeal.S60000x1 ![0] Cert.ReferenceIdeal.Gen.bcast_S60000_S60000x1_0 (Host.reduceAdd (F := Ideal) (s := Cert.ReferenceIdeal.S60000x64) (φ := .f32) (V c (Pipeline.arrRef spec19 0)) (constant (F := Ideal) Cert.ReferenceIdeal.S_ .f32 0x00000000#32) Cert.ReferenceIdeal.Gen.reducesTo_S60000x64_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x42800000#32))))) (subf (F := Ideal) (s := Cert.ReferenceIdeal.S60000x64) (φ := .f32) (V c (Pipeline.arrRef spec19 0)) (broadcastInDim Cert.ReferenceIdeal.S60000x64 ![0, 1] Cert.ReferenceIdeal.Gen.bcast_S60000x1_S60000x64_0_1 (Host.divf (F := Ideal) (broadcastInDim Cert.ReferenceIdeal.S60000x1 ![0] Cert.ReferenceIdeal.Gen.bcast_S60000_S60000x1_0 (Host.reduceAdd (F := Ideal) (s := Cert.ReferenceIdeal.S60000x64) (φ := .f32) (V c (Pipeline.arrRef spec19 0)) (constant (F := Ideal) Cert.ReferenceIdeal.S_ .f32 0x00000000#32) Cert.ReferenceIdeal.Gen.reducesTo_S60000x64_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x42800000#32)))))) (constant (F := Ideal) Cert.ReferenceIdeal.S_ .f32 0x00000000#32) Cert.ReferenceIdeal.Gen.reducesTo_S60000x64_S60000_d1 Cert.ReferenceIdeal.Gen.h_S_)) (broadcastInDim Cert.ReferenceIdeal.S60000x1 ![] Cert.ReferenceIdeal.Gen.bcast_S_S60000x1 (constant (F := Ideal) Cert.ReferenceIdeal.S_ .f32 0x42800000#32))) (broadcastInDim Cert.ReferenceIdeal.S60000x1 ![] Cert.ReferenceIdeal.Gen.bcast_S_S60000x1 (constant (F := Ideal) Cert.ReferenceIdeal.S_ .f32 0x3727C5AC#32)))))) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 G))) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 Bs))) :=
  (dat19 V c).arrAt_eq_of_cover 3 (refLn_60000x64 (V c (Pipeline.arrRef spec19 0)) G Bs)
    (fun t _ => Reg19.flushed V c G Bs hg hb t) (fun i => Reg19.cover i)

end Cert.KernelIdeal.Hand

end
-- ==== Proof.Ln.Reg20.lean ====
/-
  REGION 20 (LayerNorm of a 20000 × 64 array in 5 blocks of 4000 rows): the region's
  output array after its last write-back is the reference's LayerNorm term of the region's rows array, scale
  and bias.

  Grid point t stages rows 4000 t … 4000 t + 3999 of the rows array (all 64 lanes), the whole one-row scale and
  bias arrays, and writes back the same rows of the output. The body's payload at (p, q) of the block is LayerNorm
  of row p at lane q (Ln/Pay.lean); the reference's term at (4000 t + p, q) is the
  same expression of the same row (Ln/Host.lean), the block's row p being the array's row 4000 t + p and the
  scale's and bias's one-row arrays being the casts of the vectors G and Bs. So point t writes back block t of the
  reference's term, and the blocks tile the array.
-/
import proofs.«147021_j7619271983570_1_alg».proof.Proof.FrameKI_A
import proofs.«147021_j7619271983570_1_alg».proof.Proof.Ln.Pay
import proofs.«147021_j7619271983570_1_alg».proof.Proof.Ln.Host
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

namespace Reg20

/-- The printed index maps, decided over the grid: the rows window and the output window sit at block (t, 0),
    the scale's and the bias's windows at block (0, 0). -/
theorem idx : ∀ t : Fin cfg20.N, win20_0.index t (0 : Fin 2) = t.val ∧ win20_0.index t (1 : Fin 2) = 0
    ∧ win20_1.index t (0 : Fin 2) = 0 ∧ win20_1.index t (1 : Fin 2) = 0
    ∧ win20_2.index t (0 : Fin 2) = 0 ∧ win20_2.index t (1 : Fin 2) = 0
    ∧ win20_3.index t (0 : Fin 2) = t.val ∧ win20_3.index t (1 : Fin 2) = 0 :=
  (by decide +kernel : ∀ t : Fin grid20.N, _)

/-- Row p of block t is row 4000 t + p of the array. -/
abbrev row (t : Fin cfg20.N) (p : Fin 4000) : Fin 20000 :=
  ⟨t.val * 4000 + p.val, by have hN : cfg20.N = 5 := N_20; have := t.isLt; have := p.isLt; omega⟩

section
variable (V : (c : Dev nD) → (b : Ref sig .tc) → Buf (Elt Ideal) ((c : Thread nD τ).loc b)) (c : Dev nD)

/-- A lane of row p of the rows block at point t is that lane of row 4000 t + p of the rows array. -/
theorem rows_apply (t : Fin cfg20.N) (p : Fin 4000) (k : Fin 64) :
    iblk20 V c 0 t (ix2 p k) = V c (Pipeline.arrRef spec20 0) (ix2 (row t p) k) := by
  obtain ⟨e0, e1, -⟩ := idx t
  show V c (Pipeline.arrRef spec20 0) (((cfg20.win 0).blk t).view.emb (ix2 p k)) = _
  refine congrArg (V c (Pipeline.arrRef spec20 0)) (funext fun a => Fin.ext ?_)
  match a with
  | ⟨0, _⟩ => show win20_0.index t (0 : Fin 2) * 4000 + 1 * p.val = t.val * 4000 + p.val; rw [e0]; omega
  | ⟨1, _⟩ => show win20_0.index t (1 : Fin 2) * 64 + 1 * k.val = k.val; rw [e1]; omega

/-- The scale's block at any point is the whole one-row scale array. -/
theorem scale_apply (t : Fin cfg20.N) (q : Fin 64) :
    iblk20 V c 1 t (ix2 (0 : Fin 1) q) = V c (Pipeline.arrRef spec20 1) (ix2 (0 : Fin 1) q) := by
  obtain ⟨-, -, e0, e1, -⟩ := idx t
  show V c (Pipeline.arrRef spec20 1) (((cfg20.win 1).blk t).view.emb (ix2 (0 : Fin 1) q)) = _
  refine congrArg (V c (Pipeline.arrRef spec20 1)) (funext fun a => Fin.ext ?_)
  match a with
  | ⟨0, _⟩ => show win20_1.index t (0 : Fin 2) * 1 + 1 * (0 : Fin 1).val = (0 : Fin 1).val; rw [e0]; simp
  | ⟨1, _⟩ => show win20_1.index t (1 : Fin 2) * 64 + 1 * q.val = q.val; rw [e1]; omega

/-- The bias's block at any point is the whole one-row bias array. -/
theorem bias_apply (t : Fin cfg20.N) (q : Fin 64) :
    iblk20 V c 2 t (ix2 (0 : Fin 1) q) = V c (Pipeline.arrRef spec20 2) (ix2 (0 : Fin 1) q) := by
  obtain ⟨-, -, -, -, e0, e1, -⟩ := idx t
  show V c (Pipeline.arrRef spec20 2) (((cfg20.win 2).blk t).view.emb (ix2 (0 : Fin 1) q)) = _
  refine congrArg (V c (Pipeline.arrRef spec20 2)) (funext fun a => Fin.ext ?_)
  match a with
  | ⟨0, _⟩ => show win20_2.index t (0 : Fin 2) * 1 + 1 * (0 : Fin 1).val = (0 : Fin 1).val; rw [e0]; simp
  | ⟨1, _⟩ => show win20_2.index t (1 : Fin 2) * 64 + 1 * q.val = q.val; rw [e1]; omega

/-- WHAT POINT t WRITES BACK is block t of the reference's term of the rows array, the scale and the bias. -/
theorem flushed (G Bs : (⟨S64, .f32⟩ : BufTy).Contents (Elt Ideal))
    (hg : V c (Pipeline.arrRef spec20 1) = shapeCast _ G shapeCasts_S64_S1x64)
    (hb : V c (Pipeline.arrRef spec20 2) = shapeCast _ Bs shapeCasts_S64_S1x64) (t : Fin cfg20.N) :
    (dat20 (F := Ideal) V c).flushed 3 t
      = ((cfg20.win 3).blk t).view.read (Elt Ideal)
          (refLn_20000x64 (V c (Pipeline.arrRef spec20 0)) G Bs) := by
  show (cfg20.win 3).cut (grid20.coords t) ((dat20 V c).after 3 t) = _
  rw [after20_3]
  unfold out20_3
  rw [View.canon_unit_zero Ln.hz]
  simp only [View.ld_unit_zero (S := S4000x64) Ln.hz, View.ld_unit_zero (S := S1x64) Ln.hz]
  funext j
  obtain ⟨p, q, rfl⟩ : ∃ (p : Fin 4000) (q : Fin 64), j = ix2 p q := ⟨j 0, j 1, eq_ix2 j⟩
  obtain ⟨-, -, -, -, -, -, e0, e1⟩ := idx t
  have hemb : ((cfg20.win 3).blk t).view.emb (ix2 p q) = ix2 (row t p) q := by
    funext a
    apply Fin.ext
    match a with
    | ⟨0, _⟩ => show win20_3.index t (0 : Fin 2) * 4000 + 1 * p.val = t.val * 4000 + p.val; rw [e0]; omega
    | ⟨1, _⟩ => show win20_3.index t (1 : Fin 2) * 64 + 1 * q.val = q.val; rw [e1]; omega
  show k20_pay1 (iblk20 V c 0 t) (iblk20 V c 1 t) (iblk20 V c 2 t) (ix2 p q)
    = refLn_20000x64 (V c (Pipeline.arrRef spec20 0)) G Bs (((cfg20.win 3).blk t).view.emb (ix2 p q))
  rw [hemb]
  refine (k20_pay1_apply (iblk20 V c 0 t) (iblk20 V c 1 t) (iblk20 V c 2 t) p q).trans ?_
  refine ((refLn_20000x64_apply (V c (Pipeline.arrRef spec20 0)) G Bs (row t p) q).trans ?_).symm
  have h0 : (fun k : Fin 64 => V c (Pipeline.arrRef spec20 0) (ix2 (row t p) k))
      = fun k : Fin 64 => iblk20 V c 0 t (ix2 p k) := funext fun k => (rows_apply V c t p k).symm
  have h1 : G (ix1 q) = iblk20 V c 1 t (ix2 (0 : Fin 1) q) :=
    ((scale_apply V c t q).trans ((congrFun hg _).trans (shapeCast_a_1a_apply G _ (0 : Fin 1) q))).symm
  have h2 : Bs (ix1 q) = iblk20 V c 2 t (ix2 (0 : Fin 1) q) :=
    ((bias_apply V c t q).trans ((congrFun hb _).trans (shapeCast_a_1a_apply Bs _ (0 : Fin 1) q))).symm
  rw [h0, h1, h2]

end

/-- An index of the output array is in point t's block iff each coordinate is in the block's range on its axis. -/
theorem mem_blk (t : Fin cfg20.N) (i : S20000x64.Idx) :
    i ∈ ((cfg20.win 3).blk t).view.set ↔ ∀ a : Fin 2, win20_3.index t a * S4000x64.size a ≤ (i a).val
      ∧ (i a).val < win20_3.index t a * S4000x64.size a + S4000x64.size a := by
  show i ∈ ((View.whole main_v797).slice (win20_3.rect t)).set ↔ _
  rw [View.set_slice_whole, Rect.mem_set_unit]
  exact Iff.rfl

/-- THE COVER: row r of the array is in the block of point r / 4000, which writes it back. -/
theorem cover (i : S20000x64.Idx) :
    ∃ t : Fin cfg20.N, (cfg20.win 3).flush t = true ∧ i ∈ ((cfg20.win 3).blk t).view.set := by
  have hN : cfg20.N = 5 := N_20
  have hi0 : (i 0).val < 20000 := (i 0).isLt
  have hi1 : (i 1).val < 64 := (i 1).isLt
  have ht : (i 0).val / 4000 < cfg20.N := by rw [hN]; omega
  obtain ⟨-, -, -, -, -, -, e0, e1⟩ := idx ⟨(i 0).val / 4000, ht⟩
  refine ⟨⟨(i 0).val / 4000, ht⟩, flush20_3 _, ?_⟩
  rw [mem_blk]
  intro a
  match a with
  | ⟨0, _⟩ =>
    show win20_3.index ⟨(i 0).val / 4000, ht⟩ (0 : Fin 2) * 4000 ≤ (i 0).val
      ∧ (i 0).val < win20_3.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win20_3.index ⟨(i 0).val / 4000, ht⟩ (1 : Fin 2) * 64 ≤ (i 1).val
      ∧ (i 1).val < win20_3.index ⟨(i 0).val / 4000, ht⟩ (1 : Fin 2) * 64 + 64
    rw [e1]
    omega

end Reg20

/-- REGION 20's OUTPUT ARRAY after the region: the reference's LayerNorm term of the region's rows array as
    it finds it, of the scale G and of the bias Bs whose one-row casts the region finds in its other two arrays. -/
theorem ln_20 (V : (c : Dev nD) → (b : Ref sig .tc) → Buf (Elt Ideal) ((c : Thread nD τ).loc b)) (c : Dev nD)
    (G Bs : (⟨S64, .f32⟩ : BufTy).Contents (Elt Ideal))
    (hg : V c (Pipeline.arrRef spec20 1) = shapeCast _ G shapeCasts_S64_S1x64)
    (hb : V c (Pipeline.arrRef spec20 2) = shapeCast _ Bs shapeCasts_S64_S1x64) :
    (dat20 (F := Ideal) V c).arrAt 3 cfg20.N =
      (addf (F := Ideal) (mulf (F := Ideal) (mulf (F := Ideal) (subf (F := Ideal) (s := Cert.ReferenceIdeal.S20000x64) (φ := .f32) (V c (Pipeline.arrRef spec20 0)) (broadcastInDim Cert.ReferenceIdeal.S20000x64 ![0, 1] Cert.ReferenceIdeal.Gen.bcast_S20000x1_S20000x64_0_1 (Host.divf (F := Ideal) (broadcastInDim Cert.ReferenceIdeal.S20000x1 ![0] Cert.ReferenceIdeal.Gen.bcast_S20000_S20000x1_0 (Host.reduceAdd (F := Ideal) (s := Cert.ReferenceIdeal.S20000x64) (φ := .f32) (V c (Pipeline.arrRef spec20 0)) (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32))))) (broadcastInDim Cert.ReferenceIdeal.S20000x64 ![0, 1] Cert.ReferenceIdeal.Gen.bcast_S20000x1_S20000x64_0_1 (Host.rsqrt (F := Ideal) (addf (F := Ideal) (Host.divf (F := Ideal) (broadcastInDim Cert.ReferenceIdeal.S20000x1 ![0] Cert.ReferenceIdeal.Gen.bcast_S20000_S20000x1_0 (Host.reduceAdd (F := Ideal) (mulf (F := Ideal) (subf (F := Ideal) (s := Cert.ReferenceIdeal.S20000x64) (φ := .f32) (V c (Pipeline.arrRef spec20 0)) (broadcastInDim Cert.ReferenceIdeal.S20000x64 ![0, 1] Cert.ReferenceIdeal.Gen.bcast_S20000x1_S20000x64_0_1 (Host.divf (F := Ideal) (broadcastInDim Cert.ReferenceIdeal.S20000x1 ![0] Cert.ReferenceIdeal.Gen.bcast_S20000_S20000x1_0 (Host.reduceAdd (F := Ideal) (s := Cert.ReferenceIdeal.S20000x64) (φ := .f32) (V c (Pipeline.arrRef spec20 0)) (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32))))) (subf (F := Ideal) (s := Cert.ReferenceIdeal.S20000x64) (φ := .f32) (V c (Pipeline.arrRef spec20 0)) (broadcastInDim Cert.ReferenceIdeal.S20000x64 ![0, 1] Cert.ReferenceIdeal.Gen.bcast_S20000x1_S20000x64_0_1 (Host.divf (F := Ideal) (broadcastInDim Cert.ReferenceIdeal.S20000x1 ![0] Cert.ReferenceIdeal.Gen.bcast_S20000_S20000x1_0 (Host.reduceAdd (F := Ideal) (s := Cert.ReferenceIdeal.S20000x64) (φ := .f32) (V c (Pipeline.arrRef spec20 0)) (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32)))))) (constant (F := Ideal) Cert.ReferenceIdeal.S_ .f32 0x00000000#32) Cert.ReferenceIdeal.Gen.reducesTo_S20000x64_S20000_d1 Cert.ReferenceIdeal.Gen.h_S_)) (broadcastInDim Cert.ReferenceIdeal.S20000x1 ![] Cert.ReferenceIdeal.Gen.bcast_S_S20000x1 (constant (F := Ideal) Cert.ReferenceIdeal.S_ .f32 0x42800000#32))) (broadcastInDim Cert.ReferenceIdeal.S20000x1 ![] Cert.ReferenceIdeal.Gen.bcast_S_S20000x1 (constant (F := Ideal) Cert.ReferenceIdeal.S_ .f32 0x3727C5AC#32)))))) (broadcastInDim Cert.ReferenceIdeal.S20000x64 ![0, 1] Cert.ReferenceIdeal.Gen.bcast_S1x64_S20000x64_0_1 (broadcastInDim Cert.ReferenceIdeal.S1x64 ![1] Cert.ReferenceIdeal.Gen.bcast_S64_S1x64_1 G))) (broadcastInDim Cert.ReferenceIdeal.S20000x64 ![0, 1] Cert.ReferenceIdeal.Gen.bcast_S1x64_S20000x64_0_1 (broadcastInDim Cert.ReferenceIdeal.S1x64 ![1] Cert.ReferenceIdeal.Gen.bcast_S64_S1x64_1 Bs))) :=
  (dat20 V c).arrAt_eq_of_cover 3 (refLn_20000x64 (V c (Pipeline.arrRef spec20 0)) G Bs)
    (fun t _ => Reg20.flushed V c G Bs hg hb t) (fun i => Reg20.cover i)

end Cert.KernelIdeal.Hand

end
-- ==== Proof.AgreeAll.lean ====
import proofs.«147021_j7619271983570_1_alg».proof.Proof.Ref.Stable
import proofs.«147021_j7619271983570_1_alg».proof.Proof.KFold.Args
import Idealize.ShloMosaic.PureOps.Ideal
import proofs.«147021_j7619271983570_1_alg».proof.Proof.Host.Grp0
import proofs.«147021_j7619271983570_1_alg».proof.Proof.Host.Grp1
import proofs.«147021_j7619271983570_1_alg».proof.Proof.Host.Grp2
import proofs.«147021_j7619271983570_1_alg».proof.Proof.Host.Grp3
import proofs.«147021_j7619271983570_1_alg».proof.Proof.Host.Grp4
import proofs.«147021_j7619271983570_1_alg».proof.Proof.Host.Grp5
import proofs.«147021_j7619271983570_1_alg».proof.Proof.Host.Grp6
import proofs.«147021_j7619271983570_1_alg».proof.Proof.Host.Grp7
import proofs.«147021_j7619271983570_1_alg».proof.Proof.Host.Grp8
import proofs.«147021_j7619271983570_1_alg».proof.Proof.Host.Grp9
import proofs.«147021_j7619271983570_1_alg».proof.Proof.Host.Grp10
import proofs.«147021_j7619271983570_1_alg».proof.Proof.Host.Grp11
import proofs.«147021_j7619271983570_1_alg».proof.Proof.Host.RefReg
import proofs.«147021_j7619271983570_1_alg».proof.Proof.KFold.Carry
import proofs.«147021_j7619271983570_1_alg».proof.Proof.KFold.Out
import proofs.«147021_j7619271983570_1_alg».proof.Proof.Lin.Reg0
import proofs.«147021_j7619271983570_1_alg».proof.Proof.Lin.Reg1
import proofs.«147021_j7619271983570_1_alg».proof.Proof.Lin.Reg2
import proofs.«147021_j7619271983570_1_alg».proof.Proof.Lin.Reg3
import proofs.«147021_j7619271983570_1_alg».proof.Proof.Lin.Reg4
import proofs.«147021_j7619271983570_1_alg».proof.Proof.Lin.Reg5
import proofs.«147021_j7619271983570_1_alg».proof.Proof.Lin.Reg6
import proofs.«147021_j7619271983570_1_alg».proof.Proof.Lin.Reg7
import proofs.«147021_j7619271983570_1_alg».proof.Proof.Lin.Reg8
import proofs.«147021_j7619271983570_1_alg».proof.Proof.Ln.Reg9
import proofs.«147021_j7619271983570_1_alg».proof.Proof.Ln.Reg10
import proofs.«147021_j7619271983570_1_alg».proof.Proof.Ln.Reg11
import proofs.«147021_j7619271983570_1_alg».proof.Proof.Host.Grp12
import proofs.«147021_j7619271983570_1_alg».proof.Proof.Host.Grp13
import proofs.«147021_j7619271983570_1_alg».proof.Proof.Host.Grp14
import proofs.«147021_j7619271983570_1_alg».proof.Proof.Host.Grp15
import proofs.«147021_j7619271983570_1_alg».proof.Proof.Host.Grp16
import proofs.«147021_j7619271983570_1_alg».proof.Proof.Host.Grp17
import proofs.«147021_j7619271983570_1_alg».proof.Proof.Host.Grp18
import proofs.«147021_j7619271983570_1_alg».proof.Proof.Host.Grp19
import proofs.«147021_j7619271983570_1_alg».proof.Proof.Host.Grp20
import proofs.«147021_j7619271983570_1_alg».proof.Proof.Lin.Reg12
import proofs.«147021_j7619271983570_1_alg».proof.Proof.Lin.Reg13
import proofs.«147021_j7619271983570_1_alg».proof.Proof.Lin.Reg14
import proofs.«147021_j7619271983570_1_alg».proof.Proof.Lin.Reg15
import proofs.«147021_j7619271983570_1_alg».proof.Proof.Lin.Reg16
import proofs.«147021_j7619271983570_1_alg».proof.Proof.Lin.Reg17
import proofs.«147021_j7619271983570_1_alg».proof.Proof.Ln.Reg18
import proofs.«147021_j7619271983570_1_alg».proof.Proof.Ln.Reg19
import proofs.«147021_j7619271983570_1_alg».proof.Proof.Ln.Reg20

/-! The two programs' buffers agree, boundary by boundary, down to the three results. Along the kernel program's
    fold of buffer contents each buffer that a later step reads is shown equal to the buffer of the reference program
    that plays the same role, read in the reference's final contents. All the facts are local to one proof. -/

set_option maxHeartbeats 8000000
set_option maxRecDepth 65536
set_option pp.maxSteps 5000
set_option pp.deepTerms false

noncomputable section

namespace Cert.Bisim

open Idealize.ShloMosaic Idealize.ShloMosaic.TcCoe Idealize.SL.Sem Idealize.ShloMosaic.StableHlo

/-- The kernel program's launch memory and the reference program's. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The two launch memories agree on the 23 arguments (the conjunction the claim states, in its order). -/
abbrev Agree (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)

theorem core (m : KMem) (g : Dev Cert.KernelIdeal.nD → PrngReg) (m' : RMem) (c : Dev Cert.KernelIdeal.nD) (hag : Agree m m' c) :
    (((Cert.KernelIdeal.Gen.W90 m g c) (Proc.devRef .tc Cert.KernelIdeal.main_v783) : (⟨Cert.KernelIdeal.S20000x64, .f32⟩ : BufTy).Contents (Elt Ideal)) = (Cert.ReferenceIdeal.Hand.BF m' c) (Proc.devRef .tc Cert.ReferenceIdeal.main_v852))
    ∧ (((Cert.KernelIdeal.Gen.W90 m g c) (Proc.devRef .tc Cert.KernelIdeal.main_v790) : (⟨Cert.KernelIdeal.S60000x64, .f32⟩ : BufTy).Contents (Elt Ideal)) = (Cert.ReferenceIdeal.Hand.BF m' c) (Proc.devRef .tc Cert.ReferenceIdeal.main_v880))
    ∧ (((Cert.KernelIdeal.Gen.W90 m g c) (Proc.devRef .tc Cert.KernelIdeal.main_v797) : (⟨Cert.KernelIdeal.S20000x64, .f32⟩ : BufTy).Contents (Elt Ideal)) = (Cert.ReferenceIdeal.Hand.BF m' c) (Proc.devRef .tc Cert.ReferenceIdeal.main_v908)) := by
  have bridge :
      ((m ((c.tc : Thread Cert.KernelIdeal.nD Cert.KernelIdeal.τ).loc Cert.KernelIdeal.main_arg0) : (⟨Cert.KernelIdeal.S20000x128, .f32⟩ : BufTy).Contents (Elt Ideal)) = m' ((c.tc : Thread Cert.ReferenceIdeal.nD Cert.ReferenceIdeal.τ).loc Cert.ReferenceIdeal.main_arg0))
      ∧ ((m ((c.tc : Thread Cert.KernelIdeal.nD Cert.KernelIdeal.τ).loc Cert.KernelIdeal.main_arg1) : (⟨Cert.KernelIdeal.S60000x128, .f32⟩ : BufTy).Contents (Elt Ideal)) = m' ((c.tc : Thread Cert.ReferenceIdeal.nD Cert.ReferenceIdeal.τ).loc Cert.ReferenceIdeal.main_arg1))
      ∧ ((m ((c.tc : Thread Cert.KernelIdeal.nD Cert.KernelIdeal.τ).loc Cert.KernelIdeal.main_arg2) : (⟨Cert.KernelIdeal.S20000x128, .f32⟩ : BufTy).Contents (Elt Ideal)) = m' ((c.tc : Thread Cert.ReferenceIdeal.nD Cert.ReferenceIdeal.τ).loc Cert.ReferenceIdeal.main_arg2))
      ∧ ((m ((c.tc : Thread Cert.KernelIdeal.nD Cert.KernelIdeal.τ).loc Cert.KernelIdeal.main_arg3) : (⟨Cert.KernelIdeal.S128x128, .f32⟩ : BufTy).Contents (Elt Ideal)) = m' ((c.tc : Thread Cert.ReferenceIdeal.nD Cert.ReferenceIdeal.τ).loc Cert.ReferenceIdeal.main_arg3))
      ∧ ((m ((c.tc : Thread Cert.KernelIdeal.nD Cert.KernelIdeal.τ).loc Cert.KernelIdeal.main_arg4) : (⟨Cert.KernelIdeal.S128, .f32⟩ : BufTy).Contents (Elt Ideal)) = m' ((c.tc : Thread Cert.ReferenceIdeal.nD Cert.ReferenceIdeal.τ).loc Cert.ReferenceIdeal.main_arg4))
      ∧ ((m ((c.tc : Thread Cert.KernelIdeal.nD Cert.KernelIdeal.τ).loc Cert.KernelIdeal.main_arg5) : (⟨Cert.KernelIdeal.S128x128, .f32⟩ : BufTy).Contents (Elt Ideal)) = m' ((c.tc : Thread Cert.ReferenceIdeal.nD Cert.ReferenceIdeal.τ).loc Cert.ReferenceIdeal.main_arg5))
      ∧ ((m ((c.tc : Thread Cert.KernelIdeal.nD Cert.KernelIdeal.τ).loc Cert.KernelIdeal.main_arg6) : (⟨Cert.KernelIdeal.S128, .f32⟩ : BufTy).Contents (Elt Ideal)) = m' ((c.tc : Thread Cert.ReferenceIdeal.nD Cert.ReferenceIdeal.τ).loc Cert.ReferenceIdeal.main_arg6))
      ∧ ((m ((c.tc : Thread Cert.KernelIdeal.nD Cert.KernelIdeal.τ).loc Cert.KernelIdeal.main_arg7) : (⟨Cert.KernelIdeal.S128x128, .f32⟩ : BufTy).Contents (Elt Ideal)) = m' ((c.tc : Thread Cert.ReferenceIdeal.nD Cert.ReferenceIdeal.τ).loc Cert.ReferenceIdeal.main_arg7))
      ∧ ((m ((c.tc : Thread Cert.KernelIdeal.nD Cert.KernelIdeal.τ).loc Cert.KernelIdeal.main_arg8) : (⟨Cert.KernelIdeal.S128, .f32⟩ : BufTy).Contents (Elt Ideal)) = m' ((c.tc : Thread Cert.ReferenceIdeal.nD Cert.ReferenceIdeal.τ).loc Cert.ReferenceIdeal.main_arg8))
      ∧ ((m ((c.tc : Thread Cert.KernelIdeal.nD Cert.KernelIdeal.τ).loc Cert.KernelIdeal.main_arg9) : (⟨Cert.KernelIdeal.S6x128x128, .f32⟩ : BufTy).Contents (Elt Ideal)) = m' ((c.tc : Thread Cert.ReferenceIdeal.nD Cert.ReferenceIdeal.τ).loc Cert.ReferenceIdeal.main_arg9))
      ∧ ((m ((c.tc : Thread Cert.KernelIdeal.nD Cert.KernelIdeal.τ).loc Cert.KernelIdeal.main_arg10) : (⟨Cert.KernelIdeal.S6x128, .f32⟩ : BufTy).Contents (Elt Ideal)) = m' ((c.tc : Thread Cert.ReferenceIdeal.nD Cert.ReferenceIdeal.τ).loc Cert.ReferenceIdeal.main_arg10))
      ∧ ((m ((c.tc : Thread Cert.KernelIdeal.nD Cert.KernelIdeal.τ).loc Cert.KernelIdeal.main_arg11) : (⟨Cert.KernelIdeal.S6x128x64, .f32⟩ : BufTy).Contents (Elt Ideal)) = m' ((c.tc : Thread Cert.ReferenceIdeal.nD Cert.ReferenceIdeal.τ).loc Cert.ReferenceIdeal.main_arg11))
      ∧ ((m ((c.tc : Thread Cert.KernelIdeal.nD Cert.KernelIdeal.τ).loc Cert.KernelIdeal.main_arg12) : (⟨Cert.KernelIdeal.S6x64, .f32⟩ : BufTy).Contents (Elt Ideal)) = m' ((c.tc : Thread Cert.ReferenceIdeal.nD Cert.ReferenceIdeal.τ).loc Cert.ReferenceIdeal.main_arg12))
      ∧ ((m ((c.tc : Thread Cert.KernelIdeal.nD Cert.KernelIdeal.τ).loc Cert.KernelIdeal.main_arg13) : (⟨Cert.KernelIdeal.S3x128, .f32⟩ : BufTy).Contents (Elt Ideal)) = m' ((c.tc : Thread Cert.ReferenceIdeal.nD Cert.ReferenceIdeal.τ).loc Cert.ReferenceIdeal.main_arg13))
      ∧ ((m ((c.tc : Thread Cert.KernelIdeal.nD Cert.KernelIdeal.τ).loc Cert.KernelIdeal.main_arg14) : (⟨Cert.KernelIdeal.S3x128, .f32⟩ : BufTy).Contents (Elt Ideal)) = m' ((c.tc : Thread Cert.ReferenceIdeal.nD Cert.ReferenceIdeal.τ).loc Cert.ReferenceIdeal.main_arg14))
      ∧ ((m ((c.tc : Thread Cert.KernelIdeal.nD Cert.KernelIdeal.τ).loc Cert.KernelIdeal.main_arg15) : (⟨Cert.KernelIdeal.S3x64, .f32⟩ : BufTy).Contents (Elt Ideal)) = m' ((c.tc : Thread Cert.ReferenceIdeal.nD Cert.ReferenceIdeal.τ).loc Cert.ReferenceIdeal.main_arg15))
      ∧ ((m ((c.tc : Thread Cert.KernelIdeal.nD Cert.KernelIdeal.τ).loc Cert.KernelIdeal.main_arg16) : (⟨Cert.KernelIdeal.S3x64, .f32⟩ : BufTy).Contents (Elt Ideal)) = m' ((c.tc : Thread Cert.ReferenceIdeal.nD Cert.ReferenceIdeal.τ).loc Cert.ReferenceIdeal.main_arg16))
      ∧ ((m ((c.tc : Thread Cert.KernelIdeal.nD Cert.KernelIdeal.τ).loc Cert.KernelIdeal.main_arg17) : (⟨Cert.KernelIdeal.S2x500000, .i32⟩ : BufTy).Contents (Elt Ideal)) = m' ((c.tc : Thread Cert.ReferenceIdeal.nD Cert.ReferenceIdeal.τ).loc Cert.ReferenceIdeal.main_arg17))
      ∧ ((m ((c.tc : Thread Cert.KernelIdeal.nD Cert.KernelIdeal.τ).loc Cert.KernelIdeal.main_arg18) : (⟨Cert.KernelIdeal.S2x500000, .i32⟩ : BufTy).Contents (Elt Ideal)) = m' ((c.tc : Thread Cert.ReferenceIdeal.nD Cert.ReferenceIdeal.τ).loc Cert.ReferenceIdeal.main_arg18))
      ∧ ((m ((c.tc : Thread Cert.KernelIdeal.nD Cert.KernelIdeal.τ).loc Cert.KernelIdeal.main_arg19) : (⟨Cert.KernelIdeal.S2x500000, .i32⟩ : BufTy).Contents (Elt Ideal)) = m' ((c.tc : Thread Cert.ReferenceIdeal.nD Cert.ReferenceIdeal.τ).loc Cert.ReferenceIdeal.main_arg19))
      ∧ ((m ((c.tc : Thread Cert.KernelIdeal.nD Cert.KernelIdeal.τ).loc Cert.KernelIdeal.main_arg20) : (⟨Cert.KernelIdeal.S2x500000, .i32⟩ : BufTy).Contents (Elt Ideal)) = m' ((c.tc : Thread Cert.ReferenceIdeal.nD Cert.ReferenceIdeal.τ).loc Cert.ReferenceIdeal.main_arg20))
      ∧ ((m ((c.tc : Thread Cert.KernelIdeal.nD Cert.KernelIdeal.τ).loc Cert.KernelIdeal.main_arg21) : (⟨Cert.KernelIdeal.S2x500000, .i32⟩ : BufTy).Contents (Elt Ideal)) = m' ((c.tc : Thread Cert.ReferenceIdeal.nD Cert.ReferenceIdeal.τ).loc Cert.ReferenceIdeal.main_arg21))
      ∧ ((m ((c.tc : Thread Cert.KernelIdeal.nD Cert.KernelIdeal.τ).loc Cert.KernelIdeal.main_arg22) : (⟨Cert.KernelIdeal.S2x500000, .i32⟩ : BufTy).Contents (Elt Ideal)) = m' ((c.tc : Thread Cert.ReferenceIdeal.nD Cert.ReferenceIdeal.τ).loc Cert.ReferenceIdeal.main_arg22)) :=
      ⟨(@Eq.symm ((⟨Cert.KernelIdeal.S20000x128, .f32⟩ : BufTy).Contents (Elt Ideal)) _ _ (hag.1)),
       (@Eq.symm ((⟨Cert.KernelIdeal.S60000x128, .f32⟩ : BufTy).Contents (Elt Ideal)) _ _ (hag.2.1)),
       (@Eq.symm ((⟨Cert.KernelIdeal.S20000x128, .f32⟩ : BufTy).Contents (Elt Ideal)) _ _ (hag.2.2.1)),
       (@Eq.symm ((⟨Cert.KernelIdeal.S128x128, .f32⟩ : BufTy).Contents (Elt Ideal)) _ _ (hag.2.2.2.1)),
       (@Eq.symm ((⟨Cert.KernelIdeal.S128, .f32⟩ : BufTy).Contents (Elt Ideal)) _ _ (hag.2.2.2.2.1)),
       (@Eq.symm ((⟨Cert.KernelIdeal.S128x128, .f32⟩ : BufTy).Contents (Elt Ideal)) _ _ (hag.2.2.2.2.2.1)),
       (@Eq.symm ((⟨Cert.KernelIdeal.S128, .f32⟩ : BufTy).Contents (Elt Ideal)) _ _ (hag.2.2.2.2.2.2.1)),
       (@Eq.symm ((⟨Cert.KernelIdeal.S128x128, .f32⟩ : BufTy).Contents (Elt Ideal)) _ _ (hag.2.2.2.2.2.2.2.1)),
       (@Eq.symm ((⟨Cert.KernelIdeal.S128, .f32⟩ : BufTy).Contents (Elt Ideal)) _ _ (hag.2.2.2.2.2.2.2.2.1)),
       (@Eq.symm ((⟨Cert.KernelIdeal.S6x128x128, .f32⟩ : BufTy).Contents (Elt Ideal)) _ _ (hag.2.2.2.2.2.2.2.2.2.1)),
       (@Eq.symm ((⟨Cert.KernelIdeal.S6x128, .f32⟩ : BufTy).Contents (Elt Ideal)) _ _ (hag.2.2.2.2.2.2.2.2.2.2.1)),
       (@Eq.symm ((⟨Cert.KernelIdeal.S6x128x64, .f32⟩ : BufTy).Contents (Elt Ideal)) _ _ (hag.2.2.2.2.2.2.2.2.2.2.2.1)),
       (@Eq.symm ((⟨Cert.KernelIdeal.S6x64, .f32⟩ : BufTy).Contents (Elt Ideal)) _ _ (hag.2.2.2.2.2.2.2.2.2.2.2.2.1)),
       (@Eq.symm ((⟨Cert.KernelIdeal.S3x128, .f32⟩ : BufTy).Contents (Elt Ideal)) _ _ (hag.2.2.2.2.2.2.2.2.2.2.2.2.2.1)),
       (@Eq.symm ((⟨Cert.KernelIdeal.S3x128, .f32⟩ : BufTy).Contents (Elt Ideal)) _ _ (hag.2.2.2.2.2.2.2.2.2.2.2.2.2.2.1)),
       (@Eq.symm ((⟨Cert.KernelIdeal.S3x64, .f32⟩ : BufTy).Contents (Elt Ideal)) _ _ (hag.2.2.2.2.2.2.2.2.2.2.2.2.2.2.2.1)),
       (@Eq.symm ((⟨Cert.KernelIdeal.S3x64, .f32⟩ : BufTy).Contents (Elt Ideal)) _ _ (hag.2.2.2.2.2.2.2.2.2.2.2.2.2.2.2.2.1)),
       (@Eq.symm ((⟨Cert.KernelIdeal.S2x500000, .i32⟩ : BufTy).Contents (Elt Ideal)) _ _ (hag.2.2.2.2.2.2.2.2.2.2.2.2.2.2.2.2.2.1)),
       (@Eq.symm ((⟨Cert.KernelIdeal.S2x500000, .i32⟩ : BufTy).Contents (Elt Ideal)) _ _ (hag.2.2.2.2.2.2.2.2.2.2.2.2.2.2.2.2.2.2.1)),
       (@Eq.symm ((⟨Cert.KernelIdeal.S2x500000, .i32⟩ : BufTy).Contents (Elt Ideal)) _ _ (hag.2.2.2.2.2.2.2.2.2.2.2.2.2.2.2.2.2.2.2.1)),
       (@Eq.symm ((⟨Cert.KernelIdeal.S2x500000, .i32⟩ : BufTy).Contents (Elt Ideal)) _ _ (hag.2.2.2.2.2.2.2.2.2.2.2.2.2.2.2.2.2.2.2.2.1)),
       (@Eq.symm ((⟨Cert.KernelIdeal.S2x500000, .i32⟩ : BufTy).Contents (Elt Ideal)) _ _ (hag.2.2.2.2.2.2.2.2.2.2.2.2.2.2.2.2.2.2.2.2.2.1)),
       (@Eq.symm ((⟨Cert.KernelIdeal.S2x500000, .i32⟩ : BufTy).Contents (Elt Ideal)) _ _ (hag.2.2.2.2.2.2.2.2.2.2.2.2.2.2.2.2.2.2.2.2.2.2))⟩
  have aw0_B0_4 :
      ((Cert.KernelIdeal.Gen.W0 m g c) (Proc.devRef .tc Cert.KernelIdeal.main_arg4) : (⟨Cert.KernelIdeal.S128, .f32⟩ : BufTy).Contents (Elt Ideal)) = (Cert.ReferenceIdeal.Hand.B0 m' c) (Proc.devRef .tc Cert.ReferenceIdeal.main_arg4) :=
      (@Eq.trans ((⟨Cert.KernelIdeal.S128, .f32⟩ : BufTy).Contents (Elt Ideal)) _ _ _ (Cert.KernelIdeal.Hand.W0_arg4 m g c) (@Eq.trans ((⟨Cert.KernelIdeal.S128, .f32⟩ : BufTy).Contents (Elt Ideal)) _ _ _ (bridge.2.2.2.2.1) (@rfl ((⟨Cert.KernelIdeal.S128, .f32⟩ : BufTy).Contents (Elt Ideal)) _)))
  have aw1_B0_0 :
      ((Cert.KernelIdeal.Gen.W1 m g c) (Proc.devRef .tc Cert.KernelIdeal.main_arg0) : (⟨Cert.KernelIdeal.S20000x128, .f32⟩ : BufTy).Contents (Elt Ideal)) = (Cert.ReferenceIdeal.Hand.B0 m' c) (Proc.devRef .tc Cert.ReferenceIdeal.main_arg0) :=
      (@Eq.trans ((⟨Cert.KernelIdeal.S20000x128, .f32⟩ : BufTy).Contents (Elt Ideal)) _ _ _ (Cert.KernelIdeal.Hand.W1_arg0 m g c) (@Eq.trans ((⟨Cert.KernelIdeal.S20000x128, .f32⟩ : BufTy).Contents (Elt Ideal)) _ _ _ (bridge.1) (@rfl ((⟨Cert.KernelIdeal.S20000x128, .f32⟩ : BufTy).Contents (Elt Ideal)) _)))
  have aw1_B0_3 :
      ((Cert.KernelIdeal.Gen.W1 m g c) (Proc.devRef .tc Cert.KernelIdeal.main_arg3) : (⟨Cert.KernelIdeal.S128x128, .f32⟩ : BufTy).Contents (Elt Ideal)) = (Cert.ReferenceIdeal.Hand.B0 m' c) (Proc.devRef .tc Cert.ReferenceIdeal.main_arg3) :=
      (@Eq.trans ((⟨Cert.KernelIdeal.S128x128, .f32⟩ : BufTy).Contents (Elt Ideal)) _ _ _ (Cert.KernelIdeal.Hand.W1_arg3 m g c) (@Eq.trans ((⟨Cert.KernelIdeal.S128x128, .f32⟩ : BufTy).Contents (Elt Ideal)) _ _ _ (bridge.2.2.2.1) (@rfl ((⟨Cert.KernelIdeal.S128x128, .f32⟩ : BufTy).Contents (Elt Ideal)) _)))
  have aw2_P0_6 :
      ((Cert.KernelIdeal.Gen.W2 m g c) (Proc.devRef .tc Cert.KernelIdeal.main_arg6) : (⟨Cert.KernelIdeal.S128, .f32⟩ : BufTy).Contents (Elt Ideal)) = (Cert.ReferenceIdeal.Hand.B_P0 m' c) (Proc.devRef .tc Cert.ReferenceIdeal.main_arg6) :=
      (@Eq.trans ((⟨Cert.KernelIdeal.S128, .f32⟩ : BufTy).Contents (Elt Ideal)) _ _ _ (Cert.KernelIdeal.Hand.W2_arg6 m g c) (@Eq.trans ((⟨Cert.KernelIdeal.S128, .f32⟩ : BufTy).Contents (Elt Ideal)) _ _ _ (bridge.2.2.2.2.2.2.1) (@Eq.symm ((⟨Cert.KernelIdeal.S128, .f32⟩ : BufTy).Contents (Elt Ideal)) _ _ (@Eq.trans ((⟨Cert.KernelIdeal.S128, .f32⟩ : BufTy).Contents (Elt Ideal)) _ _ _ (@Eq.symm ((⟨Cert.KernelIdeal.S128, .f32⟩ : BufTy).Contents (Elt Ideal)) _ _ (Cert.ReferenceIdeal.Hand.stable_P0 m' c Cert.ReferenceIdeal.main_arg6 (by decide))) (Cert.ReferenceIdeal.Hand.stable_B0 m' c Cert.ReferenceIdeal.main_arg6 (by decide))))))
  have aw3_P0_1 :
      ((Cert.KernelIdeal.Gen.W3 m g c) (Proc.devRef .tc Cert.KernelIdeal.main_arg1) : (⟨Cert.KernelIdeal.S60000x128, .f32⟩ : BufTy).Contents (Elt Ideal)) = (Cert.ReferenceIdeal.Hand.B_P0 m' c) (Proc.devRef .tc Cert.ReferenceIdeal.main_arg1) :=
      (@Eq.trans ((⟨Cert.KernelIdeal.S60000x128, .f32⟩ : BufTy).Contents (Elt Ideal)) _ _ _ (Cert.KernelIdeal.Hand.W3_arg1 m g c) (@Eq.trans ((⟨Cert.KernelIdeal.S60000x128, .f32⟩ : BufTy).Contents (Elt Ideal)) _ _ _ (bridge.2.1) (@Eq.symm ((⟨Cert.KernelIdeal.S60000x128, .f32⟩ : BufTy).Contents (Elt Ideal)) _ _ (@Eq.trans ((⟨Cert.KernelIdeal.S60000x128, .f32⟩ : BufTy).Contents (Elt Ideal)) _ _ _ (@Eq.symm ((⟨Cert.KernelIdeal.S60000x128, .f32⟩ : BufTy).Contents (Elt Ideal)) _ _ (Cert.ReferenceIdeal.Hand.stable_P0 m' c Cert.ReferenceIdeal.main_arg1 (by decide))) (Cert.ReferenceIdeal.Hand.stable_B0 m' c Cert.ReferenceIdeal.main_arg1 (by decide))))))
  have aw3_P0_5 :
      ((Cert.KernelIdeal.Gen.W3 m g c) (Proc.devRef .tc Cert.KernelIdeal.main_arg5) : (⟨Cert.KernelIdeal.S128x128, .f32⟩ : BufTy).Contents (Elt Ideal)) = (Cert.ReferenceIdeal.Hand.B_P0 m' c) (Proc.devRef .tc Cert.ReferenceIdeal.main_arg5) :=
      (@Eq.trans ((⟨Cert.KernelIdeal.S128x128, .f32⟩ : BufTy).Contents (Elt Ideal)) _ _ _ (Cert.KernelIdeal.Hand.W3_arg5 m g c) (@Eq.trans ((⟨Cert.KernelIdeal.S128x128, .f32⟩ : BufTy).Contents (Elt Ideal)) _ _ _ (bridge.2.2.2.2.2.1) (@Eq.symm ((⟨Cert.KernelIdeal.S128x128, .f32⟩ : BufTy).Contents (Elt Ideal)) _ _ (@Eq.trans ((⟨Cert.KernelIdeal.S128x128, .f32⟩ : BufTy).Contents (Elt Ideal)) _ _ _ (@Eq.symm ((⟨Cert.KernelIdeal.S128x128, .f32⟩ : BufTy).Contents (Elt Ideal)) _ _ (Cert.ReferenceIdeal.Hand.stable_P0 m' c Cert.ReferenceIdeal.main_arg5 (by decide))) (Cert.ReferenceIdeal.Hand.stable_B0 m' c Cert.ReferenceIdeal.main_arg5 (by decide))))))
  have aw4_P1_8 :
      ((Cert.KernelIdeal.Gen.W4 m g c) (Proc.devRef .tc Cert.KernelIdeal.main_arg8) : (⟨Cert.KernelIdeal.S128, .f32⟩ : BufTy).Contents (Elt Ideal)) = (Cert.ReferenceIdeal.Hand.B_P1 m' c) (Proc.devRef .tc Cert.ReferenceIdeal.main_arg8) :=
      (@Eq.trans ((⟨Cert.KernelIdeal.S128, .f32⟩ : BufTy).Contents (Elt Ideal)) _ _ _ (Cert.KernelIdeal.Hand.W4_arg8 m g c) (@Eq.trans ((⟨Cert.KernelIdeal.S128, .f32⟩ : BufTy).Contents (Elt Ideal)) _ _ _ (bridge.2.2.2.2.2.2.2.2.1) (@Eq.symm ((⟨Cert.KernelIdeal.S128, .f32⟩ : BufTy).Contents (Elt Ideal)) _ _ (@Eq.trans ((⟨Cert.KernelIdeal.S128, .f32⟩ : BufTy).Contents (Elt Ideal)) _ _ _ (@Eq.symm ((⟨Cert.KernelIdeal.S128, .f32⟩ : BufTy).Contents (Elt Ideal)) _ _ (Cert.ReferenceIdeal.Hand.stable_P1 m' c Cert.ReferenceIdeal.main_arg8 (by decide))) (Cert.ReferenceIdeal.Hand.stable_B0 m' c Cert.ReferenceIdeal.main_arg8 (by decide))))))
  have aw5_P1_2 :
      ((Cert.KernelIdeal.Gen.W5 m g c) (Proc.devRef .tc Cert.KernelIdeal.main_arg2) : (⟨Cert.KernelIdeal.S20000x128, .f32⟩ : BufTy).Contents (Elt Ideal)) = (Cert.ReferenceIdeal.Hand.B_P1 m' c) (Proc.devRef .tc Cert.ReferenceIdeal.main_arg2) :=
      (@Eq.trans ((⟨Cert.KernelIdeal.S20000x128, .f32⟩ : BufTy).Contents (Elt Ideal)) _ _ _ (Cert.KernelIdeal.Hand.W5_arg2 m g c) (@Eq.trans ((⟨Cert.KernelIdeal.S20000x128, .f32⟩ : BufTy).Contents (Elt Ideal)) _ _ _ (bridge.2.2.1) (@Eq.symm ((⟨Cert.KernelIdeal.S20000x128, .f32⟩ : BufTy).Contents (Elt Ideal)) _ _ (@Eq.trans ((⟨Cert.KernelIdeal.S20000x128, .f32⟩ : BufTy).Contents (Elt Ideal)) _ _ _ (@Eq.symm ((⟨Cert.KernelIdeal.S20000x128, .f32⟩ : BufTy).Contents (Elt Ideal)) _ _ (Cert.ReferenceIdeal.Hand.stable_P1 m' c Cert.ReferenceIdeal.main_arg2 (by decide))) (Cert.ReferenceIdeal.Hand.stable_B0 m' c Cert.ReferenceIdeal.main_arg2 (by decide))))))
  have aw5_P1_7 :
      ((Cert.KernelIdeal.Gen.W5 m g c) (Proc.devRef .tc Cert.KernelIdeal.main_arg7) : (⟨Cert.KernelIdeal.S128x128, .f32⟩ : BufTy).Contents (Elt Ideal)) = (Cert.ReferenceIdeal.Hand.B_P1 m' c) (Proc.devRef .tc Cert.ReferenceIdeal.main_arg7) :=
      (@Eq.trans ((⟨Cert.KernelIdeal.S128x128, .f32⟩ : BufTy).Contents (Elt Ideal)) _ _ _ (Cert.KernelIdeal.Hand.W5_arg7 m g c) (@Eq.trans ((⟨Cert.KernelIdeal.S128x128, .f32⟩ : BufTy).Contents (Elt Ideal)) _ _ _ (bridge.2.2.2.2.2.2.2.1) (@Eq.symm ((⟨Cert.KernelIdeal.S128x128, .f32⟩ : BufTy).Contents (Elt Ideal)) _ _ (@Eq.trans ((⟨Cert.KernelIdeal.S128x128, .f32⟩ : BufTy).Contents (Elt Ideal)) _ _ _ (@Eq.symm ((⟨Cert.KernelIdeal.S128x128, .f32⟩ : BufTy).Contents (Elt Ideal)) _ _ (Cert.ReferenceIdeal.Hand.stable_P1 m' c Cert.ReferenceIdeal.main_arg7 (by decide))) (Cert.ReferenceIdeal.Hand.stable_B0 m' c Cert.ReferenceIdeal.main_arg7 (by decide))))))
  have aw6_P2_9 :
      ((Cert.KernelIdeal.Gen.W6 m g c) (Proc.devRef .tc Cert.KernelIdeal.main_arg9) : (⟨Cert.KernelIdeal.S6x128x128, .f32⟩ : BufTy).Contents (Elt Ideal)) = (Cert.ReferenceIdeal.Hand.B_P2 m' c) (Proc.devRef .tc Cert.ReferenceIdeal.main_arg9) :=
      (@Eq.trans ((⟨Cert.KernelIdeal.S6x128x128, .f32⟩ : BufTy).Contents (Elt Ideal)) _ _ _ (Cert.KernelIdeal.Hand.W6_arg9 m g c) (@Eq.trans ((⟨Cert.KernelIdeal.S6x128x128, .f32⟩ : BufTy).Contents (Elt Ideal)) _ _ _ (bridge.2.2.2.2.2.2.2.2.2.1) (@Eq.symm ((⟨Cert.KernelIdeal.S6x128x128, .f32⟩ : BufTy).Contents (Elt Ideal)) _ _ (@Eq.trans ((⟨Cert.KernelIdeal.S6x128x128, .f32⟩ : BufTy).Contents (Elt Ideal)) _ _ _ (@Eq.symm ((⟨Cert.KernelIdeal.S6x128x128, .f32⟩ : BufTy).Contents (Elt Ideal)) _ _ (Cert.ReferenceIdeal.Hand.stable_P2 m' c Cert.ReferenceIdeal.main_arg9 (by decide))) (Cert.ReferenceIdeal.Hand.stable_B0 m' c Cert.ReferenceIdeal.main_arg9 (by decide))))))
  have aw8_G3_17 :
      ((Cert.KernelIdeal.Gen.W8 m g c) (Proc.devRef .tc Cert.KernelIdeal.main_arg17) : (⟨Cert.KernelIdeal.S2x500000, .i32⟩ : BufTy).Contents (Elt Ideal)) = (Cert.ReferenceIdeal.Hand.B_G3 m' c) (Proc.devRef .tc Cert.ReferenceIdeal.main_arg17) :=
      (@Eq.trans ((⟨Cert.KernelIdeal.S2x500000, .i32⟩ : BufTy).Contents (Elt Ideal)) _ _ _ (Cert.KernelIdeal.Hand.W8_arg17 m g c) (@Eq.trans ((⟨Cert.KernelIdeal.S2x500000, .i32⟩ : BufTy).Contents (Elt Ideal)) _ _ _ (bridge.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G3 m' c Cert.ReferenceIdeal.main_arg17 (by decide))) (Cert.ReferenceIdeal.Hand.stable_B0 m' c Cert.ReferenceIdeal.main_arg17 (by decide))))))
  have aw8_G3_10 :
      ((Cert.KernelIdeal.Gen.W8 m g c) (Proc.devRef .tc Cert.KernelIdeal.main_arg10) : (⟨Cert.KernelIdeal.S6x128, .f32⟩ : BufTy).Contents (Elt Ideal)) = (Cert.ReferenceIdeal.Hand.B_G3 m' c) (Proc.devRef .tc Cert.ReferenceIdeal.main_arg10) :=
      (@Eq.trans ((⟨Cert.KernelIdeal.S6x128, .f32⟩ : BufTy).Contents (Elt Ideal)) _ _ _ (Cert.KernelIdeal.Hand.W8_arg10 m g c) (@Eq.trans ((⟨Cert.KernelIdeal.S6x128, .f32⟩ : BufTy).Contents (Elt Ideal)) _ _ _ (bridge.2.2.2.2.2.2.2.2.2.2.1) (@Eq.symm ((⟨Cert.KernelIdeal.S6x128, .f32⟩ : BufTy).Contents (Elt Ideal)) _ _ (@Eq.trans ((⟨Cert.KernelIdeal.S6x128, .f32⟩ : BufTy).Contents (Elt Ideal)) _ _ _ (@Eq.symm ((⟨Cert.KernelIdeal.S6x128, .f32⟩ : BufTy).Contents (Elt Ideal)) _ _ (Cert.ReferenceIdeal.Hand.stable_G3 m' c Cert.ReferenceIdeal.main_arg10 (by decide))) (Cert.ReferenceIdeal.Hand.stable_B0 m' c Cert.ReferenceIdeal.main_arg10 (by decide))))))
  have aw8_G3_9 :
      ((Cert.KernelIdeal.Gen.W8 m g c) (Proc.devRef .tc Cert.KernelIdeal.main_arg9) : (⟨Cert.KernelIdeal.S6x128x128, .f32⟩ : BufTy).Contents (Elt Ideal)) = (Cert.ReferenceIdeal.Hand.B_G3 m' c) (Proc.devRef .tc Cert.ReferenceIdeal.main_arg9) :=
      (@Eq.trans ((⟨Cert.KernelIdeal.S6x128x128, .f32⟩ : BufTy).Contents (Elt Ideal)) _ _ _ (Cert.KernelIdeal.Hand.W8_arg9 m g c) (@Eq.trans ((⟨Cert.KernelIdeal.S6x128x128, .f32⟩ : BufTy).Contents (Elt Ideal)) _ _ _ (bridge.2.2.2.2.2.2.2.2.2.1) (@Eq.symm ((⟨Cert.KernelIdeal.S6x128x128, .f32⟩ : BufTy).Contents (Elt Ideal)) _ _ (@Eq.trans ((⟨Cert.KernelIdeal.S6x128x128, .f32⟩ : BufTy).Contents (Elt Ideal)) _ _ _ (@Eq.symm ((⟨Cert.KernelIdeal.S6x128x128, .f32⟩ : BufTy).Contents (Elt Ideal)) _ _ (Cert.ReferenceIdeal.Hand.stable_G3 m' c Cert.ReferenceIdeal.main_arg9 (by decide))) (Cert.ReferenceIdeal.Hand.stable_B0 m' c Cert.ReferenceIdeal.main_arg9 (by decide))))))
  have aw14_G4b_18 :
      ((Cert.KernelIdeal.Gen.W14 m g c) (Proc.devRef .tc Cert.KernelIdeal.main_arg18) : (⟨Cert.KernelIdeal.S2x500000, .i32⟩ : BufTy).Contents (Elt Ideal)) = (Cert.ReferenceIdeal.Hand.B_G4b m' c) (Proc.devRef .tc Cert.ReferenceIdeal.main_arg18) :=
      (@Eq.trans ((⟨Cert.KernelIdeal.S2x500000, .i32⟩ : BufTy).Contents (Elt Ideal)) _ _ _ (Cert.KernelIdeal.Hand.W14_arg18 m g c) (@Eq.trans ((⟨Cert.KernelIdeal.S2x500000, .i32⟩ : BufTy).Contents (Elt Ideal)) _ _ _ (bridge.2.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G4b m' c Cert.ReferenceIdeal.main_arg18 (by decide))) (Cert.ReferenceIdeal.Hand.stable_B0 m' c Cert.ReferenceIdeal.main_arg18 (by decide))))))
  have aw14_G4b_10 :
      ((Cert.KernelIdeal.Gen.W14 m g c) (Proc.devRef .tc Cert.KernelIdeal.main_arg10) : (⟨Cert.KernelIdeal.S6x128, .f32⟩ : BufTy).Contents (Elt Ideal)) = (Cert.ReferenceIdeal.Hand.B_G4b m' c) (Proc.devRef .tc Cert.ReferenceIdeal.main_arg10) :=
      (@Eq.trans ((⟨Cert.KernelIdeal.S6x128, .f32⟩ : BufTy).Contents (Elt Ideal)) _ _ _ (Cert.KernelIdeal.Hand.W14_arg10 m g c) (@Eq.trans ((⟨Cert.KernelIdeal.S6x128, .f32⟩ : BufTy).Contents (Elt Ideal)) _ _ _ (bridge.2.2.2.2.2.2.2.2.2.2.1) (@Eq.symm ((⟨Cert.KernelIdeal.S6x128, .f32⟩ : BufTy).Contents (Elt Ideal)) _ _ (@Eq.trans ((⟨Cert.KernelIdeal.S6x128, .f32⟩ : BufTy).Contents (Elt Ideal)) _ _ _ (@Eq.symm ((⟨Cert.KernelIdeal.S6x128, .f32⟩ : BufTy).Contents (Elt Ideal)) _ _ (Cert.ReferenceIdeal.Hand.stable_G4b m' c Cert.ReferenceIdeal.main_arg10 (by decide))) (Cert.ReferenceIdeal.Hand.stable_B0 m' c Cert.ReferenceIdeal.main_arg10 (by decide))))))
  have aw14_G4b_9 :
      ((Cert.KernelIdeal.Gen.W14 m g c) (Proc.devRef .tc Cert.KernelIdeal.main_arg9) : (⟨Cert.KernelIdeal.S6x128x128, .f32⟩ : BufTy).Contents (Elt Ideal)) = (Cert.ReferenceIdeal.Hand.B_G4b m' c) (Proc.devRef .tc Cert.ReferenceIdeal.main_arg9) :=
      (@Eq.trans ((⟨Cert.KernelIdeal.S6x128x128, .f32⟩ : BufTy).Contents (Elt Ideal)) _ _ _ (Cert.KernelIdeal.Hand.W14_arg9 m g c) (@Eq.trans ((⟨Cert.KernelIdeal.S6x128x128, .f32⟩ : BufTy).Contents (Elt Ideal)) _ _ _ (bridge.2.2.2.2.2.2.2.2.2.1) (@Eq.symm ((⟨Cert.KernelIdeal.S6x128x128, .f32⟩ : BufTy).Contents (Elt Ideal)) _ _ (@Eq.trans ((⟨Cert.KernelIdeal.S6x128x128, .f32⟩ : BufTy).Contents (Elt Ideal)) _ _ _ (@Eq.symm ((⟨Cert.KernelIdeal.S6x128x128, .f32⟩ : BufTy).Contents (Elt Ideal)) _ _ (Cert.ReferenceIdeal.Hand.stable_G4b m' c Cert.ReferenceIdeal.main_arg9 (by decide))) (Cert.ReferenceIdeal.Hand.stable_B0 m' c Cert.ReferenceIdeal.main_arg9 (by decide))))))
  have aw20_G5b_19 :
      ((Cert.KernelIdeal.Gen.W20 m g c) (Proc.devRef .tc Cert.KernelIdeal.main_arg19) : (⟨Cert.KernelIdeal.S2x500000, .i32⟩ : BufTy).Contents (Elt Ideal)) = (Cert.ReferenceIdeal.Hand.B_G5b m' c) (Proc.devRef .tc Cert.ReferenceIdeal.main_arg19) :=
      (@Eq.trans ((⟨Cert.KernelIdeal.S2x500000, .i32⟩ : BufTy).Contents (Elt Ideal)) _ _ _ (Cert.KernelIdeal.Hand.W20_arg19 m g c) (@Eq.trans ((⟨Cert.KernelIdeal.S2x500000, .i32⟩ : BufTy).Contents (Elt Ideal)) _ _ _ (bridge.2.2.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G5b m' c Cert.ReferenceIdeal.main_arg19 (by decide))) (Cert.ReferenceIdeal.Hand.stable_B0 m' c Cert.ReferenceIdeal.main_arg19 (by decide))))))
  have aw20_G5b_10 :
      ((Cert.KernelIdeal.Gen.W20 m g c) (Proc.devRef .tc Cert.KernelIdeal.main_arg10) : (⟨Cert.KernelIdeal.S6x128, .f32⟩ : BufTy).Contents (Elt Ideal)) = (Cert.ReferenceIdeal.Hand.B_G5b m' c) (Proc.devRef .tc Cert.ReferenceIdeal.main_arg10) :=
      (@Eq.trans ((⟨Cert.KernelIdeal.S6x128, .f32⟩ : BufTy).Contents (Elt Ideal)) _ _ _ (Cert.KernelIdeal.Hand.W20_arg10 m g c) (@Eq.trans ((⟨Cert.KernelIdeal.S6x128, .f32⟩ : BufTy).Contents (Elt Ideal)) _ _ _ (bridge.2.2.2.2.2.2.2.2.2.2.1) (@Eq.symm ((⟨Cert.KernelIdeal.S6x128, .f32⟩ : BufTy).Contents (Elt Ideal)) _ _ (@Eq.trans ((⟨Cert.KernelIdeal.S6x128, .f32⟩ : BufTy).Contents (Elt Ideal)) _ _ _ (@Eq.symm ((⟨Cert.KernelIdeal.S6x128, .f32⟩ : BufTy).Contents (Elt Ideal)) _ _ (Cert.ReferenceIdeal.Hand.stable_G5b m' c Cert.ReferenceIdeal.main_arg10 (by decide))) (Cert.ReferenceIdeal.Hand.stable_B0 m' c Cert.ReferenceIdeal.main_arg10 (by decide))))))
  have aw20_G5b_9 :
      ((Cert.KernelIdeal.Gen.W20 m g c) (Proc.devRef .tc Cert.KernelIdeal.main_arg9) : (⟨Cert.KernelIdeal.S6x128x128, .f32⟩ : BufTy).Contents (Elt Ideal)) = (Cert.ReferenceIdeal.Hand.B_G5b m' c) (Proc.devRef .tc Cert.ReferenceIdeal.main_arg9) :=
      (@Eq.trans ((⟨Cert.KernelIdeal.S6x128x128, .f32⟩ : BufTy).Contents (Elt Ideal)) _ _ _ (Cert.KernelIdeal.Hand.W20_arg9 m g c) (@Eq.trans ((⟨Cert.KernelIdeal.S6x128x128, .f32⟩ : BufTy).Contents (Elt Ideal)) _ _ _ (bridge.2.2.2.2.2.2.2.2.2.1) (@Eq.symm ((⟨Cert.KernelIdeal.S6x128x128, .f32⟩ : BufTy).Contents (Elt Ideal)) _ _ (@Eq.trans ((⟨Cert.KernelIdeal.S6x128x128, .f32⟩ : BufTy).Contents (Elt Ideal)) _ _ _ (@Eq.symm ((⟨Cert.KernelIdeal.S6x128x128, .f32⟩ : BufTy).Contents (Elt Ideal)) _ _ (Cert.ReferenceIdeal.Hand.stable_G5b m' c Cert.ReferenceIdeal.main_arg9 (by decide))) (Cert.ReferenceIdeal.Hand.stable_B0 m' c Cert.ReferenceIdeal.main_arg9 (by decide))))))
  have aw26_G6b_20 :
      ((Cert.KernelIdeal.Gen.W26 m g c) (Proc.devRef .tc Cert.KernelIdeal.main_arg20) : (⟨Cert.KernelIdeal.S2x500000, .i32⟩ : BufTy).Contents (Elt Ideal)) = (Cert.ReferenceIdeal.Hand.B_G6b m' c) (Proc.devRef .tc Cert.ReferenceIdeal.main_arg20) :=
      (@Eq.trans ((⟨Cert.KernelIdeal.S2x500000, .i32⟩ : BufTy).Contents (Elt Ideal)) _ _ _ (Cert.KernelIdeal.Hand.W26_arg20 m g c) (@Eq.trans ((⟨Cert.KernelIdeal.S2x500000, .i32⟩ : BufTy).Contents (Elt Ideal)) _ _ _ (bridge.2.2.2.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G6b m' c Cert.ReferenceIdeal.main_arg20 (by decide))) (Cert.ReferenceIdeal.Hand.stable_B0 m' c Cert.ReferenceIdeal.main_arg20 (by decide))))))
  have aw26_G6b_10 :
      ((Cert.KernelIdeal.Gen.W26 m g c) (Proc.devRef .tc Cert.KernelIdeal.main_arg10) : (⟨Cert.KernelIdeal.S6x128, .f32⟩ : BufTy).Contents (Elt Ideal)) = (Cert.ReferenceIdeal.Hand.B_G6b m' c) (Proc.devRef .tc Cert.ReferenceIdeal.main_arg10) :=
      (@Eq.trans ((⟨Cert.KernelIdeal.S6x128, .f32⟩ : BufTy).Contents (Elt Ideal)) _ _ _ (Cert.KernelIdeal.Hand.W26_arg10 m g c) (@Eq.trans ((⟨Cert.KernelIdeal.S6x128, .f32⟩ : BufTy).Contents (Elt Ideal)) _ _ _ (bridge.2.2.2.2.2.2.2.2.2.2.1) (@Eq.symm ((⟨Cert.KernelIdeal.S6x128, .f32⟩ : BufTy).Contents (Elt Ideal)) _ _ (@Eq.trans ((⟨Cert.KernelIdeal.S6x128, .f32⟩ : BufTy).Contents (Elt Ideal)) _ _ _ (@Eq.symm ((⟨Cert.KernelIdeal.S6x128, .f32⟩ : BufTy).Contents (Elt Ideal)) _ _ (Cert.ReferenceIdeal.Hand.stable_G6b m' c Cert.ReferenceIdeal.main_arg10 (by decide))) (Cert.ReferenceIdeal.Hand.stable_B0 m' c Cert.ReferenceIdeal.main_arg10 (by decide))))))
  have aw26_G6b_9 :
      ((Cert.KernelIdeal.Gen.W26 m g c) (Proc.devRef .tc Cert.KernelIdeal.main_arg9) : (⟨Cert.KernelIdeal.S6x128x128, .f32⟩ : BufTy).Contents (Elt Ideal)) = (Cert.ReferenceIdeal.Hand.B_G6b m' c) (Proc.devRef .tc Cert.ReferenceIdeal.main_arg9) :=
      (@Eq.trans ((⟨Cert.KernelIdeal.S6x128x128, .f32⟩ : BufTy).Contents (Elt Ideal)) _ _ _ (Cert.KernelIdeal.Hand.W26_arg9 m g c) (@Eq.trans ((⟨Cert.KernelIdeal.S6x128x128, .f32⟩ : BufTy).Contents (Elt Ideal)) _ _ _ (bridge.2.2.2.2.2.2.2.2.2.1) (@Eq.symm ((⟨Cert.KernelIdeal.S6x128x128, .f32⟩ : BufTy).Contents (Elt Ideal)) _ _ (@Eq.trans ((⟨Cert.KernelIdeal.S6x128x128, .f32⟩ : BufTy).Contents (Elt Ideal)) _ _ _ (@Eq.symm ((⟨Cert.KernelIdeal.S6x128x128, .f32⟩ : BufTy).Contents (Elt Ideal)) _ _ (Cert.ReferenceIdeal.Hand.stable_G6b m' c Cert.ReferenceIdeal.main_arg9 (by decide))) (Cert.ReferenceIdeal.Hand.stable_B0 m' c Cert.ReferenceIdeal.main_arg9 (by decide))))))
  have aw32_G7b_21 :
      ((Cert.KernelIdeal.Gen.W32 m g c) (Proc.devRef .tc Cert.KernelIdeal.main_arg21) : (⟨Cert.KernelIdeal.S2x500000, .i32⟩ : BufTy).Contents (Elt Ideal)) = (Cert.ReferenceIdeal.Hand.B_G7b m' c) (Proc.devRef .tc Cert.ReferenceIdeal.main_arg21) :=
      (@Eq.trans ((⟨Cert.KernelIdeal.S2x500000, .i32⟩ : BufTy).Contents (Elt Ideal)) _ _ _ (Cert.KernelIdeal.Hand.W32_arg21 m g c) (@Eq.trans ((⟨Cert.KernelIdeal.S2x500000, .i32⟩ : BufTy).Contents (Elt Ideal)) _ _ _ (bridge.2.2.2.2.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G7b m' c Cert.ReferenceIdeal.main_arg21 (by decide))) (Cert.ReferenceIdeal.Hand.stable_B0 m' c Cert.ReferenceIdeal.main_arg21 (by decide))))))
  have aw32_G7b_10 :
      ((Cert.KernelIdeal.Gen.W32 m g c) (Proc.devRef .tc Cert.KernelIdeal.main_arg10) : (⟨Cert.KernelIdeal.S6x128, .f32⟩ : BufTy).Contents (Elt Ideal)) = (Cert.ReferenceIdeal.Hand.B_G7b m' c) (Proc.devRef .tc Cert.ReferenceIdeal.main_arg10) :=
      (@Eq.trans ((⟨Cert.KernelIdeal.S6x128, .f32⟩ : BufTy).Contents (Elt Ideal)) _ _ _ (Cert.KernelIdeal.Hand.W32_arg10 m g c) (@Eq.trans ((⟨Cert.KernelIdeal.S6x128, .f32⟩ : BufTy).Contents (Elt Ideal)) _ _ _ (bridge.2.2.2.2.2.2.2.2.2.2.1) (@Eq.symm ((⟨Cert.KernelIdeal.S6x128, .f32⟩ : BufTy).Contents (Elt Ideal)) _ _ (@Eq.trans ((⟨Cert.KernelIdeal.S6x128, .f32⟩ : BufTy).Contents (Elt Ideal)) _ _ _ (@Eq.symm ((⟨Cert.KernelIdeal.S6x128, .f32⟩ : BufTy).Contents (Elt Ideal)) _ _ (Cert.ReferenceIdeal.Hand.stable_G7b m' c Cert.ReferenceIdeal.main_arg10 (by decide))) (Cert.ReferenceIdeal.Hand.stable_B0 m' c Cert.ReferenceIdeal.main_arg10 (by decide))))))
  have aw32_G7b_9 :
      ((Cert.KernelIdeal.Gen.W32 m g c) (Proc.devRef .tc Cert.KernelIdeal.main_arg9) : (⟨Cert.KernelIdeal.S6x128x128, .f32⟩ : BufTy).Contents (Elt Ideal)) = (Cert.ReferenceIdeal.Hand.B_G7b m' c) (Proc.devRef .tc Cert.ReferenceIdeal.main_arg9) :=
      (@Eq.trans ((⟨Cert.KernelIdeal.S6x128x128, .f32⟩ : BufTy).Contents (Elt Ideal)) _ _ _ (Cert.KernelIdeal.Hand.W32_arg9 m g c) (@Eq.trans ((⟨Cert.KernelIdeal.S6x128x128, .f32⟩ : BufTy).Contents (Elt Ideal)) _ _ _ (bridge.2.2.2.2.2.2.2.2.2.1) (@Eq.symm ((⟨Cert.KernelIdeal.S6x128x128, .f32⟩ : BufTy).Contents (Elt Ideal)) _ _ (@Eq.trans ((⟨Cert.KernelIdeal.S6x128x128, .f32⟩ : BufTy).Contents (Elt Ideal)) _ _ _ (@Eq.symm ((⟨Cert.KernelIdeal.S6x128x128, .f32⟩ : BufTy).Contents (Elt Ideal)) _ _ (Cert.ReferenceIdeal.Hand.stable_G7b m' c Cert.ReferenceIdeal.main_arg9 (by decide))) (Cert.ReferenceIdeal.Hand.stable_B0 m' c Cert.ReferenceIdeal.main_arg9 (by decide))))))
  have aw38_G8b_22 :
      ((Cert.KernelIdeal.Gen.W38 m g c) (Proc.devRef .tc Cert.KernelIdeal.main_arg22) : (⟨Cert.KernelIdeal.S2x500000, .i32⟩ : BufTy).Contents (Elt Ideal)) = (Cert.ReferenceIdeal.Hand.B_G8b m' c) (Proc.devRef .tc Cert.ReferenceIdeal.main_arg22) :=
      (@Eq.trans ((⟨Cert.KernelIdeal.S2x500000, .i32⟩ : BufTy).Contents (Elt Ideal)) _ _ _ (Cert.KernelIdeal.Hand.W38_arg22 m g c) (@Eq.trans ((⟨Cert.KernelIdeal.S2x500000, .i32⟩ : BufTy).Contents (Elt Ideal)) _ _ _ (bridge.2.2.2.2.2.2.2.2.2.2.2.2.2.2.2.2.2.2.2.2.2.2) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G8b m' c Cert.ReferenceIdeal.main_arg22 (by decide))) (Cert.ReferenceIdeal.Hand.stable_B0 m' c Cert.ReferenceIdeal.main_arg22 (by decide))))))
  have aw38_G8b_10 :
      ((Cert.KernelIdeal.Gen.W38 m g c) (Proc.devRef .tc Cert.KernelIdeal.main_arg10) : (⟨Cert.KernelIdeal.S6x128, .f32⟩ : BufTy).Contents (Elt Ideal)) = (Cert.ReferenceIdeal.Hand.B_G8b m' c) (Proc.devRef .tc Cert.ReferenceIdeal.main_arg10) :=
      (@Eq.trans ((⟨Cert.KernelIdeal.S6x128, .f32⟩ : BufTy).Contents (Elt Ideal)) _ _ _ (Cert.KernelIdeal.Hand.W38_arg10 m g c) (@Eq.trans ((⟨Cert.KernelIdeal.S6x128, .f32⟩ : BufTy).Contents (Elt Ideal)) _ _ _ (bridge.2.2.2.2.2.2.2.2.2.2.1) (@Eq.symm ((⟨Cert.KernelIdeal.S6x128, .f32⟩ : BufTy).Contents (Elt Ideal)) _ _ (@Eq.trans ((⟨Cert.KernelIdeal.S6x128, .f32⟩ : BufTy).Contents (Elt Ideal)) _ _ _ (@Eq.symm ((⟨Cert.KernelIdeal.S6x128, .f32⟩ : BufTy).Contents (Elt Ideal)) _ _ (Cert.ReferenceIdeal.Hand.stable_G8b m' c Cert.ReferenceIdeal.main_arg10 (by decide))) (Cert.ReferenceIdeal.Hand.stable_B0 m' c Cert.ReferenceIdeal.main_arg10 (by decide))))))
  have aw38_G8b_13 :
      ((Cert.KernelIdeal.Gen.W38 m g c) (Proc.devRef .tc Cert.KernelIdeal.main_arg13) : (⟨Cert.KernelIdeal.S3x128, .f32⟩ : BufTy).Contents (Elt Ideal)) = (Cert.ReferenceIdeal.Hand.B_G8b m' c) (Proc.devRef .tc Cert.ReferenceIdeal.main_arg13) :=
      (@Eq.trans ((⟨Cert.KernelIdeal.S3x128, .f32⟩ : BufTy).Contents (Elt Ideal)) _ _ _ (Cert.KernelIdeal.Hand.W38_arg13 m g c) (@Eq.trans ((⟨Cert.KernelIdeal.S3x128, .f32⟩ : BufTy).Contents (Elt Ideal)) _ _ _ (bridge.2.2.2.2.2.2.2.2.2.2.2.2.2.1) (@Eq.symm ((⟨Cert.KernelIdeal.S3x128, .f32⟩ : BufTy).Contents (Elt Ideal)) _ _ (@Eq.trans ((⟨Cert.KernelIdeal.S3x128, .f32⟩ : BufTy).Contents (Elt Ideal)) _ _ _ (@Eq.symm ((⟨Cert.KernelIdeal.S3x128, .f32⟩ : BufTy).Contents (Elt Ideal)) _ _ (Cert.ReferenceIdeal.Hand.stable_G8b m' c Cert.ReferenceIdeal.main_arg13 (by decide))) (Cert.ReferenceIdeal.Hand.stable_B0 m' c Cert.ReferenceIdeal.main_arg13 (by decide))))))
  have aw38_G8b_14 :
      ((Cert.KernelIdeal.Gen.W38 m g c) (Proc.devRef .tc Cert.KernelIdeal.main_arg14) : (⟨Cert.KernelIdeal.S3x128, .f32⟩ : BufTy).Contents (Elt Ideal)) = (Cert.ReferenceIdeal.Hand.B_G8b m' c) (Proc.devRef .tc Cert.ReferenceIdeal.main_arg14) :=
      (@Eq.trans ((⟨Cert.KernelIdeal.S3x128, .f32⟩ : BufTy).Contents (Elt Ideal)) _ _ _ (Cert.KernelIdeal.Hand.W38_arg14 m g c) (@Eq.trans ((⟨Cert.KernelIdeal.S3x128, .f32⟩ : BufTy).Contents (Elt Ideal)) _ _ _ (bridge.2.2.2.2.2.2.2.2.2.2.2.2.2.2.1) (@Eq.symm ((⟨Cert.KernelIdeal.S3x128, .f32⟩ : BufTy).Contents (Elt Ideal)) _ _ (@Eq.trans ((⟨Cert.KernelIdeal.S3x128, .f32⟩ : BufTy).Contents (Elt Ideal)) _ _ _ (@Eq.symm ((⟨Cert.KernelIdeal.S3x128, .f32⟩ : BufTy).Contents (Elt Ideal)) _ _ (Cert.ReferenceIdeal.Hand.stable_G8b m' c Cert.ReferenceIdeal.main_arg14 (by decide))) (Cert.ReferenceIdeal.Hand.stable_B0 m' c Cert.ReferenceIdeal.main_arg14 (by decide))))))
  have aw44_L9_13 :
      ((Cert.KernelIdeal.Gen.W44 m g c) (Proc.devRef .tc Cert.KernelIdeal.main_arg13) : (⟨Cert.KernelIdeal.S3x128, .f32⟩ : BufTy).Contents (Elt Ideal)) = (Cert.ReferenceIdeal.Hand.B_L9 m' c) (Proc.devRef .tc Cert.ReferenceIdeal.main_arg13) :=
      (@Eq.trans ((⟨Cert.KernelIdeal.S3x128, .f32⟩ : BufTy).Contents (Elt Ideal)) _ _ _ (Cert.KernelIdeal.Hand.W44_arg13 m g c) (@Eq.trans ((⟨Cert.KernelIdeal.S3x128, .f32⟩ : BufTy).Contents (Elt Ideal)) _ _ _ (bridge.2.2.2.2.2.2.2.2.2.2.2.2.2.1) (@Eq.symm ((⟨Cert.KernelIdeal.S3x128, .f32⟩ : BufTy).Contents (Elt Ideal)) _ _ (@Eq.trans ((⟨Cert.KernelIdeal.S3x128, .f32⟩ : BufTy).Contents (Elt Ideal)) _ _ _ (@Eq.symm ((⟨Cert.KernelIdeal.S3x128, .f32⟩ : BufTy).Contents (Elt Ideal)) _ _ (Cert.ReferenceIdeal.Hand.stable_L9 m' c Cert.ReferenceIdeal.main_arg13 (by decide))) (Cert.ReferenceIdeal.Hand.stable_B0 m' c Cert.ReferenceIdeal.main_arg13 (by decide))))))
  have aw44_L9_14 :
      ((Cert.KernelIdeal.Gen.W44 m g c) (Proc.devRef .tc Cert.KernelIdeal.main_arg14) : (⟨Cert.KernelIdeal.S3x128, .f32⟩ : BufTy).Contents (Elt Ideal)) = (Cert.ReferenceIdeal.Hand.B_L9 m' c) (Proc.devRef .tc Cert.ReferenceIdeal.main_arg14) :=
      (@Eq.trans ((⟨Cert.KernelIdeal.S3x128, .f32⟩ : BufTy).Contents (Elt Ideal)) _ _ _ (Cert.KernelIdeal.Hand.W44_arg14 m g c) (@Eq.trans ((⟨Cert.KernelIdeal.S3x128, .f32⟩ : BufTy).Contents (Elt Ideal)) _ _ _ (bridge.2.2.2.2.2.2.2.2.2.2.2.2.2.2.1) (@Eq.symm ((⟨Cert.KernelIdeal.S3x128, .f32⟩ : BufTy).Contents (Elt Ideal)) _ _ (@Eq.trans ((⟨Cert.KernelIdeal.S3x128, .f32⟩ : BufTy).Contents (Elt Ideal)) _ _ _ (@Eq.symm ((⟨Cert.KernelIdeal.S3x128, .f32⟩ : BufTy).Contents (Elt Ideal)) _ _ (Cert.ReferenceIdeal.Hand.stable_L9 m' c Cert.ReferenceIdeal.main_arg14 (by decide))) (Cert.ReferenceIdeal.Hand.stable_B0 m' c Cert.ReferenceIdeal.main_arg14 (by decide))))))
  have aw46_L10_13 :
      ((Cert.KernelIdeal.Gen.W46 m g c) (Proc.devRef .tc Cert.KernelIdeal.main_arg13) : (⟨Cert.KernelIdeal.S3x128, .f32⟩ : BufTy).Contents (Elt Ideal)) = (Cert.ReferenceIdeal.Hand.B_L10 m' c) (Proc.devRef .tc Cert.ReferenceIdeal.main_arg13) :=
      (@Eq.trans ((⟨Cert.KernelIdeal.S3x128, .f32⟩ : BufTy).Contents (Elt Ideal)) _ _ _ (Cert.KernelIdeal.Hand.W46_arg13 m g c) (@Eq.trans ((⟨Cert.KernelIdeal.S3x128, .f32⟩ : BufTy).Contents (Elt Ideal)) _ _ _ (bridge.2.2.2.2.2.2.2.2.2.2.2.2.2.1) (@Eq.symm ((⟨Cert.KernelIdeal.S3x128, .f32⟩ : BufTy).Contents (Elt Ideal)) _ _ (@Eq.trans ((⟨Cert.KernelIdeal.S3x128, .f32⟩ : BufTy).Contents (Elt Ideal)) _ _ _ (@Eq.symm ((⟨Cert.KernelIdeal.S3x128, .f32⟩ : BufTy).Contents (Elt Ideal)) _ _ (Cert.ReferenceIdeal.Hand.stable_L10 m' c Cert.ReferenceIdeal.main_arg13 (by decide))) (Cert.ReferenceIdeal.Hand.stable_B0 m' c Cert.ReferenceIdeal.main_arg13 (by decide))))))
  have aw46_L10_14 :
      ((Cert.KernelIdeal.Gen.W46 m g c) (Proc.devRef .tc Cert.KernelIdeal.main_arg14) : (⟨Cert.KernelIdeal.S3x128, .f32⟩ : BufTy).Contents (Elt Ideal)) = (Cert.ReferenceIdeal.Hand.B_L10 m' c) (Proc.devRef .tc Cert.ReferenceIdeal.main_arg14) :=
      (@Eq.trans ((⟨Cert.KernelIdeal.S3x128, .f32⟩ : BufTy).Contents (Elt Ideal)) _ _ _ (Cert.KernelIdeal.Hand.W46_arg14 m g c) (@Eq.trans ((⟨Cert.KernelIdeal.S3x128, .f32⟩ : BufTy).Contents (Elt Ideal)) _ _ _ (bridge.2.2.2.2.2.2.2.2.2.2.2.2.2.2.1) (@Eq.symm ((⟨Cert.KernelIdeal.S3x128, .f32⟩ : BufTy).Contents (Elt Ideal)) _ _ (@Eq.trans ((⟨Cert.KernelIdeal.S3x128, .f32⟩ : BufTy).Contents (Elt Ideal)) _ _ _ (@Eq.symm ((⟨Cert.KernelIdeal.S3x128, .f32⟩ : BufTy).Contents (Elt Ideal)) _ _ (Cert.ReferenceIdeal.Hand.stable_L10 m' c Cert.ReferenceIdeal.main_arg14 (by decide))) (Cert.ReferenceIdeal.Hand.stable_B0 m' c Cert.ReferenceIdeal.main_arg14 (by decide))))))
  have aw48_RELU11_11 :
      ((Cert.KernelIdeal.Gen.W48 m g c) (Proc.devRef .tc Cert.KernelIdeal.main_arg11) : (⟨Cert.KernelIdeal.S6x128x64, .f32⟩ : BufTy).Contents (Elt Ideal)) = (Cert.ReferenceIdeal.Hand.B_RELU11 m' c) (Proc.devRef .tc Cert.ReferenceIdeal.main_arg11) :=
      (@Eq.trans ((⟨Cert.KernelIdeal.S6x128x64, .f32⟩ : BufTy).Contents (Elt Ideal)) _ _ _ (Cert.KernelIdeal.Hand.W48_arg11 m g c) (@Eq.trans ((⟨Cert.KernelIdeal.S6x128x64, .f32⟩ : BufTy).Contents (Elt Ideal)) _ _ _ (bridge.2.2.2.2.2.2.2.2.2.2.2.1) (@Eq.symm ((⟨Cert.KernelIdeal.S6x128x64, .f32⟩ : BufTy).Contents (Elt Ideal)) _ _ (@Eq.trans ((⟨Cert.KernelIdeal.S6x128x64, .f32⟩ : BufTy).Contents (Elt Ideal)) _ _ _ (@Eq.symm ((⟨Cert.KernelIdeal.S6x128x64, .f32⟩ : BufTy).Contents (Elt Ideal)) _ _ (Cert.ReferenceIdeal.Hand.stable_RELU11 m' c Cert.ReferenceIdeal.main_arg11 (by decide))) (Cert.ReferenceIdeal.Hand.stable_B0 m' c Cert.ReferenceIdeal.main_arg11 (by decide))))))
  have aw50_G12_17 :
      ((Cert.KernelIdeal.Gen.W50 m g c) (Proc.devRef .tc Cert.KernelIdeal.main_arg17) : (⟨Cert.KernelIdeal.S2x500000, .i32⟩ : BufTy).Contents (Elt Ideal)) = (Cert.ReferenceIdeal.Hand.B_G12 m' c) (Proc.devRef .tc Cert.ReferenceIdeal.main_arg17) :=
      (@Eq.trans ((⟨Cert.KernelIdeal.S2x500000, .i32⟩ : BufTy).Contents (Elt Ideal)) _ _ _ (Cert.KernelIdeal.Hand.W50_arg17 m g c) (@Eq.trans ((⟨Cert.KernelIdeal.S2x500000, .i32⟩ : BufTy).Contents (Elt Ideal)) _ _ _ (bridge.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G12 m' c Cert.ReferenceIdeal.main_arg17 (by decide))) (Cert.ReferenceIdeal.Hand.stable_B0 m' c Cert.ReferenceIdeal.main_arg17 (by decide))))))
  have aw50_G12_12 :
      ((Cert.KernelIdeal.Gen.W50 m g c) (Proc.devRef .tc Cert.KernelIdeal.main_arg12) : (⟨Cert.KernelIdeal.S6x64, .f32⟩ : BufTy).Contents (Elt Ideal)) = (Cert.ReferenceIdeal.Hand.B_G12 m' c) (Proc.devRef .tc Cert.ReferenceIdeal.main_arg12) :=
      (@Eq.trans ((⟨Cert.KernelIdeal.S6x64, .f32⟩ : BufTy).Contents (Elt Ideal)) _ _ _ (Cert.KernelIdeal.Hand.W50_arg12 m g c) (@Eq.trans ((⟨Cert.KernelIdeal.S6x64, .f32⟩ : BufTy).Contents (Elt Ideal)) _ _ _ (bridge.2.2.2.2.2.2.2.2.2.2.2.2.1) (@Eq.symm ((⟨Cert.KernelIdeal.S6x64, .f32⟩ : BufTy).Contents (Elt Ideal)) _ _ (@Eq.trans ((⟨Cert.KernelIdeal.S6x64, .f32⟩ : BufTy).Contents (Elt Ideal)) _ _ _ (@Eq.symm ((⟨Cert.KernelIdeal.S6x64, .f32⟩ : BufTy).Contents (Elt Ideal)) _ _ (Cert.ReferenceIdeal.Hand.stable_G12 m' c Cert.ReferenceIdeal.main_arg12 (by decide))) (Cert.ReferenceIdeal.Hand.stable_B0 m' c Cert.ReferenceIdeal.main_arg12 (by decide))))))
  have aw50_G12_11 :
      ((Cert.KernelIdeal.Gen.W50 m g c) (Proc.devRef .tc Cert.KernelIdeal.main_arg11) : (⟨Cert.KernelIdeal.S6x128x64, .f32⟩ : BufTy).Contents (Elt Ideal)) = (Cert.ReferenceIdeal.Hand.B_G12 m' c) (Proc.devRef .tc Cert.ReferenceIdeal.main_arg11) :=
      (@Eq.trans ((⟨Cert.KernelIdeal.S6x128x64, .f32⟩ : BufTy).Contents (Elt Ideal)) _ _ _ (Cert.KernelIdeal.Hand.W50_arg11 m g c) (@Eq.trans ((⟨Cert.KernelIdeal.S6x128x64, .f32⟩ : BufTy).Contents (Elt Ideal)) _ _ _ (bridge.2.2.2.2.2.2.2.2.2.2.2.1) (@Eq.symm ((⟨Cert.KernelIdeal.S6x128x64, .f32⟩ : BufTy).Contents (Elt Ideal)) _ _ (@Eq.trans ((⟨Cert.KernelIdeal.S6x128x64, .f32⟩ : BufTy).Contents (Elt Ideal)) _ _ _ (@Eq.symm ((⟨Cert.KernelIdeal.S6x128x64, .f32⟩ : BufTy).Contents (Elt Ideal)) _ _ (Cert.ReferenceIdeal.Hand.stable_G12 m' c Cert.ReferenceIdeal.main_arg11 (by decide))) (Cert.ReferenceIdeal.Hand.stable_B0 m' c Cert.ReferenceIdeal.main_arg11 (by decide))))))
  have aw56_G13b_18 :
      ((Cert.KernelIdeal.Gen.W56 m g c) (Proc.devRef .tc Cert.KernelIdeal.main_arg18) : (⟨Cert.KernelIdeal.S2x500000, .i32⟩ : BufTy).Contents (Elt Ideal)) = (Cert.ReferenceIdeal.Hand.B_G13b m' c) (Proc.devRef .tc Cert.ReferenceIdeal.main_arg18) :=
      (@Eq.trans ((⟨Cert.KernelIdeal.S2x500000, .i32⟩ : BufTy).Contents (Elt Ideal)) _ _ _ (Cert.KernelIdeal.Hand.W56_arg18 m g c) (@Eq.trans ((⟨Cert.KernelIdeal.S2x500000, .i32⟩ : BufTy).Contents (Elt Ideal)) _ _ _ (bridge.2.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G13b m' c Cert.ReferenceIdeal.main_arg18 (by decide))) (Cert.ReferenceIdeal.Hand.stable_B0 m' c Cert.ReferenceIdeal.main_arg18 (by decide))))))
  have aw56_G13b_12 :
      ((Cert.KernelIdeal.Gen.W56 m g c) (Proc.devRef .tc Cert.KernelIdeal.main_arg12) : (⟨Cert.KernelIdeal.S6x64, .f32⟩ : BufTy).Contents (Elt Ideal)) = (Cert.ReferenceIdeal.Hand.B_G13b m' c) (Proc.devRef .tc Cert.ReferenceIdeal.main_arg12) :=
      (@Eq.trans ((⟨Cert.KernelIdeal.S6x64, .f32⟩ : BufTy).Contents (Elt Ideal)) _ _ _ (Cert.KernelIdeal.Hand.W56_arg12 m g c) (@Eq.trans ((⟨Cert.KernelIdeal.S6x64, .f32⟩ : BufTy).Contents (Elt Ideal)) _ _ _ (bridge.2.2.2.2.2.2.2.2.2.2.2.2.1) (@Eq.symm ((⟨Cert.KernelIdeal.S6x64, .f32⟩ : BufTy).Contents (Elt Ideal)) _ _ (@Eq.trans ((⟨Cert.KernelIdeal.S6x64, .f32⟩ : BufTy).Contents (Elt Ideal)) _ _ _ (@Eq.symm ((⟨Cert.KernelIdeal.S6x64, .f32⟩ : BufTy).Contents (Elt Ideal)) _ _ (Cert.ReferenceIdeal.Hand.stable_G13b m' c Cert.ReferenceIdeal.main_arg12 (by decide))) (Cert.ReferenceIdeal.Hand.stable_B0 m' c Cert.ReferenceIdeal.main_arg12 (by decide))))))
  have aw56_G13b_11 :
      ((Cert.KernelIdeal.Gen.W56 m g c) (Proc.devRef .tc Cert.KernelIdeal.main_arg11) : (⟨Cert.KernelIdeal.S6x128x64, .f32⟩ : BufTy).Contents (Elt Ideal)) = (Cert.ReferenceIdeal.Hand.B_G13b m' c) (Proc.devRef .tc Cert.ReferenceIdeal.main_arg11) :=
      (@Eq.trans ((⟨Cert.KernelIdeal.S6x128x64, .f32⟩ : BufTy).Contents (Elt Ideal)) _ _ _ (Cert.KernelIdeal.Hand.W56_arg11 m g c) (@Eq.trans ((⟨Cert.KernelIdeal.S6x128x64, .f32⟩ : BufTy).Contents (Elt Ideal)) _ _ _ (bridge.2.2.2.2.2.2.2.2.2.2.2.1) (@Eq.symm ((⟨Cert.KernelIdeal.S6x128x64, .f32⟩ : BufTy).Contents (Elt Ideal)) _ _ (@Eq.trans ((⟨Cert.KernelIdeal.S6x128x64, .f32⟩ : BufTy).Contents (Elt Ideal)) _ _ _ (@Eq.symm ((⟨Cert.KernelIdeal.S6x128x64, .f32⟩ : BufTy).Contents (Elt Ideal)) _ _ (Cert.ReferenceIdeal.Hand.stable_G13b m' c Cert.ReferenceIdeal.main_arg11 (by decide))) (Cert.ReferenceIdeal.Hand.stable_B0 m' c Cert.ReferenceIdeal.main_arg11 (by decide))))))
  have aw62_G14b_19 :
      ((Cert.KernelIdeal.Gen.W62 m g c) (Proc.devRef .tc Cert.KernelIdeal.main_arg19) : (⟨Cert.KernelIdeal.S2x500000, .i32⟩ : BufTy).Contents (Elt Ideal)) = (Cert.ReferenceIdeal.Hand.B_G14b m' c) (Proc.devRef .tc Cert.ReferenceIdeal.main_arg19) :=
      (@Eq.trans ((⟨Cert.KernelIdeal.S2x500000, .i32⟩ : BufTy).Contents (Elt Ideal)) _ _ _ (Cert.KernelIdeal.Hand.W62_arg19 m g c) (@Eq.trans ((⟨Cert.KernelIdeal.S2x500000, .i32⟩ : BufTy).Contents (Elt Ideal)) _ _ _ (bridge.2.2.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G14b m' c Cert.ReferenceIdeal.main_arg19 (by decide))) (Cert.ReferenceIdeal.Hand.stable_B0 m' c Cert.ReferenceIdeal.main_arg19 (by decide))))))
  have aw62_G14b_12 :
      ((Cert.KernelIdeal.Gen.W62 m g c) (Proc.devRef .tc Cert.KernelIdeal.main_arg12) : (⟨Cert.KernelIdeal.S6x64, .f32⟩ : BufTy).Contents (Elt Ideal)) = (Cert.ReferenceIdeal.Hand.B_G14b m' c) (Proc.devRef .tc Cert.ReferenceIdeal.main_arg12) :=
      (@Eq.trans ((⟨Cert.KernelIdeal.S6x64, .f32⟩ : BufTy).Contents (Elt Ideal)) _ _ _ (Cert.KernelIdeal.Hand.W62_arg12 m g c) (@Eq.trans ((⟨Cert.KernelIdeal.S6x64, .f32⟩ : BufTy).Contents (Elt Ideal)) _ _ _ (bridge.2.2.2.2.2.2.2.2.2.2.2.2.1) (@Eq.symm ((⟨Cert.KernelIdeal.S6x64, .f32⟩ : BufTy).Contents (Elt Ideal)) _ _ (@Eq.trans ((⟨Cert.KernelIdeal.S6x64, .f32⟩ : BufTy).Contents (Elt Ideal)) _ _ _ (@Eq.symm ((⟨Cert.KernelIdeal.S6x64, .f32⟩ : BufTy).Contents (Elt Ideal)) _ _ (Cert.ReferenceIdeal.Hand.stable_G14b m' c Cert.ReferenceIdeal.main_arg12 (by decide))) (Cert.ReferenceIdeal.Hand.stable_B0 m' c Cert.ReferenceIdeal.main_arg12 (by decide))))))
  have aw62_G14b_11 :
      ((Cert.KernelIdeal.Gen.W62 m g c) (Proc.devRef .tc Cert.KernelIdeal.main_arg11) : (⟨Cert.KernelIdeal.S6x128x64, .f32⟩ : BufTy).Contents (Elt Ideal)) = (Cert.ReferenceIdeal.Hand.B_G14b m' c) (Proc.devRef .tc Cert.ReferenceIdeal.main_arg11) :=
      (@Eq.trans ((⟨Cert.KernelIdeal.S6x128x64, .f32⟩ : BufTy).Contents (Elt Ideal)) _ _ _ (Cert.KernelIdeal.Hand.W62_arg11 m g c) (@Eq.trans ((⟨Cert.KernelIdeal.S6x128x64, .f32⟩ : BufTy).Contents (Elt Ideal)) _ _ _ (bridge.2.2.2.2.2.2.2.2.2.2.2.1) (@Eq.symm ((⟨Cert.KernelIdeal.S6x128x64, .f32⟩ : BufTy).Contents (Elt Ideal)) _ _ (@Eq.trans ((⟨Cert.KernelIdeal.S6x128x64, .f32⟩ : BufTy).Contents (Elt Ideal)) _ _ _ (@Eq.symm ((⟨Cert.KernelIdeal.S6x128x64, .f32⟩ : BufTy).Contents (Elt Ideal)) _ _ (Cert.ReferenceIdeal.Hand.stable_G14b m' c Cert.ReferenceIdeal.main_arg11 (by decide))) (Cert.ReferenceIdeal.Hand.stable_B0 m' c Cert.ReferenceIdeal.main_arg11 (by decide))))))
  have aw68_G15b_20 :
      ((Cert.KernelIdeal.Gen.W68 m g c) (Proc.devRef .tc Cert.KernelIdeal.main_arg20) : (⟨Cert.KernelIdeal.S2x500000, .i32⟩ : BufTy).Contents (Elt Ideal)) = (Cert.ReferenceIdeal.Hand.B_G15b m' c) (Proc.devRef .tc Cert.ReferenceIdeal.main_arg20) :=
      (@Eq.trans ((⟨Cert.KernelIdeal.S2x500000, .i32⟩ : BufTy).Contents (Elt Ideal)) _ _ _ (Cert.KernelIdeal.Hand.W68_arg20 m g c) (@Eq.trans ((⟨Cert.KernelIdeal.S2x500000, .i32⟩ : BufTy).Contents (Elt Ideal)) _ _ _ (bridge.2.2.2.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G15b m' c Cert.ReferenceIdeal.main_arg20 (by decide))) (Cert.ReferenceIdeal.Hand.stable_B0 m' c Cert.ReferenceIdeal.main_arg20 (by decide))))))
  have aw68_G15b_12 :
      ((Cert.KernelIdeal.Gen.W68 m g c) (Proc.devRef .tc Cert.KernelIdeal.main_arg12) : (⟨Cert.KernelIdeal.S6x64, .f32⟩ : BufTy).Contents (Elt Ideal)) = (Cert.ReferenceIdeal.Hand.B_G15b m' c) (Proc.devRef .tc Cert.ReferenceIdeal.main_arg12) :=
      (@Eq.trans ((⟨Cert.KernelIdeal.S6x64, .f32⟩ : BufTy).Contents (Elt Ideal)) _ _ _ (Cert.KernelIdeal.Hand.W68_arg12 m g c) (@Eq.trans ((⟨Cert.KernelIdeal.S6x64, .f32⟩ : BufTy).Contents (Elt Ideal)) _ _ _ (bridge.2.2.2.2.2.2.2.2.2.2.2.2.1) (@Eq.symm ((⟨Cert.KernelIdeal.S6x64, .f32⟩ : BufTy).Contents (Elt Ideal)) _ _ (@Eq.trans ((⟨Cert.KernelIdeal.S6x64, .f32⟩ : BufTy).Contents (Elt Ideal)) _ _ _ (@Eq.symm ((⟨Cert.KernelIdeal.S6x64, .f32⟩ : BufTy).Contents (Elt Ideal)) _ _ (Cert.ReferenceIdeal.Hand.stable_G15b m' c Cert.ReferenceIdeal.main_arg12 (by decide))) (Cert.ReferenceIdeal.Hand.stable_B0 m' c Cert.ReferenceIdeal.main_arg12 (by decide))))))
  have aw68_G15b_11 :
      ((Cert.KernelIdeal.Gen.W68 m g c) (Proc.devRef .tc Cert.KernelIdeal.main_arg11) : (⟨Cert.KernelIdeal.S6x128x64, .f32⟩ : BufTy).Contents (Elt Ideal)) = (Cert.ReferenceIdeal.Hand.B_G15b m' c) (Proc.devRef .tc Cert.ReferenceIdeal.main_arg11) :=
      (@Eq.trans ((⟨Cert.KernelIdeal.S6x128x64, .f32⟩ : BufTy).Contents (Elt Ideal)) _ _ _ (Cert.KernelIdeal.Hand.W68_arg11 m g c) (@Eq.trans ((⟨Cert.KernelIdeal.S6x128x64, .f32⟩ : BufTy).Contents (Elt Ideal)) _ _ _ (bridge.2.2.2.2.2.2.2.2.2.2.2.1) (@Eq.symm ((⟨Cert.KernelIdeal.S6x128x64, .f32⟩ : BufTy).Contents (Elt Ideal)) _ _ (@Eq.trans ((⟨Cert.KernelIdeal.S6x128x64, .f32⟩ : BufTy).Contents (Elt Ideal)) _ _ _ (@Eq.symm ((⟨Cert.KernelIdeal.S6x128x64, .f32⟩ : BufTy).Contents (Elt Ideal)) _ _ (Cert.ReferenceIdeal.Hand.stable_G15b m' c Cert.ReferenceIdeal.main_arg11 (by decide))) (Cert.ReferenceIdeal.Hand.stable_B0 m' c Cert.ReferenceIdeal.main_arg11 (by decide))))))
  have aw74_G16b_21 :
      ((Cert.KernelIdeal.Gen.W74 m g c) (Proc.devRef .tc Cert.KernelIdeal.main_arg21) : (⟨Cert.KernelIdeal.S2x500000, .i32⟩ : BufTy).Contents (Elt Ideal)) = (Cert.ReferenceIdeal.Hand.B_G16b m' c) (Proc.devRef .tc Cert.ReferenceIdeal.main_arg21) :=
      (@Eq.trans ((⟨Cert.KernelIdeal.S2x500000, .i32⟩ : BufTy).Contents (Elt Ideal)) _ _ _ (Cert.KernelIdeal.Hand.W74_arg21 m g c) (@Eq.trans ((⟨Cert.KernelIdeal.S2x500000, .i32⟩ : BufTy).Contents (Elt Ideal)) _ _ _ (bridge.2.2.2.2.2.2.2.2.2.2.2.2.2.2.2.2.2.2.2.2.2.1) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G16b m' c Cert.ReferenceIdeal.main_arg21 (by decide))) (Cert.ReferenceIdeal.Hand.stable_B0 m' c Cert.ReferenceIdeal.main_arg21 (by decide))))))
  have aw74_G16b_12 :
      ((Cert.KernelIdeal.Gen.W74 m g c) (Proc.devRef .tc Cert.KernelIdeal.main_arg12) : (⟨Cert.KernelIdeal.S6x64, .f32⟩ : BufTy).Contents (Elt Ideal)) = (Cert.ReferenceIdeal.Hand.B_G16b m' c) (Proc.devRef .tc Cert.ReferenceIdeal.main_arg12) :=
      (@Eq.trans ((⟨Cert.KernelIdeal.S6x64, .f32⟩ : BufTy).Contents (Elt Ideal)) _ _ _ (Cert.KernelIdeal.Hand.W74_arg12 m g c) (@Eq.trans ((⟨Cert.KernelIdeal.S6x64, .f32⟩ : BufTy).Contents (Elt Ideal)) _ _ _ (bridge.2.2.2.2.2.2.2.2.2.2.2.2.1) (@Eq.symm ((⟨Cert.KernelIdeal.S6x64, .f32⟩ : BufTy).Contents (Elt Ideal)) _ _ (@Eq.trans ((⟨Cert.KernelIdeal.S6x64, .f32⟩ : BufTy).Contents (Elt Ideal)) _ _ _ (@Eq.symm ((⟨Cert.KernelIdeal.S6x64, .f32⟩ : BufTy).Contents (Elt Ideal)) _ _ (Cert.ReferenceIdeal.Hand.stable_G16b m' c Cert.ReferenceIdeal.main_arg12 (by decide))) (Cert.ReferenceIdeal.Hand.stable_B0 m' c Cert.ReferenceIdeal.main_arg12 (by decide))))))
  have aw74_G16b_11 :
      ((Cert.KernelIdeal.Gen.W74 m g c) (Proc.devRef .tc Cert.KernelIdeal.main_arg11) : (⟨Cert.KernelIdeal.S6x128x64, .f32⟩ : BufTy).Contents (Elt Ideal)) = (Cert.ReferenceIdeal.Hand.B_G16b m' c) (Proc.devRef .tc Cert.ReferenceIdeal.main_arg11) :=
      (@Eq.trans ((⟨Cert.KernelIdeal.S6x128x64, .f32⟩ : BufTy).Contents (Elt Ideal)) _ _ _ (Cert.KernelIdeal.Hand.W74_arg11 m g c) (@Eq.trans ((⟨Cert.KernelIdeal.S6x128x64, .f32⟩ : BufTy).Contents (Elt Ideal)) _ _ _ (bridge.2.2.2.2.2.2.2.2.2.2.2.1) (@Eq.symm ((⟨Cert.KernelIdeal.S6x128x64, .f32⟩ : BufTy).Contents (Elt Ideal)) _ _ (@Eq.trans ((⟨Cert.KernelIdeal.S6x128x64, .f32⟩ : BufTy).Contents (Elt Ideal)) _ _ _ (@Eq.symm ((⟨Cert.KernelIdeal.S6x128x64, .f32⟩ : BufTy).Contents (Elt Ideal)) _ _ (Cert.ReferenceIdeal.Hand.stable_G16b m' c Cert.ReferenceIdeal.main_arg11 (by decide))) (Cert.ReferenceIdeal.Hand.stable_B0 m' c Cert.ReferenceIdeal.main_arg11 (by decide))))))
  have aw80_G17b_22 :
      ((Cert.KernelIdeal.Gen.W80 m g c) (Proc.devRef .tc Cert.KernelIdeal.main_arg22) : (⟨Cert.KernelIdeal.S2x500000, .i32⟩ : BufTy).Contents (Elt Ideal)) = (Cert.ReferenceIdeal.Hand.B_G17b m' c) (Proc.devRef .tc Cert.ReferenceIdeal.main_arg22) :=
      (@Eq.trans ((⟨Cert.KernelIdeal.S2x500000, .i32⟩ : BufTy).Contents (Elt Ideal)) _ _ _ (Cert.KernelIdeal.Hand.W80_arg22 m g c) (@Eq.trans ((⟨Cert.KernelIdeal.S2x500000, .i32⟩ : BufTy).Contents (Elt Ideal)) _ _ _ (bridge.2.2.2.2.2.2.2.2.2.2.2.2.2.2.2.2.2.2.2.2.2.2) (@Eq.symm ((⟨Cert.KernelIdeal.S2x500000, .i32⟩ : BufTy).Contents (Elt Ideal)) _ _ (@Eq.trans ((⟨Cert.KernelIdeal.S2x500000, .i32⟩ : BufTy).Contents (Elt Ideal)) _ _ _ (@Eq.symm ((⟨Cert.KernelIdeal.S2x500000, .i32⟩ : BufTy).Contents (Elt Ideal)) _ _ (Cert.ReferenceIdeal.Hand.stable_G17b m' c Cert.ReferenceIdeal.main_arg22 (by decide))) (Cert.ReferenceIdeal.Hand.stable_B0 m' c Cert.ReferenceIdeal.main_arg22 (by decide))))))
  have aw80_G17b_12 :
      ((Cert.KernelIdeal.Gen.W80 m g c) (Proc.devRef .tc Cert.KernelIdeal.main_arg12) : (⟨Cert.KernelIdeal.S6x64, .f32⟩ : BufTy).Contents (Elt Ideal)) = (Cert.ReferenceIdeal.Hand.B_G17b m' c) (Proc.devRef .tc Cert.ReferenceIdeal.main_arg12) :=
      (@Eq.trans ((⟨Cert.KernelIdeal.S6x64, .f32⟩ : BufTy).Contents (Elt Ideal)) _ _ _ (Cert.KernelIdeal.Hand.W80_arg12 m g c) (@Eq.trans ((⟨Cert.KernelIdeal.S6x64, .f32⟩ : BufTy).Contents (Elt Ideal)) _ _ _ (bridge.2.2.2.2.2.2.2.2.2.2.2.2.1) (@Eq.symm ((⟨Cert.KernelIdeal.S6x64, .f32⟩ : BufTy).Contents (Elt Ideal)) _ _ (@Eq.trans ((⟨Cert.KernelIdeal.S6x64, .f32⟩ : BufTy).Contents (Elt Ideal)) _ _ _ (@Eq.symm ((⟨Cert.KernelIdeal.S6x64, .f32⟩ : BufTy).Contents (Elt Ideal)) _ _ (Cert.ReferenceIdeal.Hand.stable_G17b m' c Cert.ReferenceIdeal.main_arg12 (by decide))) (Cert.ReferenceIdeal.Hand.stable_B0 m' c Cert.ReferenceIdeal.main_arg12 (by decide))))))
  have aw80_G17b_15 :
      ((Cert.KernelIdeal.Gen.W80 m g c) (Proc.devRef .tc Cert.KernelIdeal.main_arg15) : (⟨Cert.KernelIdeal.S3x64, .f32⟩ : BufTy).Contents (Elt Ideal)) = (Cert.ReferenceIdeal.Hand.B_G17b m' c) (Proc.devRef .tc Cert.ReferenceIdeal.main_arg15) :=
      (@Eq.trans ((⟨Cert.KernelIdeal.S3x64, .f32⟩ : BufTy).Contents (Elt Ideal)) _ _ _ (Cert.KernelIdeal.Hand.W80_arg15 m g c) (@Eq.trans ((⟨Cert.KernelIdeal.S3x64, .f32⟩ : BufTy).Contents (Elt Ideal)) _ _ _ (bridge.2.2.2.2.2.2.2.2.2.2.2.2.2.2.2.1) (@Eq.symm ((⟨Cert.KernelIdeal.S3x64, .f32⟩ : BufTy).Contents (Elt Ideal)) _ _ (@Eq.trans ((⟨Cert.KernelIdeal.S3x64, .f32⟩ : BufTy).Contents (Elt Ideal)) _ _ _ (@Eq.symm ((⟨Cert.KernelIdeal.S3x64, .f32⟩ : BufTy).Contents (Elt Ideal)) _ _ (Cert.ReferenceIdeal.Hand.stable_G17b m' c Cert.ReferenceIdeal.main_arg15 (by decide))) (Cert.ReferenceIdeal.Hand.stable_B0 m' c Cert.ReferenceIdeal.main_arg15 (by decide))))))
  have aw80_G17b_16 :
      ((Cert.KernelIdeal.Gen.W80 m g c) (Proc.devRef .tc Cert.KernelIdeal.main_arg16) : (⟨Cert.KernelIdeal.S3x64, .f32⟩ : BufTy).Contents (Elt Ideal)) = (Cert.ReferenceIdeal.Hand.B_G17b m' c) (Proc.devRef .tc Cert.ReferenceIdeal.main_arg16) :=
      (@Eq.trans ((⟨Cert.KernelIdeal.S3x64, .f32⟩ : BufTy).Contents (Elt Ideal)) _ _ _ (Cert.KernelIdeal.Hand.W80_arg16 m g c) (@Eq.trans ((⟨Cert.KernelIdeal.S3x64, .f32⟩ : BufTy).Contents (Elt Ideal)) _ _ _ (bridge.2.2.2.2.2.2.2.2.2.2.2.2.2.2.2.2.1) (@Eq.symm ((⟨Cert.KernelIdeal.S3x64, .f32⟩ : BufTy).Contents (Elt Ideal)) _ _ (@Eq.trans ((⟨Cert.KernelIdeal.S3x64, .f32⟩ : BufTy).Contents (Elt Ideal)) _ _ _ (@Eq.symm ((⟨Cert.KernelIdeal.S3x64, .f32⟩ : BufTy).Contents (Elt Ideal)) _ _ (Cert.ReferenceIdeal.Hand.stable_G17b m' c Cert.ReferenceIdeal.main_arg16 (by decide))) (Cert.ReferenceIdeal.Hand.stable_B0 m' c Cert.ReferenceIdeal.main_arg16 (by decide))))))
  have aw86_L18_15 :
      ((Cert.KernelIdeal.Gen.W86 m g c) (Proc.devRef .tc Cert.KernelIdeal.main_arg15) : (⟨Cert.KernelIdeal.S3x64, .f32⟩ : BufTy).Contents (Elt Ideal)) = (Cert.ReferenceIdeal.Hand.B_L18 m' c) (Proc.devRef .tc Cert.ReferenceIdeal.main_arg15) :=
      (@Eq.trans ((⟨Cert.KernelIdeal.S3x64, .f32⟩ : BufTy).Contents (Elt Ideal)) _ _ _ (Cert.KernelIdeal.Hand.W86_arg15 m g c) (@Eq.trans ((⟨Cert.KernelIdeal.S3x64, .f32⟩ : BufTy).Contents (Elt Ideal)) _ _ _ (bridge.2.2.2.2.2.2.2.2.2.2.2.2.2.2.2.1) (@Eq.symm ((⟨Cert.KernelIdeal.S3x64, .f32⟩ : BufTy).Contents (Elt Ideal)) _ _ (@Eq.trans ((⟨Cert.KernelIdeal.S3x64, .f32⟩ : BufTy).Contents (Elt Ideal)) _ _ _ (@Eq.symm ((⟨Cert.KernelIdeal.S3x64, .f32⟩ : BufTy).Contents (Elt Ideal)) _ _ (Cert.ReferenceIdeal.Hand.stable_L18 m' c Cert.ReferenceIdeal.main_arg15 (by decide))) (Cert.ReferenceIdeal.Hand.stable_B0 m' c Cert.ReferenceIdeal.main_arg15 (by decide))))))
  have aw86_L18_16 :
      ((Cert.KernelIdeal.Gen.W86 m g c) (Proc.devRef .tc Cert.KernelIdeal.main_arg16) : (⟨Cert.KernelIdeal.S3x64, .f32⟩ : BufTy).Contents (Elt Ideal)) = (Cert.ReferenceIdeal.Hand.B_L18 m' c) (Proc.devRef .tc Cert.ReferenceIdeal.main_arg16) :=
      (@Eq.trans ((⟨Cert.KernelIdeal.S3x64, .f32⟩ : BufTy).Contents (Elt Ideal)) _ _ _ (Cert.KernelIdeal.Hand.W86_arg16 m g c) (@Eq.trans ((⟨Cert.KernelIdeal.S3x64, .f32⟩ : BufTy).Contents (Elt Ideal)) _ _ _ (bridge.2.2.2.2.2.2.2.2.2.2.2.2.2.2.2.2.1) (@Eq.symm ((⟨Cert.KernelIdeal.S3x64, .f32⟩ : BufTy).Contents (Elt Ideal)) _ _ (@Eq.trans ((⟨Cert.KernelIdeal.S3x64, .f32⟩ : BufTy).Contents (Elt Ideal)) _ _ _ (@Eq.symm ((⟨Cert.KernelIdeal.S3x64, .f32⟩ : BufTy).Contents (Elt Ideal)) _ _ (Cert.ReferenceIdeal.Hand.stable_L18 m' c Cert.ReferenceIdeal.main_arg16 (by decide))) (Cert.ReferenceIdeal.Hand.stable_B0 m' c Cert.ReferenceIdeal.main_arg16 (by decide))))))
  have aw88_L19_15 :
      ((Cert.KernelIdeal.Gen.W88 m g c) (Proc.devRef .tc Cert.KernelIdeal.main_arg15) : (⟨Cert.KernelIdeal.S3x64, .f32⟩ : BufTy).Contents (Elt Ideal)) = (Cert.ReferenceIdeal.Hand.B_L19 m' c) (Proc.devRef .tc Cert.ReferenceIdeal.main_arg15) :=
      (@Eq.trans ((⟨Cert.KernelIdeal.S3x64, .f32⟩ : BufTy).Contents (Elt Ideal)) _ _ _ (Cert.KernelIdeal.Hand.W88_arg15 m g c) (@Eq.trans ((⟨Cert.KernelIdeal.S3x64, .f32⟩ : BufTy).Contents (Elt Ideal)) _ _ _ (bridge.2.2.2.2.2.2.2.2.2.2.2.2.2.2.2.1) (@Eq.symm ((⟨Cert.KernelIdeal.S3x64, .f32⟩ : BufTy).Contents (Elt Ideal)) _ _ (@Eq.trans ((⟨Cert.KernelIdeal.S3x64, .f32⟩ : BufTy).Contents (Elt Ideal)) _ _ _ (@Eq.symm ((⟨Cert.KernelIdeal.S3x64, .f32⟩ : BufTy).Contents (Elt Ideal)) _ _ (Cert.ReferenceIdeal.Hand.stable_L19 m' c Cert.ReferenceIdeal.main_arg15 (by decide))) (Cert.ReferenceIdeal.Hand.stable_B0 m' c Cert.ReferenceIdeal.main_arg15 (by decide))))))
  have aw88_L19_16 :
      ((Cert.KernelIdeal.Gen.W88 m g c) (Proc.devRef .tc Cert.KernelIdeal.main_arg16) : (⟨Cert.KernelIdeal.S3x64, .f32⟩ : BufTy).Contents (Elt Ideal)) = (Cert.ReferenceIdeal.Hand.B_L19 m' c) (Proc.devRef .tc Cert.ReferenceIdeal.main_arg16) :=
      (@Eq.trans ((⟨Cert.KernelIdeal.S3x64, .f32⟩ : BufTy).Contents (Elt Ideal)) _ _ _ (Cert.KernelIdeal.Hand.W88_arg16 m g c) (@Eq.trans ((⟨Cert.KernelIdeal.S3x64, .f32⟩ : BufTy).Contents (Elt Ideal)) _ _ _ (bridge.2.2.2.2.2.2.2.2.2.2.2.2.2.2.2.2.1) (@Eq.symm ((⟨Cert.KernelIdeal.S3x64, .f32⟩ : BufTy).Contents (Elt Ideal)) _ _ (@Eq.trans ((⟨Cert.KernelIdeal.S3x64, .f32⟩ : BufTy).Contents (Elt Ideal)) _ _ _ (@Eq.symm ((⟨Cert.KernelIdeal.S3x64, .f32⟩ : BufTy).Contents (Elt Ideal)) _ _ (Cert.ReferenceIdeal.Hand.stable_L19 m' c Cert.ReferenceIdeal.main_arg16 (by decide))) (Cert.ReferenceIdeal.Hand.stable_B0 m' c Cert.ReferenceIdeal.main_arg16 (by decide))))))
  have p1_v0 :
      ((Cert.KernelIdeal.Gen.W1 m g c) (Proc.devRef .tc Cert.KernelIdeal.main_v0) : (⟨Cert.KernelIdeal.S1x128, .f32⟩ : BufTy).Contents (Elt Ideal)) = ((shapeCast _ ((Cert.ReferenceIdeal.Hand.B0 m' c) (Proc.devRef .tc Cert.ReferenceIdeal.main_arg4)) Cert.KernelIdeal.Facts₀.shapeCasts_S128_S1x128) : (⟨Cert.KernelIdeal.S1x128, .f32⟩ : BufTy).Contents (Elt Ideal)) :=
      g0_v0 (F := Ideal) (Cert.KernelIdeal.Gen.W0 m g c) (Cert.ReferenceIdeal.Hand.B0 m' c) aw0_B0_4
  have f2_v1 :
      ((Cert.KernelIdeal.Gen.W2 m g c) (Proc.devRef .tc Cert.KernelIdeal.main_v1) : (⟨Cert.KernelIdeal.S20000x128, .f32⟩ : BufTy).Contents (Elt Ideal)) = (Cert.ReferenceIdeal.Hand.BF m' c) (Proc.devRef .tc Cert.ReferenceIdeal.main_v3) := by
      have hx : ((Cert.KernelIdeal.Gen.V1 m g) c (Pipeline.arrRef Cert.KernelIdeal.spec0 0) : (⟨Cert.KernelIdeal.S20000x128, .f32⟩ : BufTy).Contents (Elt Ideal)) = (Cert.ReferenceIdeal.Hand.B0 m' c) (Proc.devRef .tc Cert.ReferenceIdeal.main_arg0) := aw1_B0_0
      have hw : ((Cert.KernelIdeal.Gen.V1 m g) c (Pipeline.arrRef Cert.KernelIdeal.spec0 1) : (⟨Cert.KernelIdeal.S128x128, .f32⟩ : BufTy).Contents (Elt Ideal)) = (Cert.ReferenceIdeal.Hand.B0 m' c) (Proc.devRef .tc Cert.ReferenceIdeal.main_arg3) := aw1_B0_3
      refine (@Eq.trans ((⟨Cert.KernelIdeal.S20000x128, .f32⟩ : BufTy).Contents (Elt Ideal)) _ _ _ (@Eq.trans ((⟨Cert.KernelIdeal.S20000x128, .f32⟩ : BufTy).Contents (Elt Ideal)) _ _ _ (Cert.KernelIdeal.Hand.W2_out m g c) (@Eq.trans ((⟨Cert.KernelIdeal.S20000x128, .f32⟩ : BufTy).Contents (Elt Ideal)) _ _ _ (Cert.KernelIdeal.Hand.lin_0 (Cert.KernelIdeal.Gen.V1 m g) c ((Cert.ReferenceIdeal.Hand.B0 m' c) (Proc.devRef .tc Cert.ReferenceIdeal.main_arg4)) p1_v0) ?_)) (@Eq.symm ((⟨Cert.KernelIdeal.S20000x128, .f32⟩ : BufTy).Contents (Elt Ideal)) _ _ (Cert.ReferenceIdeal.Hand.stable_P0 m' c Cert.ReferenceIdeal.main_v3 (by decide))))
      rw [hx, hw]
      exact (@Eq.symm ((⟨Cert.KernelIdeal.S20000x128, .f32⟩ : BufTy).Contents (Elt Ideal)) _ _ (ref_region0 (F := Ideal) (Cert.ReferenceIdeal.Hand.B0 m' c)))
  have f7_v1 :
      ((Cert.KernelIdeal.Gen.W7 m g c) (Proc.devRef .tc Cert.KernelIdeal.main_v1) : (⟨Cert.KernelIdeal.S20000x128, .f32⟩ : BufTy).Contents (Elt Ideal)) = (Cert.ReferenceIdeal.Hand.BF m' c) (Proc.devRef .tc Cert.ReferenceIdeal.main_v3) :=
      (@Eq.trans ((⟨Cert.KernelIdeal.S20000x128, .f32⟩ : BufTy).Contents (Elt Ideal)) _ _ _ (Cert.KernelIdeal.Hand.carry_main_v1_7 m g c) f2_v1)
  have f13_v1 :
      ((Cert.KernelIdeal.Gen.W13 m g c) (Proc.devRef .tc Cert.KernelIdeal.main_v1) : (⟨Cert.KernelIdeal.S20000x128, .f32⟩ : BufTy).Contents (Elt Ideal)) = (Cert.ReferenceIdeal.Hand.BF m' c) (Proc.devRef .tc Cert.ReferenceIdeal.main_v3) :=
      (@Eq.trans ((⟨Cert.KernelIdeal.S20000x128, .f32⟩ : BufTy).Contents (Elt Ideal)) _ _ _ (Cert.KernelIdeal.Hand.carry_main_v1_13 m g c) f2_v1)
  have p3_v2 :
      ((Cert.KernelIdeal.Gen.W3 m g c) (Proc.devRef .tc Cert.KernelIdeal.main_v2) : (⟨Cert.KernelIdeal.S1x128, .f32⟩ : BufTy).Contents (Elt Ideal)) = ((shapeCast _ ((Cert.ReferenceIdeal.Hand.B_P0 m' c) (Proc.devRef .tc Cert.ReferenceIdeal.main_arg6)) Cert.KernelIdeal.Facts₀.shapeCasts_S128_S1x128) : (⟨Cert.KernelIdeal.S1x128, .f32⟩ : BufTy).Contents (Elt Ideal)) :=
      g1_v2 (F := Ideal) (Cert.KernelIdeal.Gen.W2 m g c) (Cert.ReferenceIdeal.Hand.B_P0 m' c) aw2_P0_6
  have f4_v3 :
      ((Cert.KernelIdeal.Gen.W4 m g c) (Proc.devRef .tc Cert.KernelIdeal.main_v3) : (⟨Cert.KernelIdeal.S60000x128, .f32⟩ : BufTy).Contents (Elt Ideal)) = (Cert.ReferenceIdeal.Hand.BF m' c) (Proc.devRef .tc Cert.ReferenceIdeal.main_v7) := by
      have hx : ((Cert.KernelIdeal.Gen.V3 m g) c (Pipeline.arrRef Cert.KernelIdeal.spec1 0) : (⟨Cert.KernelIdeal.S60000x128, .f32⟩ : BufTy).Contents (Elt Ideal)) = (Cert.ReferenceIdeal.Hand.B_P0 m' c) (Proc.devRef .tc Cert.ReferenceIdeal.main_arg1) := aw3_P0_1
      have hw : ((Cert.KernelIdeal.Gen.V3 m g) c (Pipeline.arrRef Cert.KernelIdeal.spec1 1) : (⟨Cert.KernelIdeal.S128x128, .f32⟩ : BufTy).Contents (Elt Ideal)) = (Cert.ReferenceIdeal.Hand.B_P0 m' c) (Proc.devRef .tc Cert.ReferenceIdeal.main_arg5) := aw3_P0_5
      refine (@Eq.trans ((⟨Cert.KernelIdeal.S60000x128, .f32⟩ : BufTy).Contents (Elt Ideal)) _ _ _ (@Eq.trans ((⟨Cert.KernelIdeal.S60000x128, .f32⟩ : BufTy).Contents (Elt Ideal)) _ _ _ (Cert.KernelIdeal.Hand.W4_out m g c) (@Eq.trans ((⟨Cert.KernelIdeal.S60000x128, .f32⟩ : BufTy).Contents (Elt Ideal)) _ _ _ (Cert.KernelIdeal.Hand.lin_1 (Cert.KernelIdeal.Gen.V3 m g) c ((Cert.ReferenceIdeal.Hand.B_P0 m' c) (Proc.devRef .tc Cert.ReferenceIdeal.main_arg6)) p3_v2) ?_)) (@Eq.symm ((⟨Cert.KernelIdeal.S60000x128, .f32⟩ : BufTy).Contents (Elt Ideal)) _ _ (Cert.ReferenceIdeal.Hand.stable_P1 m' c Cert.ReferenceIdeal.main_v7 (by decide))))
      rw [hx, hw]
      exact (@Eq.symm ((⟨Cert.KernelIdeal.S60000x128, .f32⟩ : BufTy).Contents (Elt Ideal)) _ _ (ref_region1 (F := Ideal) (Cert.ReferenceIdeal.Hand.B_P0 m' c)))
  have f19_v3 :
      ((Cert.KernelIdeal.Gen.W19 m g c) (Proc.devRef .tc Cert.KernelIdeal.main_v3) : (⟨Cert.KernelIdeal.S60000x128, .f32⟩ : BufTy).Contents (Elt Ideal)) = (Cert.ReferenceIdeal.Hand.BF m' c) (Proc.devRef .tc Cert.ReferenceIdeal.main_v7) :=
      (@Eq.trans ((⟨Cert.KernelIdeal.S60000x128, .f32⟩ : BufTy).Contents (Elt Ideal)) _ _ _ (Cert.KernelIdeal.Hand.carry_main_v3_19 m g c) f4_v3)
  have f31_v3 :
      ((Cert.KernelIdeal.Gen.W31 m g c) (Proc.devRef .tc Cert.KernelIdeal.main_v3) : (⟨Cert.KernelIdeal.S60000x128, .f32⟩ : BufTy).Contents (Elt Ideal)) = (Cert.ReferenceIdeal.Hand.BF m' c) (Proc.devRef .tc Cert.ReferenceIdeal.main_v7) :=
      (@Eq.trans ((⟨Cert.KernelIdeal.S60000x128, .f32⟩ : BufTy).Contents (Elt Ideal)) _ _ _ (Cert.KernelIdeal.Hand.carry_main_v3_31 m g c) f4_v3)
  have p5_v4 :
      ((Cert.KernelIdeal.Gen.W5 m g c) (Proc.devRef .tc Cert.KernelIdeal.main_v4) : (⟨Cert.KernelIdeal.S1x128, .f32⟩ : BufTy).Contents (Elt Ideal)) = ((shapeCast _ ((Cert.ReferenceIdeal.Hand.B_P1 m' c) (Proc.devRef .tc Cert.ReferenceIdeal.main_arg8)) Cert.KernelIdeal.Facts₀.shapeCasts_S128_S1x128) : (⟨Cert.KernelIdeal.S1x128, .f32⟩ : BufTy).Contents (Elt Ideal)) :=
      g2_v4 (F := Ideal) (Cert.KernelIdeal.Gen.W4 m g c) (Cert.ReferenceIdeal.Hand.B_P1 m' c) aw4_P1_8
  have f6_v5 :
      ((Cert.KernelIdeal.Gen.W6 m g c) (Proc.devRef .tc Cert.KernelIdeal.main_v5) : (⟨Cert.KernelIdeal.S20000x128, .f32⟩ : BufTy).Contents (Elt Ideal)) = (Cert.ReferenceIdeal.Hand.BF m' c) (Proc.devRef .tc Cert.ReferenceIdeal.main_v11) := by
      have hx : ((Cert.KernelIdeal.Gen.V5 m g) c (Pipeline.arrRef Cert.KernelIdeal.spec2 0) : (⟨Cert.KernelIdeal.S20000x128, .f32⟩ : BufTy).Contents (Elt Ideal)) = (Cert.ReferenceIdeal.Hand.B_P1 m' c) (Proc.devRef .tc Cert.ReferenceIdeal.main_arg2) := aw5_P1_2
      have hw : ((Cert.KernelIdeal.Gen.V5 m g) c (Pipeline.arrRef Cert.KernelIdeal.spec2 1) : (⟨Cert.KernelIdeal.S128x128, .f32⟩ : BufTy).Contents (Elt Ideal)) = (Cert.ReferenceIdeal.Hand.B_P1 m' c) (Proc.devRef .tc Cert.ReferenceIdeal.main_arg7) := aw5_P1_7
      refine (@Eq.trans ((⟨Cert.KernelIdeal.S20000x128, .f32⟩ : BufTy).Contents (Elt Ideal)) _ _ _ (@Eq.trans ((⟨Cert.KernelIdeal.S20000x128, .f32⟩ : BufTy).Contents (Elt Ideal)) _ _ _ (Cert.KernelIdeal.Hand.W6_out m g c) (@Eq.trans ((⟨Cert.KernelIdeal.S20000x128, .f32⟩ : BufTy).Contents (Elt Ideal)) _ _ _ (Cert.KernelIdeal.Hand.lin_2 (Cert.KernelIdeal.Gen.V5 m g) c ((Cert.ReferenceIdeal.Hand.B_P1 m' c) (Proc.devRef .tc Cert.ReferenceIdeal.main_arg8)) p5_v4) ?_)) (@Eq.symm ((⟨Cert.KernelIdeal.S20000x128, .f32⟩ : BufTy).Contents (Elt Ideal)) _ _ (Cert.ReferenceIdeal.Hand.stable_P2 m' c Cert.ReferenceIdeal.main_v11 (by decide))))
      rw [hx, hw]
      exact (@Eq.symm ((⟨Cert.KernelIdeal.S20000x128, .f32⟩ : BufTy).Contents (Elt Ideal)) _ _ (ref_region2 (F := Ideal) (Cert.ReferenceIdeal.Hand.B_P1 m' c)))
  have f25_v5 :
      ((Cert.KernelIdeal.Gen.W25 m g c) (Proc.devRef .tc Cert.KernelIdeal.main_v5) : (⟨Cert.KernelIdeal.S20000x128, .f32⟩ : BufTy).Contents (Elt Ideal)) = (Cert.ReferenceIdeal.Hand.BF m' c) (Proc.devRef .tc Cert.ReferenceIdeal.main_v11) :=
      (@Eq.trans ((⟨Cert.KernelIdeal.S20000x128, .f32⟩ : BufTy).Contents (Elt Ideal)) _ _ _ (Cert.KernelIdeal.Hand.carry_main_v5_25 m g c) f6_v5)
  have f37_v5 :
      ((Cert.KernelIdeal.Gen.W37 m g c) (Proc.devRef .tc Cert.KernelIdeal.main_v5) : (⟨Cert.KernelIdeal.S20000x128, .f32⟩ : BufTy).Contents (Elt Ideal)) = (Cert.ReferenceIdeal.Hand.BF m' c) (Proc.devRef .tc Cert.ReferenceIdeal.main_v11) :=
      (@Eq.trans ((⟨Cert.KernelIdeal.S20000x128, .f32⟩ : BufTy).Contents (Elt Ideal)) _ _ _ (Cert.KernelIdeal.Hand.carry_main_v5_37 m g c) f6_v5)
  have f7_v6 :
      ((Cert.KernelIdeal.Gen.W7 m g c) (Proc.devRef .tc Cert.KernelIdeal.main_v6) : (⟨Cert.KernelIdeal.S20000x128, .f32⟩ : BufTy).Contents (Elt Ideal)) = (Cert.ReferenceIdeal.Hand.BF m' c) (Proc.devRef .tc Cert.ReferenceIdeal.main_v12) :=
      (@Eq.trans ((⟨Cert.KernelIdeal.S20000x128, .f32⟩ : BufTy).Contents (Elt Ideal)) _ _ _ (g3_v6 (F := Ideal) (Cert.KernelIdeal.Gen.W6 m g c) (Cert.ReferenceIdeal.Hand.B_P2 m' c)) (@Eq.symm ((⟨Cert.KernelIdeal.S20000x128, .f32⟩ : BufTy).Contents (Elt Ideal)) _ _ (Cert.ReferenceIdeal.Hand.stable_G3 m' c Cert.ReferenceIdeal.main_v12 (by decide))))
  have f26_v6 :
      ((Cert.KernelIdeal.Gen.W26 m g c) (Proc.devRef .tc Cert.KernelIdeal.main_v6) : (⟨Cert.KernelIdeal.S20000x128, .f32⟩ : BufTy).Contents (Elt Ideal)) = (Cert.ReferenceIdeal.Hand.BF m' c) (Proc.devRef .tc Cert.ReferenceIdeal.main_v12) :=
      (@Eq.trans ((⟨Cert.KernelIdeal.S20000x128, .f32⟩ : BufTy).Contents (Elt Ideal)) _ _ _ (Cert.KernelIdeal.Hand.carry_main_v6_26 m g c) f7_v6)
  have f7_v7 :
      ((Cert.KernelIdeal.Gen.W7 m g c) (Proc.devRef .tc Cert.KernelIdeal.main_v7) : (⟨Cert.KernelIdeal.S60000x128, .f32⟩ : BufTy).Contents (Elt Ideal)) = (Cert.ReferenceIdeal.Hand.BF m' c) (Proc.devRef .tc Cert.ReferenceIdeal.main_v13) :=
      (@Eq.trans ((⟨Cert.KernelIdeal.S60000x128, .f32⟩ : BufTy).Contents (Elt Ideal)) _ _ _ (g3_v7 (F := Ideal) (Cert.KernelIdeal.Gen.W6 m g c) (Cert.ReferenceIdeal.Hand.B_P2 m' c)) (@Eq.symm ((⟨Cert.KernelIdeal.S60000x128, .f32⟩ : BufTy).Contents (Elt Ideal)) _ _ (Cert.ReferenceIdeal.Hand.stable_G3 m' c Cert.ReferenceIdeal.main_v13 (by decide))))
  have f14_v7 :
      ((Cert.KernelIdeal.Gen.W14 m g c) (Proc.devRef .tc Cert.KernelIdeal.main_v7) : (⟨Cert.KernelIdeal.S60000x128, .f32⟩ : BufTy).Contents (Elt Ideal)) = (Cert.ReferenceIdeal.Hand.BF m' c) (Proc.devRef .tc Cert.ReferenceIdeal.main_v13) :=
      (@Eq.trans ((⟨Cert.KernelIdeal.S60000x128, .f32⟩ : BufTy).Contents (Elt Ideal)) _ _ _ (Cert.KernelIdeal.Hand.carry_main_v7_14 m g c) f7_v7)
  have f7_v8 :
      ((Cert.KernelIdeal.Gen.W7 m g c) (Proc.devRef .tc Cert.KernelIdeal.main_v8) : (⟨Cert.KernelIdeal.S20000x128, .f32⟩ : BufTy).Contents (Elt Ideal)) = (Cert.ReferenceIdeal.Hand.BF m' c) (Proc.devRef .tc Cert.ReferenceIdeal.main_v14) :=
      (@Eq.trans ((⟨Cert.KernelIdeal.S20000x128, .f32⟩ : BufTy).Contents (Elt Ideal)) _ _ _ (g3_v8 (F := Ideal) (Cert.KernelIdeal.Gen.W6 m g c) (Cert.ReferenceIdeal.Hand.B_P2 m' c)) (@Eq.symm ((⟨Cert.KernelIdeal.S20000x128, .f32⟩ : BufTy).Contents (Elt Ideal)) _ _ (Cert.ReferenceIdeal.Hand.stable_G3 m' c Cert.ReferenceIdeal.main_v14 (by decide))))
  have f8_v8 :
      ((Cert.KernelIdeal.Gen.W8 m g c) (Proc.devRef .tc Cert.KernelIdeal.main_v8) : (⟨Cert.KernelIdeal.S20000x128, .f32⟩ : BufTy).Contents (Elt Ideal)) = (Cert.ReferenceIdeal.Hand.BF m' c) (Proc.devRef .tc Cert.ReferenceIdeal.main_v14) :=
      (@Eq.trans ((⟨Cert.KernelIdeal.S20000x128, .f32⟩ : BufTy).Contents (Elt Ideal)) _ _ _ (Cert.KernelIdeal.Hand.carry_main_v8_8 m g c) f7_v8)
  have f7_v11 :
      ((Cert.KernelIdeal.Gen.W7 m g c) (Proc.devRef .tc Cert.KernelIdeal.main_v11) : (⟨Cert.KernelIdeal.S128x128, .f32⟩ : BufTy).Contents (Elt Ideal)) = (Cert.ReferenceIdeal.Hand.BF m' c) (Proc.devRef .tc Cert.ReferenceIdeal.main_v16) :=
      (@Eq.trans ((⟨Cert.KernelIdeal.S128x128, .f32⟩ : BufTy).Contents (Elt Ideal)) _ _ _ (g3_v11 (F := Ideal) (Cert.KernelIdeal.Gen.W6 m g c) (Cert.ReferenceIdeal.Hand.B_P2 m' c) aw6_P2_9) (@Eq.symm ((⟨Cert.KernelIdeal.S128x128, .f32⟩ : BufTy).Contents (Elt Ideal)) _ _ (Cert.ReferenceIdeal.Hand.stable_G3 m' c Cert.ReferenceIdeal.main_v16 (by decide))))
  have p7_v12 :
      ((Cert.KernelIdeal.Gen.W7 m g c) (Proc.devRef .tc Cert.KernelIdeal.main_v12) : (⟨Cert.KernelIdeal.S1x128, .f32⟩ : BufTy).Contents (Elt Ideal)) = ((shapeCast _ (broadcastInDim Cert.KernelIdeal.S128 ![] Cert.KernelIdeal.Facts₀.bcast_S_S128 (constant (F := Ideal) Cert.KernelIdeal.S_ .f32 0x00000000#32)) Cert.KernelIdeal.Facts₀.shapeCasts_S128_S1x128) : (⟨Cert.KernelIdeal.S1x128, .f32⟩ : BufTy).Contents (Elt Ideal)) :=
      g3_v12 (F := Ideal) (Cert.KernelIdeal.Gen.W6 m g c) (Cert.ReferenceIdeal.Hand.B_P2 m' c)
  have r3 :
      ((Cert.KernelIdeal.Gen.W8 m g c) (Proc.devRef .tc Cert.KernelIdeal.main_v13) : (⟨Cert.KernelIdeal.S20000x128, .f32⟩ : BufTy).Contents (Elt Ideal)) = (Host.dotGeneral (F := Ideal) (φ₁ := .f32) (φ₂ := .f32) Cert.ReferenceIdeal.dot_S20000x128_S128x128_S20000x128_1_0_0_1_n_n none ((Cert.ReferenceIdeal.Hand.B_G3 m' c) (Proc.devRef .tc Cert.ReferenceIdeal.main_v3)) ((Cert.ReferenceIdeal.Hand.B_G3 m' c) (Proc.devRef .tc Cert.ReferenceIdeal.main_v16))) := by
      have hx : ((Cert.KernelIdeal.Gen.V7 m g) c (Pipeline.arrRef Cert.KernelIdeal.spec3 0) : (⟨Cert.KernelIdeal.S20000x128, .f32⟩ : BufTy).Contents (Elt Ideal)) = (Cert.ReferenceIdeal.Hand.B_G3 m' c) (Proc.devRef .tc Cert.ReferenceIdeal.main_v3) :=
        (@Eq.trans ((⟨Cert.KernelIdeal.S20000x128, .f32⟩ : BufTy).Contents (Elt Ideal)) _ _ _ f7_v1 (Cert.ReferenceIdeal.Hand.stable_G3 m' c Cert.ReferenceIdeal.main_v3 (by decide)))
      have hw : ((Cert.KernelIdeal.Gen.V7 m g) c (Pipeline.arrRef Cert.KernelIdeal.spec3 1) : (⟨Cert.KernelIdeal.S128x128, .f32⟩ : BufTy).Contents (Elt Ideal)) = (Cert.ReferenceIdeal.Hand.B_G3 m' c) (Proc.devRef .tc Cert.ReferenceIdeal.main_v16) :=
        (@Eq.trans ((⟨Cert.KernelIdeal.S128x128, .f32⟩ : BufTy).Contents (Elt Ideal)) _ _ _ f7_v11 (Cert.ReferenceIdeal.Hand.stable_G3 m' c Cert.ReferenceIdeal.main_v16 (by decide)))
      refine (@Eq.trans ((⟨Cert.KernelIdeal.S20000x128, .f32⟩ : BufTy).Contents (Elt Ideal)) _ _ _ (Cert.KernelIdeal.Hand.W8_out m g c) (@Eq.trans ((⟨Cert.KernelIdeal.S20000x128, .f32⟩ : BufTy).Contents (Elt Ideal)) _ _ _ (Cert.KernelIdeal.Hand.lin_3 (Cert.KernelIdeal.Gen.V7 m g) c p7_v12) ?_))
      rw [hx, hw]
  have f13_v70 :
      ((Cert.KernelIdeal.Gen.W13 m g c) (Proc.devRef .tc Cert.KernelIdeal.main_v70) : (⟨Cert.KernelIdeal.S20000x128, .f32⟩ : BufTy).Contents (Elt Ideal)) = (Cert.ReferenceIdeal.Hand.BF m' c) (Proc.devRef .tc Cert.ReferenceIdeal.main_v74) :=
      (@Eq.trans ((⟨Cert.KernelIdeal.S20000x128, .f32⟩ : BufTy).Contents (Elt Ideal)) _ _ _ (g4_v70 (F := Ideal) (Cert.KernelIdeal.Gen.W8 m g c) (Cert.ReferenceIdeal.Hand.B_G3 m' c) (@Eq.trans ((⟨Cert.KernelIdeal.S20000x128, .f32⟩ : BufTy).Contents (Elt Ideal)) _ _ _ f8_v8 (Cert.ReferenceIdeal.Hand.stable_G3 m' c Cert.ReferenceIdeal.main_v14 (by decide))) r3 aw8_G3_17 aw8_G3_10) (@Eq.symm ((⟨Cert.KernelIdeal.S20000x128, .f32⟩ : BufTy).Contents (Elt Ideal)) _ _ (Cert.ReferenceIdeal.Hand.stable_G4b m' c Cert.ReferenceIdeal.main_v74 (by decide))))
  have f20_v70 :
      ((Cert.KernelIdeal.Gen.W20 m g c) (Proc.devRef .tc Cert.KernelIdeal.main_v70) : (⟨Cert.KernelIdeal.S20000x128, .f32⟩ : BufTy).Contents (Elt Ideal)) = (Cert.ReferenceIdeal.Hand.BF m' c) (Proc.devRef .tc Cert.ReferenceIdeal.main_v74) :=
      (@Eq.trans ((⟨Cert.KernelIdeal.S20000x128, .f32⟩ : BufTy).Contents (Elt Ideal)) _ _ _ (Cert.KernelIdeal.Hand.carry_main_v70_20 m g c) f13_v70)
  have f13_v73 :
      ((Cert.KernelIdeal.Gen.W13 m g c) (Proc.devRef .tc Cert.KernelIdeal.main_v73) : (⟨Cert.KernelIdeal.S128x128, .f32⟩ : BufTy).Contents (Elt Ideal)) = (Cert.ReferenceIdeal.Hand.BF m' c) (Proc.devRef .tc Cert.ReferenceIdeal.main_v76) :=
      (@Eq.trans ((⟨Cert.KernelIdeal.S128x128, .f32⟩ : BufTy).Contents (Elt Ideal)) _ _ _ (g4_v73 (F := Ideal) (Cert.KernelIdeal.Gen.W8 m g c) (Cert.ReferenceIdeal.Hand.B_G3 m' c) aw8_G3_9) (@Eq.symm ((⟨Cert.KernelIdeal.S128x128, .f32⟩ : BufTy).Contents (Elt Ideal)) _ _ (Cert.ReferenceIdeal.Hand.stable_G4b m' c Cert.ReferenceIdeal.main_v76 (by decide))))
  have p13_v74 :
      ((Cert.KernelIdeal.Gen.W13 m g c) (Proc.devRef .tc Cert.KernelIdeal.main_v74) : (⟨Cert.KernelIdeal.S1x128, .f32⟩ : BufTy).Contents (Elt Ideal)) = ((shapeCast _ (broadcastInDim Cert.KernelIdeal.S128 ![] Cert.KernelIdeal.Facts₀.bcast_S_S128 (constant (F := Ideal) Cert.KernelIdeal.S_ .f32 0x00000000#32)) Cert.KernelIdeal.Facts₀.shapeCasts_S128_S1x128) : (⟨Cert.KernelIdeal.S1x128, .f32⟩ : BufTy).Contents (Elt Ideal)) :=
      g4_v74 (F := Ideal) (Cert.KernelIdeal.Gen.W8 m g c) (Cert.ReferenceIdeal.Hand.B_G3 m' c)
  have r4 :
      ((Cert.KernelIdeal.Gen.W14 m g c) (Proc.devRef .tc Cert.KernelIdeal.main_v75) : (⟨Cert.KernelIdeal.S20000x128, .f32⟩ : BufTy).Contents (Elt Ideal)) = (Host.dotGeneral (F := Ideal) (φ₁ := .f32) (φ₂ := .f32) Cert.ReferenceIdeal.dot_S20000x128_S128x128_S20000x128_1_0_0_1_n_n none ((Cert.ReferenceIdeal.Hand.B_G4b m' c) (Proc.devRef .tc Cert.ReferenceIdeal.main_v3)) ((Cert.ReferenceIdeal.Hand.B_G4b m' c) (Proc.devRef .tc Cert.ReferenceIdeal.main_v76))) := by
      have hx : ((Cert.KernelIdeal.Gen.V13 m g) c (Pipeline.arrRef Cert.KernelIdeal.spec4 0) : (⟨Cert.KernelIdeal.S20000x128, .f32⟩ : BufTy).Contents (Elt Ideal)) = (Cert.ReferenceIdeal.Hand.B_G4b m' c) (Proc.devRef .tc Cert.ReferenceIdeal.main_v3) :=
        (@Eq.trans ((⟨Cert.KernelIdeal.S20000x128, .f32⟩ : BufTy).Contents (Elt Ideal)) _ _ _ f13_v1 (Cert.ReferenceIdeal.Hand.stable_G4b m' c Cert.ReferenceIdeal.main_v3 (by decide)))
      have hw : ((Cert.KernelIdeal.Gen.V13 m g) c (Pipeline.arrRef Cert.KernelIdeal.spec4 1) : (⟨Cert.KernelIdeal.S128x128, .f32⟩ : BufTy).Contents (Elt Ideal)) = (Cert.ReferenceIdeal.Hand.B_G4b m' c) (Proc.devRef .tc Cert.ReferenceIdeal.main_v76) :=
        (@Eq.trans ((⟨Cert.KernelIdeal.S128x128, .f32⟩ : BufTy).Contents (Elt Ideal)) _ _ _ f13_v73 (Cert.ReferenceIdeal.Hand.stable_G4b m' c Cert.ReferenceIdeal.main_v76 (by decide)))
      refine (@Eq.trans ((⟨Cert.KernelIdeal.S20000x128, .f32⟩ : BufTy).Contents (Elt Ideal)) _ _ _ (Cert.KernelIdeal.Hand.W14_out m g c) (@Eq.trans ((⟨Cert.KernelIdeal.S20000x128, .f32⟩ : BufTy).Contents (Elt Ideal)) _ _ _ (Cert.KernelIdeal.Hand.lin_4 (Cert.KernelIdeal.Gen.V13 m g) c p13_v74) ?_))
      rw [hx, hw]
  have f19_v132 :
      ((Cert.KernelIdeal.Gen.W19 m g c) (Proc.devRef .tc Cert.KernelIdeal.main_v132) : (⟨Cert.KernelIdeal.S60000x128, .f32⟩ : BufTy).Contents (Elt Ideal)) = (Cert.ReferenceIdeal.Hand.BF m' c) (Proc.devRef .tc Cert.ReferenceIdeal.main_v134) :=
      (@Eq.trans ((⟨Cert.KernelIdeal.S60000x128, .f32⟩ : BufTy).Contents (Elt Ideal)) _ _ _ (g5_v132 (F := Ideal) (Cert.KernelIdeal.Gen.W14 m g c) (Cert.ReferenceIdeal.Hand.B_G4b m' c) (@Eq.trans ((⟨Cert.KernelIdeal.S60000x128, .f32⟩ : BufTy).Contents (Elt Ideal)) _ _ _ f14_v7 (Cert.ReferenceIdeal.Hand.stable_G4b m' c Cert.ReferenceIdeal.main_v13 (by decide))) r4 aw14_G4b_18 aw14_G4b_10) (@Eq.symm ((⟨Cert.KernelIdeal.S60000x128, .f32⟩ : BufTy).Contents (Elt Ideal)) _ _ (Cert.ReferenceIdeal.Hand.stable_G5b m' c Cert.ReferenceIdeal.main_v134 (by decide))))
  have f38_v132 :
      ((Cert.KernelIdeal.Gen.W38 m g c) (Proc.devRef .tc Cert.KernelIdeal.main_v132) : (⟨Cert.KernelIdeal.S60000x128, .f32⟩ : BufTy).Contents (Elt Ideal)) = (Cert.ReferenceIdeal.Hand.BF m' c) (Proc.devRef .tc Cert.ReferenceIdeal.main_v134) :=
      (@Eq.trans ((⟨Cert.KernelIdeal.S60000x128, .f32⟩ : BufTy).Contents (Elt Ideal)) _ _ _ (Cert.KernelIdeal.Hand.carry_main_v132_38 m g c) f19_v132)
  have f19_v135 :
      ((Cert.KernelIdeal.Gen.W19 m g c) (Proc.devRef .tc Cert.KernelIdeal.main_v135) : (⟨Cert.KernelIdeal.S128x128, .f32⟩ : BufTy).Contents (Elt Ideal)) = (Cert.ReferenceIdeal.Hand.BF m' c) (Proc.devRef .tc Cert.ReferenceIdeal.main_v136) :=
      (@Eq.trans ((⟨Cert.KernelIdeal.S128x128, .f32⟩ : BufTy).Contents (Elt Ideal)) _ _ _ (g5_v135 (F := Ideal) (Cert.KernelIdeal.Gen.W14 m g c) (Cert.ReferenceIdeal.Hand.B_G4b m' c) aw14_G4b_9) (@Eq.symm ((⟨Cert.KernelIdeal.S128x128, .f32⟩ : BufTy).Contents (Elt Ideal)) _ _ (Cert.ReferenceIdeal.Hand.stable_G5b m' c Cert.ReferenceIdeal.main_v136 (by decide))))
  have p19_v136 :
      ((Cert.KernelIdeal.Gen.W19 m g c) (Proc.devRef .tc Cert.KernelIdeal.main_v136) : (⟨Cert.KernelIdeal.S1x128, .f32⟩ : BufTy).Contents (Elt Ideal)) = ((shapeCast _ (broadcastInDim Cert.KernelIdeal.S128 ![] Cert.KernelIdeal.Facts₀.bcast_S_S128 (constant (F := Ideal) Cert.KernelIdeal.S_ .f32 0x00000000#32)) Cert.KernelIdeal.Facts₀.shapeCasts_S128_S1x128) : (⟨Cert.KernelIdeal.S1x128, .f32⟩ : BufTy).Contents (Elt Ideal)) :=
      g5_v136 (F := Ideal) (Cert.KernelIdeal.Gen.W14 m g c) (Cert.ReferenceIdeal.Hand.B_G4b m' c)
  have r5 :
      ((Cert.KernelIdeal.Gen.W20 m g c) (Proc.devRef .tc Cert.KernelIdeal.main_v137) : (⟨Cert.KernelIdeal.S60000x128, .f32⟩ : BufTy).Contents (Elt Ideal)) = (Host.dotGeneral (F := Ideal) (φ₁ := .f32) (φ₂ := .f32) Cert.ReferenceIdeal.dot_S60000x128_S128x128_S60000x128_1_0_0_1_n_n none ((Cert.ReferenceIdeal.Hand.B_G5b m' c) (Proc.devRef .tc Cert.ReferenceIdeal.main_v7)) ((Cert.ReferenceIdeal.Hand.B_G5b m' c) (Proc.devRef .tc Cert.ReferenceIdeal.main_v136))) := by
      have hx : ((Cert.KernelIdeal.Gen.V19 m g) c (Pipeline.arrRef Cert.KernelIdeal.spec5 0) : (⟨Cert.KernelIdeal.S60000x128, .f32⟩ : BufTy).Contents (Elt Ideal)) = (Cert.ReferenceIdeal.Hand.B_G5b m' c) (Proc.devRef .tc Cert.ReferenceIdeal.main_v7) :=
        (@Eq.trans ((⟨Cert.KernelIdeal.S60000x128, .f32⟩ : BufTy).Contents (Elt Ideal)) _ _ _ f19_v3 (Cert.ReferenceIdeal.Hand.stable_G5b m' c Cert.ReferenceIdeal.main_v7 (by decide)))
      have hw : ((Cert.KernelIdeal.Gen.V19 m g) c (Pipeline.arrRef Cert.KernelIdeal.spec5 1) : (⟨Cert.KernelIdeal.S128x128, .f32⟩ : BufTy).Contents (Elt Ideal)) = (Cert.ReferenceIdeal.Hand.B_G5b m' c) (Proc.devRef .tc Cert.ReferenceIdeal.main_v136) :=
        (@Eq.trans ((⟨Cert.KernelIdeal.S128x128, .f32⟩ : BufTy).Contents (Elt Ideal)) _ _ _ f19_v135 (Cert.ReferenceIdeal.Hand.stable_G5b m' c Cert.ReferenceIdeal.main_v136 (by decide)))
      refine (@Eq.trans ((⟨Cert.KernelIdeal.S60000x128, .f32⟩ : BufTy).Contents (Elt Ideal)) _ _ _ (Cert.KernelIdeal.Hand.W20_out m g c) (@Eq.trans ((⟨Cert.KernelIdeal.S60000x128, .f32⟩ : BufTy).Contents (Elt Ideal)) _ _ _ (Cert.KernelIdeal.Hand.lin_5 (Cert.KernelIdeal.Gen.V19 m g) c p19_v136) ?_))
      rw [hx, hw]
  have f25_v194 :
      ((Cert.KernelIdeal.Gen.W25 m g c) (Proc.devRef .tc Cert.KernelIdeal.main_v194) : (⟨Cert.KernelIdeal.S20000x128, .f32⟩ : BufTy).Contents (Elt Ideal)) = (Cert.ReferenceIdeal.Hand.BF m' c) (Proc.devRef .tc Cert.ReferenceIdeal.main_v194) :=
      (@Eq.trans ((⟨Cert.KernelIdeal.S20000x128, .f32⟩ : BufTy).Contents (Elt Ideal)) _ _ _ (g6_v194 (F := Ideal) (Cert.KernelIdeal.Gen.W20 m g c) (Cert.ReferenceIdeal.Hand.B_G5b m' c) (@Eq.trans ((⟨Cert.KernelIdeal.S20000x128, .f32⟩ : BufTy).Contents (Elt Ideal)) _ _ _ f20_v70 (Cert.ReferenceIdeal.Hand.stable_G5b m' c Cert.ReferenceIdeal.main_v74 (by decide))) r5 aw20_G5b_19 aw20_G5b_10) (@Eq.symm ((⟨Cert.KernelIdeal.S20000x128, .f32⟩ : BufTy).Contents (Elt Ideal)) _ _ (Cert.ReferenceIdeal.Hand.stable_G6b m' c Cert.ReferenceIdeal.main_v194 (by decide))))
  have f47_v194 :
      ((Cert.KernelIdeal.Gen.W47 m g c) (Proc.devRef .tc Cert.KernelIdeal.main_v194) : (⟨Cert.KernelIdeal.S20000x128, .f32⟩ : BufTy).Contents (Elt Ideal)) = (Cert.ReferenceIdeal.Hand.BF m' c) (Proc.devRef .tc Cert.ReferenceIdeal.main_v194) :=
      (@Eq.trans ((⟨Cert.KernelIdeal.S20000x128, .f32⟩ : BufTy).Contents (Elt Ideal)) _ _ _ (Cert.KernelIdeal.Hand.carry_main_v194_47 m g c) f25_v194)
  have f25_v197 :
      ((Cert.KernelIdeal.Gen.W25 m g c) (Proc.devRef .tc Cert.KernelIdeal.main_v197) : (⟨Cert.KernelIdeal.S128x128, .f32⟩ : BufTy).Contents (Elt Ideal)) = (Cert.ReferenceIdeal.Hand.BF m' c) (Proc.devRef .tc Cert.ReferenceIdeal.main_v196) :=
      (@Eq.trans ((⟨Cert.KernelIdeal.S128x128, .f32⟩ : BufTy).Contents (Elt Ideal)) _ _ _ (g6_v197 (F := Ideal) (Cert.KernelIdeal.Gen.W20 m g c) (Cert.ReferenceIdeal.Hand.B_G5b m' c) aw20_G5b_9) (@Eq.symm ((⟨Cert.KernelIdeal.S128x128, .f32⟩ : BufTy).Contents (Elt Ideal)) _ _ (Cert.ReferenceIdeal.Hand.stable_G6b m' c Cert.ReferenceIdeal.main_v196 (by decide))))
  have p25_v198 :
      ((Cert.KernelIdeal.Gen.W25 m g c) (Proc.devRef .tc Cert.KernelIdeal.main_v198) : (⟨Cert.KernelIdeal.S1x128, .f32⟩ : BufTy).Contents (Elt Ideal)) = ((shapeCast _ (broadcastInDim Cert.KernelIdeal.S128 ![] Cert.KernelIdeal.Facts₀.bcast_S_S128 (constant (F := Ideal) Cert.KernelIdeal.S_ .f32 0x00000000#32)) Cert.KernelIdeal.Facts₀.shapeCasts_S128_S1x128) : (⟨Cert.KernelIdeal.S1x128, .f32⟩ : BufTy).Contents (Elt Ideal)) :=
      g6_v198 (F := Ideal) (Cert.KernelIdeal.Gen.W20 m g c) (Cert.ReferenceIdeal.Hand.B_G5b m' c)
  have r6 :
      ((Cert.KernelIdeal.Gen.W26 m g c) (Proc.devRef .tc Cert.KernelIdeal.main_v199) : (⟨Cert.KernelIdeal.S20000x128, .f32⟩ : BufTy).Contents (Elt Ideal)) = (Host.dotGeneral (F := Ideal) (φ₁ := .f32) (φ₂ := .f32) Cert.ReferenceIdeal.dot_S20000x128_S128x128_S20000x128_1_0_0_1_n_n none ((Cert.ReferenceIdeal.Hand.B_G6b m' c) (Proc.devRef .tc Cert.ReferenceIdeal.main_v11)) ((Cert.ReferenceIdeal.Hand.B_G6b m' c) (Proc.devRef .tc Cert.ReferenceIdeal.main_v196))) := by
      have hx : ((Cert.KernelIdeal.Gen.V25 m g) c (Pipeline.arrRef Cert.KernelIdeal.spec6 0) : (⟨Cert.KernelIdeal.S20000x128, .f32⟩ : BufTy).Contents (Elt Ideal)) = (Cert.ReferenceIdeal.Hand.B_G6b m' c) (Proc.devRef .tc Cert.ReferenceIdeal.main_v11) :=
        (@Eq.trans ((⟨Cert.KernelIdeal.S20000x128, .f32⟩ : BufTy).Contents (Elt Ideal)) _ _ _ f25_v5 (Cert.ReferenceIdeal.Hand.stable_G6b m' c Cert.ReferenceIdeal.main_v11 (by decide)))
      have hw : ((Cert.KernelIdeal.Gen.V25 m g) c (Pipeline.arrRef Cert.KernelIdeal.spec6 1) : (⟨Cert.KernelIdeal.S128x128, .f32⟩ : BufTy).Contents (Elt Ideal)) = (Cert.ReferenceIdeal.Hand.B_G6b m' c) (Proc.devRef .tc Cert.ReferenceIdeal.main_v196) :=
        (@Eq.trans ((⟨Cert.KernelIdeal.S128x128, .f32⟩ : BufTy).Contents (Elt Ideal)) _ _ _ f25_v197 (Cert.ReferenceIdeal.Hand.stable_G6b m' c Cert.ReferenceIdeal.main_v196 (by decide)))
      refine (@Eq.trans ((⟨Cert.KernelIdeal.S20000x128, .f32⟩ : BufTy).Contents (Elt Ideal)) _ _ _ (Cert.KernelIdeal.Hand.W26_out m g c) (@Eq.trans ((⟨Cert.KernelIdeal.S20000x128, .f32⟩ : BufTy).Contents (Elt Ideal)) _ _ _ (Cert.KernelIdeal.Hand.lin_6 (Cert.KernelIdeal.Gen.V25 m g) c p25_v198) ?_))
      rw [hx, hw]
  have f31_v256 :
      ((Cert.KernelIdeal.Gen.W31 m g c) (Proc.devRef .tc Cert.KernelIdeal.main_v256) : (⟨Cert.KernelIdeal.S20000x128, .f32⟩ : BufTy).Contents (Elt Ideal)) = (Cert.ReferenceIdeal.Hand.BF m' c) (Proc.devRef .tc Cert.ReferenceIdeal.main_v254) :=
      (@Eq.trans ((⟨Cert.KernelIdeal.S20000x128, .f32⟩ : BufTy).Contents (Elt Ideal)) _ _ _ (g7_v256 (F := Ideal) (Cert.KernelIdeal.Gen.W26 m g c) (Cert.ReferenceIdeal.Hand.B_G6b m' c) (@Eq.trans ((⟨Cert.KernelIdeal.S20000x128, .f32⟩ : BufTy).Contents (Elt Ideal)) _ _ _ f26_v6 (Cert.ReferenceIdeal.Hand.stable_G6b m' c Cert.ReferenceIdeal.main_v12 (by decide))) r6 aw26_G6b_20 aw26_G6b_10) (@Eq.symm ((⟨Cert.KernelIdeal.S20000x128, .f32⟩ : BufTy).Contents (Elt Ideal)) _ _ (Cert.ReferenceIdeal.Hand.stable_G7b m' c Cert.ReferenceIdeal.main_v254 (by decide))))
  have f32_v256 :
      ((Cert.KernelIdeal.Gen.W32 m g c) (Proc.devRef .tc Cert.KernelIdeal.main_v256) : (⟨Cert.KernelIdeal.S20000x128, .f32⟩ : BufTy).Contents (Elt Ideal)) = (Cert.ReferenceIdeal.Hand.BF m' c) (Proc.devRef .tc Cert.ReferenceIdeal.main_v254) :=
      (@Eq.trans ((⟨Cert.KernelIdeal.S20000x128, .f32⟩ : BufTy).Contents (Elt Ideal)) _ _ _ (Cert.KernelIdeal.Hand.carry_main_v256_32 m g c) f31_v256)
  have f31_v259 :
      ((Cert.KernelIdeal.Gen.W31 m g c) (Proc.devRef .tc Cert.KernelIdeal.main_v259) : (⟨Cert.KernelIdeal.S128x128, .f32⟩ : BufTy).Contents (Elt Ideal)) = (Cert.ReferenceIdeal.Hand.BF m' c) (Proc.devRef .tc Cert.ReferenceIdeal.main_v256) :=
      (@Eq.trans ((⟨Cert.KernelIdeal.S128x128, .f32⟩ : BufTy).Contents (Elt Ideal)) _ _ _ (g7_v259 (F := Ideal) (Cert.KernelIdeal.Gen.W26 m g c) (Cert.ReferenceIdeal.Hand.B_G6b m' c) aw26_G6b_9) (@Eq.symm ((⟨Cert.KernelIdeal.S128x128, .f32⟩ : BufTy).Contents (Elt Ideal)) _ _ (Cert.ReferenceIdeal.Hand.stable_G7b m' c Cert.ReferenceIdeal.main_v256 (by decide))))
  have p31_v260 :
      ((Cert.KernelIdeal.Gen.W31 m g c) (Proc.devRef .tc Cert.KernelIdeal.main_v260) : (⟨Cert.KernelIdeal.S1x128, .f32⟩ : BufTy).Contents (Elt Ideal)) = ((shapeCast _ (broadcastInDim Cert.KernelIdeal.S128 ![] Cert.KernelIdeal.Facts₀.bcast_S_S128 (constant (F := Ideal) Cert.KernelIdeal.S_ .f32 0x00000000#32)) Cert.KernelIdeal.Facts₀.shapeCasts_S128_S1x128) : (⟨Cert.KernelIdeal.S1x128, .f32⟩ : BufTy).Contents (Elt Ideal)) :=
      g7_v260 (F := Ideal) (Cert.KernelIdeal.Gen.W26 m g c) (Cert.ReferenceIdeal.Hand.B_G6b m' c)
  have r7 :
      ((Cert.KernelIdeal.Gen.W32 m g c) (Proc.devRef .tc Cert.KernelIdeal.main_v261) : (⟨Cert.KernelIdeal.S60000x128, .f32⟩ : BufTy).Contents (Elt Ideal)) = (Host.dotGeneral (F := Ideal) (φ₁ := .f32) (φ₂ := .f32) Cert.ReferenceIdeal.dot_S60000x128_S128x128_S60000x128_1_0_0_1_n_n none ((Cert.ReferenceIdeal.Hand.B_G7b m' c) (Proc.devRef .tc Cert.ReferenceIdeal.main_v7)) ((Cert.ReferenceIdeal.Hand.B_G7b m' c) (Proc.devRef .tc Cert.ReferenceIdeal.main_v256))) := by
      have hx : ((Cert.KernelIdeal.Gen.V31 m g) c (Pipeline.arrRef Cert.KernelIdeal.spec7 0) : (⟨Cert.KernelIdeal.S60000x128, .f32⟩ : BufTy).Contents (Elt Ideal)) = (Cert.ReferenceIdeal.Hand.B_G7b m' c) (Proc.devRef .tc Cert.ReferenceIdeal.main_v7) :=
        (@Eq.trans ((⟨Cert.KernelIdeal.S60000x128, .f32⟩ : BufTy).Contents (Elt Ideal)) _ _ _ f31_v3 (Cert.ReferenceIdeal.Hand.stable_G7b m' c Cert.ReferenceIdeal.main_v7 (by decide)))
      have hw : ((Cert.KernelIdeal.Gen.V31 m g) c (Pipeline.arrRef Cert.KernelIdeal.spec7 1) : (⟨Cert.KernelIdeal.S128x128, .f32⟩ : BufTy).Contents (Elt Ideal)) = (Cert.ReferenceIdeal.Hand.B_G7b m' c) (Proc.devRef .tc Cert.ReferenceIdeal.main_v256) :=
        (@Eq.trans ((⟨Cert.KernelIdeal.S128x128, .f32⟩ : BufTy).Contents (Elt Ideal)) _ _ _ f31_v259 (Cert.ReferenceIdeal.Hand.stable_G7b m' c Cert.ReferenceIdeal.main_v256 (by decide)))
      refine (@Eq.trans ((⟨Cert.KernelIdeal.S60000x128, .f32⟩ : BufTy).Contents (Elt Ideal)) _ _ _ (Cert.KernelIdeal.Hand.W32_out m g c) (@Eq.trans ((⟨Cert.KernelIdeal.S60000x128, .f32⟩ : BufTy).Contents (Elt Ideal)) _ _ _ (Cert.KernelIdeal.Hand.lin_7 (Cert.KernelIdeal.Gen.V31 m g) c p31_v260) ?_))
      rw [hx, hw]
  have f37_v318 :
      ((Cert.KernelIdeal.Gen.W37 m g c) (Proc.devRef .tc Cert.KernelIdeal.main_v318) : (⟨Cert.KernelIdeal.S20000x128, .f32⟩ : BufTy).Contents (Elt Ideal)) = (Cert.ReferenceIdeal.Hand.BF m' c) (Proc.devRef .tc Cert.ReferenceIdeal.main_v314) :=
      (@Eq.trans ((⟨Cert.KernelIdeal.S20000x128, .f32⟩ : BufTy).Contents (Elt Ideal)) _ _ _ (g8_v318 (F := Ideal) (Cert.KernelIdeal.Gen.W32 m g c) (Cert.ReferenceIdeal.Hand.B_G7b m' c) (@Eq.trans ((⟨Cert.KernelIdeal.S20000x128, .f32⟩ : BufTy).Contents (Elt Ideal)) _ _ _ f32_v256 (Cert.ReferenceIdeal.Hand.stable_G7b m' c Cert.ReferenceIdeal.main_v254 (by decide))) r7 aw32_G7b_21 aw32_G7b_10) (@Eq.symm ((⟨Cert.KernelIdeal.S20000x128, .f32⟩ : BufTy).Contents (Elt Ideal)) _ _ (Cert.ReferenceIdeal.Hand.stable_G8b m' c Cert.ReferenceIdeal.main_v314 (by decide))))
  have f43_v318 :
      ((Cert.KernelIdeal.Gen.W43 m g c) (Proc.devRef .tc Cert.KernelIdeal.main_v318) : (⟨Cert.KernelIdeal.S20000x128, .f32⟩ : BufTy).Contents (Elt Ideal)) = (Cert.ReferenceIdeal.Hand.BF m' c) (Proc.devRef .tc Cert.ReferenceIdeal.main_v314) :=
      (@Eq.trans ((⟨Cert.KernelIdeal.S20000x128, .f32⟩ : BufTy).Contents (Elt Ideal)) _ _ _ (Cert.KernelIdeal.Hand.carry_main_v318_43 m g c) f37_v318)
  have f37_v321 :
      ((Cert.KernelIdeal.Gen.W37 m g c) (Proc.devRef .tc Cert.KernelIdeal.main_v321) : (⟨Cert.KernelIdeal.S128x128, .f32⟩ : BufTy).Contents (Elt Ideal)) = (Cert.ReferenceIdeal.Hand.BF m' c) (Proc.devRef .tc Cert.ReferenceIdeal.main_v316) :=
      (@Eq.trans ((⟨Cert.KernelIdeal.S128x128, .f32⟩ : BufTy).Contents (Elt Ideal)) _ _ _ (g8_v321 (F := Ideal) (Cert.KernelIdeal.Gen.W32 m g c) (Cert.ReferenceIdeal.Hand.B_G7b m' c) aw32_G7b_9) (@Eq.symm ((⟨Cert.KernelIdeal.S128x128, .f32⟩ : BufTy).Contents (Elt Ideal)) _ _ (Cert.ReferenceIdeal.Hand.stable_G8b m' c Cert.ReferenceIdeal.main_v316 (by decide))))
  have p37_v322 :
      ((Cert.KernelIdeal.Gen.W37 m g c) (Proc.devRef .tc Cert.KernelIdeal.main_v322) : (⟨Cert.KernelIdeal.S1x128, .f32⟩ : BufTy).Contents (Elt Ideal)) = ((shapeCast _ (broadcastInDim Cert.KernelIdeal.S128 ![] Cert.KernelIdeal.Facts₀.bcast_S_S128 (constant (F := Ideal) Cert.KernelIdeal.S_ .f32 0x00000000#32)) Cert.KernelIdeal.Facts₀.shapeCasts_S128_S1x128) : (⟨Cert.KernelIdeal.S1x128, .f32⟩ : BufTy).Contents (Elt Ideal)) :=
      g8_v322 (F := Ideal) (Cert.KernelIdeal.Gen.W32 m g c) (Cert.ReferenceIdeal.Hand.B_G7b m' c)
  have r8 :
      ((Cert.KernelIdeal.Gen.W38 m g c) (Proc.devRef .tc Cert.KernelIdeal.main_v323) : (⟨Cert.KernelIdeal.S20000x128, .f32⟩ : BufTy).Contents (Elt Ideal)) = (Host.dotGeneral (F := Ideal) (φ₁ := .f32) (φ₂ := .f32) Cert.ReferenceIdeal.dot_S20000x128_S128x128_S20000x128_1_0_0_1_n_n none ((Cert.ReferenceIdeal.Hand.B_G8b m' c) (Proc.devRef .tc Cert.ReferenceIdeal.main_v11)) ((Cert.ReferenceIdeal.Hand.B_G8b m' c) (Proc.devRef .tc Cert.ReferenceIdeal.main_v316))) := by
      have hx : ((Cert.KernelIdeal.Gen.V37 m g) c (Pipeline.arrRef Cert.KernelIdeal.spec8 0) : (⟨Cert.KernelIdeal.S20000x128, .f32⟩ : BufTy).Contents (Elt Ideal)) = (Cert.ReferenceIdeal.Hand.B_G8b m' c) (Proc.devRef .tc Cert.ReferenceIdeal.main_v11) :=
        (@Eq.trans ((⟨Cert.KernelIdeal.S20000x128, .f32⟩ : BufTy).Contents (Elt Ideal)) _ _ _ f37_v5 (Cert.ReferenceIdeal.Hand.stable_G8b m' c Cert.ReferenceIdeal.main_v11 (by decide)))
      have hw : ((Cert.KernelIdeal.Gen.V37 m g) c (Pipeline.arrRef Cert.KernelIdeal.spec8 1) : (⟨Cert.KernelIdeal.S128x128, .f32⟩ : BufTy).Contents (Elt Ideal)) = (Cert.ReferenceIdeal.Hand.B_G8b m' c) (Proc.devRef .tc Cert.ReferenceIdeal.main_v316) :=
        (@Eq.trans ((⟨Cert.KernelIdeal.S128x128, .f32⟩ : BufTy).Contents (Elt Ideal)) _ _ _ f37_v321 (Cert.ReferenceIdeal.Hand.stable_G8b m' c Cert.ReferenceIdeal.main_v316 (by decide)))
      refine (@Eq.trans ((⟨Cert.KernelIdeal.S20000x128, .f32⟩ : BufTy).Contents (Elt Ideal)) _ _ _ (Cert.KernelIdeal.Hand.W38_out m g c) (@Eq.trans ((⟨Cert.KernelIdeal.S20000x128, .f32⟩ : BufTy).Contents (Elt Ideal)) _ _ _ (Cert.KernelIdeal.Hand.lin_8 (Cert.KernelIdeal.Gen.V37 m g) c p37_v322) ?_))
      rw [hx, hw]
  have f43_v380 :
      ((Cert.KernelIdeal.Gen.W43 m g c) (Proc.devRef .tc Cert.KernelIdeal.main_v380) : (⟨Cert.KernelIdeal.S60000x128, .f32⟩ : BufTy).Contents (Elt Ideal)) = (Cert.ReferenceIdeal.Hand.BF m' c) (Proc.devRef .tc Cert.ReferenceIdeal.main_v374) :=
      (@Eq.trans ((⟨Cert.KernelIdeal.S60000x128, .f32⟩ : BufTy).Contents (Elt Ideal)) _ _ _ (g9_v380 (F := Ideal) (Cert.KernelIdeal.Gen.W38 m g c) (Cert.ReferenceIdeal.Hand.B_G8b m' c) (@Eq.trans ((⟨Cert.KernelIdeal.S60000x128, .f32⟩ : BufTy).Contents (Elt Ideal)) _ _ _ f38_v132 (Cert.ReferenceIdeal.Hand.stable_G8b m' c Cert.ReferenceIdeal.main_v134 (by decide))) r8 aw38_G8b_22 aw38_G8b_10) (@Eq.symm ((⟨Cert.KernelIdeal.S60000x128, .f32⟩ : BufTy).Contents (Elt Ideal)) _ _ (Cert.ReferenceIdeal.Hand.stable_G9b m' c Cert.ReferenceIdeal.main_v374 (by decide))))
  have f45_v380 :
      ((Cert.KernelIdeal.Gen.W45 m g c) (Proc.devRef .tc Cert.KernelIdeal.main_v380) : (⟨Cert.KernelIdeal.S60000x128, .f32⟩ : BufTy).Contents (Elt Ideal)) = (Cert.ReferenceIdeal.Hand.BF m' c) (Proc.devRef .tc Cert.ReferenceIdeal.main_v374) :=
      (@Eq.trans ((⟨Cert.KernelIdeal.S60000x128, .f32⟩ : BufTy).Contents (Elt Ideal)) _ _ _ (Cert.KernelIdeal.Hand.carry_main_v380_45 m g c) f43_v380)
  have p43_v385 :
      ((Cert.KernelIdeal.Gen.W43 m g c) (Proc.devRef .tc Cert.KernelIdeal.main_v385) : (⟨Cert.KernelIdeal.S1x128, .f32⟩ : BufTy).Contents (Elt Ideal)) = ((shapeCast _ ((Cert.ReferenceIdeal.Hand.B_G9b m' c) (Proc.devRef .tc Cert.ReferenceIdeal.main_v376)) Cert.KernelIdeal.Facts₀.shapeCasts_S128_S1x128) : (⟨Cert.KernelIdeal.S1x128, .f32⟩ : BufTy).Contents (Elt Ideal)) :=
      g9_v385 (F := Ideal) (Cert.KernelIdeal.Gen.W38 m g c) (Cert.ReferenceIdeal.Hand.B_G8b m' c) aw38_G8b_13
  have p43_v386 :
      ((Cert.KernelIdeal.Gen.W43 m g c) (Proc.devRef .tc Cert.KernelIdeal.main_v386) : (⟨Cert.KernelIdeal.S1x128, .f32⟩ : BufTy).Contents (Elt Ideal)) = ((shapeCast _ ((Cert.ReferenceIdeal.Hand.B_G9b m' c) (Proc.devRef .tc Cert.ReferenceIdeal.main_v378)) Cert.KernelIdeal.Facts₀.shapeCasts_S128_S1x128) : (⟨Cert.KernelIdeal.S1x128, .f32⟩ : BufTy).Contents (Elt Ideal)) :=
      g9_v386 (F := Ideal) (Cert.KernelIdeal.Gen.W38 m g c) (Cert.ReferenceIdeal.Hand.B_G8b m' c) aw38_G8b_14
  have f44_v387 :
      ((Cert.KernelIdeal.Gen.W44 m g c) (Proc.devRef .tc Cert.KernelIdeal.main_v387) : (⟨Cert.KernelIdeal.S20000x128, .f32⟩ : BufTy).Contents (Elt Ideal)) = (Cert.ReferenceIdeal.Hand.BF m' c) (Proc.devRef .tc Cert.ReferenceIdeal.main_v459) := by
      have hx : ((Cert.KernelIdeal.Gen.V43 m g) c (Pipeline.arrRef Cert.KernelIdeal.spec9 0) : (⟨Cert.KernelIdeal.S20000x128, .f32⟩ : BufTy).Contents (Elt Ideal)) = (Cert.ReferenceIdeal.Hand.B_G9b m' c) (Proc.devRef .tc Cert.ReferenceIdeal.main_v314) :=
        (@Eq.trans ((⟨Cert.KernelIdeal.S20000x128, .f32⟩ : BufTy).Contents (Elt Ideal)) _ _ _ f43_v318 (Cert.ReferenceIdeal.Hand.stable_G9b m' c Cert.ReferenceIdeal.main_v314 (by decide)))
      refine (@Eq.trans ((⟨Cert.KernelIdeal.S20000x128, .f32⟩ : BufTy).Contents (Elt Ideal)) _ _ _ (@Eq.trans ((⟨Cert.KernelIdeal.S20000x128, .f32⟩ : BufTy).Contents (Elt Ideal)) _ _ _ (Cert.KernelIdeal.Hand.W44_out m g c) (@Eq.trans ((⟨Cert.KernelIdeal.S20000x128, .f32⟩ : BufTy).Contents (Elt Ideal)) _ _ _ (Cert.KernelIdeal.Hand.ln_9 (Cert.KernelIdeal.Gen.V43 m g) c ((Cert.ReferenceIdeal.Hand.B_G9b m' c) (Proc.devRef .tc Cert.ReferenceIdeal.main_v376)) ((Cert.ReferenceIdeal.Hand.B_G9b m' c) (Proc.devRef .tc Cert.ReferenceIdeal.main_v378)) p43_v385 p43_v386) ?_)) (@Eq.symm ((⟨Cert.KernelIdeal.S20000x128, .f32⟩ : BufTy).Contents (Elt Ideal)) _ _ (Cert.ReferenceIdeal.Hand.stable_RELU9 m' c Cert.ReferenceIdeal.main_v459 (by decide))))
      rw [hx]
      exact (@Eq.symm ((⟨Cert.KernelIdeal.S20000x128, .f32⟩ : BufTy).Contents (Elt Ideal)) _ _ (ref_region9 (F := Ideal) (Cert.ReferenceIdeal.Hand.B_G9b m' c)))
  have f49_v387 :
      ((Cert.KernelIdeal.Gen.W49 m g c) (Proc.devRef .tc Cert.KernelIdeal.main_v387) : (⟨Cert.KernelIdeal.S20000x128, .f32⟩ : BufTy).Contents (Elt Ideal)) = (Cert.ReferenceIdeal.Hand.BF m' c) (Proc.devRef .tc Cert.ReferenceIdeal.main_v459) :=
      (@Eq.trans ((⟨Cert.KernelIdeal.S20000x128, .f32⟩ : BufTy).Contents (Elt Ideal)) _ _ _ (Cert.KernelIdeal.Hand.carry_main_v387_49 m g c) f44_v387)
  have f55_v387 :
      ((Cert.KernelIdeal.Gen.W55 m g c) (Proc.devRef .tc Cert.KernelIdeal.main_v387) : (⟨Cert.KernelIdeal.S20000x128, .f32⟩ : BufTy).Contents (Elt Ideal)) = (Cert.ReferenceIdeal.Hand.BF m' c) (Proc.devRef .tc Cert.ReferenceIdeal.main_v459) :=
      (@Eq.trans ((⟨Cert.KernelIdeal.S20000x128, .f32⟩ : BufTy).Contents (Elt Ideal)) _ _ _ (Cert.KernelIdeal.Hand.carry_main_v387_55 m g c) f44_v387)
  have p45_v392 :
      ((Cert.KernelIdeal.Gen.W45 m g c) (Proc.devRef .tc Cert.KernelIdeal.main_v392) : (⟨Cert.KernelIdeal.S1x128, .f32⟩ : BufTy).Contents (Elt Ideal)) = ((shapeCast _ ((Cert.ReferenceIdeal.Hand.B_H10 m' c) (Proc.devRef .tc Cert.ReferenceIdeal.main_v404)) Cert.KernelIdeal.Facts₀.shapeCasts_S128_S1x128) : (⟨Cert.KernelIdeal.S1x128, .f32⟩ : BufTy).Contents (Elt Ideal)) :=
      g10_v392 (F := Ideal) (Cert.KernelIdeal.Gen.W44 m g c) (Cert.ReferenceIdeal.Hand.B_L9 m' c) aw44_L9_13
  have p45_v393 :
      ((Cert.KernelIdeal.Gen.W45 m g c) (Proc.devRef .tc Cert.KernelIdeal.main_v393) : (⟨Cert.KernelIdeal.S1x128, .f32⟩ : BufTy).Contents (Elt Ideal)) = ((shapeCast _ ((Cert.ReferenceIdeal.Hand.B_H10 m' c) (Proc.devRef .tc Cert.ReferenceIdeal.main_v406)) Cert.KernelIdeal.Facts₀.shapeCasts_S128_S1x128) : (⟨Cert.KernelIdeal.S1x128, .f32⟩ : BufTy).Contents (Elt Ideal)) :=
      g10_v393 (F := Ideal) (Cert.KernelIdeal.Gen.W44 m g c) (Cert.ReferenceIdeal.Hand.B_L9 m' c) aw44_L9_14
  have f46_v394 :
      ((Cert.KernelIdeal.Gen.W46 m g c) (Proc.devRef .tc Cert.KernelIdeal.main_v394) : (⟨Cert.KernelIdeal.S60000x128, .f32⟩ : BufTy).Contents (Elt Ideal)) = (Cert.ReferenceIdeal.Hand.BF m' c) (Proc.devRef .tc Cert.ReferenceIdeal.main_v460) := by
      have hx : ((Cert.KernelIdeal.Gen.V45 m g) c (Pipeline.arrRef Cert.KernelIdeal.spec10 0) : (⟨Cert.KernelIdeal.S60000x128, .f32⟩ : BufTy).Contents (Elt Ideal)) = (Cert.ReferenceIdeal.Hand.B_H10 m' c) (Proc.devRef .tc Cert.ReferenceIdeal.main_v374) :=
        (@Eq.trans ((⟨Cert.KernelIdeal.S60000x128, .f32⟩ : BufTy).Contents (Elt Ideal)) _ _ _ f45_v380 (Cert.ReferenceIdeal.Hand.stable_H10 m' c Cert.ReferenceIdeal.main_v374 (by decide)))
      refine (@Eq.trans ((⟨Cert.KernelIdeal.S60000x128, .f32⟩ : BufTy).Contents (Elt Ideal)) _ _ _ (@Eq.trans ((⟨Cert.KernelIdeal.S60000x128, .f32⟩ : BufTy).Contents (Elt Ideal)) _ _ _ (Cert.KernelIdeal.Hand.W46_out m g c) (@Eq.trans ((⟨Cert.KernelIdeal.S60000x128, .f32⟩ : BufTy).Contents (Elt Ideal)) _ _ _ (Cert.KernelIdeal.Hand.ln_10 (Cert.KernelIdeal.Gen.V45 m g) c ((Cert.ReferenceIdeal.Hand.B_H10 m' c) (Proc.devRef .tc Cert.ReferenceIdeal.main_v404)) ((Cert.ReferenceIdeal.Hand.B_H10 m' c) (Proc.devRef .tc Cert.ReferenceIdeal.main_v406)) p45_v392 p45_v393) ?_)) (@Eq.symm ((⟨Cert.KernelIdeal.S60000x128, .f32⟩ : BufTy).Contents (Elt Ideal)) _ _ (Cert.ReferenceIdeal.Hand.stable_RELU10 m' c Cert.ReferenceIdeal.main_v460 (by decide))))
      rw [hx]
      exact (@Eq.symm ((⟨Cert.KernelIdeal.S60000x128, .f32⟩ : BufTy).Contents (Elt Ideal)) _ _ (ref_region10 (F := Ideal) (Cert.ReferenceIdeal.Hand.B_H10 m' c)))
  have f61_v394 :
      ((Cert.KernelIdeal.Gen.W61 m g c) (Proc.devRef .tc Cert.KernelIdeal.main_v394) : (⟨Cert.KernelIdeal.S60000x128, .f32⟩ : BufTy).Contents (Elt Ideal)) = (Cert.ReferenceIdeal.Hand.BF m' c) (Proc.devRef .tc Cert.ReferenceIdeal.main_v460) :=
      (@Eq.trans ((⟨Cert.KernelIdeal.S60000x128, .f32⟩ : BufTy).Contents (Elt Ideal)) _ _ _ (Cert.KernelIdeal.Hand.carry_main_v394_61 m g c) f46_v394)
  have f73_v394 :
      ((Cert.KernelIdeal.Gen.W73 m g c) (Proc.devRef .tc Cert.KernelIdeal.main_v394) : (⟨Cert.KernelIdeal.S60000x128, .f32⟩ : BufTy).Contents (Elt Ideal)) = (Cert.ReferenceIdeal.Hand.BF m' c) (Proc.devRef .tc Cert.ReferenceIdeal.main_v460) :=
      (@Eq.trans ((⟨Cert.KernelIdeal.S60000x128, .f32⟩ : BufTy).Contents (Elt Ideal)) _ _ _ (Cert.KernelIdeal.Hand.carry_main_v394_73 m g c) f46_v394)
  have p47_v399 :
      ((Cert.KernelIdeal.Gen.W47 m g c) (Proc.devRef .tc Cert.KernelIdeal.main_v399) : (⟨Cert.KernelIdeal.S1x128, .f32⟩ : BufTy).Contents (Elt Ideal)) = ((shapeCast _ ((Cert.ReferenceIdeal.Hand.B_H11 m' c) (Proc.devRef .tc Cert.ReferenceIdeal.main_v432)) Cert.KernelIdeal.Facts₀.shapeCasts_S128_S1x128) : (⟨Cert.KernelIdeal.S1x128, .f32⟩ : BufTy).Contents (Elt Ideal)) :=
      g11_v399 (F := Ideal) (Cert.KernelIdeal.Gen.W46 m g c) (Cert.ReferenceIdeal.Hand.B_L10 m' c) aw46_L10_13
  have p47_v400 :
      ((Cert.KernelIdeal.Gen.W47 m g c) (Proc.devRef .tc Cert.KernelIdeal.main_v400) : (⟨Cert.KernelIdeal.S1x128, .f32⟩ : BufTy).Contents (Elt Ideal)) = ((shapeCast _ ((Cert.ReferenceIdeal.Hand.B_H11 m' c) (Proc.devRef .tc Cert.ReferenceIdeal.main_v434)) Cert.KernelIdeal.Facts₀.shapeCasts_S128_S1x128) : (⟨Cert.KernelIdeal.S1x128, .f32⟩ : BufTy).Contents (Elt Ideal)) :=
      g11_v400 (F := Ideal) (Cert.KernelIdeal.Gen.W46 m g c) (Cert.ReferenceIdeal.Hand.B_L10 m' c) aw46_L10_14
  have f48_v401 :
      ((Cert.KernelIdeal.Gen.W48 m g c) (Proc.devRef .tc Cert.KernelIdeal.main_v401) : (⟨Cert.KernelIdeal.S20000x128, .f32⟩ : BufTy).Contents (Elt Ideal)) = (Cert.ReferenceIdeal.Hand.BF m' c) (Proc.devRef .tc Cert.ReferenceIdeal.main_v461) := by
      have hx : ((Cert.KernelIdeal.Gen.V47 m g) c (Pipeline.arrRef Cert.KernelIdeal.spec11 0) : (⟨Cert.KernelIdeal.S20000x128, .f32⟩ : BufTy).Contents (Elt Ideal)) = (Cert.ReferenceIdeal.Hand.B_H11 m' c) (Proc.devRef .tc Cert.ReferenceIdeal.main_v194) :=
        (@Eq.trans ((⟨Cert.KernelIdeal.S20000x128, .f32⟩ : BufTy).Contents (Elt Ideal)) _ _ _ f47_v194 (Cert.ReferenceIdeal.Hand.stable_H11 m' c Cert.ReferenceIdeal.main_v194 (by decide)))
      refine (@Eq.trans ((⟨Cert.KernelIdeal.S20000x128, .f32⟩ : BufTy).Contents (Elt Ideal)) _ _ _ (@Eq.trans ((⟨Cert.KernelIdeal.S20000x128, .f32⟩ : BufTy).Contents (Elt Ideal)) _ _ _ (Cert.KernelIdeal.Hand.W48_out m g c) (@Eq.trans ((⟨Cert.KernelIdeal.S20000x128, .f32⟩ : BufTy).Contents (Elt Ideal)) _ _ _ (Cert.KernelIdeal.Hand.ln_11 (Cert.KernelIdeal.Gen.V47 m g) c ((Cert.ReferenceIdeal.Hand.B_H11 m' c) (Proc.devRef .tc Cert.ReferenceIdeal.main_v432)) ((Cert.ReferenceIdeal.Hand.B_H11 m' c) (Proc.devRef .tc Cert.ReferenceIdeal.main_v434)) p47_v399 p47_v400) ?_)) (@Eq.symm ((⟨Cert.KernelIdeal.S20000x128, .f32⟩ : BufTy).Contents (Elt Ideal)) _ _ (Cert.ReferenceIdeal.Hand.stable_RELU11 m' c Cert.ReferenceIdeal.main_v461 (by decide))))
      rw [hx]
      exact (@Eq.symm ((⟨Cert.KernelIdeal.S20000x128, .f32⟩ : BufTy).Contents (Elt Ideal)) _ _ (ref_region11 (F := Ideal) (Cert.ReferenceIdeal.Hand.B_H11 m' c)))
  have f67_v401 :
      ((Cert.KernelIdeal.Gen.W67 m g c) (Proc.devRef .tc Cert.KernelIdeal.main_v401) : (⟨Cert.KernelIdeal.S20000x128, .f32⟩ : BufTy).Contents (Elt Ideal)) = (Cert.ReferenceIdeal.Hand.BF m' c) (Proc.devRef .tc Cert.ReferenceIdeal.main_v461) :=
      (@Eq.trans ((⟨Cert.KernelIdeal.S20000x128, .f32⟩ : BufTy).Contents (Elt Ideal)) _ _ _ (Cert.KernelIdeal.Hand.carry_main_v401_67 m g c) f48_v401)
  have f79_v401 :
      ((Cert.KernelIdeal.Gen.W79 m g c) (Proc.devRef .tc Cert.KernelIdeal.main_v401) : (⟨Cert.KernelIdeal.S20000x128, .f32⟩ : BufTy).Contents (Elt Ideal)) = (Cert.ReferenceIdeal.Hand.BF m' c) (Proc.devRef .tc Cert.ReferenceIdeal.main_v461) :=
      (@Eq.trans ((⟨Cert.KernelIdeal.S20000x128, .f32⟩ : BufTy).Contents (Elt Ideal)) _ _ _ (Cert.KernelIdeal.Hand.carry_main_v401_79 m g c) f48_v401)
  have f49_v402 :
      ((Cert.KernelIdeal.Gen.W49 m g c) (Proc.devRef .tc Cert.KernelIdeal.main_v402) : (⟨Cert.KernelIdeal.S20000x64, .f32⟩ : BufTy).Contents (Elt Ideal)) = (Cert.ReferenceIdeal.Hand.BF m' c) (Proc.devRef .tc Cert.ReferenceIdeal.main_v462) :=
      (@Eq.trans ((⟨Cert.KernelIdeal.S20000x64, .f32⟩ : BufTy).Contents (Elt Ideal)) _ _ _ (g12_v402 (F := Ideal) (Cert.KernelIdeal.Gen.W48 m g c) (Cert.ReferenceIdeal.Hand.B_RELU11 m' c)) (@Eq.symm ((⟨Cert.KernelIdeal.S20000x64, .f32⟩ : BufTy).Contents (Elt Ideal)) _ _ (Cert.ReferenceIdeal.Hand.stable_G12 m' c Cert.ReferenceIdeal.main_v462 (by decide))))
  have f68_v402 :
      ((Cert.KernelIdeal.Gen.W68 m g c) (Proc.devRef .tc Cert.KernelIdeal.main_v402) : (⟨Cert.KernelIdeal.S20000x64, .f32⟩ : BufTy).Contents (Elt Ideal)) = (Cert.ReferenceIdeal.Hand.BF m' c) (Proc.devRef .tc Cert.ReferenceIdeal.main_v462) :=
      (@Eq.trans ((⟨Cert.KernelIdeal.S20000x64, .f32⟩ : BufTy).Contents (Elt Ideal)) _ _ _ (Cert.KernelIdeal.Hand.carry_main_v402_68 m g c) f49_v402)
  have f49_v403 :
      ((Cert.KernelIdeal.Gen.W49 m g c) (Proc.devRef .tc Cert.KernelIdeal.main_v403) : (⟨Cert.KernelIdeal.S60000x64, .f32⟩ : BufTy).Contents (Elt Ideal)) = (Cert.ReferenceIdeal.Hand.BF m' c) (Proc.devRef .tc Cert.ReferenceIdeal.main_v463) :=
      (@Eq.trans ((⟨Cert.KernelIdeal.S60000x64, .f32⟩ : BufTy).Contents (Elt Ideal)) _ _ _ (g12_v403 (F := Ideal) (Cert.KernelIdeal.Gen.W48 m g c) (Cert.ReferenceIdeal.Hand.B_RELU11 m' c)) (@Eq.symm ((⟨Cert.KernelIdeal.S60000x64, .f32⟩ : BufTy).Contents (Elt Ideal)) _ _ (Cert.ReferenceIdeal.Hand.stable_G12 m' c Cert.ReferenceIdeal.main_v463 (by decide))))
  have f56_v403 :
      ((Cert.KernelIdeal.Gen.W56 m g c) (Proc.devRef .tc Cert.KernelIdeal.main_v403) : (⟨Cert.KernelIdeal.S60000x64, .f32⟩ : BufTy).Contents (Elt Ideal)) = (Cert.ReferenceIdeal.Hand.BF m' c) (Proc.devRef .tc Cert.ReferenceIdeal.main_v463) :=
      (@Eq.trans ((⟨Cert.KernelIdeal.S60000x64, .f32⟩ : BufTy).Contents (Elt Ideal)) _ _ _ (Cert.KernelIdeal.Hand.carry_main_v403_56 m g c) f49_v403)
  have f49_v404 :
      ((Cert.KernelIdeal.Gen.W49 m g c) (Proc.devRef .tc Cert.KernelIdeal.main_v404) : (⟨Cert.KernelIdeal.S20000x64, .f32⟩ : BufTy).Contents (Elt Ideal)) = (Cert.ReferenceIdeal.Hand.BF m' c) (Proc.devRef .tc Cert.ReferenceIdeal.main_v464) :=
      (@Eq.trans ((⟨Cert.KernelIdeal.S20000x64, .f32⟩ : BufTy).Contents (Elt Ideal)) _ _ _ (g12_v404 (F := Ideal) (Cert.KernelIdeal.Gen.W48 m g c) (Cert.ReferenceIdeal.Hand.B_RELU11 m' c)) (@Eq.symm ((⟨Cert.KernelIdeal.S20000x64, .f32⟩ : BufTy).Contents (Elt Ideal)) _ _ (Cert.ReferenceIdeal.Hand.stable_G12 m' c Cert.ReferenceIdeal.main_v464 (by decide))))
  have f50_v404 :
      ((Cert.KernelIdeal.Gen.W50 m g c) (Proc.devRef .tc Cert.KernelIdeal.main_v404) : (⟨Cert.KernelIdeal.S20000x64, .f32⟩ : BufTy).Contents (Elt Ideal)) = (Cert.ReferenceIdeal.Hand.BF m' c) (Proc.devRef .tc Cert.ReferenceIdeal.main_v464) :=
      (@Eq.trans ((⟨Cert.KernelIdeal.S20000x64, .f32⟩ : BufTy).Contents (Elt Ideal)) _ _ _ (Cert.KernelIdeal.Hand.carry_main_v404_50 m g c) f49_v404)
  have f49_v407 :
      ((Cert.KernelIdeal.Gen.W49 m g c) (Proc.devRef .tc Cert.KernelIdeal.main_v407) : (⟨Cert.KernelIdeal.S128x64, .f32⟩ : BufTy).Contents (Elt Ideal)) = (Cert.ReferenceIdeal.Hand.BF m' c) (Proc.devRef .tc Cert.ReferenceIdeal.main_v466) :=
      (@Eq.trans ((⟨Cert.KernelIdeal.S128x64, .f32⟩ : BufTy).Contents (Elt Ideal)) _ _ _ (g12_v407 (F := Ideal) (Cert.KernelIdeal.Gen.W48 m g c) (Cert.ReferenceIdeal.Hand.B_RELU11 m' c) aw48_RELU11_11) (@Eq.symm ((⟨Cert.KernelIdeal.S128x64, .f32⟩ : BufTy).Contents (Elt Ideal)) _ _ (Cert.ReferenceIdeal.Hand.stable_G12 m' c Cert.ReferenceIdeal.main_v466 (by decide))))
  have p49_v408 :
      ((Cert.KernelIdeal.Gen.W49 m g c) (Proc.devRef .tc Cert.KernelIdeal.main_v408) : (⟨Cert.KernelIdeal.S1x64, .f32⟩ : BufTy).Contents (Elt Ideal)) = ((shapeCast _ (broadcastInDim Cert.KernelIdeal.S64 ![] Cert.KernelIdeal.Facts₀.bcast_S_S64 (constant (F := Ideal) Cert.KernelIdeal.S_ .f32 0x00000000#32)) Cert.KernelIdeal.Facts₀.shapeCasts_S64_S1x64) : (⟨Cert.KernelIdeal.S1x64, .f32⟩ : BufTy).Contents (Elt Ideal)) :=
      g12_v408 (F := Ideal) (Cert.KernelIdeal.Gen.W48 m g c) (Cert.ReferenceIdeal.Hand.B_RELU11 m' c)
  have r12 :
      ((Cert.KernelIdeal.Gen.W50 m g c) (Proc.devRef .tc Cert.KernelIdeal.main_v409) : (⟨Cert.KernelIdeal.S20000x64, .f32⟩ : BufTy).Contents (Elt Ideal)) = (Host.dotGeneral (F := Ideal) (φ₁ := .f32) (φ₂ := .f32) Cert.ReferenceIdeal.dot_S20000x128_S128x64_S20000x64_1_0_0_1_n_n none ((Cert.ReferenceIdeal.Hand.B_G12 m' c) (Proc.devRef .tc Cert.ReferenceIdeal.main_v459)) ((Cert.ReferenceIdeal.Hand.B_G12 m' c) (Proc.devRef .tc Cert.ReferenceIdeal.main_v466))) := by
      have hx : ((Cert.KernelIdeal.Gen.V49 m g) c (Pipeline.arrRef Cert.KernelIdeal.spec12 0) : (⟨Cert.KernelIdeal.S20000x128, .f32⟩ : BufTy).Contents (Elt Ideal)) = (Cert.ReferenceIdeal.Hand.B_G12 m' c) (Proc.devRef .tc Cert.ReferenceIdeal.main_v459) :=
        (@Eq.trans ((⟨Cert.KernelIdeal.S20000x128, .f32⟩ : BufTy).Contents (Elt Ideal)) _ _ _ f49_v387 (Cert.ReferenceIdeal.Hand.stable_G12 m' c Cert.ReferenceIdeal.main_v459 (by decide)))
      have hw : ((Cert.KernelIdeal.Gen.V49 m g) c (Pipeline.arrRef Cert.KernelIdeal.spec12 1) : (⟨Cert.KernelIdeal.S128x64, .f32⟩ : BufTy).Contents (Elt Ideal)) = (Cert.ReferenceIdeal.Hand.B_G12 m' c) (Proc.devRef .tc Cert.ReferenceIdeal.main_v466) :=
        (@Eq.trans ((⟨Cert.KernelIdeal.S128x64, .f32⟩ : BufTy).Contents (Elt Ideal)) _ _ _ f49_v407 (Cert.ReferenceIdeal.Hand.stable_G12 m' c Cert.ReferenceIdeal.main_v466 (by decide)))
      refine (@Eq.trans ((⟨Cert.KernelIdeal.S20000x64, .f32⟩ : BufTy).Contents (Elt Ideal)) _ _ _ (Cert.KernelIdeal.Hand.W50_out m g c) (@Eq.trans ((⟨Cert.KernelIdeal.S20000x64, .f32⟩ : BufTy).Contents (Elt Ideal)) _ _ _ (Cert.KernelIdeal.Hand.lin_12 (Cert.KernelIdeal.Gen.V49 m g) c p49_v408) ?_))
      rw [hx, hw]
  have f55_v466 :
      ((Cert.KernelIdeal.Gen.W55 m g c) (Proc.devRef .tc Cert.KernelIdeal.main_v466) : (⟨Cert.KernelIdeal.S20000x64, .f32⟩ : BufTy).Contents (Elt Ideal)) = (Cert.ReferenceIdeal.Hand.BF m' c) (Proc.devRef .tc Cert.ReferenceIdeal.main_v524) :=
      (@Eq.trans ((⟨Cert.KernelIdeal.S20000x64, .f32⟩ : BufTy).Contents (Elt Ideal)) _ _ _ (g13_v466 (F := Ideal) (Cert.KernelIdeal.Gen.W50 m g c) (Cert.ReferenceIdeal.Hand.B_G12 m' c) (@Eq.trans ((⟨Cert.KernelIdeal.S20000x64, .f32⟩ : BufTy).Contents (Elt Ideal)) _ _ _ f50_v404 (Cert.ReferenceIdeal.Hand.stable_G12 m' c Cert.ReferenceIdeal.main_v464 (by decide))) r12 aw50_G12_17 aw50_G12_12) (@Eq.symm ((⟨Cert.KernelIdeal.S20000x64, .f32⟩ : BufTy).Contents (Elt Ideal)) _ _ (Cert.ReferenceIdeal.Hand.stable_G13b m' c Cert.ReferenceIdeal.main_v524 (by decide))))
  have f62_v466 :
      ((Cert.KernelIdeal.Gen.W62 m g c) (Proc.devRef .tc Cert.KernelIdeal.main_v466) : (⟨Cert.KernelIdeal.S20000x64, .f32⟩ : BufTy).Contents (Elt Ideal)) = (Cert.ReferenceIdeal.Hand.BF m' c) (Proc.devRef .tc Cert.ReferenceIdeal.main_v524) :=
      (@Eq.trans ((⟨Cert.KernelIdeal.S20000x64, .f32⟩ : BufTy).Contents (Elt Ideal)) _ _ _ (Cert.KernelIdeal.Hand.carry_main_v466_62 m g c) f55_v466)
  have f55_v469 :
      ((Cert.KernelIdeal.Gen.W55 m g c) (Proc.devRef .tc Cert.KernelIdeal.main_v469) : (⟨Cert.KernelIdeal.S128x64, .f32⟩ : BufTy).Contents (Elt Ideal)) = (Cert.ReferenceIdeal.Hand.BF m' c) (Proc.devRef .tc Cert.ReferenceIdeal.main_v526) :=
      (@Eq.trans ((⟨Cert.KernelIdeal.S128x64, .f32⟩ : BufTy).Contents (Elt Ideal)) _ _ _ (g13_v469 (F := Ideal) (Cert.KernelIdeal.Gen.W50 m g c) (Cert.ReferenceIdeal.Hand.B_G12 m' c) aw50_G12_11) (@Eq.symm ((⟨Cert.KernelIdeal.S128x64, .f32⟩ : BufTy).Contents (Elt Ideal)) _ _ (Cert.ReferenceIdeal.Hand.stable_G13b m' c Cert.ReferenceIdeal.main_v526 (by decide))))
  have p55_v470 :
      ((Cert.KernelIdeal.Gen.W55 m g c) (Proc.devRef .tc Cert.KernelIdeal.main_v470) : (⟨Cert.KernelIdeal.S1x64, .f32⟩ : BufTy).Contents (Elt Ideal)) = ((shapeCast _ (broadcastInDim Cert.KernelIdeal.S64 ![] Cert.KernelIdeal.Facts₀.bcast_S_S64 (constant (F := Ideal) Cert.KernelIdeal.S_ .f32 0x00000000#32)) Cert.KernelIdeal.Facts₀.shapeCasts_S64_S1x64) : (⟨Cert.KernelIdeal.S1x64, .f32⟩ : BufTy).Contents (Elt Ideal)) :=
      g13_v470 (F := Ideal) (Cert.KernelIdeal.Gen.W50 m g c) (Cert.ReferenceIdeal.Hand.B_G12 m' c)
  have r13 :
      ((Cert.KernelIdeal.Gen.W56 m g c) (Proc.devRef .tc Cert.KernelIdeal.main_v471) : (⟨Cert.KernelIdeal.S20000x64, .f32⟩ : BufTy).Contents (Elt Ideal)) = (Host.dotGeneral (F := Ideal) (φ₁ := .f32) (φ₂ := .f32) Cert.ReferenceIdeal.dot_S20000x128_S128x64_S20000x64_1_0_0_1_n_n none ((Cert.ReferenceIdeal.Hand.B_G13b m' c) (Proc.devRef .tc Cert.ReferenceIdeal.main_v459)) ((Cert.ReferenceIdeal.Hand.B_G13b m' c) (Proc.devRef .tc Cert.ReferenceIdeal.main_v526))) := by
      have hx : ((Cert.KernelIdeal.Gen.V55 m g) c (Pipeline.arrRef Cert.KernelIdeal.spec13 0) : (⟨Cert.KernelIdeal.S20000x128, .f32⟩ : BufTy).Contents (Elt Ideal)) = (Cert.ReferenceIdeal.Hand.B_G13b m' c) (Proc.devRef .tc Cert.ReferenceIdeal.main_v459) :=
        (@Eq.trans ((⟨Cert.KernelIdeal.S20000x128, .f32⟩ : BufTy).Contents (Elt Ideal)) _ _ _ f55_v387 (Cert.ReferenceIdeal.Hand.stable_G13b m' c Cert.ReferenceIdeal.main_v459 (by decide)))
      have hw : ((Cert.KernelIdeal.Gen.V55 m g) c (Pipeline.arrRef Cert.KernelIdeal.spec13 1) : (⟨Cert.KernelIdeal.S128x64, .f32⟩ : BufTy).Contents (Elt Ideal)) = (Cert.ReferenceIdeal.Hand.B_G13b m' c) (Proc.devRef .tc Cert.ReferenceIdeal.main_v526) :=
        (@Eq.trans ((⟨Cert.KernelIdeal.S128x64, .f32⟩ : BufTy).Contents (Elt Ideal)) _ _ _ f55_v469 (Cert.ReferenceIdeal.Hand.stable_G13b m' c Cert.ReferenceIdeal.main_v526 (by decide)))
      refine (@Eq.trans ((⟨Cert.KernelIdeal.S20000x64, .f32⟩ : BufTy).Contents (Elt Ideal)) _ _ _ (Cert.KernelIdeal.Hand.W56_out m g c) (@Eq.trans ((⟨Cert.KernelIdeal.S20000x64, .f32⟩ : BufTy).Contents (Elt Ideal)) _ _ _ (Cert.KernelIdeal.Hand.lin_13 (Cert.KernelIdeal.Gen.V55 m g) c p55_v470) ?_))
      rw [hx, hw]
  have f61_v528 :
      ((Cert.KernelIdeal.Gen.W61 m g c) (Proc.devRef .tc Cert.KernelIdeal.main_v528) : (⟨Cert.KernelIdeal.S60000x64, .f32⟩ : BufTy).Contents (Elt Ideal)) = (Cert.ReferenceIdeal.Hand.BF m' c) (Proc.devRef .tc Cert.ReferenceIdeal.main_v584) :=
      (@Eq.trans ((⟨Cert.KernelIdeal.S60000x64, .f32⟩ : BufTy).Contents (Elt Ideal)) _ _ _ (g14_v528 (F := Ideal) (Cert.KernelIdeal.Gen.W56 m g c) (Cert.ReferenceIdeal.Hand.B_G13b m' c) (@Eq.trans ((⟨Cert.KernelIdeal.S60000x64, .f32⟩ : BufTy).Contents (Elt Ideal)) _ _ _ f56_v403 (Cert.ReferenceIdeal.Hand.stable_G13b m' c Cert.ReferenceIdeal.main_v463 (by decide))) r13 aw56_G13b_18 aw56_G13b_12) (@Eq.symm ((⟨Cert.KernelIdeal.S60000x64, .f32⟩ : BufTy).Contents (Elt Ideal)) _ _ (Cert.ReferenceIdeal.Hand.stable_G14b m' c Cert.ReferenceIdeal.main_v584 (by decide))))
  have f80_v528 :
      ((Cert.KernelIdeal.Gen.W80 m g c) (Proc.devRef .tc Cert.KernelIdeal.main_v528) : (⟨Cert.KernelIdeal.S60000x64, .f32⟩ : BufTy).Contents (Elt Ideal)) = (Cert.ReferenceIdeal.Hand.BF m' c) (Proc.devRef .tc Cert.ReferenceIdeal.main_v584) :=
      (@Eq.trans ((⟨Cert.KernelIdeal.S60000x64, .f32⟩ : BufTy).Contents (Elt Ideal)) _ _ _ (Cert.KernelIdeal.Hand.carry_main_v528_80 m g c) f61_v528)
  have f61_v531 :
      ((Cert.KernelIdeal.Gen.W61 m g c) (Proc.devRef .tc Cert.KernelIdeal.main_v531) : (⟨Cert.KernelIdeal.S128x64, .f32⟩ : BufTy).Contents (Elt Ideal)) = (Cert.ReferenceIdeal.Hand.BF m' c) (Proc.devRef .tc Cert.ReferenceIdeal.main_v586) :=
      (@Eq.trans ((⟨Cert.KernelIdeal.S128x64, .f32⟩ : BufTy).Contents (Elt Ideal)) _ _ _ (g14_v531 (F := Ideal) (Cert.KernelIdeal.Gen.W56 m g c) (Cert.ReferenceIdeal.Hand.B_G13b m' c) aw56_G13b_11) (@Eq.symm ((⟨Cert.KernelIdeal.S128x64, .f32⟩ : BufTy).Contents (Elt Ideal)) _ _ (Cert.ReferenceIdeal.Hand.stable_G14b m' c Cert.ReferenceIdeal.main_v586 (by decide))))
  have p61_v532 :
      ((Cert.KernelIdeal.Gen.W61 m g c) (Proc.devRef .tc Cert.KernelIdeal.main_v532) : (⟨Cert.KernelIdeal.S1x64, .f32⟩ : BufTy).Contents (Elt Ideal)) = ((shapeCast _ (broadcastInDim Cert.KernelIdeal.S64 ![] Cert.KernelIdeal.Facts₀.bcast_S_S64 (constant (F := Ideal) Cert.KernelIdeal.S_ .f32 0x00000000#32)) Cert.KernelIdeal.Facts₀.shapeCasts_S64_S1x64) : (⟨Cert.KernelIdeal.S1x64, .f32⟩ : BufTy).Contents (Elt Ideal)) :=
      g14_v532 (F := Ideal) (Cert.KernelIdeal.Gen.W56 m g c) (Cert.ReferenceIdeal.Hand.B_G13b m' c)
  have r14 :
      ((Cert.KernelIdeal.Gen.W62 m g c) (Proc.devRef .tc Cert.KernelIdeal.main_v533) : (⟨Cert.KernelIdeal.S60000x64, .f32⟩ : BufTy).Contents (Elt Ideal)) = (Host.dotGeneral (F := Ideal) (φ₁ := .f32) (φ₂ := .f32) Cert.ReferenceIdeal.dot_S60000x128_S128x64_S60000x64_1_0_0_1_n_n none ((Cert.ReferenceIdeal.Hand.B_G14b m' c) (Proc.devRef .tc Cert.ReferenceIdeal.main_v460)) ((Cert.ReferenceIdeal.Hand.B_G14b m' c) (Proc.devRef .tc Cert.ReferenceIdeal.main_v586))) := by
      have hx : ((Cert.KernelIdeal.Gen.V61 m g) c (Pipeline.arrRef Cert.KernelIdeal.spec14 0) : (⟨Cert.KernelIdeal.S60000x128, .f32⟩ : BufTy).Contents (Elt Ideal)) = (Cert.ReferenceIdeal.Hand.B_G14b m' c) (Proc.devRef .tc Cert.ReferenceIdeal.main_v460) :=
        (@Eq.trans ((⟨Cert.KernelIdeal.S60000x128, .f32⟩ : BufTy).Contents (Elt Ideal)) _ _ _ f61_v394 (Cert.ReferenceIdeal.Hand.stable_G14b m' c Cert.ReferenceIdeal.main_v460 (by decide)))
      have hw : ((Cert.KernelIdeal.Gen.V61 m g) c (Pipeline.arrRef Cert.KernelIdeal.spec14 1) : (⟨Cert.KernelIdeal.S128x64, .f32⟩ : BufTy).Contents (Elt Ideal)) = (Cert.ReferenceIdeal.Hand.B_G14b m' c) (Proc.devRef .tc Cert.ReferenceIdeal.main_v586) :=
        (@Eq.trans ((⟨Cert.KernelIdeal.S128x64, .f32⟩ : BufTy).Contents (Elt Ideal)) _ _ _ f61_v531 (Cert.ReferenceIdeal.Hand.stable_G14b m' c Cert.ReferenceIdeal.main_v586 (by decide)))
      refine (@Eq.trans ((⟨Cert.KernelIdeal.S60000x64, .f32⟩ : BufTy).Contents (Elt Ideal)) _ _ _ (Cert.KernelIdeal.Hand.W62_out m g c) (@Eq.trans ((⟨Cert.KernelIdeal.S60000x64, .f32⟩ : BufTy).Contents (Elt Ideal)) _ _ _ (Cert.KernelIdeal.Hand.lin_14 (Cert.KernelIdeal.Gen.V61 m g) c p61_v532) ?_))
      rw [hx, hw]
  have f67_v590 :
      ((Cert.KernelIdeal.Gen.W67 m g c) (Proc.devRef .tc Cert.KernelIdeal.main_v590) : (⟨Cert.KernelIdeal.S20000x64, .f32⟩ : BufTy).Contents (Elt Ideal)) = (Cert.ReferenceIdeal.Hand.BF m' c) (Proc.devRef .tc Cert.ReferenceIdeal.main_v644) :=
      (@Eq.trans ((⟨Cert.KernelIdeal.S20000x64, .f32⟩ : BufTy).Contents (Elt Ideal)) _ _ _ (g15_v590 (F := Ideal) (Cert.KernelIdeal.Gen.W62 m g c) (Cert.ReferenceIdeal.Hand.B_G14b m' c) (@Eq.trans ((⟨Cert.KernelIdeal.S20000x64, .f32⟩ : BufTy).Contents (Elt Ideal)) _ _ _ f62_v466 (Cert.ReferenceIdeal.Hand.stable_G14b m' c Cert.ReferenceIdeal.main_v524 (by decide))) r14 aw62_G14b_19 aw62_G14b_12) (@Eq.symm ((⟨Cert.KernelIdeal.S20000x64, .f32⟩ : BufTy).Contents (Elt Ideal)) _ _ (Cert.ReferenceIdeal.Hand.stable_G15b m' c Cert.ReferenceIdeal.main_v644 (by decide))))
  have f89_v590 :
      ((Cert.KernelIdeal.Gen.W89 m g c) (Proc.devRef .tc Cert.KernelIdeal.main_v590) : (⟨Cert.KernelIdeal.S20000x64, .f32⟩ : BufTy).Contents (Elt Ideal)) = (Cert.ReferenceIdeal.Hand.BF m' c) (Proc.devRef .tc Cert.ReferenceIdeal.main_v644) :=
      (@Eq.trans ((⟨Cert.KernelIdeal.S20000x64, .f32⟩ : BufTy).Contents (Elt Ideal)) _ _ _ (Cert.KernelIdeal.Hand.carry_main_v590_89 m g c) f67_v590)
  have f67_v593 :
      ((Cert.KernelIdeal.Gen.W67 m g c) (Proc.devRef .tc Cert.KernelIdeal.main_v593) : (⟨Cert.KernelIdeal.S128x64, .f32⟩ : BufTy).Contents (Elt Ideal)) = (Cert.ReferenceIdeal.Hand.BF m' c) (Proc.devRef .tc Cert.ReferenceIdeal.main_v646) :=
      (@Eq.trans ((⟨Cert.KernelIdeal.S128x64, .f32⟩ : BufTy).Contents (Elt Ideal)) _ _ _ (g15_v593 (F := Ideal) (Cert.KernelIdeal.Gen.W62 m g c) (Cert.ReferenceIdeal.Hand.B_G14b m' c) aw62_G14b_11) (@Eq.symm ((⟨Cert.KernelIdeal.S128x64, .f32⟩ : BufTy).Contents (Elt Ideal)) _ _ (Cert.ReferenceIdeal.Hand.stable_G15b m' c Cert.ReferenceIdeal.main_v646 (by decide))))
  have p67_v594 :
      ((Cert.KernelIdeal.Gen.W67 m g c) (Proc.devRef .tc Cert.KernelIdeal.main_v594) : (⟨Cert.KernelIdeal.S1x64, .f32⟩ : BufTy).Contents (Elt Ideal)) = ((shapeCast _ (broadcastInDim Cert.KernelIdeal.S64 ![] Cert.KernelIdeal.Facts₀.bcast_S_S64 (constant (F := Ideal) Cert.KernelIdeal.S_ .f32 0x00000000#32)) Cert.KernelIdeal.Facts₀.shapeCasts_S64_S1x64) : (⟨Cert.KernelIdeal.S1x64, .f32⟩ : BufTy).Contents (Elt Ideal)) :=
      g15_v594 (F := Ideal) (Cert.KernelIdeal.Gen.W62 m g c) (Cert.ReferenceIdeal.Hand.B_G14b m' c)
  have r15 :
      ((Cert.KernelIdeal.Gen.W68 m g c) (Proc.devRef .tc Cert.KernelIdeal.main_v595) : (⟨Cert.KernelIdeal.S20000x64, .f32⟩ : BufTy).Contents (Elt Ideal)) = (Host.dotGeneral (F := Ideal) (φ₁ := .f32) (φ₂ := .f32) Cert.ReferenceIdeal.dot_S20000x128_S128x64_S20000x64_1_0_0_1_n_n none ((Cert.ReferenceIdeal.Hand.B_G15b m' c) (Proc.devRef .tc Cert.ReferenceIdeal.main_v461)) ((Cert.ReferenceIdeal.Hand.B_G15b m' c) (Proc.devRef .tc Cert.ReferenceIdeal.main_v646))) := by
      have hx : ((Cert.KernelIdeal.Gen.V67 m g) c (Pipeline.arrRef Cert.KernelIdeal.spec15 0) : (⟨Cert.KernelIdeal.S20000x128, .f32⟩ : BufTy).Contents (Elt Ideal)) = (Cert.ReferenceIdeal.Hand.B_G15b m' c) (Proc.devRef .tc Cert.ReferenceIdeal.main_v461) :=
        (@Eq.trans ((⟨Cert.KernelIdeal.S20000x128, .f32⟩ : BufTy).Contents (Elt Ideal)) _ _ _ f67_v401 (Cert.ReferenceIdeal.Hand.stable_G15b m' c Cert.ReferenceIdeal.main_v461 (by decide)))
      have hw : ((Cert.KernelIdeal.Gen.V67 m g) c (Pipeline.arrRef Cert.KernelIdeal.spec15 1) : (⟨Cert.KernelIdeal.S128x64, .f32⟩ : BufTy).Contents (Elt Ideal)) = (Cert.ReferenceIdeal.Hand.B_G15b m' c) (Proc.devRef .tc Cert.ReferenceIdeal.main_v646) :=
        (@Eq.trans ((⟨Cert.KernelIdeal.S128x64, .f32⟩ : BufTy).Contents (Elt Ideal)) _ _ _ f67_v593 (Cert.ReferenceIdeal.Hand.stable_G15b m' c Cert.ReferenceIdeal.main_v646 (by decide)))
      refine (@Eq.trans ((⟨Cert.KernelIdeal.S20000x64, .f32⟩ : BufTy).Contents (Elt Ideal)) _ _ _ (Cert.KernelIdeal.Hand.W68_out m g c) (@Eq.trans ((⟨Cert.KernelIdeal.S20000x64, .f32⟩ : BufTy).Contents (Elt Ideal)) _ _ _ (Cert.KernelIdeal.Hand.lin_15 (Cert.KernelIdeal.Gen.V67 m g) c p67_v594) ?_))
      rw [hx, hw]
  have f73_v652 :
      ((Cert.KernelIdeal.Gen.W73 m g c) (Proc.devRef .tc Cert.KernelIdeal.main_v652) : (⟨Cert.KernelIdeal.S20000x64, .f32⟩ : BufTy).Contents (Elt Ideal)) = (Cert.ReferenceIdeal.Hand.BF m' c) (Proc.devRef .tc Cert.ReferenceIdeal.main_v704) :=
      (@Eq.trans ((⟨Cert.KernelIdeal.S20000x64, .f32⟩ : BufTy).Contents (Elt Ideal)) _ _ _ (g16_v652 (F := Ideal) (Cert.KernelIdeal.Gen.W68 m g c) (Cert.ReferenceIdeal.Hand.B_G15b m' c) (@Eq.trans ((⟨Cert.KernelIdeal.S20000x64, .f32⟩ : BufTy).Contents (Elt Ideal)) _ _ _ f68_v402 (Cert.ReferenceIdeal.Hand.stable_G15b m' c Cert.ReferenceIdeal.main_v462 (by decide))) r15 aw68_G15b_20 aw68_G15b_12) (@Eq.symm ((⟨Cert.KernelIdeal.S20000x64, .f32⟩ : BufTy).Contents (Elt Ideal)) _ _ (Cert.ReferenceIdeal.Hand.stable_G16b m' c Cert.ReferenceIdeal.main_v704 (by decide))))
  have f74_v652 :
      ((Cert.KernelIdeal.Gen.W74 m g c) (Proc.devRef .tc Cert.KernelIdeal.main_v652) : (⟨Cert.KernelIdeal.S20000x64, .f32⟩ : BufTy).Contents (Elt Ideal)) = (Cert.ReferenceIdeal.Hand.BF m' c) (Proc.devRef .tc Cert.ReferenceIdeal.main_v704) :=
      (@Eq.trans ((⟨Cert.KernelIdeal.S20000x64, .f32⟩ : BufTy).Contents (Elt Ideal)) _ _ _ (Cert.KernelIdeal.Hand.carry_main_v652_74 m g c) f73_v652)
  have f73_v655 :
      ((Cert.KernelIdeal.Gen.W73 m g c) (Proc.devRef .tc Cert.KernelIdeal.main_v655) : (⟨Cert.KernelIdeal.S128x64, .f32⟩ : BufTy).Contents (Elt Ideal)) = (Cert.ReferenceIdeal.Hand.BF m' c) (Proc.devRef .tc Cert.ReferenceIdeal.main_v706) :=
      (@Eq.trans ((⟨Cert.KernelIdeal.S128x64, .f32⟩ : BufTy).Contents (Elt Ideal)) _ _ _ (g16_v655 (F := Ideal) (Cert.KernelIdeal.Gen.W68 m g c) (Cert.ReferenceIdeal.Hand.B_G15b m' c) aw68_G15b_11) (@Eq.symm ((⟨Cert.KernelIdeal.S128x64, .f32⟩ : BufTy).Contents (Elt Ideal)) _ _ (Cert.ReferenceIdeal.Hand.stable_G16b m' c Cert.ReferenceIdeal.main_v706 (by decide))))
  have p73_v656 :
      ((Cert.KernelIdeal.Gen.W73 m g c) (Proc.devRef .tc Cert.KernelIdeal.main_v656) : (⟨Cert.KernelIdeal.S1x64, .f32⟩ : BufTy).Contents (Elt Ideal)) = ((shapeCast _ (broadcastInDim Cert.KernelIdeal.S64 ![] Cert.KernelIdeal.Facts₀.bcast_S_S64 (constant (F := Ideal) Cert.KernelIdeal.S_ .f32 0x00000000#32)) Cert.KernelIdeal.Facts₀.shapeCasts_S64_S1x64) : (⟨Cert.KernelIdeal.S1x64, .f32⟩ : BufTy).Contents (Elt Ideal)) :=
      g16_v656 (F := Ideal) (Cert.KernelIdeal.Gen.W68 m g c) (Cert.ReferenceIdeal.Hand.B_G15b m' c)
  have r16 :
      ((Cert.KernelIdeal.Gen.W74 m g c) (Proc.devRef .tc Cert.KernelIdeal.main_v657) : (⟨Cert.KernelIdeal.S60000x64, .f32⟩ : BufTy).Contents (Elt Ideal)) = (Host.dotGeneral (F := Ideal) (φ₁ := .f32) (φ₂ := .f32) Cert.ReferenceIdeal.dot_S60000x128_S128x64_S60000x64_1_0_0_1_n_n none ((Cert.ReferenceIdeal.Hand.B_G16b m' c) (Proc.devRef .tc Cert.ReferenceIdeal.main_v460)) ((Cert.ReferenceIdeal.Hand.B_G16b m' c) (Proc.devRef .tc Cert.ReferenceIdeal.main_v706))) := by
      have hx : ((Cert.KernelIdeal.Gen.V73 m g) c (Pipeline.arrRef Cert.KernelIdeal.spec16 0) : (⟨Cert.KernelIdeal.S60000x128, .f32⟩ : BufTy).Contents (Elt Ideal)) = (Cert.ReferenceIdeal.Hand.B_G16b m' c) (Proc.devRef .tc Cert.ReferenceIdeal.main_v460) :=
        (@Eq.trans ((⟨Cert.KernelIdeal.S60000x128, .f32⟩ : BufTy).Contents (Elt Ideal)) _ _ _ f73_v394 (Cert.ReferenceIdeal.Hand.stable_G16b m' c Cert.ReferenceIdeal.main_v460 (by decide)))
      have hw : ((Cert.KernelIdeal.Gen.V73 m g) c (Pipeline.arrRef Cert.KernelIdeal.spec16 1) : (⟨Cert.KernelIdeal.S128x64, .f32⟩ : BufTy).Contents (Elt Ideal)) = (Cert.ReferenceIdeal.Hand.B_G16b m' c) (Proc.devRef .tc Cert.ReferenceIdeal.main_v706) :=
        (@Eq.trans ((⟨Cert.KernelIdeal.S128x64, .f32⟩ : BufTy).Contents (Elt Ideal)) _ _ _ f73_v655 (Cert.ReferenceIdeal.Hand.stable_G16b m' c Cert.ReferenceIdeal.main_v706 (by decide)))
      refine (@Eq.trans ((⟨Cert.KernelIdeal.S60000x64, .f32⟩ : BufTy).Contents (Elt Ideal)) _ _ _ (Cert.KernelIdeal.Hand.W74_out m g c) (@Eq.trans ((⟨Cert.KernelIdeal.S60000x64, .f32⟩ : BufTy).Contents (Elt Ideal)) _ _ _ (Cert.KernelIdeal.Hand.lin_16 (Cert.KernelIdeal.Gen.V73 m g) c p73_v656) ?_))
      rw [hx, hw]
  have f79_v714 :
      ((Cert.KernelIdeal.Gen.W79 m g c) (Proc.devRef .tc Cert.KernelIdeal.main_v714) : (⟨Cert.KernelIdeal.S20000x64, .f32⟩ : BufTy).Contents (Elt Ideal)) = (Cert.ReferenceIdeal.Hand.BF m' c) (Proc.devRef .tc Cert.ReferenceIdeal.main_v764) :=
      (@Eq.trans ((⟨Cert.KernelIdeal.S20000x64, .f32⟩ : BufTy).Contents (Elt Ideal)) _ _ _ (g17_v714 (F := Ideal) (Cert.KernelIdeal.Gen.W74 m g c) (Cert.ReferenceIdeal.Hand.B_G16b m' c) (@Eq.trans ((⟨Cert.KernelIdeal.S20000x64, .f32⟩ : BufTy).Contents (Elt Ideal)) _ _ _ f74_v652 (Cert.ReferenceIdeal.Hand.stable_G16b m' c Cert.ReferenceIdeal.main_v704 (by decide))) r16 aw74_G16b_21 aw74_G16b_12) (@Eq.symm ((⟨Cert.KernelIdeal.S20000x64, .f32⟩ : BufTy).Contents (Elt Ideal)) _ _ (Cert.ReferenceIdeal.Hand.stable_G17b m' c Cert.ReferenceIdeal.main_v764 (by decide))))
  have f85_v714 :
      ((Cert.KernelIdeal.Gen.W85 m g c) (Proc.devRef .tc Cert.KernelIdeal.main_v714) : (⟨Cert.KernelIdeal.S20000x64, .f32⟩ : BufTy).Contents (Elt Ideal)) = (Cert.ReferenceIdeal.Hand.BF m' c) (Proc.devRef .tc Cert.ReferenceIdeal.main_v764) :=
      (@Eq.trans ((⟨Cert.KernelIdeal.S20000x64, .f32⟩ : BufTy).Contents (Elt Ideal)) _ _ _ (Cert.KernelIdeal.Hand.carry_main_v714_85 m g c) f79_v714)
  have f79_v717 :
      ((Cert.KernelIdeal.Gen.W79 m g c) (Proc.devRef .tc Cert.KernelIdeal.main_v717) : (⟨Cert.KernelIdeal.S128x64, .f32⟩ : BufTy).Contents (Elt Ideal)) = (Cert.ReferenceIdeal.Hand.BF m' c) (Proc.devRef .tc Cert.ReferenceIdeal.main_v766) :=
      (@Eq.trans ((⟨Cert.KernelIdeal.S128x64, .f32⟩ : BufTy).Contents (Elt Ideal)) _ _ _ (g17_v717 (F := Ideal) (Cert.KernelIdeal.Gen.W74 m g c) (Cert.ReferenceIdeal.Hand.B_G16b m' c) aw74_G16b_11) (@Eq.symm ((⟨Cert.KernelIdeal.S128x64, .f32⟩ : BufTy).Contents (Elt Ideal)) _ _ (Cert.ReferenceIdeal.Hand.stable_G17b m' c Cert.ReferenceIdeal.main_v766 (by decide))))
  have p79_v718 :
      ((Cert.KernelIdeal.Gen.W79 m g c) (Proc.devRef .tc Cert.KernelIdeal.main_v718) : (⟨Cert.KernelIdeal.S1x64, .f32⟩ : BufTy).Contents (Elt Ideal)) = ((shapeCast _ (broadcastInDim Cert.KernelIdeal.S64 ![] Cert.KernelIdeal.Facts₀.bcast_S_S64 (constant (F := Ideal) Cert.KernelIdeal.S_ .f32 0x00000000#32)) Cert.KernelIdeal.Facts₀.shapeCasts_S64_S1x64) : (⟨Cert.KernelIdeal.S1x64, .f32⟩ : BufTy).Contents (Elt Ideal)) :=
      g17_v718 (F := Ideal) (Cert.KernelIdeal.Gen.W74 m g c) (Cert.ReferenceIdeal.Hand.B_G16b m' c)
  have r17 :
      ((Cert.KernelIdeal.Gen.W80 m g c) (Proc.devRef .tc Cert.KernelIdeal.main_v719) : (⟨Cert.KernelIdeal.S20000x64, .f32⟩ : BufTy).Contents (Elt Ideal)) = (Host.dotGeneral (F := Ideal) (φ₁ := .f32) (φ₂ := .f32) Cert.ReferenceIdeal.dot_S20000x128_S128x64_S20000x64_1_0_0_1_n_n none ((Cert.ReferenceIdeal.Hand.B_G17b m' c) (Proc.devRef .tc Cert.ReferenceIdeal.main_v461)) ((Cert.ReferenceIdeal.Hand.B_G17b m' c) (Proc.devRef .tc Cert.ReferenceIdeal.main_v766))) := by
      have hx : ((Cert.KernelIdeal.Gen.V79 m g) c (Pipeline.arrRef Cert.KernelIdeal.spec17 0) : (⟨Cert.KernelIdeal.S20000x128, .f32⟩ : BufTy).Contents (Elt Ideal)) = (Cert.ReferenceIdeal.Hand.B_G17b m' c) (Proc.devRef .tc Cert.ReferenceIdeal.main_v461) :=
        (@Eq.trans ((⟨Cert.KernelIdeal.S20000x128, .f32⟩ : BufTy).Contents (Elt Ideal)) _ _ _ f79_v401 (Cert.ReferenceIdeal.Hand.stable_G17b m' c Cert.ReferenceIdeal.main_v461 (by decide)))
      have hw : ((Cert.KernelIdeal.Gen.V79 m g) c (Pipeline.arrRef Cert.KernelIdeal.spec17 1) : (⟨Cert.KernelIdeal.S128x64, .f32⟩ : BufTy).Contents (Elt Ideal)) = (Cert.ReferenceIdeal.Hand.B_G17b m' c) (Proc.devRef .tc Cert.ReferenceIdeal.main_v766) :=
        (@Eq.trans ((⟨Cert.KernelIdeal.S128x64, .f32⟩ : BufTy).Contents (Elt Ideal)) _ _ _ f79_v717 (Cert.ReferenceIdeal.Hand.stable_G17b m' c Cert.ReferenceIdeal.main_v766 (by decide)))
      refine (@Eq.trans ((⟨Cert.KernelIdeal.S20000x64, .f32⟩ : BufTy).Contents (Elt Ideal)) _ _ _ (Cert.KernelIdeal.Hand.W80_out m g c) (@Eq.trans ((⟨Cert.KernelIdeal.S20000x64, .f32⟩ : BufTy).Contents (Elt Ideal)) _ _ _ (Cert.KernelIdeal.Hand.lin_17 (Cert.KernelIdeal.Gen.V79 m g) c p79_v718) ?_))
      rw [hx, hw]
  have f85_v776 :
      ((Cert.KernelIdeal.Gen.W85 m g c) (Proc.devRef .tc Cert.KernelIdeal.main_v776) : (⟨Cert.KernelIdeal.S60000x64, .f32⟩ : BufTy).Contents (Elt Ideal)) = (Cert.ReferenceIdeal.Hand.BF m' c) (Proc.devRef .tc Cert.ReferenceIdeal.main_v824) :=
      (@Eq.trans ((⟨Cert.KernelIdeal.S60000x64, .f32⟩ : BufTy).Contents (Elt Ideal)) _ _ _ (g18_v776 (F := Ideal) (Cert.KernelIdeal.Gen.W80 m g c) (Cert.ReferenceIdeal.Hand.B_G17b m' c) (@Eq.trans ((⟨Cert.KernelIdeal.S60000x64, .f32⟩ : BufTy).Contents (Elt Ideal)) _ _ _ f80_v528 (Cert.ReferenceIdeal.Hand.stable_G17b m' c Cert.ReferenceIdeal.main_v584 (by decide))) r17 aw80_G17b_22 aw80_G17b_12) (@Eq.symm ((⟨Cert.KernelIdeal.S60000x64, .f32⟩ : BufTy).Contents (Elt Ideal)) _ _ (Cert.ReferenceIdeal.Hand.stable_G18b m' c Cert.ReferenceIdeal.main_v824 (by decide))))
  have f87_v776 :
      ((Cert.KernelIdeal.Gen.W87 m g c) (Proc.devRef .tc Cert.KernelIdeal.main_v776) : (⟨Cert.KernelIdeal.S60000x64, .f32⟩ : BufTy).Contents (Elt Ideal)) = (Cert.ReferenceIdeal.Hand.BF m' c) (Proc.devRef .tc Cert.ReferenceIdeal.main_v824) :=
      (@Eq.trans ((⟨Cert.KernelIdeal.S60000x64, .f32⟩ : BufTy).Contents (Elt Ideal)) _ _ _ (Cert.KernelIdeal.Hand.carry_main_v776_87 m g c) f85_v776)
  have p85_v781 :
      ((Cert.KernelIdeal.Gen.W85 m g c) (Proc.devRef .tc Cert.KernelIdeal.main_v781) : (⟨Cert.KernelIdeal.S1x64, .f32⟩ : BufTy).Contents (Elt Ideal)) = ((shapeCast _ ((Cert.ReferenceIdeal.Hand.B_G18b m' c) (Proc.devRef .tc Cert.ReferenceIdeal.main_v826)) Cert.KernelIdeal.Facts₀.shapeCasts_S64_S1x64) : (⟨Cert.KernelIdeal.S1x64, .f32⟩ : BufTy).Contents (Elt Ideal)) :=
      g18_v781 (F := Ideal) (Cert.KernelIdeal.Gen.W80 m g c) (Cert.ReferenceIdeal.Hand.B_G17b m' c) aw80_G17b_15
  have p85_v782 :
      ((Cert.KernelIdeal.Gen.W85 m g c) (Proc.devRef .tc Cert.KernelIdeal.main_v782) : (⟨Cert.KernelIdeal.S1x64, .f32⟩ : BufTy).Contents (Elt Ideal)) = ((shapeCast _ ((Cert.ReferenceIdeal.Hand.B_G18b m' c) (Proc.devRef .tc Cert.ReferenceIdeal.main_v828)) Cert.KernelIdeal.Facts₀.shapeCasts_S64_S1x64) : (⟨Cert.KernelIdeal.S1x64, .f32⟩ : BufTy).Contents (Elt Ideal)) :=
      g18_v782 (F := Ideal) (Cert.KernelIdeal.Gen.W80 m g c) (Cert.ReferenceIdeal.Hand.B_G17b m' c) aw80_G17b_16
  have f86_v783 :
      ((Cert.KernelIdeal.Gen.W86 m g c) (Proc.devRef .tc Cert.KernelIdeal.main_v783) : (⟨Cert.KernelIdeal.S20000x64, .f32⟩ : BufTy).Contents (Elt Ideal)) = (Cert.ReferenceIdeal.Hand.BF m' c) (Proc.devRef .tc Cert.ReferenceIdeal.main_v852) := by
      have hx : ((Cert.KernelIdeal.Gen.V85 m g) c (Pipeline.arrRef Cert.KernelIdeal.spec18 0) : (⟨Cert.KernelIdeal.S20000x64, .f32⟩ : BufTy).Contents (Elt Ideal)) = (Cert.ReferenceIdeal.Hand.B_G18b m' c) (Proc.devRef .tc Cert.ReferenceIdeal.main_v764) :=
        (@Eq.trans ((⟨Cert.KernelIdeal.S20000x64, .f32⟩ : BufTy).Contents (Elt Ideal)) _ _ _ f85_v714 (Cert.ReferenceIdeal.Hand.stable_G18b m' c Cert.ReferenceIdeal.main_v764 (by decide)))
      refine (@Eq.trans ((⟨Cert.KernelIdeal.S20000x64, .f32⟩ : BufTy).Contents (Elt Ideal)) _ _ _ (@Eq.trans ((⟨Cert.KernelIdeal.S20000x64, .f32⟩ : BufTy).Contents (Elt Ideal)) _ _ _ (Cert.KernelIdeal.Hand.W86_out m g c) (@Eq.trans ((⟨Cert.KernelIdeal.S20000x64, .f32⟩ : BufTy).Contents (Elt Ideal)) _ _ _ (Cert.KernelIdeal.Hand.ln_18 (Cert.KernelIdeal.Gen.V85 m g) c ((Cert.ReferenceIdeal.Hand.B_G18b m' c) (Proc.devRef .tc Cert.ReferenceIdeal.main_v826)) ((Cert.ReferenceIdeal.Hand.B_G18b m' c) (Proc.devRef .tc Cert.ReferenceIdeal.main_v828)) p85_v781 p85_v782) ?_)) (@Eq.symm ((⟨Cert.KernelIdeal.S20000x64, .f32⟩ : BufTy).Contents (Elt Ideal)) _ _ (Cert.ReferenceIdeal.Hand.stable_L18 m' c Cert.ReferenceIdeal.main_v852 (by decide))))
      rw [hx]
      exact (@Eq.symm ((⟨Cert.KernelIdeal.S20000x64, .f32⟩ : BufTy).Contents (Elt Ideal)) _ _ (ref_region18 (F := Ideal) (Cert.ReferenceIdeal.Hand.B_G18b m' c)))
  have f90_v783 :
      ((Cert.KernelIdeal.Gen.W90 m g c) (Proc.devRef .tc Cert.KernelIdeal.main_v783) : (⟨Cert.KernelIdeal.S20000x64, .f32⟩ : BufTy).Contents (Elt Ideal)) = (Cert.ReferenceIdeal.Hand.BF m' c) (Proc.devRef .tc Cert.ReferenceIdeal.main_v852) :=
      (@Eq.trans ((⟨Cert.KernelIdeal.S20000x64, .f32⟩ : BufTy).Contents (Elt Ideal)) _ _ _ (Cert.KernelIdeal.Hand.carry_main_v783_90 m g c) f86_v783)
  have p87_v788 :
      ((Cert.KernelIdeal.Gen.W87 m g c) (Proc.devRef .tc Cert.KernelIdeal.main_v788) : (⟨Cert.KernelIdeal.S1x64, .f32⟩ : BufTy).Contents (Elt Ideal)) = ((shapeCast _ ((Cert.ReferenceIdeal.Hand.B_H19 m' c) (Proc.devRef .tc Cert.ReferenceIdeal.main_v854)) Cert.KernelIdeal.Facts₀.shapeCasts_S64_S1x64) : (⟨Cert.KernelIdeal.S1x64, .f32⟩ : BufTy).Contents (Elt Ideal)) :=
      g19_v788 (F := Ideal) (Cert.KernelIdeal.Gen.W86 m g c) (Cert.ReferenceIdeal.Hand.B_L18 m' c) aw86_L18_15
  have p87_v789 :
      ((Cert.KernelIdeal.Gen.W87 m g c) (Proc.devRef .tc Cert.KernelIdeal.main_v789) : (⟨Cert.KernelIdeal.S1x64, .f32⟩ : BufTy).Contents (Elt Ideal)) = ((shapeCast _ ((Cert.ReferenceIdeal.Hand.B_H19 m' c) (Proc.devRef .tc Cert.ReferenceIdeal.main_v856)) Cert.KernelIdeal.Facts₀.shapeCasts_S64_S1x64) : (⟨Cert.KernelIdeal.S1x64, .f32⟩ : BufTy).Contents (Elt Ideal)) :=
      g19_v789 (F := Ideal) (Cert.KernelIdeal.Gen.W86 m g c) (Cert.ReferenceIdeal.Hand.B_L18 m' c) aw86_L18_16
  have f88_v790 :
      ((Cert.KernelIdeal.Gen.W88 m g c) (Proc.devRef .tc Cert.KernelIdeal.main_v790) : (⟨Cert.KernelIdeal.S60000x64, .f32⟩ : BufTy).Contents (Elt Ideal)) = (Cert.ReferenceIdeal.Hand.BF m' c) (Proc.devRef .tc Cert.ReferenceIdeal.main_v880) := by
      have hx : ((Cert.KernelIdeal.Gen.V87 m g) c (Pipeline.arrRef Cert.KernelIdeal.spec19 0) : (⟨Cert.KernelIdeal.S60000x64, .f32⟩ : BufTy).Contents (Elt Ideal)) = (Cert.ReferenceIdeal.Hand.B_H19 m' c) (Proc.devRef .tc Cert.ReferenceIdeal.main_v824) :=
        (@Eq.trans ((⟨Cert.KernelIdeal.S60000x64, .f32⟩ : BufTy).Contents (Elt Ideal)) _ _ _ f87_v776 (Cert.ReferenceIdeal.Hand.stable_H19 m' c Cert.ReferenceIdeal.main_v824 (by decide)))
      refine (@Eq.trans ((⟨Cert.KernelIdeal.S60000x64, .f32⟩ : BufTy).Contents (Elt Ideal)) _ _ _ (@Eq.trans ((⟨Cert.KernelIdeal.S60000x64, .f32⟩ : BufTy).Contents (Elt Ideal)) _ _ _ (Cert.KernelIdeal.Hand.W88_out m g c) (@Eq.trans ((⟨Cert.KernelIdeal.S60000x64, .f32⟩ : BufTy).Contents (Elt Ideal)) _ _ _ (Cert.KernelIdeal.Hand.ln_19 (Cert.KernelIdeal.Gen.V87 m g) c ((Cert.ReferenceIdeal.Hand.B_H19 m' c) (Proc.devRef .tc Cert.ReferenceIdeal.main_v854)) ((Cert.ReferenceIdeal.Hand.B_H19 m' c) (Proc.devRef .tc Cert.ReferenceIdeal.main_v856)) p87_v788 p87_v789) ?_)) (@Eq.symm ((⟨Cert.KernelIdeal.S60000x64, .f32⟩ : BufTy).Contents (Elt Ideal)) _ _ (Cert.ReferenceIdeal.Hand.stable_L19 m' c Cert.ReferenceIdeal.main_v880 (by decide))))
      rw [hx]
      exact (@Eq.symm ((⟨Cert.KernelIdeal.S60000x64, .f32⟩ : BufTy).Contents (Elt Ideal)) _ _ (ref_region19 (F := Ideal) (Cert.ReferenceIdeal.Hand.B_H19 m' c)))
  have f90_v790 :
      ((Cert.KernelIdeal.Gen.W90 m g c) (Proc.devRef .tc Cert.KernelIdeal.main_v790) : (⟨Cert.KernelIdeal.S60000x64, .f32⟩ : BufTy).Contents (Elt Ideal)) = (Cert.ReferenceIdeal.Hand.BF m' c) (Proc.devRef .tc Cert.ReferenceIdeal.main_v880) :=
      (@Eq.trans ((⟨Cert.KernelIdeal.S60000x64, .f32⟩ : BufTy).Contents (Elt Ideal)) _ _ _ (Cert.KernelIdeal.Hand.carry_main_v790_90 m g c) f88_v790)
  have p89_v795 :
      ((Cert.KernelIdeal.Gen.W89 m g c) (Proc.devRef .tc Cert.KernelIdeal.main_v795) : (⟨Cert.KernelIdeal.S1x64, .f32⟩ : BufTy).Contents (Elt Ideal)) = ((shapeCast _ ((Cert.ReferenceIdeal.Hand.B_H20 m' c) (Proc.devRef .tc Cert.ReferenceIdeal.main_v882)) Cert.KernelIdeal.Facts₀.shapeCasts_S64_S1x64) : (⟨Cert.KernelIdeal.S1x64, .f32⟩ : BufTy).Contents (Elt Ideal)) :=
      g20_v795 (F := Ideal) (Cert.KernelIdeal.Gen.W88 m g c) (Cert.ReferenceIdeal.Hand.B_L19 m' c) aw88_L19_15
  have p89_v796 :
      ((Cert.KernelIdeal.Gen.W89 m g c) (Proc.devRef .tc Cert.KernelIdeal.main_v796) : (⟨Cert.KernelIdeal.S1x64, .f32⟩ : BufTy).Contents (Elt Ideal)) = ((shapeCast _ ((Cert.ReferenceIdeal.Hand.B_H20 m' c) (Proc.devRef .tc Cert.ReferenceIdeal.main_v884)) Cert.KernelIdeal.Facts₀.shapeCasts_S64_S1x64) : (⟨Cert.KernelIdeal.S1x64, .f32⟩ : BufTy).Contents (Elt Ideal)) :=
      g20_v796 (F := Ideal) (Cert.KernelIdeal.Gen.W88 m g c) (Cert.ReferenceIdeal.Hand.B_L19 m' c) aw88_L19_16
  have f90_v797 :
      ((Cert.KernelIdeal.Gen.W90 m g c) (Proc.devRef .tc Cert.KernelIdeal.main_v797) : (⟨Cert.KernelIdeal.S20000x64, .f32⟩ : BufTy).Contents (Elt Ideal)) = (Cert.ReferenceIdeal.Hand.BF m' c) (Proc.devRef .tc Cert.ReferenceIdeal.main_v908) := by
      have hx : ((Cert.KernelIdeal.Gen.V89 m g) c (Pipeline.arrRef Cert.KernelIdeal.spec20 0) : (⟨Cert.KernelIdeal.S20000x64, .f32⟩ : BufTy).Contents (Elt Ideal)) = (Cert.ReferenceIdeal.Hand.B_H20 m' c) (Proc.devRef .tc Cert.ReferenceIdeal.main_v644) :=
        (@Eq.trans ((⟨Cert.KernelIdeal.S20000x64, .f32⟩ : BufTy).Contents (Elt Ideal)) _ _ _ f89_v590 (Cert.ReferenceIdeal.Hand.stable_H20 m' c Cert.ReferenceIdeal.main_v644 (by decide)))
      refine (@Eq.trans ((⟨Cert.KernelIdeal.S20000x64, .f32⟩ : BufTy).Contents (Elt Ideal)) _ _ _ (@Eq.trans ((⟨Cert.KernelIdeal.S20000x64, .f32⟩ : BufTy).Contents (Elt Ideal)) _ _ _ (Cert.KernelIdeal.Hand.W90_out m g c) (@Eq.trans ((⟨Cert.KernelIdeal.S20000x64, .f32⟩ : BufTy).Contents (Elt Ideal)) _ _ _ (Cert.KernelIdeal.Hand.ln_20 (Cert.KernelIdeal.Gen.V89 m g) c ((Cert.ReferenceIdeal.Hand.B_H20 m' c) (Proc.devRef .tc Cert.ReferenceIdeal.main_v882)) ((Cert.ReferenceIdeal.Hand.B_H20 m' c) (Proc.devRef .tc Cert.ReferenceIdeal.main_v884)) p89_v795 p89_v796) ?_)) (@Eq.symm ((⟨Cert.KernelIdeal.S20000x64, .f32⟩ : BufTy).Contents (Elt Ideal)) _ _ (Cert.ReferenceIdeal.Hand.stable_L20 m' c Cert.ReferenceIdeal.main_v908 (by decide))))
      rw [hx]
      exact (@Eq.symm ((⟨Cert.KernelIdeal.S20000x64, .f32⟩ : BufTy).Contents (Elt Ideal)) _ _ (ref_region20 (F := Ideal) (Cert.ReferenceIdeal.Hand.B_H20 m' c)))
  exact ⟨f90_v783, f90_v790, f90_v797⟩

end Cert.Bisim

end
-- ==== Proof.lean ====
import proofs.«147021_j7619271983570_1_alg».proof.Defs
import proofs.«147021_j7619271983570_1_alg».proof.Proof.Gen.Kernel
import proofs.«147021_j7619271983570_1_alg».proof.Proof.FrameK_B
import proofs.«147021_j7619271983570_1_alg».proof.Proof.Gen.KernelIdeal
import proofs.«147021_j7619271983570_1_alg».proof.Proof.FrameKI_B
import proofs.«147021_j7619271983570_1_alg».proof.Proof.Gen.ReferenceIdeal
import proofs.«147021_j7619271983570_1_alg».proof.Proof.Gen.Pre_finite_inputs
import proofs.«147021_j7619271983570_1_alg».proof.Proof.KRun
import proofs.«147021_j7619271983570_1_alg».proof.Proof.Ref.Run
import proofs.«147021_j7619271983570_1_alg».proof.Proof.AgreeAll
import Idealize.ShloMosaic.Adequacy
import Idealize.ShloMosaic.Init

/-! The certificate of the heterogeneous graph network: three input projections, then two layers, each of six
    relation-wise graph convolutions (a matrix product in a pallas region; degrees, symmetric normalisation,
    gather, scatter-sum and bias on the host) summed per node type and normalised row by row (a pallas region),
    against the same network in plain array operations.
    The frames of the two kernel programs are the generated frame modules' (in the two-part copies that build); the reference's frame is its run with the
    results dropped. The ideal pass rewrote nothing, so `preserves` is trivial. For the algebraic claim both
    programs are run with their results named (the kernel program's as the last contents of its fold, the
    reference's as the fold of its operations), and the two folds agree at the three results: every host
    operation is the same on both sides, a projection region equals the product plus the broadcast bias, a
    relation's region equals the product (its bias row is zero), and a LayerNorm region equals the reference's
    mean / variance / inverse-square-root chain entry by entry. No law of the reals beyond `x + 0 = x` is used,
    so the precondition is never opened. -/

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Hand.run (F := Ideal) m ρ)

theorem preserves : Cert.preserves_Kernel_KernelIdeal := trivial

theorem algebraic : Cert.algebraic_KernelIdeal_ReferenceIdeal := by
  intro m g m' g' _ hagree
  refine ⟨fun c => Cert.KernelIdeal.Gen.W90 m g c (Proc.devRef .tc Cert.KernelIdeal.main_v783),
    fun c => Cert.KernelIdeal.Gen.W90 m g c (Proc.devRef .tc Cert.KernelIdeal.main_v790),
    fun c => Cert.KernelIdeal.Gen.W90 m g c (Proc.devRef .tc Cert.KernelIdeal.main_v797),
    Cert.KernelIdeal.Hand.run (F := Ideal) m g, ?_⟩
  refine (θ_run Cert.ReferenceIdeal.defs _ _).mono (fun _ h c => ⟨(h c).1.trans ?_, (h c).2.1.trans ?_, (h c).2.2.1.trans ?_, (h c).2.2.2⟩)
    (Cert.ReferenceIdeal.Hand.run (F := Ideal) m' g')
  · exact (Cert.Bisim.core m g m' c (hagree c)).1.symm
  · exact (Cert.Bisim.core m g m' c (hagree c)).2.1.symm
  · exact (Cert.Bisim.core m g m' c (hagree c)).2.2.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
